-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v637) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S8x128x32x32x32 : Shape := ⟨5, ![8, 128, 32, 32, 32]⟩
abbrev S128x3 : Shape := ⟨2, ![128, 3]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x128x32x32x32 : S_.BroadcastsInDim S8x128x32x32x32 (![] : Fin 0 → Fin S8x128x32x32x32.rank)
  reducesTo_S8x128x32x32x32_S_d0_1_2_3_4 : S8x128x32x32x32.ReducesTo [0, 1, 2, 3, 4] S_
  bcast_S_S128x3 : S_.BroadcastsInDim S128x3 (![] : Fin 0 → Fin S128x3.rank)
  reducesTo_S128x3_S_d0_1 : S128x3.ReducesTo [0, 1] S_

variable [Facts]

def fn_part1 {F : FTy → Type} [FloatOps F] (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  main_v18

def fn {F : FTy → Type} [FloatOps F] (main_arg0 : FVec F S8x2048x128 .f32) (main_arg1 : FVec F S8x2048x2048 .f32) (main_arg2 : FVec F S8x128x32x32x32 .f32) (main_arg3 : FVec F S128x3 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x128x32x32x32 .f32 := Host.absf main_arg2
  let main_cst_2 : FVec F S_ .f32 := constant S_ .f32 0x7F800000#32
  let main_v10 : FVec F S8x128x32x32x32 .f32 := broadcastInDim S8x128x32x32x32 ![] bcast_S_S8x128x32x32x32 main_cst_2
  let main_v11 : IVec S8x128x32x32x32 1 := cmpf .olt main_v9 main_v10
  let main_c_3 : IVec S_ 1 := constantI S_ 1 1#1
  let main_v12 : IVec S_ 1 := (fun x v => Host.reduce IntOp.andi x v reducesTo_S8x128x32x32x32_S_d0_1_2_3_4 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_v13 main_v16
-- ==== Kernel.lean ====
abbrev S8x2048x128 : Shape := ⟨3, ![8, 2048, 128]⟩
abbrev S8x2048x2048 : Shape := ⟨3, ![8, 2048, 2048]⟩
abbrev S8x128x32x32x32 : Shape := ⟨5, ![8, 128, 32, 32, 32]⟩
abbrev S128x3 : Shape := ⟨2, ![128, 3]⟩
abbrev S8x2048x3 : Shape := ⟨3, ![8, 2048, 3]⟩
abbrev S8x2048x8 : Shape := ⟨3, ![8, 2048, 8]⟩
abbrev S1x512x2048 : Shape := ⟨3, ![1, 512, 2048]⟩
abbrev S1x2048x128 : Shape := ⟨3, ![1, 2048, 128]⟩
abbrev S1x512x3 : Shape := ⟨3, ![1, 512, 3]⟩
abbrev S1x512x128 : Shape := ⟨3, ![1, 512, 128]⟩
abbrev S1x512x8 : Shape := ⟨3, ![1, 512, 8]⟩
abbrev S512x2048 : Shape := ⟨2, ![512, 2048]⟩
abbrev S2048x128 : Shape := ⟨2, ![2048, 128]⟩
abbrev S512x128 : Shape := ⟨2, ![512, 128]⟩
abbrev S512x3 : Shape := ⟨2, ![512, 3]⟩
abbrev S512x1 : Shape := ⟨2, ![512, 1]⟩
abbrev S512x8 : Shape := ⟨2, ![512, 8]⟩
abbrev S8x128x32768 : Shape := ⟨3, ![8, 128, 32768]⟩
abbrev S8x32768x128 : Shape := ⟨3, ![8, 32768, 128]⟩
abbrev S262144x128 : Shape := ⟨2, ![262144, 128]⟩
abbrev S32x32x128 : Shape := ⟨3, ![32, 32, 128]⟩
abbrev S16384x128 : Shape := ⟨2, ![16384, 128]⟩
abbrev S32x128 : Shape := ⟨2, ![32, 128]⟩
abbrev S4x16x128 : Shape := ⟨3, ![4, 16, 128]⟩
abbrev S4x128x128 : Shape := ⟨3, ![4, 128, 128]⟩
abbrev S_ : Shape := ⟨0, ![]⟩
abbrev S1x32x128 : Shape := ⟨3, ![1, 32, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x16x128 : Shape := ⟨3, ![1, 16, 128]⟩
abbrev S16x128 : Shape := ⟨2, ![16, 128]⟩
abbrev S1x1x16 : Shape := ⟨3, ![1, 1, 16]⟩
abbrev S16 : Shape := ⟨1, ![16]⟩
abbrev S8x2048x259 : Shape := ⟨3, ![8, 2048, 259]⟩

abbrev nBuf : Table → Nat
  | .hbm => 15
  | .local .tc .vmem => 11
  | .local .scVector .vmem => 4
  | _ => 0

abbrev bufTy : (tb : Table) → Fin (nBuf tb) → BufTy
  | .hbm, ⟨0, _⟩ => ⟨S8x2048x128, .f32⟩
  | .hbm, ⟨1, _⟩ => ⟨S8x2048x2048, .f32⟩
  | .hbm, ⟨2, _⟩ => ⟨S8x128x32x32x32, .f32⟩
  | .hbm, ⟨3, _⟩ => ⟨S128x3, .f32⟩
  | .hbm, ⟨4, _⟩ => ⟨S8x2048x3, .f32⟩
  | .hbm, ⟨5, _⟩ => ⟨S8x2048x128, .f32⟩
  | .hbm, ⟨6, _⟩ => ⟨S8x2048x8, .i32⟩
  | .hbm, ⟨7, _⟩ => ⟨S8x128x32768, .f32⟩
  | .hbm, ⟨8, _⟩ => ⟨S8x32768x128, .f32⟩
  | .hbm, ⟨9, _⟩ => ⟨S262144x128, .f32⟩
  | .hbm, ⟨10, _⟩ => ⟨S32x32x128, .i32⟩
  | .hbm, ⟨11, _⟩ => ⟨S16384x128, .f32⟩
  | .hbm, ⟨12, _⟩ => ⟨S16384x128, .f32⟩
  | .hbm, ⟨13, _⟩ => ⟨S8x2048x128, .f32⟩
  | .hbm, ⟨14, _⟩ => ⟨S8x2048x259, .f32⟩
  | .local .tc .vmem, ⟨0, _⟩ => ⟨S1x512x2048, .f32⟩
  | .local .tc .vmem, ⟨1, _⟩ => ⟨S1x512x2048, .f32⟩
  | .local .tc .vmem, ⟨2, _⟩ => ⟨S1x2048x128, .f32⟩
  | .local .tc .vmem, ⟨3, _⟩ => ⟨S1x2048x128, .f32⟩
  | .local .tc .vmem, ⟨4, _⟩ => ⟨S128x3, .f32⟩
  | .local .tc .vmem, ⟨5, _⟩ => ⟨S1x512x3, .f32⟩
  | .local .tc .vmem, ⟨6, _⟩ => ⟨S1x512x3, .f32⟩
  | .local .tc .vmem, ⟨7, _⟩ => ⟨S1x512x128, .f32⟩
  | .local .tc .vmem, ⟨8, _⟩ => ⟨S1x512x128, .f32⟩
  | .local .tc .vmem, ⟨9, _⟩ => ⟨S1x512x8, .i32⟩
  | .local .tc .vmem, ⟨10, _⟩ => ⟨S1x512x8, .i32⟩
  | .local .scVector .vmem, ⟨0, _⟩ => ⟨S32x128, .i32⟩
  | .local .scVector .vmem, ⟨1, _⟩ => ⟨S4x16x128, .f32⟩
  | .local .scVector .vmem, ⟨2, _⟩ => ⟨S4x128x128, .f32⟩
  | .local .scVector .vmem, ⟨3, _⟩ => ⟨S4x16x128, .f32⟩
  | _, _ => ⟨S8x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v3_scv : Ref sig .scVector := ⟨.hbm, 9, rfl⟩
abbrev main_v4_scv : Ref sig .scVector := ⟨.hbm, 10, rfl⟩
abbrev main_v5_scv : Ref sig .scVector := ⟨.hbm, 11, rfl⟩
abbrev main_v6_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_86_r0 : BitVec 32 := 0#32
  let c0_i32_87_r0 : BitVec 32 := 0#32
  ![v1.toNat, 0, 0]
def k1_off2 (i : grid1.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v8 : BitVec 32 := Scalar.addi v2 c0_i32_6
  let c0_i32_10 : BitVec 32 := 0#32
  ![v8.toNat, 0]
@[reducible] def k1_t1_loop : Scf.Loop 32 :=
  let c0_i32_55 : BitVec 32 := 0#32
  let c8_i32 : BitVec 32 := 8#32
  let v51 : BitVec 32 := Scalar.addi c0_i32_55 c8_i32
  let c1_i32_56 : BitVec 32 := 1#32
  ⟨c0_i32_55, v51, c1_i32_56⟩
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_97 : BitVec 32 := 0#32
  ![v2.toNat, 0]
def k1_cond1 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c0_i32_101 : BitVec 32 := 0#32
  let v89 : BitVec 1 := Scalar.cmpi .sgt arg22 c0_i32_101
  let v90 : BitVec 32 := Scalar.extui v89
  let c0_i32_102 : BitVec 32 := 0#32
  let v91 : BitVec 1 := Scalar.cmpi .ne v90 c0_i32_102
  v91

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_224 : BitVec 32 := 0#32
  ![v2.toNat, 0]
@[reducible] def k1_t2_loop : Scf.Loop 32 :=
  let c0_i32_104 : BitVec 32 := 0#32
  let c16_i32_105 : BitVec 32 := 16#32
  let v92 : BitVec 32 := Scalar.addi c0_i32_104 c16_i32_105
  let c1_i32_106 : BitVec 32 := 1#32
  ⟨c0_i32_104, v92, c1_i32_106⟩
def k1_off5 (k1_t2 : Fin k1_t2_loop.trips) : Fin 3 → Nat :=
  let c0_i32_221 : BitVec 32 := 0#32
  let v192 : Index := Scalar.indexCast c0_i32_221
  let c0_i32_104 : BitVec 32 := 0#32
  let c1_i32_106 : BitVec 32 := 1#32
  let arg23 : BitVec 32 := Scf.iv c0_i32_104 c1_i32_106 k1_t2
  let v193 : Index := Scalar.indexCast arg23
  let c0 : Index := 0#32
  ![0, v193.toNat, 0]
def k1_off6 (k1_t2 : Fin k1_t2_loop.trips) : Fin 3 → Nat :=
  let c0_i32_222 : BitVec 32 := 0#32
  let v196 : Index := Scalar.indexCast c0_i32_222
  let c0_i32_104 : BitVec 32 := 0#32
  let c1_i32_106 : BitVec 32 := 1#32
  let arg23 : BitVec 32 := Scf.iv c0_i32_104 c1_i32_106 k1_t2
  let v197 : Index := Scalar.indexCast arg23
  let c16 : Index := 16#32
  ![0, v197.toNat, 16]
def k1_off7 (k1_t2 : Fin k1_t2_loop.trips) : Fin 3 → Nat :=
  let c0_i32_223 : BitVec 32 := 0#32
  let v200 : Index := Scalar.indexCast c0_i32_223
  let c0_i32_104 : BitVec 32 := 0#32
  let c1_i32_106 : BitVec 32 := 1#32
  let arg23 : BitVec 32 := Scf.iv c0_i32_104 c1_i32_106 k1_t2
  let v201 : Index := Scalar.indexCast arg23
  let c32 : Index := 32#32
  ![0, v201.toNat, 32]
def k1_off8 (k1_t2 : Fin k1_t2_loop.trips) : Fin 3 → Nat :=
  let c0_i32_224 : BitVec 32 := 0#32
  let v204 : Index := Scalar.indexCast c0_i32_224
  let c0_i32_104 : BitVec 32 := 0#32
  let c1_i32_106 : BitVec 32 := 1#32
  let arg23 : BitVec 32 := Scf.iv c0_i32_104 c1_i32_106 k1_t2
  let v205 : Index := Scalar.indexCast arg23
  let c48 : Index := 48#32
  ![0, v205.toNat, 48]
def k1_off9 (k1_t2 : Fin k1_t2_loop.trips) : Fin 3 → Nat :=
  let c0_i32_225 : BitVec 32 := 0#32
  let v208 : Index := Scalar.indexCast c0_i32_225
  let c0_i32_104 : BitVec 32 := 0#32
  let c1_i32_106 : BitVec 32 := 1#32
  let arg23 : BitVec 32 := Scf.iv c0_i32_104 c1_i32_106 k1_t2
  let v209 : Index := Scalar.indexCast arg23
  let c64 : Index := 64#32
  ![0, v209.toNat, 64]
def k1_off10 (k1_t2 : Fin k1_t2_loop.trips) : Fin 3 → Nat :=
  let c0_i32_226 : BitVec 32 := 0#32
  let v212 : Index := Scalar.indexCast c0_i32_226
  let c0_i32_104 : BitVec 32 := 0#32
  let c1_i32_106 : BitVec 32 := 1#32
  let arg23 : BitVec 32 := Scf.iv c0_i32_104 c1_i32_106 k1_t2
  let v213 : Index := Scalar.indexCast arg23
  let c80 : Index := 80#32
  ![0, v213.toNat, 80]
def k1_off11 (k1_t2 : Fin k1_t2_loop.trips) : Fin 3 → Nat :=
  let c0_i32_227 : BitVec 32 := 0#32
  let v216 : Index := Scalar.indexCast c0_i32_227
  let c0_i32_104 : BitVec 32 := 0#32
  let c1_i32_106 : BitVec 32 := 1#32
  let arg23 : BitVec 32 := Scf.iv c0_i32_104 c1_i32_106 k1_t2
  let v217 : Index := Scalar.indexCast arg23
  let c96 : Index := 96#32
  ![0, v217.toNat, 96]
def k1_off12 (k1_t2 : Fin k1_t2_loop.trips) : Fin 3 → Nat :=
  let c0_i32_228 : BitVec 32 := 0#32
  let v220 : Index := Scalar.indexCast c0_i32_228
  let c0_i32_104 : BitVec 32 := 0#32
  let c1_i32_106 : BitVec 32 := 1#32
  let arg23 : BitVec 32 := Scf.iv c0_i32_104 c1_i32_106 k1_t2
  let v221 : Index := Scalar.indexCast arg23
  let c112 : Index := 112#32
  ![0, v221.toNat, 112]
def k1_off13 (k1_t2 : Fin k1_t2_loop.trips) (c0_i32_230 : BitVec 32) : Fin 3 → Nat :=
  let c0_i32_231 : BitVec 32 := 0#32
  let v226 : Index := Scalar.indexCast c0_i32_231
  let c0_i32_104 : BitVec 32 := 0#32
  let c1_i32_106 : BitVec 32 := 1#32
  let arg23 : BitVec 32 := Scf.iv c0_i32_104 c1_i32_106 k1_t2
  let c8_i32_229 : BitVec 32 := 8#32
  let v224 : BitVec 32 := Scalar.muli arg23 c8_i32_229
  let v225 : BitVec 32 := Scalar.addi v224 c0_i32_230
  let v227 : Index := Scalar.indexCast v225
  let c0_232 : Index := 0#32
  ![0, v227.toNat, 0]
def k1_off14 (k1_t2 : Fin k1_t2_loop.trips) (c0_i32_261 : BitVec 32) : Fin 3 → Nat :=
  let c0_i32_262 : BitVec 32 := 0#32
  let v294 : Index := Scalar.indexCast c0_i32_262
  let c0_i32_104 : BitVec 32 := 0#32
  let c1_i32_106 : BitVec 32 := 1#32
  let arg23 : BitVec 32 := Scf.iv c0_i32_104 c1_i32_106 k1_t2
  let c8_i32_260 : BitVec 32 := 8#32
  let v292 : BitVec 32 := Scalar.muli arg23 c8_i32_260
  let v293 : BitVec 32 := Scalar.addi v292 c0_i32_261
  let v295 : Index := Scalar.indexCast v293
  let c16_263 : Index := 16#32
  ![0, v295.toNat, 16]
def k1_off15 (k1_t2 : Fin k1_t2_loop.trips) (c0_i32_295 : BitVec 32) : Fin 3 → Nat :=
  let c0_i32_296 : BitVec 32 := 0#32
  let v362 : Index := Scalar.indexCast c0_i32_296
  let c0_i32_104 : BitVec 32 := 0#32
  let c1_i32_106 : BitVec 32 := 1#32
  let arg23 : BitVec 32 := Scf.iv c0_i32_104 c1_i32_106 k1_t2
  let c8_i32_294 : BitVec 32 := 8#32
  let v360 : BitVec 32 := Scalar.muli arg23 c8_i32_294
  let v361 : BitVec 32 := Scalar.addi v360 c0_i32_295
  let v363 : Index := Scalar.indexCast v361
  let c32_297 : Index := 32#32
  ![0, v363.toNat, 32]
def k1_off16 (k1_t2 : Fin k1_t2_loop.trips) (c0_i32_329 : BitVec 32) : Fin 3 → Nat :=
  let c0_i32_330 : BitVec 32 := 0#32
  let v430 : Index := Scalar.indexCast c0_i32_330
  let c0_i32_104 : BitVec 32 := 0#32
  let c1_i32_106 : BitVec 32 := 1#32
  let arg23 : BitVec 32 := Scf.iv c0_i32_104 c1_i32_106 k1_t2
  let c8_i32_328 : BitVec 32 := 8#32
  let v428 : BitVec 32 := Scalar.muli arg23 c8_i32_328
  let v429 : BitVec 32 := Scalar.addi v428 c0_i32_329
  let v431 : Index := Scalar.indexCast v429
  let c48_331 : Index := 48#32
  ![0, v431.toNat, 48]
def k1_off17 (k1_t2 : Fin k1_t2_loop.trips) (c0_i32_363 : BitVec 32) : Fin 3 → Nat :=
  let c0_i32_364 : BitVec 32 := 0#32
  let v498 : Index := Scalar.indexCast c0_i32_364
  let c0_i32_104 : BitVec 32 := 0#32
  let c1_i32_106 : BitVec 32 := 1#32
  let arg23 : BitVec 32 := Scf.iv c0_i32_104 c1_i32_106 k1_t2
  let c8_i32_362 : BitVec 32 := 8#32
  let v496 : BitVec 32 := Scalar.muli arg23 c8_i32_362
  let v497 : BitVec 32 := Scalar.addi v496 c0_i32_363
  let v499 : Index := Scalar.indexCast v497
  let c64_365 : Index := 64#32
  ![0, v499.toNat, 64]
def k1_off18 (k1_t2 : Fin k1_t2_loop.trips) (c0_i32_397 : BitVec 32) : Fin 3 → Nat :=
  let c0_i32_398 : BitVec 32 := 0#32
  let v566 : Index := Scalar.indexCast c0_i32_398
  let c0_i32_104 : BitVec 32 := 0#32
  let c1_i32_106 : BitVec 32 := 1#32
  let arg23 : BitVec 32 := Scf.iv c0_i32_104 c1_i32_106 k1_t2
  let c8_i32_396 : BitVec 32 := 8#32
  let v564 : BitVec 32 := Scalar.muli arg23 c8_i32_396
  let v565 : BitVec 32 := Scalar.addi v564 c0_i32_397
  let v567 : Index := Scalar.indexCast v565
  let c80_399 : Index := 80#32
  ![0, v567.toNat, 80]
def k1_off19 (k1_t2 : Fin k1_t2_loop.trips) (c0_i32_431 : BitVec 32) : Fin 3 → Nat :=
  let c0_i32_432 : BitVec 32 := 0#32
  let v634 : Index := Scalar.indexCast c0_i32_432
  let c0_i32_104 : BitVec 32 := 0#32
  let c1_i32_106 : BitVec 32 := 1#32
  let arg23 : BitVec 32 := Scf.iv c0_i32_104 c1_i32_106 k1_t2
  let c8_i32_430 : BitVec 32 := 8#32
  let v632 : BitVec 32 := Scalar.muli arg23 c8_i32_430
  let v633 : BitVec 32 := Scalar.addi v632 c0_i32_431
  let v635 : Index := Scalar.indexCast v633
  let c96_433 : Index := 96#32
  ![0, v635.toNat, 96]
def k1_off20 (k1_t2 : Fin k1_t2_loop.trips) (c0_i32_465 : BitVec 32) : Fin 3 → Nat :=
  let c0_i32_466 : BitVec 32 := 0#32
  let v702 : Index := Scalar.indexCast c0_i32_466
  let c0_i32_104 : BitVec 32 := 0#32
  let c1_i32_106 : BitVec 32 := 1#32
  let arg23 : BitVec 32 := Scf.iv c0_i32_104 c1_i32_106 k1_t2
  let c8_i32_464 : BitVec 32 := 8#32
  let v700 : BitVec 32 := Scalar.muli arg23 c8_i32_464
  let v701 : BitVec 32 := Scalar.addi v700 c0_i32_465
  let v703 : Index := Scalar.indexCast v701
  let c112_467 : Index := 112#32
  ![0, v703.toNat, 112]
def k1_cond2 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c4_i32 : BitVec 32 := 4#32
  let v76 : BitVec 32 := Scalar.muli arg22 c4_i32
  let c0_i32_86 : BitVec 32 := 0#32
  let v77 : BitVec 32 := Scalar.addi v76 c0_i32_86
  let c4_i32_108 : BitVec 32 := 4#32
  let v93 : BitVec 32 := Scalar.addi v77 c4_i32_108
  let c32_i32_109 : BitVec 32 := 32#32
  let v94 : BitVec 1 := Scalar.cmpi .slt v93 c32_i32_109
  let v95 : BitVec 32 := Scalar.extui v94
  let c0_i32_110 : BitVec 32 := 0#32
  let v96 : BitVec 1 := Scalar.cmpi .ne v95 c0_i32_110
  v96

def k1_off21 (k1_t1 : Fin k1_t1_loop.trips) : Fin 2 → Nat :=
  let c0_i32_55 : BitVec 32 := 0#32
  let c1_i32_56 : BitVec 32 := 1#32
  let arg22 : BitVec 32 := Scf.iv c0_i32_55 c1_i32_56 k1_t1
  let c4_i32 : BitVec 32 := 4#32
  let v76 : BitVec 32 := Scalar.muli arg22 c4_i32
  let c0_i32_86 : BitVec 32 := 0#32
  let v77 : BitVec 32 := Scalar.addi v76 c0_i32_86
  let c4_i32_221 : BitVec 32 := 4#32
  let v192 : BitVec 32 := Scalar.addi v77 c4_i32_221
  let c0_i32_225 : BitVec 32 := 0#32
  ![v192.toNat, 0]
def k1_off22 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let c1_i32_56 : BitVec 32 := 1#32
  let arg22 : BitVec 32 := Scf.iv c0_i32_55 c1_i32_56 k1_t1
  let c4_i32 : BitVec 32 := 4#32
  let v76 : BitVec 32 := Scalar.muli arg22 c4_i32
  let c0_i32_86 : BitVec 32 := 0#32
  let v77 : BitVec 32 := Scalar.addi v76 c0_i32_86
  let c4_i32_221 : BitVec 32 := 4#32
  let v192 : BitVec 32 := Scalar.addi v77 c4_i32_221
  let c16_i32_228 : BitVec 32 := 16#32
  let v198 : BitVec 32 := Scalar.muli v192 c16_i32_228
  let v199 : BitVec 32 := Scalar.addi v2 v198
  let c0_i32_232 : BitVec 32 := 0#32
  ![v199.toNat, 0]
def k1_off23 (i : grid1.Coords) (k1_t1 : Fin k1_t1_loop.trips) (c0_i32_86 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let c1_i32_56 : BitVec 32 := 1#32
  let arg22 : BitVec 32 := Scf.iv c0_i32_55 c1_i32_56 k1_t1
  let c4_i32 : BitVec 32 := 4#32
  let v76 : BitVec 32 := Scalar.muli arg22 c4_i32
  let v77 : BitVec 32 := Scalar.addi v76 c0_i32_86
  let c16_i32_111 : BitVec 32 := 16#32
  let v97 : BitVec 32 := Scalar.muli v77 c16_i32_111
  let v98 : BitVec 32 := Scalar.addi v2 v97
  let c0_i32_115 : BitVec 32 := 0#32
  ![v98.toNat, 0]
def k1_cond3 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c0_i32_135 : BitVec 32 := 0#32
  let v118 : BitVec 1 := Scalar.cmpi .sgt arg22 c0_i32_135
  let v119 : BitVec 32 := Scalar.extui v118
  let c0_i32_136 : BitVec 32 := 0#32
  let v120 : BitVec 1 := Scalar.cmpi .ne v119 c0_i32_136
  v120

def k1_off24 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_224 : BitVec 32 := 0#32
  ![v2.toNat, 0]
@[reducible] def k1_t3_loop : Scf.Loop 32 :=
  let c0_i32_138 : BitVec 32 := 0#32
  let c16_i32_139 : BitVec 32 := 16#32
  let v121 : BitVec 32 := Scalar.addi c0_i32_138 c16_i32_139
  let c1_i32_140 : BitVec 32 := 1#32
  ⟨c0_i32_138, v121, c1_i32_140⟩
def k1_off25 (k1_t3 : Fin k1_t3_loop.trips) : Fin 3 → Nat :=
  let c1_i32_221 : BitVec 32 := 1#32
  let v192 : Index := Scalar.indexCast c1_i32_221
  let c0_i32_138 : BitVec 32 := 0#32
  let c1_i32_140 : BitVec 32 := 1#32
  let arg23 : BitVec 32 := Scf.iv c0_i32_138 c1_i32_140 k1_t3
  let v193 : Index := Scalar.indexCast arg23
  let c0 : Index := 0#32
  ![1, v193.toNat, 0]
def k1_off26 (k1_t3 : Fin k1_t3_loop.trips) : Fin 3 → Nat :=
  let c1_i32_222 : BitVec 32 := 1#32
  let v196 : Index := Scalar.indexCast c1_i32_222
  let c0_i32_138 : BitVec 32 := 0#32
  let c1_i32_140 : BitVec 32 := 1#32
  let arg23 : BitVec 32 := Scf.iv c0_i32_138 c1_i32_140 k1_t3
  let v197 : Index := Scalar.indexCast arg23
  let c16 : Index := 16#32
  ![1, v197.toNat, 16]
def k1_off27 (k1_t3 : Fin k1_t3_loop.trips) : Fin 3 → Nat :=
  let c1_i32_223 : BitVec 32 := 1#32
  let v200 : Index := Scalar.indexCast c1_i32_223
  let c0_i32_138 : BitVec 32 := 0#32
  let c1_i32_140 : BitVec 32 := 1#32
  let arg23 : BitVec 32 := Scf.iv c0_i32_138 c1_i32_140 k1_t3
  let v201 : Index := Scalar.indexCast arg23
  let c32 : Index := 32#32
  ![1, v201.toNat, 32]
def k1_off28 (k1_t3 : Fin k1_t3_loop.trips) : Fin 3 → Nat :=
  let c1_i32_224 : BitVec 32 := 1#32
  let v204 : Index := Scalar.indexCast c1_i32_224
  let c0_i32_138 : BitVec 32 := 0#32
  let c1_i32_140 : BitVec 32 := 1#32
  let arg23 : BitVec 32 := Scf.iv c0_i32_138 c1_i32_140 k1_t3
  let v205 : Index := Scalar.indexCast arg23
  let c48 : Index := 48#32
  ![1, v205.toNat, 48]
def k1_off29 (k1_t3 : Fin k1_t3_loop.trips) : Fin 3 → Nat :=
  let c1_i32_225 : BitVec 32 := 1#32
  let v208 : Index := Scalar.indexCast c1_i32_225
  let c0_i32_138 : BitVec 32 := 0#32
  let c1_i32_140 : BitVec 32 := 1#32
  let arg23 : BitVec 32 := Scf.iv c0_i32_138 c1_i32_140 k1_t3
  let v209 : Index := Scalar.indexCast arg23
  let c64 : Index := 64#32
  ![1, v209.toNat, 64]
def k1_off30 (k1_t3 : Fin k1_t3_loop.trips) : Fin 3 → Nat :=
  let c1_i32_226 : BitVec 32 := 1#32
  let v212 : Index := Scalar.indexCast c1_i32_226
  let c0_i32_138 : BitVec 32 := 0#32
  let c1_i32_140 : BitVec 32 := 1#32
  let arg23 : BitVec 32 := Scf.iv c0_i32_138 c1_i32_140 k1_t3
  let v213 : Index := Scalar.indexCast arg23
  let c80 : Index := 80#32
  ![1, v213.toNat, 80]
def k1_off31 (k1_t3 : Fin k1_t3_loop.trips) : Fin 3 → Nat :=
  let c1_i32_227 : BitVec 32 := 1#32
  let v216 : Index := Scalar.indexCast c1_i32_227
  let c0_i32_138 : BitVec 32 := 0#32
  let c1_i32_140 : BitVec 32 := 1#32
  let arg23 : BitVec 32 := Scf.iv c0_i32_138 c1_i32_140 k1_t3
  let v217 : Index := Scalar.indexCast arg23
  let c96 : Index := 96#32
  ![1, v217.toNat, 96]
def k1_off32 (k1_t3 : Fin k1_t3_loop.trips) : Fin 3 → Nat :=
  let c1_i32_228 : BitVec 32 := 1#32
  let v220 : Index := Scalar.indexCast c1_i32_228
  let c0_i32_138 : BitVec 32 := 0#32
  let c1_i32_140 : BitVec 32 := 1#32
  let arg23 : BitVec 32 := Scf.iv c0_i32_138 c1_i32_140 k1_t3
  let v221 : Index := Scalar.indexCast arg23
  let c112 : Index := 112#32
  ![1, v221.toNat, 112]
def k1_off33 (k1_t3 : Fin k1_t3_loop.trips) (c0_i32_230 : BitVec 32) : Fin 3 → Nat :=
  let c1_i32_231 : BitVec 32 := 1#32
  let v226 : Index := Scalar.indexCast c1_i32_231
  let c0_i32_138 : BitVec 32 := 0#32
  let c1_i32_140 : BitVec 32 := 1#32
  let arg23 : BitVec 32 := Scf.iv c0_i32_138 c1_i32_140 k1_t3
  let c8_i32_229 : BitVec 32 := 8#32
  let v224 : BitVec 32 := Scalar.muli arg23 c8_i32_229
  let v225 : BitVec 32 := Scalar.addi v224 c0_i32_230
  let v227 : Index := Scalar.indexCast v225
  let c0_232 : Index := 0#32
  ![1, v227.toNat, 0]
def k1_off34 (k1_t3 : Fin k1_t3_loop.trips) (c0_i32_261 : BitVec 32) : Fin 3 → Nat :=
  let c1_i32_262 : BitVec 32 := 1#32
  let v294 : Index := Scalar.indexCast c1_i32_262
  let c0_i32_138 : BitVec 32 := 0#32
  let c1_i32_140 : BitVec 32 := 1#32
  let arg23 : BitVec 32 := Scf.iv c0_i32_138 c1_i32_140 k1_t3
  let c8_i32_260 : BitVec 32 := 8#32
  let v292 : BitVec 32 := Scalar.muli arg23 c8_i32_260
  let v293 : BitVec 32 := Scalar.addi v292 c0_i32_261
  let v295 : Index := Scalar.indexCast v293
  let c16_263 : Index := 16#32
  ![1, v295.toNat, 16]
def k1_off35 (k1_t3 : Fin k1_t3_loop.trips) (c0_i32_295 : BitVec 32) : Fin 3 → Nat :=
  let c1_i32_296 : BitVec 32 := 1#32
  let v362 : Index := Scalar.indexCast c1_i32_296
  let c0_i32_138 : BitVec 32 := 0#32
  let c1_i32_140 : BitVec 32 := 1#32
  let arg23 : BitVec 32 := Scf.iv c0_i32_138 c1_i32_140 k1_t3
  let c8_i32_294 : BitVec 32 := 8#32
  let v360 : BitVec 32 := Scalar.muli arg23 c8_i32_294
  let v361 : BitVec 32 := Scalar.addi v360 c0_i32_295
  let v363 : Index := Scalar.indexCast v361
  let c32_297 : Index := 32#32
  ![1, v363.toNat, 32]
def k1_off36 (k1_t3 : Fin k1_t3_loop.trips) (c0_i32_329 : BitVec 32) : Fin 3 → Nat :=
  let c1_i32_330 : BitVec 32 := 1#32
  let v430 : Index := Scalar.indexCast c1_i32_330
  let c0_i32_138 : BitVec 32 := 0#32
  let c1_i32_140 : BitVec 32 := 1#32
  let arg23 : BitVec 32 := Scf.iv c0_i32_138 c1_i32_140 k1_t3
  let c8_i32_328 : BitVec 32 := 8#32
  let v428 : BitVec 32 := Scalar.muli arg23 c8_i32_328
  let v429 : BitVec 32 := Scalar.addi v428 c0_i32_329
  let v431 : Index := Scalar.indexCast v429
  let c48_331 : Index := 48#32
  ![1, v431.toNat, 48]
def k1_off37 (k1_t3 : Fin k1_t3_loop.trips) (c0_i32_363 : BitVec 32) : Fin 3 → Nat :=
  let c1_i32_364 : BitVec 32 := 1#32
  let v498 : Index := Scalar.indexCast c1_i32_364
  let c0_i32_138 : BitVec 32 := 0#32
  let c1_i32_140 : BitVec 32 := 1#32
  let arg23 : BitVec 32 := Scf.iv c0_i32_138 c1_i32_140 k1_t3
  let c8_i32_362 : BitVec 32 := 8#32
  let v496 : BitVec 32 := Scalar.muli arg23 c8_i32_362
  let v497 : BitVec 32 := Scalar.addi v496 c0_i32_363
  let v499 : Index := Scalar.indexCast v497
  let c64_365 : Index := 64#32
  ![1, v499.toNat, 64]
def k1_off38 (k1_t3 : Fin k1_t3_loop.trips) (c0_i32_397 : BitVec 32) : Fin 3 → Nat :=
  let c1_i32_398 : BitVec 32 := 1#32
  let v566 : Index := Scalar.indexCast c1_i32_398
  let c0_i32_138 : BitVec 32 := 0#32
  let c1_i32_140 : BitVec 32 := 1#32
  let arg23 : BitVec 32 := Scf.iv c0_i32_138 c1_i32_140 k1_t3
  let c8_i32_396 : BitVec 32 := 8#32
  let v564 : BitVec 32 := Scalar.muli arg23 c8_i32_396
  let v565 : BitVec 32 := Scalar.addi v564 c0_i32_397
  let v567 : Index := Scalar.indexCast v565
  let c80_399 : Index := 80#32
  ![1, v567.toNat, 80]
def k1_off39 (k1_t3 : Fin k1_t3_loop.trips) (c0_i32_431 : BitVec 32) : Fin 3 → Nat :=
  let c1_i32_432 : BitVec 32 := 1#32
  let v634 : Index := Scalar.indexCast c1_i32_432
  let c0_i32_138 : BitVec 32 := 0#32
  let c1_i32_140 : BitVec 32 := 1#32
  let arg23 : BitVec 32 := Scf.iv c0_i32_138 c1_i32_140 k1_t3
  let c8_i32_430 : BitVec 32 := 8#32
  let v632 : BitVec 32 := Scalar.muli arg23 c8_i32_430
  let v633 : BitVec 32 := Scalar.addi v632 c0_i32_431
  let v635 : Index := Scalar.indexCast v633
  let c96_433 : Index := 96#32
  ![1, v635.toNat, 96]
def k1_off40 (k1_t3 : Fin k1_t3_loop.trips) (c0_i32_465 : BitVec 32) : Fin 3 → Nat :=
  let c1_i32_466 : BitVec 32 := 1#32
  let v702 : Index := Scalar.indexCast c1_i32_466
  let c0_i32_138 : BitVec 32 := 0#32
  let c1_i32_140 : BitVec 32 := 1#32
  let arg23 : BitVec 32 := Scf.iv c0_i32_138 c1_i32_140 k1_t3
  let c8_i32_464 : BitVec 32 := 8#32
  let v700 : BitVec 32 := Scalar.muli arg23 c8_i32_464
  let v701 : BitVec 32 := Scalar.addi v700 c0_i32_465
  let v703 : Index := Scalar.indexCast v701
  let c112_467 : Index := 112#32
  ![1, v703.toNat, 112]
def k1_cond4 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c4_i32_119 : BitVec 32 := 4#32
  let v105 : BitVec 32 := Scalar.muli arg22 c4_i32_119
  let c1_i32_120 : BitVec 32 := 1#32
  let v106 : BitVec 32 := Scalar.addi v105 c1_i32_120
  let c4_i32_142 : BitVec 32 := 4#32
  let v122 : BitVec 32 := Scalar.addi v106 c4_i32_142
  let c32_i32_143 : BitVec 32 := 32#32
  let v123 : BitVec 1 := Scalar.cmpi .slt v122 c32_i32_143
  let v124 : BitVec 32 := Scalar.extui v123
  let c0_i32_144 : BitVec 32 := 0#32
  let v125 : BitVec 1 := Scalar.cmpi .ne v124 c0_i32_144
  v125

def k1_off41 (k1_t1 : Fin k1_t1_loop.trips) : Fin 2 → Nat :=
  let c0_i32_55 : BitVec 32 := 0#32
  let c1_i32_56 : BitVec 32 := 1#32
  let arg22 : BitVec 32 := Scf.iv c0_i32_55 c1_i32_56 k1_t1
  let c4_i32_119 : BitVec 32 := 4#32
  let v105 : BitVec 32 := Scalar.muli arg22 c4_i32_119
  let c1_i32_120 : BitVec 32 := 1#32
  let v106 : BitVec 32 := Scalar.addi v105 c1_i32_120
  let c4_i32_221 : BitVec 32 := 4#32
  let v192 : BitVec 32 := Scalar.addi v106 c4_i32_221
  let c0_i32_225 : BitVec 32 := 0#32
  ![v192.toNat, 0]
def k1_off42 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let c1_i32_56 : BitVec 32 := 1#32
  let arg22 : BitVec 32 := Scf.iv c0_i32_55 c1_i32_56 k1_t1
  let c4_i32_119 : BitVec 32 := 4#32
  let v105 : BitVec 32 := Scalar.muli arg22 c4_i32_119
  let c1_i32_120 : BitVec 32 := 1#32
  let v106 : BitVec 32 := Scalar.addi v105 c1_i32_120
  let c4_i32_221 : BitVec 32 := 4#32
  let v192 : BitVec 32 := Scalar.addi v106 c4_i32_221
  let c16_i32_228 : BitVec 32 := 16#32
  let v198 : BitVec 32 := Scalar.muli v192 c16_i32_228
  let v199 : BitVec 32 := Scalar.addi v2 v198
  let c0_i32_232 : BitVec 32 := 0#32
  ![v199.toNat, 0]
def k1_cond5 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c0_i32_169 : BitVec 32 := 0#32
  let v147 : BitVec 1 := Scalar.cmpi .sgt arg22 c0_i32_169
  let v148 : BitVec 32 := Scalar.extui v147
  let c0_i32_170 : BitVec 32 := 0#32
  let v149 : BitVec 1 := Scalar.cmpi .ne v148 c0_i32_170
  v149

def k1_off43 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_224 : BitVec 32 := 0#32
  ![v2.toNat, 0]
@[reducible] def k1_t4_loop : Scf.Loop 32 :=
  let c0_i32_172 : BitVec 32 := 0#32
  let c16_i32_173 : BitVec 32 := 16#32
  let v150 : BitVec 32 := Scalar.addi c0_i32_172 c16_i32_173
  let c1_i32_174 : BitVec 32 := 1#32
  ⟨c0_i32_172, v150, c1_i32_174⟩
def k1_off44 (k1_t4 : Fin k1_t4_loop.trips) : Fin 3 → Nat :=
  let c2_i32_221 : BitVec 32 := 2#32
  let v192 : Index := Scalar.indexCast c2_i32_221
  let c0_i32_172 : BitVec 32 := 0#32
  let c1_i32_174 : BitVec 32 := 1#32
  let arg23 : BitVec 32 := Scf.iv c0_i32_172 c1_i32_174 k1_t4
  let v193 : Index := Scalar.indexCast arg23
  let c0 : Index := 0#32
  ![2, v193.toNat, 0]
def k1_off45 (k1_t4 : Fin k1_t4_loop.trips) : Fin 3 → Nat :=
  let c2_i32_222 : BitVec 32 := 2#32
  let v196 : Index := Scalar.indexCast c2_i32_222
  let c0_i32_172 : BitVec 32 := 0#32
  let c1_i32_174 : BitVec 32 := 1#32
  let arg23 : BitVec 32 := Scf.iv c0_i32_172 c1_i32_174 k1_t4
  let v197 : Index := Scalar.indexCast arg23
  let c16 : Index := 16#32
  ![2, v197.toNat, 16]
def k1_off46 (k1_t4 : Fin k1_t4_loop.trips) : Fin 3 → Nat :=
  let c2_i32_223 : BitVec 32 := 2#32
  let v200 : Index := Scalar.indexCast c2_i32_223
  let c0_i32_172 : BitVec 32 := 0#32
  let c1_i32_174 : BitVec 32 := 1#32
  let arg23 : BitVec 32 := Scf.iv c0_i32_172 c1_i32_174 k1_t4
  let v201 : Index := Scalar.indexCast arg23
  let c32 : Index := 32#32
  ![2, v201.toNat, 32]
def k1_off47 (k1_t4 : Fin k1_t4_loop.trips) : Fin 3 → Nat :=
  let c2_i32_224 : BitVec 32 := 2#32
  let v204 : Index := Scalar.indexCast c2_i32_224
  let c0_i32_172 : BitVec 32 := 0#32
  let c1_i32_174 : BitVec 32 := 1#32
  let arg23 : BitVec 32 := Scf.iv c0_i32_172 c1_i32_174 k1_t4
  let v205 : Index := Scalar.indexCast arg23
  let c48 : Index := 48#32
  ![2, v205.toNat, 48]
def k1_off48 (k1_t4 : Fin k1_t4_loop.trips) : Fin 3 → Nat :=
  let c2_i32_225 : BitVec 32 := 2#32
  let v208 : Index := Scalar.indexCast c2_i32_225
  let c0_i32_172 : BitVec 32 := 0#32
  let c1_i32_174 : BitVec 32 := 1#32
  let arg23 : BitVec 32 := Scf.iv c0_i32_172 c1_i32_174 k1_t4
  let v209 : Index := Scalar.indexCast arg23
  let c64 : Index := 64#32
  ![2, v209.toNat, 64]
def k1_off49 (k1_t4 : Fin k1_t4_loop.trips) : Fin 3 → Nat :=
  let c2_i32_226 : BitVec 32 := 2#32
  let v212 : Index := Scalar.indexCast c2_i32_226
  let c0_i32_172 : BitVec 32 := 0#32
  let c1_i32_174 : BitVec 32 := 1#32
  let arg23 : BitVec 32 := Scf.iv c0_i32_172 c1_i32_174 k1_t4
  let v213 : Index := Scalar.indexCast arg23
  let c80 : Index := 80#32
  ![2, v213.toNat, 80]
def k1_off50 (k1_t4 : Fin k1_t4_loop.trips) : Fin 3 → Nat :=
  let c2_i32_227 : BitVec 32 := 2#32
  let v216 : Index := Scalar.indexCast c2_i32_227
  let c0_i32_172 : BitVec 32 := 0#32
  let c1_i32_174 : BitVec 32 := 1#32
  let arg23 : BitVec 32 := Scf.iv c0_i32_172 c1_i32_174 k1_t4
  let v217 : Index := Scalar.indexCast arg23
  let c96 : Index := 96#32
  ![2, v217.toNat, 96]
def k1_off51 (k1_t4 : Fin k1_t4_loop.trips) : Fin 3 → Nat :=
  let c2_i32_228 : BitVec 32 := 2#32
  let v220 : Index := Scalar.indexCast c2_i32_228
  let c0_i32_172 : BitVec 32 := 0#32
  let c1_i32_174 : BitVec 32 := 1#32
  let arg23 : BitVec 32 := Scf.iv c0_i32_172 c1_i32_174 k1_t4
  let v221 : Index := Scalar.indexCast arg23
  let c112 : Index := 112#32
  ![2, v221.toNat, 112]
def k1_off52 (k1_t4 : Fin k1_t4_loop.trips) (c0_i32_230 : BitVec 32) : Fin 3 → Nat :=
  let c2_i32_231 : BitVec 32 := 2#32
  let v226 : Index := Scalar.indexCast c2_i32_231
  let c0_i32_172 : BitVec 32 := 0#32
  let c1_i32_174 : BitVec 32 := 1#32
  let arg23 : BitVec 32 := Scf.iv c0_i32_172 c1_i32_174 k1_t4
  let c8_i32_229 : BitVec 32 := 8#32
  let v224 : BitVec 32 := Scalar.muli arg23 c8_i32_229
  let v225 : BitVec 32 := Scalar.addi v224 c0_i32_230
  let v227 : Index := Scalar.indexCast v225
  let c0_232 : Index := 0#32
  ![2, v227.toNat, 0]
def k1_off53 (k1_t4 : Fin k1_t4_loop.trips) (c0_i32_261 : BitVec 32) : Fin 3 → Nat :=
  let c2_i32_262 : BitVec 32 := 2#32
  let v294 : Index := Scalar.indexCast c2_i32_262
  let c0_i32_172 : BitVec 32 := 0#32
  let c1_i32_174 : BitVec 32 := 1#32
  let arg23 : BitVec 32 := Scf.iv c0_i32_172 c1_i32_174 k1_t4
  let c8_i32_260 : BitVec 32 := 8#32
  let v292 : BitVec 32 := Scalar.muli arg23 c8_i32_260
  let v293 : BitVec 32 := Scalar.addi v292 c0_i32_261
  let v295 : Index := Scalar.indexCast v293
  let c16_263 : Index := 16#32
  ![2, v295.toNat, 16]
def k1_off54 (k1_t4 : Fin k1_t4_loop.trips) (c0_i32_295 : BitVec 32) : Fin 3 → Nat :=
  let c2_i32_296 : BitVec 32 := 2#32
  let v362 : Index := Scalar.indexCast c2_i32_296
  let c0_i32_172 : BitVec 32 := 0#32
  let c1_i32_174 : BitVec 32 := 1#32
  let arg23 : BitVec 32 := Scf.iv c0_i32_172 c1_i32_174 k1_t4
  let c8_i32_294 : BitVec 32 := 8#32
  let v360 : BitVec 32 := Scalar.muli arg23 c8_i32_294
  let v361 : BitVec 32 := Scalar.addi v360 c0_i32_295
  let v363 : Index := Scalar.indexCast v361
  let c32_297 : Index := 32#32
  ![2, v363.toNat, 32]
def k1_off55 (k1_t4 : Fin k1_t4_loop.trips) (c0_i32_329 : BitVec 32) : Fin 3 → Nat :=
  let c2_i32_330 : BitVec 32 := 2#32
  let v430 : Index := Scalar.indexCast c2_i32_330
  let c0_i32_172 : BitVec 32 := 0#32
  let c1_i32_174 : BitVec 32 := 1#32
  let arg23 : BitVec 32 := Scf.iv c0_i32_172 c1_i32_174 k1_t4
  let c8_i32_328 : BitVec 32 := 8#32
  let v428 : BitVec 32 := Scalar.muli arg23 c8_i32_328
  let v429 : BitVec 32 := Scalar.addi v428 c0_i32_329
  let v431 : Index := Scalar.indexCast v429
  let c48_331 : Index := 48#32
  ![2, v431.toNat, 48]
def k1_off56 (k1_t4 : Fin k1_t4_loop.trips) (c0_i32_363 : BitVec 32) : Fin 3 → Nat :=
  let c2_i32_364 : BitVec 32 := 2#32
  let v498 : Index := Scalar.indexCast c2_i32_364
  let c0_i32_172 : BitVec 32 := 0#32
  let c1_i32_174 : BitVec 32 := 1#32
  let arg23 : BitVec 32 := Scf.iv c0_i32_172 c1_i32_174 k1_t4
  let c8_i32_362 : BitVec 32 := 8#32
  let v496 : BitVec 32 := Scalar.muli arg23 c8_i32_362
  let v497 : BitVec 32 := Scalar.addi v496 c0_i32_363
  let v499 : Index := Scalar.indexCast v497
  let c64_365 : Index := 64#32
  ![2, v499.toNat, 64]
def k1_off57 (k1_t4 : Fin k1_t4_loop.trips) (c0_i32_397 : BitVec 32) : Fin 3 → Nat :=
  let c2_i32_398 : BitVec 32 := 2#32
  let v566 : Index := Scalar.indexCast c2_i32_398
  let c0_i32_172 : BitVec 32 := 0#32
  let c1_i32_174 : BitVec 32 := 1#32
  let arg23 : BitVec 32 := Scf.iv c0_i32_172 c1_i32_174 k1_t4
  let c8_i32_396 : BitVec 32 := 8#32
  let v564 : BitVec 32 := Scalar.muli arg23 c8_i32_396
  let v565 : BitVec 32 := Scalar.addi v564 c0_i32_397
  let v567 : Index := Scalar.indexCast v565
  let c80_399 : Index := 80#32
  ![2, v567.toNat, 80]
def k1_off58 (k1_t4 : Fin k1_t4_loop.trips) (c0_i32_431 : BitVec 32) : Fin 3 → Nat :=
  let c2_i32_432 : BitVec 32 := 2#32
  let v634 : Index := Scalar.indexCast c2_i32_432
  let c0_i32_172 : BitVec 32 := 0#32
  let c1_i32_174 : BitVec 32 := 1#32
  let arg23 : BitVec 32 := Scf.iv c0_i32_172 c1_i32_174 k1_t4
  let c8_i32_430 : BitVec 32 := 8#32
  let v632 : BitVec 32 := Scalar.muli arg23 c8_i32_430
  let v633 : BitVec 32 := Scalar.addi v632 c0_i32_431
  let v635 : Index := Scalar.indexCast v633
  let c96_433 : Index := 96#32
  ![2, v635.toNat, 96]
def k1_off59 (k1_t4 : Fin k1_t4_loop.trips) (c0_i32_465 : BitVec 32) : Fin 3 → Nat :=
  let c2_i32_466 : BitVec 32 := 2#32
  let v702 : Index := Scalar.indexCast c2_i32_466
  let c0_i32_172 : BitVec 32 := 0#32
  let c1_i32_174 : BitVec 32 := 1#32
  let arg23 : BitVec 32 := Scf.iv c0_i32_172 c1_i32_174 k1_t4
  let c8_i32_464 : BitVec 32 := 8#32
  let v700 : BitVec 32 := Scalar.muli arg23 c8_i32_464
  let v701 : BitVec 32 := Scalar.addi v700 c0_i32_465
  let v703 : Index := Scalar.indexCast v701
  let c112_467 : Index := 112#32
  ![2, v703.toNat, 112]
def k1_cond6 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c4_i32_153 : BitVec 32 := 4#32
  let v134 : BitVec 32 := Scalar.muli arg22 c4_i32_153
  let c2_i32_154 : BitVec 32 := 2#32
  let v135 : BitVec 32 := Scalar.addi v134 c2_i32_154
  let c4_i32_176 : BitVec 32 := 4#32
  let v151 : BitVec 32 := Scalar.addi v135 c4_i32_176
  let c32_i32_177 : BitVec 32 := 32#32
  let v152 : BitVec 1 := Scalar.cmpi .slt v151 c32_i32_177
  let v153 : BitVec 32 := Scalar.extui v152
  let c0_i32_178 : BitVec 32 := 0#32
  let v154 : BitVec 1 := Scalar.cmpi .ne v153 c0_i32_178
  v154

def k1_off60 (k1_t1 : Fin k1_t1_loop.trips) : Fin 2 → Nat :=
  let c0_i32_55 : BitVec 32 := 0#32
  let c1_i32_56 : BitVec 32 := 1#32
  let arg22 : BitVec 32 := Scf.iv c0_i32_55 c1_i32_56 k1_t1
  let c4_i32_153 : BitVec 32 := 4#32
  let v134 : BitVec 32 := Scalar.muli arg22 c4_i32_153
  let c2_i32_154 : BitVec 32 := 2#32
  let v135 : BitVec 32 := Scalar.addi v134 c2_i32_154
  let c4_i32_221 : BitVec 32 := 4#32
  let v192 : BitVec 32 := Scalar.addi v135 c4_i32_221
  let c0_i32_225 : BitVec 32 := 0#32
  ![v192.toNat, 0]
def k1_off61 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let c1_i32_56 : BitVec 32 := 1#32
  let arg22 : BitVec 32 := Scf.iv c0_i32_55 c1_i32_56 k1_t1
  let c4_i32_153 : BitVec 32 := 4#32
  let v134 : BitVec 32 := Scalar.muli arg22 c4_i32_153
  let c2_i32_154 : BitVec 32 := 2#32
  let v135 : BitVec 32 := Scalar.addi v134 c2_i32_154
  let c4_i32_221 : BitVec 32 := 4#32
  let v192 : BitVec 32 := Scalar.addi v135 c4_i32_221
  let c16_i32_228 : BitVec 32 := 16#32
  let v198 : BitVec 32 := Scalar.muli v192 c16_i32_228
  let v199 : BitVec 32 := Scalar.addi v2 v198
  let c0_i32_232 : BitVec 32 := 0#32
  ![v199.toNat, 0]
def k1_cond7 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c0_i32_203 : BitVec 32 := 0#32
  let v176 : BitVec 1 := Scalar.cmpi .sgt arg22 c0_i32_203
  let v177 : BitVec 32 := Scalar.extui v176
  let c0_i32_204 : BitVec 32 := 0#32
  let v178 : BitVec 1 := Scalar.cmpi .ne v177 c0_i32_204
  v178

def k1_off62 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_224 : BitVec 32 := 0#32
  ![v2.toNat, 0]
@[reducible] def k1_t5_loop : Scf.Loop 32 :=
  let c0_i32_206 : BitVec 32 := 0#32
  let c16_i32_207 : BitVec 32 := 16#32
  let v179 : BitVec 32 := Scalar.addi c0_i32_206 c16_i32_207
  let c1_i32_208 : BitVec 32 := 1#32
  ⟨c0_i32_206, v179, c1_i32_208⟩
def k1_off63 (k1_t5 : Fin k1_t5_loop.trips) : Fin 3 → Nat :=
  let c3_i32_221 : BitVec 32 := 3#32
  let v192 : Index := Scalar.indexCast c3_i32_221
  let c0_i32_206 : BitVec 32 := 0#32
  let c1_i32_208 : BitVec 32 := 1#32
  let arg23 : BitVec 32 := Scf.iv c0_i32_206 c1_i32_208 k1_t5
  let v193 : Index := Scalar.indexCast arg23
  let c0 : Index := 0#32
  ![3, v193.toNat, 0]
def k1_off64 (k1_t5 : Fin k1_t5_loop.trips) : Fin 3 → Nat :=
  let c3_i32_222 : BitVec 32 := 3#32
  let v196 : Index := Scalar.indexCast c3_i32_222
  let c0_i32_206 : BitVec 32 := 0#32
  let c1_i32_208 : BitVec 32 := 1#32
  let arg23 : BitVec 32 := Scf.iv c0_i32_206 c1_i32_208 k1_t5
  let v197 : Index := Scalar.indexCast arg23
  let c16 : Index := 16#32
  ![3, v197.toNat, 16]
def k1_off65 (k1_t5 : Fin k1_t5_loop.trips) : Fin 3 → Nat :=
  let c3_i32_223 : BitVec 32 := 3#32
  let v200 : Index := Scalar.indexCast c3_i32_223
  let c0_i32_206 : BitVec 32 := 0#32
  let c1_i32_208 : BitVec 32 := 1#32
  let arg23 : BitVec 32 := Scf.iv c0_i32_206 c1_i32_208 k1_t5
  let v201 : Index := Scalar.indexCast arg23
  let c32 : Index := 32#32
  ![3, v201.toNat, 32]
def k1_off66 (k1_t5 : Fin k1_t5_loop.trips) : Fin 3 → Nat :=
  let c3_i32_224 : BitVec 32 := 3#32
  let v204 : Index := Scalar.indexCast c3_i32_224
  let c0_i32_206 : BitVec 32 := 0#32
  let c1_i32_208 : BitVec 32 := 1#32
  let arg23 : BitVec 32 := Scf.iv c0_i32_206 c1_i32_208 k1_t5
  let v205 : Index := Scalar.indexCast arg23
  let c48 : Index := 48#32
  ![3, v205.toNat, 48]
def k1_off67 (k1_t5 : Fin k1_t5_loop.trips) : Fin 3 → Nat :=
  let c3_i32_225 : BitVec 32 := 3#32
  let v208 : Index := Scalar.indexCast c3_i32_225
  let c0_i32_206 : BitVec 32 := 0#32
  let c1_i32_208 : BitVec 32 := 1#32
  let arg23 : BitVec 32 := Scf.iv c0_i32_206 c1_i32_208 k1_t5
  let v209 : Index := Scalar.indexCast arg23
  let c64 : Index := 64#32
  ![3, v209.toNat, 64]
def k1_off68 (k1_t5 : Fin k1_t5_loop.trips) : Fin 3 → Nat :=
  let c3_i32_226 : BitVec 32 := 3#32
  let v212 : Index := Scalar.indexCast c3_i32_226
  let c0_i32_206 : BitVec 32 := 0#32
  let c1_i32_208 : BitVec 32 := 1#32
  let arg23 : BitVec 32 := Scf.iv c0_i32_206 c1_i32_208 k1_t5
  let v213 : Index := Scalar.indexCast arg23
  let c80 : Index := 80#32
  ![3, v213.toNat, 80]
def k1_off69 (k1_t5 : Fin k1_t5_loop.trips) : Fin 3 → Nat :=
  let c3_i32_227 : BitVec 32 := 3#32
  let v216 : Index := Scalar.indexCast c3_i32_227
  let c0_i32_206 : BitVec 32 := 0#32
  let c1_i32_208 : BitVec 32 := 1#32
  let arg23 : BitVec 32 := Scf.iv c0_i32_206 c1_i32_208 k1_t5
  let v217 : Index := Scalar.indexCast arg23
  let c96 : Index := 96#32
  ![3, v217.toNat, 96]
def k1_off70 (k1_t5 : Fin k1_t5_loop.trips) : Fin 3 → Nat :=
  let c3_i32_228 : BitVec 32 := 3#32
  let v220 : Index := Scalar.indexCast c3_i32_228
  let c0_i32_206 : BitVec 32 := 0#32
  let c1_i32_208 : BitVec 32 := 1#32
  let arg23 : BitVec 32 := Scf.iv c0_i32_206 c1_i32_208 k1_t5
  let v221 : Index := Scalar.indexCast arg23
  let c112 : Index := 112#32
  ![3, v221.toNat, 112]
def k1_off71 (k1_t5 : Fin k1_t5_loop.trips) (c0_i32_230 : BitVec 32) : Fin 3 → Nat :=
  let c3_i32_231 : BitVec 32 := 3#32
  let v226 : Index := Scalar.indexCast c3_i32_231
  let c0_i32_206 : BitVec 32 := 0#32
  let c1_i32_208 : BitVec 32 := 1#32
  let arg23 : BitVec 32 := Scf.iv c0_i32_206 c1_i32_208 k1_t5
  let c8_i32_229 : BitVec 32 := 8#32
  let v224 : BitVec 32 := Scalar.muli arg23 c8_i32_229
  let v225 : BitVec 32 := Scalar.addi v224 c0_i32_230
  let v227 : Index := Scalar.indexCast v225
  let c0_232 : Index := 0#32
  ![3, v227.toNat, 0]
def k1_off72 (k1_t5 : Fin k1_t5_loop.trips) (c0_i32_261 : BitVec 32) : Fin 3 → Nat :=
  let c3_i32_262 : BitVec 32 := 3#32
  let v294 : Index := Scalar.indexCast c3_i32_262
  let c0_i32_206 : BitVec 32 := 0#32
  let c1_i32_208 : BitVec 32 := 1#32
  let arg23 : BitVec 32 := Scf.iv c0_i32_206 c1_i32_208 k1_t5
  let c8_i32_260 : BitVec 32 := 8#32
  let v292 : BitVec 32 := Scalar.muli arg23 c8_i32_260
  let v293 : BitVec 32 := Scalar.addi v292 c0_i32_261
  let v295 : Index := Scalar.indexCast v293
  let c16_263 : Index := 16#32
  ![3, v295.toNat, 16]
def k1_off73 (k1_t5 : Fin k1_t5_loop.trips) (c0_i32_295 : BitVec 32) : Fin 3 → Nat :=
  let c3_i32_296 : BitVec 32 := 3#32
  let v362 : Index := Scalar.indexCast c3_i32_296
  let c0_i32_206 : BitVec 32 := 0#32
  let c1_i32_208 : BitVec 32 := 1#32
  let arg23 : BitVec 32 := Scf.iv c0_i32_206 c1_i32_208 k1_t5
  let c8_i32_294 : BitVec 32 := 8#32
  let v360 : BitVec 32 := Scalar.muli arg23 c8_i32_294
  let v361 : BitVec 32 := Scalar.addi v360 c0_i32_295
  let v363 : Index := Scalar.indexCast v361
  let c32_297 : Index := 32#32
  ![3, v363.toNat, 32]
def k1_off74 (k1_t5 : Fin k1_t5_loop.trips) (c0_i32_329 : BitVec 32) : Fin 3 → Nat :=
  let c3_i32_330 : BitVec 32 := 3#32
  let v430 : Index := Scalar.indexCast c3_i32_330
  let c0_i32_206 : BitVec 32 := 0#32
  let c1_i32_208 : BitVec 32 := 1#32
  let arg23 : BitVec 32 := Scf.iv c0_i32_206 c1_i32_208 k1_t5
  let c8_i32_328 : BitVec 32 := 8#32
  let v428 : BitVec 32 := Scalar.muli arg23 c8_i32_328
  let v429 : BitVec 32 := Scalar.addi v428 c0_i32_329
  let v431 : Index := Scalar.indexCast v429
  let c48_331 : Index := 48#32
  ![3, v431.toNat, 48]
def k1_off75 (k1_t5 : Fin k1_t5_loop.trips) (c0_i32_363 : BitVec 32) : Fin 3 → Nat :=
  let c3_i32_364 : BitVec 32 := 3#32
  let v498 : Index := Scalar.indexCast c3_i32_364
  let c0_i32_206 : BitVec 32 := 0#32
  let c1_i32_208 : BitVec 32 := 1#32
  let arg23 : BitVec 32 := Scf.iv c0_i32_206 c1_i32_208 k1_t5
  let c8_i32_362 : BitVec 32 := 8#32
  let v496 : BitVec 32 := Scalar.muli arg23 c8_i32_362
  let v497 : BitVec 32 := Scalar.addi v496 c0_i32_363
  let v499 : Index := Scalar.indexCast v497
  let c64_365 : Index := 64#32
  ![3, v499.toNat, 64]
def k1_off76 (k1_t5 : Fin k1_t5_loop.trips) (c0_i32_397 : BitVec 32) : Fin 3 → Nat :=
  let c3_i32_398 : BitVec 32 := 3#32
  let v566 : Index := Scalar.indexCast c3_i32_398
  let c0_i32_206 : BitVec 32 := 0#32
  let c1_i32_208 : BitVec 32 := 1#32
  let arg23 : BitVec 32 := Scf.iv c0_i32_206 c1_i32_208 k1_t5
  let c8_i32_396 : BitVec 32 := 8#32
  let v564 : BitVec 32 := Scalar.muli arg23 c8_i32_396
  let v565 : BitVec 32 := Scalar.addi v564 c0_i32_397
  let v567 : Index := Scalar.indexCast v565
  let c80_399 : Index := 80#32
  ![3, v567.toNat, 80]
def k1_off77 (k1_t5 : Fin k1_t5_loop.trips) (c0_i32_431 : BitVec 32) : Fin 3 → Nat :=
  let c3_i32_432 : BitVec 32 := 3#32
  let v634 : Index := Scalar.indexCast c3_i32_432
  let c0_i32_206 : BitVec 32 := 0#32
  let c1_i32_208 : BitVec 32 := 1#32
  let arg23 : BitVec 32 := Scf.iv c0_i32_206 c1_i32_208 k1_t5
  let c8_i32_430 : BitVec 32 := 8#32
  let v632 : BitVec 32 := Scalar.muli arg23 c8_i32_430
  let v633 : BitVec 32 := Scalar.addi v632 c0_i32_431
  let v635 : Index := Scalar.indexCast v633
  let c96_433 : Index := 96#32
  ![3, v635.toNat, 96]
def k1_off78 (k1_t5 : Fin k1_t5_loop.trips) (c0_i32_465 : BitVec 32) : Fin 3 → Nat :=
  let c3_i32_466 : BitVec 32 := 3#32
  let v702 : Index := Scalar.indexCast c3_i32_466
  let c0_i32_206 : BitVec 32 := 0#32
  let c1_i32_208 : BitVec 32 := 1#32
  let arg23 : BitVec 32 := Scf.iv c0_i32_206 c1_i32_208 k1_t5
  let c8_i32_464 : BitVec 32 := 8#32
  let v700 : BitVec 32 := Scalar.muli arg23 c8_i32_464
  let v701 : BitVec 32 := Scalar.addi v700 c0_i32_465
  let v703 : Index := Scalar.indexCast v701
  let c112_467 : Index := 112#32
  ![3, v703.toNat, 112]
def k1_cond8 (k1_t1 : Fin k1_t1_loop.trips) : BitVec 1 :=
  let c0_i32_55 : BitVec 32 := 0#32
  let c1_i32_56 : BitVec 32 := 1#32
  let arg22 : BitVec 32 := Scf.iv c0_i32_55 c1_i32_56 k1_t1
  let c4_i32_187 : BitVec 32 := 4#32
  let v163 : BitVec 32 := Scalar.muli arg22 c4_i32_187
  let c3_i32_188 : BitVec 32 := 3#32
  let v164 : BitVec 32 := Scalar.addi v163 c3_i32_188
  let c4_i32_210 : BitVec 32 := 4#32
  let v180 : BitVec 32 := Scalar.addi v164 c4_i32_210
  let c32_i32_211 : BitVec 32 := 32#32
  let v181 : BitVec 1 := Scalar.cmpi .slt v180 c32_i32_211
  let v182 : BitVec 32 := Scalar.extui v181
  let c0_i32_212 : BitVec 32 := 0#32
  let v183 : BitVec 1 := Scalar.cmpi .ne v182 c0_i32_212
  v183

def k1_off79 (k1_t1 : Fin k1_t1_loop.trips) : Fin 2 → Nat :=
  let c0_i32_55 : BitVec 32 := 0#32
  let c1_i32_56 : BitVec 32 := 1#32
  let arg22 : BitVec 32 := Scf.iv c0_i32_55 c1_i32_56 k1_t1
  let c4_i32_187 : BitVec 32 := 4#32
  let v163 : BitVec 32 := Scalar.muli arg22 c4_i32_187
  let c3_i32_188 : BitVec 32 := 3#32
  let v164 : BitVec 32 := Scalar.addi v163 c3_i32_188
  let c4_i32_221 : BitVec 32 := 4#32
  let v192 : BitVec 32 := Scalar.addi v164 c4_i32_221
  let c0_i32_225 : BitVec 32 := 0#32
  ![v192.toNat, 0]
def k1_off80 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let c1_i32_56 : BitVec 32 := 1#32
  let arg22 : BitVec 32 := Scf.iv c0_i32_55 c1_i32_56 k1_t1
  let c4_i32_187 : BitVec 32 := 4#32
  let v163 : BitVec 32 := Scalar.muli arg22 c4_i32_187
  let c3_i32_188 : BitVec 32 := 3#32
  let v164 : BitVec 32 := Scalar.addi v163 c3_i32_188
  let c4_i32_221 : BitVec 32 := 4#32
  let v192 : BitVec 32 := Scalar.addi v164 c4_i32_221
  let c16_i32_228 : BitVec 32 := 16#32
  let v198 : BitVec 32 := Scalar.muli v192 c16_i32_228
  let v199 : BitVec 32 := Scalar.addi v2 v198
  let c0_i32_232 : BitVec 32 := 0#32
  ![v199.toNat, 0]
def k1_off81 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_61 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x3_S128x3_0_0 : ∀ a, (![0, 0] : Fin 2 → Nat) a + S128x3.size a ≤ S128x3.size a
  h_S128x3 : 0 < S128x3.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  shapeCasts_S512x3_S1x512x3 : S512x3.ShapeCasts S1x512x3
  slices_S512x3_o0_0_S512x1 : S512x3.Slices ![0, 0] S512x1
  shapeCasts_S512x1_S512x1 : S512x1.ShapeCasts S512x1
  broadcasts_S512x1_S512x128 : S512x1.Broadcasts S512x128
  slices_S512x3_o0_1_S512x1 : S512x3.Slices ![0, 1] S512x1
  slices_S512x3_o0_2_S512x1 : S512x3.Slices ![0, 2] S512x1
  iota_S512x128_d1_w32 : S512x128.Iotas .tc 32 [1]
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  slices_S512x128_o0_0_S512x8 : S512x128.Slices ![0, 0] S512x8
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  shapeCasts_S512x8_S1x512x8 : S512x8.ShapeCasts S1x512x8
  shapeCasts_S8x128x32x32x32_S8x128x32768 : S8x128x32x32x32.ShapeCasts S8x128x32768
  transposes_S8x128x32768_S8x32768x128_0_2_1 : S8x128x32768.Transposes [0, 2, 1] S8x32768x128
  shapeCasts_S8x32768x128_S262144x128 : S8x32768x128.ShapeCasts S262144x128
  shapeCasts_S8x2048x8_S32x32x128 : S8x2048x8.ShapeCasts S32x32x128
  shapeCasts_S8x2048x128_S16384x128 : S8x2048x128.ShapeCasts S16384x128
  squeezes_S1x32x128_S32x128 : S1x32x128.Squeezes S32x128
  inb_S4x128x128_S1x128x128_0_0_0 : ∀ a, (![0, 0, 0] : Fin 3 → Nat) a + S1x128x128.size a ≤ S4x128x128.size a
  squeezes_S1x128x128_S128x128 : S1x128x128.Squeezes S128x128
  inb_S32x128_S1x128_0_0 : ∀ a, (![0, 0] : Fin 2 → Nat) a + S1x128.size a ≤ S32x128.size a
  squeezes_S1x128_S128 : S1x128.Squeezes S128
  inb_S262144x128_S262144x128_0_0 : ∀ a, (![0, 0] : Fin 2 → Nat) a + S262144x128.size a ≤ S262144x128.size a
  gathers_S262144x128_S128x128 : S262144x128.Gathers 0 S128x128
  inb_S4x16x128_S1x16x128_0_0_0 : ∀ a, (![0, 0, 0] : Fin 3 → Nat) a + S1x16x128.size a ≤ S4x16x128.size a
  squeezes_S1x16x128_S16x128 : S1x16x128.Squeezes S16x128
  inb_S4x128x128_S1x128x128_1_0_0 : ∀ a, (![1, 0, 0] : Fin 3 → Nat) a + S1x128x128.size a ≤ S4x128x128.size a
  inb_S32x128_S1x128_1_0 : ∀ a, (![1, 0] : Fin 2 → Nat) a + S1x128.size a ≤ S32x128.size a
  inb_S4x16x128_S1x16x128_1_0_0 : ∀ a, (![1, 0, 0] : Fin 3 → Nat) a + S1x16x128.size a ≤ S4x16x128.size a
  inb_S4x128x128_S1x128x128_2_0_0 : ∀ a, (![2, 0, 0] : Fin 3 → Nat) a + S1x128x128.size a ≤ S4x128x128.size a
  inb_S32x128_S1x128_2_0 : ∀ a, (![2, 0] : Fin 2 → Nat) a + S1x128.size a ≤ S32x128.size a
  inb_S4x16x128_S1x16x128_2_0_0 : ∀ a, (![2, 0, 0] : Fin 3 → Nat) a + S1x16x128.size a ≤ S4x16x128.size a
  inb_S4x128x128_S1x128x128_3_0_0 : ∀ a, (![3, 0, 0] : Fin 3 → Nat) a + S1x128x128.size a ≤ S4x128x128.size a
  inb_S32x128_S1x128_3_0 : ∀ a, (![3, 0] : Fin 2 → Nat) a + S1x128.size a ≤ S32x128.size a
  inb_S4x16x128_S1x16x128_3_0_0 : ∀ a, (![3, 0, 0] : Fin 3 → Nat) a + S1x16x128.size a ≤ S4x16x128.size a
  h_S1x1x16 : 0 < S1x1x16.numel
  shapeCasts_S1x1x16_S16 : S1x1x16.ShapeCasts S16
  shapeCasts_S16_S1x1x16 : S16.ShapeCasts S1x1x16
  shapeCasts_S16384x128_S8x2048x128 : S16384x128.ShapeCasts S8x2048x128
  concatenates_S8x2048x128_S8x2048x128_S8x2048x3_S8x2048x259_d2 : Shape.Concatenates [S8x2048x128, S8x2048x128, S8x2048x3] S8x2048x259 2
  dot_S512x2048_S2048x128_S512x128_1_0_0_1_n_n_wf : DotDims.WF S512x2048 S2048x128 S512x128 [1] [0] [0] [1] [] []
  dot_S512x128_S128x3_S512x3_1_0_0_1_n_n_wf : DotDims.WF S512x128 S128x3 S512x3 [1] [0] [0] [1] [] []
  hcc1_scratch4 : 11 + S_.numel ≤ 24
  hcc1_scratch5 : 12 + S_.numel ≤ 24
  hcc1_scratch6 : 13 + S_.numel ≤ 24
  hcc1_scratch7 : 14 + S_.numel ≤ 24
  hcc1_scratch8 : 15 + S_.numel ≤ 24
  hcc1_scratch9 : 16 + S_.numel ≤ 24
  hcc1_scratch10 : 17 + S_.numel ≤ 24
  hcc1_scratch11 : 18 + S_.numel ≤ 24
  hcc1_scratch12 : 19 + S_.numel ≤ 24
  hcc1_scratch13 : 20 + S_.numel ≤ 24
  hcc1_scratch14 : 21 + S_.numel ≤ 24
  hcc1_scratch15 : 22 + S_.numel ≤ 24
  hcc1_scoped0 : 23 + S_.numel ≤ 24
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S128x3.size a
  hwx0_2 : ∀ i : grid0.Coords, EltTy.bits .f32 = 32 ∨ (Rect.block (s := S128x3) S128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3.size a ≤ S8x2048x3.size a
  hwx0_3 : ∀ i : grid0.Coords, EltTy.bits .f32 = 32 ∨ (Rect.block (s := S8x2048x3) S1x512x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S8x2048x128.size a
  hwx0_4 : ∀ i : grid0.Coords, EltTy.bits .f32 = 32 ∨ (Rect.block (s := S8x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x8.size a ≤ S8x2048x8.size a
  hwx0_5 : ∀ i : grid0.Coords, EltTy.bits .i32 = 32 ∨ (Rect.block (s := S8x2048x8) S1x512x8.size (cc0_transform_5 i) (hinb0_5 i)).WholeWords (EltTy.packing .i32)
  hcore1 : grid1.bound 0 ≤ τ.nSC
  hsub1 : grid1.bound 1 ≤ τ.nSub
  k1_off1_inb : ∀ i : grid1.Coords, ∀ a, (k1_off1 i) a + S1x32x128.size a ≤ S32x32x128.size a
  k1_off2_inb : ∀ i : grid1.Coords, ∀ (r : Fin 4), ∀ a, (k1_off2 i (BitVec.ofNat 32 (16 * r.val))) a + S16x128.size a ≤ S16384x128.size a
  k1_t1_ok : k1_t1_loop.OK
  k1_off3_inb : ∀ i : grid1.Coords, ∀ a, (k1_off3 i) a + S16x128.size a ≤ S16384x128.size a
  k1_off4_inb : ∀ (i : grid1.Coords) (k1_t1 : Fin k1_t1_loop.trips), ∀ (k1_h1 : k1_cond1 k1_t1 = 1#1), ∀ a, (k1_off4 i) a + S16x128.size a ≤ S16384x128.size a
  k1_t2_ok : k1_t2_loop.OK
  k1_off5_inb : ∀ k1_t2 : Fin k1_t2_loop.trips, ∀ a, (k1_off5 k1_t2) a + S1x1x16.size a ≤ S4x16x128.size a
  k1_off6_inb : ∀ k1_t2 : Fin k1_t2_loop.trips, ∀ a, (k1_off6 k1_t2) a + S1x1x16.size a ≤ S4x16x128.size a
  k1_off7_inb : ∀ k1_t2 : Fin k1_t2_loop.trips, ∀ a, (k1_off7 k1_t2) a + S1x1x16.size a ≤ S4x16x128.size a
  k1_off8_inb : ∀ k1_t2 : Fin k1_t2_loop.trips, ∀ a, (k1_off8 k1_t2) a + S1x1x16.size a ≤ S4x16x128.size a
  k1_off9_inb : ∀ k1_t2 : Fin k1_t2_loop.trips, ∀ a, (k1_off9 k1_t2) a + S1x1x16.size a ≤ S4x16x128.size a
  k1_off10_inb : ∀ k1_t2 : Fin k1_t2_loop.trips, ∀ a, (k1_off10 k1_t2) a + S1x1x16.size a ≤ S4x16x128.size a
  k1_off11_inb : ∀ k1_t2 : Fin k1_t2_loop.trips, ∀ a, (k1_off11 k1_t2) a + S1x1x16.size a ≤ S4x16x128.size a
  k1_off12_inb : ∀ k1_t2 : Fin k1_t2_loop.trips, ∀ a, (k1_off12 k1_t2) a + S1x1x16.size a ≤ S4x16x128.size a
  k1_off13_inb : ∀ k1_t2 : Fin k1_t2_loop.trips, ∀ (r : Fin 8), ∀ a, (k1_off13 k1_t2 (BitVec.ofNat 32 r.val)) a + S1x1x16.size a ≤ S4x128x128.size a
  k1_off14_inb : ∀ k1_t2 : Fin k1_t2_loop.trips, ∀ (r : Fin 8), ∀ a, (k1_off14 k1_t2 (BitVec.ofNat 32 r.val)) a + S1x1x16.size a ≤ S4x128x128.size a
  k1_off15_inb : ∀ k1_t2 : Fin k1_t2_loop.trips, ∀ (r : Fin 8), ∀ a, (k1_off15 k1_t2 (BitVec.ofNat 32 r.val)) a + S1x1x16.size a ≤ S4x128x128.size a
  k1_off16_inb : ∀ k1_t2 : Fin k1_t2_loop.trips, ∀ (r : Fin 8), ∀ a, (k1_off16 k1_t2 (BitVec.ofNat 32 r.val)) a + S1x1x16.size a ≤ S4x128x128.size a
  k1_off17_inb : ∀ k1_t2 : Fin k1_t2_loop.trips, ∀ (r : Fin 8), ∀ a, (k1_off17 k1_t2 (BitVec.ofNat 32 r.val)) a + S1x1x16.size a ≤ S4x128x128.size a
  k1_off18_inb : ∀ k1_t2 : Fin k1_t2_loop.trips, ∀ (r : Fin 8), ∀ a, (k1_off18 k1_t2 (BitVec.ofNat 32 r.val)) a + S1x1x16.size a ≤ S4x128x128.size a
  k1_off19_inb : ∀ k1_t2 : Fin k1_t2_loop.trips, ∀ (r : Fin 8), ∀ a, (k1_off19 k1_t2 (BitVec.ofNat 32 r.val)) a + S1x1x16.size a ≤ S4x128x128.size a
  k1_off20_inb : ∀ k1_t2 : Fin k1_t2_loop.trips, ∀ (r : Fin 8), ∀ a, (k1_off20 k1_t2 (BitVec.ofNat 32 r.val)) a + S1x1x16.size a ≤ S4x128x128.size a
  k1_off21_inb : ∀ k1_t1 : Fin k1_t1_loop.trips, ∀ (k1_h2 : k1_cond2 k1_t1 = 1#1), ∀ a, (k1_off21 k1_t1) a + S1x128.size a ≤ S32x128.size a
  k1_off22_inb : ∀ (i : grid1.Coords) (k1_t1 : Fin k1_t1_loop.trips), ∀ (k1_h2 : k1_cond2 k1_t1 = 1#1), ∀ a, (k1_off22 i k1_t1) a + S16x128.size a ≤ S16384x128.size a
  k1_off23_inb : ∀ (i : grid1.Coords) (k1_t1 : Fin k1_t1_loop.trips), ∀ (r : Fin 4), ∀ a, (k1_off23 i k1_t1 (BitVec.ofNat 32 r.val)) a + S16x128.size a ≤ S16384x128.size a
  k1_off24_inb : ∀ (i : grid1.Coords) (k1_t1 : Fin k1_t1_loop.trips), ∀ (k1_h3 : k1_cond3 k1_t1 = 1#1), ∀ a, (k1_off24 i) a + S16x128.size a ≤ S16384x128.size a
  k1_t3_ok : k1_t3_loop.OK
  k1_off25_inb : ∀ k1_t3 : Fin k1_t3_loop.trips, ∀ a, (k1_off25 k1_t3) a + S1x1x16.size a ≤ S4x16x128.size a
  k1_off26_inb : ∀ k1_t3 : Fin k1_t3_loop.trips, ∀ a, (k1_off26 k1_t3) a + S1x1x16.size a ≤ S4x16x128.size a
  k1_off27_inb : ∀ k1_t3 : Fin k1_t3_loop.trips, ∀ a, (k1_off27 k1_t3) a + S1x1x16.size a ≤ S4x16x128.size a
  k1_off28_inb : ∀ k1_t3 : Fin k1_t3_loop.trips, ∀ a, (k1_off28 k1_t3) a + S1x1x16.size a ≤ S4x16x128.size a
  k1_off29_inb : ∀ k1_t3 : Fin k1_t3_loop.trips, ∀ a, (k1_off29 k1_t3) a + S1x1x16.size a ≤ S4x16x128.size a
  k1_off30_inb : ∀ k1_t3 : Fin k1_t3_loop.trips, ∀ a, (k1_off30 k1_t3) a + S1x1x16.size a ≤ S4x16x128.size a
  k1_off31_inb : ∀ k1_t3 : Fin k1_t3_loop.trips, ∀ a, (k1_off31 k1_t3) a + S1x1x16.size a ≤ S4x16x128.size a
  k1_off32_inb : ∀ k1_t3 : Fin k1_t3_loop.trips, ∀ a, (k1_off32 k1_t3) a + S1x1x16.size a ≤ S4x16x128.size a
  k1_off33_inb : ∀ k1_t3 : Fin k1_t3_loop.trips, ∀ (r : Fin 8), ∀ a, (k1_off33 k1_t3 (BitVec.ofNat 32 r.val)) a + S1x1x16.size a ≤ S4x128x128.size a
  k1_off34_inb : ∀ k1_t3 : Fin k1_t3_loop.trips, ∀ (r : Fin 8), ∀ a, (k1_off34 k1_t3 (BitVec.ofNat 32 r.val)) a + S1x1x16.size a ≤ S4x128x128.size a
  k1_off35_inb : ∀ k1_t3 : Fin k1_t3_loop.trips, ∀ (r : Fin 8), ∀ a, (k1_off35 k1_t3 (BitVec.ofNat 32 r.val)) a + S1x1x16.size a ≤ S4x128x128.size a
  k1_off36_inb : ∀ k1_t3 : Fin k1_t3_loop.trips, ∀ (r : Fin 8), ∀ a, (k1_off36 k1_t3 (BitVec.ofNat 32 r.val)) a + S1x1x16.size a ≤ S4x128x128.size a
  k1_off37_inb : ∀ k1_t3 : Fin k1_t3_loop.trips, ∀ (r : Fin 8), ∀ a, (k1_off37 k1_t3 (BitVec.ofNat 32 r.val)) a + S1x1x16.size a ≤ S4x128x128.size a
  k1_off38_inb : ∀ k1_t3 : Fin k1_t3_loop.trips, ∀ (r : Fin 8), ∀ a, (k1_off38 k1_t3 (BitVec.ofNat 32 r.val)) a + S1x1x16.size a ≤ S4x128x128.size a
  k1_off39_inb : ∀ k1_t3 : Fin k1_t3_loop.trips, ∀ (r : Fin 8), ∀ a, (k1_off39 k1_t3 (BitVec.ofNat 32 r.val)) a + S1x1x16.size a ≤ S4x128x128.size a
  k1_off40_inb : ∀ k1_t3 : Fin k1_t3_loop.trips, ∀ (r : Fin 8), ∀ a, (k1_off40 k1_t3 (BitVec.ofNat 32 r.val)) a + S1x1x16.size a ≤ S4x128x128.size a
  k1_off41_inb : ∀ k1_t1 : Fin k1_t1_loop.trips, ∀ (k1_h4 : k1_cond4 k1_t1 = 1#1), ∀ a, (k1_off41 k1_t1) a + S1x128.size a ≤ S32x128.size a
  k1_off42_inb : ∀ (i : grid1.Coords) (k1_t1 : Fin k1_t1_loop.trips), ∀ (k1_h4 : k1_cond4 k1_t1 = 1#1), ∀ a, (k1_off42 i k1_t1) a + S16x128.size a ≤ S16384x128.size a
  k1_off43_inb : ∀ (i : grid1.Coords) (k1_t1 : Fin k1_t1_loop.trips), ∀ (k1_h5 : k1_cond5 k1_t1 = 1#1), ∀ a, (k1_off43 i) a + S16x128.size a ≤ S16384x128.size a
  k1_t4_ok : k1_t4_loop.OK
  k1_off44_inb : ∀ k1_t4 : Fin k1_t4_loop.trips, ∀ a, (k1_off44 k1_t4) a + S1x1x16.size a ≤ S4x16x128.size a
  k1_off45_inb : ∀ k1_t4 : Fin k1_t4_loop.trips, ∀ a, (k1_off45 k1_t4) a + S1x1x16.size a ≤ S4x16x128.size a
  k1_off46_inb : ∀ k1_t4 : Fin k1_t4_loop.trips, ∀ a, (k1_off46 k1_t4) a + S1x1x16.size a ≤ S4x16x128.size a
  k1_off47_inb : ∀ k1_t4 : Fin k1_t4_loop.trips, ∀ a, (k1_off47 k1_t4) a + S1x1x16.size a ≤ S4x16x128.size a
  k1_off48_inb : ∀ k1_t4 : Fin k1_t4_loop.trips, ∀ a, (k1_off48 k1_t4) a + S1x1x16.size a ≤ S4x16x128.size a
  k1_off49_inb : ∀ k1_t4 : Fin k1_t4_loop.trips, ∀ a, (k1_off49 k1_t4) a + S1x1x16.size a ≤ S4x16x128.size a
  k1_off50_inb : ∀ k1_t4 : Fin k1_t4_loop.trips, ∀ a, (k1_off50 k1_t4) a + S1x1x16.size a ≤ S4x16x128.size a
  k1_off51_inb : ∀ k1_t4 : Fin k1_t4_loop.trips, ∀ a, (k1_off51 k1_t4) a + S1x1x16.size a ≤ S4x16x128.size a
  k1_off52_inb : ∀ k1_t4 : Fin k1_t4_loop.trips, ∀ (r : Fin 8), ∀ a, (k1_off52 k1_t4 (BitVec.ofNat 32 r.val)) a + S1x1x16.size a ≤ S4x128x128.size a
  k1_off53_inb : ∀ k1_t4 : Fin k1_t4_loop.trips, ∀ (r : Fin 8), ∀ a, (k1_off53 k1_t4 (BitVec.ofNat 32 r.val)) a + S1x1x16.size a ≤ S4x128x128.size a
  k1_off54_inb : ∀ k1_t4 : Fin k1_t4_loop.trips, ∀ (r : Fin 8), ∀ a, (k1_off54 k1_t4 (BitVec.ofNat 32 r.val)) a + S1x1x16.size a ≤ S4x128x128.size a
  k1_off55_inb : ∀ k1_t4 : Fin k1_t4_loop.trips, ∀ (r : Fin 8), ∀ a, (k1_off55 k1_t4 (BitVec.ofNat 32 r.val)) a + S1x1x16.size a ≤ S4x128x128.size a
  k1_off56_inb : ∀ k1_t4 : Fin k1_t4_loop.trips, ∀ (r : Fin 8), ∀ a, (k1_off56 k1_t4 (BitVec.ofNat 32 r.val)) a + S1x1x16.size a ≤ S4x128x128.size a
  k1_off57_inb : ∀ k1_t4 : Fin k1_t4_loop.trips, ∀ (r : Fin 8), ∀ a, (k1_off57 k1_t4 (BitVec.ofNat 32 r.val)) a + S1x1x16.size a ≤ S4x128x128.size a
  k1_off58_inb : ∀ k1_t4 : Fin k1_t4_loop.trips, ∀ (r : Fin 8), ∀ a, (k1_off58 k1_t4 (BitVec.ofNat 32 r.val)) a + S1x1x16.size a ≤ S4x128x128.size a
  k1_off59_inb : ∀ k1_t4 : Fin k1_t4_loop.trips, ∀ (r : Fin 8), ∀ a, (k1_off59 k1_t4 (BitVec.ofNat 32 r.val)) a + S1x1x16.size a ≤ S4x128x128.size a
  k1_off60_inb : ∀ k1_t1 : Fin k1_t1_loop.trips, ∀ (k1_h6 : k1_cond6 k1_t1 = 1#1), ∀ a, (k1_off60 k1_t1) a + S1x128.size a ≤ S32x128.size a
  k1_off61_inb : ∀ (i : grid1.Coords) (k1_t1 : Fin k1_t1_loop.trips), ∀ (k1_h6 : k1_cond6 k1_t1 = 1#1), ∀ a, (k1_off61 i k1_t1) a + S16x128.size a ≤ S16384x128.size a
  k1_off62_inb : ∀ (i : grid1.Coords) (k1_t1 : Fin k1_t1_loop.trips), ∀ (k1_h7 : k1_cond7 k1_t1 = 1#1), ∀ a, (k1_off62 i) a + S16x128.size a ≤ S16384x128.size a
  k1_t5_ok : k1_t5_loop.OK
  k1_off63_inb : ∀ k1_t5 : Fin k1_t5_loop.trips, ∀ a, (k1_off63 k1_t5) a + S1x1x16.size a ≤ S4x16x128.size a
  k1_off64_inb : ∀ k1_t5 : Fin k1_t5_loop.trips, ∀ a, (k1_off64 k1_t5) a + S1x1x16.size a ≤ S4x16x128.size a
  k1_off65_inb : ∀ k1_t5 : Fin k1_t5_loop.trips, ∀ a, (k1_off65 k1_t5) a + S1x1x16.size a ≤ S4x16x128.size a
  k1_off66_inb : ∀ k1_t5 : Fin k1_t5_loop.trips, ∀ a, (k1_off66 k1_t5) a + S1x1x16.size a ≤ S4x16x128.size a
  k1_off67_inb : ∀ k1_t5 : Fin k1_t5_loop.trips, ∀ a, (k1_off67 k1_t5) a + S1x1x16.size a ≤ S4x16x128.size a
  k1_off68_inb : ∀ k1_t5 : Fin k1_t5_loop.trips, ∀ a, (k1_off68 k1_t5) a + S1x1x16.size a ≤ S4x16x128.size a
  k1_off69_inb : ∀ k1_t5 : Fin k1_t5_loop.trips, ∀ a, (k1_off69 k1_t5) a + S1x1x16.size a ≤ S4x16x128.size a
  k1_off70_inb : ∀ k1_t5 : Fin k1_t5_loop.trips, ∀ a, (k1_off70 k1_t5) a + S1x1x16.size a ≤ S4x16x128.size a
  k1_off71_inb : ∀ k1_t5 : Fin k1_t5_loop.trips, ∀ (r : Fin 8), ∀ a, (k1_off71 k1_t5 (BitVec.ofNat 32 r.val)) a + S1x1x16.size a ≤ S4x128x128.size a
  k1_off72_inb : ∀ k1_t5 : Fin k1_t5_loop.trips, ∀ (r : Fin 8), ∀ a, (k1_off72 k1_t5 (BitVec.ofNat 32 r.val)) a + S1x1x16.size a ≤ S4x128x128.size a
  k1_off73_inb : ∀ k1_t5 : Fin k1_t5_loop.trips, ∀ (r : Fin 8), ∀ a, (k1_off73 k1_t5 (BitVec.ofNat 32 r.val)) a + S1x1x16.size a ≤ S4x128x128.size a
  k1_off74_inb : ∀ k1_t5 : Fin k1_t5_loop.trips, ∀ (r : Fin 8), ∀ a, (k1_off74 k1_t5 (BitVec.ofNat 32 r.val)) a + S1x1x16.size a ≤ S4x128x128.size a
  k1_off75_inb : ∀ k1_t5 : Fin k1_t5_loop.trips, ∀ (r : Fin 8), ∀ a, (k1_off75 k1_t5 (BitVec.ofNat 32 r.val)) a + S1x1x16.size a ≤ S4x128x128.size a
  k1_off76_inb : ∀ k1_t5 : Fin k1_t5_loop.trips, ∀ (r : Fin 8), ∀ a, (k1_off76 k1_t5 (BitVec.ofNat 32 r.val)) a + S1x1x16.size a ≤ S4x128x128.size a
  k1_off77_inb : ∀ k1_t5 : Fin k1_t5_loop.trips, ∀ (r : Fin 8), ∀ a, (k1_off77 k1_t5 (BitVec.ofNat 32 r.val)) a + S1x1x16.size a ≤ S4x128x128.size a
  k1_off78_inb : ∀ k1_t5 : Fin k1_t5_loop.trips, ∀ (r : Fin 8), ∀ a, (k1_off78 k1_t5 (BitVec.ofNat 32 r.val)) a + S1x1x16.size a ≤ S4x128x128.size a
  k1_off79_inb : ∀ k1_t1 : Fin k1_t1_loop.trips, ∀ (k1_h8 : k1_cond8 k1_t1 = 1#1), ∀ a, (k1_off79 k1_t1) a + S1x128.size a ≤ S32x128.size a
  k1_off80_inb : ∀ (i : grid1.Coords) (k1_t1 : Fin k1_t1_loop.trips), ∀ (k1_h8 : k1_cond8 k1_t1 = 1#1), ∀ a, (k1_off80 i k1_t1) a + S16x128.size a ≤ S16384x128.size a
  k1_off81_inb : ∀ i : grid1.Coords, ∀ a, (k1_off81 i) a + S16x128.size a ≤ S16384x128.size a

variable [Facts₀]

abbrev cc1_scratch4 : DmaSems sig S_ := SemArray.consecutive 11 S_ hcc1_scratch4
abbrev cc1_scratch5 : DmaSems sig S_ := SemArray.consecutive 12 S_ hcc1_scratch5
abbrev cc1_scratch6 : DmaSems sig S_ := SemArray.consecutive 13 S_ hcc1_scratch6
abbrev cc1_scratch7 : DmaSems sig S_ := SemArray.consecutive 14 S_ hcc1_scratch7
abbrev cc1_scratch8 : DmaSems sig S_ := SemArray.consecutive 15 S_ hcc1_scratch8
abbrev cc1_scratch9 : DmaSems sig S_ := SemArray.consecutive 16 S_ hcc1_scratch9
abbrev cc1_scratch10 : DmaSems sig S_ := SemArray.consecutive 17 S_ hcc1_scratch10
abbrev cc1_scratch11 : DmaSems sig S_ := SemArray.consecutive 18 S_ hcc1_scratch11
abbrev cc1_scratch12 : DmaSems sig S_ := SemArray.consecutive 19 S_ hcc1_scratch12
abbrev cc1_scratch13 : DmaSems sig S_ := SemArray.consecutive 20 S_ hcc1_scratch13
abbrev cc1_scratch14 : DmaSems sig S_ := SemArray.consecutive 21 S_ hcc1_scratch14
abbrev cc1_scratch15 : DmaSems sig S_ := SemArray.consecutive 22 S_ hcc1_scratch15
abbrev cc1_scoped0 : DmaSems sig S_ := SemArray.consecutive 23 S_ hcc1_scoped0
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x512x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S8x128x32x32x32 : Shape := ⟨5, ![8, 128, 32, 32, 32]⟩
abbrev S128x3 : Shape := ⟨2, ![128, 3]⟩
abbrev S8x2048x3 : Shape := ⟨3, ![8, 2048, 3]⟩
abbrev S_ : Shape := ⟨0, ![]⟩
abbrev S8x2048x1 : Shape := ⟨3, ![8, 2048, 1]⟩
abbrev S8x2048 : Shape := ⟨2, ![8, 2048]⟩
abbrev S8 : Shape := ⟨1, ![8]⟩
abbrev S8x1 : Shape := ⟨2, ![8, 1]⟩
abbrev S8x2048x4 : Shape := ⟨3, ![8, 2048, 4]⟩
abbrev S8x2048x259 : Shape := ⟨3, ![8, 2048, 259]⟩

abbrev nBuf : Space → Nat
  | .hbm => 982
  | .vmem => 0
  | .smem => 0
  | _ => 0

abbrev hbmTy0_0 (i : Nat) : BufTy := match i % 128 with
  | 0 => ⟨S8x2048x128, .f32⟩
  | 1 => ⟨S8x2048x2048, .f32⟩
  | 2 => ⟨S8x128x32x32x32, .f32⟩
  | 3 => ⟨S128x3, .f32⟩
  | 4 => ⟨S8x2048x128, .f32⟩
  | 5 => ⟨S8x2048x3, .f32⟩
  | 6 => ⟨S_, .f32⟩
  | 7 => ⟨S8x2048x3, .f32⟩
  | 8 => ⟨S8x2048x3, .f32⟩
  | 9 => ⟨S_, .f32⟩
  | 10 => ⟨S8x2048x3, .f32⟩
  | 11 => ⟨S8x2048x3, .f32⟩
  | 12 => ⟨S8x2048x1, .f32⟩
  | 13 => ⟨S8x2048, .f32⟩
  | 14 => ⟨S_, .f32⟩
  | 15 => ⟨S8x2048, .f32⟩
  | 16 => ⟨S8x2048, .f32⟩
  | 17 => ⟨S_, .f32⟩
  | 18 => ⟨S8x2048, .f32⟩
  | 19 => ⟨S8x2048, .f32⟩
  | 20 => ⟨S_, .f32⟩
  | 21 => ⟨S8x2048, .f32⟩
  | 22 => ⟨S8x2048, .f32⟩
  | 23 => ⟨S8x2048x1, .f32⟩
  | 24 => ⟨S8x2048, .f32⟩
  | 25 => ⟨S_, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S_, .f32⟩
  | 32 => ⟨S8x2048, .f32⟩
  | 33 => ⟨S8x2048, .f32⟩
  | 34 => ⟨S8x2048x1, .f32⟩
  | 35 => ⟨S8x2048, .f32⟩
  | 36 => ⟨S_, .f32⟩
  | 37 => ⟨S8x2048, .f32⟩
  | 38 => ⟨S8x2048, .f32⟩
  | 39 => ⟨S_, .f32⟩
  | 40 => ⟨S8x2048, .f32⟩
  | 41 => ⟨S8x2048, .f32⟩
  | 42 => ⟨S_, .f32⟩
  | 43 => ⟨S8x2048, .f32⟩
  | 44 => ⟨S8x2048, .f32⟩
  | 45 => ⟨S8x2048, .f32⟩
  | 46 => ⟨S8x2048, .f32⟩
  | 47 => ⟨S8x2048, .f32⟩
  | 48 => ⟨S8, .i32⟩
  | 49 => ⟨S8x1, .i32⟩
  | 50 => ⟨S8x2048, .i32⟩
  | 51 => ⟨S_, .f32⟩
  | 52 => ⟨S8x2048x128, .f32⟩
  | 53 => ⟨S_, .f32⟩
  | 54 => ⟨S8x2048, .f32⟩
  | 55 => ⟨S8x2048, .f32⟩
  | 56 => ⟨S_, .f32⟩
  | 57 => ⟨S8x2048, .f32⟩
  | 58 => ⟨S8x2048, .f32⟩
  | 59 => ⟨S_, .f32⟩
  | 60 => ⟨S8x2048, .f32⟩
  | 61 => ⟨S8x2048, .f32⟩
  | 62 => ⟨S8x2048, .f32⟩
  | 63 => ⟨S8x2048, .f32⟩
  | 64 => ⟨S_, .f32⟩
  | 65 => ⟨S8x2048, .f32⟩
  | 66 => ⟨S8x2048, .f32⟩
  | 67 => ⟨S8x2048, .f32⟩
  | 68 => ⟨S8x2048, .f32⟩
  | 69 => ⟨S_, .f32⟩
  | 70 => ⟨S8x2048, .f32⟩
  | 71 => ⟨S8x2048, .f32⟩
  | 72 => ⟨S8x2048, .f32⟩
  | 73 => ⟨S8x2048, .f32⟩
  | 74 => ⟨S8x2048, .f32⟩
  | 75 => ⟨S_, .f32⟩
  | 76 => ⟨S8x2048, .f32⟩
  | 77 => ⟨S8x2048, .f32⟩
  | 78 => ⟨S8x2048, .f32⟩
  | 79 => ⟨S_, .f32⟩
  | 80 => ⟨S8x2048, .f32⟩
  | 81 => ⟨S8x2048, .i1⟩
  | 82 => ⟨S_, .f32⟩
  | 83 => ⟨S8x2048, .f32⟩
  | 84 => ⟨S8x2048, .i1⟩
  | 85 => ⟨S8x2048, .i1⟩
  | 86 => ⟨S_, .f32⟩
  | 87 => ⟨S8x2048, .f32⟩
  | 88 => ⟨S8x2048, .i1⟩
  | 89 => ⟨S8x2048, .i1⟩
  | 90 => ⟨S_, .f32⟩
  | 91 => ⟨S8x2048, .f32⟩
  | 92 => ⟨S8x2048, .i1⟩
  | 93 => ⟨S8x2048, .i1⟩
  | 94 => ⟨S_, .f32⟩
  | 95 => ⟨S8x2048, .f32⟩
  | 96 => ⟨S8x2048, .i1⟩
  | 97 => ⟨S8x2048, .i1⟩
  | 98 => ⟨S_, .f32⟩
  | 99 => ⟨S8x2048, .f32⟩
  | 100 => ⟨S8x2048, .i1⟩
  | 101 => ⟨S8x2048, .i1⟩
  | 102 => ⟨S_, .i32⟩
  | 103 => ⟨S_, .i32⟩
  | 104 => ⟨S_, .f32⟩
  | 105 => ⟨S8x2048, .f32⟩
  | 106 => ⟨S8x2048, .f32⟩
  | 107 => ⟨S_, .f32⟩
  | 108 => ⟨S8x2048, .f32⟩
  | 109 => ⟨S8x2048, .f32⟩
  | 110 => ⟨S8x2048, .i32⟩
  | 111 => ⟨S_, .i32⟩
  | 112 => ⟨S_, .i32⟩
  | 113 => ⟨S_, .f32⟩
  | 114 => ⟨S8x2048, .f32⟩
  | 115 => ⟨S8x2048, .f32⟩
  | 116 => ⟨S_, .f32⟩
  | 117 => ⟨S8x2048, .f32⟩
  | 118 => ⟨S8x2048, .f32⟩
  | 119 => ⟨S8x2048, .i32⟩
  | 120 => ⟨S_, .i32⟩
  | 121 => ⟨S_, .i32⟩
  | 122 => ⟨S_, .f32⟩
  | 123 => ⟨S8x2048, .f32⟩
  | 124 => ⟨S8x2048, .f32⟩
  | 125 => ⟨S_, .f32⟩
  | 126 => ⟨S8x2048, .f32⟩
  | 127 => ⟨S8x2048, .f32⟩
  | _ => ⟨S8x2048x128, .f32⟩

abbrev hbmTy0_1 (i : Nat) : BufTy := match i % 128 with
  | 0 => ⟨S8x2048, .i32⟩
  | 1 => ⟨S_, .i32⟩
  | 2 => ⟨S8x2048, .i32⟩
  | 3 => ⟨S8x2048, .i1⟩
  | 4 => ⟨S_, .i32⟩
  | 5 => ⟨S8x2048, .i32⟩
  | 6 => ⟨S8x2048, .i32⟩
  | 7 => ⟨S8x2048, .i32⟩
  | 8 => ⟨S_, .i32⟩
  | 9 => ⟨S8x2048, .i32⟩
  | 10 => ⟨S8x2048, .i1⟩
  | 11 => ⟨S_, .i32⟩
  | 12 => ⟨S8x2048, .i32⟩
  | 13 => ⟨S8x2048, .i32⟩
  | 14 => ⟨S8x2048, .i32⟩
  | 15 => ⟨S_, .i32⟩
  | 16 => ⟨S8x2048, .i32⟩
  | 17 => ⟨S8x2048, .i1⟩
  | 18 => ⟨S_, .i32⟩
  | 19 => ⟨S8x2048, .i32⟩
  | 20 => ⟨S8x2048, .i32⟩
  | 21 => ⟨S8x2048, .i32⟩
  | 22 => ⟨S_, .i32⟩
  | 23 => ⟨S8x2048, .i32⟩
  | 24 => ⟨S8x2048, .i1⟩
  | 25 => ⟨S_, .i32⟩
  | 26 => ⟨S8x2048, .i32⟩
  | 27 => ⟨S8x2048, .i32⟩
  | 28 => ⟨S8x2048, .i32⟩
  | 29 => ⟨S8x2048x1, .i32⟩
  | 30 => ⟨S8x2048x1, .i32⟩
  | 31 => ⟨S8x2048x1, .i32⟩
  | 32 => ⟨S8x2048x1, .i32⟩
  | 33 => ⟨S8x2048x4, .i32⟩
  | 34 => ⟨S8x2048x128, .f32⟩
  | 35 => ⟨S8x2048, .f32⟩
  | 36 => ⟨S8x2048, .f32⟩
  | 37 => ⟨S8x2048x1, .f32⟩
  | 38 => ⟨S8x2048x128, .f32⟩
  | 39 => ⟨S8x2048x128, .f32⟩
  | 40 => ⟨S8x2048x128, .f32⟩
  | 41 => ⟨S_, .f32⟩
  | 42 => ⟨S8x2048, .f32⟩
  | 43 => ⟨S8x2048, .f32⟩
  | 44 => ⟨S_, .f32⟩
  | 45 => ⟨S8x2048, .f32⟩
  | 46 => ⟨S8x2048, .f32⟩
  | 47 => ⟨S_, .f32⟩
  | 48 => ⟨S8x2048, .f32⟩
  | 49 => ⟨S8x2048, .f32⟩
  | 50 => ⟨S8x2048, .f32⟩
  | 51 => ⟨S8x2048, .f32⟩
  | 52 => ⟨S_, .f32⟩
  | 53 => ⟨S8x2048, .f32⟩
  | 54 => ⟨S8x2048, .f32⟩
  | 55 => ⟨S8x2048, .f32⟩
  | 56 => ⟨S8x2048, .f32⟩
  | 57 => ⟨S_, .f32⟩
  | 58 => ⟨S8x2048, .f32⟩
  | 59 => ⟨S8x2048, .f32⟩
  | 60 => ⟨S8x2048, .f32⟩
  | 61 => ⟨S8x2048, .f32⟩
  | 62 => ⟨S8x2048, .f32⟩
  | 63 => ⟨S_, .f32⟩
  | 64 => ⟨S8x2048, .f32⟩
  | 65 => ⟨S8x2048, .f32⟩
  | 66 => ⟨S8x2048, .f32⟩
  | 67 => ⟨S_, .f32⟩
  | 68 => ⟨S8x2048, .f32⟩
  | 69 => ⟨S8x2048, .i1⟩
  | 70 => ⟨S_, .f32⟩
  | 71 => ⟨S8x2048, .f32⟩
  | 72 => ⟨S8x2048, .i1⟩
  | 73 => ⟨S8x2048, .i1⟩
  | 74 => ⟨S_, .f32⟩
  | 75 => ⟨S8x2048, .f32⟩
  | 76 => ⟨S8x2048, .i1⟩
  | 77 => ⟨S8x2048, .i1⟩
  | 78 => ⟨S_, .f32⟩
  | 79 => ⟨S8x2048, .f32⟩
  | 80 => ⟨S8x2048, .i1⟩
  | 81 => ⟨S8x2048, .i1⟩
  | 82 => ⟨S_, .f32⟩
  | 83 => ⟨S8x2048, .f32⟩
  | 84 => ⟨S8x2048, .i1⟩
  | 85 => ⟨S8x2048, .i1⟩
  | 86 => ⟨S_, .f32⟩
  | 87 => ⟨S8x2048, .f32⟩
  | 88 => ⟨S8x2048, .i1⟩
  | 89 => ⟨S8x2048, .i1⟩
  | 90 => ⟨S_, .i32⟩
  | 91 => ⟨S_, .i32⟩
  | 92 => ⟨S_, .f32⟩
  | 93 => ⟨S8x2048, .f32⟩
  | 94 => ⟨S8x2048, .f32⟩
  | 95 => ⟨S_, .f32⟩
  | 96 => ⟨S8x2048, .f32⟩
  | 97 => ⟨S8x2048, .f32⟩
  | 98 => ⟨S8x2048, .i32⟩
  | 99 => ⟨S_, .i32⟩
  | 100 => ⟨S_, .i32⟩
  | 101 => ⟨S_, .f32⟩
  | 102 => ⟨S8x2048, .f32⟩
  | 103 => ⟨S8x2048, .f32⟩
  | 104 => ⟨S_, .f32⟩
  | 105 => ⟨S8x2048, .f32⟩
  | 106 => ⟨S8x2048, .f32⟩
  | 107 => ⟨S8x2048, .i32⟩
  | 108 => ⟨S_, .i32⟩
  | 109 => ⟨S_, .i32⟩
  | 110 => ⟨S_, .f32⟩
  | 111 => ⟨S8x2048, .f32⟩
  | 112 => ⟨S8x2048, .f32⟩
  | 113 => ⟨S_, .f32⟩
  | 114 => ⟨S8x2048, .f32⟩
  | 115 => ⟨S8x2048, .f32⟩
  | 116 => ⟨S8x2048, .i32⟩
  | 117 => ⟨S_, .i32⟩
  | 118 => ⟨S8x2048, .i32⟩
  | 119 => ⟨S8x2048, .i1⟩
  | 120 => ⟨S_, .i32⟩
  | 121 => ⟨S8x2048, .i32⟩
  | 122 => ⟨S8x2048, .i32⟩
  | 123 => ⟨S8x2048, .i32⟩
  | 124 => ⟨S_, .i32⟩
  | 125 => ⟨S8x2048, .i32⟩
  | 126 => ⟨S8x2048, .i1⟩
  | 127 => ⟨S_, .i32⟩
  | _ => ⟨S8x2048x128, .f32⟩

abbrev hbmTy0_2 (i : Nat) : BufTy := match i % 128 with
  | 0 => ⟨S8x2048, .i32⟩
  | 1 => ⟨S8x2048, .i32⟩
  | 2 => ⟨S8x2048, .i32⟩
  | 3 => ⟨S_, .i32⟩
  | 4 => ⟨S8x2048, .i32⟩
  | 5 => ⟨S8x2048, .i1⟩
  | 6 => ⟨S_, .i32⟩
  | 7 => ⟨S8x2048, .i32⟩
  | 8 => ⟨S8x2048, .i32⟩
  | 9 => ⟨S8x2048, .i32⟩
  | 10 => ⟨S_, .i32⟩
  | 11 => ⟨S8x2048, .i32⟩
  | 12 => ⟨S8x2048, .i1⟩
  | 13 => ⟨S_, .i32⟩
  | 14 => ⟨S8x2048, .i32⟩
  | 15 => ⟨S8x2048, .i32⟩
  | 16 => ⟨S8x2048, .i32⟩
  | 17 => ⟨S8x2048x1, .i32⟩
  | 18 => ⟨S8x2048x1, .i32⟩
  | 19 => ⟨S8x2048x1, .i32⟩
  | 20 => ⟨S8x2048x1, .i32⟩
  | 21 => ⟨S8x2048x4, .i32⟩
  | 22 => ⟨S8x2048x128, .f32⟩
  | 23 => ⟨S8x2048, .f32⟩
  | 24 => ⟨S8x2048, .f32⟩
  | 25 => ⟨S8x2048x1, .f32⟩
  | 26 => ⟨S8x2048x128, .f32⟩
  | 27 => ⟨S8x2048x128, .f32⟩
  | 28 => ⟨S8x2048x128, .f32⟩
  | 29 => ⟨S_, .f32⟩
  | 30 => ⟨S8x2048, .f32⟩
  | 31 => ⟨S8x2048, .f32⟩
  | 32 => ⟨S_, .f32⟩
  | 33 => ⟨S8x2048, .f32⟩
  | 34 => ⟨S8x2048, .f32⟩
  | 35 => ⟨S_, .f32⟩
  | 36 => ⟨S8x2048, .f32⟩
  | 37 => ⟨S8x2048, .f32⟩
  | 38 => ⟨S8x2048, .f32⟩
  | 39 => ⟨S8x2048, .f32⟩
  | 40 => ⟨S_, .f32⟩
  | 41 => ⟨S8x2048, .f32⟩
  | 42 => ⟨S8x2048, .f32⟩
  | 43 => ⟨S8x2048, .f32⟩
  | 44 => ⟨S8x2048, .f32⟩
  | 45 => ⟨S_, .f32⟩
  | 46 => ⟨S8x2048, .f32⟩
  | 47 => ⟨S8x2048, .f32⟩
  | 48 => ⟨S8x2048, .f32⟩
  | 49 => ⟨S8x2048, .f32⟩
  | 50 => ⟨S8x2048, .f32⟩
  | 51 => ⟨S_, .f32⟩
  | 52 => ⟨S8x2048, .f32⟩
  | 53 => ⟨S8x2048, .f32⟩
  | 54 => ⟨S8x2048, .f32⟩
  | 55 => ⟨S_, .f32⟩
  | 56 => ⟨S8x2048, .f32⟩
  | 57 => ⟨S8x2048, .i1⟩
  | 58 => ⟨S_, .f32⟩
  | 59 => ⟨S8x2048, .f32⟩
  | 60 => ⟨S8x2048, .i1⟩
  | 61 => ⟨S8x2048, .i1⟩
  | 62 => ⟨S_, .f32⟩
  | 63 => ⟨S8x2048, .f32⟩
  | 64 => ⟨S8x2048, .i1⟩
  | 65 => ⟨S8x2048, .i1⟩
  | 66 => ⟨S_, .f32⟩
  | 67 => ⟨S8x2048, .f32⟩
  | 68 => ⟨S8x2048, .i1⟩
  | 69 => ⟨S8x2048, .i1⟩
  | 70 => ⟨S_, .f32⟩
  | 71 => ⟨S8x2048, .f32⟩
  | 72 => ⟨S8x2048, .i1⟩
  | 73 => ⟨S8x2048, .i1⟩
  | 74 => ⟨S_, .f32⟩
  | 75 => ⟨S8x2048, .f32⟩
  | 76 => ⟨S8x2048, .i1⟩
  | 77 => ⟨S8x2048, .i1⟩
  | 78 => ⟨S_, .i32⟩
  | 79 => ⟨S_, .i32⟩
  | 80 => ⟨S_, .f32⟩
  | 81 => ⟨S8x2048, .f32⟩
  | 82 => ⟨S8x2048, .f32⟩
  | 83 => ⟨S_, .f32⟩
  | 84 => ⟨S8x2048, .f32⟩
  | 85 => ⟨S8x2048, .f32⟩
  | 86 => ⟨S8x2048, .i32⟩
  | 87 => ⟨S_, .i32⟩
  | 88 => ⟨S_, .i32⟩
  | 89 => ⟨S_, .f32⟩
  | 90 => ⟨S8x2048, .f32⟩
  | 91 => ⟨S8x2048, .f32⟩
  | 92 => ⟨S_, .f32⟩
  | 93 => ⟨S8x2048, .f32⟩
  | 94 => ⟨S8x2048, .f32⟩
  | 95 => ⟨S8x2048, .i32⟩
  | 96 => ⟨S_, .i32⟩
  | 97 => ⟨S_, .i32⟩
  | 98 => ⟨S_, .f32⟩
  | 99 => ⟨S8x2048, .f32⟩
  | 100 => ⟨S8x2048, .f32⟩
  | 101 => ⟨S_, .f32⟩
  | 102 => ⟨S8x2048, .f32⟩
  | 103 => ⟨S8x2048, .f32⟩
  | 104 => ⟨S8x2048, .i32⟩
  | 105 => ⟨S_, .i32⟩
  | 106 => ⟨S8x2048, .i32⟩
  | 107 => ⟨S8x2048, .i1⟩
  | 108 => ⟨S_, .i32⟩
  | 109 => ⟨S8x2048, .i32⟩
  | 110 => ⟨S8x2048, .i32⟩
  | 111 => ⟨S8x2048, .i32⟩
  | 112 => ⟨S_, .i32⟩
  | 113 => ⟨S8x2048, .i32⟩
  | 114 => ⟨S8x2048, .i1⟩
  | 115 => ⟨S_, .i32⟩
  | 116 => ⟨S8x2048, .i32⟩
  | 117 => ⟨S8x2048, .i32⟩
  | 118 => ⟨S8x2048, .i32⟩
  | 119 => ⟨S_, .i32⟩
  | 120 => ⟨S8x2048, .i32⟩
  | 121 => ⟨S8x2048, .i1⟩
  | 122 => ⟨S_, .i32⟩
  | 123 => ⟨S8x2048, .i32⟩
  | 124 => ⟨S8x2048, .i32⟩
  | 125 => ⟨S8x2048, .i32⟩
  | 126 => ⟨S_, .i32⟩
  | 127 => ⟨S8x2048, .i32⟩
  | _ => ⟨S8x2048x128, .f32⟩

abbrev hbmTy0_3 (i : Nat) : BufTy := match i % 128 with
  | 0 => ⟨S8x2048, .i1⟩
  | 1 => ⟨S_, .i32⟩
  | 2 => ⟨S8x2048, .i32⟩
  | 3 => ⟨S8x2048, .i32⟩
  | 4 => ⟨S8x2048, .i32⟩
  | 5 => ⟨S8x2048x1, .i32⟩
  | 6 => ⟨S8x2048x1, .i32⟩
  | 7 => ⟨S8x2048x1, .i32⟩
  | 8 => ⟨S8x2048x1, .i32⟩
  | 9 => ⟨S8x2048x4, .i32⟩
  | 10 => ⟨S8x2048x128, .f32⟩
  | 11 => ⟨S8x2048, .f32⟩
  | 12 => ⟨S8x2048, .f32⟩
  | 13 => ⟨S8x2048x1, .f32⟩
  | 14 => ⟨S8x2048x128, .f32⟩
  | 15 => ⟨S8x2048x128, .f32⟩
  | 16 => ⟨S8x2048x128, .f32⟩
  | 17 => ⟨S_, .f32⟩
  | 18 => ⟨S8x2048, .f32⟩
  | 19 => ⟨S8x2048, .f32⟩
  | 20 => ⟨S_, .f32⟩
  | 21 => ⟨S8x2048, .f32⟩
  | 22 => ⟨S8x2048, .f32⟩
  | 23 => ⟨S_, .f32⟩
  | 24 => ⟨S8x2048, .f32⟩
  | 25 => ⟨S8x2048, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S8x2048, .f32⟩
  | 32 => ⟨S8x2048, .f32⟩
  | 33 => ⟨S_, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S_, .f32⟩
  | 40 => ⟨S8x2048, .f32⟩
  | 41 => ⟨S8x2048, .f32⟩
  | 42 => ⟨S8x2048, .f32⟩
  | 43 => ⟨S_, .f32⟩
  | 44 => ⟨S8x2048, .f32⟩
  | 45 => ⟨S8x2048, .i1⟩
  | 46 => ⟨S_, .f32⟩
  | 47 => ⟨S8x2048, .f32⟩
  | 48 => ⟨S8x2048, .i1⟩
  | 49 => ⟨S8x2048, .i1⟩
  | 50 => ⟨S_, .f32⟩
  | 51 => ⟨S8x2048, .f32⟩
  | 52 => ⟨S8x2048, .i1⟩
  | 53 => ⟨S8x2048, .i1⟩
  | 54 => ⟨S_, .f32⟩
  | 55 => ⟨S8x2048, .f32⟩
  | 56 => ⟨S8x2048, .i1⟩
  | 57 => ⟨S8x2048, .i1⟩
  | 58 => ⟨S_, .f32⟩
  | 59 => ⟨S8x2048, .f32⟩
  | 60 => ⟨S8x2048, .i1⟩
  | 61 => ⟨S8x2048, .i1⟩
  | 62 => ⟨S_, .f32⟩
  | 63 => ⟨S8x2048, .f32⟩
  | 64 => ⟨S8x2048, .i1⟩
  | 65 => ⟨S8x2048, .i1⟩
  | 66 => ⟨S_, .i32⟩
  | 67 => ⟨S_, .i32⟩
  | 68 => ⟨S_, .f32⟩
  | 69 => ⟨S8x2048, .f32⟩
  | 70 => ⟨S8x2048, .f32⟩
  | 71 => ⟨S_, .f32⟩
  | 72 => ⟨S8x2048, .f32⟩
  | 73 => ⟨S8x2048, .f32⟩
  | 74 => ⟨S8x2048, .i32⟩
  | 75 => ⟨S_, .i32⟩
  | 76 => ⟨S_, .i32⟩
  | 77 => ⟨S_, .f32⟩
  | 78 => ⟨S8x2048, .f32⟩
  | 79 => ⟨S8x2048, .f32⟩
  | 80 => ⟨S_, .f32⟩
  | 81 => ⟨S8x2048, .f32⟩
  | 82 => ⟨S8x2048, .f32⟩
  | 83 => ⟨S8x2048, .i32⟩
  | 84 => ⟨S_, .i32⟩
  | 85 => ⟨S_, .i32⟩
  | 86 => ⟨S_, .f32⟩
  | 87 => ⟨S8x2048, .f32⟩
  | 88 => ⟨S8x2048, .f32⟩
  | 89 => ⟨S_, .f32⟩
  | 90 => ⟨S8x2048, .f32⟩
  | 91 => ⟨S8x2048, .f32⟩
  | 92 => ⟨S8x2048, .i32⟩
  | 93 => ⟨S_, .i32⟩
  | 94 => ⟨S8x2048, .i32⟩
  | 95 => ⟨S8x2048, .i1⟩
  | 96 => ⟨S_, .i32⟩
  | 97 => ⟨S8x2048, .i32⟩
  | 98 => ⟨S8x2048, .i32⟩
  | 99 => ⟨S8x2048, .i32⟩
  | 100 => ⟨S_, .i32⟩
  | 101 => ⟨S8x2048, .i32⟩
  | 102 => ⟨S8x2048, .i1⟩
  | 103 => ⟨S_, .i32⟩
  | 104 => ⟨S8x2048, .i32⟩
  | 105 => ⟨S8x2048, .i32⟩
  | 106 => ⟨S8x2048, .i32⟩
  | 107 => ⟨S_, .i32⟩
  | 108 => ⟨S8x2048, .i32⟩
  | 109 => ⟨S8x2048, .i1⟩
  | 110 => ⟨S_, .i32⟩
  | 111 => ⟨S8x2048, .i32⟩
  | 112 => ⟨S8x2048, .i32⟩
  | 113 => ⟨S8x2048, .i32⟩
  | 114 => ⟨S_, .i32⟩
  | 115 => ⟨S8x2048, .i32⟩
  | 116 => ⟨S8x2048, .i1⟩
  | 117 => ⟨S_, .i32⟩
  | 118 => ⟨S8x2048, .i32⟩
  | 119 => ⟨S8x2048, .i32⟩
  | 120 => ⟨S8x2048, .i32⟩
  | 121 => ⟨S8x2048x1, .i32⟩
  | 122 => ⟨S8x2048x1, .i32⟩
  | 123 => ⟨S8x2048x1, .i32⟩
  | 124 => ⟨S8x2048x1, .i32⟩
  | 125 => ⟨S8x2048x4, .i32⟩
  | 126 => ⟨S8x2048x128, .f32⟩
  | 127 => ⟨S8x2048, .f32⟩
  | _ => ⟨S8x2048x128, .f32⟩

abbrev hbmTy0_4 (i : Nat) : BufTy := match i % 128 with
  | 0 => ⟨S8x2048, .f32⟩
  | 1 => ⟨S8x2048x1, .f32⟩
  | 2 => ⟨S8x2048x128, .f32⟩
  | 3 => ⟨S8x2048x128, .f32⟩
  | 4 => ⟨S8x2048x128, .f32⟩
  | 5 => ⟨S_, .f32⟩
  | 6 => ⟨S8x2048, .f32⟩
  | 7 => ⟨S8x2048, .f32⟩
  | 8 => ⟨S_, .f32⟩
  | 9 => ⟨S8x2048, .f32⟩
  | 10 => ⟨S8x2048, .f32⟩
  | 11 => ⟨S_, .f32⟩
  | 12 => ⟨S8x2048, .f32⟩
  | 13 => ⟨S8x2048, .f32⟩
  | 14 => ⟨S8x2048, .f32⟩
  | 15 => ⟨S8x2048, .f32⟩
  | 16 => ⟨S_, .f32⟩
  | 17 => ⟨S8x2048, .f32⟩
  | 18 => ⟨S8x2048, .f32⟩
  | 19 => ⟨S8x2048, .f32⟩
  | 20 => ⟨S8x2048, .f32⟩
  | 21 => ⟨S_, .f32⟩
  | 22 => ⟨S8x2048, .f32⟩
  | 23 => ⟨S8x2048, .f32⟩
  | 24 => ⟨S8x2048, .f32⟩
  | 25 => ⟨S8x2048, .f32⟩
  | 26 => ⟨S8x2048, .f32⟩
  | 27 => ⟨S_, .f32⟩
  | 28 => ⟨S8x2048, .f32⟩
  | 29 => ⟨S8x2048, .f32⟩
  | 30 => ⟨S8x2048, .f32⟩
  | 31 => ⟨S_, .f32⟩
  | 32 => ⟨S8x2048, .f32⟩
  | 33 => ⟨S8x2048, .i1⟩
  | 34 => ⟨S_, .f32⟩
  | 35 => ⟨S8x2048, .f32⟩
  | 36 => ⟨S8x2048, .i1⟩
  | 37 => ⟨S8x2048, .i1⟩
  | 38 => ⟨S_, .f32⟩
  | 39 => ⟨S8x2048, .f32⟩
  | 40 => ⟨S8x2048, .i1⟩
  | 41 => ⟨S8x2048, .i1⟩
  | 42 => ⟨S_, .f32⟩
  | 43 => ⟨S8x2048, .f32⟩
  | 44 => ⟨S8x2048, .i1⟩
  | 45 => ⟨S8x2048, .i1⟩
  | 46 => ⟨S_, .f32⟩
  | 47 => ⟨S8x2048, .f32⟩
  | 48 => ⟨S8x2048, .i1⟩
  | 49 => ⟨S8x2048, .i1⟩
  | 50 => ⟨S_, .f32⟩
  | 51 => ⟨S8x2048, .f32⟩
  | 52 => ⟨S8x2048, .i1⟩
  | 53 => ⟨S8x2048, .i1⟩
  | 54 => ⟨S_, .i32⟩
  | 55 => ⟨S_, .i32⟩
  | 56 => ⟨S_, .f32⟩
  | 57 => ⟨S8x2048, .f32⟩
  | 58 => ⟨S8x2048, .f32⟩
  | 59 => ⟨S_, .f32⟩
  | 60 => ⟨S8x2048, .f32⟩
  | 61 => ⟨S8x2048, .f32⟩
  | 62 => ⟨S8x2048, .i32⟩
  | 63 => ⟨S_, .i32⟩
  | 64 => ⟨S_, .i32⟩
  | 65 => ⟨S_, .f32⟩
  | 66 => ⟨S8x2048, .f32⟩
  | 67 => ⟨S8x2048, .f32⟩
  | 68 => ⟨S_, .f32⟩
  | 69 => ⟨S8x2048, .f32⟩
  | 70 => ⟨S8x2048, .f32⟩
  | 71 => ⟨S8x2048, .i32⟩
  | 72 => ⟨S_, .i32⟩
  | 73 => ⟨S_, .i32⟩
  | 74 => ⟨S_, .f32⟩
  | 75 => ⟨S8x2048, .f32⟩
  | 76 => ⟨S8x2048, .f32⟩
  | 77 => ⟨S_, .f32⟩
  | 78 => ⟨S8x2048, .f32⟩
  | 79 => ⟨S8x2048, .f32⟩
  | 80 => ⟨S8x2048, .i32⟩
  | 81 => ⟨S_, .i32⟩
  | 82 => ⟨S8x2048, .i32⟩
  | 83 => ⟨S8x2048, .i1⟩
  | 84 => ⟨S_, .i32⟩
  | 85 => ⟨S8x2048, .i32⟩
  | 86 => ⟨S8x2048, .i32⟩
  | 87 => ⟨S8x2048, .i32⟩
  | 88 => ⟨S_, .i32⟩
  | 89 => ⟨S8x2048, .i32⟩
  | 90 => ⟨S8x2048, .i1⟩
  | 91 => ⟨S_, .i32⟩
  | 92 => ⟨S8x2048, .i32⟩
  | 93 => ⟨S8x2048, .i32⟩
  | 94 => ⟨S8x2048, .i32⟩
  | 95 => ⟨S_, .i32⟩
  | 96 => ⟨S8x2048, .i32⟩
  | 97 => ⟨S8x2048, .i1⟩
  | 98 => ⟨S_, .i32⟩
  | 99 => ⟨S8x2048, .i32⟩
  | 100 => ⟨S8x2048, .i32⟩
  | 101 => ⟨S8x2048, .i32⟩
  | 102 => ⟨S_, .i32⟩
  | 103 => ⟨S8x2048, .i32⟩
  | 104 => ⟨S8x2048, .i1⟩
  | 105 => ⟨S_, .i32⟩
  | 106 => ⟨S8x2048, .i32⟩
  | 107 => ⟨S8x2048, .i32⟩
  | 108 => ⟨S8x2048, .i32⟩
  | 109 => ⟨S8x2048x1, .i32⟩
  | 110 => ⟨S8x2048x1, .i32⟩
  | 111 => ⟨S8x2048x1, .i32⟩
  | 112 => ⟨S8x2048x1, .i32⟩
  | 113 => ⟨S8x2048x4, .i32⟩
  | 114 => ⟨S8x2048x128, .f32⟩
  | 115 => ⟨S8x2048, .f32⟩
  | 116 => ⟨S8x2048, .f32⟩
  | 117 => ⟨S8x2048x1, .f32⟩
  | 118 => ⟨S8x2048x128, .f32⟩
  | 119 => ⟨S8x2048x128, .f32⟩
  | 120 => ⟨S8x2048x128, .f32⟩
  | 121 => ⟨S_, .f32⟩
  | 122 => ⟨S8x2048, .f32⟩
  | 123 => ⟨S8x2048, .f32⟩
  | 124 => ⟨S_, .f32⟩
  | 125 => ⟨S8x2048, .f32⟩
  | 126 => ⟨S8x2048, .f32⟩
  | 127 => ⟨S_, .f32⟩
  | _ => ⟨S8x2048x128, .f32⟩

abbrev hbmTy0_5 (i : Nat) : BufTy := match i % 128 with
  | 0 => ⟨S8x2048, .f32⟩
  | 1 => ⟨S8x2048, .f32⟩
  | 2 => ⟨S8x2048, .f32⟩
  | 3 => ⟨S8x2048, .f32⟩
  | 4 => ⟨S_, .f32⟩
  | 5 => ⟨S8x2048, .f32⟩
  | 6 => ⟨S8x2048, .f32⟩
  | 7 => ⟨S8x2048, .f32⟩
  | 8 => ⟨S8x2048, .f32⟩
  | 9 => ⟨S_, .f32⟩
  | 10 => ⟨S8x2048, .f32⟩
  | 11 => ⟨S8x2048, .f32⟩
  | 12 => ⟨S8x2048, .f32⟩
  | 13 => ⟨S8x2048, .f32⟩
  | 14 => ⟨S8x2048, .f32⟩
  | 15 => ⟨S_, .f32⟩
  | 16 => ⟨S8x2048, .f32⟩
  | 17 => ⟨S8x2048, .f32⟩
  | 18 => ⟨S8x2048, .f32⟩
  | 19 => ⟨S_, .f32⟩
  | 20 => ⟨S8x2048, .f32⟩
  | 21 => ⟨S8x2048, .i1⟩
  | 22 => ⟨S_, .f32⟩
  | 23 => ⟨S8x2048, .f32⟩
  | 24 => ⟨S8x2048, .i1⟩
  | 25 => ⟨S8x2048, .i1⟩
  | 26 => ⟨S_, .f32⟩
  | 27 => ⟨S8x2048, .f32⟩
  | 28 => ⟨S8x2048, .i1⟩
  | 29 => ⟨S8x2048, .i1⟩
  | 30 => ⟨S_, .f32⟩
  | 31 => ⟨S8x2048, .f32⟩
  | 32 => ⟨S8x2048, .i1⟩
  | 33 => ⟨S8x2048, .i1⟩
  | 34 => ⟨S_, .f32⟩
  | 35 => ⟨S8x2048, .f32⟩
  | 36 => ⟨S8x2048, .i1⟩
  | 37 => ⟨S8x2048, .i1⟩
  | 38 => ⟨S_, .f32⟩
  | 39 => ⟨S8x2048, .f32⟩
  | 40 => ⟨S8x2048, .i1⟩
  | 41 => ⟨S8x2048, .i1⟩
  | 42 => ⟨S_, .i32⟩
  | 43 => ⟨S_, .i32⟩
  | 44 => ⟨S_, .f32⟩
  | 45 => ⟨S8x2048, .f32⟩
  | 46 => ⟨S8x2048, .f32⟩
  | 47 => ⟨S_, .f32⟩
  | 48 => ⟨S8x2048, .f32⟩
  | 49 => ⟨S8x2048, .f32⟩
  | 50 => ⟨S8x2048, .i32⟩
  | 51 => ⟨S_, .i32⟩
  | 52 => ⟨S_, .i32⟩
  | 53 => ⟨S_, .f32⟩
  | 54 => ⟨S8x2048, .f32⟩
  | 55 => ⟨S8x2048, .f32⟩
  | 56 => ⟨S_, .f32⟩
  | 57 => ⟨S8x2048, .f32⟩
  | 58 => ⟨S8x2048, .f32⟩
  | 59 => ⟨S8x2048, .i32⟩
  | 60 => ⟨S_, .i32⟩
  | 61 => ⟨S_, .i32⟩
  | 62 => ⟨S_, .f32⟩
  | 63 => ⟨S8x2048, .f32⟩
  | 64 => ⟨S8x2048, .f32⟩
  | 65 => ⟨S_, .f32⟩
  | 66 => ⟨S8x2048, .f32⟩
  | 67 => ⟨S8x2048, .f32⟩
  | 68 => ⟨S8x2048, .i32⟩
  | 69 => ⟨S_, .i32⟩
  | 70 => ⟨S8x2048, .i32⟩
  | 71 => ⟨S8x2048, .i1⟩
  | 72 => ⟨S_, .i32⟩
  | 73 => ⟨S8x2048, .i32⟩
  | 74 => ⟨S8x2048, .i32⟩
  | 75 => ⟨S8x2048, .i32⟩
  | 76 => ⟨S_, .i32⟩
  | 77 => ⟨S8x2048, .i32⟩
  | 78 => ⟨S8x2048, .i1⟩
  | 79 => ⟨S_, .i32⟩
  | 80 => ⟨S8x2048, .i32⟩
  | 81 => ⟨S8x2048, .i32⟩
  | 82 => ⟨S8x2048, .i32⟩
  | 83 => ⟨S_, .i32⟩
  | 84 => ⟨S8x2048, .i32⟩
  | 85 => ⟨S8x2048, .i1⟩
  | 86 => ⟨S_, .i32⟩
  | 87 => ⟨S8x2048, .i32⟩
  | 88 => ⟨S8x2048, .i32⟩
  | 89 => ⟨S8x2048, .i32⟩
  | 90 => ⟨S_, .i32⟩
  | 91 => ⟨S8x2048, .i32⟩
  | 92 => ⟨S8x2048, .i1⟩
  | 93 => ⟨S_, .i32⟩
  | 94 => ⟨S8x2048, .i32⟩
  | 95 => ⟨S8x2048, .i32⟩
  | 96 => ⟨S8x2048, .i32⟩
  | 97 => ⟨S8x2048x1, .i32⟩
  | 98 => ⟨S8x2048x1, .i32⟩
  | 99 => ⟨S8x2048x1, .i32⟩
  | 100 => ⟨S8x2048x1, .i32⟩
  | 101 => ⟨S8x2048x4, .i32⟩
  | 102 => ⟨S8x2048x128, .f32⟩
  | 103 => ⟨S8x2048, .f32⟩
  | 104 => ⟨S8x2048, .f32⟩
  | 105 => ⟨S8x2048x1, .f32⟩
  | 106 => ⟨S8x2048x128, .f32⟩
  | 107 => ⟨S8x2048x128, .f32⟩
  | 108 => ⟨S8x2048x128, .f32⟩
  | 109 => ⟨S_, .f32⟩
  | 110 => ⟨S8x2048, .f32⟩
  | 111 => ⟨S8x2048, .f32⟩
  | 112 => ⟨S_, .f32⟩
  | 113 => ⟨S8x2048, .f32⟩
  | 114 => ⟨S8x2048, .f32⟩
  | 115 => ⟨S_, .f32⟩
  | 116 => ⟨S8x2048, .f32⟩
  | 117 => ⟨S8x2048, .f32⟩
  | 118 => ⟨S8x2048, .f32⟩
  | 119 => ⟨S8x2048, .f32⟩
  | 120 => ⟨S_, .f32⟩
  | 121 => ⟨S8x2048, .f32⟩
  | 122 => ⟨S8x2048, .f32⟩
  | 123 => ⟨S8x2048, .f32⟩
  | 124 => ⟨S8x2048, .f32⟩
  | 125 => ⟨S_, .f32⟩
  | 126 => ⟨S8x2048, .f32⟩
  | 127 => ⟨S8x2048, .f32⟩
  | _ => ⟨S8x2048x128, .f32⟩

abbrev hbmTy0_6 (i : Nat) : BufTy := match i % 128 with
  | 0 => ⟨S8x2048, .f32⟩
  | 1 => ⟨S8x2048, .f32⟩
  | 2 => ⟨S8x2048, .f32⟩
  | 3 => ⟨S_, .f32⟩
  | 4 => ⟨S8x2048, .f32⟩
  | 5 => ⟨S8x2048, .f32⟩
  | 6 => ⟨S8x2048, .f32⟩
  | 7 => ⟨S_, .f32⟩
  | 8 => ⟨S8x2048, .f32⟩
  | 9 => ⟨S8x2048, .i1⟩
  | 10 => ⟨S_, .f32⟩
  | 11 => ⟨S8x2048, .f32⟩
  | 12 => ⟨S8x2048, .i1⟩
  | 13 => ⟨S8x2048, .i1⟩
  | 14 => ⟨S_, .f32⟩
  | 15 => ⟨S8x2048, .f32⟩
  | 16 => ⟨S8x2048, .i1⟩
  | 17 => ⟨S8x2048, .i1⟩
  | 18 => ⟨S_, .f32⟩
  | 19 => ⟨S8x2048, .f32⟩
  | 20 => ⟨S8x2048, .i1⟩
  | 21 => ⟨S8x2048, .i1⟩
  | 22 => ⟨S_, .f32⟩
  | 23 => ⟨S8x2048, .f32⟩
  | 24 => ⟨S8x2048, .i1⟩
  | 25 => ⟨S8x2048, .i1⟩
  | 26 => ⟨S_, .f32⟩
  | 27 => ⟨S8x2048, .f32⟩
  | 28 => ⟨S8x2048, .i1⟩
  | 29 => ⟨S8x2048, .i1⟩
  | 30 => ⟨S_, .i32⟩
  | 31 => ⟨S_, .i32⟩
  | 32 => ⟨S_, .f32⟩
  | 33 => ⟨S8x2048, .f32⟩
  | 34 => ⟨S8x2048, .f32⟩
  | 35 => ⟨S_, .f32⟩
  | 36 => ⟨S8x2048, .f32⟩
  | 37 => ⟨S8x2048, .f32⟩
  | 38 => ⟨S8x2048, .i32⟩
  | 39 => ⟨S_, .i32⟩
  | 40 => ⟨S_, .i32⟩
  | 41 => ⟨S_, .f32⟩
  | 42 => ⟨S8x2048, .f32⟩
  | 43 => ⟨S8x2048, .f32⟩
  | 44 => ⟨S_, .f32⟩
  | 45 => ⟨S8x2048, .f32⟩
  | 46 => ⟨S8x2048, .f32⟩
  | 47 => ⟨S8x2048, .i32⟩
  | 48 => ⟨S_, .i32⟩
  | 49 => ⟨S_, .i32⟩
  | 50 => ⟨S_, .f32⟩
  | 51 => ⟨S8x2048, .f32⟩
  | 52 => ⟨S8x2048, .f32⟩
  | 53 => ⟨S_, .f32⟩
  | 54 => ⟨S8x2048, .f32⟩
  | 55 => ⟨S8x2048, .f32⟩
  | 56 => ⟨S8x2048, .i32⟩
  | 57 => ⟨S_, .i32⟩
  | 58 => ⟨S8x2048, .i32⟩
  | 59 => ⟨S8x2048, .i1⟩
  | 60 => ⟨S_, .i32⟩
  | 61 => ⟨S8x2048, .i32⟩
  | 62 => ⟨S8x2048, .i32⟩
  | 63 => ⟨S8x2048, .i32⟩
  | 64 => ⟨S_, .i32⟩
  | 65 => ⟨S8x2048, .i32⟩
  | 66 => ⟨S8x2048, .i1⟩
  | 67 => ⟨S_, .i32⟩
  | 68 => ⟨S8x2048, .i32⟩
  | 69 => ⟨S8x2048, .i32⟩
  | 70 => ⟨S8x2048, .i32⟩
  | 71 => ⟨S_, .i32⟩
  | 72 => ⟨S8x2048, .i32⟩
  | 73 => ⟨S8x2048, .i1⟩
  | 74 => ⟨S_, .i32⟩
  | 75 => ⟨S8x2048, .i32⟩
  | 76 => ⟨S8x2048, .i32⟩
  | 77 => ⟨S8x2048, .i32⟩
  | 78 => ⟨S_, .i32⟩
  | 79 => ⟨S8x2048, .i32⟩
  | 80 => ⟨S8x2048, .i1⟩
  | 81 => ⟨S_, .i32⟩
  | 82 => ⟨S8x2048, .i32⟩
  | 83 => ⟨S8x2048, .i32⟩
  | 84 => ⟨S8x2048, .i32⟩
  | 85 => ⟨S8x2048x1, .i32⟩
  | 86 => ⟨S8x2048x1, .i32⟩
  | 87 => ⟨S8x2048x1, .i32⟩
  | 88 => ⟨S8x2048x1, .i32⟩
  | 89 => ⟨S8x2048x4, .i32⟩
  | 90 => ⟨S8x2048x128, .f32⟩
  | 91 => ⟨S8x2048, .f32⟩
  | 92 => ⟨S8x2048, .f32⟩
  | 93 => ⟨S8x2048x1, .f32⟩
  | 94 => ⟨S8x2048x128, .f32⟩
  | 95 => ⟨S8x2048x128, .f32⟩
  | 96 => ⟨S8x2048x128, .f32⟩
  | 97 => ⟨S_, .f32⟩
  | 98 => ⟨S8x2048, .f32⟩
  | 99 => ⟨S8x2048, .f32⟩
  | 100 => ⟨S_, .f32⟩
  | 101 => ⟨S8x2048, .f32⟩
  | 102 => ⟨S8x2048, .f32⟩
  | 103 => ⟨S_, .f32⟩
  | 104 => ⟨S8x2048, .f32⟩
  | 105 => ⟨S8x2048, .f32⟩
  | 106 => ⟨S8x2048, .f32⟩
  | 107 => ⟨S8x2048, .f32⟩
  | 108 => ⟨S_, .f32⟩
  | 109 => ⟨S8x2048, .f32⟩
  | 110 => ⟨S8x2048, .f32⟩
  | 111 => ⟨S8x2048, .f32⟩
  | 112 => ⟨S8x2048, .f32⟩
  | 113 => ⟨S_, .f32⟩
  | 114 => ⟨S8x2048, .f32⟩
  | 115 => ⟨S8x2048, .f32⟩
  | 116 => ⟨S8x2048, .f32⟩
  | 117 => ⟨S8x2048, .f32⟩
  | 118 => ⟨S8x2048, .f32⟩
  | 119 => ⟨S_, .f32⟩
  | 120 => ⟨S8x2048, .f32⟩
  | 121 => ⟨S8x2048, .f32⟩
  | 122 => ⟨S8x2048, .f32⟩
  | 123 => ⟨S_, .f32⟩
  | 124 => ⟨S8x2048, .f32⟩
  | 125 => ⟨S8x2048, .i1⟩
  | 126 => ⟨S_, .f32⟩
  | 127 => ⟨S8x2048, .f32⟩
  | _ => ⟨S8x2048x128, .f32⟩

abbrev hbmTy0_7 (i : Nat) : BufTy := match i % 128 with
  | 0 => ⟨S8x2048, .i1⟩
  | 1 => ⟨S8x2048, .i1⟩
  | 2 => ⟨S_, .f32⟩
  | 3 => ⟨S8x2048, .f32⟩
  | 4 => ⟨S8x2048, .i1⟩
  | 5 => ⟨S8x2048, .i1⟩
  | 6 => ⟨S_, .f32⟩
  | 7 => ⟨S8x2048, .f32⟩
  | 8 => ⟨S8x2048, .i1⟩
  | 9 => ⟨S8x2048, .i1⟩
  | 10 => ⟨S_, .f32⟩
  | 11 => ⟨S8x2048, .f32⟩
  | 12 => ⟨S8x2048, .i1⟩
  | 13 => ⟨S8x2048, .i1⟩
  | 14 => ⟨S_, .f32⟩
  | 15 => ⟨S8x2048, .f32⟩
  | 16 => ⟨S8x2048, .i1⟩
  | 17 => ⟨S8x2048, .i1⟩
  | 18 => ⟨S_, .i32⟩
  | 19 => ⟨S_, .i32⟩
  | 20 => ⟨S_, .f32⟩
  | 21 => ⟨S8x2048, .f32⟩
  | 22 => ⟨S8x2048, .f32⟩
  | 23 => ⟨S_, .f32⟩
  | 24 => ⟨S8x2048, .f32⟩
  | 25 => ⟨S8x2048, .f32⟩
  | 26 => ⟨S8x2048, .i32⟩
  | 27 => ⟨S_, .i32⟩
  | 28 => ⟨S_, .i32⟩
  | 29 => ⟨S_, .f32⟩
  | 30 => ⟨S8x2048, .f32⟩
  | 31 => ⟨S8x2048, .f32⟩
  | 32 => ⟨S_, .f32⟩
  | 33 => ⟨S8x2048, .f32⟩
  | 34 => ⟨S8x2048, .f32⟩
  | 35 => ⟨S8x2048, .i32⟩
  | 36 => ⟨S_, .i32⟩
  | 37 => ⟨S_, .i32⟩
  | 38 => ⟨S_, .f32⟩
  | 39 => ⟨S8x2048, .f32⟩
  | 40 => ⟨S8x2048, .f32⟩
  | 41 => ⟨S_, .f32⟩
  | 42 => ⟨S8x2048, .f32⟩
  | 43 => ⟨S8x2048, .f32⟩
  | 44 => ⟨S8x2048, .i32⟩
  | 45 => ⟨S_, .i32⟩
  | 46 => ⟨S8x2048, .i32⟩
  | 47 => ⟨S8x2048, .i1⟩
  | 48 => ⟨S_, .i32⟩
  | 49 => ⟨S8x2048, .i32⟩
  | 50 => ⟨S8x2048, .i32⟩
  | 51 => ⟨S8x2048, .i32⟩
  | 52 => ⟨S_, .i32⟩
  | 53 => ⟨S8x2048, .i32⟩
  | 54 => ⟨S8x2048, .i1⟩
  | 55 => ⟨S_, .i32⟩
  | 56 => ⟨S8x2048, .i32⟩
  | 57 => ⟨S8x2048, .i32⟩
  | 58 => ⟨S8x2048, .i32⟩
  | 59 => ⟨S_, .i32⟩
  | 60 => ⟨S8x2048, .i32⟩
  | 61 => ⟨S8x2048, .i1⟩
  | 62 => ⟨S_, .i32⟩
  | 63 => ⟨S8x2048, .i32⟩
  | 64 => ⟨S8x2048, .i32⟩
  | 65 => ⟨S8x2048, .i32⟩
  | 66 => ⟨S_, .i32⟩
  | 67 => ⟨S8x2048, .i32⟩
  | 68 => ⟨S8x2048, .i1⟩
  | 69 => ⟨S_, .i32⟩
  | 70 => ⟨S8x2048, .i32⟩
  | 71 => ⟨S8x2048, .i32⟩
  | 72 => ⟨S8x2048, .i32⟩
  | 73 => ⟨S8x2048x1, .i32⟩
  | 74 => ⟨S8x2048x1, .i32⟩
  | 75 => ⟨S8x2048x1, .i32⟩
  | 76 => ⟨S8x2048x1, .i32⟩
  | 77 => ⟨S8x2048x4, .i32⟩
  | 78 => ⟨S8x2048x128, .f32⟩
  | 79 => ⟨S8x2048, .f32⟩
  | 80 => ⟨S8x2048, .f32⟩
  | 81 => ⟨S8x2048x1, .f32⟩
  | 82 => ⟨S8x2048x128, .f32⟩
  | 83 => ⟨S8x2048x128, .f32⟩
  | 84 => ⟨S8x2048x128, .f32⟩
  | 85 => ⟨S8x2048x259, .f32⟩
  | _ => ⟨S8x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_22 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c : Ref sig .tc := ⟨.hbm, 102, rfl⟩
abbrev main_c_23 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_v74 : Ref sig .tc := ⟨.hbm, 109, rfl⟩
abbrev main_v75 : Ref sig .tc := ⟨.hbm, 110, rfl⟩
abbrev main_c_24 : Ref sig .tc := ⟨.hbm, 111, rfl⟩
abbrev main_c_25 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_v76 : Ref sig .tc := ⟨.hbm, 118, rfl⟩
abbrev main_v77 : Ref sig .tc := ⟨.hbm, 119, rfl⟩
abbrev main_c_26 : Ref sig .tc := ⟨.hbm, 120, rfl⟩
abbrev main_c_27 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v78 : Ref sig .tc := ⟨.hbm, 127, rfl⟩
abbrev main_v79 : Ref sig .tc := ⟨.hbm, 128, rfl⟩
abbrev main_c_28 : Ref sig .tc := ⟨.hbm, 129, rfl⟩
abbrev main_v80 : Ref sig .tc := ⟨.hbm, 130, rfl⟩
abbrev main_v81 : Ref sig .tc := ⟨.hbm, 131, rfl⟩
abbrev main_c_29 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_30 : Ref sig .tc := ⟨.hbm, 136, rfl⟩
abbrev main_v85 : Ref sig .tc := ⟨.hbm, 137, rfl⟩
abbrev main_v86 : Ref sig .tc := ⟨.hbm, 138, rfl⟩
abbrev main_c_31 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_32 : Ref sig .tc := ⟨.hbm, 143, rfl⟩
abbrev main_v90 : Ref sig .tc := ⟨.hbm, 144, rfl⟩
abbrev main_v91 : Ref sig .tc := ⟨.hbm, 145, rfl⟩
abbrev main_c_33 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_34 : Ref sig .tc := ⟨.hbm, 150, rfl⟩
abbrev main_v95 : Ref sig .tc := ⟨.hbm, 151, rfl⟩
abbrev main_v96 : Ref sig .tc := ⟨.hbm, 152, rfl⟩
abbrev main_c_35 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_36 : Ref sig .tc := ⟨.hbm, 169, rfl⟩
abbrev main_v112 : Ref sig .tc := ⟨.hbm, 170, rfl⟩
abbrev main_v113 : Ref sig .tc := ⟨.hbm, 171, rfl⟩
abbrev main_cst_37 : Ref sig .tc := ⟨.hbm, 172, rfl⟩
abbrev main_v114 : Ref sig .tc := ⟨.hbm, 173, rfl⟩
abbrev main_v115 : Ref sig .tc := ⟨.hbm, 174, rfl⟩
abbrev main_cst_38 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_39 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_40 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_41 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_42 : Ref sig .tc := ⟨.hbm, 195, rfl⟩
abbrev main_v132 : Ref sig .tc := ⟨.hbm, 196, rfl⟩
abbrev main_v133 : Ref sig .tc := ⟨.hbm, 197, rfl⟩
abbrev main_cst_43 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_44 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_45 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_46 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_47 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_c_48 : Ref sig .tc := ⟨.hbm, 218, rfl⟩
abbrev main_c_49 : Ref sig .tc := ⟨.hbm, 219, rfl⟩
abbrev main_call3_v0 : Ref sig .tc := ⟨.hbm, 220, rfl⟩
abbrev main_call3_v1 : Ref sig .tc := ⟨.hbm, 221, rfl⟩
abbrev main_call3_v2 : Ref sig .tc := ⟨.hbm, 222, rfl⟩
abbrev main_call3_v3 : Ref sig .tc := ⟨.hbm, 223, rfl⟩
abbrev main_call3_v4 : Ref sig .tc := ⟨.hbm, 224, rfl⟩
abbrev main_v149 : Ref sig .tc := ⟨.hbm, 225, rfl⟩
abbrev main_v150 : Ref sig .tc := ⟨.hbm, 226, rfl⟩
abbrev main_c_50 : Ref sig .tc := ⟨.hbm, 227, rfl⟩
abbrev main_c_51 : Ref sig .tc := ⟨.hbm, 228, rfl⟩
abbrev main_call4_v0 : Ref sig .tc := ⟨.hbm, 229, rfl⟩
abbrev main_call4_v1 : Ref sig .tc := ⟨.hbm, 230, rfl⟩
abbrev main_call4_v2 : Ref sig .tc := ⟨.hbm, 231, rfl⟩
abbrev main_call4_v3 : Ref sig .tc := ⟨.hbm, 232, rfl⟩
abbrev main_call4_v4 : Ref sig .tc := ⟨.hbm, 233, rfl⟩
abbrev main_v151 : Ref sig .tc := ⟨.hbm, 234, rfl⟩
abbrev main_v152 : Ref sig .tc := ⟨.hbm, 235, rfl⟩
abbrev main_c_52 : Ref sig .tc := ⟨.hbm, 236, rfl⟩
abbrev main_c_53 : Ref sig .tc := ⟨.hbm, 237, rfl⟩
abbrev main_call5_v0 : Ref sig .tc := ⟨.hbm, 238, rfl⟩
abbrev main_call5_v1 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_v153 : Ref sig .tc := ⟨.hbm, 243, rfl⟩
abbrev main_v154 : Ref sig .tc := ⟨.hbm, 244, rfl⟩
abbrev main_c_54 : Ref sig .tc := ⟨.hbm, 245, rfl⟩
abbrev main_v155 : Ref sig .tc := ⟨.hbm, 246, rfl⟩
abbrev main_v156 : Ref sig .tc := ⟨.hbm, 247, rfl⟩
abbrev main_c_55 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_c_56 : Ref sig .tc := ⟨.hbm, 252, rfl⟩
abbrev main_v160 : Ref sig .tc := ⟨.hbm, 253, rfl⟩
abbrev main_v161 : Ref sig .tc := ⟨.hbm, 254, rfl⟩
abbrev main_c_57 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_c_58 : Ref sig .tc := ⟨.hbm, 259, rfl⟩
abbrev main_v165 : Ref sig .tc := ⟨.hbm, 260, rfl⟩
abbrev main_v166 : Ref sig .tc := ⟨.hbm, 261, rfl⟩
abbrev main_c_59 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_c_60 : Ref sig .tc := ⟨.hbm, 266, rfl⟩
abbrev main_v170 : Ref sig .tc := ⟨.hbm, 267, rfl⟩
abbrev main_v171 : Ref sig .tc := ⟨.hbm, 268, rfl⟩
abbrev main_c_61 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_cst_62 : Ref sig .tc := ⟨.hbm, 285, rfl⟩
abbrev main_v187 : Ref sig .tc := ⟨.hbm, 286, rfl⟩
abbrev main_v188 : Ref sig .tc := ⟨.hbm, 287, rfl⟩
abbrev main_cst_63 : Ref sig .tc := ⟨.hbm, 288, rfl⟩
abbrev main_v189 : Ref sig .tc := ⟨.hbm, 289, rfl⟩
abbrev main_v190 : Ref sig .tc := ⟨.hbm, 290, rfl⟩
abbrev main_cst_64 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst_65 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_cst_66 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_cst_67 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_cst_68 : Ref sig .tc := ⟨.hbm, 311, rfl⟩
abbrev main_v207 : Ref sig .tc := ⟨.hbm, 312, rfl⟩
abbrev main_v208 : Ref sig .tc := ⟨.hbm, 313, rfl⟩
abbrev main_cst_69 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_cst_70 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_cst_71 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_cst_72 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_cst_73 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_c_74 : Ref sig .tc := ⟨.hbm, 334, rfl⟩
abbrev main_c_75 : Ref sig .tc := ⟨.hbm, 335, rfl⟩
abbrev main_call6_v0 : Ref sig .tc := ⟨.hbm, 336, rfl⟩
abbrev main_call6_v1 : Ref sig .tc := ⟨.hbm, 337, rfl⟩
abbrev main_call6_v2 : Ref sig .tc := ⟨.hbm, 338, rfl⟩
abbrev main_call6_v3 : Ref sig .tc := ⟨.hbm, 339, rfl⟩
abbrev main_call6_v4 : Ref sig .tc := ⟨.hbm, 340, rfl⟩
abbrev main_v224 : Ref sig .tc := ⟨.hbm, 341, rfl⟩
abbrev main_v225 : Ref sig .tc := ⟨.hbm, 342, rfl⟩
abbrev main_c_76 : Ref sig .tc := ⟨.hbm, 343, rfl⟩
abbrev main_c_77 : Ref sig .tc := ⟨.hbm, 344, rfl⟩
abbrev main_call7_v0 : Ref sig .tc := ⟨.hbm, 345, rfl⟩
abbrev main_call7_v1 : Ref sig .tc := ⟨.hbm, 346, rfl⟩
abbrev main_call7_v2 : Ref sig .tc := ⟨.hbm, 347, rfl⟩
abbrev main_call7_v3 : Ref sig .tc := ⟨.hbm, 348, rfl⟩
abbrev main_call7_v4 : Ref sig .tc := ⟨.hbm, 349, rfl⟩
abbrev main_v226 : Ref sig .tc := ⟨.hbm, 350, rfl⟩
abbrev main_v227 : Ref sig .tc := ⟨.hbm, 351, rfl⟩
abbrev main_c_78 : Ref sig .tc := ⟨.hbm, 352, rfl⟩
abbrev main_c_79 : Ref sig .tc := ⟨.hbm, 353, rfl⟩
abbrev main_call8_v0 : Ref sig .tc := ⟨.hbm, 354, rfl⟩
abbrev main_call8_v1 : Ref sig .tc := ⟨.hbm, 355, rfl⟩
abbrev main_call8_v2 : Ref sig .tc := ⟨.hbm, 356, rfl⟩
abbrev main_call8_v3 : Ref sig .tc := ⟨.hbm, 357, rfl⟩
abbrev main_call8_v4 : Ref sig .tc := ⟨.hbm, 358, rfl⟩
abbrev main_v228 : Ref sig .tc := ⟨.hbm, 359, rfl⟩
abbrev main_v229 : Ref sig .tc := ⟨.hbm, 360, rfl⟩
abbrev main_c_80 : Ref sig .tc := ⟨.hbm, 361, rfl⟩
abbrev main_v230 : Ref sig .tc := ⟨.hbm, 362, rfl⟩
abbrev main_v231 : Ref sig .tc := ⟨.hbm, 363, rfl⟩
abbrev main_c_81 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_c_82 : Ref sig .tc := ⟨.hbm, 368, rfl⟩
abbrev main_v235 : Ref sig .tc := ⟨.hbm, 369, rfl⟩
abbrev main_v236 : Ref sig .tc := ⟨.hbm, 370, rfl⟩
abbrev main_c_83 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_c_84 : Ref sig .tc := ⟨.hbm, 375, rfl⟩
abbrev main_v240 : Ref sig .tc := ⟨.hbm, 376, rfl⟩
abbrev main_v241 : Ref sig .tc := ⟨.hbm, 377, rfl⟩
abbrev main_c_85 : Ref sig .tc := ⟨.hbm, 378, rfl⟩
abbrev main_v242 : Ref sig .tc := ⟨.hbm, 379, rfl⟩
abbrev main_v243 : Ref sig .tc := ⟨.hbm, 380, rfl⟩
abbrev main_v244 : Ref sig .tc := ⟨.hbm, 381, rfl⟩
abbrev main_c_86 : Ref sig .tc := ⟨.hbm, 382, rfl⟩
abbrev main_v245 : Ref sig .tc := ⟨.hbm, 383, rfl⟩
abbrev main_v246 : Ref sig .tc := ⟨.hbm, 384, rfl⟩
abbrev main_c_87 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_cst_88 : Ref sig .tc := ⟨.hbm, 401, rfl⟩
abbrev main_v262 : Ref sig .tc := ⟨.hbm, 402, rfl⟩
abbrev main_v263 : Ref sig .tc := ⟨.hbm, 403, rfl⟩
abbrev main_cst_89 : Ref sig .tc := ⟨.hbm, 404, rfl⟩
abbrev main_v264 : Ref sig .tc := ⟨.hbm, 405, rfl⟩
abbrev main_v265 : Ref sig .tc := ⟨.hbm, 406, rfl⟩
abbrev main_cst_90 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_cst_91 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_cst_92 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_cst_93 : Ref sig .tc := ⟨.hbm, 423, rfl⟩
abbrev main_v279 : Ref sig .tc := ⟨.hbm, 424, rfl⟩
abbrev main_v280 : Ref sig .tc := ⟨.hbm, 425, rfl⟩
abbrev main_v281 : Ref sig .tc := ⟨.hbm, 426, rfl⟩
abbrev main_cst_94 : Ref sig .tc := ⟨.hbm, 427, rfl⟩
abbrev main_v282 : Ref sig .tc := ⟨.hbm, 428, rfl⟩
abbrev main_v283 : Ref sig .tc := ⟨.hbm, 429, rfl⟩
abbrev main_cst_95 : Ref sig .tc := ⟨.hbm, 430, rfl⟩
abbrev main_v284 : Ref sig .tc := ⟨.hbm, 431, rfl⟩
abbrev main_v285 : Ref sig .tc := ⟨.hbm, 432, rfl⟩
abbrev main_v286 : Ref sig .tc := ⟨.hbm, 433, rfl⟩
abbrev main_cst_96 : Ref sig .tc := ⟨.hbm, 434, rfl⟩
abbrev main_v287 : Ref sig .tc := ⟨.hbm, 435, rfl⟩
abbrev main_v288 : Ref sig .tc := ⟨.hbm, 436, rfl⟩
abbrev main_v289 : Ref sig .tc := ⟨.hbm, 437, rfl⟩
abbrev main_cst_97 : Ref sig .tc := ⟨.hbm, 438, rfl⟩
abbrev main_v290 : Ref sig .tc := ⟨.hbm, 439, rfl⟩
abbrev main_v291 : Ref sig .tc := ⟨.hbm, 440, rfl⟩
abbrev main_v292 : Ref sig .tc := ⟨.hbm, 441, rfl⟩
abbrev main_cst_98 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_cst_99 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_c_100 : Ref sig .tc := ⟨.hbm, 450, rfl⟩
abbrev main_c_101 : Ref sig .tc := ⟨.hbm, 451, rfl⟩
abbrev main_call9_v0 : Ref sig .tc := ⟨.hbm, 452, rfl⟩
abbrev main_call9_v1 : Ref sig .tc := ⟨.hbm, 453, rfl⟩
abbrev main_call9_v2 : Ref sig .tc := ⟨.hbm, 454, rfl⟩
abbrev main_call9_v3 : Ref sig .tc := ⟨.hbm, 455, rfl⟩
abbrev main_call9_v4 : Ref sig .tc := ⟨.hbm, 456, rfl⟩
abbrev main_v299 : Ref sig .tc := ⟨.hbm, 457, rfl⟩
abbrev main_v300 : Ref sig .tc := ⟨.hbm, 458, rfl⟩
abbrev main_c_102 : Ref sig .tc := ⟨.hbm, 459, rfl⟩
abbrev main_c_103 : Ref sig .tc := ⟨.hbm, 460, rfl⟩
abbrev main_call10_v0 : Ref sig .tc := ⟨.hbm, 461, rfl⟩
abbrev main_call10_v1 : Ref sig .tc := ⟨.hbm, 462, rfl⟩
abbrev main_call10_v2 : Ref sig .tc := ⟨.hbm, 463, rfl⟩
abbrev main_call10_v3 : Ref sig .tc := ⟨.hbm, 464, rfl⟩
abbrev main_call10_v4 : Ref sig .tc := ⟨.hbm, 465, rfl⟩
abbrev main_v301 : Ref sig .tc := ⟨.hbm, 466, rfl⟩
abbrev main_v302 : Ref sig .tc := ⟨.hbm, 467, rfl⟩
abbrev main_c_104 : Ref sig .tc := ⟨.hbm, 468, rfl⟩
abbrev main_c_105 : Ref sig .tc := ⟨.hbm, 469, rfl⟩
abbrev main_call11_v0 : Ref sig .tc := ⟨.hbm, 470, rfl⟩
abbrev main_call11_v1 : Ref sig .tc := ⟨.hbm, 471, rfl⟩
abbrev main_call11_v2 : Ref sig .tc := ⟨.hbm, 472, rfl⟩
abbrev main_call11_v3 : Ref sig .tc := ⟨.hbm, 473, rfl⟩
abbrev main_call11_v4 : Ref sig .tc := ⟨.hbm, 474, rfl⟩
abbrev main_v303 : Ref sig .tc := ⟨.hbm, 475, rfl⟩
abbrev main_v304 : Ref sig .tc := ⟨.hbm, 476, rfl⟩
abbrev main_c_106 : Ref sig .tc := ⟨.hbm, 477, rfl⟩
abbrev main_v305 : Ref sig .tc := ⟨.hbm, 478, rfl⟩
abbrev main_v306 : Ref sig .tc := ⟨.hbm, 479, rfl⟩
abbrev main_c_107 : Ref sig .tc := ⟨.hbm, 480, rfl⟩
abbrev main_v307 : Ref sig .tc := ⟨.hbm, 481, rfl⟩
abbrev main_v308 : Ref sig .tc := ⟨.hbm, 482, rfl⟩
abbrev main_v309 : Ref sig .tc := ⟨.hbm, 483, rfl⟩
abbrev main_c_108 : Ref sig .tc := ⟨.hbm, 484, rfl⟩
abbrev main_v310 : Ref sig .tc := ⟨.hbm, 485, rfl⟩
abbrev main_v311 : Ref sig .tc := ⟨.hbm, 486, rfl⟩
abbrev main_c_109 : Ref sig .tc := ⟨.hbm, 487, rfl⟩
abbrev main_v312 : Ref sig .tc := ⟨.hbm, 488, rfl⟩
abbrev main_v313 : Ref sig .tc := ⟨.hbm, 489, rfl⟩
abbrev main_v314 : Ref sig .tc := ⟨.hbm, 490, rfl⟩
abbrev main_c_110 : Ref sig .tc := ⟨.hbm, 491, rfl⟩
abbrev main_v315 : Ref sig .tc := ⟨.hbm, 492, rfl⟩
abbrev main_v316 : Ref sig .tc := ⟨.hbm, 493, rfl⟩
abbrev main_c_111 : Ref sig .tc := ⟨.hbm, 494, rfl⟩
abbrev main_v317 : Ref sig .tc := ⟨.hbm, 495, rfl⟩
abbrev main_v318 : Ref sig .tc := ⟨.hbm, 496, rfl⟩
abbrev main_v319 : Ref sig .tc := ⟨.hbm, 497, rfl⟩
abbrev main_c_112 : Ref sig .tc := ⟨.hbm, 498, rfl⟩
abbrev main_v320 : Ref sig .tc := ⟨.hbm, 499, rfl⟩
abbrev main_v321 : Ref sig .tc := ⟨.hbm, 500, rfl⟩
abbrev main_c_113 : Ref sig .tc := ⟨.hbm, 501, rfl⟩
abbrev main_v322 : Ref sig .tc := ⟨.hbm, 502, rfl⟩
abbrev main_v323 : Ref sig .tc := ⟨.hbm, 503, rfl⟩
abbrev main_v324 : Ref sig .tc := ⟨.hbm, 504, rfl⟩
abbrev main_v325 : Ref sig .tc := ⟨.hbm, 505, rfl⟩
abbrev main_v326 : Ref sig .tc := ⟨.hbm, 506, rfl⟩
abbrev main_v327 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_v331 : Ref sig .tc := ⟨.hbm, 511, rfl⟩
abbrev main_v332 : Ref sig .tc := ⟨.hbm, 512, rfl⟩
abbrev main_v333 : Ref sig .tc := ⟨.hbm, 513, rfl⟩
abbrev main_v334 : Ref sig .tc := ⟨.hbm, 514, rfl⟩
abbrev main_v335 : Ref sig .tc := ⟨.hbm, 515, rfl⟩
abbrev main_v336 : Ref sig .tc := ⟨.hbm, 516, rfl⟩
abbrev main_cst_114 : Ref sig .tc := ⟨.hbm, 517, rfl⟩
abbrev main_v337 : Ref sig .tc := ⟨.hbm, 518, rfl⟩
abbrev main_v338 : Ref sig .tc := ⟨.hbm, 519, rfl⟩
abbrev main_cst_115 : Ref sig .tc := ⟨.hbm, 520, rfl⟩
abbrev main_v339 : Ref sig .tc := ⟨.hbm, 521, rfl⟩
abbrev main_v340 : Ref sig .tc := ⟨.hbm, 522, rfl⟩
abbrev main_cst_116 : Ref sig .tc := ⟨.hbm, 523, rfl⟩
abbrev main_v341 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_cst_117 : Ref sig .tc := ⟨.hbm, 528, rfl⟩
abbrev main_v345 : Ref sig .tc := ⟨.hbm, 529, rfl⟩
abbrev main_v346 : Ref sig .tc := ⟨.hbm, 530, rfl⟩
abbrev main_v347 : Ref sig .tc := ⟨.hbm, 531, rfl⟩
abbrev main_v348 : Ref sig .tc := ⟨.hbm, 532, rfl⟩
abbrev main_cst_118 : Ref sig .tc := ⟨.hbm, 533, rfl⟩
abbrev main_v349 : Ref sig .tc := ⟨.hbm, 534, rfl⟩
abbrev main_v350 : Ref sig .tc := ⟨.hbm, 535, rfl⟩
abbrev main_v351 : Ref sig .tc := ⟨.hbm, 536, rfl⟩
abbrev main_v352 : Ref sig .tc := ⟨.hbm, 537, rfl⟩
abbrev main_v353 : Ref sig .tc := ⟨.hbm, 538, rfl⟩
abbrev main_cst_119 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_cst_120 : Ref sig .tc := ⟨.hbm, 543, rfl⟩
abbrev main_v357 : Ref sig .tc := ⟨.hbm, 544, rfl⟩
abbrev main_v358 : Ref sig .tc := ⟨.hbm, 545, rfl⟩
abbrev main_cst_121 : Ref sig .tc := ⟨.hbm, 546, rfl⟩
abbrev main_v359 : Ref sig .tc := ⟨.hbm, 547, rfl⟩
abbrev main_v360 : Ref sig .tc := ⟨.hbm, 548, rfl⟩
abbrev main_v361 : Ref sig .tc := ⟨.hbm, 549, rfl⟩
abbrev main_cst_122 : Ref sig .tc := ⟨.hbm, 550, rfl⟩
abbrev main_v362 : Ref sig .tc := ⟨.hbm, 551, rfl⟩
abbrev main_v363 : Ref sig .tc := ⟨.hbm, 552, rfl⟩
abbrev main_v364 : Ref sig .tc := ⟨.hbm, 553, rfl⟩
abbrev main_cst_123 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_cst_124 : Ref sig .tc := ⟨.hbm, 558, rfl⟩
abbrev main_v368 : Ref sig .tc := ⟨.hbm, 559, rfl⟩
abbrev main_v369 : Ref sig .tc := ⟨.hbm, 560, rfl⟩
abbrev main_v370 : Ref sig .tc := ⟨.hbm, 561, rfl⟩
abbrev main_cst_125 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_c_126 : Ref sig .tc := ⟨.hbm, 566, rfl⟩
abbrev main_c_127 : Ref sig .tc := ⟨.hbm, 567, rfl⟩
abbrev main_call12_v0 : Ref sig .tc := ⟨.hbm, 568, rfl⟩
abbrev main_call12_v1 : Ref sig .tc := ⟨.hbm, 569, rfl⟩
abbrev main_call12_v2 : Ref sig .tc := ⟨.hbm, 570, rfl⟩
abbrev main_call12_v3 : Ref sig .tc := ⟨.hbm, 571, rfl⟩
abbrev main_call12_v4 : Ref sig .tc := ⟨.hbm, 572, rfl⟩
abbrev main_v374 : Ref sig .tc := ⟨.hbm, 573, rfl⟩
abbrev main_v375 : Ref sig .tc := ⟨.hbm, 574, rfl⟩
abbrev main_c_128 : Ref sig .tc := ⟨.hbm, 575, rfl⟩
abbrev main_c_129 : Ref sig .tc := ⟨.hbm, 576, rfl⟩
abbrev main_call13_v0 : Ref sig .tc := ⟨.hbm, 577, rfl⟩
abbrev main_call13_v1 : Ref sig .tc := ⟨.hbm, 578, rfl⟩
abbrev main_call13_v2 : Ref sig .tc := ⟨.hbm, 579, rfl⟩
abbrev main_call13_v3 : Ref sig .tc := ⟨.hbm, 580, rfl⟩
abbrev main_call13_v4 : Ref sig .tc := ⟨.hbm, 581, rfl⟩
abbrev main_v376 : Ref sig .tc := ⟨.hbm, 582, rfl⟩
abbrev main_v377 : Ref sig .tc := ⟨.hbm, 583, rfl⟩
abbrev main_c_130 : Ref sig .tc := ⟨.hbm, 584, rfl⟩
abbrev main_c_131 : Ref sig .tc := ⟨.hbm, 585, rfl⟩
abbrev main_call14_v0 : Ref sig .tc := ⟨.hbm, 586, rfl⟩
abbrev main_call14_v1 : Ref sig .tc := ⟨.hbm, 587, rfl⟩
abbrev main_call14_v2 : Ref sig .tc := ⟨.hbm, 588, rfl⟩
abbrev main_call14_v3 : Ref sig .tc := ⟨.hbm, 589, rfl⟩
abbrev main_call14_v4 : Ref sig .tc := ⟨.hbm, 590, rfl⟩
abbrev main_v378 : Ref sig .tc := ⟨.hbm, 591, rfl⟩
abbrev main_v379 : Ref sig .tc := ⟨.hbm, 592, rfl⟩
abbrev main_c_132 : Ref sig .tc := ⟨.hbm, 593, rfl⟩
abbrev main_v380 : Ref sig .tc := ⟨.hbm, 594, rfl⟩
abbrev main_v381 : Ref sig .tc := ⟨.hbm, 595, rfl⟩
abbrev main_c_133 : Ref sig .tc := ⟨.hbm, 596, rfl⟩
abbrev main_v382 : Ref sig .tc := ⟨.hbm, 597, rfl⟩
abbrev main_v383 : Ref sig .tc := ⟨.hbm, 598, rfl⟩
abbrev main_v384 : Ref sig .tc := ⟨.hbm, 599, rfl⟩
abbrev main_c_134 : Ref sig .tc := ⟨.hbm, 600, rfl⟩
abbrev main_v385 : Ref sig .tc := ⟨.hbm, 601, rfl⟩
abbrev main_v386 : Ref sig .tc := ⟨.hbm, 602, rfl⟩
abbrev main_c_135 : Ref sig .tc := ⟨.hbm, 603, rfl⟩
abbrev main_v387 : Ref sig .tc := ⟨.hbm, 604, rfl⟩
abbrev main_v388 : Ref sig .tc := ⟨.hbm, 605, rfl⟩
abbrev main_v389 : Ref sig .tc := ⟨.hbm, 606, rfl⟩
abbrev main_c_136 : Ref sig .tc := ⟨.hbm, 607, rfl⟩
abbrev main_v390 : Ref sig .tc := ⟨.hbm, 608, rfl⟩
abbrev main_v391 : Ref sig .tc := ⟨.hbm, 609, rfl⟩
abbrev main_c_137 : Ref sig .tc := ⟨.hbm, 610, rfl⟩
abbrev main_v392 : Ref sig .tc := ⟨.hbm, 611, rfl⟩
abbrev main_v393 : Ref sig .tc := ⟨.hbm, 612, rfl⟩
abbrev main_v394 : Ref sig .tc := ⟨.hbm, 613, rfl⟩
abbrev main_c_138 : Ref sig .tc := ⟨.hbm, 614, rfl⟩
abbrev main_v395 : Ref sig .tc := ⟨.hbm, 615, rfl⟩
abbrev main_v396 : Ref sig .tc := ⟨.hbm, 616, rfl⟩
abbrev main_c_139 : Ref sig .tc := ⟨.hbm, 617, rfl⟩
abbrev main_v397 : Ref sig .tc := ⟨.hbm, 618, rfl⟩
abbrev main_v398 : Ref sig .tc := ⟨.hbm, 619, rfl⟩
abbrev main_v399 : Ref sig .tc := ⟨.hbm, 620, rfl⟩
abbrev main_v400 : Ref sig .tc := ⟨.hbm, 621, rfl⟩
abbrev main_v401 : Ref sig .tc := ⟨.hbm, 622, rfl⟩
abbrev main_v402 : Ref sig .tc := ⟨.hbm, 623, rfl⟩
abbrev main_v403 : Ref sig .tc := ⟨.hbm, 624, rfl⟩
abbrev main_v404 : Ref sig .tc := ⟨.hbm, 625, rfl⟩
abbrev main_v405 : Ref sig .tc := ⟨.hbm, 626, rfl⟩
abbrev main_v406 : Ref sig .tc := ⟨.hbm, 627, rfl⟩
abbrev main_v407 : Ref sig .tc := ⟨.hbm, 628, rfl⟩
abbrev main_v408 : Ref sig .tc := ⟨.hbm, 629, rfl⟩
abbrev main_v409 : Ref sig .tc := ⟨.hbm, 630, rfl⟩
abbrev main_v410 : Ref sig .tc := ⟨.hbm, 631, rfl⟩
abbrev main_v411 : Ref sig .tc := ⟨.hbm, 632, rfl⟩
abbrev main_cst_140 : Ref sig .tc := ⟨.hbm, 633, rfl⟩
abbrev main_v412 : Ref sig .tc := ⟨.hbm, 634, rfl⟩
abbrev main_v413 : Ref sig .tc := ⟨.hbm, 635, rfl⟩
abbrev main_cst_141 : Ref sig .tc := ⟨.hbm, 636, rfl⟩
abbrev main_v414 : Ref sig .tc := ⟨.hbm, 637, rfl⟩
abbrev main_v415 : Ref sig .tc := ⟨.hbm, 638, rfl⟩
abbrev main_cst_142 : Ref sig .tc := ⟨.hbm, 639, rfl⟩
abbrev main_v416 : Ref sig .tc := ⟨.hbm, 640, rfl⟩
abbrev main_v417 : Ref sig .tc := ⟨.hbm, 641, rfl⟩
abbrev main_v418 : Ref sig .tc := ⟨.hbm, 642, rfl⟩
abbrev main_v419 : Ref sig .tc := ⟨.hbm, 643, rfl⟩
abbrev main_cst_143 : Ref sig .tc := ⟨.hbm, 644, rfl⟩
abbrev main_v420 : Ref sig .tc := ⟨.hbm, 645, rfl⟩
abbrev main_v421 : Ref sig .tc := ⟨.hbm, 646, rfl⟩
abbrev main_v422 : Ref sig .tc := ⟨.hbm, 647, rfl⟩
abbrev main_v423 : Ref sig .tc := ⟨.hbm, 648, rfl⟩
abbrev main_cst_144 : Ref sig .tc := ⟨.hbm, 649, rfl⟩
abbrev main_v424 : Ref sig .tc := ⟨.hbm, 650, rfl⟩
abbrev main_v425 : Ref sig .tc := ⟨.hbm, 651, rfl⟩
abbrev main_v426 : Ref sig .tc := ⟨.hbm, 652, rfl⟩
abbrev main_v427 : Ref sig .tc := ⟨.hbm, 653, rfl⟩
abbrev main_v428 : Ref sig .tc := ⟨.hbm, 654, rfl⟩
abbrev main_cst_145 : Ref sig .tc := ⟨.hbm, 655, rfl⟩
abbrev main_v429 : Ref sig .tc := ⟨.hbm, 656, rfl⟩
abbrev main_v430 : Ref sig .tc := ⟨.hbm, 657, rfl⟩
abbrev main_v431 : Ref sig .tc := ⟨.hbm, 658, rfl⟩
abbrev main_cst_146 : Ref sig .tc := ⟨.hbm, 659, rfl⟩
abbrev main_v432 : Ref sig .tc := ⟨.hbm, 660, rfl⟩
abbrev main_v433 : Ref sig .tc := ⟨.hbm, 661, rfl⟩
abbrev main_cst_147 : Ref sig .tc := ⟨.hbm, 662, rfl⟩
abbrev main_v434 : Ref sig .tc := ⟨.hbm, 663, rfl⟩
abbrev main_v435 : Ref sig .tc := ⟨.hbm, 664, rfl⟩
abbrev main_v436 : Ref sig .tc := ⟨.hbm, 665, rfl⟩
abbrev main_cst_148 : Ref sig .tc := ⟨.hbm, 666, rfl⟩
abbrev main_v437 : Ref sig .tc := ⟨.hbm, 667, rfl⟩
abbrev main_v438 : Ref sig .tc := ⟨.hbm, 668, rfl⟩
abbrev main_v439 : Ref sig .tc := ⟨.hbm, 669, rfl⟩
abbrev main_cst_149 : Ref sig .tc := ⟨.hbm, 670, rfl⟩
abbrev main_v440 : Ref sig .tc := ⟨.hbm, 671, rfl⟩
abbrev main_v441 : Ref sig .tc := ⟨.hbm, 672, rfl⟩
abbrev main_v442 : Ref sig .tc := ⟨.hbm, 673, rfl⟩
abbrev main_cst_150 : Ref sig .tc := ⟨.hbm, 674, rfl⟩
abbrev main_v443 : Ref sig .tc := ⟨.hbm, 675, rfl⟩
abbrev main_v444 : Ref sig .tc := ⟨.hbm, 676, rfl⟩
abbrev main_v445 : Ref sig .tc := ⟨.hbm, 677, rfl⟩
abbrev main_cst_151 : Ref sig .tc := ⟨.hbm, 678, rfl⟩
abbrev main_v446 : Ref sig .tc := ⟨.hbm, 679, rfl⟩
abbrev main_v447 : Ref sig .tc := ⟨.hbm, 680, rfl⟩
abbrev main_v448 : Ref sig .tc := ⟨.hbm, 681, rfl⟩
abbrev main_c_152 : Ref sig .tc := ⟨.hbm, 682, rfl⟩
abbrev main_c_153 : Ref sig .tc := ⟨.hbm, 683, rfl⟩
abbrev main_call15_v0 : Ref sig .tc := ⟨.hbm, 684, rfl⟩
abbrev main_call15_v1 : Ref sig .tc := ⟨.hbm, 685, rfl⟩
abbrev main_call15_v2 : Ref sig .tc := ⟨.hbm, 686, rfl⟩
abbrev main_call15_v3 : Ref sig .tc := ⟨.hbm, 687, rfl⟩
abbrev main_call15_v4 : Ref sig .tc := ⟨.hbm, 688, rfl⟩
abbrev main_v449 : Ref sig .tc := ⟨.hbm, 689, rfl⟩
abbrev main_v450 : Ref sig .tc := ⟨.hbm, 690, rfl⟩
abbrev main_c_154 : Ref sig .tc := ⟨.hbm, 691, rfl⟩
abbrev main_c_155 : Ref sig .tc := ⟨.hbm, 692, rfl⟩
abbrev main_call16_v0 : Ref sig .tc := ⟨.hbm, 693, rfl⟩
abbrev main_call16_v1 : Ref sig .tc := ⟨.hbm, 694, rfl⟩
abbrev main_call16_v2 : Ref sig .tc := ⟨.hbm, 695, rfl⟩
abbrev main_call16_v3 : Ref sig .tc := ⟨.hbm, 696, rfl⟩
abbrev main_call16_v4 : Ref sig .tc := ⟨.hbm, 697, rfl⟩
abbrev main_v451 : Ref sig .tc := ⟨.hbm, 698, rfl⟩
abbrev main_v452 : Ref sig .tc := ⟨.hbm, 699, rfl⟩
abbrev main_c_156 : Ref sig .tc := ⟨.hbm, 700, rfl⟩
abbrev main_c_157 : Ref sig .tc := ⟨.hbm, 701, rfl⟩
abbrev main_call17_v0 : Ref sig .tc := ⟨.hbm, 702, rfl⟩
abbrev main_call17_v1 : Ref sig .tc := ⟨.hbm, 703, rfl⟩
abbrev main_call17_v2 : Ref sig .tc := ⟨.hbm, 704, rfl⟩
abbrev main_call17_v3 : Ref sig .tc := ⟨.hbm, 705, rfl⟩
abbrev main_call17_v4 : Ref sig .tc := ⟨.hbm, 706, rfl⟩
abbrev main_v453 : Ref sig .tc := ⟨.hbm, 707, rfl⟩
abbrev main_v454 : Ref sig .tc := ⟨.hbm, 708, rfl⟩
abbrev main_c_158 : Ref sig .tc := ⟨.hbm, 709, rfl⟩
abbrev main_v455 : Ref sig .tc := ⟨.hbm, 710, rfl⟩
abbrev main_v456 : Ref sig .tc := ⟨.hbm, 711, rfl⟩
abbrev main_c_159 : Ref sig .tc := ⟨.hbm, 712, rfl⟩
abbrev main_v457 : Ref sig .tc := ⟨.hbm, 713, rfl⟩
abbrev main_v458 : Ref sig .tc := ⟨.hbm, 714, rfl⟩
abbrev main_v459 : Ref sig .tc := ⟨.hbm, 715, rfl⟩
abbrev main_c_160 : Ref sig .tc := ⟨.hbm, 716, rfl⟩
abbrev main_v460 : Ref sig .tc := ⟨.hbm, 717, rfl⟩
abbrev main_v461 : Ref sig .tc := ⟨.hbm, 718, rfl⟩
abbrev main_c_161 : Ref sig .tc := ⟨.hbm, 719, rfl⟩
abbrev main_v462 : Ref sig .tc := ⟨.hbm, 720, rfl⟩
abbrev main_v463 : Ref sig .tc := ⟨.hbm, 721, rfl⟩
abbrev main_v464 : Ref sig .tc := ⟨.hbm, 722, rfl⟩
abbrev main_c_162 : Ref sig .tc := ⟨.hbm, 723, rfl⟩
abbrev main_v465 : Ref sig .tc := ⟨.hbm, 724, rfl⟩
abbrev main_v466 : Ref sig .tc := ⟨.hbm, 725, rfl⟩
abbrev main_c_163 : Ref sig .tc := ⟨.hbm, 726, rfl⟩
abbrev main_v467 : Ref sig .tc := ⟨.hbm, 727, rfl⟩
abbrev main_v468 : Ref sig .tc := ⟨.hbm, 728, rfl⟩
abbrev main_v469 : Ref sig .tc := ⟨.hbm, 729, rfl⟩
abbrev main_c_164 : Ref sig .tc := ⟨.hbm, 730, rfl⟩
abbrev main_v470 : Ref sig .tc := ⟨.hbm, 731, rfl⟩
abbrev main_v471 : Ref sig .tc := ⟨.hbm, 732, rfl⟩
abbrev main_c_165 : Ref sig .tc := ⟨.hbm, 733, rfl⟩
abbrev main_v472 : Ref sig .tc := ⟨.hbm, 734, rfl⟩
abbrev main_v473 : Ref sig .tc := ⟨.hbm, 735, rfl⟩
abbrev main_v474 : Ref sig .tc := ⟨.hbm, 736, rfl⟩
abbrev main_v475 : Ref sig .tc := ⟨.hbm, 737, rfl⟩
abbrev main_v476 : Ref sig .tc := ⟨.hbm, 738, rfl⟩
abbrev main_v477 : Ref sig .tc := ⟨.hbm, 739, rfl⟩
abbrev main_v478 : Ref sig .tc := ⟨.hbm, 740, rfl⟩
abbrev main_v479 : Ref sig .tc := ⟨.hbm, 741, rfl⟩
abbrev main_v480 : Ref sig .tc := ⟨.hbm, 742, rfl⟩
abbrev main_v481 : Ref sig .tc := ⟨.hbm, 743, rfl⟩
abbrev main_v482 : Ref sig .tc := ⟨.hbm, 744, rfl⟩
abbrev main_v483 : Ref sig .tc := ⟨.hbm, 745, rfl⟩
abbrev main_v484 : Ref sig .tc := ⟨.hbm, 746, rfl⟩
abbrev main_v485 : Ref sig .tc := ⟨.hbm, 747, rfl⟩
abbrev main_v486 : Ref sig .tc := ⟨.hbm, 748, rfl⟩
abbrev main_cst_166 : Ref sig .tc := ⟨.hbm, 749, rfl⟩
abbrev main_v487 : Ref sig .tc := ⟨.hbm, 750, rfl⟩
abbrev main_v488 : Ref sig .tc := ⟨.hbm, 751, rfl⟩
abbrev main_cst_167 : Ref sig .tc := ⟨.hbm, 752, rfl⟩
abbrev main_v489 : Ref sig .tc := ⟨.hbm, 753, rfl⟩
abbrev main_v490 : Ref sig .tc := ⟨.hbm, 754, rfl⟩
abbrev main_cst_168 : Ref sig .tc := ⟨.hbm, 755, rfl⟩
abbrev main_v491 : Ref sig .tc := ⟨.hbm, 756, rfl⟩
abbrev main_v492 : Ref sig .tc := ⟨.hbm, 757, rfl⟩
abbrev main_v493 : Ref sig .tc := ⟨.hbm, 758, rfl⟩
abbrev main_v494 : Ref sig .tc := ⟨.hbm, 759, rfl⟩
abbrev main_cst_169 : Ref sig .tc := ⟨.hbm, 760, rfl⟩
abbrev main_v495 : Ref sig .tc := ⟨.hbm, 761, rfl⟩
abbrev main_v496 : Ref sig .tc := ⟨.hbm, 762, rfl⟩
abbrev main_v497 : Ref sig .tc := ⟨.hbm, 763, rfl⟩
abbrev main_v498 : Ref sig .tc := ⟨.hbm, 764, rfl⟩
abbrev main_cst_170 : Ref sig .tc := ⟨.hbm, 765, rfl⟩
abbrev main_v499 : Ref sig .tc := ⟨.hbm, 766, rfl⟩
abbrev main_v500 : Ref sig .tc := ⟨.hbm, 767, rfl⟩
abbrev main_v501 : Ref sig .tc := ⟨.hbm, 768, rfl⟩
abbrev main_v502 : Ref sig .tc := ⟨.hbm, 769, rfl⟩
abbrev main_v503 : Ref sig .tc := ⟨.hbm, 770, rfl⟩
abbrev main_cst_171 : Ref sig .tc := ⟨.hbm, 771, rfl⟩
abbrev main_v504 : Ref sig .tc := ⟨.hbm, 772, rfl⟩
abbrev main_v505 : Ref sig .tc := ⟨.hbm, 773, rfl⟩
abbrev main_v506 : Ref sig .tc := ⟨.hbm, 774, rfl⟩
abbrev main_cst_172 : Ref sig .tc := ⟨.hbm, 775, rfl⟩
abbrev main_v507 : Ref sig .tc := ⟨.hbm, 776, rfl⟩
abbrev main_v508 : Ref sig .tc := ⟨.hbm, 777, rfl⟩
abbrev main_cst_173 : Ref sig .tc := ⟨.hbm, 778, rfl⟩
abbrev main_v509 : Ref sig .tc := ⟨.hbm, 779, rfl⟩
abbrev main_v510 : Ref sig .tc := ⟨.hbm, 780, rfl⟩
abbrev main_v511 : Ref sig .tc := ⟨.hbm, 781, rfl⟩
abbrev main_cst_174 : Ref sig .tc := ⟨.hbm, 782, rfl⟩
abbrev main_v512 : Ref sig .tc := ⟨.hbm, 783, rfl⟩
abbrev main_v513 : Ref sig .tc := ⟨.hbm, 784, rfl⟩
abbrev main_v514 : Ref sig .tc := ⟨.hbm, 785, rfl⟩
abbrev main_cst_175 : Ref sig .tc := ⟨.hbm, 786, rfl⟩
abbrev main_v515 : Ref sig .tc := ⟨.hbm, 787, rfl⟩
abbrev main_v516 : Ref sig .tc := ⟨.hbm, 788, rfl⟩
abbrev main_v517 : Ref sig .tc := ⟨.hbm, 789, rfl⟩
abbrev main_cst_176 : Ref sig .tc := ⟨.hbm, 790, rfl⟩
abbrev main_v518 : Ref sig .tc := ⟨.hbm, 791, rfl⟩
abbrev main_v519 : Ref sig .tc := ⟨.hbm, 792, rfl⟩
abbrev main_v520 : Ref sig .tc := ⟨.hbm, 793, rfl⟩
abbrev main_cst_177 : Ref sig .tc := ⟨.hbm, 794, rfl⟩
abbrev main_v521 : Ref sig .tc := ⟨.hbm, 795, rfl⟩
abbrev main_v522 : Ref sig .tc := ⟨.hbm, 796, rfl⟩
abbrev main_v523 : Ref sig .tc := ⟨.hbm, 797, rfl⟩
abbrev main_c_178 : Ref sig .tc := ⟨.hbm, 798, rfl⟩
abbrev main_c_179 : Ref sig .tc := ⟨.hbm, 799, rfl⟩
abbrev main_call18_v0 : Ref sig .tc := ⟨.hbm, 800, rfl⟩
abbrev main_call18_v1 : Ref sig .tc := ⟨.hbm, 801, rfl⟩
abbrev main_call18_v2 : Ref sig .tc := ⟨.hbm, 802, rfl⟩
abbrev main_call18_v3 : Ref sig .tc := ⟨.hbm, 803, rfl⟩
abbrev main_call18_v4 : Ref sig .tc := ⟨.hbm, 804, rfl⟩
abbrev main_v524 : Ref sig .tc := ⟨.hbm, 805, rfl⟩
abbrev main_v525 : Ref sig .tc := ⟨.hbm, 806, rfl⟩
abbrev main_c_180 : Ref sig .tc := ⟨.hbm, 807, rfl⟩
abbrev main_c_181 : Ref sig .tc := ⟨.hbm, 808, rfl⟩
abbrev main_call19_v0 : Ref sig .tc := ⟨.hbm, 809, rfl⟩
abbrev main_call19_v1 : Ref sig .tc := ⟨.hbm, 810, rfl⟩
abbrev main_call19_v2 : Ref sig .tc := ⟨.hbm, 811, rfl⟩
abbrev main_call19_v3 : Ref sig .tc := ⟨.hbm, 812, rfl⟩
abbrev main_call19_v4 : Ref sig .tc := ⟨.hbm, 813, rfl⟩
abbrev main_v526 : Ref sig .tc := ⟨.hbm, 814, rfl⟩
abbrev main_v527 : Ref sig .tc := ⟨.hbm, 815, rfl⟩
abbrev main_c_182 : Ref sig .tc := ⟨.hbm, 816, rfl⟩
abbrev main_c_183 : Ref sig .tc := ⟨.hbm, 817, rfl⟩
abbrev main_call20_v0 : Ref sig .tc := ⟨.hbm, 818, rfl⟩
abbrev main_call20_v1 : Ref sig .tc := ⟨.hbm, 819, rfl⟩
abbrev main_call20_v2 : Ref sig .tc := ⟨.hbm, 820, rfl⟩
abbrev main_call20_v3 : Ref sig .tc := ⟨.hbm, 821, rfl⟩
abbrev main_call20_v4 : Ref sig .tc := ⟨.hbm, 822, rfl⟩
abbrev main_v528 : Ref sig .tc := ⟨.hbm, 823, rfl⟩
abbrev main_v529 : Ref sig .tc := ⟨.hbm, 824, rfl⟩
abbrev main_c_184 : Ref sig .tc := ⟨.hbm, 825, rfl⟩
abbrev main_v530 : Ref sig .tc := ⟨.hbm, 826, rfl⟩
abbrev main_v531 : Ref sig .tc := ⟨.hbm, 827, rfl⟩
abbrev main_c_185 : Ref sig .tc := ⟨.hbm, 828, rfl⟩
abbrev main_v532 : Ref sig .tc := ⟨.hbm, 829, rfl⟩
abbrev main_v533 : Ref sig .tc := ⟨.hbm, 830, rfl⟩
abbrev main_v534 : Ref sig .tc := ⟨.hbm, 831, rfl⟩
abbrev main_c_186 : Ref sig .tc := ⟨.hbm, 832, rfl⟩
abbrev main_v535 : Ref sig .tc := ⟨.hbm, 833, rfl⟩
abbrev main_v536 : Ref sig .tc := ⟨.hbm, 834, rfl⟩
abbrev main_c_187 : Ref sig .tc := ⟨.hbm, 835, rfl⟩
abbrev main_v537 : Ref sig .tc := ⟨.hbm, 836, rfl⟩
abbrev main_v538 : Ref sig .tc := ⟨.hbm, 837, rfl⟩
abbrev main_v539 : Ref sig .tc := ⟨.hbm, 838, rfl⟩
abbrev main_c_188 : Ref sig .tc := ⟨.hbm, 839, rfl⟩
abbrev main_v540 : Ref sig .tc := ⟨.hbm, 840, rfl⟩
abbrev main_v541 : Ref sig .tc := ⟨.hbm, 841, rfl⟩
abbrev main_c_189 : Ref sig .tc := ⟨.hbm, 842, rfl⟩
abbrev main_v542 : Ref sig .tc := ⟨.hbm, 843, rfl⟩
abbrev main_v543 : Ref sig .tc := ⟨.hbm, 844, rfl⟩
abbrev main_v544 : Ref sig .tc := ⟨.hbm, 845, rfl⟩
abbrev main_c_190 : Ref sig .tc := ⟨.hbm, 846, rfl⟩
abbrev main_v545 : Ref sig .tc := ⟨.hbm, 847, rfl⟩
abbrev main_v546 : Ref sig .tc := ⟨.hbm, 848, rfl⟩
abbrev main_c_191 : Ref sig .tc := ⟨.hbm, 849, rfl⟩
abbrev main_v547 : Ref sig .tc := ⟨.hbm, 850, rfl⟩
abbrev main_v548 : Ref sig .tc := ⟨.hbm, 851, rfl⟩
abbrev main_v549 : Ref sig .tc := ⟨.hbm, 852, rfl⟩
abbrev main_v550 : Ref sig .tc := ⟨.hbm, 853, rfl⟩
abbrev main_v551 : Ref sig .tc := ⟨.hbm, 854, rfl⟩
abbrev main_v552 : Ref sig .tc := ⟨.hbm, 855, rfl⟩
abbrev main_v553 : Ref sig .tc := ⟨.hbm, 856, rfl⟩
abbrev main_v554 : Ref sig .tc := ⟨.hbm, 857, rfl⟩
abbrev main_v555 : Ref sig .tc := ⟨.hbm, 858, rfl⟩
abbrev main_v556 : Ref sig .tc := ⟨.hbm, 859, rfl⟩
abbrev main_v557 : Ref sig .tc := ⟨.hbm, 860, rfl⟩
abbrev main_v558 : Ref sig .tc := ⟨.hbm, 861, rfl⟩
abbrev main_v559 : Ref sig .tc := ⟨.hbm, 862, rfl⟩
abbrev main_v560 : Ref sig .tc := ⟨.hbm, 863, rfl⟩
abbrev main_v561 : Ref sig .tc := ⟨.hbm, 864, rfl⟩
abbrev main_cst_192 : Ref sig .tc := ⟨.hbm, 865, rfl⟩
abbrev main_v562 : Ref sig .tc := ⟨.hbm, 866, rfl⟩
abbrev main_v563 : Ref sig .tc := ⟨.hbm, 867, rfl⟩
abbrev main_cst_193 : Ref sig .tc := ⟨.hbm, 868, rfl⟩
abbrev main_v564 : Ref sig .tc := ⟨.hbm, 869, rfl⟩
abbrev main_v565 : Ref sig .tc := ⟨.hbm, 870, rfl⟩
abbrev main_cst_194 : Ref sig .tc := ⟨.hbm, 871, rfl⟩
abbrev main_v566 : Ref sig .tc := ⟨.hbm, 872, rfl⟩
abbrev main_v567 : Ref sig .tc := ⟨.hbm, 873, rfl⟩
abbrev main_v568 : Ref sig .tc := ⟨.hbm, 874, rfl⟩
abbrev main_v569 : Ref sig .tc := ⟨.hbm, 875, rfl⟩
abbrev main_cst_195 : Ref sig .tc := ⟨.hbm, 876, rfl⟩
abbrev main_v570 : Ref sig .tc := ⟨.hbm, 877, rfl⟩
abbrev main_v571 : Ref sig .tc := ⟨.hbm, 878, rfl⟩
abbrev main_v572 : Ref sig .tc := ⟨.hbm, 879, rfl⟩
abbrev main_v573 : Ref sig .tc := ⟨.hbm, 880, rfl⟩
abbrev main_cst_196 : Ref sig .tc := ⟨.hbm, 881, rfl⟩
abbrev main_v574 : Ref sig .tc := ⟨.hbm, 882, rfl⟩
abbrev main_v575 : Ref sig .tc := ⟨.hbm, 883, rfl⟩
abbrev main_v576 : Ref sig .tc := ⟨.hbm, 884, rfl⟩
abbrev main_v577 : Ref sig .tc := ⟨.hbm, 885, rfl⟩
abbrev main_v578 : Ref sig .tc := ⟨.hbm, 886, rfl⟩
abbrev main_cst_197 : Ref sig .tc := ⟨.hbm, 887, rfl⟩
abbrev main_v579 : Ref sig .tc := ⟨.hbm, 888, rfl⟩
abbrev main_v580 : Ref sig .tc := ⟨.hbm, 889, rfl⟩
abbrev main_v581 : Ref sig .tc := ⟨.hbm, 890, rfl⟩
abbrev main_cst_198 : Ref sig .tc := ⟨.hbm, 891, rfl⟩
abbrev main_v582 : Ref sig .tc := ⟨.hbm, 892, rfl⟩
abbrev main_v583 : Ref sig .tc := ⟨.hbm, 893, rfl⟩
abbrev main_cst_199 : Ref sig .tc := ⟨.hbm, 894, rfl⟩
abbrev main_v584 : Ref sig .tc := ⟨.hbm, 895, rfl⟩
abbrev main_v585 : Ref sig .tc := ⟨.hbm, 896, rfl⟩
abbrev main_v586 : Ref sig .tc := ⟨.hbm, 897, rfl⟩
abbrev main_cst_200 : Ref sig .tc := ⟨.hbm, 898, rfl⟩
abbrev main_v587 : Ref sig .tc := ⟨.hbm, 899, rfl⟩
abbrev main_v588 : Ref sig .tc := ⟨.hbm, 900, rfl⟩
abbrev main_v589 : Ref sig .tc := ⟨.hbm, 901, rfl⟩
abbrev main_cst_201 : Ref sig .tc := ⟨.hbm, 902, rfl⟩
abbrev main_v590 : Ref sig .tc := ⟨.hbm, 903, rfl⟩
abbrev main_v591 : Ref sig .tc := ⟨.hbm, 904, rfl⟩
abbrev main_v592 : Ref sig .tc := ⟨.hbm, 905, rfl⟩
abbrev main_cst_202 : Ref sig .tc := ⟨.hbm, 906, rfl⟩
abbrev main_v593 : Ref sig .tc := ⟨.hbm, 907, rfl⟩
abbrev main_v594 : Ref sig .tc := ⟨.hbm, 908, rfl⟩
abbrev main_v595 : Ref sig .tc := ⟨.hbm, 909, rfl⟩
abbrev main_cst_203 : Ref sig .tc := ⟨.hbm, 910, rfl⟩
abbrev main_v596 : Ref sig .tc := ⟨.hbm, 911, rfl⟩
abbrev main_v597 : Ref sig .tc := ⟨.hbm, 912, rfl⟩
abbrev main_v598 : Ref sig .tc := ⟨.hbm, 913, rfl⟩
abbrev main_c_204 : Ref sig .tc := ⟨.hbm, 914, rfl⟩
abbrev main_c_205 : Ref sig .tc := ⟨.hbm, 915, rfl⟩
abbrev main_call21_v0 : Ref sig .tc := ⟨.hbm, 916, rfl⟩
abbrev main_call21_v1 : Ref sig .tc := ⟨.hbm, 917, rfl⟩
abbrev main_call21_v2 : Ref sig .tc := ⟨.hbm, 918, rfl⟩
abbrev main_call21_v3 : Ref sig .tc := ⟨.hbm, 919, rfl⟩
abbrev main_call21_v4 : Ref sig .tc := ⟨.hbm, 920, rfl⟩
abbrev main_v599 : Ref sig .tc := ⟨.hbm, 921, rfl⟩
abbrev main_v600 : Ref sig .tc := ⟨.hbm, 922, rfl⟩
abbrev main_c_206 : Ref sig .tc := ⟨.hbm, 923, rfl⟩
abbrev main_c_207 : Ref sig .tc := ⟨.hbm, 924, rfl⟩
abbrev main_call22_v0 : Ref sig .tc := ⟨.hbm, 925, rfl⟩
abbrev main_call22_v1 : Ref sig .tc := ⟨.hbm, 926, rfl⟩
abbrev main_call22_v2 : Ref sig .tc := ⟨.hbm, 927, rfl⟩
abbrev main_call22_v3 : Ref sig .tc := ⟨.hbm, 928, rfl⟩
abbrev main_call22_v4 : Ref sig .tc := ⟨.hbm, 929, rfl⟩
abbrev main_v601 : Ref sig .tc := ⟨.hbm, 930, rfl⟩
abbrev main_v602 : Ref sig .tc := ⟨.hbm, 931, rfl⟩
abbrev main_c_208 : Ref sig .tc := ⟨.hbm, 932, rfl⟩
abbrev main_c_209 : Ref sig .tc := ⟨.hbm, 933, rfl⟩
abbrev main_call23_v0 : Ref sig .tc := ⟨.hbm, 934, rfl⟩
abbrev main_call23_v1 : Ref sig .tc := ⟨.hbm, 935, rfl⟩
abbrev main_call23_v2 : Ref sig .tc := ⟨.hbm, 936, rfl⟩
abbrev main_call23_v3 : Ref sig .tc := ⟨.hbm, 937, rfl⟩
abbrev main_call23_v4 : Ref sig .tc := ⟨.hbm, 938, rfl⟩
abbrev main_v603 : Ref sig .tc := ⟨.hbm, 939, rfl⟩
abbrev main_v604 : Ref sig .tc := ⟨.hbm, 940, rfl⟩
abbrev main_c_210 : Ref sig .tc := ⟨.hbm, 941, rfl⟩
abbrev main_v605 : Ref sig .tc := ⟨.hbm, 942, rfl⟩
abbrev main_v606 : Ref sig .tc := ⟨.hbm, 943, rfl⟩
abbrev main_c_211 : Ref sig .tc := ⟨.hbm, 944, rfl⟩
abbrev main_v607 : Ref sig .tc := ⟨.hbm, 945, rfl⟩
abbrev main_v608 : Ref sig .tc := ⟨.hbm, 946, rfl⟩
abbrev main_v609 : Ref sig .tc := ⟨.hbm, 947, rfl⟩
abbrev main_c_212 : Ref sig .tc := ⟨.hbm, 948, rfl⟩
abbrev main_v610 : Ref sig .tc := ⟨.hbm, 949, rfl⟩
abbrev main_v611 : Ref sig .tc := ⟨.hbm, 950, rfl⟩
abbrev main_c_213 : Ref sig .tc := ⟨.hbm, 951, rfl⟩
abbrev main_v612 : Ref sig .tc := ⟨.hbm, 952, rfl⟩
abbrev main_v613 : Ref sig .tc := ⟨.hbm, 953, rfl⟩
abbrev main_v614 : Ref sig .tc := ⟨.hbm, 954, rfl⟩
abbrev main_c_214 : Ref sig .tc := ⟨.hbm, 955, rfl⟩
abbrev main_v615 : Ref sig .tc := ⟨.hbm, 956, rfl⟩
abbrev main_v616 : Ref sig .tc := ⟨.hbm, 957, rfl⟩
abbrev main_c_215 : Ref sig .tc := ⟨.hbm, 958, rfl⟩
abbrev main_v617 : Ref sig .tc := ⟨.hbm, 959, rfl⟩
abbrev main_v618 : Ref sig .tc := ⟨.hbm, 960, rfl⟩
abbrev main_v619 : Ref sig .tc := ⟨.hbm, 961, rfl⟩
abbrev main_c_216 : Ref sig .tc := ⟨.hbm, 962, rfl⟩
abbrev main_v620 : Ref sig .tc := ⟨.hbm, 963, rfl⟩
abbrev main_v621 : Ref sig .tc := ⟨.hbm, 964, rfl⟩
abbrev main_c_217 : Ref sig .tc := ⟨.hbm, 965, rfl⟩
abbrev main_v622 : Ref sig .tc := ⟨.hbm, 966, rfl⟩
abbrev main_v623 : Ref sig .tc := ⟨.hbm, 967, rfl⟩
abbrev main_v624 : Ref sig .tc := ⟨.hbm, 968, rfl⟩
abbrev main_v625 : Ref sig .tc := ⟨.hbm, 969, rfl⟩
abbrev main_v626 : Ref sig .tc := ⟨.hbm, 970, rfl⟩
abbrev main_v627 : Ref sig .tc := ⟨.hbm, 971, rfl⟩
abbrev main_v628 : Ref sig .tc := ⟨.hbm, 972, rfl⟩
abbrev main_v629 : Ref sig .tc := ⟨.hbm, 973, rfl⟩
abbrev main_v630 : Ref sig .tc := ⟨.hbm, 974, rfl⟩
abbrev main_v631 : Ref sig .tc := ⟨.hbm, 975, rfl⟩
abbrev main_v632 : Ref sig .tc := ⟨.hbm, 976, rfl⟩
abbrev main_v633 : Ref sig .tc := ⟨.hbm, 977, rfl⟩
abbrev main_v634 : Ref sig .tc := ⟨.hbm, 978, rfl⟩
abbrev main_v635 : Ref sig .tc := ⟨.hbm, 979, rfl⟩
abbrev main_v636 : Ref sig .tc := ⟨.hbm, 980, rfl⟩
abbrev main_v637 : Ref sig .tc := ⟨.hbm, 981, rfl⟩

abbrev nD : Nat := 1
abbrev τ : Topo := Topo.v7x

variable {F : FTy → Type} [FloatOps F]

class Facts₀ : Prop where
  bcast_S_S8x2048x3 : S_.BroadcastsInDim S8x2048x3 (![] : Fin 0 → Fin S8x2048x3.rank)
  slices_S8x2048x3_S8x2048x1_0_0_0 : S8x2048x3.Slices ![0, 0, 0] S8x2048x1
  shapeCasts_S8x2048x1_S8x2048 : S8x2048x1.ShapeCasts S8x2048
  bcast_S_S8x2048 : S_.BroadcastsInDim S8x2048 (![] : Fin 0 → Fin S8x2048.rank)
  slices_S8x2048x3_S8x2048x1_0_0_1 : S8x2048x3.Slices ![0, 0, 1] S8x2048x1
  slices_S8x2048x3_S8x2048x1_0_0_2 : S8x2048x3.Slices ![0, 0, 2] S8x2048x1
  bcast_S8_S8x1_0 : S8.BroadcastsInDim S8x1 (![0] : Fin 1 → Fin S8x1.rank)
  bcast_S8x1_S8x2048_0_1 : S8x1.BroadcastsInDim S8x2048 (![0, 1] : Fin 2 → Fin S8x2048.rank)
  bcast_S_S8x2048x128 : S_.BroadcastsInDim S8x2048x128 (![] : Fin 0 → Fin S8x2048x128.rank)
  bcast_S8x2048_S8x2048x1_0_1 : S8x2048.BroadcastsInDim S8x2048x1 (![0, 1] : Fin 2 → Fin S8x2048x1.rank)
  concatenates_S8x2048x1_S8x2048x1_S8x2048x1_S8x2048x1_S8x2048x4_d2 : Shape.Concatenates [S8x2048x1, S8x2048x1, S8x2048x1, S8x2048x1] S8x2048x4 2
  bcast_S8x2048x1_S8x2048x128_0_1_2 : S8x2048x1.BroadcastsInDim S8x2048x128 (![0, 1, 2] : Fin 3 → Fin S8x2048x128.rank)
  concatenates_S8x2048x128_S8x2048x128_S8x2048x3_S8x2048x259_d2 : Shape.Concatenates [S8x2048x128, S8x2048x128, S8x2048x3] S8x2048x259 2
  dot_S8x2048x2048_S8x2048x128_S8x2048x128_2_1_1_2_0_0_wf : DotDims.WF S8x2048x2048 S8x2048x128 S8x2048x128 [2] [1] [1] [2] [0] [0]
  dot_S8x2048x128_S128x3_S8x2048x3_2_0_01_1_n_n_wf : DotDims.WF S8x2048x128 S128x3 S8x2048x3 [2] [0] [0, 1] [1] [] []
  gather_S8x128x32x32x32_S8x2048x4_S8x2048x128_2_0234_n_n_0234_2_1128111_wf : GatherDims.WF S8x128x32x32x32 S8x2048x4 S8x2048x128 [2] [0, 2, 3, 4] [] [0, 2, 3, 4] [] 2 ![1, 128, 1, 1, 1]

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x3_S8x2048x3_2_0_01_1_n_n : DotDims S8x2048x128 S128x3 S8x2048x3 where
  lhsContracting := [2]
  rhsContracting := [0]
  lhsNonContracting := [0, 1]
  rhsNonContracting := [1]
  lhsBatch := []
  rhsBatch := []
  wf := dot_S8x2048x128_S128x3_S8x2048x3_2_0_01_1_n_n_wf
def gather_S8x128x32x32x32_S8x2048x4_S8x2048x128_2_0234_n_n_0234_2_1128111 : GatherDims S8x128x32x32x32 S8x2048x4 S8x2048x128 where
  offsetDims := [2]
  collapsedSliceDims := [0, 2, 3, 4]
  operandBatchingDims := []
  startIndicesBatchingDims := []
  startIndexMap := [0, 2, 3, 4]
  indexVectorDim := 2
  sliceSizes := ![1, 128, 1, 1, 1]
  wf := gather_S8x128x32x32x32_S8x2048x4_S8x2048x128_2_0234_n_n_0234_2_1128111_wf

class Facts : Prop extends Facts₀ where

variable [Facts]
-- ==== Proof.KI.Common.lean ====
/-
  What the launch and the two kernel obligations share, for the idealized kernel's program read at any float family:
  the program as the launch theorem sees it, the ghost state (the TensorCore pipeline's staging cells, the SparseCore
  handshakes' rounds, the counters of a tile's own copies), the four arrays the SparseCore call takes, how they are cut
  among the thirty-two tiles — tile (c, s) is worker 2·s + c and owns index block 2·s + c and the 512 points
  512·(2·s + c) … — and what a tile is handed and hands back. The table is read by every tile at once: each holds a
  thirty-second share of it, the full share halved five times.

  The gathered sum: for point p and lane column v·16 + l the result is the balanced sum over the eight corners k of
  weight (p, k·16 + l) times table row idx(p, k) at column v·16 + l, in the order the body adds them,
  ((t0 + t1) + (t2 + t3)) + ((t4 + t5) + (t6 + t7)).
-/
import proofs.«209143_g59700045415095_cont_9to1_m_37_38_alg».proof.Defs
import proofs.«209143_g59700045415095_cont_9to1_m_37_38_alg».proof.Proof.Gen.KernelIdeal
import proofs.«209143_g59700045415095_cont_9to1_m_37_38_alg».proof.Proof.Gen.KernelIdeal.Skeleton
import proofs.«209143_g59700045415095_cont_9to1_m_37_38_alg».proof.Proof.Gen.KernelIdeal.Launch
import proofs.«209143_g59700045415095_cont_9to1_m_37_38_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Regions
import Idealize.ShloMosaic.Lib.Transfers
import Idealize.ShloMosaic.Lib.ValueIdx
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the pipeline's cells, the handshakes' rounds, the tiles' counters -/

abbrev UP : Type := URounds (GSem nD τ sig) Unit
abbrev UH : Type := URounds (GSem nD τ sig) ℕ
abbrev UU : Type := UP × (UH × Counters)

local notation "𝕄" => MT nD τ sig (HIx 1) (Elt F) ℕ UU ℕ

def EP : Emb UP (MT nD τ sig (HIx 1) (Elt F) ℕ UU ℕ) :=
  (Emb.inl : Emb UP UU).trans (uEmb (nD := nD) (sig := sig) (Ix := HIx 1) (Val := Elt F) (Name := ℕ) (U := UU) (Lvl := ℕ)).toEmb
def EH : Emb UH (MT nD τ sig (HIx 1) (Elt F) ℕ UU ℕ) :=
  ((Emb.inl : Emb UH (UH × Counters)).trans (Emb.inr : Emb (UH × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance
instance EH_landsIn : (EH : Emb UH 𝕄).LandsIn (upEmb : UEmb _ 𝕄) := by unfold EH; infer_instance

/-! ## The SparseCore call's four arrays -/

abbrev tblLoc (d : Dev nD) : Loc nD τ sig := (SparseCore.T d).loc main_v3
abbrev idxLoc (d : Dev nD) : Loc nD τ sig := (SparseCore.T d).loc main_v4
abbrev wLoc (d : Dev nD) : Loc nD τ sig := (SparseCore.T d).loc main_v5
abbrev outLoc (d : Dev nD) : Loc nD τ sig := (SparseCore.T d).loc main_v6

abbrev tblV : Memref sig .scVector .hbm S262144x128 .f32 := Memref.whole main_v3_scv
abbrev idxV : Memref sig .scVector .hbm S32x32x128 .i32 := Memref.whole main_v4_scv
abbrev wV : Memref sig .scVector .hbm S16384x128 .f32 := Memref.whole main_v5_scv
abbrev outV : Memref sig .scVector .hbm S16384x128 .f32 := Memref.whole main_v6_scv

/-! ## The cut among the thirty-two workers -/

/-- Worker number of tile (core c, subcore s). -/
def widOf (c : Fin 2) (s : Fin 16) : Fin 32 := ⟨2 * s.val + c.val, by omega⟩

theorem idiv : 32 ∣ S32x32x128.size 0 := ⟨1, rfl⟩
theorem pdiv : 32 ∣ S16384x128.size 0 := ⟨512, rfl⟩
/-- Worker w's block of the row numbers: the indices with first coordinate w. -/
abbrev iblk (w : Fin 32) : Rect S32x32x128 := Rect.part (s := S32x32x128) (a₀ := 0) idiv w
/-- Worker w's 512 points: rows 512·w … 512·w + 511 of the weights and of the result. -/
abbrev pblk (w : Fin 32) : Rect S16384x128 := Rect.part (s := S16384x128) (a₀ := 0) pdiv w
abbrev iSet (w : Fin 32) : Finset S32x32x128.Idx := ((idxV).view.slice (iblk w)).set
abbrev pSet (w : Fin 32) : Finset S16384x128.Idx := ((wV).view.slice (pblk w)).set

theorem shareLeaf_aux {n : ℕ} {i : ℕ} (h2 : i < 2 ^ (n + 1)) (h : ¬ i < 2 ^ n) : i - 2 ^ n < 2 ^ n := by
  have e : 2 ^ (n + 1) = 2 ^ n + 2 ^ n := by rw [pow_succ]; omega
  omega

/-- The full share halved n times: leaf i of the binary tree of depth n under q. -/
def shareLeaf : (n : ℕ) → PosShare TreeShare → Fin (2 ^ n) → PosShare TreeShare
  | 0, q, _ => q
  | n + 1, q, i => if h : i.val < 2 ^ n then shareLeaf n q.left ⟨i.val, h⟩ else shareLeaf n q.right ⟨i.val - 2 ^ n, shareLeaf_aux i.isLt h⟩

/-- Worker w's share of the table. -/
abbrev tshare (w : Fin 32) : PosShare TreeShare := shareLeaf 5 fullShare w

/-! ## The gathered sum -/

section Skip
variable [FloatOps F]

/-- The table row a row-number word names (the word read unsigned; in range on every run the proof meets). -/
def rowOf (b : BitVec 32) : Fin 262144 := ⟨b.toNat % 262144, Nat.mod_lt _ (by decide)⟩

/-- Corner k's term at point p, lane column col: weight (p, 16·k + col mod 16) times table row idx(p, k), column col. -/
def cornerTerm (tb : FVec F S262144x128 .f32) (ix : IVec S32x32x128 32) (wv : FVec F S16384x128 .f32)
    (p : Fin 16384) (col : Fin 128) (k : Fin 8) : F .f32 :=
  FloatOps.mulf
    (wv (ix2 p (⟨16 * k.val + col.val % 16, by omega⟩ : Fin 128)))
    (tb (ix2 (rowOf (ix (ix3 (⟨p.val / 512, by omega⟩ : Fin 32) (⟨p.val % 512 / 16, by omega⟩ : Fin 32) (⟨p.val % 16 * 8 + k.val, by omega⟩ : Fin 128)))) col))

/-- What the SparseCore call leaves in its result: per point and column the balanced sum of the eight corner terms. -/
def skip (tb : FVec F S262144x128 .f32) (ix : IVec S32x32x128 32) (wv : FVec F S16384x128 .f32) : FVec F S16384x128 .f32 :=
  fun j =>
    let t := cornerTerm tb ix wv (j 0) (j 1)
    FloatOps.addf (FloatOps.addf (FloatOps.addf (t 0) (t 1)) (FloatOps.addf (t 2) (t 3)))
      (FloatOps.addf (FloatOps.addf (t 4) (t 5)) (FloatOps.addf (t 6) (t 7)))

end Skip

/-! ## What the handshakes carry -/

section Pay
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The result array after the call, as one whole-array function of what the call was handed. -/
def skipBuf (d : Dev nD) : Buf (Elt F) (outLoc d) := skip (F := F) (tb d) (ix d) (wv d)

/-- What worker w is handed: its share of the table, its block of row numbers, its points' weights, its points' rows of
    the result at the launch contents. -/
abbrev tileGo (d : Dev nD) (w : Fin 32) : sProp 𝕄 :=
  iprop((tblLoc d ↦{tshare w} tb d) ∗ (idxLoc d ↦[iSet w]{fullShare} ix d) ∗ (wLoc d ↦[pSet w]{fullShare} wv d)
    ∗ (outLoc d ↦[pSet w]{fullShare} o0 d))
/-- What it hands back: the same, its rows of the result at the gathered sum. -/
abbrev tileTd (d : Dev nD) (w : Fin 32) : sProp 𝕄 :=
  iprop((tblLoc d ↦{tshare w} tb d) ∗ (idxLoc d ↦[iSet w]{fullShare} ix d) ∗ (wLoc d ↦[pSet w]{fullShare} wv d)
    ∗ (outLoc d ↦[pSet w]{fullShare} skipBuf tb ix wv d))

/-- The one call: a SparseCore takes its sixteen workers' parts and brings them back; a tile its own. -/
def P : (K (F := F)).Pay (nD := nD) (Val := Elt F) (Name := ℕ) (U := UU) where
  st := fun q d c => match q with
    | 0 => bigSep Finset.univ fun s : Fin 16 => tileGo tb ix wv o0 d (widOf (Fin.cast nCore_zero c) s)
  dn := fun q d c => match q with
    | 0 => bigSep Finset.univ fun s : Fin 16 => tileTd tb ix wv d (widOf (Fin.cast nCore_zero c) s)
  go := fun q d c i => match q with
    | 0 => tileGo tb ix wv o0 d (widOf (Fin.cast nCore_zero c) (Fin.cast nSub_zero i))
  td := fun q d c i => match q with
    | 0 => tileTd tb ix wv d (widOf (Fin.cast nCore_zero c) (Fin.cast nSub_zero i))
  x := fun _ _ => iprop(emp)

end Pay

end Cert.Proof.KI

end
-- ==== Proof.KI.RegionVals.lean ====
/-
  What the TensorCore call leaves in its three results, as whole-array functions of its three operands.

  The call runs on the grid 8 × 4: point (b, nb) is handed rows 512·nb … 512·nb + 511 of batch b of the adjacency
  (a block of shape 1 × 512 × 2048), all of batch b of the features (1 × 2048 × 128) and the whole projection
  (128 × 3), and writes rows 512·nb … of batch b of the positions (1 × 512 × 3), of the corner weights
  (1 × 512 × 128) and of the corner row numbers (1 × 512 × 8). What it writes is the body's own arithmetic, named by
  the skeleton's payload terms, of the blocks it is handed and of the batch number as a word; nothing is recomputed
  here. The whole-array functions read, at row r of batch b, the block of point (b, r / 512) at its local row r mod 512.
-/
import proofs.«209143_g59700045415095_cont_9to1_m_37_38_alg».proof.Proof.Gen.KernelIdeal.Skeleton
import Idealize.ShloMosaic.Lib.ValueIdx

noncomputable section

namespace Cert.Proof.KI

open Cert.KernelIdeal Cert.KernelIdeal.Gen
open Idealize.ShloMosaic
open Idealize.ShloMosaic.ValueIdx

variable {F : FTy → Type} [FloatOps F]

/-! ## The blocks a grid point is handed -/

/-- Rows 512·nb … 512·nb + 511 of batch b of the adjacency. -/
def adjBlk (adj : FVec F S8x2048x2048 .f32) (b : Fin 8) (nb : Fin 4) : Vec F S1x512x2048 .f32 :=
  fun y => adj (ix3 b (⟨nb.val * 512 + (y 1).val, by have h : (y 1).val < 512 := (y 1).isLt; omega⟩ : Fin 2048)
    (⟨(y 2).val, (y 2).isLt⟩ : Fin 2048))

/-- Batch b of the features. -/
def xBlk (x : FVec F S8x2048x128 .f32) (b : Fin 8) : Vec F S1x2048x128 .f32 :=
  fun y => x (ix3 b (⟨(y 1).val, (y 1).isLt⟩ : Fin 2048) (⟨(y 2).val, (y 2).isLt⟩ : Fin 128))

/-! ## What the body leaves in each result block, from the blocks it loads -/

/-- The positions block: the two products, as the body casts it to the block's shape. -/
def posBlk (x0 : Vec F S1x512x2048 .f32) (x1 : Vec F S1x2048x128 .f32) (x2 : Vec F S128x3 .f32) : Vec F S1x512x3 .f32 :=
  k0_pay3 x0 x1 x2

/-- The lane numbers 0 … 127 along the second axis. -/
def laneIota : IVec S512x128 32 := iota .tc S512x128 32 [1] iota_S512x128_d1_w32

/-- The corner-weights block. -/
def w8Blk (x0 : Vec F S1x512x2048 .f32) (x1 : Vec F S1x2048x128 .f32) (x2 : Vec F S128x3 .f32) : Vec F S1x512x128 .f32 :=
  let v10 := k0_pay2 x0 x1 x2
  let v24 := k0_pay4 x0 x1 x2
  let v25 := k0_pay5 x0 x1 x2
  let v34 := k0_pay6 x0 x1 x2
  let v35 : FVec F S512x128 .f32 := k0_pay7
  k0_pay20 (k0_pay10 v10) (k0_pay11 v10) k0_pay12 (k0_pay14 v24 v25) (k0_pay15 v25) (k0_pay16 v34 v35) (k0_pay17 v34 v35)
    (k0_pay18 v34 v35) k0_pay19

/-- The corner-row-numbers block, a0 the batch number as a word. -/
def idx8Blk (a0 : BitVec 32) (x0 : Vec F S1x512x2048 .f32) (x1 : Vec F S1x2048x128 .f32) (x2 : Vec F S128x3 .f32) : Vec F S1x512x8 .i32 :=
  let v10 := k0_pay2 x0 x1 x2
  let v25 := k0_pay5 x0 x1 x2
  let v34 := k0_pay6 x0 x1 x2
  let v35 : FVec F S512x128 .f32 := k0_pay7
  k0_pay1 a0 (k0_pay9 v34 v35) (k0_pay11 v10) laneIota (k0_pay21 v25 laneIota) (k0_pay22 (F := F) laneIota)

/-! ## The three results as whole arrays -/

/-- The quarter of a batch's rows that holds row r. -/
def nbOf (r : Fin 2048) : Fin 4 := ⟨r.val / 512, by have := r.isLt; omega⟩
/-- Row r's place in its quarter. -/
def rowIn (r : Fin 2048) : Fin 512 := ⟨r.val % 512, Nat.mod_lt _ (by decide)⟩

/-- The positions, pos[b, r, a]. -/
def posV (adj : FVec F S8x2048x2048 .f32) (x : FVec F S8x2048x128 .f32) (W : FVec F S128x3 .f32) : FVec F S8x2048x3 .f32 :=
  fun j => posBlk (adjBlk adj (j 0) (nbOf (j 1))) (xBlk x (j 0)) W (ix3 (0 : Fin 1) (rowIn (j 1)) (j 2))

/-- The corner weights, w8[b, r, lane]. -/
def w8V (adj : FVec F S8x2048x2048 .f32) (x : FVec F S8x2048x128 .f32) (W : FVec F S128x3 .f32) : FVec F S8x2048x128 .f32 :=
  fun j => w8Blk (adjBlk adj (j 0) (nbOf (j 1))) (xBlk x (j 0)) W (ix3 (0 : Fin 1) (rowIn (j 1)) (j 2))

/-- The corner row numbers, idx8[b, r, k]. -/
def idx8V (adj : FVec F S8x2048x2048 .f32) (x : FVec F S8x2048x128 .f32) (W : FVec F S128x3 .f32) : IVec S8x2048x8 32 :=
  fun j => idx8Blk (BitVec.ofNat 32 (j 0).val) (adjBlk adj (j 0) (nbOf (j 1))) (xBlk x (j 0)) W (ix3 (0 : Fin 1) (rowIn (j 1)) (j 2))

end Cert.Proof.KI

end
-- ==== Proof.KI.Split.lean ====
/-
  The cut of the SparseCore call's four whole arrays among the thirty-two workers, and the way back.

  A share held whole is held at the 2ⁿ leaves of its binary tree of depth n at once (each halving keeps both halves), so
  the table, read by every worker, goes out as thirty-two leaf shares. The row numbers are cut by their first coordinate
  and the weights and the result by blocks of 512 rows: the blocks are pairwise disjoint and cover the array, so the whole
  array is the separating product of its blocks. Worker 2·s + c is tile (c, s): the product over the thirty-two workers
  is the product over the two cores of the products over their sixteen tiles.
-/
import proofs.«209143_g59700045415095_cont_9to1_m_37_38_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A share and the leaves of its tree -/

theorem two_pow_add_self (n : ℕ) : 2 ^ n + 2 ^ n = 2 ^ (n + 1) := by rw [pow_succ]; omega

/-- The leaves of a tree of depth n + 1 are those of its left subtree, then those of its right subtree. -/
def leafEquiv (n : ℕ) : Fin (2 ^ n) ⊕ Fin (2 ^ n) ≃ Fin (2 ^ (n + 1)) :=
  finSumFinEquiv.trans (finCongr (two_pow_add_self n))

theorem leafEquiv_inl_val (n : ℕ) (a : Fin (2 ^ n)) : (leafEquiv n (Sum.inl a)).val = a.val := rfl
theorem leafEquiv_inr_val (n : ℕ) (b : Fin (2 ^ n)) : (leafEquiv n (Sum.inr b)).val = 2 ^ n + b.val := rfl

/-- Leaf a of the left subtree is leaf a of the tree. -/
theorem shareLeaf_inl (n : ℕ) (q : PosShare TreeShare) (a : Fin (2 ^ n)) :
    shareLeaf (n + 1) q (leafEquiv n (Sum.inl a)) = shareLeaf n q.left a := by
  rw [shareLeaf, dif_pos (show (leafEquiv n (Sum.inl a)).val < 2 ^ n from a.isLt)]
  rfl

/-- Leaf b of the right subtree is leaf 2ⁿ + b of the tree. -/
theorem shareLeaf_inr (n : ℕ) (q : PosShare TreeShare) (b : Fin (2 ^ n)) :
    shareLeaf (n + 1) q (leafEquiv n (Sum.inr b)) = shareLeaf n q.right b := by
  rw [shareLeaf, dif_neg (show ¬ (leafEquiv n (Sum.inr b)).val < 2 ^ n from by rw [leafEquiv_inr_val]; omega)]
  congr 1
  exact Fin.ext (show 2 ^ n + b.val - 2 ^ n = b.val by omega)

/-- Elements held at a share are held at the 2ⁿ leaves of its tree of depth n at once. -/
theorem pointsTo_shareLeaf {ℓ : Loc nD τ sig} (I : Finset (Idx ℓ)) (f : Buf (Elt F) ℓ) :
    ∀ (n : ℕ) (q : PosShare TreeShare),
      (ℓ ↦[I]{q} f : sProp 𝕄) = bigSep Finset.univ fun i : Fin (2 ^ n) => ℓ ↦[I]{shareLeaf n q i} f
  | 0, q => by
    haveI : Subsingleton (Fin (2 ^ 0)) := by rw [pow_zero]; infer_instance
    exact (BI.bigSep_univ_of_subsingleton (⟨0, Nat.two_pow_pos 0⟩ : Fin (2 ^ 0))
      (Φ := fun i : Fin (2 ^ 0) => (ℓ ↦[I]{shareLeaf 0 q i} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hA : (bigSep Finset.univ fun a : Fin (2 ^ n) => (ℓ ↦[I]{shareLeaf (n + 1) q (leafEquiv n (Sum.inl a))} f : sProp 𝕄))
        = bigSep Finset.univ fun a : Fin (2 ^ n) => ℓ ↦[I]{shareLeaf n q.left a} f :=
      bigSep_congr fun a _ => by rw [shareLeaf_inl]
    have hB : (bigSep Finset.univ fun b : Fin (2 ^ n) => (ℓ ↦[I]{shareLeaf (n + 1) q (leafEquiv n (Sum.inr b))} f : sProp 𝕄))
        = bigSep Finset.univ fun b : Fin (2 ^ n) => ℓ ↦[I]{shareLeaf n q.right b} f :=
      bigSep_congr fun b _ => by rw [shareLeaf_inr]
    rw [hs, pointsTo_shareLeaf I f n q.left, pointsTo_shareLeaf I f n q.right,
      BI.bigSep_univ_equiv (leafEquiv n) (fun i : Fin (2 ^ (n + 1)) => (ℓ ↦[I]{shareLeaf (n + 1) q i} f : sProp 𝕄)),
      BI.bigSep_univ_sum, hA, hB]
    rfl

/-! ## Workers and tiles -/

/-- Tile (c, s) ↦ worker 2·s + c is a bijection of the thirty-two tiles with the thirty-two workers. -/
def widEquiv : Fin 2 × Fin 16 ≃ Fin 32 where
  toFun p := widOf p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem widEquiv_apply (c : Fin 2) (s : Fin 16) : widEquiv (c, s) = widOf c s := rfl

/-- A product over the workers is the product over the cores of the products over their tiles. -/
theorem bigSep_wid (Φ : Fin 32 → sProp 𝕄) :
    bigSep Finset.univ Φ = bigSep Finset.univ fun c : Fin 2 => bigSep Finset.univ fun s : Fin 16 => Φ (widOf c s) := by
  rw [BI.bigSep_univ_equiv widEquiv Φ, BI.bigSep_univ_prod]
  rfl

/-- The launch's own index types for cores and tiles are Fin 2 and Fin 16. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The blocks are pairwise disjoint and cover -/

theorem iSet_eq (w : Fin 32) : iSet w = (iblk w).set := by
  show ((View.whole (main_v4_scv : Ref sig .scVector)).slice (iblk w)).set = _
  rw [View.set_slice]; exact Finset.map_refl
theorem pSet_eq (w : Fin 32) : pSet w = (pblk w).set := by
  show ((View.whole (main_v5_scv : Ref sig .scVector)).slice (pblk w)).set = _
  rw [View.set_slice]; exact Finset.map_refl

theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem iSet_cover : (Finset.univ : Finset (Fin 32)).biUnion iSet = Finset.univ :=
  (Finset.biUnion_congr rfl fun i _ => iSet_eq i).trans (Rect.biUnion_part idiv)
theorem pSet_disjoint : ∀ i ∈ (Finset.univ : Finset (Fin 32)), ∀ j ∈ (Finset.univ : Finset (Fin 32)), i ≠ j → Disjoint (pSet i) (pSet j) :=
  fun i _ j _ h => by rw [pSet_eq, pSet_eq]; exact Rect.part_disjoint pdiv h
theorem pSet_cover : (Finset.univ : Finset (Fin 32)).biUnion pSet = Finset.univ :=
  (Finset.biUnion_congr rfl fun i _ => pSet_eq i).trans (Rect.biUnion_part pdiv)

/-! ## Each whole array as the product of the workers' parts -/

theorem idx_split (d : Dev nD) (f : Buf (Elt F) (idxLoc d)) :
    (idxLoc d ↦{fullShare} f : sProp 𝕄) = bigSep Finset.univ fun w : Fin 32 => idxLoc d ↦[iSet w]{fullShare} f := by
  rw [← pointsTo_biUnion Finset.univ (ℓ := idxLoc d) iSet iSet_disjoint, iSet_cover]; try rfl
theorem w_split (d : Dev nD) (f : Buf (Elt F) (wLoc d)) :
    (wLoc d ↦{fullShare} f : sProp 𝕄) = bigSep Finset.univ fun w : Fin 32 => wLoc d ↦[pSet w]{fullShare} f := by
  rw [← pointsTo_biUnion Finset.univ (ℓ := wLoc d) pSet pSet_disjoint, pSet_cover]; try rfl
theorem out_split (d : Dev nD) (f : Buf (Elt F) (outLoc d)) :
    (outLoc d ↦{fullShare} f : sProp 𝕄) = bigSep Finset.univ fun w : Fin 32 => outLoc d ↦[pSet w]{fullShare} f := by
  rw [← pointsTo_biUnion Finset.univ (ℓ := outLoc d) pSet pSet_disjoint, pSet_cover]; try rfl
theorem tbl_split (d : Dev nD) (f : Buf (Elt F) (tblLoc d)) :
    (tblLoc d ↦{fullShare} f : sProp 𝕄) = bigSep Finset.univ fun w : Fin 32 => tblLoc d ↦{tshare w} f :=
  pointsTo_shareLeaf Finset.univ f 5 fullShare

/-! ## The four arrays, the cores' parts, the tiles' parts -/

section Pay
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

theorem P_st (d : Dev nD) (c : Fin ((K (F := F)).nCore 0)) :
    (P tb ix wv o0).st 0 d c = bigSep Finset.univ fun s : Fin 16 => tileGo tb ix wv o0 d (widOf (Fin.cast nCore_zero c) s) := rfl
theorem P_dn (d : Dev nD) (c : Fin ((K (F := F)).nCore 0)) :
    (P tb ix wv o0).dn 0 d c = bigSep Finset.univ fun s : Fin 16 => tileTd tb ix wv d (widOf (Fin.cast nCore_zero c) s) := rfl
theorem P_go (d : Dev nD) (c : Fin ((K (F := F)).nCore 0)) (i : Fin ((K (F := F)).nSub 0)) :
    (P tb ix wv o0).go 0 d c i = tileGo tb ix wv o0 d (widOf (Fin.cast nCore_zero c) (Fin.cast nSub_zero i)) := rfl
theorem P_td (d : Dev nD) (c : Fin ((K (F := F)).nCore 0)) (i : Fin ((K (F := F)).nSub 0)) :
    (P tb ix wv o0).td 0 d c i = tileTd tb ix wv d (widOf (Fin.cast nCore_zero c) (Fin.cast nSub_zero i)) := rfl

/-- The four whole arrays are the product of what the thirty-two workers are handed. -/
theorem whole_eq_tiles (d : Dev nD) (o : Buf (Elt F) (outLoc d)) :
    (iprop((tblLoc d ↦{fullShare} tb d) ∗ (idxLoc d ↦{fullShare} ix d) ∗ (wLoc d ↦{fullShare} wv d) ∗ (outLoc d ↦{fullShare} o)) : sProp 𝕄)
      = bigSep Finset.univ fun w : Fin 32 =>
          iprop((tblLoc d ↦{tshare w} tb d) ∗ (idxLoc d ↦[iSet w]{fullShare} ix d) ∗ (wLoc d ↦[pSet w]{fullShare} wv d)
            ∗ (outLoc d ↦[pSet w]{fullShare} o)) := by
  rw [bigSep_sep', bigSep_sep', bigSep_sep', ← tbl_split, ← idx_split, ← w_split, ← out_split]

/-- The four whole arrays at the launch contents are the product of the cores' parts. -/
theorem st_split (d : Dev nD) :
    (iprop((tblLoc d ↦{fullShare} tb d) ∗ (idxLoc d ↦{fullShare} ix d) ∗ (wLoc d ↦{fullShare} wv d) ∗ (outLoc d ↦{fullShare} o0 d)) : sProp 𝕄)
      = bigSep Finset.univ fun c : Fin ((K (F := F)).nCore 0) => (P tb ix wv o0).st 0 d c := by
  refine (whole_eq_tiles tb ix wv d (o0 d)).trans ((bigSep_wid _).trans ?_)
  refine (bigSep_cores (F := F) (fun c : Fin 2 => bigSep Finset.univ fun s : Fin 16 => tileGo tb ix wv o0 d (widOf c s))).symm.trans ?_
  exact bigSep_congr fun c _ => (P_st tb ix wv o0 d c).symm

/-- The cores' parts after the call are the four whole arrays, the result at the gathered sum. -/
theorem dn_join (d : Dev nD) :
    (bigSep Finset.univ fun c : Fin ((K (F := F)).nCore 0) => (P tb ix wv o0).dn 0 d c : sProp 𝕄)
      = iprop((tblLoc d ↦{fullShare} tb d) ∗ (idxLoc d ↦{fullShare} ix d) ∗ (wLoc d ↦{fullShare} wv d)
          ∗ (outLoc d ↦{fullShare} skipBuf tb ix wv d)) := by
  refine Eq.symm ((whole_eq_tiles tb ix wv d (skipBuf tb ix wv d)).trans ((bigSep_wid _).trans ?_))
  refine (bigSep_cores (F := F) (fun c : Fin 2 => bigSep Finset.univ fun s : Fin 16 => tileTd tb ix wv d (widOf c s))).symm.trans ?_
  exact bigSep_congr fun c _ => (P_dn tb ix wv o0 d c).symm

/-- The same two facts as entailments both ways. -/
theorem st_split_equiv (d : Dev nD) :
    iprop((tblLoc d ↦{fullShare} tb d) ∗ (idxLoc d ↦{fullShare} ix d) ∗ (wLoc d ↦{fullShare} wv d) ∗ (outLoc d ↦{fullShare} o0 d))
      ⊣⊢ (bigSep Finset.univ fun c : Fin ((K (F := F)).nCore 0) => (P tb ix wv o0).st 0 d c : sProp 𝕄) :=
  ⟨.of_eq (st_split tb ix wv o0 d), .of_eq (st_split tb ix wv o0 d).symm⟩
theorem dn_join_equiv (d : Dev nD) :
    (bigSep Finset.univ fun c : Fin ((K (F := F)).nCore 0) => (P tb ix wv o0).dn 0 d c : sProp 𝕄)
      ⊣⊢ iprop((tblLoc d ↦{fullShare} tb d) ∗ (idxLoc d ↦{fullShare} ix d) ∗ (wLoc d ↦{fullShare} wv d)
          ∗ (outLoc d ↦{fullShare} skipBuf tb ix wv d)) :=
  ⟨.of_eq (dn_join tb ix wv o0 d), .of_eq (dn_join tb ix wv o0 d).symm⟩

/-- A core's part is the product of its tiles' parts, before the call and after it. -/
theorem vecSplit : (K (F := F)).VecSplit' (P tb ix wv o0) 0 := by
  intro d c
  rw [P_st, P_dn]
  simp only [P_go, P_td]
  rw [bigSep_tasks (F := F) (fun s : Fin 16 => tileGo tb ix wv o0 d (widOf (Fin.cast nCore_zero c) s)),
    bigSep_tasks (F := F) (fun s : Fin 16 => tileTd tb ix wv d (widOf (Fin.cast nCore_zero c) s))]
  iintro H; imodintro
  isplitl [H]; · iexact H
  iintro H; iexact H

instance P_storable : (P tb ix wv o0).IsStorable where
  st q d c := match q with
    | 0 => (inferInstance : BI.Storable (upEmb : UEmb _ 𝕄)
        (bigSep Finset.univ fun s : Fin 16 => tileGo tb ix wv o0 d (widOf (Fin.cast nCore_zero c) s)))
  dn q d c := match q with
    | 0 => (inferInstance : BI.Storable (upEmb : UEmb _ 𝕄)
        (bigSep Finset.univ fun s : Fin 16 => tileTd tb ix wv d (widOf (Fin.cast nCore_zero c) s)))
  go q d c i := match q with
    | 0 => (inferInstance : BI.Storable (upEmb : UEmb _ 𝕄)
        (tileGo tb ix wv o0 d (widOf (Fin.cast nCore_zero c) (Fin.cast nSub_zero i))))
  td q d c i := match q with
    | 0 => (inferInstance : BI.Storable (upEmb : UEmb _ 𝕄)
        (tileTd tb ix wv d (widOf (Fin.cast nCore_zero c) (Fin.cast nSub_zero i))))

end Pay

end Cert.Proof.KI

end
-- ==== Proof.KI.Launch.lean ====
/-
  The launch of the idealized kernel's program read at any float family: the launch theorem for SparseCore programs
  applied to it. @main on a device's TensorCore is the point-and-weights region, five re-indexings (the feature volume
  to a table of 262144 rows of 128 channels; the corner row numbers and the corner weights to the shapes the gather
  takes), the gather on the thirty-two tiles, and two more host operations (the gathered rows back to 8 × 2048 × 128,
  then the concatenation of the features, the gathered rows and the positions).

  Every array the gather takes is a pure function of the launch memory, so what the tiles are handed and hand back is
  fixed before the run; the final memory then holds, at the concatenation's buffer, the one closed term out0K of the four
  arguments, and at the positions' buffer the region's positions.
-/
import proofs.«209143_g59700045415095_cont_9to1_m_37_38_alg».proof.Proof.KI.Common
import proofs.«209143_g59700045415095_cont_9to1_m_37_38_alg».proof.Proof.KI.RegionVals
import proofs.«209143_g59700045415095_cont_9to1_m_37_38_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_sub_split held_congr held_split held_sdiff_result wp_hlo_within reshape_result reshape_result_ne unary_result unary_result_ne nary_result nary_result_ne)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays the gather takes, and the program's first result, as terms of the four arguments -/

section Values
variable [FloatOps F]

/-- The feature volume as the gather's table: batch b, channel ch, voxel v ↦ row b·32768 + v, column ch. -/
def tblOf (conv : FVec F S8x128x32x32x32 .f32) : FVec F S262144x128 .f32 :=
  shapeCast S262144x128
    (transpose S8x32768x128 [0, 2, 1] (shapeCast S8x128x32768 conv shapeCasts_S8x128x32x32x32_S8x128x32768) transposes_S8x128x32768_S8x32768x128_0_2_1)
    shapeCasts_S8x32768x128_S262144x128
/-- The corner row numbers in the gather's shape: worker, chunk of sixteen points, (point, corner). -/
def ixOf (i8 : IVec S8x2048x8 32) : IVec S32x32x128 32 := shapeCast S32x32x128 i8 shapeCasts_S8x2048x8_S32x32x128
/-- The corner weights with the batch and point axes merged. -/
def wvOf (w8 : FVec F S8x2048x128 .f32) : FVec F S16384x128 .f32 := shapeCast S16384x128 w8 shapeCasts_S8x2048x128_S16384x128

/-- The program's first result: features, gathered rows, positions, side by side along the last axis. -/
def out0K (x : FVec F S8x2048x128 .f32) (adj : FVec F S8x2048x2048 .f32) (conv : FVec F S8x128x32x32x32 .f32) (W : FVec F S128x3 .f32) :
    FVec F S8x2048x259 .f32 :=
  concatenate S8x2048x259 2
    [⟨S8x2048x128, x⟩,
     ⟨S8x2048x128, shapeCast S8x2048x128 (skip (tblOf conv) (ixOf (idx8V adj x W)) (wvOf (w8V adj x W))) shapeCasts_S16384x128_S8x2048x128⟩,
     ⟨S8x2048x3, posV adj x W⟩]
    concatenates_S8x2048x128_S8x2048x128_S8x2048x3_S8x2048x259_d2

end Values

section Launch
variable [FloatOps F]
variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev posLoc (d : Dev nD) : Loc nD τ sig := (SparseCore.T d).loc main_v0_0
abbrev w8Loc (d : Dev nD) : Loc nD τ sig := (SparseCore.T d).loc main_v0_1
abbrev i8Loc (d : Dev nD) : Loc nD τ sig := (SparseCore.T d).loc main_v0_2
abbrev resLoc (d : Dev nD) : Loc nD τ sig := (SparseCore.T d).loc main_v8

/-- The region's three results, as functions of the launch memory. -/
abbrev posM (d : Dev nD) : Buf (Elt F) (posLoc d) := posV (m (a1Loc d)) (m (a0Loc d)) (m (a3Loc d))
abbrev w8M (d : Dev nD) : Buf (Elt F) (w8Loc d) := w8V (m (a1Loc d)) (m (a0Loc d)) (m (a3Loc d))
abbrev i8M (d : Dev nD) : Buf (Elt F) (i8Loc d) := idx8V (m (a1Loc d)) (m (a0Loc d)) (m (a3Loc d))
/-- What the gather is handed, as functions of the launch memory. -/
abbrev tbM (d : Dev nD) : Buf (Elt F) (tblLoc d) := tblOf (m (a2Loc d))
abbrev ixM (d : Dev nD) : Buf (Elt F) (idxLoc d) := ixOf (i8M m d)
abbrev wvM (d : Dev nD) : Buf (Elt F) (wLoc d) := wvOf (w8M m d)
abbrev o0M (d : Dev nD) : Buf (Elt F) (outLoc d) := m (outLoc d)
abbrev PM : (K (F := F)).Pay (nD := nD) (Val := Elt F) (Name := ℕ) (U := UU) := P (tbM m) (ixM m) (wvM m) (o0M m)
/-- The program's first result on device d. -/
abbrev resM (d : Dev nD) : Buf (Elt F) (resLoc d) := out0K (m (a0Loc d)) (m (a1Loc d)) (m (a2Loc d)) (m (a3Loc d))

/-! ## The launch element -/

omit [FloatOps F] in
theorem bigSep_emp' {I : Type} (s : Finset I) : (bigSep s fun _ => iprop(emp)) = (iprop(emp) : sProp 𝕄) := bigSep_emp_const s

omit [FloatOps F] in
theorem ownU_split (a : UP) (b : UH) (c : Counters) : (ownU ((a, (b, c)) : UU) : sProp 𝕄) ⊢ iprop(BI.own (EP a) ∗ BI.own (EH b)) := by
  refine (ownU_pair a (b, c)).trans (BI.sep_mono ?_ ?_)
  · exact BI.Entails.refl _
  · exact (own_pair_emb (embR : Emb (UH × Counters) 𝕄) b c).trans sep_elim_left

section Region
-- The region's staging cells: their launch element, and what it funds on each device.
variable (uP₀ : UP) (GP : Dev nD → sProp (MT nD τ sig (HIx 1) (Elt F) ℕ UU ℕ))
variable (fund_region : (BI.own ((EP : Emb UP (MT nD τ sig (HIx 1) (Elt F) ℕ UU ℕ)) uP₀) : sProp (MT nD τ sig (HIx 1) (Elt F) ℕ UU ℕ)) ⊢ |={Set.univ}=> bigSep Finset.univ fun d : Dev nD => GP d)

/-- The launch element: the region's staging cells', the handshakes' rounds, no counter. -/
def u₀ (uP₀ : UP) : UU := (uP₀, (initOf (K (F := F)).hsCells (K (F := F)).hsToks, 1))

include fund_region in
theorem hu₀ : (ownU (u₀ (F := F) uP₀) : sProp 𝕄)
    ⊢ |={Set.univ}=> iprop(BI.own (EH (initOf (K (F := F)).hsCells (K (F := F)).hsToks)) ∗ (bigSep Finset.univ fun d : Dev nD => GP d)
        ∗ bigSep Finset.univ fun thr : Thread nD τ => bigSep Finset.univ fun q : Fin 1 => (PM m).x q thr) := by
  unfold u₀
  iintro Hu
  ihave H := (ownU_split _ _ _) $$ Hu
  icases H with ⟨HP, HH⟩
  imod fund_region $$ HP with HG
  imodintro
  isplitl [HH]; · iexact HH
  isplitl [HG]; · iexact HG
  rw [show (bigSep Finset.univ fun thr : Thread nD τ => bigSep Finset.univ fun q : Fin 1 => (PM m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

end Region

/-! ## @main's arrays on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev p0' : DevRef τ sig := Proc.devRef .tc (main_v0_0 : Ref sig .tc)
abbrev w8' : DevRef τ sig := Proc.devRef .tc (main_v0_1 : Ref sig .tc)
abbrev i8' : DevRef τ sig := Proc.devRef .tc (main_v0_2 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)

/-- @main's fifteen arrays. -/
abbrev S15 : Finset (DevRef τ sig) := {a0', a1', a2', a3', p0', w8', i8', v1', v2', v3', v4', v5', v6', v7', v8'}
/-- The region's six: three operands, three results. -/
abbrev SR : Finset (DevRef τ sig) := {a1', a0', a3', p0', w8', i8'}
/-- The gather's four. -/
abbrev SG : Finset (DevRef τ sig) := {v3', v4', v5', v6'}
/-- The six the claim reads. -/
abbrev SF : Finset (DevRef τ sig) := {a0', a1', a2', a3', v8', p0'}

omit [FloatOps F] in
theorem held_SR (d : Dev nD) (W : Valuation τ sig (Elt F)) :
    (held (T d) SR W : sProp 𝕄) = iprop((a1Loc d ↦{fullShare} W a1') ∗ (a0Loc d ↦{fullShare} W a0') ∗ (a3Loc d ↦{fullShare} W a3')
      ∗ (posLoc d ↦{fullShare} W p0') ∗ (w8Loc d ↦{fullShare} W w8') ∗ (i8Loc d ↦{fullShare} W i8')) := by
  unfold held SR
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_SG (d : Dev nD) (W : Valuation τ sig (Elt F)) :
    (held (T d) SG W : sProp 𝕄) = iprop((tblLoc d ↦{fullShare} W v3') ∗ (idxLoc d ↦{fullShare} W v4') ∗ (wLoc d ↦{fullShare} W v5')
      ∗ (outLoc d ↦{fullShare} W v6')) := by
  unfold held SG
  rw [SparseCore.bigSep_insert' (by decide), SparseCore.bigSep_insert' (by decide), SparseCore.bigSep_insert' (by decide), bigSep_singleton]
omit [FloatOps F] in
theorem held_SF (d : Dev nD) (W : Valuation τ sig (Elt F)) :
    (held (T d) SF W : sProp 𝕄) = iprop((a0Loc d ↦{fullShare} W a0') ∗ (a1Loc d ↦{fullShare} W a1') ∗ (a2Loc d ↦{fullShare} W a2')
      ∗ (a3Loc d ↦{fullShare} W a3') ∗ (resLoc d ↦{fullShare} W v8') ∗ (posLoc d ↦{fullShare} W p0')) := by
  unfold held SF
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_held (d : Dev nD) (W : Valuation τ sig (Elt F)) :
    (unscopedBufs d (fun b => W (Proc.devRef .tc b)) : sProp 𝕄) = held (T d) S15 W := by
  unfold unscopedBufs held
  rw [show (Finset.univ.filter fun b : Ref sig .tc => ¬ b.isScoped)
      = {main_arg0, main_arg1, main_arg2, main_arg3, main_v0_0, main_v0_1, main_v0_2, main_v1, main_v2, main_v3, main_v4, main_v5, main_v6, main_v7, main_v8} by decide]
  unfold S15
  iterate 14 rw [SparseCore.bigSep_insert' (by decide), SparseCore.bigSep_insert' (s := _) (i := Proc.devRef .tc _) (by decide)]
  rw [bigSep_singleton, bigSep_singleton]

theorem SR_sub : SR ⊆ S15 := by decide
theorem SG_sub : SG ⊆ S15 := by decide
theorem SF_sub : SF ⊆ S15 := by decide

/-- The launch contents. -/
def V0 (d : Dev nD) : Valuation τ sig (Elt F) := fun b => m (d, b)
/-- After the region: its three results at their values. -/
def V1 (d : Dev nD) : Valuation τ sig (Elt F) :=
  Function.update (Function.update (Function.update (V0 m d) p0' (posM m d)) w8' (w8M m d)) i8' (i8M m d)

/-! ## The host operations, named -/

abbrev op1 : HloOp τ sig (Elt F) := StableHlo.reshape main_arg2 main_v1 rfl shapeCasts_S8x128x32x32x32_S8x128x32768
abbrev op2 : HloOp τ sig (Elt F) := StableHlo.unary main_v1 main_v2 ((transpose S8x32768x128 [0, 2, 1] · transposes_S8x128x32768_S8x32768x128_0_2_1) : (⟨S8x128x32768, .f32⟩ : BufTy).Contents (Elt F) → (⟨S8x32768x128, .f32⟩ : BufTy).Contents (Elt F))
abbrev op3 : HloOp τ sig (Elt F) := StableHlo.reshape main_v2 main_v3 rfl shapeCasts_S8x32768x128_S262144x128
abbrev op4 : HloOp τ sig (Elt F) := StableHlo.reshape main_v0_2 main_v4 rfl shapeCasts_S8x2048x8_S32x32x128
abbrev op5 : HloOp τ sig (Elt F) := StableHlo.reshape main_v0_1 main_v5 rfl shapeCasts_S8x2048x128_S16384x128
abbrev op7 : HloOp τ sig (Elt F) := StableHlo.reshape main_v6 main_v7 rfl shapeCasts_S16384x128_S8x2048x128
abbrev op8 : HloOp τ sig (Elt F) := StableHlo.nary ![main_arg0, main_v7, main_v0_0] main_v8 (fun u => concatenate S8x2048x259 2 [⟨S8x2048x128, u 0⟩, ⟨S8x2048x128, u 1⟩, ⟨S8x2048x3, u 2⟩] concatenates_S8x2048x128_S8x2048x128_S8x2048x3_S8x2048x259_d2)

theorem h1 : (op1 (F := F)).bufs ⊆ S15 := show ({a2', v1'} : Finset (DevRef τ sig)) ⊆ S15 by decide
theorem h2 : (op2 (F := F)).bufs ⊆ S15 := show ({v1', v2'} : Finset (DevRef τ sig)) ⊆ S15 by decide
theorem h3 : (op3 (F := F)).bufs ⊆ S15 := show ({v2', v3'} : Finset (DevRef τ sig)) ⊆ S15 by decide
theorem h4 : (op4 (F := F)).bufs ⊆ S15 := show ({i8', v4'} : Finset (DevRef τ sig)) ⊆ S15 by decide
theorem h5 : (op5 (F := F)).bufs ⊆ S15 := show ({w8', v5'} : Finset (DevRef τ sig)) ⊆ S15 by decide
theorem h7 : (op7 (F := F)).bufs ⊆ S15 := show ({v6', v7'} : Finset (DevRef τ sig)) ⊆ S15 by decide

/-- The contents when the gather is reached. -/
def V6 (d : Dev nD) : Valuation τ sig (Elt F) :=
  (op5 (F := F)).result ((op4 (F := F)).result ((op3 (F := F)).result ((op2 (F := F)).result ((op1 (F := F)).result (V1 m d)))))

/-! ## The TensorCore's state, opened at what it owes -/

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

omit [FloatOps F] in
/-- Before call n the TensorCore owes its later start signals under some recorded waits, all below the call's band; given the
    same debt back under other such waits it is in that state again. -/
theorem tcSt_open (d : Dev nD) (n : ℕ) :
    ((K (F := F)).tcSt (EH (F := F)) d n : sProp 𝕄)
      ⊢ iprop(∃ W, ⌜(K (F := F)).WBelow (T d) W (8 * n)⌝ ∗ owes (T d) ((K (F := F)).Otc d n) W
          ∗ ∀ W', ⌜(K (F := F)).WBelow (T d) W' (8 * n)⌝ -∗ owes (T d) ((K (F := F)).Otc d n) W' -∗ (K (F := F)).tcSt (EH (F := F)) d n) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  · iexact Hrest

omit [FloatOps F] in
theorem wbelow_of (d : Dev nD) {W W' : Waits sig (HIx 1)} {b : ℕ} (hW : (K (F := F)).WBelow (T d) W b) (h : ∀ p ∈ W', p ∈ W ∨ p.2 = none) :
    (K (F := F)).WBelow (T d) W' b := by
  intro p hp
  rcases h p hp with h | h
  · exact hW p h
  · rw [h, SparseCore.Cfg.lev_none]; exact Nat.zero_le _

/-! ## The contents at each stage -/

theorem V1_p0 (d : Dev nD) : V1 m d p0' = posM m d := by
  unfold V1; rw [Function.update_of_ne (show p0' ≠ i8' by decide), Function.update_of_ne (show p0' ≠ w8' by decide), Function.update_self]
theorem V1_w8 (d : Dev nD) : V1 m d w8' = w8M m d := by
  unfold V1; rw [Function.update_of_ne (show w8' ≠ i8' by decide), Function.update_self]
theorem V1_i8 (d : Dev nD) : V1 m d i8' = i8M m d := by
  unfold V1; rw [Function.update_self]
theorem V1_ne (d : Dev nD) {b : DevRef τ sig} (h0 : b ≠ p0') (h1 : b ≠ w8') (h2 : b ≠ i8') : V1 m d b = m (d, b) := by
  unfold V1; rw [Function.update_of_ne h2, Function.update_of_ne h1, Function.update_of_ne h0]; rfl
theorem V1_rest (d : Dev nD) : ∀ b ∈ S15 \ SR, V0 m d b = V1 m d b := fun b hb => by
  have h := (Finset.mem_sdiff.mp hb).2
  exact (V1_ne m d (fun e => h (by rw [e]; decide)) (fun e => h (by rw [e]; decide)) (fun e => h (by rw [e]; decide))).symm

/-- The arrays after the region, regrouped: the region's six and the rest at the launch contents. -/
theorem held_V1 (d : Dev nD) :
    (held (T d) S15 (V1 m d) : sProp 𝕄)
      = iprop(((a1Loc d ↦{fullShare} m (a1Loc d)) ∗ (a0Loc d ↦{fullShare} m (a0Loc d)) ∗ (a3Loc d ↦{fullShare} m (a3Loc d))
          ∗ (posLoc d ↦{fullShare} posM m d) ∗ (w8Loc d ↦{fullShare} w8M m d) ∗ (i8Loc d ↦{fullShare} i8M m d))
          ∗ held (T d) (S15 \ SR) (V0 m d)) := by
  rw [held_sub_split (T d) SR_sub, held_SR, V1_p0, V1_w8, V1_i8, V1_ne m d (b := a1') (by decide) (by decide) (by decide),
    V1_ne m d (b := a0') (by decide) (by decide) (by decide), V1_ne m d (b := a3') (by decide) (by decide) (by decide),
    ← held_congr (T d) (V1_rest m d)]

theorem held_V0 (d : Dev nD) :
    (held (T d) S15 (V0 m d) : sProp 𝕄)
      = iprop(((a1Loc d ↦{fullShare} m (a1Loc d)) ∗ (a0Loc d ↦{fullShare} m (a0Loc d)) ∗ (a3Loc d ↦{fullShare} m (a3Loc d))
          ∗ (posLoc d ↦{fullShare} m (posLoc d)) ∗ (w8Loc d ↦{fullShare} m (w8Loc d)) ∗ (i8Loc d ↦{fullShare} m (i8Loc d)))
          ∗ held (T d) (S15 \ SR) (V0 m d)) := by
  rw [held_sub_split (T d) SR_sub, held_SR]; rfl

macro "hlo_results" : tactic =>
  `(tactic| repeat (first
      | rw [reshape_result] | rw [unary_result] | rw [nary_result]
      | (rw [reshape_result_ne]; rotate_left; decide)
      | (rw [unary_result_ne]; rotate_left; decide)
      | (rw [nary_result_ne]; rotate_left; decide)))

theorem V6_v3 (d : Dev nD) : V6 m d v3' = tbM m d := by
  unfold V6; hlo_results
  rw [V1_ne m d (b := a2') (by decide) (by decide) (by decide)]; rfl
theorem V6_v4 (d : Dev nD) : V6 m d v4' = ixM m d := by
  unfold V6; hlo_results
  rw [V1_i8]; rfl
theorem V6_v5 (d : Dev nD) : V6 m d v5' = wvM m d := by
  unfold V6; hlo_results
  rw [V1_w8]; rfl
theorem V6_v6 (d : Dev nD) : V6 m d v6' = o0M m d := by
  unfold V6; hlo_results
  rw [V1_ne m d (b := v6') (by decide) (by decide) (by decide)]

theorem h8 : (op8 (F := F)).bufs ⊆ S15 := by
  intro b hb
  have hb' : b = v8' ∨ ∃ a, Proc.devRef .tc ((![main_arg0, main_v7, main_v0_0] : Fin 3 → Ref sig .tc) a) = b := by
    simpa [op8, StableHlo.nary] using hb
  rcases hb' with rfl | ⟨a, rfl⟩
  · decide
  · fin_cases a <;> decide

/-- An array the five re-indexings do not write keeps what it held after the region. -/
theorem V6_keep (d : Dev nD) {r : Ref sig .tc} (e1 : r ≠ main_v1) (e2 : r ≠ main_v2) (e3 : r ≠ main_v3) (e4 : r ≠ main_v4) (e5 : r ≠ main_v5) :
    V6 m d (Proc.devRef .tc r) = V1 m d (Proc.devRef .tc r) := by
  unfold V6
  rw [reshape_result_ne _ _ _ _ _ _ _ e5, reshape_result_ne _ _ _ _ _ _ _ e4, reshape_result_ne _ _ _ _ _ _ _ e3,
    unary_result_ne _ _ _ _ _ _ e2, reshape_result_ne _ _ _ _ _ _ _ e1]

/-- After the gather: its result at the gathered sum. -/
def V7 (d : Dev nD) : Valuation τ sig (Elt F) := Function.update (V6 m d) v6' (skipBuf (tbM m) (ixM m) (wvM m) d)
/-- At the end. -/
def V9 (d : Dev nD) : Valuation τ sig (Elt F) := (op8 (F := F)).result ((op7 (F := F)).result (V7 m d))

theorem V7_v6 (d : Dev nD) : V7 m d v6' = skipBuf (tbM m) (ixM m) (wvM m) d := by unfold V7; rw [Function.update_self]
theorem V7_ne (d : Dev nD) {b : DevRef τ sig} (h : b ≠ v6') : V7 m d b = V6 m d b := by unfold V7; rw [Function.update_of_ne h]
theorem V7_rest (d : Dev nD) : ∀ b ∈ S15 \ SG, V6 m d b = V7 m d b := fun b hb => by
  have h := (Finset.mem_sdiff.mp hb).2
  exact (V7_ne m d (fun e => h (by rw [e]; decide))).symm

theorem held_V6 (d : Dev nD) :
    (held (T d) S15 ((op5 (F := F)).result ((op4 (F := F)).result ((op3 (F := F)).result ((op2 (F := F)).result ((op1 (F := F)).result (V1 m d)))))) : sProp 𝕄)
      = iprop(((tblLoc d ↦{fullShare} tbM m d) ∗ (idxLoc d ↦{fullShare} ixM m d) ∗ (wLoc d ↦{fullShare} wvM m d) ∗ (outLoc d ↦{fullShare} o0M m d))
          ∗ held (T d) (S15 \ SG) (V6 m d)) := by
  show (held (T d) S15 (V6 m d) : sProp 𝕄) = _
  rw [held_sub_split (T d) SG_sub, held_SG, V6_v3, V6_v4, V6_v5, V6_v6]
theorem held_V7 (d : Dev nD) :
    (held (T d) S15 (V7 m d) : sProp 𝕄)
      = iprop(((tblLoc d ↦{fullShare} tbM m d) ∗ (idxLoc d ↦{fullShare} ixM m d) ∗ (wLoc d ↦{fullShare} wvM m d)
            ∗ (outLoc d ↦{fullShare} skipBuf (tbM m) (ixM m) (wvM m) d))
          ∗ held (T d) (S15 \ SG) (V6 m d)) := by
  rw [held_sub_split (T d) SG_sub, held_SG, V7_v6, V7_ne m d (b := v3') (by decide), V7_ne m d (b := v4') (by decide), V7_ne m d (b := v5') (by decide),
    V6_v3, V6_v4, V6_v5, ← held_congr (T d) (V7_rest m d)]

/-- An argument array is never written. -/
theorem V9_arg (d : Dev nD) {r : Ref sig .tc} (e1 : r ≠ main_v1) (e2 : r ≠ main_v2) (e3 : r ≠ main_v3) (e4 : r ≠ main_v4) (e5 : r ≠ main_v5)
    (e6 : r ≠ main_v6) (e7 : r ≠ main_v7) (e8 : r ≠ main_v8) (e00 : r ≠ main_v0_0) (e01 : r ≠ main_v0_1) (e02 : r ≠ main_v0_2) :
    V9 m d (Proc.devRef .tc r) = m (d, Proc.devRef .tc r) := by
  unfold V9
  rw [nary_result_ne _ _ _ _ _ _ e8, reshape_result_ne _ _ _ _ _ _ _ e7, V7_ne m d (fun e => e6 (Proc.devRef_injective _ e)), V6_keep m d e1 e2 e3 e4 e5,
    V1_ne m d (fun e => e00 (Proc.devRef_injective _ e)) (fun e => e01 (Proc.devRef_injective _ e)) (fun e => e02 (Proc.devRef_injective _ e))]
theorem V9_p0 (d : Dev nD) : V9 m d p0' = posM m d := by
  unfold V9
  rw [nary_result_ne _ _ _ _ _ _ (show main_v0_0 ≠ main_v8 by decide), reshape_result_ne _ _ _ _ _ _ _ (show main_v0_0 ≠ main_v7 by decide),
    V7_ne m d (show p0' ≠ v6' by decide),
    V6_keep m d (r := main_v0_0) (by decide) (by decide) (by decide) (by decide) (by decide), V1_p0]
theorem V9_v8 (d : Dev nD) : V9 m d v8' = resM m d := by
  unfold V9
  rw [nary_result]
  show concatenate S8x2048x259 2 [⟨S8x2048x128, (op7 (F := F)).result (V7 m d) a0'⟩, ⟨S8x2048x128, (op7 (F := F)).result (V7 m d) v7'⟩,
    ⟨S8x2048x3, (op7 (F := F)).result (V7 m d) p0'⟩] concatenates_S8x2048x128_S8x2048x128_S8x2048x3_S8x2048x259_d2 = _
  rw [reshape_result, reshape_result_ne _ _ _ _ _ _ _ (show main_arg0 ≠ main_v7 by decide), reshape_result_ne _ _ _ _ _ _ _ (show main_v0_0 ≠ main_v7 by decide),
    V7_v6, V7_ne m d (show a0' ≠ v6' by decide), V7_ne m d (show p0' ≠ v6' by decide),
    V6_keep m d (r := main_arg0) (by decide) (by decide) (by decide) (by decide) (by decide),
    V6_keep m d (r := main_v0_0) (by decide) (by decide) (by decide) (by decide) (by decide), V1_p0,
    V1_ne m d (b := a0') (by decide) (by decide) (by decide)]
  rfl

theorem held_V9 (d : Dev nD) :
    (held (T d) S15 ((op8 (F := F)).result ((op7 (F := F)).result (V7 m d))) : sProp 𝕄)
      = iprop(((a0Loc d ↦{fullShare} m (a0Loc d)) ∗ (a1Loc d ↦{fullShare} m (a1Loc d)) ∗ (a2Loc d ↦{fullShare} m (a2Loc d))
            ∗ (a3Loc d ↦{fullShare} m (a3Loc d)) ∗ (resLoc d ↦{fullShare} resM m d) ∗ (posLoc d ↦{fullShare} posM m d))
          ∗ held (T d) (S15 \ SF) (V9 m d)) := by
  show (held (T d) S15 (V9 m d) : sProp 𝕄) = _
  rw [held_sub_split (T d) SF_sub, held_SF, V9_v8, V9_p0,
    V9_arg m d (r := main_arg0) (by decide) (by decide) (by decide) (by decide) (by decide) (by decide) (by decide) (by decide) (by decide) (by decide) (by decide),
    V9_arg m d (r := main_arg1) (by decide) (by decide) (by decide) (by decide) (by decide) (by decide) (by decide) (by decide) (by decide) (by decide) (by decide),
    V9_arg m d (r := main_arg2) (by decide) (by decide) (by decide) (by decide) (by decide) (by decide) (by decide) (by decide) (by decide) (by decide) (by decide),
    V9_arg m d (r := main_arg3) (by decide) (by decide) (by decide) (by decide) (by decide) (by decide) (by decide) (by decide) (by decide) (by decide) (by decide)]

/-! ## @main on the TensorCore -/

/-- The launch contents as the TensorCore names them. -/
abbrev Vin : (c : Dev nD) → (b : Ref sig .tc) → Buf (Elt F) ((SparseCore.T c : Thread nD τ).loc b) := fun c b => m ((SparseCore.T c).loc b)

section Main
-- The point-and-weights region on a device's TensorCore, from any contents of @main's arrays: holding its three operands and
-- its three results' buffers it leaves the positions, the corner weights and the corner row numbers as functions of the
-- operands, the thread owing what it owed, its new recorded waits all its own.
variable (GP : Dev nD → sProp (MT nD τ sig (HIx 1) (Elt F) ℕ UU ℕ))
variable (wp_region : ∀ (Vin : (c : Dev nD) → (b : Ref sig .tc) → Buf (Elt F) ((SparseCore.T c).loc b))
    (O : CellTallies nD τ sig (HIx 1)) (W : Waits sig (HIx 1)) (d : Dev nD) (_ : ∀ g, O g none = 0) (Φ : PUnit → sProp (MT nD τ sig (HIx 1) (Elt F) ℕ UU ℕ)),
    iprop(levAts (K (F := F)).L (K (F := F)).lev ∗ GP d ∗ boundary (SparseCore.T d) ∗ owes (SparseCore.T d) O W
        ∗ ((SparseCore.T d).loc main_arg1 ↦{fullShare} Vin d main_arg1) ∗ ((SparseCore.T d).loc main_arg0 ↦{fullShare} Vin d main_arg0)
        ∗ ((SparseCore.T d).loc main_arg3 ↦{fullShare} Vin d main_arg3)
        ∗ ((SparseCore.T d).loc main_v0_0 ↦{fullShare} Vin d main_v0_0) ∗ ((SparseCore.T d).loc main_v0_1 ↦{fullShare} Vin d main_v0_1)
        ∗ ((SparseCore.T d).loc main_v0_2 ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ ((SparseCore.T d).loc main_arg1 ↦{fullShare} Vin d main_arg1) ∗ ((SparseCore.T d).loc main_arg0 ↦{fullShare} Vin d main_arg0)
            ∗ ((SparseCore.T d).loc main_arg3 ↦{fullShare} Vin d main_arg3)
            ∗ ((SparseCore.T d).loc main_v0_0 ↦{fullShare} posV (Vin d main_arg1) (Vin d main_arg0) (Vin d main_arg3))
            ∗ ((SparseCore.T d).loc main_v0_1 ↦{fullShare} w8V (Vin d main_arg1) (Vin d main_arg0) (Vin d main_arg3))
            ∗ ((SparseCore.T d).loc main_v0_2 ↦{fullShare} idx8V (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ)

/-- What @main leaves the claim: the four arguments at their launch contents, the two results at their values. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (resLoc d ↦{fullShare} resM m d) ∗ (posLoc d ↦{fullShare} posM m d))

include wp_region in
theorem hmain (κ : GSem nD τ sig → ℕ) (d : Dev nD) :
    iprop((K (F := F)).ctx EH (PM m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = fun b => V0 m d (Proc.devRef .tc b) from rfl, unscoped_held, held_V0]
  simp only [main, wp_bind, wp_pure]
  iintro ⟨#Hctx, Hst, ⟨Hb, ⟨⟨H1, H0, H3, Hp, Hw, Hi⟩, Hrest⟩, -, -⟩, HG⟩
  ihave #Hlev := (SparseCore.Cfg.ctx_levAts κ) $$ Hctx
  ihave Hst' := (tcSt_open d 0) $$ Hst
  icases Hst' with ⟨%W, %hW, HO, Hclose⟩
  -- the region
  iapply (wp_region (Vin m) ((K (F := F)).Otc d 0) W d (Otc_none d 0) _) $$ [HG Hb HO H1 H0 H3 Hp Hw Hi Hrest Hclose]
  isplitr; · iexact Hlev
  isplitl [HG]; · iexact HG
  isplitl [Hb]; · iexact Hb
  isplitl [HO]; · iexact HO
  isplitl [H1]; · iexact H1
  isplitl [H0]; · iexact H0
  isplitl [H3]; · iexact H3
  isplitl [Hp]; · iexact Hp
  isplitl [Hw]; · iexact Hw
  isplitl [Hi]; · iexact Hi
  iintro ⟨Hb, ⟨%W', %hW', HO⟩, H1, H0, H3, Hp, Hw, Hi⟩
  ihave Hst := Hclose $$ %W' %(wbelow_of d hW hW') HO
  ihave Hheld := (Entails.of_eq (held_V1 m d).symm) $$ [H1 H0 H3 Hp Hw Hi Hrest]
  · isplitr [Hrest]
    · isplitl [H1]; · iexact H1
      isplitl [H0]; · iexact H0
      isplitl [H3]; · iexact H3
      isplitl [Hp]; · iexact Hp
      isplitl [Hw]; · iexact Hw
      iexact Hi
    · iexact Hrest
  -- the five re-indexings
  iapply (wp_hlo_within 𝒱 (SparseCore.T d) none Set.univ (op := op1) (S := S15) h1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S15) h2) $$ [Hb Hheld]
  · isplitl [Hb]; · iexact Hb
    iexact Hheld
  iintro ⟨Hb, Hheld⟩
  rw [wp_ret]; imodintro
  iapply (wp_hlo_within 𝒱 (SparseCore.T d) none Set.univ (op := op3) (S := S15) h3) $$ [Hb Hheld]
  · isplitl [Hb]; · iexact Hb
    iexact Hheld
  iintro ⟨Hb, Hheld⟩
  rw [wp_ret]; imodintro
  iapply (wp_hlo_within 𝒱 (SparseCore.T d) none Set.univ (op := op4) (S := S15) h4) $$ [Hb Hheld]
  · isplitl [Hb]; · iexact Hb
    iexact Hheld
  iintro ⟨Hb, Hheld⟩
  rw [wp_ret]; imodintro
  iapply (wp_hlo_within 𝒱 (SparseCore.T d) none Set.univ (op := op5) (S := S15) h5) $$ [Hb Hheld]
  · isplitl [Hb]; · iexact Hb
    iexact Hheld
  iintro ⟨Hb, Hheld⟩
  rw [wp_ret]; imodintro
  -- the gather on the tiles
  ihave Hh := (Entails.of_eq (held_V6 m d)) $$ Hheld
  icases Hh with ⟨⟨Ht, Hix, Hwv, Ho⟩, Hrest⟩
  iapply ((K (F := F)).wp_run (D (F := F)) 𝒱 (EH := EH) (P := PM m) κ d 0) $$ [Hst Ht Hix Hwv Ho Hb Hrest]
  isplitr; · iexact Hctx
  isplitl [Hst]; · iexact Hst
  isplitl [Ht Hix Hwv Ho]
  · iapply (Entails.of_eq (st_split (tbM m) (ixM m) (wvM m) (o0M m) d))
    isplitl [Ht]; · iexact Ht
    isplitl [Hix]; · iexact Hix
    isplitl [Hwv]; · iexact Hwv
    iexact Ho
  iintro ⟨Hst, Hdn⟩
  ihave Hdn' := (Entails.of_eq (dn_join (tbM m) (ixM m) (wvM m) (o0M m) d)) $$ Hdn
  icases Hdn' with ⟨Ht, Hix, Hwv, Ho⟩
  ihave Hheld := (Entails.of_eq (held_V7 m d).symm) $$ [Ht Hix Hwv Ho Hrest]
  · isplitr [Hrest]
    · isplitl [Ht]; · iexact Ht
      isplitl [Hix]; · iexact Hix
      isplitl [Hwv]; · iexact Hwv
      iexact Ho
    · iexact Hrest
  -- the gathered rows back to 8 × 2048 × 128, and the concatenation
  iapply (wp_hlo_within 𝒱 (SparseCore.T d) none Set.univ (op := op7) (S := S15) h7 (V := V7 m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := S15) h8) $$ [Hb Hheld]
  · isplitl [Hb]; · iexact Hb
    iexact Hheld
  iintro ⟨Hb, Hheld⟩
  ihave Hh := (Entails.of_eq (held_V9 m d)) $$ Hheld
  icases Hh with ⟨Hfin, -⟩
  rw [wp_ret]; imodintro; imodintro
  isplitl [Hst]; · iexact Hst
  iexact Hfin

end Main

/-! ## The final memory reads the claim -/

def fq (d : Dev nD) (s' : Phys nD τ sig (Elt F)) : Prop :=
  s'.mem.mem (resLoc d) = resM m d ∧ s'.mem.mem (posLoc d) = posM m d
  ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, Hr, Hp⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := resLoc d) (I := Finset.univ) (q := fullShare) (f := resM m d))) $$ [HSI Hr]
  · isplitl [HSI] <;> iassumption
  icases H with ⟨%hr, HSI, -⟩
  ihave H := (SI_pointsTo_agree (st := s') (ℓ := posLoc d) (I := Finset.univ) (q := fullShare) (f := posM m d)) $$ [HSI Hp]
  · isplitl [HSI] <;> iassumption
  icases H with %hp
  ipureintro
  exact ⟨funext fun i => hr i (Finset.mem_univ i), funext fun i => hp i (Finset.mem_univ i), funext fun i => h0 i (Finset.mem_univ i),
    funext fun i => h1 i (Finset.mem_univ i), funext fun i => h2 i (Finset.mem_univ i), funext fun i => h3 i (Finset.mem_univ i)⟩

/-! ## The program's run -/

section Run
variable (uP₀ : UP) (GP : Dev nD → sProp (MT nD τ sig (HIx 1) (Elt F) ℕ UU ℕ))
variable (fund_region : (BI.own ((EP : Emb UP (MT nD τ sig (HIx 1) (Elt F) ℕ UU ℕ)) uP₀) : sProp (MT nD τ sig (HIx 1) (Elt F) ℕ UU ℕ)) ⊢ |={Set.univ}=> bigSep Finset.univ fun d : Dev nD => GP d)
variable (wp_region : ∀ (Vin : (c : Dev nD) → (b : Ref sig .tc) → Buf (Elt F) ((SparseCore.T c).loc b))
    (O : CellTallies nD τ sig (HIx 1)) (W : Waits sig (HIx 1)) (d : Dev nD) (_ : ∀ g, O g none = 0) (Φ : PUnit → sProp (MT nD τ sig (HIx 1) (Elt F) ℕ UU ℕ)),
    iprop(levAts (K (F := F)).L (K (F := F)).lev ∗ GP d ∗ boundary (SparseCore.T d) ∗ owes (SparseCore.T d) O W
        ∗ ((SparseCore.T d).loc main_arg1 ↦{fullShare} Vin d main_arg1) ∗ ((SparseCore.T d).loc main_arg0 ↦{fullShare} Vin d main_arg0)
        ∗ ((SparseCore.T d).loc main_arg3 ↦{fullShare} Vin d main_arg3)
        ∗ ((SparseCore.T d).loc main_v0_0 ↦{fullShare} Vin d main_v0_0) ∗ ((SparseCore.T d).loc main_v0_1 ↦{fullShare} Vin d main_v0_1)
        ∗ ((SparseCore.T d).loc main_v0_2 ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ ((SparseCore.T d).loc main_arg1 ↦{fullShare} Vin d main_arg1) ∗ ((SparseCore.T d).loc main_arg0 ↦{fullShare} Vin d main_arg0)
            ∗ ((SparseCore.T d).loc main_arg3 ↦{fullShare} Vin d main_arg3)
            ∗ ((SparseCore.T d).loc main_v0_0 ↦{fullShare} posV (Vin d main_arg1) (Vin d main_arg0) (Vin d main_arg3))
            ∗ ((SparseCore.T d).loc main_v0_1 ↦{fullShare} w8V (Vin d main_arg1) (Vin d main_arg0) (Vin d main_arg3))
            ∗ ((SparseCore.T d).loc main_v0_2 ↦{fullShare} idx8V (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ)

def QC : PUnit.{1} × MemSt nD τ sig (Elt F) → Prop := fun r => ∀ c : Dev nD,
  r.2.mem (resLoc c) = out0K (m (a0Loc c)) (m (a1Loc c)) (m (a2Loc c)) (m (a3Loc c))
  ∧ r.2.mem (posLoc c) = posV (m (a1Loc c)) (m (a0Loc c)) (m (a3Loc c))
  ∧ r.2.mem (a0Loc c) = m (a0Loc c) ∧ r.2.mem (a1Loc c) = m (a1Loc c) ∧ r.2.mem (a2Loc c) = m (a2Loc c) ∧ r.2.mem (a3Loc c) = m (a3Loc c)

include fund_region wp_region in
theorem run_main [∀ e, Nonempty (Elt F e)] (htile : (K (F := F)).TileObl (D (F := F)) 𝒱 (PM m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => htile)
    (fun q _ => match q with | 0 => SparseCore.Cfg.VecSplit.of_plain (vecSplit (tbM m) (ixM m) (wvM m) (o0M m)))
    m ρ main GP (FIN m) (u₀ (F := F) uP₀) (sep_elim_left.trans (hu₀ m uP₀ GP fund_region)) (hmain m ρ GP wp_region) (fq m) (hfin m) (QC m) (fun _ h => h)

end Run

end Launch

end Cert.Proof.KI

end
-- ==== Proof.KI.RegionBody.lean ====
/-
  The TensorCore kernel's body, run once at a symbolic grid point: on whole staging memrefs, the three operands' holding
  blocks x0 (adjacency rows), x1 (a batch of features), x2 (the projection) and the three results' holding anything, the body
  loads the three operand blocks whole, computes, and stores the three result blocks whole; it ends with the operands'
  memrefs as they were and the results' at the block functions posBlk, w8Blk, idx8Blk of x0, x1, x2 (and of the first grid
  coordinate as a word, for the row numbers). A store through the whole-shape rectangle leaves its payload whatever the
  buffer held, and a load through it reads the contents, so what each result's memref reads afterwards is the payload of
  its one store over the loaded blocks.
-/
import proofs.«209143_g59700045415095_cont_9to1_m_37_38_alg».proof.Proof.KI.Common
import proofs.«209143_g59700045415095_cont_9to1_m_37_38_alg».proof.Proof.KI.RegionVals
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

namespace Region

/-! ## The body's triple -/

theorem hz3 : (![0, 0, 0] : Fin 3 → Nat) = fun _ => 0 := funext fun a => by fin_cases a <;> rfl
theorem hz2 : (![0, 0] : Fin 2 → Nat) = fun _ => 0 := funext fun a => by fin_cases a <;> rfl

/-- The rectangles through which the body loads its three operand blocks: each whole. -/
abbrev rAdj : Rect S1x512x2048 := Rect.unit (s := S1x512x2048) ![0, 0, 0] S1x512x2048.size inb_S1x512x2048_S1x512x2048_0_0_0
abbrev rX : Rect S1x2048x128 := Rect.unit (s := S1x2048x128) ![0, 0, 0] S1x2048x128.size inb_S1x2048x128_S1x2048x128_0_0_0
abbrev rW : Rect S128x3 := Rect.unit (s := S128x3) ![0, 0] S128x3.size inb_S128x3_S128x3_0_0

set_option maxHeartbeats 4000000 in
/-- The kernel body on whole staging memrefs, the operands' at read contents x0, x1, x2 and the results' at anything, runs to
    the continuation holding the operands' as they were and each result's at its block function of x0, x1, x2: three whole
    loads, the arithmetic, three whole stores. -/
theorem sound_kernel (c : Dev nD) (E : Set ℕ) (i : grid0.Coords)
    (arg2 : Memref sig .tc .vmem S1x512x2048 .f32) (harg2 : arg2.IsWhole) (arg3 : Memref sig .tc .vmem S1x2048x128 .f32) (harg3 : arg3.IsWhole)
    (arg4 : Memref sig .tc .vmem S128x3 .f32) (harg4 : arg4.IsWhole) (arg5 : Memref sig .tc .vmem S1x512x3 .f32) (harg5 : arg5.IsWhole)
    (arg6 : Memref sig .tc .vmem S1x512x128 .f32) (harg6 : arg6.IsWhole) (arg7 : Memref sig .tc .vmem S1x512x8 .i32) (harg7 : arg7.IsWhole)
    (x0 : Vec F S1x512x2048 .f32) (x1 : Vec F S1x2048x128 .f32) (x2 : Vec F S128x3 .f32) (Kk : PUnit → sProp 𝕄) :
    iprop(owns (SparseCore.T c) arg2 fullShare x0 ∗ owns (SparseCore.T c) arg3 fullShare x1 ∗ owns (SparseCore.T c) arg4 fullShare x2
        ∗ (∃ d, owns (SparseCore.T c) arg5 fullShare d) ∗ (∃ d, owns (SparseCore.T c) arg6 fullShare d) ∗ (∃ d, owns (SparseCore.T c) arg7 fullShare d)
        ∗ (iprop(owns (SparseCore.T c) arg2 fullShare x0 ∗ owns (SparseCore.T c) arg3 fullShare x1 ∗ owns (SparseCore.T c) arg4 fullShare x2
            ∗ owns (SparseCore.T c) arg5 fullShare (posBlk x0 x1 x2) ∗ owns (SparseCore.T c) arg6 fullShare (w8Blk x0 x1 x2)
            ∗ owns (SparseCore.T c) arg7 fullShare (idx8Blk (BitVec.ofNat 32 (i 0).val) x0 x1 x2)) -∗ Kk ⟨⟩))
      ⊢ wp frame (wpE (defs₀ (F := F)) Variants.none (SparseCore.T c) none) E
          (cc0__pos_body i arg2 harg2 arg3 harg3 arg4 harg4 arg5 harg5 arg6 harg6 arg7 harg7) Kk := by
  simp only [cc0__pos_body_eq_skeleton]; unfold cc0__pos_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero hz3 inb_S1x512x3_S1x512x3_0_0_0 y⟩), View.canon_unit_zero hz3]
    refine Eq.trans (b := posBlk (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]
  isplitl [H4]
  · iexists _; isplitr
    swap; · iexact H4
    ipureintro
    rw [View.read_writes_eq_canon _ _ _ (fun y => ⟨_, List.mem_singleton_self _, View.mem_set_unit_zero hz3 inb_S1x512x128_S1x512x128_0_0_0 y⟩), View.canon_unit_zero hz3]
    refine Eq.trans (b := w8Blk (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]
  · iexists _; isplitr
    swap; · iexact H5
    ipureintro
    rw [View.read_writes_eq_canon _ _ _ (fun y => ⟨_, List.mem_singleton_self _, View.mem_set_unit_zero hz3 inb_S1x512x8_S1x512x8_0_0_0 y⟩), View.canon_unit_zero hz3]
    refine Eq.trans (b := idx8Blk (BitVec.ofNat 32 (i 0).val) (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]

end Region

end Cert.Proof.KI

end
-- ==== Proof.KI.Region.lean ====
/-
  The TensorCore call inside the SparseCore program: @main's first line, as a rule ready for the launch.

  The call is a pipeline over the grid 8 × 4 with six windows: three operands fetched block by block (the adjacency's block
  moves with both grid coordinates, the features' with the first only, the projection's never) and three results written
  back block by block at every point. The proof data names, at every point, what each staging buffer holds after the body:
  an operand's its block, a result's the body's block function of the three operand blocks. From the body's triple at a
  symbolic point this gives the body obligation at every point, and the region rule then runs the whole call from the six
  arrays as found to the operands unchanged and each result at what its blocks, written back at all 32 points, add up to.
  Each point writes block t of ONE whole-array function of the operands (posV, w8V, idx8V), and the 32 blocks cover each
  result, so each result ends at that function.

  The TensorCore enters the region owing its start signals to the SparseCores, at the calls' indices; the staging cells are
  waited on at the kernels' own index, whose level sits below all of those, so every wait of the pipeline is admissible.
  The rule is stated in the body table extended by the SparseCore calls; the staging cells' ghost state is funded from the
  launch element's first component.
-/
import proofs.«209143_g59700045415095_cont_9to1_m_37_38_alg».proof.Proof.KI.Common
import proofs.«209143_g59700045415095_cont_9to1_m_37_38_alg».proof.Proof.KI.RegionVals
import proofs.«209143_g59700045415095_cont_9to1_m_37_38_alg».proof.Proof.KI.RegionBody
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

namespace Region

/-- No pipeline of the program takes a prefetched table. -/
abbrev adm : (p : Fin 1) → (pcfgs (F := F) p).Adm := fun p => (cfgs p).toPCfg_adm

/-- The launch element's part for the pipeline's staging cells: the rounds library's element at those cells and the duty
    tokens of the transfers the loop issues. -/
def uP₀ : UP := initOf (Pipeline.cells cfgs cellOf_inj) (Pipeline.launchToks cfgs cellOf_inj)

/-- What the launch deals device d for the region: its staging cells' ghost state and the duty tokens of its transfers. -/
def GP (d : Dev nD) : sProp 𝕄 :=
  iprop(Pipeline.cellsGhost (Pipeline.pin (pcfgs (F := F)) adm) EP 0 d ∗ Pipeline.toksInit (Pipeline.pin (pcfgs (F := F)) adm) EP 0 d)

/-! ## The proof data of the pipeline -/

section Region
variable (Vin : (c : Dev nD) → (b : Ref sig .tc) → Buf (Elt F) ((SparseCore.T c : Thread nD τ).loc b))
  (O : CellTallies nD τ sig (HIx 1)) (W : Waits sig (HIx 1))

/-- Window w's block at point t, read off its array as the region finds it. -/
def inBlk (c : Dev nD) (w : Fin cfg0.W) (t : Fin cfg0.N) : ((cfg0.win w).xblock (cfg0.grid.coords t)).Idx → Elt F (cfg0.win w).elt :=
  ((cfg0.win w).blk t).view.read (Elt F) (Vin c (Pipeline.arrRef spec0 w))

/-- The proof data on core c: the six arrays as the region finds them; after the body at point t each operand's buffer at its
    block and each result's at its block function of the operand blocks; no invariant of its own; the core owes throughout
    what it owed on entry, its recorded pairs those it came with and the pipeline's own. -/
def dats (_ : Fin 1) (c : Dev nD) : Dat τ (Elt F) (HIx 1) ℕ UU ℕ cfg0 c where
  A w := Vin c (Pipeline.arrRef spec0 w)
  after w t := match w with
    | ⟨0, _⟩ => inBlk Vin c 0 t
    | ⟨1, _⟩ => inBlk Vin c 1 t
    | ⟨2, _⟩ => inBlk Vin c 2 t
    | ⟨3, _⟩ => posBlk (inBlk Vin c 0 t) (inBlk Vin c 1 t) (inBlk Vin c 2 t)
    | ⟨4, _⟩ => w8Blk (inBlk Vin c 0 t) (inBlk Vin c 1 t) (inBlk Vin c 2 t)
    | ⟨5, _⟩ => idx8Blk (BitVec.ofNat 32 (grid0.coords t 0).val) (inBlk Vin c 0 t) (inBlk Vin c 1 t) (inBlk Vin c 2 t)
  Φ _ := iprop(emp)
  q _ := fullShare
  owed _ := O
  recorded _ := {p | p ∈ W ∨ p.2 = none}

theorem A_eq (c : Dev nD) (w : Fin cfg0.W) : (dats Vin O W 0 c).A w = Vin c (Pipeline.arrRef spec0 w) := by
  dsimp only [dats]

theorem after0_0 (c : Dev nD) (t : Fin cfg0.N) : (dats Vin O W 0 c).after 0 t = inBlk Vin c 0 t := by dsimp only [dats]
theorem after0_1 (c : Dev nD) (t : Fin cfg0.N) : (dats Vin O W 0 c).after 1 t = inBlk Vin c 1 t := by dsimp only [dats]
theorem after0_2 (c : Dev nD) (t : Fin cfg0.N) : (dats Vin O W 0 c).after 2 t = inBlk Vin c 2 t := by dsimp only [dats]
theorem after0_3 (c : Dev nD) (t : Fin cfg0.N) :
    (dats Vin O W 0 c).after 3 t = posBlk (inBlk Vin c 0 t) (inBlk Vin c 1 t) (inBlk Vin c 2 t) := by dsimp only [dats]
theorem after0_4 (c : Dev nD) (t : Fin cfg0.N) :
    (dats Vin O W 0 c).after 4 t = w8Blk (inBlk Vin c 0 t) (inBlk Vin c 1 t) (inBlk Vin c 2 t) := by dsimp only [dats]
theorem after0_5 (c : Dev nD) (t : Fin cfg0.N) :
    (dats Vin O W 0 c).after 5 t = idx8Blk (BitVec.ofNat 32 (grid0.coords t 0).val) (inBlk Vin c 0 t) (inBlk Vin c 1 t) (inBlk Vin c 2 t) := by
  dsimp only [dats]

/-- Each operand's current staging buffer holds its block at every point, fetched there or not: unfetched, the block index
    has not moved. -/
theorem before0_0 (c : Dev nD) (t : Fin cfg0.N) (d) : (dats Vin O W 0 c).before 0 t d = inBlk Vin c 0 t :=
  ((dats Vin O W 0 c).before_in_eq_fetched 0 rfl (fun _ => rfl) (fun _ _ _ => rfl)
    (fun t => by rw [after0_0]; unfold Dat.blockOf inBlk; rw [A_eq]; try rfl) t d).trans
    (by unfold Dat.fetched Dat.blockOf inBlk; rw [A_eq]; try rfl)
theorem before0_1 (c : Dev nD) (t : Fin cfg0.N) (d) : (dats Vin O W 0 c).before 1 t d = inBlk Vin c 1 t :=
  ((dats Vin O W 0 c).before_in_eq_fetched 1 rfl (fun _ => rfl) (fun _ _ _ => rfl)
    (fun t => by rw [after0_1]; unfold Dat.blockOf inBlk; rw [A_eq]; try rfl) t d).trans
    (by unfold Dat.fetched Dat.blockOf inBlk; rw [A_eq]; try rfl)
theorem before0_2 (c : Dev nD) (t : Fin cfg0.N) (d) : (dats Vin O W 0 c).before 2 t d = inBlk Vin c 2 t :=
  ((dats Vin O W 0 c).before_in_eq_fetched 2 rfl (fun _ => rfl) (fun _ _ _ => rfl)
    (fun t => by rw [after0_2]; unfold Dat.blockOf inBlk; rw [A_eq]; try rfl) t d).trans
    (by unfold Dat.fetched Dat.blockOf inBlk; rw [A_eq]; try rfl)

/-! ## The body obligation, at a generic point -/

/-- What the body is called with at point t, -/
def bodyPre (c : Dev nD) (t : Fin cfg0.N) : sProp 𝕄 :=
  iprop((dats Vin O W 0 c).Φ t.castSucc ∗ (dats Vin O W 0 c).owesAt none t.castSucc
    ∗ (∃ d, owns (SparseCore.T c) (st0_0 t) fullShare ((dats Vin O W 0 c).before 0 t d))
    ∗ (∃ d, owns (SparseCore.T c) (st0_1 t) fullShare ((dats Vin O W 0 c).before 1 t d))
    ∗ (∃ d, owns (SparseCore.T c) (st0_2 t) fullShare ((dats Vin O W 0 c).before 2 t d))
    ∗ (∃ d, owns (SparseCore.T c) (st0_3 t) fullShare ((dats Vin O W 0 c).before 3 t d))
    ∗ (∃ d, owns (SparseCore.T c) (st0_4 t) fullShare ((dats Vin O W 0 c).before 4 t d))
    ∗ (∃ d, owns (SparseCore.T c) (st0_5 t) fullShare ((dats Vin O W 0 c).before 5 t d)))

/-- and what it returns. -/
def bodyPost (c : Dev nD) (t : Fin cfg0.N) : sProp 𝕄 :=
  iprop((dats Vin O W 0 c).Φ t.succ ∗ (dats Vin O W 0 c).owesAt none t.succ
    ∗ owns (SparseCore.T c) (st0_0 t) fullShare ((dats Vin O W 0 c).after 0 t)
    ∗ owns (SparseCore.T c) (st0_1 t) fullShare ((dats Vin O W 0 c).after 1 t)
    ∗ owns (SparseCore.T c) (st0_2 t) fullShare ((dats Vin O W 0 c).after 2 t)
    ∗ owns (SparseCore.T c) (st0_3 t) fullShare ((dats Vin O W 0 c).after 3 t)
    ∗ owns (SparseCore.T c) (st0_4 t) fullShare ((dats Vin O W 0 c).after 4 t)
    ∗ owns (SparseCore.T c) (st0_5 t) fullShare ((dats Vin O W 0 c).after 5 t))

/-- The body at any point: the operands' memrefs hold their blocks, so the body's triple applies; what the core owes passes
    through unread. -/
theorem sound_body (c : Dev nD) (t : Fin cfg0.N) :
    bodyPre Vin O W c t ⊢ wp frame (wpE (defs₀ (F := F)) Variants.none (SparseCore.T c) none) Set.univ (bodyAt0 t) (fun _ => bodyPost Vin O W c t) := by
  unfold bodyPre bodyPost bodyAt0
  simp only [before0_0, before0_1, before0_2]
  rw [show (dats Vin O W 0 c).Φ t.succ = (dats Vin O W 0 c).Φ t.castSucc from rfl,
    show (dats Vin O W 0 c).owesAt none t.succ = (dats Vin O W 0 c).owesAt none t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (inBlk Vin c 0 t) (inBlk Vin c 1 t) (inBlk Vin c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) Vin O W 0 c) (defs₀ (F := F)) Variants.none (none : HIx 1) Set.univ := fun t => by
  rw [bigSep_W0, bigSep_W0]
  exact sound_body Vin O W c t

/-! ## What the arrays hold after the run -/

/-- The printed index maps over the grid: the adjacency's block and the three results' blocks move with both grid coordinates,
    the features' with the first, the projection's not at all. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val ∧ win0_3.index t (2 : Fin 3) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every pair of coordinates is some point's. -/
theorem pt_onto : ∀ (q0 : Fin 8) (q1 : Fin 4), ∃ t : Fin cfg0.N, (grid0.coords t 0).val = q0.val ∧ (grid0.coords t 1).val = q1.val :=
  (by decide +kernel : ∀ (q0 : Fin 8) (q1 : Fin 4), ∃ t : Fin grid0.N, (grid0.coords t 0).val = q0.val ∧ (grid0.coords t 1).val = q1.val)

/-- The adjacency's block at point t is rows 512·t₁ … of batch t₀. -/
theorem inBlk0_eq (c : Dev nD) (t : Fin cfg0.N) :
    inBlk Vin c 0 t = adjBlk (F := F) (Vin c main_arg1) (grid0.coords t 0) (grid0.coords t 1) := by
  obtain ⟨e0, e1, e2, -⟩ := idx_facts t
  funext y
  have hy0 : (y 0).val < 1 := (y 0).isLt
  have hy1 : (y 1).val < 512 := (y 1).isLt
  show Vin c main_arg1 (((cfg0.win 0).blk t).view.emb y) = Vin c main_arg1 _
  congr 1
  funext a; apply Fin.ext
  match a with
  | ⟨0, _⟩ => show win0_0.index t (0 : Fin 3) * 1 + 1 * (y 0).val = (grid0.coords t 0).val; omega
  | ⟨1, _⟩ => show win0_0.index t (1 : Fin 3) * 512 + 1 * (y 1).val = (grid0.coords t 1).val * 512 + (y 1).val; omega
  | ⟨2, _⟩ => show win0_0.index t (2 : Fin 3) * 2048 + 1 * (y 2).val = (y 2).val; omega

/-- The features' block at point t is batch t₀. -/
theorem inBlk1_eq (c : Dev nD) (t : Fin cfg0.N) : inBlk Vin c 1 t = xBlk (F := F) (Vin c main_arg0) (grid0.coords t 0) := by
  obtain ⟨-, -, -, e0, e1, e2, -⟩ := idx_facts t
  funext y
  have hy0 : (y 0).val < 1 := (y 0).isLt
  show Vin c main_arg0 (((cfg0.win 1).blk t).view.emb y) = Vin c main_arg0 _
  congr 1
  funext a; apply Fin.ext
  match a with
  | ⟨0, _⟩ => show win0_1.index t (0 : Fin 3) * 1 + 1 * (y 0).val = (grid0.coords t 0).val; omega
  | ⟨1, _⟩ => show win0_1.index t (1 : Fin 3) * 2048 + 1 * (y 1).val = (y 1).val; omega
  | ⟨2, _⟩ => show win0_1.index t (2 : Fin 3) * 128 + 1 * (y 2).val = (y 2).val; omega

/-- The projection's block is the projection. -/
theorem inBlk2_eq (c : Dev nD) (t : Fin cfg0.N) : inBlk Vin c 2 t = Vin c main_arg3 := by
  obtain ⟨-, -, -, -, -, -, e0, e1, -⟩ := idx_facts t
  funext y
  show Vin c main_arg3 (((cfg0.win 2).blk t).view.emb y) = Vin c main_arg3 y
  congr 1
  funext a; apply Fin.ext
  match a with
  | ⟨0, _⟩ => show win0_2.index t (0 : Fin 2) * 128 + 1 * (y 0).val = (y 0).val; omega
  | ⟨1, _⟩ => show win0_2.index t (1 : Fin 2) * 3 + 1 * (y 1).val = (y 1).val; omega

/-- What point t writes back to the positions is block t of the positions' whole-array function. -/
theorem flushed3_eq (c : Dev nD) (t : Fin cfg0.N) :
    (dats Vin O W 0 c).flushed 3 t
      = ((cfg0.win 3).blk t).view.read (Elt F) (posV (F := F) (Vin c main_arg1) (Vin c main_arg0) (Vin c main_arg3)) := by
  show (cfg0.win 3).cut (grid0.coords t) ((dats Vin O W 0 c).after 3 t) = _
  rw [after0_3, inBlk0_eq, inBlk1_eq, inBlk2_eq]
  obtain ⟨-, -, -, -, -, -, -, -, e0, e1, e2, -⟩ := idx_facts t
  funext j
  have hj0 : (j 0).val < 1 := (j 0).isLt
  have hj1 : (j 1).val < 512 := (j 1).isLt
  have hc1 : (grid0.coords t 1).val < 4 := (grid0.coords t 1).isLt
  show posBlk _ _ _ ((cfg0.win 3).xinj (grid0.coords t) j) = posV _ _ _ (((cfg0.win 3).blk t).view.emb j)
  unfold posV
  have hb : (((cfg0.win 3).blk t).view.emb j) 0 = grid0.coords t 0 := Fin.ext (by
    show win0_3.index t (0 : Fin 3) * 1 + 1 * (j 0).val = (grid0.coords t 0).val; omega)
  have hr : ((((cfg0.win 3).blk t).view.emb j) 1).val = (grid0.coords t 1).val * 512 + (j 1).val := by
    show win0_3.index t (1 : Fin 3) * 512 + 1 * (j 1).val = _; omega
  have hnb : nbOf ((((cfg0.win 3).blk t).view.emb j) 1) = grid0.coords t 1 := Fin.ext (by
    show ((((cfg0.win 3).blk t).view.emb j) 1).val / 512 = _; rw [hr]; omega)
  have hri : rowIn ((((cfg0.win 3).blk t).view.emb j) 1) = j 1 := Fin.ext (by
    show ((((cfg0.win 3).blk t).view.emb j) 1).val % 512 = _; rw [hr]; omega)
  have hl : (((cfg0.win 3).blk t).view.emb j) 2 = j 2 := Fin.ext (by
    show win0_3.index t (2 : Fin 3) * 3 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the positions is in point t's block iff each coordinate is in the block's range on its axis. -/
theorem mem_blk3 (t : Fin cfg0.N) (i : S8x2048x3.Idx) :
    i ∈ ((cfg0.win 3).blk t).view.set ↔ ∀ a : Fin 3, win0_3.index t a * S1x512x3.size a ≤ (i a).val ∧ (i a).val < win0_3.index t a * S1x512x3.size a + S1x512x3.size a := by
  show i ∈ ((View.whole main_v0_0).slice (win0_3.rect t)).set ↔ _
  rw [View.set_slice_whole, Rect.mem_set_unit]
  exact Iff.rfl

/-- Every index of the positions is in some point's block. -/
theorem cover3 (i : S8x2048x3.Idx) : ∃ t : Fin cfg0.N, (cfg0.win 3).flush t = true ∧ i ∈ ((cfg0.win 3).blk t).view.set := by
  have hi1 : (i 1).val < 2048 := (i 1).isLt
  have hi2 : (i 2).val < 3 := (i 2).isLt
  obtain ⟨t, ht0, ht1⟩ := pt_onto (i 0) ⟨(i 1).val / 512, by omega⟩
  obtain ⟨-, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512
              have h : (grid0.coords t 1).val = (i 1).val / 512 := ht1
              omega
  | ⟨2, _⟩ => show win0_3.index t (2 : Fin 3) * 3 ≤ (i 2).val ∧ (i 2).val < win0_3.index t (2 : Fin 3) * 3 + 3; omega

/-- The positions after the run. -/
theorem final3 (c : Dev nD) :
    (dats Vin O W 0 c).arrAt 3 cfg0.N = posV (F := F) (Vin c main_arg1) (Vin c main_arg0) (Vin c main_arg3) :=
  (dats Vin O W 0 c).arrAt_eq_of_cover 3 _ (fun t _ => flushed3_eq Vin O W c t) cover3
/-- What point t writes back to the corner weights is block t of the corner weights' whole-array function. -/
theorem flushed4_eq (c : Dev nD) (t : Fin cfg0.N) :
    (dats Vin O W 0 c).flushed 4 t
      = ((cfg0.win 4).blk t).view.read (Elt F) (w8V (F := F) (Vin c main_arg1) (Vin c main_arg0) (Vin c main_arg3)) := by
  show (cfg0.win 4).cut (grid0.coords t) ((dats Vin O W 0 c).after 4 t) = _
  rw [after0_4, inBlk0_eq, inBlk1_eq, inBlk2_eq]
  obtain ⟨-, -, -, -, -, -, -, -, -, -, -, e0, e1, e2, -⟩ := idx_facts t
  funext j
  have hj0 : (j 0).val < 1 := (j 0).isLt
  have hj1 : (j 1).val < 512 := (j 1).isLt
  have hc1 : (grid0.coords t 1).val < 4 := (grid0.coords t 1).isLt
  show w8Blk _ _ _ ((cfg0.win 4).xinj (grid0.coords t) j) = w8V _ _ _ (((cfg0.win 4).blk t).view.emb j)
  unfold w8V
  have hb : (((cfg0.win 4).blk t).view.emb j) 0 = grid0.coords t 0 := Fin.ext (by
    show win0_4.index t (0 : Fin 3) * 1 + 1 * (j 0).val = (grid0.coords t 0).val; omega)
  have hr : ((((cfg0.win 4).blk t).view.emb j) 1).val = (grid0.coords t 1).val * 512 + (j 1).val := by
    show win0_4.index t (1 : Fin 3) * 512 + 1 * (j 1).val = _; omega
  have hnb : nbOf ((((cfg0.win 4).blk t).view.emb j) 1) = grid0.coords t 1 := Fin.ext (by
    show ((((cfg0.win 4).blk t).view.emb j) 1).val / 512 = _; rw [hr]; omega)
  have hri : rowIn ((((cfg0.win 4).blk t).view.emb j) 1) = j 1 := Fin.ext (by
    show ((((cfg0.win 4).blk t).view.emb j) 1).val % 512 = _; rw [hr]; omega)
  have hl : (((cfg0.win 4).blk t).view.emb j) 2 = j 2 := Fin.ext (by
    show win0_4.index t (2 : Fin 3) * 128 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the corner weights is in point t's block iff each coordinate is in the block's range on its axis. -/
theorem mem_blk4 (t : Fin cfg0.N) (i : S8x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v0_1).slice (win0_4.rect t)).set ↔ _
  rw [View.set_slice_whole, Rect.mem_set_unit]
  exact Iff.rfl

/-- Every index of the corner weights is in some point's block. -/
theorem cover4 (i : S8x2048x128.Idx) : ∃ t : Fin cfg0.N, (cfg0.win 4).flush t = true ∧ i ∈ ((cfg0.win 4).blk t).view.set := by
  have hi1 : (i 1).val < 2048 := (i 1).isLt
  have hi2 : (i 2).val < 128 := (i 2).isLt
  obtain ⟨t, ht0, ht1⟩ := pt_onto (i 0) ⟨(i 1).val / 512, by omega⟩
  obtain ⟨-, -, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512
              have h : (grid0.coords t 1).val = (i 1).val / 512 := ht1
              omega
  | ⟨2, _⟩ => show win0_4.index t (2 : Fin 3) * 128 ≤ (i 2).val ∧ (i 2).val < win0_4.index t (2 : Fin 3) * 128 + 128; omega

/-- The corner weights after the run. -/
theorem final4 (c : Dev nD) :
    (dats Vin O W 0 c).arrAt 4 cfg0.N = w8V (F := F) (Vin c main_arg1) (Vin c main_arg0) (Vin c main_arg3) :=
  (dats Vin O W 0 c).arrAt_eq_of_cover 4 _ (fun t _ => flushed4_eq Vin O W c t) cover4
/-- What point t writes back to the corner row numbers is block t of the corner row numbers' whole-array function. -/
theorem flushed5_eq (c : Dev nD) (t : Fin cfg0.N) :
    (dats Vin O W 0 c).flushed 5 t
      = ((cfg0.win 5).blk t).view.read (Elt F) (idx8V (F := F) (Vin c main_arg1) (Vin c main_arg0) (Vin c main_arg3)) := by
  show (cfg0.win 5).cut (grid0.coords t) ((dats Vin O W 0 c).after 5 t) = _
  rw [after0_5, inBlk0_eq, inBlk1_eq, inBlk2_eq]
  obtain ⟨-, -, -, -, -, -, -, -, -, -, -, -, -, -, e0, e1, e2⟩ := idx_facts t
  funext j
  have hj0 : (j 0).val < 1 := (j 0).isLt
  have hj1 : (j 1).val < 512 := (j 1).isLt
  have hc1 : (grid0.coords t 1).val < 4 := (grid0.coords t 1).isLt
  show idx8Blk _ _ _ _ ((cfg0.win 5).xinj (grid0.coords t) j) = idx8V _ _ _ (((cfg0.win 5).blk t).view.emb j)
  unfold idx8V
  have hb : (((cfg0.win 5).blk t).view.emb j) 0 = grid0.coords t 0 := Fin.ext (by
    show win0_5.index t (0 : Fin 3) * 1 + 1 * (j 0).val = (grid0.coords t 0).val; omega)
  have hr : ((((cfg0.win 5).blk t).view.emb j) 1).val = (grid0.coords t 1).val * 512 + (j 1).val := by
    show win0_5.index t (1 : Fin 3) * 512 + 1 * (j 1).val = _; omega
  have hnb : nbOf ((((cfg0.win 5).blk t).view.emb j) 1) = grid0.coords t 1 := Fin.ext (by
    show ((((cfg0.win 5).blk t).view.emb j) 1).val / 512 = _; rw [hr]; omega)
  have hri : rowIn ((((cfg0.win 5).blk t).view.emb j) 1) = j 1 := Fin.ext (by
    show ((((cfg0.win 5).blk t).view.emb j) 1).val % 512 = _; rw [hr]; omega)
  have hl : (((cfg0.win 5).blk t).view.emb j) 2 = j 2 := Fin.ext (by
    show win0_5.index t (2 : Fin 3) * 8 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the corner row numbers is in point t's block iff each coordinate is in the block's range on its axis. -/
theorem mem_blk5 (t : Fin cfg0.N) (i : S8x2048x8.Idx) :
    i ∈ ((cfg0.win 5).blk t).view.set ↔ ∀ a : Fin 3, win0_5.index t a * S1x512x8.size a ≤ (i a).val ∧ (i a).val < win0_5.index t a * S1x512x8.size a + S1x512x8.size a := by
  show i ∈ ((View.whole main_v0_2).slice (win0_5.rect t)).set ↔ _
  rw [View.set_slice_whole, Rect.mem_set_unit]
  exact Iff.rfl

/-- Every index of the corner row numbers is in some point's block. -/
theorem cover5 (i : S8x2048x8.Idx) : ∃ t : Fin cfg0.N, (cfg0.win 5).flush t = true ∧ i ∈ ((cfg0.win 5).blk t).view.set := by
  have hi1 : (i 1).val < 2048 := (i 1).isLt
  have hi2 : (i 2).val < 8 := (i 2).isLt
  obtain ⟨t, ht0, ht1⟩ := pt_onto (i 0) ⟨(i 1).val / 512, by omega⟩
  obtain ⟨-, -, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512
              have h : (grid0.coords t 1).val = (i 1).val / 512 := ht1
              omega
  | ⟨2, _⟩ => show win0_5.index t (2 : Fin 3) * 8 ≤ (i 2).val ∧ (i 2).val < win0_5.index t (2 : Fin 3) * 8 + 8; omega

/-- The corner row numbers after the run. -/
theorem final5 (c : Dev nD) :
    (dats Vin O W 0 c).arrAt 5 cfg0.N = idx8V (F := F) (Vin c main_arg1) (Vin c main_arg0) (Vin c main_arg3) :=
  (dats Vin O W 0 c).arrAt_eq_of_cover 5 _ (fun t _ => flushed5_eq Vin O W c t) cover5

/-! ## The region -/

theorem hF0 (c : Dev nD) : (dats Vin O W 0 c).arrAt 0 cfg0.N = Vin c main_arg1 :=
  ((dats Vin O W 0 c).arrAt_in 0 rfl _).trans (A_eq Vin O W c 0)
theorem hF1 (c : Dev nD) : (dats Vin O W 0 c).arrAt 1 cfg0.N = Vin c main_arg0 :=
  ((dats Vin O W 0 c).arrAt_in 1 rfl _).trans (A_eq Vin O W c 1)
theorem hF2 (c : Dev nD) : (dats Vin O W 0 c).arrAt 2 cfg0.N = Vin c main_arg3 :=
  ((dats Vin O W 0 c).arrAt_in 2 rfl _).trans (A_eq Vin O W c 2)

/-- The six arrays, one by one. -/
theorem arrays_six (c : Dev nD) (Fa : (w : Fin cfg0.W) → Buf (Elt F) ((cfg0.win w).arr.view.loc (SparseCore.T c : Thread nD τ))) :
    ((dats Vin O W 0 c).arrays Fa : sProp 𝕄)
      = iprop((((SparseCore.T c : Thread nD τ).loc main_arg1) ↦{fullShare} Fa 0) ∗ (((SparseCore.T c : Thread nD τ).loc main_arg0) ↦{fullShare} Fa 1)
          ∗ (((SparseCore.T c : Thread nD τ).loc main_arg3) ↦{fullShare} Fa 2) ∗ (((SparseCore.T c : Thread nD τ).loc main_v0_0) ↦{fullShare} Fa 3)
          ∗ (((SparseCore.T c : Thread nD τ).loc main_v0_1) ↦{fullShare} Fa 4) ∗ (((SparseCore.T c : Thread nD τ).loc main_v0_2) ↦{fullShare} Fa 5)) := by
  rw [Pipeline.arrays_eq (Pipeline.pin (pcfgs (F := F)) adm) (dats Vin O W) 0 c launch0.arr_whole ((dats Vin O W 0 c).share_full fun _ => rfl), bigSep_W0]

/-- The core's scoped buffers that no window stages: none. -/
theorem scopedRest_eq (c : Dev nD) :
    (Pipeline.scopedRest (Ix := HIx 1) (Name := ℕ) (U := UU) (Lvl := ℕ) (Val := Elt F) (Pipeline.pin (pcfgs (F := F)) adm 0).spec c : sProp 𝕄) = BI.emp :=
  scopedRest0_eq c

/-- What the region is entered from on core c: what the core owes, and the six arrays as found. -/
def pre (c : Dev nD) : sProp 𝕄 :=
  iprop(owes (SparseCore.T c) O W
    ∗ (((SparseCore.T c : Thread nD τ).loc main_arg1) ↦{fullShare} Vin c main_arg1) ∗ (((SparseCore.T c : Thread nD τ).loc main_arg0) ↦{fullShare} Vin c main_arg0)
    ∗ (((SparseCore.T c : Thread nD τ).loc main_arg3) ↦{fullShare} Vin c main_arg3) ∗ (((SparseCore.T c : Thread nD τ).loc main_v0_0) ↦{fullShare} Vin c main_v0_0)
    ∗ (((SparseCore.T c : Thread nD τ).loc main_v0_1) ↦{fullShare} Vin c main_v0_1) ∗ (((SparseCore.T c : Thread nD τ).loc main_v0_2) ↦{fullShare} Vin c main_v0_2))

/-- What it leaves: the same owed, the recorded pairs grown by the pipeline's own waits at most; the operands as found, the
    three results at their whole-array functions of the operands. -/
def post (c : Dev nD) : sProp 𝕄 :=
  iprop((∃ W' : Waits sig (HIx 1), ⌜∀ p ∈ W', p ∈ W ∨ p.2 = none⌝ ∗ owes (SparseCore.T c) O W')
    ∗ (((SparseCore.T c : Thread nD τ).loc main_arg1) ↦{fullShare} Vin c main_arg1) ∗ (((SparseCore.T c : Thread nD τ).loc main_arg0) ↦{fullShare} Vin c main_arg0)
    ∗ (((SparseCore.T c : Thread nD τ).loc main_arg3) ↦{fullShare} Vin c main_arg3)
    ∗ (((SparseCore.T c : Thread nD τ).loc main_v0_0) ↦{fullShare} posV (F := F) (Vin c main_arg1) (Vin c main_arg0) (Vin c main_arg3))
    ∗ (((SparseCore.T c : Thread nD τ).loc main_v0_1) ↦{fullShare} w8V (F := F) (Vin c main_arg1) (Vin c main_arg0) (Vin c main_arg3))
    ∗ (((SparseCore.T c : Thread nD τ).loc main_v0_2) ↦{fullShare} idx8V (F := F) (Vin c main_arg1) (Vin c main_arg0) (Vin c main_arg3)))

set_option backward.isDefEq.respectTransparency.types false in
/-- THE REGION: the windows' decided layout, no semaphore of the kernel's own, the body obligation, the wait evidence from the
    levels (everything the core owes sits at a call's index, above the staging cells' index), and the protocol: all six
    arrays enter the pipeline, nothing enters the invariant, nothing bypasses. -/
def reg (hO : ∀ g, O g none = 0) :
    Pipeline.RegionSeg (pcfgs (F := F)) adm (dats Vin O W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vin O W c).loose
  hwaits c := Pipeline.cellsWaits_intro (Pipeline.pin (pcfgs (F := F)) adm) (dats Vin O W) none 0 c
    fun w s t => (K (F := F)).mayWait_none (thr := SparseCore.T c) (.dma (((Pipeline.pin (pcfgs (F := F)) adm 0).win w).sem s)) hO
  pre := pre Vin O W
  post := post Vin O W
  X _ := iprop(emp)
  Y _ := iprop(emp)
  Z _ := iprop(emp)
  hentry c := by
    rw [arrays_six, Pipeline.ownSems0_none]
    unfold pre
    iintro ⟨⟨HO, H1, H0, H3, Hp, Hw, Hi⟩, -, -⟩
    imodintro
    isplitl [H1 H0 H3 Hp Hw Hi]
    · isplitl [H1]; · iexact H1
      isplitl [H0]; · iexact H0
      isplitl [H3]; · iexact H3
      isplitl [Hp]; · iexact Hp
      isplitl [Hw]; · iexact Hw
      iexact Hi
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr <;> iempintro
  hin c := by
    rw [show (dats Vin O W 0 c).Φ 0 = iprop(emp) from rfl]
    iintro -; iempintro
  hout c := by
    rw [show (dats Vin O W 0 c).Φ (Fin.last _) = iprop(emp) from rfl, Pipeline.ownSems0_none, scopedRest_eq]
    iintro -
    isplitr; · iempintro
    isplitr <;> iempintro
  hexit c := by
    rw [arrays_six, hF0, hF1, hF2, final3, final4, final5]
    unfold post
    iintro ⟨⟨H1, H0, H3, Hp, Hw, Hi⟩, HO, -, -⟩
    imodintro
    isplitl [HO]
    · unfold Pipeline.Dat.owesAt Pipeline.owesWithin
      icases HO with ⟨%W', %hW', HO⟩
      iexists W'; isplitr
      · ipureintro
        intro p hp
        rcases hW' hp with h | ⟨w, s, rfl⟩
        · exact h
        · exact Or.inr rfl
      iexact HO
    isplitl [H1]; · iexact H1
    isplitl [H0]; · iexact H0
    isplitl [H3]; · iexact H3
    isplitl [Hp]; · iexact Hp
    isplitl [Hw]; · iexact Hw
    iexact Hi

/-- @main's first line is the pipeline's entry, lifted to the table extended by the SparseCore calls. -/
theorem lift_entry : (Prog.lift (.customCall (SparseCore.inner (Pipeline.entry (0 : Fin 1))) ()) :
      Prog (TpuEff nD τ sig (Elt F) (SparseCore.Sig (ΛP (F := F)) 1) .tc) PUnit)
    = SparseCore.liftProg (.op (.customCall (Pipeline.entry (0 : Fin 1)) ()) Prog.ret) := rfl

set_option maxHeartbeats 2000000 in
set_option backward.isDefEq.respectTransparency.types false in
/-- THE RULE FOR @main'S FIRST LINE on device d, in the body table extended by the SparseCore calls: from the level facts, the
    staging cells' ghost state, the region boundary, what the TensorCore owes (nothing at the kernels' own index) and the six
    arrays as found, the call runs to the continuation holding the boundary, the same owed, the operands as found and the three
    results at their whole-array functions. -/
theorem wp_region (d : Dev nD) (hO : ∀ g, O g none = 0) (Φ : PUnit → sProp 𝕄) :
    iprop(levAts (K (F := F)).L (K (F := F)).lev ∗ GP (F := F) d ∗ boundary (SparseCore.T d) ∗ owes (SparseCore.T d) O W
        ∗ (((SparseCore.T d : Thread nD τ).loc main_arg1) ↦{fullShare} Vin d main_arg1) ∗ (((SparseCore.T d : Thread nD τ).loc main_arg0) ↦{fullShare} Vin d main_arg0)
        ∗ (((SparseCore.T d : Thread nD τ).loc main_arg3) ↦{fullShare} Vin d main_arg3)
        ∗ (((SparseCore.T d : Thread nD τ).loc main_v0_0) ↦{fullShare} Vin d main_v0_0) ∗ (((SparseCore.T d : Thread nD τ).loc main_v0_1) ↦{fullShare} Vin d main_v0_1)
        ∗ (((SparseCore.T d : Thread nD τ).loc main_v0_2) ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ (((SparseCore.T d : Thread nD τ).loc main_arg1) ↦{fullShare} Vin d main_arg1) ∗ (((SparseCore.T d : Thread nD τ).loc main_arg0) ↦{fullShare} Vin d main_arg0)
            ∗ (((SparseCore.T d : Thread nD τ).loc main_arg3) ↦{fullShare} Vin d main_arg3)
            ∗ (((SparseCore.T d : Thread nD τ).loc main_v0_0) ↦{fullShare} posV (F := F) (Vin d main_arg1) (Vin d main_arg0) (Vin d main_arg3))
            ∗ (((SparseCore.T d : Thread nD τ).loc main_v0_1) ↦{fullShare} w8V (F := F) (Vin d main_arg1) (Vin d main_arg0) (Vin d main_arg3))
            ∗ (((SparseCore.T d : Thread nD τ).loc main_v0_2) ↦{fullShare} idx8V (F := F) (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ := by
  rw [lift_entry]
  refine BIBase.Entails.trans ?_ ((K (F := F)).wp_liftProg (D (F := F)) 𝒱 (SparseCore.T d) Set.univ none _ Φ)
  refine BIBase.Entails.trans ?_ (Pipeline.RegionSeg.wp (pcfgs (F := F)) adm (dats Vin O W) (none : HIx 1) cellOf_inj EP defs₀ 𝒱₀
    (K (F := F)).L (K (F := F)).lev (reg Vin O W hO) d none (fun _ h => nomatch h) Prog.ret Φ)
  rw [show (reg Vin O W hO).post d = post Vin O W d from rfl, show (reg Vin O W hO).pre d = pre Vin O W d from rfl]
  unfold pre post GP
  iintro ⟨Hlev, ⟨Hg, Ht⟩, Hb, HO, H1, H0, H3, Hp, Hw, Hi, Hk⟩
  isplitl [Hk]
  · iintro ⟨Hb, Hpost⟩
    sl_step
    iapply Hk
    isplitl [Hb]; · iexact Hb
    iexact Hpost
  isplitl [Hb]; · iexact Hb
  isplitl [HO H1 H0 H3 Hp Hw Hi]
  · isplitl [HO]; · iexact HO
    isplitl [H1]; · iexact H1
    isplitl [H0]; · iexact H0
    isplitl [H3]; · iexact H3
    isplitl [Hp]; · iexact Hp
    isplitl [Hw]; · iexact Hw
    iexact Hi
  isplitl [Hlev]; · iexact Hlev
  isplitl [Hg]; · iexact Hg
  iexact Ht

end Region

/-! ## Funding the staging cells at launch -/

set_option backward.isDefEq.respectTransparency.types false in
/-- The launch element's part for the staging cells yields, on every device, the region's ghost state. -/
theorem fund_region : (BI.own ((EP : Emb UP 𝕄) uP₀) : sProp 𝕄) ⊢ |={Set.univ}=> bigSep Finset.univ fun d : Dev nD => GP (F := F) d := by
  have hg : (bigSep Finset.univ fun c : Dev nD => bigSep Finset.univ fun p : Fin 1 =>
        (Pipeline.cellsGhost (Pipeline.pin (pcfgs (F := F)) adm) (EP : Emb UP 𝕄) p c : sProp 𝕄))
      = bigSep Finset.univ fun c : Dev nD => (Pipeline.cellsGhost (Pipeline.pin (pcfgs (F := F)) adm) (EP : Emb UP 𝕄) 0 c : sProp 𝕄) :=
    bigSep_congr fun c _ => by rw [show (Finset.univ : Finset (Fin 1)) = {0} from rfl, bigSep_singleton]
  have ht : (bigSep Finset.univ fun c : Dev nD => bigSep Finset.univ fun p : Fin 1 =>
        (Pipeline.toksInit (Pipeline.pin (pcfgs (F := F)) adm) (EP : Emb UP 𝕄) p c : sProp 𝕄))
      = bigSep Finset.univ fun c : Dev nD => (Pipeline.toksInit (Pipeline.pin (pcfgs (F := F)) adm) (EP : Emb UP 𝕄) 0 c : sProp 𝕄) :=
    bigSep_congr fun c _ => by rw [show (Finset.univ : Finset (Fin 1)) = {0} from rfl, bigSep_singleton]
  unfold uP₀ GP
  rw [bigSep_sep', ← hg, ← ht]
  iintro Hu
  imod (Pipeline.fund_ghost (Pipeline.pin (pcfgs (F := F)) adm) (EP : Emb UP 𝕄) cellOf_inj) $$ Hu with ⟨Hg, Ht⟩
  imodintro
  isplitl [Hg]
  · iexact Hg
  · iexact Ht

end Region

end Cert.Proof.KI

end
-- ==== Proof.KI.TileDefs.lean ====
/-
  A vector subcore's own memory as its task addresses it: the row-number scratch, and the three rings of four slots —
  weights (16 points × 128 lanes), gathered table rows (128 rows × 128 columns: 8 corners for each of 16 points) and
  results (16 points × 128 columns) — each slot the ring's slice at its slot number, squeezed. For one slot holding one
  chunk, the value the point loop leaves: at point p and column col the balanced sum over the eight corners k of
  weight (p, 16·k + col mod 16) times row 8·p + k at column col, in the order ((t0 + t1) + (t2 + t3)) + ((t4 + t5) + (t6 + t7)).
  The point loop's invariant before trip p: the weights and rows of the slot as they are, and the result slot at some
  contents that already hold that value on the points below p.
-/
import proofs.«209143_g59700045415095_cont_9to1_m_37_38_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The thread and its scratch -/

abbrev cV (L : grid1.Coords) : Fin τ.nSC := (L 0).castLE hcore1
abbrev jV (L : grid1.Coords) : Fin τ.nSub := (L 1).castLE hsub1

abbrev ivV : Memref sig .scVector .vmem S32x128 .i32 := Memref.whole cc1_scratch0
abbrev wvV : Memref sig .scVector .vmem S4x16x128 .f32 := Memref.whole cc1_scratch1
abbrev rvV : Memref sig .scVector .vmem S4x128x128 .f32 := Memref.whole cc1_scratch2
abbrev ovV : Memref sig .scVector .vmem S4x16x128 .f32 := Memref.whole cc1_scratch3

/-! ## The slots -/

abbrev wSlot0 : Memref sig .scVector .vmem S16x128 .f32 := ((wvV).slice (Rect.unit (s := S4x16x128) ![0, 0, 0] S1x16x128.size inb_S4x16x128_S1x16x128_0_0_0) (fun _ => rfl)).squeeze S16x128 squeezes_S1x16x128_S16x128
abbrev rSlot0 : Memref sig .scVector .vmem S128x128 .f32 := ((rvV).slice (Rect.unit (s := S4x128x128) ![0, 0, 0] S1x128x128.size inb_S4x128x128_S1x128x128_0_0_0) (fun _ => rfl)).squeeze S128x128 squeezes_S1x128x128_S128x128
abbrev oSlot0 : Memref sig .scVector .vmem S16x128 .f32 := ((ovV).slice (Rect.unit (s := S4x16x128) ![0, 0, 0] S1x16x128.size inb_S4x16x128_S1x16x128_0_0_0) (fun _ => rfl)).squeeze S16x128 squeezes_S1x16x128_S16x128
abbrev wSlot1 : Memref sig .scVector .vmem S16x128 .f32 := ((wvV).slice (Rect.unit (s := S4x16x128) ![1, 0, 0] S1x16x128.size inb_S4x16x128_S1x16x128_1_0_0) (fun _ => rfl)).squeeze S16x128 squeezes_S1x16x128_S16x128
abbrev rSlot1 : Memref sig .scVector .vmem S128x128 .f32 := ((rvV).slice (Rect.unit (s := S4x128x128) ![1, 0, 0] S1x128x128.size inb_S4x128x128_S1x128x128_1_0_0) (fun _ => rfl)).squeeze S128x128 squeezes_S1x128x128_S128x128
abbrev oSlot1 : Memref sig .scVector .vmem S16x128 .f32 := ((ovV).slice (Rect.unit (s := S4x16x128) ![1, 0, 0] S1x16x128.size inb_S4x16x128_S1x16x128_1_0_0) (fun _ => rfl)).squeeze S16x128 squeezes_S1x16x128_S16x128
abbrev wSlot2 : Memref sig .scVector .vmem S16x128 .f32 := ((wvV).slice (Rect.unit (s := S4x16x128) ![2, 0, 0] S1x16x128.size inb_S4x16x128_S1x16x128_2_0_0) (fun _ => rfl)).squeeze S16x128 squeezes_S1x16x128_S16x128
abbrev rSlot2 : Memref sig .scVector .vmem S128x128 .f32 := ((rvV).slice (Rect.unit (s := S4x128x128) ![2, 0, 0] S1x128x128.size inb_S4x128x128_S1x128x128_2_0_0) (fun _ => rfl)).squeeze S128x128 squeezes_S1x128x128_S128x128
abbrev oSlot2 : Memref sig .scVector .vmem S16x128 .f32 := ((ovV).slice (Rect.unit (s := S4x16x128) ![2, 0, 0] S1x16x128.size inb_S4x16x128_S1x16x128_2_0_0) (fun _ => rfl)).squeeze S16x128 squeezes_S1x16x128_S16x128
abbrev wSlot3 : Memref sig .scVector .vmem S16x128 .f32 := ((wvV).slice (Rect.unit (s := S4x16x128) ![3, 0, 0] S1x16x128.size inb_S4x16x128_S1x16x128_3_0_0) (fun _ => rfl)).squeeze S16x128 squeezes_S1x16x128_S16x128
abbrev rSlot3 : Memref sig .scVector .vmem S128x128 .f32 := ((rvV).slice (Rect.unit (s := S4x128x128) ![3, 0, 0] S1x128x128.size inb_S4x128x128_S1x128x128_3_0_0) (fun _ => rfl)).squeeze S128x128 squeezes_S1x128x128_S128x128
abbrev oSlot3 : Memref sig .scVector .vmem S16x128 .f32 := ((ovV).slice (Rect.unit (s := S4x16x128) ![3, 0, 0] S1x16x128.size inb_S4x16x128_S1x16x128_3_0_0) (fun _ => rfl)).squeeze S16x128 squeezes_S1x16x128_S16x128

/-! ## What the point loop computes -/

section Value
variable [FloatOps F]

/-- Corner k's term at slot b, point p, column col, from the slot's weights and rows. -/
def ptTerm (fw : FVec F S4x16x128 .f32) (fr : FVec F S4x128x128 .f32) (b : Fin 4) (p : Fin 16) (col : Fin 128) (k : Fin 8) : F .f32 :=
  FloatOps.mulf (fw (ix3 b p (⟨16 * k.val + col.val % 16, by omega⟩ : Fin 128)))
    (fr (ix3 b (⟨8 * p.val + k.val, by omega⟩ : Fin 128) col))

/-- The point loop's result at every index of the result ring: the balanced sum of the eight terms. -/
def ptOut (fw : FVec F S4x16x128 .f32) (fr : FVec F S4x128x128 .f32) : FVec F S4x16x128 .f32 :=
  fun j =>
    let t := ptTerm fw fr (j 0) (j 1) (j 2)
    FloatOps.addf (FloatOps.addf (FloatOps.addf (t 0) (t 1)) (FloatOps.addf (t 2) (t 3)))
      (FloatOps.addf (FloatOps.addf (t 4) (t 5)) (FloatOps.addf (t 6) (t 7)))

end Value

/-! ## The point loop's invariant, slot by slot -/

section Inv
variable [FloatOps F] (d : Dev nD) (L : grid1.Coords)

/-- Slot 0 before point p: weights and rows as they are, the result slot right on the points below p. -/
def ptInv0 (fw : Buf (Elt F) ((wSlot0).view.loc (V d (cV L) (jV L)))) (fr : Buf (Elt F) ((rSlot0).view.loc (V d (cV L) (jV L))))
    (p : ℕ) (_ : Unit) : sProp 𝕄 :=
  iprop(((wSlot0).view.loc (V d (cV L) (jV L)) ↦[(wSlot0).view.set]{fullShare} fw)
    ∗ ((rSlot0).view.loc (V d (cV L) (jV L)) ↦[(rSlot0).view.set]{fullShare} fr)
    ∗ ∃ fo : Buf (Elt F) ((oSlot0).view.loc (V d (cV L) (jV L))),
        ((oSlot0).view.loc (V d (cV L) (jV L)) ↦[(oSlot0).view.set]{fullShare} fo)
        ∗ ⌜∀ (q : Fin 16) (col : Fin 128), q.val < p → fo (ix3 (0 : Fin 4) q col) = ptOut (F := F) fw fr (ix3 (0 : Fin 4) q col)⌝)

/-- Slot 1 before point p: weights and rows as they are, the result slot right on the points below p. -/
def ptInv1 (fw : Buf (Elt F) ((wSlot1).view.loc (V d (cV L) (jV L)))) (fr : Buf (Elt F) ((rSlot1).view.loc (V d (cV L) (jV L))))
    (p : ℕ) (_ : Unit) : sProp 𝕄 :=
  iprop(((wSlot1).view.loc (V d (cV L) (jV L)) ↦[(wSlot1).view.set]{fullShare} fw)
    ∗ ((rSlot1).view.loc (V d (cV L) (jV L)) ↦[(rSlot1).view.set]{fullShare} fr)
    ∗ ∃ fo : Buf (Elt F) ((oSlot1).view.loc (V d (cV L) (jV L))),
        ((oSlot1).view.loc (V d (cV L) (jV L)) ↦[(oSlot1).view.set]{fullShare} fo)
        ∗ ⌜∀ (q : Fin 16) (col : Fin 128), q.val < p → fo (ix3 (1 : Fin 4) q col) = ptOut (F := F) fw fr (ix3 (1 : Fin 4) q col)⌝)

/-- Slot 2 before point p: weights and rows as they are, the result slot right on the points below p. -/
def ptInv2 (fw : Buf (Elt F) ((wSlot2).view.loc (V d (cV L) (jV L)))) (fr : Buf (Elt F) ((rSlot2).view.loc (V d (cV L) (jV L))))
    (p : ℕ) (_ : Unit) : sProp 𝕄 :=
  iprop(((wSlot2).view.loc (V d (cV L) (jV L)) ↦[(wSlot2).view.set]{fullShare} fw)
    ∗ ((rSlot2).view.loc (V d (cV L) (jV L)) ↦[(rSlot2).view.set]{fullShare} fr)
    ∗ ∃ fo : Buf (Elt F) ((oSlot2).view.loc (V d (cV L) (jV L))),
        ((oSlot2).view.loc (V d (cV L) (jV L)) ↦[(oSlot2).view.set]{fullShare} fo)
        ∗ ⌜∀ (q : Fin 16) (col : Fin 128), q.val < p → fo (ix3 (2 : Fin 4) q col) = ptOut (F := F) fw fr (ix3 (2 : Fin 4) q col)⌝)

/-- Slot 3 before point p: weights and rows as they are, the result slot right on the points below p. -/
def ptInv3 (fw : Buf (Elt F) ((wSlot3).view.loc (V d (cV L) (jV L)))) (fr : Buf (Elt F) ((rSlot3).view.loc (V d (cV L) (jV L))))
    (p : ℕ) (_ : Unit) : sProp 𝕄 :=
  iprop(((wSlot3).view.loc (V d (cV L) (jV L)) ↦[(wSlot3).view.set]{fullShare} fw)
    ∗ ((rSlot3).view.loc (V d (cV L) (jV L)) ↦[(rSlot3).view.set]{fullShare} fr)
    ∗ ∃ fo : Buf (Elt F) ((oSlot3).view.loc (V d (cV L) (jV L))),
        ((oSlot3).view.loc (V d (cV L) (jV L)) ↦[(oSlot3).view.set]{fullShare} fo)
        ∗ ⌜∀ (q : Fin 16) (col : Fin 128), q.val < p → fo (ix3 (3 : Fin 4) q col) = ptOut (F := F) fw fr (ix3 (3 : Fin 4) q col)⌝)

end Inv

end Cert.Proof.KI

end
-- ==== Proof.KI.TileCut.lean ====
/-
  The cuts inside one worker's part of the SparseCore call's arrays.

  Worker w owns rows 512·w … 512·w + 511 of the weights and of the result. Those 512 rows are thirty-two chunks of sixteen
  rows, chunk ch being rows 512·w + 16·ch … 512·w + 16·ch + 15 at every column: the chunks are pairwise disjoint (their
  row ranges do not meet) and cover the worker's rows (row r lies in chunk (r − 512·w) / 16), so what a worker holds of
  the weights, or of the result, is the separating product of what it holds chunk by chunk.

  The tile at grid coordinates L = (core, subcore) is worker 2·subcore + core. The body addresses its block of row numbers
  and its chunks through offsets it computes from L, the group-loop trip g and the ring slot; in closed form these are
  the first coordinate 2·subcore + core of the row-number array, and row 1024·subcore + 512·core + 16·ch of the weights
  or the result for chunk ch = r (the first four weight copies), 4·g + 4 + b (the weight copy started in slot b of trip g),
  4·g + r (the result copy of slot r of trip g) and 0 (the stand-in slices of the waits). So each slice the body forms
  covers exactly the worker's block of row numbers, or exactly one chunk.

  The group loop's conditions in closed form: a previous result copy is waited for from the second trip on (0 < g), and
  a next chunk is started while one remains (g + 1 < 8).
-/
import proofs.«209143_g59700045415095_cont_9to1_m_37_38_alg».proof.Proof.KI.Common
import proofs.«209143_g59700045415095_cont_9to1_m_37_38_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The worker of a tile, the chunks of a worker -/

theorem wL_lt (L : grid1.Coords) : 2 * (L 1).val + (L 0).val < 32 := by
  have h0 : (L 0).val < 2 := (L 0).isLt
  have h1 : (L 1).val < 16 := (L 1).isLt
  omega

/-- The worker a tile at grid coordinates L is: 2·subcore + core. -/
def wL (L : grid1.Coords) : Fin 32 := ⟨2 * (L 1).val + (L 0).val, wL_lt L⟩

theorem wL_val (L : grid1.Coords) : (wL L).val = 2 * (L 1).val + (L 0).val := rfl

theorem chunk_inb (w ch : Fin 32) :
    ∀ a, (![512 * w.val + 16 * ch.val, 0] : Fin 2 → ℕ) a + S16x128.size a ≤ S16384x128.size a := by
  have hw := w.isLt
  have hc := ch.isLt
  intro a
  fin_cases a
  · show 512 * w.val + 16 * ch.val + 16 ≤ 16384
    omega
  · show 0 + 128 ≤ 128
    omega

/-- Chunk ch of worker w: the sixteen rows 512·w + 16·ch … 512·w + 16·ch + 15, every column. -/
abbrev chunkR (w ch : Fin 32) : Rect S16384x128 :=
  Rect.unit (s := S16384x128) ![512 * w.val + 16 * ch.val, 0] S16x128.size (chunk_inb w ch)
abbrev chunk (w ch : Fin 32) : Finset S16384x128.Idx := (chunkR w ch).set

theorem mem_chunk (w ch : Fin 32) (i : S16384x128.Idx) :
    i ∈ chunk w ch ↔ 512 * w.val + 16 * ch.val ≤ (i 0).val ∧ (i 0).val < 512 * w.val + 16 * ch.val + 16 := by
  unfold chunk chunkR
  rw [Rect.mem_set_unit, Fin.forall_fin_two]
  have h1 : (i 1).val < 128 := (i 1).isLt
  constructor
  · rintro ⟨h, -⟩; exact h
  · intro h; exact ⟨h, Nat.zero_le _, by show (i 1).val < 0 + 128; omega⟩

theorem pSet_rect (w : Fin 32) : pSet w = (pblk w).set := by
  show ((View.whole (main_v5_scv : Ref sig .scVector)).slice (pblk w)).set = _
  rw [View.set_slice_whole]

theorem mem_pSet (w : Fin 32) (i : S16384x128.Idx) :
    i ∈ pSet w ↔ 512 * w.val ≤ (i 0).val ∧ (i 0).val < 512 * w.val + 512 := by
  rw [pSet_rect]
  unfold pblk Rect.part Rect.block
  rw [Rect.mem_set_unit, Fin.forall_fin_two]
  have h1 : (i 1).val < 128 := (i 1).isLt
  have e0 : S16384x128.partIx 0 w.val 0 * S16384x128.partSize 0 32 0 = 512 * w.val := by
    simp [Shape.partIx, Shape.partSize]; omega
  have s0 : S16384x128.partSize 0 32 0 = 512 := by simp [Shape.partSize]
  have e1 : S16384x128.partIx 0 w.val 1 * S16384x128.partSize 0 32 1 = 0 := by
    simp [Shape.partIx, Shape.partSize]
  have s1 : S16384x128.partSize 0 32 1 = 128 := by simp [Shape.partSize]
  rw [e0, s0, e1, s1]
  constructor
  · rintro ⟨h, -⟩; exact h
  · intro h; exact ⟨h, Nat.zero_le _, by omega⟩

/-- Different chunks of one worker share no row. -/
theorem chunk_disjoint (w : Fin 32) :
    ∀ i ∈ (Finset.univ : Finset (Fin 32)), ∀ j ∈ (Finset.univ : Finset (Fin 32)), i ≠ j → Disjoint (chunk w i) (chunk w j) := by
  intro i _ j _ h
  have hne : i.val ≠ j.val := fun e => h (Fin.ext e)
  refine Rect.unit_disjoint (0 : Fin 2) ?_
  show 512 * w.val + 16 * i.val + 16 ≤ 512 * w.val + 16 * j.val ∨ 512 * w.val + 16 * j.val + 16 ≤ 512 * w.val + 16 * i.val
  omega

/-- The thirty-two chunks of a worker are its 512 rows. -/
theorem chunk_cover (w : Fin 32) : (Finset.univ : Finset (Fin 32)).biUnion (chunk w) = pSet w := by
  ext i
  rw [mem_pSet]
  simp only [Finset.mem_biUnion, Finset.mem_univ, true_and, mem_chunk]
  constructor
  · rintro ⟨ch, h1, h2⟩
    have := ch.isLt
    omega
  · rintro ⟨h1, h2⟩
    exact ⟨⟨((i 0).val - 512 * w.val) / 16, by omega⟩, by show 512 * w.val + 16 * (((i 0).val - 512 * w.val) / 16) ≤ _; omega,
      by show _ < 512 * w.val + 16 * (((i 0).val - 512 * w.val) / 16) + 16; omega⟩

/-! ## A worker's rows of the weights and of the result, chunk by chunk -/

theorem w_chunks (d : Dev nD) (w : Fin 32) (q : PosShare TreeShare) (f : Buf (Elt F) (wLoc d)) :
    (wLoc d ↦[pSet w]{q} f : sProp 𝕄) = bigSep Finset.univ fun ch : Fin 32 => wLoc d ↦[chunk w ch]{q} f := by
  rw [← pointsTo_biUnion Finset.univ (ℓ := wLoc d) (chunk w) (chunk_disjoint w), chunk_cover]; try rfl

theorem out_chunks (d : Dev nD) (w : Fin 32) (q : PosShare TreeShare) (f : Buf (Elt F) (outLoc d)) :
    (outLoc d ↦[pSet w]{q} f : sProp 𝕄) = bigSep Finset.univ fun ch : Fin 32 => outLoc d ↦[chunk w ch]{q} f := by
  rw [← pointsTo_biUnion Finset.univ (ℓ := outLoc d) (chunk w) (chunk_disjoint w), chunk_cover]; try rfl

/-- A chunk of a worker lies in the worker's rows. -/
theorem chunk_subset (w ch : Fin 32) : chunk w ch ⊆ pSet w := by
  intro i hi
  rw [mem_chunk] at hi
  rw [mem_pSet]
  have := ch.isLt
  omega

/-! ## The group loop's conditions in closed form -/

theorem trips_le (g : Fin k1_t1_loop.trips) : g.val < 8 := lt_of_lt_of_le g.isLt k1_t1_abs.2.1

theorem cond1_iff : ∀ g : Fin k1_t1_loop.trips, k1_cond1 g = 1#1 ↔ 0 < g.val := by decide +kernel
theorem cond3_iff : ∀ g : Fin k1_t1_loop.trips, k1_cond3 g = 1#1 ↔ 0 < g.val := by decide +kernel
theorem cond5_iff : ∀ g : Fin k1_t1_loop.trips, k1_cond5 g = 1#1 ↔ 0 < g.val := by decide +kernel
theorem cond7_iff : ∀ g : Fin k1_t1_loop.trips, k1_cond7 g = 1#1 ↔ 0 < g.val := by decide +kernel
theorem cond2_iff : ∀ g : Fin k1_t1_loop.trips, k1_cond2 g = 1#1 ↔ g.val + 1 < 8 := by decide +kernel
theorem cond4_iff : ∀ g : Fin k1_t1_loop.trips, k1_cond4 g = 1#1 ↔ g.val + 1 < 8 := by decide +kernel
theorem cond6_iff : ∀ g : Fin k1_t1_loop.trips, k1_cond6 g = 1#1 ↔ g.val + 1 < 8 := by decide +kernel
theorem cond8_iff : ∀ g : Fin k1_t1_loop.trips, k1_cond8 g = 1#1 ↔ g.val + 1 < 8 := by decide +kernel

/-! ## The row numbers: a worker's block as the body slices it -/

abbrev iRectK (L : grid1.Coords) : Rect S32x32x128 :=
  Rect.unit (s := S32x32x128) (k1_off1 L) S1x32x128.size (k1_off1_inb L)
abbrev iRowK (L : grid1.Coords) : Memref sig .scVector .hbm S32x128 .i32 :=
  ((idxV).slice (iRectK L) (fun _ => rfl)).squeeze S32x128 squeezes_S1x32x128_S32x128

theorem iRectK_eq (L : grid1.Coords) : iRectK L = iblk (wL L) := by
  unfold iRectK iblk Rect.part Rect.block
  congr 1 <;> funext a
  · rw [k1_off1_eq]
    fin_cases a <;> simp [Shape.partIx, Shape.partSize, wL]
  · fin_cases a <;> simp [Shape.partSize]

theorem set_iRowK (L : grid1.Coords) : (iRowK L).view.set = iSet (wL L) := by
  show (((idxV).view.slice (iRectK L)).reshape S32x128 squeezes_S1x32x128_S32x128.numel_eq).set
    = ((idxV).view.slice (iblk (wL L))).set
  rw [View.set_reshape]
  exact iRectK_eq L ▸ rfl

/-! ## The weights and the result: a chunk as the body slices it -/

theorem vec2_congr {a b : ℕ} (h : a = b) : (![a, 0] : Fin 2 → ℕ) = ![b, 0] := by rw [h]

theorem unit_set_chunk {off : Fin 2 → ℕ} (inb : ∀ a, off a + S16x128.size a ≤ S16384x128.size a) (w ch : Fin 32)
    (h : off = ![512 * w.val + 16 * ch.val, 0]) :
    (Rect.unit (s := S16384x128) off S16x128.size inb).set = chunk w ch := by
  subst h; rfl

/-- A sixteen-row slice of the weights at the rows of chunk ch of worker w is that chunk. -/
theorem set_wSlice {off : Fin 2 → ℕ} (inb : ∀ a, off a + S16x128.size a ≤ S16384x128.size a)
    (hs : ∀ a, (Rect.unit (s := S16384x128) off S16x128.size inb).stride a = 1) (w ch : Fin 32)
    (h : off = ![512 * w.val + 16 * ch.val, 0]) :
    ((wV).slice (Rect.unit (s := S16384x128) off S16x128.size inb) hs).view.set = chunk w ch := by
  show ((View.whole (main_v5_scv : Ref sig .scVector)).slice (Rect.unit (s := S16384x128) off S16x128.size inb)).set = _
  rw [View.set_slice_whole]
  exact unit_set_chunk inb w ch h

/-- The same of the result array. -/
theorem set_oSlice {off : Fin 2 → ℕ} (inb : ∀ a, off a + S16x128.size a ≤ S16384x128.size a)
    (hs : ∀ a, (Rect.unit (s := S16384x128) off S16x128.size inb).stride a = 1) (w ch : Fin 32)
    (h : off = ![512 * w.val + 16 * ch.val, 0]) :
    ((outV).slice (Rect.unit (s := S16384x128) off S16x128.size inb) hs).view.set = chunk w ch := by
  show ((View.whole (main_v6_scv : Ref sig .scVector)).slice (Rect.unit (s := S16384x128) off S16x128.size inb)).set = _
  rw [View.set_slice_whole]
  exact unit_set_chunk inb w ch h

/-! ### The offsets the body computes, as worker and chunk -/

/-- The prologue's four weight copies: chunk r. -/
theorem off2_chunk (L : grid1.Coords) (r : Fin 4) (ch : Fin 32) (hch : ch.val = r.val) :
    k1_off2 L (BitVec.ofNat 32 (16 * r.val)) = ![512 * (wL L).val + 16 * ch.val, 0] := by
  rw [k1_off2_eq, hch, wL_val]; exact vec2_congr (by omega)

/-- The waits' stand-in slices: chunk 0. -/
theorem off3_chunk (L : grid1.Coords) (ch : Fin 32) (hch : ch.val = 0) : k1_off3 L = ![512 * (wL L).val + 16 * ch.val, 0] := by
  rw [k1_off3_eq, hch, wL_val]; exact vec2_congr (by omega)
theorem off4_chunk (L : grid1.Coords) (ch : Fin 32) (hch : ch.val = 0) : k1_off4 L = ![512 * (wL L).val + 16 * ch.val, 0] := by
  rw [k1_off4_eq, hch, wL_val]; exact vec2_congr (by omega)
theorem off24_chunk (L : grid1.Coords) (ch : Fin 32) (hch : ch.val = 0) : k1_off24 L = ![512 * (wL L).val + 16 * ch.val, 0] := by
  rw [k1_off24_eq, hch, wL_val]; exact vec2_congr (by omega)
theorem off43_chunk (L : grid1.Coords) (ch : Fin 32) (hch : ch.val = 0) : k1_off43 L = ![512 * (wL L).val + 16 * ch.val, 0] := by
  rw [k1_off43_eq, hch, wL_val]; exact vec2_congr (by omega)
theorem off62_chunk (L : grid1.Coords) (ch : Fin 32) (hch : ch.val = 0) : k1_off62 L = ![512 * (wL L).val + 16 * ch.val, 0] := by
  rw [k1_off62_eq, hch, wL_val]; exact vec2_congr (by omega)
theorem off81_chunk (L : grid1.Coords) (ch : Fin 32) (hch : ch.val = 0) : k1_off81 L = ![512 * (wL L).val + 16 * ch.val, 0] := by
  rw [k1_off81_eq, hch, wL_val]; exact vec2_congr (by omega)

/-- The group loop's next weight copies, slot b of trip g: chunk 4·g + 4 + b. -/
theorem off22_chunk (L : grid1.Coords) (g : Fin k1_t1_loop.trips) (ch : Fin 32) (hch : ch.val = 4 * g.val + 4) :
    k1_off22 L g = ![512 * (wL L).val + 16 * ch.val, 0] := by
  rw [k1_off22_eq, hch, wL_val]; exact vec2_congr (by omega)
theorem off42_chunk (L : grid1.Coords) (g : Fin k1_t1_loop.trips) (ch : Fin 32) (hch : ch.val = 4 * g.val + 5) :
    k1_off42 L g = ![512 * (wL L).val + 16 * ch.val, 0] := by
  rw [k1_off42_eq, hch, wL_val]; exact vec2_congr (by omega)
theorem off61_chunk (L : grid1.Coords) (g : Fin k1_t1_loop.trips) (ch : Fin 32) (hch : ch.val = 4 * g.val + 6) :
    k1_off61 L g = ![512 * (wL L).val + 16 * ch.val, 0] := by
  rw [k1_off61_eq, hch, wL_val]; exact vec2_congr (by omega)
theorem off80_chunk (L : grid1.Coords) (g : Fin k1_t1_loop.trips) (ch : Fin 32) (hch : ch.val = 4 * g.val + 7) :
    k1_off80 L g = ![512 * (wL L).val + 16 * ch.val, 0] := by
  rw [k1_off80_eq, hch, wL_val]; exact vec2_congr (by omega)

/-- The group loop's result copies, slot r of trip g: chunk 4·g + r. -/
theorem off23_chunk (L : grid1.Coords) (g : Fin k1_t1_loop.trips) (r : Fin 4) (ch : Fin 32) (hch : ch.val = 4 * g.val + r.val) :
    k1_off23 L g (BitVec.ofNat 32 r.val) = ![512 * (wL L).val + 16 * ch.val, 0] := by
  rw [k1_off23_eq, hch, wL_val]; exact vec2_congr (by omega)

theorem wL_eq_widOf (L : grid1.Coords) (c : Fin 2) (s : Fin 16) (hc : (L 0).val = c.val) (hs : (L 1).val = s.val) :
    wL L = widOf c s := Fin.ext (by show 2 * (L 1).val + (L 0).val = 2 * s.val + c.val; omega)

/-! ### The body's own slices of the weights -/

theorem set_w_off2 (L : grid1.Coords) (r : Fin 4) (ch : Fin 32) (hch : ch.val = r.val) :
    ((wV).slice (Rect.unit (s := S16384x128) (k1_off2 L (BitVec.ofNat 32 (16 * r.val))) S16x128.size (k1_off2_inb L r)) (fun _ => rfl)).view.set
      = chunk (wL L) ch :=
  set_wSlice _ _ _ _ (off2_chunk L r ch hch)
theorem set_w_off2_0 (L : grid1.Coords) (ch : Fin 32) (hch : ch.val = 0) :
    ((wV).slice (Rect.unit (s := S16384x128) (k1_off2 L 0#32) S16x128.size (k1_off2_inb L 0)) (fun _ => rfl)).view.set = chunk (wL L) ch :=
  set_w_off2 L 0 ch hch
theorem set_w_off2_1 (L : grid1.Coords) (ch : Fin 32) (hch : ch.val = 1) :
    ((wV).slice (Rect.unit (s := S16384x128) (k1_off2 L 16#32) S16x128.size (k1_off2_inb L 1)) (fun _ => rfl)).view.set = chunk (wL L) ch :=
  set_w_off2 L 1 ch hch
theorem set_w_off2_2 (L : grid1.Coords) (ch : Fin 32) (hch : ch.val = 2) :
    ((wV).slice (Rect.unit (s := S16384x128) (k1_off2 L 32#32) S16x128.size (k1_off2_inb L 2)) (fun _ => rfl)).view.set = chunk (wL L) ch :=
  set_w_off2 L 2 ch hch
theorem set_w_off2_3 (L : grid1.Coords) (ch : Fin 32) (hch : ch.val = 3) :
    ((wV).slice (Rect.unit (s := S16384x128) (k1_off2 L 48#32) S16x128.size (k1_off2_inb L 3)) (fun _ => rfl)).view.set = chunk (wL L) ch :=
  set_w_off2 L 3 ch hch

theorem set_w_off3 (L : grid1.Coords) (ch : Fin 32) (hch : ch.val = 0) :
    ((wV).slice (Rect.unit (s := S16384x128) (k1_off3 L) S16x128.size (k1_off3_inb L)) (fun _ => rfl)).view.set = chunk (wL L) ch :=
  set_wSlice _ _ _ _ (off3_chunk L ch hch)

theorem set_w_off22 (L : grid1.Coords) (g : Fin k1_t1_loop.trips) (h2 : k1_cond2 g = 1#1) (ch : Fin 32) (hch : ch.val = 4 * g.val + 4) :
    ((wV).slice (Rect.unit (s := S16384x128) (k1_off22 L g) S16x128.size (k1_off22_inb L g h2)) (fun _ => rfl)).view.set = chunk (wL L) ch :=
  set_wSlice _ _ _ _ (off22_chunk L g ch hch)
theorem set_w_off42 (L : grid1.Coords) (g : Fin k1_t1_loop.trips) (h4 : k1_cond4 g = 1#1) (ch : Fin 32) (hch : ch.val = 4 * g.val + 5) :
    ((wV).slice (Rect.unit (s := S16384x128) (k1_off42 L g) S16x128.size (k1_off42_inb L g h4)) (fun _ => rfl)).view.set = chunk (wL L) ch :=
  set_wSlice _ _ _ _ (off42_chunk L g ch hch)
theorem set_w_off61 (L : grid1.Coords) (g : Fin k1_t1_loop.trips) (h6 : k1_cond6 g = 1#1) (ch : Fin 32) (hch : ch.val = 4 * g.val + 6) :
    ((wV).slice (Rect.unit (s := S16384x128) (k1_off61 L g) S16x128.size (k1_off61_inb L g h6)) (fun _ => rfl)).view.set = chunk (wL L) ch :=
  set_wSlice _ _ _ _ (off61_chunk L g ch hch)
theorem set_w_off80 (L : grid1.Coords) (g : Fin k1_t1_loop.trips) (h8 : k1_cond8 g = 1#1) (ch : Fin 32) (hch : ch.val = 4 * g.val + 7) :
    ((wV).slice (Rect.unit (s := S16384x128) (k1_off80 L g) S16x128.size (k1_off80_inb L g h8)) (fun _ => rfl)).view.set = chunk (wL L) ch :=
  set_wSlice _ _ _ _ (off80_chunk L g ch hch)

/-! ### The body's own slices of the result -/

theorem set_o_off23 (L : grid1.Coords) (g : Fin k1_t1_loop.trips) (r : Fin 4) (ch : Fin 32) (hch : ch.val = 4 * g.val + r.val) :
    ((outV).slice (Rect.unit (s := S16384x128) (k1_off23 L g (BitVec.ofNat 32 r.val)) S16x128.size (k1_off23_inb L g r)) (fun _ => rfl)).view.set
      = chunk (wL L) ch :=
  set_oSlice _ _ _ _ (off23_chunk L g r ch hch)
theorem set_o_off23_0 (L : grid1.Coords) (g : Fin k1_t1_loop.trips) (ch : Fin 32) (hch : ch.val = 4 * g.val) :
    ((outV).slice (Rect.unit (s := S16384x128) (k1_off23 L g 0#32) S16x128.size (k1_off23_inb L g 0)) (fun _ => rfl)).view.set = chunk (wL L) ch :=
  set_o_off23 L g 0 ch hch
theorem set_o_off23_1 (L : grid1.Coords) (g : Fin k1_t1_loop.trips) (ch : Fin 32) (hch : ch.val = 4 * g.val + 1) :
    ((outV).slice (Rect.unit (s := S16384x128) (k1_off23 L g 1#32) S16x128.size (k1_off23_inb L g 1)) (fun _ => rfl)).view.set = chunk (wL L) ch :=
  set_o_off23 L g 1 ch hch
theorem set_o_off23_2 (L : grid1.Coords) (g : Fin k1_t1_loop.trips) (ch : Fin 32) (hch : ch.val = 4 * g.val + 2) :
    ((outV).slice (Rect.unit (s := S16384x128) (k1_off23 L g 2#32) S16x128.size (k1_off23_inb L g 2)) (fun _ => rfl)).view.set = chunk (wL L) ch :=
  set_o_off23 L g 2 ch hch
theorem set_o_off23_3 (L : grid1.Coords) (g : Fin k1_t1_loop.trips) (ch : Fin 32) (hch : ch.val = 4 * g.val + 3) :
    ((outV).slice (Rect.unit (s := S16384x128) (k1_off23 L g 3#32) S16x128.size (k1_off23_inb L g 3)) (fun _ => rfl)).view.set = chunk (wL L) ch :=
  set_o_off23 L g 3 ch hch

theorem set_o_off4 (L : grid1.Coords) (g : Fin k1_t1_loop.trips) (h1 : k1_cond1 g = 1#1) (ch : Fin 32) (hch : ch.val = 0) :
    ((outV).slice (Rect.unit (s := S16384x128) (k1_off4 L) S16x128.size (k1_off4_inb L g h1)) (fun _ => rfl)).view.set = chunk (wL L) ch :=
  set_oSlice _ _ _ _ (off4_chunk L ch hch)
theorem set_o_off24 (L : grid1.Coords) (g : Fin k1_t1_loop.trips) (h3 : k1_cond3 g = 1#1) (ch : Fin 32) (hch : ch.val = 0) :
    ((outV).slice (Rect.unit (s := S16384x128) (k1_off24 L) S16x128.size (k1_off24_inb L g h3)) (fun _ => rfl)).view.set = chunk (wL L) ch :=
  set_oSlice _ _ _ _ (off24_chunk L ch hch)
theorem set_o_off43 (L : grid1.Coords) (g : Fin k1_t1_loop.trips) (h5 : k1_cond5 g = 1#1) (ch : Fin 32) (hch : ch.val = 0) :
    ((outV).slice (Rect.unit (s := S16384x128) (k1_off43 L) S16x128.size (k1_off43_inb L g h5)) (fun _ => rfl)).view.set = chunk (wL L) ch :=
  set_oSlice _ _ _ _ (off43_chunk L ch hch)
theorem set_o_off62 (L : grid1.Coords) (g : Fin k1_t1_loop.trips) (h7 : k1_cond7 g = 1#1) (ch : Fin 32) (hch : ch.val = 0) :
    ((outV).slice (Rect.unit (s := S16384x128) (k1_off62 L) S16x128.size (k1_off62_inb L g h7)) (fun _ => rfl)).view.set = chunk (wL L) ch :=
  set_oSlice _ _ _ _ (off62_chunk L ch hch)
theorem set_o_off81 (L : grid1.Coords) (ch : Fin 32) (hch : ch.val = 0) :
    ((outV).slice (Rect.unit (s := S16384x128) (k1_off81 L) S16x128.size (k1_off81_inb L)) (fun _ => rfl)).view.set = chunk (wL L) ch :=
  set_oSlice _ _ _ _ (off81_chunk L ch hch)

/-! ## The same as points-to facts, at any vector subcore of the device -/

theorem pts_iRowK (d : Dev nD) (c : Fin τ.nSC) (j : Fin τ.nSub) (L : grid1.Coords) (q : PosShare TreeShare) (f : Buf (Elt F) (idxLoc d)) :
    ((iRowK L).view.loc (V d c j) ↦[(iRowK L).view.set]{q} f : sProp 𝕄) = idxLoc d ↦[iSet (wL L)]{q} f := by
  rw [set_iRowK]

theorem pts_wSlice (d : Dev nD) (c : Fin τ.nSC) (j : Fin τ.nSub) {off : Fin 2 → ℕ}
    (inb : ∀ a, off a + S16x128.size a ≤ S16384x128.size a)
    (hs : ∀ a, (Rect.unit (s := S16384x128) off S16x128.size inb).stride a = 1) (w ch : Fin 32)
    (h : off = ![512 * w.val + 16 * ch.val, 0]) (q : PosShare TreeShare) (f : Buf (Elt F) (wLoc d)) :
    (((wV).slice (Rect.unit (s := S16384x128) off S16x128.size inb) hs).view.loc (V d c j)
        ↦[((wV).slice (Rect.unit (s := S16384x128) off S16x128.size inb) hs).view.set]{q} f : sProp 𝕄)
      = wLoc d ↦[chunk w ch]{q} f := by
  rw [set_wSlice inb hs w ch h]

theorem pts_oSlice (d : Dev nD) (c : Fin τ.nSC) (j : Fin τ.nSub) {off : Fin 2 → ℕ}
    (inb : ∀ a, off a + S16x128.size a ≤ S16384x128.size a)
    (hs : ∀ a, (Rect.unit (s := S16384x128) off S16x128.size inb).stride a = 1) (w ch : Fin 32)
    (h : off = ![512 * w.val + 16 * ch.val, 0]) (q : PosShare TreeShare) (f : Buf (Elt F) (outLoc d)) :
    (((outV).slice (Rect.unit (s := S16384x128) off S16x128.size inb) hs).view.loc (V d c j)
        ↦[((outV).slice (Rect.unit (s := S16384x128) off S16x128.size inb) hs).view.set]{q} f : sProp 𝕄)
      = outLoc d ↦[chunk w ch]{q} f := by
  rw [set_oSlice inb hs w ch h]

end Cert.Proof.KI

end
-- ==== Proof.KI.TileInv.lean ====
/-
  The pieces a vector subcore's task moves, numbered by chunk: row n of its row-number scratch, chunk n (sixteen points)
  of its weights and of its rows of the result, each held by exactly the elements the task's own slice of the array
  names (the number read modulo thirty-two, so that every number names a piece); a run of consecutive pieces side by
  side, from which the next one is taken and to which one is added; the four read tokens of the table, one per gather
  semaphore; and what the task holds before and after, cut that way.
-/
import proofs.«209143_g59700045415095_cont_9to1_m_37_38_alg».proof.Proof.KI.TileCut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Pieces of the arrays as the task addresses them -/

section Pieces
variable (d : Dev nD) (L : grid1.Coords)

theorem L0_lt : (L 0).val < 2 := (L 0).isLt
theorem L1_lt : (L 1).val < 16 := (L 1).isLt

theorem mod32_lt (n : ℕ) : n % 32 < 32 := Nat.mod_lt n (by decide)

abbrev rowOff (n : ℕ) : Fin 2 → Nat := ![n, 0]
theorem rowOff_inb {n : ℕ} (h : n < 32) : ∀ a, rowOff n a + S1x128.size a ≤ S32x128.size a := by
  intro a; match a with
  | 0 => show n + 1 ≤ 32; omega
  | 1 => show 0 + 128 ≤ 128; omega
abbrev chunkOff (n : ℕ) : Fin 2 → Nat := ![1024 * (L 1).val + 512 * (L 0).val + 16 * n, 0]
theorem chunkOff_inb {n : ℕ} (h : n < 32) : ∀ a, chunkOff L n a + S16x128.size a ≤ S16384x128.size a := by
  have h0 := L0_lt L; have h1 := L1_lt L
  intro a; match a with
  | 0 => show 1024 * (L 1).val + 512 * (L 0).val + 16 * n + 16 ≤ 16384; omega
  | 1 => show 0 + 128 ≤ 128; omega

abbrev ivRowAt (off : Fin 2 → Nat) (hoff : ∀ a, off a + S1x128.size a ≤ S32x128.size a) : Memref sig .scVector .vmem S128 .i32 :=
  ((ivV).slice (Rect.unit (s := S32x128) off S1x128.size hoff) (fun _ => rfl)).squeeze S128 squeezes_S1x128_S128
abbrev wChunkAt (off : Fin 2 → Nat) (hoff : ∀ a, off a + S16x128.size a ≤ S16384x128.size a) : Memref sig .scVector .hbm S16x128 .f32 :=
  (wV).slice (Rect.unit (s := S16384x128) off S16x128.size hoff) (fun _ => rfl)
abbrev oChunkAt (off : Fin 2 → Nat) (hoff : ∀ a, off a + S16x128.size a ≤ S16384x128.size a) : Memref sig .scVector .hbm S16x128 .f32 :=
  (outV).slice (Rect.unit (s := S16384x128) off S16x128.size hoff) (fun _ => rfl)
abbrev tblAll : Memref sig .scVector .hbm S262144x128 .f32 :=
  (tblV).slice (Rect.unit (s := S262144x128) ![0, 0] S262144x128.size inb_S262144x128_S262144x128_0_0) (fun _ => rfl)

theorem ivRowAt_congr {off off' : Fin 2 → Nat} (e : off = off') (h h') : ivRowAt off h = ivRowAt off' h' := by subst e; rfl
theorem wChunkAt_congr {off off' : Fin 2 → Nat} (e : off = off') (h h') : wChunkAt off h = wChunkAt off' h' := by subst e; rfl
theorem oChunkAt_congr {off off' : Fin 2 → Nat} (e : off = off') (h h') : oChunkAt off h = oChunkAt off' h' := by subst e; rfl

/-- Row n of the row-number scratch, held by its own elements. -/
def ivP (fiv : Buf (Elt F) ((ivV).view.loc (V d (cV L) (jV L)))) (n : ℕ) : sProp 𝕄 :=
  (ivRowAt (rowOff (n % 32)) (rowOff_inb (mod32_lt n))).view.loc (V d (cV L) (jV L)) ↦[(ivRowAt (rowOff (n % 32)) (rowOff_inb (mod32_lt n))).view.set]{fullShare} fiv
/-- Chunk n of the tile's weights (16 points), held by its own elements. -/
def wP (wv : Buf (Elt F) (wLoc d)) (n : ℕ) : sProp 𝕄 :=
  (wChunkAt (chunkOff L (n % 32)) (chunkOff_inb L (mod32_lt n))).view.loc (V d (cV L) (jV L)) ↦[(wChunkAt (chunkOff L (n % 32)) (chunkOff_inb L (mod32_lt n))).view.set]{fullShare} wv
/-- Chunk n of the tile's rows of the result, held by its own elements. -/
def oP (f : Buf (Elt F) (outLoc d)) (n : ℕ) : sProp 𝕄 :=
  (oChunkAt (chunkOff L (n % 32)) (chunkOff_inb L (mod32_lt n))).view.loc (V d (cV L) (jV L)) ↦[(oChunkAt (chunkOff L (n % 32)) (chunkOff_inb L (mod32_lt n))).view.set]{fullShare} f

/-- The pieces numbered lo … hi - 1, side by side. -/
def homes (P : ℕ → sProp 𝕄) (lo hi : ℕ) : sProp 𝕄 := bigSep (Finset.Ico lo hi) P

theorem homes_pop (P : ℕ → sProp 𝕄) {lo hi : ℕ} (h : lo < hi) : homes P lo hi = iprop(P lo ∗ homes P (lo + 1) hi) := by
  unfold homes
  rw [← Finset.insert_Ico_add_one_left_eq_Ico h, bigSep_insert (by simp)]; rfl
theorem homes_push (P : ℕ → sProp 𝕄) {lo hi : ℕ} (h : lo ≤ hi) : homes P lo (hi + 1) = iprop(P hi ∗ homes P lo hi) := by
  unfold homes
  rw [← Finset.insert_Ico_right_eq_Ico_add_one h, bigSep_insert (by simp)]; rfl
theorem homes_nil (P : ℕ → sProp 𝕄) {lo hi : ℕ} (h : hi ≤ lo) : homes P lo hi = iprop(emp) := by
  unfold homes; rw [Finset.Ico_eq_empty (by omega), bigSep_empty]; rfl

end Pieces

section At
variable (d : Dev nD) (L : grid1.Coords)

theorem wOwn_congr (wv : Buf (Elt F) (wLoc d)) {off off' : Fin 2 → Nat} (e : off = off') (h h') :
    (((wChunkAt off h).view.loc (V d (cV L) (jV L)) ↦[(wChunkAt off h).view.set]{fullShare} wv) : sProp 𝕄) = ((wChunkAt off' h').view.loc (V d (cV L) (jV L)) ↦[(wChunkAt off' h').view.set]{fullShare} wv) := by subst e; rfl
theorem oOwn_congr (f : Buf (Elt F) (outLoc d)) {off off' : Fin 2 → Nat} (e : off = off') (h h') :
    (((oChunkAt off h).view.loc (V d (cV L) (jV L)) ↦[(oChunkAt off h).view.set]{fullShare} f) : sProp 𝕄) = ((oChunkAt off' h').view.loc (V d (cV L) (jV L)) ↦[(oChunkAt off' h').view.set]{fullShare} f) := by subst e; rfl
theorem ivOwn_congr (fiv : Buf (Elt F) ((ivV).view.loc (V d (cV L) (jV L)))) {off off' : Fin 2 → Nat} (e : off = off') (h h') :
    (((ivRowAt off h).view.loc (V d (cV L) (jV L)) ↦[(ivRowAt off h).view.set]{fullShare} fiv) : sProp 𝕄) = ((ivRowAt off' h').view.loc (V d (cV L) (jV L)) ↦[(ivRowAt off' h').view.set]{fullShare} fiv) := by subst e; rfl

theorem wP_at (wv : Buf (Elt F) (wLoc d)) {n : ℕ} (h : n < 32) (off : Fin 2 → Nat) (hoff) (e : off = chunkOff L n) :
    wP d L wv n = ((wChunkAt off hoff).view.loc (V d (cV L) (jV L)) ↦[(wChunkAt off hoff).view.set]{fullShare} wv) :=
  wOwn_congr d L wv (show chunkOff L (n % 32) = off by rw [Nat.mod_eq_of_lt h, e]) _ hoff
theorem oP_at (f : Buf (Elt F) (outLoc d)) {n : ℕ} (h : n < 32) (off : Fin 2 → Nat) (hoff) (e : off = chunkOff L n) :
    oP d L f n = ((oChunkAt off hoff).view.loc (V d (cV L) (jV L)) ↦[(oChunkAt off hoff).view.set]{fullShare} f) :=
  oOwn_congr d L f (show chunkOff L (n % 32) = off by rw [Nat.mod_eq_of_lt h, e]) _ hoff
theorem ivP_at (fiv : Buf (Elt F) ((ivV).view.loc (V d (cV L) (jV L)))) {n : ℕ} (h : n < 32) (off : Fin 2 → Nat) (hoff) (e : off = rowOff n) :
    ivP d L fiv n = ((ivRowAt off hoff).view.loc (V d (cV L) (jV L)) ↦[(ivRowAt off hoff).view.set]{fullShare} fiv) :=
  ivOwn_congr d L fiv (show rowOff (n % 32) = off by rw [Nat.mod_eq_of_lt h, e]) _ hoff

end At

/-! ## What the task holds, before and after -/

section CoreIO
variable [FloatOps F] (d : Dev nD) (L : grid1.Coords)

/-- A read token of the table for the gather semaphore numbered i. -/
abbrev tblTok (q : PosShare TreeShare) (tb : Buf (Elt F) (tblLoc d)) (i : ℕ) : sProp 𝕄 :=
  (tblV).view.loc (V d (cV L) (jV L)) ↦{Transfers.shareTokN q i} tb

/-- The tile's own memory at some contents: the row-number scratch whole, the twelve slots, the thirteen semaphores at zero. -/
def tileOwn : sProp 𝕄 :=
  iprop((∃ f, ((ivV).view.loc (V d (cV L) (jV L)) ↦{fullShare} f : sProp 𝕄))
    ∗ (∃ f, ((wSlot0).view.loc (V d (cV L) (jV L)) ↦[(wSlot0).view.set]{fullShare} f)) ∗ (∃ f, ((wSlot1).view.loc (V d (cV L) (jV L)) ↦[(wSlot1).view.set]{fullShare} f)) ∗ (∃ f, ((wSlot2).view.loc (V d (cV L) (jV L)) ↦[(wSlot2).view.set]{fullShare} f)) ∗ (∃ f, ((wSlot3).view.loc (V d (cV L) (jV L)) ↦[(wSlot3).view.set]{fullShare} f))
    ∗ (∃ f, ((rSlot0).view.loc (V d (cV L) (jV L)) ↦[(rSlot0).view.set]{fullShare} f)) ∗ (∃ f, ((rSlot1).view.loc (V d (cV L) (jV L)) ↦[(rSlot1).view.set]{fullShare} f)) ∗ (∃ f, ((rSlot2).view.loc (V d (cV L) (jV L)) ↦[(rSlot2).view.set]{fullShare} f)) ∗ (∃ f, ((rSlot3).view.loc (V d (cV L) (jV L)) ↦[(rSlot3).view.set]{fullShare} f))
    ∗ (∃ f, ((oSlot0).view.loc (V d (cV L) (jV L)) ↦[(oSlot0).view.set]{fullShare} f)) ∗ (∃ f, ((oSlot1).view.loc (V d (cV L) (jV L)) ↦[(oSlot1).view.set]{fullShare} f)) ∗ (∃ f, ((oSlot2).view.loc (V d (cV L) (jV L)) ↦[(oSlot2).view.set]{fullShare} f)) ∗ (∃ f, ((oSlot3).view.loc (V d (cV L) (jV L)) ↦[(oSlot3).view.set]{fullShare} f))
    ∗ semVal ((V d (cV L) (jV L)), SemLoc.dma cc1_scratch4.sem) 0 ∗ semVal ((V d (cV L) (jV L)), SemLoc.dma cc1_scratch5.sem) 0 ∗ semVal ((V d (cV L) (jV L)), SemLoc.dma cc1_scratch6.sem) 0 ∗ semVal ((V d (cV L) (jV L)), SemLoc.dma cc1_scratch7.sem) 0 ∗ semVal ((V d (cV L) (jV L)), SemLoc.dma cc1_scratch8.sem) 0 ∗ semVal ((V d (cV L) (jV L)), SemLoc.dma cc1_scratch9.sem) 0 ∗ semVal ((V d (cV L) (jV L)), SemLoc.dma cc1_scratch10.sem) 0 ∗ semVal ((V d (cV L) (jV L)), SemLoc.dma cc1_scratch11.sem) 0 ∗ semVal ((V d (cV L) (jV L)), SemLoc.dma cc1_scratch12.sem) 0 ∗ semVal ((V d (cV L) (jV L)), SemLoc.dma cc1_scratch13.sem) 0 ∗ semVal ((V d (cV L) (jV L)), SemLoc.dma cc1_scratch14.sem) 0 ∗ semVal ((V d (cV L) (jV L)), SemLoc.dma cc1_scratch15.sem) 0 ∗ semVal ((V d (cV L) (jV L)), SemLoc.dma cc1_scoped0.sem) 0)

/-- What the task is handed, cut as it uses it: four read tokens of the table, its block of row numbers, its weights and
    its rows of the result chunk by chunk. -/
def tileIn (q : PosShare TreeShare) (tb : Buf (Elt F) (tblLoc d)) (ix : Buf (Elt F) (idxLoc d)) (wv : Buf (Elt F) (wLoc d))
    (fo : Buf (Elt F) (outLoc d)) : sProp 𝕄 :=
  iprop(tblTok d L q tb 11 ∗ tblTok d L q tb 12 ∗ tblTok d L q tb 13 ∗ tblTok d L q tb 14
    ∗ ((iRowK L).view.loc (V d (cV L) (jV L)) ↦[(iRowK L).view.set]{fullShare} ix)
    ∗ homes (wP d L wv) 0 32 ∗ homes (oP d L fo) 0 32)

end CoreIO

end Cert.Proof.KI

end
-- ==== Proof.KI.TileFl.lean ====
/-
  What the group loop of a vector subcore's task carries from trip to trip. The contents a slot holds once a chunk has
  landed, as whole-ring functions of the arrays the call was handed: a weights slot holding chunk n has the tile's
  weight rows 16·n …, a rows slot the table rows that row n of the tile's row numbers names, a result slot the point
  loop's balanced sums of those. The three kinds of copy in flight, each delivering its slot at those contents and the
  piece it was fed from; a slot's state before group k (its gather and weights copy of chunk 4·k + b in flight unless
  the loop is over, its result copy of chunk 4·(k - 1) + b in flight unless it has not begun); and the loop's invariant.
-/
import proofs.«209143_g59700045415095_cont_9to1_m_37_38_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Flights
variable [FloatOps F] (d : Dev nD) (L : grid1.Coords)

/-! ## Canonical contents and the flights the group loop carries -/

/-- The row-number scratch after the index fetch. -/
abbrev fivOf (ix : Buf (Elt F) (idxLoc d)) (fi : Buf (Elt F) ((ivV).view.loc (V d (cV L) (jV L)))) : Buf (Elt F) ((ivV).view.loc (V d (cV L) (jV L))) :=
  View.write (Elt F) (ivV).view fi (ReadAs.same.apply ((iRowK L).view.read (Elt F) ix)) Finset.univ

/-- A weights slot holding chunk n: at (slot, p, col) the tile's weight row 16·n + p. -/
def wCanF (wv : FVec F S16384x128 .f32) (n : ℕ) : FVec F S4x16x128 .f32 :=
  fun j => wv (ix2 (⟨(512 * (wL L).val + 16 * n + (j 1).val) % 16384, Nat.mod_lt _ (by decide)⟩ : Fin 16384) (j 2))
/-- A rows slot holding chunk n: at (slot, r, col) the table row that word r of row n of the tile's row numbers names. -/
def rCanF (tb : FVec F S262144x128 .f32) (ix : IVec S32x32x128 32) (n : ℕ) : FVec F S4x128x128 .f32 :=
  fun j => tb (ix2 (rowOf (ix (ix3 (wL L) (⟨n % 32, Nat.mod_lt _ (by decide)⟩ : Fin 32) (j 1)))) (j 2))
/-- A result slot holding chunk n. -/
def oCanF (tb : FVec F S262144x128 .f32) (ix : IVec S32x32x128 32) (wv : FVec F S16384x128 .f32) (n : ℕ) : FVec F S4x16x128 .f32 :=
  ptOut (F := F) (wCanF L wv n) (rCanF L tb ix n)

abbrev tblRest (q : PosShare TreeShare) (tb : Buf (Elt F) (tblLoc d)) (i : ℕ) : sProp 𝕄 :=
  (tblV).view.loc (V d (cV L) (jV L)) ↦[Finset.univ \ (tblAll).view.set]{Transfers.shareTokN q i} tb

/-- Slot 0's gather of chunk n in flight. -/
def gFl0 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch4.sem) (default : HIx 1) 524288
    iprop((((rSlot0).view.loc (V d (cV L) (jV L)) ↦[(rSlot0).view.set]{fullShare} rCanF L tb ix n) ∗ ivP d L (fivOf d L ix fi) n)
      ∗ ((tblV).view.loc (V d (cV L) (jV L)) ↦[(tblAll).view.set]{Transfers.shareTokN q 11} tb))
/-- Slot 0's weights copy of chunk n in flight. -/
def wFl0 (wv : Buf (Elt F) (wLoc d)) (n : ℕ) : sProp 𝕄 :=
  Transfers.Flight countersEmb (V d (cV L) (jV L)) (SemLoc.dma cc1_scratch8.sem) (default : HIx 1) 65536
    iprop(((wSlot0).view.loc (V d (cV L) (jV L)) ↦[(wSlot0).view.set]{fullShare} wCanF L wv n) ∗ wP d L wv n)
/-- Slot 0's result copy of chunk n in flight. -/
def oFl0 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch12.sem) (default : HIx 1) 65536
    iprop(oP d L (skip (F := F) tb ix wv) n ∗ ((oSlot0).view.loc (V d (cV L) (jV L)) ↦[(oSlot0).view.set]{fullShare} oCanF L tb ix wv n))
/-- Slot 0 before group k. -/
def slotSt0 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl0 d L q tb ix fi (4 * k + 0) ∗ tblRest d L q tb 11 ∗ wFl0 d L wv (4 * k + 0))
      else iprop(tblTok d L q tb 11 ∗ (∃ f, ((rSlot0).view.loc (V d (cV L) (jV L)) ↦[(rSlot0).view.set]{fullShare} f)) ∗ semVal ((V d (cV L) (jV L)), SemLoc.dma cc1_scratch4.sem) 0
        ∗ (∃ f, ((wSlot0).view.loc (V d (cV L) (jV L)) ↦[(wSlot0).view.set]{fullShare} f)) ∗ semVal ((V d (cV L) (jV L)), SemLoc.dma cc1_scratch8.sem) 0))
    ∗ (if k = 0 then iprop((∃ f, ((oSlot0).view.loc (V d (cV L) (jV L)) ↦[(oSlot0).view.set]{fullShare} f)) ∗ semVal ((V d (cV L) (jV L)), SemLoc.dma cc1_scratch12.sem) 0)
      else oFl0 d L tb ix wv (4 * (k - 1) + 0)))

/-- Slot 1's gather of chunk n in flight. -/
def gFl1 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch5.sem) (default : HIx 1) 524288
    iprop((((rSlot1).view.loc (V d (cV L) (jV L)) ↦[(rSlot1).view.set]{fullShare} rCanF L tb ix n) ∗ ivP d L (fivOf d L ix fi) n)
      ∗ ((tblV).view.loc (V d (cV L) (jV L)) ↦[(tblAll).view.set]{Transfers.shareTokN q 12} tb))
/-- Slot 1's weights copy of chunk n in flight. -/
def wFl1 (wv : Buf (Elt F) (wLoc d)) (n : ℕ) : sProp 𝕄 :=
  Transfers.Flight countersEmb (V d (cV L) (jV L)) (SemLoc.dma cc1_scratch9.sem) (default : HIx 1) 65536
    iprop(((wSlot1).view.loc (V d (cV L) (jV L)) ↦[(wSlot1).view.set]{fullShare} wCanF L wv n) ∗ wP d L wv n)
/-- Slot 1's result copy of chunk n in flight. -/
def oFl1 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch13.sem) (default : HIx 1) 65536
    iprop(oP d L (skip (F := F) tb ix wv) n ∗ ((oSlot1).view.loc (V d (cV L) (jV L)) ↦[(oSlot1).view.set]{fullShare} oCanF L tb ix wv n))
/-- Slot 1 before group k. -/
def slotSt1 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl1 d L q tb ix fi (4 * k + 1) ∗ tblRest d L q tb 12 ∗ wFl1 d L wv (4 * k + 1))
      else iprop(tblTok d L q tb 12 ∗ (∃ f, ((rSlot1).view.loc (V d (cV L) (jV L)) ↦[(rSlot1).view.set]{fullShare} f)) ∗ semVal ((V d (cV L) (jV L)), SemLoc.dma cc1_scratch5.sem) 0
        ∗ (∃ f, ((wSlot1).view.loc (V d (cV L) (jV L)) ↦[(wSlot1).view.set]{fullShare} f)) ∗ semVal ((V d (cV L) (jV L)), SemLoc.dma cc1_scratch9.sem) 0))
    ∗ (if k = 0 then iprop((∃ f, ((oSlot1).view.loc (V d (cV L) (jV L)) ↦[(oSlot1).view.set]{fullShare} f)) ∗ semVal ((V d (cV L) (jV L)), SemLoc.dma cc1_scratch13.sem) 0)
      else oFl1 d L tb ix wv (4 * (k - 1) + 1)))

/-- Slot 2's gather of chunk n in flight. -/
def gFl2 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch6.sem) (default : HIx 1) 524288
    iprop((((rSlot2).view.loc (V d (cV L) (jV L)) ↦[(rSlot2).view.set]{fullShare} rCanF L tb ix n) ∗ ivP d L (fivOf d L ix fi) n)
      ∗ ((tblV).view.loc (V d (cV L) (jV L)) ↦[(tblAll).view.set]{Transfers.shareTokN q 13} tb))
/-- Slot 2's weights copy of chunk n in flight. -/
def wFl2 (wv : Buf (Elt F) (wLoc d)) (n : ℕ) : sProp 𝕄 :=
  Transfers.Flight countersEmb (V d (cV L) (jV L)) (SemLoc.dma cc1_scratch10.sem) (default : HIx 1) 65536
    iprop(((wSlot2).view.loc (V d (cV L) (jV L)) ↦[(wSlot2).view.set]{fullShare} wCanF L wv n) ∗ wP d L wv n)
/-- Slot 2's result copy of chunk n in flight. -/
def oFl2 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch14.sem) (default : HIx 1) 65536
    iprop(oP d L (skip (F := F) tb ix wv) n ∗ ((oSlot2).view.loc (V d (cV L) (jV L)) ↦[(oSlot2).view.set]{fullShare} oCanF L tb ix wv n))
/-- Slot 2 before group k. -/
def slotSt2 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl2 d L q tb ix fi (4 * k + 2) ∗ tblRest d L q tb 13 ∗ wFl2 d L wv (4 * k + 2))
      else iprop(tblTok d L q tb 13 ∗ (∃ f, ((rSlot2).view.loc (V d (cV L) (jV L)) ↦[(rSlot2).view.set]{fullShare} f)) ∗ semVal ((V d (cV L) (jV L)), SemLoc.dma cc1_scratch6.sem) 0
        ∗ (∃ f, ((wSlot2).view.loc (V d (cV L) (jV L)) ↦[(wSlot2).view.set]{fullShare} f)) ∗ semVal ((V d (cV L) (jV L)), SemLoc.dma cc1_scratch10.sem) 0))
    ∗ (if k = 0 then iprop((∃ f, ((oSlot2).view.loc (V d (cV L) (jV L)) ↦[(oSlot2).view.set]{fullShare} f)) ∗ semVal ((V d (cV L) (jV L)), SemLoc.dma cc1_scratch14.sem) 0)
      else oFl2 d L tb ix wv (4 * (k - 1) + 2)))

/-- Slot 3's gather of chunk n in flight. -/
def gFl3 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch7.sem) (default : HIx 1) 524288
    iprop((((rSlot3).view.loc (V d (cV L) (jV L)) ↦[(rSlot3).view.set]{fullShare} rCanF L tb ix n) ∗ ivP d L (fivOf d L ix fi) n)
      ∗ ((tblV).view.loc (V d (cV L) (jV L)) ↦[(tblAll).view.set]{Transfers.shareTokN q 14} tb))
/-- Slot 3's weights copy of chunk n in flight. -/
def wFl3 (wv : Buf (Elt F) (wLoc d)) (n : ℕ) : sProp 𝕄 :=
  Transfers.Flight countersEmb (V d (cV L) (jV L)) (SemLoc.dma cc1_scratch11.sem) (default : HIx 1) 65536
    iprop(((wSlot3).view.loc (V d (cV L) (jV L)) ↦[(wSlot3).view.set]{fullShare} wCanF L wv n) ∗ wP d L wv n)
/-- Slot 3's result copy of chunk n in flight. -/
def oFl3 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch15.sem) (default : HIx 1) 65536
    iprop(oP d L (skip (F := F) tb ix wv) n ∗ ((oSlot3).view.loc (V d (cV L) (jV L)) ↦[(oSlot3).view.set]{fullShare} oCanF L tb ix wv n))
/-- Slot 3 before group k. -/
def slotSt3 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl3 d L q tb ix fi (4 * k + 3) ∗ tblRest d L q tb 14 ∗ wFl3 d L wv (4 * k + 3))
      else iprop(tblTok d L q tb 14 ∗ (∃ f, ((rSlot3).view.loc (V d (cV L) (jV L)) ↦[(rSlot3).view.set]{fullShare} f)) ∗ semVal ((V d (cV L) (jV L)), SemLoc.dma cc1_scratch7.sem) 0
        ∗ (∃ f, ((wSlot3).view.loc (V d (cV L) (jV L)) ↦[(wSlot3).view.set]{fullShare} f)) ∗ semVal ((V d (cV L) (jV L)), SemLoc.dma cc1_scratch11.sem) 0))
    ∗ (if k = 0 then iprop((∃ f, ((oSlot3).view.loc (V d (cV L) (jV L)) ↦[(oSlot3).view.set]{fullShare} f)) ∗ semVal ((V d (cV L) (jV L)), SemLoc.dma cc1_scratch15.sem) 0)
      else oFl3 d L tb ix wv (4 * (k - 1) + 3)))

/-- Before group k: the waits' evidence, what the thread owes, the pieces at home on either side of the four chunks in
    flight, the four slots. -/
def gInv (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (k : ℕ) (_ : PUnit) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ homes (ivP d L (fivOf d L ix fi)) 0 (4 * k) ∗ homes (ivP d L (fivOf d L ix fi)) (4 * k + 4) 32
    ∗ homes (wP d L wv) 0 (4 * k) ∗ homes (wP d L wv) (4 * k + 4) 32
    ∗ homes (oP d L (skip (F := F) tb ix wv)) 0 (4 * k - 4) ∗ homes (oP d L o0) (4 * k) 32
    ∗ slotSt0 d L q tb ix wv fi k ∗ slotSt1 d L q tb ix wv fi k ∗ slotSt2 d L q tb ix wv fi k ∗ slotSt3 d L q tb ix wv fi k)

end Flights

end Cert.Proof.KI

end
-- ==== Proof.KI.TilePt.lean ====
/-
  One trip of the point loop, slot by slot. The trip at point p of slot b loads the point's eight weight strips (sixteen
  lanes each, at (b, p, 16·i)) and, for each of the eight strips v of the result, the eight table rows' strips at
  (b, 8·p + i, 16·v); at (b, p, 16·v) it stores the balanced sum over the corners i of weight strip i times row strip i,
  lane by lane, in the order ((t0 + t1) + (t2 + t3)) + ((t4 + t5) + (t6 + t7)). Read at an element (b, q, col) of the
  result ring after the eight stores: for q = p the strip v with 16·v ≤ col < 16·v + 16 reaches it, and every strip
  holds the point loop's value at each of its own elements; for q < p no strip of this trip reaches row q, so the
  element is what the earlier trips left, which is the value by the invariant.
-/
import proofs.«209143_g59700045415095_cont_9to1_m_37_38_alg».proof.Proof.KI.TileDefs
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Lanes of a strip -/

section Lanes
variable {α : Type}

/-- A strip of sixteen lanes, shaped [1, 1, 16], viewed as a vector of sixteen: lane l is the strip at (0, 0, l). -/
theorem strip_as_lanes (x : S1x1x16.Idx → α) (h : S1x1x16.ShapeCasts S16) (l : Fin 16) :
    shapeCast S16 x h (ix1 l) = x (ix3 (0 : Fin 1) (0 : Fin 1) l) :=
  shapeCast_apply x h _ _ (by
    rw [Shape.rowMajor_val_three, Shape.rowMajor_val_one]
    show (0 * 1 + 0) * 16 + l.val = l.val
    omega)

/-- A vector of sixteen viewed as a strip shaped [1, 1, 16]: the strip at (u, u', l) is lane l. -/
theorem lanes_as_strip (x : S16.Idx → α) (h : S16.ShapeCasts S1x1x16) (u u' : Fin 1) (l : Fin 16) :
    shapeCast S1x1x16 x h (ix3 u u' l) = x (ix1 l) :=
  shapeCast_apply x h _ _ (by
    have hu : u.val = 0 := by omega
    have hu' : u'.val = 0 := by omega
    rw [Shape.rowMajor_val_three, Shape.rowMajor_val_one]
    show l.val = (u.val * 1 + u'.val) * 16 + l.val
    omega)

/-- Two indices of a rank-three array with the same three coordinates are the same index. -/
theorem idx3_eq {n0 n1 n2 : ℕ} {x y : (⟨3, ![n0, n1, n2]⟩ : Shape).Idx} (h0 : (x 0).val = (y 0).val) (h1 : (x 1).val = (y 1).val)
    (h2 : (x 2).val = (y 2).val) : x = y :=
  funext fun a => Fin.ext <| match a with | ⟨0, _⟩ => h0 | ⟨1, _⟩ => h1 | ⟨2, _⟩ => h2

end Lanes

/-! ## One strip of the point loop's result -/

section Strip
variable [FloatOps F]

/-- A vector literal of three coordinates, coordinate by coordinate. -/
theorem vec3_coords {off : Fin 3 → ℕ} {a b c : ℕ} (h : off = ![a, b, c]) : off 0 = a ∧ off 1 = b ∧ off 2 = c := by
  subst h; exact ⟨rfl, rfl, rfl⟩

/-- Lane l of a strip loaded from the weight ring at offsets off is the ring at (off 0, off 1, off 2 + l). -/
theorem wv_lane (fw : FVec F S4x16x128 .f32) (off : Fin 3 → ℕ) (inb : ∀ a, off a + S1x1x16.size a ≤ S4x16x128.size a)
    (h : S1x1x16.ShapeCasts S16) (l : Fin 16) (j : S4x16x128.Idx)
    (h0 : off 0 = (j 0).val) (h1 : off 1 = (j 1).val) (h2 : off 2 + l.val = (j 2).val) :
    shapeCast S16 (View.readAt (Elt F) wvV.view (Rect.unit (s := S4x16x128) off S1x1x16.size inb).toLoadRect fw) h (ix1 l) = fw j := by
  rw [strip_as_lanes]
  show fw _ = fw j
  congr 1
  exact idx3_eq (by show off 0 + 1 * 0 = _; omega) (by show off 1 + 1 * 0 = _; omega) (by show off 2 + 1 * l.val = _; omega)

/-- Lane l of a strip loaded from the row ring at offsets off is the ring at (off 0, off 1, off 2 + l). -/
theorem rv_lane (fr : FVec F S4x128x128 .f32) (off : Fin 3 → ℕ) (inb : ∀ a, off a + S1x1x16.size a ≤ S4x128x128.size a)
    (h : S1x1x16.ShapeCasts S16) (l : Fin 16) (j : S4x128x128.Idx)
    (h0 : off 0 = (j 0).val) (h1 : off 1 = (j 1).val) (h2 : off 2 + l.val = (j 2).val) :
    shapeCast S16 (View.readAt (Elt F) rvV.view (Rect.unit (s := S4x128x128) off S1x1x16.size inb).toLoadRect fr) h (ix1 l) = fr j := by
  rw [strip_as_lanes]
  show fr _ = fr j
  congr 1
  exact idx3_eq (by show off 0 + 1 * 0 = _; omega) (by show off 1 + 1 * 0 = _; omega) (by show off 2 + 1 * l.val = _; omega)

end Strip

section StripValue
variable [FloatOps F]

/-- Corner i's sixteen products for one strip: the weights' strip at oW times the rows' strip at oR, lane by lane. -/
abbrev stripTerm (fw : FVec F S4x16x128 .f32) (fr : FVec F S4x128x128 .f32)
    (oW : Fin 3 → ℕ) (iW : ∀ a, oW a + S1x1x16.size a ≤ S4x16x128.size a)
    (oR : Fin 3 → ℕ) (iR : ∀ a, oR a + S1x1x16.size a ≤ S4x128x128.size a) (h1 : S1x1x16.ShapeCasts S16) : FVec F S16 .f32 :=
  mulf (shapeCast S16 (View.readAt (Elt F) wvV.view (Rect.unit (s := S4x16x128) oW S1x1x16.size iW).toLoadRect fw) h1)
    (shapeCast S16 (View.readAt (Elt F) rvV.view (Rect.unit (s := S4x128x128) oR S1x1x16.size iR).toLoadRect fr) h1)

/-- One lane of one corner's products is that corner's term of the point loop's value: slot b, point p, strip v, lane l,
    corner i, the weights' strip at (b, p, 16·i) and the rows' strip at (b, 8·p + i, 16·v). -/
theorem stripTerm_lane (fw : FVec F S4x16x128 .f32) (fr : FVec F S4x128x128 .f32) (b p v i : ℕ) (hb : b < 4) (hp : p < 16) (hv : v < 8) (hi : i < 8)
    (oW : Fin 3 → ℕ) (iW : ∀ a, oW a + S1x1x16.size a ≤ S4x16x128.size a) (hW : oW = ![b, p, 16 * i])
    (oR : Fin 3 → ℕ) (iR : ∀ a, oR a + S1x1x16.size a ≤ S4x128x128.size a) (hR : oR = ![b, 8 * p + i, 16 * v])
    (h1 : S1x1x16.ShapeCasts S16) (l : Fin 16) :
    stripTerm fw fr oW iW oR iR h1 (ix1 l)
      = ptTerm fw fr (⟨b, hb⟩ : Fin 4) (⟨p, hp⟩ : Fin 16) (⟨16 * v + l.val, by omega⟩ : Fin 128) (⟨i, hi⟩ : Fin 8) := by
  obtain ⟨w0, w1, w2⟩ := vec3_coords hW
  obtain ⟨r0, r1, r2⟩ := vec3_coords hR
  show FloatOps.mulf _ _ = FloatOps.mulf _ _
  congr 1
  · exact wv_lane fw oW iW h1 l _ (by show oW 0 = b; omega) (by show oW 1 = p; omega)
      (by show oW 2 + l.val = 16 * i + (16 * v + l.val) % 16; omega)
  · exact rv_lane fr oR iR h1 l _ (by show oR 0 = b; omega) (by show oR 1 = 8 * p + i; omega)
      (by show oR 2 + l.val = 16 * v + l.val; omega)

/-- One strip of sixteen lanes the point loop stores — the balanced sum of the eight corners' products, the weights' strips at
    (b, p, 16·i), the rows' strips at (b, 8·p + i, 16·v), stored at (b, p, 16·v) — is the point loop's value there. -/
theorem strip_value (fw : FVec F S4x16x128 .f32) (fr : FVec F S4x128x128 .f32) (b p : ℕ) (hb : b < 4) (hp : p < 16)
    (oW0 oW1 oW2 oW3 oW4 oW5 oW6 oW7 : Fin 3 → ℕ)
    (iW0 : ∀ a, oW0 a + S1x1x16.size a ≤ S4x16x128.size a) (iW1 : ∀ a, oW1 a + S1x1x16.size a ≤ S4x16x128.size a)
    (iW2 : ∀ a, oW2 a + S1x1x16.size a ≤ S4x16x128.size a) (iW3 : ∀ a, oW3 a + S1x1x16.size a ≤ S4x16x128.size a)
    (iW4 : ∀ a, oW4 a + S1x1x16.size a ≤ S4x16x128.size a) (iW5 : ∀ a, oW5 a + S1x1x16.size a ≤ S4x16x128.size a)
    (iW6 : ∀ a, oW6 a + S1x1x16.size a ≤ S4x16x128.size a) (iW7 : ∀ a, oW7 a + S1x1x16.size a ≤ S4x16x128.size a)
    (hW0 : oW0 = ![b, p, 0]) (hW1 : oW1 = ![b, p, 16]) (hW2 : oW2 = ![b, p, 32]) (hW3 : oW3 = ![b, p, 48])
    (hW4 : oW4 = ![b, p, 64]) (hW5 : oW5 = ![b, p, 80]) (hW6 : oW6 = ![b, p, 96]) (hW7 : oW7 = ![b, p, 112])
    (v : ℕ) (hv : v < 8)
    (oR : BitVec 32 → Fin 3 → ℕ) (iR : ∀ r : Fin 8, ∀ a, oR (BitVec.ofNat 32 r.val) a + S1x1x16.size a ≤ S4x128x128.size a)
    (hR : ∀ r : Fin 8, oR (BitVec.ofNat 32 r.val) = ![b, 8 * p + r.val, 16 * v])
    (oO : Fin 3 → ℕ) (iO : ∀ a, oO a + S1x1x16.size a ≤ S4x16x128.size a) (hO : oO = ![b, p, 16 * v])
    (h1 : S1x1x16.ShapeCasts S16) (h2 : S16.ShapeCasts S1x1x16) (x : S1x1x16.Idx) :
    shapeCast S1x1x16
        (addf
          (addf (addf (stripTerm fw fr oW0 iW0 (oR 0#32) (iR 0) h1) (stripTerm fw fr oW1 iW1 (oR 1#32) (iR 1) h1))
            (addf (stripTerm fw fr oW2 iW2 (oR 2#32) (iR 2) h1) (stripTerm fw fr oW3 iW3 (oR 3#32) (iR 3) h1)))
          (addf (addf (stripTerm fw fr oW4 iW4 (oR 4#32) (iR 4) h1) (stripTerm fw fr oW5 iW5 (oR 5#32) (iR 5) h1))
            (addf (stripTerm fw fr oW6 iW6 (oR 6#32) (iR 6) h1) (stripTerm fw fr oW7 iW7 (oR 7#32) (iR 7) h1)))) h2 x
      = ptOut fw fr ((Rect.unit (s := S4x16x128) oO S1x1x16.size iO).emb x) := by
  obtain ⟨u, u', l, rfl⟩ : ∃ (u u' : Fin 1) (l : Fin 16), x = ix3 u u' l := ⟨x 0, x 1, x 2, eq_ix3 x⟩
  obtain ⟨o0, o1, o2⟩ := vec3_coords hO
  have hu : u.val = 0 := by omega
  have hu' : u'.val = 0 := by omega
  have hj : (Rect.unit (s := S4x16x128) oO S1x1x16.size iO).emb (ix3 u u' l)
      = ix3 (⟨b, hb⟩ : Fin 4) (⟨p, hp⟩ : Fin 16) (⟨16 * v + l.val, by omega⟩ : Fin 128) :=
    idx3_eq (by show oO 0 + 1 * u.val = b; omega) (by show oO 1 + 1 * u'.val = p; omega)
      (by show oO 2 + 1 * l.val = 16 * v + l.val; omega)
  rw [hj, lanes_as_strip]
  have t0 := stripTerm_lane fw fr b p v 0 hb hp hv (by omega) oW0 iW0 hW0 (oR 0#32) (iR 0) (hR 0) h1 l
  have t1 := stripTerm_lane fw fr b p v 1 hb hp hv (by omega) oW1 iW1 hW1 (oR 1#32) (iR 1) (hR 1) h1 l
  have t2 := stripTerm_lane fw fr b p v 2 hb hp hv (by omega) oW2 iW2 hW2 (oR 2#32) (iR 2) (hR 2) h1 l
  have t3 := stripTerm_lane fw fr b p v 3 hb hp hv (by omega) oW3 iW3 hW3 (oR 3#32) (iR 3) (hR 3) h1 l
  have t4 := stripTerm_lane fw fr b p v 4 hb hp hv (by omega) oW4 iW4 hW4 (oR 4#32) (iR 4) (hR 4) h1 l
  have t5 := stripTerm_lane fw fr b p v 5 hb hp hv (by omega) oW5 iW5 hW5 (oR 5#32) (iR 5) (hR 5) h1 l
  have t6 := stripTerm_lane fw fr b p v 6 hb hp hv (by omega) oW6 iW6 hW6 (oR 6#32) (iR 6) (hR 6) h1 l
  have t7 := stripTerm_lane fw fr b p v 7 hb hp hv (by omega) oW7 iW7 hW7 (oR 7#32) (iR 7) (hR 7) h1 l
  exact congrArg₂ FloatOps.addf
    (congrArg₂ FloatOps.addf (congrArg₂ FloatOps.addf t0 t1) (congrArg₂ FloatOps.addf t2 t3))
    (congrArg₂ FloatOps.addf (congrArg₂ FloatOps.addf t4 t5) (congrArg₂ FloatOps.addf t6 t7))

end StripValue

/-! ## Which stores of a trip reach an element of the result ring -/

section Members

/-- A strip stored at point p does not reach another point's row. -/
theorem not_mem_strip_of_point_ne (off : Fin 3 → ℕ) (inb : ∀ a, off a + S1x1x16.size a ≤ S4x16x128.size a) (b p c : ℕ)
    (hoff : off = ![b, p, c]) (b' : Fin 4) (q : Fin 16) (col : Fin 128) (hne : q.val ≠ p) :
    ix3 b' q col ∉ (Rect.unit (s := S4x16x128) off S1x1x16.size inb).set := by
  intro h
  obtain ⟨-, e1, -⟩ := vec3_coords hoff
  have h1 : off 1 ≤ q.val ∧ q.val < off 1 + 1 := (Rect.mem_set_unit.mp h) 1
  omega

/-- The strip stored at (b, p, c … c + 15) reaches the element (b, p, col) for c ≤ col < c + 16. -/
theorem mem_strip (off : Fin 3 → ℕ) (inb : ∀ a, off a + S1x1x16.size a ≤ S4x16x128.size a) (b p c : ℕ)
    (hoff : off = ![b, p, c]) (b' : Fin 4) (q : Fin 16) (col : Fin 128) (hb : b'.val = b) (hq : q.val = p)
    (hc : c ≤ col.val ∧ col.val < c + 16) :
    ix3 b' q col ∈ (Rect.unit (s := S4x16x128) off S1x1x16.size inb).set := by
  obtain ⟨e0, e1, e2⟩ := vec3_coords hoff
  refine Rect.mem_set_unit.mpr fun a => ?_
  match a with
  | ⟨0, _⟩ => show off 0 ≤ b'.val ∧ b'.val < off 0 + 1; omega
  | ⟨1, _⟩ => show off 1 ≤ q.val ∧ q.val < off 1 + 1; omega
  | ⟨2, _⟩ => show off 2 ≤ col.val ∧ col.val < off 2 + 16; omega

end Members

/-! ## The point loop's trip -/

section Trip
variable [FloatOps F] (d : Dev nD) (L : grid1.Coords)

set_option maxHeartbeats 4000000 in
theorem ptTrip0 (v2 c0 c1 : BitVec 32) (g : Fin k1_t1_loop.trips)
    (fw : Buf (Elt F) ((wSlot0).view.loc (V d (cV L) (jV L)))) (fr : Buf (Elt F) ((rSlot0).view.loc (V d (cV L) (jV L)))) :
    ∀ (k : Fin k1_t2_loop.trips) (acc : Unit),
      ptInv0 d L fw fr k.val acc ⊢ wp frame (wpE (defs₀ (F := F)) 𝒱₀ (V d (cV L) (jV L)) none) Set.univ
          (k1_t2_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 c0 c1 g k acc) (ptInv0 d L fw fr (k.val + 1)) := by
  intro k acc
  have hk16 : k.val < 16 := lt_of_lt_of_le k.isLt k1_t2_abs.2.1
  unfold ptInv0
  iintro ⟨Hw, Hr, %fo, Ho, %hfo⟩
  sl_unfold [k1_t2_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 0 k.val (by omega) hk16
    (k1_off5 k) (k1_off6 k) (k1_off7 k) (k1_off8 k) (k1_off9 k) (k1_off10 k) (k1_off11 k) (k1_off12 k)
    (k1_off5_inb k) (k1_off6_inb k) (k1_off7_inb k) (k1_off8_inb k) (k1_off9_inb k) (k1_off10_inb k) (k1_off11_inb k) (k1_off12_inb k)
    (k1_off5_eq k) (k1_off6_eq k) (k1_off7_eq k) (k1_off8_eq k) (k1_off9_eq k) (k1_off10_eq k) (k1_off11_eq k) (k1_off12_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (0 : Fin 4) q col) ?_
    · intro pc hpc
      simp only [List.mem_cons, List.not_mem_nil, or_false] at hpc
      rcases hpc with rfl | rfl | rfl | rfl | rfl | rfl | rfl | rfl
      · exact W 7 (by omega) (k1_off20 k) (k1_off20_inb k) (k1_off20_eq k) (k1_off12 k) (k1_off12_inb k) (k1_off12_eq k)
          shapeCasts_S1x1x16_S16 shapeCasts_S16_S1x1x16
      · exact W 6 (by omega) (k1_off19 k) (k1_off19_inb k) (k1_off19_eq k) (k1_off11 k) (k1_off11_inb k) (k1_off11_eq k)
          shapeCasts_S1x1x16_S16 shapeCasts_S16_S1x1x16
      · exact W 5 (by omega) (k1_off18 k) (k1_off18_inb k) (k1_off18_eq k) (k1_off10 k) (k1_off10_inb k) (k1_off10_eq k)
          shapeCasts_S1x1x16_S16 shapeCasts_S16_S1x1x16
      · exact W 4 (by omega) (k1_off17 k) (k1_off17_inb k) (k1_off17_eq k) (k1_off9 k) (k1_off9_inb k) (k1_off9_eq k)
          shapeCasts_S1x1x16_S16 shapeCasts_S16_S1x1x16
      · exact W 3 (by omega) (k1_off16 k) (k1_off16_inb k) (k1_off16_eq k) (k1_off8 k) (k1_off8_inb k) (k1_off8_eq k)
          shapeCasts_S1x1x16_S16 shapeCasts_S16_S1x1x16
      · exact W 2 (by omega) (k1_off15 k) (k1_off15_inb k) (k1_off15_eq k) (k1_off7 k) (k1_off7_inb k) (k1_off7_eq k)
          shapeCasts_S1x1x16_S16 shapeCasts_S16_S1x1x16
      · exact W 1 (by omega) (k1_off14 k) (k1_off14_inb k) (k1_off14_eq k) (k1_off6 k) (k1_off6_inb k) (k1_off6_eq k)
          shapeCasts_S1x1x16_S16 shapeCasts_S16_S1x1x16
      · exact W 0 (by omega) (k1_off13 k) (k1_off13_inb k) (k1_off13_eq k) (k1_off5 k) (k1_off5_inb k) (k1_off5_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off5_inb k) _ _ _ (k1_off5_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off6_inb k) _ _ _ (k1_off6_eq k) _ q col rfl hqk (by omega)⟩
      · exact ⟨_, List.Mem.tail _ (List.Mem.tail _ (List.Mem.tail _ (List.Mem.tail _ (List.Mem.tail _ (List.Mem.head _))))),
          mem_strip _ (k1_off7_inb k) _ _ _ (k1_off7_eq k) _ q col rfl hqk (by omega)⟩
      · exact ⟨_, List.Mem.tail _ (List.Mem.tail _ (List.Mem.tail _ (List.Mem.tail _ (List.Mem.head _)))),
          mem_strip _ (k1_off8_inb k) _ _ _ (k1_off8_eq k) _ q col rfl hqk (by omega)⟩
      · exact ⟨_, List.Mem.tail _ (List.Mem.tail _ (List.Mem.tail _ (List.Mem.head _))),
          mem_strip _ (k1_off9_inb k) _ _ _ (k1_off9_eq k) _ q col rfl hqk (by omega)⟩
      · exact ⟨_, List.Mem.tail _ (List.Mem.tail _ (List.Mem.head _)),
          mem_strip _ (k1_off10_inb k) _ _ _ (k1_off10_eq k) _ q col rfl hqk (by omega)⟩
      · exact ⟨_, List.Mem.tail _ (List.Mem.head _),
          mem_strip _ (k1_off11_inb k) _ _ _ (k1_off11_eq k) _ q col rfl hqk (by omega)⟩
      · exact ⟨_, List.Mem.head _,
          mem_strip _ (k1_off12_inb k) _ _ _ (k1_off12_eq k) _ q col rfl hqk (by omega)⟩
  · -- an earlier point: no strip of this trip reaches its row
    have hlt : q.val < k.val := by omega
    refine (View.read_writes_apply_of_forall_not_mem ovV.view fo (ix3 (0 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off12_inb k) _ _ _ (k1_off12_eq k) _ q col hqk
    · exact not_mem_strip_of_point_ne _ (k1_off11_inb k) _ _ _ (k1_off11_eq k) _ q col hqk
    · exact not_mem_strip_of_point_ne _ (k1_off10_inb k) _ _ _ (k1_off10_eq k) _ q col hqk
    · exact not_mem_strip_of_point_ne _ (k1_off9_inb k) _ _ _ (k1_off9_eq k) _ q col hqk
    · exact not_mem_strip_of_point_ne _ (k1_off8_inb k) _ _ _ (k1_off8_eq k) _ q col hqk
    · exact not_mem_strip_of_point_ne _ (k1_off7_inb k) _ _ _ (k1_off7_eq k) _ q col hqk
    · exact not_mem_strip_of_point_ne _ (k1_off6_inb k) _ _ _ (k1_off6_eq k) _ q col hqk
    · exact not_mem_strip_of_point_ne _ (k1_off5_inb k) _ _ _ (k1_off5_eq k) _ q col hqk

set_option maxHeartbeats 4000000 in
theorem ptTrip1 (g : Fin k1_t1_loop.trips) (arg22 : BitVec 32)
    (fw : Buf (Elt F) ((wSlot1).view.loc (V d (cV L) (jV L)))) (fr : Buf (Elt F) ((rSlot1).view.loc (V d (cV L) (jV L)))) :
    ∀ (k : Fin k1_t3_loop.trips) (acc : Unit),
      ptInv1 d L fw fr k.val acc ⊢ wp frame (wpE (defs₀ (F := F)) 𝒱₀ (V d (cV L) (jV L)) none) Set.univ
          (k1_t3_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 g arg22 k acc) (ptInv1 d L fw fr (k.val + 1)) := by
  intro k acc
  have hk16 : k.val < 16 := lt_of_lt_of_le k.isLt k1_t3_abs.2.1
  unfold ptInv1
  iintro ⟨Hw, Hr, %fo, Ho, %hfo⟩
  sl_unfold [k1_t3_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 1 k.val (by omega) hk16
    (k1_off25 k) (k1_off26 k) (k1_off27 k) (k1_off28 k) (k1_off29 k) (k1_off30 k) (k1_off31 k) (k1_off32 k)
    (k1_off25_inb k) (k1_off26_inb k) (k1_off27_inb k) (k1_off28_inb k) (k1_off29_inb k) (k1_off30_inb k) (k1_off31_inb k) (k1_off32_inb k)
    (k1_off25_eq k) (k1_off26_eq k) (k1_off27_eq k) (k1_off28_eq k) (k1_off29_eq k) (k1_off30_eq k) (k1_off31_eq k) (k1_off32_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (1 : Fin 4) q col) ?_
    · intro pc hpc
      simp only [List.mem_cons, List.not_mem_nil, or_false] at hpc
      rcases hpc with rfl | rfl | rfl | rfl | rfl | rfl | rfl | rfl
      · exact W 7 (by omega) (k1_off40 k) (k1_off40_inb k) (k1_off40_eq k) (k1_off32 k) (k1_off32_inb k) (k1_off32_eq k)
          shapeCasts_S1x1x16_S16 shapeCasts_S16_S1x1x16
      · exact W 6 (by omega) (k1_off39 k) (k1_off39_inb k) (k1_off39_eq k) (k1_off31 k) (k1_off31_inb k) (k1_off31_eq k)
          shapeCasts_S1x1x16_S16 shapeCasts_S16_S1x1x16
      · exact W 5 (by omega) (k1_off38 k) (k1_off38_inb k) (k1_off38_eq k) (k1_off30 k) (k1_off30_inb k) (k1_off30_eq k)
          shapeCasts_S1x1x16_S16 shapeCasts_S16_S1x1x16
      · exact W 4 (by omega) (k1_off37 k) (k1_off37_inb k) (k1_off37_eq k) (k1_off29 k) (k1_off29_inb k) (k1_off29_eq k)
          shapeCasts_S1x1x16_S16 shapeCasts_S16_S1x1x16
      · exact W 3 (by omega) (k1_off36 k) (k1_off36_inb k) (k1_off36_eq k) (k1_off28 k) (k1_off28_inb k) (k1_off28_eq k)
          shapeCasts_S1x1x16_S16 shapeCasts_S16_S1x1x16
      · exact W 2 (by omega) (k1_off35 k) (k1_off35_inb k) (k1_off35_eq k) (k1_off27 k) (k1_off27_inb k) (k1_off27_eq k)
          shapeCasts_S1x1x16_S16 shapeCasts_S16_S1x1x16
      · exact W 1 (by omega) (k1_off34 k) (k1_off34_inb k) (k1_off34_eq k) (k1_off26 k) (k1_off26_inb k) (k1_off26_eq k)
          shapeCasts_S1x1x16_S16 shapeCasts_S16_S1x1x16
      · exact W 0 (by omega) (k1_off33 k) (k1_off33_inb k) (k1_off33_eq k) (k1_off25 k) (k1_off25_inb k) (k1_off25_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off25_inb k) _ _ _ (k1_off25_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off26_inb k) _ _ _ (k1_off26_eq k) _ q col rfl hqk (by omega)⟩
      · exact ⟨_, List.Mem.tail _ (List.Mem.tail _ (List.Mem.tail _ (List.Mem.tail _ (List.Mem.tail _ (List.Mem.head _))))),
          mem_strip _ (k1_off27_inb k) _ _ _ (k1_off27_eq k) _ q col rfl hqk (by omega)⟩
      · exact ⟨_, List.Mem.tail _ (List.Mem.tail _ (List.Mem.tail _ (List.Mem.tail _ (List.Mem.head _)))),
          mem_strip _ (k1_off28_inb k) _ _ _ (k1_off28_eq k) _ q col rfl hqk (by omega)⟩
      · exact ⟨_, List.Mem.tail _ (List.Mem.tail _ (List.Mem.tail _ (List.Mem.head _))),
          mem_strip _ (k1_off29_inb k) _ _ _ (k1_off29_eq k) _ q col rfl hqk (by omega)⟩
      · exact ⟨_, List.Mem.tail _ (List.Mem.tail _ (List.Mem.head _)),
          mem_strip _ (k1_off30_inb k) _ _ _ (k1_off30_eq k) _ q col rfl hqk (by omega)⟩
      · exact ⟨_, List.Mem.tail _ (List.Mem.head _),
          mem_strip _ (k1_off31_inb k) _ _ _ (k1_off31_eq k) _ q col rfl hqk (by omega)⟩
      · exact ⟨_, List.Mem.head _,
          mem_strip _ (k1_off32_inb k) _ _ _ (k1_off32_eq k) _ q col rfl hqk (by omega)⟩
  · -- an earlier point: no strip of this trip reaches its row
    have hlt : q.val < k.val := by omega
    refine (View.read_writes_apply_of_forall_not_mem ovV.view fo (ix3 (1 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off32_inb k) _ _ _ (k1_off32_eq k) _ q col hqk
    · exact not_mem_strip_of_point_ne _ (k1_off31_inb k) _ _ _ (k1_off31_eq k) _ q col hqk
    · exact not_mem_strip_of_point_ne _ (k1_off30_inb k) _ _ _ (k1_off30_eq k) _ q col hqk
    · exact not_mem_strip_of_point_ne _ (k1_off29_inb k) _ _ _ (k1_off29_eq k) _ q col hqk
    · exact not_mem_strip_of_point_ne _ (k1_off28_inb k) _ _ _ (k1_off28_eq k) _ q col hqk
    · exact not_mem_strip_of_point_ne _ (k1_off27_inb k) _ _ _ (k1_off27_eq k) _ q col hqk
    · exact not_mem_strip_of_point_ne _ (k1_off26_inb k) _ _ _ (k1_off26_eq k) _ q col hqk
    · exact not_mem_strip_of_point_ne _ (k1_off25_inb k) _ _ _ (k1_off25_eq k) _ q col hqk

set_option maxHeartbeats 4000000 in
theorem ptTrip2 (v2 : BitVec 32) (g : Fin k1_t1_loop.trips) (arg22 v135 c0 : BitVec 32)
    (fw : Buf (Elt F) ((wSlot2).view.loc (V d (cV L) (jV L)))) (fr : Buf (Elt F) ((rSlot2).view.loc (V d (cV L) (jV L)))) :
    ∀ (k : Fin k1_t4_loop.trips) (acc : Unit),
      ptInv2 d L fw fr k.val acc ⊢ wp frame (wpE (defs₀ (F := F)) 𝒱₀ (V d (cV L) (jV L)) none) Set.univ
          (k1_t4_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g arg22 v135 c0 k acc) (ptInv2 d L fw fr (k.val + 1)) := by
  intro k acc
  have hk16 : k.val < 16 := lt_of_lt_of_le k.isLt k1_t4_abs.2.1
  unfold ptInv2
  iintro ⟨Hw, Hr, %fo, Ho, %hfo⟩
  sl_unfold [k1_t4_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 2 k.val (by omega) hk16
    (k1_off44 k) (k1_off45 k) (k1_off46 k) (k1_off47 k) (k1_off48 k) (k1_off49 k) (k1_off50 k) (k1_off51 k)
    (k1_off44_inb k) (k1_off45_inb k) (k1_off46_inb k) (k1_off47_inb k) (k1_off48_inb k) (k1_off49_inb k) (k1_off50_inb k) (k1_off51_inb k)
    (k1_off44_eq k) (k1_off45_eq k) (k1_off46_eq k) (k1_off47_eq k) (k1_off48_eq k) (k1_off49_eq k) (k1_off50_eq k) (k1_off51_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (2 : Fin 4) q col) ?_
    · intro pc hpc
      simp only [List.mem_cons, List.not_mem_nil, or_false] at hpc
      rcases hpc with rfl | rfl | rfl | rfl | rfl | rfl | rfl | rfl
      · exact W 7 (by omega) (k1_off59 k) (k1_off59_inb k) (k1_off59_eq k) (k1_off51 k) (k1_off51_inb k) (k1_off51_eq k)
          shapeCasts_S1x1x16_S16 shapeCasts_S16_S1x1x16
      · exact W 6 (by omega) (k1_off58 k) (k1_off58_inb k) (k1_off58_eq k) (k1_off50 k) (k1_off50_inb k) (k1_off50_eq k)
          shapeCasts_S1x1x16_S16 shapeCasts_S16_S1x1x16
      · exact W 5 (by omega) (k1_off57 k) (k1_off57_inb k) (k1_off57_eq k) (k1_off49 k) (k1_off49_inb k) (k1_off49_eq k)
          shapeCasts_S1x1x16_S16 shapeCasts_S16_S1x1x16
      · exact W 4 (by omega) (k1_off56 k) (k1_off56_inb k) (k1_off56_eq k) (k1_off48 k) (k1_off48_inb k) (k1_off48_eq k)
          shapeCasts_S1x1x16_S16 shapeCasts_S16_S1x1x16
      · exact W 3 (by omega) (k1_off55 k) (k1_off55_inb k) (k1_off55_eq k) (k1_off47 k) (k1_off47_inb k) (k1_off47_eq k)
          shapeCasts_S1x1x16_S16 shapeCasts_S16_S1x1x16
      · exact W 2 (by omega) (k1_off54 k) (k1_off54_inb k) (k1_off54_eq k) (k1_off46 k) (k1_off46_inb k) (k1_off46_eq k)
          shapeCasts_S1x1x16_S16 shapeCasts_S16_S1x1x16
      · exact W 1 (by omega) (k1_off53 k) (k1_off53_inb k) (k1_off53_eq k) (k1_off45 k) (k1_off45_inb k) (k1_off45_eq k)
          shapeCasts_S1x1x16_S16 shapeCasts_S16_S1x1x16
      · exact W 0 (by omega) (k1_off52 k) (k1_off52_inb k) (k1_off52_eq k) (k1_off44 k) (k1_off44_inb k) (k1_off44_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off44_inb k) _ _ _ (k1_off44_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off45_inb k) _ _ _ (k1_off45_eq k) _ q col rfl hqk (by omega)⟩
      · exact ⟨_, List.Mem.tail _ (List.Mem.tail _ (List.Mem.tail _ (List.Mem.tail _ (List.Mem.tail _ (List.Mem.head _))))),
          mem_strip _ (k1_off46_inb k) _ _ _ (k1_off46_eq k) _ q col rfl hqk (by omega)⟩
      · exact ⟨_, List.Mem.tail _ (List.Mem.tail _ (List.Mem.tail _ (List.Mem.tail _ (List.Mem.head _)))),
          mem_strip _ (k1_off47_inb k) _ _ _ (k1_off47_eq k) _ q col rfl hqk (by omega)⟩
      · exact ⟨_, List.Mem.tail _ (List.Mem.tail _ (List.Mem.tail _ (List.Mem.head _))),
          mem_strip _ (k1_off48_inb k) _ _ _ (k1_off48_eq k) _ q col rfl hqk (by omega)⟩
      · exact ⟨_, List.Mem.tail _ (List.Mem.tail _ (List.Mem.head _)),
          mem_strip _ (k1_off49_inb k) _ _ _ (k1_off49_eq k) _ q col rfl hqk (by omega)⟩
      · exact ⟨_, List.Mem.tail _ (List.Mem.head _),
          mem_strip _ (k1_off50_inb k) _ _ _ (k1_off50_eq k) _ q col rfl hqk (by omega)⟩
      · exact ⟨_, List.Mem.head _,
          mem_strip _ (k1_off51_inb k) _ _ _ (k1_off51_eq k) _ q col rfl hqk (by omega)⟩
  · -- an earlier point: no strip of this trip reaches its row
    have hlt : q.val < k.val := by omega
    refine (View.read_writes_apply_of_forall_not_mem ovV.view fo (ix3 (2 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off51_inb k) _ _ _ (k1_off51_eq k) _ q col hqk
    · exact not_mem_strip_of_point_ne _ (k1_off50_inb k) _ _ _ (k1_off50_eq k) _ q col hqk
    · exact not_mem_strip_of_point_ne _ (k1_off49_inb k) _ _ _ (k1_off49_eq k) _ q col hqk
    · exact not_mem_strip_of_point_ne _ (k1_off48_inb k) _ _ _ (k1_off48_eq k) _ q col hqk
    · exact not_mem_strip_of_point_ne _ (k1_off47_inb k) _ _ _ (k1_off47_eq k) _ q col hqk
    · exact not_mem_strip_of_point_ne _ (k1_off46_inb k) _ _ _ (k1_off46_eq k) _ q col hqk
    · exact not_mem_strip_of_point_ne _ (k1_off45_inb k) _ _ _ (k1_off45_eq k) _ q col hqk
    · exact not_mem_strip_of_point_ne _ (k1_off44_inb k) _ _ _ (k1_off44_eq k) _ q col hqk

set_option maxHeartbeats 4000000 in
theorem ptTrip3 (v2 : BitVec 32)
    (fw : Buf (Elt F) ((wSlot3).view.loc (V d (cV L) (jV L)))) (fr : Buf (Elt F) ((rSlot3).view.loc (V d (cV L) (jV L)))) :
    ∀ (k : Fin k1_t5_loop.trips) (acc : Unit),
      ptInv3 d L fw fr k.val acc ⊢ wp frame (wpE (defs₀ (F := F)) 𝒱₀ (V d (cV L) (jV L)) none) Set.univ
          (k1_t5_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 k acc) (ptInv3 d L fw fr (k.val + 1)) := by
  intro k acc
  have hk16 : k.val < 16 := lt_of_lt_of_le k.isLt k1_t5_abs.2.1
  unfold ptInv3
  iintro ⟨Hw, Hr, %fo, Ho, %hfo⟩
  sl_unfold [k1_t5_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 3 k.val (by omega) hk16
    (k1_off63 k) (k1_off64 k) (k1_off65 k) (k1_off66 k) (k1_off67 k) (k1_off68 k) (k1_off69 k) (k1_off70 k)
    (k1_off63_inb k) (k1_off64_inb k) (k1_off65_inb k) (k1_off66_inb k) (k1_off67_inb k) (k1_off68_inb k) (k1_off69_inb k) (k1_off70_inb k)
    (k1_off63_eq k) (k1_off64_eq k) (k1_off65_eq k) (k1_off66_eq k) (k1_off67_eq k) (k1_off68_eq k) (k1_off69_eq k) (k1_off70_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (3 : Fin 4) q col) ?_
    · intro pc hpc
      simp only [List.mem_cons, List.not_mem_nil, or_false] at hpc
      rcases hpc with rfl | rfl | rfl | rfl | rfl | rfl | rfl | rfl
      · exact W 7 (by omega) (k1_off78 k) (k1_off78_inb k) (k1_off78_eq k) (k1_off70 k) (k1_off70_inb k) (k1_off70_eq k)
          shapeCasts_S1x1x16_S16 shapeCasts_S16_S1x1x16
      · exact W 6 (by omega) (k1_off77 k) (k1_off77_inb k) (k1_off77_eq k) (k1_off69 k) (k1_off69_inb k) (k1_off69_eq k)
          shapeCasts_S1x1x16_S16 shapeCasts_S16_S1x1x16
      · exact W 5 (by omega) (k1_off76 k) (k1_off76_inb k) (k1_off76_eq k) (k1_off68 k) (k1_off68_inb k) (k1_off68_eq k)
          shapeCasts_S1x1x16_S16 shapeCasts_S16_S1x1x16
      · exact W 4 (by omega) (k1_off75 k) (k1_off75_inb k) (k1_off75_eq k) (k1_off67 k) (k1_off67_inb k) (k1_off67_eq k)
          shapeCasts_S1x1x16_S16 shapeCasts_S16_S1x1x16
      · exact W 3 (by omega) (k1_off74 k) (k1_off74_inb k) (k1_off74_eq k) (k1_off66 k) (k1_off66_inb k) (k1_off66_eq k)
          shapeCasts_S1x1x16_S16 shapeCasts_S16_S1x1x16
      · exact W 2 (by omega) (k1_off73 k) (k1_off73_inb k) (k1_off73_eq k) (k1_off65 k) (k1_off65_inb k) (k1_off65_eq k)
          shapeCasts_S1x1x16_S16 shapeCasts_S16_S1x1x16
      · exact W 1 (by omega) (k1_off72 k) (k1_off72_inb k) (k1_off72_eq k) (k1_off64 k) (k1_off64_inb k) (k1_off64_eq k)
          shapeCasts_S1x1x16_S16 shapeCasts_S16_S1x1x16
      · exact W 0 (by omega) (k1_off71 k) (k1_off71_inb k) (k1_off71_eq k) (k1_off63 k) (k1_off63_inb k) (k1_off63_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off63_inb k) _ _ _ (k1_off63_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off64_inb k) _ _ _ (k1_off64_eq k) _ q col rfl hqk (by omega)⟩
      · exact ⟨_, List.Mem.tail _ (List.Mem.tail _ (List.Mem.tail _ (List.Mem.tail _ (List.Mem.tail _ (List.Mem.head _))))),
          mem_strip _ (k1_off65_inb k) _ _ _ (k1_off65_eq k) _ q col rfl hqk (by omega)⟩
      · exact ⟨_, List.Mem.tail _ (List.Mem.tail _ (List.Mem.tail _ (List.Mem.tail _ (List.Mem.head _)))),
          mem_strip _ (k1_off66_inb k) _ _ _ (k1_off66_eq k) _ q col rfl hqk (by omega)⟩
      · exact ⟨_, List.Mem.tail _ (List.Mem.tail _ (List.Mem.tail _ (List.Mem.head _))),
          mem_strip _ (k1_off67_inb k) _ _ _ (k1_off67_eq k) _ q col rfl hqk (by omega)⟩
      · exact ⟨_, List.Mem.tail _ (List.Mem.tail _ (List.Mem.head _)),
          mem_strip _ (k1_off68_inb k) _ _ _ (k1_off68_eq k) _ q col rfl hqk (by omega)⟩
      · exact ⟨_, List.Mem.tail _ (List.Mem.head _),
          mem_strip _ (k1_off69_inb k) _ _ _ (k1_off69_eq k) _ q col rfl hqk (by omega)⟩
      · exact ⟨_, List.Mem.head _,
          mem_strip _ (k1_off70_inb k) _ _ _ (k1_off70_eq k) _ q col rfl hqk (by omega)⟩
  · -- an earlier point: no strip of this trip reaches its row
    have hlt : q.val < k.val := by omega
    refine (View.read_writes_apply_of_forall_not_mem ovV.view fo (ix3 (3 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off70_inb k) _ _ _ (k1_off70_eq k) _ q col hqk
    · exact not_mem_strip_of_point_ne _ (k1_off69_inb k) _ _ _ (k1_off69_eq k) _ q col hqk
    · exact not_mem_strip_of_point_ne _ (k1_off68_inb k) _ _ _ (k1_off68_eq k) _ q col hqk
    · exact not_mem_strip_of_point_ne _ (k1_off67_inb k) _ _ _ (k1_off67_eq k) _ q col hqk
    · exact not_mem_strip_of_point_ne _ (k1_off66_inb k) _ _ _ (k1_off66_eq k) _ q col hqk
    · exact not_mem_strip_of_point_ne _ (k1_off65_inb k) _ _ _ (k1_off65_eq k) _ q col hqk
    · exact not_mem_strip_of_point_ne _ (k1_off64_inb k) _ _ _ (k1_off64_eq k) _ q col hqk
    · exact not_mem_strip_of_point_ne _ (k1_off63_inb k) _ _ _ (k1_off63_eq k) _ q col hqk

end Trip

end Cert.Proof.KI
end
-- ==== Proof.KI.TileBrA.lean ====
/-
  Three facts about a vector subcore's row-number scratch and its gathered rows.  The scratch of 32 rows is its 32
  rows side by side.  After the index fetch every word of a row of the scratch is a word of the tile's block of row
  numbers, so below the table's row count when every row number is.  And a rows slot on which the gather of row n has
  landed holds, at row r and column c, the table row that word r of row n of the tile's row numbers names, at column c.
-/
import proofs.«209143_g59700045415095_cont_9to1_m_37_38_alg».proof.Proof.KI.TileFl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The rows of the scratch -/

section Rows
variable (d : Dev nD) (L : grid1.Coords)

/-- The elements a row slice of the scratch names: the unit rectangle at its offsets. -/
theorem set_ivRowAt (off : Fin 2 → Nat) (hoff : ∀ a, off a + S1x128.size a ≤ S32x128.size a) :
    (ivRowAt off hoff).view.set = (Rect.unit (s := S32x128) off S1x128.size hoff).set := by
  show (((View.whole (cc1_scratch0 : Ref sig .scVector)).slice (Rect.unit (s := S32x128) off S1x128.size hoff)).reshape S128
    squeezes_S1x128_S128.numel_eq).set = _
  rw [View.set_reshape, View.set_slice_whole]

/-- Row n of the scratch is the elements with first coordinate n. -/
theorem mem_ivRow {n : ℕ} (h : n < 32) (i : S32x128.Idx) :
    i ∈ (ivRowAt (rowOff n) (rowOff_inb h)).view.set ↔ (i 0).val = n := by
  rw [set_ivRowAt, Rect.mem_set_unit, Fin.forall_fin_two]
  have h1 : (i 1).val < 128 := (i 1).isLt
  show (n ≤ (i 0).val ∧ (i 0).val < n + 1) ∧ (0 ≤ (i 1).val ∧ (i 1).val < 0 + 128) ↔ _
  omega

/-- Row t (read modulo thirty-two) of the scratch, as a set of its elements. -/
abbrev ivRowSet (t : ℕ) : Finset S32x128.Idx := (ivRowAt (rowOff (t % 32)) (rowOff_inb (mod32_lt t))).view.set

/-- The scratch whole is its thirty-two rows side by side. -/
theorem iv_split (f : Buf (Elt F) ((ivV).view.loc (V d (cV L) (jV L)))) :
    ((ivV).view.loc (V d (cV L) (jV L)) ↦{fullShare} f : sProp 𝕄) = homes (ivP d L f) 0 32 := by
  have hdisj : ∀ t ∈ Finset.Ico 0 32, ∀ t' ∈ Finset.Ico 0 32, t ≠ t' → Disjoint (ivRowSet t) (ivRowSet t') := by
    intro t ht t' ht' hne
    rw [Finset.mem_Ico] at ht ht'
    rw [Finset.disjoint_left]
    intro i hi hi'
    have h1 := (mem_ivRow (mod32_lt t) i).mp hi
    have h2 := (mem_ivRow (mod32_lt t') i).mp hi'
    omega
  unfold homes
  show _ = bigSep (Finset.Ico 0 32) fun t => (ivV).view.loc (V d (cV L) (jV L)) ↦[ivRowSet t]{fullShare} f
  refine Eq.trans ?_ (pointsTo_biUnion (ℓ := (ivV).view.loc (V d (cV L) (jV L))) (Finset.Ico 0 32) ivRowSet hdisj)
  refine congrArg (fun I => ((ivV).view.loc (V d (cV L) (jV L)) ↦[I]{fullShare} f : sProp 𝕄)) ?_
  refine (Finset.eq_univ_iff_forall.mpr fun i => ?_).symm
  rw [Finset.mem_biUnion]
  have h0 : (i 0).val < 32 := (i 0).isLt
  exact ⟨(i 0).val, Finset.mem_Ico.mpr ⟨Nat.zero_le _, h0⟩, (mem_ivRow (mod32_lt _) i).mpr (Nat.mod_eq_of_lt h0).symm⟩

/-! ## The words of a row after the index fetch -/

/-- A row slice of the scratch reads the scratch at its embedded index. -/
theorem ivRow_read (off : Fin 2 → Nat) (hoff : ∀ a, off a + S1x128.size a ≤ S32x128.size a)
    (g : Buf (Elt F) ((ivV).view.loc (V d (cV L) (jV L)))) (x : S128.Idx) :
    View.read (Elt F) (ivRowAt off hoff).view g x = g ((ivRowAt off hoff).view.emb x) :=
  (View.read_apply _ _).trans (cast_eq _ _)

/-- The scratch after the index fetch is the tile's block of row numbers as the body slices it. -/
theorem fivOf_eq (ix : Buf (Elt F) (idxLoc d)) (fi : Buf (Elt F) ((ivV).view.loc (V d (cV L) (jV L)))) :
    fivOf d L ix fi = (iRowK L).view.read (Elt F) ix := by
  unfold fivOf
  rw [ReadAs.apply_same]
  exact View.write_whole_univ _ _ _

/-- The block of row numbers reads the array of row numbers at its embedded index. -/
theorem iRowK_read (ix : Buf (Elt F) (idxLoc d)) (y : S32x128.Idx) :
    (iRowK L).view.read (Elt F) ix y = ix ((iRowK L).view.emb y) :=
  (View.read_apply _ _).trans (cast_eq _ _)

/-- Every word of a row of the scratch after the index fetch is a row number of the array, so below the table's
    row count when they all are. -/
theorem idx_inb (ix : Buf (Elt F) (idxLoc d)) (hidx : ∀ j : S32x32x128.Idx, (ix j).toNat < 262144)
    (fi : Buf (Elt F) ((ivV).view.loc (V d (cV L) (jV L)))) (off : Fin 2 → Nat)
    (hoff : ∀ a, off a + S1x128.size a ≤ S32x128.size a) :
    ∀ x : S128.Idx, (View.read (Elt F) (ivRowAt off hoff).view
      (View.write (Elt F) (ivV).view fi (ReadAs.same.apply ((iRowK L).view.read (Elt F) ix)) Finset.univ) x).toNat < 262144 := by
  intro x
  show (View.read (Elt F) (ivRowAt off hoff).view (fivOf d L ix fi) x).toNat < 262144
  rw [ivRow_read, fivOf_eq, iRowK_read]
  exact hidx _

end Rows

/-! ## Index bookkeeping: the three squeezes, and equal coordinates -/

section Idx

theorem idx2_eq' {n0 n1 : ℕ} {x y : (⟨2, ![n0, n1]⟩ : Shape).Idx} (h0 : (x 0).val = (y 0).val) (h1 : (x 1).val = (y 1).val) :
    x = y :=
  funext fun a => Fin.ext <| match a with | ⟨0, _⟩ => h0 | ⟨1, _⟩ => h1

theorem idx3_eq' {n0 n1 n2 : ℕ} {x y : (⟨3, ![n0, n1, n2]⟩ : Shape).Idx} (h0 : (x 0).val = (y 0).val)
    (h1 : (x 1).val = (y 1).val) (h2 : (x 2).val = (y 2).val) : x = y :=
  funext fun a => Fin.ext <| match a with | ⟨0, _⟩ => h0 | ⟨1, _⟩ => h1 | ⟨2, _⟩ => h2

/-- A list of 128 words seen as one row of 128. -/
theorem squeeze_row (x : S128.Idx) :
    Shape.reshapeEquiv squeezes_S1x128_S128.numel_eq x = (ix2 (0 : Fin 1) (x 0) : S1x128.Idx) :=
  Shape.reshapeEquiv_eq_of_rowMajor _ (by
    rw [Shape.rowMajor_val_two, Shape.rowMajor_val_one]
    show 0 * 128 + (x 0).val = (x 0).val
    omega)

/-- A 32 × 128 block seen as one block of a stack. -/
theorem squeeze_blk (y : S32x128.Idx) :
    Shape.reshapeEquiv squeezes_S1x32x128_S32x128.numel_eq y = (ix3 (0 : Fin 1) (y 0) (y 1) : S1x32x128.Idx) :=
  Shape.reshapeEquiv_eq_of_rowMajor _ (by
    rw [Shape.rowMajor_val_three, Shape.rowMajor_val_two]
    show (0 * 32 + (y 0).val) * 128 + (y 1).val = (y 0).val * 128 + (y 1).val
    omega)

/-- A 128 × 128 slot seen as one slot of a ring. -/
theorem squeeze_slot (y : S128x128.Idx) :
    Shape.reshapeEquiv squeezes_S1x128x128_S128x128.numel_eq y = (ix3 (0 : Fin 1) (y 0) (y 1) : S1x128x128.Idx) :=
  Shape.reshapeEquiv_eq_of_rowMajor _ (by
    rw [Shape.rowMajor_val_three, Shape.rowMajor_val_two]
    show (0 * 128 + (y 0).val) * 128 + (y 1).val = (y 0).val * 128 + (y 1).val
    omega)

end Idx

/-! ## A rows slot after the gather of a row has landed -/

section Landed
variable (d : Dev nD) (L : grid1.Coords)

/-- The scratch element that entry r of the row slice at offsets off names. -/
theorem ivRow_emb (off : Fin 2 → Nat) (hoff : ∀ a, off a + S1x128.size a ≤ S32x128.size a) (x : S128.Idx) :
    (((ivRowAt off hoff).view.emb x) 0).val = off 0 ∧ (((ivRowAt off hoff).view.emb x) 1).val = off 1 + (x 0).val := by
  have e : (ivRowAt off hoff).view.emb x
      = (Rect.unit (s := S32x128) off S1x128.size hoff).emb (Shape.reshapeEquiv squeezes_S1x128_S128.numel_eq x) := rfl
  rw [e, squeeze_row]
  exact ⟨by show off 0 + 1 * 0 = off 0; omega, by show off 1 + 1 * (x 0).val = off 1 + (x 0).val; omega⟩

/-- The row number that element (r, c) of the tile's block names in the array of row numbers. -/
theorem iRowK_emb (y : S32x128.Idx) :
    (iRowK L).view.emb y = (ix3 (wL L) (y 0) (y 1) : S32x32x128.Idx) := by
  have e : (iRowK L).view.emb y
      = (iRectK L).emb (Shape.reshapeEquiv squeezes_S1x32x128_S32x128.numel_eq y) := rfl
  rw [e, squeeze_blk]
  have hk := k1_off1_eq L
  refine idx3_eq' ?_ ?_ ?_
  · show k1_off1 L 0 + 1 * 0 = 2 * (L 1).val + (L 0).val
    rw [hk]; show 2 * (L 1).val + (L 0).val + 1 * 0 = _; omega
  · show k1_off1 L 1 + 1 * (y 0).val = (y 0).val
    rw [hk]; show 0 + 1 * (y 0).val = _; omega
  · show k1_off1 L 2 + 1 * (y 1).val = (y 1).val
    rw [hk]; show 0 + 1 * (y 1).val = _; omega

/-- Word r of row n of the scratch after the index fetch is word r of row n of the tile's row numbers. -/
theorem fiv_word (ix : Buf (Elt F) (idxLoc d)) (fi : Buf (Elt F) ((ivV).view.loc (V d (cV L) (jV L))))
    {n : ℕ} (hn : n < 32) (off : Fin 2 → Nat) (hoff : ∀ a, off a + S1x128.size a ≤ S32x128.size a) (e : off = rowOff n)
    (r : Fin 128) :
    View.read (Elt F) (ivRowAt off hoff).view (fivOf d L ix fi) (ix1 r)
      = ix (ix3 (wL L) (⟨n % 32, Nat.mod_lt _ (by decide)⟩ : Fin 32) r) := by
  rw [ivRow_read, fivOf_eq, iRowK_read, iRowK_emb]
  obtain ⟨h0, h1⟩ := ivRow_emb off hoff (ix1 r)
  subst e
  congr 1
  refine idx3_eq' rfl ?_ ?_
  · show (((ivRowAt (rowOff n) hoff).view.emb (ix1 r)) 0).val = n % 32
    rw [h0, Nat.mod_eq_of_lt hn]; rfl
  · show (((ivRowAt (rowOff n) hoff).view.emb (ix1 r)) 1).val = r.val
    rw [h1]; show 0 + r.val = r.val; omega

/-- A rows slot of the ring at offsets off3, as the body slices it. -/
abbrev rSlotAt (off3 : Fin 3 → Nat) (inb : ∀ a, off3 a + S1x128x128.size a ≤ S4x128x128.size a) :
    Memref sig .scVector .vmem S128x128 .f32 :=
  ((rvV).slice (Rect.unit (s := S4x128x128) off3 S1x128x128.size inb) (fun _ => rfl)).squeeze S128x128 squeezes_S1x128x128_S128x128

/-- The ring element that (r, c) of the slot at offsets off3 names. -/
theorem rSlot_emb (off3 : Fin 3 → Nat) (inb : ∀ a, off3 a + S1x128x128.size a ≤ S4x128x128.size a) (y : S128x128.Idx) :
    (((rSlotAt off3 inb).view.emb y) 0).val = off3 0 ∧ (((rSlotAt off3 inb).view.emb y) 1).val = off3 1 + (y 0).val
      ∧ (((rSlotAt off3 inb).view.emb y) 2).val = off3 2 + (y 1).val := by
  have e : (rSlotAt off3 inb).view.emb y
      = (Rect.unit (s := S4x128x128) off3 S1x128x128.size inb).emb (Shape.reshapeEquiv squeezes_S1x128x128_S128x128.numel_eq y) := rfl
  rw [e, squeeze_slot]
  exact ⟨by show off3 0 + 1 * 0 = off3 0; omega, by show off3 1 + 1 * (y 0).val = _; omega,
    by show off3 2 + 1 * (y 1).val = _; omega⟩

/-- One write of a whole slot leaves the written values at the slot's elements. -/
theorem rSlot_written (off3 : Fin 3 → Nat) (inb : ∀ a, off3 a + S1x128x128.size a ≤ S4x128x128.size a)
    (fr : Buf (Elt F) ((rSlotAt off3 inb).view.loc (V d (cV L) (jV L)))) (w : S128x128.Idx → Elt F .f32) (y : S128x128.Idx) :
    (rSlotAt off3 inb).view.writes (Elt F) fr [⟨Rect.whole S128x128, w⟩] ((rSlotAt off3 inb).view.emb y) = w y := by
  rw [View.writes_singleton]
  have hy : (rSlotAt off3 inb).view.emb y = ((rSlotAt off3 inb).view.slice (Rect.whole S128x128)).emb y := by
    show _ = (rSlotAt off3 inb).view.emb ((Rect.whole S128x128).emb y)
    rw [Rect.emb_whole_apply]
  rw [hy, View.write_emb_of_mem _ _ (Finset.mem_univ y)]
  exact cast_eq _ _

/-- THE LANDED ROWS: a slot on which the gather of row n of the scratch has landed holds, at row r and column c, the
    table row that word r of row n of the tile's row numbers names, at column c. -/
theorem rows_landed_at (off3 : Fin 3 → Nat) (inb : ∀ a, off3 a + S1x128x128.size a ≤ S4x128x128.size a)
    (h12 : off3 1 = 0 ∧ off3 2 = 0)
    (tb : Buf (Elt F) (tblLoc d)) (ix : Buf (Elt F) (idxLoc d)) (fi : Buf (Elt F) ((ivV).view.loc (V d (cV L) (jV L))))
    {n : ℕ} (hn : n < 32) (fr : Buf (Elt F) ((rSlotAt off3 inb).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlotAt off3 inb).view.set,
      (rSlotAt off3 inb).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j := by
  intro j hj
  obtain ⟨y, -, rfl⟩ := Finset.mem_map.mp (show j ∈ Finset.univ.map (rSlotAt off3 inb).view.emb from hj)
  rw [rSlot_written]
  obtain ⟨-, e1, e2⟩ := rSlot_emb off3 inb y
  unfold SparseCore.gatherPayload rCanF
  rw [show (tblAll).view.read (Elt F) tb (gathers_S262144x128_S128x128.idx
        (SparseCore.rows ((ivRowAt off hoff).view.read (Elt F) (fivOf d L ix fi)) hnum hin') y)
      = tb ((tblAll).view.emb (gathers_S262144x128_S128x128.idx
        (SparseCore.rows ((ivRowAt off hoff).view.read (Elt F) (fivOf d L ix fi)) hnum hin') y))
    from (View.read_apply _ _).trans (cast_eq _ _)]
  congr 1
  -- the word the list names for row (y 0)
  have hsym : S128.rowMajor.symm ((y 0).cast hnum.symm) = ix1 (⟨(y 0).val, (y 0).isLt⟩ : Fin 128) := by
    rw [Equiv.symm_apply_eq]
    exact Fin.ext (by rw [Shape.rowMajor_val_one]; rfl)
  have hword := fiv_word d L ix fi hn off hoff e (⟨(y 0).val, (y 0).isLt⟩ : Fin 128)
  have hlt := hin' (ix1 (⟨(y 0).val, (y 0).isLt⟩ : Fin 128))
  rw [hword] at hlt
  refine idx2_eq' ?_ ?_
  · -- the table row
    show 0 + 1 * ((gathers_S262144x128_S128x128.idx
        (SparseCore.rows ((ivRowAt off hoff).view.read (Elt F) (fivOf d L ix fi)) hnum hin') y) 0).val = _
    have hax := gathers_S262144x128_S128x128.idx_axis
      (SparseCore.rows ((ivRowAt off hoff).view.read (Elt F) (fivOf d L ix fi)) hnum hin') y
    rw [show (gathers_S262144x128_S128x128.idx
        (SparseCore.rows ((ivRowAt off hoff).view.read (Elt F) (fivOf d L ix fi)) hnum hin') y) 0
      = SparseCore.rows ((ivRowAt off hoff).view.read (Elt F) (fivOf d L ix fi)) hnum hin' (y 0) from hax]
    unfold SparseCore.rows
    show 0 + 1 * (((ivRowAt off hoff).view.read (Elt F) (fivOf d L ix fi)) (S128.rowMajor.symm ((y 0).cast hnum.symm))).toNat = _
    rw [hsym, hword]
    show _ = (ix (ix3 (wL L) (⟨n % 32, Nat.mod_lt _ (by decide)⟩ : Fin 32) ((rSlotAt off3 inb).view.emb y 1))).toNat % 262144
    have hr : ((rSlotAt off3 inb).view.emb y 1) = (⟨(y 0).val, (y 0).isLt⟩ : Fin 128) := Fin.ext (by rw [e1, h12.1]; show 0 + (y 0).val = (y 0).val; omega)
    have hlt' : (ix (ix3 (wL L) (⟨n % 32, Nat.mod_lt _ (by decide)⟩ : Fin 32) (⟨(y 0).val, (y 0).isLt⟩ : Fin 128))).toNat < 262144 := hlt
    rw [hr, Nat.mod_eq_of_lt hlt']
    omega
  · -- the column
    show 0 + 1 * ((gathers_S262144x128_S128x128.idx
        (SparseCore.rows ((ivRowAt off hoff).view.read (Elt F) (fivOf d L ix fi)) hnum hin') y) 1).val = ((rSlotAt off3 inb).view.emb y 2).val
    rw [gathers_S262144x128_S128x128.idx_of_ne _ y 1 (by decide), e2, h12.2]
    show 0 + 1 * (y 1).val = 0 + (y 1).val
    omega

theorem rows_landed0 (tb : Buf (Elt F) (tblLoc d)) (ix : Buf (Elt F) (idxLoc d)) (fi : Buf (Elt F) ((ivV).view.loc (V d (cV L) (jV L))))
    {n : ℕ} (hn : n < 32) (fr : Buf (Elt F) ((rSlot0).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot0).view.set,
      (rSlot0).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![0, 0, 0] inb_S4x128x128_S1x128x128_0_0_0 ⟨rfl, rfl⟩ tb ix fi hn fr off hoff e hnum hin'

theorem rows_landed1 (tb : Buf (Elt F) (tblLoc d)) (ix : Buf (Elt F) (idxLoc d)) (fi : Buf (Elt F) ((ivV).view.loc (V d (cV L) (jV L))))
    {n : ℕ} (hn : n < 32) (fr : Buf (Elt F) ((rSlot1).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot1).view.set,
      (rSlot1).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![1, 0, 0] inb_S4x128x128_S1x128x128_1_0_0 ⟨rfl, rfl⟩ tb ix fi hn fr off hoff e hnum hin'

theorem rows_landed2 (tb : Buf (Elt F) (tblLoc d)) (ix : Buf (Elt F) (idxLoc d)) (fi : Buf (Elt F) ((ivV).view.loc (V d (cV L) (jV L))))
    {n : ℕ} (hn : n < 32) (fr : Buf (Elt F) ((rSlot2).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot2).view.set,
      (rSlot2).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![2, 0, 0] inb_S4x128x128_S1x128x128_2_0_0 ⟨rfl, rfl⟩ tb ix fi hn fr off hoff e hnum hin'

theorem rows_landed3 (tb : Buf (Elt F) (tblLoc d)) (ix : Buf (Elt F) (idxLoc d)) (fi : Buf (Elt F) ((ivV).view.loc (V d (cV L) (jV L))))
    {n : ℕ} (hn : n < 32) (fr : Buf (Elt F) ((rSlot3).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot3).view.set,
      (rSlot3).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![3, 0, 0] inb_S4x128x128_S1x128x128_3_0_0 ⟨rfl, rfl⟩ tb ix fi hn fr off hoff e hnum hin'

end Landed

end Cert.Proof.KI

end
-- ==== Proof.KI.TileBrB.lean ====
/-
  What lands in a slot, and in the result array, read element by element.

  A weights slot is the weights ring's slice at one slot number, squeezed to sixteen points by 128 lanes; a result slot
  the same of the result ring. Element (p, c) of a slot sits at (slot, p, c) of its ring. A copy that fills a weights
  slot from chunk n of the tile's weights (rows 512·w + 16·n … of the weights array, w the tile's worker number) leaves,
  at every element of the slot, the weight row 512·w + 16·n + p at lane c. A copy of a result slot that holds the point
  loop's balanced sums for chunk n into chunk n of the tile's rows of the result leaves there, at row 512·w + 16·n + p and
  column c, the balanced sum over the eight corners k of weight (row, 16·k + c mod 16) times the table row that entry
  8·p + k of row n of the tile's row numbers names: point P = 512·w + 16·n + p has P / 512 = w, (P mod 512) / 16 = n and
  (P mod 16)·8 + k = 8·p + k, so this is the gathered sum at that row. Two contents of a result ring that agree at
  (slot, q, c) for every q and c are the same as far as that slot is concerned.
-/
import proofs.«209143_g59700045415095_cont_9to1_m_37_38_alg».proof.Proof.KI.TileFl
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## One unmasked write of a whole view, read under the view -/

/-- After one unmasked write of the payload w through the whole of a view, the buffer holds w x under the view's index x. -/
theorem writes_whole_emb {σ : RefSig} {κ : Kind} {sp : Space} {s : Shape} {e : EltTy} (v : View σ κ sp s e) (Val : EltTy → Type)
    (f : v.ty.Contents Val) (w : s.Idx → Val e) (x : s.Idx) :
    v.writes Val f [⟨Rect.whole s, w⟩] (v.emb x) = _root_.cast (congrArg Val v.elt_eq.symm) (w x) := by
  rw [View.writes_singleton]
  have hx : v.emb x = (v.slice (Rect.whole s)).emb x := by
    show v.emb x = v.emb ((Rect.whole s).emb x)
    rw [Rect.emb_whole_apply]
  rw [hx]
  exact View.write_emb_of_mem _ _ (Finset.mem_univ _)

/-! ## Where a slot's elements sit in its ring, a chunk's in its array -/

/-- Sixteen points by 128 lanes counted with a leading unit axis: (p, c) is (0, p, c). -/
theorem squeeze_idx (h : S16x128.numel = S1x16x128.numel) (p : Fin 16) (c : Fin 128) :
    Shape.reshapeEquiv (s := S1x16x128) (s' := S16x128) h (ix2 p c) = ix3 (0 : Fin 1) p c :=
  Shape.reshapeEquiv_eq_of_rowMajor h (by
    rw [Shape.rowMajor_val_three, Shape.rowMajor_val_two]
    show ((0 : ℕ) * 16 + p.val) * 128 + c.val = p.val * 128 + c.val
    omega)

/-- A slot of the weights ring at ring offsets off3. -/
abbrev wSlotAt (off3 : Fin 3 → ℕ) (inb3 : ∀ a, off3 a + S1x16x128.size a ≤ S4x16x128.size a) : Memref sig .scVector .vmem S16x128 .f32 :=
  ((wvV).slice (Rect.unit (s := S4x16x128) off3 S1x16x128.size inb3) (fun _ => rfl)).squeeze S16x128 squeezes_S1x16x128_S16x128
/-- A slot of the result ring at ring offsets off3. -/
abbrev oSlotAt (off3 : Fin 3 → ℕ) (inb3 : ∀ a, off3 a + S1x16x128.size a ≤ S4x16x128.size a) : Memref sig .scVector .vmem S16x128 .f32 :=
  ((ovV).slice (Rect.unit (s := S4x16x128) off3 S1x16x128.size inb3) (fun _ => rfl)).squeeze S16x128 squeezes_S1x16x128_S16x128

/-- Element (p, c) of the weights slot b is element (b, p, c) of the ring. -/
theorem wSlotAt_emb (off3 : Fin 3 → ℕ) (inb3 : ∀ a, off3 a + S1x16x128.size a ≤ S4x16x128.size a) (b : Fin 4)
    (h0 : off3 0 = b.val) (h1 : off3 1 = 0) (h2 : off3 2 = 0) (p : Fin 16) (c : Fin 128) :
    (wSlotAt off3 inb3).view.emb (ix2 p c) = ix3 b p c := by
  funext a
  apply Fin.ext
  match a with
  | ⟨0, _⟩ =>
    show off3 0 + 1 * ((Shape.reshapeEquiv (s := S1x16x128) (s' := S16x128) squeezes_S1x16x128_S16x128.numel_eq (ix2 p c)) 0).val = b.val
    rw [squeeze_idx]; show off3 0 + 1 * 0 = b.val; omega
  | ⟨1, _⟩ =>
    show off3 1 + 1 * ((Shape.reshapeEquiv (s := S1x16x128) (s' := S16x128) squeezes_S1x16x128_S16x128.numel_eq (ix2 p c)) 1).val = p.val
    rw [squeeze_idx]; show off3 1 + 1 * p.val = p.val; omega
  | ⟨2, _⟩ =>
    show off3 2 + 1 * ((Shape.reshapeEquiv (s := S1x16x128) (s' := S16x128) squeezes_S1x16x128_S16x128.numel_eq (ix2 p c)) 2).val = c.val
    rw [squeeze_idx]; show off3 2 + 1 * c.val = c.val; omega

/-- Element (p, c) of the result slot b is element (b, p, c) of the ring. -/
theorem oSlotAt_emb (off3 : Fin 3 → ℕ) (inb3 : ∀ a, off3 a + S1x16x128.size a ≤ S4x16x128.size a) (b : Fin 4)
    (h0 : off3 0 = b.val) (h1 : off3 1 = 0) (h2 : off3 2 = 0) (p : Fin 16) (c : Fin 128) :
    (oSlotAt off3 inb3).view.emb (ix2 p c) = ix3 b p c := by
  funext a
  apply Fin.ext
  match a with
  | ⟨0, _⟩ =>
    show off3 0 + 1 * ((Shape.reshapeEquiv (s := S1x16x128) (s' := S16x128) squeezes_S1x16x128_S16x128.numel_eq (ix2 p c)) 0).val = b.val
    rw [squeeze_idx]; show off3 0 + 1 * 0 = b.val; omega
  | ⟨1, _⟩ =>
    show off3 1 + 1 * ((Shape.reshapeEquiv (s := S1x16x128) (s' := S16x128) squeezes_S1x16x128_S16x128.numel_eq (ix2 p c)) 1).val = p.val
    rw [squeeze_idx]; show off3 1 + 1 * p.val = p.val; omega
  | ⟨2, _⟩ =>
    show off3 2 + 1 * ((Shape.reshapeEquiv (s := S1x16x128) (s' := S16x128) squeezes_S1x16x128_S16x128.numel_eq (ix2 p c)) 2).val = c.val
    rw [squeeze_idx]; show off3 2 + 1 * c.val = c.val; omega

section Chunks
variable (L : grid1.Coords)

theorem chunkRow_lt {n : ℕ} (hn : n < 32) (p : Fin 16) : 512 * (wL L).val + 16 * n + p.val < 16384 := by
  have := wL_lt L; have := wL_val L; have := p.isLt; omega

/-- Point p of chunk n of the tile, among all points. -/
def chunkPt {n : ℕ} (hn : n < 32) (p : Fin 16) : Fin 16384 := ⟨512 * (wL L).val + 16 * n + p.val, chunkRow_lt L hn p⟩

/-- Element (p, c) of chunk n of the tile's weights is row 512·w + 16·n + p, lane c, of the weights. -/
theorem wChunk_emb {n : ℕ} (hn : n < 32) (hoff : ∀ a, chunkOff L n a + S16x128.size a ≤ S16384x128.size a) (p : Fin 16) (c : Fin 128) :
    (wChunkAt (chunkOff L n) hoff).view.emb (ix2 p c) = ix2 (chunkPt L hn p) c := by
  have h0 := L0_lt L; have h1 := L1_lt L; have hw := wL_val L
  funext a
  apply Fin.ext
  match a with
  | ⟨0, _⟩ => show 1024 * (L 1).val + 512 * (L 0).val + 16 * n + 1 * p.val = 512 * (wL L).val + 16 * n + p.val; omega
  | ⟨1, _⟩ => show 0 + 1 * c.val = c.val; omega

/-- The same of the tile's rows of the result. -/
theorem oChunk_emb {n : ℕ} (hn : n < 32) (hoff : ∀ a, chunkOff L n a + S16x128.size a ≤ S16384x128.size a) (p : Fin 16) (c : Fin 128) :
    (oChunkAt (chunkOff L n) hoff).view.emb (ix2 p c) = ix2 (chunkPt L hn p) c := by
  have h0 := L0_lt L; have h1 := L1_lt L; have hw := wL_val L
  funext a
  apply Fin.ext
  match a with
  | ⟨0, _⟩ => show 1024 * (L 1).val + 512 * (L 0).val + 16 * n + 1 * p.val = 512 * (wL L).val + 16 * n + p.val; omega
  | ⟨1, _⟩ => show 0 + 1 * c.val = c.val; omega

end Chunks

/-! ## A weights slot after chunk n has landed -/

section Landed
variable [FloatOps F] (d : Dev nD) (L : grid1.Coords)

/-- A weights slot holding chunk n reads, at ring element (b, p, c), weight row 512·w + 16·n + p at lane c. -/
theorem wCanF_at (wv : FVec F S16384x128 .f32) {n : ℕ} (hn : n < 32) (b : Fin 4) (p : Fin 16) (c : Fin 128) :
    wCanF L wv n (ix3 b p c) = wv (ix2 (chunkPt L hn p) c) := by
  unfold wCanF
  refine congrArg wv ?_
  have := chunkRow_lt L hn p
  funext a
  match a with
  | ⟨0, _⟩ => exact Fin.ext (by show (512 * (wL L).val + 16 * n + p.val) % 16384 = 512 * (wL L).val + 16 * n + p.val; omega)
  | ⟨1, _⟩ => rfl

/-- The weights copy of chunk n into the slot at ring offsets (b, 0, 0) leaves the slot at the chunk's weights. -/
theorem w_landed_at (off3 : Fin 3 → ℕ) (inb3 : ∀ a, off3 a + S1x16x128.size a ≤ S4x16x128.size a) (b : Fin 4)
    (h0 : off3 0 = b.val) (h1 : off3 1 = 0) (h2 : off3 2 = 0)
    (wv : Buf (Elt F) (wLoc d)) {n : ℕ} (hn : n < 32) (fw : Buf (Elt F) ((wSlotAt off3 inb3).view.loc (V d (cV L) (jV L))))
    (off : Fin 2 → Nat) (hoff : ∀ a, off a + S16x128.size a ≤ S16384x128.size a) (e : off = chunkOff L n) :
    ∀ j ∈ (wSlotAt off3 inb3).view.set,
      (wSlotAt off3 inb3).view.writes (Elt F) fw [⟨Rect.whole S16x128, ReadAs.same.apply ((wChunkAt off hoff).view.read (Elt F) wv)⟩] j
        = wCanF L wv n j := by
  subst e
  intro j hj
  obtain ⟨x, -, rfl⟩ := Finset.mem_map.mp hj
  obtain ⟨p, c, rfl⟩ : ∃ (p : Fin 16) (c : Fin 128), x = ix2 p c := ⟨x 0, x 1, eq_ix2 x⟩
  refine (writes_whole_emb _ _ _ _ (ix2 p c)).trans ?_
  show wv ((wChunkAt (chunkOff L n) hoff).view.emb (ix2 p c)) = wCanF L wv n ((wSlotAt off3 inb3).view.emb (ix2 p c))
  rw [wChunk_emb L hn hoff p c, wSlotAt_emb off3 inb3 b h0 h1 h2 p c, wCanF_at L wv hn]

theorem w_landed0 (wv : Buf (Elt F) (wLoc d)) {n : ℕ} (hn : n < 32) (fw : Buf (Elt F) ((wSlot0).view.loc (V d (cV L) (jV L))))
    (off : Fin 2 → Nat) (hoff : ∀ a, off a + S16x128.size a ≤ S16384x128.size a) (e : off = chunkOff L n) :
    ∀ j ∈ (wSlot0).view.set, (wSlot0).view.writes (Elt F) fw [⟨Rect.whole S16x128, ReadAs.same.apply ((wChunkAt off hoff).view.read (Elt F) wv)⟩] j = wCanF L wv n j :=
  w_landed_at d L _ _ (0 : Fin 4) rfl rfl rfl wv hn fw off hoff e
theorem w_landed1 (wv : Buf (Elt F) (wLoc d)) {n : ℕ} (hn : n < 32) (fw : Buf (Elt F) ((wSlot1).view.loc (V d (cV L) (jV L))))
    (off : Fin 2 → Nat) (hoff : ∀ a, off a + S16x128.size a ≤ S16384x128.size a) (e : off = chunkOff L n) :
    ∀ j ∈ (wSlot1).view.set, (wSlot1).view.writes (Elt F) fw [⟨Rect.whole S16x128, ReadAs.same.apply ((wChunkAt off hoff).view.read (Elt F) wv)⟩] j = wCanF L wv n j :=
  w_landed_at d L _ _ (1 : Fin 4) rfl rfl rfl wv hn fw off hoff e
theorem w_landed2 (wv : Buf (Elt F) (wLoc d)) {n : ℕ} (hn : n < 32) (fw : Buf (Elt F) ((wSlot2).view.loc (V d (cV L) (jV L))))
    (off : Fin 2 → Nat) (hoff : ∀ a, off a + S16x128.size a ≤ S16384x128.size a) (e : off = chunkOff L n) :
    ∀ j ∈ (wSlot2).view.set, (wSlot2).view.writes (Elt F) fw [⟨Rect.whole S16x128, ReadAs.same.apply ((wChunkAt off hoff).view.read (Elt F) wv)⟩] j = wCanF L wv n j :=
  w_landed_at d L _ _ (2 : Fin 4) rfl rfl rfl wv hn fw off hoff e
theorem w_landed3 (wv : Buf (Elt F) (wLoc d)) {n : ℕ} (hn : n < 32) (fw : Buf (Elt F) ((wSlot3).view.loc (V d (cV L) (jV L))))
    (off : Fin 2 → Nat) (hoff : ∀ a, off a + S16x128.size a ≤ S16384x128.size a) (e : off = chunkOff L n) :
    ∀ j ∈ (wSlot3).view.set, (wSlot3).view.writes (Elt F) fw [⟨Rect.whole S16x128, ReadAs.same.apply ((wChunkAt off hoff).view.read (Elt F) wv)⟩] j = wCanF L wv n j :=
  w_landed_at d L _ _ (3 : Fin 4) rfl rfl rfl wv hn fw off hoff e

/-! ## The tile's rows of the result after the result copy of chunk n has landed -/

/-- The balanced sum of eight terms, in the order the point loop adds them. -/
def bal8 (t : Fin 8 → F .f32) : F .f32 :=
  FloatOps.addf (FloatOps.addf (FloatOps.addf (t 0) (t 1)) (FloatOps.addf (t 2) (t 3)))
    (FloatOps.addf (FloatOps.addf (t 4) (t 5)) (FloatOps.addf (t 6) (t 7)))

theorem ptOut_eq (fw : FVec F S4x16x128 .f32) (fr : FVec F S4x128x128 .f32) (b : Fin 4) (p : Fin 16) (c : Fin 128) :
    ptOut fw fr (ix3 b p c) = bal8 (ptTerm fw fr b p c) := rfl
theorem skip_eq (tb : FVec F S262144x128 .f32) (ix : IVec S32x32x128 32) (wv : FVec F S16384x128 .f32) (P : Fin 16384) (c : Fin 128) :
    skip tb ix wv (ix2 P c) = bal8 (cornerTerm tb ix wv P c) := rfl

/-- One corner's term from a slot holding chunk n is that corner's term of the gathered sum at the chunk's point. -/
theorem ptTerm_can (tb : FVec F S262144x128 .f32) (ix : IVec S32x32x128 32) (wv : FVec F S16384x128 .f32) {n : ℕ} (hn : n < 32)
    (b : Fin 4) (p : Fin 16) (c : Fin 128) (k : Fin 8) :
    ptTerm (wCanF L wv n) (rCanF L tb ix n) b p c k = cornerTerm tb ix wv (chunkPt L hn p) c k := by
  have hw := wL_lt L
  have hwv := wL_val L
  have hp := p.isLt
  have hk := k.isLt
  have hP : (chunkPt L hn p).val = 512 * (wL L).val + 16 * n + p.val := rfl
  unfold ptTerm cornerTerm
  rw [wCanF_at L wv hn]
  refine congrArg (FloatOps.mulf _) ?_
  unfold rCanF
  refine congrArg tb ?_
  have eI : ix3 (wL L) (⟨n % 32, Nat.mod_lt _ (by decide)⟩ : Fin 32) (⟨8 * p.val + k.val, by omega⟩ : Fin 128)
      = ix3 (⟨(chunkPt L hn p).val / 512, by omega⟩ : Fin 32) (⟨(chunkPt L hn p).val % 512 / 16, by omega⟩ : Fin 32)
          (⟨(chunkPt L hn p).val % 16 * 8 + k.val, by omega⟩ : Fin 128) := by
    funext a
    match a with
    | ⟨0, _⟩ => exact Fin.ext (by show (wL L).val = (chunkPt L hn p).val / 512; omega)
    | ⟨1, _⟩ => exact Fin.ext (by show n % 32 = (chunkPt L hn p).val % 512 / 16; omega)
    | ⟨2, _⟩ => exact Fin.ext (by show 8 * p.val + k.val = (chunkPt L hn p).val % 16 * 8 + k.val; omega)
  show ix2 (rowOf (ix (ix3 (wL L) (⟨n % 32, Nat.mod_lt _ (by decide)⟩ : Fin 32) (⟨8 * p.val + k.val, by omega⟩ : Fin 128)))) c = _
  rw [eI]

/-- The result copy of chunk n out of the slot at ring offsets (b, 0, 0), which holds the point loop's sums for chunk
    n, leaves the chunk's rows of the result at the gathered sum. -/
theorem out_landed_at (off3 : Fin 3 → ℕ) (inb3 : ∀ a, off3 a + S1x16x128.size a ≤ S4x16x128.size a) (b : Fin 4)
    (h0 : off3 0 = b.val) (h1 : off3 1 = 0) (h2 : off3 2 = 0)
    (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set,
      (oChunkAt off hoff).view.writes (Elt F) fo [⟨Rect.whole S16x128, ReadAs.same.apply ((oSlotAt off3 inb3).view.read (Elt F) (oCanF L tb ix wv n))⟩] j
        = skip (F := F) tb ix wv j := by
  subst e
  intro j hj
  obtain ⟨x, -, rfl⟩ := Finset.mem_map.mp hj
  obtain ⟨p, c, rfl⟩ : ∃ (p : Fin 16) (c : Fin 128), x = ix2 p c := ⟨x 0, x 1, eq_ix2 x⟩
  refine (writes_whole_emb _ _ _ _ (ix2 p c)).trans ?_
  show oCanF L tb ix wv n ((oSlotAt off3 inb3).view.emb (ix2 p c)) = skip (F := F) tb ix wv ((oChunkAt (chunkOff L n) hoff).view.emb (ix2 p c))
  rw [oSlotAt_emb off3 inb3 b h0 h1 h2 p c, oChunk_emb L hn hoff p c]
  unfold oCanF
  rw [ptOut_eq, skip_eq]
  exact congrArg bal8 (funext fun k => ptTerm_can L tb ix wv hn b p c k)

theorem out_landed0 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot0).view.read (Elt F) (oCanF L tb ix wv n))⟩] j = skip (F := F) tb ix wv j :=
  out_landed_at d L _ _ (0 : Fin 4) rfl rfl rfl tb ix wv hn fo off hoff e
theorem out_landed1 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot1).view.read (Elt F) (oCanF L tb ix wv n))⟩] j = skip (F := F) tb ix wv j :=
  out_landed_at d L _ _ (1 : Fin 4) rfl rfl rfl tb ix wv hn fo off hoff e
theorem out_landed2 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot2).view.read (Elt F) (oCanF L tb ix wv n))⟩] j = skip (F := F) tb ix wv j :=
  out_landed_at d L _ _ (2 : Fin 4) rfl rfl rfl tb ix wv hn fo off hoff e
theorem out_landed3 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot3).view.read (Elt F) (oCanF L tb ix wv n))⟩] j = skip (F := F) tb ix wv j :=
  out_landed_at d L _ _ (3 : Fin 4) rfl rfl rfl tb ix wv hn fo off hoff e

end Landed

/-! ## A result slot held at two contents that agree on the slot -/

section Congr
variable (d : Dev nD) (L : grid1.Coords)

theorem oSlot_congr_at (off3 : Fin 3 → ℕ) (inb3 : ∀ a, off3 a + S1x16x128.size a ≤ S4x16x128.size a) (b : Fin 4)
    (h0 : off3 0 = b.val) (h1 : off3 1 = 0) (h2 : off3 2 = 0)
    (f g : Buf (Elt F) ((oSlotAt off3 inb3).view.loc (V d (cV L) (jV L))))
    (h : ∀ (q : Fin 16) (col : Fin 128), f (ix3 b q col) = g (ix3 b q col)) :
    (((oSlotAt off3 inb3).view.loc (V d (cV L) (jV L)) ↦[(oSlotAt off3 inb3).view.set]{fullShare} f) : sProp 𝕄)
      = ((oSlotAt off3 inb3).view.loc (V d (cV L) (jV L)) ↦[(oSlotAt off3 inb3).view.set]{fullShare} g) := by
  refine pointsTo_congr fun i hi => ?_
  obtain ⟨x, -, rfl⟩ := Finset.mem_map.mp hi
  obtain ⟨p, c, rfl⟩ : ∃ (p : Fin 16) (c : Fin 128), x = ix2 p c := ⟨x 0, x 1, eq_ix2 x⟩
  rw [oSlotAt_emb off3 inb3 b h0 h1 h2 p c]
  exact h p c

theorem oSlot0_congr (f g : Buf (Elt F) ((oSlot0).view.loc (V d (cV L) (jV L))))
    (h : ∀ (q : Fin 16) (col : Fin 128), f (ix3 (0 : Fin 4) q col) = g (ix3 (0 : Fin 4) q col)) :
    (((oSlot0).view.loc (V d (cV L) (jV L)) ↦[(oSlot0).view.set]{fullShare} f) : sProp 𝕄) = ((oSlot0).view.loc (V d (cV L) (jV L)) ↦[(oSlot0).view.set]{fullShare} g) :=
  oSlot_congr_at d L _ _ (0 : Fin 4) rfl rfl rfl f g h
theorem oSlot1_congr (f g : Buf (Elt F) ((oSlot1).view.loc (V d (cV L) (jV L))))
    (h : ∀ (q : Fin 16) (col : Fin 128), f (ix3 (1 : Fin 4) q col) = g (ix3 (1 : Fin 4) q col)) :
    (((oSlot1).view.loc (V d (cV L) (jV L)) ↦[(oSlot1).view.set]{fullShare} f) : sProp 𝕄) = ((oSlot1).view.loc (V d (cV L) (jV L)) ↦[(oSlot1).view.set]{fullShare} g) :=
  oSlot_congr_at d L _ _ (1 : Fin 4) rfl rfl rfl f g h
theorem oSlot2_congr (f g : Buf (Elt F) ((oSlot2).view.loc (V d (cV L) (jV L))))
    (h : ∀ (q : Fin 16) (col : Fin 128), f (ix3 (2 : Fin 4) q col) = g (ix3 (2 : Fin 4) q col)) :
    (((oSlot2).view.loc (V d (cV L) (jV L)) ↦[(oSlot2).view.set]{fullShare} f) : sProp 𝕄) = ((oSlot2).view.loc (V d (cV L) (jV L)) ↦[(oSlot2).view.set]{fullShare} g) :=
  oSlot_congr_at d L _ _ (2 : Fin 4) rfl rfl rfl f g h
theorem oSlot3_congr (f g : Buf (Elt F) ((oSlot3).view.loc (V d (cV L) (jV L))))
    (h : ∀ (q : Fin 16) (col : Fin 128), f (ix3 (3 : Fin 4) q col) = g (ix3 (3 : Fin 4) q col)) :
    (((oSlot3).view.loc (V d (cV L) (jV L)) ↦[(oSlot3).view.set]{fullShare} f) : sProp 𝕄) = ((oSlot3).view.loc (V d (cV L) (jV L)) ↦[(oSlot3).view.set]{fullShare} g) :=
  oSlot_congr_at d L _ _ (3 : Fin 4) rfl rfl rfl f g h

end Congr

end Cert.Proof.KI

end
-- ==== Proof.KI.TileBrC.lean ====
/-
  Copies in flight, restated at the contents they land. A gather, a weights copy or a result copy the task has issued
  delivers its destination at what the copy wrote over the contents found there, and the piece it read; where those
  written contents agree, element by element of the destination, with the chunk's contents as whole-ring functions of the
  arrays the call was handed, the flight is the one the group loop carries for that chunk. And the offsets the group loop
  computes for the next chunk's row of row numbers, weights and rows of the result, as the row or chunk they name.
-/
import proofs.«209143_g59700045415095_cont_9to1_m_37_38_alg».proof.Proof.KI.TileFl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A flight as issued is the flight the group loop carries -/

section Intro
variable [FloatOps F] (d : Dev nD) (L : grid1.Coords)

/-- Slot 0's gather of chunk n, from the flight as issued: the rows slot at what the gather wrote, equal on the slot to
    the table rows that row n of the row numbers names. -/
theorem gFl0_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot0).view.loc (V d (cV L) (jV L)))) (off : Fin 2 → Nat)
    (hoff : ∀ a, off a + S1x128.size a ≤ S32x128.size a) (e : off = rowOff n) (pay : S128x128.Idx → Elt F .f32)
    (hland : ∀ j ∈ (rSlot0).view.set, (rSlot0).view.writes (Elt F) fr [⟨Rect.whole S128x128, pay⟩] j = rCanF L tb ix n j) :
    Transfers.Flight countersEmb (V d (cV L) (jV L)) (SemLoc.dma cc1_scratch4.sem) (default : HIx 1) 524288
        iprop((((rSlot0).view.loc (V d (cV L) (jV L)) ↦[(rSlot0).view.set]{fullShare} (rSlot0).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 11} tb))
      ⊢ gFl0 d L q tb ix fi n := by
  unfold gFl0
  rw [ivP_at d L (fivOf d L ix fi) hn off hoff e, pointsTo_congr hland]

/-- Slot 1's gather of chunk n, from the flight as issued: the rows slot at what the gather wrote, equal on the slot to
    the table rows that row n of the row numbers names. -/
theorem gFl1_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot1).view.loc (V d (cV L) (jV L)))) (off : Fin 2 → Nat)
    (hoff : ∀ a, off a + S1x128.size a ≤ S32x128.size a) (e : off = rowOff n) (pay : S128x128.Idx → Elt F .f32)
    (hland : ∀ j ∈ (rSlot1).view.set, (rSlot1).view.writes (Elt F) fr [⟨Rect.whole S128x128, pay⟩] j = rCanF L tb ix n j) :
    Transfers.Flight countersEmb (V d (cV L) (jV L)) (SemLoc.dma cc1_scratch5.sem) (default : HIx 1) 524288
        iprop((((rSlot1).view.loc (V d (cV L) (jV L)) ↦[(rSlot1).view.set]{fullShare} (rSlot1).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 12} tb))
      ⊢ gFl1 d L q tb ix fi n := by
  unfold gFl1
  rw [ivP_at d L (fivOf d L ix fi) hn off hoff e, pointsTo_congr hland]

/-- Slot 2's gather of chunk n, from the flight as issued: the rows slot at what the gather wrote, equal on the slot to
    the table rows that row n of the row numbers names. -/
theorem gFl2_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot2).view.loc (V d (cV L) (jV L)))) (off : Fin 2 → Nat)
    (hoff : ∀ a, off a + S1x128.size a ≤ S32x128.size a) (e : off = rowOff n) (pay : S128x128.Idx → Elt F .f32)
    (hland : ∀ j ∈ (rSlot2).view.set, (rSlot2).view.writes (Elt F) fr [⟨Rect.whole S128x128, pay⟩] j = rCanF L tb ix n j) :
    Transfers.Flight countersEmb (V d (cV L) (jV L)) (SemLoc.dma cc1_scratch6.sem) (default : HIx 1) 524288
        iprop((((rSlot2).view.loc (V d (cV L) (jV L)) ↦[(rSlot2).view.set]{fullShare} (rSlot2).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 13} tb))
      ⊢ gFl2 d L q tb ix fi n := by
  unfold gFl2
  rw [ivP_at d L (fivOf d L ix fi) hn off hoff e, pointsTo_congr hland]

/-- Slot 3's gather of chunk n, from the flight as issued: the rows slot at what the gather wrote, equal on the slot to
    the table rows that row n of the row numbers names. -/
theorem gFl3_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot3).view.loc (V d (cV L) (jV L)))) (off : Fin 2 → Nat)
    (hoff : ∀ a, off a + S1x128.size a ≤ S32x128.size a) (e : off = rowOff n) (pay : S128x128.Idx → Elt F .f32)
    (hland : ∀ j ∈ (rSlot3).view.set, (rSlot3).view.writes (Elt F) fr [⟨Rect.whole S128x128, pay⟩] j = rCanF L tb ix n j) :
    Transfers.Flight countersEmb (V d (cV L) (jV L)) (SemLoc.dma cc1_scratch7.sem) (default : HIx 1) 524288
        iprop((((rSlot3).view.loc (V d (cV L) (jV L)) ↦[(rSlot3).view.set]{fullShare} (rSlot3).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 14} tb))
      ⊢ gFl3 d L q tb ix fi n := by
  unfold gFl3
  rw [ivP_at d L (fivOf d L ix fi) hn off hoff e, pointsTo_congr hland]

/-- Slot 0's weights copy of chunk n, from the flight as issued: the weights slot at what the copy wrote, equal on the
    slot to the tile's weight rows of chunk n. -/
theorem wFl0_intro (wv : Buf (Elt F) (wLoc d)) {n : ℕ} (hn : n < 32)
    (fw : Buf (Elt F) ((wSlot0).view.loc (V d (cV L) (jV L)))) (off : Fin 2 → Nat)
    (hoff : ∀ a, off a + S16x128.size a ≤ S16384x128.size a) (e : off = chunkOff L n) (pay : S16x128.Idx → Elt F .f32)
    (hland : ∀ j ∈ (wSlot0).view.set, (wSlot0).view.writes (Elt F) fw [⟨Rect.whole S16x128, pay⟩] j = wCanF L wv n j) :
    Transfers.Flight countersEmb (V d (cV L) (jV L)) (SemLoc.dma cc1_scratch8.sem) (default : HIx 1) 65536
        iprop(((wSlot0).view.loc (V d (cV L) (jV L)) ↦[(wSlot0).view.set]{fullShare} (wSlot0).view.writes (Elt F) fw [⟨Rect.whole S16x128, pay⟩])
          ∗ ((wChunkAt off hoff).view.loc (V d (cV L) (jV L)) ↦[(wChunkAt off hoff).view.set]{fullShare} wv))
      ⊢ wFl0 d L wv n := by
  unfold wFl0
  rw [wP_at d L wv hn off hoff e, pointsTo_congr hland]

/-- Slot 1's weights copy of chunk n, from the flight as issued: the weights slot at what the copy wrote, equal on the
    slot to the tile's weight rows of chunk n. -/
theorem wFl1_intro (wv : Buf (Elt F) (wLoc d)) {n : ℕ} (hn : n < 32)
    (fw : Buf (Elt F) ((wSlot1).view.loc (V d (cV L) (jV L)))) (off : Fin 2 → Nat)
    (hoff : ∀ a, off a + S16x128.size a ≤ S16384x128.size a) (e : off = chunkOff L n) (pay : S16x128.Idx → Elt F .f32)
    (hland : ∀ j ∈ (wSlot1).view.set, (wSlot1).view.writes (Elt F) fw [⟨Rect.whole S16x128, pay⟩] j = wCanF L wv n j) :
    Transfers.Flight countersEmb (V d (cV L) (jV L)) (SemLoc.dma cc1_scratch9.sem) (default : HIx 1) 65536
        iprop(((wSlot1).view.loc (V d (cV L) (jV L)) ↦[(wSlot1).view.set]{fullShare} (wSlot1).view.writes (Elt F) fw [⟨Rect.whole S16x128, pay⟩])
          ∗ ((wChunkAt off hoff).view.loc (V d (cV L) (jV L)) ↦[(wChunkAt off hoff).view.set]{fullShare} wv))
      ⊢ wFl1 d L wv n := by
  unfold wFl1
  rw [wP_at d L wv hn off hoff e, pointsTo_congr hland]

/-- Slot 2's weights copy of chunk n, from the flight as issued: the weights slot at what the copy wrote, equal on the
    slot to the tile's weight rows of chunk n. -/
theorem wFl2_intro (wv : Buf (Elt F) (wLoc d)) {n : ℕ} (hn : n < 32)
    (fw : Buf (Elt F) ((wSlot2).view.loc (V d (cV L) (jV L)))) (off : Fin 2 → Nat)
    (hoff : ∀ a, off a + S16x128.size a ≤ S16384x128.size a) (e : off = chunkOff L n) (pay : S16x128.Idx → Elt F .f32)
    (hland : ∀ j ∈ (wSlot2).view.set, (wSlot2).view.writes (Elt F) fw [⟨Rect.whole S16x128, pay⟩] j = wCanF L wv n j) :
    Transfers.Flight countersEmb (V d (cV L) (jV L)) (SemLoc.dma cc1_scratch10.sem) (default : HIx 1) 65536
        iprop(((wSlot2).view.loc (V d (cV L) (jV L)) ↦[(wSlot2).view.set]{fullShare} (wSlot2).view.writes (Elt F) fw [⟨Rect.whole S16x128, pay⟩])
          ∗ ((wChunkAt off hoff).view.loc (V d (cV L) (jV L)) ↦[(wChunkAt off hoff).view.set]{fullShare} wv))
      ⊢ wFl2 d L wv n := by
  unfold wFl2
  rw [wP_at d L wv hn off hoff e, pointsTo_congr hland]

/-- Slot 3's weights copy of chunk n, from the flight as issued: the weights slot at what the copy wrote, equal on the
    slot to the tile's weight rows of chunk n. -/
theorem wFl3_intro (wv : Buf (Elt F) (wLoc d)) {n : ℕ} (hn : n < 32)
    (fw : Buf (Elt F) ((wSlot3).view.loc (V d (cV L) (jV L)))) (off : Fin 2 → Nat)
    (hoff : ∀ a, off a + S16x128.size a ≤ S16384x128.size a) (e : off = chunkOff L n) (pay : S16x128.Idx → Elt F .f32)
    (hland : ∀ j ∈ (wSlot3).view.set, (wSlot3).view.writes (Elt F) fw [⟨Rect.whole S16x128, pay⟩] j = wCanF L wv n j) :
    Transfers.Flight countersEmb (V d (cV L) (jV L)) (SemLoc.dma cc1_scratch11.sem) (default : HIx 1) 65536
        iprop(((wSlot3).view.loc (V d (cV L) (jV L)) ↦[(wSlot3).view.set]{fullShare} (wSlot3).view.writes (Elt F) fw [⟨Rect.whole S16x128, pay⟩])
          ∗ ((wChunkAt off hoff).view.loc (V d (cV L) (jV L)) ↦[(wChunkAt off hoff).view.set]{fullShare} wv))
      ⊢ wFl3 d L wv n := by
  unfold wFl3
  rw [wP_at d L wv hn off hoff e, pointsTo_congr hland]

/-- Slot 0's result copy of chunk n, from the flight as issued: chunk n of the rows of the result at what the copy
    wrote, equal on the chunk to the balanced sums of the corners' terms. -/
theorem oFl0_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch12.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot0).view.loc (V d (cV L) (jV L)) ↦[(oSlot0).view.set]{fullShare} oCanF L tb ix wv n))
      ⊢ oFl0 d L tb ix wv n := by
  unfold oFl0
  rw [oP_at d L (skip (F := F) tb ix wv) hn off hoff e, pointsTo_congr hland]

/-- Slot 1's result copy of chunk n, from the flight as issued: chunk n of the rows of the result at what the copy
    wrote, equal on the chunk to the balanced sums of the corners' terms. -/
theorem oFl1_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch13.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot1).view.loc (V d (cV L) (jV L)) ↦[(oSlot1).view.set]{fullShare} oCanF L tb ix wv n))
      ⊢ oFl1 d L tb ix wv n := by
  unfold oFl1
  rw [oP_at d L (skip (F := F) tb ix wv) hn off hoff e, pointsTo_congr hland]

/-- Slot 2's result copy of chunk n, from the flight as issued: chunk n of the rows of the result at what the copy
    wrote, equal on the chunk to the balanced sums of the corners' terms. -/
theorem oFl2_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch14.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot2).view.loc (V d (cV L) (jV L)) ↦[(oSlot2).view.set]{fullShare} oCanF L tb ix wv n))
      ⊢ oFl2 d L tb ix wv n := by
  unfold oFl2
  rw [oP_at d L (skip (F := F) tb ix wv) hn off hoff e, pointsTo_congr hland]

/-- Slot 3's result copy of chunk n, from the flight as issued: chunk n of the rows of the result at what the copy
    wrote, equal on the chunk to the balanced sums of the corners' terms. -/
theorem oFl3_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch15.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot3).view.loc (V d (cV L) (jV L)) ↦[(oSlot3).view.set]{fullShare} oCanF L tb ix wv n))
      ⊢ oFl3 d L tb ix wv n := by
  unfold oFl3
  rw [oP_at d L (skip (F := F) tb ix wv) hn off hoff e, pointsTo_congr hland]

end Intro

/-! ## The offsets of the next chunk -/

section Offsets

theorem off21_row (g : Fin k1_t1_loop.trips) : k1_off21 g = rowOff (4 * g.val + 4) := k1_off21_eq g
theorem off41_row (g : Fin k1_t1_loop.trips) : k1_off41 g = rowOff (4 * g.val + 5) := k1_off41_eq g
theorem off60_row (g : Fin k1_t1_loop.trips) : k1_off60 g = rowOff (4 * g.val + 6) := k1_off60_eq g
theorem off79_row (g : Fin k1_t1_loop.trips) : k1_off79 g = rowOff (4 * g.val + 7) := k1_off79_eq g

theorem off22_chunk' (L : grid1.Coords) (g : Fin k1_t1_loop.trips) : k1_off22 L g = chunkOff L (4 * g.val + 4) :=
  (k1_off22_eq L g).trans (vec2_congr (by omega))
theorem off42_chunk' (L : grid1.Coords) (g : Fin k1_t1_loop.trips) : k1_off42 L g = chunkOff L (4 * g.val + 5) :=
  (k1_off42_eq L g).trans (vec2_congr (by omega))
theorem off61_chunk' (L : grid1.Coords) (g : Fin k1_t1_loop.trips) : k1_off61 L g = chunkOff L (4 * g.val + 6) :=
  (k1_off61_eq L g).trans (vec2_congr (by omega))
theorem off80_chunk' (L : grid1.Coords) (g : Fin k1_t1_loop.trips) : k1_off80 L g = chunkOff L (4 * g.val + 7) :=
  (k1_off80_eq L g).trans (vec2_congr (by omega))
theorem off23_chunk' (L : grid1.Coords) (g : Fin k1_t1_loop.trips) (r : Fin 4) :
    k1_off23 L g (BitVec.ofNat 32 r.val) = chunkOff L (4 * g.val + r.val) :=
  (k1_off23_eq L g r).trans (vec2_congr (by omega))
theorem off2_chunk' (L : grid1.Coords) (r : Fin 4) : k1_off2 L (BitVec.ofNat 32 (16 * r.val)) = chunkOff L r.val :=
  k1_off2_eq L r

end Offsets

end Cert.Proof.KI

end
-- ==== Proof.KI.TileClose.lean ====
/-
  The group loop's invariant put back together. Before group k the invariant holds the rows of row numbers, the weight
  chunks and the result chunks that are at home on either side of the four chunks in flight, and each slot's state. What
  group g leaves — the four rows and weight chunks it waited for, the four result chunks whose copies it waited for,
  the later pieces less the four it sent off, and each slot's three new flights — is the invariant before group g + 1:
  a run of pieces lo … n + 3 is the four pieces n … n + 3 beside the run lo … n - 1, and the rest is the same pieces in
  another order. The first group has no earlier result copies to wait for, the last sends nothing off.
-/
import proofs.«209143_g59700045415095_cont_9to1_m_37_38_alg».proof.Proof.KI.TileFl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A run of pieces grown by four -/

section Grow

/-- The pieces lo … n + 3 side by side are the four pieces n … n + 3 beside the pieces lo … n - 1. -/
theorem homes_grow4 (P : ℕ → sProp 𝕄) {lo n n' m : ℕ} (h : lo ≤ n) (hn : n' = n) (hm : m = n + 4) :
    homes P lo m = iprop(P (n' + 3) ∗ P (n' + 2) ∗ P (n' + 1) ∗ P (n' + 0) ∗ homes P lo n) := by
  subst hn hm
  show homes P lo (n' + 3 + 1) = _
  rw [homes_push P (by omega : lo ≤ n' + 3)]
  show iprop(P (n' + 3) ∗ homes P lo (n' + 2 + 1)) = _
  rw [homes_push P (by omega : lo ≤ n' + 2)]
  show iprop(P (n' + 3) ∗ P (n' + 2) ∗ homes P lo (n' + 1 + 1)) = _
  rw [homes_push P (by omega : lo ≤ n' + 1)]
  show iprop(P (n' + 3) ∗ P (n' + 2) ∗ P (n' + 1) ∗ homes P lo (n' + 0 + 1)) = _
  rw [homes_push P (by omega : lo ≤ n' + 0)]
  rfl

end Grow

section Close
variable [FloatOps F] (d : Dev nD) (L : grid1.Coords)

set_option maxHeartbeats 2000000 in
/-- The invariant before group g + 1 from what group g leaves (0 < g, g + 1 < 8): the four rows and four weight chunks that came
    home beside the earlier ones, the four result chunks that came home, the later pieces less the four that left, and each
    slot's three new flights. -/
theorem gInv_close_mid (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg0 : 0 < g) (hg7 : g + 1 < 8) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 8) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 8) 32
      ∗ homes (oP d L (skip (F := F) tb ix wv)) 0 (4 * g - 4)
      ∗ oP d L (skip (F := F) tb ix wv) (4 * (g - 1) + 0) ∗ oP d L (skip (F := F) tb ix wv) (4 * (g - 1) + 1)
      ∗ oP d L (skip (F := F) tb ix wv) (4 * (g - 1) + 2) ∗ oP d L (skip (F := F) tb ix wv) (4 * (g - 1) + 3)
      ∗ homes (oP d L o0) (4 * g + 4) 32
      ∗ (gFl0 d L q tb ix fi (4 * g + 4) ∗ tblRest d L q tb 11 ∗ wFl0 d L wv (4 * g + 4) ∗ oFl0 d L tb ix wv (4 * g + 0))
      ∗ (gFl1 d L q tb ix fi (4 * g + 5) ∗ tblRest d L q tb 12 ∗ wFl1 d L wv (4 * g + 5) ∗ oFl1 d L tb ix wv (4 * g + 1))
      ∗ (gFl2 d L q tb ix fi (4 * g + 6) ∗ tblRest d L q tb 13 ∗ wFl2 d L wv (4 * g + 6) ∗ oFl2 d L tb ix wv (4 * g + 2))
      ∗ (gFl3 d L q tb ix fi (4 * g + 7) ∗ tblRest d L q tb 14 ∗ wFl3 d L wv (4 * g + 7) ∗ oFl3 d L tb ix wv (4 * g + 3)))
      ⊢ gInv d L O W q tb ix wv o0 fi (g + 1) acc := by
  unfold gInv slotSt0 slotSt1 slotSt2 slotSt3
  rw [if_pos hg7, if_pos hg7, if_pos hg7, if_pos hg7,
    if_neg (Nat.succ_ne_zero g), if_neg (Nat.succ_ne_zero g), if_neg (Nat.succ_ne_zero g), if_neg (Nat.succ_ne_zero g)]
  rw [show 4 * (g + 1) + 4 = 4 * g + 8 from by omega,
    show 4 * (g + 1) + 0 = 4 * g + 4 from by omega, show 4 * (g + 1) + 1 = 4 * g + 5 from by omega,
    show 4 * (g + 1) + 2 = 4 * g + 6 from by omega, show 4 * (g + 1) + 3 = 4 * g + 7 from by omega,
    show g + 1 - 1 = g from by omega]
  rw [homes_grow4 (ivP d L (fivOf d L ix fi)) (lo := 0) (n := 4 * g) (n' := 4 * g) (m := 4 * (g + 1)) (by omega) rfl (by omega),
    homes_grow4 (wP d L wv) (lo := 0) (n := 4 * g) (n' := 4 * g) (m := 4 * (g + 1)) (by omega) rfl (by omega),
    homes_grow4 (oP d L (skip (F := F) tb ix wv)) (lo := 0) (n := 4 * g - 4) (n' := 4 * (g - 1)) (m := 4 * (g + 1) - 4) (by omega) (by omega) (by omega)]
  rw [show 4 * (g + 1) = 4 * g + 4 from by omega]
  iintro ⟨HM, HW, Hi, Hi0, Hi1, Hi2, Hi3, Hi8, Hw, Hw0, Hw1, Hw2, Hw3, Hw8, Ho, Ho0, Ho1, Ho2, Ho3, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant before the second group from what the first leaves: rows and weight chunks 0 … 3 came home, no result
    chunk has yet, the later pieces less chunks 4 … 7, and each slot's three new flights. -/
theorem gInv_close_first (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 0 ∗ ivP d L (fivOf d L ix fi) 0 ∗ ivP d L (fivOf d L ix fi) 1 ∗ ivP d L (fivOf d L ix fi) 2 ∗ ivP d L (fivOf d L ix fi) 3
      ∗ homes (ivP d L (fivOf d L ix fi)) 8 32
      ∗ homes (wP d L wv) 0 0 ∗ wP d L wv 0 ∗ wP d L wv 1 ∗ wP d L wv 2 ∗ wP d L wv 3
      ∗ homes (wP d L wv) 8 32
      ∗ homes (oP d L o0) 4 32
      ∗ (gFl0 d L q tb ix fi 4 ∗ tblRest d L q tb 11 ∗ wFl0 d L wv 4 ∗ oFl0 d L tb ix wv 0)
      ∗ (gFl1 d L q tb ix fi 5 ∗ tblRest d L q tb 12 ∗ wFl1 d L wv 5 ∗ oFl1 d L tb ix wv 1)
      ∗ (gFl2 d L q tb ix fi 6 ∗ tblRest d L q tb 13 ∗ wFl2 d L wv 6 ∗ oFl2 d L tb ix wv 2)
      ∗ (gFl3 d L q tb ix fi 7 ∗ tblRest d L q tb 14 ∗ wFl3 d L wv 7 ∗ oFl3 d L tb ix wv 3))
      ⊢ gInv d L O W q tb ix wv o0 fi (0 + 1) acc := by
  unfold gInv slotSt0 slotSt1 slotSt2 slotSt3
  rw [if_pos (by decide : 0 + 1 < 8), if_pos (by decide : 0 + 1 < 8), if_pos (by decide : 0 + 1 < 8), if_pos (by decide : 0 + 1 < 8),
    if_neg (by decide : ¬ (0 + 1 = 0)), if_neg (by decide : ¬ (0 + 1 = 0)), if_neg (by decide : ¬ (0 + 1 = 0)), if_neg (by decide : ¬ (0 + 1 = 0))]
  simp only [Nat.reduceMul, Nat.reduceAdd, Nat.reduceSub]
  rw [homes_grow4 (ivP d L (fivOf d L ix fi)) (lo := 0) (n := 0) (n' := 0) (m := 4) (by omega) rfl (by omega),
    homes_grow4 (wP d L wv) (lo := 0) (n := 0) (n' := 0) (m := 4) (by omega) rfl (by omega),
    homes_nil (oP d L (skip (F := F) tb ix wv)) (by omega : 0 ≤ 0)]
  simp only [Nat.reduceAdd]
  iintro ⟨HM, HW, Hi, Hi0, Hi1, Hi2, Hi3, Hi8, Hw, Hw0, Hw1, Hw2, Hw3, Hw8, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant after the last group from what it leaves: rows and weight chunks 28 … 31 came home beside the earlier
    ones, result chunks 24 … 27 came home, nothing was sent off, so each slot's gather and weights side is idle, and
    each slot's result copy of chunk 28 … 31 is in flight. -/
theorem gInv_close_last (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 28 ∗ ivP d L (fivOf d L ix fi) 28 ∗ ivP d L (fivOf d L ix fi) 29 ∗ ivP d L (fivOf d L ix fi) 30 ∗ ivP d L (fivOf d L ix fi) 31
      ∗ homes (wP d L wv) 0 28 ∗ wP d L wv 28 ∗ wP d L wv 29 ∗ wP d L wv 30 ∗ wP d L wv 31
      ∗ homes (oP d L (skip (F := F) tb ix wv)) 0 24
      ∗ oP d L (skip (F := F) tb ix wv) 24 ∗ oP d L (skip (F := F) tb ix wv) 25
      ∗ oP d L (skip (F := F) tb ix wv) 26 ∗ oP d L (skip (F := F) tb ix wv) 27
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0 ∗ oFl0 d L tb ix wv 28)
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0 ∗ oFl1 d L tb ix wv 29)
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0 ∗ oFl2 d L tb ix wv 30)
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0 ∗ oFl3 d L tb ix wv 31))
      ⊢ gInv d L O W q tb ix wv o0 fi (7 + 1) acc := by
  unfold gInv slotSt0 slotSt1 slotSt2 slotSt3
  rw [if_neg (by decide : ¬ (7 + 1 < 8)), if_neg (by decide : ¬ (7 + 1 < 8)), if_neg (by decide : ¬ (7 + 1 < 8)), if_neg (by decide : ¬ (7 + 1 < 8)),
    if_neg (by decide : ¬ (7 + 1 = 0)), if_neg (by decide : ¬ (7 + 1 = 0)), if_neg (by decide : ¬ (7 + 1 = 0)), if_neg (by decide : ¬ (7 + 1 = 0))]
  simp only [Nat.reduceMul, Nat.reduceAdd, Nat.reduceSub]
  rw [homes_grow4 (ivP d L (fivOf d L ix fi)) (lo := 0) (n := 28) (n' := 28) (m := 32) (by omega) rfl (by omega),
    homes_grow4 (wP d L wv) (lo := 0) (n := 28) (n' := 28) (m := 32) (by omega) rfl (by omega),
    homes_grow4 (oP d L (skip (F := F) tb ix wv)) (lo := 0) (n := 24) (n' := 24) (m := 28) (by omega) rfl (by omega),
    homes_nil (ivP d L (fivOf d L ix fi)) (by omega : 32 ≤ 36), homes_nil (wP d L wv) (by omega : 32 ≤ 36), homes_nil (oP d L o0) (by omega : 32 ≤ 32)]
  simp only [Nat.reduceAdd]
  iintro ⟨HM, HW, Hi, Hi0, Hi1, Hi2, Hi3, Hw, Hw0, Hw1, Hw2, Hw3, Ho, Ho0, Ho1, Ho2, Ho3,
    ⟨Ht0, Hr0, Hs0, Hf0, Hz0, Hc0⟩, ⟨Ht1, Hr1, Hs1, Hf1, Hz1, Hc1⟩, ⟨Ht2, Hr2, Hs2, Hf2, Hz2, Hc2⟩, ⟨Ht3, Hr3, Hs3, Hf3, Hz3, Hc3⟩⟩
  iframe

end Close

end Cert.Proof.KI
end
-- ==== Proof.KI.Tile1.lean ====
/-
  One trip of the group loop of a vector subcore's task, at a group that is neither the first nor the last. For each
  of the four slots in turn: the slot's gather and weights copy have landed (their waits hand back the rows slot at the
  table rows its chunk's row numbers name, the row of row numbers, the table's read token whole again, the weights slot
  at the chunk's weights, the chunk of weights); the previous group's result copy out of the slot has landed (its chunk
  of the result at the gathered sums comes home); the point loop fills the result slot with the balanced sums; the slot's
  next gather and weights copy leave (the next row of row numbers and chunk of weights with them) and the result copy of
  this chunk leaves. What is left is the invariant one group on.
-/
import proofs.«209143_g59700045415095_cont_9to1_m_37_38_alg».proof.Proof.KI.TileFl
import proofs.«209143_g59700045415095_cont_9to1_m_37_38_alg».proof.Proof.KI.TilePt
import proofs.«209143_g59700045415095_cont_9to1_m_37_38_alg».proof.Proof.KI.TileBrA
import proofs.«209143_g59700045415095_cont_9to1_m_37_38_alg».proof.Proof.KI.TileBrB
import proofs.«209143_g59700045415095_cont_9to1_m_37_38_alg».proof.Proof.KI.TileBrC
import proofs.«209143_g59700045415095_cont_9to1_m_37_38_alg».proof.Proof.KI.TileClose

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

private theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

private theorem wP_fold (wv : Buf (Elt F) (wLoc d)) (n : ℕ) :
    (((wChunkAt (chunkOff L (n % 32)) (chunkOff_inb L (mod32_lt n))).view.loc (V d (cV L) (jV L)) ↦[(wChunkAt (chunkOff L (n % 32)) (chunkOff_inb L (mod32_lt n))).view.set]{fullShare} wv) : sProp 𝕄) ⊢ wP d L wv n := by
  unfold wP; exact .rfl
private theorem oP_fold (f : Buf (Elt F) (outLoc d)) (n : ℕ) :
    (((oChunkAt (chunkOff L (n % 32)) (chunkOff_inb L (mod32_lt n))).view.loc (V d (cV L) (jV L)) ↦[(oChunkAt (chunkOff L (n % 32)) (chunkOff_inb L (mod32_lt n))).view.set]{fullShare} f) : sProp 𝕄) ⊢ oP d L f n := by
  unfold oP; exact .rfl

set_option maxHeartbeats 8000000 in
theorem groupTripMid (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), 0 < g.val → g.val + 1 < 8 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg0 hg7
  generalize hQ : gInv d L O W q tb ix wv o0 fi (g.val + 1) = Q
  have hc1 : k1_cond1 g = 1#1 := (cond1_iff g).2 hg0
  have hc2 : k1_cond2 g = 1#1 := (cond2_iff g).2 hg7
  have hc3 : k1_cond3 g = 1#1 := (cond3_iff g).2 hg0
  have hc4 : k1_cond4 g = 1#1 := (cond4_iff g).2 hg7
  have hc5 : k1_cond5 g = 1#1 := (cond5_iff g).2 hg0
  have hc6 : k1_cond6 g = 1#1 := (cond6_iff g).2 hg7
  have hc7 : k1_cond7 g = 1#1 := (cond7_iff g).2 hg0
  have hc8 : k1_cond8 g = 1#1 := (cond8_iff g).2 hg7
  have hin := idx_inb d L ix hidx
  have hlt : g.val < 8 := by omega
  have hne : ¬ g.val = 0 := by omega
  unfold gInv slotSt0 slotSt1 slotSt2 slotSt3
  rw [if_pos hlt, if_pos hlt, if_pos hlt, if_pos hlt, if_neg hne, if_neg hne, if_neg hne, if_neg hne]
  unfold gFl0 wFl0 oFl0 gFl1 wFl1 oFl1 gFl2 wFl2 oFl2 gFl3 wFl3 oFl3
  rw [homes_pop (ivP d L (fivOf d L ix fi)) (show 4 * g.val + 4 < 32 by omega), homes_pop (ivP d L (fivOf d L ix fi)) (show 4 * g.val + 4 + 1 < 32 by omega),
    homes_pop (ivP d L (fivOf d L ix fi)) (show 4 * g.val + 4 + 1 + 1 < 32 by omega), homes_pop (ivP d L (fivOf d L ix fi)) (show 4 * g.val + 4 + 1 + 1 + 1 < 32 by omega),
    ivP_at d L (fivOf d L ix fi) (show 4 * g.val + 4 < 32 by omega) (k1_off21 g) (k1_off21_inb g hc2) (off21_row g),
    ivP_at d L (fivOf d L ix fi) (show 4 * g.val + 4 + 1 < 32 by omega) (k1_off41 g) (k1_off41_inb g hc4) (off41_row g),
    ivP_at d L (fivOf d L ix fi) (show 4 * g.val + 4 + 1 + 1 < 32 by omega) (k1_off60 g) (k1_off60_inb g hc6) (off60_row g),
    ivP_at d L (fivOf d L ix fi) (show 4 * g.val + 4 + 1 + 1 + 1 < 32 by omega) (k1_off79 g) (k1_off79_inb g hc8) (off79_row g),
    homes_pop (wP d L wv) (show 4 * g.val + 4 < 32 by omega), homes_pop (wP d L wv) (show 4 * g.val + 4 + 1 < 32 by omega),
    homes_pop (wP d L wv) (show 4 * g.val + 4 + 1 + 1 < 32 by omega), homes_pop (wP d L wv) (show 4 * g.val + 4 + 1 + 1 + 1 < 32 by omega),
    wP_at d L wv (show 4 * g.val + 4 < 32 by omega) (k1_off22 L g) (k1_off22_inb L g hc2) (off22_chunk' L g),
    wP_at d L wv (show 4 * g.val + 4 + 1 < 32 by omega) (k1_off42 L g) (k1_off42_inb L g hc4) (off42_chunk' L g),
    wP_at d L wv (show 4 * g.val + 4 + 1 + 1 < 32 by omega) (k1_off61 L g) (k1_off61_inb L g hc6) (off61_chunk' L g),
    wP_at d L wv (show 4 * g.val + 4 + 1 + 1 + 1 < 32 by omega) (k1_off80 L g) (k1_off80_inb L g hc8) (off80_chunk' L g),
    homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3)]
  unfold wP oP
  iintro ⟨#Hmw, ⟨%W', %hW', HO⟩, HVd, ⟨HV0, HV1, HV2, HV3, HVt⟩, HWd, ⟨HWc0, HWc1, HWc2, HWc3, HWt⟩, HOd, ⟨HOc0, HOc1, HOc2, HOc3, HOt⟩,
    ⟨⟨HG0, HTr0, HW0⟩, HF0⟩, ⟨⟨HG1, HTr1, HW1⟩, HF1⟩, ⟨⟨HG2, HTr2, HW2⟩, HF2⟩, ⟨⟨HG3, HTr3, HW3⟩, HF3⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HF0_src]
  case region => exact ptTrip0 d L v2 0#32 1#32 g _ _
  · unfold ptInv0
    isplitl [HW0_dst]; · iexact HW0_dst
    isplitl [Hr0]; · iexact Hr0
    iexists _; isplitl [HF0_src]; · iexact HF0_src
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HF1_src]
  case region => exact ptTrip1 d L g _ _ _
  · unfold ptInv1
    isplitl [HW1_dst]; · iexact HW1_dst
    isplitl [Hr1]; · iexact Hr1
    iexists _; isplitl [HF1_src]; · iexact HF1_src
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HF2_src]
  case region => exact ptTrip2 d L v2 g _ _ _ _ _
  · unfold ptInv2
    isplitl [HW2_dst]; · iexact HW2_dst
    isplitl [Hr2]; · iexact Hr2
    iexists _; isplitl [HF2_src]; · iexact HF2_src
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HF3_src]
  case region => exact ptTrip3 d L v2 _ _
  · unfold ptInv3
    isplitl [HW3_dst]; · iexact HW3_dst
    isplitl [Hr3]; · iexact Hr3
    iexists _; isplitl [HF3_src]; · iexact HF3_src
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  ihave HG0' : gFl0 d L q tb ix fi (4 * g.val + 4) $$ [HG0]
  · iapply (gFl0_intro d L q tb ix fi (n := 4 * g.val + 4) (by omega) (rCanF L tb ix (4 * g.val + 0)) (k1_off21 g) (k1_off21_inb g hc2) (off21_row g) _
      (rows_landed0 d L tb ix fi (by omega) _ (k1_off21 g) (k1_off21_inb g hc2) (off21_row g) rfl (hin fi (k1_off21 g) (k1_off21_inb g hc2))))
    iexact HG0
  ihave HW0' : wFl0 d L wv (4 * g.val + 4) $$ [HW0]
  · iapply (wFl0_intro d L wv (n := 4 * g.val + 4) (by omega) (wCanF L wv (4 * g.val + 0)) (k1_off22 L g) (k1_off22_inb L g hc2) (off22_chunk' L g) _
      (w_landed0 d L wv (by omega) _ (k1_off22 L g) (k1_off22_inb L g hc2) (off22_chunk' L g)))
    iexact HW0
  ihave HF0' : oFl0 d L tb ix wv (4 * g.val + 0) $$ [HF0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (by omega) o0 _ (k1_off23_inb L g 0) (off23_chunk' L g 0)))
    iexact HF0
  ihave HG1' : gFl1 d L q tb ix fi (4 * g.val + 5) $$ [HG1]
  · iapply (gFl1_intro d L q tb ix fi (n := 4 * g.val + 5) (by omega) (rCanF L tb ix (4 * g.val + 1)) (k1_off41 g) (k1_off41_inb g hc4) (off41_row g) _
      (rows_landed1 d L tb ix fi (by omega) _ (k1_off41 g) (k1_off41_inb g hc4) (off41_row g) rfl (hin fi (k1_off41 g) (k1_off41_inb g hc4))))
    iexact HG1
  ihave HW1' : wFl1 d L wv (4 * g.val + 5) $$ [HW1]
  · iapply (wFl1_intro d L wv (n := 4 * g.val + 5) (by omega) (wCanF L wv (4 * g.val + 1)) (k1_off42 L g) (k1_off42_inb L g hc4) (off42_chunk' L g) _
      (w_landed1 d L wv (by omega) _ (k1_off42 L g) (k1_off42_inb L g hc4) (off42_chunk' L g)))
    iexact HW1
  ihave HF1' : oFl1 d L tb ix wv (4 * g.val + 1) $$ [HF1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (by omega) o0 _ (k1_off23_inb L g 1) (off23_chunk' L g 1)))
    iexact HF1
  ihave HG2' : gFl2 d L q tb ix fi (4 * g.val + 6) $$ [HG2]
  · iapply (gFl2_intro d L q tb ix fi (n := 4 * g.val + 6) (by omega) (rCanF L tb ix (4 * g.val + 2)) (k1_off60 g) (k1_off60_inb g hc6) (off60_row g) _
      (rows_landed2 d L tb ix fi (by omega) _ (k1_off60 g) (k1_off60_inb g hc6) (off60_row g) rfl (hin fi (k1_off60 g) (k1_off60_inb g hc6))))
    iexact HG2
  ihave HW2' : wFl2 d L wv (4 * g.val + 6) $$ [HW2]
  · iapply (wFl2_intro d L wv (n := 4 * g.val + 6) (by omega) (wCanF L wv (4 * g.val + 2)) (k1_off61 L g) (k1_off61_inb L g hc6) (off61_chunk' L g) _
      (w_landed2 d L wv (by omega) _ (k1_off61 L g) (k1_off61_inb L g hc6) (off61_chunk' L g)))
    iexact HW2
  ihave HF2' : oFl2 d L tb ix wv (4 * g.val + 2) $$ [HF2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (by omega) o0 _ (k1_off23_inb L g 2) (off23_chunk' L g 2)))
    iexact HF2
  ihave HG3' : gFl3 d L q tb ix fi (4 * g.val + 7) $$ [HG3]
  · iapply (gFl3_intro d L q tb ix fi (n := 4 * g.val + 7) (by omega) (rCanF L tb ix (4 * g.val + 3)) (k1_off79 g) (k1_off79_inb g hc8) (off79_row g) _
      (rows_landed3 d L tb ix fi (by omega) _ (k1_off79 g) (k1_off79_inb g hc8) (off79_row g) rfl (hin fi (k1_off79 g) (k1_off79_inb g hc8))))
    iexact HG3
  ihave HW3' : wFl3 d L wv (4 * g.val + 7) $$ [HW3]
  · iapply (wFl3_intro d L wv (n := 4 * g.val + 7) (by omega) (wCanF L wv (4 * g.val + 3)) (k1_off80 L g) (k1_off80_inb L g hc8) (off80_chunk' L g) _
      (w_landed3 d L wv (by omega) _ (k1_off80 L g) (k1_off80_inb L g hc8) (off80_chunk' L g)))
    iexact HW3
  ihave HF3' : oFl3 d L tb ix wv (4 * g.val + 3) $$ [HF3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (by omega) o0 _ (k1_off23_inb L g 3) (off23_chunk' L g 3)))
    iexact HF3
  subst hQ
  iapply (gInv_close_mid d L O W q tb ix wv o0 fi g.val hg0 hg7 acc)
  isplitr; · iexact Hmw
  isplitl [HO]
  · iexists _; isplitr
    swap; · iexact HO
    ipureintro; exact (waits_ins (waits_ins (waits_ins (waits_ins (waits_ins (waits_ins (waits_ins (waits_ins (waits_ins (waits_ins (waits_ins (waits_ins hW' _) _) _) _) _) _) _) _) _) _) _) _)
  iframe
  isplitl [HWd]; · iexact HWd
  isplitl [HW0_src]; · iapply (wP_fold d L wv (4 * g.val + 0)); iexact HW0_src
  isplitl [HW1_src]; · iapply (wP_fold d L wv (4 * g.val + 1)); iexact HW1_src
  isplitl [HW2_src]; · iapply (wP_fold d L wv (4 * g.val + 2)); iexact HW2_src
  isplitl [HW3_src]; · iapply (wP_fold d L wv (4 * g.val + 3)); iexact HW3_src
  isplitl [HWt]; · iexact HWt
  isplitl [HOd]; · iexact HOd
  isplitl [HF0_dst]; · iapply (oP_fold d L (skip (F := F) tb ix wv) (4 * (g.val - 1) + 0)); iexact HF0_dst
  isplitl [HF1_dst]; · iapply (oP_fold d L (skip (F := F) tb ix wv) (4 * (g.val - 1) + 1)); iexact HF1_dst
  isplitl [HF2_dst]; · iapply (oP_fold d L (skip (F := F) tb ix wv) (4 * (g.val - 1) + 2)); iexact HF2_dst
  isplitl [HF3_dst]; · iapply (oP_fold d L (skip (F := F) tb ix wv) (4 * (g.val - 1) + 3)); iexact HF3_dst
  iexact HOt

end Trip

end Cert.Proof.KI

end
-- ==== Proof.KI.TileCloseAt.lean ====
/-
  The group loop's invariant put back together at its two ends, the group's number kept as a variable: for g = 0 what
  the first group leaves (no result chunk has come home, the run of result chunks at the balanced sums is still empty),
  for g = 7 what the last group leaves (nothing was sent off: the runs of later pieces are empty, each slot's gather and
  weights side is idle). With the number fixed every run's ends are numbers, and the two sides are the same pieces.
-/
import proofs.«209143_g59700045415095_cont_9to1_m_37_38_alg».proof.Proof.KI.TileFl
import proofs.«209143_g59700045415095_cont_9to1_m_37_38_alg».proof.Proof.KI.TileClose

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section CloseAt
variable [FloatOps F] (d : Dev nD) (L : grid1.Coords)

set_option maxHeartbeats 2000000 in
/-- The invariant before group g + 1 from what group g = 0 leaves. -/
theorem gInv_close_first_at (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg : g = 0) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 8) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 8) 32
      ∗ homes (oP d L (skip (F := F) tb ix wv)) 0 (4 * g - 4)
      ∗ homes (oP d L o0) (4 * g + 4) 32
      ∗ (gFl0 d L q tb ix fi (4 * g + 4) ∗ tblRest d L q tb 11 ∗ wFl0 d L wv (4 * g + 4) ∗ oFl0 d L tb ix wv (4 * g + 0))
      ∗ (gFl1 d L q tb ix fi (4 * g + 5) ∗ tblRest d L q tb 12 ∗ wFl1 d L wv (4 * g + 5) ∗ oFl1 d L tb ix wv (4 * g + 1))
      ∗ (gFl2 d L q tb ix fi (4 * g + 6) ∗ tblRest d L q tb 13 ∗ wFl2 d L wv (4 * g + 6) ∗ oFl2 d L tb ix wv (4 * g + 2))
      ∗ (gFl3 d L q tb ix fi (4 * g + 7) ∗ tblRest d L q tb 14 ∗ wFl3 d L wv (4 * g + 7) ∗ oFl3 d L tb ix wv (4 * g + 3)))
      ⊢ gInv d L O W q tb ix wv o0 fi (g + 1) acc := by
  subst hg
  unfold gInv slotSt0 slotSt1 slotSt2 slotSt3
  rw [if_pos (by decide : 0 + 1 < 8), if_pos (by decide : 0 + 1 < 8), if_pos (by decide : 0 + 1 < 8), if_pos (by decide : 0 + 1 < 8),
    if_neg (by decide : ¬ (0 + 1 = 0)), if_neg (by decide : ¬ (0 + 1 = 0)), if_neg (by decide : ¬ (0 + 1 = 0)), if_neg (by decide : ¬ (0 + 1 = 0))]
  simp only [Nat.reduceMul, Nat.reduceAdd, Nat.reduceSub]
  rw [homes_grow4 (ivP d L (fivOf d L ix fi)) (lo := 0) (n := 0) (n' := 0) (m := 4) (by omega) rfl (by omega),
    homes_grow4 (wP d L wv) (lo := 0) (n := 0) (n' := 0) (m := 4) (by omega) rfl (by omega)]
  simp only [Nat.reduceAdd]
  iintro ⟨HM, HW, Hi, Hi0, Hi1, Hi2, Hi3, Hi8, Hw, Hw0, Hw1, Hw2, Hw3, Hw8, Ho, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant after the last group from what group g = 7 leaves. -/
theorem gInv_close_last_at (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg : g = 7) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 4) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 4) 32
      ∗ homes (oP d L (skip (F := F) tb ix wv)) 0 (4 * g - 4)
      ∗ oP d L (skip (F := F) tb ix wv) (4 * (g - 1) + 0) ∗ oP d L (skip (F := F) tb ix wv) (4 * (g - 1) + 1)
      ∗ oP d L (skip (F := F) tb ix wv) (4 * (g - 1) + 2) ∗ oP d L (skip (F := F) tb ix wv) (4 * (g - 1) + 3)
      ∗ homes (oP d L o0) (4 * g + 4) 32
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0 ∗ oFl0 d L tb ix wv (4 * g + 0))
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0 ∗ oFl1 d L tb ix wv (4 * g + 1))
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0 ∗ oFl2 d L tb ix wv (4 * g + 2))
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0 ∗ oFl3 d L tb ix wv (4 * g + 3)))
      ⊢ gInv d L O W q tb ix wv o0 fi (g + 1) acc := by
  subst hg
  unfold gInv slotSt0 slotSt1 slotSt2 slotSt3
  rw [if_neg (by decide : ¬ (7 + 1 < 8)), if_neg (by decide : ¬ (7 + 1 < 8)), if_neg (by decide : ¬ (7 + 1 < 8)), if_neg (by decide : ¬ (7 + 1 < 8)),
    if_neg (by decide : ¬ (7 + 1 = 0)), if_neg (by decide : ¬ (7 + 1 = 0)), if_neg (by decide : ¬ (7 + 1 = 0)), if_neg (by decide : ¬ (7 + 1 = 0))]
  simp only [Nat.reduceMul, Nat.reduceAdd, Nat.reduceSub]
  rw [homes_grow4 (ivP d L (fivOf d L ix fi)) (lo := 0) (n := 28) (n' := 28) (m := 32) (by omega) rfl (by omega),
    homes_grow4 (wP d L wv) (lo := 0) (n := 28) (n' := 28) (m := 32) (by omega) rfl (by omega),
    homes_grow4 (oP d L (skip (F := F) tb ix wv)) (lo := 0) (n := 24) (n' := 24) (m := 28) (by omega) rfl (by omega),
    homes_nil (ivP d L (fivOf d L ix fi)) (by omega : 32 ≤ 36), homes_nil (wP d L wv) (by omega : 32 ≤ 36),
    homes_nil (ivP d L (fivOf d L ix fi)) (by omega : 32 ≤ 32), homes_nil (wP d L wv) (by omega : 32 ≤ 32), homes_nil (oP d L o0) (by omega : 32 ≤ 32)]
  simp only [Nat.reduceAdd]
  iintro ⟨HM, HW, Hi, Hi0, Hi1, Hi2, Hi3, Hie, Hw, Hw0, Hw1, Hw2, Hw3, Hwe, Ho, Ho0, Ho1, Ho2, Ho3, Hoe,
    ⟨Ht0, Hr0, Hs0, Hf0, Hz0, Hc0⟩, ⟨Ht1, Hr1, Hs1, Hf1, Hz1, Hc1⟩, ⟨Ht2, Hr2, Hs2, Hf2, Hz2, Hc2⟩, ⟨Ht3, Hr3, Hs3, Hf3, Hz3, Hc3⟩⟩
  iframe

end CloseAt

end Cert.Proof.KI
end
-- ==== Proof.KI.TileTripB.lean ====
/-
  The group loop's first trip. Before the first group the result slots are idle: no result copy is in flight, so none is
  waited for. The trip waits for the gathers and the weights copies of chunks 0 … 3, runs the four point loops over the
  landed slots, sends for chunks 4 … 7 and copies the four result slots out to chunks 0 … 3 of the rows of the result;
  what it leaves is the invariant before the second group.
-/
import proofs.«209143_g59700045415095_cont_9to1_m_37_38_alg».proof.Proof.KI.TileFl
import proofs.«209143_g59700045415095_cont_9to1_m_37_38_alg».proof.Proof.KI.TilePt
import proofs.«209143_g59700045415095_cont_9to1_m_37_38_alg».proof.Proof.KI.TileBrA
import proofs.«209143_g59700045415095_cont_9to1_m_37_38_alg».proof.Proof.KI.TileBrB
import proofs.«209143_g59700045415095_cont_9to1_m_37_38_alg».proof.Proof.KI.TileBrC
import proofs.«209143_g59700045415095_cont_9to1_m_37_38_alg».proof.Proof.KI.TileClose
import proofs.«209143_g59700045415095_cont_9to1_m_37_38_alg».proof.Proof.KI.TileCloseAt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section TripB
variable [FloatOps F] (d : Dev nD) (L : grid1.Coords)

private theorem waits_ins_f {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 8000000 in
/-- The first group: its four chunks' gathers and weights copies are waited for, no result copy is, the point loops fill
    the four result slots, the next four chunks are sent for and the four result slots are copied out. -/
theorem groupTripFirst (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), g.val = 0 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg
  generalize hQ : gInv d L O W q tb ix wv o0 fi (g.val + 1) = Q
  have hc1 : ¬ k1_cond1 g = 1#1 := fun h => absurd ((cond1_iff g).1 h) (by omega)
  have hc2 : k1_cond2 g = 1#1 := (cond2_iff g).2 (by omega)
  have hc3 : ¬ k1_cond3 g = 1#1 := fun h => absurd ((cond3_iff g).1 h) (by omega)
  have hc4 : k1_cond4 g = 1#1 := (cond4_iff g).2 (by omega)
  have hc5 : ¬ k1_cond5 g = 1#1 := fun h => absurd ((cond5_iff g).1 h) (by omega)
  have hc6 : k1_cond6 g = 1#1 := (cond6_iff g).2 (by omega)
  have hc7 : ¬ k1_cond7 g = 1#1 := fun h => absurd ((cond7_iff g).1 h) (by omega)
  have hc8 : k1_cond8 g = 1#1 := (cond8_iff g).2 (by omega)
  have hin := idx_inb d L ix hidx
  have hlt : g.val < 8 := by omega
  unfold gInv slotSt0 slotSt1 slotSt2 slotSt3
  rw [if_pos hlt, if_pos hlt, if_pos hlt, if_pos hlt, if_pos hg, if_pos hg, if_pos hg, if_pos hg]
  unfold gFl0 wFl0 gFl1 wFl1 gFl2 wFl2 gFl3 wFl3
  rw [homes_pop (ivP d L (fivOf d L ix fi)) (show 4 * g.val + 4 < 32 by omega), homes_pop (ivP d L (fivOf d L ix fi)) (show 4 * g.val + 4 + 1 < 32 by omega),
    homes_pop (ivP d L (fivOf d L ix fi)) (show 4 * g.val + 4 + 1 + 1 < 32 by omega), homes_pop (ivP d L (fivOf d L ix fi)) (show 4 * g.val + 4 + 1 + 1 + 1 < 32 by omega),
    ivP_at d L (fivOf d L ix fi) (show 4 * g.val + 4 < 32 by omega) (k1_off21 g) (k1_off21_inb g hc2) (off21_row g),
    ivP_at d L (fivOf d L ix fi) (show 4 * g.val + 4 + 1 < 32 by omega) (k1_off41 g) (k1_off41_inb g hc4) (off41_row g),
    ivP_at d L (fivOf d L ix fi) (show 4 * g.val + 4 + 1 + 1 < 32 by omega) (k1_off60 g) (k1_off60_inb g hc6) (off60_row g),
    ivP_at d L (fivOf d L ix fi) (show 4 * g.val + 4 + 1 + 1 + 1 < 32 by omega) (k1_off79 g) (k1_off79_inb g hc8) (off79_row g),
    homes_pop (wP d L wv) (show 4 * g.val + 4 < 32 by omega), homes_pop (wP d L wv) (show 4 * g.val + 4 + 1 < 32 by omega),
    homes_pop (wP d L wv) (show 4 * g.val + 4 + 1 + 1 < 32 by omega), homes_pop (wP d L wv) (show 4 * g.val + 4 + 1 + 1 + 1 < 32 by omega),
    wP_at d L wv (show 4 * g.val + 4 < 32 by omega) (k1_off22 L g) (k1_off22_inb L g hc2) (off22_chunk' L g),
    wP_at d L wv (show 4 * g.val + 4 + 1 < 32 by omega) (k1_off42 L g) (k1_off42_inb L g hc4) (off42_chunk' L g),
    wP_at d L wv (show 4 * g.val + 4 + 1 + 1 < 32 by omega) (k1_off61 L g) (k1_off61_inb L g hc6) (off61_chunk' L g),
    wP_at d L wv (show 4 * g.val + 4 + 1 + 1 + 1 < 32 by omega) (k1_off80 L g) (k1_off80_inb L g hc8) (off80_chunk' L g),
    homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3)]
  unfold wP oP
  iintro ⟨#Hmw, ⟨%W', %hW', HO⟩, HVd, ⟨HV0, HV1, HV2, HV3, HVt⟩, HWd, ⟨HWc0, HWc1, HWc2, HWc3, HWt⟩, HOd, ⟨HOc0, HOc1, HOc2, HOc3, HOt⟩,
    ⟨⟨HG0, HTr0, HW0⟩, ⟨⟨%fs0, HOs0⟩, HS0⟩⟩, ⟨⟨HG1, HTr1, HW1⟩, ⟨⟨%fs1, HOs1⟩, HS1⟩⟩, ⟨⟨HG2, HTr2, HW2⟩, ⟨⟨%fs2, HOs2⟩, HS2⟩⟩, ⟨⟨HG3, HTr3, HW3⟩, ⟨⟨%fs3, HOs3⟩, HS3⟩⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HOs0]
  case region => exact ptTrip0 d L v2 0#32 1#32 g _ _
  · unfold ptInv0
    isplitl [HW0_dst]; · iexact HW0_dst
    isplitl [Hr0]; · iexact Hr0
    iexists _; isplitl [HOs0]; · iexact HOs0
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HOs1]
  case region => exact ptTrip1 d L g _ _ _
  · unfold ptInv1
    isplitl [HW1_dst]; · iexact HW1_dst
    isplitl [Hr1]; · iexact Hr1
    iexists _; isplitl [HOs1]; · iexact HOs1
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HOs2]
  case region => exact ptTrip2 d L v2 g _ _ _ _ _
  · unfold ptInv2
    isplitl [HW2_dst]; · iexact HW2_dst
    isplitl [Hr2]; · iexact Hr2
    iexists _; isplitl [HOs2]; · iexact HOs2
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HOs3]
  case region => exact ptTrip3 d L v2 _ _
  · unfold ptInv3
    isplitl [HW3_dst]; · iexact HW3_dst
    isplitl [Hr3]; · iexact Hr3
    iexists _; isplitl [HOs3]; · iexact HOs3
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  ihave HG0' : gFl0 d L q tb ix fi (4 * g.val + 4) $$ [HG0]
  · iapply (gFl0_intro d L q tb ix fi (n := 4 * g.val + 4) (by omega) (rCanF L tb ix (4 * g.val + 0)) (k1_off21 g) (k1_off21_inb g hc2) (off21_row g) _
      (rows_landed0 d L tb ix fi (by omega) _ (k1_off21 g) (k1_off21_inb g hc2) (off21_row g) rfl (hin fi (k1_off21 g) (k1_off21_inb g hc2))))
    iexact HG0
  ihave HW0' : wFl0 d L wv (4 * g.val + 4) $$ [HW0]
  · iapply (wFl0_intro d L wv (n := 4 * g.val + 4) (by omega) (wCanF L wv (4 * g.val + 0)) (k1_off22 L g) (k1_off22_inb L g hc2) (off22_chunk' L g) _
      (w_landed0 d L wv (by omega) _ (k1_off22 L g) (k1_off22_inb L g hc2) (off22_chunk' L g)))
    iexact HW0
  ihave HF0' : oFl0 d L tb ix wv (4 * g.val + 0) $$ [HS0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (by omega) o0 _ (k1_off23_inb L g 0) (off23_chunk' L g 0)))
    iexact HS0
  ihave HG1' : gFl1 d L q tb ix fi (4 * g.val + 5) $$ [HG1]
  · iapply (gFl1_intro d L q tb ix fi (n := 4 * g.val + 5) (by omega) (rCanF L tb ix (4 * g.val + 1)) (k1_off41 g) (k1_off41_inb g hc4) (off41_row g) _
      (rows_landed1 d L tb ix fi (by omega) _ (k1_off41 g) (k1_off41_inb g hc4) (off41_row g) rfl (hin fi (k1_off41 g) (k1_off41_inb g hc4))))
    iexact HG1
  ihave HW1' : wFl1 d L wv (4 * g.val + 5) $$ [HW1]
  · iapply (wFl1_intro d L wv (n := 4 * g.val + 5) (by omega) (wCanF L wv (4 * g.val + 1)) (k1_off42 L g) (k1_off42_inb L g hc4) (off42_chunk' L g) _
      (w_landed1 d L wv (by omega) _ (k1_off42 L g) (k1_off42_inb L g hc4) (off42_chunk' L g)))
    iexact HW1
  ihave HF1' : oFl1 d L tb ix wv (4 * g.val + 1) $$ [HS1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (by omega) o0 _ (k1_off23_inb L g 1) (off23_chunk' L g 1)))
    iexact HS1
  ihave HG2' : gFl2 d L q tb ix fi (4 * g.val + 6) $$ [HG2]
  · iapply (gFl2_intro d L q tb ix fi (n := 4 * g.val + 6) (by omega) (rCanF L tb ix (4 * g.val + 2)) (k1_off60 g) (k1_off60_inb g hc6) (off60_row g) _
      (rows_landed2 d L tb ix fi (by omega) _ (k1_off60 g) (k1_off60_inb g hc6) (off60_row g) rfl (hin fi (k1_off60 g) (k1_off60_inb g hc6))))
    iexact HG2
  ihave HW2' : wFl2 d L wv (4 * g.val + 6) $$ [HW2]
  · iapply (wFl2_intro d L wv (n := 4 * g.val + 6) (by omega) (wCanF L wv (4 * g.val + 2)) (k1_off61 L g) (k1_off61_inb L g hc6) (off61_chunk' L g) _
      (w_landed2 d L wv (by omega) _ (k1_off61 L g) (k1_off61_inb L g hc6) (off61_chunk' L g)))
    iexact HW2
  ihave HF2' : oFl2 d L tb ix wv (4 * g.val + 2) $$ [HS2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (by omega) o0 _ (k1_off23_inb L g 2) (off23_chunk' L g 2)))
    iexact HS2
  ihave HG3' : gFl3 d L q tb ix fi (4 * g.val + 7) $$ [HG3]
  · iapply (gFl3_intro d L q tb ix fi (n := 4 * g.val + 7) (by omega) (rCanF L tb ix (4 * g.val + 3)) (k1_off79 g) (k1_off79_inb g hc8) (off79_row g) _
      (rows_landed3 d L tb ix fi (by omega) _ (k1_off79 g) (k1_off79_inb g hc8) (off79_row g) rfl (hin fi (k1_off79 g) (k1_off79_inb g hc8))))
    iexact HG3
  ihave HW3' : wFl3 d L wv (4 * g.val + 7) $$ [HW3]
  · iapply (wFl3_intro d L wv (n := 4 * g.val + 7) (by omega) (wCanF L wv (4 * g.val + 3)) (k1_off80 L g) (k1_off80_inb L g hc8) (off80_chunk' L g) _
      (w_landed3 d L wv (by omega) _ (k1_off80 L g) (k1_off80_inb L g hc8) (off80_chunk' L g)))
    iexact HW3
  ihave HF3' : oFl3 d L tb ix wv (4 * g.val + 3) $$ [HS3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (by omega) o0 _ (k1_off23_inb L g 3) (off23_chunk' L g 3)))
    iexact HS3
  subst hQ
  iapply (gInv_close_first_at d L O W q tb ix wv o0 fi g.val hg acc)
  unfold wP oP
  isplitr; · iexact Hmw
  isplitl [HO]
  · iexists _; isplitr; swap
    · iexact HO
    ipureintro; exact (waits_ins_f (waits_ins_f (waits_ins_f (waits_ins_f (waits_ins_f (waits_ins_f (waits_ins_f (waits_ins_f hW' _) _) _) _) _) _) _) _)
  iframe

end TripB

end Cert.Proof.KI
end
-- ==== Proof.KI.TileTripL.lean ====
/-
  The last trip of a vector subcore's group loop. Before group 7 each slot's gather and weights copy of chunk 28 + b
  are in flight, its result copy of chunk 24 + b is in flight, and result chunks 28 … 31 are still at the contents the
  call was handed. The trip waits, slot by slot, for the gather (which hands back the rows slot at the table rows its
  row of row numbers names, that row, and the table's read token whole), for the weights copy (the weights slot at the
  chunk's weights, and the chunk), and for the earlier result copy (that chunk of the result at the gathered sum, and
  the result slot); runs the point loop, which leaves the result slot at the balanced sums for chunk 28 + b; starts no
  further chunk, none being left; and starts the result copy of chunk 28 + b. What it leaves is the invariant after the
  loop: every row of row numbers and every weights chunk at home, result chunks 0 … 27 at the gathered sum, each slot's
  gather and weights side idle, and each slot's result copy of chunk 28 + b in flight.
-/
import proofs.«209143_g59700045415095_cont_9to1_m_37_38_alg».proof.Proof.KI.TileFl
import proofs.«209143_g59700045415095_cont_9to1_m_37_38_alg».proof.Proof.KI.TilePt
import proofs.«209143_g59700045415095_cont_9to1_m_37_38_alg».proof.Proof.KI.TileBrA
import proofs.«209143_g59700045415095_cont_9to1_m_37_38_alg».proof.Proof.KI.TileBrB
import proofs.«209143_g59700045415095_cont_9to1_m_37_38_alg».proof.Proof.KI.TileBrC
import proofs.«209143_g59700045415095_cont_9to1_m_37_38_alg».proof.Proof.KI.TileCloseAt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

theorem waits_insL {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 8000000 in
/-- The group loop's trip at g = 7. -/
theorem groupTripLast (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), g.val = 7 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg7
  generalize hQ : gInv d L O W q tb ix wv o0 fi (g.val + 1) = Q
  have hg0 : 0 < g.val := by omega
  have hc1 : k1_cond1 g = 1#1 := (cond1_iff g).2 hg0
  have hc2 : ¬ k1_cond2 g = 1#1 := fun h => by have := (cond2_iff g).1 h; omega
  have hc3 : k1_cond3 g = 1#1 := (cond3_iff g).2 hg0
  have hc4 : ¬ k1_cond4 g = 1#1 := fun h => by have := (cond4_iff g).1 h; omega
  have hc5 : k1_cond5 g = 1#1 := (cond5_iff g).2 hg0
  have hc6 : ¬ k1_cond6 g = 1#1 := fun h => by have := (cond6_iff g).1 h; omega
  have hc7 : k1_cond7 g = 1#1 := (cond7_iff g).2 hg0
  have hc8 : ¬ k1_cond8 g = 1#1 := fun h => by have := (cond8_iff g).1 h; omega
  have hlt : g.val < 8 := by omega
  have hne : ¬ g.val = 0 := by omega
  unfold gInv slotSt0 slotSt1 slotSt2 slotSt3
  rw [if_pos hlt, if_pos hlt, if_pos hlt, if_pos hlt, if_neg hne, if_neg hne, if_neg hne, if_neg hne]
  unfold gFl0 wFl0 oFl0 gFl1 wFl1 oFl1 gFl2 wFl2 oFl2 gFl3 wFl3 oFl3
  rw [homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3),
    show 4 * g.val + 1 + 1 + 1 + 1 = 4 * g.val + 4 from by omega]
  unfold wP oP
  iintro ⟨#Hmw, ⟨%W', %hW', HO⟩, HVd, HVt, HWd, HWt, HOd, ⟨HOc0, HOc1, HOc2, HOc3, HOt⟩,
    ⟨⟨HG0, HTr0, HW0⟩, HF0⟩, ⟨⟨HG1, HTr1, HW1⟩, HF1⟩, ⟨⟨HG2, HTr2, HW2⟩, HF2⟩, ⟨⟨HG3, HTr3, HW3⟩, HF3⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HF0_src]
  case region => exact ptTrip0 d L v2 0#32 1#32 g _ _
  · unfold ptInv0
    isplitl [HW0_dst]; · iexact HW0_dst
    isplitl [Hr0]; · iexact Hr0
    iexists _; isplitl [HF0_src]; · iexact HF0_src
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HF1_src]
  case region => exact ptTrip1 d L g _ _ _
  · unfold ptInv1
    isplitl [HW1_dst]; · iexact HW1_dst
    isplitl [Hr1]; · iexact Hr1
    iexists _; isplitl [HF1_src]; · iexact HF1_src
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HF2_src]
  case region => exact ptTrip2 d L v2 g _ _ _ _ _
  · unfold ptInv2
    isplitl [HW2_dst]; · iexact HW2_dst
    isplitl [Hr2]; · iexact Hr2
    iexists _; isplitl [HF2_src]; · iexact HF2_src
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HF3_src]
  case region => exact ptTrip3 d L v2 _ _
  · unfold ptInv3
    isplitl [HW3_dst]; · iexact HW3_dst
    isplitl [Hr3]; · iexact Hr3
    iexists _; isplitl [HF3_src]; · iexact HF3_src
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  subst hQ
  -- the four result copies in flight, at the contents they deliver
  ihave HF0' : oFl0 d L tb ix wv (4 * g.val + 0) $$ [HF0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (n := 4 * g.val + 0) (by omega) o0 (k1_off23 L g (BitVec.ofNat 32 (0 : Fin 4).val)) (k1_off23_inb L g 0) (off23_chunk' L g 0)))
    iexact HF0
  ihave HF1' : oFl1 d L tb ix wv (4 * g.val + 1) $$ [HF1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (n := 4 * g.val + 1) (by omega) o0 (k1_off23 L g (BitVec.ofNat 32 (1 : Fin 4).val)) (k1_off23_inb L g 1) (off23_chunk' L g 1)))
    iexact HF1
  ihave HF2' : oFl2 d L tb ix wv (4 * g.val + 2) $$ [HF2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (n := 4 * g.val + 2) (by omega) o0 (k1_off23 L g (BitVec.ofNat 32 (2 : Fin 4).val)) (k1_off23_inb L g 2) (off23_chunk' L g 2)))
    iexact HF2
  ihave HF3' : oFl3 d L tb ix wv (4 * g.val + 3) $$ [HF3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (n := 4 * g.val + 3) (by omega) o0 (k1_off23 L g (BitVec.ofNat 32 (3 : Fin 4).val)) (k1_off23_inb L g 3) (off23_chunk' L g 3)))
    iexact HF3
  -- the rows and weights slots at some contents
  ihave Hr0' : iprop(∃ f, (((rSlot0).view.loc (V d (cV L) (jV L)) ↦[(rSlot0).view.set]{fullShare} f) : sProp 𝕄)) $$ [Hr0]
  · iexists _; iexact Hr0
  ihave Hw0' : iprop(∃ f, (((wSlot0).view.loc (V d (cV L) (jV L)) ↦[(wSlot0).view.set]{fullShare} f) : sProp 𝕄)) $$ [Hw0]
  · iexists _; iexact Hw0
  ihave Hr1' : iprop(∃ f, (((rSlot1).view.loc (V d (cV L) (jV L)) ↦[(rSlot1).view.set]{fullShare} f) : sProp 𝕄)) $$ [Hr1]
  · iexists _; iexact Hr1
  ihave Hw1' : iprop(∃ f, (((wSlot1).view.loc (V d (cV L) (jV L)) ↦[(wSlot1).view.set]{fullShare} f) : sProp 𝕄)) $$ [Hw1]
  · iexists _; iexact Hw1
  ihave Hr2' : iprop(∃ f, (((rSlot2).view.loc (V d (cV L) (jV L)) ↦[(rSlot2).view.set]{fullShare} f) : sProp 𝕄)) $$ [Hr2]
  · iexists _; iexact Hr2
  ihave Hw2' : iprop(∃ f, (((wSlot2).view.loc (V d (cV L) (jV L)) ↦[(wSlot2).view.set]{fullShare} f) : sProp 𝕄)) $$ [Hw2]
  · iexists _; iexact Hw2
  ihave Hr3' : iprop(∃ f, (((rSlot3).view.loc (V d (cV L) (jV L)) ↦[(rSlot3).view.set]{fullShare} f) : sProp 𝕄)) $$ [Hr3]
  · iexists _; iexact Hr3
  ihave Hw3' : iprop(∃ f, (((wSlot3).view.loc (V d (cV L) (jV L)) ↦[(wSlot3).view.set]{fullShare} f) : sProp 𝕄)) $$ [Hw3]
  · iexists _; iexact Hw3
  iapply (gInv_close_last_at d L O W q tb ix wv o0 fi g.val hg7 _)
  unfold wP oP
  isplitr; · iexact Hmw
  isplitl [HO]
  · iexists _; isplitr
    swap
    · iexact HO
    ipureintro; exact (waits_insL (waits_insL (waits_insL (waits_insL (waits_insL (waits_insL (waits_insL (waits_insL (waits_insL (waits_insL (waits_insL (waits_insL hW' _) _) _) _) _) _) _) _) _) _) _) _)
  iframe
  isplitl [HG0 HW0]
  · isplitl [HG0]
    · iexact HG0
    · iexact HW0
  isplitl [HG1 HW1]
  · isplitl [HG1]
    · iexact HG1
    · iexact HW1
  isplitl [HG2 HW2]
  · isplitl [HG2]
    · iexact HG2
    · iexact HW2
  isplitl [HG3]
  · iexact HG3
  · iexact HW3

end Trip
end Cert.Proof.KI
end
-- ==== Proof.KI.TileBrD.lean ====
/-
  The group loop's invariant at its two ends. Before the first group nothing is at home below the four chunks in flight
  and no result copy has been issued, so what the prologue leaves — the later rows and weight chunks, every result
  chunk at what the call was handed, and each slot's gather and weights copy of chunks 0 … 3 with the result slot idle —
  is the invariant at 0. After the eighth group every row and weight chunk is at home, the first twenty-eight result
  chunks are at home at the balanced sums, each slot's gather and weights side is idle and its result copy of chunk
  28 … 31 is in flight; once those four land, all thirty-two result chunks are at home.
-/
import proofs.«209143_g59700045415095_cont_9to1_m_37_38_alg».proof.Proof.KI.TileFl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section BrD
variable [FloatOps F] (d : Dev nD) (L : grid1.Coords)

set_option maxHeartbeats 2000000 in
/-- What the prologue leaves is the group loop's invariant before the first trip. -/
theorem gInv_init (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 4 32 ∗ homes (wP d L wv) 4 32 ∗ homes (oP d L o0) 0 32
      ∗ (gFl0 d L q tb ix fi 0 ∗ tblRest d L q tb 11 ∗ wFl0 d L wv 0
          ∗ (∃ f, ((oSlot0).view.loc (V d (cV L) (jV L)) ↦[(oSlot0).view.set]{fullShare} f)) ∗ semVal ((V d (cV L) (jV L)), SemLoc.dma cc1_scratch12.sem) 0)
      ∗ (gFl1 d L q tb ix fi 1 ∗ tblRest d L q tb 12 ∗ wFl1 d L wv 1
          ∗ (∃ f, ((oSlot1).view.loc (V d (cV L) (jV L)) ↦[(oSlot1).view.set]{fullShare} f)) ∗ semVal ((V d (cV L) (jV L)), SemLoc.dma cc1_scratch13.sem) 0)
      ∗ (gFl2 d L q tb ix fi 2 ∗ tblRest d L q tb 13 ∗ wFl2 d L wv 2
          ∗ (∃ f, ((oSlot2).view.loc (V d (cV L) (jV L)) ↦[(oSlot2).view.set]{fullShare} f)) ∗ semVal ((V d (cV L) (jV L)), SemLoc.dma cc1_scratch14.sem) 0)
      ∗ (gFl3 d L q tb ix fi 3 ∗ tblRest d L q tb 14 ∗ wFl3 d L wv 3
          ∗ (∃ f, ((oSlot3).view.loc (V d (cV L) (jV L)) ↦[(oSlot3).view.set]{fullShare} f)) ∗ semVal ((V d (cV L) (jV L)), SemLoc.dma cc1_scratch15.sem) 0))
      ⊢ gInv d L O W q tb ix wv o0 fi 0 acc := by
  unfold gInv slotSt0 slotSt1 slotSt2 slotSt3
  rw [if_pos (by decide : 0 < 8), if_pos (by decide : 0 < 8), if_pos (by decide : 0 < 8), if_pos (by decide : 0 < 8),
    if_pos (rfl : 0 = 0), if_pos (rfl : 0 = 0), if_pos (rfl : 0 = 0), if_pos (rfl : 0 = 0)]
  simp only [Nat.reduceMul, Nat.reduceAdd, Nat.reduceSub]
  rw [homes_nil (ivP d L (fivOf d L ix fi)) (by omega : 0 ≤ 0), homes_nil (wP d L wv) (by omega : 0 ≤ 0), homes_nil (oP d L (skip (F := F) tb ix wv)) (by omega : 0 ≤ 0)]
  iintro ⟨HM, HW, Hi, Hw, Ho,
    ⟨Hg0, Ht0, Hf0, He0, Hs0⟩, ⟨Hg1, Ht1, Hf1, He1, Hs1⟩, ⟨Hg2, Ht2, Hf2, He2, Hs2⟩, ⟨Hg3, Ht3, Hf3, He3, Hs3⟩⟩
  iframe

set_option maxHeartbeats 2000000 in
/-- After the last trip: every row and every weights chunk is home, the first twenty-eight result chunks are home at the
    gathered sum, each slot's gather and weights side is idle and its last result copy is in flight. -/
theorem gInv_last (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    gInv d L O W q tb ix wv o0 fi k1_t1_loop.trips acc
      ⊢ iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 32 ∗ homes (wP d L wv) 0 32 ∗ homes (oP d L (skip (F := F) tb ix wv)) 0 28
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0
          ∗ Transfers.Flight countersEmb (V d (cV L) (jV L)) (SemLoc.dma cc1_scratch12.sem) (default : HIx 1) 65536
              iprop(oP d L (skip (F := F) tb ix wv) 28 ∗ ((oSlot0).view.loc (V d (cV L) (jV L)) ↦[(oSlot0).view.set]{fullShare} oCanF L tb ix wv 28)))
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0
          ∗ Transfers.Flight countersEmb (V d (cV L) (jV L)) (SemLoc.dma cc1_scratch13.sem) (default : HIx 1) 65536
              iprop(oP d L (skip (F := F) tb ix wv) 29 ∗ ((oSlot1).view.loc (V d (cV L) (jV L)) ↦[(oSlot1).view.set]{fullShare} oCanF L tb ix wv 29)))
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0
          ∗ Transfers.Flight countersEmb (V d (cV L) (jV L)) (SemLoc.dma cc1_scratch14.sem) (default : HIx 1) 65536
              iprop(oP d L (skip (F := F) tb ix wv) 30 ∗ ((oSlot2).view.loc (V d (cV L) (jV L)) ↦[(oSlot2).view.set]{fullShare} oCanF L tb ix wv 30)))
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0
          ∗ Transfers.Flight countersEmb (V d (cV L) (jV L)) (SemLoc.dma cc1_scratch15.sem) (default : HIx 1) 65536
              iprop(oP d L (skip (F := F) tb ix wv) 31 ∗ ((oSlot3).view.loc (V d (cV L) (jV L)) ↦[(oSlot3).view.set]{fullShare} oCanF L tb ix wv 31)))) := by
  rw [(by decide : k1_t1_loop.trips = 8)]
  unfold gInv slotSt0 slotSt1 slotSt2 slotSt3 oFl0 oFl1 oFl2 oFl3
  rw [if_neg (by decide : ¬ (8 < 8)), if_neg (by decide : ¬ (8 < 8)), if_neg (by decide : ¬ (8 < 8)), if_neg (by decide : ¬ (8 < 8)),
    if_neg (by decide : ¬ (8 = 0)), if_neg (by decide : ¬ (8 = 0)), if_neg (by decide : ¬ (8 = 0)), if_neg (by decide : ¬ (8 = 0))]
  simp only [Nat.reduceMul, Nat.reduceAdd, Nat.reduceSub]
  rw [homes_nil (ivP d L (fivOf d L ix fi)) (by omega : 32 ≤ 36), homes_nil (wP d L wv) (by omega : 32 ≤ 36), homes_nil (oP d L o0) (by omega : 32 ≤ 32)]
  iintro ⟨HM, HW, Hi, Hie, Hw, Hwe, Ho, Hoe,
    ⟨⟨Ht0, Hr0, Hs0, Hf0, Hz0⟩, Hc0⟩, ⟨⟨Ht1, Hr1, Hs1, Hf1, Hz1⟩, Hc1⟩, ⟨⟨Ht2, Hr2, Hs2, Hf2, Hz2⟩, Hc2⟩, ⟨⟨Ht3, Hr3, Hs3, Hf3, Hz3⟩, Hc3⟩⟩
  iframe

/-- The last four result chunks join the first twenty-eight. -/
theorem oP_home4 (f : Buf (Elt F) (outLoc d)) :
    iprop(homes (oP d L f) 0 28 ∗ oP d L f 28 ∗ oP d L f 29 ∗ oP d L f 30 ∗ oP d L f 31) ⊢ (homes (oP d L f) 0 32 : sProp 𝕄) := by
  have e : (homes (oP d L f) 0 32 : sProp 𝕄)
      = iprop(oP d L f 31 ∗ oP d L f 30 ∗ oP d L f 29 ∗ oP d L f 28 ∗ homes (oP d L f) 0 28) := by
    show homes (oP d L f) 0 (31 + 1) = _
    rw [homes_push _ (by omega : 0 ≤ 31)]
    show iprop(oP d L f 31 ∗ homes (oP d L f) 0 (30 + 1)) = _
    rw [homes_push _ (by omega : 0 ≤ 30)]
    show iprop(oP d L f 31 ∗ oP d L f 30 ∗ homes (oP d L f) 0 (29 + 1)) = _
    rw [homes_push _ (by omega : 0 ≤ 29)]
    show iprop(oP d L f 31 ∗ oP d L f 30 ∗ oP d L f 29 ∗ homes (oP d L f) 0 (28 + 1)) = _
    rw [homes_push _ (by omega : 0 ≤ 28)]
  rw [e]
  iintro ⟨H, H0, H1, H2, H3⟩
  iframe

end BrD

end Cert.Proof.KI
end
-- ==== Proof.KI.TileCore.lean ====
/-
  A vector subcore's whole task around its group loop.

  The prologue fetches the tile's block of row numbers into its scratch and waits for it; then, slot by slot (b = 0 … 3),
  it starts the gather of the 128 table rows that row b of the scratch names and the copy of chunk b's sixteen weight
  rows. Every word of the scratch is a row number of the table, so each gather is admissible; the eight copies in flight
  deliver their slots at the contents the loop's invariant names — a rows slot the table rows chunk b's row numbers
  name, a weights slot the tile's weight rows 16·b … —, so what the prologue leaves is the invariant before trip 0.

  The loop's trip is a hypothesis here: it takes the invariant before trip g to the invariant before trip g + 1.

  After the eighth trip every row of the scratch and every weights chunk is home, the first twenty-eight chunks of the
  result are home at the gathered sum, each slot's gather and weights side is idle and its last result copy (chunks
  28 … 31) is in flight. The epilogue waits for those four; the thirty-two chunks of the result side by side, the
  table's four read tokens, the block of row numbers, the weights and the tile's own memory (the scratch whole again,
  the twelve slots, the thirteen semaphores at zero) are what the task hands back, every wait it recorded its own.
-/
import proofs.«209143_g59700045415095_cont_9to1_m_37_38_alg».proof.Proof.KI.TileFl
import proofs.«209143_g59700045415095_cont_9to1_m_37_38_alg».proof.Proof.KI.TileBrA
import proofs.«209143_g59700045415095_cont_9to1_m_37_38_alg».proof.Proof.KI.TileBrB
import proofs.«209143_g59700045415095_cont_9to1_m_37_38_alg».proof.Proof.KI.TileBrC
import proofs.«209143_g59700045415095_cont_9to1_m_37_38_alg».proof.Proof.KI.TileBrD

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Core
variable [FloatOps F] (d : Dev nD) (L : grid1.Coords)

set_option maxHeartbeats 4000000 in
theorem tile_core (q : PosShare TreeShare) (tb : Buf (Elt F) (tblLoc d)) (ix : Buf (Elt F) (idxLoc d)) (wv : Buf (Elt F) (wLoc d))
    (o0 : Buf (Elt F) (outLoc d)) (O : CellTallies nD τ sig (HIx 1)) (W : Waits sig (HIx 1))
    (hTrip : ∀ (fi : Buf (Elt F) ((ivV).view.loc (V d (cV L) (jV L)))) (v2 : BitVec 32) (g : Fin k1_t1_loop.trips) (acc : PUnit),
      gInv d L O W q tb ix wv o0 fi g.val acc ⊢ wp frame (wpE (defs₀ (F := F)) 𝒱₀ (V d (cV L) (jV L)) none) Set.univ
        (k1_t1_body L tblV (Memref.isWhole_whole _) idxV (Memref.isWhole_whole _) wV (Memref.isWhole_whole _) outV (Memref.isWhole_whole _)
          ivV (Memref.isWhole_whole _) wvV (Memref.isWhole_whole _) rvV (Memref.isWhole_whole _) ovV (Memref.isWhole_whole _)
          cc1_scratch4 cc1_scratch5 cc1_scratch6 cc1_scratch7 cc1_scratch8 cc1_scratch9 cc1_scratch10 cc1_scratch11
          cc1_scratch12 cc1_scratch13 cc1_scratch14 cc1_scratch15 cc1_scoped0 v2 g acc)
        (gInv d L O W q tb ix wv o0 fi (g.val + 1)))
    (hidx : ∀ j : S32x32x128.Idx, (ix j).toNat < 262144) :
    iprop(□ Transfers.MayWaits (V d (cV L) (jV L)) (default : HIx 1) O ∗ owes (V d (cV L) (jV L)) O W ∗ tileIn d L q tb ix wv o0 ∗ tileOwn d L)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0)
          fun _ => iprop(tileIn d L q tb ix wv (skip (F := F) tb ix wv) ∗ tileOwn d L
            ∗ ∃ W', ⌜∀ p ∈ W', p ∈ W ∨ p.2 = none⌝ ∗ owes (V d (cV L) (jV L)) O W') := by
  unfold tileIn tileOwn
  conv_lhs =>
    rw [homes_pop (wP d L wv) (show 0 < 32 by omega), homes_pop (wP d L wv) (show 0 + 1 < 32 by omega),
      homes_pop (wP d L wv) (show 0 + 1 + 1 < 32 by omega), homes_pop (wP d L wv) (show 0 + 1 + 1 + 1 < 32 by omega),
      wP_at d L wv (show 0 < 32 by omega) _ (k1_off2_inb L 0) (k1_off2_eq L 0),
      wP_at d L wv (show 0 + 1 < 32 by omega) _ (k1_off2_inb L 1) (k1_off2_eq L 1),
      wP_at d L wv (show 0 + 1 + 1 < 32 by omega) _ (k1_off2_inb L 2) (k1_off2_eq L 2),
      wP_at d L wv (show 0 + 1 + 1 + 1 < 32 by omega) _ (k1_off2_inb L 3) (k1_off2_eq L 3)]
  iintro ⟨#Hmw, HO, ⟨HT0, HT1, HT2, HT3, HI, ⟨HW0, HW1, HW2, HW3, HWh⟩, HOh⟩, ⟨%fi, Hiv⟩, ⟨%fw0, Hw0⟩, ⟨%fw1, Hw1⟩, ⟨%fw2, Hw2⟩, ⟨%fw3, Hw3⟩, ⟨%fr0, Hr0⟩, ⟨%fr1, Hr1⟩, ⟨%fr2, Hr2⟩, ⟨%fr3, Hr3⟩, ⟨%fo0, Ho0⟩, ⟨%fo1, Ho1⟩, ⟨%fo2, Ho2⟩, ⟨%fo3, Ho3⟩, Hs0, Hs1, Hs2, Hs3, Hs4, Hs5, Hs6, Hs7, Hs8, Hs9, Hs10, Hs11, Hs12⟩
  sl_unfold [cc1__sc_body]
  sl_exec
  ihave Hiv' := (Entails.of_eq ((iv_split d L _).trans (by
    rw [homes_pop _ (show 0 < 32 by omega), homes_pop _ (show 0 + 1 < 32 by omega),
      homes_pop _ (show 0 + 1 + 1 < 32 by omega), homes_pop _ (show 0 + 1 + 1 + 1 < 32 by omega),
      ivP_at d L _ (show 0 < 32 by omega) ![0, 0] inb_S32x128_S1x128_0_0 rfl,
      ivP_at d L _ (show 0 + 1 < 32 by omega) ![1, 0] inb_S32x128_S1x128_1_0 rfl,
      ivP_at d L _ (show 0 + 1 + 1 < 32 by omega) ![2, 0] inb_S32x128_S1x128_2_0 rfl,
      ivP_at d L _ (show 0 + 1 + 1 + 1 < 32 by omega) ![3, 0] inb_S32x128_S1x128_3_0 rfl]))) $$ Hiv
  icases Hiv' with ⟨HV0, HV1, HV2, HV3, HVh⟩
  have hin := idx_inb d L ix hidx
  sl_exec
  -- the eight copies in flight, at the contents they deliver
  ihave Hg0 : gFl0 d L q tb ix fi 0 $$ [Hs0]
  · iapply (gFl0_intro d L q tb ix fi (n := 0) (by omega) fr0 ![0, 0] inb_S32x128_S1x128_0_0 rfl _
      (rows_landed0 d L tb ix fi (n := 0) (by omega) fr0 ![0, 0] inb_S32x128_S1x128_0_0 rfl rfl (hin fi ![0, 0] inb_S32x128_S1x128_0_0)))
    iexact Hs0
  ihave Hg1 : gFl1 d L q tb ix fi 1 $$ [Hs1]
  · iapply (gFl1_intro d L q tb ix fi (n := 1) (by omega) fr1 ![1, 0] inb_S32x128_S1x128_1_0 rfl _
      (rows_landed1 d L tb ix fi (n := 1) (by omega) fr1 ![1, 0] inb_S32x128_S1x128_1_0 rfl rfl (hin fi ![1, 0] inb_S32x128_S1x128_1_0)))
    iexact Hs1
  ihave Hg2 : gFl2 d L q tb ix fi 2 $$ [Hs2]
  · iapply (gFl2_intro d L q tb ix fi (n := 2) (by omega) fr2 ![2, 0] inb_S32x128_S1x128_2_0 rfl _
      (rows_landed2 d L tb ix fi (n := 2) (by omega) fr2 ![2, 0] inb_S32x128_S1x128_2_0 rfl rfl (hin fi ![2, 0] inb_S32x128_S1x128_2_0)))
    iexact Hs2
  ihave Hg3 : gFl3 d L q tb ix fi 3 $$ [Hs3]
  · iapply (gFl3_intro d L q tb ix fi (n := 3) (by omega) fr3 ![3, 0] inb_S32x128_S1x128_3_0 rfl _
      (rows_landed3 d L tb ix fi (n := 3) (by omega) fr3 ![3, 0] inb_S32x128_S1x128_3_0 rfl rfl (hin fi ![3, 0] inb_S32x128_S1x128_3_0)))
    iexact Hs3
  ihave Hw0' : wFl0 d L wv 0 $$ [Hs4]
  · iapply (wFl0_intro d L wv (n := 0) (by omega) fw0 _ (k1_off2_inb L 0) (k1_off2_eq L 0) _
      (w_landed0 d L wv (n := 0) (by omega) fw0 _ (k1_off2_inb L 0) (k1_off2_eq L 0)))
    iexact Hs4
  ihave Hw1' : wFl1 d L wv 1 $$ [Hs5]
  · iapply (wFl1_intro d L wv (n := 1) (by omega) fw1 _ (k1_off2_inb L 1) (k1_off2_eq L 1) _
      (w_landed1 d L wv (n := 1) (by omega) fw1 _ (k1_off2_inb L 1) (k1_off2_eq L 1)))
    iexact Hs5
  ihave Hw2' : wFl2 d L wv 2 $$ [Hs6]
  · iapply (wFl2_intro d L wv (n := 2) (by omega) fw2 _ (k1_off2_inb L 2) (k1_off2_eq L 2) _
      (w_landed2 d L wv (n := 2) (by omega) fw2 _ (k1_off2_inb L 2) (k1_off2_eq L 2)))
    iexact Hs6
  ihave Hw3' : wFl3 d L wv 3 $$ [Hs7]
  · iapply (wFl3_intro d L wv (n := 3) (by omega) fw3 _ (k1_off2_inb L 3) (k1_off2_eq L 3) _
      (w_landed3 d L wv (n := 3) (by omega) fw3 _ (k1_off2_inb L 3) (k1_off2_eq L 3)))
    iexact Hs7
  -- the group loop
  sl_for (gInv d L O W q tb ix wv o0 fi) $$ [HO HVh HWh HOh Hg0 HT0 Hw0' Ho0 Hs8 Hg1 HT1 Hw1' Ho1 Hs9 Hg2 HT2 Hw2' Ho2 Hs10 Hg3 HT3 Hw3' Ho3 Hs11]
  case region =>
    intro k acc
    exact hTrip fi _ k acc
  · iapply (gInv_init d L O W q tb ix wv o0 fi _)
    isplitr; · iexact Hmw
    isplitl [HO]
    · iexists _; isplitr
      rotate_left
      · iexact HO
      · ipureintro; intro p hp
        rcases Finset.mem_insert.mp hp with hp | hp
        · exact .inr (by subst hp; rfl)
        · exact .inl hp
    isplitl [HVh]; · iexact HVh
    isplitl [HWh]; · iexact HWh
    isplitl [HOh]; · iexact HOh
    isplitl [Hg0 HT0 Hw0' Ho0 Hs8]
    · isplitl [Hg0]; · iexact Hg0
      isplitl [HT0]; · iexact HT0
      isplitl [Hw0']; · iexact Hw0'
      isplitl [Ho0]; · iexists _; iexact Ho0
      iexact Hs8
    isplitl [Hg1 HT1 Hw1' Ho1 Hs9]
    · isplitl [Hg1]; · iexact Hg1
      isplitl [HT1]; · iexact HT1
      isplitl [Hw1']; · iexact Hw1'
      isplitl [Ho1]; · iexists _; iexact Ho1
      iexact Hs9
    isplitl [Hg2 HT2 Hw2' Ho2 Hs10]
    · isplitl [Hg2]; · iexact Hg2
      isplitl [HT2]; · iexact HT2
      isplitl [Hw2']; · iexact Hw2'
      isplitl [Ho2]; · iexists _; iexact Ho2
      iexact Hs10
    isplitl [Hg3]; · iexact Hg3
    isplitl [HT3]; · iexact HT3
    isplitl [Hw3']; · iexact Hw3'
    isplitl [Ho3]; · iexists _; iexact Ho3
    iexact Hs11
  iintro %acc HI'
  ihave HL := (gInv_last d L O W q tb ix wv o0 fi acc) $$ HI'
  icases HL with ⟨-, ⟨%W', %hW', HO⟩, HVall, HWall, HO28, ⟨HT0, ⟨%gr0, Hr0⟩, Hs0, ⟨%gw0, Hw0⟩, Hs4, Hf0⟩, ⟨HT1, ⟨%gr1, Hr1⟩, Hs1, ⟨%gw1, Hw1⟩, Hs5, Hf1⟩, ⟨HT2, ⟨%gr2, Hr2⟩, Hs2, ⟨%gw2, Hw2⟩, Hs6, Hf2⟩, HT3, ⟨%gr3, Hr3⟩, Hs3, ⟨%gw3, Hw3⟩, Hs7, Hf3⟩
  sl_exec
  sl_step
  -- what the task hands back
  isplitl [HT0 HT1 HT2 HT3 HI HWall HO28 Hf0_dst Hf1_dst Hf2_dst Hf3_dst]
  · isplitl [HT0]; · iexact HT0
    isplitl [HT1]; · iexact HT1
    isplitl [HT2]; · iexact HT2
    isplitl [HT3]; · iexact HT3
    isplitl [HI]; · iexact HI
    isplitl [HWall]; · iexact HWall
    iapply (oP_home4 d L _)
    isplitl [HO28]; · iexact HO28
    isplitl [Hf0_dst]; · iexact Hf0_dst
    isplitl [Hf1_dst]; · iexact Hf1_dst
    isplitl [Hf2_dst]; · iexact Hf2_dst
    iexact Hf3_dst
  isplitr [HO]
  · isplitl [HVall]
    · iexists _; iapply (Entails.of_eq (iv_split d L _).symm); iexact HVall
    isplitl [Hw0]; · iexists _; iexact Hw0
    isplitl [Hw1]; · iexists _; iexact Hw1
    isplitl [Hw2]; · iexists _; iexact Hw2
    isplitl [Hw3]; · iexists _; iexact Hw3
    isplitl [Hr0]; · iexists _; iexact Hr0
    isplitl [Hr1]; · iexists _; iexact Hr1
    isplitl [Hr2]; · iexists _; iexact Hr2
    isplitl [Hr3]; · iexists _; iexact Hr3
    isplitl [Hf0_src]; · iexists _; iexact Hf0_src
    isplitl [Hf1_src]; · iexists _; iexact Hf1_src
    isplitl [Hf2_src]; · iexists _; iexact Hf2_src
    isplitl [Hf3_src]; · iexists _; iexact Hf3_src
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hf0]; · iexact Hf0
    isplitl [Hf1]; · iexact Hf1
    isplitl [Hf2]; · iexact Hf2
    isplitl [Hf3]; · iexact Hf3
    iexact Hs12
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact hW' p hp

end Core
end Cert.Proof.KI
end
-- ==== Proof.KI.TileObl.lean ====
/-
  From the triple of a vector subcore's task over the resources cut as the task uses them, to the obligation the launch
  states for the tiles.

  What the launch hands the tile at grid coordinates L = (core, subcore) — worker w = 2·subcore + core — is its share of the
  table, its block of row numbers, its 512 rows of the weights and of the result, and the subcore's own buffers and
  semaphores as two products over everything the subcore owns. The task names thirteen of those semaphores and four of
  those buffers; finitely many distinct members of a finite set come out of a product over it, the rest staying aside.
  Each of the three rings is a buffer of four slots, slot b the indices with first coordinate b: the slots are pairwise
  disjoint and cover the ring, so a ring whole at some contents is its four slots each at some contents, and four slots at
  four contents are the ring whole at the contents that agree with each on its slot. A share is its first fifteen read
  tokens and what remains after them; tokens 11 to 14 go to the task, the others stay aside. The 512 rows are the
  thirty-two chunks, numbered by the naturals below 32.

  The task runs on the cut resources with everything else framed; afterwards the pieces are put back the same way, the
  result's rows at the gathered sum. On a subcore inside the grid the kernel's label unfolds to the task at that subcore's
  coordinates, whose worker number is the one the launch deals it.
-/
import proofs.«209143_g59700045415095_cont_9to1_m_37_38_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Separating products over an initial segment of the naturals -/

section BigSepFin
variable {M : Type} [URA M]

theorem bigSep_fin_succ {n : ℕ} (Φ : Fin (n + 1) → sProp M) :
    bigSep Finset.univ Φ = iprop(Φ 0 ∗ bigSep Finset.univ fun k : Fin n => Φ k.succ) := by
  rw [Fin.univ_succ]
  unfold bigSep
  rw [Finset.fold_cons, Finset.fold_map]
  rfl

theorem bigSep_fin_zero (Φ : Fin 0 → sProp M) : bigSep Finset.univ Φ = iprop(emp) := rfl

/-- Finitely many distinct members of a finite set come out of a product over it. -/
theorem bigSep_take {I : Type} [DecidableEq I] {n : ℕ} (s : Finset I) (e : Fin n ↪ I) (h : ∀ k, e k ∈ s) (Φ : I → sProp M) :
    bigSep s Φ = iprop((bigSep Finset.univ fun k : Fin n => Φ (e k)) ∗ bigSep (s \ Finset.univ.map e) Φ) := by
  rw [SparseCore.bigSep_sdiff_split' (t := Finset.univ.map e)
    (fun x hx => by obtain ⟨k, -, rfl⟩ := Finset.mem_map.mp hx; exact h k), BI.bigSep_map]

/-- A product over the naturals below n is the product over Fin n. -/
theorem bigSep_Ico_fin (n : ℕ) (P : ℕ → sProp M) : bigSep (Finset.Ico 0 n) P = bigSep Finset.univ fun i : Fin n => P i.val := by
  rw [← Finset.range_eq_Ico, ← Nat.Iio_eq_range, ← Fin.map_valEmbedding_univ, BI.bigSep_map]; rfl

end BigSepFin

/-! ## The tile's own semaphores -/

section Own
variable (d : Dev nD) (L : grid1.Coords)

/-- The thirteen DMA semaphores of the tile's task. -/
def semList : Fin 13 → SemLoc sig :=
  ![.dma cc1_scratch4.sem, .dma cc1_scratch5.sem, .dma cc1_scratch6.sem, .dma cc1_scratch7.sem, .dma cc1_scratch8.sem,
    .dma cc1_scratch9.sem, .dma cc1_scratch10.sem, .dma cc1_scratch11.sem, .dma cc1_scratch12.sem, .dma cc1_scratch13.sem,
    .dma cc1_scratch14.sem, .dma cc1_scratch15.sem, .dma cc1_scoped0.sem]

theorem semList_inj : Function.Injective semList := by decide
theorem semList_scoped : ∀ k, (semList k).isScoped .scVector = true := by decide

def semEmb : Fin 13 ↪ GSem nD τ sig :=
  ⟨fun k => (V d (cV L) (jV L), semList k), fun a b h => semList_inj (Prod.ext_iff.mp h).2⟩

/-- The tile's other scoped semaphores, at zero. -/
def semsRest : sProp 𝕄 := bigSep (ownCells (V d (cV L) (jV L)) \ Finset.univ.map (semEmb d L)) fun g => semVal g 0

theorem ownSems0_V :
    (ownSems0 (V d (cV L) (jV L)) : sProp 𝕄)
      = iprop((semVal ((V d (cV L) (jV L)), SemLoc.dma cc1_scratch4.sem) 0 ∗ semVal ((V d (cV L) (jV L)), SemLoc.dma cc1_scratch5.sem) 0
          ∗ semVal ((V d (cV L) (jV L)), SemLoc.dma cc1_scratch6.sem) 0 ∗ semVal ((V d (cV L) (jV L)), SemLoc.dma cc1_scratch7.sem) 0
          ∗ semVal ((V d (cV L) (jV L)), SemLoc.dma cc1_scratch8.sem) 0 ∗ semVal ((V d (cV L) (jV L)), SemLoc.dma cc1_scratch9.sem) 0
          ∗ semVal ((V d (cV L) (jV L)), SemLoc.dma cc1_scratch10.sem) 0 ∗ semVal ((V d (cV L) (jV L)), SemLoc.dma cc1_scratch11.sem) 0
          ∗ semVal ((V d (cV L) (jV L)), SemLoc.dma cc1_scratch12.sem) 0 ∗ semVal ((V d (cV L) (jV L)), SemLoc.dma cc1_scratch13.sem) 0
          ∗ semVal ((V d (cV L) (jV L)), SemLoc.dma cc1_scratch14.sem) 0 ∗ semVal ((V d (cV L) (jV L)), SemLoc.dma cc1_scratch15.sem) 0
          ∗ semVal ((V d (cV L) (jV L)), SemLoc.dma cc1_scoped0.sem) 0 ∗ emp) ∗ semsRest (F := F) d L) := by
  unfold SparseCore.Cfg.ownSems0 semsRest
  rw [bigSep_take (ownCells (V d (cV L) (jV L))) (semEmb d L)
    (fun k => (mem_ownCells (g := semEmb d L k)).mpr ⟨rfl, semList_scoped k⟩)]
  iterate 13 rw [bigSep_fin_succ]
  rw [bigSep_fin_zero]
  rfl

end Own

/-! ## The tile's own buffers -/

section OwnBufs
variable (d : Dev nD) (L : grid1.Coords)

/-- The four scratch buffers of the tile's task: the row numbers and the three rings. -/
def bufList : Fin 4 → Ref sig .scVector := ![cc1_scratch0, cc1_scratch1, cc1_scratch2, cc1_scratch3]

theorem bufList_inj : Function.Injective bufList := by decide

def bufEmb : Fin 4 ↪ DevRef τ sig :=
  ⟨fun k => (Proc.scVector (cV L) (jV L)).devRef (bufList k), fun a b h => bufList_inj (Proc.devRef_injective _ h)⟩

/-- The tile's other buffers, at some contents. -/
def bufsRest : sProp 𝕄 :=
  bigSep (ownRefs (τ := τ) (Proc.scVector (cV L) (jV L)) \ Finset.univ.map (bufEmb L)) fun b => iprop(∃ f, ((d, b) : Loc nD τ sig) ↦{fullShare} f)

theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f) ∗ emp)
          ∗ bufsRest (F := F) d L) := by
  unfold SparseCore.Cfg.ownBufs bufsRest
  rw [bigSep_take (ownRefs (τ := τ) (Proc.scVector (cV L) (jV L))) (bufEmb L)
    (fun k => by fin_cases k <;> exact SparseCore.Cfg.mem_ownRefs_of_owner (p := Proc.scVector (cV L) (jV L)) rfl)]
  iterate 4 rw [bigSep_fin_succ]
  rw [bigSep_fin_zero]
  rfl

end OwnBufs

/-! ## A buffer in four parts -/

section Four
variable {ℓ : Loc nD τ sig}

theorem pointsTo_cut4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ (ℓ ↦[K 3]{q} f) ∗ emp) := by
  rw [← hc, pointsTo_biUnion Finset.univ K hd]
  iterate 4 rw [bigSep_fin_succ]
  rw [bigSep_fin_zero]
  rfl

theorem pointsTo_split4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) :
    (iprop(∃ f, ℓ ↦{q} f) : sProp 𝕄)
      ⊢ iprop((∃ f, ℓ ↦[K 0]{q} f) ∗ (∃ f, ℓ ↦[K 1]{q} f) ∗ (∃ f, ℓ ↦[K 2]{q} f) ∗ (∃ f, ℓ ↦[K 3]{q} f)) := by
  iintro ⟨%f, H⟩
  ihave H' := (Entails.of_eq (pointsTo_cut4 (F := F) K hd hc q f)) $$ H
  icases H' with ⟨H0, H1, H2, H3, -⟩
  isplitl [H0]; · iexists f; iexact H0
  isplitl [H1]; · iexists f; iexact H1
  isplitl [H2]; · iexists f; iexact H2
  iexists f; iexact H3

theorem pointsTo_join4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) :
    (iprop((∃ f, ℓ ↦[K 0]{q} f) ∗ (∃ f, ℓ ↦[K 1]{q} f) ∗ (∃ f, ℓ ↦[K 2]{q} f) ∗ (∃ f, ℓ ↦[K 3]{q} f)) : sProp 𝕄)
      ⊢ iprop(∃ f, ℓ ↦{q} f) := by
  iintro ⟨⟨%f0, H0⟩, ⟨%f1, H1⟩, ⟨%f2, H2⟩, ⟨%f3, H3⟩⟩
  have e : (bigSep Finset.univ fun t : Fin 4 => (ℓ ↦[K t]{q} (![f0, f1, f2, f3] : Fin 4 → Buf (Elt F) ℓ) t : sProp 𝕄))
      = iprop((ℓ ↦[K 0]{q} f0) ∗ (ℓ ↦[K 1]{q} f1) ∗ (ℓ ↦[K 2]{q} f2) ∗ (ℓ ↦[K 3]{q} f3) ∗ emp) := by
    iterate 4 rw [bigSep_fin_succ]
    rw [bigSep_fin_zero]
    rfl
  ihave H := (Entails.of_eq e.symm) $$ [H0 H1 H2 H3]
  · isplitl [H0]; · iexact H0
    isplitl [H1]; · iexact H1
    isplitl [H2]; · iexact H2
    isplitl [H3]; · iexact H3
    iempintro
  ihave H' := (pointsTo_biUnion_join Finset.univ K (![f0, f1, f2, f3] : Fin 4 → Buf (Elt F) ℓ) f0 hd) $$ H
  icases H' with ⟨%g, -, Hg⟩
  rw [hc]
  iexists g; iexact Hg

end Four

/-! ## The rings, slot by slot -/

section Rings
variable (d : Dev nD) (L : grid1.Coords)

theorem div4_w : 4 ∣ S4x16x128.size 0 := ⟨1, rfl⟩
theorem div4_r : 4 ∣ S4x128x128.size 0 := ⟨1, rfl⟩

/-- Slot b of a ring of four slots of 16 × 128: the indices with first coordinate b. -/
abbrev slotW (b : Fin 4) : Finset S4x16x128.Idx := (Rect.part (s := S4x16x128) (a₀ := 0) div4_w b).set
/-- The same of a ring of four slots of 128 × 128. -/
abbrev slotR (b : Fin 4) : Finset S4x128x128.Idx := (Rect.part (s := S4x128x128) (a₀ := 0) div4_r b).set

theorem slotW_disjoint : ∀ i ∈ (Finset.univ : Finset (Fin 4)), ∀ j ∈ (Finset.univ : Finset (Fin 4)), i ≠ j → Disjoint (slotW i) (slotW j) :=
  fun i _ j _ h => Rect.part_disjoint div4_w h
theorem slotW_cover : (Finset.univ : Finset (Fin 4)).biUnion slotW = Finset.univ := Rect.biUnion_part div4_w
theorem slotR_disjoint : ∀ i ∈ (Finset.univ : Finset (Fin 4)), ∀ j ∈ (Finset.univ : Finset (Fin 4)), i ≠ j → Disjoint (slotR i) (slotR j) :=
  fun i _ j _ h => Rect.part_disjoint div4_r h
theorem slotR_cover : (Finset.univ : Finset (Fin 4)).biUnion slotR = Finset.univ := Rect.biUnion_part div4_r

theorem slotRect_w {off : Fin 3 → ℕ} (inb : ∀ a, off a + S1x16x128.size a ≤ S4x16x128.size a) (b : Fin 4) (h : off = ![b.val, 0, 0]) :
    Rect.unit (s := S4x16x128) off S1x16x128.size inb = Rect.part (s := S4x16x128) (a₀ := 0) div4_w b := by
  subst h
  unfold Rect.part Rect.block
  congr 1 <;> funext a
  · fin_cases a <;> simp [Shape.partIx, Shape.partSize]
  · fin_cases a <;> simp [Shape.partSize]
theorem slotRect_r {off : Fin 3 → ℕ} (inb : ∀ a, off a + S1x128x128.size a ≤ S4x128x128.size a) (b : Fin 4) (h : off = ![b.val, 0, 0]) :
    Rect.unit (s := S4x128x128) off S1x128x128.size inb = Rect.part (s := S4x128x128) (a₀ := 0) div4_r b := by
  subst h
  unfold Rect.part Rect.block
  congr 1 <;> funext a
  · fin_cases a <;> simp [Shape.partIx, Shape.partSize]
  · fin_cases a <;> simp [Shape.partSize]

theorem set_wSlot0 : (wSlot0).view.set = slotW 0 := by
  show (((View.whole (cc1_scratch1 : Ref sig .scVector)).slice (Rect.unit (s := S4x16x128) ![0, 0, 0] S1x16x128.size inb_S4x16x128_S1x16x128_0_0_0)).reshape S16x128 squeezes_S1x16x128_S16x128.numel_eq).set = _
  rw [View.set_reshape, View.set_slice_whole]
  exact congrArg (fun r : Rect S4x16x128 => r.set) (slotRect_w (off := ![0, 0, 0]) _ 0 rfl)
theorem set_wSlot1 : (wSlot1).view.set = slotW 1 := by
  show (((View.whole (cc1_scratch1 : Ref sig .scVector)).slice (Rect.unit (s := S4x16x128) ![1, 0, 0] S1x16x128.size inb_S4x16x128_S1x16x128_1_0_0)).reshape S16x128 squeezes_S1x16x128_S16x128.numel_eq).set = _
  rw [View.set_reshape, View.set_slice_whole]
  exact congrArg (fun r : Rect S4x16x128 => r.set) (slotRect_w (off := ![1, 0, 0]) _ 1 rfl)
theorem set_wSlot2 : (wSlot2).view.set = slotW 2 := by
  show (((View.whole (cc1_scratch1 : Ref sig .scVector)).slice (Rect.unit (s := S4x16x128) ![2, 0, 0] S1x16x128.size inb_S4x16x128_S1x16x128_2_0_0)).reshape S16x128 squeezes_S1x16x128_S16x128.numel_eq).set = _
  rw [View.set_reshape, View.set_slice_whole]
  exact congrArg (fun r : Rect S4x16x128 => r.set) (slotRect_w (off := ![2, 0, 0]) _ 2 rfl)
theorem set_wSlot3 : (wSlot3).view.set = slotW 3 := by
  show (((View.whole (cc1_scratch1 : Ref sig .scVector)).slice (Rect.unit (s := S4x16x128) ![3, 0, 0] S1x16x128.size inb_S4x16x128_S1x16x128_3_0_0)).reshape S16x128 squeezes_S1x16x128_S16x128.numel_eq).set = _
  rw [View.set_reshape, View.set_slice_whole]
  exact congrArg (fun r : Rect S4x16x128 => r.set) (slotRect_w (off := ![3, 0, 0]) _ 3 rfl)

theorem set_oSlot0 : (oSlot0).view.set = slotW 0 := by
  show (((View.whole (cc1_scratch3 : Ref sig .scVector)).slice (Rect.unit (s := S4x16x128) ![0, 0, 0] S1x16x128.size inb_S4x16x128_S1x16x128_0_0_0)).reshape S16x128 squeezes_S1x16x128_S16x128.numel_eq).set = _
  rw [View.set_reshape, View.set_slice_whole]
  exact congrArg (fun r : Rect S4x16x128 => r.set) (slotRect_w (off := ![0, 0, 0]) _ 0 rfl)
theorem set_oSlot1 : (oSlot1).view.set = slotW 1 := by
  show (((View.whole (cc1_scratch3 : Ref sig .scVector)).slice (Rect.unit (s := S4x16x128) ![1, 0, 0] S1x16x128.size inb_S4x16x128_S1x16x128_1_0_0)).reshape S16x128 squeezes_S1x16x128_S16x128.numel_eq).set = _
  rw [View.set_reshape, View.set_slice_whole]
  exact congrArg (fun r : Rect S4x16x128 => r.set) (slotRect_w (off := ![1, 0, 0]) _ 1 rfl)
theorem set_oSlot2 : (oSlot2).view.set = slotW 2 := by
  show (((View.whole (cc1_scratch3 : Ref sig .scVector)).slice (Rect.unit (s := S4x16x128) ![2, 0, 0] S1x16x128.size inb_S4x16x128_S1x16x128_2_0_0)).reshape S16x128 squeezes_S1x16x128_S16x128.numel_eq).set = _
  rw [View.set_reshape, View.set_slice_whole]
  exact congrArg (fun r : Rect S4x16x128 => r.set) (slotRect_w (off := ![2, 0, 0]) _ 2 rfl)
theorem set_oSlot3 : (oSlot3).view.set = slotW 3 := by
  show (((View.whole (cc1_scratch3 : Ref sig .scVector)).slice (Rect.unit (s := S4x16x128) ![3, 0, 0] S1x16x128.size inb_S4x16x128_S1x16x128_3_0_0)).reshape S16x128 squeezes_S1x16x128_S16x128.numel_eq).set = _
  rw [View.set_reshape, View.set_slice_whole]
  exact congrArg (fun r : Rect S4x16x128 => r.set) (slotRect_w (off := ![3, 0, 0]) _ 3 rfl)

theorem set_rSlot0 : (rSlot0).view.set = slotR 0 := by
  show (((View.whole (cc1_scratch2 : Ref sig .scVector)).slice (Rect.unit (s := S4x128x128) ![0, 0, 0] S1x128x128.size inb_S4x128x128_S1x128x128_0_0_0)).reshape S128x128 squeezes_S1x128x128_S128x128.numel_eq).set = _
  rw [View.set_reshape, View.set_slice_whole]
  exact congrArg (fun r : Rect S4x128x128 => r.set) (slotRect_r (off := ![0, 0, 0]) _ 0 rfl)
theorem set_rSlot1 : (rSlot1).view.set = slotR 1 := by
  show (((View.whole (cc1_scratch2 : Ref sig .scVector)).slice (Rect.unit (s := S4x128x128) ![1, 0, 0] S1x128x128.size inb_S4x128x128_S1x128x128_1_0_0)).reshape S128x128 squeezes_S1x128x128_S128x128.numel_eq).set = _
  rw [View.set_reshape, View.set_slice_whole]
  exact congrArg (fun r : Rect S4x128x128 => r.set) (slotRect_r (off := ![1, 0, 0]) _ 1 rfl)
theorem set_rSlot2 : (rSlot2).view.set = slotR 2 := by
  show (((View.whole (cc1_scratch2 : Ref sig .scVector)).slice (Rect.unit (s := S4x128x128) ![2, 0, 0] S1x128x128.size inb_S4x128x128_S1x128x128_2_0_0)).reshape S128x128 squeezes_S1x128x128_S128x128.numel_eq).set = _
  rw [View.set_reshape, View.set_slice_whole]
  exact congrArg (fun r : Rect S4x128x128 => r.set) (slotRect_r (off := ![2, 0, 0]) _ 2 rfl)
theorem set_rSlot3 : (rSlot3).view.set = slotR 3 := by
  show (((View.whole (cc1_scratch2 : Ref sig .scVector)).slice (Rect.unit (s := S4x128x128) ![3, 0, 0] S1x128x128.size inb_S4x128x128_S1x128x128_3_0_0)).reshape S128x128 squeezes_S1x128x128_S128x128.numel_eq).set = _
  rw [View.set_reshape, View.set_slice_whole]
  exact congrArg (fun r : Rect S4x128x128 => r.set) (slotRect_r (off := ![3, 0, 0]) _ 3 rfl)

/-- The weight ring whole at some contents is its four slots, each at some contents; and back. -/
theorem ringW_split :
    (iprop(∃ f, (V d (cV L) (jV L)).loc cc1_scratch1 ↦{fullShare} f) : sProp 𝕄)
      ⊢ iprop((∃ f, ((wSlot0).view.loc (V d (cV L) (jV L)) ↦[(wSlot0).view.set]{fullShare} f)) ∗ (∃ f, ((wSlot1).view.loc (V d (cV L) (jV L)) ↦[(wSlot1).view.set]{fullShare} f))
        ∗ (∃ f, ((wSlot2).view.loc (V d (cV L) (jV L)) ↦[(wSlot2).view.set]{fullShare} f)) ∗ (∃ f, ((wSlot3).view.loc (V d (cV L) (jV L)) ↦[(wSlot3).view.set]{fullShare} f))) := by
  rw [set_wSlot0, set_wSlot1, set_wSlot2, set_wSlot3]
  exact pointsTo_split4 (F := F) (ℓ := (V d (cV L) (jV L)).loc cc1_scratch1) slotW slotW_disjoint slotW_cover fullShare
theorem ringW_join :
    (iprop((∃ f, ((wSlot0).view.loc (V d (cV L) (jV L)) ↦[(wSlot0).view.set]{fullShare} f)) ∗ (∃ f, ((wSlot1).view.loc (V d (cV L) (jV L)) ↦[(wSlot1).view.set]{fullShare} f))
        ∗ (∃ f, ((wSlot2).view.loc (V d (cV L) (jV L)) ↦[(wSlot2).view.set]{fullShare} f)) ∗ (∃ f, ((wSlot3).view.loc (V d (cV L) (jV L)) ↦[(wSlot3).view.set]{fullShare} f))) : sProp 𝕄)
      ⊢ iprop(∃ f, (V d (cV L) (jV L)).loc cc1_scratch1 ↦{fullShare} f) := by
  rw [set_wSlot0, set_wSlot1, set_wSlot2, set_wSlot3]
  exact pointsTo_join4 (F := F) (ℓ := (V d (cV L) (jV L)).loc cc1_scratch1) slotW slotW_disjoint slotW_cover fullShare

theorem ringR_split :
    (iprop(∃ f, (V d (cV L) (jV L)).loc cc1_scratch2 ↦{fullShare} f) : sProp 𝕄)
      ⊢ iprop((∃ f, ((rSlot0).view.loc (V d (cV L) (jV L)) ↦[(rSlot0).view.set]{fullShare} f)) ∗ (∃ f, ((rSlot1).view.loc (V d (cV L) (jV L)) ↦[(rSlot1).view.set]{fullShare} f))
        ∗ (∃ f, ((rSlot2).view.loc (V d (cV L) (jV L)) ↦[(rSlot2).view.set]{fullShare} f)) ∗ (∃ f, ((rSlot3).view.loc (V d (cV L) (jV L)) ↦[(rSlot3).view.set]{fullShare} f))) := by
  rw [set_rSlot0, set_rSlot1, set_rSlot2, set_rSlot3]
  exact pointsTo_split4 (F := F) (ℓ := (V d (cV L) (jV L)).loc cc1_scratch2) slotR slotR_disjoint slotR_cover fullShare
theorem ringR_join :
    (iprop((∃ f, ((rSlot0).view.loc (V d (cV L) (jV L)) ↦[(rSlot0).view.set]{fullShare} f)) ∗ (∃ f, ((rSlot1).view.loc (V d (cV L) (jV L)) ↦[(rSlot1).view.set]{fullShare} f))
        ∗ (∃ f, ((rSlot2).view.loc (V d (cV L) (jV L)) ↦[(rSlot2).view.set]{fullShare} f)) ∗ (∃ f, ((rSlot3).view.loc (V d (cV L) (jV L)) ↦[(rSlot3).view.set]{fullShare} f))) : sProp 𝕄)
      ⊢ iprop(∃ f, (V d (cV L) (jV L)).loc cc1_scratch2 ↦{fullShare} f) := by
  rw [set_rSlot0, set_rSlot1, set_rSlot2, set_rSlot3]
  exact pointsTo_join4 (F := F) (ℓ := (V d (cV L) (jV L)).loc cc1_scratch2) slotR slotR_disjoint slotR_cover fullShare

theorem ringO_split :
    (iprop(∃ f, (V d (cV L) (jV L)).loc cc1_scratch3 ↦{fullShare} f) : sProp 𝕄)
      ⊢ iprop((∃ f, ((oSlot0).view.loc (V d (cV L) (jV L)) ↦[(oSlot0).view.set]{fullShare} f)) ∗ (∃ f, ((oSlot1).view.loc (V d (cV L) (jV L)) ↦[(oSlot1).view.set]{fullShare} f))
        ∗ (∃ f, ((oSlot2).view.loc (V d (cV L) (jV L)) ↦[(oSlot2).view.set]{fullShare} f)) ∗ (∃ f, ((oSlot3).view.loc (V d (cV L) (jV L)) ↦[(oSlot3).view.set]{fullShare} f))) := by
  rw [set_oSlot0, set_oSlot1, set_oSlot2, set_oSlot3]
  exact pointsTo_split4 (F := F) (ℓ := (V d (cV L) (jV L)).loc cc1_scratch3) slotW slotW_disjoint slotW_cover fullShare
theorem ringO_join :
    (iprop((∃ f, ((oSlot0).view.loc (V d (cV L) (jV L)) ↦[(oSlot0).view.set]{fullShare} f)) ∗ (∃ f, ((oSlot1).view.loc (V d (cV L) (jV L)) ↦[(oSlot1).view.set]{fullShare} f))
        ∗ (∃ f, ((oSlot2).view.loc (V d (cV L) (jV L)) ↦[(oSlot2).view.set]{fullShare} f)) ∗ (∃ f, ((oSlot3).view.loc (V d (cV L) (jV L)) ↦[(oSlot3).view.set]{fullShare} f))) : sProp 𝕄)
      ⊢ iprop(∃ f, (V d (cV L) (jV L)).loc cc1_scratch3 ↦{fullShare} f) := by
  rw [set_oSlot0, set_oSlot1, set_oSlot2, set_oSlot3]
  exact pointsTo_join4 (F := F) (ℓ := (V d (cV L) (jV L)).loc cc1_scratch3) slotW slotW_disjoint slotW_cover fullShare

end Rings

/-! ## A share's tokens 11 to 14 -/

section Toks
variable {ℓ : Loc nD τ sig}

/-- What remains of a share once tokens 11 to 14 are taken: the share after fifteen tokens, and tokens 0 to 10. -/
def tokRest (q : PosShare TreeShare) (f : Buf (Elt F) ℓ) : sProp 𝕄 :=
  iprop((ℓ ↦{Transfers.shareDrop q 15} f) ∗ bigSep (Finset.range 11) fun i => (ℓ ↦{Transfers.shareTokN q i} f : sProp 𝕄))

theorem range15 (Φ : ℕ → sProp 𝕄) :
    bigSep (Finset.range 15) Φ = iprop(Φ 14 ∗ Φ 13 ∗ Φ 12 ∗ Φ 11 ∗ bigSep (Finset.range 11) Φ) := by
  rw [Finset.range_add_one, BI.bigSep_insert Finset.notMem_range_self, Finset.range_add_one, BI.bigSep_insert Finset.notMem_range_self,
    Finset.range_add_one, BI.bigSep_insert Finset.notMem_range_self, Finset.range_add_one, BI.bigSep_insert Finset.notMem_range_self]
  rfl

theorem toks_take (q : PosShare TreeShare) (f : Buf (Elt F) ℓ) :
    (ℓ ↦{q} f : sProp 𝕄) ⊢ iprop((ℓ ↦{Transfers.shareTokN q 11} f) ∗ (ℓ ↦{Transfers.shareTokN q 12} f) ∗ (ℓ ↦{Transfers.shareTokN q 13} f)
      ∗ (ℓ ↦{Transfers.shareTokN q 14} f) ∗ tokRest q f) := by
  refine (Transfers.pointsTo_toks_range (ℓ := ℓ) (S := Finset.univ) (f := f) q 15).1.trans ?_
  rw [range15]
  unfold tokRest
  iintro ⟨Hd, H14, H13, H12, H11, Hr⟩
  iframe

theorem toks_give (q : PosShare TreeShare) (f : Buf (Elt F) ℓ) :
    iprop((ℓ ↦{Transfers.shareTokN q 11} f) ∗ (ℓ ↦{Transfers.shareTokN q 12} f) ∗ (ℓ ↦{Transfers.shareTokN q 13} f)
      ∗ (ℓ ↦{Transfers.shareTokN q 14} f) ∗ tokRest q f) ⊢ (ℓ ↦{q} f : sProp 𝕄) := by
  refine BIBase.Entails.trans ?_ (Transfers.pointsTo_toks_range (ℓ := ℓ) (S := Finset.univ) (f := f) q 15).2
  rw [range15]
  unfold tokRest
  iintro ⟨H11, H12, H13, H14, Hd, Hr⟩
  iframe

end Toks

/-! ## A worker's rows chunk by chunk, as the numbered pieces -/

section Homes
variable (d : Dev nD) (L : grid1.Coords)

theorem chunkOff_eq (n : ℕ) (ch : Fin 32) (h : ch.val = n) : chunkOff L n = ![512 * (wL L).val + 16 * ch.val, 0] := by
  show (![1024 * (L 1).val + 512 * (L 0).val + 16 * n, 0] : Fin 2 → ℕ) = _
  rw [h, wL_val]; exact vec2_congr (by omega)

theorem w_homes (f : Buf (Elt F) (wLoc d)) : (wLoc d ↦[pSet (wL L)]{fullShare} f : sProp 𝕄) = homes (wP d L f) 0 32 := by
  unfold homes
  rw [w_chunks, bigSep_Ico_fin]
  exact bigSep_congr fun ch _ => by
    rw [wP_at d L f ch.isLt (chunkOff L ch.val) (chunkOff_inb L ch.isLt) rfl]
    exact (pts_wSlice d (cV L) (jV L) (chunkOff_inb L ch.isLt) (fun _ => rfl) (wL L) ch (chunkOff_eq L ch.val ch rfl) fullShare f).symm

theorem o_homes (f : Buf (Elt F) (outLoc d)) : (outLoc d ↦[pSet (wL L)]{fullShare} f : sProp 𝕄) = homes (oP d L f) 0 32 := by
  unfold homes
  rw [out_chunks, bigSep_Ico_fin]
  exact bigSep_congr fun ch _ => by
    rw [oP_at d L f ch.isLt (chunkOff L ch.val) (chunkOff_inb L ch.isLt) rfl]
    exact (pts_oSlice d (cV L) (jV L) (chunkOff_inb L ch.isLt) (fun _ => rfl) (wL L) ch (chunkOff_eq L ch.val ch rfl) fullShare f).symm

end Homes

/-! ## What a tile is handed, as its task uses it -/

section InOut
variable [FloatOps F] (d : Dev nD) (L : grid1.Coords)

theorem tileIn_of (tb : Buf (Elt F) (tblLoc d)) (ix : Buf (Elt F) (idxLoc d)) (wv : Buf (Elt F) (wLoc d)) (fo : Buf (Elt F) (outLoc d)) :
    (iprop((tblLoc d ↦{tshare (wL L)} tb) ∗ (idxLoc d ↦[iSet (wL L)]{fullShare} ix) ∗ (wLoc d ↦[pSet (wL L)]{fullShare} wv)
        ∗ (outLoc d ↦[pSet (wL L)]{fullShare} fo)) : sProp 𝕄)
      ⊢ iprop(tileIn d L (tshare (wL L)) tb ix wv fo ∗ tokRest (ℓ := tblLoc d) (tshare (wL L)) tb) := by
  rw [w_homes, o_homes, ← pts_iRowK d (cV L) (jV L) L fullShare ix]
  unfold tileIn
  iintro ⟨Ht, Hi, Hw, Ho⟩
  ihave Ht' := (toks_take (ℓ := tblLoc d) (tshare (wL L)) tb) $$ Ht
  icases Ht' with ⟨H11, H12, H13, H14, Hr⟩
  iframe

theorem tileIn_to (tb : Buf (Elt F) (tblLoc d)) (ix : Buf (Elt F) (idxLoc d)) (wv : Buf (Elt F) (wLoc d)) (fo : Buf (Elt F) (outLoc d)) :
    (iprop(tileIn d L (tshare (wL L)) tb ix wv fo ∗ tokRest (ℓ := tblLoc d) (tshare (wL L)) tb) : sProp 𝕄)
      ⊢ iprop((tblLoc d ↦{tshare (wL L)} tb) ∗ (idxLoc d ↦[iSet (wL L)]{fullShare} ix) ∗ (wLoc d ↦[pSet (wL L)]{fullShare} wv)
        ∗ (outLoc d ↦[pSet (wL L)]{fullShare} fo)) := by
  rw [w_homes, o_homes, ← pts_iRowK d (cV L) (jV L) L fullShare ix]
  unfold tileIn
  iintro ⟨⟨H11, H12, H13, H14, Hi, Hw, Ho⟩, Hr⟩
  isplitl [H11 H12 H13 H14 Hr]
  · iapply (toks_give (ℓ := tblLoc d) (tshare (wL L)) tb)
    iframe
  iframe

end InOut

/-! ## The tile's own memory, cut as its task uses it -/

section OwnCut
variable [FloatOps F] (d : Dev nD) (L : grid1.Coords)

/-- What of the tile's own memory its task never names. -/
def ownRest : sProp 𝕄 := iprop(bufsRest (F := F) d L ∗ semsRest (F := F) d L)

theorem own_split (hF : (K (F := F)).Facts) :
    (iprop(scopedBufs (V d (cV L) (jV L)) ∗ scopedSems0 (V d (cV L) (jV L))) : sProp 𝕄) ⊢ iprop(tileOwn (F := F) d L ∗ ownRest (F := F) d L) := by
  rw [(K (F := F)).scopedBufs_V hF d (cV L) (jV L), SparseCore.Cfg.scopedSems0_V (Val := Elt F) d (cV L) (jV L), ownSems0_V, ownBufs_V]
  unfold tileOwn ownRest
  iintro ⟨⟨⟨Hiv, Hw, Hr, Ho, -⟩, Hbr⟩, ⟨⟨S4, S5, S6, S7, S8, S9, S10, S11, S12, S13, S14, S15, S16, -⟩, Hsr⟩⟩
  ihave Hw' := (ringW_split (F := F) d L) $$ Hw
  icases Hw' with ⟨W0, W1, W2, W3⟩
  ihave Hr' := (ringR_split (F := F) d L) $$ Hr
  icases Hr' with ⟨R0, R1, R2, R3⟩
  ihave Ho' := (ringO_split (F := F) d L) $$ Ho
  icases Ho' with ⟨O0, O1, O2, O3⟩
  isplitr [Hbr Hsr]
  · isplitl [Hiv]; · iexact Hiv
    iframe
  · iframe

theorem own_join (hF : (K (F := F)).Facts) :
    (iprop(tileOwn (F := F) d L ∗ ownRest (F := F) d L) : sProp 𝕄) ⊢ iprop(scopedBufs (V d (cV L) (jV L)) ∗ scopedSems0 (V d (cV L) (jV L))) := by
  rw [(K (F := F)).scopedBufs_V hF d (cV L) (jV L), SparseCore.Cfg.scopedSems0_V (Val := Elt F) d (cV L) (jV L), ownSems0_V, ownBufs_V]
  unfold tileOwn ownRest
  iintro ⟨⟨Hiv, W0, W1, W2, W3, R0, R1, R2, R3, O0, O1, O2, O3, S4, S5, S6, S7, S8, S9, S10, S11, S12, S13, S14, S15, S16⟩, Hbr, Hsr⟩
  ihave Hw := (ringW_join (F := F) d L) $$ [W0 W1 W2 W3]
  · iframe
  ihave Hr := (ringR_join (F := F) d L) $$ [R0 R1 R2 R3]
  · iframe
  ihave Ho := (ringO_join (F := F) d L) $$ [O0 O1 O2 O3]
  · iframe
  isplitl [Hiv Hw Hr Ho Hbr]
  · isplitr [Hbr]
    · isplitl [Hiv]; · iexact Hiv
      isplitl [Hw]; · iexact Hw
      isplitl [Hr]; · iexact Hr
      isplitl [Ho]; · iexact Ho
      iempintro
    · iexact Hbr
  · isplitr [Hsr]
    · isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      iempintro
    · iexact Hsr

end OwnCut

/-! ## The task's triple, from the triple over the cut resources -/

section Body
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The task's triple over the cut resources: from the waits' evidence, what the thread owes, what it is handed and its own
    memory, the body runs to the same with its rows of the result at the gathered sum. -/
def TileCore : Prop :=
  ∀ (d : Dev nD) (L : grid1.Coords) (q : PosShare TreeShare) (tb : Buf (Elt F) (tblLoc d)) (ix : Buf (Elt F) (idxLoc d))
    (wv : Buf (Elt F) (wLoc d)) (o0 : Buf (Elt F) (outLoc d)) (hidx : ∀ j : S32x32x128.Idx, (ix j).toNat < 262144)
    (O : CellTallies nD τ sig (HIx 1)) (W : Waits sig (HIx 1)),
    (iprop(□ Transfers.MayWaits (V d (cV L) (jV L)) (default : HIx 1) O ∗ owes (V d (cV L) (jV L)) O W ∗ tileIn d L q tb ix wv o0 ∗ tileOwn d L) : sProp 𝕄)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0)
          fun _ => iprop(tileIn d L q tb ix wv (skip (F := F) tb ix wv) ∗ tileOwn d L ∗ ∃ W', ⌜∀ p ∈ W', p ∈ W ∨ p.2 = none⌝ ∗ owes (V d (cV L) (jV L)) O W')

/-- The task on the vector subcore at grid coordinates L of device d, as the launch states it. -/
theorem tile_body (hcore : TileCore (F := F)) (hF : (K (F := F)).Facts)
    (hidx : ∀ (d : Dev nD) (j : S32x32x128.Idx), (ix d j).toNat < 262144)
    (d : Dev nD) (L : grid1.Coords) (O : CellTallies nD τ sig (HIx 1)) (W : Waits sig (HIx 1)) (hO : ∀ g, O g none = 0) :
    (iprop(levAts (K (F := F)).L (K (F := F)).lev ∗ emp ∗ tileGo tb ix wv o0 d (wL L) ∗ scopedBufs (V d (cV L) (jV L))
        ∗ scopedSems0 (V d (cV L) (jV L)) ∗ owes (V d (cV L) (jV L)) O W) : sProp 𝕄)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0)
          fun _ => iprop(tileTd tb ix wv d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hpre : (iprop(levAts (K (F := F)).L (K (F := F)).lev ∗ emp ∗ tileGo tb ix wv o0 d (wL L) ∗ scopedBufs (V d (cV L) (jV L))
        ∗ scopedSems0 (V d (cV L) (jV L)) ∗ owes (V d (cV L) (jV L)) O W) : sProp 𝕄)
      ⊢ iprop((□ Transfers.MayWaits (V d (cV L) (jV L)) (default : HIx 1) O ∗ owes (V d (cV L) (jV L)) O W
          ∗ tileIn d L (tshare (wL L)) (tb d) (ix d) (wv d) (o0 d) ∗ tileOwn d L)
        ∗ (tokRest (ℓ := tblLoc d) (tshare (wL L)) (tb d) ∗ ownRest (F := F) d L)) := by
    iintro ⟨#Hlv, -, Hgo, Hb, Hs, HO⟩
    ihave Hin := (tileIn_of d L (tb d) (ix d) (wv d) (o0 d)) $$ Hgo
    icases Hin with ⟨Hin, Htr⟩
    ihave Hown := (own_split (F := F) d L hF) $$ [Hb Hs]
    · iframe
    icases Hown with ⟨Hown, Hor⟩
    isplitr [Htr Hor]
    · isplitr [HO Hin Hown]
      · imodintro
        iapply ((K (F := F)).mayWaits_none (thr := V d (cV L) (jV L)) hO)
        iexact Hlv
      · iframe
    · iframe
  refine hpre.trans ((sep_mono_left (hcore d L (tshare (wL L)) (tb d) (ix d) (wv d) (o0 d) (hidx d) O W)).trans
    ((wp_frame_r _ _ _).trans (wp_mono _ _ _ fun _ => ?_)))
  iintro ⟨⟨Hin, Hown, HW⟩, Htr, Hor⟩
  ihave Htd := (tileIn_to d L (tb d) (ix d) (wv d) (skip (F := F) (tb d) (ix d) (wv d))) $$ [Hin Htr]
  · iframe
  ihave Hbs := (own_join (F := F) d L hF) $$ [Hown Hor]
  · iframe
  icases Hbs with ⟨Hb, Hs⟩
  isplitl [Htd]; · iexact Htd
  iframe

end Body

/-! ## The launch theorem's obligation for the tiles -/

section Obl
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F)) (hF : (K (F := F)).Facts)
    (hidx : ∀ (d : Dev nD) (j : S32x32x128.Idx), (ix d j).toNat < 262144) :
    (K (F := F)).TileObl (D (F := F)) 𝒱 (P tb ix wv o0) v₀ 0 := by
  intro d c i O W hO _ _
  simp only [show (P tb ix wv o0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hw : wL (coordsV ⟨_, hc.1⟩ ⟨_, hc.2⟩) = widOf (Fin.cast nCore_zero c) (Fin.cast nSub_zero i) := Fin.ext rfl
  have h := tile_body tb ix wv o0 hcore hF hidx d (coordsV ⟨_, hc.1⟩ ⟨_, hc.2⟩) O W hO
  rw [hw] at h
  exact h.trans (wp_mono frame _ _ fun _ => obl_post)

end Obl

end Cert.Proof.KI

end
-- ==== Proof.KI.Tile.lean ====
/-
  The obligation of one vector subcore's task, closed. The group loop's trip at any group is one of three: the first
  (no result copy to wait for yet), the last (no next chunk to start), or one in between; the task's body around the
  loop turns that trip into the whole body's run from what the tile is handed to what it hands back, the result rows at
  the gathered sums; and the launch's wrapper turns that into the tile obligation.
-/
import proofs.«209143_g59700045415095_cont_9to1_m_37_38_alg».proof.Proof.KI.Tile1
import proofs.«209143_g59700045415095_cont_9to1_m_37_38_alg».proof.Proof.KI.TileTripB
import proofs.«209143_g59700045415095_cont_9to1_m_37_38_alg».proof.Proof.KI.TileTripL
import proofs.«209143_g59700045415095_cont_9to1_m_37_38_alg».proof.Proof.KI.TileCore
import proofs.«209143_g59700045415095_cont_9to1_m_37_38_alg».proof.Proof.KI.TileObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

/-- One trip of the group loop, at any group. -/
theorem groupTrip (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit),
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc
  by_cases h0 : g.val = 0
  · exact groupTripFirst d L O W q tb ix wv o0 hidx fi v2 g acc h0
  by_cases h7 : g.val = 7
  · exact groupTripLast d L O W q tb ix wv o0 hidx fi v2 g acc h7
  · have h8 := trips_le g
    exact groupTripMid d L O W q tb ix wv o0 hidx fi v2 g acc (by omega) (by omega)

end Trip

section Obl
variable [FloatOps F]

/-- The task's body, from what the tile is handed (cut as the task uses it) to what it hands back. -/
theorem tile_core_all : TileCore (F := F) :=
  fun d L q tb ix wv o0 hidx O W =>
    tile_core d L q tb ix wv o0 O W (fun fi v2 g acc => groupTrip d L O W q tb ix wv o0 hidx fi v2 g acc) hidx

variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The tile obligation of the one SparseCore call. -/
theorem tileObl_all (hF : (K (F := F)).Facts) (hidx : ∀ (d : Dev nD) (j : S32x32x128.Idx), (ix d j).toNat < 262144) :
    (K (F := F)).TileObl (D (F := F)) 𝒱 (P tb ix wv o0) v₀ 0 :=
  tileObl tb ix wv o0 tile_core_all hF hidx

end Obl

end Cert.Proof.KI

end
-- ==== Proof.Clamp.lean ====
/-
  Range facts for a clamped grid coordinate and for the flat row number built from three of them.

  A float coordinate is clamped to the interval [0, 31] (a maximum with 0, then a minimum with 31)
  and converted to a 32-bit integer; whatever the operand (an infinity, a NaN) the integer is one
  of 0, …, 31.  Four such numbers b < 8, z, y, x < 32 combine, in 32-bit word arithmetic and
  without any wrap-around, to the row number ((b·32 + z)·32 + y)·32 + x < 8·32³ = 262144.
-/
import Idealize.ShloMosaic.PureOps.BitExact
import Idealize.ShloMosaic.PureOps.BitExact.Laws
import Idealize.ShloMosaic.PureOps.Ideal
import Idealize.ShloMosaic.PureOps.Ideal.Laws
import Idealize.ShloMosaic.PureOps.Vector

namespace Cert.Proof.Clamp

open Idealize.ShloMosaic
open Idealize.SoftF32 (FlushPolicy)

/-! ## The flat row number: word arithmetic without overflow -/

/-- The flat row number is in range, and equals the row number computed in the naturals: every
    intermediate value stays below 2¹⁸ < 2³², so no product or sum wraps. -/
theorem flat_lt (b z y x : BitVec 32) (hb : b.toNat < 8) (hz : z.toNat < 32) (hy : y.toNat < 32) (hx : x.toNat < 32) :
    ((((b * 32#32 + z) * 32#32 + y) * 32#32 + x)).toNat < 262144
      ∧ ((((b * 32#32 + z) * 32#32 + y) * 32#32 + x)).toNat
          = ((b.toNat * 32 + z.toNat) * 32 + y.toNat) * 32 + x.toNat := by
  have key : ((((b * 32#32 + z) * 32#32 + y) * 32#32 + x)).toNat
      = ((b.toNat * 32 + z.toNat) * 32 + y.toNat) * 32 + x.toNat := by
    simp only [BitVec.toNat_add, BitVec.toNat_mul, BitVec.toNat_ofNat]
    omega
  exact ⟨by rw [key]; omega, key⟩

/-- The same fact over the integer operations as a program spells them: the scalar product
    `b · 32`, then the elementwise products and sums. -/
theorem flat_lt_ops (b z y x : BitVec 32) (hb : b.toNat < 8) (hz : z.toNat < 32) (hy : y.toNat < 32) (hx : x.toNat < 32) :
    (IntOp.addi (IntOp.muli (IntOp.addi (IntOp.muli (IntOp.addi (Scalar.muli b (32#32)) z) (32#32)) y) (32#32)) x).toNat < 262144
      ∧ (IntOp.addi (IntOp.muli (IntOp.addi (IntOp.muli (IntOp.addi (Scalar.muli b (32#32)) z) (32#32)) y) (32#32)) x).toNat
          = ((b.toNat * 32 + z.toNat) * 32 + y.toNat) * 32 + x.toNat :=
  flat_lt b z y x hb hz hy hx

/-! ## The clamp on extended reals -/

/-- The integer part toward zero of a real in [0, 31], clamped to the 32-bit signed range, is one of 0, …, 31. -/
theorem toIntClamped_mem (r : ℝ) (h0 : 0 ≤ r) (h31 : r ≤ 31) :
    0 ≤ Ideal.toIntClamped (-(2 ^ (32 - 1) : Nat)) ((2 ^ (32 - 1) : Nat) - 1) (r : EReal)
      ∧ Ideal.toIntClamped (-(2 ^ (32 - 1) : Nat)) ((2 ^ (32 - 1) : Nat) - 1) (r : EReal) < 32 := by
  rw [Ideal.toIntClamped_coe, if_pos h0]
  have hf0 : (0 : ℤ) ≤ ⌊r⌋ := Int.floor_nonneg.mpr h0
  have hf31 : ⌊r⌋ ≤ 31 := by
    have : ⌊r⌋ ≤ ⌊(31 : ℝ)⌋ := Int.floor_le_floor h31
    simpa using this
  constructor
  · omega
  · omega

/-- The clamp-then-convert of any extended real is one of 0, …, 31: the minimum with 31 of the
    maximum with 0 is a real in [0, 31] (an infinity is cut off by one of the two bounds). -/
theorem clamp_lt_ideal (a : Ideal .f32) :
    (FloatOps.fptosi (F := Ideal) 32 (FloatOps.minimumf (Scalar.sitofp (F := Ideal) .f32 (31#32))
      (FloatOps.maximumf (Scalar.sitofp (F := Ideal) .f32 (0#32)) a))).toNat < 32 := by
  show (Ideal.fptosi 32 (min (((31#32 : BitVec 32).toInt : ℝ) : EReal) (max (((0#32 : BitVec 32).toInt : ℝ) : EReal) a))).toNat < 32
  have e31 : ((31#32 : BitVec 32).toInt : ℝ) = 31 := by norm_num [BitVec.toInt]
  have e0 : ((0#32 : BitVec 32).toInt : ℝ) = 0 := by norm_num [BitVec.toInt]
  rw [e31, e0]
  -- the clamped value is a real in [0, 31]
  obtain ⟨r, hr, h0, h31⟩ : ∃ r : ℝ, min ((31 : ℝ) : EReal) (max ((0 : ℝ) : EReal) a) = (r : EReal) ∧ 0 ≤ r ∧ r ≤ 31 := by
    induction a using EReal.rec with
    | bot => exact ⟨0, by simp, le_refl _, by norm_num⟩
    | top => exact ⟨31, by simp, by norm_num, le_refl _⟩
    | coe t =>
      refine ⟨min 31 (max 0 t), ?_, ?_, ?_⟩
      · rw [EReal.coe_strictMono.monotone.map_min, EReal.coe_strictMono.monotone.map_max]
      · exact le_min (by norm_num) (le_max_left _ _)
      · exact min_le_left _ _
  rw [hr, Ideal.fptosi]
  obtain ⟨hlo, hhi⟩ := toIntClamped_mem r h0 h31
  generalize Ideal.toIntClamped (-(2 ^ (32 - 1) : Nat)) ((2 ^ (32 - 1) : Nat) - 1) (r : EReal) = n at hlo hhi
  rw [BitVec.toNat_ofInt]
  omega

/-! ## The clamp on binary32 words

A word is read here by its unsigned number. The non-negative non-NaN words are ordered as their numbers are, 31.0
is the word 0x41F80000, and every word numbered at most that has exponent field at most 131, hence integer part
below 32. The maximum with +0 of any non-NaN word is +0 or a positive word; the minimum of that with 31.0 is
numbered at most 0x41F80000. A NaN operand makes both selections the quiet NaN, whose conversion is 0. -/

/-- The word 31.0 has a non-negative key, its own number. -/
theorem totalKey_c31 : Idealize.SoftF32.totalKey 0x41F80000 = 0x41F80000 := by decide
/-- +0.0 has key 0; neither bound is a NaN. -/
theorem totalKey_c0 : Idealize.SoftF32.totalKey 0 = 0 := by decide
theorem isNaN_c31 : Idealize.SoftF32.isNaN 0x41F80000 = false := by decide
theorem isNaN_c0 : Idealize.SoftF32.isNaN 0 = false := by decide

/-- A word with a positive key below a bound has a number below that bound. -/
theorem toNat_of_totalKey {v : UInt32} {k : Nat} (h0 : 0 < Idealize.SoftF32.totalKey v) (hk : Idealize.SoftF32.totalKey v < (k : Int)) :
    v.toNat < k := by
  have hv := v.toNat_lt
  unfold Idealize.SoftF32.totalKey Idealize.SoftF32.isNegative Idealize.SoftF32.magnitudeBits at h0 hk
  split at h0 <;> simp at * <;> omega

/-- The clamp of any word, on words: a NaN, or a word numbered at most 31.0's. The maximum with +0 keeps a word
    only when its key is positive (a positive word, read by its own number); the minimum with 31.0 keeps it
    only when its key is below 31.0's. -/
theorem clampWord (v : UInt32) :
    Idealize.SoftF32.isNaN (Idealize.SoftF32.minimum 0x41F80000 (Idealize.SoftF32.maximum 0 v)) = true
      ∨ (Idealize.SoftF32.minimum 0x41F80000 (Idealize.SoftF32.maximum 0 v)).toNat ≤ 0x41F80000 := by
  cases hv : Idealize.SoftF32.isNaN v with
  | true =>
    left
    rw [Idealize.SoftF32.isNaN_minimum, Idealize.SoftF32.isNaN_maximum, hv]; simp
  | false =>
    right
    have hm : Idealize.SoftF32.maximum 0 v = Idealize.SoftF32.selectGreater 0 v := by
      rw [Idealize.SoftF32.maximum_eq, isNaN_c0, hv]; rfl
    rw [hm]
    unfold Idealize.SoftF32.selectGreater
    rw [totalKey_c0]
    split
    · rename_i hpos
      rw [Idealize.SoftF32.minimum_eq, isNaN_c31, hv]
      simp only [Bool.or_self, Bool.false_eq_true, if_false]
      unfold Idealize.SoftF32.selectLesser
      rw [totalKey_c31]
      split
      · rename_i hlt
        exact Nat.le_of_lt (toNat_of_totalKey hpos hlt)
      · decide
    · rw [Idealize.SoftF32.minimum_eq, isNaN_c31, isNaN_c0]
      simp only [Bool.or_self, Bool.false_eq_true, if_false]
      unfold Idealize.SoftF32.selectLesser
      rw [totalKey_c31, totalKey_c0]
      decide

/-- A word numbered at most that of 31.0 is a non-negative finite value below 32: its exponent field is at most
    131, so its magnitude (2²³ + T)·2^(E−1) in units of 2⁻¹⁴⁹ is below 2²⁴·2¹³⁰ = 32·2¹⁴⁹. -/
theorem truncToInt?_small (w : UInt32) (h : w.toNat ≤ 0x41F80000) :
    ∃ z : Int, Idealize.SoftF32.truncToInt? w = some z ∧ 0 ≤ z ∧ z < 32 := by
  have hE : Idealize.SoftF32.exponent w ≤ 131 := by unfold Idealize.SoftF32.exponent; omega
  have hN : Idealize.SoftF32.isNegative w = false := by
    unfold Idealize.SoftF32.isNegative; simp; omega
  have hF : Idealize.SoftF32.fraction w < 2 ^ 23 := by unfold Idealize.SoftF32.fraction; omega
  have hfin : ∀ mag : Nat, Idealize.SoftF32.classify w = .finite false mag → mag < 32 * 2 ^ 149 →
      ∃ z : Int, Idealize.SoftF32.truncToInt? w = some z ∧ 0 ≤ z ∧ z < 32 := by
    intro mag hc hmag
    refine ⟨((mag >>> 149 : Nat) : Int), ?_, ?_, ?_⟩
    · unfold Idealize.SoftF32.truncToInt?
      rw [hc]; simp
    · exact Int.natCast_nonneg _
    · rw [Nat.shiftRight_eq_div_pow]
      have := Nat.div_lt_of_lt_mul (m := mag) (n := 2 ^ 149) (k := 32) (by rw [Nat.mul_comm]; exact hmag)
      exact_mod_cast this
  by_cases h0 : Idealize.SoftF32.exponent w = 0
  · refine hfin (Idealize.SoftF32.fraction w) ?_ ?_
    · unfold Idealize.SoftF32.classify
      rw [if_neg (by omega), if_pos h0, hN]
    · calc Idealize.SoftF32.fraction w < 2 ^ 23 := hF
        _ ≤ 32 * 2 ^ 149 := by norm_num
  · refine hfin ((2 ^ 23 + Idealize.SoftF32.fraction w) <<< (Idealize.SoftF32.exponent w - 1)) ?_ ?_
    · unfold Idealize.SoftF32.classify
      rw [if_neg (by omega), if_neg h0, hN]
    · rw [Nat.shiftLeft_eq]
      have hp : 2 ^ (Idealize.SoftF32.exponent w - 1) ≤ 2 ^ 130 := Nat.pow_le_pow_right (by norm_num) (by omega)
      calc (2 ^ 23 + Idealize.SoftF32.fraction w) * 2 ^ (Idealize.SoftF32.exponent w - 1)
          ≤ (2 ^ 23 + Idealize.SoftF32.fraction w) * 2 ^ 130 := Nat.mul_le_mul_left _ hp
        _ < 2 ^ 24 * 2 ^ 130 := Nat.mul_lt_mul_of_pos_right (by omega) (by positivity)
        _ = 32 * 2 ^ 149 := by norm_num

/-- A NaN has no integer part. -/
theorem truncToInt?_of_isNaN {w : UInt32} (h : Idealize.SoftF32.isNaN w = true) : Idealize.SoftF32.truncToInt? w = none := by
  unfold Idealize.SoftF32.isNaN at h
  simp only [Bool.and_eq_true, beq_iff_eq, bne_iff_ne, ne_eq] at h
  unfold Idealize.SoftF32.truncToInt? Idealize.SoftF32.classify
  rw [if_pos h.1, if_neg h.2]

/-- The signed 32-bit conversion of a word that is a NaN or is numbered at most 31.0's is one of 0, …, 31. -/
theorem fptosi32_lt (r : Bits .f32)
    (h : Idealize.SoftF32.isNaN (Bits.w32 r) = true ∨ (Bits.w32 r).toNat ≤ 0x41F80000) :
    (Bits.fptosi32 32 r).toNat < 32 := by
  unfold Bits.fptosi32
  rw [Idealize.F32Words.f32TruncToInt?_eq, Idealize.F32Words.f32IsNaN_eq]
  rcases h with h | h
  · rw [truncToInt?_of_isNaN h, h]; simp
  · obtain ⟨z, hz, h0, h32⟩ := truncToInt?_small _ h
    rw [hz]
    simp only [BitVec.toNat_ofInt]
    omega

/-- The integers 0 and 31 as binary32 words: +0.0 and 31.0 = 1.9375·2⁴. -/
theorem sitofp32_c0 : Bits.sitofp32 (0#32 : BitVec 32) = (0x00000000#32 : BitVec 32) := by
  simp [Bits.sitofp32, Bits.ofW32, Idealize.F32Words.f32OfInt_eq]; decide
theorem sitofp32_c31 : Bits.sitofp32 (31#32 : BitVec 32) = (0x41F80000#32 : BitVec 32) := by
  simp [Bits.sitofp32, Bits.ofW32, Idealize.F32Words.f32OfInt_eq]; decide

theorem canon_c31 : Idealize.SoftF32.canon 0x41F80000 = 0x41F80000 := by decide

/-- The clamp of a word, as the word-level selections of the operand as read. -/
theorem w32_clamp (a : Bits .f32) :
    Bits.w32 (Bits.minf32 (0x41F80000#32 : BitVec 32) (Bits.maxf32 (0x00000000#32 : BitVec 32) a))
      = Idealize.SoftF32.minimum 0x41F80000 (Idealize.SoftF32.maximum 0 (Idealize.SoftF32.canon (Bits.w32 a))) := by
  show Idealize.F32Words.f32Min .v7x (0x41F80000 : UInt32) (Idealize.F32Words.f32Max .v7x (0 : UInt32) (Bits.w32 a)) = _
  rw [Idealize.F32Words.f32Min_eq, Idealize.F32Words.f32Max_eq,
    FlushPolicy.v7x_minimum_def, FlushPolicy.canon_v7x_maximum, FlushPolicy.v7x_maximum_def, canon_c31,
    Idealize.SoftF32.canon_posZero]

/-- The clamp-then-convert of any word is one of 0, …, 31: a NaN operand makes the clamp a NaN, which converts
    to 0; any other operand is clamped to a non-negative value numbered at most 31.0's. -/
theorem clamp_lt_bits (a : Bits .f32) :
    (FloatOps.fptosi (F := Bits) 32 (FloatOps.minimumf (Scalar.sitofp (F := Bits) .f32 (31#32))
      (FloatOps.maximumf (Scalar.sitofp (F := Bits) .f32 (0#32)) a))).toNat < 32 := by
  show (Bits.fptosi32 32 (Bits.minf32 (Bits.sitofp32 (31#32 : BitVec 32))
      (Bits.maxf32 (Bits.sitofp32 (0#32 : BitVec 32)) a))).toNat < 32
  rw [sitofp32_c0, sitofp32_c31]
  apply fptosi32_lt
  rw [w32_clamp]
  exact clampWord _

/-! ## Both instances, as one class -/

/-- The clamp-then-convert of any float is one of 0, …, 31. -/
class ClampOK (F : FTy → Type) [FloatOps F] : Prop where
  clamp_lt : ∀ a : F .f32,
    (FloatOps.fptosi 32 (FloatOps.minimumf (Scalar.sitofp (F := F) .f32 (31#32))
      (FloatOps.maximumf (Scalar.sitofp (F := F) .f32 (0#32)) a))).toNat < 32

instance : ClampOK Bits := ⟨clamp_lt_bits⟩
instance : ClampOK Ideal := ⟨clamp_lt_ideal⟩

/-- The same at every index of a vector: the two bounds broadcast, the selections and the conversion elementwise. -/
theorem clamp_vec_lt {F : FTy → Type} [FloatOps F] [ClampOK F] {s : Shape} (v : FVec F s .f32) (i : s.Idx) :
    ((fptosi 32 (minimumf (broadcast s (Scalar.sitofp (F := F) .f32 (31#32)))
      (maximumf (broadcast s (Scalar.sitofp (F := F) .f32 (0#32))) v))) i).toNat < 32 :=
  ClampOK.clamp_lt (v i)

/-- The flat row number at every index of a vector, over the elementwise products and sums with the broadcast
    constants. -/
theorem flat_vec_lt {s : Shape} (b : BitVec 32) (z y x : IVec s 32) (i : s.Idx) (hb : b.toNat < 8)
    (hz : (z i).toNat < 32) (hy : (y i).toNat < 32) (hx : (x i).toNat < 32) :
    ((addi (muli (addi (muli (addi (broadcast s (Scalar.muli b (32#32))) z) (broadcast s (32#32))) y)
        (broadcast s (32#32))) x) i).toNat < 262144
      ∧ ((addi (muli (addi (muli (addi (broadcast s (Scalar.muli b (32#32))) z) (broadcast s (32#32))) y)
        (broadcast s (32#32))) x) i).toNat
          = ((b.toNat * 32 + (z i).toNat) * 32 + (y i).toNat) * 32 + (x i).toNat :=
  flat_lt b (z i) (y i) (x i) hb hz hy hx

end Cert.Proof.Clamp
-- ==== Proof.KI.RegionIdx.lean ====
/-
  The corner row numbers the TensorCore call leaves are in range of the table of 262144 rows, at
  every float instance at which the clamp to [0, 31] followed by the conversion to an integer gives
  one of 0, …, 31.

  A row number is ((b·32 + z)·32 + y)·32 + x in 32-bit words, b the batch number as a word (below 8)
  and z, y, x three such clamped-and-converted values (below 32): no product or sum wraps, and the
  result is below 8·32³.  The block of row numbers is a slice of that array of words followed by a
  change of shape, and the whole array reads a block at an index: each reads its operand at some
  index, so a bound that holds at every index of the operand holds at every index of the result.
  The same goes for the reshaped array of shape 32 × 32 × 128.
-/
import proofs.«209143_g59700045415095_cont_9to1_m_37_38_alg».proof.Proof.KI.RegionVals
import proofs.«209143_g59700045415095_cont_9to1_m_37_38_alg».proof.Proof.Clamp

noncomputable section

namespace Cert.Proof.KI

open Cert.KernelIdeal Cert.KernelIdeal.Gen
open Idealize.ShloMosaic
open Idealize.ShloMosaic.ValueIdx

variable {F : FTy → Type} [FloatOps F] [Cert.Proof.Clamp.ClampOK F]

/-! ## A property of every element survives a change of shape and a slice -/

/-- A change of shape reads its operand at some index. -/
theorem shapeCast_all {α : Type} {s t : Shape} (P : α → Prop) (v : s.Idx → α) (h : s.ShapeCasts t)
    (hv : ∀ i, P (v i)) : ∀ j, P (shapeCast t v h j) := fun _ => hv _

/-- A slice reads its operand at some index. -/
theorem slice_all {α : Type} {s t : Shape} (P : α → Prop) (off : Fin s.rank → Nat) (v : s.Idx → α)
    (h : s.Slices off t) (hv : ∀ i, P (v i)) : ∀ j, P (extractStridedSlice t off v h j) := fun _ => hv _

/-! ## The row numbers -/

/-- The batch number as a word is below 8. -/
theorem batchWord_lt (b : Fin 8) : (BitVec.ofNat 32 b.val).toNat < 8 := by
  rw [BitVec.toNat_ofNat]
  have := b.isLt
  omega

/-- Every entry of a block of row numbers is below 262144, the batch word being below 8. -/
theorem idx8Blk_lt (a0 : BitVec 32) (ha : a0.toNat < 8) (x0 : Vec F S1x512x2048 .f32) (x1 : Vec F S1x2048x128 .f32)
    (x2 : Vec F S128x3 .f32) (i : S1x512x8.Idx) : (idx8Blk a0 x0 x1 x2 i).toNat < 262144 := by
  unfold idx8Blk k0_pay1
  refine shapeCast_all (fun w : BitVec 32 => w.toNat < 262144) _ _ ?_ i
  refine slice_all (fun w : BitVec 32 => w.toNat < 262144) _ _ _ ?_
  intro i'
  refine (Cert.Proof.Clamp.flat_vec_lt a0 _ _ _ i' ha ?_ ?_ ?_).1
  · exact Cert.Proof.Clamp.clamp_vec_lt _ _
  · exact Cert.Proof.Clamp.clamp_vec_lt _ _
  · unfold k0_pay21
    exact Cert.Proof.Clamp.clamp_vec_lt _ _

/-- Every corner row number is below 262144. -/
theorem idx8V_lt (adj : FVec F S8x2048x2048 .f32) (x : FVec F S8x2048x128 .f32) (W : FVec F S128x3 .f32) :
    ∀ j : S8x2048x8.Idx, (idx8V adj x W j).toNat < 262144 :=
  fun j => idx8Blk_lt _ (batchWord_lt (j 0)) _ _ _ _

/-- The same of the row numbers reshaped to 32 × 32 × 128. -/
theorem ixOf_lt (adj : FVec F S8x2048x2048 .f32) (x : FVec F S8x2048x128 .f32) (W : FVec F S128x3 .f32) :
    ∀ j : S32x32x128.Idx,
      ((shapeCast S32x32x128 (idx8V adj x W) shapeCasts_S8x2048x8_S32x32x128) j).toNat < 262144 :=
  shapeCast_all (fun w : BitVec 32 => w.toNat < 262144) _ _ (idx8V_lt adj x W)

end Cert.Proof.KI

end
-- ==== Proof.KI.Main.lean ====
/-
  The idealized kernel's program read at any float family at which the clamp to [0, 31] followed by the conversion to an
  integer gives one of 0, …, 31: its run. The launch is applied to its pieces: the TensorCore region's triple and the
  funding of its staging cells, and a tile's task, whose one side condition is that every corner row number names a row of
  the table of 262144 rows.
-/
import proofs.«209143_g59700045415095_cont_9to1_m_37_38_alg».proof.Proof.KI.Launch
import proofs.«209143_g59700045415095_cont_9to1_m_37_38_alg».proof.Proof.KI.Region
import proofs.«209143_g59700045415095_cont_9to1_m_37_38_alg».proof.Proof.KI.Tile
import proofs.«209143_g59700045415095_cont_9to1_m_37_38_alg».proof.Proof.KI.RegionIdx
import proofs.«209143_g59700045415095_cont_9to1_m_37_38_alg».proof.Proof.Clamp

noncomputable section

namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Proof.Clamp.ClampOK F] [∀ e, Nonempty (Elt F e)]

/-- The run: on every device, from any launch memory with zero counters, every weakly fair execution of the program's
    threads terminates; the first result ends at the closed term of the four arguments, the positions at the region's,
    and the four arguments are unchanged. The corner row numbers are in range of the table because each is
    ((b·32 + z)·32 + y)·32 + x with b < 8 and z, y, x clamped to 0, …, 31. -/
theorem run (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ Region.uP₀ Region.GP Region.fund_region Region.wp_region
    (tileObl_all (tbM m) (ixM m) (wvM m) (o0M m) facts
      fun d j => ixOf_lt (m (a1Loc d)) (m (a0Loc d)) (m (a3Loc d)) j)

end Cert.Proof.KI

end
-- ==== Proof.KB.Common.lean ====
/-
  What the launch and the two kernel obligations share, for the idealized kernel's program read at any float family:
  the program as the launch theorem sees it, the ghost state (the TensorCore pipeline's staging cells, the SparseCore
  handshakes' rounds, the counters of a tile's own copies), the four arrays the SparseCore call takes, how they are cut
  among the thirty-two tiles — tile (c, s) is worker 2·s + c and owns index block 2·s + c and the 512 points
  512·(2·s + c) … — and what a tile is handed and hands back. The table is read by every tile at once: each holds a
  thirty-second share of it, the full share halved five times.

  The gathered sum: for point p and lane column v·16 + l the result is the balanced sum over the eight corners k of
  weight (p, k·16 + l) times table row idx(p, k) at column v·16 + l, in the order the body adds them,
  ((t0 + t1) + (t2 + t3)) + ((t4 + t5) + (t6 + t7)).
-/
import proofs.«209143_g59700045415095_cont_9to1_m_37_38_alg».proof.Defs
import proofs.«209143_g59700045415095_cont_9to1_m_37_38_alg».proof.Proof.Gen.Kernel
import proofs.«209143_g59700045415095_cont_9to1_m_37_38_alg».proof.Proof.Gen.Kernel.Skeleton
import proofs.«209143_g59700045415095_cont_9to1_m_37_38_alg».proof.Proof.Gen.Kernel.Launch
import proofs.«209143_g59700045415095_cont_9to1_m_37_38_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Regions
import Idealize.ShloMosaic.Lib.Transfers
import Idealize.ShloMosaic.Lib.ValueIdx
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the pipeline's cells, the handshakes' rounds, the tiles' counters -/

abbrev UP : Type := URounds (GSem nD τ sig) Unit
abbrev UH : Type := URounds (GSem nD τ sig) ℕ
abbrev UU : Type := UP × (UH × Counters)

local notation "𝕄" => MT nD τ sig (HIx 1) (Elt F) ℕ UU ℕ

def EP : Emb UP (MT nD τ sig (HIx 1) (Elt F) ℕ UU ℕ) :=
  (Emb.inl : Emb UP UU).trans (uEmb (nD := nD) (sig := sig) (Ix := HIx 1) (Val := Elt F) (Name := ℕ) (U := UU) (Lvl := ℕ)).toEmb
def EH : Emb UH (MT nD τ sig (HIx 1) (Elt F) ℕ UU ℕ) :=
  ((Emb.inl : Emb UH (UH × Counters)).trans (Emb.inr : Emb (UH × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance
instance EH_landsIn : (EH : Emb UH 𝕄).LandsIn (upEmb : UEmb _ 𝕄) := by unfold EH; infer_instance

/-! ## The SparseCore call's four arrays -/

abbrev tblLoc (d : Dev nD) : Loc nD τ sig := (SparseCore.T d).loc main_v3
abbrev idxLoc (d : Dev nD) : Loc nD τ sig := (SparseCore.T d).loc main_v4
abbrev wLoc (d : Dev nD) : Loc nD τ sig := (SparseCore.T d).loc main_v5
abbrev outLoc (d : Dev nD) : Loc nD τ sig := (SparseCore.T d).loc main_v6

abbrev tblV : Memref sig .scVector .hbm S262144x128 .f32 := Memref.whole main_v3_scv
abbrev idxV : Memref sig .scVector .hbm S32x32x128 .i32 := Memref.whole main_v4_scv
abbrev wV : Memref sig .scVector .hbm S16384x128 .f32 := Memref.whole main_v5_scv
abbrev outV : Memref sig .scVector .hbm S16384x128 .f32 := Memref.whole main_v6_scv

/-! ## The cut among the thirty-two workers -/

/-- Worker number of tile (core c, subcore s). -/
def widOf (c : Fin 2) (s : Fin 16) : Fin 32 := ⟨2 * s.val + c.val, by omega⟩

theorem idiv : 32 ∣ S32x32x128.size 0 := ⟨1, rfl⟩
theorem pdiv : 32 ∣ S16384x128.size 0 := ⟨512, rfl⟩
/-- Worker w's block of the row numbers: the indices with first coordinate w. -/
abbrev iblk (w : Fin 32) : Rect S32x32x128 := Rect.part (s := S32x32x128) (a₀ := 0) idiv w
/-- Worker w's 512 points: rows 512·w … 512·w + 511 of the weights and of the result. -/
abbrev pblk (w : Fin 32) : Rect S16384x128 := Rect.part (s := S16384x128) (a₀ := 0) pdiv w
abbrev iSet (w : Fin 32) : Finset S32x32x128.Idx := ((idxV).view.slice (iblk w)).set
abbrev pSet (w : Fin 32) : Finset S16384x128.Idx := ((wV).view.slice (pblk w)).set

theorem shareLeaf_aux {n : ℕ} {i : ℕ} (h2 : i < 2 ^ (n + 1)) (h : ¬ i < 2 ^ n) : i - 2 ^ n < 2 ^ n := by
  have e : 2 ^ (n + 1) = 2 ^ n + 2 ^ n := by rw [pow_succ]; omega
  omega

/-- The full share halved n times: leaf i of the binary tree of depth n under q. -/
def shareLeaf : (n : ℕ) → PosShare TreeShare → Fin (2 ^ n) → PosShare TreeShare
  | 0, q, _ => q
  | n + 1, q, i => if h : i.val < 2 ^ n then shareLeaf n q.left ⟨i.val, h⟩ else shareLeaf n q.right ⟨i.val - 2 ^ n, shareLeaf_aux i.isLt h⟩

/-- Worker w's share of the table. -/
abbrev tshare (w : Fin 32) : PosShare TreeShare := shareLeaf 5 fullShare w

/-! ## The gathered sum -/

section Skip
variable [FloatOps F]

/-- The table row a row-number word names (the word read unsigned; in range on every run the proof meets). -/
def rowOf (b : BitVec 32) : Fin 262144 := ⟨b.toNat % 262144, Nat.mod_lt _ (by decide)⟩

/-- Corner k's term at point p, lane column col: weight (p, 16·k + col mod 16) times table row idx(p, k), column col. -/
def cornerTerm (tb : FVec F S262144x128 .f32) (ix : IVec S32x32x128 32) (wv : FVec F S16384x128 .f32)
    (p : Fin 16384) (col : Fin 128) (k : Fin 8) : F .f32 :=
  FloatOps.mulf
    (wv (ix2 p (⟨16 * k.val + col.val % 16, by omega⟩ : Fin 128)))
    (tb (ix2 (rowOf (ix (ix3 (⟨p.val / 512, by omega⟩ : Fin 32) (⟨p.val % 512 / 16, by omega⟩ : Fin 32) (⟨p.val % 16 * 8 + k.val, by omega⟩ : Fin 128)))) col))

/-- What the SparseCore call leaves in its result: per point and column the balanced sum of the eight corner terms. -/
def skip (tb : FVec F S262144x128 .f32) (ix : IVec S32x32x128 32) (wv : FVec F S16384x128 .f32) : FVec F S16384x128 .f32 :=
  fun j =>
    let t := cornerTerm tb ix wv (j 0) (j 1)
    FloatOps.addf (FloatOps.addf (FloatOps.addf (t 0) (t 1)) (FloatOps.addf (t 2) (t 3)))
      (FloatOps.addf (FloatOps.addf (t 4) (t 5)) (FloatOps.addf (t 6) (t 7)))

end Skip

/-! ## What the handshakes carry -/

section Pay
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The result array after the call, as one whole-array function of what the call was handed. -/
def skipBuf (d : Dev nD) : Buf (Elt F) (outLoc d) := skip (F := F) (tb d) (ix d) (wv d)

/-- What worker w is handed: its share of the table, its block of row numbers, its points' weights, its points' rows of
    the result at the launch contents. -/
abbrev tileGo (d : Dev nD) (w : Fin 32) : sProp 𝕄 :=
  iprop((tblLoc d ↦{tshare w} tb d) ∗ (idxLoc d ↦[iSet w]{fullShare} ix d) ∗ (wLoc d ↦[pSet w]{fullShare} wv d)
    ∗ (outLoc d ↦[pSet w]{fullShare} o0 d))
/-- What it hands back: the same, its rows of the result at the gathered sum. -/
abbrev tileTd (d : Dev nD) (w : Fin 32) : sProp 𝕄 :=
  iprop((tblLoc d ↦{tshare w} tb d) ∗ (idxLoc d ↦[iSet w]{fullShare} ix d) ∗ (wLoc d ↦[pSet w]{fullShare} wv d)
    ∗ (outLoc d ↦[pSet w]{fullShare} skipBuf tb ix wv d))

/-- The one call: a SparseCore takes its sixteen workers' parts and brings them back; a tile its own. -/
def P : (K (F := F)).Pay (nD := nD) (Val := Elt F) (Name := ℕ) (U := UU) where
  st := fun q d c => match q with
    | 0 => bigSep Finset.univ fun s : Fin 16 => tileGo tb ix wv o0 d (widOf (Fin.cast nCore_zero c) s)
  dn := fun q d c => match q with
    | 0 => bigSep Finset.univ fun s : Fin 16 => tileTd tb ix wv d (widOf (Fin.cast nCore_zero c) s)
  go := fun q d c i => match q with
    | 0 => tileGo tb ix wv o0 d (widOf (Fin.cast nCore_zero c) (Fin.cast nSub_zero i))
  td := fun q d c i => match q with
    | 0 => tileTd tb ix wv d (widOf (Fin.cast nCore_zero c) (Fin.cast nSub_zero i))
  x := fun _ _ => iprop(emp)

end Pay

end Cert.Proof.KB

end
-- ==== Proof.KB.RegionVals.lean ====
/-
  What the TensorCore call leaves in its three results, as whole-array functions of its three operands.

  The call runs on the grid 8 × 4: point (b, nb) is handed rows 512·nb … 512·nb + 511 of batch b of the adjacency
  (a block of shape 1 × 512 × 2048), all of batch b of the features (1 × 2048 × 128) and the whole projection
  (128 × 3), and writes rows 512·nb … of batch b of the positions (1 × 512 × 3), of the corner weights
  (1 × 512 × 128) and of the corner row numbers (1 × 512 × 8). What it writes is the body's own arithmetic, named by
  the skeleton's payload terms, of the blocks it is handed and of the batch number as a word; nothing is recomputed
  here. The whole-array functions read, at row r of batch b, the block of point (b, r / 512) at its local row r mod 512.
-/
import proofs.«209143_g59700045415095_cont_9to1_m_37_38_alg».proof.Proof.Gen.Kernel.Skeleton
import Idealize.ShloMosaic.Lib.ValueIdx

noncomputable section

namespace Cert.Proof.KB

open Cert.Kernel Cert.Kernel.Gen
open Idealize.ShloMosaic
open Idealize.ShloMosaic.ValueIdx

variable {F : FTy → Type} [FloatOps F]

/-! ## The blocks a grid point is handed -/

/-- Rows 512·nb … 512·nb + 511 of batch b of the adjacency. -/
def adjBlk (adj : FVec F S8x2048x2048 .f32) (b : Fin 8) (nb : Fin 4) : Vec F S1x512x2048 .f32 :=
  fun y => adj (ix3 b (⟨nb.val * 512 + (y 1).val, by have h : (y 1).val < 512 := (y 1).isLt; omega⟩ : Fin 2048)
    (⟨(y 2).val, (y 2).isLt⟩ : Fin 2048))

/-- Batch b of the features. -/
def xBlk (x : FVec F S8x2048x128 .f32) (b : Fin 8) : Vec F S1x2048x128 .f32 :=
  fun y => x (ix3 b (⟨(y 1).val, (y 1).isLt⟩ : Fin 2048) (⟨(y 2).val, (y 2).isLt⟩ : Fin 128))

/-! ## What the body leaves in each result block, from the blocks it loads -/

/-- The positions block: the two products, as the body casts it to the block's shape. -/
def posBlk (x0 : Vec F S1x512x2048 .f32) (x1 : Vec F S1x2048x128 .f32) (x2 : Vec F S128x3 .f32) : Vec F S1x512x3 .f32 :=
  k0_pay3 x0 x1 x2

/-- The lane numbers 0 … 127 along the second axis. -/
def laneIota : IVec S512x128 32 := iota .tc S512x128 32 [1] iota_S512x128_d1_w32

/-- The corner-weights block. -/
def w8Blk (x0 : Vec F S1x512x2048 .f32) (x1 : Vec F S1x2048x128 .f32) (x2 : Vec F S128x3 .f32) : Vec F S1x512x128 .f32 :=
  let v10 := k0_pay2 x0 x1 x2
  let v24 := k0_pay4 x0 x1 x2
  let v25 := k0_pay5 x0 x1 x2
  let v34 := k0_pay6 x0 x1 x2
  let v35 : FVec F S512x128 .f32 := k0_pay7
  k0_pay20 (k0_pay10 v10) (k0_pay11 v10) k0_pay12 (k0_pay14 v24 v25) (k0_pay15 v25) (k0_pay16 v34 v35) (k0_pay17 v34 v35)
    (k0_pay18 v34 v35) k0_pay19

/-- The corner-row-numbers block, a0 the batch number as a word. -/
def idx8Blk (a0 : BitVec 32) (x0 : Vec F S1x512x2048 .f32) (x1 : Vec F S1x2048x128 .f32) (x2 : Vec F S128x3 .f32) : Vec F S1x512x8 .i32 :=
  let v10 := k0_pay2 x0 x1 x2
  let v25 := k0_pay5 x0 x1 x2
  let v34 := k0_pay6 x0 x1 x2
  let v35 : FVec F S512x128 .f32 := k0_pay7
  k0_pay1 a0 (k0_pay9 v34 v35) (k0_pay11 v10) laneIota (k0_pay21 v25 laneIota) (k0_pay22 (F := F) laneIota)

/-! ## The three results as whole arrays -/

/-- The quarter of a batch's rows that holds row r. -/
def nbOf (r : Fin 2048) : Fin 4 := ⟨r.val / 512, by have := r.isLt; omega⟩
/-- Row r's place in its quarter. -/
def rowIn (r : Fin 2048) : Fin 512 := ⟨r.val % 512, Nat.mod_lt _ (by decide)⟩

/-- The positions, pos[b, r, a]. -/
def posV (adj : FVec F S8x2048x2048 .f32) (x : FVec F S8x2048x128 .f32) (W : FVec F S128x3 .f32) : FVec F S8x2048x3 .f32 :=
  fun j => posBlk (adjBlk adj (j 0) (nbOf (j 1))) (xBlk x (j 0)) W (ix3 (0 : Fin 1) (rowIn (j 1)) (j 2))

/-- The corner weights, w8[b, r, lane]. -/
def w8V (adj : FVec F S8x2048x2048 .f32) (x : FVec F S8x2048x128 .f32) (W : FVec F S128x3 .f32) : FVec F S8x2048x128 .f32 :=
  fun j => w8Blk (adjBlk adj (j 0) (nbOf (j 1))) (xBlk x (j 0)) W (ix3 (0 : Fin 1) (rowIn (j 1)) (j 2))

/-- The corner row numbers, idx8[b, r, k]. -/
def idx8V (adj : FVec F S8x2048x2048 .f32) (x : FVec F S8x2048x128 .f32) (W : FVec F S128x3 .f32) : IVec S8x2048x8 32 :=
  fun j => idx8Blk (BitVec.ofNat 32 (j 0).val) (adjBlk adj (j 0) (nbOf (j 1))) (xBlk x (j 0)) W (ix3 (0 : Fin 1) (rowIn (j 1)) (j 2))

end Cert.Proof.KB

end
-- ==== Proof.KB.Split.lean ====
/-
  The cut of the SparseCore call's four whole arrays among the thirty-two workers, and the way back.

  A share held whole is held at the 2ⁿ leaves of its binary tree of depth n at once (each halving keeps both halves), so
  the table, read by every worker, goes out as thirty-two leaf shares. The row numbers are cut by their first coordinate
  and the weights and the result by blocks of 512 rows: the blocks are pairwise disjoint and cover the array, so the whole
  array is the separating product of its blocks. Worker 2·s + c is tile (c, s): the product over the thirty-two workers
  is the product over the two cores of the products over their sixteen tiles.
-/
import proofs.«209143_g59700045415095_cont_9to1_m_37_38_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A share and the leaves of its tree -/

theorem two_pow_add_self (n : ℕ) : 2 ^ n + 2 ^ n = 2 ^ (n + 1) := by rw [pow_succ]; omega

/-- The leaves of a tree of depth n + 1 are those of its left subtree, then those of its right subtree. -/
def leafEquiv (n : ℕ) : Fin (2 ^ n) ⊕ Fin (2 ^ n) ≃ Fin (2 ^ (n + 1)) :=
  finSumFinEquiv.trans (finCongr (two_pow_add_self n))

theorem leafEquiv_inl_val (n : ℕ) (a : Fin (2 ^ n)) : (leafEquiv n (Sum.inl a)).val = a.val := rfl
theorem leafEquiv_inr_val (n : ℕ) (b : Fin (2 ^ n)) : (leafEquiv n (Sum.inr b)).val = 2 ^ n + b.val := rfl

/-- Leaf a of the left subtree is leaf a of the tree. -/
theorem shareLeaf_inl (n : ℕ) (q : PosShare TreeShare) (a : Fin (2 ^ n)) :
    shareLeaf (n + 1) q (leafEquiv n (Sum.inl a)) = shareLeaf n q.left a := by
  rw [shareLeaf, dif_pos (show (leafEquiv n (Sum.inl a)).val < 2 ^ n from a.isLt)]
  rfl

/-- Leaf b of the right subtree is leaf 2ⁿ + b of the tree. -/
theorem shareLeaf_inr (n : ℕ) (q : PosShare TreeShare) (b : Fin (2 ^ n)) :
    shareLeaf (n + 1) q (leafEquiv n (Sum.inr b)) = shareLeaf n q.right b := by
  rw [shareLeaf, dif_neg (show ¬ (leafEquiv n (Sum.inr b)).val < 2 ^ n from by rw [leafEquiv_inr_val]; omega)]
  congr 1
  exact Fin.ext (show 2 ^ n + b.val - 2 ^ n = b.val by omega)

/-- Elements held at a share are held at the 2ⁿ leaves of its tree of depth n at once. -/
theorem pointsTo_shareLeaf {ℓ : Loc nD τ sig} (I : Finset (Idx ℓ)) (f : Buf (Elt F) ℓ) :
    ∀ (n : ℕ) (q : PosShare TreeShare),
      (ℓ ↦[I]{q} f : sProp 𝕄) = bigSep Finset.univ fun i : Fin (2 ^ n) => ℓ ↦[I]{shareLeaf n q i} f
  | 0, q => by
    haveI : Subsingleton (Fin (2 ^ 0)) := by rw [pow_zero]; infer_instance
    exact (BI.bigSep_univ_of_subsingleton (⟨0, Nat.two_pow_pos 0⟩ : Fin (2 ^ 0))
      (Φ := fun i : Fin (2 ^ 0) => (ℓ ↦[I]{shareLeaf 0 q i} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hA : (bigSep Finset.univ fun a : Fin (2 ^ n) => (ℓ ↦[I]{shareLeaf (n + 1) q (leafEquiv n (Sum.inl a))} f : sProp 𝕄))
        = bigSep Finset.univ fun a : Fin (2 ^ n) => ℓ ↦[I]{shareLeaf n q.left a} f :=
      bigSep_congr fun a _ => by rw [shareLeaf_inl]
    have hB : (bigSep Finset.univ fun b : Fin (2 ^ n) => (ℓ ↦[I]{shareLeaf (n + 1) q (leafEquiv n (Sum.inr b))} f : sProp 𝕄))
        = bigSep Finset.univ fun b : Fin (2 ^ n) => ℓ ↦[I]{shareLeaf n q.right b} f :=
      bigSep_congr fun b _ => by rw [shareLeaf_inr]
    rw [hs, pointsTo_shareLeaf I f n q.left, pointsTo_shareLeaf I f n q.right,
      BI.bigSep_univ_equiv (leafEquiv n) (fun i : Fin (2 ^ (n + 1)) => (ℓ ↦[I]{shareLeaf (n + 1) q i} f : sProp 𝕄)),
      BI.bigSep_univ_sum, hA, hB]
    rfl

/-! ## Workers and tiles -/

/-- Tile (c, s) ↦ worker 2·s + c is a bijection of the thirty-two tiles with the thirty-two workers. -/
def widEquiv : Fin 2 × Fin 16 ≃ Fin 32 where
  toFun p := widOf p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem widEquiv_apply (c : Fin 2) (s : Fin 16) : widEquiv (c, s) = widOf c s := rfl

/-- A product over the workers is the product over the cores of the products over their tiles. -/
theorem bigSep_wid (Φ : Fin 32 → sProp 𝕄) :
    bigSep Finset.univ Φ = bigSep Finset.univ fun c : Fin 2 => bigSep Finset.univ fun s : Fin 16 => Φ (widOf c s) := by
  rw [BI.bigSep_univ_equiv widEquiv Φ, BI.bigSep_univ_prod]
  rfl

/-- The launch's own index types for cores and tiles are Fin 2 and Fin 16. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The blocks are pairwise disjoint and cover -/

theorem iSet_eq (w : Fin 32) : iSet w = (iblk w).set := by
  show ((View.whole (main_v4_scv : Ref sig .scVector)).slice (iblk w)).set = _
  rw [View.set_slice]; exact Finset.map_refl
theorem pSet_eq (w : Fin 32) : pSet w = (pblk w).set := by
  show ((View.whole (main_v5_scv : Ref sig .scVector)).slice (pblk w)).set = _
  rw [View.set_slice]; exact Finset.map_refl

theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem iSet_cover : (Finset.univ : Finset (Fin 32)).biUnion iSet = Finset.univ :=
  (Finset.biUnion_congr rfl fun i _ => iSet_eq i).trans (Rect.biUnion_part idiv)
theorem pSet_disjoint : ∀ i ∈ (Finset.univ : Finset (Fin 32)), ∀ j ∈ (Finset.univ : Finset (Fin 32)), i ≠ j → Disjoint (pSet i) (pSet j) :=
  fun i _ j _ h => by rw [pSet_eq, pSet_eq]; exact Rect.part_disjoint pdiv h
theorem pSet_cover : (Finset.univ : Finset (Fin 32)).biUnion pSet = Finset.univ :=
  (Finset.biUnion_congr rfl fun i _ => pSet_eq i).trans (Rect.biUnion_part pdiv)

/-! ## Each whole array as the product of the workers' parts -/

theorem idx_split (d : Dev nD) (f : Buf (Elt F) (idxLoc d)) :
    (idxLoc d ↦{fullShare} f : sProp 𝕄) = bigSep Finset.univ fun w : Fin 32 => idxLoc d ↦[iSet w]{fullShare} f := by
  rw [← pointsTo_biUnion Finset.univ (ℓ := idxLoc d) iSet iSet_disjoint, iSet_cover]; try rfl
theorem w_split (d : Dev nD) (f : Buf (Elt F) (wLoc d)) :
    (wLoc d ↦{fullShare} f : sProp 𝕄) = bigSep Finset.univ fun w : Fin 32 => wLoc d ↦[pSet w]{fullShare} f := by
  rw [← pointsTo_biUnion Finset.univ (ℓ := wLoc d) pSet pSet_disjoint, pSet_cover]; try rfl
theorem out_split (d : Dev nD) (f : Buf (Elt F) (outLoc d)) :
    (outLoc d ↦{fullShare} f : sProp 𝕄) = bigSep Finset.univ fun w : Fin 32 => outLoc d ↦[pSet w]{fullShare} f := by
  rw [← pointsTo_biUnion Finset.univ (ℓ := outLoc d) pSet pSet_disjoint, pSet_cover]; try rfl
theorem tbl_split (d : Dev nD) (f : Buf (Elt F) (tblLoc d)) :
    (tblLoc d ↦{fullShare} f : sProp 𝕄) = bigSep Finset.univ fun w : Fin 32 => tblLoc d ↦{tshare w} f :=
  pointsTo_shareLeaf Finset.univ f 5 fullShare

/-! ## The four arrays, the cores' parts, the tiles' parts -/

section Pay
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

theorem P_st (d : Dev nD) (c : Fin ((K (F := F)).nCore 0)) :
    (P tb ix wv o0).st 0 d c = bigSep Finset.univ fun s : Fin 16 => tileGo tb ix wv o0 d (widOf (Fin.cast nCore_zero c) s) := rfl
theorem P_dn (d : Dev nD) (c : Fin ((K (F := F)).nCore 0)) :
    (P tb ix wv o0).dn 0 d c = bigSep Finset.univ fun s : Fin 16 => tileTd tb ix wv d (widOf (Fin.cast nCore_zero c) s) := rfl
theorem P_go (d : Dev nD) (c : Fin ((K (F := F)).nCore 0)) (i : Fin ((K (F := F)).nSub 0)) :
    (P tb ix wv o0).go 0 d c i = tileGo tb ix wv o0 d (widOf (Fin.cast nCore_zero c) (Fin.cast nSub_zero i)) := rfl
theorem P_td (d : Dev nD) (c : Fin ((K (F := F)).nCore 0)) (i : Fin ((K (F := F)).nSub 0)) :
    (P tb ix wv o0).td 0 d c i = tileTd tb ix wv d (widOf (Fin.cast nCore_zero c) (Fin.cast nSub_zero i)) := rfl

/-- The four whole arrays are the product of what the thirty-two workers are handed. -/
theorem whole_eq_tiles (d : Dev nD) (o : Buf (Elt F) (outLoc d)) :
    (iprop((tblLoc d ↦{fullShare} tb d) ∗ (idxLoc d ↦{fullShare} ix d) ∗ (wLoc d ↦{fullShare} wv d) ∗ (outLoc d ↦{fullShare} o)) : sProp 𝕄)
      = bigSep Finset.univ fun w : Fin 32 =>
          iprop((tblLoc d ↦{tshare w} tb d) ∗ (idxLoc d ↦[iSet w]{fullShare} ix d) ∗ (wLoc d ↦[pSet w]{fullShare} wv d)
            ∗ (outLoc d ↦[pSet w]{fullShare} o)) := by
  rw [bigSep_sep', bigSep_sep', bigSep_sep', ← tbl_split, ← idx_split, ← w_split, ← out_split]

/-- The four whole arrays at the launch contents are the product of the cores' parts. -/
theorem st_split (d : Dev nD) :
    (iprop((tblLoc d ↦{fullShare} tb d) ∗ (idxLoc d ↦{fullShare} ix d) ∗ (wLoc d ↦{fullShare} wv d) ∗ (outLoc d ↦{fullShare} o0 d)) : sProp 𝕄)
      = bigSep Finset.univ fun c : Fin ((K (F := F)).nCore 0) => (P tb ix wv o0).st 0 d c := by
  refine (whole_eq_tiles tb ix wv d (o0 d)).trans ((bigSep_wid _).trans ?_)
  refine (bigSep_cores (F := F) (fun c : Fin 2 => bigSep Finset.univ fun s : Fin 16 => tileGo tb ix wv o0 d (widOf c s))).symm.trans ?_
  exact bigSep_congr fun c _ => (P_st tb ix wv o0 d c).symm

/-- The cores' parts after the call are the four whole arrays, the result at the gathered sum. -/
theorem dn_join (d : Dev nD) :
    (bigSep Finset.univ fun c : Fin ((K (F := F)).nCore 0) => (P tb ix wv o0).dn 0 d c : sProp 𝕄)
      = iprop((tblLoc d ↦{fullShare} tb d) ∗ (idxLoc d ↦{fullShare} ix d) ∗ (wLoc d ↦{fullShare} wv d)
          ∗ (outLoc d ↦{fullShare} skipBuf tb ix wv d)) := by
  refine Eq.symm ((whole_eq_tiles tb ix wv d (skipBuf tb ix wv d)).trans ((bigSep_wid _).trans ?_))
  refine (bigSep_cores (F := F) (fun c : Fin 2 => bigSep Finset.univ fun s : Fin 16 => tileTd tb ix wv d (widOf c s))).symm.trans ?_
  exact bigSep_congr fun c _ => (P_dn tb ix wv o0 d c).symm

/-- The same two facts as entailments both ways. -/
theorem st_split_equiv (d : Dev nD) :
    iprop((tblLoc d ↦{fullShare} tb d) ∗ (idxLoc d ↦{fullShare} ix d) ∗ (wLoc d ↦{fullShare} wv d) ∗ (outLoc d ↦{fullShare} o0 d))
      ⊣⊢ (bigSep Finset.univ fun c : Fin ((K (F := F)).nCore 0) => (P tb ix wv o0).st 0 d c : sProp 𝕄) :=
  ⟨.of_eq (st_split tb ix wv o0 d), .of_eq (st_split tb ix wv o0 d).symm⟩
theorem dn_join_equiv (d : Dev nD) :
    (bigSep Finset.univ fun c : Fin ((K (F := F)).nCore 0) => (P tb ix wv o0).dn 0 d c : sProp 𝕄)
      ⊣⊢ iprop((tblLoc d ↦{fullShare} tb d) ∗ (idxLoc d ↦{fullShare} ix d) ∗ (wLoc d ↦{fullShare} wv d)
          ∗ (outLoc d ↦{fullShare} skipBuf tb ix wv d)) :=
  ⟨.of_eq (dn_join tb ix wv o0 d), .of_eq (dn_join tb ix wv o0 d).symm⟩

/-- A core's part is the product of its tiles' parts, before the call and after it. -/
theorem vecSplit : (K (F := F)).VecSplit' (P tb ix wv o0) 0 := by
  intro d c
  rw [P_st, P_dn]
  simp only [P_go, P_td]
  rw [bigSep_tasks (F := F) (fun s : Fin 16 => tileGo tb ix wv o0 d (widOf (Fin.cast nCore_zero c) s)),
    bigSep_tasks (F := F) (fun s : Fin 16 => tileTd tb ix wv d (widOf (Fin.cast nCore_zero c) s))]
  iintro H; imodintro
  isplitl [H]; · iexact H
  iintro H; iexact H

instance P_storable : (P tb ix wv o0).IsStorable where
  st q d c := match q with
    | 0 => (inferInstance : BI.Storable (upEmb : UEmb _ 𝕄)
        (bigSep Finset.univ fun s : Fin 16 => tileGo tb ix wv o0 d (widOf (Fin.cast nCore_zero c) s)))
  dn q d c := match q with
    | 0 => (inferInstance : BI.Storable (upEmb : UEmb _ 𝕄)
        (bigSep Finset.univ fun s : Fin 16 => tileTd tb ix wv d (widOf (Fin.cast nCore_zero c) s)))
  go q d c i := match q with
    | 0 => (inferInstance : BI.Storable (upEmb : UEmb _ 𝕄)
        (tileGo tb ix wv o0 d (widOf (Fin.cast nCore_zero c) (Fin.cast nSub_zero i))))
  td q d c i := match q with
    | 0 => (inferInstance : BI.Storable (upEmb : UEmb _ 𝕄)
        (tileTd tb ix wv d (widOf (Fin.cast nCore_zero c) (Fin.cast nSub_zero i))))

end Pay

end Cert.Proof.KB

end
-- ==== Proof.KB.Launch.lean ====
/-
  The launch of the idealized kernel's program read at any float family: the launch theorem for SparseCore programs
  applied to it. @main on a device's TensorCore is the point-and-weights region, five re-indexings (the feature volume
  to a table of 262144 rows of 128 channels; the corner row numbers and the corner weights to the shapes the gather
  takes), the gather on the thirty-two tiles, and two more host operations (the gathered rows back to 8 × 2048 × 128,
  then the concatenation of the features, the gathered rows and the positions).

  Every array the gather takes is a pure function of the launch memory, so what the tiles are handed and hand back is
  fixed before the run; the final memory then holds, at the concatenation's buffer, the one closed term out0K of the four
  arguments, and at the positions' buffer the region's positions.
-/
import proofs.«209143_g59700045415095_cont_9to1_m_37_38_alg».proof.Proof.KB.Common
import proofs.«209143_g59700045415095_cont_9to1_m_37_38_alg».proof.Proof.KB.RegionVals
import proofs.«209143_g59700045415095_cont_9to1_m_37_38_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_sub_split held_congr held_split held_sdiff_result wp_hlo_within reshape_result reshape_result_ne unary_result unary_result_ne nary_result nary_result_ne)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays the gather takes, and the program's first result, as terms of the four arguments -/

section Values
variable [FloatOps F]

/-- The feature volume as the gather's table: batch b, channel ch, voxel v ↦ row b·32768 + v, column ch. -/
def tblOf (conv : FVec F S8x128x32x32x32 .f32) : FVec F S262144x128 .f32 :=
  shapeCast S262144x128
    (transpose S8x32768x128 [0, 2, 1] (shapeCast S8x128x32768 conv shapeCasts_S8x128x32x32x32_S8x128x32768) transposes_S8x128x32768_S8x32768x128_0_2_1)
    shapeCasts_S8x32768x128_S262144x128
/-- The corner row numbers in the gather's shape: worker, chunk of sixteen points, (point, corner). -/
def ixOf (i8 : IVec S8x2048x8 32) : IVec S32x32x128 32 := shapeCast S32x32x128 i8 shapeCasts_S8x2048x8_S32x32x128
/-- The corner weights with the batch and point axes merged. -/
def wvOf (w8 : FVec F S8x2048x128 .f32) : FVec F S16384x128 .f32 := shapeCast S16384x128 w8 shapeCasts_S8x2048x128_S16384x128

/-- The program's first result: features, gathered rows, positions, side by side along the last axis. -/
def out0K (x : FVec F S8x2048x128 .f32) (adj : FVec F S8x2048x2048 .f32) (conv : FVec F S8x128x32x32x32 .f32) (W : FVec F S128x3 .f32) :
    FVec F S8x2048x259 .f32 :=
  concatenate S8x2048x259 2
    [⟨S8x2048x128, x⟩,
     ⟨S8x2048x128, shapeCast S8x2048x128 (skip (tblOf conv) (ixOf (idx8V adj x W)) (wvOf (w8V adj x W))) shapeCasts_S16384x128_S8x2048x128⟩,
     ⟨S8x2048x3, posV adj x W⟩]
    concatenates_S8x2048x128_S8x2048x128_S8x2048x3_S8x2048x259_d2

end Values

section Launch
variable [FloatOps F]
variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev posLoc (d : Dev nD) : Loc nD τ sig := (SparseCore.T d).loc main_v0_0
abbrev w8Loc (d : Dev nD) : Loc nD τ sig := (SparseCore.T d).loc main_v0_1
abbrev i8Loc (d : Dev nD) : Loc nD τ sig := (SparseCore.T d).loc main_v0_2
abbrev resLoc (d : Dev nD) : Loc nD τ sig := (SparseCore.T d).loc main_v8

/-- The region's three results, as functions of the launch memory. -/
abbrev posM (d : Dev nD) : Buf (Elt F) (posLoc d) := posV (m (a1Loc d)) (m (a0Loc d)) (m (a3Loc d))
abbrev w8M (d : Dev nD) : Buf (Elt F) (w8Loc d) := w8V (m (a1Loc d)) (m (a0Loc d)) (m (a3Loc d))
abbrev i8M (d : Dev nD) : Buf (Elt F) (i8Loc d) := idx8V (m (a1Loc d)) (m (a0Loc d)) (m (a3Loc d))
/-- What the gather is handed, as functions of the launch memory. -/
abbrev tbM (d : Dev nD) : Buf (Elt F) (tblLoc d) := tblOf (m (a2Loc d))
abbrev ixM (d : Dev nD) : Buf (Elt F) (idxLoc d) := ixOf (i8M m d)
abbrev wvM (d : Dev nD) : Buf (Elt F) (wLoc d) := wvOf (w8M m d)
abbrev o0M (d : Dev nD) : Buf (Elt F) (outLoc d) := m (outLoc d)
abbrev PM : (K (F := F)).Pay (nD := nD) (Val := Elt F) (Name := ℕ) (U := UU) := P (tbM m) (ixM m) (wvM m) (o0M m)
/-- The program's first result on device d. -/
abbrev resM (d : Dev nD) : Buf (Elt F) (resLoc d) := out0K (m (a0Loc d)) (m (a1Loc d)) (m (a2Loc d)) (m (a3Loc d))

/-! ## The launch element -/

omit [FloatOps F] in
theorem bigSep_emp' {I : Type} (s : Finset I) : (bigSep s fun _ => iprop(emp)) = (iprop(emp) : sProp 𝕄) := bigSep_emp_const s

omit [FloatOps F] in
theorem ownU_split (a : UP) (b : UH) (c : Counters) : (ownU ((a, (b, c)) : UU) : sProp 𝕄) ⊢ iprop(BI.own (EP a) ∗ BI.own (EH b)) := by
  refine (ownU_pair a (b, c)).trans (BI.sep_mono ?_ ?_)
  · exact BI.Entails.refl _
  · exact (own_pair_emb (embR : Emb (UH × Counters) 𝕄) b c).trans sep_elim_left

section Region
-- The region's staging cells: their launch element, and what it funds on each device.
variable (uP₀ : UP) (GP : Dev nD → sProp (MT nD τ sig (HIx 1) (Elt F) ℕ UU ℕ))
variable (fund_region : (BI.own ((EP : Emb UP (MT nD τ sig (HIx 1) (Elt F) ℕ UU ℕ)) uP₀) : sProp (MT nD τ sig (HIx 1) (Elt F) ℕ UU ℕ)) ⊢ |={Set.univ}=> bigSep Finset.univ fun d : Dev nD => GP d)

/-- The launch element: the region's staging cells', the handshakes' rounds, no counter. -/
def u₀ (uP₀ : UP) : UU := (uP₀, (initOf (K (F := F)).hsCells (K (F := F)).hsToks, 1))

include fund_region in
theorem hu₀ : (ownU (u₀ (F := F) uP₀) : sProp 𝕄)
    ⊢ |={Set.univ}=> iprop(BI.own (EH (initOf (K (F := F)).hsCells (K (F := F)).hsToks)) ∗ (bigSep Finset.univ fun d : Dev nD => GP d)
        ∗ bigSep Finset.univ fun thr : Thread nD τ => bigSep Finset.univ fun q : Fin 1 => (PM m).x q thr) := by
  unfold u₀
  iintro Hu
  ihave H := (ownU_split _ _ _) $$ Hu
  icases H with ⟨HP, HH⟩
  imod fund_region $$ HP with HG
  imodintro
  isplitl [HH]; · iexact HH
  isplitl [HG]; · iexact HG
  rw [show (bigSep Finset.univ fun thr : Thread nD τ => bigSep Finset.univ fun q : Fin 1 => (PM m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

end Region

/-! ## @main's arrays on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev p0' : DevRef τ sig := Proc.devRef .tc (main_v0_0 : Ref sig .tc)
abbrev w8' : DevRef τ sig := Proc.devRef .tc (main_v0_1 : Ref sig .tc)
abbrev i8' : DevRef τ sig := Proc.devRef .tc (main_v0_2 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)

/-- @main's fifteen arrays. -/
abbrev S15 : Finset (DevRef τ sig) := {a0', a1', a2', a3', p0', w8', i8', v1', v2', v3', v4', v5', v6', v7', v8'}
/-- The region's six: three operands, three results. -/
abbrev SR : Finset (DevRef τ sig) := {a1', a0', a3', p0', w8', i8'}
/-- The gather's four. -/
abbrev SG : Finset (DevRef τ sig) := {v3', v4', v5', v6'}
/-- The six the claim reads. -/
abbrev SF : Finset (DevRef τ sig) := {a0', a1', a2', a3', v8', p0'}

omit [FloatOps F] in
theorem held_SR (d : Dev nD) (W : Valuation τ sig (Elt F)) :
    (held (T d) SR W : sProp 𝕄) = iprop((a1Loc d ↦{fullShare} W a1') ∗ (a0Loc d ↦{fullShare} W a0') ∗ (a3Loc d ↦{fullShare} W a3')
      ∗ (posLoc d ↦{fullShare} W p0') ∗ (w8Loc d ↦{fullShare} W w8') ∗ (i8Loc d ↦{fullShare} W i8')) := by
  unfold held SR
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_SG (d : Dev nD) (W : Valuation τ sig (Elt F)) :
    (held (T d) SG W : sProp 𝕄) = iprop((tblLoc d ↦{fullShare} W v3') ∗ (idxLoc d ↦{fullShare} W v4') ∗ (wLoc d ↦{fullShare} W v5')
      ∗ (outLoc d ↦{fullShare} W v6')) := by
  unfold held SG
  rw [SparseCore.bigSep_insert' (by decide), SparseCore.bigSep_insert' (by decide), SparseCore.bigSep_insert' (by decide), bigSep_singleton]
omit [FloatOps F] in
theorem held_SF (d : Dev nD) (W : Valuation τ sig (Elt F)) :
    (held (T d) SF W : sProp 𝕄) = iprop((a0Loc d ↦{fullShare} W a0') ∗ (a1Loc d ↦{fullShare} W a1') ∗ (a2Loc d ↦{fullShare} W a2')
      ∗ (a3Loc d ↦{fullShare} W a3') ∗ (resLoc d ↦{fullShare} W v8') ∗ (posLoc d ↦{fullShare} W p0')) := by
  unfold held SF
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_held (d : Dev nD) (W : Valuation τ sig (Elt F)) :
    (unscopedBufs d (fun b => W (Proc.devRef .tc b)) : sProp 𝕄) = held (T d) S15 W := by
  unfold unscopedBufs held
  rw [show (Finset.univ.filter fun b : Ref sig .tc => ¬ b.isScoped)
      = {main_arg0, main_arg1, main_arg2, main_arg3, main_v0_0, main_v0_1, main_v0_2, main_v1, main_v2, main_v3, main_v4, main_v5, main_v6, main_v7, main_v8} by decide]
  unfold S15
  iterate 14 rw [SparseCore.bigSep_insert' (by decide), SparseCore.bigSep_insert' (s := _) (i := Proc.devRef .tc _) (by decide)]
  rw [bigSep_singleton, bigSep_singleton]

theorem SR_sub : SR ⊆ S15 := by decide
theorem SG_sub : SG ⊆ S15 := by decide
theorem SF_sub : SF ⊆ S15 := by decide

/-- The launch contents. -/
def V0 (d : Dev nD) : Valuation τ sig (Elt F) := fun b => m (d, b)
/-- After the region: its three results at their values. -/
def V1 (d : Dev nD) : Valuation τ sig (Elt F) :=
  Function.update (Function.update (Function.update (V0 m d) p0' (posM m d)) w8' (w8M m d)) i8' (i8M m d)

/-! ## The host operations, named -/

abbrev op1 : HloOp τ sig (Elt F) := StableHlo.reshape main_arg2 main_v1 rfl shapeCasts_S8x128x32x32x32_S8x128x32768
abbrev op2 : HloOp τ sig (Elt F) := StableHlo.unary main_v1 main_v2 ((transpose S8x32768x128 [0, 2, 1] · transposes_S8x128x32768_S8x32768x128_0_2_1) : (⟨S8x128x32768, .f32⟩ : BufTy).Contents (Elt F) → (⟨S8x32768x128, .f32⟩ : BufTy).Contents (Elt F))
abbrev op3 : HloOp τ sig (Elt F) := StableHlo.reshape main_v2 main_v3 rfl shapeCasts_S8x32768x128_S262144x128
abbrev op4 : HloOp τ sig (Elt F) := StableHlo.reshape main_v0_2 main_v4 rfl shapeCasts_S8x2048x8_S32x32x128
abbrev op5 : HloOp τ sig (Elt F) := StableHlo.reshape main_v0_1 main_v5 rfl shapeCasts_S8x2048x128_S16384x128
abbrev op7 : HloOp τ sig (Elt F) := StableHlo.reshape main_v6 main_v7 rfl shapeCasts_S16384x128_S8x2048x128
abbrev op8 : HloOp τ sig (Elt F) := StableHlo.nary ![main_arg0, main_v7, main_v0_0] main_v8 (fun u => concatenate S8x2048x259 2 [⟨S8x2048x128, u 0⟩, ⟨S8x2048x128, u 1⟩, ⟨S8x2048x3, u 2⟩] concatenates_S8x2048x128_S8x2048x128_S8x2048x3_S8x2048x259_d2)

theorem h1 : (op1 (F := F)).bufs ⊆ S15 := show ({a2', v1'} : Finset (DevRef τ sig)) ⊆ S15 by decide
theorem h2 : (op2 (F := F)).bufs ⊆ S15 := show ({v1', v2'} : Finset (DevRef τ sig)) ⊆ S15 by decide
theorem h3 : (op3 (F := F)).bufs ⊆ S15 := show ({v2', v3'} : Finset (DevRef τ sig)) ⊆ S15 by decide
theorem h4 : (op4 (F := F)).bufs ⊆ S15 := show ({i8', v4'} : Finset (DevRef τ sig)) ⊆ S15 by decide
theorem h5 : (op5 (F := F)).bufs ⊆ S15 := show ({w8', v5'} : Finset (DevRef τ sig)) ⊆ S15 by decide
theorem h7 : (op7 (F := F)).bufs ⊆ S15 := show ({v6', v7'} : Finset (DevRef τ sig)) ⊆ S15 by decide

/-- The contents when the gather is reached. -/
def V6 (d : Dev nD) : Valuation τ sig (Elt F) :=
  (op5 (F := F)).result ((op4 (F := F)).result ((op3 (F := F)).result ((op2 (F := F)).result ((op1 (F := F)).result (V1 m d)))))

/-! ## The TensorCore's state, opened at what it owes -/

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

omit [FloatOps F] in
/-- Before call n the TensorCore owes its later start signals under some recorded waits, all below the call's band; given the
    same debt back under other such waits it is in that state again. -/
theorem tcSt_open (d : Dev nD) (n : ℕ) :
    ((K (F := F)).tcSt (EH (F := F)) d n : sProp 𝕄)
      ⊢ iprop(∃ W, ⌜(K (F := F)).WBelow (T d) W (8 * n)⌝ ∗ owes (T d) ((K (F := F)).Otc d n) W
          ∗ ∀ W', ⌜(K (F := F)).WBelow (T d) W' (8 * n)⌝ -∗ owes (T d) ((K (F := F)).Otc d n) W' -∗ (K (F := F)).tcSt (EH (F := F)) d n) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  · iexact Hrest

omit [FloatOps F] in
theorem wbelow_of (d : Dev nD) {W W' : Waits sig (HIx 1)} {b : ℕ} (hW : (K (F := F)).WBelow (T d) W b) (h : ∀ p ∈ W', p ∈ W ∨ p.2 = none) :
    (K (F := F)).WBelow (T d) W' b := by
  intro p hp
  rcases h p hp with h | h
  · exact hW p h
  · rw [h, SparseCore.Cfg.lev_none]; exact Nat.zero_le _

/-! ## The contents at each stage -/

theorem V1_p0 (d : Dev nD) : V1 m d p0' = posM m d := by
  unfold V1; rw [Function.update_of_ne (show p0' ≠ i8' by decide), Function.update_of_ne (show p0' ≠ w8' by decide), Function.update_self]
theorem V1_w8 (d : Dev nD) : V1 m d w8' = w8M m d := by
  unfold V1; rw [Function.update_of_ne (show w8' ≠ i8' by decide), Function.update_self]
theorem V1_i8 (d : Dev nD) : V1 m d i8' = i8M m d := by
  unfold V1; rw [Function.update_self]
theorem V1_ne (d : Dev nD) {b : DevRef τ sig} (h0 : b ≠ p0') (h1 : b ≠ w8') (h2 : b ≠ i8') : V1 m d b = m (d, b) := by
  unfold V1; rw [Function.update_of_ne h2, Function.update_of_ne h1, Function.update_of_ne h0]; rfl
theorem V1_rest (d : Dev nD) : ∀ b ∈ S15 \ SR, V0 m d b = V1 m d b := fun b hb => by
  have h := (Finset.mem_sdiff.mp hb).2
  exact (V1_ne m d (fun e => h (by rw [e]; decide)) (fun e => h (by rw [e]; decide)) (fun e => h (by rw [e]; decide))).symm

/-- The arrays after the region, regrouped: the region's six and the rest at the launch contents. -/
theorem held_V1 (d : Dev nD) :
    (held (T d) S15 (V1 m d) : sProp 𝕄)
      = iprop(((a1Loc d ↦{fullShare} m (a1Loc d)) ∗ (a0Loc d ↦{fullShare} m (a0Loc d)) ∗ (a3Loc d ↦{fullShare} m (a3Loc d))
          ∗ (posLoc d ↦{fullShare} posM m d) ∗ (w8Loc d ↦{fullShare} w8M m d) ∗ (i8Loc d ↦{fullShare} i8M m d))
          ∗ held (T d) (S15 \ SR) (V0 m d)) := by
  rw [held_sub_split (T d) SR_sub, held_SR, V1_p0, V1_w8, V1_i8, V1_ne m d (b := a1') (by decide) (by decide) (by decide),
    V1_ne m d (b := a0') (by decide) (by decide) (by decide), V1_ne m d (b := a3') (by decide) (by decide) (by decide),
    ← held_congr (T d) (V1_rest m d)]

theorem held_V0 (d : Dev nD) :
    (held (T d) S15 (V0 m d) : sProp 𝕄)
      = iprop(((a1Loc d ↦{fullShare} m (a1Loc d)) ∗ (a0Loc d ↦{fullShare} m (a0Loc d)) ∗ (a3Loc d ↦{fullShare} m (a3Loc d))
          ∗ (posLoc d ↦{fullShare} m (posLoc d)) ∗ (w8Loc d ↦{fullShare} m (w8Loc d)) ∗ (i8Loc d ↦{fullShare} m (i8Loc d)))
          ∗ held (T d) (S15 \ SR) (V0 m d)) := by
  rw [held_sub_split (T d) SR_sub, held_SR]; rfl

macro "hlo_results" : tactic =>
  `(tactic| repeat (first
      | rw [reshape_result] | rw [unary_result] | rw [nary_result]
      | (rw [reshape_result_ne]; rotate_left; decide)
      | (rw [unary_result_ne]; rotate_left; decide)
      | (rw [nary_result_ne]; rotate_left; decide)))

theorem V6_v3 (d : Dev nD) : V6 m d v3' = tbM m d := by
  unfold V6; hlo_results
  rw [V1_ne m d (b := a2') (by decide) (by decide) (by decide)]; rfl
theorem V6_v4 (d : Dev nD) : V6 m d v4' = ixM m d := by
  unfold V6; hlo_results
  rw [V1_i8]; rfl
theorem V6_v5 (d : Dev nD) : V6 m d v5' = wvM m d := by
  unfold V6; hlo_results
  rw [V1_w8]; rfl
theorem V6_v6 (d : Dev nD) : V6 m d v6' = o0M m d := by
  unfold V6; hlo_results
  rw [V1_ne m d (b := v6') (by decide) (by decide) (by decide)]

theorem h8 : (op8 (F := F)).bufs ⊆ S15 := by
  intro b hb
  have hb' : b = v8' ∨ ∃ a, Proc.devRef .tc ((![main_arg0, main_v7, main_v0_0] : Fin 3 → Ref sig .tc) a) = b := by
    simpa [op8, StableHlo.nary] using hb
  rcases hb' with rfl | ⟨a, rfl⟩
  · decide
  · fin_cases a <;> decide

/-- An array the five re-indexings do not write keeps what it held after the region. -/
theorem V6_keep (d : Dev nD) {r : Ref sig .tc} (e1 : r ≠ main_v1) (e2 : r ≠ main_v2) (e3 : r ≠ main_v3) (e4 : r ≠ main_v4) (e5 : r ≠ main_v5) :
    V6 m d (Proc.devRef .tc r) = V1 m d (Proc.devRef .tc r) := by
  unfold V6
  rw [reshape_result_ne _ _ _ _ _ _ _ e5, reshape_result_ne _ _ _ _ _ _ _ e4, reshape_result_ne _ _ _ _ _ _ _ e3,
    unary_result_ne _ _ _ _ _ _ e2, reshape_result_ne _ _ _ _ _ _ _ e1]

/-- After the gather: its result at the gathered sum. -/
def V7 (d : Dev nD) : Valuation τ sig (Elt F) := Function.update (V6 m d) v6' (skipBuf (tbM m) (ixM m) (wvM m) d)
/-- At the end. -/
def V9 (d : Dev nD) : Valuation τ sig (Elt F) := (op8 (F := F)).result ((op7 (F := F)).result (V7 m d))

theorem V7_v6 (d : Dev nD) : V7 m d v6' = skipBuf (tbM m) (ixM m) (wvM m) d := by unfold V7; rw [Function.update_self]
theorem V7_ne (d : Dev nD) {b : DevRef τ sig} (h : b ≠ v6') : V7 m d b = V6 m d b := by unfold V7; rw [Function.update_of_ne h]
theorem V7_rest (d : Dev nD) : ∀ b ∈ S15 \ SG, V6 m d b = V7 m d b := fun b hb => by
  have h := (Finset.mem_sdiff.mp hb).2
  exact (V7_ne m d (fun e => h (by rw [e]; decide))).symm

theorem held_V6 (d : Dev nD) :
    (held (T d) S15 ((op5 (F := F)).result ((op4 (F := F)).result ((op3 (F := F)).result ((op2 (F := F)).result ((op1 (F := F)).result (V1 m d)))))) : sProp 𝕄)
      = iprop(((tblLoc d ↦{fullShare} tbM m d) ∗ (idxLoc d ↦{fullShare} ixM m d) ∗ (wLoc d ↦{fullShare} wvM m d) ∗ (outLoc d ↦{fullShare} o0M m d))
          ∗ held (T d) (S15 \ SG) (V6 m d)) := by
  show (held (T d) S15 (V6 m d) : sProp 𝕄) = _
  rw [held_sub_split (T d) SG_sub, held_SG, V6_v3, V6_v4, V6_v5, V6_v6]
theorem held_V7 (d : Dev nD) :
    (held (T d) S15 (V7 m d) : sProp 𝕄)
      = iprop(((tblLoc d ↦{fullShare} tbM m d) ∗ (idxLoc d ↦{fullShare} ixM m d) ∗ (wLoc d ↦{fullShare} wvM m d)
            ∗ (outLoc d ↦{fullShare} skipBuf (tbM m) (ixM m) (wvM m) d))
          ∗ held (T d) (S15 \ SG) (V6 m d)) := by
  rw [held_sub_split (T d) SG_sub, held_SG, V7_v6, V7_ne m d (b := v3') (by decide), V7_ne m d (b := v4') (by decide), V7_ne m d (b := v5') (by decide),
    V6_v3, V6_v4, V6_v5, ← held_congr (T d) (V7_rest m d)]

/-- An argument array is never written. -/
theorem V9_arg (d : Dev nD) {r : Ref sig .tc} (e1 : r ≠ main_v1) (e2 : r ≠ main_v2) (e3 : r ≠ main_v3) (e4 : r ≠ main_v4) (e5 : r ≠ main_v5)
    (e6 : r ≠ main_v6) (e7 : r ≠ main_v7) (e8 : r ≠ main_v8) (e00 : r ≠ main_v0_0) (e01 : r ≠ main_v0_1) (e02 : r ≠ main_v0_2) :
    V9 m d (Proc.devRef .tc r) = m (d, Proc.devRef .tc r) := by
  unfold V9
  rw [nary_result_ne _ _ _ _ _ _ e8, reshape_result_ne _ _ _ _ _ _ _ e7, V7_ne m d (fun e => e6 (Proc.devRef_injective _ e)), V6_keep m d e1 e2 e3 e4 e5,
    V1_ne m d (fun e => e00 (Proc.devRef_injective _ e)) (fun e => e01 (Proc.devRef_injective _ e)) (fun e => e02 (Proc.devRef_injective _ e))]
theorem V9_p0 (d : Dev nD) : V9 m d p0' = posM m d := by
  unfold V9
  rw [nary_result_ne _ _ _ _ _ _ (show main_v0_0 ≠ main_v8 by decide), reshape_result_ne _ _ _ _ _ _ _ (show main_v0_0 ≠ main_v7 by decide),
    V7_ne m d (show p0' ≠ v6' by decide),
    V6_keep m d (r := main_v0_0) (by decide) (by decide) (by decide) (by decide) (by decide), V1_p0]
theorem V9_v8 (d : Dev nD) : V9 m d v8' = resM m d := by
  unfold V9
  rw [nary_result]
  show concatenate S8x2048x259 2 [⟨S8x2048x128, (op7 (F := F)).result (V7 m d) a0'⟩, ⟨S8x2048x128, (op7 (F := F)).result (V7 m d) v7'⟩,
    ⟨S8x2048x3, (op7 (F := F)).result (V7 m d) p0'⟩] concatenates_S8x2048x128_S8x2048x128_S8x2048x3_S8x2048x259_d2 = _
  rw [reshape_result, reshape_result_ne _ _ _ _ _ _ _ (show main_arg0 ≠ main_v7 by decide), reshape_result_ne _ _ _ _ _ _ _ (show main_v0_0 ≠ main_v7 by decide),
    V7_v6, V7_ne m d (show a0' ≠ v6' by decide), V7_ne m d (show p0' ≠ v6' by decide),
    V6_keep m d (r := main_arg0) (by decide) (by decide) (by decide) (by decide) (by decide),
    V6_keep m d (r := main_v0_0) (by decide) (by decide) (by decide) (by decide) (by decide), V1_p0,
    V1_ne m d (b := a0') (by decide) (by decide) (by decide)]
  rfl

theorem held_V9 (d : Dev nD) :
    (held (T d) S15 ((op8 (F := F)).result ((op7 (F := F)).result (V7 m d))) : sProp 𝕄)
      = iprop(((a0Loc d ↦{fullShare} m (a0Loc d)) ∗ (a1Loc d ↦{fullShare} m (a1Loc d)) ∗ (a2Loc d ↦{fullShare} m (a2Loc d))
            ∗ (a3Loc d ↦{fullShare} m (a3Loc d)) ∗ (resLoc d ↦{fullShare} resM m d) ∗ (posLoc d ↦{fullShare} posM m d))
          ∗ held (T d) (S15 \ SF) (V9 m d)) := by
  show (held (T d) S15 (V9 m d) : sProp 𝕄) = _
  rw [held_sub_split (T d) SF_sub, held_SF, V9_v8, V9_p0,
    V9_arg m d (r := main_arg0) (by decide) (by decide) (by decide) (by decide) (by decide) (by decide) (by decide) (by decide) (by decide) (by decide) (by decide),
    V9_arg m d (r := main_arg1) (by decide) (by decide) (by decide) (by decide) (by decide) (by decide) (by decide) (by decide) (by decide) (by decide) (by decide),
    V9_arg m d (r := main_arg2) (by decide) (by decide) (by decide) (by decide) (by decide) (by decide) (by decide) (by decide) (by decide) (by decide) (by decide),
    V9_arg m d (r := main_arg3) (by decide) (by decide) (by decide) (by decide) (by decide) (by decide) (by decide) (by decide) (by decide) (by decide) (by decide)]

/-! ## @main on the TensorCore -/

/-- The launch contents as the TensorCore names them. -/
abbrev Vin : (c : Dev nD) → (b : Ref sig .tc) → Buf (Elt F) ((SparseCore.T c : Thread nD τ).loc b) := fun c b => m ((SparseCore.T c).loc b)

section Main
-- The point-and-weights region on a device's TensorCore, from any contents of @main's arrays: holding its three operands and
-- its three results' buffers it leaves the positions, the corner weights and the corner row numbers as functions of the
-- operands, the thread owing what it owed, its new recorded waits all its own.
variable (GP : Dev nD → sProp (MT nD τ sig (HIx 1) (Elt F) ℕ UU ℕ))
variable (wp_region : ∀ (Vin : (c : Dev nD) → (b : Ref sig .tc) → Buf (Elt F) ((SparseCore.T c).loc b))
    (O : CellTallies nD τ sig (HIx 1)) (W : Waits sig (HIx 1)) (d : Dev nD) (_ : ∀ g, O g none = 0) (Φ : PUnit → sProp (MT nD τ sig (HIx 1) (Elt F) ℕ UU ℕ)),
    iprop(levAts (K (F := F)).L (K (F := F)).lev ∗ GP d ∗ boundary (SparseCore.T d) ∗ owes (SparseCore.T d) O W
        ∗ ((SparseCore.T d).loc main_arg1 ↦{fullShare} Vin d main_arg1) ∗ ((SparseCore.T d).loc main_arg0 ↦{fullShare} Vin d main_arg0)
        ∗ ((SparseCore.T d).loc main_arg3 ↦{fullShare} Vin d main_arg3)
        ∗ ((SparseCore.T d).loc main_v0_0 ↦{fullShare} Vin d main_v0_0) ∗ ((SparseCore.T d).loc main_v0_1 ↦{fullShare} Vin d main_v0_1)
        ∗ ((SparseCore.T d).loc main_v0_2 ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ ((SparseCore.T d).loc main_arg1 ↦{fullShare} Vin d main_arg1) ∗ ((SparseCore.T d).loc main_arg0 ↦{fullShare} Vin d main_arg0)
            ∗ ((SparseCore.T d).loc main_arg3 ↦{fullShare} Vin d main_arg3)
            ∗ ((SparseCore.T d).loc main_v0_0 ↦{fullShare} posV (Vin d main_arg1) (Vin d main_arg0) (Vin d main_arg3))
            ∗ ((SparseCore.T d).loc main_v0_1 ↦{fullShare} w8V (Vin d main_arg1) (Vin d main_arg0) (Vin d main_arg3))
            ∗ ((SparseCore.T d).loc main_v0_2 ↦{fullShare} idx8V (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ)

/-- What @main leaves the claim: the four arguments at their launch contents, the two results at their values. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (resLoc d ↦{fullShare} resM m d) ∗ (posLoc d ↦{fullShare} posM m d))

include wp_region in
theorem hmain (κ : GSem nD τ sig → ℕ) (d : Dev nD) :
    iprop((K (F := F)).ctx EH (PM m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = fun b => V0 m d (Proc.devRef .tc b) from rfl, unscoped_held, held_V0]
  simp only [main, wp_bind, wp_pure]
  iintro ⟨#Hctx, Hst, ⟨Hb, ⟨⟨H1, H0, H3, Hp, Hw, Hi⟩, Hrest⟩, -, -⟩, HG⟩
  ihave #Hlev := (SparseCore.Cfg.ctx_levAts κ) $$ Hctx
  ihave Hst' := (tcSt_open d 0) $$ Hst
  icases Hst' with ⟨%W, %hW, HO, Hclose⟩
  -- the region
  iapply (wp_region (Vin m) ((K (F := F)).Otc d 0) W d (Otc_none d 0) _) $$ [HG Hb HO H1 H0 H3 Hp Hw Hi Hrest Hclose]
  isplitr; · iexact Hlev
  isplitl [HG]; · iexact HG
  isplitl [Hb]; · iexact Hb
  isplitl [HO]; · iexact HO
  isplitl [H1]; · iexact H1
  isplitl [H0]; · iexact H0
  isplitl [H3]; · iexact H3
  isplitl [Hp]; · iexact Hp
  isplitl [Hw]; · iexact Hw
  isplitl [Hi]; · iexact Hi
  iintro ⟨Hb, ⟨%W', %hW', HO⟩, H1, H0, H3, Hp, Hw, Hi⟩
  ihave Hst := Hclose $$ %W' %(wbelow_of d hW hW') HO
  ihave Hheld := (Entails.of_eq (held_V1 m d).symm) $$ [H1 H0 H3 Hp Hw Hi Hrest]
  · isplitr [Hrest]
    · isplitl [H1]; · iexact H1
      isplitl [H0]; · iexact H0
      isplitl [H3]; · iexact H3
      isplitl [Hp]; · iexact Hp
      isplitl [Hw]; · iexact Hw
      iexact Hi
    · iexact Hrest
  -- the five re-indexings
  iapply (wp_hlo_within 𝒱 (SparseCore.T d) none Set.univ (op := op1) (S := S15) h1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S15) h2) $$ [Hb Hheld]
  · isplitl [Hb]; · iexact Hb
    iexact Hheld
  iintro ⟨Hb, Hheld⟩
  rw [wp_ret]; imodintro
  iapply (wp_hlo_within 𝒱 (SparseCore.T d) none Set.univ (op := op3) (S := S15) h3) $$ [Hb Hheld]
  · isplitl [Hb]; · iexact Hb
    iexact Hheld
  iintro ⟨Hb, Hheld⟩
  rw [wp_ret]; imodintro
  iapply (wp_hlo_within 𝒱 (SparseCore.T d) none Set.univ (op := op4) (S := S15) h4) $$ [Hb Hheld]
  · isplitl [Hb]; · iexact Hb
    iexact Hheld
  iintro ⟨Hb, Hheld⟩
  rw [wp_ret]; imodintro
  iapply (wp_hlo_within 𝒱 (SparseCore.T d) none Set.univ (op := op5) (S := S15) h5) $$ [Hb Hheld]
  · isplitl [Hb]; · iexact Hb
    iexact Hheld
  iintro ⟨Hb, Hheld⟩
  rw [wp_ret]; imodintro
  -- the gather on the tiles
  ihave Hh := (Entails.of_eq (held_V6 m d)) $$ Hheld
  icases Hh with ⟨⟨Ht, Hix, Hwv, Ho⟩, Hrest⟩
  iapply ((K (F := F)).wp_run (D (F := F)) 𝒱 (EH := EH) (P := PM m) κ d 0) $$ [Hst Ht Hix Hwv Ho Hb Hrest]
  isplitr; · iexact Hctx
  isplitl [Hst]; · iexact Hst
  isplitl [Ht Hix Hwv Ho]
  · iapply (Entails.of_eq (st_split (tbM m) (ixM m) (wvM m) (o0M m) d))
    isplitl [Ht]; · iexact Ht
    isplitl [Hix]; · iexact Hix
    isplitl [Hwv]; · iexact Hwv
    iexact Ho
  iintro ⟨Hst, Hdn⟩
  ihave Hdn' := (Entails.of_eq (dn_join (tbM m) (ixM m) (wvM m) (o0M m) d)) $$ Hdn
  icases Hdn' with ⟨Ht, Hix, Hwv, Ho⟩
  ihave Hheld := (Entails.of_eq (held_V7 m d).symm) $$ [Ht Hix Hwv Ho Hrest]
  · isplitr [Hrest]
    · isplitl [Ht]; · iexact Ht
      isplitl [Hix]; · iexact Hix
      isplitl [Hwv]; · iexact Hwv
      iexact Ho
    · iexact Hrest
  -- the gathered rows back to 8 × 2048 × 128, and the concatenation
  iapply (wp_hlo_within 𝒱 (SparseCore.T d) none Set.univ (op := op7) (S := S15) h7 (V := V7 m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := S15) h8) $$ [Hb Hheld]
  · isplitl [Hb]; · iexact Hb
    iexact Hheld
  iintro ⟨Hb, Hheld⟩
  ihave Hh := (Entails.of_eq (held_V9 m d)) $$ Hheld
  icases Hh with ⟨Hfin, -⟩
  rw [wp_ret]; imodintro; imodintro
  isplitl [Hst]; · iexact Hst
  iexact Hfin

end Main

/-! ## The final memory reads the claim -/

def fq (d : Dev nD) (s' : Phys nD τ sig (Elt F)) : Prop :=
  s'.mem.mem (resLoc d) = resM m d ∧ s'.mem.mem (posLoc d) = posM m d
  ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, Hr, Hp⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := resLoc d) (I := Finset.univ) (q := fullShare) (f := resM m d))) $$ [HSI Hr]
  · isplitl [HSI] <;> iassumption
  icases H with ⟨%hr, HSI, -⟩
  ihave H := (SI_pointsTo_agree (st := s') (ℓ := posLoc d) (I := Finset.univ) (q := fullShare) (f := posM m d)) $$ [HSI Hp]
  · isplitl [HSI] <;> iassumption
  icases H with %hp
  ipureintro
  exact ⟨funext fun i => hr i (Finset.mem_univ i), funext fun i => hp i (Finset.mem_univ i), funext fun i => h0 i (Finset.mem_univ i),
    funext fun i => h1 i (Finset.mem_univ i), funext fun i => h2 i (Finset.mem_univ i), funext fun i => h3 i (Finset.mem_univ i)⟩

/-! ## The program's run -/

section Run
variable (uP₀ : UP) (GP : Dev nD → sProp (MT nD τ sig (HIx 1) (Elt F) ℕ UU ℕ))
variable (fund_region : (BI.own ((EP : Emb UP (MT nD τ sig (HIx 1) (Elt F) ℕ UU ℕ)) uP₀) : sProp (MT nD τ sig (HIx 1) (Elt F) ℕ UU ℕ)) ⊢ |={Set.univ}=> bigSep Finset.univ fun d : Dev nD => GP d)
variable (wp_region : ∀ (Vin : (c : Dev nD) → (b : Ref sig .tc) → Buf (Elt F) ((SparseCore.T c).loc b))
    (O : CellTallies nD τ sig (HIx 1)) (W : Waits sig (HIx 1)) (d : Dev nD) (_ : ∀ g, O g none = 0) (Φ : PUnit → sProp (MT nD τ sig (HIx 1) (Elt F) ℕ UU ℕ)),
    iprop(levAts (K (F := F)).L (K (F := F)).lev ∗ GP d ∗ boundary (SparseCore.T d) ∗ owes (SparseCore.T d) O W
        ∗ ((SparseCore.T d).loc main_arg1 ↦{fullShare} Vin d main_arg1) ∗ ((SparseCore.T d).loc main_arg0 ↦{fullShare} Vin d main_arg0)
        ∗ ((SparseCore.T d).loc main_arg3 ↦{fullShare} Vin d main_arg3)
        ∗ ((SparseCore.T d).loc main_v0_0 ↦{fullShare} Vin d main_v0_0) ∗ ((SparseCore.T d).loc main_v0_1 ↦{fullShare} Vin d main_v0_1)
        ∗ ((SparseCore.T d).loc main_v0_2 ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ ((SparseCore.T d).loc main_arg1 ↦{fullShare} Vin d main_arg1) ∗ ((SparseCore.T d).loc main_arg0 ↦{fullShare} Vin d main_arg0)
            ∗ ((SparseCore.T d).loc main_arg3 ↦{fullShare} Vin d main_arg3)
            ∗ ((SparseCore.T d).loc main_v0_0 ↦{fullShare} posV (Vin d main_arg1) (Vin d main_arg0) (Vin d main_arg3))
            ∗ ((SparseCore.T d).loc main_v0_1 ↦{fullShare} w8V (Vin d main_arg1) (Vin d main_arg0) (Vin d main_arg3))
            ∗ ((SparseCore.T d).loc main_v0_2 ↦{fullShare} idx8V (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ)

def QC : PUnit.{1} × MemSt nD τ sig (Elt F) → Prop := fun r => ∀ c : Dev nD,
  r.2.mem (resLoc c) = out0K (m (a0Loc c)) (m (a1Loc c)) (m (a2Loc c)) (m (a3Loc c))
  ∧ r.2.mem (posLoc c) = posV (m (a1Loc c)) (m (a0Loc c)) (m (a3Loc c))
  ∧ r.2.mem (a0Loc c) = m (a0Loc c) ∧ r.2.mem (a1Loc c) = m (a1Loc c) ∧ r.2.mem (a2Loc c) = m (a2Loc c) ∧ r.2.mem (a3Loc c) = m (a3Loc c)

include fund_region wp_region in
theorem run_main [∀ e, Nonempty (Elt F e)] (htile : (K (F := F)).TileObl (D (F := F)) 𝒱 (PM m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => htile)
    (fun q _ => match q with | 0 => SparseCore.Cfg.VecSplit.of_plain (vecSplit (tbM m) (ixM m) (wvM m) (o0M m)))
    m ρ main GP (FIN m) (u₀ (F := F) uP₀) (sep_elim_left.trans (hu₀ m uP₀ GP fund_region)) (hmain m ρ GP wp_region) (fq m) (hfin m) (QC m) (fun _ h => h)

end Run

end Launch

end Cert.Proof.KB

end
-- ==== Proof.KB.RegionBody.lean ====
/-
  The TensorCore kernel's body, run once at a symbolic grid point: on whole staging memrefs, the three operands' holding
  blocks x0 (adjacency rows), x1 (a batch of features), x2 (the projection) and the three results' holding anything, the body
  loads the three operand blocks whole, computes, and stores the three result blocks whole; it ends with the operands'
  memrefs as they were and the results' at the block functions posBlk, w8Blk, idx8Blk of x0, x1, x2 (and of the first grid
  coordinate as a word, for the row numbers). A store through the whole-shape rectangle leaves its payload whatever the
  buffer held, and a load through it reads the contents, so what each result's memref reads afterwards is the payload of
  its one store over the loaded blocks.
-/
import proofs.«209143_g59700045415095_cont_9to1_m_37_38_alg».proof.Proof.KB.Common
import proofs.«209143_g59700045415095_cont_9to1_m_37_38_alg».proof.Proof.KB.RegionVals
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

namespace Region

/-! ## The body's triple -/

theorem hz3 : (![0, 0, 0] : Fin 3 → Nat) = fun _ => 0 := funext fun a => by fin_cases a <;> rfl
theorem hz2 : (![0, 0] : Fin 2 → Nat) = fun _ => 0 := funext fun a => by fin_cases a <;> rfl

/-- The rectangles through which the body loads its three operand blocks: each whole. -/
abbrev rAdj : Rect S1x512x2048 := Rect.unit (s := S1x512x2048) ![0, 0, 0] S1x512x2048.size inb_S1x512x2048_S1x512x2048_0_0_0
abbrev rX : Rect S1x2048x128 := Rect.unit (s := S1x2048x128) ![0, 0, 0] S1x2048x128.size inb_S1x2048x128_S1x2048x128_0_0_0
abbrev rW : Rect S128x3 := Rect.unit (s := S128x3) ![0, 0] S128x3.size inb_S128x3_S128x3_0_0

set_option maxHeartbeats 4000000 in
/-- The kernel body on whole staging memrefs, the operands' at read contents x0, x1, x2 and the results' at anything, runs to
    the continuation holding the operands' as they were and each result's at its block function of x0, x1, x2: three whole
    loads, the arithmetic, three whole stores. -/
theorem sound_kernel (c : Dev nD) (E : Set ℕ) (i : grid0.Coords)
    (arg2 : Memref sig .tc .vmem S1x512x2048 .f32) (harg2 : arg2.IsWhole) (arg3 : Memref sig .tc .vmem S1x2048x128 .f32) (harg3 : arg3.IsWhole)
    (arg4 : Memref sig .tc .vmem S128x3 .f32) (harg4 : arg4.IsWhole) (arg5 : Memref sig .tc .vmem S1x512x3 .f32) (harg5 : arg5.IsWhole)
    (arg6 : Memref sig .tc .vmem S1x512x128 .f32) (harg6 : arg6.IsWhole) (arg7 : Memref sig .tc .vmem S1x512x8 .i32) (harg7 : arg7.IsWhole)
    (x0 : Vec F S1x512x2048 .f32) (x1 : Vec F S1x2048x128 .f32) (x2 : Vec F S128x3 .f32) (Kk : PUnit → sProp 𝕄) :
    iprop(owns (SparseCore.T c) arg2 fullShare x0 ∗ owns (SparseCore.T c) arg3 fullShare x1 ∗ owns (SparseCore.T c) arg4 fullShare x2
        ∗ (∃ d, owns (SparseCore.T c) arg5 fullShare d) ∗ (∃ d, owns (SparseCore.T c) arg6 fullShare d) ∗ (∃ d, owns (SparseCore.T c) arg7 fullShare d)
        ∗ (iprop(owns (SparseCore.T c) arg2 fullShare x0 ∗ owns (SparseCore.T c) arg3 fullShare x1 ∗ owns (SparseCore.T c) arg4 fullShare x2
            ∗ owns (SparseCore.T c) arg5 fullShare (posBlk x0 x1 x2) ∗ owns (SparseCore.T c) arg6 fullShare (w8Blk x0 x1 x2)
            ∗ owns (SparseCore.T c) arg7 fullShare (idx8Blk (BitVec.ofNat 32 (i 0).val) x0 x1 x2)) -∗ Kk ⟨⟩))
      ⊢ wp frame (wpE (defs₀ (F := F)) Variants.none (SparseCore.T c) none) E
          (cc0__pos_body i arg2 harg2 arg3 harg3 arg4 harg4 arg5 harg5 arg6 harg6 arg7 harg7) Kk := by
  simp only [cc0__pos_body_eq_skeleton]; unfold cc0__pos_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero hz3 inb_S1x512x3_S1x512x3_0_0_0 y⟩), View.canon_unit_zero hz3]
    refine Eq.trans (b := posBlk (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]
  isplitl [H4]
  · iexists _; isplitr
    swap; · iexact H4
    ipureintro
    rw [View.read_writes_eq_canon _ _ _ (fun y => ⟨_, List.mem_singleton_self _, View.mem_set_unit_zero hz3 inb_S1x512x128_S1x512x128_0_0_0 y⟩), View.canon_unit_zero hz3]
    refine Eq.trans (b := w8Blk (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]
  · iexists _; isplitr
    swap; · iexact H5
    ipureintro
    rw [View.read_writes_eq_canon _ _ _ (fun y => ⟨_, List.mem_singleton_self _, View.mem_set_unit_zero hz3 inb_S1x512x8_S1x512x8_0_0_0 y⟩), View.canon_unit_zero hz3]
    refine Eq.trans (b := idx8Blk (BitVec.ofNat 32 (i 0).val) (View.ld (View.read (Elt F) arg2.view f0) rAdj) (View.ld (View.read (Elt F) arg3.view f1) rX) (View.ld (View.read (Elt F) arg4.view f2) rW)) rfl ?_
    rw [View.ld_unit_zero hz3, View.ld_unit_zero hz3, View.ld_unit_zero hz2]

end Region

end Cert.Proof.KB

end
-- ==== Proof.KB.Region.lean ====
/-
  The TensorCore call inside the SparseCore program: @main's first line, as a rule ready for the launch.

  The call is a pipeline over the grid 8 × 4 with six windows: three operands fetched block by block (the adjacency's block
  moves with both grid coordinates, the features' with the first only, the projection's never) and three results written
  back block by block at every point. The proof data names, at every point, what each staging buffer holds after the body:
  an operand's its block, a result's the body's block function of the three operand blocks. From the body's triple at a
  symbolic point this gives the body obligation at every point, and the region rule then runs the whole call from the six
  arrays as found to the operands unchanged and each result at what its blocks, written back at all 32 points, add up to.
  Each point writes block t of ONE whole-array function of the operands (posV, w8V, idx8V), and the 32 blocks cover each
  result, so each result ends at that function.

  The TensorCore enters the region owing its start signals to the SparseCores, at the calls' indices; the staging cells are
  waited on at the kernels' own index, whose level sits below all of those, so every wait of the pipeline is admissible.
  The rule is stated in the body table extended by the SparseCore calls; the staging cells' ghost state is funded from the
  launch element's first component.
-/
import proofs.«209143_g59700045415095_cont_9to1_m_37_38_alg».proof.Proof.KB.Common
import proofs.«209143_g59700045415095_cont_9to1_m_37_38_alg».proof.Proof.KB.RegionVals
import proofs.«209143_g59700045415095_cont_9to1_m_37_38_alg».proof.Proof.KB.RegionBody
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

namespace Region

/-- No pipeline of the program takes a prefetched table. -/
abbrev adm : (p : Fin 1) → (pcfgs (F := F) p).Adm := fun p => (cfgs p).toPCfg_adm

/-- The launch element's part for the pipeline's staging cells: the rounds library's element at those cells and the duty
    tokens of the transfers the loop issues. -/
def uP₀ : UP := initOf (Pipeline.cells cfgs cellOf_inj) (Pipeline.launchToks cfgs cellOf_inj)

/-- What the launch deals device d for the region: its staging cells' ghost state and the duty tokens of its transfers. -/
def GP (d : Dev nD) : sProp 𝕄 :=
  iprop(Pipeline.cellsGhost (Pipeline.pin (pcfgs (F := F)) adm) EP 0 d ∗ Pipeline.toksInit (Pipeline.pin (pcfgs (F := F)) adm) EP 0 d)

/-! ## The proof data of the pipeline -/

section Region
variable (Vin : (c : Dev nD) → (b : Ref sig .tc) → Buf (Elt F) ((SparseCore.T c : Thread nD τ).loc b))
  (O : CellTallies nD τ sig (HIx 1)) (W : Waits sig (HIx 1))

/-- Window w's block at point t, read off its array as the region finds it. -/
def inBlk (c : Dev nD) (w : Fin cfg0.W) (t : Fin cfg0.N) : ((cfg0.win w).xblock (cfg0.grid.coords t)).Idx → Elt F (cfg0.win w).elt :=
  ((cfg0.win w).blk t).view.read (Elt F) (Vin c (Pipeline.arrRef spec0 w))

/-- The proof data on core c: the six arrays as the region finds them; after the body at point t each operand's buffer at its
    block and each result's at its block function of the operand blocks; no invariant of its own; the core owes throughout
    what it owed on entry, its recorded pairs those it came with and the pipeline's own. -/
def dats (_ : Fin 1) (c : Dev nD) : Dat τ (Elt F) (HIx 1) ℕ UU ℕ cfg0 c where
  A w := Vin c (Pipeline.arrRef spec0 w)
  after w t := match w with
    | ⟨0, _⟩ => inBlk Vin c 0 t
    | ⟨1, _⟩ => inBlk Vin c 1 t
    | ⟨2, _⟩ => inBlk Vin c 2 t
    | ⟨3, _⟩ => posBlk (inBlk Vin c 0 t) (inBlk Vin c 1 t) (inBlk Vin c 2 t)
    | ⟨4, _⟩ => w8Blk (inBlk Vin c 0 t) (inBlk Vin c 1 t) (inBlk Vin c 2 t)
    | ⟨5, _⟩ => idx8Blk (BitVec.ofNat 32 (grid0.coords t 0).val) (inBlk Vin c 0 t) (inBlk Vin c 1 t) (inBlk Vin c 2 t)
  Φ _ := iprop(emp)
  q _ := fullShare
  owed _ := O
  recorded _ := {p | p ∈ W ∨ p.2 = none}

theorem A_eq (c : Dev nD) (w : Fin cfg0.W) : (dats Vin O W 0 c).A w = Vin c (Pipeline.arrRef spec0 w) := by
  dsimp only [dats]

theorem after0_0 (c : Dev nD) (t : Fin cfg0.N) : (dats Vin O W 0 c).after 0 t = inBlk Vin c 0 t := by dsimp only [dats]
theorem after0_1 (c : Dev nD) (t : Fin cfg0.N) : (dats Vin O W 0 c).after 1 t = inBlk Vin c 1 t := by dsimp only [dats]
theorem after0_2 (c : Dev nD) (t : Fin cfg0.N) : (dats Vin O W 0 c).after 2 t = inBlk Vin c 2 t := by dsimp only [dats]
theorem after0_3 (c : Dev nD) (t : Fin cfg0.N) :
    (dats Vin O W 0 c).after 3 t = posBlk (inBlk Vin c 0 t) (inBlk Vin c 1 t) (inBlk Vin c 2 t) := by dsimp only [dats]
theorem after0_4 (c : Dev nD) (t : Fin cfg0.N) :
    (dats Vin O W 0 c).after 4 t = w8Blk (inBlk Vin c 0 t) (inBlk Vin c 1 t) (inBlk Vin c 2 t) := by dsimp only [dats]
theorem after0_5 (c : Dev nD) (t : Fin cfg0.N) :
    (dats Vin O W 0 c).after 5 t = idx8Blk (BitVec.ofNat 32 (grid0.coords t 0).val) (inBlk Vin c 0 t) (inBlk Vin c 1 t) (inBlk Vin c 2 t) := by
  dsimp only [dats]

/-- Each operand's current staging buffer holds its block at every point, fetched there or not: unfetched, the block index
    has not moved. -/
theorem before0_0 (c : Dev nD) (t : Fin cfg0.N) (d) : (dats Vin O W 0 c).before 0 t d = inBlk Vin c 0 t :=
  ((dats Vin O W 0 c).before_in_eq_fetched 0 rfl (fun _ => rfl) (fun _ _ _ => rfl)
    (fun t => by rw [after0_0]; unfold Dat.blockOf inBlk; rw [A_eq]; try rfl) t d).trans
    (by unfold Dat.fetched Dat.blockOf inBlk; rw [A_eq]; try rfl)
theorem before0_1 (c : Dev nD) (t : Fin cfg0.N) (d) : (dats Vin O W 0 c).before 1 t d = inBlk Vin c 1 t :=
  ((dats Vin O W 0 c).before_in_eq_fetched 1 rfl (fun _ => rfl) (fun _ _ _ => rfl)
    (fun t => by rw [after0_1]; unfold Dat.blockOf inBlk; rw [A_eq]; try rfl) t d).trans
    (by unfold Dat.fetched Dat.blockOf inBlk; rw [A_eq]; try rfl)
theorem before0_2 (c : Dev nD) (t : Fin cfg0.N) (d) : (dats Vin O W 0 c).before 2 t d = inBlk Vin c 2 t :=
  ((dats Vin O W 0 c).before_in_eq_fetched 2 rfl (fun _ => rfl) (fun _ _ _ => rfl)
    (fun t => by rw [after0_2]; unfold Dat.blockOf inBlk; rw [A_eq]; try rfl) t d).trans
    (by unfold Dat.fetched Dat.blockOf inBlk; rw [A_eq]; try rfl)

/-! ## The body obligation, at a generic point -/

/-- What the body is called with at point t, -/
def bodyPre (c : Dev nD) (t : Fin cfg0.N) : sProp 𝕄 :=
  iprop((dats Vin O W 0 c).Φ t.castSucc ∗ (dats Vin O W 0 c).owesAt none t.castSucc
    ∗ (∃ d, owns (SparseCore.T c) (st0_0 t) fullShare ((dats Vin O W 0 c).before 0 t d))
    ∗ (∃ d, owns (SparseCore.T c) (st0_1 t) fullShare ((dats Vin O W 0 c).before 1 t d))
    ∗ (∃ d, owns (SparseCore.T c) (st0_2 t) fullShare ((dats Vin O W 0 c).before 2 t d))
    ∗ (∃ d, owns (SparseCore.T c) (st0_3 t) fullShare ((dats Vin O W 0 c).before 3 t d))
    ∗ (∃ d, owns (SparseCore.T c) (st0_4 t) fullShare ((dats Vin O W 0 c).before 4 t d))
    ∗ (∃ d, owns (SparseCore.T c) (st0_5 t) fullShare ((dats Vin O W 0 c).before 5 t d)))

/-- and what it returns. -/
def bodyPost (c : Dev nD) (t : Fin cfg0.N) : sProp 𝕄 :=
  iprop((dats Vin O W 0 c).Φ t.succ ∗ (dats Vin O W 0 c).owesAt none t.succ
    ∗ owns (SparseCore.T c) (st0_0 t) fullShare ((dats Vin O W 0 c).after 0 t)
    ∗ owns (SparseCore.T c) (st0_1 t) fullShare ((dats Vin O W 0 c).after 1 t)
    ∗ owns (SparseCore.T c) (st0_2 t) fullShare ((dats Vin O W 0 c).after 2 t)
    ∗ owns (SparseCore.T c) (st0_3 t) fullShare ((dats Vin O W 0 c).after 3 t)
    ∗ owns (SparseCore.T c) (st0_4 t) fullShare ((dats Vin O W 0 c).after 4 t)
    ∗ owns (SparseCore.T c) (st0_5 t) fullShare ((dats Vin O W 0 c).after 5 t))

/-- The body at any point: the operands' memrefs hold their blocks, so the body's triple applies; what the core owes passes
    through unread. -/
theorem sound_body (c : Dev nD) (t : Fin cfg0.N) :
    bodyPre Vin O W c t ⊢ wp frame (wpE (defs₀ (F := F)) Variants.none (SparseCore.T c) none) Set.univ (bodyAt0 t) (fun _ => bodyPost Vin O W c t) := by
  unfold bodyPre bodyPost bodyAt0
  simp only [before0_0, before0_1, before0_2]
  rw [show (dats Vin O W 0 c).Φ t.succ = (dats Vin O W 0 c).Φ t.castSucc from rfl,
    show (dats Vin O W 0 c).owesAt none t.succ = (dats Vin O W 0 c).owesAt none t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (inBlk Vin c 0 t) (inBlk Vin c 1 t) (inBlk Vin c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) Vin O W 0 c) (defs₀ (F := F)) Variants.none (none : HIx 1) Set.univ := fun t => by
  rw [bigSep_W0, bigSep_W0]
  exact sound_body Vin O W c t

/-! ## What the arrays hold after the run -/

/-- The printed index maps over the grid: the adjacency's block and the three results' blocks move with both grid coordinates,
    the features' with the first, the projection's not at all. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val ∧ win0_3.index t (2 : Fin 3) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every pair of coordinates is some point's. -/
theorem pt_onto : ∀ (q0 : Fin 8) (q1 : Fin 4), ∃ t : Fin cfg0.N, (grid0.coords t 0).val = q0.val ∧ (grid0.coords t 1).val = q1.val :=
  (by decide +kernel : ∀ (q0 : Fin 8) (q1 : Fin 4), ∃ t : Fin grid0.N, (grid0.coords t 0).val = q0.val ∧ (grid0.coords t 1).val = q1.val)

/-- The adjacency's block at point t is rows 512·t₁ … of batch t₀. -/
theorem inBlk0_eq (c : Dev nD) (t : Fin cfg0.N) :
    inBlk Vin c 0 t = adjBlk (F := F) (Vin c main_arg1) (grid0.coords t 0) (grid0.coords t 1) := by
  obtain ⟨e0, e1, e2, -⟩ := idx_facts t
  funext y
  have hy0 : (y 0).val < 1 := (y 0).isLt
  have hy1 : (y 1).val < 512 := (y 1).isLt
  show Vin c main_arg1 (((cfg0.win 0).blk t).view.emb y) = Vin c main_arg1 _
  congr 1
  funext a; apply Fin.ext
  match a with
  | ⟨0, _⟩ => show win0_0.index t (0 : Fin 3) * 1 + 1 * (y 0).val = (grid0.coords t 0).val; omega
  | ⟨1, _⟩ => show win0_0.index t (1 : Fin 3) * 512 + 1 * (y 1).val = (grid0.coords t 1).val * 512 + (y 1).val; omega
  | ⟨2, _⟩ => show win0_0.index t (2 : Fin 3) * 2048 + 1 * (y 2).val = (y 2).val; omega

/-- The features' block at point t is batch t₀. -/
theorem inBlk1_eq (c : Dev nD) (t : Fin cfg0.N) : inBlk Vin c 1 t = xBlk (F := F) (Vin c main_arg0) (grid0.coords t 0) := by
  obtain ⟨-, -, -, e0, e1, e2, -⟩ := idx_facts t
  funext y
  have hy0 : (y 0).val < 1 := (y 0).isLt
  show Vin c main_arg0 (((cfg0.win 1).blk t).view.emb y) = Vin c main_arg0 _
  congr 1
  funext a; apply Fin.ext
  match a with
  | ⟨0, _⟩ => show win0_1.index t (0 : Fin 3) * 1 + 1 * (y 0).val = (grid0.coords t 0).val; omega
  | ⟨1, _⟩ => show win0_1.index t (1 : Fin 3) * 2048 + 1 * (y 1).val = (y 1).val; omega
  | ⟨2, _⟩ => show win0_1.index t (2 : Fin 3) * 128 + 1 * (y 2).val = (y 2).val; omega

/-- The projection's block is the projection. -/
theorem inBlk2_eq (c : Dev nD) (t : Fin cfg0.N) : inBlk Vin c 2 t = Vin c main_arg3 := by
  obtain ⟨-, -, -, -, -, -, e0, e1, -⟩ := idx_facts t
  funext y
  show Vin c main_arg3 (((cfg0.win 2).blk t).view.emb y) = Vin c main_arg3 y
  congr 1
  funext a; apply Fin.ext
  match a with
  | ⟨0, _⟩ => show win0_2.index t (0 : Fin 2) * 128 + 1 * (y 0).val = (y 0).val; omega
  | ⟨1, _⟩ => show win0_2.index t (1 : Fin 2) * 3 + 1 * (y 1).val = (y 1).val; omega

/-- What point t writes back to the positions is block t of the positions' whole-array function. -/
theorem flushed3_eq (c : Dev nD) (t : Fin cfg0.N) :
    (dats Vin O W 0 c).flushed 3 t
      = ((cfg0.win 3).blk t).view.read (Elt F) (posV (F := F) (Vin c main_arg1) (Vin c main_arg0) (Vin c main_arg3)) := by
  show (cfg0.win 3).cut (grid0.coords t) ((dats Vin O W 0 c).after 3 t) = _
  rw [after0_3, inBlk0_eq, inBlk1_eq, inBlk2_eq]
  obtain ⟨-, -, -, -, -, -, -, -, e0, e1, e2, -⟩ := idx_facts t
  funext j
  have hj0 : (j 0).val < 1 := (j 0).isLt
  have hj1 : (j 1).val < 512 := (j 1).isLt
  have hc1 : (grid0.coords t 1).val < 4 := (grid0.coords t 1).isLt
  show posBlk _ _ _ ((cfg0.win 3).xinj (grid0.coords t) j) = posV _ _ _ (((cfg0.win 3).blk t).view.emb j)
  unfold posV
  have hb : (((cfg0.win 3).blk t).view.emb j) 0 = grid0.coords t 0 := Fin.ext (by
    show win0_3.index t (0 : Fin 3) * 1 + 1 * (j 0).val = (grid0.coords t 0).val; omega)
  have hr : ((((cfg0.win 3).blk t).view.emb j) 1).val = (grid0.coords t 1).val * 512 + (j 1).val := by
    show win0_3.index t (1 : Fin 3) * 512 + 1 * (j 1).val = _; omega
  have hnb : nbOf ((((cfg0.win 3).blk t).view.emb j) 1) = grid0.coords t 1 := Fin.ext (by
    show ((((cfg0.win 3).blk t).view.emb j) 1).val / 512 = _; rw [hr]; omega)
  have hri : rowIn ((((cfg0.win 3).blk t).view.emb j) 1) = j 1 := Fin.ext (by
    show ((((cfg0.win 3).blk t).view.emb j) 1).val % 512 = _; rw [hr]; omega)
  have hl : (((cfg0.win 3).blk t).view.emb j) 2 = j 2 := Fin.ext (by
    show win0_3.index t (2 : Fin 3) * 3 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the positions is in point t's block iff each coordinate is in the block's range on its axis. -/
theorem mem_blk3 (t : Fin cfg0.N) (i : S8x2048x3.Idx) :
    i ∈ ((cfg0.win 3).blk t).view.set ↔ ∀ a : Fin 3, win0_3.index t a * S1x512x3.size a ≤ (i a).val ∧ (i a).val < win0_3.index t a * S1x512x3.size a + S1x512x3.size a := by
  show i ∈ ((View.whole main_v0_0).slice (win0_3.rect t)).set ↔ _
  rw [View.set_slice_whole, Rect.mem_set_unit]
  exact Iff.rfl

/-- Every index of the positions is in some point's block. -/
theorem cover3 (i : S8x2048x3.Idx) : ∃ t : Fin cfg0.N, (cfg0.win 3).flush t = true ∧ i ∈ ((cfg0.win 3).blk t).view.set := by
  have hi1 : (i 1).val < 2048 := (i 1).isLt
  have hi2 : (i 2).val < 3 := (i 2).isLt
  obtain ⟨t, ht0, ht1⟩ := pt_onto (i 0) ⟨(i 1).val / 512, by omega⟩
  obtain ⟨-, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512
              have h : (grid0.coords t 1).val = (i 1).val / 512 := ht1
              omega
  | ⟨2, _⟩ => show win0_3.index t (2 : Fin 3) * 3 ≤ (i 2).val ∧ (i 2).val < win0_3.index t (2 : Fin 3) * 3 + 3; omega

/-- The positions after the run. -/
theorem final3 (c : Dev nD) :
    (dats Vin O W 0 c).arrAt 3 cfg0.N = posV (F := F) (Vin c main_arg1) (Vin c main_arg0) (Vin c main_arg3) :=
  (dats Vin O W 0 c).arrAt_eq_of_cover 3 _ (fun t _ => flushed3_eq Vin O W c t) cover3
/-- What point t writes back to the corner weights is block t of the corner weights' whole-array function. -/
theorem flushed4_eq (c : Dev nD) (t : Fin cfg0.N) :
    (dats Vin O W 0 c).flushed 4 t
      = ((cfg0.win 4).blk t).view.read (Elt F) (w8V (F := F) (Vin c main_arg1) (Vin c main_arg0) (Vin c main_arg3)) := by
  show (cfg0.win 4).cut (grid0.coords t) ((dats Vin O W 0 c).after 4 t) = _
  rw [after0_4, inBlk0_eq, inBlk1_eq, inBlk2_eq]
  obtain ⟨-, -, -, -, -, -, -, -, -, -, -, e0, e1, e2, -⟩ := idx_facts t
  funext j
  have hj0 : (j 0).val < 1 := (j 0).isLt
  have hj1 : (j 1).val < 512 := (j 1).isLt
  have hc1 : (grid0.coords t 1).val < 4 := (grid0.coords t 1).isLt
  show w8Blk _ _ _ ((cfg0.win 4).xinj (grid0.coords t) j) = w8V _ _ _ (((cfg0.win 4).blk t).view.emb j)
  unfold w8V
  have hb : (((cfg0.win 4).blk t).view.emb j) 0 = grid0.coords t 0 := Fin.ext (by
    show win0_4.index t (0 : Fin 3) * 1 + 1 * (j 0).val = (grid0.coords t 0).val; omega)
  have hr : ((((cfg0.win 4).blk t).view.emb j) 1).val = (grid0.coords t 1).val * 512 + (j 1).val := by
    show win0_4.index t (1 : Fin 3) * 512 + 1 * (j 1).val = _; omega
  have hnb : nbOf ((((cfg0.win 4).blk t).view.emb j) 1) = grid0.coords t 1 := Fin.ext (by
    show ((((cfg0.win 4).blk t).view.emb j) 1).val / 512 = _; rw [hr]; omega)
  have hri : rowIn ((((cfg0.win 4).blk t).view.emb j) 1) = j 1 := Fin.ext (by
    show ((((cfg0.win 4).blk t).view.emb j) 1).val % 512 = _; rw [hr]; omega)
  have hl : (((cfg0.win 4).blk t).view.emb j) 2 = j 2 := Fin.ext (by
    show win0_4.index t (2 : Fin 3) * 128 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the corner weights is in point t's block iff each coordinate is in the block's range on its axis. -/
theorem mem_blk4 (t : Fin cfg0.N) (i : S8x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v0_1).slice (win0_4.rect t)).set ↔ _
  rw [View.set_slice_whole, Rect.mem_set_unit]
  exact Iff.rfl

/-- Every index of the corner weights is in some point's block. -/
theorem cover4 (i : S8x2048x128.Idx) : ∃ t : Fin cfg0.N, (cfg0.win 4).flush t = true ∧ i ∈ ((cfg0.win 4).blk t).view.set := by
  have hi1 : (i 1).val < 2048 := (i 1).isLt
  have hi2 : (i 2).val < 128 := (i 2).isLt
  obtain ⟨t, ht0, ht1⟩ := pt_onto (i 0) ⟨(i 1).val / 512, by omega⟩
  obtain ⟨-, -, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512
              have h : (grid0.coords t 1).val = (i 1).val / 512 := ht1
              omega
  | ⟨2, _⟩ => show win0_4.index t (2 : Fin 3) * 128 ≤ (i 2).val ∧ (i 2).val < win0_4.index t (2 : Fin 3) * 128 + 128; omega

/-- The corner weights after the run. -/
theorem final4 (c : Dev nD) :
    (dats Vin O W 0 c).arrAt 4 cfg0.N = w8V (F := F) (Vin c main_arg1) (Vin c main_arg0) (Vin c main_arg3) :=
  (dats Vin O W 0 c).arrAt_eq_of_cover 4 _ (fun t _ => flushed4_eq Vin O W c t) cover4
/-- What point t writes back to the corner row numbers is block t of the corner row numbers' whole-array function. -/
theorem flushed5_eq (c : Dev nD) (t : Fin cfg0.N) :
    (dats Vin O W 0 c).flushed 5 t
      = ((cfg0.win 5).blk t).view.read (Elt F) (idx8V (F := F) (Vin c main_arg1) (Vin c main_arg0) (Vin c main_arg3)) := by
  show (cfg0.win 5).cut (grid0.coords t) ((dats Vin O W 0 c).after 5 t) = _
  rw [after0_5, inBlk0_eq, inBlk1_eq, inBlk2_eq]
  obtain ⟨-, -, -, -, -, -, -, -, -, -, -, -, -, -, e0, e1, e2⟩ := idx_facts t
  funext j
  have hj0 : (j 0).val < 1 := (j 0).isLt
  have hj1 : (j 1).val < 512 := (j 1).isLt
  have hc1 : (grid0.coords t 1).val < 4 := (grid0.coords t 1).isLt
  show idx8Blk _ _ _ _ ((cfg0.win 5).xinj (grid0.coords t) j) = idx8V _ _ _ (((cfg0.win 5).blk t).view.emb j)
  unfold idx8V
  have hb : (((cfg0.win 5).blk t).view.emb j) 0 = grid0.coords t 0 := Fin.ext (by
    show win0_5.index t (0 : Fin 3) * 1 + 1 * (j 0).val = (grid0.coords t 0).val; omega)
  have hr : ((((cfg0.win 5).blk t).view.emb j) 1).val = (grid0.coords t 1).val * 512 + (j 1).val := by
    show win0_5.index t (1 : Fin 3) * 512 + 1 * (j 1).val = _; omega
  have hnb : nbOf ((((cfg0.win 5).blk t).view.emb j) 1) = grid0.coords t 1 := Fin.ext (by
    show ((((cfg0.win 5).blk t).view.emb j) 1).val / 512 = _; rw [hr]; omega)
  have hri : rowIn ((((cfg0.win 5).blk t).view.emb j) 1) = j 1 := Fin.ext (by
    show ((((cfg0.win 5).blk t).view.emb j) 1).val % 512 = _; rw [hr]; omega)
  have hl : (((cfg0.win 5).blk t).view.emb j) 2 = j 2 := Fin.ext (by
    show win0_5.index t (2 : Fin 3) * 8 + 1 * (j 2).val = (j 2).val; omega)
  rw [hb, hnb, hri, hl]
  congr 1
  funext a
  match a with
  | ⟨0, _⟩ => exact Fin.ext (by show (j 0).val = 0; omega)
  | ⟨1, _⟩ => rfl
  | ⟨2, _⟩ => rfl

/-- An index of the corner row numbers is in point t's block iff each coordinate is in the block's range on its axis. -/
theorem mem_blk5 (t : Fin cfg0.N) (i : S8x2048x8.Idx) :
    i ∈ ((cfg0.win 5).blk t).view.set ↔ ∀ a : Fin 3, win0_5.index t a * S1x512x8.size a ≤ (i a).val ∧ (i a).val < win0_5.index t a * S1x512x8.size a + S1x512x8.size a := by
  show i ∈ ((View.whole main_v0_2).slice (win0_5.rect t)).set ↔ _
  rw [View.set_slice_whole, Rect.mem_set_unit]
  exact Iff.rfl

/-- Every index of the corner row numbers is in some point's block. -/
theorem cover5 (i : S8x2048x8.Idx) : ∃ t : Fin cfg0.N, (cfg0.win 5).flush t = true ∧ i ∈ ((cfg0.win 5).blk t).view.set := by
  have hi1 : (i 1).val < 2048 := (i 1).isLt
  have hi2 : (i 2).val < 8 := (i 2).isLt
  obtain ⟨t, ht0, ht1⟩ := pt_onto (i 0) ⟨(i 1).val / 512, by omega⟩
  obtain ⟨-, -, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512
              have h : (grid0.coords t 1).val = (i 1).val / 512 := ht1
              omega
  | ⟨2, _⟩ => show win0_5.index t (2 : Fin 3) * 8 ≤ (i 2).val ∧ (i 2).val < win0_5.index t (2 : Fin 3) * 8 + 8; omega

/-- The corner row numbers after the run. -/
theorem final5 (c : Dev nD) :
    (dats Vin O W 0 c).arrAt 5 cfg0.N = idx8V (F := F) (Vin c main_arg1) (Vin c main_arg0) (Vin c main_arg3) :=
  (dats Vin O W 0 c).arrAt_eq_of_cover 5 _ (fun t _ => flushed5_eq Vin O W c t) cover5

/-! ## The region -/

theorem hF0 (c : Dev nD) : (dats Vin O W 0 c).arrAt 0 cfg0.N = Vin c main_arg1 :=
  ((dats Vin O W 0 c).arrAt_in 0 rfl _).trans (A_eq Vin O W c 0)
theorem hF1 (c : Dev nD) : (dats Vin O W 0 c).arrAt 1 cfg0.N = Vin c main_arg0 :=
  ((dats Vin O W 0 c).arrAt_in 1 rfl _).trans (A_eq Vin O W c 1)
theorem hF2 (c : Dev nD) : (dats Vin O W 0 c).arrAt 2 cfg0.N = Vin c main_arg3 :=
  ((dats Vin O W 0 c).arrAt_in 2 rfl _).trans (A_eq Vin O W c 2)

/-- The six arrays, one by one. -/
theorem arrays_six (c : Dev nD) (Fa : (w : Fin cfg0.W) → Buf (Elt F) ((cfg0.win w).arr.view.loc (SparseCore.T c : Thread nD τ))) :
    ((dats Vin O W 0 c).arrays Fa : sProp 𝕄)
      = iprop((((SparseCore.T c : Thread nD τ).loc main_arg1) ↦{fullShare} Fa 0) ∗ (((SparseCore.T c : Thread nD τ).loc main_arg0) ↦{fullShare} Fa 1)
          ∗ (((SparseCore.T c : Thread nD τ).loc main_arg3) ↦{fullShare} Fa 2) ∗ (((SparseCore.T c : Thread nD τ).loc main_v0_0) ↦{fullShare} Fa 3)
          ∗ (((SparseCore.T c : Thread nD τ).loc main_v0_1) ↦{fullShare} Fa 4) ∗ (((SparseCore.T c : Thread nD τ).loc main_v0_2) ↦{fullShare} Fa 5)) := by
  rw [Pipeline.arrays_eq (Pipeline.pin (pcfgs (F := F)) adm) (dats Vin O W) 0 c launch0.arr_whole ((dats Vin O W 0 c).share_full fun _ => rfl), bigSep_W0]

/-- The core's scoped buffers that no window stages: none. -/
theorem scopedRest_eq (c : Dev nD) :
    (Pipeline.scopedRest (Ix := HIx 1) (Name := ℕ) (U := UU) (Lvl := ℕ) (Val := Elt F) (Pipeline.pin (pcfgs (F := F)) adm 0).spec c : sProp 𝕄) = BI.emp :=
  scopedRest0_eq c

/-- What the region is entered from on core c: what the core owes, and the six arrays as found. -/
def pre (c : Dev nD) : sProp 𝕄 :=
  iprop(owes (SparseCore.T c) O W
    ∗ (((SparseCore.T c : Thread nD τ).loc main_arg1) ↦{fullShare} Vin c main_arg1) ∗ (((SparseCore.T c : Thread nD τ).loc main_arg0) ↦{fullShare} Vin c main_arg0)
    ∗ (((SparseCore.T c : Thread nD τ).loc main_arg3) ↦{fullShare} Vin c main_arg3) ∗ (((SparseCore.T c : Thread nD τ).loc main_v0_0) ↦{fullShare} Vin c main_v0_0)
    ∗ (((SparseCore.T c : Thread nD τ).loc main_v0_1) ↦{fullShare} Vin c main_v0_1) ∗ (((SparseCore.T c : Thread nD τ).loc main_v0_2) ↦{fullShare} Vin c main_v0_2))

/-- What it leaves: the same owed, the recorded pairs grown by the pipeline's own waits at most; the operands as found, the
    three results at their whole-array functions of the operands. -/
def post (c : Dev nD) : sProp 𝕄 :=
  iprop((∃ W' : Waits sig (HIx 1), ⌜∀ p ∈ W', p ∈ W ∨ p.2 = none⌝ ∗ owes (SparseCore.T c) O W')
    ∗ (((SparseCore.T c : Thread nD τ).loc main_arg1) ↦{fullShare} Vin c main_arg1) ∗ (((SparseCore.T c : Thread nD τ).loc main_arg0) ↦{fullShare} Vin c main_arg0)
    ∗ (((SparseCore.T c : Thread nD τ).loc main_arg3) ↦{fullShare} Vin c main_arg3)
    ∗ (((SparseCore.T c : Thread nD τ).loc main_v0_0) ↦{fullShare} posV (F := F) (Vin c main_arg1) (Vin c main_arg0) (Vin c main_arg3))
    ∗ (((SparseCore.T c : Thread nD τ).loc main_v0_1) ↦{fullShare} w8V (F := F) (Vin c main_arg1) (Vin c main_arg0) (Vin c main_arg3))
    ∗ (((SparseCore.T c : Thread nD τ).loc main_v0_2) ↦{fullShare} idx8V (F := F) (Vin c main_arg1) (Vin c main_arg0) (Vin c main_arg3)))

set_option backward.isDefEq.respectTransparency.types false in
/-- THE REGION: the windows' decided layout, no semaphore of the kernel's own, the body obligation, the wait evidence from the
    levels (everything the core owes sits at a call's index, above the staging cells' index), and the protocol: all six
    arrays enter the pipeline, nothing enters the invariant, nothing bypasses. -/
def reg (hO : ∀ g, O g none = 0) :
    Pipeline.RegionSeg (pcfgs (F := F)) adm (dats Vin O W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vin O W c).loose
  hwaits c := Pipeline.cellsWaits_intro (Pipeline.pin (pcfgs (F := F)) adm) (dats Vin O W) none 0 c
    fun w s t => (K (F := F)).mayWait_none (thr := SparseCore.T c) (.dma (((Pipeline.pin (pcfgs (F := F)) adm 0).win w).sem s)) hO
  pre := pre Vin O W
  post := post Vin O W
  X _ := iprop(emp)
  Y _ := iprop(emp)
  Z _ := iprop(emp)
  hentry c := by
    rw [arrays_six, Pipeline.ownSems0_none]
    unfold pre
    iintro ⟨⟨HO, H1, H0, H3, Hp, Hw, Hi⟩, -, -⟩
    imodintro
    isplitl [H1 H0 H3 Hp Hw Hi]
    · isplitl [H1]; · iexact H1
      isplitl [H0]; · iexact H0
      isplitl [H3]; · iexact H3
      isplitl [Hp]; · iexact Hp
      isplitl [Hw]; · iexact Hw
      iexact Hi
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr <;> iempintro
  hin c := by
    rw [show (dats Vin O W 0 c).Φ 0 = iprop(emp) from rfl]
    iintro -; iempintro
  hout c := by
    rw [show (dats Vin O W 0 c).Φ (Fin.last _) = iprop(emp) from rfl, Pipeline.ownSems0_none, scopedRest_eq]
    iintro -
    isplitr; · iempintro
    isplitr <;> iempintro
  hexit c := by
    rw [arrays_six, hF0, hF1, hF2, final3, final4, final5]
    unfold post
    iintro ⟨⟨H1, H0, H3, Hp, Hw, Hi⟩, HO, -, -⟩
    imodintro
    isplitl [HO]
    · unfold Pipeline.Dat.owesAt Pipeline.owesWithin
      icases HO with ⟨%W', %hW', HO⟩
      iexists W'; isplitr
      · ipureintro
        intro p hp
        rcases hW' hp with h | ⟨w, s, rfl⟩
        · exact h
        · exact Or.inr rfl
      iexact HO
    isplitl [H1]; · iexact H1
    isplitl [H0]; · iexact H0
    isplitl [H3]; · iexact H3
    isplitl [Hp]; · iexact Hp
    isplitl [Hw]; · iexact Hw
    iexact Hi

/-- @main's first line is the pipeline's entry, lifted to the table extended by the SparseCore calls. -/
theorem lift_entry : (Prog.lift (.customCall (SparseCore.inner (Pipeline.entry (0 : Fin 1))) ()) :
      Prog (TpuEff nD τ sig (Elt F) (SparseCore.Sig (ΛP (F := F)) 1) .tc) PUnit)
    = SparseCore.liftProg (.op (.customCall (Pipeline.entry (0 : Fin 1)) ()) Prog.ret) := rfl

set_option maxHeartbeats 2000000 in
set_option backward.isDefEq.respectTransparency.types false in
/-- THE RULE FOR @main'S FIRST LINE on device d, in the body table extended by the SparseCore calls: from the level facts, the
    staging cells' ghost state, the region boundary, what the TensorCore owes (nothing at the kernels' own index) and the six
    arrays as found, the call runs to the continuation holding the boundary, the same owed, the operands as found and the three
    results at their whole-array functions. -/
theorem wp_region (d : Dev nD) (hO : ∀ g, O g none = 0) (Φ : PUnit → sProp 𝕄) :
    iprop(levAts (K (F := F)).L (K (F := F)).lev ∗ GP (F := F) d ∗ boundary (SparseCore.T d) ∗ owes (SparseCore.T d) O W
        ∗ (((SparseCore.T d : Thread nD τ).loc main_arg1) ↦{fullShare} Vin d main_arg1) ∗ (((SparseCore.T d : Thread nD τ).loc main_arg0) ↦{fullShare} Vin d main_arg0)
        ∗ (((SparseCore.T d : Thread nD τ).loc main_arg3) ↦{fullShare} Vin d main_arg3)
        ∗ (((SparseCore.T d : Thread nD τ).loc main_v0_0) ↦{fullShare} Vin d main_v0_0) ∗ (((SparseCore.T d : Thread nD τ).loc main_v0_1) ↦{fullShare} Vin d main_v0_1)
        ∗ (((SparseCore.T d : Thread nD τ).loc main_v0_2) ↦{fullShare} Vin d main_v0_2)
        ∗ (iprop(boundary (SparseCore.T d) ∗ (∃ W' : Waits sig (HIx 1), ⌜∀ p ∈ W', p ∈ W ∨ p.2 = none⌝ ∗ owes (SparseCore.T d) O W')
            ∗ (((SparseCore.T d : Thread nD τ).loc main_arg1) ↦{fullShare} Vin d main_arg1) ∗ (((SparseCore.T d : Thread nD τ).loc main_arg0) ↦{fullShare} Vin d main_arg0)
            ∗ (((SparseCore.T d : Thread nD τ).loc main_arg3) ↦{fullShare} Vin d main_arg3)
            ∗ (((SparseCore.T d : Thread nD τ).loc main_v0_0) ↦{fullShare} posV (F := F) (Vin d main_arg1) (Vin d main_arg0) (Vin d main_arg3))
            ∗ (((SparseCore.T d : Thread nD τ).loc main_v0_1) ↦{fullShare} w8V (F := F) (Vin d main_arg1) (Vin d main_arg0) (Vin d main_arg3))
            ∗ (((SparseCore.T d : Thread nD τ).loc main_v0_2) ↦{fullShare} idx8V (F := F) (Vin d main_arg1) (Vin d main_arg0) (Vin d main_arg3))) -∗ Φ ⟨⟩))
      ⊢ wp frame (wpE ((K (F := F)).defs (D (F := F))) 𝒱 (SparseCore.T d) none) Set.univ
          (Prog.lift (.customCall (SparseCore.inner (Pipeline.entry 0)) ())) Φ := by
  rw [lift_entry]
  refine BIBase.Entails.trans ?_ ((K (F := F)).wp_liftProg (D (F := F)) 𝒱 (SparseCore.T d) Set.univ none _ Φ)
  refine BIBase.Entails.trans ?_ (Pipeline.RegionSeg.wp (pcfgs (F := F)) adm (dats Vin O W) (none : HIx 1) cellOf_inj EP defs₀ 𝒱₀
    (K (F := F)).L (K (F := F)).lev (reg Vin O W hO) d none (fun _ h => nomatch h) Prog.ret Φ)
  rw [show (reg Vin O W hO).post d = post Vin O W d from rfl, show (reg Vin O W hO).pre d = pre Vin O W d from rfl]
  unfold pre post GP
  iintro ⟨Hlev, ⟨Hg, Ht⟩, Hb, HO, H1, H0, H3, Hp, Hw, Hi, Hk⟩
  isplitl [Hk]
  · iintro ⟨Hb, Hpost⟩
    sl_step
    iapply Hk
    isplitl [Hb]; · iexact Hb
    iexact Hpost
  isplitl [Hb]; · iexact Hb
  isplitl [HO H1 H0 H3 Hp Hw Hi]
  · isplitl [HO]; · iexact HO
    isplitl [H1]; · iexact H1
    isplitl [H0]; · iexact H0
    isplitl [H3]; · iexact H3
    isplitl [Hp]; · iexact Hp
    isplitl [Hw]; · iexact Hw
    iexact Hi
  isplitl [Hlev]; · iexact Hlev
  isplitl [Hg]; · iexact Hg
  iexact Ht

end Region

/-! ## Funding the staging cells at launch -/

set_option backward.isDefEq.respectTransparency.types false in
/-- The launch element's part for the staging cells yields, on every device, the region's ghost state. -/
theorem fund_region : (BI.own ((EP : Emb UP 𝕄) uP₀) : sProp 𝕄) ⊢ |={Set.univ}=> bigSep Finset.univ fun d : Dev nD => GP (F := F) d := by
  have hg : (bigSep Finset.univ fun c : Dev nD => bigSep Finset.univ fun p : Fin 1 =>
        (Pipeline.cellsGhost (Pipeline.pin (pcfgs (F := F)) adm) (EP : Emb UP 𝕄) p c : sProp 𝕄))
      = bigSep Finset.univ fun c : Dev nD => (Pipeline.cellsGhost (Pipeline.pin (pcfgs (F := F)) adm) (EP : Emb UP 𝕄) 0 c : sProp 𝕄) :=
    bigSep_congr fun c _ => by rw [show (Finset.univ : Finset (Fin 1)) = {0} from rfl, bigSep_singleton]
  have ht : (bigSep Finset.univ fun c : Dev nD => bigSep Finset.univ fun p : Fin 1 =>
        (Pipeline.toksInit (Pipeline.pin (pcfgs (F := F)) adm) (EP : Emb UP 𝕄) p c : sProp 𝕄))
      = bigSep Finset.univ fun c : Dev nD => (Pipeline.toksInit (Pipeline.pin (pcfgs (F := F)) adm) (EP : Emb UP 𝕄) 0 c : sProp 𝕄) :=
    bigSep_congr fun c _ => by rw [show (Finset.univ : Finset (Fin 1)) = {0} from rfl, bigSep_singleton]
  unfold uP₀ GP
  rw [bigSep_sep', ← hg, ← ht]
  iintro Hu
  imod (Pipeline.fund_ghost (Pipeline.pin (pcfgs (F := F)) adm) (EP : Emb UP 𝕄) cellOf_inj) $$ Hu with ⟨Hg, Ht⟩
  imodintro
  isplitl [Hg]
  · iexact Hg
  · iexact Ht

end Region

end Cert.Proof.KB

end
-- ==== Proof.KB.TileDefs.lean ====
/-
  A vector subcore's own memory as its task addresses it: the row-number scratch, and the three rings of four slots —
  weights (16 points × 128 lanes), gathered table rows (128 rows × 128 columns: 8 corners for each of 16 points) and
  results (16 points × 128 columns) — each slot the ring's slice at its slot number, squeezed. For one slot holding one
  chunk, the value the point loop leaves: at point p and column col the balanced sum over the eight corners k of
  weight (p, 16·k + col mod 16) times row 8·p + k at column col, in the order ((t0 + t1) + (t2 + t3)) + ((t4 + t5) + (t6 + t7)).
  The point loop's invariant before trip p: the weights and rows of the slot as they are, and the result slot at some
  contents that already hold that value on the points below p.
-/
import proofs.«209143_g59700045415095_cont_9to1_m_37_38_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The thread and its scratch -/

abbrev cV (L : grid1.Coords) : Fin τ.nSC := (L 0).castLE hcore1
abbrev jV (L : grid1.Coords) : Fin τ.nSub := (L 1).castLE hsub1

abbrev ivV : Memref sig .scVector .vmem S32x128 .i32 := Memref.whole cc1_scratch0
abbrev wvV : Memref sig .scVector .vmem S4x16x128 .f32 := Memref.whole cc1_scratch1
abbrev rvV : Memref sig .scVector .vmem S4x128x128 .f32 := Memref.whole cc1_scratch2
abbrev ovV : Memref sig .scVector .vmem S4x16x128 .f32 := Memref.whole cc1_scratch3

/-! ## The slots -/

abbrev wSlot0 : Memref sig .scVector .vmem S16x128 .f32 := ((wvV).slice (Rect.unit (s := S4x16x128) ![0, 0, 0] S1x16x128.size inb_S4x16x128_S1x16x128_0_0_0) (fun _ => rfl)).squeeze S16x128 squeezes_S1x16x128_S16x128
abbrev rSlot0 : Memref sig .scVector .vmem S128x128 .f32 := ((rvV).slice (Rect.unit (s := S4x128x128) ![0, 0, 0] S1x128x128.size inb_S4x128x128_S1x128x128_0_0_0) (fun _ => rfl)).squeeze S128x128 squeezes_S1x128x128_S128x128
abbrev oSlot0 : Memref sig .scVector .vmem S16x128 .f32 := ((ovV).slice (Rect.unit (s := S4x16x128) ![0, 0, 0] S1x16x128.size inb_S4x16x128_S1x16x128_0_0_0) (fun _ => rfl)).squeeze S16x128 squeezes_S1x16x128_S16x128
abbrev wSlot1 : Memref sig .scVector .vmem S16x128 .f32 := ((wvV).slice (Rect.unit (s := S4x16x128) ![1, 0, 0] S1x16x128.size inb_S4x16x128_S1x16x128_1_0_0) (fun _ => rfl)).squeeze S16x128 squeezes_S1x16x128_S16x128
abbrev rSlot1 : Memref sig .scVector .vmem S128x128 .f32 := ((rvV).slice (Rect.unit (s := S4x128x128) ![1, 0, 0] S1x128x128.size inb_S4x128x128_S1x128x128_1_0_0) (fun _ => rfl)).squeeze S128x128 squeezes_S1x128x128_S128x128
abbrev oSlot1 : Memref sig .scVector .vmem S16x128 .f32 := ((ovV).slice (Rect.unit (s := S4x16x128) ![1, 0, 0] S1x16x128.size inb_S4x16x128_S1x16x128_1_0_0) (fun _ => rfl)).squeeze S16x128 squeezes_S1x16x128_S16x128
abbrev wSlot2 : Memref sig .scVector .vmem S16x128 .f32 := ((wvV).slice (Rect.unit (s := S4x16x128) ![2, 0, 0] S1x16x128.size inb_S4x16x128_S1x16x128_2_0_0) (fun _ => rfl)).squeeze S16x128 squeezes_S1x16x128_S16x128
abbrev rSlot2 : Memref sig .scVector .vmem S128x128 .f32 := ((rvV).slice (Rect.unit (s := S4x128x128) ![2, 0, 0] S1x128x128.size inb_S4x128x128_S1x128x128_2_0_0) (fun _ => rfl)).squeeze S128x128 squeezes_S1x128x128_S128x128
abbrev oSlot2 : Memref sig .scVector .vmem S16x128 .f32 := ((ovV).slice (Rect.unit (s := S4x16x128) ![2, 0, 0] S1x16x128.size inb_S4x16x128_S1x16x128_2_0_0) (fun _ => rfl)).squeeze S16x128 squeezes_S1x16x128_S16x128
abbrev wSlot3 : Memref sig .scVector .vmem S16x128 .f32 := ((wvV).slice (Rect.unit (s := S4x16x128) ![3, 0, 0] S1x16x128.size inb_S4x16x128_S1x16x128_3_0_0) (fun _ => rfl)).squeeze S16x128 squeezes_S1x16x128_S16x128
abbrev rSlot3 : Memref sig .scVector .vmem S128x128 .f32 := ((rvV).slice (Rect.unit (s := S4x128x128) ![3, 0, 0] S1x128x128.size inb_S4x128x128_S1x128x128_3_0_0) (fun _ => rfl)).squeeze S128x128 squeezes_S1x128x128_S128x128
abbrev oSlot3 : Memref sig .scVector .vmem S16x128 .f32 := ((ovV).slice (Rect.unit (s := S4x16x128) ![3, 0, 0] S1x16x128.size inb_S4x16x128_S1x16x128_3_0_0) (fun _ => rfl)).squeeze S16x128 squeezes_S1x16x128_S16x128

/-! ## What the point loop computes -/

section Value
variable [FloatOps F]

/-- Corner k's term at slot b, point p, column col, from the slot's weights and rows. -/
def ptTerm (fw : FVec F S4x16x128 .f32) (fr : FVec F S4x128x128 .f32) (b : Fin 4) (p : Fin 16) (col : Fin 128) (k : Fin 8) : F .f32 :=
  FloatOps.mulf (fw (ix3 b p (⟨16 * k.val + col.val % 16, by omega⟩ : Fin 128)))
    (fr (ix3 b (⟨8 * p.val + k.val, by omega⟩ : Fin 128) col))

/-- The point loop's result at every index of the result ring: the balanced sum of the eight terms. -/
def ptOut (fw : FVec F S4x16x128 .f32) (fr : FVec F S4x128x128 .f32) : FVec F S4x16x128 .f32 :=
  fun j =>
    let t := ptTerm fw fr (j 0) (j 1) (j 2)
    FloatOps.addf (FloatOps.addf (FloatOps.addf (t 0) (t 1)) (FloatOps.addf (t 2) (t 3)))
      (FloatOps.addf (FloatOps.addf (t 4) (t 5)) (FloatOps.addf (t 6) (t 7)))

end Value

/-! ## The point loop's invariant, slot by slot -/

section Inv
variable [FloatOps F] (d : Dev nD) (L : grid1.Coords)

/-- Slot 0 before point p: weights and rows as they are, the result slot right on the points below p. -/
def ptInv0 (fw : Buf (Elt F) ((wSlot0).view.loc (V d (cV L) (jV L)))) (fr : Buf (Elt F) ((rSlot0).view.loc (V d (cV L) (jV L))))
    (p : ℕ) (_ : Unit) : sProp 𝕄 :=
  iprop(((wSlot0).view.loc (V d (cV L) (jV L)) ↦[(wSlot0).view.set]{fullShare} fw)
    ∗ ((rSlot0).view.loc (V d (cV L) (jV L)) ↦[(rSlot0).view.set]{fullShare} fr)
    ∗ ∃ fo : Buf (Elt F) ((oSlot0).view.loc (V d (cV L) (jV L))),
        ((oSlot0).view.loc (V d (cV L) (jV L)) ↦[(oSlot0).view.set]{fullShare} fo)
        ∗ ⌜∀ (q : Fin 16) (col : Fin 128), q.val < p → fo (ix3 (0 : Fin 4) q col) = ptOut (F := F) fw fr (ix3 (0 : Fin 4) q col)⌝)

/-- Slot 1 before point p: weights and rows as they are, the result slot right on the points below p. -/
def ptInv1 (fw : Buf (Elt F) ((wSlot1).view.loc (V d (cV L) (jV L)))) (fr : Buf (Elt F) ((rSlot1).view.loc (V d (cV L) (jV L))))
    (p : ℕ) (_ : Unit) : sProp 𝕄 :=
  iprop(((wSlot1).view.loc (V d (cV L) (jV L)) ↦[(wSlot1).view.set]{fullShare} fw)
    ∗ ((rSlot1).view.loc (V d (cV L) (jV L)) ↦[(rSlot1).view.set]{fullShare} fr)
    ∗ ∃ fo : Buf (Elt F) ((oSlot1).view.loc (V d (cV L) (jV L))),
        ((oSlot1).view.loc (V d (cV L) (jV L)) ↦[(oSlot1).view.set]{fullShare} fo)
        ∗ ⌜∀ (q : Fin 16) (col : Fin 128), q.val < p → fo (ix3 (1 : Fin 4) q col) = ptOut (F := F) fw fr (ix3 (1 : Fin 4) q col)⌝)

/-- Slot 2 before point p: weights and rows as they are, the result slot right on the points below p. -/
def ptInv2 (fw : Buf (Elt F) ((wSlot2).view.loc (V d (cV L) (jV L)))) (fr : Buf (Elt F) ((rSlot2).view.loc (V d (cV L) (jV L))))
    (p : ℕ) (_ : Unit) : sProp 𝕄 :=
  iprop(((wSlot2).view.loc (V d (cV L) (jV L)) ↦[(wSlot2).view.set]{fullShare} fw)
    ∗ ((rSlot2).view.loc (V d (cV L) (jV L)) ↦[(rSlot2).view.set]{fullShare} fr)
    ∗ ∃ fo : Buf (Elt F) ((oSlot2).view.loc (V d (cV L) (jV L))),
        ((oSlot2).view.loc (V d (cV L) (jV L)) ↦[(oSlot2).view.set]{fullShare} fo)
        ∗ ⌜∀ (q : Fin 16) (col : Fin 128), q.val < p → fo (ix3 (2 : Fin 4) q col) = ptOut (F := F) fw fr (ix3 (2 : Fin 4) q col)⌝)

/-- Slot 3 before point p: weights and rows as they are, the result slot right on the points below p. -/
def ptInv3 (fw : Buf (Elt F) ((wSlot3).view.loc (V d (cV L) (jV L)))) (fr : Buf (Elt F) ((rSlot3).view.loc (V d (cV L) (jV L))))
    (p : ℕ) (_ : Unit) : sProp 𝕄 :=
  iprop(((wSlot3).view.loc (V d (cV L) (jV L)) ↦[(wSlot3).view.set]{fullShare} fw)
    ∗ ((rSlot3).view.loc (V d (cV L) (jV L)) ↦[(rSlot3).view.set]{fullShare} fr)
    ∗ ∃ fo : Buf (Elt F) ((oSlot3).view.loc (V d (cV L) (jV L))),
        ((oSlot3).view.loc (V d (cV L) (jV L)) ↦[(oSlot3).view.set]{fullShare} fo)
        ∗ ⌜∀ (q : Fin 16) (col : Fin 128), q.val < p → fo (ix3 (3 : Fin 4) q col) = ptOut (F := F) fw fr (ix3 (3 : Fin 4) q col)⌝)

end Inv

end Cert.Proof.KB

end
-- ==== Proof.KB.TileCut.lean ====
/-
  The cuts inside one worker's part of the SparseCore call's arrays.

  Worker w owns rows 512·w … 512·w + 511 of the weights and of the result. Those 512 rows are thirty-two chunks of sixteen
  rows, chunk ch being rows 512·w + 16·ch … 512·w + 16·ch + 15 at every column: the chunks are pairwise disjoint (their
  row ranges do not meet) and cover the worker's rows (row r lies in chunk (r − 512·w) / 16), so what a worker holds of
  the weights, or of the result, is the separating product of what it holds chunk by chunk.

  The tile at grid coordinates L = (core, subcore) is worker 2·subcore + core. The body addresses its block of row numbers
  and its chunks through offsets it computes from L, the group-loop trip g and the ring slot; in closed form these are
  the first coordinate 2·subcore + core of the row-number array, and row 1024·subcore + 512·core + 16·ch of the weights
  or the result for chunk ch = r (the first four weight copies), 4·g + 4 + b (the weight copy started in slot b of trip g),
  4·g + r (the result copy of slot r of trip g) and 0 (the stand-in slices of the waits). So each slice the body forms
  covers exactly the worker's block of row numbers, or exactly one chunk.

  The group loop's conditions in closed form: a previous result copy is waited for from the second trip on (0 < g), and
  a next chunk is started while one remains (g + 1 < 8).
-/
import proofs.«209143_g59700045415095_cont_9to1_m_37_38_alg».proof.Proof.KB.Common
import proofs.«209143_g59700045415095_cont_9to1_m_37_38_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The worker of a tile, the chunks of a worker -/

theorem wL_lt (L : grid1.Coords) : 2 * (L 1).val + (L 0).val < 32 := by
  have h0 : (L 0).val < 2 := (L 0).isLt
  have h1 : (L 1).val < 16 := (L 1).isLt
  omega

/-- The worker a tile at grid coordinates L is: 2·subcore + core. -/
def wL (L : grid1.Coords) : Fin 32 := ⟨2 * (L 1).val + (L 0).val, wL_lt L⟩

theorem wL_val (L : grid1.Coords) : (wL L).val = 2 * (L 1).val + (L 0).val := rfl

theorem chunk_inb (w ch : Fin 32) :
    ∀ a, (![512 * w.val + 16 * ch.val, 0] : Fin 2 → ℕ) a + S16x128.size a ≤ S16384x128.size a := by
  have hw := w.isLt
  have hc := ch.isLt
  intro a
  fin_cases a
  · show 512 * w.val + 16 * ch.val + 16 ≤ 16384
    omega
  · show 0 + 128 ≤ 128
    omega

/-- Chunk ch of worker w: the sixteen rows 512·w + 16·ch … 512·w + 16·ch + 15, every column. -/
abbrev chunkR (w ch : Fin 32) : Rect S16384x128 :=
  Rect.unit (s := S16384x128) ![512 * w.val + 16 * ch.val, 0] S16x128.size (chunk_inb w ch)
abbrev chunk (w ch : Fin 32) : Finset S16384x128.Idx := (chunkR w ch).set

theorem mem_chunk (w ch : Fin 32) (i : S16384x128.Idx) :
    i ∈ chunk w ch ↔ 512 * w.val + 16 * ch.val ≤ (i 0).val ∧ (i 0).val < 512 * w.val + 16 * ch.val + 16 := by
  unfold chunk chunkR
  rw [Rect.mem_set_unit, Fin.forall_fin_two]
  have h1 : (i 1).val < 128 := (i 1).isLt
  constructor
  · rintro ⟨h, -⟩; exact h
  · intro h; exact ⟨h, Nat.zero_le _, by show (i 1).val < 0 + 128; omega⟩

theorem pSet_rect (w : Fin 32) : pSet w = (pblk w).set := by
  show ((View.whole (main_v5_scv : Ref sig .scVector)).slice (pblk w)).set = _
  rw [View.set_slice_whole]

theorem mem_pSet (w : Fin 32) (i : S16384x128.Idx) :
    i ∈ pSet w ↔ 512 * w.val ≤ (i 0).val ∧ (i 0).val < 512 * w.val + 512 := by
  rw [pSet_rect]
  unfold pblk Rect.part Rect.block
  rw [Rect.mem_set_unit, Fin.forall_fin_two]
  have h1 : (i 1).val < 128 := (i 1).isLt
  have e0 : S16384x128.partIx 0 w.val 0 * S16384x128.partSize 0 32 0 = 512 * w.val := by
    simp [Shape.partIx, Shape.partSize]; omega
  have s0 : S16384x128.partSize 0 32 0 = 512 := by simp [Shape.partSize]
  have e1 : S16384x128.partIx 0 w.val 1 * S16384x128.partSize 0 32 1 = 0 := by
    simp [Shape.partIx, Shape.partSize]
  have s1 : S16384x128.partSize 0 32 1 = 128 := by simp [Shape.partSize]
  rw [e0, s0, e1, s1]
  constructor
  · rintro ⟨h, -⟩; exact h
  · intro h; exact ⟨h, Nat.zero_le _, by omega⟩

/-- Different chunks of one worker share no row. -/
theorem chunk_disjoint (w : Fin 32) :
    ∀ i ∈ (Finset.univ : Finset (Fin 32)), ∀ j ∈ (Finset.univ : Finset (Fin 32)), i ≠ j → Disjoint (chunk w i) (chunk w j) := by
  intro i _ j _ h
  have hne : i.val ≠ j.val := fun e => h (Fin.ext e)
  refine Rect.unit_disjoint (0 : Fin 2) ?_
  show 512 * w.val + 16 * i.val + 16 ≤ 512 * w.val + 16 * j.val ∨ 512 * w.val + 16 * j.val + 16 ≤ 512 * w.val + 16 * i.val
  omega

/-- The thirty-two chunks of a worker are its 512 rows. -/
theorem chunk_cover (w : Fin 32) : (Finset.univ : Finset (Fin 32)).biUnion (chunk w) = pSet w := by
  ext i
  rw [mem_pSet]
  simp only [Finset.mem_biUnion, Finset.mem_univ, true_and, mem_chunk]
  constructor
  · rintro ⟨ch, h1, h2⟩
    have := ch.isLt
    omega
  · rintro ⟨h1, h2⟩
    exact ⟨⟨((i 0).val - 512 * w.val) / 16, by omega⟩, by show 512 * w.val + 16 * (((i 0).val - 512 * w.val) / 16) ≤ _; omega,
      by show _ < 512 * w.val + 16 * (((i 0).val - 512 * w.val) / 16) + 16; omega⟩

/-! ## A worker's rows of the weights and of the result, chunk by chunk -/

theorem w_chunks (d : Dev nD) (w : Fin 32) (q : PosShare TreeShare) (f : Buf (Elt F) (wLoc d)) :
    (wLoc d ↦[pSet w]{q} f : sProp 𝕄) = bigSep Finset.univ fun ch : Fin 32 => wLoc d ↦[chunk w ch]{q} f := by
  rw [← pointsTo_biUnion Finset.univ (ℓ := wLoc d) (chunk w) (chunk_disjoint w), chunk_cover]; try rfl

theorem out_chunks (d : Dev nD) (w : Fin 32) (q : PosShare TreeShare) (f : Buf (Elt F) (outLoc d)) :
    (outLoc d ↦[pSet w]{q} f : sProp 𝕄) = bigSep Finset.univ fun ch : Fin 32 => outLoc d ↦[chunk w ch]{q} f := by
  rw [← pointsTo_biUnion Finset.univ (ℓ := outLoc d) (chunk w) (chunk_disjoint w), chunk_cover]; try rfl

/-- A chunk of a worker lies in the worker's rows. -/
theorem chunk_subset (w ch : Fin 32) : chunk w ch ⊆ pSet w := by
  intro i hi
  rw [mem_chunk] at hi
  rw [mem_pSet]
  have := ch.isLt
  omega

/-! ## The group loop's conditions in closed form -/

theorem trips_le (g : Fin k1_t1_loop.trips) : g.val < 8 := lt_of_lt_of_le g.isLt k1_t1_abs.2.1

theorem cond1_iff : ∀ g : Fin k1_t1_loop.trips, k1_cond1 g = 1#1 ↔ 0 < g.val := by decide +kernel
theorem cond3_iff : ∀ g : Fin k1_t1_loop.trips, k1_cond3 g = 1#1 ↔ 0 < g.val := by decide +kernel
theorem cond5_iff : ∀ g : Fin k1_t1_loop.trips, k1_cond5 g = 1#1 ↔ 0 < g.val := by decide +kernel
theorem cond7_iff : ∀ g : Fin k1_t1_loop.trips, k1_cond7 g = 1#1 ↔ 0 < g.val := by decide +kernel
theorem cond2_iff : ∀ g : Fin k1_t1_loop.trips, k1_cond2 g = 1#1 ↔ g.val + 1 < 8 := by decide +kernel
theorem cond4_iff : ∀ g : Fin k1_t1_loop.trips, k1_cond4 g = 1#1 ↔ g.val + 1 < 8 := by decide +kernel
theorem cond6_iff : ∀ g : Fin k1_t1_loop.trips, k1_cond6 g = 1#1 ↔ g.val + 1 < 8 := by decide +kernel
theorem cond8_iff : ∀ g : Fin k1_t1_loop.trips, k1_cond8 g = 1#1 ↔ g.val + 1 < 8 := by decide +kernel

/-! ## The row numbers: a worker's block as the body slices it -/

abbrev iRectK (L : grid1.Coords) : Rect S32x32x128 :=
  Rect.unit (s := S32x32x128) (k1_off1 L) S1x32x128.size (k1_off1_inb L)
abbrev iRowK (L : grid1.Coords) : Memref sig .scVector .hbm S32x128 .i32 :=
  ((idxV).slice (iRectK L) (fun _ => rfl)).squeeze S32x128 squeezes_S1x32x128_S32x128

theorem iRectK_eq (L : grid1.Coords) : iRectK L = iblk (wL L) := by
  unfold iRectK iblk Rect.part Rect.block
  congr 1 <;> funext a
  · rw [k1_off1_eq]
    fin_cases a <;> simp [Shape.partIx, Shape.partSize, wL]
  · fin_cases a <;> simp [Shape.partSize]

theorem set_iRowK (L : grid1.Coords) : (iRowK L).view.set = iSet (wL L) := by
  show (((idxV).view.slice (iRectK L)).reshape S32x128 squeezes_S1x32x128_S32x128.numel_eq).set
    = ((idxV).view.slice (iblk (wL L))).set
  rw [View.set_reshape]
  exact iRectK_eq L ▸ rfl

/-! ## The weights and the result: a chunk as the body slices it -/

theorem vec2_congr {a b : ℕ} (h : a = b) : (![a, 0] : Fin 2 → ℕ) = ![b, 0] := by rw [h]

theorem unit_set_chunk {off : Fin 2 → ℕ} (inb : ∀ a, off a + S16x128.size a ≤ S16384x128.size a) (w ch : Fin 32)
    (h : off = ![512 * w.val + 16 * ch.val, 0]) :
    (Rect.unit (s := S16384x128) off S16x128.size inb).set = chunk w ch := by
  subst h; rfl

/-- A sixteen-row slice of the weights at the rows of chunk ch of worker w is that chunk. -/
theorem set_wSlice {off : Fin 2 → ℕ} (inb : ∀ a, off a + S16x128.size a ≤ S16384x128.size a)
    (hs : ∀ a, (Rect.unit (s := S16384x128) off S16x128.size inb).stride a = 1) (w ch : Fin 32)
    (h : off = ![512 * w.val + 16 * ch.val, 0]) :
    ((wV).slice (Rect.unit (s := S16384x128) off S16x128.size inb) hs).view.set = chunk w ch := by
  show ((View.whole (main_v5_scv : Ref sig .scVector)).slice (Rect.unit (s := S16384x128) off S16x128.size inb)).set = _
  rw [View.set_slice_whole]
  exact unit_set_chunk inb w ch h

/-- The same of the result array. -/
theorem set_oSlice {off : Fin 2 → ℕ} (inb : ∀ a, off a + S16x128.size a ≤ S16384x128.size a)
    (hs : ∀ a, (Rect.unit (s := S16384x128) off S16x128.size inb).stride a = 1) (w ch : Fin 32)
    (h : off = ![512 * w.val + 16 * ch.val, 0]) :
    ((outV).slice (Rect.unit (s := S16384x128) off S16x128.size inb) hs).view.set = chunk w ch := by
  show ((View.whole (main_v6_scv : Ref sig .scVector)).slice (Rect.unit (s := S16384x128) off S16x128.size inb)).set = _
  rw [View.set_slice_whole]
  exact unit_set_chunk inb w ch h

/-! ### The offsets the body computes, as worker and chunk -/

/-- The prologue's four weight copies: chunk r. -/
theorem off2_chunk (L : grid1.Coords) (r : Fin 4) (ch : Fin 32) (hch : ch.val = r.val) :
    k1_off2 L (BitVec.ofNat 32 (16 * r.val)) = ![512 * (wL L).val + 16 * ch.val, 0] := by
  rw [k1_off2_eq, hch, wL_val]; exact vec2_congr (by omega)

/-- The waits' stand-in slices: chunk 0. -/
theorem off3_chunk (L : grid1.Coords) (ch : Fin 32) (hch : ch.val = 0) : k1_off3 L = ![512 * (wL L).val + 16 * ch.val, 0] := by
  rw [k1_off3_eq, hch, wL_val]; exact vec2_congr (by omega)
theorem off4_chunk (L : grid1.Coords) (ch : Fin 32) (hch : ch.val = 0) : k1_off4 L = ![512 * (wL L).val + 16 * ch.val, 0] := by
  rw [k1_off4_eq, hch, wL_val]; exact vec2_congr (by omega)
theorem off24_chunk (L : grid1.Coords) (ch : Fin 32) (hch : ch.val = 0) : k1_off24 L = ![512 * (wL L).val + 16 * ch.val, 0] := by
  rw [k1_off24_eq, hch, wL_val]; exact vec2_congr (by omega)
theorem off43_chunk (L : grid1.Coords) (ch : Fin 32) (hch : ch.val = 0) : k1_off43 L = ![512 * (wL L).val + 16 * ch.val, 0] := by
  rw [k1_off43_eq, hch, wL_val]; exact vec2_congr (by omega)
theorem off62_chunk (L : grid1.Coords) (ch : Fin 32) (hch : ch.val = 0) : k1_off62 L = ![512 * (wL L).val + 16 * ch.val, 0] := by
  rw [k1_off62_eq, hch, wL_val]; exact vec2_congr (by omega)
theorem off81_chunk (L : grid1.Coords) (ch : Fin 32) (hch : ch.val = 0) : k1_off81 L = ![512 * (wL L).val + 16 * ch.val, 0] := by
  rw [k1_off81_eq, hch, wL_val]; exact vec2_congr (by omega)

/-- The group loop's next weight copies, slot b of trip g: chunk 4·g + 4 + b. -/
theorem off22_chunk (L : grid1.Coords) (g : Fin k1_t1_loop.trips) (ch : Fin 32) (hch : ch.val = 4 * g.val + 4) :
    k1_off22 L g = ![512 * (wL L).val + 16 * ch.val, 0] := by
  rw [k1_off22_eq, hch, wL_val]; exact vec2_congr (by omega)
theorem off42_chunk (L : grid1.Coords) (g : Fin k1_t1_loop.trips) (ch : Fin 32) (hch : ch.val = 4 * g.val + 5) :
    k1_off42 L g = ![512 * (wL L).val + 16 * ch.val, 0] := by
  rw [k1_off42_eq, hch, wL_val]; exact vec2_congr (by omega)
theorem off61_chunk (L : grid1.Coords) (g : Fin k1_t1_loop.trips) (ch : Fin 32) (hch : ch.val = 4 * g.val + 6) :
    k1_off61 L g = ![512 * (wL L).val + 16 * ch.val, 0] := by
  rw [k1_off61_eq, hch, wL_val]; exact vec2_congr (by omega)
theorem off80_chunk (L : grid1.Coords) (g : Fin k1_t1_loop.trips) (ch : Fin 32) (hch : ch.val = 4 * g.val + 7) :
    k1_off80 L g = ![512 * (wL L).val + 16 * ch.val, 0] := by
  rw [k1_off80_eq, hch, wL_val]; exact vec2_congr (by omega)

/-- The group loop's result copies, slot r of trip g: chunk 4·g + r. -/
theorem off23_chunk (L : grid1.Coords) (g : Fin k1_t1_loop.trips) (r : Fin 4) (ch : Fin 32) (hch : ch.val = 4 * g.val + r.val) :
    k1_off23 L g (BitVec.ofNat 32 r.val) = ![512 * (wL L).val + 16 * ch.val, 0] := by
  rw [k1_off23_eq, hch, wL_val]; exact vec2_congr (by omega)

theorem wL_eq_widOf (L : grid1.Coords) (c : Fin 2) (s : Fin 16) (hc : (L 0).val = c.val) (hs : (L 1).val = s.val) :
    wL L = widOf c s := Fin.ext (by show 2 * (L 1).val + (L 0).val = 2 * s.val + c.val; omega)

/-! ### The body's own slices of the weights -/

theorem set_w_off2 (L : grid1.Coords) (r : Fin 4) (ch : Fin 32) (hch : ch.val = r.val) :
    ((wV).slice (Rect.unit (s := S16384x128) (k1_off2 L (BitVec.ofNat 32 (16 * r.val))) S16x128.size (k1_off2_inb L r)) (fun _ => rfl)).view.set
      = chunk (wL L) ch :=
  set_wSlice _ _ _ _ (off2_chunk L r ch hch)
theorem set_w_off2_0 (L : grid1.Coords) (ch : Fin 32) (hch : ch.val = 0) :
    ((wV).slice (Rect.unit (s := S16384x128) (k1_off2 L 0#32) S16x128.size (k1_off2_inb L 0)) (fun _ => rfl)).view.set = chunk (wL L) ch :=
  set_w_off2 L 0 ch hch
theorem set_w_off2_1 (L : grid1.Coords) (ch : Fin 32) (hch : ch.val = 1) :
    ((wV).slice (Rect.unit (s := S16384x128) (k1_off2 L 16#32) S16x128.size (k1_off2_inb L 1)) (fun _ => rfl)).view.set = chunk (wL L) ch :=
  set_w_off2 L 1 ch hch
theorem set_w_off2_2 (L : grid1.Coords) (ch : Fin 32) (hch : ch.val = 2) :
    ((wV).slice (Rect.unit (s := S16384x128) (k1_off2 L 32#32) S16x128.size (k1_off2_inb L 2)) (fun _ => rfl)).view.set = chunk (wL L) ch :=
  set_w_off2 L 2 ch hch
theorem set_w_off2_3 (L : grid1.Coords) (ch : Fin 32) (hch : ch.val = 3) :
    ((wV).slice (Rect.unit (s := S16384x128) (k1_off2 L 48#32) S16x128.size (k1_off2_inb L 3)) (fun _ => rfl)).view.set = chunk (wL L) ch :=
  set_w_off2 L 3 ch hch

theorem set_w_off3 (L : grid1.Coords) (ch : Fin 32) (hch : ch.val = 0) :
    ((wV).slice (Rect.unit (s := S16384x128) (k1_off3 L) S16x128.size (k1_off3_inb L)) (fun _ => rfl)).view.set = chunk (wL L) ch :=
  set_wSlice _ _ _ _ (off3_chunk L ch hch)

theorem set_w_off22 (L : grid1.Coords) (g : Fin k1_t1_loop.trips) (h2 : k1_cond2 g = 1#1) (ch : Fin 32) (hch : ch.val = 4 * g.val + 4) :
    ((wV).slice (Rect.unit (s := S16384x128) (k1_off22 L g) S16x128.size (k1_off22_inb L g h2)) (fun _ => rfl)).view.set = chunk (wL L) ch :=
  set_wSlice _ _ _ _ (off22_chunk L g ch hch)
theorem set_w_off42 (L : grid1.Coords) (g : Fin k1_t1_loop.trips) (h4 : k1_cond4 g = 1#1) (ch : Fin 32) (hch : ch.val = 4 * g.val + 5) :
    ((wV).slice (Rect.unit (s := S16384x128) (k1_off42 L g) S16x128.size (k1_off42_inb L g h4)) (fun _ => rfl)).view.set = chunk (wL L) ch :=
  set_wSlice _ _ _ _ (off42_chunk L g ch hch)
theorem set_w_off61 (L : grid1.Coords) (g : Fin k1_t1_loop.trips) (h6 : k1_cond6 g = 1#1) (ch : Fin 32) (hch : ch.val = 4 * g.val + 6) :
    ((wV).slice (Rect.unit (s := S16384x128) (k1_off61 L g) S16x128.size (k1_off61_inb L g h6)) (fun _ => rfl)).view.set = chunk (wL L) ch :=
  set_wSlice _ _ _ _ (off61_chunk L g ch hch)
theorem set_w_off80 (L : grid1.Coords) (g : Fin k1_t1_loop.trips) (h8 : k1_cond8 g = 1#1) (ch : Fin 32) (hch : ch.val = 4 * g.val + 7) :
    ((wV).slice (Rect.unit (s := S16384x128) (k1_off80 L g) S16x128.size (k1_off80_inb L g h8)) (fun _ => rfl)).view.set = chunk (wL L) ch :=
  set_wSlice _ _ _ _ (off80_chunk L g ch hch)

/-! ### The body's own slices of the result -/

theorem set_o_off23 (L : grid1.Coords) (g : Fin k1_t1_loop.trips) (r : Fin 4) (ch : Fin 32) (hch : ch.val = 4 * g.val + r.val) :
    ((outV).slice (Rect.unit (s := S16384x128) (k1_off23 L g (BitVec.ofNat 32 r.val)) S16x128.size (k1_off23_inb L g r)) (fun _ => rfl)).view.set
      = chunk (wL L) ch :=
  set_oSlice _ _ _ _ (off23_chunk L g r ch hch)
theorem set_o_off23_0 (L : grid1.Coords) (g : Fin k1_t1_loop.trips) (ch : Fin 32) (hch : ch.val = 4 * g.val) :
    ((outV).slice (Rect.unit (s := S16384x128) (k1_off23 L g 0#32) S16x128.size (k1_off23_inb L g 0)) (fun _ => rfl)).view.set = chunk (wL L) ch :=
  set_o_off23 L g 0 ch hch
theorem set_o_off23_1 (L : grid1.Coords) (g : Fin k1_t1_loop.trips) (ch : Fin 32) (hch : ch.val = 4 * g.val + 1) :
    ((outV).slice (Rect.unit (s := S16384x128) (k1_off23 L g 1#32) S16x128.size (k1_off23_inb L g 1)) (fun _ => rfl)).view.set = chunk (wL L) ch :=
  set_o_off23 L g 1 ch hch
theorem set_o_off23_2 (L : grid1.Coords) (g : Fin k1_t1_loop.trips) (ch : Fin 32) (hch : ch.val = 4 * g.val + 2) :
    ((outV).slice (Rect.unit (s := S16384x128) (k1_off23 L g 2#32) S16x128.size (k1_off23_inb L g 2)) (fun _ => rfl)).view.set = chunk (wL L) ch :=
  set_o_off23 L g 2 ch hch
theorem set_o_off23_3 (L : grid1.Coords) (g : Fin k1_t1_loop.trips) (ch : Fin 32) (hch : ch.val = 4 * g.val + 3) :
    ((outV).slice (Rect.unit (s := S16384x128) (k1_off23 L g 3#32) S16x128.size (k1_off23_inb L g 3)) (fun _ => rfl)).view.set = chunk (wL L) ch :=
  set_o_off23 L g 3 ch hch

theorem set_o_off4 (L : grid1.Coords) (g : Fin k1_t1_loop.trips) (h1 : k1_cond1 g = 1#1) (ch : Fin 32) (hch : ch.val = 0) :
    ((outV).slice (Rect.unit (s := S16384x128) (k1_off4 L) S16x128.size (k1_off4_inb L g h1)) (fun _ => rfl)).view.set = chunk (wL L) ch :=
  set_oSlice _ _ _ _ (off4_chunk L ch hch)
theorem set_o_off24 (L : grid1.Coords) (g : Fin k1_t1_loop.trips) (h3 : k1_cond3 g = 1#1) (ch : Fin 32) (hch : ch.val = 0) :
    ((outV).slice (Rect.unit (s := S16384x128) (k1_off24 L) S16x128.size (k1_off24_inb L g h3)) (fun _ => rfl)).view.set = chunk (wL L) ch :=
  set_oSlice _ _ _ _ (off24_chunk L ch hch)
theorem set_o_off43 (L : grid1.Coords) (g : Fin k1_t1_loop.trips) (h5 : k1_cond5 g = 1#1) (ch : Fin 32) (hch : ch.val = 0) :
    ((outV).slice (Rect.unit (s := S16384x128) (k1_off43 L) S16x128.size (k1_off43_inb L g h5)) (fun _ => rfl)).view.set = chunk (wL L) ch :=
  set_oSlice _ _ _ _ (off43_chunk L ch hch)
theorem set_o_off62 (L : grid1.Coords) (g : Fin k1_t1_loop.trips) (h7 : k1_cond7 g = 1#1) (ch : Fin 32) (hch : ch.val = 0) :
    ((outV).slice (Rect.unit (s := S16384x128) (k1_off62 L) S16x128.size (k1_off62_inb L g h7)) (fun _ => rfl)).view.set = chunk (wL L) ch :=
  set_oSlice _ _ _ _ (off62_chunk L ch hch)
theorem set_o_off81 (L : grid1.Coords) (ch : Fin 32) (hch : ch.val = 0) :
    ((outV).slice (Rect.unit (s := S16384x128) (k1_off81 L) S16x128.size (k1_off81_inb L)) (fun _ => rfl)).view.set = chunk (wL L) ch :=
  set_oSlice _ _ _ _ (off81_chunk L ch hch)

/-! ## The same as points-to facts, at any vector subcore of the device -/

theorem pts_iRowK (d : Dev nD) (c : Fin τ.nSC) (j : Fin τ.nSub) (L : grid1.Coords) (q : PosShare TreeShare) (f : Buf (Elt F) (idxLoc d)) :
    ((iRowK L).view.loc (V d c j) ↦[(iRowK L).view.set]{q} f : sProp 𝕄) = idxLoc d ↦[iSet (wL L)]{q} f := by
  rw [set_iRowK]

theorem pts_wSlice (d : Dev nD) (c : Fin τ.nSC) (j : Fin τ.nSub) {off : Fin 2 → ℕ}
    (inb : ∀ a, off a + S16x128.size a ≤ S16384x128.size a)
    (hs : ∀ a, (Rect.unit (s := S16384x128) off S16x128.size inb).stride a = 1) (w ch : Fin 32)
    (h : off = ![512 * w.val + 16 * ch.val, 0]) (q : PosShare TreeShare) (f : Buf (Elt F) (wLoc d)) :
    (((wV).slice (Rect.unit (s := S16384x128) off S16x128.size inb) hs).view.loc (V d c j)
        ↦[((wV).slice (Rect.unit (s := S16384x128) off S16x128.size inb) hs).view.set]{q} f : sProp 𝕄)
      = wLoc d ↦[chunk w ch]{q} f := by
  rw [set_wSlice inb hs w ch h]

theorem pts_oSlice (d : Dev nD) (c : Fin τ.nSC) (j : Fin τ.nSub) {off : Fin 2 → ℕ}
    (inb : ∀ a, off a + S16x128.size a ≤ S16384x128.size a)
    (hs : ∀ a, (Rect.unit (s := S16384x128) off S16x128.size inb).stride a = 1) (w ch : Fin 32)
    (h : off = ![512 * w.val + 16 * ch.val, 0]) (q : PosShare TreeShare) (f : Buf (Elt F) (outLoc d)) :
    (((outV).slice (Rect.unit (s := S16384x128) off S16x128.size inb) hs).view.loc (V d c j)
        ↦[((outV).slice (Rect.unit (s := S16384x128) off S16x128.size inb) hs).view.set]{q} f : sProp 𝕄)
      = outLoc d ↦[chunk w ch]{q} f := by
  rw [set_oSlice inb hs w ch h]

end Cert.Proof.KB

end
-- ==== Proof.KB.TileInv.lean ====
/-
  The pieces a vector subcore's task moves, numbered by chunk: row n of its row-number scratch, chunk n (sixteen points)
  of its weights and of its rows of the result, each held by exactly the elements the task's own slice of the array
  names (the number read modulo thirty-two, so that every number names a piece); a run of consecutive pieces side by
  side, from which the next one is taken and to which one is added; the four read tokens of the table, one per gather
  semaphore; and what the task holds before and after, cut that way.
-/
import proofs.«209143_g59700045415095_cont_9to1_m_37_38_alg».proof.Proof.KB.TileCut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Pieces of the arrays as the task addresses them -/

section Pieces
variable (d : Dev nD) (L : grid1.Coords)

theorem L0_lt : (L 0).val < 2 := (L 0).isLt
theorem L1_lt : (L 1).val < 16 := (L 1).isLt

theorem mod32_lt (n : ℕ) : n % 32 < 32 := Nat.mod_lt n (by decide)

abbrev rowOff (n : ℕ) : Fin 2 → Nat := ![n, 0]
theorem rowOff_inb {n : ℕ} (h : n < 32) : ∀ a, rowOff n a + S1x128.size a ≤ S32x128.size a := by
  intro a; match a with
  | 0 => show n + 1 ≤ 32; omega
  | 1 => show 0 + 128 ≤ 128; omega
abbrev chunkOff (n : ℕ) : Fin 2 → Nat := ![1024 * (L 1).val + 512 * (L 0).val + 16 * n, 0]
theorem chunkOff_inb {n : ℕ} (h : n < 32) : ∀ a, chunkOff L n a + S16x128.size a ≤ S16384x128.size a := by
  have h0 := L0_lt L; have h1 := L1_lt L
  intro a; match a with
  | 0 => show 1024 * (L 1).val + 512 * (L 0).val + 16 * n + 16 ≤ 16384; omega
  | 1 => show 0 + 128 ≤ 128; omega

abbrev ivRowAt (off : Fin 2 → Nat) (hoff : ∀ a, off a + S1x128.size a ≤ S32x128.size a) : Memref sig .scVector .vmem S128 .i32 :=
  ((ivV).slice (Rect.unit (s := S32x128) off S1x128.size hoff) (fun _ => rfl)).squeeze S128 squeezes_S1x128_S128
abbrev wChunkAt (off : Fin 2 → Nat) (hoff : ∀ a, off a + S16x128.size a ≤ S16384x128.size a) : Memref sig .scVector .hbm S16x128 .f32 :=
  (wV).slice (Rect.unit (s := S16384x128) off S16x128.size hoff) (fun _ => rfl)
abbrev oChunkAt (off : Fin 2 → Nat) (hoff : ∀ a, off a + S16x128.size a ≤ S16384x128.size a) : Memref sig .scVector .hbm S16x128 .f32 :=
  (outV).slice (Rect.unit (s := S16384x128) off S16x128.size hoff) (fun _ => rfl)
abbrev tblAll : Memref sig .scVector .hbm S262144x128 .f32 :=
  (tblV).slice (Rect.unit (s := S262144x128) ![0, 0] S262144x128.size inb_S262144x128_S262144x128_0_0) (fun _ => rfl)

theorem ivRowAt_congr {off off' : Fin 2 → Nat} (e : off = off') (h h') : ivRowAt off h = ivRowAt off' h' := by subst e; rfl
theorem wChunkAt_congr {off off' : Fin 2 → Nat} (e : off = off') (h h') : wChunkAt off h = wChunkAt off' h' := by subst e; rfl
theorem oChunkAt_congr {off off' : Fin 2 → Nat} (e : off = off') (h h') : oChunkAt off h = oChunkAt off' h' := by subst e; rfl

/-- Row n of the row-number scratch, held by its own elements. -/
def ivP (fiv : Buf (Elt F) ((ivV).view.loc (V d (cV L) (jV L)))) (n : ℕ) : sProp 𝕄 :=
  (ivRowAt (rowOff (n % 32)) (rowOff_inb (mod32_lt n))).view.loc (V d (cV L) (jV L)) ↦[(ivRowAt (rowOff (n % 32)) (rowOff_inb (mod32_lt n))).view.set]{fullShare} fiv
/-- Chunk n of the tile's weights (16 points), held by its own elements. -/
def wP (wv : Buf (Elt F) (wLoc d)) (n : ℕ) : sProp 𝕄 :=
  (wChunkAt (chunkOff L (n % 32)) (chunkOff_inb L (mod32_lt n))).view.loc (V d (cV L) (jV L)) ↦[(wChunkAt (chunkOff L (n % 32)) (chunkOff_inb L (mod32_lt n))).view.set]{fullShare} wv
/-- Chunk n of the tile's rows of the result, held by its own elements. -/
def oP (f : Buf (Elt F) (outLoc d)) (n : ℕ) : sProp 𝕄 :=
  (oChunkAt (chunkOff L (n % 32)) (chunkOff_inb L (mod32_lt n))).view.loc (V d (cV L) (jV L)) ↦[(oChunkAt (chunkOff L (n % 32)) (chunkOff_inb L (mod32_lt n))).view.set]{fullShare} f

/-- The pieces numbered lo … hi - 1, side by side. -/
def homes (P : ℕ → sProp 𝕄) (lo hi : ℕ) : sProp 𝕄 := bigSep (Finset.Ico lo hi) P

theorem homes_pop (P : ℕ → sProp 𝕄) {lo hi : ℕ} (h : lo < hi) : homes P lo hi = iprop(P lo ∗ homes P (lo + 1) hi) := by
  unfold homes
  rw [← Finset.insert_Ico_add_one_left_eq_Ico h, bigSep_insert (by simp)]; rfl
theorem homes_push (P : ℕ → sProp 𝕄) {lo hi : ℕ} (h : lo ≤ hi) : homes P lo (hi + 1) = iprop(P hi ∗ homes P lo hi) := by
  unfold homes
  rw [← Finset.insert_Ico_right_eq_Ico_add_one h, bigSep_insert (by simp)]; rfl
theorem homes_nil (P : ℕ → sProp 𝕄) {lo hi : ℕ} (h : hi ≤ lo) : homes P lo hi = iprop(emp) := by
  unfold homes; rw [Finset.Ico_eq_empty (by omega), bigSep_empty]; rfl

end Pieces

section At
variable (d : Dev nD) (L : grid1.Coords)

theorem wOwn_congr (wv : Buf (Elt F) (wLoc d)) {off off' : Fin 2 → Nat} (e : off = off') (h h') :
    (((wChunkAt off h).view.loc (V d (cV L) (jV L)) ↦[(wChunkAt off h).view.set]{fullShare} wv) : sProp 𝕄) = ((wChunkAt off' h').view.loc (V d (cV L) (jV L)) ↦[(wChunkAt off' h').view.set]{fullShare} wv) := by subst e; rfl
theorem oOwn_congr (f : Buf (Elt F) (outLoc d)) {off off' : Fin 2 → Nat} (e : off = off') (h h') :
    (((oChunkAt off h).view.loc (V d (cV L) (jV L)) ↦[(oChunkAt off h).view.set]{fullShare} f) : sProp 𝕄) = ((oChunkAt off' h').view.loc (V d (cV L) (jV L)) ↦[(oChunkAt off' h').view.set]{fullShare} f) := by subst e; rfl
theorem ivOwn_congr (fiv : Buf (Elt F) ((ivV).view.loc (V d (cV L) (jV L)))) {off off' : Fin 2 → Nat} (e : off = off') (h h') :
    (((ivRowAt off h).view.loc (V d (cV L) (jV L)) ↦[(ivRowAt off h).view.set]{fullShare} fiv) : sProp 𝕄) = ((ivRowAt off' h').view.loc (V d (cV L) (jV L)) ↦[(ivRowAt off' h').view.set]{fullShare} fiv) := by subst e; rfl

theorem wP_at (wv : Buf (Elt F) (wLoc d)) {n : ℕ} (h : n < 32) (off : Fin 2 → Nat) (hoff) (e : off = chunkOff L n) :
    wP d L wv n = ((wChunkAt off hoff).view.loc (V d (cV L) (jV L)) ↦[(wChunkAt off hoff).view.set]{fullShare} wv) :=
  wOwn_congr d L wv (show chunkOff L (n % 32) = off by rw [Nat.mod_eq_of_lt h, e]) _ hoff
theorem oP_at (f : Buf (Elt F) (outLoc d)) {n : ℕ} (h : n < 32) (off : Fin 2 → Nat) (hoff) (e : off = chunkOff L n) :
    oP d L f n = ((oChunkAt off hoff).view.loc (V d (cV L) (jV L)) ↦[(oChunkAt off hoff).view.set]{fullShare} f) :=
  oOwn_congr d L f (show chunkOff L (n % 32) = off by rw [Nat.mod_eq_of_lt h, e]) _ hoff
theorem ivP_at (fiv : Buf (Elt F) ((ivV).view.loc (V d (cV L) (jV L)))) {n : ℕ} (h : n < 32) (off : Fin 2 → Nat) (hoff) (e : off = rowOff n) :
    ivP d L fiv n = ((ivRowAt off hoff).view.loc (V d (cV L) (jV L)) ↦[(ivRowAt off hoff).view.set]{fullShare} fiv) :=
  ivOwn_congr d L fiv (show rowOff (n % 32) = off by rw [Nat.mod_eq_of_lt h, e]) _ hoff

end At

/-! ## What the task holds, before and after -/

section CoreIO
variable [FloatOps F] (d : Dev nD) (L : grid1.Coords)

/-- A read token of the table for the gather semaphore numbered i. -/
abbrev tblTok (q : PosShare TreeShare) (tb : Buf (Elt F) (tblLoc d)) (i : ℕ) : sProp 𝕄 :=
  (tblV).view.loc (V d (cV L) (jV L)) ↦{Transfers.shareTokN q i} tb

/-- The tile's own memory at some contents: the row-number scratch whole, the twelve slots, the thirteen semaphores at zero. -/
def tileOwn : sProp 𝕄 :=
  iprop((∃ f, ((ivV).view.loc (V d (cV L) (jV L)) ↦{fullShare} f : sProp 𝕄))
    ∗ (∃ f, ((wSlot0).view.loc (V d (cV L) (jV L)) ↦[(wSlot0).view.set]{fullShare} f)) ∗ (∃ f, ((wSlot1).view.loc (V d (cV L) (jV L)) ↦[(wSlot1).view.set]{fullShare} f)) ∗ (∃ f, ((wSlot2).view.loc (V d (cV L) (jV L)) ↦[(wSlot2).view.set]{fullShare} f)) ∗ (∃ f, ((wSlot3).view.loc (V d (cV L) (jV L)) ↦[(wSlot3).view.set]{fullShare} f))
    ∗ (∃ f, ((rSlot0).view.loc (V d (cV L) (jV L)) ↦[(rSlot0).view.set]{fullShare} f)) ∗ (∃ f, ((rSlot1).view.loc (V d (cV L) (jV L)) ↦[(rSlot1).view.set]{fullShare} f)) ∗ (∃ f, ((rSlot2).view.loc (V d (cV L) (jV L)) ↦[(rSlot2).view.set]{fullShare} f)) ∗ (∃ f, ((rSlot3).view.loc (V d (cV L) (jV L)) ↦[(rSlot3).view.set]{fullShare} f))
    ∗ (∃ f, ((oSlot0).view.loc (V d (cV L) (jV L)) ↦[(oSlot0).view.set]{fullShare} f)) ∗ (∃ f, ((oSlot1).view.loc (V d (cV L) (jV L)) ↦[(oSlot1).view.set]{fullShare} f)) ∗ (∃ f, ((oSlot2).view.loc (V d (cV L) (jV L)) ↦[(oSlot2).view.set]{fullShare} f)) ∗ (∃ f, ((oSlot3).view.loc (V d (cV L) (jV L)) ↦[(oSlot3).view.set]{fullShare} f))
    ∗ semVal ((V d (cV L) (jV L)), SemLoc.dma cc1_scratch4.sem) 0 ∗ semVal ((V d (cV L) (jV L)), SemLoc.dma cc1_scratch5.sem) 0 ∗ semVal ((V d (cV L) (jV L)), SemLoc.dma cc1_scratch6.sem) 0 ∗ semVal ((V d (cV L) (jV L)), SemLoc.dma cc1_scratch7.sem) 0 ∗ semVal ((V d (cV L) (jV L)), SemLoc.dma cc1_scratch8.sem) 0 ∗ semVal ((V d (cV L) (jV L)), SemLoc.dma cc1_scratch9.sem) 0 ∗ semVal ((V d (cV L) (jV L)), SemLoc.dma cc1_scratch10.sem) 0 ∗ semVal ((V d (cV L) (jV L)), SemLoc.dma cc1_scratch11.sem) 0 ∗ semVal ((V d (cV L) (jV L)), SemLoc.dma cc1_scratch12.sem) 0 ∗ semVal ((V d (cV L) (jV L)), SemLoc.dma cc1_scratch13.sem) 0 ∗ semVal ((V d (cV L) (jV L)), SemLoc.dma cc1_scratch14.sem) 0 ∗ semVal ((V d (cV L) (jV L)), SemLoc.dma cc1_scratch15.sem) 0 ∗ semVal ((V d (cV L) (jV L)), SemLoc.dma cc1_scoped0.sem) 0)

/-- What the task is handed, cut as it uses it: four read tokens of the table, its block of row numbers, its weights and
    its rows of the result chunk by chunk. -/
def tileIn (q : PosShare TreeShare) (tb : Buf (Elt F) (tblLoc d)) (ix : Buf (Elt F) (idxLoc d)) (wv : Buf (Elt F) (wLoc d))
    (fo : Buf (Elt F) (outLoc d)) : sProp 𝕄 :=
  iprop(tblTok d L q tb 11 ∗ tblTok d L q tb 12 ∗ tblTok d L q tb 13 ∗ tblTok d L q tb 14
    ∗ ((iRowK L).view.loc (V d (cV L) (jV L)) ↦[(iRowK L).view.set]{fullShare} ix)
    ∗ homes (wP d L wv) 0 32 ∗ homes (oP d L fo) 0 32)

end CoreIO

end Cert.Proof.KB

end
-- ==== Proof.KB.TileFl.lean ====
/-
  What the group loop of a vector subcore's task carries from trip to trip. The contents a slot holds once a chunk has
  landed, as whole-ring functions of the arrays the call was handed: a weights slot holding chunk n has the tile's
  weight rows 16·n …, a rows slot the table rows that row n of the tile's row numbers names, a result slot the point
  loop's balanced sums of those. The three kinds of copy in flight, each delivering its slot at those contents and the
  piece it was fed from; a slot's state before group k (its gather and weights copy of chunk 4·k + b in flight unless
  the loop is over, its result copy of chunk 4·(k - 1) + b in flight unless it has not begun); and the loop's invariant.
-/
import proofs.«209143_g59700045415095_cont_9to1_m_37_38_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Flights
variable [FloatOps F] (d : Dev nD) (L : grid1.Coords)

/-! ## Canonical contents and the flights the group loop carries -/

/-- The row-number scratch after the index fetch. -/
abbrev fivOf (ix : Buf (Elt F) (idxLoc d)) (fi : Buf (Elt F) ((ivV).view.loc (V d (cV L) (jV L)))) : Buf (Elt F) ((ivV).view.loc (V d (cV L) (jV L))) :=
  View.write (Elt F) (ivV).view fi (ReadAs.same.apply ((iRowK L).view.read (Elt F) ix)) Finset.univ

/-- A weights slot holding chunk n: at (slot, p, col) the tile's weight row 16·n + p. -/
def wCanF (wv : FVec F S16384x128 .f32) (n : ℕ) : FVec F S4x16x128 .f32 :=
  fun j => wv (ix2 (⟨(512 * (wL L).val + 16 * n + (j 1).val) % 16384, Nat.mod_lt _ (by decide)⟩ : Fin 16384) (j 2))
/-- A rows slot holding chunk n: at (slot, r, col) the table row that word r of row n of the tile's row numbers names. -/
def rCanF (tb : FVec F S262144x128 .f32) (ix : IVec S32x32x128 32) (n : ℕ) : FVec F S4x128x128 .f32 :=
  fun j => tb (ix2 (rowOf (ix (ix3 (wL L) (⟨n % 32, Nat.mod_lt _ (by decide)⟩ : Fin 32) (j 1)))) (j 2))
/-- A result slot holding chunk n. -/
def oCanF (tb : FVec F S262144x128 .f32) (ix : IVec S32x32x128 32) (wv : FVec F S16384x128 .f32) (n : ℕ) : FVec F S4x16x128 .f32 :=
  ptOut (F := F) (wCanF L wv n) (rCanF L tb ix n)

abbrev tblRest (q : PosShare TreeShare) (tb : Buf (Elt F) (tblLoc d)) (i : ℕ) : sProp 𝕄 :=
  (tblV).view.loc (V d (cV L) (jV L)) ↦[Finset.univ \ (tblAll).view.set]{Transfers.shareTokN q i} tb

/-- Slot 0's gather of chunk n in flight. -/
def gFl0 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch4.sem) (default : HIx 1) 524288
    iprop((((rSlot0).view.loc (V d (cV L) (jV L)) ↦[(rSlot0).view.set]{fullShare} rCanF L tb ix n) ∗ ivP d L (fivOf d L ix fi) n)
      ∗ ((tblV).view.loc (V d (cV L) (jV L)) ↦[(tblAll).view.set]{Transfers.shareTokN q 11} tb))
/-- Slot 0's weights copy of chunk n in flight. -/
def wFl0 (wv : Buf (Elt F) (wLoc d)) (n : ℕ) : sProp 𝕄 :=
  Transfers.Flight countersEmb (V d (cV L) (jV L)) (SemLoc.dma cc1_scratch8.sem) (default : HIx 1) 65536
    iprop(((wSlot0).view.loc (V d (cV L) (jV L)) ↦[(wSlot0).view.set]{fullShare} wCanF L wv n) ∗ wP d L wv n)
/-- Slot 0's result copy of chunk n in flight. -/
def oFl0 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch12.sem) (default : HIx 1) 65536
    iprop(oP d L (skip (F := F) tb ix wv) n ∗ ((oSlot0).view.loc (V d (cV L) (jV L)) ↦[(oSlot0).view.set]{fullShare} oCanF L tb ix wv n))
/-- Slot 0 before group k. -/
def slotSt0 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl0 d L q tb ix fi (4 * k + 0) ∗ tblRest d L q tb 11 ∗ wFl0 d L wv (4 * k + 0))
      else iprop(tblTok d L q tb 11 ∗ (∃ f, ((rSlot0).view.loc (V d (cV L) (jV L)) ↦[(rSlot0).view.set]{fullShare} f)) ∗ semVal ((V d (cV L) (jV L)), SemLoc.dma cc1_scratch4.sem) 0
        ∗ (∃ f, ((wSlot0).view.loc (V d (cV L) (jV L)) ↦[(wSlot0).view.set]{fullShare} f)) ∗ semVal ((V d (cV L) (jV L)), SemLoc.dma cc1_scratch8.sem) 0))
    ∗ (if k = 0 then iprop((∃ f, ((oSlot0).view.loc (V d (cV L) (jV L)) ↦[(oSlot0).view.set]{fullShare} f)) ∗ semVal ((V d (cV L) (jV L)), SemLoc.dma cc1_scratch12.sem) 0)
      else oFl0 d L tb ix wv (4 * (k - 1) + 0)))

/-- Slot 1's gather of chunk n in flight. -/
def gFl1 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch5.sem) (default : HIx 1) 524288
    iprop((((rSlot1).view.loc (V d (cV L) (jV L)) ↦[(rSlot1).view.set]{fullShare} rCanF L tb ix n) ∗ ivP d L (fivOf d L ix fi) n)
      ∗ ((tblV).view.loc (V d (cV L) (jV L)) ↦[(tblAll).view.set]{Transfers.shareTokN q 12} tb))
/-- Slot 1's weights copy of chunk n in flight. -/
def wFl1 (wv : Buf (Elt F) (wLoc d)) (n : ℕ) : sProp 𝕄 :=
  Transfers.Flight countersEmb (V d (cV L) (jV L)) (SemLoc.dma cc1_scratch9.sem) (default : HIx 1) 65536
    iprop(((wSlot1).view.loc (V d (cV L) (jV L)) ↦[(wSlot1).view.set]{fullShare} wCanF L wv n) ∗ wP d L wv n)
/-- Slot 1's result copy of chunk n in flight. -/
def oFl1 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch13.sem) (default : HIx 1) 65536
    iprop(oP d L (skip (F := F) tb ix wv) n ∗ ((oSlot1).view.loc (V d (cV L) (jV L)) ↦[(oSlot1).view.set]{fullShare} oCanF L tb ix wv n))
/-- Slot 1 before group k. -/
def slotSt1 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl1 d L q tb ix fi (4 * k + 1) ∗ tblRest d L q tb 12 ∗ wFl1 d L wv (4 * k + 1))
      else iprop(tblTok d L q tb 12 ∗ (∃ f, ((rSlot1).view.loc (V d (cV L) (jV L)) ↦[(rSlot1).view.set]{fullShare} f)) ∗ semVal ((V d (cV L) (jV L)), SemLoc.dma cc1_scratch5.sem) 0
        ∗ (∃ f, ((wSlot1).view.loc (V d (cV L) (jV L)) ↦[(wSlot1).view.set]{fullShare} f)) ∗ semVal ((V d (cV L) (jV L)), SemLoc.dma cc1_scratch9.sem) 0))
    ∗ (if k = 0 then iprop((∃ f, ((oSlot1).view.loc (V d (cV L) (jV L)) ↦[(oSlot1).view.set]{fullShare} f)) ∗ semVal ((V d (cV L) (jV L)), SemLoc.dma cc1_scratch13.sem) 0)
      else oFl1 d L tb ix wv (4 * (k - 1) + 1)))

/-- Slot 2's gather of chunk n in flight. -/
def gFl2 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch6.sem) (default : HIx 1) 524288
    iprop((((rSlot2).view.loc (V d (cV L) (jV L)) ↦[(rSlot2).view.set]{fullShare} rCanF L tb ix n) ∗ ivP d L (fivOf d L ix fi) n)
      ∗ ((tblV).view.loc (V d (cV L) (jV L)) ↦[(tblAll).view.set]{Transfers.shareTokN q 13} tb))
/-- Slot 2's weights copy of chunk n in flight. -/
def wFl2 (wv : Buf (Elt F) (wLoc d)) (n : ℕ) : sProp 𝕄 :=
  Transfers.Flight countersEmb (V d (cV L) (jV L)) (SemLoc.dma cc1_scratch10.sem) (default : HIx 1) 65536
    iprop(((wSlot2).view.loc (V d (cV L) (jV L)) ↦[(wSlot2).view.set]{fullShare} wCanF L wv n) ∗ wP d L wv n)
/-- Slot 2's result copy of chunk n in flight. -/
def oFl2 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch14.sem) (default : HIx 1) 65536
    iprop(oP d L (skip (F := F) tb ix wv) n ∗ ((oSlot2).view.loc (V d (cV L) (jV L)) ↦[(oSlot2).view.set]{fullShare} oCanF L tb ix wv n))
/-- Slot 2 before group k. -/
def slotSt2 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl2 d L q tb ix fi (4 * k + 2) ∗ tblRest d L q tb 13 ∗ wFl2 d L wv (4 * k + 2))
      else iprop(tblTok d L q tb 13 ∗ (∃ f, ((rSlot2).view.loc (V d (cV L) (jV L)) ↦[(rSlot2).view.set]{fullShare} f)) ∗ semVal ((V d (cV L) (jV L)), SemLoc.dma cc1_scratch6.sem) 0
        ∗ (∃ f, ((wSlot2).view.loc (V d (cV L) (jV L)) ↦[(wSlot2).view.set]{fullShare} f)) ∗ semVal ((V d (cV L) (jV L)), SemLoc.dma cc1_scratch10.sem) 0))
    ∗ (if k = 0 then iprop((∃ f, ((oSlot2).view.loc (V d (cV L) (jV L)) ↦[(oSlot2).view.set]{fullShare} f)) ∗ semVal ((V d (cV L) (jV L)), SemLoc.dma cc1_scratch14.sem) 0)
      else oFl2 d L tb ix wv (4 * (k - 1) + 2)))

/-- Slot 3's gather of chunk n in flight. -/
def gFl3 (q : PosShare TreeShare) (tb : Buf (Elt F) (tblLoc d)) (ix : Buf (Elt F) (idxLoc d)) (fi : Buf (Elt F) ((ivV).view.loc (V d (cV L) (jV L)))) (n : ℕ) : sProp 𝕄 :=
  Transfers.Flight countersEmb (V d (cV L) (jV L)) (SemLoc.dma cc1_scratch7.sem) (default : HIx 1) 524288
    iprop((((rSlot3).view.loc (V d (cV L) (jV L)) ↦[(rSlot3).view.set]{fullShare} rCanF L tb ix n) ∗ ivP d L (fivOf d L ix fi) n)
      ∗ ((tblV).view.loc (V d (cV L) (jV L)) ↦[(tblAll).view.set]{Transfers.shareTokN q 14} tb))
/-- Slot 3's weights copy of chunk n in flight. -/
def wFl3 (wv : Buf (Elt F) (wLoc d)) (n : ℕ) : sProp 𝕄 :=
  Transfers.Flight countersEmb (V d (cV L) (jV L)) (SemLoc.dma cc1_scratch11.sem) (default : HIx 1) 65536
    iprop(((wSlot3).view.loc (V d (cV L) (jV L)) ↦[(wSlot3).view.set]{fullShare} wCanF L wv n) ∗ wP d L wv n)
/-- Slot 3's result copy of chunk n in flight. -/
def oFl3 (tb : Buf (Elt F) (tblLoc d)) (ix : Buf (Elt F) (idxLoc d)) (wv : Buf (Elt F) (wLoc d)) (n : ℕ) : sProp 𝕄 :=
  Transfers.Flight countersEmb (V d (cV L) (jV L)) (SemLoc.dma cc1_scratch15.sem) (default : HIx 1) 65536
    iprop(oP d L (skip (F := F) tb ix wv) n ∗ ((oSlot3).view.loc (V d (cV L) (jV L)) ↦[(oSlot3).view.set]{fullShare} oCanF L tb ix wv n))
/-- Slot 3 before group k. -/
def slotSt3 (q : PosShare TreeShare) (tb : Buf (Elt F) (tblLoc d)) (ix : Buf (Elt F) (idxLoc d)) (wv : Buf (Elt F) (wLoc d))
    (fi : Buf (Elt F) ((ivV).view.loc (V d (cV L) (jV L)))) (k : ℕ) : sProp 𝕄 :=
  iprop((if k < 8 then iprop(gFl3 d L q tb ix fi (4 * k + 3) ∗ tblRest d L q tb 14 ∗ wFl3 d L wv (4 * k + 3))
      else iprop(tblTok d L q tb 14 ∗ (∃ f, ((rSlot3).view.loc (V d (cV L) (jV L)) ↦[(rSlot3).view.set]{fullShare} f)) ∗ semVal ((V d (cV L) (jV L)), SemLoc.dma cc1_scratch7.sem) 0
        ∗ (∃ f, ((wSlot3).view.loc (V d (cV L) (jV L)) ↦[(wSlot3).view.set]{fullShare} f)) ∗ semVal ((V d (cV L) (jV L)), SemLoc.dma cc1_scratch11.sem) 0))
    ∗ (if k = 0 then iprop((∃ f, ((oSlot3).view.loc (V d (cV L) (jV L)) ↦[(oSlot3).view.set]{fullShare} f)) ∗ semVal ((V d (cV L) (jV L)), SemLoc.dma cc1_scratch15.sem) 0)
      else oFl3 d L tb ix wv (4 * (k - 1) + 3)))

/-- Before group k: the waits' evidence, what the thread owes, the pieces at home on either side of the four chunks in
    flight, the four slots. -/
def gInv (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (k : ℕ) (_ : PUnit) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ homes (ivP d L (fivOf d L ix fi)) 0 (4 * k) ∗ homes (ivP d L (fivOf d L ix fi)) (4 * k + 4) 32
    ∗ homes (wP d L wv) 0 (4 * k) ∗ homes (wP d L wv) (4 * k + 4) 32
    ∗ homes (oP d L (skip (F := F) tb ix wv)) 0 (4 * k - 4) ∗ homes (oP d L o0) (4 * k) 32
    ∗ slotSt0 d L q tb ix wv fi k ∗ slotSt1 d L q tb ix wv fi k ∗ slotSt2 d L q tb ix wv fi k ∗ slotSt3 d L q tb ix wv fi k)

end Flights

end Cert.Proof.KB

end
-- ==== Proof.KB.TilePt.lean ====
/-
  One trip of the point loop, slot by slot. The trip at point p of slot b loads the point's eight weight strips (sixteen
  lanes each, at (b, p, 16·i)) and, for each of the eight strips v of the result, the eight table rows' strips at
  (b, 8·p + i, 16·v); at (b, p, 16·v) it stores the balanced sum over the corners i of weight strip i times row strip i,
  lane by lane, in the order ((t0 + t1) + (t2 + t3)) + ((t4 + t5) + (t6 + t7)). Read at an element (b, q, col) of the
  result ring after the eight stores: for q = p the strip v with 16·v ≤ col < 16·v + 16 reaches it, and every strip
  holds the point loop's value at each of its own elements; for q < p no strip of this trip reaches row q, so the
  element is what the earlier trips left, which is the value by the invariant.
-/
import proofs.«209143_g59700045415095_cont_9to1_m_37_38_alg».proof.Proof.KB.TileDefs
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Lanes of a strip -/

section Lanes
variable {α : Type}

/-- A strip of sixteen lanes, shaped [1, 1, 16], viewed as a vector of sixteen: lane l is the strip at (0, 0, l). -/
theorem strip_as_lanes (x : S1x1x16.Idx → α) (h : S1x1x16.ShapeCasts S16) (l : Fin 16) :
    shapeCast S16 x h (ix1 l) = x (ix3 (0 : Fin 1) (0 : Fin 1) l) :=
  shapeCast_apply x h _ _ (by
    rw [Shape.rowMajor_val_three, Shape.rowMajor_val_one]
    show (0 * 1 + 0) * 16 + l.val = l.val
    omega)

/-- A vector of sixteen viewed as a strip shaped [1, 1, 16]: the strip at (u, u', l) is lane l. -/
theorem lanes_as_strip (x : S16.Idx → α) (h : S16.ShapeCasts S1x1x16) (u u' : Fin 1) (l : Fin 16) :
    shapeCast S1x1x16 x h (ix3 u u' l) = x (ix1 l) :=
  shapeCast_apply x h _ _ (by
    have hu : u.val = 0 := by omega
    have hu' : u'.val = 0 := by omega
    rw [Shape.rowMajor_val_three, Shape.rowMajor_val_one]
    show l.val = (u.val * 1 + u'.val) * 16 + l.val
    omega)

/-- Two indices of a rank-three array with the same three coordinates are the same index. -/
theorem idx3_eq {n0 n1 n2 : ℕ} {x y : (⟨3, ![n0, n1, n2]⟩ : Shape).Idx} (h0 : (x 0).val = (y 0).val) (h1 : (x 1).val = (y 1).val)
    (h2 : (x 2).val = (y 2).val) : x = y :=
  funext fun a => Fin.ext <| match a with | ⟨0, _⟩ => h0 | ⟨1, _⟩ => h1 | ⟨2, _⟩ => h2

end Lanes

/-! ## One strip of the point loop's result -/

section Strip
variable [FloatOps F]

/-- A vector literal of three coordinates, coordinate by coordinate. -/
theorem vec3_coords {off : Fin 3 → ℕ} {a b c : ℕ} (h : off = ![a, b, c]) : off 0 = a ∧ off 1 = b ∧ off 2 = c := by
  subst h; exact ⟨rfl, rfl, rfl⟩

/-- Lane l of a strip loaded from the weight ring at offsets off is the ring at (off 0, off 1, off 2 + l). -/
theorem wv_lane (fw : FVec F S4x16x128 .f32) (off : Fin 3 → ℕ) (inb : ∀ a, off a + S1x1x16.size a ≤ S4x16x128.size a)
    (h : S1x1x16.ShapeCasts S16) (l : Fin 16) (j : S4x16x128.Idx)
    (h0 : off 0 = (j 0).val) (h1 : off 1 = (j 1).val) (h2 : off 2 + l.val = (j 2).val) :
    shapeCast S16 (View.readAt (Elt F) wvV.view (Rect.unit (s := S4x16x128) off S1x1x16.size inb).toLoadRect fw) h (ix1 l) = fw j := by
  rw [strip_as_lanes]
  show fw _ = fw j
  congr 1
  exact idx3_eq (by show off 0 + 1 * 0 = _; omega) (by show off 1 + 1 * 0 = _; omega) (by show off 2 + 1 * l.val = _; omega)

/-- Lane l of a strip loaded from the row ring at offsets off is the ring at (off 0, off 1, off 2 + l). -/
theorem rv_lane (fr : FVec F S4x128x128 .f32) (off : Fin 3 → ℕ) (inb : ∀ a, off a + S1x1x16.size a ≤ S4x128x128.size a)
    (h : S1x1x16.ShapeCasts S16) (l : Fin 16) (j : S4x128x128.Idx)
    (h0 : off 0 = (j 0).val) (h1 : off 1 = (j 1).val) (h2 : off 2 + l.val = (j 2).val) :
    shapeCast S16 (View.readAt (Elt F) rvV.view (Rect.unit (s := S4x128x128) off S1x1x16.size inb).toLoadRect fr) h (ix1 l) = fr j := by
  rw [strip_as_lanes]
  show fr _ = fr j
  congr 1
  exact idx3_eq (by show off 0 + 1 * 0 = _; omega) (by show off 1 + 1 * 0 = _; omega) (by show off 2 + 1 * l.val = _; omega)

end Strip

section StripValue
variable [FloatOps F]

/-- Corner i's sixteen products for one strip: the weights' strip at oW times the rows' strip at oR, lane by lane. -/
abbrev stripTerm (fw : FVec F S4x16x128 .f32) (fr : FVec F S4x128x128 .f32)
    (oW : Fin 3 → ℕ) (iW : ∀ a, oW a + S1x1x16.size a ≤ S4x16x128.size a)
    (oR : Fin 3 → ℕ) (iR : ∀ a, oR a + S1x1x16.size a ≤ S4x128x128.size a) (h1 : S1x1x16.ShapeCasts S16) : FVec F S16 .f32 :=
  mulf (shapeCast S16 (View.readAt (Elt F) wvV.view (Rect.unit (s := S4x16x128) oW S1x1x16.size iW).toLoadRect fw) h1)
    (shapeCast S16 (View.readAt (Elt F) rvV.view (Rect.unit (s := S4x128x128) oR S1x1x16.size iR).toLoadRect fr) h1)

/-- One lane of one corner's products is that corner's term of the point loop's value: slot b, point p, strip v, lane l,
    corner i, the weights' strip at (b, p, 16·i) and the rows' strip at (b, 8·p + i, 16·v). -/
theorem stripTerm_lane (fw : FVec F S4x16x128 .f32) (fr : FVec F S4x128x128 .f32) (b p v i : ℕ) (hb : b < 4) (hp : p < 16) (hv : v < 8) (hi : i < 8)
    (oW : Fin 3 → ℕ) (iW : ∀ a, oW a + S1x1x16.size a ≤ S4x16x128.size a) (hW : oW = ![b, p, 16 * i])
    (oR : Fin 3 → ℕ) (iR : ∀ a, oR a + S1x1x16.size a ≤ S4x128x128.size a) (hR : oR = ![b, 8 * p + i, 16 * v])
    (h1 : S1x1x16.ShapeCasts S16) (l : Fin 16) :
    stripTerm fw fr oW iW oR iR h1 (ix1 l)
      = ptTerm fw fr (⟨b, hb⟩ : Fin 4) (⟨p, hp⟩ : Fin 16) (⟨16 * v + l.val, by omega⟩ : Fin 128) (⟨i, hi⟩ : Fin 8) := by
  obtain ⟨w0, w1, w2⟩ := vec3_coords hW
  obtain ⟨r0, r1, r2⟩ := vec3_coords hR
  show FloatOps.mulf _ _ = FloatOps.mulf _ _
  congr 1
  · exact wv_lane fw oW iW h1 l _ (by show oW 0 = b; omega) (by show oW 1 = p; omega)
      (by show oW 2 + l.val = 16 * i + (16 * v + l.val) % 16; omega)
  · exact rv_lane fr oR iR h1 l _ (by show oR 0 = b; omega) (by show oR 1 = 8 * p + i; omega)
      (by show oR 2 + l.val = 16 * v + l.val; omega)

/-- One strip of sixteen lanes the point loop stores — the balanced sum of the eight corners' products, the weights' strips at
    (b, p, 16·i), the rows' strips at (b, 8·p + i, 16·v), stored at (b, p, 16·v) — is the point loop's value there. -/
theorem strip_value (fw : FVec F S4x16x128 .f32) (fr : FVec F S4x128x128 .f32) (b p : ℕ) (hb : b < 4) (hp : p < 16)
    (oW0 oW1 oW2 oW3 oW4 oW5 oW6 oW7 : Fin 3 → ℕ)
    (iW0 : ∀ a, oW0 a + S1x1x16.size a ≤ S4x16x128.size a) (iW1 : ∀ a, oW1 a + S1x1x16.size a ≤ S4x16x128.size a)
    (iW2 : ∀ a, oW2 a + S1x1x16.size a ≤ S4x16x128.size a) (iW3 : ∀ a, oW3 a + S1x1x16.size a ≤ S4x16x128.size a)
    (iW4 : ∀ a, oW4 a + S1x1x16.size a ≤ S4x16x128.size a) (iW5 : ∀ a, oW5 a + S1x1x16.size a ≤ S4x16x128.size a)
    (iW6 : ∀ a, oW6 a + S1x1x16.size a ≤ S4x16x128.size a) (iW7 : ∀ a, oW7 a + S1x1x16.size a ≤ S4x16x128.size a)
    (hW0 : oW0 = ![b, p, 0]) (hW1 : oW1 = ![b, p, 16]) (hW2 : oW2 = ![b, p, 32]) (hW3 : oW3 = ![b, p, 48])
    (hW4 : oW4 = ![b, p, 64]) (hW5 : oW5 = ![b, p, 80]) (hW6 : oW6 = ![b, p, 96]) (hW7 : oW7 = ![b, p, 112])
    (v : ℕ) (hv : v < 8)
    (oR : BitVec 32 → Fin 3 → ℕ) (iR : ∀ r : Fin 8, ∀ a, oR (BitVec.ofNat 32 r.val) a + S1x1x16.size a ≤ S4x128x128.size a)
    (hR : ∀ r : Fin 8, oR (BitVec.ofNat 32 r.val) = ![b, 8 * p + r.val, 16 * v])
    (oO : Fin 3 → ℕ) (iO : ∀ a, oO a + S1x1x16.size a ≤ S4x16x128.size a) (hO : oO = ![b, p, 16 * v])
    (h1 : S1x1x16.ShapeCasts S16) (h2 : S16.ShapeCasts S1x1x16) (x : S1x1x16.Idx) :
    shapeCast S1x1x16
        (addf
          (addf (addf (stripTerm fw fr oW0 iW0 (oR 0#32) (iR 0) h1) (stripTerm fw fr oW1 iW1 (oR 1#32) (iR 1) h1))
            (addf (stripTerm fw fr oW2 iW2 (oR 2#32) (iR 2) h1) (stripTerm fw fr oW3 iW3 (oR 3#32) (iR 3) h1)))
          (addf (addf (stripTerm fw fr oW4 iW4 (oR 4#32) (iR 4) h1) (stripTerm fw fr oW5 iW5 (oR 5#32) (iR 5) h1))
            (addf (stripTerm fw fr oW6 iW6 (oR 6#32) (iR 6) h1) (stripTerm fw fr oW7 iW7 (oR 7#32) (iR 7) h1)))) h2 x
      = ptOut fw fr ((Rect.unit (s := S4x16x128) oO S1x1x16.size iO).emb x) := by
  obtain ⟨u, u', l, rfl⟩ : ∃ (u u' : Fin 1) (l : Fin 16), x = ix3 u u' l := ⟨x 0, x 1, x 2, eq_ix3 x⟩
  obtain ⟨o0, o1, o2⟩ := vec3_coords hO
  have hu : u.val = 0 := by omega
  have hu' : u'.val = 0 := by omega
  have hj : (Rect.unit (s := S4x16x128) oO S1x1x16.size iO).emb (ix3 u u' l)
      = ix3 (⟨b, hb⟩ : Fin 4) (⟨p, hp⟩ : Fin 16) (⟨16 * v + l.val, by omega⟩ : Fin 128) :=
    idx3_eq (by show oO 0 + 1 * u.val = b; omega) (by show oO 1 + 1 * u'.val = p; omega)
      (by show oO 2 + 1 * l.val = 16 * v + l.val; omega)
  rw [hj, lanes_as_strip]
  have t0 := stripTerm_lane fw fr b p v 0 hb hp hv (by omega) oW0 iW0 hW0 (oR 0#32) (iR 0) (hR 0) h1 l
  have t1 := stripTerm_lane fw fr b p v 1 hb hp hv (by omega) oW1 iW1 hW1 (oR 1#32) (iR 1) (hR 1) h1 l
  have t2 := stripTerm_lane fw fr b p v 2 hb hp hv (by omega) oW2 iW2 hW2 (oR 2#32) (iR 2) (hR 2) h1 l
  have t3 := stripTerm_lane fw fr b p v 3 hb hp hv (by omega) oW3 iW3 hW3 (oR 3#32) (iR 3) (hR 3) h1 l
  have t4 := stripTerm_lane fw fr b p v 4 hb hp hv (by omega) oW4 iW4 hW4 (oR 4#32) (iR 4) (hR 4) h1 l
  have t5 := stripTerm_lane fw fr b p v 5 hb hp hv (by omega) oW5 iW5 hW5 (oR 5#32) (iR 5) (hR 5) h1 l
  have t6 := stripTerm_lane fw fr b p v 6 hb hp hv (by omega) oW6 iW6 hW6 (oR 6#32) (iR 6) (hR 6) h1 l
  have t7 := stripTerm_lane fw fr b p v 7 hb hp hv (by omega) oW7 iW7 hW7 (oR 7#32) (iR 7) (hR 7) h1 l
  exact congrArg₂ FloatOps.addf
    (congrArg₂ FloatOps.addf (congrArg₂ FloatOps.addf t0 t1) (congrArg₂ FloatOps.addf t2 t3))
    (congrArg₂ FloatOps.addf (congrArg₂ FloatOps.addf t4 t5) (congrArg₂ FloatOps.addf t6 t7))

end StripValue

/-! ## Which stores of a trip reach an element of the result ring -/

section Members

/-- A strip stored at point p does not reach another point's row. -/
theorem not_mem_strip_of_point_ne (off : Fin 3 → ℕ) (inb : ∀ a, off a + S1x1x16.size a ≤ S4x16x128.size a) (b p c : ℕ)
    (hoff : off = ![b, p, c]) (b' : Fin 4) (q : Fin 16) (col : Fin 128) (hne : q.val ≠ p) :
    ix3 b' q col ∉ (Rect.unit (s := S4x16x128) off S1x1x16.size inb).set := by
  intro h
  obtain ⟨-, e1, -⟩ := vec3_coords hoff
  have h1 : off 1 ≤ q.val ∧ q.val < off 1 + 1 := (Rect.mem_set_unit.mp h) 1
  omega

/-- The strip stored at (b, p, c … c + 15) reaches the element (b, p, col) for c ≤ col < c + 16. -/
theorem mem_strip (off : Fin 3 → ℕ) (inb : ∀ a, off a + S1x1x16.size a ≤ S4x16x128.size a) (b p c : ℕ)
    (hoff : off = ![b, p, c]) (b' : Fin 4) (q : Fin 16) (col : Fin 128) (hb : b'.val = b) (hq : q.val = p)
    (hc : c ≤ col.val ∧ col.val < c + 16) :
    ix3 b' q col ∈ (Rect.unit (s := S4x16x128) off S1x1x16.size inb).set := by
  obtain ⟨e0, e1, e2⟩ := vec3_coords hoff
  refine Rect.mem_set_unit.mpr fun a => ?_
  match a with
  | ⟨0, _⟩ => show off 0 ≤ b'.val ∧ b'.val < off 0 + 1; omega
  | ⟨1, _⟩ => show off 1 ≤ q.val ∧ q.val < off 1 + 1; omega
  | ⟨2, _⟩ => show off 2 ≤ col.val ∧ col.val < off 2 + 16; omega

end Members

/-! ## The point loop's trip -/

section Trip
variable [FloatOps F] (d : Dev nD) (L : grid1.Coords)

set_option maxHeartbeats 4000000 in
theorem ptTrip0 (v2 c0 c1 : BitVec 32) (g : Fin k1_t1_loop.trips)
    (fw : Buf (Elt F) ((wSlot0).view.loc (V d (cV L) (jV L)))) (fr : Buf (Elt F) ((rSlot0).view.loc (V d (cV L) (jV L)))) :
    ∀ (k : Fin k1_t2_loop.trips) (acc : Unit),
      ptInv0 d L fw fr k.val acc ⊢ wp frame (wpE (defs₀ (F := F)) 𝒱₀ (V d (cV L) (jV L)) none) Set.univ
          (k1_t2_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 c0 c1 g k acc) (ptInv0 d L fw fr (k.val + 1)) := by
  intro k acc
  have hk16 : k.val < 16 := lt_of_lt_of_le k.isLt k1_t2_abs.2.1
  unfold ptInv0
  iintro ⟨Hw, Hr, %fo, Ho, %hfo⟩
  sl_unfold [k1_t2_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 0 k.val (by omega) hk16
    (k1_off5 k) (k1_off6 k) (k1_off7 k) (k1_off8 k) (k1_off9 k) (k1_off10 k) (k1_off11 k) (k1_off12 k)
    (k1_off5_inb k) (k1_off6_inb k) (k1_off7_inb k) (k1_off8_inb k) (k1_off9_inb k) (k1_off10_inb k) (k1_off11_inb k) (k1_off12_inb k)
    (k1_off5_eq k) (k1_off6_eq k) (k1_off7_eq k) (k1_off8_eq k) (k1_off9_eq k) (k1_off10_eq k) (k1_off11_eq k) (k1_off12_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (0 : Fin 4) q col) ?_
    · intro pc hpc
      simp only [List.mem_cons, List.not_mem_nil, or_false] at hpc
      rcases hpc with rfl | rfl | rfl | rfl | rfl | rfl | rfl | rfl
      · exact W 7 (by omega) (k1_off20 k) (k1_off20_inb k) (k1_off20_eq k) (k1_off12 k) (k1_off12_inb k) (k1_off12_eq k)
          shapeCasts_S1x1x16_S16 shapeCasts_S16_S1x1x16
      · exact W 6 (by omega) (k1_off19 k) (k1_off19_inb k) (k1_off19_eq k) (k1_off11 k) (k1_off11_inb k) (k1_off11_eq k)
          shapeCasts_S1x1x16_S16 shapeCasts_S16_S1x1x16
      · exact W 5 (by omega) (k1_off18 k) (k1_off18_inb k) (k1_off18_eq k) (k1_off10 k) (k1_off10_inb k) (k1_off10_eq k)
          shapeCasts_S1x1x16_S16 shapeCasts_S16_S1x1x16
      · exact W 4 (by omega) (k1_off17 k) (k1_off17_inb k) (k1_off17_eq k) (k1_off9 k) (k1_off9_inb k) (k1_off9_eq k)
          shapeCasts_S1x1x16_S16 shapeCasts_S16_S1x1x16
      · exact W 3 (by omega) (k1_off16 k) (k1_off16_inb k) (k1_off16_eq k) (k1_off8 k) (k1_off8_inb k) (k1_off8_eq k)
          shapeCasts_S1x1x16_S16 shapeCasts_S16_S1x1x16
      · exact W 2 (by omega) (k1_off15 k) (k1_off15_inb k) (k1_off15_eq k) (k1_off7 k) (k1_off7_inb k) (k1_off7_eq k)
          shapeCasts_S1x1x16_S16 shapeCasts_S16_S1x1x16
      · exact W 1 (by omega) (k1_off14 k) (k1_off14_inb k) (k1_off14_eq k) (k1_off6 k) (k1_off6_inb k) (k1_off6_eq k)
          shapeCasts_S1x1x16_S16 shapeCasts_S16_S1x1x16
      · exact W 0 (by omega) (k1_off13 k) (k1_off13_inb k) (k1_off13_eq k) (k1_off5 k) (k1_off5_inb k) (k1_off5_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off5_inb k) _ _ _ (k1_off5_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off6_inb k) _ _ _ (k1_off6_eq k) _ q col rfl hqk (by omega)⟩
      · exact ⟨_, List.Mem.tail _ (List.Mem.tail _ (List.Mem.tail _ (List.Mem.tail _ (List.Mem.tail _ (List.Mem.head _))))),
          mem_strip _ (k1_off7_inb k) _ _ _ (k1_off7_eq k) _ q col rfl hqk (by omega)⟩
      · exact ⟨_, List.Mem.tail _ (List.Mem.tail _ (List.Mem.tail _ (List.Mem.tail _ (List.Mem.head _)))),
          mem_strip _ (k1_off8_inb k) _ _ _ (k1_off8_eq k) _ q col rfl hqk (by omega)⟩
      · exact ⟨_, List.Mem.tail _ (List.Mem.tail _ (List.Mem.tail _ (List.Mem.head _))),
          mem_strip _ (k1_off9_inb k) _ _ _ (k1_off9_eq k) _ q col rfl hqk (by omega)⟩
      · exact ⟨_, List.Mem.tail _ (List.Mem.tail _ (List.Mem.head _)),
          mem_strip _ (k1_off10_inb k) _ _ _ (k1_off10_eq k) _ q col rfl hqk (by omega)⟩
      · exact ⟨_, List.Mem.tail _ (List.Mem.head _),
          mem_strip _ (k1_off11_inb k) _ _ _ (k1_off11_eq k) _ q col rfl hqk (by omega)⟩
      · exact ⟨_, List.Mem.head _,
          mem_strip _ (k1_off12_inb k) _ _ _ (k1_off12_eq k) _ q col rfl hqk (by omega)⟩
  · -- an earlier point: no strip of this trip reaches its row
    have hlt : q.val < k.val := by omega
    refine (View.read_writes_apply_of_forall_not_mem ovV.view fo (ix3 (0 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off12_inb k) _ _ _ (k1_off12_eq k) _ q col hqk
    · exact not_mem_strip_of_point_ne _ (k1_off11_inb k) _ _ _ (k1_off11_eq k) _ q col hqk
    · exact not_mem_strip_of_point_ne _ (k1_off10_inb k) _ _ _ (k1_off10_eq k) _ q col hqk
    · exact not_mem_strip_of_point_ne _ (k1_off9_inb k) _ _ _ (k1_off9_eq k) _ q col hqk
    · exact not_mem_strip_of_point_ne _ (k1_off8_inb k) _ _ _ (k1_off8_eq k) _ q col hqk
    · exact not_mem_strip_of_point_ne _ (k1_off7_inb k) _ _ _ (k1_off7_eq k) _ q col hqk
    · exact not_mem_strip_of_point_ne _ (k1_off6_inb k) _ _ _ (k1_off6_eq k) _ q col hqk
    · exact not_mem_strip_of_point_ne _ (k1_off5_inb k) _ _ _ (k1_off5_eq k) _ q col hqk

set_option maxHeartbeats 4000000 in
theorem ptTrip1 (g : Fin k1_t1_loop.trips) (arg22 : BitVec 32)
    (fw : Buf (Elt F) ((wSlot1).view.loc (V d (cV L) (jV L)))) (fr : Buf (Elt F) ((rSlot1).view.loc (V d (cV L) (jV L)))) :
    ∀ (k : Fin k1_t3_loop.trips) (acc : Unit),
      ptInv1 d L fw fr k.val acc ⊢ wp frame (wpE (defs₀ (F := F)) 𝒱₀ (V d (cV L) (jV L)) none) Set.univ
          (k1_t3_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 g arg22 k acc) (ptInv1 d L fw fr (k.val + 1)) := by
  intro k acc
  have hk16 : k.val < 16 := lt_of_lt_of_le k.isLt k1_t3_abs.2.1
  unfold ptInv1
  iintro ⟨Hw, Hr, %fo, Ho, %hfo⟩
  sl_unfold [k1_t3_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 1 k.val (by omega) hk16
    (k1_off25 k) (k1_off26 k) (k1_off27 k) (k1_off28 k) (k1_off29 k) (k1_off30 k) (k1_off31 k) (k1_off32 k)
    (k1_off25_inb k) (k1_off26_inb k) (k1_off27_inb k) (k1_off28_inb k) (k1_off29_inb k) (k1_off30_inb k) (k1_off31_inb k) (k1_off32_inb k)
    (k1_off25_eq k) (k1_off26_eq k) (k1_off27_eq k) (k1_off28_eq k) (k1_off29_eq k) (k1_off30_eq k) (k1_off31_eq k) (k1_off32_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (1 : Fin 4) q col) ?_
    · intro pc hpc
      simp only [List.mem_cons, List.not_mem_nil, or_false] at hpc
      rcases hpc with rfl | rfl | rfl | rfl | rfl | rfl | rfl | rfl
      · exact W 7 (by omega) (k1_off40 k) (k1_off40_inb k) (k1_off40_eq k) (k1_off32 k) (k1_off32_inb k) (k1_off32_eq k)
          shapeCasts_S1x1x16_S16 shapeCasts_S16_S1x1x16
      · exact W 6 (by omega) (k1_off39 k) (k1_off39_inb k) (k1_off39_eq k) (k1_off31 k) (k1_off31_inb k) (k1_off31_eq k)
          shapeCasts_S1x1x16_S16 shapeCasts_S16_S1x1x16
      · exact W 5 (by omega) (k1_off38 k) (k1_off38_inb k) (k1_off38_eq k) (k1_off30 k) (k1_off30_inb k) (k1_off30_eq k)
          shapeCasts_S1x1x16_S16 shapeCasts_S16_S1x1x16
      · exact W 4 (by omega) (k1_off37 k) (k1_off37_inb k) (k1_off37_eq k) (k1_off29 k) (k1_off29_inb k) (k1_off29_eq k)
          shapeCasts_S1x1x16_S16 shapeCasts_S16_S1x1x16
      · exact W 3 (by omega) (k1_off36 k) (k1_off36_inb k) (k1_off36_eq k) (k1_off28 k) (k1_off28_inb k) (k1_off28_eq k)
          shapeCasts_S1x1x16_S16 shapeCasts_S16_S1x1x16
      · exact W 2 (by omega) (k1_off35 k) (k1_off35_inb k) (k1_off35_eq k) (k1_off27 k) (k1_off27_inb k) (k1_off27_eq k)
          shapeCasts_S1x1x16_S16 shapeCasts_S16_S1x1x16
      · exact W 1 (by omega) (k1_off34 k) (k1_off34_inb k) (k1_off34_eq k) (k1_off26 k) (k1_off26_inb k) (k1_off26_eq k)
          shapeCasts_S1x1x16_S16 shapeCasts_S16_S1x1x16
      · exact W 0 (by omega) (k1_off33 k) (k1_off33_inb k) (k1_off33_eq k) (k1_off25 k) (k1_off25_inb k) (k1_off25_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off25_inb k) _ _ _ (k1_off25_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off26_inb k) _ _ _ (k1_off26_eq k) _ q col rfl hqk (by omega)⟩
      · exact ⟨_, List.Mem.tail _ (List.Mem.tail _ (List.Mem.tail _ (List.Mem.tail _ (List.Mem.tail _ (List.Mem.head _))))),
          mem_strip _ (k1_off27_inb k) _ _ _ (k1_off27_eq k) _ q col rfl hqk (by omega)⟩
      · exact ⟨_, List.Mem.tail _ (List.Mem.tail _ (List.Mem.tail _ (List.Mem.tail _ (List.Mem.head _)))),
          mem_strip _ (k1_off28_inb k) _ _ _ (k1_off28_eq k) _ q col rfl hqk (by omega)⟩
      · exact ⟨_, List.Mem.tail _ (List.Mem.tail _ (List.Mem.tail _ (List.Mem.head _))),
          mem_strip _ (k1_off29_inb k) _ _ _ (k1_off29_eq k) _ q col rfl hqk (by omega)⟩
      · exact ⟨_, List.Mem.tail _ (List.Mem.tail _ (List.Mem.head _)),
          mem_strip _ (k1_off30_inb k) _ _ _ (k1_off30_eq k) _ q col rfl hqk (by omega)⟩
      · exact ⟨_, List.Mem.tail _ (List.Mem.head _),
          mem_strip _ (k1_off31_inb k) _ _ _ (k1_off31_eq k) _ q col rfl hqk (by omega)⟩
      · exact ⟨_, List.Mem.head _,
          mem_strip _ (k1_off32_inb k) _ _ _ (k1_off32_eq k) _ q col rfl hqk (by omega)⟩
  · -- an earlier point: no strip of this trip reaches its row
    have hlt : q.val < k.val := by omega
    refine (View.read_writes_apply_of_forall_not_mem ovV.view fo (ix3 (1 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off32_inb k) _ _ _ (k1_off32_eq k) _ q col hqk
    · exact not_mem_strip_of_point_ne _ (k1_off31_inb k) _ _ _ (k1_off31_eq k) _ q col hqk
    · exact not_mem_strip_of_point_ne _ (k1_off30_inb k) _ _ _ (k1_off30_eq k) _ q col hqk
    · exact not_mem_strip_of_point_ne _ (k1_off29_inb k) _ _ _ (k1_off29_eq k) _ q col hqk
    · exact not_mem_strip_of_point_ne _ (k1_off28_inb k) _ _ _ (k1_off28_eq k) _ q col hqk
    · exact not_mem_strip_of_point_ne _ (k1_off27_inb k) _ _ _ (k1_off27_eq k) _ q col hqk
    · exact not_mem_strip_of_point_ne _ (k1_off26_inb k) _ _ _ (k1_off26_eq k) _ q col hqk
    · exact not_mem_strip_of_point_ne _ (k1_off25_inb k) _ _ _ (k1_off25_eq k) _ q col hqk

set_option maxHeartbeats 4000000 in
theorem ptTrip2 (v2 : BitVec 32) (g : Fin k1_t1_loop.trips) (arg22 v135 c0 : BitVec 32)
    (fw : Buf (Elt F) ((wSlot2).view.loc (V d (cV L) (jV L)))) (fr : Buf (Elt F) ((rSlot2).view.loc (V d (cV L) (jV L)))) :
    ∀ (k : Fin k1_t4_loop.trips) (acc : Unit),
      ptInv2 d L fw fr k.val acc ⊢ wp frame (wpE (defs₀ (F := F)) 𝒱₀ (V d (cV L) (jV L)) none) Set.univ
          (k1_t4_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g arg22 v135 c0 k acc) (ptInv2 d L fw fr (k.val + 1)) := by
  intro k acc
  have hk16 : k.val < 16 := lt_of_lt_of_le k.isLt k1_t4_abs.2.1
  unfold ptInv2
  iintro ⟨Hw, Hr, %fo, Ho, %hfo⟩
  sl_unfold [k1_t4_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 2 k.val (by omega) hk16
    (k1_off44 k) (k1_off45 k) (k1_off46 k) (k1_off47 k) (k1_off48 k) (k1_off49 k) (k1_off50 k) (k1_off51 k)
    (k1_off44_inb k) (k1_off45_inb k) (k1_off46_inb k) (k1_off47_inb k) (k1_off48_inb k) (k1_off49_inb k) (k1_off50_inb k) (k1_off51_inb k)
    (k1_off44_eq k) (k1_off45_eq k) (k1_off46_eq k) (k1_off47_eq k) (k1_off48_eq k) (k1_off49_eq k) (k1_off50_eq k) (k1_off51_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (2 : Fin 4) q col) ?_
    · intro pc hpc
      simp only [List.mem_cons, List.not_mem_nil, or_false] at hpc
      rcases hpc with rfl | rfl | rfl | rfl | rfl | rfl | rfl | rfl
      · exact W 7 (by omega) (k1_off59 k) (k1_off59_inb k) (k1_off59_eq k) (k1_off51 k) (k1_off51_inb k) (k1_off51_eq k)
          shapeCasts_S1x1x16_S16 shapeCasts_S16_S1x1x16
      · exact W 6 (by omega) (k1_off58 k) (k1_off58_inb k) (k1_off58_eq k) (k1_off50 k) (k1_off50_inb k) (k1_off50_eq k)
          shapeCasts_S1x1x16_S16 shapeCasts_S16_S1x1x16
      · exact W 5 (by omega) (k1_off57 k) (k1_off57_inb k) (k1_off57_eq k) (k1_off49 k) (k1_off49_inb k) (k1_off49_eq k)
          shapeCasts_S1x1x16_S16 shapeCasts_S16_S1x1x16
      · exact W 4 (by omega) (k1_off56 k) (k1_off56_inb k) (k1_off56_eq k) (k1_off48 k) (k1_off48_inb k) (k1_off48_eq k)
          shapeCasts_S1x1x16_S16 shapeCasts_S16_S1x1x16
      · exact W 3 (by omega) (k1_off55 k) (k1_off55_inb k) (k1_off55_eq k) (k1_off47 k) (k1_off47_inb k) (k1_off47_eq k)
          shapeCasts_S1x1x16_S16 shapeCasts_S16_S1x1x16
      · exact W 2 (by omega) (k1_off54 k) (k1_off54_inb k) (k1_off54_eq k) (k1_off46 k) (k1_off46_inb k) (k1_off46_eq k)
          shapeCasts_S1x1x16_S16 shapeCasts_S16_S1x1x16
      · exact W 1 (by omega) (k1_off53 k) (k1_off53_inb k) (k1_off53_eq k) (k1_off45 k) (k1_off45_inb k) (k1_off45_eq k)
          shapeCasts_S1x1x16_S16 shapeCasts_S16_S1x1x16
      · exact W 0 (by omega) (k1_off52 k) (k1_off52_inb k) (k1_off52_eq k) (k1_off44 k) (k1_off44_inb k) (k1_off44_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off44_inb k) _ _ _ (k1_off44_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off45_inb k) _ _ _ (k1_off45_eq k) _ q col rfl hqk (by omega)⟩
      · exact ⟨_, List.Mem.tail _ (List.Mem.tail _ (List.Mem.tail _ (List.Mem.tail _ (List.Mem.tail _ (List.Mem.head _))))),
          mem_strip _ (k1_off46_inb k) _ _ _ (k1_off46_eq k) _ q col rfl hqk (by omega)⟩
      · exact ⟨_, List.Mem.tail _ (List.Mem.tail _ (List.Mem.tail _ (List.Mem.tail _ (List.Mem.head _)))),
          mem_strip _ (k1_off47_inb k) _ _ _ (k1_off47_eq k) _ q col rfl hqk (by omega)⟩
      · exact ⟨_, List.Mem.tail _ (List.Mem.tail _ (List.Mem.tail _ (List.Mem.head _))),
          mem_strip _ (k1_off48_inb k) _ _ _ (k1_off48_eq k) _ q col rfl hqk (by omega)⟩
      · exact ⟨_, List.Mem.tail _ (List.Mem.tail _ (List.Mem.head _)),
          mem_strip _ (k1_off49_inb k) _ _ _ (k1_off49_eq k) _ q col rfl hqk (by omega)⟩
      · exact ⟨_, List.Mem.tail _ (List.Mem.head _),
          mem_strip _ (k1_off50_inb k) _ _ _ (k1_off50_eq k) _ q col rfl hqk (by omega)⟩
      · exact ⟨_, List.Mem.head _,
          mem_strip _ (k1_off51_inb k) _ _ _ (k1_off51_eq k) _ q col rfl hqk (by omega)⟩
  · -- an earlier point: no strip of this trip reaches its row
    have hlt : q.val < k.val := by omega
    refine (View.read_writes_apply_of_forall_not_mem ovV.view fo (ix3 (2 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off51_inb k) _ _ _ (k1_off51_eq k) _ q col hqk
    · exact not_mem_strip_of_point_ne _ (k1_off50_inb k) _ _ _ (k1_off50_eq k) _ q col hqk
    · exact not_mem_strip_of_point_ne _ (k1_off49_inb k) _ _ _ (k1_off49_eq k) _ q col hqk
    · exact not_mem_strip_of_point_ne _ (k1_off48_inb k) _ _ _ (k1_off48_eq k) _ q col hqk
    · exact not_mem_strip_of_point_ne _ (k1_off47_inb k) _ _ _ (k1_off47_eq k) _ q col hqk
    · exact not_mem_strip_of_point_ne _ (k1_off46_inb k) _ _ _ (k1_off46_eq k) _ q col hqk
    · exact not_mem_strip_of_point_ne _ (k1_off45_inb k) _ _ _ (k1_off45_eq k) _ q col hqk
    · exact not_mem_strip_of_point_ne _ (k1_off44_inb k) _ _ _ (k1_off44_eq k) _ q col hqk

set_option maxHeartbeats 4000000 in
theorem ptTrip3 (v2 : BitVec 32)
    (fw : Buf (Elt F) ((wSlot3).view.loc (V d (cV L) (jV L)))) (fr : Buf (Elt F) ((rSlot3).view.loc (V d (cV L) (jV L)))) :
    ∀ (k : Fin k1_t5_loop.trips) (acc : Unit),
      ptInv3 d L fw fr k.val acc ⊢ wp frame (wpE (defs₀ (F := F)) 𝒱₀ (V d (cV L) (jV L)) none) Set.univ
          (k1_t5_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 k acc) (ptInv3 d L fw fr (k.val + 1)) := by
  intro k acc
  have hk16 : k.val < 16 := lt_of_lt_of_le k.isLt k1_t5_abs.2.1
  unfold ptInv3
  iintro ⟨Hw, Hr, %fo, Ho, %hfo⟩
  sl_unfold [k1_t5_body]
  sl_exec
  sl_step
  isplitl [Hw]; · iexact Hw
  isplitl [Hr]; · iexact Hr
  iexists _; isplitl [Ho]; · iexact Ho
  ipureintro
  intro q col hq
  sl_unfold_run_names
  -- the eight strips of this trip, last stored first
  have W := strip_value fw fr 3 k.val (by omega) hk16
    (k1_off63 k) (k1_off64 k) (k1_off65 k) (k1_off66 k) (k1_off67 k) (k1_off68 k) (k1_off69 k) (k1_off70 k)
    (k1_off63_inb k) (k1_off64_inb k) (k1_off65_inb k) (k1_off66_inb k) (k1_off67_inb k) (k1_off68_inb k) (k1_off69_inb k) (k1_off70_inb k)
    (k1_off63_eq k) (k1_off64_eq k) (k1_off65_eq k) (k1_off66_eq k) (k1_off67_eq k) (k1_off68_eq k) (k1_off69_eq k) (k1_off70_eq k)
  by_cases hqk : q.val = k.val
  · -- the point of this trip: every strip holds the value, and the strip of the column's sixteen reaches it
    refine View.read_writes_apply_of_pieces ovV.view fo (ptOut fw fr)
      [⟨_, _⟩, ⟨_, _⟩, ⟨_, _⟩, ⟨_, _⟩, ⟨_, _⟩, ⟨_, _⟩, ⟨_, _⟩, ⟨_, _⟩] ?_ (ix3 (3 : Fin 4) q col) ?_
    · intro pc hpc
      simp only [List.mem_cons, List.not_mem_nil, or_false] at hpc
      rcases hpc with rfl | rfl | rfl | rfl | rfl | rfl | rfl | rfl
      · exact W 7 (by omega) (k1_off78 k) (k1_off78_inb k) (k1_off78_eq k) (k1_off70 k) (k1_off70_inb k) (k1_off70_eq k)
          shapeCasts_S1x1x16_S16 shapeCasts_S16_S1x1x16
      · exact W 6 (by omega) (k1_off77 k) (k1_off77_inb k) (k1_off77_eq k) (k1_off69 k) (k1_off69_inb k) (k1_off69_eq k)
          shapeCasts_S1x1x16_S16 shapeCasts_S16_S1x1x16
      · exact W 5 (by omega) (k1_off76 k) (k1_off76_inb k) (k1_off76_eq k) (k1_off68 k) (k1_off68_inb k) (k1_off68_eq k)
          shapeCasts_S1x1x16_S16 shapeCasts_S16_S1x1x16
      · exact W 4 (by omega) (k1_off75 k) (k1_off75_inb k) (k1_off75_eq k) (k1_off67 k) (k1_off67_inb k) (k1_off67_eq k)
          shapeCasts_S1x1x16_S16 shapeCasts_S16_S1x1x16
      · exact W 3 (by omega) (k1_off74 k) (k1_off74_inb k) (k1_off74_eq k) (k1_off66 k) (k1_off66_inb k) (k1_off66_eq k)
          shapeCasts_S1x1x16_S16 shapeCasts_S16_S1x1x16
      · exact W 2 (by omega) (k1_off73 k) (k1_off73_inb k) (k1_off73_eq k) (k1_off65 k) (k1_off65_inb k) (k1_off65_eq k)
          shapeCasts_S1x1x16_S16 shapeCasts_S16_S1x1x16
      · exact W 1 (by omega) (k1_off72 k) (k1_off72_inb k) (k1_off72_eq k) (k1_off64 k) (k1_off64_inb k) (k1_off64_eq k)
          shapeCasts_S1x1x16_S16 shapeCasts_S16_S1x1x16
      · exact W 0 (by omega) (k1_off71 k) (k1_off71_inb k) (k1_off71_eq k) (k1_off63 k) (k1_off63_inb k) (k1_off63_eq k)
          shapeCasts_S1x1x16_S16 shapeCasts_S16_S1x1x16
    · have hc := col.isLt
      obtain h | h | h | h | h | h | h | h : col.val < 16 ∨ (16 ≤ col.val ∧ col.val < 32) ∨ (32 ≤ col.val ∧ col.val < 48)
          ∨ (48 ≤ col.val ∧ col.val < 64) ∨ (64 ≤ col.val ∧ col.val < 80) ∨ (80 ≤ col.val ∧ col.val < 96)
          ∨ (96 ≤ col.val ∧ col.val < 112) ∨ 112 ≤ col.val := by omega
      · exact ⟨_, List.Mem.tail _ (List.Mem.tail _ (List.Mem.tail _ (List.Mem.tail _ (List.Mem.tail _ (List.Mem.tail _ (List.Mem.tail _ (List.Mem.head _))))))),
          mem_strip _ (k1_off63_inb k) _ _ _ (k1_off63_eq k) _ q col rfl hqk (by omega)⟩
      · exact ⟨_, List.Mem.tail _ (List.Mem.tail _ (List.Mem.tail _ (List.Mem.tail _ (List.Mem.tail _ (List.Mem.tail _ (List.Mem.head _)))))),
          mem_strip _ (k1_off64_inb k) _ _ _ (k1_off64_eq k) _ q col rfl hqk (by omega)⟩
      · exact ⟨_, List.Mem.tail _ (List.Mem.tail _ (List.Mem.tail _ (List.Mem.tail _ (List.Mem.tail _ (List.Mem.head _))))),
          mem_strip _ (k1_off65_inb k) _ _ _ (k1_off65_eq k) _ q col rfl hqk (by omega)⟩
      · exact ⟨_, List.Mem.tail _ (List.Mem.tail _ (List.Mem.tail _ (List.Mem.tail _ (List.Mem.head _)))),
          mem_strip _ (k1_off66_inb k) _ _ _ (k1_off66_eq k) _ q col rfl hqk (by omega)⟩
      · exact ⟨_, List.Mem.tail _ (List.Mem.tail _ (List.Mem.tail _ (List.Mem.head _))),
          mem_strip _ (k1_off67_inb k) _ _ _ (k1_off67_eq k) _ q col rfl hqk (by omega)⟩
      · exact ⟨_, List.Mem.tail _ (List.Mem.tail _ (List.Mem.head _)),
          mem_strip _ (k1_off68_inb k) _ _ _ (k1_off68_eq k) _ q col rfl hqk (by omega)⟩
      · exact ⟨_, List.Mem.tail _ (List.Mem.head _),
          mem_strip _ (k1_off69_inb k) _ _ _ (k1_off69_eq k) _ q col rfl hqk (by omega)⟩
      · exact ⟨_, List.Mem.head _,
          mem_strip _ (k1_off70_inb k) _ _ _ (k1_off70_eq k) _ q col rfl hqk (by omega)⟩
  · -- an earlier point: no strip of this trip reaches its row
    have hlt : q.val < k.val := by omega
    refine (View.read_writes_apply_of_forall_not_mem ovV.view fo (ix3 (3 : Fin 4) q col)
      [⟨_, _⟩, ⟨_, _⟩, ⟨_, _⟩, ⟨_, _⟩, ⟨_, _⟩, ⟨_, _⟩, ⟨_, _⟩, ⟨_, _⟩] ?_).trans (hfo q col hlt)
    intro pc hpc
    simp only [List.mem_cons, List.not_mem_nil, or_false] at hpc
    rcases hpc with rfl | rfl | rfl | rfl | rfl | rfl | rfl | rfl
    · exact not_mem_strip_of_point_ne _ (k1_off70_inb k) _ _ _ (k1_off70_eq k) _ q col hqk
    · exact not_mem_strip_of_point_ne _ (k1_off69_inb k) _ _ _ (k1_off69_eq k) _ q col hqk
    · exact not_mem_strip_of_point_ne _ (k1_off68_inb k) _ _ _ (k1_off68_eq k) _ q col hqk
    · exact not_mem_strip_of_point_ne _ (k1_off67_inb k) _ _ _ (k1_off67_eq k) _ q col hqk
    · exact not_mem_strip_of_point_ne _ (k1_off66_inb k) _ _ _ (k1_off66_eq k) _ q col hqk
    · exact not_mem_strip_of_point_ne _ (k1_off65_inb k) _ _ _ (k1_off65_eq k) _ q col hqk
    · exact not_mem_strip_of_point_ne _ (k1_off64_inb k) _ _ _ (k1_off64_eq k) _ q col hqk
    · exact not_mem_strip_of_point_ne _ (k1_off63_inb k) _ _ _ (k1_off63_eq k) _ q col hqk

end Trip

end Cert.Proof.KB
end
-- ==== Proof.KB.TileBrA.lean ====
/-
  Three facts about a vector subcore's row-number scratch and its gathered rows.  The scratch of 32 rows is its 32
  rows side by side.  After the index fetch every word of a row of the scratch is a word of the tile's block of row
  numbers, so below the table's row count when every row number is.  And a rows slot on which the gather of row n has
  landed holds, at row r and column c, the table row that word r of row n of the tile's row numbers names, at column c.
-/
import proofs.«209143_g59700045415095_cont_9to1_m_37_38_alg».proof.Proof.KB.TileFl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The rows of the scratch -/

section Rows
variable (d : Dev nD) (L : grid1.Coords)

/-- The elements a row slice of the scratch names: the unit rectangle at its offsets. -/
theorem set_ivRowAt (off : Fin 2 → Nat) (hoff : ∀ a, off a + S1x128.size a ≤ S32x128.size a) :
    (ivRowAt off hoff).view.set = (Rect.unit (s := S32x128) off S1x128.size hoff).set := by
  show (((View.whole (cc1_scratch0 : Ref sig .scVector)).slice (Rect.unit (s := S32x128) off S1x128.size hoff)).reshape S128
    squeezes_S1x128_S128.numel_eq).set = _
  rw [View.set_reshape, View.set_slice_whole]

/-- Row n of the scratch is the elements with first coordinate n. -/
theorem mem_ivRow {n : ℕ} (h : n < 32) (i : S32x128.Idx) :
    i ∈ (ivRowAt (rowOff n) (rowOff_inb h)).view.set ↔ (i 0).val = n := by
  rw [set_ivRowAt, Rect.mem_set_unit, Fin.forall_fin_two]
  have h1 : (i 1).val < 128 := (i 1).isLt
  show (n ≤ (i 0).val ∧ (i 0).val < n + 1) ∧ (0 ≤ (i 1).val ∧ (i 1).val < 0 + 128) ↔ _
  omega

/-- Row t (read modulo thirty-two) of the scratch, as a set of its elements. -/
abbrev ivRowSet (t : ℕ) : Finset S32x128.Idx := (ivRowAt (rowOff (t % 32)) (rowOff_inb (mod32_lt t))).view.set

/-- The scratch whole is its thirty-two rows side by side. -/
theorem iv_split (f : Buf (Elt F) ((ivV).view.loc (V d (cV L) (jV L)))) :
    ((ivV).view.loc (V d (cV L) (jV L)) ↦{fullShare} f : sProp 𝕄) = homes (ivP d L f) 0 32 := by
  have hdisj : ∀ t ∈ Finset.Ico 0 32, ∀ t' ∈ Finset.Ico 0 32, t ≠ t' → Disjoint (ivRowSet t) (ivRowSet t') := by
    intro t ht t' ht' hne
    rw [Finset.mem_Ico] at ht ht'
    rw [Finset.disjoint_left]
    intro i hi hi'
    have h1 := (mem_ivRow (mod32_lt t) i).mp hi
    have h2 := (mem_ivRow (mod32_lt t') i).mp hi'
    omega
  unfold homes
  show _ = bigSep (Finset.Ico 0 32) fun t => (ivV).view.loc (V d (cV L) (jV L)) ↦[ivRowSet t]{fullShare} f
  refine Eq.trans ?_ (pointsTo_biUnion (ℓ := (ivV).view.loc (V d (cV L) (jV L))) (Finset.Ico 0 32) ivRowSet hdisj)
  refine congrArg (fun I => ((ivV).view.loc (V d (cV L) (jV L)) ↦[I]{fullShare} f : sProp 𝕄)) ?_
  refine (Finset.eq_univ_iff_forall.mpr fun i => ?_).symm
  rw [Finset.mem_biUnion]
  have h0 : (i 0).val < 32 := (i 0).isLt
  exact ⟨(i 0).val, Finset.mem_Ico.mpr ⟨Nat.zero_le _, h0⟩, (mem_ivRow (mod32_lt _) i).mpr (Nat.mod_eq_of_lt h0).symm⟩

/-! ## The words of a row after the index fetch -/

/-- A row slice of the scratch reads the scratch at its embedded index. -/
theorem ivRow_read (off : Fin 2 → Nat) (hoff : ∀ a, off a + S1x128.size a ≤ S32x128.size a)
    (g : Buf (Elt F) ((ivV).view.loc (V d (cV L) (jV L)))) (x : S128.Idx) :
    View.read (Elt F) (ivRowAt off hoff).view g x = g ((ivRowAt off hoff).view.emb x) :=
  (View.read_apply _ _).trans (cast_eq _ _)

/-- The scratch after the index fetch is the tile's block of row numbers as the body slices it. -/
theorem fivOf_eq (ix : Buf (Elt F) (idxLoc d)) (fi : Buf (Elt F) ((ivV).view.loc (V d (cV L) (jV L)))) :
    fivOf d L ix fi = (iRowK L).view.read (Elt F) ix := by
  unfold fivOf
  rw [ReadAs.apply_same]
  exact View.write_whole_univ _ _ _

/-- The block of row numbers reads the array of row numbers at its embedded index. -/
theorem iRowK_read (ix : Buf (Elt F) (idxLoc d)) (y : S32x128.Idx) :
    (iRowK L).view.read (Elt F) ix y = ix ((iRowK L).view.emb y) :=
  (View.read_apply _ _).trans (cast_eq _ _)

/-- Every word of a row of the scratch after the index fetch is a row number of the array, so below the table's
    row count when they all are. -/
theorem idx_inb (ix : Buf (Elt F) (idxLoc d)) (hidx : ∀ j : S32x32x128.Idx, (ix j).toNat < 262144)
    (fi : Buf (Elt F) ((ivV).view.loc (V d (cV L) (jV L)))) (off : Fin 2 → Nat)
    (hoff : ∀ a, off a + S1x128.size a ≤ S32x128.size a) :
    ∀ x : S128.Idx, (View.read (Elt F) (ivRowAt off hoff).view
      (View.write (Elt F) (ivV).view fi (ReadAs.same.apply ((iRowK L).view.read (Elt F) ix)) Finset.univ) x).toNat < 262144 := by
  intro x
  show (View.read (Elt F) (ivRowAt off hoff).view (fivOf d L ix fi) x).toNat < 262144
  rw [ivRow_read, fivOf_eq, iRowK_read]
  exact hidx _

end Rows

/-! ## Index bookkeeping: the three squeezes, and equal coordinates -/

section Idx

theorem idx2_eq' {n0 n1 : ℕ} {x y : (⟨2, ![n0, n1]⟩ : Shape).Idx} (h0 : (x 0).val = (y 0).val) (h1 : (x 1).val = (y 1).val) :
    x = y :=
  funext fun a => Fin.ext <| match a with | ⟨0, _⟩ => h0 | ⟨1, _⟩ => h1

theorem idx3_eq' {n0 n1 n2 : ℕ} {x y : (⟨3, ![n0, n1, n2]⟩ : Shape).Idx} (h0 : (x 0).val = (y 0).val)
    (h1 : (x 1).val = (y 1).val) (h2 : (x 2).val = (y 2).val) : x = y :=
  funext fun a => Fin.ext <| match a with | ⟨0, _⟩ => h0 | ⟨1, _⟩ => h1 | ⟨2, _⟩ => h2

/-- A list of 128 words seen as one row of 128. -/
theorem squeeze_row (x : S128.Idx) :
    Shape.reshapeEquiv squeezes_S1x128_S128.numel_eq x = (ix2 (0 : Fin 1) (x 0) : S1x128.Idx) :=
  Shape.reshapeEquiv_eq_of_rowMajor _ (by
    rw [Shape.rowMajor_val_two, Shape.rowMajor_val_one]
    show 0 * 128 + (x 0).val = (x 0).val
    omega)

/-- A 32 × 128 block seen as one block of a stack. -/
theorem squeeze_blk (y : S32x128.Idx) :
    Shape.reshapeEquiv squeezes_S1x32x128_S32x128.numel_eq y = (ix3 (0 : Fin 1) (y 0) (y 1) : S1x32x128.Idx) :=
  Shape.reshapeEquiv_eq_of_rowMajor _ (by
    rw [Shape.rowMajor_val_three, Shape.rowMajor_val_two]
    show (0 * 32 + (y 0).val) * 128 + (y 1).val = (y 0).val * 128 + (y 1).val
    omega)

/-- A 128 × 128 slot seen as one slot of a ring. -/
theorem squeeze_slot (y : S128x128.Idx) :
    Shape.reshapeEquiv squeezes_S1x128x128_S128x128.numel_eq y = (ix3 (0 : Fin 1) (y 0) (y 1) : S1x128x128.Idx) :=
  Shape.reshapeEquiv_eq_of_rowMajor _ (by
    rw [Shape.rowMajor_val_three, Shape.rowMajor_val_two]
    show (0 * 128 + (y 0).val) * 128 + (y 1).val = (y 0).val * 128 + (y 1).val
    omega)

end Idx

/-! ## A rows slot after the gather of a row has landed -/

section Landed
variable (d : Dev nD) (L : grid1.Coords)

/-- The scratch element that entry r of the row slice at offsets off names. -/
theorem ivRow_emb (off : Fin 2 → Nat) (hoff : ∀ a, off a + S1x128.size a ≤ S32x128.size a) (x : S128.Idx) :
    (((ivRowAt off hoff).view.emb x) 0).val = off 0 ∧ (((ivRowAt off hoff).view.emb x) 1).val = off 1 + (x 0).val := by
  have e : (ivRowAt off hoff).view.emb x
      = (Rect.unit (s := S32x128) off S1x128.size hoff).emb (Shape.reshapeEquiv squeezes_S1x128_S128.numel_eq x) := rfl
  rw [e, squeeze_row]
  exact ⟨by show off 0 + 1 * 0 = off 0; omega, by show off 1 + 1 * (x 0).val = off 1 + (x 0).val; omega⟩

/-- The row number that element (r, c) of the tile's block names in the array of row numbers. -/
theorem iRowK_emb (y : S32x128.Idx) :
    (iRowK L).view.emb y = (ix3 (wL L) (y 0) (y 1) : S32x32x128.Idx) := by
  have e : (iRowK L).view.emb y
      = (iRectK L).emb (Shape.reshapeEquiv squeezes_S1x32x128_S32x128.numel_eq y) := rfl
  rw [e, squeeze_blk]
  have hk := k1_off1_eq L
  refine idx3_eq' ?_ ?_ ?_
  · show k1_off1 L 0 + 1 * 0 = 2 * (L 1).val + (L 0).val
    rw [hk]; show 2 * (L 1).val + (L 0).val + 1 * 0 = _; omega
  · show k1_off1 L 1 + 1 * (y 0).val = (y 0).val
    rw [hk]; show 0 + 1 * (y 0).val = _; omega
  · show k1_off1 L 2 + 1 * (y 1).val = (y 1).val
    rw [hk]; show 0 + 1 * (y 1).val = _; omega

/-- Word r of row n of the scratch after the index fetch is word r of row n of the tile's row numbers. -/
theorem fiv_word (ix : Buf (Elt F) (idxLoc d)) (fi : Buf (Elt F) ((ivV).view.loc (V d (cV L) (jV L))))
    {n : ℕ} (hn : n < 32) (off : Fin 2 → Nat) (hoff : ∀ a, off a + S1x128.size a ≤ S32x128.size a) (e : off = rowOff n)
    (r : Fin 128) :
    View.read (Elt F) (ivRowAt off hoff).view (fivOf d L ix fi) (ix1 r)
      = ix (ix3 (wL L) (⟨n % 32, Nat.mod_lt _ (by decide)⟩ : Fin 32) r) := by
  rw [ivRow_read, fivOf_eq, iRowK_read, iRowK_emb]
  obtain ⟨h0, h1⟩ := ivRow_emb off hoff (ix1 r)
  subst e
  congr 1
  refine idx3_eq' rfl ?_ ?_
  · show (((ivRowAt (rowOff n) hoff).view.emb (ix1 r)) 0).val = n % 32
    rw [h0, Nat.mod_eq_of_lt hn]; rfl
  · show (((ivRowAt (rowOff n) hoff).view.emb (ix1 r)) 1).val = r.val
    rw [h1]; show 0 + r.val = r.val; omega

/-- A rows slot of the ring at offsets off3, as the body slices it. -/
abbrev rSlotAt (off3 : Fin 3 → Nat) (inb : ∀ a, off3 a + S1x128x128.size a ≤ S4x128x128.size a) :
    Memref sig .scVector .vmem S128x128 .f32 :=
  ((rvV).slice (Rect.unit (s := S4x128x128) off3 S1x128x128.size inb) (fun _ => rfl)).squeeze S128x128 squeezes_S1x128x128_S128x128

/-- The ring element that (r, c) of the slot at offsets off3 names. -/
theorem rSlot_emb (off3 : Fin 3 → Nat) (inb : ∀ a, off3 a + S1x128x128.size a ≤ S4x128x128.size a) (y : S128x128.Idx) :
    (((rSlotAt off3 inb).view.emb y) 0).val = off3 0 ∧ (((rSlotAt off3 inb).view.emb y) 1).val = off3 1 + (y 0).val
      ∧ (((rSlotAt off3 inb).view.emb y) 2).val = off3 2 + (y 1).val := by
  have e : (rSlotAt off3 inb).view.emb y
      = (Rect.unit (s := S4x128x128) off3 S1x128x128.size inb).emb (Shape.reshapeEquiv squeezes_S1x128x128_S128x128.numel_eq y) := rfl
  rw [e, squeeze_slot]
  exact ⟨by show off3 0 + 1 * 0 = off3 0; omega, by show off3 1 + 1 * (y 0).val = _; omega,
    by show off3 2 + 1 * (y 1).val = _; omega⟩

/-- One write of a whole slot leaves the written values at the slot's elements. -/
theorem rSlot_written (off3 : Fin 3 → Nat) (inb : ∀ a, off3 a + S1x128x128.size a ≤ S4x128x128.size a)
    (fr : Buf (Elt F) ((rSlotAt off3 inb).view.loc (V d (cV L) (jV L)))) (w : S128x128.Idx → Elt F .f32) (y : S128x128.Idx) :
    (rSlotAt off3 inb).view.writes (Elt F) fr [⟨Rect.whole S128x128, w⟩] ((rSlotAt off3 inb).view.emb y) = w y := by
  rw [View.writes_singleton]
  have hy : (rSlotAt off3 inb).view.emb y = ((rSlotAt off3 inb).view.slice (Rect.whole S128x128)).emb y := by
    show _ = (rSlotAt off3 inb).view.emb ((Rect.whole S128x128).emb y)
    rw [Rect.emb_whole_apply]
  rw [hy, View.write_emb_of_mem _ _ (Finset.mem_univ y)]
  exact cast_eq _ _

/-- THE LANDED ROWS: a slot on which the gather of row n of the scratch has landed holds, at row r and column c, the
    table row that word r of row n of the tile's row numbers names, at column c. -/
theorem rows_landed_at (off3 : Fin 3 → Nat) (inb : ∀ a, off3 a + S1x128x128.size a ≤ S4x128x128.size a)
    (h12 : off3 1 = 0 ∧ off3 2 = 0)
    (tb : Buf (Elt F) (tblLoc d)) (ix : Buf (Elt F) (idxLoc d)) (fi : Buf (Elt F) ((ivV).view.loc (V d (cV L) (jV L))))
    {n : ℕ} (hn : n < 32) (fr : Buf (Elt F) ((rSlotAt off3 inb).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlotAt off3 inb).view.set,
      (rSlotAt off3 inb).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j := by
  intro j hj
  obtain ⟨y, -, rfl⟩ := Finset.mem_map.mp (show j ∈ Finset.univ.map (rSlotAt off3 inb).view.emb from hj)
  rw [rSlot_written]
  obtain ⟨-, e1, e2⟩ := rSlot_emb off3 inb y
  unfold SparseCore.gatherPayload rCanF
  rw [show (tblAll).view.read (Elt F) tb (gathers_S262144x128_S128x128.idx
        (SparseCore.rows ((ivRowAt off hoff).view.read (Elt F) (fivOf d L ix fi)) hnum hin') y)
      = tb ((tblAll).view.emb (gathers_S262144x128_S128x128.idx
        (SparseCore.rows ((ivRowAt off hoff).view.read (Elt F) (fivOf d L ix fi)) hnum hin') y))
    from (View.read_apply _ _).trans (cast_eq _ _)]
  congr 1
  -- the word the list names for row (y 0)
  have hsym : S128.rowMajor.symm ((y 0).cast hnum.symm) = ix1 (⟨(y 0).val, (y 0).isLt⟩ : Fin 128) := by
    rw [Equiv.symm_apply_eq]
    exact Fin.ext (by rw [Shape.rowMajor_val_one]; rfl)
  have hword := fiv_word d L ix fi hn off hoff e (⟨(y 0).val, (y 0).isLt⟩ : Fin 128)
  have hlt := hin' (ix1 (⟨(y 0).val, (y 0).isLt⟩ : Fin 128))
  rw [hword] at hlt
  refine idx2_eq' ?_ ?_
  · -- the table row
    show 0 + 1 * ((gathers_S262144x128_S128x128.idx
        (SparseCore.rows ((ivRowAt off hoff).view.read (Elt F) (fivOf d L ix fi)) hnum hin') y) 0).val = _
    have hax := gathers_S262144x128_S128x128.idx_axis
      (SparseCore.rows ((ivRowAt off hoff).view.read (Elt F) (fivOf d L ix fi)) hnum hin') y
    rw [show (gathers_S262144x128_S128x128.idx
        (SparseCore.rows ((ivRowAt off hoff).view.read (Elt F) (fivOf d L ix fi)) hnum hin') y) 0
      = SparseCore.rows ((ivRowAt off hoff).view.read (Elt F) (fivOf d L ix fi)) hnum hin' (y 0) from hax]
    unfold SparseCore.rows
    show 0 + 1 * (((ivRowAt off hoff).view.read (Elt F) (fivOf d L ix fi)) (S128.rowMajor.symm ((y 0).cast hnum.symm))).toNat = _
    rw [hsym, hword]
    show _ = (ix (ix3 (wL L) (⟨n % 32, Nat.mod_lt _ (by decide)⟩ : Fin 32) ((rSlotAt off3 inb).view.emb y 1))).toNat % 262144
    have hr : ((rSlotAt off3 inb).view.emb y 1) = (⟨(y 0).val, (y 0).isLt⟩ : Fin 128) := Fin.ext (by rw [e1, h12.1]; show 0 + (y 0).val = (y 0).val; omega)
    have hlt' : (ix (ix3 (wL L) (⟨n % 32, Nat.mod_lt _ (by decide)⟩ : Fin 32) (⟨(y 0).val, (y 0).isLt⟩ : Fin 128))).toNat < 262144 := hlt
    rw [hr, Nat.mod_eq_of_lt hlt']
    omega
  · -- the column
    show 0 + 1 * ((gathers_S262144x128_S128x128.idx
        (SparseCore.rows ((ivRowAt off hoff).view.read (Elt F) (fivOf d L ix fi)) hnum hin') y) 1).val = ((rSlotAt off3 inb).view.emb y 2).val
    rw [gathers_S262144x128_S128x128.idx_of_ne _ y 1 (by decide), e2, h12.2]
    show 0 + 1 * (y 1).val = 0 + (y 1).val
    omega

theorem rows_landed0 (tb : Buf (Elt F) (tblLoc d)) (ix : Buf (Elt F) (idxLoc d)) (fi : Buf (Elt F) ((ivV).view.loc (V d (cV L) (jV L))))
    {n : ℕ} (hn : n < 32) (fr : Buf (Elt F) ((rSlot0).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot0).view.set,
      (rSlot0).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![0, 0, 0] inb_S4x128x128_S1x128x128_0_0_0 ⟨rfl, rfl⟩ tb ix fi hn fr off hoff e hnum hin'

theorem rows_landed1 (tb : Buf (Elt F) (tblLoc d)) (ix : Buf (Elt F) (idxLoc d)) (fi : Buf (Elt F) ((ivV).view.loc (V d (cV L) (jV L))))
    {n : ℕ} (hn : n < 32) (fr : Buf (Elt F) ((rSlot1).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot1).view.set,
      (rSlot1).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![1, 0, 0] inb_S4x128x128_S1x128x128_1_0_0 ⟨rfl, rfl⟩ tb ix fi hn fr off hoff e hnum hin'

theorem rows_landed2 (tb : Buf (Elt F) (tblLoc d)) (ix : Buf (Elt F) (idxLoc d)) (fi : Buf (Elt F) ((ivV).view.loc (V d (cV L) (jV L))))
    {n : ℕ} (hn : n < 32) (fr : Buf (Elt F) ((rSlot2).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot2).view.set,
      (rSlot2).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![2, 0, 0] inb_S4x128x128_S1x128x128_2_0_0 ⟨rfl, rfl⟩ tb ix fi hn fr off hoff e hnum hin'

theorem rows_landed3 (tb : Buf (Elt F) (tblLoc d)) (ix : Buf (Elt F) (idxLoc d)) (fi : Buf (Elt F) ((ivV).view.loc (V d (cV L) (jV L))))
    {n : ℕ} (hn : n < 32) (fr : Buf (Elt F) ((rSlot3).view.loc (V d (cV L) (jV L))))
    (off : Fin 2 → Nat) (hoff : ∀ a, off a + S1x128.size a ≤ S32x128.size a) (e : off = rowOff n)
    (hnum : S128.numel = S128x128.size gathers_S262144x128_S128x128.axis')
    (hin' : ∀ x, (View.read (Elt F) (ivRowAt off hoff).view (fivOf d L ix fi) x).toNat
      < S262144x128.size gathers_S262144x128_S128x128.axis) :
    ∀ j ∈ (rSlot3).view.set,
      (rSlot3).view.writes (Elt F) fr [⟨Rect.whole S128x128,
        SparseCore.gatherPayload gathers_S262144x128_S128x128 ((tblAll).view.read (Elt F) tb)
          (SparseCore.rows ((ivRowAt off hoff).view.read (Elt F) (fivOf d L ix fi)) hnum hin')⟩] j = rCanF L tb ix n j :=
  rows_landed_at d L ![3, 0, 0] inb_S4x128x128_S1x128x128_3_0_0 ⟨rfl, rfl⟩ tb ix fi hn fr off hoff e hnum hin'

end Landed

end Cert.Proof.KB

end
-- ==== Proof.KB.TileBrB.lean ====
/-
  What lands in a slot, and in the result array, read element by element.

  A weights slot is the weights ring's slice at one slot number, squeezed to sixteen points by 128 lanes; a result slot
  the same of the result ring. Element (p, c) of a slot sits at (slot, p, c) of its ring. A copy that fills a weights
  slot from chunk n of the tile's weights (rows 512·w + 16·n … of the weights array, w the tile's worker number) leaves,
  at every element of the slot, the weight row 512·w + 16·n + p at lane c. A copy of a result slot that holds the point
  loop's balanced sums for chunk n into chunk n of the tile's rows of the result leaves there, at row 512·w + 16·n + p and
  column c, the balanced sum over the eight corners k of weight (row, 16·k + c mod 16) times the table row that entry
  8·p + k of row n of the tile's row numbers names: point P = 512·w + 16·n + p has P / 512 = w, (P mod 512) / 16 = n and
  (P mod 16)·8 + k = 8·p + k, so this is the gathered sum at that row. Two contents of a result ring that agree at
  (slot, q, c) for every q and c are the same as far as that slot is concerned.
-/
import proofs.«209143_g59700045415095_cont_9to1_m_37_38_alg».proof.Proof.KB.TileFl
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## One unmasked write of a whole view, read under the view -/

/-- After one unmasked write of the payload w through the whole of a view, the buffer holds w x under the view's index x. -/
theorem writes_whole_emb {σ : RefSig} {κ : Kind} {sp : Space} {s : Shape} {e : EltTy} (v : View σ κ sp s e) (Val : EltTy → Type)
    (f : v.ty.Contents Val) (w : s.Idx → Val e) (x : s.Idx) :
    v.writes Val f [⟨Rect.whole s, w⟩] (v.emb x) = _root_.cast (congrArg Val v.elt_eq.symm) (w x) := by
  rw [View.writes_singleton]
  have hx : v.emb x = (v.slice (Rect.whole s)).emb x := by
    show v.emb x = v.emb ((Rect.whole s).emb x)
    rw [Rect.emb_whole_apply]
  rw [hx]
  exact View.write_emb_of_mem _ _ (Finset.mem_univ _)

/-! ## Where a slot's elements sit in its ring, a chunk's in its array -/

/-- Sixteen points by 128 lanes counted with a leading unit axis: (p, c) is (0, p, c). -/
theorem squeeze_idx (h : S16x128.numel = S1x16x128.numel) (p : Fin 16) (c : Fin 128) :
    Shape.reshapeEquiv (s := S1x16x128) (s' := S16x128) h (ix2 p c) = ix3 (0 : Fin 1) p c :=
  Shape.reshapeEquiv_eq_of_rowMajor h (by
    rw [Shape.rowMajor_val_three, Shape.rowMajor_val_two]
    show ((0 : ℕ) * 16 + p.val) * 128 + c.val = p.val * 128 + c.val
    omega)

/-- A slot of the weights ring at ring offsets off3. -/
abbrev wSlotAt (off3 : Fin 3 → ℕ) (inb3 : ∀ a, off3 a + S1x16x128.size a ≤ S4x16x128.size a) : Memref sig .scVector .vmem S16x128 .f32 :=
  ((wvV).slice (Rect.unit (s := S4x16x128) off3 S1x16x128.size inb3) (fun _ => rfl)).squeeze S16x128 squeezes_S1x16x128_S16x128
/-- A slot of the result ring at ring offsets off3. -/
abbrev oSlotAt (off3 : Fin 3 → ℕ) (inb3 : ∀ a, off3 a + S1x16x128.size a ≤ S4x16x128.size a) : Memref sig .scVector .vmem S16x128 .f32 :=
  ((ovV).slice (Rect.unit (s := S4x16x128) off3 S1x16x128.size inb3) (fun _ => rfl)).squeeze S16x128 squeezes_S1x16x128_S16x128

/-- Element (p, c) of the weights slot b is element (b, p, c) of the ring. -/
theorem wSlotAt_emb (off3 : Fin 3 → ℕ) (inb3 : ∀ a, off3 a + S1x16x128.size a ≤ S4x16x128.size a) (b : Fin 4)
    (h0 : off3 0 = b.val) (h1 : off3 1 = 0) (h2 : off3 2 = 0) (p : Fin 16) (c : Fin 128) :
    (wSlotAt off3 inb3).view.emb (ix2 p c) = ix3 b p c := by
  funext a
  apply Fin.ext
  match a with
  | ⟨0, _⟩ =>
    show off3 0 + 1 * ((Shape.reshapeEquiv (s := S1x16x128) (s' := S16x128) squeezes_S1x16x128_S16x128.numel_eq (ix2 p c)) 0).val = b.val
    rw [squeeze_idx]; show off3 0 + 1 * 0 = b.val; omega
  | ⟨1, _⟩ =>
    show off3 1 + 1 * ((Shape.reshapeEquiv (s := S1x16x128) (s' := S16x128) squeezes_S1x16x128_S16x128.numel_eq (ix2 p c)) 1).val = p.val
    rw [squeeze_idx]; show off3 1 + 1 * p.val = p.val; omega
  | ⟨2, _⟩ =>
    show off3 2 + 1 * ((Shape.reshapeEquiv (s := S1x16x128) (s' := S16x128) squeezes_S1x16x128_S16x128.numel_eq (ix2 p c)) 2).val = c.val
    rw [squeeze_idx]; show off3 2 + 1 * c.val = c.val; omega

/-- Element (p, c) of the result slot b is element (b, p, c) of the ring. -/
theorem oSlotAt_emb (off3 : Fin 3 → ℕ) (inb3 : ∀ a, off3 a + S1x16x128.size a ≤ S4x16x128.size a) (b : Fin 4)
    (h0 : off3 0 = b.val) (h1 : off3 1 = 0) (h2 : off3 2 = 0) (p : Fin 16) (c : Fin 128) :
    (oSlotAt off3 inb3).view.emb (ix2 p c) = ix3 b p c := by
  funext a
  apply Fin.ext
  match a with
  | ⟨0, _⟩ =>
    show off3 0 + 1 * ((Shape.reshapeEquiv (s := S1x16x128) (s' := S16x128) squeezes_S1x16x128_S16x128.numel_eq (ix2 p c)) 0).val = b.val
    rw [squeeze_idx]; show off3 0 + 1 * 0 = b.val; omega
  | ⟨1, _⟩ =>
    show off3 1 + 1 * ((Shape.reshapeEquiv (s := S1x16x128) (s' := S16x128) squeezes_S1x16x128_S16x128.numel_eq (ix2 p c)) 1).val = p.val
    rw [squeeze_idx]; show off3 1 + 1 * p.val = p.val; omega
  | ⟨2, _⟩ =>
    show off3 2 + 1 * ((Shape.reshapeEquiv (s := S1x16x128) (s' := S16x128) squeezes_S1x16x128_S16x128.numel_eq (ix2 p c)) 2).val = c.val
    rw [squeeze_idx]; show off3 2 + 1 * c.val = c.val; omega

section Chunks
variable (L : grid1.Coords)

theorem chunkRow_lt {n : ℕ} (hn : n < 32) (p : Fin 16) : 512 * (wL L).val + 16 * n + p.val < 16384 := by
  have := wL_lt L; have := wL_val L; have := p.isLt; omega

/-- Point p of chunk n of the tile, among all points. -/
def chunkPt {n : ℕ} (hn : n < 32) (p : Fin 16) : Fin 16384 := ⟨512 * (wL L).val + 16 * n + p.val, chunkRow_lt L hn p⟩

/-- Element (p, c) of chunk n of the tile's weights is row 512·w + 16·n + p, lane c, of the weights. -/
theorem wChunk_emb {n : ℕ} (hn : n < 32) (hoff : ∀ a, chunkOff L n a + S16x128.size a ≤ S16384x128.size a) (p : Fin 16) (c : Fin 128) :
    (wChunkAt (chunkOff L n) hoff).view.emb (ix2 p c) = ix2 (chunkPt L hn p) c := by
  have h0 := L0_lt L; have h1 := L1_lt L; have hw := wL_val L
  funext a
  apply Fin.ext
  match a with
  | ⟨0, _⟩ => show 1024 * (L 1).val + 512 * (L 0).val + 16 * n + 1 * p.val = 512 * (wL L).val + 16 * n + p.val; omega
  | ⟨1, _⟩ => show 0 + 1 * c.val = c.val; omega

/-- The same of the tile's rows of the result. -/
theorem oChunk_emb {n : ℕ} (hn : n < 32) (hoff : ∀ a, chunkOff L n a + S16x128.size a ≤ S16384x128.size a) (p : Fin 16) (c : Fin 128) :
    (oChunkAt (chunkOff L n) hoff).view.emb (ix2 p c) = ix2 (chunkPt L hn p) c := by
  have h0 := L0_lt L; have h1 := L1_lt L; have hw := wL_val L
  funext a
  apply Fin.ext
  match a with
  | ⟨0, _⟩ => show 1024 * (L 1).val + 512 * (L 0).val + 16 * n + 1 * p.val = 512 * (wL L).val + 16 * n + p.val; omega
  | ⟨1, _⟩ => show 0 + 1 * c.val = c.val; omega

end Chunks

/-! ## A weights slot after chunk n has landed -/

section Landed
variable [FloatOps F] (d : Dev nD) (L : grid1.Coords)

/-- A weights slot holding chunk n reads, at ring element (b, p, c), weight row 512·w + 16·n + p at lane c. -/
theorem wCanF_at (wv : FVec F S16384x128 .f32) {n : ℕ} (hn : n < 32) (b : Fin 4) (p : Fin 16) (c : Fin 128) :
    wCanF L wv n (ix3 b p c) = wv (ix2 (chunkPt L hn p) c) := by
  unfold wCanF
  refine congrArg wv ?_
  have := chunkRow_lt L hn p
  funext a
  match a with
  | ⟨0, _⟩ => exact Fin.ext (by show (512 * (wL L).val + 16 * n + p.val) % 16384 = 512 * (wL L).val + 16 * n + p.val; omega)
  | ⟨1, _⟩ => rfl

/-- The weights copy of chunk n into the slot at ring offsets (b, 0, 0) leaves the slot at the chunk's weights. -/
theorem w_landed_at (off3 : Fin 3 → ℕ) (inb3 : ∀ a, off3 a + S1x16x128.size a ≤ S4x16x128.size a) (b : Fin 4)
    (h0 : off3 0 = b.val) (h1 : off3 1 = 0) (h2 : off3 2 = 0)
    (wv : Buf (Elt F) (wLoc d)) {n : ℕ} (hn : n < 32) (fw : Buf (Elt F) ((wSlotAt off3 inb3).view.loc (V d (cV L) (jV L))))
    (off : Fin 2 → Nat) (hoff : ∀ a, off a + S16x128.size a ≤ S16384x128.size a) (e : off = chunkOff L n) :
    ∀ j ∈ (wSlotAt off3 inb3).view.set,
      (wSlotAt off3 inb3).view.writes (Elt F) fw [⟨Rect.whole S16x128, ReadAs.same.apply ((wChunkAt off hoff).view.read (Elt F) wv)⟩] j
        = wCanF L wv n j := by
  subst e
  intro j hj
  obtain ⟨x, -, rfl⟩ := Finset.mem_map.mp hj
  obtain ⟨p, c, rfl⟩ : ∃ (p : Fin 16) (c : Fin 128), x = ix2 p c := ⟨x 0, x 1, eq_ix2 x⟩
  refine (writes_whole_emb _ _ _ _ (ix2 p c)).trans ?_
  show wv ((wChunkAt (chunkOff L n) hoff).view.emb (ix2 p c)) = wCanF L wv n ((wSlotAt off3 inb3).view.emb (ix2 p c))
  rw [wChunk_emb L hn hoff p c, wSlotAt_emb off3 inb3 b h0 h1 h2 p c, wCanF_at L wv hn]

theorem w_landed0 (wv : Buf (Elt F) (wLoc d)) {n : ℕ} (hn : n < 32) (fw : Buf (Elt F) ((wSlot0).view.loc (V d (cV L) (jV L))))
    (off : Fin 2 → Nat) (hoff : ∀ a, off a + S16x128.size a ≤ S16384x128.size a) (e : off = chunkOff L n) :
    ∀ j ∈ (wSlot0).view.set, (wSlot0).view.writes (Elt F) fw [⟨Rect.whole S16x128, ReadAs.same.apply ((wChunkAt off hoff).view.read (Elt F) wv)⟩] j = wCanF L wv n j :=
  w_landed_at d L _ _ (0 : Fin 4) rfl rfl rfl wv hn fw off hoff e
theorem w_landed1 (wv : Buf (Elt F) (wLoc d)) {n : ℕ} (hn : n < 32) (fw : Buf (Elt F) ((wSlot1).view.loc (V d (cV L) (jV L))))
    (off : Fin 2 → Nat) (hoff : ∀ a, off a + S16x128.size a ≤ S16384x128.size a) (e : off = chunkOff L n) :
    ∀ j ∈ (wSlot1).view.set, (wSlot1).view.writes (Elt F) fw [⟨Rect.whole S16x128, ReadAs.same.apply ((wChunkAt off hoff).view.read (Elt F) wv)⟩] j = wCanF L wv n j :=
  w_landed_at d L _ _ (1 : Fin 4) rfl rfl rfl wv hn fw off hoff e
theorem w_landed2 (wv : Buf (Elt F) (wLoc d)) {n : ℕ} (hn : n < 32) (fw : Buf (Elt F) ((wSlot2).view.loc (V d (cV L) (jV L))))
    (off : Fin 2 → Nat) (hoff : ∀ a, off a + S16x128.size a ≤ S16384x128.size a) (e : off = chunkOff L n) :
    ∀ j ∈ (wSlot2).view.set, (wSlot2).view.writes (Elt F) fw [⟨Rect.whole S16x128, ReadAs.same.apply ((wChunkAt off hoff).view.read (Elt F) wv)⟩] j = wCanF L wv n j :=
  w_landed_at d L _ _ (2 : Fin 4) rfl rfl rfl wv hn fw off hoff e
theorem w_landed3 (wv : Buf (Elt F) (wLoc d)) {n : ℕ} (hn : n < 32) (fw : Buf (Elt F) ((wSlot3).view.loc (V d (cV L) (jV L))))
    (off : Fin 2 → Nat) (hoff : ∀ a, off a + S16x128.size a ≤ S16384x128.size a) (e : off = chunkOff L n) :
    ∀ j ∈ (wSlot3).view.set, (wSlot3).view.writes (Elt F) fw [⟨Rect.whole S16x128, ReadAs.same.apply ((wChunkAt off hoff).view.read (Elt F) wv)⟩] j = wCanF L wv n j :=
  w_landed_at d L _ _ (3 : Fin 4) rfl rfl rfl wv hn fw off hoff e

/-! ## The tile's rows of the result after the result copy of chunk n has landed -/

/-- The balanced sum of eight terms, in the order the point loop adds them. -/
def bal8 (t : Fin 8 → F .f32) : F .f32 :=
  FloatOps.addf (FloatOps.addf (FloatOps.addf (t 0) (t 1)) (FloatOps.addf (t 2) (t 3)))
    (FloatOps.addf (FloatOps.addf (t 4) (t 5)) (FloatOps.addf (t 6) (t 7)))

theorem ptOut_eq (fw : FVec F S4x16x128 .f32) (fr : FVec F S4x128x128 .f32) (b : Fin 4) (p : Fin 16) (c : Fin 128) :
    ptOut fw fr (ix3 b p c) = bal8 (ptTerm fw fr b p c) := rfl
theorem skip_eq (tb : FVec F S262144x128 .f32) (ix : IVec S32x32x128 32) (wv : FVec F S16384x128 .f32) (P : Fin 16384) (c : Fin 128) :
    skip tb ix wv (ix2 P c) = bal8 (cornerTerm tb ix wv P c) := rfl

/-- One corner's term from a slot holding chunk n is that corner's term of the gathered sum at the chunk's point. -/
theorem ptTerm_can (tb : FVec F S262144x128 .f32) (ix : IVec S32x32x128 32) (wv : FVec F S16384x128 .f32) {n : ℕ} (hn : n < 32)
    (b : Fin 4) (p : Fin 16) (c : Fin 128) (k : Fin 8) :
    ptTerm (wCanF L wv n) (rCanF L tb ix n) b p c k = cornerTerm tb ix wv (chunkPt L hn p) c k := by
  have hw := wL_lt L
  have hwv := wL_val L
  have hp := p.isLt
  have hk := k.isLt
  have hP : (chunkPt L hn p).val = 512 * (wL L).val + 16 * n + p.val := rfl
  unfold ptTerm cornerTerm
  rw [wCanF_at L wv hn]
  refine congrArg (FloatOps.mulf _) ?_
  unfold rCanF
  refine congrArg tb ?_
  have eI : ix3 (wL L) (⟨n % 32, Nat.mod_lt _ (by decide)⟩ : Fin 32) (⟨8 * p.val + k.val, by omega⟩ : Fin 128)
      = ix3 (⟨(chunkPt L hn p).val / 512, by omega⟩ : Fin 32) (⟨(chunkPt L hn p).val % 512 / 16, by omega⟩ : Fin 32)
          (⟨(chunkPt L hn p).val % 16 * 8 + k.val, by omega⟩ : Fin 128) := by
    funext a
    match a with
    | ⟨0, _⟩ => exact Fin.ext (by show (wL L).val = (chunkPt L hn p).val / 512; omega)
    | ⟨1, _⟩ => exact Fin.ext (by show n % 32 = (chunkPt L hn p).val % 512 / 16; omega)
    | ⟨2, _⟩ => exact Fin.ext (by show 8 * p.val + k.val = (chunkPt L hn p).val % 16 * 8 + k.val; omega)
  show ix2 (rowOf (ix (ix3 (wL L) (⟨n % 32, Nat.mod_lt _ (by decide)⟩ : Fin 32) (⟨8 * p.val + k.val, by omega⟩ : Fin 128)))) c = _
  rw [eI]

/-- The result copy of chunk n out of the slot at ring offsets (b, 0, 0), which holds the point loop's sums for chunk
    n, leaves the chunk's rows of the result at the gathered sum. -/
theorem out_landed_at (off3 : Fin 3 → ℕ) (inb3 : ∀ a, off3 a + S1x16x128.size a ≤ S4x16x128.size a) (b : Fin 4)
    (h0 : off3 0 = b.val) (h1 : off3 1 = 0) (h2 : off3 2 = 0)
    (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set,
      (oChunkAt off hoff).view.writes (Elt F) fo [⟨Rect.whole S16x128, ReadAs.same.apply ((oSlotAt off3 inb3).view.read (Elt F) (oCanF L tb ix wv n))⟩] j
        = skip (F := F) tb ix wv j := by
  subst e
  intro j hj
  obtain ⟨x, -, rfl⟩ := Finset.mem_map.mp hj
  obtain ⟨p, c, rfl⟩ : ∃ (p : Fin 16) (c : Fin 128), x = ix2 p c := ⟨x 0, x 1, eq_ix2 x⟩
  refine (writes_whole_emb _ _ _ _ (ix2 p c)).trans ?_
  show oCanF L tb ix wv n ((oSlotAt off3 inb3).view.emb (ix2 p c)) = skip (F := F) tb ix wv ((oChunkAt (chunkOff L n) hoff).view.emb (ix2 p c))
  rw [oSlotAt_emb off3 inb3 b h0 h1 h2 p c, oChunk_emb L hn hoff p c]
  unfold oCanF
  rw [ptOut_eq, skip_eq]
  exact congrArg bal8 (funext fun k => ptTerm_can L tb ix wv hn b p c k)

theorem out_landed0 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot0).view.read (Elt F) (oCanF L tb ix wv n))⟩] j = skip (F := F) tb ix wv j :=
  out_landed_at d L _ _ (0 : Fin 4) rfl rfl rfl tb ix wv hn fo off hoff e
theorem out_landed1 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot1).view.read (Elt F) (oCanF L tb ix wv n))⟩] j = skip (F := F) tb ix wv j :=
  out_landed_at d L _ _ (1 : Fin 4) rfl rfl rfl tb ix wv hn fo off hoff e
theorem out_landed2 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot2).view.read (Elt F) (oCanF L tb ix wv n))⟩] j = skip (F := F) tb ix wv j :=
  out_landed_at d L _ _ (2 : Fin 4) rfl rfl rfl tb ix wv hn fo off hoff e
theorem out_landed3 (tb : Buf (Elt F) (tblLoc d)) (ix : Buf (Elt F) (idxLoc d)) (wv : Buf (Elt F) (wLoc d)) {n : ℕ} (hn : n < 32)
    (fo : Buf (Elt F) (outLoc d)) (off : Fin 2 → Nat) (hoff : ∀ a, off a + S16x128.size a ≤ S16384x128.size a) (e : off = chunkOff L n) :
    ∀ j ∈ (oChunkAt off hoff).view.set, (oChunkAt off hoff).view.writes (Elt F) fo [⟨Rect.whole S16x128, ReadAs.same.apply ((oSlot3).view.read (Elt F) (oCanF L tb ix wv n))⟩] j = skip (F := F) tb ix wv j :=
  out_landed_at d L _ _ (3 : Fin 4) rfl rfl rfl tb ix wv hn fo off hoff e

end Landed

/-! ## A result slot held at two contents that agree on the slot -/

section Congr
variable (d : Dev nD) (L : grid1.Coords)

theorem oSlot_congr_at (off3 : Fin 3 → ℕ) (inb3 : ∀ a, off3 a + S1x16x128.size a ≤ S4x16x128.size a) (b : Fin 4)
    (h0 : off3 0 = b.val) (h1 : off3 1 = 0) (h2 : off3 2 = 0)
    (f g : Buf (Elt F) ((oSlotAt off3 inb3).view.loc (V d (cV L) (jV L))))
    (h : ∀ (q : Fin 16) (col : Fin 128), f (ix3 b q col) = g (ix3 b q col)) :
    (((oSlotAt off3 inb3).view.loc (V d (cV L) (jV L)) ↦[(oSlotAt off3 inb3).view.set]{fullShare} f) : sProp 𝕄)
      = ((oSlotAt off3 inb3).view.loc (V d (cV L) (jV L)) ↦[(oSlotAt off3 inb3).view.set]{fullShare} g) := by
  refine pointsTo_congr fun i hi => ?_
  obtain ⟨x, -, rfl⟩ := Finset.mem_map.mp hi
  obtain ⟨p, c, rfl⟩ : ∃ (p : Fin 16) (c : Fin 128), x = ix2 p c := ⟨x 0, x 1, eq_ix2 x⟩
  rw [oSlotAt_emb off3 inb3 b h0 h1 h2 p c]
  exact h p c

theorem oSlot0_congr (f g : Buf (Elt F) ((oSlot0).view.loc (V d (cV L) (jV L))))
    (h : ∀ (q : Fin 16) (col : Fin 128), f (ix3 (0 : Fin 4) q col) = g (ix3 (0 : Fin 4) q col)) :
    (((oSlot0).view.loc (V d (cV L) (jV L)) ↦[(oSlot0).view.set]{fullShare} f) : sProp 𝕄) = ((oSlot0).view.loc (V d (cV L) (jV L)) ↦[(oSlot0).view.set]{fullShare} g) :=
  oSlot_congr_at d L _ _ (0 : Fin 4) rfl rfl rfl f g h
theorem oSlot1_congr (f g : Buf (Elt F) ((oSlot1).view.loc (V d (cV L) (jV L))))
    (h : ∀ (q : Fin 16) (col : Fin 128), f (ix3 (1 : Fin 4) q col) = g (ix3 (1 : Fin 4) q col)) :
    (((oSlot1).view.loc (V d (cV L) (jV L)) ↦[(oSlot1).view.set]{fullShare} f) : sProp 𝕄) = ((oSlot1).view.loc (V d (cV L) (jV L)) ↦[(oSlot1).view.set]{fullShare} g) :=
  oSlot_congr_at d L _ _ (1 : Fin 4) rfl rfl rfl f g h
theorem oSlot2_congr (f g : Buf (Elt F) ((oSlot2).view.loc (V d (cV L) (jV L))))
    (h : ∀ (q : Fin 16) (col : Fin 128), f (ix3 (2 : Fin 4) q col) = g (ix3 (2 : Fin 4) q col)) :
    (((oSlot2).view.loc (V d (cV L) (jV L)) ↦[(oSlot2).view.set]{fullShare} f) : sProp 𝕄) = ((oSlot2).view.loc (V d (cV L) (jV L)) ↦[(oSlot2).view.set]{fullShare} g) :=
  oSlot_congr_at d L _ _ (2 : Fin 4) rfl rfl rfl f g h
theorem oSlot3_congr (f g : Buf (Elt F) ((oSlot3).view.loc (V d (cV L) (jV L))))
    (h : ∀ (q : Fin 16) (col : Fin 128), f (ix3 (3 : Fin 4) q col) = g (ix3 (3 : Fin 4) q col)) :
    (((oSlot3).view.loc (V d (cV L) (jV L)) ↦[(oSlot3).view.set]{fullShare} f) : sProp 𝕄) = ((oSlot3).view.loc (V d (cV L) (jV L)) ↦[(oSlot3).view.set]{fullShare} g) :=
  oSlot_congr_at d L _ _ (3 : Fin 4) rfl rfl rfl f g h

end Congr

end Cert.Proof.KB

end
-- ==== Proof.KB.TileBrC.lean ====
/-
  Copies in flight, restated at the contents they land. A gather, a weights copy or a result copy the task has issued
  delivers its destination at what the copy wrote over the contents found there, and the piece it read; where those
  written contents agree, element by element of the destination, with the chunk's contents as whole-ring functions of the
  arrays the call was handed, the flight is the one the group loop carries for that chunk. And the offsets the group loop
  computes for the next chunk's row of row numbers, weights and rows of the result, as the row or chunk they name.
-/
import proofs.«209143_g59700045415095_cont_9to1_m_37_38_alg».proof.Proof.KB.TileFl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A flight as issued is the flight the group loop carries -/

section Intro
variable [FloatOps F] (d : Dev nD) (L : grid1.Coords)

/-- Slot 0's gather of chunk n, from the flight as issued: the rows slot at what the gather wrote, equal on the slot to
    the table rows that row n of the row numbers names. -/
theorem gFl0_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot0).view.loc (V d (cV L) (jV L)))) (off : Fin 2 → Nat)
    (hoff : ∀ a, off a + S1x128.size a ≤ S32x128.size a) (e : off = rowOff n) (pay : S128x128.Idx → Elt F .f32)
    (hland : ∀ j ∈ (rSlot0).view.set, (rSlot0).view.writes (Elt F) fr [⟨Rect.whole S128x128, pay⟩] j = rCanF L tb ix n j) :
    Transfers.Flight countersEmb (V d (cV L) (jV L)) (SemLoc.dma cc1_scratch4.sem) (default : HIx 1) 524288
        iprop((((rSlot0).view.loc (V d (cV L) (jV L)) ↦[(rSlot0).view.set]{fullShare} (rSlot0).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 11} tb))
      ⊢ gFl0 d L q tb ix fi n := by
  unfold gFl0
  rw [ivP_at d L (fivOf d L ix fi) hn off hoff e, pointsTo_congr hland]

/-- Slot 1's gather of chunk n, from the flight as issued: the rows slot at what the gather wrote, equal on the slot to
    the table rows that row n of the row numbers names. -/
theorem gFl1_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot1).view.loc (V d (cV L) (jV L)))) (off : Fin 2 → Nat)
    (hoff : ∀ a, off a + S1x128.size a ≤ S32x128.size a) (e : off = rowOff n) (pay : S128x128.Idx → Elt F .f32)
    (hland : ∀ j ∈ (rSlot1).view.set, (rSlot1).view.writes (Elt F) fr [⟨Rect.whole S128x128, pay⟩] j = rCanF L tb ix n j) :
    Transfers.Flight countersEmb (V d (cV L) (jV L)) (SemLoc.dma cc1_scratch5.sem) (default : HIx 1) 524288
        iprop((((rSlot1).view.loc (V d (cV L) (jV L)) ↦[(rSlot1).view.set]{fullShare} (rSlot1).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 12} tb))
      ⊢ gFl1 d L q tb ix fi n := by
  unfold gFl1
  rw [ivP_at d L (fivOf d L ix fi) hn off hoff e, pointsTo_congr hland]

/-- Slot 2's gather of chunk n, from the flight as issued: the rows slot at what the gather wrote, equal on the slot to
    the table rows that row n of the row numbers names. -/
theorem gFl2_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot2).view.loc (V d (cV L) (jV L)))) (off : Fin 2 → Nat)
    (hoff : ∀ a, off a + S1x128.size a ≤ S32x128.size a) (e : off = rowOff n) (pay : S128x128.Idx → Elt F .f32)
    (hland : ∀ j ∈ (rSlot2).view.set, (rSlot2).view.writes (Elt F) fr [⟨Rect.whole S128x128, pay⟩] j = rCanF L tb ix n j) :
    Transfers.Flight countersEmb (V d (cV L) (jV L)) (SemLoc.dma cc1_scratch6.sem) (default : HIx 1) 524288
        iprop((((rSlot2).view.loc (V d (cV L) (jV L)) ↦[(rSlot2).view.set]{fullShare} (rSlot2).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 13} tb))
      ⊢ gFl2 d L q tb ix fi n := by
  unfold gFl2
  rw [ivP_at d L (fivOf d L ix fi) hn off hoff e, pointsTo_congr hland]

/-- Slot 3's gather of chunk n, from the flight as issued: the rows slot at what the gather wrote, equal on the slot to
    the table rows that row n of the row numbers names. -/
theorem gFl3_intro (q : PosShare TreeShare) (tb : Buf (Elt F) (tblLoc d)) (ix : Buf (Elt F) (idxLoc d))
    (fi : Buf (Elt F) ((ivV).view.loc (V d (cV L) (jV L)))) {n : ℕ} (hn : n < 32)
    (fr : Buf (Elt F) ((rSlot3).view.loc (V d (cV L) (jV L)))) (off : Fin 2 → Nat)
    (hoff : ∀ a, off a + S1x128.size a ≤ S32x128.size a) (e : off = rowOff n) (pay : S128x128.Idx → Elt F .f32)
    (hland : ∀ j ∈ (rSlot3).view.set, (rSlot3).view.writes (Elt F) fr [⟨Rect.whole S128x128, pay⟩] j = rCanF L tb ix n j) :
    Transfers.Flight countersEmb (V d (cV L) (jV L)) (SemLoc.dma cc1_scratch7.sem) (default : HIx 1) 524288
        iprop((((rSlot3).view.loc (V d (cV L) (jV L)) ↦[(rSlot3).view.set]{fullShare} (rSlot3).view.writes (Elt F) fr [⟨Rect.whole S128x128, pay⟩])
            ∗ ((ivRowAt off hoff).view.loc (V d (cV L) (jV L)) ↦[(ivRowAt off hoff).view.set]{fullShare} fivOf d L ix fi))
          ∗ ((tblV).view.loc (V d (cV L) (jV L)) ↦[(tblAll).view.set]{Transfers.shareTokN q 14} tb))
      ⊢ gFl3 d L q tb ix fi n := by
  unfold gFl3
  rw [ivP_at d L (fivOf d L ix fi) hn off hoff e, pointsTo_congr hland]

/-- Slot 0's weights copy of chunk n, from the flight as issued: the weights slot at what the copy wrote, equal on the
    slot to the tile's weight rows of chunk n. -/
theorem wFl0_intro (wv : Buf (Elt F) (wLoc d)) {n : ℕ} (hn : n < 32)
    (fw : Buf (Elt F) ((wSlot0).view.loc (V d (cV L) (jV L)))) (off : Fin 2 → Nat)
    (hoff : ∀ a, off a + S16x128.size a ≤ S16384x128.size a) (e : off = chunkOff L n) (pay : S16x128.Idx → Elt F .f32)
    (hland : ∀ j ∈ (wSlot0).view.set, (wSlot0).view.writes (Elt F) fw [⟨Rect.whole S16x128, pay⟩] j = wCanF L wv n j) :
    Transfers.Flight countersEmb (V d (cV L) (jV L)) (SemLoc.dma cc1_scratch8.sem) (default : HIx 1) 65536
        iprop(((wSlot0).view.loc (V d (cV L) (jV L)) ↦[(wSlot0).view.set]{fullShare} (wSlot0).view.writes (Elt F) fw [⟨Rect.whole S16x128, pay⟩])
          ∗ ((wChunkAt off hoff).view.loc (V d (cV L) (jV L)) ↦[(wChunkAt off hoff).view.set]{fullShare} wv))
      ⊢ wFl0 d L wv n := by
  unfold wFl0
  rw [wP_at d L wv hn off hoff e, pointsTo_congr hland]

/-- Slot 1's weights copy of chunk n, from the flight as issued: the weights slot at what the copy wrote, equal on the
    slot to the tile's weight rows of chunk n. -/
theorem wFl1_intro (wv : Buf (Elt F) (wLoc d)) {n : ℕ} (hn : n < 32)
    (fw : Buf (Elt F) ((wSlot1).view.loc (V d (cV L) (jV L)))) (off : Fin 2 → Nat)
    (hoff : ∀ a, off a + S16x128.size a ≤ S16384x128.size a) (e : off = chunkOff L n) (pay : S16x128.Idx → Elt F .f32)
    (hland : ∀ j ∈ (wSlot1).view.set, (wSlot1).view.writes (Elt F) fw [⟨Rect.whole S16x128, pay⟩] j = wCanF L wv n j) :
    Transfers.Flight countersEmb (V d (cV L) (jV L)) (SemLoc.dma cc1_scratch9.sem) (default : HIx 1) 65536
        iprop(((wSlot1).view.loc (V d (cV L) (jV L)) ↦[(wSlot1).view.set]{fullShare} (wSlot1).view.writes (Elt F) fw [⟨Rect.whole S16x128, pay⟩])
          ∗ ((wChunkAt off hoff).view.loc (V d (cV L) (jV L)) ↦[(wChunkAt off hoff).view.set]{fullShare} wv))
      ⊢ wFl1 d L wv n := by
  unfold wFl1
  rw [wP_at d L wv hn off hoff e, pointsTo_congr hland]

/-- Slot 2's weights copy of chunk n, from the flight as issued: the weights slot at what the copy wrote, equal on the
    slot to the tile's weight rows of chunk n. -/
theorem wFl2_intro (wv : Buf (Elt F) (wLoc d)) {n : ℕ} (hn : n < 32)
    (fw : Buf (Elt F) ((wSlot2).view.loc (V d (cV L) (jV L)))) (off : Fin 2 → Nat)
    (hoff : ∀ a, off a + S16x128.size a ≤ S16384x128.size a) (e : off = chunkOff L n) (pay : S16x128.Idx → Elt F .f32)
    (hland : ∀ j ∈ (wSlot2).view.set, (wSlot2).view.writes (Elt F) fw [⟨Rect.whole S16x128, pay⟩] j = wCanF L wv n j) :
    Transfers.Flight countersEmb (V d (cV L) (jV L)) (SemLoc.dma cc1_scratch10.sem) (default : HIx 1) 65536
        iprop(((wSlot2).view.loc (V d (cV L) (jV L)) ↦[(wSlot2).view.set]{fullShare} (wSlot2).view.writes (Elt F) fw [⟨Rect.whole S16x128, pay⟩])
          ∗ ((wChunkAt off hoff).view.loc (V d (cV L) (jV L)) ↦[(wChunkAt off hoff).view.set]{fullShare} wv))
      ⊢ wFl2 d L wv n := by
  unfold wFl2
  rw [wP_at d L wv hn off hoff e, pointsTo_congr hland]

/-- Slot 3's weights copy of chunk n, from the flight as issued: the weights slot at what the copy wrote, equal on the
    slot to the tile's weight rows of chunk n. -/
theorem wFl3_intro (wv : Buf (Elt F) (wLoc d)) {n : ℕ} (hn : n < 32)
    (fw : Buf (Elt F) ((wSlot3).view.loc (V d (cV L) (jV L)))) (off : Fin 2 → Nat)
    (hoff : ∀ a, off a + S16x128.size a ≤ S16384x128.size a) (e : off = chunkOff L n) (pay : S16x128.Idx → Elt F .f32)
    (hland : ∀ j ∈ (wSlot3).view.set, (wSlot3).view.writes (Elt F) fw [⟨Rect.whole S16x128, pay⟩] j = wCanF L wv n j) :
    Transfers.Flight countersEmb (V d (cV L) (jV L)) (SemLoc.dma cc1_scratch11.sem) (default : HIx 1) 65536
        iprop(((wSlot3).view.loc (V d (cV L) (jV L)) ↦[(wSlot3).view.set]{fullShare} (wSlot3).view.writes (Elt F) fw [⟨Rect.whole S16x128, pay⟩])
          ∗ ((wChunkAt off hoff).view.loc (V d (cV L) (jV L)) ↦[(wChunkAt off hoff).view.set]{fullShare} wv))
      ⊢ wFl3 d L wv n := by
  unfold wFl3
  rw [wP_at d L wv hn off hoff e, pointsTo_congr hland]

/-- Slot 0's result copy of chunk n, from the flight as issued: chunk n of the rows of the result at what the copy
    wrote, equal on the chunk to the balanced sums of the corners' terms. -/
theorem oFl0_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch12.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot0).view.loc (V d (cV L) (jV L)) ↦[(oSlot0).view.set]{fullShare} oCanF L tb ix wv n))
      ⊢ oFl0 d L tb ix wv n := by
  unfold oFl0
  rw [oP_at d L (skip (F := F) tb ix wv) hn off hoff e, pointsTo_congr hland]

/-- Slot 1's result copy of chunk n, from the flight as issued: chunk n of the rows of the result at what the copy
    wrote, equal on the chunk to the balanced sums of the corners' terms. -/
theorem oFl1_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch13.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot1).view.loc (V d (cV L) (jV L)) ↦[(oSlot1).view.set]{fullShare} oCanF L tb ix wv n))
      ⊢ oFl1 d L tb ix wv n := by
  unfold oFl1
  rw [oP_at d L (skip (F := F) tb ix wv) hn off hoff e, pointsTo_congr hland]

/-- Slot 2's result copy of chunk n, from the flight as issued: chunk n of the rows of the result at what the copy
    wrote, equal on the chunk to the balanced sums of the corners' terms. -/
theorem oFl2_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch14.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot2).view.loc (V d (cV L) (jV L)) ↦[(oSlot2).view.set]{fullShare} oCanF L tb ix wv n))
      ⊢ oFl2 d L tb ix wv n := by
  unfold oFl2
  rw [oP_at d L (skip (F := F) tb ix wv) hn off hoff e, pointsTo_congr hland]

/-- Slot 3's result copy of chunk n, from the flight as issued: chunk n of the rows of the result at what the copy
    wrote, equal on the chunk to the balanced sums of the corners' terms. -/
theorem oFl3_intro (tb : Buf (Elt F) (tblLoc d)) (ix : Buf (Elt F) (idxLoc d)) (wv : Buf (Elt F) (wLoc d)) {n : ℕ} (hn : n < 32)
    (fo : Buf (Elt F) (outLoc d)) (off : Fin 2 → Nat)
    (hoff : ∀ a, off a + S16x128.size a ≤ S16384x128.size a) (e : off = chunkOff L n) (pay : S16x128.Idx → Elt F .f32)
    (hland : ∀ j ∈ (oChunkAt off hoff).view.set, (oChunkAt off hoff).view.writes (Elt F) fo [⟨Rect.whole S16x128, pay⟩] j = skip (F := F) tb ix wv j) :
    Transfers.Flight countersEmb (V d (cV L) (jV L)) (SemLoc.dma cc1_scratch15.sem) (default : HIx 1) 65536
        iprop(((oChunkAt off hoff).view.loc (V d (cV L) (jV L)) ↦[(oChunkAt off hoff).view.set]{fullShare} (oChunkAt off hoff).view.writes (Elt F) fo [⟨Rect.whole S16x128, pay⟩])
          ∗ ((oSlot3).view.loc (V d (cV L) (jV L)) ↦[(oSlot3).view.set]{fullShare} oCanF L tb ix wv n))
      ⊢ oFl3 d L tb ix wv n := by
  unfold oFl3
  rw [oP_at d L (skip (F := F) tb ix wv) hn off hoff e, pointsTo_congr hland]

end Intro

/-! ## The offsets of the next chunk -/

section Offsets

theorem off21_row (g : Fin k1_t1_loop.trips) : k1_off21 g = rowOff (4 * g.val + 4) := k1_off21_eq g
theorem off41_row (g : Fin k1_t1_loop.trips) : k1_off41 g = rowOff (4 * g.val + 5) := k1_off41_eq g
theorem off60_row (g : Fin k1_t1_loop.trips) : k1_off60 g = rowOff (4 * g.val + 6) := k1_off60_eq g
theorem off79_row (g : Fin k1_t1_loop.trips) : k1_off79 g = rowOff (4 * g.val + 7) := k1_off79_eq g

theorem off22_chunk' (L : grid1.Coords) (g : Fin k1_t1_loop.trips) : k1_off22 L g = chunkOff L (4 * g.val + 4) :=
  (k1_off22_eq L g).trans (vec2_congr (by omega))
theorem off42_chunk' (L : grid1.Coords) (g : Fin k1_t1_loop.trips) : k1_off42 L g = chunkOff L (4 * g.val + 5) :=
  (k1_off42_eq L g).trans (vec2_congr (by omega))
theorem off61_chunk' (L : grid1.Coords) (g : Fin k1_t1_loop.trips) : k1_off61 L g = chunkOff L (4 * g.val + 6) :=
  (k1_off61_eq L g).trans (vec2_congr (by omega))
theorem off80_chunk' (L : grid1.Coords) (g : Fin k1_t1_loop.trips) : k1_off80 L g = chunkOff L (4 * g.val + 7) :=
  (k1_off80_eq L g).trans (vec2_congr (by omega))
theorem off23_chunk' (L : grid1.Coords) (g : Fin k1_t1_loop.trips) (r : Fin 4) :
    k1_off23 L g (BitVec.ofNat 32 r.val) = chunkOff L (4 * g.val + r.val) :=
  (k1_off23_eq L g r).trans (vec2_congr (by omega))
theorem off2_chunk' (L : grid1.Coords) (r : Fin 4) : k1_off2 L (BitVec.ofNat 32 (16 * r.val)) = chunkOff L r.val :=
  k1_off2_eq L r

end Offsets

end Cert.Proof.KB

end
-- ==== Proof.KB.TileClose.lean ====
/-
  The group loop's invariant put back together. Before group k the invariant holds the rows of row numbers, the weight
  chunks and the result chunks that are at home on either side of the four chunks in flight, and each slot's state. What
  group g leaves — the four rows and weight chunks it waited for, the four result chunks whose copies it waited for,
  the later pieces less the four it sent off, and each slot's three new flights — is the invariant before group g + 1:
  a run of pieces lo … n + 3 is the four pieces n … n + 3 beside the run lo … n - 1, and the rest is the same pieces in
  another order. The first group has no earlier result copies to wait for, the last sends nothing off.
-/
import proofs.«209143_g59700045415095_cont_9to1_m_37_38_alg».proof.Proof.KB.TileFl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A run of pieces grown by four -/

section Grow

/-- The pieces lo … n + 3 side by side are the four pieces n … n + 3 beside the pieces lo … n - 1. -/
theorem homes_grow4 (P : ℕ → sProp 𝕄) {lo n n' m : ℕ} (h : lo ≤ n) (hn : n' = n) (hm : m = n + 4) :
    homes P lo m = iprop(P (n' + 3) ∗ P (n' + 2) ∗ P (n' + 1) ∗ P (n' + 0) ∗ homes P lo n) := by
  subst hn hm
  show homes P lo (n' + 3 + 1) = _
  rw [homes_push P (by omega : lo ≤ n' + 3)]
  show iprop(P (n' + 3) ∗ homes P lo (n' + 2 + 1)) = _
  rw [homes_push P (by omega : lo ≤ n' + 2)]
  show iprop(P (n' + 3) ∗ P (n' + 2) ∗ homes P lo (n' + 1 + 1)) = _
  rw [homes_push P (by omega : lo ≤ n' + 1)]
  show iprop(P (n' + 3) ∗ P (n' + 2) ∗ P (n' + 1) ∗ homes P lo (n' + 0 + 1)) = _
  rw [homes_push P (by omega : lo ≤ n' + 0)]
  rfl

end Grow

section Close
variable [FloatOps F] (d : Dev nD) (L : grid1.Coords)

set_option maxHeartbeats 2000000 in
/-- The invariant before group g + 1 from what group g leaves (0 < g, g + 1 < 8): the four rows and four weight chunks that came
    home beside the earlier ones, the four result chunks that came home, the later pieces less the four that left, and each
    slot's three new flights. -/
theorem gInv_close_mid (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg0 : 0 < g) (hg7 : g + 1 < 8) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 8) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 8) 32
      ∗ homes (oP d L (skip (F := F) tb ix wv)) 0 (4 * g - 4)
      ∗ oP d L (skip (F := F) tb ix wv) (4 * (g - 1) + 0) ∗ oP d L (skip (F := F) tb ix wv) (4 * (g - 1) + 1)
      ∗ oP d L (skip (F := F) tb ix wv) (4 * (g - 1) + 2) ∗ oP d L (skip (F := F) tb ix wv) (4 * (g - 1) + 3)
      ∗ homes (oP d L o0) (4 * g + 4) 32
      ∗ (gFl0 d L q tb ix fi (4 * g + 4) ∗ tblRest d L q tb 11 ∗ wFl0 d L wv (4 * g + 4) ∗ oFl0 d L tb ix wv (4 * g + 0))
      ∗ (gFl1 d L q tb ix fi (4 * g + 5) ∗ tblRest d L q tb 12 ∗ wFl1 d L wv (4 * g + 5) ∗ oFl1 d L tb ix wv (4 * g + 1))
      ∗ (gFl2 d L q tb ix fi (4 * g + 6) ∗ tblRest d L q tb 13 ∗ wFl2 d L wv (4 * g + 6) ∗ oFl2 d L tb ix wv (4 * g + 2))
      ∗ (gFl3 d L q tb ix fi (4 * g + 7) ∗ tblRest d L q tb 14 ∗ wFl3 d L wv (4 * g + 7) ∗ oFl3 d L tb ix wv (4 * g + 3)))
      ⊢ gInv d L O W q tb ix wv o0 fi (g + 1) acc := by
  unfold gInv slotSt0 slotSt1 slotSt2 slotSt3
  rw [if_pos hg7, if_pos hg7, if_pos hg7, if_pos hg7,
    if_neg (Nat.succ_ne_zero g), if_neg (Nat.succ_ne_zero g), if_neg (Nat.succ_ne_zero g), if_neg (Nat.succ_ne_zero g)]
  rw [show 4 * (g + 1) + 4 = 4 * g + 8 from by omega,
    show 4 * (g + 1) + 0 = 4 * g + 4 from by omega, show 4 * (g + 1) + 1 = 4 * g + 5 from by omega,
    show 4 * (g + 1) + 2 = 4 * g + 6 from by omega, show 4 * (g + 1) + 3 = 4 * g + 7 from by omega,
    show g + 1 - 1 = g from by omega]
  rw [homes_grow4 (ivP d L (fivOf d L ix fi)) (lo := 0) (n := 4 * g) (n' := 4 * g) (m := 4 * (g + 1)) (by omega) rfl (by omega),
    homes_grow4 (wP d L wv) (lo := 0) (n := 4 * g) (n' := 4 * g) (m := 4 * (g + 1)) (by omega) rfl (by omega),
    homes_grow4 (oP d L (skip (F := F) tb ix wv)) (lo := 0) (n := 4 * g - 4) (n' := 4 * (g - 1)) (m := 4 * (g + 1) - 4) (by omega) (by omega) (by omega)]
  rw [show 4 * (g + 1) = 4 * g + 4 from by omega]
  iintro ⟨HM, HW, Hi, Hi0, Hi1, Hi2, Hi3, Hi8, Hw, Hw0, Hw1, Hw2, Hw3, Hw8, Ho, Ho0, Ho1, Ho2, Ho3, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant before the second group from what the first leaves: rows and weight chunks 0 … 3 came home, no result
    chunk has yet, the later pieces less chunks 4 … 7, and each slot's three new flights. -/
theorem gInv_close_first (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 0 ∗ ivP d L (fivOf d L ix fi) 0 ∗ ivP d L (fivOf d L ix fi) 1 ∗ ivP d L (fivOf d L ix fi) 2 ∗ ivP d L (fivOf d L ix fi) 3
      ∗ homes (ivP d L (fivOf d L ix fi)) 8 32
      ∗ homes (wP d L wv) 0 0 ∗ wP d L wv 0 ∗ wP d L wv 1 ∗ wP d L wv 2 ∗ wP d L wv 3
      ∗ homes (wP d L wv) 8 32
      ∗ homes (oP d L o0) 4 32
      ∗ (gFl0 d L q tb ix fi 4 ∗ tblRest d L q tb 11 ∗ wFl0 d L wv 4 ∗ oFl0 d L tb ix wv 0)
      ∗ (gFl1 d L q tb ix fi 5 ∗ tblRest d L q tb 12 ∗ wFl1 d L wv 5 ∗ oFl1 d L tb ix wv 1)
      ∗ (gFl2 d L q tb ix fi 6 ∗ tblRest d L q tb 13 ∗ wFl2 d L wv 6 ∗ oFl2 d L tb ix wv 2)
      ∗ (gFl3 d L q tb ix fi 7 ∗ tblRest d L q tb 14 ∗ wFl3 d L wv 7 ∗ oFl3 d L tb ix wv 3))
      ⊢ gInv d L O W q tb ix wv o0 fi (0 + 1) acc := by
  unfold gInv slotSt0 slotSt1 slotSt2 slotSt3
  rw [if_pos (by decide : 0 + 1 < 8), if_pos (by decide : 0 + 1 < 8), if_pos (by decide : 0 + 1 < 8), if_pos (by decide : 0 + 1 < 8),
    if_neg (by decide : ¬ (0 + 1 = 0)), if_neg (by decide : ¬ (0 + 1 = 0)), if_neg (by decide : ¬ (0 + 1 = 0)), if_neg (by decide : ¬ (0 + 1 = 0))]
  simp only [Nat.reduceMul, Nat.reduceAdd, Nat.reduceSub]
  rw [homes_grow4 (ivP d L (fivOf d L ix fi)) (lo := 0) (n := 0) (n' := 0) (m := 4) (by omega) rfl (by omega),
    homes_grow4 (wP d L wv) (lo := 0) (n := 0) (n' := 0) (m := 4) (by omega) rfl (by omega),
    homes_nil (oP d L (skip (F := F) tb ix wv)) (by omega : 0 ≤ 0)]
  simp only [Nat.reduceAdd]
  iintro ⟨HM, HW, Hi, Hi0, Hi1, Hi2, Hi3, Hi8, Hw, Hw0, Hw1, Hw2, Hw3, Hw8, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant after the last group from what it leaves: rows and weight chunks 28 … 31 came home beside the earlier
    ones, result chunks 24 … 27 came home, nothing was sent off, so each slot's gather and weights side is idle, and
    each slot's result copy of chunk 28 … 31 is in flight. -/
theorem gInv_close_last (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 28 ∗ ivP d L (fivOf d L ix fi) 28 ∗ ivP d L (fivOf d L ix fi) 29 ∗ ivP d L (fivOf d L ix fi) 30 ∗ ivP d L (fivOf d L ix fi) 31
      ∗ homes (wP d L wv) 0 28 ∗ wP d L wv 28 ∗ wP d L wv 29 ∗ wP d L wv 30 ∗ wP d L wv 31
      ∗ homes (oP d L (skip (F := F) tb ix wv)) 0 24
      ∗ oP d L (skip (F := F) tb ix wv) 24 ∗ oP d L (skip (F := F) tb ix wv) 25
      ∗ oP d L (skip (F := F) tb ix wv) 26 ∗ oP d L (skip (F := F) tb ix wv) 27
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0 ∗ oFl0 d L tb ix wv 28)
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0 ∗ oFl1 d L tb ix wv 29)
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0 ∗ oFl2 d L tb ix wv 30)
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0 ∗ oFl3 d L tb ix wv 31))
      ⊢ gInv d L O W q tb ix wv o0 fi (7 + 1) acc := by
  unfold gInv slotSt0 slotSt1 slotSt2 slotSt3
  rw [if_neg (by decide : ¬ (7 + 1 < 8)), if_neg (by decide : ¬ (7 + 1 < 8)), if_neg (by decide : ¬ (7 + 1 < 8)), if_neg (by decide : ¬ (7 + 1 < 8)),
    if_neg (by decide : ¬ (7 + 1 = 0)), if_neg (by decide : ¬ (7 + 1 = 0)), if_neg (by decide : ¬ (7 + 1 = 0)), if_neg (by decide : ¬ (7 + 1 = 0))]
  simp only [Nat.reduceMul, Nat.reduceAdd, Nat.reduceSub]
  rw [homes_grow4 (ivP d L (fivOf d L ix fi)) (lo := 0) (n := 28) (n' := 28) (m := 32) (by omega) rfl (by omega),
    homes_grow4 (wP d L wv) (lo := 0) (n := 28) (n' := 28) (m := 32) (by omega) rfl (by omega),
    homes_grow4 (oP d L (skip (F := F) tb ix wv)) (lo := 0) (n := 24) (n' := 24) (m := 28) (by omega) rfl (by omega),
    homes_nil (ivP d L (fivOf d L ix fi)) (by omega : 32 ≤ 36), homes_nil (wP d L wv) (by omega : 32 ≤ 36), homes_nil (oP d L o0) (by omega : 32 ≤ 32)]
  simp only [Nat.reduceAdd]
  iintro ⟨HM, HW, Hi, Hi0, Hi1, Hi2, Hi3, Hw, Hw0, Hw1, Hw2, Hw3, Ho, Ho0, Ho1, Ho2, Ho3,
    ⟨Ht0, Hr0, Hs0, Hf0, Hz0, Hc0⟩, ⟨Ht1, Hr1, Hs1, Hf1, Hz1, Hc1⟩, ⟨Ht2, Hr2, Hs2, Hf2, Hz2, Hc2⟩, ⟨Ht3, Hr3, Hs3, Hf3, Hz3, Hc3⟩⟩
  iframe

end Close

end Cert.Proof.KB
end
-- ==== Proof.KB.Tile1.lean ====
/-
  One trip of the group loop of a vector subcore's task, at a group that is neither the first nor the last. For each
  of the four slots in turn: the slot's gather and weights copy have landed (their waits hand back the rows slot at the
  table rows its chunk's row numbers name, the row of row numbers, the table's read token whole again, the weights slot
  at the chunk's weights, the chunk of weights); the previous group's result copy out of the slot has landed (its chunk
  of the result at the gathered sums comes home); the point loop fills the result slot with the balanced sums; the slot's
  next gather and weights copy leave (the next row of row numbers and chunk of weights with them) and the result copy of
  this chunk leaves. What is left is the invariant one group on.
-/
import proofs.«209143_g59700045415095_cont_9to1_m_37_38_alg».proof.Proof.KB.TileFl
import proofs.«209143_g59700045415095_cont_9to1_m_37_38_alg».proof.Proof.KB.TilePt
import proofs.«209143_g59700045415095_cont_9to1_m_37_38_alg».proof.Proof.KB.TileBrA
import proofs.«209143_g59700045415095_cont_9to1_m_37_38_alg».proof.Proof.KB.TileBrB
import proofs.«209143_g59700045415095_cont_9to1_m_37_38_alg».proof.Proof.KB.TileBrC
import proofs.«209143_g59700045415095_cont_9to1_m_37_38_alg».proof.Proof.KB.TileClose

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

private theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

private theorem wP_fold (wv : Buf (Elt F) (wLoc d)) (n : ℕ) :
    (((wChunkAt (chunkOff L (n % 32)) (chunkOff_inb L (mod32_lt n))).view.loc (V d (cV L) (jV L)) ↦[(wChunkAt (chunkOff L (n % 32)) (chunkOff_inb L (mod32_lt n))).view.set]{fullShare} wv) : sProp 𝕄) ⊢ wP d L wv n := by
  unfold wP; exact .rfl
private theorem oP_fold (f : Buf (Elt F) (outLoc d)) (n : ℕ) :
    (((oChunkAt (chunkOff L (n % 32)) (chunkOff_inb L (mod32_lt n))).view.loc (V d (cV L) (jV L)) ↦[(oChunkAt (chunkOff L (n % 32)) (chunkOff_inb L (mod32_lt n))).view.set]{fullShare} f) : sProp 𝕄) ⊢ oP d L f n := by
  unfold oP; exact .rfl

set_option maxHeartbeats 8000000 in
theorem groupTripMid (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), 0 < g.val → g.val + 1 < 8 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg0 hg7
  generalize hQ : gInv d L O W q tb ix wv o0 fi (g.val + 1) = Q
  have hc1 : k1_cond1 g = 1#1 := (cond1_iff g).2 hg0
  have hc2 : k1_cond2 g = 1#1 := (cond2_iff g).2 hg7
  have hc3 : k1_cond3 g = 1#1 := (cond3_iff g).2 hg0
  have hc4 : k1_cond4 g = 1#1 := (cond4_iff g).2 hg7
  have hc5 : k1_cond5 g = 1#1 := (cond5_iff g).2 hg0
  have hc6 : k1_cond6 g = 1#1 := (cond6_iff g).2 hg7
  have hc7 : k1_cond7 g = 1#1 := (cond7_iff g).2 hg0
  have hc8 : k1_cond8 g = 1#1 := (cond8_iff g).2 hg7
  have hin := idx_inb d L ix hidx
  have hlt : g.val < 8 := by omega
  have hne : ¬ g.val = 0 := by omega
  unfold gInv slotSt0 slotSt1 slotSt2 slotSt3
  rw [if_pos hlt, if_pos hlt, if_pos hlt, if_pos hlt, if_neg hne, if_neg hne, if_neg hne, if_neg hne]
  unfold gFl0 wFl0 oFl0 gFl1 wFl1 oFl1 gFl2 wFl2 oFl2 gFl3 wFl3 oFl3
  rw [homes_pop (ivP d L (fivOf d L ix fi)) (show 4 * g.val + 4 < 32 by omega), homes_pop (ivP d L (fivOf d L ix fi)) (show 4 * g.val + 4 + 1 < 32 by omega),
    homes_pop (ivP d L (fivOf d L ix fi)) (show 4 * g.val + 4 + 1 + 1 < 32 by omega), homes_pop (ivP d L (fivOf d L ix fi)) (show 4 * g.val + 4 + 1 + 1 + 1 < 32 by omega),
    ivP_at d L (fivOf d L ix fi) (show 4 * g.val + 4 < 32 by omega) (k1_off21 g) (k1_off21_inb g hc2) (off21_row g),
    ivP_at d L (fivOf d L ix fi) (show 4 * g.val + 4 + 1 < 32 by omega) (k1_off41 g) (k1_off41_inb g hc4) (off41_row g),
    ivP_at d L (fivOf d L ix fi) (show 4 * g.val + 4 + 1 + 1 < 32 by omega) (k1_off60 g) (k1_off60_inb g hc6) (off60_row g),
    ivP_at d L (fivOf d L ix fi) (show 4 * g.val + 4 + 1 + 1 + 1 < 32 by omega) (k1_off79 g) (k1_off79_inb g hc8) (off79_row g),
    homes_pop (wP d L wv) (show 4 * g.val + 4 < 32 by omega), homes_pop (wP d L wv) (show 4 * g.val + 4 + 1 < 32 by omega),
    homes_pop (wP d L wv) (show 4 * g.val + 4 + 1 + 1 < 32 by omega), homes_pop (wP d L wv) (show 4 * g.val + 4 + 1 + 1 + 1 < 32 by omega),
    wP_at d L wv (show 4 * g.val + 4 < 32 by omega) (k1_off22 L g) (k1_off22_inb L g hc2) (off22_chunk' L g),
    wP_at d L wv (show 4 * g.val + 4 + 1 < 32 by omega) (k1_off42 L g) (k1_off42_inb L g hc4) (off42_chunk' L g),
    wP_at d L wv (show 4 * g.val + 4 + 1 + 1 < 32 by omega) (k1_off61 L g) (k1_off61_inb L g hc6) (off61_chunk' L g),
    wP_at d L wv (show 4 * g.val + 4 + 1 + 1 + 1 < 32 by omega) (k1_off80 L g) (k1_off80_inb L g hc8) (off80_chunk' L g),
    homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3)]
  unfold wP oP
  iintro ⟨#Hmw, ⟨%W', %hW', HO⟩, HVd, ⟨HV0, HV1, HV2, HV3, HVt⟩, HWd, ⟨HWc0, HWc1, HWc2, HWc3, HWt⟩, HOd, ⟨HOc0, HOc1, HOc2, HOc3, HOt⟩,
    ⟨⟨HG0, HTr0, HW0⟩, HF0⟩, ⟨⟨HG1, HTr1, HW1⟩, HF1⟩, ⟨⟨HG2, HTr2, HW2⟩, HF2⟩, ⟨⟨HG3, HTr3, HW3⟩, HF3⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HF0_src]
  case region => exact ptTrip0 d L v2 0#32 1#32 g _ _
  · unfold ptInv0
    isplitl [HW0_dst]; · iexact HW0_dst
    isplitl [Hr0]; · iexact Hr0
    iexists _; isplitl [HF0_src]; · iexact HF0_src
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HF1_src]
  case region => exact ptTrip1 d L g _ _ _
  · unfold ptInv1
    isplitl [HW1_dst]; · iexact HW1_dst
    isplitl [Hr1]; · iexact Hr1
    iexists _; isplitl [HF1_src]; · iexact HF1_src
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HF2_src]
  case region => exact ptTrip2 d L v2 g _ _ _ _ _
  · unfold ptInv2
    isplitl [HW2_dst]; · iexact HW2_dst
    isplitl [Hr2]; · iexact Hr2
    iexists _; isplitl [HF2_src]; · iexact HF2_src
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HF3_src]
  case region => exact ptTrip3 d L v2 _ _
  · unfold ptInv3
    isplitl [HW3_dst]; · iexact HW3_dst
    isplitl [Hr3]; · iexact Hr3
    iexists _; isplitl [HF3_src]; · iexact HF3_src
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  ihave HG0' : gFl0 d L q tb ix fi (4 * g.val + 4) $$ [HG0]
  · iapply (gFl0_intro d L q tb ix fi (n := 4 * g.val + 4) (by omega) (rCanF L tb ix (4 * g.val + 0)) (k1_off21 g) (k1_off21_inb g hc2) (off21_row g) _
      (rows_landed0 d L tb ix fi (by omega) _ (k1_off21 g) (k1_off21_inb g hc2) (off21_row g) rfl (hin fi (k1_off21 g) (k1_off21_inb g hc2))))
    iexact HG0
  ihave HW0' : wFl0 d L wv (4 * g.val + 4) $$ [HW0]
  · iapply (wFl0_intro d L wv (n := 4 * g.val + 4) (by omega) (wCanF L wv (4 * g.val + 0)) (k1_off22 L g) (k1_off22_inb L g hc2) (off22_chunk' L g) _
      (w_landed0 d L wv (by omega) _ (k1_off22 L g) (k1_off22_inb L g hc2) (off22_chunk' L g)))
    iexact HW0
  ihave HF0' : oFl0 d L tb ix wv (4 * g.val + 0) $$ [HF0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (by omega) o0 _ (k1_off23_inb L g 0) (off23_chunk' L g 0)))
    iexact HF0
  ihave HG1' : gFl1 d L q tb ix fi (4 * g.val + 5) $$ [HG1]
  · iapply (gFl1_intro d L q tb ix fi (n := 4 * g.val + 5) (by omega) (rCanF L tb ix (4 * g.val + 1)) (k1_off41 g) (k1_off41_inb g hc4) (off41_row g) _
      (rows_landed1 d L tb ix fi (by omega) _ (k1_off41 g) (k1_off41_inb g hc4) (off41_row g) rfl (hin fi (k1_off41 g) (k1_off41_inb g hc4))))
    iexact HG1
  ihave HW1' : wFl1 d L wv (4 * g.val + 5) $$ [HW1]
  · iapply (wFl1_intro d L wv (n := 4 * g.val + 5) (by omega) (wCanF L wv (4 * g.val + 1)) (k1_off42 L g) (k1_off42_inb L g hc4) (off42_chunk' L g) _
      (w_landed1 d L wv (by omega) _ (k1_off42 L g) (k1_off42_inb L g hc4) (off42_chunk' L g)))
    iexact HW1
  ihave HF1' : oFl1 d L tb ix wv (4 * g.val + 1) $$ [HF1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (by omega) o0 _ (k1_off23_inb L g 1) (off23_chunk' L g 1)))
    iexact HF1
  ihave HG2' : gFl2 d L q tb ix fi (4 * g.val + 6) $$ [HG2]
  · iapply (gFl2_intro d L q tb ix fi (n := 4 * g.val + 6) (by omega) (rCanF L tb ix (4 * g.val + 2)) (k1_off60 g) (k1_off60_inb g hc6) (off60_row g) _
      (rows_landed2 d L tb ix fi (by omega) _ (k1_off60 g) (k1_off60_inb g hc6) (off60_row g) rfl (hin fi (k1_off60 g) (k1_off60_inb g hc6))))
    iexact HG2
  ihave HW2' : wFl2 d L wv (4 * g.val + 6) $$ [HW2]
  · iapply (wFl2_intro d L wv (n := 4 * g.val + 6) (by omega) (wCanF L wv (4 * g.val + 2)) (k1_off61 L g) (k1_off61_inb L g hc6) (off61_chunk' L g) _
      (w_landed2 d L wv (by omega) _ (k1_off61 L g) (k1_off61_inb L g hc6) (off61_chunk' L g)))
    iexact HW2
  ihave HF2' : oFl2 d L tb ix wv (4 * g.val + 2) $$ [HF2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (by omega) o0 _ (k1_off23_inb L g 2) (off23_chunk' L g 2)))
    iexact HF2
  ihave HG3' : gFl3 d L q tb ix fi (4 * g.val + 7) $$ [HG3]
  · iapply (gFl3_intro d L q tb ix fi (n := 4 * g.val + 7) (by omega) (rCanF L tb ix (4 * g.val + 3)) (k1_off79 g) (k1_off79_inb g hc8) (off79_row g) _
      (rows_landed3 d L tb ix fi (by omega) _ (k1_off79 g) (k1_off79_inb g hc8) (off79_row g) rfl (hin fi (k1_off79 g) (k1_off79_inb g hc8))))
    iexact HG3
  ihave HW3' : wFl3 d L wv (4 * g.val + 7) $$ [HW3]
  · iapply (wFl3_intro d L wv (n := 4 * g.val + 7) (by omega) (wCanF L wv (4 * g.val + 3)) (k1_off80 L g) (k1_off80_inb L g hc8) (off80_chunk' L g) _
      (w_landed3 d L wv (by omega) _ (k1_off80 L g) (k1_off80_inb L g hc8) (off80_chunk' L g)))
    iexact HW3
  ihave HF3' : oFl3 d L tb ix wv (4 * g.val + 3) $$ [HF3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (by omega) o0 _ (k1_off23_inb L g 3) (off23_chunk' L g 3)))
    iexact HF3
  subst hQ
  iapply (gInv_close_mid d L O W q tb ix wv o0 fi g.val hg0 hg7 acc)
  isplitr; · iexact Hmw
  isplitl [HO]
  · iexists _; isplitr
    swap; · iexact HO
    ipureintro; exact (waits_ins (waits_ins (waits_ins (waits_ins (waits_ins (waits_ins (waits_ins (waits_ins (waits_ins (waits_ins (waits_ins (waits_ins hW' _) _) _) _) _) _) _) _) _) _) _) _)
  iframe
  isplitl [HWd]; · iexact HWd
  isplitl [HW0_src]; · iapply (wP_fold d L wv (4 * g.val + 0)); iexact HW0_src
  isplitl [HW1_src]; · iapply (wP_fold d L wv (4 * g.val + 1)); iexact HW1_src
  isplitl [HW2_src]; · iapply (wP_fold d L wv (4 * g.val + 2)); iexact HW2_src
  isplitl [HW3_src]; · iapply (wP_fold d L wv (4 * g.val + 3)); iexact HW3_src
  isplitl [HWt]; · iexact HWt
  isplitl [HOd]; · iexact HOd
  isplitl [HF0_dst]; · iapply (oP_fold d L (skip (F := F) tb ix wv) (4 * (g.val - 1) + 0)); iexact HF0_dst
  isplitl [HF1_dst]; · iapply (oP_fold d L (skip (F := F) tb ix wv) (4 * (g.val - 1) + 1)); iexact HF1_dst
  isplitl [HF2_dst]; · iapply (oP_fold d L (skip (F := F) tb ix wv) (4 * (g.val - 1) + 2)); iexact HF2_dst
  isplitl [HF3_dst]; · iapply (oP_fold d L (skip (F := F) tb ix wv) (4 * (g.val - 1) + 3)); iexact HF3_dst
  iexact HOt

end Trip

end Cert.Proof.KB

end
-- ==== Proof.KB.TileCloseAt.lean ====
/-
  The group loop's invariant put back together at its two ends, the group's number kept as a variable: for g = 0 what
  the first group leaves (no result chunk has come home, the run of result chunks at the balanced sums is still empty),
  for g = 7 what the last group leaves (nothing was sent off: the runs of later pieces are empty, each slot's gather and
  weights side is idle). With the number fixed every run's ends are numbers, and the two sides are the same pieces.
-/
import proofs.«209143_g59700045415095_cont_9to1_m_37_38_alg».proof.Proof.KB.TileFl
import proofs.«209143_g59700045415095_cont_9to1_m_37_38_alg».proof.Proof.KB.TileClose

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section CloseAt
variable [FloatOps F] (d : Dev nD) (L : grid1.Coords)

set_option maxHeartbeats 2000000 in
/-- The invariant before group g + 1 from what group g = 0 leaves. -/
theorem gInv_close_first_at (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg : g = 0) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 8) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 8) 32
      ∗ homes (oP d L (skip (F := F) tb ix wv)) 0 (4 * g - 4)
      ∗ homes (oP d L o0) (4 * g + 4) 32
      ∗ (gFl0 d L q tb ix fi (4 * g + 4) ∗ tblRest d L q tb 11 ∗ wFl0 d L wv (4 * g + 4) ∗ oFl0 d L tb ix wv (4 * g + 0))
      ∗ (gFl1 d L q tb ix fi (4 * g + 5) ∗ tblRest d L q tb 12 ∗ wFl1 d L wv (4 * g + 5) ∗ oFl1 d L tb ix wv (4 * g + 1))
      ∗ (gFl2 d L q tb ix fi (4 * g + 6) ∗ tblRest d L q tb 13 ∗ wFl2 d L wv (4 * g + 6) ∗ oFl2 d L tb ix wv (4 * g + 2))
      ∗ (gFl3 d L q tb ix fi (4 * g + 7) ∗ tblRest d L q tb 14 ∗ wFl3 d L wv (4 * g + 7) ∗ oFl3 d L tb ix wv (4 * g + 3)))
      ⊢ gInv d L O W q tb ix wv o0 fi (g + 1) acc := by
  subst hg
  unfold gInv slotSt0 slotSt1 slotSt2 slotSt3
  rw [if_pos (by decide : 0 + 1 < 8), if_pos (by decide : 0 + 1 < 8), if_pos (by decide : 0 + 1 < 8), if_pos (by decide : 0 + 1 < 8),
    if_neg (by decide : ¬ (0 + 1 = 0)), if_neg (by decide : ¬ (0 + 1 = 0)), if_neg (by decide : ¬ (0 + 1 = 0)), if_neg (by decide : ¬ (0 + 1 = 0))]
  simp only [Nat.reduceMul, Nat.reduceAdd, Nat.reduceSub]
  rw [homes_grow4 (ivP d L (fivOf d L ix fi)) (lo := 0) (n := 0) (n' := 0) (m := 4) (by omega) rfl (by omega),
    homes_grow4 (wP d L wv) (lo := 0) (n := 0) (n' := 0) (m := 4) (by omega) rfl (by omega)]
  simp only [Nat.reduceAdd]
  iintro ⟨HM, HW, Hi, Hi0, Hi1, Hi2, Hi3, Hi8, Hw, Hw0, Hw1, Hw2, Hw3, Hw8, Ho, Hoo,
    ⟨Hg0, Ht0, Hf0, Hr0⟩, ⟨Hg1, Ht1, Hf1, Hr1⟩, ⟨Hg2, Ht2, Hf2, Hr2⟩, ⟨Hg3, Ht3, Hf3, Hr3⟩⟩
  iframe

set_option maxHeartbeats 2000000 in
/-- The invariant after the last group from what group g = 7 leaves. -/
theorem gInv_close_last_at (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (g : ℕ) (hg : g = 7) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 (4 * g) ∗ ivP d L (fivOf d L ix fi) (4 * g + 0) ∗ ivP d L (fivOf d L ix fi) (4 * g + 1) ∗ ivP d L (fivOf d L ix fi) (4 * g + 2) ∗ ivP d L (fivOf d L ix fi) (4 * g + 3)
      ∗ homes (ivP d L (fivOf d L ix fi)) (4 * g + 4) 32
      ∗ homes (wP d L wv) 0 (4 * g) ∗ wP d L wv (4 * g + 0) ∗ wP d L wv (4 * g + 1) ∗ wP d L wv (4 * g + 2) ∗ wP d L wv (4 * g + 3)
      ∗ homes (wP d L wv) (4 * g + 4) 32
      ∗ homes (oP d L (skip (F := F) tb ix wv)) 0 (4 * g - 4)
      ∗ oP d L (skip (F := F) tb ix wv) (4 * (g - 1) + 0) ∗ oP d L (skip (F := F) tb ix wv) (4 * (g - 1) + 1)
      ∗ oP d L (skip (F := F) tb ix wv) (4 * (g - 1) + 2) ∗ oP d L (skip (F := F) tb ix wv) (4 * (g - 1) + 3)
      ∗ homes (oP d L o0) (4 * g + 4) 32
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0 ∗ oFl0 d L tb ix wv (4 * g + 0))
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0 ∗ oFl1 d L tb ix wv (4 * g + 1))
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0 ∗ oFl2 d L tb ix wv (4 * g + 2))
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0 ∗ oFl3 d L tb ix wv (4 * g + 3)))
      ⊢ gInv d L O W q tb ix wv o0 fi (g + 1) acc := by
  subst hg
  unfold gInv slotSt0 slotSt1 slotSt2 slotSt3
  rw [if_neg (by decide : ¬ (7 + 1 < 8)), if_neg (by decide : ¬ (7 + 1 < 8)), if_neg (by decide : ¬ (7 + 1 < 8)), if_neg (by decide : ¬ (7 + 1 < 8)),
    if_neg (by decide : ¬ (7 + 1 = 0)), if_neg (by decide : ¬ (7 + 1 = 0)), if_neg (by decide : ¬ (7 + 1 = 0)), if_neg (by decide : ¬ (7 + 1 = 0))]
  simp only [Nat.reduceMul, Nat.reduceAdd, Nat.reduceSub]
  rw [homes_grow4 (ivP d L (fivOf d L ix fi)) (lo := 0) (n := 28) (n' := 28) (m := 32) (by omega) rfl (by omega),
    homes_grow4 (wP d L wv) (lo := 0) (n := 28) (n' := 28) (m := 32) (by omega) rfl (by omega),
    homes_grow4 (oP d L (skip (F := F) tb ix wv)) (lo := 0) (n := 24) (n' := 24) (m := 28) (by omega) rfl (by omega),
    homes_nil (ivP d L (fivOf d L ix fi)) (by omega : 32 ≤ 36), homes_nil (wP d L wv) (by omega : 32 ≤ 36),
    homes_nil (ivP d L (fivOf d L ix fi)) (by omega : 32 ≤ 32), homes_nil (wP d L wv) (by omega : 32 ≤ 32), homes_nil (oP d L o0) (by omega : 32 ≤ 32)]
  simp only [Nat.reduceAdd]
  iintro ⟨HM, HW, Hi, Hi0, Hi1, Hi2, Hi3, Hie, Hw, Hw0, Hw1, Hw2, Hw3, Hwe, Ho, Ho0, Ho1, Ho2, Ho3, Hoe,
    ⟨Ht0, Hr0, Hs0, Hf0, Hz0, Hc0⟩, ⟨Ht1, Hr1, Hs1, Hf1, Hz1, Hc1⟩, ⟨Ht2, Hr2, Hs2, Hf2, Hz2, Hc2⟩, ⟨Ht3, Hr3, Hs3, Hf3, Hz3, Hc3⟩⟩
  iframe

end CloseAt

end Cert.Proof.KB
end
-- ==== Proof.KB.TileTripB.lean ====
/-
  The group loop's first trip. Before the first group the result slots are idle: no result copy is in flight, so none is
  waited for. The trip waits for the gathers and the weights copies of chunks 0 … 3, runs the four point loops over the
  landed slots, sends for chunks 4 … 7 and copies the four result slots out to chunks 0 … 3 of the rows of the result;
  what it leaves is the invariant before the second group.
-/
import proofs.«209143_g59700045415095_cont_9to1_m_37_38_alg».proof.Proof.KB.TileFl
import proofs.«209143_g59700045415095_cont_9to1_m_37_38_alg».proof.Proof.KB.TilePt
import proofs.«209143_g59700045415095_cont_9to1_m_37_38_alg».proof.Proof.KB.TileBrA
import proofs.«209143_g59700045415095_cont_9to1_m_37_38_alg».proof.Proof.KB.TileBrB
import proofs.«209143_g59700045415095_cont_9to1_m_37_38_alg».proof.Proof.KB.TileBrC
import proofs.«209143_g59700045415095_cont_9to1_m_37_38_alg».proof.Proof.KB.TileClose
import proofs.«209143_g59700045415095_cont_9to1_m_37_38_alg».proof.Proof.KB.TileCloseAt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section TripB
variable [FloatOps F] (d : Dev nD) (L : grid1.Coords)

private theorem waits_ins_f {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 8000000 in
/-- The first group: its four chunks' gathers and weights copies are waited for, no result copy is, the point loops fill
    the four result slots, the next four chunks are sent for and the four result slots are copied out. -/
theorem groupTripFirst (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), g.val = 0 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg
  generalize hQ : gInv d L O W q tb ix wv o0 fi (g.val + 1) = Q
  have hc1 : ¬ k1_cond1 g = 1#1 := fun h => absurd ((cond1_iff g).1 h) (by omega)
  have hc2 : k1_cond2 g = 1#1 := (cond2_iff g).2 (by omega)
  have hc3 : ¬ k1_cond3 g = 1#1 := fun h => absurd ((cond3_iff g).1 h) (by omega)
  have hc4 : k1_cond4 g = 1#1 := (cond4_iff g).2 (by omega)
  have hc5 : ¬ k1_cond5 g = 1#1 := fun h => absurd ((cond5_iff g).1 h) (by omega)
  have hc6 : k1_cond6 g = 1#1 := (cond6_iff g).2 (by omega)
  have hc7 : ¬ k1_cond7 g = 1#1 := fun h => absurd ((cond7_iff g).1 h) (by omega)
  have hc8 : k1_cond8 g = 1#1 := (cond8_iff g).2 (by omega)
  have hin := idx_inb d L ix hidx
  have hlt : g.val < 8 := by omega
  unfold gInv slotSt0 slotSt1 slotSt2 slotSt3
  rw [if_pos hlt, if_pos hlt, if_pos hlt, if_pos hlt, if_pos hg, if_pos hg, if_pos hg, if_pos hg]
  unfold gFl0 wFl0 gFl1 wFl1 gFl2 wFl2 gFl3 wFl3
  rw [homes_pop (ivP d L (fivOf d L ix fi)) (show 4 * g.val + 4 < 32 by omega), homes_pop (ivP d L (fivOf d L ix fi)) (show 4 * g.val + 4 + 1 < 32 by omega),
    homes_pop (ivP d L (fivOf d L ix fi)) (show 4 * g.val + 4 + 1 + 1 < 32 by omega), homes_pop (ivP d L (fivOf d L ix fi)) (show 4 * g.val + 4 + 1 + 1 + 1 < 32 by omega),
    ivP_at d L (fivOf d L ix fi) (show 4 * g.val + 4 < 32 by omega) (k1_off21 g) (k1_off21_inb g hc2) (off21_row g),
    ivP_at d L (fivOf d L ix fi) (show 4 * g.val + 4 + 1 < 32 by omega) (k1_off41 g) (k1_off41_inb g hc4) (off41_row g),
    ivP_at d L (fivOf d L ix fi) (show 4 * g.val + 4 + 1 + 1 < 32 by omega) (k1_off60 g) (k1_off60_inb g hc6) (off60_row g),
    ivP_at d L (fivOf d L ix fi) (show 4 * g.val + 4 + 1 + 1 + 1 < 32 by omega) (k1_off79 g) (k1_off79_inb g hc8) (off79_row g),
    homes_pop (wP d L wv) (show 4 * g.val + 4 < 32 by omega), homes_pop (wP d L wv) (show 4 * g.val + 4 + 1 < 32 by omega),
    homes_pop (wP d L wv) (show 4 * g.val + 4 + 1 + 1 < 32 by omega), homes_pop (wP d L wv) (show 4 * g.val + 4 + 1 + 1 + 1 < 32 by omega),
    wP_at d L wv (show 4 * g.val + 4 < 32 by omega) (k1_off22 L g) (k1_off22_inb L g hc2) (off22_chunk' L g),
    wP_at d L wv (show 4 * g.val + 4 + 1 < 32 by omega) (k1_off42 L g) (k1_off42_inb L g hc4) (off42_chunk' L g),
    wP_at d L wv (show 4 * g.val + 4 + 1 + 1 < 32 by omega) (k1_off61 L g) (k1_off61_inb L g hc6) (off61_chunk' L g),
    wP_at d L wv (show 4 * g.val + 4 + 1 + 1 + 1 < 32 by omega) (k1_off80 L g) (k1_off80_inb L g hc8) (off80_chunk' L g),
    homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3)]
  unfold wP oP
  iintro ⟨#Hmw, ⟨%W', %hW', HO⟩, HVd, ⟨HV0, HV1, HV2, HV3, HVt⟩, HWd, ⟨HWc0, HWc1, HWc2, HWc3, HWt⟩, HOd, ⟨HOc0, HOc1, HOc2, HOc3, HOt⟩,
    ⟨⟨HG0, HTr0, HW0⟩, ⟨⟨%fs0, HOs0⟩, HS0⟩⟩, ⟨⟨HG1, HTr1, HW1⟩, ⟨⟨%fs1, HOs1⟩, HS1⟩⟩, ⟨⟨HG2, HTr2, HW2⟩, ⟨⟨%fs2, HOs2⟩, HS2⟩⟩, ⟨⟨HG3, HTr3, HW3⟩, ⟨⟨%fs3, HOs3⟩, HS3⟩⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HOs0]
  case region => exact ptTrip0 d L v2 0#32 1#32 g _ _
  · unfold ptInv0
    isplitl [HW0_dst]; · iexact HW0_dst
    isplitl [Hr0]; · iexact Hr0
    iexists _; isplitl [HOs0]; · iexact HOs0
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HOs1]
  case region => exact ptTrip1 d L g _ _ _
  · unfold ptInv1
    isplitl [HW1_dst]; · iexact HW1_dst
    isplitl [Hr1]; · iexact Hr1
    iexists _; isplitl [HOs1]; · iexact HOs1
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HOs2]
  case region => exact ptTrip2 d L v2 g _ _ _ _ _
  · unfold ptInv2
    isplitl [HW2_dst]; · iexact HW2_dst
    isplitl [Hr2]; · iexact Hr2
    iexists _; isplitl [HOs2]; · iexact HOs2
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HOs3]
  case region => exact ptTrip3 d L v2 _ _
  · unfold ptInv3
    isplitl [HW3_dst]; · iexact HW3_dst
    isplitl [Hr3]; · iexact Hr3
    iexists _; isplitl [HOs3]; · iexact HOs3
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  ihave HG0' : gFl0 d L q tb ix fi (4 * g.val + 4) $$ [HG0]
  · iapply (gFl0_intro d L q tb ix fi (n := 4 * g.val + 4) (by omega) (rCanF L tb ix (4 * g.val + 0)) (k1_off21 g) (k1_off21_inb g hc2) (off21_row g) _
      (rows_landed0 d L tb ix fi (by omega) _ (k1_off21 g) (k1_off21_inb g hc2) (off21_row g) rfl (hin fi (k1_off21 g) (k1_off21_inb g hc2))))
    iexact HG0
  ihave HW0' : wFl0 d L wv (4 * g.val + 4) $$ [HW0]
  · iapply (wFl0_intro d L wv (n := 4 * g.val + 4) (by omega) (wCanF L wv (4 * g.val + 0)) (k1_off22 L g) (k1_off22_inb L g hc2) (off22_chunk' L g) _
      (w_landed0 d L wv (by omega) _ (k1_off22 L g) (k1_off22_inb L g hc2) (off22_chunk' L g)))
    iexact HW0
  ihave HF0' : oFl0 d L tb ix wv (4 * g.val + 0) $$ [HS0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (by omega) o0 _ (k1_off23_inb L g 0) (off23_chunk' L g 0)))
    iexact HS0
  ihave HG1' : gFl1 d L q tb ix fi (4 * g.val + 5) $$ [HG1]
  · iapply (gFl1_intro d L q tb ix fi (n := 4 * g.val + 5) (by omega) (rCanF L tb ix (4 * g.val + 1)) (k1_off41 g) (k1_off41_inb g hc4) (off41_row g) _
      (rows_landed1 d L tb ix fi (by omega) _ (k1_off41 g) (k1_off41_inb g hc4) (off41_row g) rfl (hin fi (k1_off41 g) (k1_off41_inb g hc4))))
    iexact HG1
  ihave HW1' : wFl1 d L wv (4 * g.val + 5) $$ [HW1]
  · iapply (wFl1_intro d L wv (n := 4 * g.val + 5) (by omega) (wCanF L wv (4 * g.val + 1)) (k1_off42 L g) (k1_off42_inb L g hc4) (off42_chunk' L g) _
      (w_landed1 d L wv (by omega) _ (k1_off42 L g) (k1_off42_inb L g hc4) (off42_chunk' L g)))
    iexact HW1
  ihave HF1' : oFl1 d L tb ix wv (4 * g.val + 1) $$ [HS1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (by omega) o0 _ (k1_off23_inb L g 1) (off23_chunk' L g 1)))
    iexact HS1
  ihave HG2' : gFl2 d L q tb ix fi (4 * g.val + 6) $$ [HG2]
  · iapply (gFl2_intro d L q tb ix fi (n := 4 * g.val + 6) (by omega) (rCanF L tb ix (4 * g.val + 2)) (k1_off60 g) (k1_off60_inb g hc6) (off60_row g) _
      (rows_landed2 d L tb ix fi (by omega) _ (k1_off60 g) (k1_off60_inb g hc6) (off60_row g) rfl (hin fi (k1_off60 g) (k1_off60_inb g hc6))))
    iexact HG2
  ihave HW2' : wFl2 d L wv (4 * g.val + 6) $$ [HW2]
  · iapply (wFl2_intro d L wv (n := 4 * g.val + 6) (by omega) (wCanF L wv (4 * g.val + 2)) (k1_off61 L g) (k1_off61_inb L g hc6) (off61_chunk' L g) _
      (w_landed2 d L wv (by omega) _ (k1_off61 L g) (k1_off61_inb L g hc6) (off61_chunk' L g)))
    iexact HW2
  ihave HF2' : oFl2 d L tb ix wv (4 * g.val + 2) $$ [HS2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (by omega) o0 _ (k1_off23_inb L g 2) (off23_chunk' L g 2)))
    iexact HS2
  ihave HG3' : gFl3 d L q tb ix fi (4 * g.val + 7) $$ [HG3]
  · iapply (gFl3_intro d L q tb ix fi (n := 4 * g.val + 7) (by omega) (rCanF L tb ix (4 * g.val + 3)) (k1_off79 g) (k1_off79_inb g hc8) (off79_row g) _
      (rows_landed3 d L tb ix fi (by omega) _ (k1_off79 g) (k1_off79_inb g hc8) (off79_row g) rfl (hin fi (k1_off79 g) (k1_off79_inb g hc8))))
    iexact HG3
  ihave HW3' : wFl3 d L wv (4 * g.val + 7) $$ [HW3]
  · iapply (wFl3_intro d L wv (n := 4 * g.val + 7) (by omega) (wCanF L wv (4 * g.val + 3)) (k1_off80 L g) (k1_off80_inb L g hc8) (off80_chunk' L g) _
      (w_landed3 d L wv (by omega) _ (k1_off80 L g) (k1_off80_inb L g hc8) (off80_chunk' L g)))
    iexact HW3
  ihave HF3' : oFl3 d L tb ix wv (4 * g.val + 3) $$ [HS3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (by omega) o0 _ (k1_off23_inb L g 3) (off23_chunk' L g 3)))
    iexact HS3
  subst hQ
  iapply (gInv_close_first_at d L O W q tb ix wv o0 fi g.val hg acc)
  unfold wP oP
  isplitr; · iexact Hmw
  isplitl [HO]
  · iexists _; isplitr; swap
    · iexact HO
    ipureintro; exact (waits_ins_f (waits_ins_f (waits_ins_f (waits_ins_f (waits_ins_f (waits_ins_f (waits_ins_f (waits_ins_f hW' _) _) _) _) _) _) _) _)
  iframe

end TripB

end Cert.Proof.KB
end
-- ==== Proof.KB.TileTripL.lean ====
/-
  The last trip of a vector subcore's group loop. Before group 7 each slot's gather and weights copy of chunk 28 + b
  are in flight, its result copy of chunk 24 + b is in flight, and result chunks 28 … 31 are still at the contents the
  call was handed. The trip waits, slot by slot, for the gather (which hands back the rows slot at the table rows its
  row of row numbers names, that row, and the table's read token whole), for the weights copy (the weights slot at the
  chunk's weights, and the chunk), and for the earlier result copy (that chunk of the result at the gathered sum, and
  the result slot); runs the point loop, which leaves the result slot at the balanced sums for chunk 28 + b; starts no
  further chunk, none being left; and starts the result copy of chunk 28 + b. What it leaves is the invariant after the
  loop: every row of row numbers and every weights chunk at home, result chunks 0 … 27 at the gathered sum, each slot's
  gather and weights side idle, and each slot's result copy of chunk 28 + b in flight.
-/
import proofs.«209143_g59700045415095_cont_9to1_m_37_38_alg».proof.Proof.KB.TileFl
import proofs.«209143_g59700045415095_cont_9to1_m_37_38_alg».proof.Proof.KB.TilePt
import proofs.«209143_g59700045415095_cont_9to1_m_37_38_alg».proof.Proof.KB.TileBrA
import proofs.«209143_g59700045415095_cont_9to1_m_37_38_alg».proof.Proof.KB.TileBrB
import proofs.«209143_g59700045415095_cont_9to1_m_37_38_alg».proof.Proof.KB.TileBrC
import proofs.«209143_g59700045415095_cont_9to1_m_37_38_alg».proof.Proof.KB.TileCloseAt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

theorem waits_insL {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 8000000 in
/-- The group loop's trip at g = 7. -/
theorem groupTripLast (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit), g.val = 7 →
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc hg7
  generalize hQ : gInv d L O W q tb ix wv o0 fi (g.val + 1) = Q
  have hg0 : 0 < g.val := by omega
  have hc1 : k1_cond1 g = 1#1 := (cond1_iff g).2 hg0
  have hc2 : ¬ k1_cond2 g = 1#1 := fun h => by have := (cond2_iff g).1 h; omega
  have hc3 : k1_cond3 g = 1#1 := (cond3_iff g).2 hg0
  have hc4 : ¬ k1_cond4 g = 1#1 := fun h => by have := (cond4_iff g).1 h; omega
  have hc5 : k1_cond5 g = 1#1 := (cond5_iff g).2 hg0
  have hc6 : ¬ k1_cond6 g = 1#1 := fun h => by have := (cond6_iff g).1 h; omega
  have hc7 : k1_cond7 g = 1#1 := (cond7_iff g).2 hg0
  have hc8 : ¬ k1_cond8 g = 1#1 := fun h => by have := (cond8_iff g).1 h; omega
  have hlt : g.val < 8 := by omega
  have hne : ¬ g.val = 0 := by omega
  unfold gInv slotSt0 slotSt1 slotSt2 slotSt3
  rw [if_pos hlt, if_pos hlt, if_pos hlt, if_pos hlt, if_neg hne, if_neg hne, if_neg hne, if_neg hne]
  unfold gFl0 wFl0 oFl0 gFl1 wFl1 oFl1 gFl2 wFl2 oFl2 gFl3 wFl3 oFl3
  rw [homes_pop (oP d L o0) (show 4 * g.val < 32 by omega), homes_pop (oP d L o0) (show 4 * g.val + 1 < 32 by omega),
    homes_pop (oP d L o0) (show 4 * g.val + 1 + 1 < 32 by omega), homes_pop (oP d L o0) (show 4 * g.val + 1 + 1 + 1 < 32 by omega),
    oP_at d L o0 (show 4 * g.val < 32 by omega) (k1_off23 L g (BitVec.ofNat 32 (0 : Fin 4).val)) (k1_off23_inb L g 0) (off23_chunk' L g 0),
    oP_at d L o0 (show 4 * g.val + 1 < 32 by omega) (k1_off23 L g (BitVec.ofNat 32 (1 : Fin 4).val)) (k1_off23_inb L g 1) (off23_chunk' L g 1),
    oP_at d L o0 (show 4 * g.val + 1 + 1 < 32 by omega) (k1_off23 L g (BitVec.ofNat 32 (2 : Fin 4).val)) (k1_off23_inb L g 2) (off23_chunk' L g 2),
    oP_at d L o0 (show 4 * g.val + 1 + 1 + 1 < 32 by omega) (k1_off23 L g (BitVec.ofNat 32 (3 : Fin 4).val)) (k1_off23_inb L g 3) (off23_chunk' L g 3),
    show 4 * g.val + 1 + 1 + 1 + 1 = 4 * g.val + 4 from by omega]
  unfold wP oP
  iintro ⟨#Hmw, ⟨%W', %hW', HO⟩, HVd, HVt, HWd, HWt, HOd, ⟨HOc0, HOc1, HOc2, HOc3, HOt⟩,
    ⟨⟨HG0, HTr0, HW0⟩, HF0⟩, ⟨⟨HG1, HTr1, HW1⟩, HF1⟩, ⟨⟨HG2, HTr2, HW2⟩, HF2⟩, ⟨⟨HG3, HTr3, HW3⟩, HF3⟩⟩
  sl_unfold [k1_t1_body]
  sl_exec
  -- slot 0: its point loop
  icases HG0_dst with ⟨Hr0, HVb0⟩
  sl_for (ptInv0 d L (wCanF L wv (4 * g.val + 0)) (rCanF L tb ix (4 * g.val + 0))) $$ [HW0_dst Hr0 HF0_src]
  case region => exact ptTrip0 d L v2 0#32 1#32 g _ _
  · unfold ptInv0
    isplitl [HW0_dst]; · iexact HW0_dst
    isplitl [Hr0]; · iexact Hr0
    iexists _; isplitl [HF0_src]; · iexact HF0_src
    ipureintro; intro q col hq; exact absurd hq (Nat.not_lt_zero _)
  iintro %_ HI
  unfold ptInv0
  icases HI with ⟨Hw0, Hr0, %fo0, Ho0, %hfo0⟩
  ihave Ho0 := (Entails.of_eq (oSlot0_congr d L fo0 (oCanF L tb ix wv (4 * g.val + 0)) (fun q col => hfo0 q col (lt_of_lt_of_eq q.isLt (by rfl))))) $$ Ho0
  sl_exec
  -- slot 1: its point loop
  icases HG1_dst with ⟨Hr1, HVb1⟩
  sl_for (ptInv1 d L (wCanF L wv (4 * g.val + 1)) (rCanF L tb ix (4 * g.val + 1))) $$ [HW1_dst Hr1 HF1_src]
  case region => exact ptTrip1 d L g _ _ _
  · unfold ptInv1
    isplitl [HW1_dst]; · iexact HW1_dst
    isplitl [Hr1]; · iexact Hr1
    iexists _; isplitl [HF1_src]; · iexact HF1_src
    ipureintro; intro q col hq; exact absurd hq (Nat.not_lt_zero _)
  iintro %_ HI
  unfold ptInv1
  icases HI with ⟨Hw1, Hr1, %fo1, Ho1, %hfo1⟩
  ihave Ho1 := (Entails.of_eq (oSlot1_congr d L fo1 (oCanF L tb ix wv (4 * g.val + 1)) (fun q col => hfo1 q col (lt_of_lt_of_eq q.isLt (by rfl))))) $$ Ho1
  sl_exec
  -- slot 2: its point loop
  icases HG2_dst with ⟨Hr2, HVb2⟩
  sl_for (ptInv2 d L (wCanF L wv (4 * g.val + 2)) (rCanF L tb ix (4 * g.val + 2))) $$ [HW2_dst Hr2 HF2_src]
  case region => exact ptTrip2 d L v2 g _ _ _ _ _
  · unfold ptInv2
    isplitl [HW2_dst]; · iexact HW2_dst
    isplitl [Hr2]; · iexact Hr2
    iexists _; isplitl [HF2_src]; · iexact HF2_src
    ipureintro; intro q col hq; exact absurd hq (Nat.not_lt_zero _)
  iintro %_ HI
  unfold ptInv2
  icases HI with ⟨Hw2, Hr2, %fo2, Ho2, %hfo2⟩
  ihave Ho2 := (Entails.of_eq (oSlot2_congr d L fo2 (oCanF L tb ix wv (4 * g.val + 2)) (fun q col => hfo2 q col (lt_of_lt_of_eq q.isLt (by rfl))))) $$ Ho2
  sl_exec
  -- slot 3: its point loop
  icases HG3_dst with ⟨Hr3, HVb3⟩
  sl_for (ptInv3 d L (wCanF L wv (4 * g.val + 3)) (rCanF L tb ix (4 * g.val + 3))) $$ [HW3_dst Hr3 HF3_src]
  case region => exact ptTrip3 d L v2 _ _
  · unfold ptInv3
    isplitl [HW3_dst]; · iexact HW3_dst
    isplitl [Hr3]; · iexact Hr3
    iexists _; isplitl [HF3_src]; · iexact HF3_src
    ipureintro; intro q col hq; exact absurd hq (Nat.not_lt_zero _)
  iintro %_ HI
  unfold ptInv3
  icases HI with ⟨Hw3, Hr3, %fo3, Ho3, %hfo3⟩
  ihave Ho3 := (Entails.of_eq (oSlot3_congr d L fo3 (oCanF L tb ix wv (4 * g.val + 3)) (fun q col => hfo3 q col (lt_of_lt_of_eq q.isLt (by rfl))))) $$ Ho3
  sl_exec
  sl_step
  subst hQ
  -- the four result copies in flight, at the contents they deliver
  ihave HF0' : oFl0 d L tb ix wv (4 * g.val + 0) $$ [HF0]
  · iapply (oFl0_intro d L tb ix wv (n := 4 * g.val + 0) (by omega) o0 (k1_off23 L g (BitVec.ofNat 32 (0 : Fin 4).val)) (k1_off23_inb L g 0) (off23_chunk' L g 0) _
      (out_landed0 d L tb ix wv (n := 4 * g.val + 0) (by omega) o0 (k1_off23 L g (BitVec.ofNat 32 (0 : Fin 4).val)) (k1_off23_inb L g 0) (off23_chunk' L g 0)))
    iexact HF0
  ihave HF1' : oFl1 d L tb ix wv (4 * g.val + 1) $$ [HF1]
  · iapply (oFl1_intro d L tb ix wv (n := 4 * g.val + 1) (by omega) o0 (k1_off23 L g (BitVec.ofNat 32 (1 : Fin 4).val)) (k1_off23_inb L g 1) (off23_chunk' L g 1) _
      (out_landed1 d L tb ix wv (n := 4 * g.val + 1) (by omega) o0 (k1_off23 L g (BitVec.ofNat 32 (1 : Fin 4).val)) (k1_off23_inb L g 1) (off23_chunk' L g 1)))
    iexact HF1
  ihave HF2' : oFl2 d L tb ix wv (4 * g.val + 2) $$ [HF2]
  · iapply (oFl2_intro d L tb ix wv (n := 4 * g.val + 2) (by omega) o0 (k1_off23 L g (BitVec.ofNat 32 (2 : Fin 4).val)) (k1_off23_inb L g 2) (off23_chunk' L g 2) _
      (out_landed2 d L tb ix wv (n := 4 * g.val + 2) (by omega) o0 (k1_off23 L g (BitVec.ofNat 32 (2 : Fin 4).val)) (k1_off23_inb L g 2) (off23_chunk' L g 2)))
    iexact HF2
  ihave HF3' : oFl3 d L tb ix wv (4 * g.val + 3) $$ [HF3]
  · iapply (oFl3_intro d L tb ix wv (n := 4 * g.val + 3) (by omega) o0 (k1_off23 L g (BitVec.ofNat 32 (3 : Fin 4).val)) (k1_off23_inb L g 3) (off23_chunk' L g 3) _
      (out_landed3 d L tb ix wv (n := 4 * g.val + 3) (by omega) o0 (k1_off23 L g (BitVec.ofNat 32 (3 : Fin 4).val)) (k1_off23_inb L g 3) (off23_chunk' L g 3)))
    iexact HF3
  -- the rows and weights slots at some contents
  ihave Hr0' : iprop(∃ f, (((rSlot0).view.loc (V d (cV L) (jV L)) ↦[(rSlot0).view.set]{fullShare} f) : sProp 𝕄)) $$ [Hr0]
  · iexists _; iexact Hr0
  ihave Hw0' : iprop(∃ f, (((wSlot0).view.loc (V d (cV L) (jV L)) ↦[(wSlot0).view.set]{fullShare} f) : sProp 𝕄)) $$ [Hw0]
  · iexists _; iexact Hw0
  ihave Hr1' : iprop(∃ f, (((rSlot1).view.loc (V d (cV L) (jV L)) ↦[(rSlot1).view.set]{fullShare} f) : sProp 𝕄)) $$ [Hr1]
  · iexists _; iexact Hr1
  ihave Hw1' : iprop(∃ f, (((wSlot1).view.loc (V d (cV L) (jV L)) ↦[(wSlot1).view.set]{fullShare} f) : sProp 𝕄)) $$ [Hw1]
  · iexists _; iexact Hw1
  ihave Hr2' : iprop(∃ f, (((rSlot2).view.loc (V d (cV L) (jV L)) ↦[(rSlot2).view.set]{fullShare} f) : sProp 𝕄)) $$ [Hr2]
  · iexists _; iexact Hr2
  ihave Hw2' : iprop(∃ f, (((wSlot2).view.loc (V d (cV L) (jV L)) ↦[(wSlot2).view.set]{fullShare} f) : sProp 𝕄)) $$ [Hw2]
  · iexists _; iexact Hw2
  ihave Hr3' : iprop(∃ f, (((rSlot3).view.loc (V d (cV L) (jV L)) ↦[(rSlot3).view.set]{fullShare} f) : sProp 𝕄)) $$ [Hr3]
  · iexists _; iexact Hr3
  ihave Hw3' : iprop(∃ f, (((wSlot3).view.loc (V d (cV L) (jV L)) ↦[(wSlot3).view.set]{fullShare} f) : sProp 𝕄)) $$ [Hw3]
  · iexists _; iexact Hw3
  iapply (gInv_close_last_at d L O W q tb ix wv o0 fi g.val hg7 _)
  unfold wP oP
  isplitr; · iexact Hmw
  isplitl [HO]
  · iexists _; isplitr
    swap
    · iexact HO
    ipureintro; exact (waits_insL (waits_insL (waits_insL (waits_insL (waits_insL (waits_insL (waits_insL (waits_insL (waits_insL (waits_insL (waits_insL (waits_insL hW' _) _) _) _) _) _) _) _) _) _) _) _)
  iframe
  isplitl [HG0 HW0]
  · isplitl [HG0]
    · iexact HG0
    · iexact HW0
  isplitl [HG1 HW1]
  · isplitl [HG1]
    · iexact HG1
    · iexact HW1
  isplitl [HG2 HW2]
  · isplitl [HG2]
    · iexact HG2
    · iexact HW2
  isplitl [HG3]
  · iexact HG3
  · iexact HW3

end Trip
end Cert.Proof.KB
end
-- ==== Proof.KB.TileBrD.lean ====
/-
  The group loop's invariant at its two ends. Before the first group nothing is at home below the four chunks in flight
  and no result copy has been issued, so what the prologue leaves — the later rows and weight chunks, every result
  chunk at what the call was handed, and each slot's gather and weights copy of chunks 0 … 3 with the result slot idle —
  is the invariant at 0. After the eighth group every row and weight chunk is at home, the first twenty-eight result
  chunks are at home at the balanced sums, each slot's gather and weights side is idle and its result copy of chunk
  28 … 31 is in flight; once those four land, all thirty-two result chunks are at home.
-/
import proofs.«209143_g59700045415095_cont_9to1_m_37_38_alg».proof.Proof.KB.TileFl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section BrD
variable [FloatOps F] (d : Dev nD) (L : grid1.Coords)

set_option maxHeartbeats 2000000 in
/-- What the prologue leaves is the group loop's invariant before the first trip. -/
theorem gInv_init (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 4 32 ∗ homes (wP d L wv) 4 32 ∗ homes (oP d L o0) 0 32
      ∗ (gFl0 d L q tb ix fi 0 ∗ tblRest d L q tb 11 ∗ wFl0 d L wv 0
          ∗ (∃ f, ((oSlot0).view.loc (V d (cV L) (jV L)) ↦[(oSlot0).view.set]{fullShare} f)) ∗ semVal ((V d (cV L) (jV L)), SemLoc.dma cc1_scratch12.sem) 0)
      ∗ (gFl1 d L q tb ix fi 1 ∗ tblRest d L q tb 12 ∗ wFl1 d L wv 1
          ∗ (∃ f, ((oSlot1).view.loc (V d (cV L) (jV L)) ↦[(oSlot1).view.set]{fullShare} f)) ∗ semVal ((V d (cV L) (jV L)), SemLoc.dma cc1_scratch13.sem) 0)
      ∗ (gFl2 d L q tb ix fi 2 ∗ tblRest d L q tb 13 ∗ wFl2 d L wv 2
          ∗ (∃ f, ((oSlot2).view.loc (V d (cV L) (jV L)) ↦[(oSlot2).view.set]{fullShare} f)) ∗ semVal ((V d (cV L) (jV L)), SemLoc.dma cc1_scratch14.sem) 0)
      ∗ (gFl3 d L q tb ix fi 3 ∗ tblRest d L q tb 14 ∗ wFl3 d L wv 3
          ∗ (∃ f, ((oSlot3).view.loc (V d (cV L) (jV L)) ↦[(oSlot3).view.set]{fullShare} f)) ∗ semVal ((V d (cV L) (jV L)), SemLoc.dma cc1_scratch15.sem) 0))
      ⊢ gInv d L O W q tb ix wv o0 fi 0 acc := by
  unfold gInv slotSt0 slotSt1 slotSt2 slotSt3
  rw [if_pos (by decide : 0 < 8), if_pos (by decide : 0 < 8), if_pos (by decide : 0 < 8), if_pos (by decide : 0 < 8),
    if_pos (rfl : 0 = 0), if_pos (rfl : 0 = 0), if_pos (rfl : 0 = 0), if_pos (rfl : 0 = 0)]
  simp only [Nat.reduceMul, Nat.reduceAdd, Nat.reduceSub]
  rw [homes_nil (ivP d L (fivOf d L ix fi)) (by omega : 0 ≤ 0), homes_nil (wP d L wv) (by omega : 0 ≤ 0), homes_nil (oP d L (skip (F := F) tb ix wv)) (by omega : 0 ≤ 0)]
  iintro ⟨HM, HW, Hi, Hw, Ho,
    ⟨Hg0, Ht0, Hf0, He0, Hs0⟩, ⟨Hg1, Ht1, Hf1, He1, Hs1⟩, ⟨Hg2, Ht2, Hf2, He2, Hs2⟩, ⟨Hg3, Ht3, Hf3, He3, Hs3⟩⟩
  iframe

set_option maxHeartbeats 2000000 in
/-- After the last trip: every row and every weights chunk is home, the first twenty-eight result chunks are home at the
    gathered sum, each slot's gather and weights side is idle and its last result copy is in flight. -/
theorem gInv_last (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (fi : Buf (Elt F) ((ivV).view.loc (V d (cV L) (jV L)))) (acc : PUnit) :
    gInv d L O W q tb ix wv o0 fi k1_t1_loop.trips acc
      ⊢ iprop(Transfers.MayWaits (V d (cV L) (jV L)) (default : HIx 1) O ∗ (∃ W', ⌜∀ p ∈ W', p ∈ W ∨ p.2 = none⌝ ∗ owes (V d (cV L) (jV L)) O W')
      ∗ homes (ivP d L (fivOf d L ix fi)) 0 32 ∗ homes (wP d L wv) 0 32 ∗ homes (oP d L (skip (F := F) tb ix wv)) 0 28
      ∗ (tblTok d L q tb 11 ∗ (∃ f, ((rSlot0).view.loc (V d (cV L) (jV L)) ↦[(rSlot0).view.set]{fullShare} f)) ∗ semVal ((V d (cV L) (jV L)), SemLoc.dma cc1_scratch4.sem) 0
          ∗ (∃ f, ((wSlot0).view.loc (V d (cV L) (jV L)) ↦[(wSlot0).view.set]{fullShare} f)) ∗ semVal ((V d (cV L) (jV L)), SemLoc.dma cc1_scratch8.sem) 0
          ∗ Transfers.Flight countersEmb (V d (cV L) (jV L)) (SemLoc.dma cc1_scratch12.sem) (default : HIx 1) 65536
              iprop(oP d L (skip (F := F) tb ix wv) 28 ∗ ((oSlot0).view.loc (V d (cV L) (jV L)) ↦[(oSlot0).view.set]{fullShare} oCanF L tb ix wv 28)))
      ∗ (tblTok d L q tb 12 ∗ (∃ f, ((rSlot1).view.loc (V d (cV L) (jV L)) ↦[(rSlot1).view.set]{fullShare} f)) ∗ semVal ((V d (cV L) (jV L)), SemLoc.dma cc1_scratch5.sem) 0
          ∗ (∃ f, ((wSlot1).view.loc (V d (cV L) (jV L)) ↦[(wSlot1).view.set]{fullShare} f)) ∗ semVal ((V d (cV L) (jV L)), SemLoc.dma cc1_scratch9.sem) 0
          ∗ Transfers.Flight countersEmb (V d (cV L) (jV L)) (SemLoc.dma cc1_scratch13.sem) (default : HIx 1) 65536
              iprop(oP d L (skip (F := F) tb ix wv) 29 ∗ ((oSlot1).view.loc (V d (cV L) (jV L)) ↦[(oSlot1).view.set]{fullShare} oCanF L tb ix wv 29)))
      ∗ (tblTok d L q tb 13 ∗ (∃ f, ((rSlot2).view.loc (V d (cV L) (jV L)) ↦[(rSlot2).view.set]{fullShare} f)) ∗ semVal ((V d (cV L) (jV L)), SemLoc.dma cc1_scratch6.sem) 0
          ∗ (∃ f, ((wSlot2).view.loc (V d (cV L) (jV L)) ↦[(wSlot2).view.set]{fullShare} f)) ∗ semVal ((V d (cV L) (jV L)), SemLoc.dma cc1_scratch10.sem) 0
          ∗ Transfers.Flight countersEmb (V d (cV L) (jV L)) (SemLoc.dma cc1_scratch14.sem) (default : HIx 1) 65536
              iprop(oP d L (skip (F := F) tb ix wv) 30 ∗ ((oSlot2).view.loc (V d (cV L) (jV L)) ↦[(oSlot2).view.set]{fullShare} oCanF L tb ix wv 30)))
      ∗ (tblTok d L q tb 14 ∗ (∃ f, ((rSlot3).view.loc (V d (cV L) (jV L)) ↦[(rSlot3).view.set]{fullShare} f)) ∗ semVal ((V d (cV L) (jV L)), SemLoc.dma cc1_scratch7.sem) 0
          ∗ (∃ f, ((wSlot3).view.loc (V d (cV L) (jV L)) ↦[(wSlot3).view.set]{fullShare} f)) ∗ semVal ((V d (cV L) (jV L)), SemLoc.dma cc1_scratch11.sem) 0
          ∗ Transfers.Flight countersEmb (V d (cV L) (jV L)) (SemLoc.dma cc1_scratch15.sem) (default : HIx 1) 65536
              iprop(oP d L (skip (F := F) tb ix wv) 31 ∗ ((oSlot3).view.loc (V d (cV L) (jV L)) ↦[(oSlot3).view.set]{fullShare} oCanF L tb ix wv 31)))) := by
  rw [(by decide : k1_t1_loop.trips = 8)]
  unfold gInv slotSt0 slotSt1 slotSt2 slotSt3 oFl0 oFl1 oFl2 oFl3
  rw [if_neg (by decide : ¬ (8 < 8)), if_neg (by decide : ¬ (8 < 8)), if_neg (by decide : ¬ (8 < 8)), if_neg (by decide : ¬ (8 < 8)),
    if_neg (by decide : ¬ (8 = 0)), if_neg (by decide : ¬ (8 = 0)), if_neg (by decide : ¬ (8 = 0)), if_neg (by decide : ¬ (8 = 0))]
  simp only [Nat.reduceMul, Nat.reduceAdd, Nat.reduceSub]
  rw [homes_nil (ivP d L (fivOf d L ix fi)) (by omega : 32 ≤ 36), homes_nil (wP d L wv) (by omega : 32 ≤ 36), homes_nil (oP d L o0) (by omega : 32 ≤ 32)]
  iintro ⟨HM, HW, Hi, Hie, Hw, Hwe, Ho, Hoe,
    ⟨⟨Ht0, Hr0, Hs0, Hf0, Hz0⟩, Hc0⟩, ⟨⟨Ht1, Hr1, Hs1, Hf1, Hz1⟩, Hc1⟩, ⟨⟨Ht2, Hr2, Hs2, Hf2, Hz2⟩, Hc2⟩, ⟨⟨Ht3, Hr3, Hs3, Hf3, Hz3⟩, Hc3⟩⟩
  iframe

/-- The last four result chunks join the first twenty-eight. -/
theorem oP_home4 (f : Buf (Elt F) (outLoc d)) :
    iprop(homes (oP d L f) 0 28 ∗ oP d L f 28 ∗ oP d L f 29 ∗ oP d L f 30 ∗ oP d L f 31) ⊢ (homes (oP d L f) 0 32 : sProp 𝕄) := by
  have e : (homes (oP d L f) 0 32 : sProp 𝕄)
      = iprop(oP d L f 31 ∗ oP d L f 30 ∗ oP d L f 29 ∗ oP d L f 28 ∗ homes (oP d L f) 0 28) := by
    show homes (oP d L f) 0 (31 + 1) = _
    rw [homes_push _ (by omega : 0 ≤ 31)]
    show iprop(oP d L f 31 ∗ homes (oP d L f) 0 (30 + 1)) = _
    rw [homes_push _ (by omega : 0 ≤ 30)]
    show iprop(oP d L f 31 ∗ oP d L f 30 ∗ homes (oP d L f) 0 (29 + 1)) = _
    rw [homes_push _ (by omega : 0 ≤ 29)]
    show iprop(oP d L f 31 ∗ oP d L f 30 ∗ oP d L f 29 ∗ homes (oP d L f) 0 (28 + 1)) = _
    rw [homes_push _ (by omega : 0 ≤ 28)]
  rw [e]
  iintro ⟨H, H0, H1, H2, H3⟩
  iframe

end BrD

end Cert.Proof.KB
end
-- ==== Proof.KB.TileCore.lean ====
/-
  A vector subcore's whole task around its group loop.

  The prologue fetches the tile's block of row numbers into its scratch and waits for it; then, slot by slot (b = 0 … 3),
  it starts the gather of the 128 table rows that row b of the scratch names and the copy of chunk b's sixteen weight
  rows. Every word of the scratch is a row number of the table, so each gather is admissible; the eight copies in flight
  deliver their slots at the contents the loop's invariant names — a rows slot the table rows chunk b's row numbers
  name, a weights slot the tile's weight rows 16·b … —, so what the prologue leaves is the invariant before trip 0.

  The loop's trip is a hypothesis here: it takes the invariant before trip g to the invariant before trip g + 1.

  After the eighth trip every row of the scratch and every weights chunk is home, the first twenty-eight chunks of the
  result are home at the gathered sum, each slot's gather and weights side is idle and its last result copy (chunks
  28 … 31) is in flight. The epilogue waits for those four; the thirty-two chunks of the result side by side, the
  table's four read tokens, the block of row numbers, the weights and the tile's own memory (the scratch whole again,
  the twelve slots, the thirteen semaphores at zero) are what the task hands back, every wait it recorded its own.
-/
import proofs.«209143_g59700045415095_cont_9to1_m_37_38_alg».proof.Proof.KB.TileFl
import proofs.«209143_g59700045415095_cont_9to1_m_37_38_alg».proof.Proof.KB.TileBrA
import proofs.«209143_g59700045415095_cont_9to1_m_37_38_alg».proof.Proof.KB.TileBrB
import proofs.«209143_g59700045415095_cont_9to1_m_37_38_alg».proof.Proof.KB.TileBrC
import proofs.«209143_g59700045415095_cont_9to1_m_37_38_alg».proof.Proof.KB.TileBrD

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Core
variable [FloatOps F] (d : Dev nD) (L : grid1.Coords)

set_option maxHeartbeats 4000000 in
theorem tile_core (q : PosShare TreeShare) (tb : Buf (Elt F) (tblLoc d)) (ix : Buf (Elt F) (idxLoc d)) (wv : Buf (Elt F) (wLoc d))
    (o0 : Buf (Elt F) (outLoc d)) (O : CellTallies nD τ sig (HIx 1)) (W : Waits sig (HIx 1))
    (hTrip : ∀ (fi : Buf (Elt F) ((ivV).view.loc (V d (cV L) (jV L)))) (v2 : BitVec 32) (g : Fin k1_t1_loop.trips) (acc : PUnit),
      gInv d L O W q tb ix wv o0 fi g.val acc ⊢ wp frame (wpE (defs₀ (F := F)) 𝒱₀ (V d (cV L) (jV L)) none) Set.univ
        (k1_t1_body L tblV (Memref.isWhole_whole _) idxV (Memref.isWhole_whole _) wV (Memref.isWhole_whole _) outV (Memref.isWhole_whole _)
          ivV (Memref.isWhole_whole _) wvV (Memref.isWhole_whole _) rvV (Memref.isWhole_whole _) ovV (Memref.isWhole_whole _)
          cc1_scratch4 cc1_scratch5 cc1_scratch6 cc1_scratch7 cc1_scratch8 cc1_scratch9 cc1_scratch10 cc1_scratch11
          cc1_scratch12 cc1_scratch13 cc1_scratch14 cc1_scratch15 cc1_scoped0 v2 g acc)
        (gInv d L O W q tb ix wv o0 fi (g.val + 1)))
    (hidx : ∀ j : S32x32x128.Idx, (ix j).toNat < 262144) :
    iprop(□ Transfers.MayWaits (V d (cV L) (jV L)) (default : HIx 1) O ∗ owes (V d (cV L) (jV L)) O W ∗ tileIn d L q tb ix wv o0 ∗ tileOwn d L)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0)
          fun _ => iprop(tileIn d L q tb ix wv (skip (F := F) tb ix wv) ∗ tileOwn d L
            ∗ ∃ W', ⌜∀ p ∈ W', p ∈ W ∨ p.2 = none⌝ ∗ owes (V d (cV L) (jV L)) O W') := by
  unfold tileIn tileOwn
  conv_lhs =>
    rw [homes_pop (wP d L wv) (show 0 < 32 by omega), homes_pop (wP d L wv) (show 0 + 1 < 32 by omega),
      homes_pop (wP d L wv) (show 0 + 1 + 1 < 32 by omega), homes_pop (wP d L wv) (show 0 + 1 + 1 + 1 < 32 by omega),
      wP_at d L wv (show 0 < 32 by omega) _ (k1_off2_inb L 0) (k1_off2_eq L 0),
      wP_at d L wv (show 0 + 1 < 32 by omega) _ (k1_off2_inb L 1) (k1_off2_eq L 1),
      wP_at d L wv (show 0 + 1 + 1 < 32 by omega) _ (k1_off2_inb L 2) (k1_off2_eq L 2),
      wP_at d L wv (show 0 + 1 + 1 + 1 < 32 by omega) _ (k1_off2_inb L 3) (k1_off2_eq L 3)]
  iintro ⟨#Hmw, HO, ⟨HT0, HT1, HT2, HT3, HI, ⟨HW0, HW1, HW2, HW3, HWh⟩, HOh⟩, ⟨%fi, Hiv⟩, ⟨%fw0, Hw0⟩, ⟨%fw1, Hw1⟩, ⟨%fw2, Hw2⟩, ⟨%fw3, Hw3⟩, ⟨%fr0, Hr0⟩, ⟨%fr1, Hr1⟩, ⟨%fr2, Hr2⟩, ⟨%fr3, Hr3⟩, ⟨%fo0, Ho0⟩, ⟨%fo1, Ho1⟩, ⟨%fo2, Ho2⟩, ⟨%fo3, Ho3⟩, Hs0, Hs1, Hs2, Hs3, Hs4, Hs5, Hs6, Hs7, Hs8, Hs9, Hs10, Hs11, Hs12⟩
  sl_unfold [cc1__sc_body]
  sl_exec
  ihave Hiv' := (Entails.of_eq ((iv_split d L _).trans (by
    rw [homes_pop _ (show 0 < 32 by omega), homes_pop _ (show 0 + 1 < 32 by omega),
      homes_pop _ (show 0 + 1 + 1 < 32 by omega), homes_pop _ (show 0 + 1 + 1 + 1 < 32 by omega),
      ivP_at d L _ (show 0 < 32 by omega) ![0, 0] inb_S32x128_S1x128_0_0 rfl,
      ivP_at d L _ (show 0 + 1 < 32 by omega) ![1, 0] inb_S32x128_S1x128_1_0 rfl,
      ivP_at d L _ (show 0 + 1 + 1 < 32 by omega) ![2, 0] inb_S32x128_S1x128_2_0 rfl,
      ivP_at d L _ (show 0 + 1 + 1 + 1 < 32 by omega) ![3, 0] inb_S32x128_S1x128_3_0 rfl]))) $$ Hiv
  icases Hiv' with ⟨HV0, HV1, HV2, HV3, HVh⟩
  have hin := idx_inb d L ix hidx
  sl_exec
  -- the eight copies in flight, at the contents they deliver
  ihave Hg0 : gFl0 d L q tb ix fi 0 $$ [Hs0]
  · iapply (gFl0_intro d L q tb ix fi (n := 0) (by omega) fr0 ![0, 0] inb_S32x128_S1x128_0_0 rfl _
      (rows_landed0 d L tb ix fi (n := 0) (by omega) fr0 ![0, 0] inb_S32x128_S1x128_0_0 rfl rfl (hin fi ![0, 0] inb_S32x128_S1x128_0_0)))
    iexact Hs0
  ihave Hg1 : gFl1 d L q tb ix fi 1 $$ [Hs1]
  · iapply (gFl1_intro d L q tb ix fi (n := 1) (by omega) fr1 ![1, 0] inb_S32x128_S1x128_1_0 rfl _
      (rows_landed1 d L tb ix fi (n := 1) (by omega) fr1 ![1, 0] inb_S32x128_S1x128_1_0 rfl rfl (hin fi ![1, 0] inb_S32x128_S1x128_1_0)))
    iexact Hs1
  ihave Hg2 : gFl2 d L q tb ix fi 2 $$ [Hs2]
  · iapply (gFl2_intro d L q tb ix fi (n := 2) (by omega) fr2 ![2, 0] inb_S32x128_S1x128_2_0 rfl _
      (rows_landed2 d L tb ix fi (n := 2) (by omega) fr2 ![2, 0] inb_S32x128_S1x128_2_0 rfl rfl (hin fi ![2, 0] inb_S32x128_S1x128_2_0)))
    iexact Hs2
  ihave Hg3 : gFl3 d L q tb ix fi 3 $$ [Hs3]
  · iapply (gFl3_intro d L q tb ix fi (n := 3) (by omega) fr3 ![3, 0] inb_S32x128_S1x128_3_0 rfl _
      (rows_landed3 d L tb ix fi (n := 3) (by omega) fr3 ![3, 0] inb_S32x128_S1x128_3_0 rfl rfl (hin fi ![3, 0] inb_S32x128_S1x128_3_0)))
    iexact Hs3
  ihave Hw0' : wFl0 d L wv 0 $$ [Hs4]
  · iapply (wFl0_intro d L wv (n := 0) (by omega) fw0 _ (k1_off2_inb L 0) (k1_off2_eq L 0) _
      (w_landed0 d L wv (n := 0) (by omega) fw0 _ (k1_off2_inb L 0) (k1_off2_eq L 0)))
    iexact Hs4
  ihave Hw1' : wFl1 d L wv 1 $$ [Hs5]
  · iapply (wFl1_intro d L wv (n := 1) (by omega) fw1 _ (k1_off2_inb L 1) (k1_off2_eq L 1) _
      (w_landed1 d L wv (n := 1) (by omega) fw1 _ (k1_off2_inb L 1) (k1_off2_eq L 1)))
    iexact Hs5
  ihave Hw2' : wFl2 d L wv 2 $$ [Hs6]
  · iapply (wFl2_intro d L wv (n := 2) (by omega) fw2 _ (k1_off2_inb L 2) (k1_off2_eq L 2) _
      (w_landed2 d L wv (n := 2) (by omega) fw2 _ (k1_off2_inb L 2) (k1_off2_eq L 2)))
    iexact Hs6
  ihave Hw3' : wFl3 d L wv 3 $$ [Hs7]
  · iapply (wFl3_intro d L wv (n := 3) (by omega) fw3 _ (k1_off2_inb L 3) (k1_off2_eq L 3) _
      (w_landed3 d L wv (n := 3) (by omega) fw3 _ (k1_off2_inb L 3) (k1_off2_eq L 3)))
    iexact Hs7
  -- the group loop
  sl_for (gInv d L O W q tb ix wv o0 fi) $$ [HO HVh HWh HOh Hg0 HT0 Hw0' Ho0 Hs8 Hg1 HT1 Hw1' Ho1 Hs9 Hg2 HT2 Hw2' Ho2 Hs10 Hg3 HT3 Hw3' Ho3 Hs11]
  case region =>
    intro k acc
    exact hTrip fi _ k acc
  · iapply (gInv_init d L O W q tb ix wv o0 fi _)
    isplitr; · iexact Hmw
    isplitl [HO]
    · iexists _; isplitr
      rotate_left
      · iexact HO
      · ipureintro; intro p hp
        rcases Finset.mem_insert.mp hp with hp | hp
        · exact .inr (by subst hp; rfl)
        · exact .inl hp
    isplitl [HVh]; · iexact HVh
    isplitl [HWh]; · iexact HWh
    isplitl [HOh]; · iexact HOh
    isplitl [Hg0 HT0 Hw0' Ho0 Hs8]
    · isplitl [Hg0]; · iexact Hg0
      isplitl [HT0]; · iexact HT0
      isplitl [Hw0']; · iexact Hw0'
      isplitl [Ho0]; · iexists _; iexact Ho0
      iexact Hs8
    isplitl [Hg1 HT1 Hw1' Ho1 Hs9]
    · isplitl [Hg1]; · iexact Hg1
      isplitl [HT1]; · iexact HT1
      isplitl [Hw1']; · iexact Hw1'
      isplitl [Ho1]; · iexists _; iexact Ho1
      iexact Hs9
    isplitl [Hg2 HT2 Hw2' Ho2 Hs10]
    · isplitl [Hg2]; · iexact Hg2
      isplitl [HT2]; · iexact HT2
      isplitl [Hw2']; · iexact Hw2'
      isplitl [Ho2]; · iexists _; iexact Ho2
      iexact Hs10
    isplitl [Hg3]; · iexact Hg3
    isplitl [HT3]; · iexact HT3
    isplitl [Hw3']; · iexact Hw3'
    isplitl [Ho3]; · iexists _; iexact Ho3
    iexact Hs11
  iintro %acc HI'
  ihave HL := (gInv_last d L O W q tb ix wv o0 fi acc) $$ HI'
  icases HL with ⟨-, ⟨%W', %hW', HO⟩, HVall, HWall, HO28, ⟨HT0, ⟨%gr0, Hr0⟩, Hs0, ⟨%gw0, Hw0⟩, Hs4, Hf0⟩, ⟨HT1, ⟨%gr1, Hr1⟩, Hs1, ⟨%gw1, Hw1⟩, Hs5, Hf1⟩, ⟨HT2, ⟨%gr2, Hr2⟩, Hs2, ⟨%gw2, Hw2⟩, Hs6, Hf2⟩, HT3, ⟨%gr3, Hr3⟩, Hs3, ⟨%gw3, Hw3⟩, Hs7, Hf3⟩
  sl_exec
  sl_step
  -- what the task hands back
  isplitl [HT0 HT1 HT2 HT3 HI HWall HO28 Hf0_dst Hf1_dst Hf2_dst Hf3_dst]
  · isplitl [HT0]; · iexact HT0
    isplitl [HT1]; · iexact HT1
    isplitl [HT2]; · iexact HT2
    isplitl [HT3]; · iexact HT3
    isplitl [HI]; · iexact HI
    isplitl [HWall]; · iexact HWall
    iapply (oP_home4 d L _)
    isplitl [HO28]; · iexact HO28
    isplitl [Hf0_dst]; · iexact Hf0_dst
    isplitl [Hf1_dst]; · iexact Hf1_dst
    isplitl [Hf2_dst]; · iexact Hf2_dst
    iexact Hf3_dst
  isplitr [HO]
  · isplitl [HVall]
    · iexists _; iapply (Entails.of_eq (iv_split d L _).symm); iexact HVall
    isplitl [Hw0]; · iexists _; iexact Hw0
    isplitl [Hw1]; · iexists _; iexact Hw1
    isplitl [Hw2]; · iexists _; iexact Hw2
    isplitl [Hw3]; · iexists _; iexact Hw3
    isplitl [Hr0]; · iexists _; iexact Hr0
    isplitl [Hr1]; · iexists _; iexact Hr1
    isplitl [Hr2]; · iexists _; iexact Hr2
    isplitl [Hr3]; · iexists _; iexact Hr3
    isplitl [Hf0_src]; · iexists _; iexact Hf0_src
    isplitl [Hf1_src]; · iexists _; iexact Hf1_src
    isplitl [Hf2_src]; · iexists _; iexact Hf2_src
    isplitl [Hf3_src]; · iexists _; iexact Hf3_src
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hf0]; · iexact Hf0
    isplitl [Hf1]; · iexact Hf1
    isplitl [Hf2]; · iexact Hf2
    isplitl [Hf3]; · iexact Hf3
    iexact Hs12
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact hW' p hp

end Core
end Cert.Proof.KB
end
-- ==== Proof.KB.TileObl.lean ====
/-
  From the triple of a vector subcore's task over the resources cut as the task uses them, to the obligation the launch
  states for the tiles.

  What the launch hands the tile at grid coordinates L = (core, subcore) — worker w = 2·subcore + core — is its share of the
  table, its block of row numbers, its 512 rows of the weights and of the result, and the subcore's own buffers and
  semaphores as two products over everything the subcore owns. The task names thirteen of those semaphores and four of
  those buffers; finitely many distinct members of a finite set come out of a product over it, the rest staying aside.
  Each of the three rings is a buffer of four slots, slot b the indices with first coordinate b: the slots are pairwise
  disjoint and cover the ring, so a ring whole at some contents is its four slots each at some contents, and four slots at
  four contents are the ring whole at the contents that agree with each on its slot. A share is its first fifteen read
  tokens and what remains after them; tokens 11 to 14 go to the task, the others stay aside. The 512 rows are the
  thirty-two chunks, numbered by the naturals below 32.

  The task runs on the cut resources with everything else framed; afterwards the pieces are put back the same way, the
  result's rows at the gathered sum. On a subcore inside the grid the kernel's label unfolds to the task at that subcore's
  coordinates, whose worker number is the one the launch deals it.
-/
import proofs.«209143_g59700045415095_cont_9to1_m_37_38_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Separating products over an initial segment of the naturals -/

section BigSepFin
variable {M : Type} [URA M]

theorem bigSep_fin_succ {n : ℕ} (Φ : Fin (n + 1) → sProp M) :
    bigSep Finset.univ Φ = iprop(Φ 0 ∗ bigSep Finset.univ fun k : Fin n => Φ k.succ) := by
  rw [Fin.univ_succ]
  unfold bigSep
  rw [Finset.fold_cons, Finset.fold_map]
  rfl

theorem bigSep_fin_zero (Φ : Fin 0 → sProp M) : bigSep Finset.univ Φ = iprop(emp) := rfl

/-- Finitely many distinct members of a finite set come out of a product over it. -/
theorem bigSep_take {I : Type} [DecidableEq I] {n : ℕ} (s : Finset I) (e : Fin n ↪ I) (h : ∀ k, e k ∈ s) (Φ : I → sProp M) :
    bigSep s Φ = iprop((bigSep Finset.univ fun k : Fin n => Φ (e k)) ∗ bigSep (s \ Finset.univ.map e) Φ) := by
  rw [SparseCore.bigSep_sdiff_split' (t := Finset.univ.map e)
    (fun x hx => by obtain ⟨k, -, rfl⟩ := Finset.mem_map.mp hx; exact h k), BI.bigSep_map]

/-- A product over the naturals below n is the product over Fin n. -/
theorem bigSep_Ico_fin (n : ℕ) (P : ℕ → sProp M) : bigSep (Finset.Ico 0 n) P = bigSep Finset.univ fun i : Fin n => P i.val := by
  rw [← Finset.range_eq_Ico, ← Nat.Iio_eq_range, ← Fin.map_valEmbedding_univ, BI.bigSep_map]; rfl

end BigSepFin

/-! ## The tile's own semaphores -/

section Own
variable (d : Dev nD) (L : grid1.Coords)

/-- The thirteen DMA semaphores of the tile's task. -/
def semList : Fin 13 → SemLoc sig :=
  ![.dma cc1_scratch4.sem, .dma cc1_scratch5.sem, .dma cc1_scratch6.sem, .dma cc1_scratch7.sem, .dma cc1_scratch8.sem,
    .dma cc1_scratch9.sem, .dma cc1_scratch10.sem, .dma cc1_scratch11.sem, .dma cc1_scratch12.sem, .dma cc1_scratch13.sem,
    .dma cc1_scratch14.sem, .dma cc1_scratch15.sem, .dma cc1_scoped0.sem]

theorem semList_inj : Function.Injective semList := by decide
theorem semList_scoped : ∀ k, (semList k).isScoped .scVector = true := by decide

def semEmb : Fin 13 ↪ GSem nD τ sig :=
  ⟨fun k => (V d (cV L) (jV L), semList k), fun a b h => semList_inj (Prod.ext_iff.mp h).2⟩

/-- The tile's other scoped semaphores, at zero. -/
def semsRest : sProp 𝕄 := bigSep (ownCells (V d (cV L) (jV L)) \ Finset.univ.map (semEmb d L)) fun g => semVal g 0

theorem ownSems0_V :
    (ownSems0 (V d (cV L) (jV L)) : sProp 𝕄)
      = iprop((semVal ((V d (cV L) (jV L)), SemLoc.dma cc1_scratch4.sem) 0 ∗ semVal ((V d (cV L) (jV L)), SemLoc.dma cc1_scratch5.sem) 0
          ∗ semVal ((V d (cV L) (jV L)), SemLoc.dma cc1_scratch6.sem) 0 ∗ semVal ((V d (cV L) (jV L)), SemLoc.dma cc1_scratch7.sem) 0
          ∗ semVal ((V d (cV L) (jV L)), SemLoc.dma cc1_scratch8.sem) 0 ∗ semVal ((V d (cV L) (jV L)), SemLoc.dma cc1_scratch9.sem) 0
          ∗ semVal ((V d (cV L) (jV L)), SemLoc.dma cc1_scratch10.sem) 0 ∗ semVal ((V d (cV L) (jV L)), SemLoc.dma cc1_scratch11.sem) 0
          ∗ semVal ((V d (cV L) (jV L)), SemLoc.dma cc1_scratch12.sem) 0 ∗ semVal ((V d (cV L) (jV L)), SemLoc.dma cc1_scratch13.sem) 0
          ∗ semVal ((V d (cV L) (jV L)), SemLoc.dma cc1_scratch14.sem) 0 ∗ semVal ((V d (cV L) (jV L)), SemLoc.dma cc1_scratch15.sem) 0
          ∗ semVal ((V d (cV L) (jV L)), SemLoc.dma cc1_scoped0.sem) 0 ∗ emp) ∗ semsRest (F := F) d L) := by
  unfold SparseCore.Cfg.ownSems0 semsRest
  rw [bigSep_take (ownCells (V d (cV L) (jV L))) (semEmb d L)
    (fun k => (mem_ownCells (g := semEmb d L k)).mpr ⟨rfl, semList_scoped k⟩)]
  iterate 13 rw [bigSep_fin_succ]
  rw [bigSep_fin_zero]
  rfl

end Own

/-! ## The tile's own buffers -/

section OwnBufs
variable (d : Dev nD) (L : grid1.Coords)

/-- The four scratch buffers of the tile's task: the row numbers and the three rings. -/
def bufList : Fin 4 → Ref sig .scVector := ![cc1_scratch0, cc1_scratch1, cc1_scratch2, cc1_scratch3]

theorem bufList_inj : Function.Injective bufList := by decide

def bufEmb : Fin 4 ↪ DevRef τ sig :=
  ⟨fun k => (Proc.scVector (cV L) (jV L)).devRef (bufList k), fun a b h => bufList_inj (Proc.devRef_injective _ h)⟩

/-- The tile's other buffers, at some contents. -/
def bufsRest : sProp 𝕄 :=
  bigSep (ownRefs (τ := τ) (Proc.scVector (cV L) (jV L)) \ Finset.univ.map (bufEmb L)) fun b => iprop(∃ f, ((d, b) : Loc nD τ sig) ↦{fullShare} f)

theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f) ∗ emp)
          ∗ bufsRest (F := F) d L) := by
  unfold SparseCore.Cfg.ownBufs bufsRest
  rw [bigSep_take (ownRefs (τ := τ) (Proc.scVector (cV L) (jV L))) (bufEmb L)
    (fun k => by fin_cases k <;> exact SparseCore.Cfg.mem_ownRefs_of_owner (p := Proc.scVector (cV L) (jV L)) rfl)]
  iterate 4 rw [bigSep_fin_succ]
  rw [bigSep_fin_zero]
  rfl

end OwnBufs

/-! ## A buffer in four parts -/

section Four
variable {ℓ : Loc nD τ sig}

theorem pointsTo_cut4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ (ℓ ↦[K 3]{q} f) ∗ emp) := by
  rw [← hc, pointsTo_biUnion Finset.univ K hd]
  iterate 4 rw [bigSep_fin_succ]
  rw [bigSep_fin_zero]
  rfl

theorem pointsTo_split4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) :
    (iprop(∃ f, ℓ ↦{q} f) : sProp 𝕄)
      ⊢ iprop((∃ f, ℓ ↦[K 0]{q} f) ∗ (∃ f, ℓ ↦[K 1]{q} f) ∗ (∃ f, ℓ ↦[K 2]{q} f) ∗ (∃ f, ℓ ↦[K 3]{q} f)) := by
  iintro ⟨%f, H⟩
  ihave H' := (Entails.of_eq (pointsTo_cut4 (F := F) K hd hc q f)) $$ H
  icases H' with ⟨H0, H1, H2, H3, -⟩
  isplitl [H0]; · iexists f; iexact H0
  isplitl [H1]; · iexists f; iexact H1
  isplitl [H2]; · iexists f; iexact H2
  iexists f; iexact H3

theorem pointsTo_join4 (K : Fin 4 → Finset (Idx ℓ))
    (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) :
    (iprop((∃ f, ℓ ↦[K 0]{q} f) ∗ (∃ f, ℓ ↦[K 1]{q} f) ∗ (∃ f, ℓ ↦[K 2]{q} f) ∗ (∃ f, ℓ ↦[K 3]{q} f)) : sProp 𝕄)
      ⊢ iprop(∃ f, ℓ ↦{q} f) := by
  iintro ⟨⟨%f0, H0⟩, ⟨%f1, H1⟩, ⟨%f2, H2⟩, ⟨%f3, H3⟩⟩
  have e : (bigSep Finset.univ fun t : Fin 4 => (ℓ ↦[K t]{q} (![f0, f1, f2, f3] : Fin 4 → Buf (Elt F) ℓ) t : sProp 𝕄))
      = iprop((ℓ ↦[K 0]{q} f0) ∗ (ℓ ↦[K 1]{q} f1) ∗ (ℓ ↦[K 2]{q} f2) ∗ (ℓ ↦[K 3]{q} f3) ∗ emp) := by
    iterate 4 rw [bigSep_fin_succ]
    rw [bigSep_fin_zero]
    rfl
  ihave H := (Entails.of_eq e.symm) $$ [H0 H1 H2 H3]
  · isplitl [H0]; · iexact H0
    isplitl [H1]; · iexact H1
    isplitl [H2]; · iexact H2
    isplitl [H3]; · iexact H3
    iempintro
  ihave H' := (pointsTo_biUnion_join Finset.univ K (![f0, f1, f2, f3] : Fin 4 → Buf (Elt F) ℓ) f0 hd) $$ H
  icases H' with ⟨%g, -, Hg⟩
  rw [hc]
  iexists g; iexact Hg

end Four

/-! ## The rings, slot by slot -/

section Rings
variable (d : Dev nD) (L : grid1.Coords)

theorem div4_w : 4 ∣ S4x16x128.size 0 := ⟨1, rfl⟩
theorem div4_r : 4 ∣ S4x128x128.size 0 := ⟨1, rfl⟩

/-- Slot b of a ring of four slots of 16 × 128: the indices with first coordinate b. -/
abbrev slotW (b : Fin 4) : Finset S4x16x128.Idx := (Rect.part (s := S4x16x128) (a₀ := 0) div4_w b).set
/-- The same of a ring of four slots of 128 × 128. -/
abbrev slotR (b : Fin 4) : Finset S4x128x128.Idx := (Rect.part (s := S4x128x128) (a₀ := 0) div4_r b).set

theorem slotW_disjoint : ∀ i ∈ (Finset.univ : Finset (Fin 4)), ∀ j ∈ (Finset.univ : Finset (Fin 4)), i ≠ j → Disjoint (slotW i) (slotW j) :=
  fun i _ j _ h => Rect.part_disjoint div4_w h
theorem slotW_cover : (Finset.univ : Finset (Fin 4)).biUnion slotW = Finset.univ := Rect.biUnion_part div4_w
theorem slotR_disjoint : ∀ i ∈ (Finset.univ : Finset (Fin 4)), ∀ j ∈ (Finset.univ : Finset (Fin 4)), i ≠ j → Disjoint (slotR i) (slotR j) :=
  fun i _ j _ h => Rect.part_disjoint div4_r h
theorem slotR_cover : (Finset.univ : Finset (Fin 4)).biUnion slotR = Finset.univ := Rect.biUnion_part div4_r

theorem slotRect_w {off : Fin 3 → ℕ} (inb : ∀ a, off a + S1x16x128.size a ≤ S4x16x128.size a) (b : Fin 4) (h : off = ![b.val, 0, 0]) :
    Rect.unit (s := S4x16x128) off S1x16x128.size inb = Rect.part (s := S4x16x128) (a₀ := 0) div4_w b := by
  subst h
  unfold Rect.part Rect.block
  congr 1 <;> funext a
  · fin_cases a <;> simp [Shape.partIx, Shape.partSize]
  · fin_cases a <;> simp [Shape.partSize]
theorem slotRect_r {off : Fin 3 → ℕ} (inb : ∀ a, off a + S1x128x128.size a ≤ S4x128x128.size a) (b : Fin 4) (h : off = ![b.val, 0, 0]) :
    Rect.unit (s := S4x128x128) off S1x128x128.size inb = Rect.part (s := S4x128x128) (a₀ := 0) div4_r b := by
  subst h
  unfold Rect.part Rect.block
  congr 1 <;> funext a
  · fin_cases a <;> simp [Shape.partIx, Shape.partSize]
  · fin_cases a <;> simp [Shape.partSize]

theorem set_wSlot0 : (wSlot0).view.set = slotW 0 := by
  show (((View.whole (cc1_scratch1 : Ref sig .scVector)).slice (Rect.unit (s := S4x16x128) ![0, 0, 0] S1x16x128.size inb_S4x16x128_S1x16x128_0_0_0)).reshape S16x128 squeezes_S1x16x128_S16x128.numel_eq).set = _
  rw [View.set_reshape, View.set_slice_whole]
  exact congrArg (fun r : Rect S4x16x128 => r.set) (slotRect_w (off := ![0, 0, 0]) _ 0 rfl)
theorem set_wSlot1 : (wSlot1).view.set = slotW 1 := by
  show (((View.whole (cc1_scratch1 : Ref sig .scVector)).slice (Rect.unit (s := S4x16x128) ![1, 0, 0] S1x16x128.size inb_S4x16x128_S1x16x128_1_0_0)).reshape S16x128 squeezes_S1x16x128_S16x128.numel_eq).set = _
  rw [View.set_reshape, View.set_slice_whole]
  exact congrArg (fun r : Rect S4x16x128 => r.set) (slotRect_w (off := ![1, 0, 0]) _ 1 rfl)
theorem set_wSlot2 : (wSlot2).view.set = slotW 2 := by
  show (((View.whole (cc1_scratch1 : Ref sig .scVector)).slice (Rect.unit (s := S4x16x128) ![2, 0, 0] S1x16x128.size inb_S4x16x128_S1x16x128_2_0_0)).reshape S16x128 squeezes_S1x16x128_S16x128.numel_eq).set = _
  rw [View.set_reshape, View.set_slice_whole]
  exact congrArg (fun r : Rect S4x16x128 => r.set) (slotRect_w (off := ![2, 0, 0]) _ 2 rfl)
theorem set_wSlot3 : (wSlot3).view.set = slotW 3 := by
  show (((View.whole (cc1_scratch1 : Ref sig .scVector)).slice (Rect.unit (s := S4x16x128) ![3, 0, 0] S1x16x128.size inb_S4x16x128_S1x16x128_3_0_0)).reshape S16x128 squeezes_S1x16x128_S16x128.numel_eq).set = _
  rw [View.set_reshape, View.set_slice_whole]
  exact congrArg (fun r : Rect S4x16x128 => r.set) (slotRect_w (off := ![3, 0, 0]) _ 3 rfl)

theorem set_oSlot0 : (oSlot0).view.set = slotW 0 := by
  show (((View.whole (cc1_scratch3 : Ref sig .scVector)).slice (Rect.unit (s := S4x16x128) ![0, 0, 0] S1x16x128.size inb_S4x16x128_S1x16x128_0_0_0)).reshape S16x128 squeezes_S1x16x128_S16x128.numel_eq).set = _
  rw [View.set_reshape, View.set_slice_whole]
  exact congrArg (fun r : Rect S4x16x128 => r.set) (slotRect_w (off := ![0, 0, 0]) _ 0 rfl)
theorem set_oSlot1 : (oSlot1).view.set = slotW 1 := by
  show (((View.whole (cc1_scratch3 : Ref sig .scVector)).slice (Rect.unit (s := S4x16x128) ![1, 0, 0] S1x16x128.size inb_S4x16x128_S1x16x128_1_0_0)).reshape S16x128 squeezes_S1x16x128_S16x128.numel_eq).set = _
  rw [View.set_reshape, View.set_slice_whole]
  exact congrArg (fun r : Rect S4x16x128 => r.set) (slotRect_w (off := ![1, 0, 0]) _ 1 rfl)
theorem set_oSlot2 : (oSlot2).view.set = slotW 2 := by
  show (((View.whole (cc1_scratch3 : Ref sig .scVector)).slice (Rect.unit (s := S4x16x128) ![2, 0, 0] S1x16x128.size inb_S4x16x128_S1x16x128_2_0_0)).reshape S16x128 squeezes_S1x16x128_S16x128.numel_eq).set = _
  rw [View.set_reshape, View.set_slice_whole]
  exact congrArg (fun r : Rect S4x16x128 => r.set) (slotRect_w (off := ![2, 0, 0]) _ 2 rfl)
theorem set_oSlot3 : (oSlot3).view.set = slotW 3 := by
  show (((View.whole (cc1_scratch3 : Ref sig .scVector)).slice (Rect.unit (s := S4x16x128) ![3, 0, 0] S1x16x128.size inb_S4x16x128_S1x16x128_3_0_0)).reshape S16x128 squeezes_S1x16x128_S16x128.numel_eq).set = _
  rw [View.set_reshape, View.set_slice_whole]
  exact congrArg (fun r : Rect S4x16x128 => r.set) (slotRect_w (off := ![3, 0, 0]) _ 3 rfl)

theorem set_rSlot0 : (rSlot0).view.set = slotR 0 := by
  show (((View.whole (cc1_scratch2 : Ref sig .scVector)).slice (Rect.unit (s := S4x128x128) ![0, 0, 0] S1x128x128.size inb_S4x128x128_S1x128x128_0_0_0)).reshape S128x128 squeezes_S1x128x128_S128x128.numel_eq).set = _
  rw [View.set_reshape, View.set_slice_whole]
  exact congrArg (fun r : Rect S4x128x128 => r.set) (slotRect_r (off := ![0, 0, 0]) _ 0 rfl)
theorem set_rSlot1 : (rSlot1).view.set = slotR 1 := by
  show (((View.whole (cc1_scratch2 : Ref sig .scVector)).slice (Rect.unit (s := S4x128x128) ![1, 0, 0] S1x128x128.size inb_S4x128x128_S1x128x128_1_0_0)).reshape S128x128 squeezes_S1x128x128_S128x128.numel_eq).set = _
  rw [View.set_reshape, View.set_slice_whole]
  exact congrArg (fun r : Rect S4x128x128 => r.set) (slotRect_r (off := ![1, 0, 0]) _ 1 rfl)
theorem set_rSlot2 : (rSlot2).view.set = slotR 2 := by
  show (((View.whole (cc1_scratch2 : Ref sig .scVector)).slice (Rect.unit (s := S4x128x128) ![2, 0, 0] S1x128x128.size inb_S4x128x128_S1x128x128_2_0_0)).reshape S128x128 squeezes_S1x128x128_S128x128.numel_eq).set = _
  rw [View.set_reshape, View.set_slice_whole]
  exact congrArg (fun r : Rect S4x128x128 => r.set) (slotRect_r (off := ![2, 0, 0]) _ 2 rfl)
theorem set_rSlot3 : (rSlot3).view.set = slotR 3 := by
  show (((View.whole (cc1_scratch2 : Ref sig .scVector)).slice (Rect.unit (s := S4x128x128) ![3, 0, 0] S1x128x128.size inb_S4x128x128_S1x128x128_3_0_0)).reshape S128x128 squeezes_S1x128x128_S128x128.numel_eq).set = _
  rw [View.set_reshape, View.set_slice_whole]
  exact congrArg (fun r : Rect S4x128x128 => r.set) (slotRect_r (off := ![3, 0, 0]) _ 3 rfl)

/-- The weight ring whole at some contents is its four slots, each at some contents; and back. -/
theorem ringW_split :
    (iprop(∃ f, (V d (cV L) (jV L)).loc cc1_scratch1 ↦{fullShare} f) : sProp 𝕄)
      ⊢ iprop((∃ f, ((wSlot0).view.loc (V d (cV L) (jV L)) ↦[(wSlot0).view.set]{fullShare} f)) ∗ (∃ f, ((wSlot1).view.loc (V d (cV L) (jV L)) ↦[(wSlot1).view.set]{fullShare} f))
        ∗ (∃ f, ((wSlot2).view.loc (V d (cV L) (jV L)) ↦[(wSlot2).view.set]{fullShare} f)) ∗ (∃ f, ((wSlot3).view.loc (V d (cV L) (jV L)) ↦[(wSlot3).view.set]{fullShare} f))) := by
  rw [set_wSlot0, set_wSlot1, set_wSlot2, set_wSlot3]
  exact pointsTo_split4 (F := F) (ℓ := (V d (cV L) (jV L)).loc cc1_scratch1) slotW slotW_disjoint slotW_cover fullShare
theorem ringW_join :
    (iprop((∃ f, ((wSlot0).view.loc (V d (cV L) (jV L)) ↦[(wSlot0).view.set]{fullShare} f)) ∗ (∃ f, ((wSlot1).view.loc (V d (cV L) (jV L)) ↦[(wSlot1).view.set]{fullShare} f))
        ∗ (∃ f, ((wSlot2).view.loc (V d (cV L) (jV L)) ↦[(wSlot2).view.set]{fullShare} f)) ∗ (∃ f, ((wSlot3).view.loc (V d (cV L) (jV L)) ↦[(wSlot3).view.set]{fullShare} f))) : sProp 𝕄)
      ⊢ iprop(∃ f, (V d (cV L) (jV L)).loc cc1_scratch1 ↦{fullShare} f) := by
  rw [set_wSlot0, set_wSlot1, set_wSlot2, set_wSlot3]
  exact pointsTo_join4 (F := F) (ℓ := (V d (cV L) (jV L)).loc cc1_scratch1) slotW slotW_disjoint slotW_cover fullShare

theorem ringR_split :
    (iprop(∃ f, (V d (cV L) (jV L)).loc cc1_scratch2 ↦{fullShare} f) : sProp 𝕄)
      ⊢ iprop((∃ f, ((rSlot0).view.loc (V d (cV L) (jV L)) ↦[(rSlot0).view.set]{fullShare} f)) ∗ (∃ f, ((rSlot1).view.loc (V d (cV L) (jV L)) ↦[(rSlot1).view.set]{fullShare} f))
        ∗ (∃ f, ((rSlot2).view.loc (V d (cV L) (jV L)) ↦[(rSlot2).view.set]{fullShare} f)) ∗ (∃ f, ((rSlot3).view.loc (V d (cV L) (jV L)) ↦[(rSlot3).view.set]{fullShare} f))) := by
  rw [set_rSlot0, set_rSlot1, set_rSlot2, set_rSlot3]
  exact pointsTo_split4 (F := F) (ℓ := (V d (cV L) (jV L)).loc cc1_scratch2) slotR slotR_disjoint slotR_cover fullShare
theorem ringR_join :
    (iprop((∃ f, ((rSlot0).view.loc (V d (cV L) (jV L)) ↦[(rSlot0).view.set]{fullShare} f)) ∗ (∃ f, ((rSlot1).view.loc (V d (cV L) (jV L)) ↦[(rSlot1).view.set]{fullShare} f))
        ∗ (∃ f, ((rSlot2).view.loc (V d (cV L) (jV L)) ↦[(rSlot2).view.set]{fullShare} f)) ∗ (∃ f, ((rSlot3).view.loc (V d (cV L) (jV L)) ↦[(rSlot3).view.set]{fullShare} f))) : sProp 𝕄)
      ⊢ iprop(∃ f, (V d (cV L) (jV L)).loc cc1_scratch2 ↦{fullShare} f) := by
  rw [set_rSlot0, set_rSlot1, set_rSlot2, set_rSlot3]
  exact pointsTo_join4 (F := F) (ℓ := (V d (cV L) (jV L)).loc cc1_scratch2) slotR slotR_disjoint slotR_cover fullShare

theorem ringO_split :
    (iprop(∃ f, (V d (cV L) (jV L)).loc cc1_scratch3 ↦{fullShare} f) : sProp 𝕄)
      ⊢ iprop((∃ f, ((oSlot0).view.loc (V d (cV L) (jV L)) ↦[(oSlot0).view.set]{fullShare} f)) ∗ (∃ f, ((oSlot1).view.loc (V d (cV L) (jV L)) ↦[(oSlot1).view.set]{fullShare} f))
        ∗ (∃ f, ((oSlot2).view.loc (V d (cV L) (jV L)) ↦[(oSlot2).view.set]{fullShare} f)) ∗ (∃ f, ((oSlot3).view.loc (V d (cV L) (jV L)) ↦[(oSlot3).view.set]{fullShare} f))) := by
  rw [set_oSlot0, set_oSlot1, set_oSlot2, set_oSlot3]
  exact pointsTo_split4 (F := F) (ℓ := (V d (cV L) (jV L)).loc cc1_scratch3) slotW slotW_disjoint slotW_cover fullShare
theorem ringO_join :
    (iprop((∃ f, ((oSlot0).view.loc (V d (cV L) (jV L)) ↦[(oSlot0).view.set]{fullShare} f)) ∗ (∃ f, ((oSlot1).view.loc (V d (cV L) (jV L)) ↦[(oSlot1).view.set]{fullShare} f))
        ∗ (∃ f, ((oSlot2).view.loc (V d (cV L) (jV L)) ↦[(oSlot2).view.set]{fullShare} f)) ∗ (∃ f, ((oSlot3).view.loc (V d (cV L) (jV L)) ↦[(oSlot3).view.set]{fullShare} f))) : sProp 𝕄)
      ⊢ iprop(∃ f, (V d (cV L) (jV L)).loc cc1_scratch3 ↦{fullShare} f) := by
  rw [set_oSlot0, set_oSlot1, set_oSlot2, set_oSlot3]
  exact pointsTo_join4 (F := F) (ℓ := (V d (cV L) (jV L)).loc cc1_scratch3) slotW slotW_disjoint slotW_cover fullShare

end Rings

/-! ## A share's tokens 11 to 14 -/

section Toks
variable {ℓ : Loc nD τ sig}

/-- What remains of a share once tokens 11 to 14 are taken: the share after fifteen tokens, and tokens 0 to 10. -/
def tokRest (q : PosShare TreeShare) (f : Buf (Elt F) ℓ) : sProp 𝕄 :=
  iprop((ℓ ↦{Transfers.shareDrop q 15} f) ∗ bigSep (Finset.range 11) fun i => (ℓ ↦{Transfers.shareTokN q i} f : sProp 𝕄))

theorem range15 (Φ : ℕ → sProp 𝕄) :
    bigSep (Finset.range 15) Φ = iprop(Φ 14 ∗ Φ 13 ∗ Φ 12 ∗ Φ 11 ∗ bigSep (Finset.range 11) Φ) := by
  rw [Finset.range_add_one, BI.bigSep_insert Finset.notMem_range_self, Finset.range_add_one, BI.bigSep_insert Finset.notMem_range_self,
    Finset.range_add_one, BI.bigSep_insert Finset.notMem_range_self, Finset.range_add_one, BI.bigSep_insert Finset.notMem_range_self]
  rfl

theorem toks_take (q : PosShare TreeShare) (f : Buf (Elt F) ℓ) :
    (ℓ ↦{q} f : sProp 𝕄) ⊢ iprop((ℓ ↦{Transfers.shareTokN q 11} f) ∗ (ℓ ↦{Transfers.shareTokN q 12} f) ∗ (ℓ ↦{Transfers.shareTokN q 13} f)
      ∗ (ℓ ↦{Transfers.shareTokN q 14} f) ∗ tokRest q f) := by
  refine (Transfers.pointsTo_toks_range (ℓ := ℓ) (S := Finset.univ) (f := f) q 15).1.trans ?_
  rw [range15]
  unfold tokRest
  iintro ⟨Hd, H14, H13, H12, H11, Hr⟩
  iframe

theorem toks_give (q : PosShare TreeShare) (f : Buf (Elt F) ℓ) :
    iprop((ℓ ↦{Transfers.shareTokN q 11} f) ∗ (ℓ ↦{Transfers.shareTokN q 12} f) ∗ (ℓ ↦{Transfers.shareTokN q 13} f)
      ∗ (ℓ ↦{Transfers.shareTokN q 14} f) ∗ tokRest q f) ⊢ (ℓ ↦{q} f : sProp 𝕄) := by
  refine BIBase.Entails.trans ?_ (Transfers.pointsTo_toks_range (ℓ := ℓ) (S := Finset.univ) (f := f) q 15).2
  rw [range15]
  unfold tokRest
  iintro ⟨H11, H12, H13, H14, Hd, Hr⟩
  iframe

end Toks

/-! ## A worker's rows chunk by chunk, as the numbered pieces -/

section Homes
variable (d : Dev nD) (L : grid1.Coords)

theorem chunkOff_eq (n : ℕ) (ch : Fin 32) (h : ch.val = n) : chunkOff L n = ![512 * (wL L).val + 16 * ch.val, 0] := by
  show (![1024 * (L 1).val + 512 * (L 0).val + 16 * n, 0] : Fin 2 → ℕ) = _
  rw [h, wL_val]; exact vec2_congr (by omega)

theorem w_homes (f : Buf (Elt F) (wLoc d)) : (wLoc d ↦[pSet (wL L)]{fullShare} f : sProp 𝕄) = homes (wP d L f) 0 32 := by
  unfold homes
  rw [w_chunks, bigSep_Ico_fin]
  exact bigSep_congr fun ch _ => by
    rw [wP_at d L f ch.isLt (chunkOff L ch.val) (chunkOff_inb L ch.isLt) rfl]
    exact (pts_wSlice d (cV L) (jV L) (chunkOff_inb L ch.isLt) (fun _ => rfl) (wL L) ch (chunkOff_eq L ch.val ch rfl) fullShare f).symm

theorem o_homes (f : Buf (Elt F) (outLoc d)) : (outLoc d ↦[pSet (wL L)]{fullShare} f : sProp 𝕄) = homes (oP d L f) 0 32 := by
  unfold homes
  rw [out_chunks, bigSep_Ico_fin]
  exact bigSep_congr fun ch _ => by
    rw [oP_at d L f ch.isLt (chunkOff L ch.val) (chunkOff_inb L ch.isLt) rfl]
    exact (pts_oSlice d (cV L) (jV L) (chunkOff_inb L ch.isLt) (fun _ => rfl) (wL L) ch (chunkOff_eq L ch.val ch rfl) fullShare f).symm

end Homes

/-! ## What a tile is handed, as its task uses it -/

section InOut
variable [FloatOps F] (d : Dev nD) (L : grid1.Coords)

theorem tileIn_of (tb : Buf (Elt F) (tblLoc d)) (ix : Buf (Elt F) (idxLoc d)) (wv : Buf (Elt F) (wLoc d)) (fo : Buf (Elt F) (outLoc d)) :
    (iprop((tblLoc d ↦{tshare (wL L)} tb) ∗ (idxLoc d ↦[iSet (wL L)]{fullShare} ix) ∗ (wLoc d ↦[pSet (wL L)]{fullShare} wv)
        ∗ (outLoc d ↦[pSet (wL L)]{fullShare} fo)) : sProp 𝕄)
      ⊢ iprop(tileIn d L (tshare (wL L)) tb ix wv fo ∗ tokRest (ℓ := tblLoc d) (tshare (wL L)) tb) := by
  rw [w_homes, o_homes, ← pts_iRowK d (cV L) (jV L) L fullShare ix]
  unfold tileIn
  iintro ⟨Ht, Hi, Hw, Ho⟩
  ihave Ht' := (toks_take (ℓ := tblLoc d) (tshare (wL L)) tb) $$ Ht
  icases Ht' with ⟨H11, H12, H13, H14, Hr⟩
  iframe

theorem tileIn_to (tb : Buf (Elt F) (tblLoc d)) (ix : Buf (Elt F) (idxLoc d)) (wv : Buf (Elt F) (wLoc d)) (fo : Buf (Elt F) (outLoc d)) :
    (iprop(tileIn d L (tshare (wL L)) tb ix wv fo ∗ tokRest (ℓ := tblLoc d) (tshare (wL L)) tb) : sProp 𝕄)
      ⊢ iprop((tblLoc d ↦{tshare (wL L)} tb) ∗ (idxLoc d ↦[iSet (wL L)]{fullShare} ix) ∗ (wLoc d ↦[pSet (wL L)]{fullShare} wv)
        ∗ (outLoc d ↦[pSet (wL L)]{fullShare} fo)) := by
  rw [w_homes, o_homes, ← pts_iRowK d (cV L) (jV L) L fullShare ix]
  unfold tileIn
  iintro ⟨⟨H11, H12, H13, H14, Hi, Hw, Ho⟩, Hr⟩
  isplitl [H11 H12 H13 H14 Hr]
  · iapply (toks_give (ℓ := tblLoc d) (tshare (wL L)) tb)
    iframe
  iframe

end InOut

/-! ## The tile's own memory, cut as its task uses it -/

section OwnCut
variable [FloatOps F] (d : Dev nD) (L : grid1.Coords)

/-- What of the tile's own memory its task never names. -/
def ownRest : sProp 𝕄 := iprop(bufsRest (F := F) d L ∗ semsRest (F := F) d L)

theorem own_split (hF : (K (F := F)).Facts) :
    (iprop(scopedBufs (V d (cV L) (jV L)) ∗ scopedSems0 (V d (cV L) (jV L))) : sProp 𝕄) ⊢ iprop(tileOwn (F := F) d L ∗ ownRest (F := F) d L) := by
  rw [(K (F := F)).scopedBufs_V hF d (cV L) (jV L), SparseCore.Cfg.scopedSems0_V (Val := Elt F) d (cV L) (jV L), ownSems0_V, ownBufs_V]
  unfold tileOwn ownRest
  iintro ⟨⟨⟨Hiv, Hw, Hr, Ho, -⟩, Hbr⟩, ⟨⟨S4, S5, S6, S7, S8, S9, S10, S11, S12, S13, S14, S15, S16, -⟩, Hsr⟩⟩
  ihave Hw' := (ringW_split (F := F) d L) $$ Hw
  icases Hw' with ⟨W0, W1, W2, W3⟩
  ihave Hr' := (ringR_split (F := F) d L) $$ Hr
  icases Hr' with ⟨R0, R1, R2, R3⟩
  ihave Ho' := (ringO_split (F := F) d L) $$ Ho
  icases Ho' with ⟨O0, O1, O2, O3⟩
  isplitr [Hbr Hsr]
  · isplitl [Hiv]; · iexact Hiv
    iframe
  · iframe

theorem own_join (hF : (K (F := F)).Facts) :
    (iprop(tileOwn (F := F) d L ∗ ownRest (F := F) d L) : sProp 𝕄) ⊢ iprop(scopedBufs (V d (cV L) (jV L)) ∗ scopedSems0 (V d (cV L) (jV L))) := by
  rw [(K (F := F)).scopedBufs_V hF d (cV L) (jV L), SparseCore.Cfg.scopedSems0_V (Val := Elt F) d (cV L) (jV L), ownSems0_V, ownBufs_V]
  unfold tileOwn ownRest
  iintro ⟨⟨Hiv, W0, W1, W2, W3, R0, R1, R2, R3, O0, O1, O2, O3, S4, S5, S6, S7, S8, S9, S10, S11, S12, S13, S14, S15, S16⟩, Hbr, Hsr⟩
  ihave Hw := (ringW_join (F := F) d L) $$ [W0 W1 W2 W3]
  · iframe
  ihave Hr := (ringR_join (F := F) d L) $$ [R0 R1 R2 R3]
  · iframe
  ihave Ho := (ringO_join (F := F) d L) $$ [O0 O1 O2 O3]
  · iframe
  isplitl [Hiv Hw Hr Ho Hbr]
  · isplitr [Hbr]
    · isplitl [Hiv]; · iexact Hiv
      isplitl [Hw]; · iexact Hw
      isplitl [Hr]; · iexact Hr
      isplitl [Ho]; · iexact Ho
      iempintro
    · iexact Hbr
  · isplitr [Hsr]
    · isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      iempintro
    · iexact Hsr

end OwnCut

/-! ## The task's triple, from the triple over the cut resources -/

section Body
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The task's triple over the cut resources: from the waits' evidence, what the thread owes, what it is handed and its own
    memory, the body runs to the same with its rows of the result at the gathered sum. -/
def TileCore : Prop :=
  ∀ (d : Dev nD) (L : grid1.Coords) (q : PosShare TreeShare) (tb : Buf (Elt F) (tblLoc d)) (ix : Buf (Elt F) (idxLoc d))
    (wv : Buf (Elt F) (wLoc d)) (o0 : Buf (Elt F) (outLoc d)) (hidx : ∀ j : S32x32x128.Idx, (ix j).toNat < 262144)
    (O : CellTallies nD τ sig (HIx 1)) (W : Waits sig (HIx 1)),
    (iprop(□ Transfers.MayWaits (V d (cV L) (jV L)) (default : HIx 1) O ∗ owes (V d (cV L) (jV L)) O W ∗ tileIn d L q tb ix wv o0 ∗ tileOwn d L) : sProp 𝕄)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0)
          fun _ => iprop(tileIn d L q tb ix wv (skip (F := F) tb ix wv) ∗ tileOwn d L ∗ ∃ W', ⌜∀ p ∈ W', p ∈ W ∨ p.2 = none⌝ ∗ owes (V d (cV L) (jV L)) O W')

/-- The task on the vector subcore at grid coordinates L of device d, as the launch states it. -/
theorem tile_body (hcore : TileCore (F := F)) (hF : (K (F := F)).Facts)
    (hidx : ∀ (d : Dev nD) (j : S32x32x128.Idx), (ix d j).toNat < 262144)
    (d : Dev nD) (L : grid1.Coords) (O : CellTallies nD τ sig (HIx 1)) (W : Waits sig (HIx 1)) (hO : ∀ g, O g none = 0) :
    (iprop(levAts (K (F := F)).L (K (F := F)).lev ∗ emp ∗ tileGo tb ix wv o0 d (wL L) ∗ scopedBufs (V d (cV L) (jV L))
        ∗ scopedSems0 (V d (cV L) (jV L)) ∗ owes (V d (cV L) (jV L)) O W) : sProp 𝕄)
      ⊢ wp frame (wpE (defs₀ (F := F)) 𝒱₀ (V d (cV L) (jV L)) none) Set.univ
          (cc1__sc_body L tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0)
          fun _ => iprop(tileTd tb ix wv d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hpre : (iprop(levAts (K (F := F)).L (K (F := F)).lev ∗ emp ∗ tileGo tb ix wv o0 d (wL L) ∗ scopedBufs (V d (cV L) (jV L))
        ∗ scopedSems0 (V d (cV L) (jV L)) ∗ owes (V d (cV L) (jV L)) O W) : sProp 𝕄)
      ⊢ iprop((□ Transfers.MayWaits (V d (cV L) (jV L)) (default : HIx 1) O ∗ owes (V d (cV L) (jV L)) O W
          ∗ tileIn d L (tshare (wL L)) (tb d) (ix d) (wv d) (o0 d) ∗ tileOwn d L)
        ∗ (tokRest (ℓ := tblLoc d) (tshare (wL L)) (tb d) ∗ ownRest (F := F) d L)) := by
    iintro ⟨#Hlv, -, Hgo, Hb, Hs, HO⟩
    ihave Hin := (tileIn_of d L (tb d) (ix d) (wv d) (o0 d)) $$ Hgo
    icases Hin with ⟨Hin, Htr⟩
    ihave Hown := (own_split (F := F) d L hF) $$ [Hb Hs]
    · iframe
    icases Hown with ⟨Hown, Hor⟩
    isplitr [Htr Hor]
    · isplitr [HO Hin Hown]
      · imodintro
        iapply ((K (F := F)).mayWaits_none (thr := V d (cV L) (jV L)) hO)
        iexact Hlv
      · iframe
    · iframe
  refine hpre.trans ((sep_mono_left (hcore d L (tshare (wL L)) (tb d) (ix d) (wv d) (o0 d) (hidx d) O W)).trans
    ((wp_frame_r _ _ _).trans (wp_mono _ _ _ fun _ => ?_)))
  iintro ⟨⟨Hin, Hown, HW⟩, Htr, Hor⟩
  ihave Htd := (tileIn_to d L (tb d) (ix d) (wv d) (skip (F := F) (tb d) (ix d) (wv d))) $$ [Hin Htr]
  · iframe
  ihave Hbs := (own_join (F := F) d L hF) $$ [Hown Hor]
  · iframe
  icases Hbs with ⟨Hb, Hs⟩
  isplitl [Htd]; · iexact Htd
  iframe

end Body

/-! ## The launch theorem's obligation for the tiles -/

section Obl
variable [FloatOps F]
variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) tblV (Memref.isWhole_whole _) idxV (Memref.isWhole_whole _) wV (Memref.isWhole_whole _) outV (Memref.isWhole_whole _) ivV (Memref.isWhole_whole _) wvV (Memref.isWhole_whole _) rvV (Memref.isWhole_whole _) ovV (Memref.isWhole_whole _) cc1_scratch4 cc1_scratch5 cc1_scratch6 cc1_scratch7 cc1_scratch8 cc1_scratch9 cc1_scratch10 cc1_scratch11 cc1_scratch12 cc1_scratch13 cc1_scratch14 cc1_scratch15 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F)) (hF : (K (F := F)).Facts)
    (hidx : ∀ (d : Dev nD) (j : S32x32x128.Idx), (ix d j).toNat < 262144) :
    (K (F := F)).TileObl (D (F := F)) 𝒱 (P tb ix wv o0) v₀ 0 := by
  intro d c i O W hO _ _
  simp only [show (P tb ix wv o0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hw : wL (coordsV ⟨_, hc.1⟩ ⟨_, hc.2⟩) = widOf (Fin.cast nCore_zero c) (Fin.cast nSub_zero i) := Fin.ext rfl
  have h := tile_body tb ix wv o0 hcore hF hidx d (coordsV ⟨_, hc.1⟩ ⟨_, hc.2⟩) O W hO
  rw [hw] at h
  exact h.trans (wp_mono frame _ _ fun _ => obl_post)

end Obl

end Cert.Proof.KB

end
-- ==== Proof.KB.Tile.lean ====
/-
  The obligation of one vector subcore's task, closed. The group loop's trip at any group is one of three: the first
  (no result copy to wait for yet), the last (no next chunk to start), or one in between; the task's body around the
  loop turns that trip into the whole body's run from what the tile is handed to what it hands back, the result rows at
  the gathered sums; and the launch's wrapper turns that into the tile obligation.
-/
import proofs.«209143_g59700045415095_cont_9to1_m_37_38_alg».proof.Proof.KB.Tile1
import proofs.«209143_g59700045415095_cont_9to1_m_37_38_alg».proof.Proof.KB.TileTripB
import proofs.«209143_g59700045415095_cont_9to1_m_37_38_alg».proof.Proof.KB.TileTripL
import proofs.«209143_g59700045415095_cont_9to1_m_37_38_alg».proof.Proof.KB.TileCore
import proofs.«209143_g59700045415095_cont_9to1_m_37_38_alg».proof.Proof.KB.TileObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Trip
variable [FloatOps F] (d : Dev nD) (L : grid1.Coords)

/-- One trip of the group loop, at any group. -/
theorem groupTrip (O : CellTallies nD τ sig (HIx 1)) (W : Waits sig (HIx 1)) (q : PosShare TreeShare)
    (tb : Buf (Elt F) (tblLoc d)) (ix : Buf (Elt F) (idxLoc d)) (wv : Buf (Elt F) (wLoc d)) (o0 : Buf (Elt F) (outLoc d))
    (hidx : ∀ j : S32x32x128.Idx, (ix j).toNat < 262144) (fi : Buf (Elt F) ((ivV).view.loc (V d (cV L) (jV L)))) (v2 : BitVec 32) :
    ∀ (g : Fin k1_t1_loop.trips) (acc : PUnit),
      gInv d L O W q tb ix wv o0 fi g.val acc ⊢ wp frame (wpE (defs₀ (F := F)) 𝒱₀ (V d (cV L) (jV L)) none) Set.univ
          (k1_t1_body L tblV (Memref.isWhole_whole _) idxV (Memref.isWhole_whole _) wV (Memref.isWhole_whole _) outV (Memref.isWhole_whole _)
            ivV (Memref.isWhole_whole _) wvV (Memref.isWhole_whole _) rvV (Memref.isWhole_whole _) ovV (Memref.isWhole_whole _)
            cc1_scratch4 cc1_scratch5 cc1_scratch6 cc1_scratch7 cc1_scratch8 cc1_scratch9 cc1_scratch10 cc1_scratch11
            cc1_scratch12 cc1_scratch13 cc1_scratch14 cc1_scratch15 cc1_scoped0 v2 g acc) (gInv d L O W q tb ix wv o0 fi (g.val + 1)) := by
  intro g acc
  by_cases h0 : g.val = 0
  · exact groupTripFirst d L O W q tb ix wv o0 hidx fi v2 g acc h0
  by_cases h7 : g.val = 7
  · exact groupTripLast d L O W q tb ix wv o0 hidx fi v2 g acc h7
  · have h8 := trips_le g
    exact groupTripMid d L O W q tb ix wv o0 hidx fi v2 g acc (by omega) (by omega)

end Trip

section Obl
variable [FloatOps F]

/-- The task's body, from what the tile is handed (cut as the task uses it) to what it hands back. -/
theorem tile_core_all : TileCore (F := F) :=
  fun d L q tb ix wv o0 hidx O W =>
    tile_core d L q tb ix wv o0 O W (fun fi v2 g acc => groupTrip d L O W q tb ix wv o0 hidx fi v2 g acc) hidx

variable (tb : (d : Dev nD) → Buf (Elt F) (tblLoc d)) (ix : (d : Dev nD) → Buf (Elt F) (idxLoc d))
  (wv : (d : Dev nD) → Buf (Elt F) (wLoc d)) (o0 : (d : Dev nD) → Buf (Elt F) (outLoc d))

/-- The tile obligation of the one SparseCore call. -/
theorem tileObl_all (hF : (K (F := F)).Facts) (hidx : ∀ (d : Dev nD) (j : S32x32x128.Idx), (ix d j).toNat < 262144) :
    (K (F := F)).TileObl (D (F := F)) 𝒱 (P tb ix wv o0) v₀ 0 :=
  tileObl tb ix wv o0 tile_core_all hF hidx

end Obl

end Cert.Proof.KB

end
-- ==== Proof.KB.RegionIdx.lean ====
/-
  The corner row numbers the TensorCore call leaves are in range of the table of 262144 rows, at
  every float instance at which the clamp to [0, 31] followed by the conversion to an integer gives
  one of 0, …, 31.

  A row number is ((b·32 + z)·32 + y)·32 + x in 32-bit words, b the batch number as a word (below 8)
  and z, y, x three such clamped-and-converted values (below 32): no product or sum wraps, and the
  result is below 8·32³.  The block of row numbers is a slice of that array of words followed by a
  change of shape, and the whole array reads a block at an index: each reads its operand at some
  index, so a bound that holds at every index of the operand holds at every index of the result.
  The same goes for the reshaped array of shape 32 × 32 × 128.
-/
import proofs.«209143_g59700045415095_cont_9to1_m_37_38_alg».proof.Proof.KB.RegionVals
import proofs.«209143_g59700045415095_cont_9to1_m_37_38_alg».proof.Proof.Clamp

noncomputable section

namespace Cert.Proof.KB

open Cert.Kernel Cert.Kernel.Gen
open Idealize.ShloMosaic
open Idealize.ShloMosaic.ValueIdx

variable {F : FTy → Type} [FloatOps F] [Cert.Proof.Clamp.ClampOK F]

/-! ## A property of every element survives a change of shape and a slice -/

/-- A change of shape reads its operand at some index. -/
theorem shapeCast_all {α : Type} {s t : Shape} (P : α → Prop) (v : s.Idx → α) (h : s.ShapeCasts t)
    (hv : ∀ i, P (v i)) : ∀ j, P (shapeCast t v h j) := fun _ => hv _

/-- A slice reads its operand at some index. -/
theorem slice_all {α : Type} {s t : Shape} (P : α → Prop) (off : Fin s.rank → Nat) (v : s.Idx → α)
    (h : s.Slices off t) (hv : ∀ i, P (v i)) : ∀ j, P (extractStridedSlice t off v h j) := fun _ => hv _

/-! ## The row numbers -/

/-- The batch number as a word is below 8. -/
theorem batchWord_lt (b : Fin 8) : (BitVec.ofNat 32 b.val).toNat < 8 := by
  rw [BitVec.toNat_ofNat]
  have := b.isLt
  omega

/-- Every entry of a block of row numbers is below 262144, the batch word being below 8. -/
theorem idx8Blk_lt (a0 : BitVec 32) (ha : a0.toNat < 8) (x0 : Vec F S1x512x2048 .f32) (x1 : Vec F S1x2048x128 .f32)
    (x2 : Vec F S128x3 .f32) (i : S1x512x8.Idx) : (idx8Blk a0 x0 x1 x2 i).toNat < 262144 := by
  unfold idx8Blk k0_pay1
  refine shapeCast_all (fun w : BitVec 32 => w.toNat < 262144) _ _ ?_ i
  refine slice_all (fun w : BitVec 32 => w.toNat < 262144) _ _ _ ?_
  intro i'
  refine (Cert.Proof.Clamp.flat_vec_lt a0 _ _ _ i' ha ?_ ?_ ?_).1
  · exact Cert.Proof.Clamp.clamp_vec_lt _ _
  · exact Cert.Proof.Clamp.clamp_vec_lt _ _
  · unfold k0_pay21
    exact Cert.Proof.Clamp.clamp_vec_lt _ _

/-- Every corner row number is below 262144. -/
theorem idx8V_lt (adj : FVec F S8x2048x2048 .f32) (x : FVec F S8x2048x128 .f32) (W : FVec F S128x3 .f32) :
    ∀ j : S8x2048x8.Idx, (idx8V adj x W j).toNat < 262144 :=
  fun j => idx8Blk_lt _ (batchWord_lt (j 0)) _ _ _ _

/-- The same of the row numbers reshaped to 32 × 32 × 128. -/
theorem ixOf_lt (adj : FVec F S8x2048x2048 .f32) (x : FVec F S8x2048x128 .f32) (W : FVec F S128x3 .f32) :
    ∀ j : S32x32x128.Idx,
      ((shapeCast S32x32x128 (idx8V adj x W) shapeCasts_S8x2048x8_S32x32x128) j).toNat < 262144 :=
  shapeCast_all (fun w : BitVec 32 => w.toNat < 262144) _ _ (idx8V_lt adj x W)

end Cert.Proof.KB

end
-- ==== Proof.KB.Main.lean ====
/-
  The idealized kernel's program read at any float family at which the clamp to [0, 31] followed by the conversion to an
  integer gives one of 0, …, 31: its run. The launch is applied to its pieces: the TensorCore region's triple and the
  funding of its staging cells, and a tile's task, whose one side condition is that every corner row number names a row of
  the table of 262144 rows.
-/
import proofs.«209143_g59700045415095_cont_9to1_m_37_38_alg».proof.Proof.KB.Launch
import proofs.«209143_g59700045415095_cont_9to1_m_37_38_alg».proof.Proof.KB.Region
import proofs.«209143_g59700045415095_cont_9to1_m_37_38_alg».proof.Proof.KB.Tile
import proofs.«209143_g59700045415095_cont_9to1_m_37_38_alg».proof.Proof.KB.RegionIdx
import proofs.«209143_g59700045415095_cont_9to1_m_37_38_alg».proof.Proof.Clamp

noncomputable section

namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Proof.Clamp.ClampOK F] [∀ e, Nonempty (Elt F e)]

/-- The run: on every device, from any launch memory with zero counters, every weakly fair execution of the program's
    threads terminates; the first result ends at the closed term of the four arguments, the positions at the region's,
    and the four arguments are unchanged. The corner row numbers are in range of the table because each is
    ((b·32 + z)·32 + y)·32 + x with b < 8 and z, y, x clamped to 0, …, 31. -/
theorem run (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ Region.uP₀ Region.GP Region.fund_region Region.wp_region
    (tileObl_all (tbM m) (ixM m) (wvM m) (o0M m) facts
      fun d j => ixOf_lt (m (a1Loc d)) (m (a0Loc d)) (m (a3Loc d)) j)

end Cert.Proof.KB

end
-- ==== Proof.Spec.lean ====
/-
  The two results of the program as functions of its four argument arrays, index by index, in the
  arithmetic of the extended reals.

  A point (b, n) has three position components
      pos[b, n, a] = ∑ f, (∑ m, adj[b, n, m] · x[b, m, f]) · W[f, a].
  Each component p is sent to a continuous grid coordinate i = ((2·p − 1) + 1) · 15.5, whose floor
  is the lower grid line.  A corner of the surrounding grid cell adds an offset o ∈ {0, 1} on each
  axis: its grid line is c = ⌊i⌋ + o, its hat weight on that axis is 1 − |i − c|, and it counts only
  when 0 ≤ c ≤ 31 on all three axes.  The grid line is clamped to [0, 31] and read as an integer to
  give the cell number on that axis.  The sampled value of channel ch at the point is the sum over
  the eight corners of  conv[b, ch, cell_z, cell_y, cell_x] · weight.

  The first result joins x, the sampled values and the positions along the last axis; the second is
  the positions.

  Also here: the division law that lets a coordinate written  ((…) · 31) / 2  be read as
  (…) · 15.5; the regrouping of a sum of eight terms; the one-bit conditions as propositions.
-/
import Idealize.ShloMosaic.PureOps.Ideal
import Idealize.ShloMosaic.PureOps.Ideal.Laws
import Idealize.ShloMosaic.Lib.ValueIdx

noncomputable section

open scoped BigOperators

namespace Cert.Proof.Spec

open Idealize.ShloMosaic Idealize.ShloMosaic.ValueIdx

/-! ## The float words that occur, as extended reals -/

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_31 : Ideal.ofBits .f32 0x41F80000#32 = ((31 : ℝ) : EReal) := by
  simp [Ideal.ofBits, Ideal.ieee, -EReal.coe_mul]; norm_num
theorem ofBits_15h : Ideal.ofBits .f32 0x41780000#32 = (((31 : ℝ) / 2 : ℝ) : EReal) := by
  simp [Ideal.ofBits, Ideal.ieee, -EReal.coe_mul]; norm_num

/-- Multiplying by 31 and then dividing by 2 is multiplying by 15.5, on every extended real. -/
theorem mul31_div2 (t : EReal) :
    Ideal.div (t * Ideal.ofBits .f32 0x41F80000#32) (Ideal.ofBits .f32 0x40000000#32)
      = t * Ideal.ofBits .f32 0x41780000#32 := by
  rw [ofBits_31, ofBits_two, ofBits_15h, Ideal.div_coe (by norm_num), mul_assoc, ← EReal.coe_mul]
  congr 2
  norm_num

/-! ## One axis of one corner -/

/-- The continuous grid coordinate of a position component. -/
def coordG (p : EReal) : EReal :=
  ((Ideal.ofBits .f32 0x40000000#32 * p - Ideal.ofBits .f32 0x3F800000#32) + Ideal.ofBits .f32 0x3F800000#32)
    * Ideal.ofBits .f32 0x41780000#32

/-- The same coordinate written with a product by 31 and a division by 2. -/
theorem coordG_div (p : EReal) :
    Ideal.div (((Ideal.ofBits .f32 0x40000000#32 * p - Ideal.ofBits .f32 0x3F800000#32) + Ideal.ofBits .f32 0x3F800000#32)
      * Ideal.ofBits .f32 0x41F80000#32) (Ideal.ofBits .f32 0x40000000#32) = coordG p :=
  mul31_div2 _

/-- The grid line of a corner on one axis: the floor of the coordinate plus the corner's offset. -/
def lineG (p o : EReal) : EReal := Ideal.liftRound Int.floor (coordG p) + o

/-- The hat weight of a corner on one axis: one minus the distance from the coordinate to the grid line. -/
def hatG (p o : EReal) : EReal :=
  Ideal.ofBits .f32 0x3F800000#32 - max (coordG p - lineG p o) (-(coordG p - lineG p o))

/-- A grid line is inside the grid. -/
def okG (c : EReal) : Prop := Ideal.ofBits .f32 0x00000000#32 ≤ c ∧ c ≤ Ideal.ofBits .f32 0x41F80000#32

instance (c : EReal) : Decidable (okG c) := by unfold okG; infer_instance

/-- The grid line clamped to [0, 31], the bounds being the integers 0 and 31 read as floats. -/
def clampG (c : EReal) : EReal :=
  min (((31#32 : BitVec 32).toInt : ℝ) : EReal) (max (((0#32 : BitVec 32).toInt : ℝ) : EReal) c)

theorem clampG_eq (c : EReal) : clampG c = min ((31 : ℝ) : EReal) (max ((0 : ℝ) : EReal) c) := by
  unfold clampG
  have e31 : ((31#32 : BitVec 32).toInt : ℝ) = 31 := by norm_num [BitVec.toInt]
  have e0 : ((0#32 : BitVec 32).toInt : ℝ) = 0 := by norm_num [BitVec.toInt]
  rw [e31, e0]

/-- The clamped grid line is a real number between 0 and 31, whatever the operand. -/
theorem clampG_real (c : EReal) : ∃ r : ℝ, clampG c = (r : EReal) ∧ 0 ≤ r ∧ r ≤ 31 := by
  rw [clampG_eq]
  set v : EReal := min ((31 : ℝ) : EReal) (max ((0 : ℝ) : EReal) c) with hv
  have h31 : v ≤ ((31 : ℝ) : EReal) := min_le_left _ _
  have h0 : ((0 : ℝ) : EReal) ≤ v := le_min (by exact_mod_cast (by norm_num : (0 : ℝ) ≤ 31)) (le_max_left _ _)
  have hnt : v ≠ ⊤ := fun h => by rw [h] at h31; exact absurd h31 (by simp)
  have hnb : v ≠ ⊥ := fun h => by rw [h] at h0; exact absurd h0 (by simp)
  refine ⟨v.toReal, (EReal.coe_toReal hnt hnb).symm, ?_, ?_⟩
  · have := EReal.toReal_le_toReal h0 (by simp) hnt
    simpa using this
  · have := EReal.toReal_le_toReal h31 hnb (by simp)
    simpa using this

/-- The integer read off the clamped grid line is one of 0, …, 31. -/
theorem cell_lt (c : EReal) : (Ideal.fptosi 32 (clampG c)).toNat < 32 := by
  obtain ⟨r, hr, h0, h31⟩ := clampG_real c
  rw [hr, Ideal.fptosi, Ideal.toIntClamped_coe, if_pos h0]
  have hf0 : (0 : ℤ) ≤ ⌊r⌋ := Int.floor_nonneg.mpr h0
  have hf31 : ⌊r⌋ ≤ 31 := by
    have : ⌊r⌋ ≤ ⌊(31 : ℝ)⌋ := Int.floor_le_floor h31
    simpa using this
  rw [BitVec.toNat_ofInt]
  omega

/-- The cell number of a grid line on one axis. -/
def cellG (c : EReal) : Fin 32 := ⟨(Ideal.fptosi 32 (clampG c)).toNat, cell_lt c⟩

theorem cellG_val (c : EReal) : (cellG c).val = (Ideal.fptosi 32 (clampG c)).toNat := rfl

/-- The clamp and the conversion as the float operations spell them. -/
theorem cellG_ops (c : Ideal .f32) :
    (FloatOps.fptosi (F := Ideal) 32 (FloatOps.minimumf (Scalar.sitofp (F := Ideal) .f32 (31#32))
      (FloatOps.maximumf (Scalar.sitofp (F := Ideal) .f32 (0#32)) c))) = Ideal.fptosi 32 (clampG c) := rfl

/-! ## A corner's weight -/

/-- One if the three grid lines are all inside the grid, else zero. -/
def maskG (c0 c1 c2 : EReal) : EReal := if okG c0 ∧ okG c1 ∧ okG c2 then 1 else 0

/-- The weight of the corner with offsets o0, o1, o2 at the point with position components
    p0, p1, p2: the product of the three hat weights, times the mask. -/
def weightG (p0 p1 p2 o0 o1 o2 : EReal) : EReal :=
  hatG p0 o0 * hatG p1 o1 * hatG p2 o2 * maskG (lineG p0 o0) (lineG p1 o1) (lineG p2 o2)

/-! ## The eight corners -/

/-- Bit a of the corner number k. -/
def bitG (k : Fin 8) (a : Fin 3) : ℕ := k.val / 2 ^ a.val % 2

/-- The offset of corner k on axis a, as an extended real: 0 or 1. -/
def offG (k : Fin 8) (a : Fin 3) : EReal := ((bitG k a : ℝ) : EReal)

theorem offG_of_zero {k : Fin 8} {a : Fin 3} (h : bitG k a = 0) : offG k a = 0 := by
  unfold offG; rw [h]; simp
theorem offG_of_one {k : Fin 8} {a : Fin 3} (h : bitG k a = 1) : offG k a = 1 := by
  unfold offG; rw [h]; simp

/-! ## The positions -/

/-- Position component a of point (b, n). -/
def posG (x : (⟨3, ![8, 2048, 128]⟩ : Shape).Idx → EReal) (adj : (⟨3, ![8, 2048, 2048]⟩ : Shape).Idx → EReal)
    (W : (⟨2, ![128, 3]⟩ : Shape).Idx → EReal) (b : Fin 8) (n : Fin 2048) (a : Fin 3) : EReal :=
  ∑ f : Fin 128, (∑ m : Fin 2048, adj (ix3 b n m) * x (ix3 b m f)) * W (ix2 f a)

/-! ## The sampled values -/

/-- The contribution of the corner with offsets o0, o1, o2 to channel ch of a point in batch b whose
    position components are p0, p1, p2 (axis 0 runs along the last grid axis). -/
def termG (conv : (⟨5, ![8, 128, 32, 32, 32]⟩ : Shape).Idx → EReal) (b : Fin 8) (ch : Fin 128)
    (p0 p1 p2 o0 o1 o2 : EReal) : EReal :=
  conv (ix5 b ch (cellG (lineG p2 o2)) (cellG (lineG p1 o1)) (cellG (lineG p0 o0))) * weightG p0 p1 p2 o0 o1 o2

/-- Channel ch of the value sampled at point (b, n): the sum of the eight corners' contributions. -/
def skipG (x : (⟨3, ![8, 2048, 128]⟩ : Shape).Idx → EReal) (adj : (⟨3, ![8, 2048, 2048]⟩ : Shape).Idx → EReal)
    (conv : (⟨5, ![8, 128, 32, 32, 32]⟩ : Shape).Idx → EReal) (W : (⟨2, ![128, 3]⟩ : Shape).Idx → EReal)
    (b : Fin 8) (n : Fin 2048) (ch : Fin 128) : EReal :=
  ∑ k : Fin 8, termG conv b ch (posG x adj W b n 0) (posG x adj W b n 1) (posG x adj W b n 2)
    (offG k 0) (offG k 1) (offG k 2)

/-! ## The two results -/

/-- The second result: the positions. -/
def out1G (x : (⟨3, ![8, 2048, 128]⟩ : Shape).Idx → EReal) (adj : (⟨3, ![8, 2048, 2048]⟩ : Shape).Idx → EReal)
    (W : (⟨2, ![128, 3]⟩ : Shape).Idx → EReal) : (⟨3, ![8, 2048, 3]⟩ : Shape).Idx → EReal :=
  fun i => posG x adj W (i 0) (i 1) (i 2)

/-- The first result: along the last axis, the 128 columns of x, then the 128 sampled channels, then
    the 3 position components. -/
def out0G (x : (⟨3, ![8, 2048, 128]⟩ : Shape).Idx → EReal) (adj : (⟨3, ![8, 2048, 2048]⟩ : Shape).Idx → EReal)
    (conv : (⟨5, ![8, 128, 32, 32, 32]⟩ : Shape).Idx → EReal) (W : (⟨2, ![128, 3]⟩ : Shape).Idx → EReal) :
    (⟨3, ![8, 2048, 259]⟩ : Shape).Idx → EReal :=
  fun i =>
    have h259 : (i 2).val < 259 := (i 2).isLt
    if h : (i 2).val < 128 then x (ix3 (i 0) (i 1) ⟨(i 2).val, h⟩)
    else if h' : (i 2).val < 256 then skipG x adj conv W (i 0) (i 1) ⟨(i 2).val - 128, by omega⟩
    else posG x adj W (i 0) (i 1) ⟨(i 2).val - 256, by omega⟩

/-! ## A sum of eight terms, regrouped -/

/-- The balanced tree of eight terms is the left fold from zero. -/
theorem sum8_balanced (t0 t1 t2 t3 t4 t5 t6 t7 : EReal) :
    ((t0 + t1) + (t2 + t3)) + ((t4 + t5) + (t6 + t7))
      = (((((((0 + t0) + t1) + t2) + t3) + t4) + t5) + t6) + t7 := by
  rw [zero_add]; abel

/-- The left fold from zero is the sum over the eight corner numbers. -/
theorem sum8_fold (t : Fin 8 → EReal) :
    (((((((0 + t 0) + t 1) + t 2) + t 3) + t 4) + t 5) + t 6) + t 7 = ∑ k : Fin 8, t k := by
  rw [zero_add, Fin.sum_univ_eight]

/-- The balanced tree is the sum over the eight corner numbers. -/
theorem sum8_tree (t : Fin 8 → EReal) :
    ((t 0 + t 1) + (t 2 + t 3)) + ((t 4 + t 5) + (t 6 + t 7)) = ∑ k : Fin 8, t k := by
  rw [sum8_balanced, sum8_fold]

/-! ## One-bit conditions as propositions -/

theorem cmp_oge_one_iff (x y : EReal) : Ideal.cmp .oge x y = 1#1 ↔ y ≤ x := by
  unfold Ideal.cmp
  by_cases h : y ≤ x <;> simp [h]
theorem cmp_ole_one_iff (x y : EReal) : Ideal.cmp .ole x y = 1#1 ↔ x ≤ y := by
  unfold Ideal.cmp
  by_cases h : x ≤ y <;> simp [h]
theorem and_one_iff (a b : BitVec 1) : a &&& b = 1#1 ↔ a = 1#1 ∧ b = 1#1 := by
  revert a b; decide

/-- The two comparisons of a grid line with the grid's bounds, joined, say it is inside the grid. -/
theorem ok_bit_iff (c : EReal) :
    Ideal.cmp .oge c (Ideal.ofBits .f32 0x00000000#32) &&& Ideal.cmp .ole c (Ideal.ofBits .f32 0x41F80000#32) = 1#1 ↔ okG c := by
  rw [and_one_iff, cmp_oge_one_iff, cmp_ole_one_iff]; rfl

/-- A one-bit condition read as an unsigned number is one where it holds, else zero. -/
theorem mask_of_bit_nat (b : BitVec 1) (P : Prop) [Decidable P] (h : b = 1#1 ↔ P) :
    ((b.toNat : ℝ) : EReal) = if P then 1 else 0 := by
  by_cases hP : P
  · rw [if_pos hP, h.mpr hP]; simp
  · rw [if_neg hP, eq_zero_of_ne_one (fun hb => hP (h.mp hb))]; simp

/-- The same for the bit widened to 32 bits and read as a signed number. -/
theorem mask_of_bit_int (b : BitVec 1) (P : Prop) [Decidable P] (h : b = 1#1 ↔ P) :
    (((b.setWidth 32).toInt : ℝ) : EReal) = if P then 1 else 0 := by
  by_cases hP : P
  · rw [if_pos hP, h.mpr hP]
    have : ((1#1 : BitVec 1).setWidth 32).toInt = 1 := by decide
    rw [this]; simp
  · rw [if_neg hP, eq_zero_of_ne_one (fun hb => hP (h.mp hb))]
    have : ((0#1 : BitVec 1).setWidth 32).toInt = 0 := by decide
    rw [this]; simp

end Cert.Proof.Spec

end
-- ==== Proof.KI.ValuePos.lean ====
/-
  The positions the TensorCore call writes, read at an index: pos[b, n, a] = ∑ f, (∑ m, adj[b, n, m] · x[b, m, f]) · W[f, a].

  The body multiplies its adjacency block (512 × 2048) by the batch's features (2048 × 128) and the product by the
  projection (128 × 3), both into a zero accumulator; the casts to the short float format around the products are the
  identity on extended reals. Each product at an output index is the sum over the one contracted coordinate of the
  operands' products; the block of point (b, n / 512) at its local row n mod 512 is row n of batch b.
-/
import proofs.«209143_g59700045415095_cont_9to1_m_37_38_alg».proof.Proof.KI.RegionVals
import proofs.«209143_g59700045415095_cont_9to1_m_37_38_alg».proof.Proof.Spec
import Idealize.ShloMosaic.PureOps.Ideal.Laws
import Idealize.ShloMosaic.Lib.Pipeline.Value
import Idealize.ShloMosaic.Lib.ValueIdx

noncomputable section

open scoped BigOperators

namespace Cert.Proof.KI.Value

open Cert.KernelIdeal Cert.KernelIdeal.Gen
open Idealize.ShloMosaic Idealize.ShloMosaic.ValueIdx

/-! ## The operand indices of the two products -/

theorem lhsA_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhsA_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhsA_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhsA_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

theorem lhsB_0 (i : S512x3.Idx) (q : dot_S512x128_S128x3_S512x3_1_0_0_1_n_n.contr.Idx) :
    (dot_S512x128_S128x3_S512x3_1_0_0_1_n_n.lhsIdx i q 0).val = (i 0).val := by
  unfold DotDims.lhsIdx
  rw [dif_neg (show ¬(0 : Fin S512x128.rank) ∈ dot_S512x128_S128x3_S512x3_1_0_0_1_n_n.lhsBatch by decide), dif_pos (show (0 : Fin S512x128.rank) ∈ dot_S512x128_S128x3_S512x3_1_0_0_1_n_n.lhsNonContracting by decide)]
  rfl
theorem lhsB_1 (i : S512x3.Idx) (q : dot_S512x128_S128x3_S512x3_1_0_0_1_n_n.contr.Idx) :
    (dot_S512x128_S128x3_S512x3_1_0_0_1_n_n.lhsIdx i q 1).val = (q ⟨0, by decide⟩).val :=
  dot_S512x128_S128x3_S512x3_1_0_0_1_n_n.lhsIdx_val_of_single rfl i q
theorem rhsB_0 (i : S512x3.Idx) (q : dot_S512x128_S128x3_S512x3_1_0_0_1_n_n.contr.Idx) :
    (dot_S512x128_S128x3_S512x3_1_0_0_1_n_n.rhsIdx i q 0).val = (q ⟨0, by decide⟩).val :=
  dot_S512x128_S128x3_S512x3_1_0_0_1_n_n.rhsIdx_val_of_single rfl i q
theorem rhsB_1 (i : S512x3.Idx) (q : dot_S512x128_S128x3_S512x3_1_0_0_1_n_n.contr.Idx) :
    (dot_S512x128_S128x3_S512x3_1_0_0_1_n_n.rhsIdx i q 1).val = (i 1).val := by
  unfold DotDims.rhsIdx
  rw [dif_neg (show ¬(1 : Fin S128x3.rank) ∈ dot_S512x128_S128x3_S512x3_1_0_0_1_n_n.rhsBatch by decide), dif_pos (show (1 : Fin S128x3.rank) ∈ dot_S512x128_S128x3_S512x3_1_0_0_1_n_n.rhsNonContracting by decide)]
  rfl

/-! ## Each product at an output index -/

/-- The first product: rows of the adjacency block times columns of the features. -/
theorem matmulA_apply (l : FVec Ideal S512x2048 .bf16) (r : FVec Ideal S2048x128 .bf16) (p : Fin 512) (f : Fin 128) :
    FloatOps.matmul dot_S512x2048_S2048x128_S512x128_1_0_0_1_n_n none l r (constant S512x128 .f32 0x00000000#32) (ix2 p f)
      = ∑ m : Fin 2048, l (ix2 p m) * r (ix2 m f) := by
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p f) ((ValueIdx.contrEquiv1 dot_S512x2048_S2048x128_S512x128_1_0_0_1_n_n 2048 rfl rfl).symm k) = ix2 p k := funext fun a => Fin.ext (by
    match a with
    | ⟨0, _⟩ => exact lhsA_0 _ _
    | ⟨1, _⟩ => exact (lhsA_1 _ _).trans hk)
  have er : dot_S512x2048_S2048x128_S512x128_1_0_0_1_n_n.rhsIdx (ix2 p f) ((ValueIdx.contrEquiv1 dot_S512x2048_S2048x128_S512x128_1_0_0_1_n_n 2048 rfl rfl).symm k) = ix2 k f := funext fun a => Fin.ext (by
    match a with
    | ⟨0, _⟩ => exact (rhsA_0 _ _).trans hk
    | ⟨1, _⟩ => exact rhsA_1 _ _)
  rw [el, er]

/-- The second product: rows of the first product times columns of the projection. -/
theorem matmulB_apply (l : FVec Ideal S512x128 .bf16) (r : FVec Ideal S128x3 .bf16) (p : Fin 512) (a : Fin 3) :
    FloatOps.matmul dot_S512x128_S128x3_S512x3_1_0_0_1_n_n none l r (constant S512x3 .f32 0x00000000#32) (ix2 p a)
      = ∑ f : Fin 128, l (ix2 p f) * r (ix2 f a) := by
  rw [Ideal.matmul_constant_zero_apply, ← Equiv.sum_comp (ValueIdx.contrEquiv1 dot_S512x128_S128x3_S512x3_1_0_0_1_n_n 128 rfl rfl).symm]
  refine Finset.sum_congr rfl fun k _ => ?_
  have hk := ValueIdx.contrEquiv1_symm_val dot_S512x128_S128x3_S512x3_1_0_0_1_n_n 128 rfl rfl k
  have el : dot_S512x128_S128x3_S512x3_1_0_0_1_n_n.lhsIdx (ix2 p a) ((ValueIdx.contrEquiv1 dot_S512x128_S128x3_S512x3_1_0_0_1_n_n 128 rfl rfl).symm k) = ix2 p k := funext fun b => Fin.ext (by
    match b with
    | ⟨0, _⟩ => exact lhsB_0 _ _
    | ⟨1, _⟩ => exact (lhsB_1 _ _).trans hk)
  have er : dot_S512x128_S128x3_S512x3_1_0_0_1_n_n.rhsIdx (ix2 p a) ((ValueIdx.contrEquiv1 dot_S512x128_S128x3_S512x3_1_0_0_1_n_n 128 rfl rfl).symm k) = ix2 k a := funext fun b => Fin.ext (by
    match b with
    | ⟨0, _⟩ => exact (rhsB_0 _ _).trans hk
    | ⟨1, _⟩ => exact rhsB_1 _ _)
  rw [el, er]

/-! ## The blocks' leading unit axis -/

/-- The adjacency block viewed without its leading unit axis. -/
theorem dropA_apply (v0 : Vec Ideal S1x512x2048 .f32) (p : Fin 512) (m : Fin 2048) :
    shapeCast S512x2048 v0 shapeCasts_S1x512x2048_S512x2048 (ix2 p m) = v0 (ix3 (0 : Fin 1) p m) := by
  refine shapeCast_apply v0 _ _ _ ?_
  rw [Shape.rowMajor_val_three, Shape.rowMajor_val_two]
  show ((0 : ℕ) * 512 + p.val) * 2048 + m.val = p.val * 2048 + m.val
  omega

/-- The features block viewed without its leading unit axis. -/
theorem dropX_apply (v3 : Vec Ideal S1x2048x128 .f32) (m : Fin 2048) (f : Fin 128) :
    shapeCast S2048x128 v3 shapeCasts_S1x2048x128_S2048x128 (ix2 m f) = v3 (ix3 (0 : Fin 1) m f) := by
  refine shapeCast_apply v3 _ _ _ ?_
  rw [Shape.rowMajor_val_three, Shape.rowMajor_val_two]
  show ((0 : ℕ) * 2048 + m.val) * 128 + f.val = m.val * 128 + f.val
  omega

/-! ## The positions block -/

/-- The two products of the blocks, at local row p and component a. -/
theorem pay2_apply (v0 : Vec Ideal S1x512x2048 .f32) (v3 : Vec Ideal S1x2048x128 .f32) (v8 : Vec Ideal S128x3 .f32)
    (p : Fin 512) (a : Fin 3) :
    k0_pay2 (F := Ideal) v0 v3 v8 (ix2 p a)
      = ∑ f : Fin 128, (∑ m : Fin 2048, v0 (ix3 (0 : Fin 1) p m) * v3 (ix3 (0 : Fin 1) m f)) * v8 (ix2 f a) := by
  unfold k0_pay2
  simp only [matmul]
  rw [matmulB_apply]
  refine Finset.sum_congr rfl fun f _ => ?_
  rw [truncf_apply, truncf_apply, matmulA_apply]
  congr 1
  refine Finset.sum_congr rfl fun m _ => ?_
  rw [truncf_apply, truncf_apply, dropA_apply, dropX_apply]

/-- The same stored with a leading unit axis. -/
theorem pay3_apply (v0 : Vec Ideal S1x512x2048 .f32) (v3 : Vec Ideal S1x2048x128 .f32) (v8 : Vec Ideal S128x3 .f32)
    (p : Fin 512) (a : Fin 3) :
    k0_pay3 (F := Ideal) v0 v3 v8 (ix3 (0 : Fin 1) p a) = k0_pay2 (F := Ideal) v0 v3 v8 (ix2 p a) := by
  unfold k0_pay3
  refine shapeCast_apply _ _ _ _ ?_
  rw [Shape.rowMajor_val_three, Shape.rowMajor_val_two]
  show p.val * 3 + a.val = ((0 : ℕ) * 512 + p.val) * 3 + a.val
  omega

/-! ## The blocks a row is read from -/

/-- Row n of batch b sits at local row n mod 512 of the adjacency block of point (b, n / 512). -/
theorem adjBlk_apply (adj : FVec Ideal S8x2048x2048 .f32) (b : Fin 8) (n m : Fin 2048) :
    adjBlk adj b (nbOf n) (ix3 (0 : Fin 1) (rowIn n) m) = adj (ix3 b n m) := by
  unfold adjBlk
  refine congrArg adj ?_
  funext a
  match a with
  | ⟨0, _⟩ => rfl
  | ⟨1, _⟩ =>
    refine Fin.ext ?_
    show n.val / 512 * 512 + n.val % 512 = n.val
    omega
  | ⟨2, _⟩ => rfl

theorem xBlk_apply (x : FVec Ideal S8x2048x128 .f32) (b : Fin 8) (m : Fin 2048) (f : Fin 128) :
    xBlk x b (ix3 (0 : Fin 1) m f) = x (ix3 b m f) := rfl

/-! ## The positions -/

/-- The positions array the call leaves is the specification's. -/
theorem posV_apply (adj : FVec Ideal S8x2048x2048 .f32) (x : FVec Ideal S8x2048x128 .f32) (W : FVec Ideal S128x3 .f32)
    (b : Fin 8) (n : Fin 2048) (a : Fin 3) :
    posV (F := Ideal) adj x W (ix3 b n a) = Spec.posG x adj W b n a := by
  show posBlk (adjBlk adj b (nbOf n)) (xBlk x b) W (ix3 (0 : Fin 1) (rowIn n) a) = _
  unfold posBlk Spec.posG
  rw [pay3_apply, pay2_apply]
  refine Finset.sum_congr rfl fun f _ => ?_
  congr 1
  refine Finset.sum_congr rfl fun m _ => ?_
  rw [adjBlk_apply, xBlk_apply]

end Cert.Proof.KI.Value

end
-- ==== Proof.KI.ValueCorner.lean ====
/-
  The corner weights and corner row numbers the TensorCore call writes, read at an index.

  At local row r and lane L of a block the body has the three position components of the row, each broadcast along
  the lanes, and turns each into a grid coordinate c = ((2·p − 1) + 1)·15.5. A corner number K comes from the lane
  (for the weights K = L / 16, for the row numbers K = L, L < 8); bit a of K is the corner's offset on axis a. On each
  axis the grid line is ⌊c⌋ + offset, the hat weight is 1 − |c − line|, the line counts when 0 ≤ line ≤ 31, and the
  cell number is the line clamped to [0, 31] read as an integer. The weight is the product of the three hats and of
  the three range conditions read as 0 or 1; the row number is ((b·32 + cell₂)·32 + cell₁)·32 + cell₀ in word
  arithmetic, which never wraps because every part is small.
-/
import proofs.«209143_g59700045415095_cont_9to1_m_37_38_alg».proof.Proof.KI.ValuePos
import proofs.«209143_g59700045415095_cont_9to1_m_37_38_alg».proof.Proof.Clamp

noncomputable section

open scoped BigOperators

namespace Cert.Proof.KI.Value

open Cert.KernelIdeal Cert.KernelIdeal.Gen
open Idealize.ShloMosaic Idealize.ShloMosaic.ValueIdx

/-! ## A corner's offsets from the bits of its number -/

/-- Bit s of a word, as the body takes it: shift right by s, keep the lowest bit. -/
def bitW (K s : BitVec 32) : BitVec 32 := IntOp.andi (IntOp.shrsi .vector K s) 1#32

/-- The bit as a float: the offset of the corner on that axis. -/
def offW (K s : BitVec 32) : EReal := (((bitW K s).toInt : ℝ) : EReal)

theorem bitW_0 : ∀ k : Fin 8, bitW (BitVec.ofNat 32 k.val) 0#32 = BitVec.ofNat 32 (Spec.bitG k 0) := by decide
theorem bitW_1 : ∀ k : Fin 8, bitW (BitVec.ofNat 32 k.val) 1#32 = BitVec.ofNat 32 (Spec.bitG k 1) := by decide
theorem bitW_2 : ∀ k : Fin 8, bitW (BitVec.ofNat 32 k.val) 2#32 = BitVec.ofNat 32 (Spec.bitG k 2) := by decide

/-- A bit read as a signed word and then as a real is the bit. -/
theorem bit_toReal (k : Fin 8) (a : Fin 3) : (((BitVec.ofNat 32 (Spec.bitG k a)).toInt : ℝ) : EReal) = Spec.offG k a := by
  unfold Spec.offG
  have h2 : Spec.bitG k a < 2 := Nat.mod_lt _ (by norm_num)
  obtain h | h : Spec.bitG k a = 0 ∨ Spec.bitG k a = 1 := by omega
  · rw [h]; norm_num [BitVec.toInt]
  · rw [h]; norm_num [BitVec.toInt]

theorem offW_0 (k : Fin 8) : offW (BitVec.ofNat 32 k.val) 0#32 = Spec.offG k 0 := by
  unfold offW; rw [bitW_0 k, bit_toReal]
theorem offW_1 (k : Fin 8) : offW (BitVec.ofNat 32 k.val) 1#32 = Spec.offG k 1 := by
  unfold offW; rw [bitW_1 k, bit_toReal]
theorem offW_2 (k : Fin 8) : offW (BitVec.ofNat 32 k.val) 2#32 = Spec.offG k 2 := by
  unfold offW; rw [bitW_2 k, bit_toReal]

/-- The lane number shifted right by four is the lane's group of sixteen. -/
theorem lane_shr4 : ∀ L : Fin 128, IntOp.shrsi .vector (BitVec.ofNat 32 L.val) 4#32 = BitVec.ofNat 32 (L.val / 16) := by decide

/-! ## One axis of a corner, from the coordinate and the offset -/

/-- The grid line. -/
def lineC (c o : EReal) : EReal := Ideal.liftRound Int.floor c + o
/-- The hat weight. -/
def hatC (c o : EReal) : EReal :=
  Ideal.ofBits .f32 0x3F800000#32 - max (c - lineC c o) (-(c - lineC c o))
/-- The range condition 0 ≤ line ≤ 31 as one bit. -/
def okW (l : EReal) : BitVec 1 :=
  Ideal.cmp .oge l (Ideal.ofBits .f32 0x00000000#32) &&& Ideal.cmp .ole l (Ideal.ofBits .f32 0x41F80000#32)
/-- The cell number as a word: the line clamped to [0, 31], converted. -/
def cellW (l : EReal) : BitVec 32 :=
  FloatOps.fptosi (F := Ideal) 32 (FloatOps.minimumf (Scalar.sitofp (F := Ideal) .f32 (31#32))
    (FloatOps.maximumf (Scalar.sitofp (F := Ideal) .f32 (0#32)) l))

theorem lineC_coord (p o : EReal) : lineC (Spec.coordG p) o = Spec.lineG p o := rfl
theorem hatC_coord (p o : EReal) : hatC (Spec.coordG p) o = Spec.hatG p o := rfl
theorem okW_iff (l : EReal) : okW l = 1#1 ↔ Spec.okG l := Spec.ok_bit_iff l
theorem cellW_toNat (l : EReal) : (cellW l).toNat = (Spec.cellG l).val := rfl
theorem cellW_lt (l : EReal) : (cellW l).toNat < 32 := Spec.cell_lt l

/-- The weight of corner K from the three coordinates. -/
def wtC (c0 c1 c2 : EReal) (K : BitVec 32) : EReal :=
  hatC c0 (offW K 0#32) * hatC c1 (offW K 1#32) * hatC c2 (offW K 2#32)
    * (((((okW (lineC c0 (offW K 0#32)) &&& okW (lineC c1 (offW K 1#32))) &&& okW (lineC c2 (offW K 2#32))).setWidth 32).toInt : ℝ) : EReal)

/-- The flat row number of corner K from the three coordinates and the batch word. -/
def rowC (a0 : BitVec 32) (c0 c1 c2 : EReal) (K : BitVec 32) : BitVec 32 :=
  IntOp.addi (IntOp.muli (IntOp.addi (IntOp.muli (IntOp.addi (Scalar.muli a0 (32#32)) (cellW (lineC c2 (offW K 2#32)))) (32#32))
    (cellW (lineC c1 (offW K 1#32)))) (32#32)) (cellW (lineC c0 (offW K 0#32)))

/-- The weight of corner k is the specification's. -/
theorem wtC_eq (p0 p1 p2 : EReal) (k : Fin 8) :
    wtC (Spec.coordG p0) (Spec.coordG p1) (Spec.coordG p2) (BitVec.ofNat 32 k.val)
      = Spec.weightG p0 p1 p2 (Spec.offG k 0) (Spec.offG k 1) (Spec.offG k 2) := by
  unfold wtC Spec.weightG Spec.maskG
  rw [offW_0, offW_1, offW_2, lineC_coord, lineC_coord, lineC_coord, hatC_coord, hatC_coord, hatC_coord]
  congr 1
  refine Spec.mask_of_bit_int _ _ ?_
  rw [Spec.and_one_iff, Spec.and_one_iff, okW_iff, okW_iff, okW_iff]
  exact and_assoc

/-- The row number of corner k of a point of batch b is the specification's, and nothing wraps. -/
theorem rowC_toNat (b : Fin 8) (p0 p1 p2 : EReal) (k : Fin 8) :
    (rowC (BitVec.ofNat 32 b.val) (Spec.coordG p0) (Spec.coordG p1) (Spec.coordG p2) (BitVec.ofNat 32 k.val)).toNat
      = ((b.val * 32 + (Spec.cellG (Spec.lineG p2 (Spec.offG k 2))).val) * 32
          + (Spec.cellG (Spec.lineG p1 (Spec.offG k 1))).val) * 32 + (Spec.cellG (Spec.lineG p0 (Spec.offG k 0))).val := by
  unfold rowC
  rw [offW_0, offW_1, offW_2, lineC_coord, lineC_coord, lineC_coord]
  have hb : (BitVec.ofNat 32 b.val).toNat < 8 := by
    rw [BitVec.toNat_ofNat]; have := b.isLt; omega
  have hbv : (BitVec.ofNat 32 b.val).toNat = b.val := by
    rw [BitVec.toNat_ofNat]; have := b.isLt; omega
  rw [(Clamp.flat_lt_ops _ _ _ _ hb (cellW_lt _) (cellW_lt _) (cellW_lt _)).2, hbv, cellW_toNat, cellW_toNat, cellW_toNat]

/-! ## The position components broadcast along the lanes, and the coordinates -/

/-- Column c of the positions block, broadcast along the lanes, reads the row's component c at every lane. -/
theorem col_apply (v10 : FVec Ideal S512x3 .f32) (off : Fin 2 → ℕ) (hs : S512x3.Slices off S512x1) (c : Fin 3)
    (h0 : off 0 = 0) (h1 : off 1 = c.val) (r : Fin 512) (L : Fin 128) :
    broadcastTo S512x128 (shapeCast S512x1 (extractStridedSlice S512x1 off v10 hs) shapeCasts_S512x1_S512x1)
      broadcasts_S512x1_S512x128 (ix2 r L) = v10 (ix2 r c) := by
  refine (broadcastTo_apply _ _ (ix2 r L) (ix2 r (0 : Fin 1)) ?_).trans ?_
  · intro a
    match a with
    | ⟨0, _⟩ => rfl
    | ⟨1, _⟩ => rfl
  rw [shapeCast_self]
  refine extractStridedSlice_apply off v10 hs (ix2 r (0 : Fin 1)) (ix2 r c) ?_
  intro a
  match a with
  | ⟨0, _⟩ => show r.val = off 0 + r.val; omega
  | ⟨1, _⟩ => show c.val = off 1 + 0; omega

section Coords
variable (v0 : Vec Ideal S1x512x2048 .f32) (v3 : Vec Ideal S1x2048x128 .f32) (v8 : Vec Ideal S128x3 .f32)
  (r : Fin 512) (L : Fin 128)

/-- The coordinate on axis 0. -/
theorem coord0_apply :
    k0_pay4 (F := Ideal) v0 v3 v8 (ix2 r L) = Spec.coordG (k0_pay2 (F := Ideal) v0 v3 v8 (ix2 r 0)) := by
  unfold k0_pay4
  generalize k0_pay2 (F := Ideal) v0 v3 v8 = v10
  refine Eq.trans (b := Spec.coordG (broadcastTo S512x128 (shapeCast S512x1 (extractStridedSlice S512x1 ![0, 0]
    v10 slices_S512x3_o0_0_S512x1) shapeCasts_S512x1_S512x1) broadcasts_S512x1_S512x128 (ix2 r L))) rfl ?_
  rw [col_apply _ _ _ 0 rfl rfl]

/-- The coordinate on axis 1 (the body multiplies by 15.5 a step later). -/
theorem coord1_apply :
    k0_pay6 (F := Ideal) v0 v3 v8 (ix2 r L) * Ideal.ofBits .f32 0x41780000#32
      = Spec.coordG (k0_pay2 (F := Ideal) v0 v3 v8 (ix2 r 1)) := by
  unfold k0_pay6
  generalize k0_pay2 (F := Ideal) v0 v3 v8 = v10
  refine Eq.trans (b := Spec.coordG (broadcastTo S512x128 (shapeCast S512x1 (extractStridedSlice S512x1 ![0, 1]
    v10 slices_S512x3_o0_1_S512x1) shapeCasts_S512x1_S512x1) broadcasts_S512x1_S512x128 (ix2 r L))) rfl ?_
  rw [col_apply _ _ _ 1 rfl rfl]

/-- The coordinate on axis 2. -/
theorem coord2_apply (v10 : FVec Ideal S512x3 .f32) :
    k0_pay10 (F := Ideal) v10 (ix2 r L) = Spec.coordG (v10 (ix2 r 2)) := by
  unfold k0_pay10
  refine Eq.trans (b := Spec.coordG (broadcastTo S512x128 (shapeCast S512x1 (extractStridedSlice S512x1 ![0, 2]
    v10 slices_S512x3_o0_2_S512x1) shapeCasts_S512x1_S512x1) broadcasts_S512x1_S512x128 (ix2 r L))) rfl ?_
  rw [col_apply _ _ _ 2 rfl rfl]

end Coords

/-! ## The lane numbers -/

theorem laneIota_apply (r : Fin 512) (L : Fin 128) : laneIota (ix2 r L) = BitVec.ofNat 32 L.val := by
  unfold laneIota
  rw [iota_single_apply]

theorem pay12_apply (r : Fin 512) (L : Fin 128) : k0_pay12 (ix2 r L) = BitVec.ofNat 32 (L.val / 16) := by
  unfold k0_pay12
  refine Eq.trans (b := IntOp.shrsi .vector (iota .tc S512x128 32 [1] iota_S512x128_d1_w32 (ix2 r L)) 4#32) rfl ?_
  rw [iota_single_apply]
  exact lane_shr4 L

/-! ## The weights block and the row numbers block at an index, over the coordinates -/

section Pointwise
variable (v24 v34 v48 : FVec Ideal S512x128 .f32) (r : Fin 512)

/-- The weights payload over any three lane-broadcast vectors (the axis-0 coordinate, the axis-1 coordinate before its
    product by 15.5, the axis-2 coordinate): at row r, lane L, the weight of the corner the lane names. -/
theorem pay20_at (L : Fin 128) :
    k0_pay20 (F := Ideal) v48 (floor v48) k0_pay12 (k0_pay14 v24 (floor v24)) (k0_pay15 (floor v24)) (k0_pay16 v34 k0_pay7)
        (k0_pay17 v34 k0_pay7) (k0_pay18 v34 k0_pay7) k0_pay19 (ix3 (0 : Fin 1) r L)
      = wtC (v24 (ix2 r L)) (v34 (ix2 r L) * Ideal.ofBits .f32 0x41780000#32) (v48 (ix2 r L)) (k0_pay12 (ix2 r L)) := by
  unfold k0_pay20
  refine (shapeCast_apply _ _ _ (ix2 r L) ?_).trans ?_
  · rw [Shape.rowMajor_val_three, Shape.rowMajor_val_two]
    show r.val * 128 + L.val = ((0 : ℕ) * 512 + r.val) * 128 + L.val
    omega
  rfl

/-- The row-numbers payload over the same three vectors: at row r, entry k, the row number of corner (lane k). -/
theorem pay1_at (a0 : BitVec 32) (k : Fin 8) :
    k0_pay1 (F := Ideal) a0 (k0_pay9 v34 k0_pay7) (floor v48) laneIota (k0_pay21 (floor v24) laneIota) (k0_pay22 laneIota)
        (ix3 (0 : Fin 1) r k)
      = rowC a0 (v24 (ix2 r (⟨k.val, by omega⟩ : Fin 128)))
          (v34 (ix2 r (⟨k.val, by omega⟩ : Fin 128)) * Ideal.ofBits .f32 0x41780000#32)
          (v48 (ix2 r (⟨k.val, by omega⟩ : Fin 128))) (laneIota (ix2 r (⟨k.val, by omega⟩ : Fin 128))) := by
  unfold k0_pay1
  refine (shapeCast_apply _ _ _ (ix2 r k) ?_).trans ?_
  · rw [Shape.rowMajor_val_three, Shape.rowMajor_val_two]
    show r.val * 8 + k.val = ((0 : ℕ) * 512 + r.val) * 8 + k.val
    omega
  refine (extractStridedSlice_apply _ _ _ (ix2 r k) (ix2 r (⟨k.val, by omega⟩ : Fin 128)) ?_).trans ?_
  · intro a
    match a with
    | ⟨0, _⟩ => show r.val = 0 + r.val; omega
    | ⟨1, _⟩ => show k.val = 0 + k.val; omega
  rfl

end Pointwise

section Blocks
variable (v0 : Vec Ideal S1x512x2048 .f32) (v3 : Vec Ideal S1x2048x128 .f32) (v8 : Vec Ideal S128x3 .f32)
  (r : Fin 512)

/-- The weights block at row r, lane L: the weight of corner (lane shifted right by four). -/
theorem w8Blk_apply (L : Fin 128) :
    w8Blk (F := Ideal) v0 v3 v8 (ix3 (0 : Fin 1) r L)
      = wtC (k0_pay4 (F := Ideal) v0 v3 v8 (ix2 r L))
          (k0_pay6 (F := Ideal) v0 v3 v8 (ix2 r L) * Ideal.ofBits .f32 0x41780000#32)
          (k0_pay10 (F := Ideal) (k0_pay2 (F := Ideal) v0 v3 v8) (ix2 r L)) (k0_pay12 (ix2 r L)) := by
  show k0_pay20 (F := Ideal) (k0_pay10 (k0_pay2 v0 v3 v8)) (floor (k0_pay10 (k0_pay2 v0 v3 v8))) k0_pay12
      (k0_pay14 (k0_pay4 v0 v3 v8) (floor (k0_pay4 v0 v3 v8))) (k0_pay15 (floor (k0_pay4 v0 v3 v8)))
      (k0_pay16 (k0_pay6 v0 v3 v8) k0_pay7) (k0_pay17 (k0_pay6 v0 v3 v8) k0_pay7) (k0_pay18 (k0_pay6 v0 v3 v8) k0_pay7)
      k0_pay19 (ix3 (0 : Fin 1) r L) = _
  exact pay20_at _ _ _ r L

/-- The row numbers block at row r, corner k: the row number of corner (lane k). -/
theorem idx8Blk_apply (a0 : BitVec 32) (k : Fin 8) :
    idx8Blk (F := Ideal) a0 v0 v3 v8 (ix3 (0 : Fin 1) r k)
      = rowC a0 (k0_pay4 (F := Ideal) v0 v3 v8 (ix2 r (⟨k.val, by omega⟩ : Fin 128)))
          (k0_pay6 (F := Ideal) v0 v3 v8 (ix2 r (⟨k.val, by omega⟩ : Fin 128)) * Ideal.ofBits .f32 0x41780000#32)
          (k0_pay10 (F := Ideal) (k0_pay2 (F := Ideal) v0 v3 v8) (ix2 r (⟨k.val, by omega⟩ : Fin 128)))
          (laneIota (ix2 r (⟨k.val, by omega⟩ : Fin 128))) := by
  show k0_pay1 (F := Ideal) a0 (k0_pay9 (k0_pay6 v0 v3 v8) k0_pay7) (floor (k0_pay10 (k0_pay2 v0 v3 v8))) laneIota
      (k0_pay21 (floor (k0_pay4 v0 v3 v8)) laneIota) (k0_pay22 laneIota) (ix3 (0 : Fin 1) r k) = _
  exact pay1_at _ _ _ r a0 k

end Blocks

/-! ## The two arrays at an index -/

section Arrays
variable (adj : FVec Ideal S8x2048x2048 .f32) (x : FVec Ideal S8x2048x128 .f32) (W : FVec Ideal S128x3 .f32)
  (b : Fin 8) (n : Fin 2048)

/-- The block's two products at a row are the row's position components. -/
theorem pay2_blk (a : Fin 3) :
    k0_pay2 (F := Ideal) (adjBlk adj b (nbOf n)) (xBlk x b) W (ix2 (rowIn n) a) = Spec.posG x adj W b n a := by
  rw [← posV_apply adj x W b n a]
  exact (pay3_apply _ _ _ _ _).symm

/-- The corner weights: lane 16·k + l of point (b, n) holds the weight of corner k. -/
theorem w8V_apply (k : Fin 8) (l : Fin 16) :
    w8V (F := Ideal) adj x W (ix3 b n (⟨16 * k.val + l.val, by omega⟩ : Fin 128))
      = Spec.weightG (Spec.posG x adj W b n 0) (Spec.posG x adj W b n 1) (Spec.posG x adj W b n 2)
          (Spec.offG k 0) (Spec.offG k 1) (Spec.offG k 2) := by
  show w8Blk (adjBlk adj b (nbOf n)) (xBlk x b) W (ix3 (0 : Fin 1) (rowIn n) (⟨16 * k.val + l.val, by omega⟩ : Fin 128)) = _
  rw [w8Blk_apply, coord0_apply, coord1_apply, coord2_apply, pay12_apply, pay2_blk, pay2_blk, pay2_blk]
  have hk : (16 * k.val + l.val) / 16 = k.val := by have := l.isLt; omega
  rw [show ((⟨16 * k.val + l.val, by omega⟩ : Fin 128) : ℕ) / 16 = k.val from hk]
  exact wtC_eq _ _ _ k

/-- The corner row numbers: entry k of point (b, n) is the row number of corner k, read unsigned. -/
theorem idx8V_toNat (k : Fin 8) :
    (idx8V (F := Ideal) adj x W (ix3 b n k)).toNat
      = ((b.val * 32 + (Spec.cellG (Spec.lineG (Spec.posG x adj W b n 2) (Spec.offG k 2))).val) * 32
          + (Spec.cellG (Spec.lineG (Spec.posG x adj W b n 1) (Spec.offG k 1))).val) * 32
          + (Spec.cellG (Spec.lineG (Spec.posG x adj W b n 0) (Spec.offG k 0))).val := by
  show (idx8Blk (BitVec.ofNat 32 b.val) (adjBlk adj b (nbOf n)) (xBlk x b) W (ix3 (0 : Fin 1) (rowIn n) k)).toNat = _
  rw [idx8Blk_apply, coord0_apply, coord1_apply, coord2_apply, laneIota_apply, pay2_blk, pay2_blk, pay2_blk]
  exact rowC_toNat b _ _ _ k

/-- A corner's row number names a row of the table. -/
theorem idx8V_lt (k : Fin 8) : (idx8V (F := Ideal) adj x W (ix3 b n k)).toNat < 262144 := by
  rw [idx8V_toNat]
  have := b.isLt
  have := (Spec.cellG (Spec.lineG (Spec.posG x adj W b n 2) (Spec.offG k 2))).isLt
  have := (Spec.cellG (Spec.lineG (Spec.posG x adj W b n 1) (Spec.offG k 1))).isLt
  have := (Spec.cellG (Spec.lineG (Spec.posG x adj W b n 0) (Spec.offG k 0))).isLt
  omega

end Arrays

end Cert.Proof.KI.Value

end
-- ==== Proof.KI.ValueHost.lean ====
/-
  The host-side layout operations around the SparseCore call, read at an index.

  The grid values conv[b, ch, z, y, x] are flattened on their three grid axes, the channel axis is moved last and the
  batch axis is merged in: table row ((b·32 + z)·32 + y)·32 + x, column ch, holds conv[b, ch, z, y, x]. The corner row
  numbers idx8[b, n, k] and the corner weights w8[b, n, lane] are re-laid with the points numbered p = b·2048 + n:
  point p is entry (p mod 16)·8 + k of chunk (p mod 512) / 16 of worker p / 512, and row p of the weights. The call's
  result, one row per point, is read back as [b, n, ch].
-/
import proofs.«209143_g59700045415095_cont_9to1_m_37_38_alg».proof.Proof.KI.RegionVals
import Idealize.ShloMosaic.Lib.Pipeline.Value
import Idealize.ShloMosaic.Lib.ValueIdx

noncomputable section

namespace Cert.Proof.KI.Value

open Cert.KernelIdeal Cert.KernelIdeal.Gen
open Idealize.ShloMosaic Idealize.ShloMosaic.ValueIdx

variable {F : FTy → Type} [FloatOps F]

/-! ## The three operands of the SparseCore call, from the program's arrays -/

/-- The table: the grid values with the grid axes flattened, the channel axis last, the batch axis merged in. -/
def tblOf (conv : FVec F S8x128x32x32x32 .f32) : FVec F S262144x128 .f32 := shapeCast S262144x128 (transpose S8x32768x128 [0, 2, 1] (shapeCast S8x128x32768 conv shapeCasts_S8x128x32x32x32_S8x128x32768) transposes_S8x128x32768_S8x32768x128_0_2_1) shapeCasts_S8x32768x128_S262144x128
/-- The corner row numbers, by worker, chunk and entry. -/
def ixOf (i8 : IVec S8x2048x8 32) : IVec S32x32x128 32 := shapeCast S32x32x128 i8 shapeCasts_S8x2048x8_S32x32x128
/-- The corner weights, one row per point. -/
def wvOf (w8 : FVec F S8x2048x128 .f32) : FVec F S16384x128 .f32 := shapeCast S16384x128 w8 shapeCasts_S8x2048x128_S16384x128

/-! ## Each read at an index -/

/-- Row ((b·32 + z)·32 + y)·32 + x of the table, column ch, is conv[b, ch, z, y, x]. -/
theorem tblOf_apply (conv : FVec F S8x128x32x32x32 .f32) (b : Fin 8) (ch : Fin 128) (z y x : Fin 32) (R : Fin 262144)
    (hR : R.val = ((b.val * 32 + z.val) * 32 + y.val) * 32 + x.val) :
    tblOf conv (ix2 R ch) = conv (ix5 b ch z y x) := by
  have hs : (z.val * 32 + y.val) * 32 + x.val < 32768 := by
    have := z.isLt; have := y.isLt; have := x.isLt; omega
  unfold tblOf
  refine (shapeCast_apply _ _ _ (ix3 b (⟨(z.val * 32 + y.val) * 32 + x.val, hs⟩ : Fin 32768) ch) ?_).trans ?_
  · rw [Shape.rowMajor_val_three, Shape.rowMajor_val_two]
    show (b.val * 32768 + ((z.val * 32 + y.val) * 32 + x.val)) * 128 + ch.val = R.val * 128 + ch.val
    omega
  refine (transpose_apply [0, 2, 1] _ _ _ (ix3 b ch (⟨(z.val * 32 + y.val) * 32 + x.val, hs⟩ : Fin 32768)) ?_).trans ?_
  · intro a
    match a with
    | ⟨0, _⟩ => rfl
    | ⟨1, _⟩ => rfl
    | ⟨2, _⟩ => rfl
  refine shapeCast_apply conv _ _ (ix5 b ch z y x) ?_
  rw [Shape.rowMajor_val_five, Shape.rowMajor_val_three]
  show (((b.val * 128 + ch.val) * 32 + z.val) * 32 + y.val) * 32 + x.val
    = (b.val * 128 + ch.val) * 32768 + ((z.val * 32 + y.val) * 32 + x.val)
  omega

/-- Entry e of chunk c of worker w is corner k of point (b, n) when the two row-major positions agree. -/
theorem ixOf_apply (i8 : IVec S8x2048x8 32) (w c : Fin 32) (e : Fin 128) (b : Fin 8) (n : Fin 2048) (k : Fin 8)
    (h : (w.val * 32 + c.val) * 128 + e.val = (b.val * 2048 + n.val) * 8 + k.val) :
    ixOf i8 (ix3 w c e) = i8 (ix3 b n k) := by
  unfold ixOf
  refine shapeCast_apply i8 _ _ (ix3 b n k) ?_
  rw [Shape.rowMajor_val_three, Shape.rowMajor_val_three]
  show (b.val * 2048 + n.val) * 8 + k.val = (w.val * 32 + c.val) * 128 + e.val
  omega

/-- Row p = b·2048 + n of the weights is the weights of point (b, n). -/
theorem wvOf_apply (w8 : FVec F S8x2048x128 .f32) (p : Fin 16384) (c : Fin 128) (b : Fin 8) (n : Fin 2048)
    (h : p.val = b.val * 2048 + n.val) :
    wvOf w8 (ix2 p c) = w8 (ix3 b n c) := by
  unfold wvOf
  refine shapeCast_apply w8 _ _ (ix3 b n c) ?_
  rw [Shape.rowMajor_val_three, Shape.rowMajor_val_two]
  show (b.val * 2048 + n.val) * 128 + c.val = p.val * 128 + c.val
  omega

/-- The call's result read back by batch and point: row p = b·2048 + n. -/
theorem outOf_apply (o : FVec F S16384x128 .f32) (p : Fin 16384) (c : Fin 128) (b : Fin 8) (n : Fin 2048)
    (h : p.val = b.val * 2048 + n.val) :
    shapeCast S8x2048x128 o shapeCasts_S16384x128_S8x2048x128 (ix3 b n c) = o (ix2 p c) := by
  refine shapeCast_apply o _ _ (ix2 p c) ?_
  rw [Shape.rowMajor_val_three, Shape.rowMajor_val_two]
  show p.val * 128 + c.val = (b.val * 2048 + n.val) * 128 + c.val
  omega

end Cert.Proof.KI.Value

end
-- ==== Proof.KI.Value.lean ====
/-
  The program's two results, as the kernel computes them, are the specification's.

  The first result joins, along the last axis, the features, the SparseCore call's result read back by batch and point,
  and the positions. The call's result at point p = b·2048 + n and column ch is the balanced sum over the eight corners
  k of weight (p, 16·k + ch mod 16) times table row idx(p, k), column ch. The weight at lane 16·k + l is the weight of
  corner k whatever l; the row number is ((b·32 + cell₂)·32 + cell₁)·32 + cell₀, below 8·32³, and that table row at
  column ch is conv[b, ch, cell₂, cell₁, cell₀]: so each term is a corner's contribution, and the balanced sum is the sum
  over the corners.
-/
import proofs.«209143_g59700045415095_cont_9to1_m_37_38_alg».proof.Proof.KI.Common
import proofs.«209143_g59700045415095_cont_9to1_m_37_38_alg».proof.Proof.KI.ValueCorner
import proofs.«209143_g59700045415095_cont_9to1_m_37_38_alg».proof.Proof.KI.ValueHost

noncomputable section

open scoped BigOperators

namespace Cert.Proof.KI.Value

open Cert.KernelIdeal Cert.KernelIdeal.Gen
open Idealize.ShloMosaic Idealize.ShloMosaic.ValueIdx

/-! ## The first result as the program's host operations compose it -/

section Generic
variable {F : FTy → Type} [FloatOps F]

/-- The first result: features, gathered sums, positions, joined along the last axis. -/
def out0K (x : FVec F S8x2048x128 .f32) (adj : FVec F S8x2048x2048 .f32) (conv : FVec F S8x128x32x32x32 .f32) (W : FVec F S128x3 .f32) : FVec F S8x2048x259 .f32 :=
  concatenate S8x2048x259 2 [⟨S8x2048x128, x⟩, ⟨S8x2048x128, shapeCast S8x2048x128 (skip (tblOf conv) (ixOf (idx8V adj x W)) (wvOf (w8V adj x W))) shapeCasts_S16384x128_S8x2048x128⟩, ⟨S8x2048x3, posV adj x W⟩] concatenates_S8x2048x128_S8x2048x128_S8x2048x3_S8x2048x259_d2

end Generic

/-- The number of point (b, n) among all points. -/
def ptOf (b : Fin 8) (n : Fin 2048) : Fin 16384 := ⟨b.val * 2048 + n.val, by have := b.isLt; have := n.isLt; omega⟩

section AtIdeal
variable (x : FVec Ideal S8x2048x128 .f32) (adj : FVec Ideal S8x2048x2048 .f32)
  (conv : FVec Ideal S8x128x32x32x32 .f32) (W : FVec Ideal S128x3 .f32) (b : Fin 8) (n : Fin 2048)

/-! ## One corner's term -/

/-- The term of corner k at point (b, n), column ch, is that corner's contribution in the specification. -/
theorem cornerTerm_eq (ch : Fin 128) (k : Fin 8) :
    cornerTerm (F := Ideal) (tblOf conv) (ixOf (idx8V adj x W)) (wvOf (w8V adj x W)) (ptOf b n) ch k
      = Spec.termG conv b ch (Spec.posG x adj W b n 0) (Spec.posG x adj W b n 1) (Spec.posG x adj W b n 2)
          (Spec.offG k 0) (Spec.offG k 1) (Spec.offG k 2) := by
  have hb := b.isLt
  have hn := n.isLt
  have hk := k.isLt
  have hch : ch.val % 16 < 16 := Nat.mod_lt _ (by norm_num)
  unfold cornerTerm Spec.termG
  rw [Ideal.mulf_def]
  have hp : (ptOf b n).val = b.val * 2048 + n.val := rfl
  have hpl := (ptOf b n).isLt
  -- the weight
  have hw : w8V (F := Ideal) adj x W (ix3 b n (⟨16 * k.val + ch.val % 16, by omega⟩ : Fin 128))
      = Spec.weightG (Spec.posG x adj W b n 0) (Spec.posG x adj W b n 1) (Spec.posG x adj W b n 2)
          (Spec.offG k 0) (Spec.offG k 1) (Spec.offG k 2) :=
    w8V_apply adj x W b n k (⟨ch.val % 16, hch⟩ : Fin 16)
  rw [wvOf_apply _ (ptOf b n) _ b n hp, hw]
  -- the row number
  have hix : ixOf (idx8V (F := Ideal) adj x W) (ix3 (⟨(ptOf b n).val / 512, by omega⟩ : Fin 32)
      (⟨(ptOf b n).val % 512 / 16, by omega⟩ : Fin 32) (⟨(ptOf b n).val % 16 * 8 + k.val, by omega⟩ : Fin 128))
      = idx8V (F := Ideal) adj x W (ix3 b n k) :=
    ixOf_apply (idx8V (F := Ideal) adj x W) _ _ _ b n k (by
      show ((ptOf b n).val / 512 * 32 + (ptOf b n).val % 512 / 16) * 128 + ((ptOf b n).val % 16 * 8 + k.val)
        = (b.val * 2048 + n.val) * 8 + k.val
      omega)
  rw [hix]
  -- the table row
  have hrow : (rowOf (idx8V (F := Ideal) adj x W (ix3 b n k))).val
      = ((b.val * 32 + (Spec.cellG (Spec.lineG (Spec.posG x adj W b n 2) (Spec.offG k 2))).val) * 32
          + (Spec.cellG (Spec.lineG (Spec.posG x adj W b n 1) (Spec.offG k 1))).val) * 32
          + (Spec.cellG (Spec.lineG (Spec.posG x adj W b n 0) (Spec.offG k 0))).val := by
    show (idx8V (F := Ideal) adj x W (ix3 b n k)).toNat % 262144 = _
    rw [Nat.mod_eq_of_lt (idx8V_lt adj x W b n k)]
    exact idx8V_toNat adj x W b n k
  rw [tblOf_apply conv b ch _ _ _ (rowOf (idx8V (F := Ideal) adj x W (ix3 b n k))) hrow]
  exact mul_comm _ _

/-! ## The gathered sum at a point -/

/-- The call's result at a point and column is the balanced sum of the eight corner terms. -/
theorem skip_at (tb : FVec Ideal S262144x128 .f32) (ix : IVec S32x32x128 32) (wv : FVec Ideal S16384x128 .f32)
    (p : Fin 16384) (ch : Fin 128) :
    skip (F := Ideal) tb ix wv (ix2 p ch)
      = ((cornerTerm (F := Ideal) tb ix wv p ch 0 + cornerTerm (F := Ideal) tb ix wv p ch 1)
          + (cornerTerm (F := Ideal) tb ix wv p ch 2 + cornerTerm (F := Ideal) tb ix wv p ch 3))
        + ((cornerTerm (F := Ideal) tb ix wv p ch 4 + cornerTerm (F := Ideal) tb ix wv p ch 5)
          + (cornerTerm (F := Ideal) tb ix wv p ch 6 + cornerTerm (F := Ideal) tb ix wv p ch 7)) := rfl

/-- The SparseCore call's result at point (b, n), column ch, is the specification's sampled value. -/
theorem skip_apply (ch : Fin 128) :
    skip (F := Ideal) (tblOf conv) (ixOf (idx8V adj x W)) (wvOf (w8V adj x W)) (ix2 (ptOf b n) ch)
      = Spec.skipG x adj conv W b n ch := by
  refine (skip_at _ _ _ _ _).trans ?_
  refine (Spec.sum8_tree (cornerTerm (F := Ideal) (tblOf conv) (ixOf (idx8V adj x W)) (wvOf (w8V adj x W)) (ptOf b n) ch)).trans ?_
  unfold Spec.skipG
  exact Finset.sum_congr rfl fun k _ => cornerTerm_eq x adj conv W b n ch k

/-! ## The two results -/

/-- The second result is the specification's. -/
theorem posV_eq : posV (F := Ideal) adj x W = Spec.out1G x adj W := by
  funext j
  obtain ⟨b, n, a, rfl⟩ : ∃ (b : Fin 8) (n : Fin 2048) (a : Fin 3), j = ix3 b n a := ⟨j 0, j 1, j 2, eq_ix3 j⟩
  exact posV_apply adj x W b n a

/-- The first result is the specification's. -/
theorem out0K_eq : out0K (F := Ideal) x adj conv W = Spec.out0G x adj conv W := by
  funext j
  obtain ⟨b, n, c, rfl⟩ : ∃ (b : Fin 8) (n : Fin 2048) (c : Fin 259), j = ix3 b n c := ⟨j 0, j 1, j 2, eq_ix3 j⟩
  have hc := c.isLt
  show out0K (F := Ideal) x adj conv W (ix3 b n c)
    = (if h : c.val < 128 then x (ix3 b n (⟨c.val, h⟩ : Fin 128))
       else if h' : c.val < 256 then Spec.skipG x adj conv W b n (⟨c.val - 128, by omega⟩ : Fin 128)
       else Spec.posG x adj W b n (⟨c.val - 256, by omega⟩ : Fin 3))
  unfold out0K
  by_cases h1 : c.val < 128
  · rw [dif_pos h1]
    exact concatenate_apply_piece (t := S8x2048x259) 2 _ _ (ix3 b n c) 0 (by show 0 < 3; omega) S8x2048x128 x rfl rfl 0 rfl
      (ix3 b n (⟨c.val, h1⟩ : Fin 128))
      (fun a => match a with | ⟨0, _⟩ => fun _ => rfl | ⟨1, _⟩ => fun _ => rfl | ⟨2, _⟩ => fun hne => absurd rfl hne)
      (by show 0 + c.val = c.val; omega)
  · rw [dif_neg h1]
    by_cases h2 : c.val < 256
    · rw [dif_pos h2]
      refine (concatenate_apply_piece (t := S8x2048x259) 2 _ _ (ix3 b n c) 1 (by show 1 < 3; omega) S8x2048x128 _ rfl rfl 128 rfl
        (ix3 b n (⟨c.val - 128, by omega⟩ : Fin 128))
        (fun a => match a with | ⟨0, _⟩ => fun _ => rfl | ⟨1, _⟩ => fun _ => rfl | ⟨2, _⟩ => fun hne => absurd rfl hne)
        (by show 128 + (c.val - 128) = c.val; omega)).trans ?_
      rw [outOf_apply _ (ptOf b n) _ b n rfl]
      exact skip_apply x adj conv W b n _
    · rw [dif_neg h2]
      refine (concatenate_apply_piece (t := S8x2048x259) 2 _ _ (ix3 b n c) 2 (by show 2 < 3; omega) S8x2048x3 (posV adj x W) rfl rfl 256 rfl
        (ix3 b n (⟨c.val - 256, by omega⟩ : Fin 3))
        (fun a => match a with | ⟨0, _⟩ => fun _ => rfl | ⟨1, _⟩ => fun _ => rfl | ⟨2, _⟩ => fun hne => absurd rfl hne)
        (by show 256 + (c.val - 256) = c.val; omega)).trans ?_
      exact posV_apply adj x W b n _

end AtIdeal

end Cert.Proof.KI.Value

end
-- ==== Proof.Ref.Ops.lean ====
/-
   The reference's @main as its operation lists, one per printed window main_partK (the operations of a call of @clip
   stand in the call's place), their concatenation `ops`, `main = seq ops`, and what `run_seq` asks of the list:
   every operation touches TensorCore buffers only and determines what it writes.
-/
import proofs.«209143_g59700045415095_cont_9to1_m_37_38_alg».proof.Proof.Gen.ReferenceIdeal
import Idealize.ShloMosaic.Lib.StableHlo.Run
import Idealize.ShloMosaic.Lib.Pipeline.Frame

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The 60 operations of window `main_part0` (@main's operations 1 … 60 of 978), in order. -/
abbrev ops_part0 : List (HloOp τ sig (Elt F)) :=
  [ binary main_arg1 main_arg0 main_v0 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    binary main_v0 main_arg3 main_v1 ((fun l r => Host.dotGeneral dot_S8x2048x128_S128x3_S8x2048x3_2_0_01_1_n_n none l r) : (⟨S8x2048x128, .f32⟩ : BufTy).Contents (Elt F) → (⟨S128x3, .f32⟩ : BufTy).Contents (Elt F) → (⟨S8x2048x3, .f32⟩ : BufTy).Contents (Elt F)),
    nullary main_cst (constant S_ .f32 0x40000000#32),
    unary main_cst main_v2 (broadcastInDim S8x2048x3 ![] bcast_S_S8x2048x3 : (⟨S_, .f32⟩ : BufTy).Contents (Elt F) → (⟨S8x2048x3, .f32⟩ : BufTy).Contents (Elt F)),
    binary main_v2 main_v1 main_v3 (mulf : (⟨S8x2048x3, .f32⟩ : BufTy).Contents (Elt F) → (⟨S8x2048x3, .f32⟩ : BufTy).Contents (Elt F) → (⟨S8x2048x3, .f32⟩ : BufTy).Contents (Elt F)),
    nullary main_cst_0 (constant S_ .f32 0x3F800000#32),
    unary main_cst_0 main_v4 (broadcastInDim S8x2048x3 ![] bcast_S_S8x2048x3 : (⟨S_, .f32⟩ : BufTy).Contents (Elt F) → (⟨S8x2048x3, .f32⟩ : BufTy).Contents (Elt F)),
    binary main_v3 main_v4 main_v5 (subf : (⟨S8x2048x3, .f32⟩ : BufTy).Contents (Elt F) → (⟨S8x2048x3, .f32⟩ : BufTy).Contents (Elt F) → (⟨S8x2048x3, .f32⟩ : BufTy).Contents (Elt F)),
    unary main_v5 main_v6 ((extractStridedSlice S8x2048x1 ![0, 0, 0] · slices_S8x2048x3_S8x2048x1_0_0_0) : (⟨S8x2048x3, .f32⟩ : BufTy).Contents (Elt F) → (⟨S8x2048x1, .f32⟩ : BufTy).Contents (Elt F)),
    reshape main_v6 main_v7 rfl shapeCasts_S8x2048x1_S8x2048,
    nullary main_cst_1 (constant S_ .f32 0x3F800000#32),
    unary main_cst_1 main_v8 (broadcastInDim S8x2048 ![] bcast_S_S8x2048 : (⟨S_, .f32⟩ : BufTy).Contents (Elt F) → (⟨S8x2048, .f32⟩ : BufTy).Contents (Elt F)),
    binary main_v7 main_v8 main_v9 (addf : (⟨S8x2048, .f32⟩ : BufTy).Contents (Elt F) → (⟨S8x2048, .f32⟩ : BufTy).Contents (Elt F) → (⟨S8x2048, .f32⟩ : BufTy).Contents (Elt F)),
    nullary main_cst_2 (constant S_ .f32 0x41F80000#32),
    unary main_cst_2 main_v10 (broadcastInDim S8x2048 ![] bcast_S_S8x2048 : (⟨S_, .f32⟩ : BufTy).Contents (Elt F) → (⟨S8x2048, .f32⟩ : BufTy).Contents (Elt F)),
    binary main_v9 main_v10 main_v11 (mulf : (⟨S8x2048, .f32⟩ : BufTy).Contents (Elt F) → (⟨S8x2048, .f32⟩ : BufTy).Contents (Elt F) → (⟨S8x2048, .f32⟩ : BufTy).Contents (Elt F)),
    nullary main_cst_3 (constant S_ .f32 0x40000000#32),
    unary main_cst_3 main_v12 (broadcastInDim S8x2048 ![] bcast_S_S8x2048 : (⟨S_, .f32⟩ : BufTy).Contents (Elt F) → (⟨S8x2048, .f32⟩ : BufTy).Contents (Elt F)),
    binary main_v11 main_v12 main_v13 (Host.divf : (⟨S8x2048, .f32⟩ : BufTy).Contents (Elt F) → (⟨S8x2048, .f32⟩ : BufTy).Contents (Elt F) → (⟨S8x2048, .f32⟩ : BufTy).Contents (Elt F)),
    unary main_v5 main_v14 ((extractStridedSlice S8x2048x1 ![0, 0, 1] · slices_S8x2048x3_S8x2048x1_0_0_1) : (⟨S8x2048x3, .f32⟩ : BufTy).Contents (Elt F) → (⟨S8x2048x1, .f32⟩ : BufTy).Contents (Elt F)),
    reshape main_v14 main_v15 rfl shapeCasts_S8x2048x1_S8x2048,
    nullary main_cst_4 (constant S_ .f32 0x3F800000#32),
    unary main_cst_4 main_v16 (broadcastInDim S8x2048 ![] bcast_S_S8x2048 : (⟨S_, .f32⟩ : BufTy).Contents (Elt F) → (⟨S8x2048, .f32⟩ : BufTy).Contents (Elt F)),
    binary main_v15 main_v16 main_v17 (addf : (⟨S8x2048, .f32⟩ : BufTy).Contents (Elt F) → (⟨S8x2048, .f32⟩ : BufTy).Contents (Elt F) → (⟨S8x2048, .f32⟩ : BufTy).Contents (Elt F)),
    nullary main_cst_5 (constant S_ .f32 0x41F80000#32),
    unary main_cst_5 main_v18 (broadcastInDim S8x2048 ![] bcast_S_S8x2048 : (⟨S_, .f32⟩ : BufTy).Contents (Elt F) → (⟨S8x2048, .f32⟩ : BufTy).Contents (Elt F)),
    binary main_v17 main_v18 main_v19 (mulf : (⟨S8x2048, .f32⟩ : BufTy).Contents (Elt F) → (⟨S8x2048, .f32⟩ : BufTy).Contents (Elt F) → (⟨S8x2048, .f32⟩ : BufTy).Contents (Elt F)),
    nullary main_cst_6 (constant S_ .f32 0x40000000#32),
    unary main_cst_6 main_v20 (broadcastInDim S8x2048 ![] bcast_S_S8x2048 : (⟨S_, .f32⟩ : BufTy).Contents (Elt F) → (⟨S8x2048, .f32⟩ : BufTy).Contents (Elt F)),
    binary main_v19 main_v20 main_v21 (Host.divf : (⟨S8x2048, .f32⟩ : BufTy).Contents (Elt F) → (⟨S8x2048, .f32⟩ : BufTy).Contents (Elt F) → (⟨S8x2048, .f32⟩ : BufTy).Contents (Elt F)),
    unary main_v5 main_v22 ((extractStridedSlice S8x2048x1 ![0, 0, 2] · slices_S8x2048x3_S8x2048x1_0_0_2) : (⟨S8x2048x3, .f32⟩ : BufTy).Contents (Elt F) → (⟨S8x2048x1, .f32⟩ : BufTy).Contents (Elt F)),
    reshape main_v22 main_v23 rfl shapeCasts_S8x2048x1_S8x2048,
    nullary main_cst_7 (constant S_ .f32 0x3F800000#32),
    unary main_cst_7 main_v24 (broadcastInDim S8x2048 ![] bcast_S_S8x2048 : (⟨S_, .f32⟩ : BufTy).Contents (Elt F) → (⟨S8x2048, .f32⟩ : BufTy).Contents (Elt F)),
    binary main_v23 main_v24 main_v25 (addf : (⟨S8x2048, .f32⟩ : BufTy).Contents (Elt F) → (⟨S8x2048, .f32⟩ : BufTy).Contents (Elt F) → (⟨S8x2048, .f32⟩ : BufTy).Contents (Elt F)),
    nullary main_cst_8 (constant S_ .f32 0x41F80000#32),
    unary main_cst_8 main_v26 (broadcastInDim S8x2048 ![] bcast_S_S8x2048 : (⟨S_, .f32⟩ : BufTy).Contents (Elt F) → (⟨S8x2048, .f32⟩ : BufTy).Contents (Elt F)),
    binary main_v25 main_v26 main_v27 (mulf : (⟨S8x2048, .f32⟩ : BufTy).Contents (Elt F) → (⟨S8x2048, .f32⟩ : BufTy).Contents (Elt F) → (⟨S8x2048, .f32⟩ : BufTy).Contents (Elt F)),
    nullary main_cst_9 (constant S_ .f32 0x40000000#32),
    unary main_cst_9 main_v28 (broadcastInDim S8x2048 ![] bcast_S_S8x2048 : (⟨S_, .f32⟩ : BufTy).Contents (Elt F) → (⟨S8x2048, .f32⟩ : BufTy).Contents (Elt F)),
    binary main_v27 main_v28 main_v29 (Host.divf : (⟨S8x2048, .f32⟩ : BufTy).Contents (Elt F) → (⟨S8x2048, .f32⟩ : BufTy).Contents (Elt F) → (⟨S8x2048, .f32⟩ : BufTy).Contents (Elt F)),
    unary main_v13 main_v30 (Host.floor : (⟨S8x2048, .f32⟩ : BufTy).Contents (Elt F) → (⟨S8x2048, .f32⟩ : BufTy).Contents (Elt F)),
    unary main_v21 main_v31 (Host.floor : (⟨S8x2048, .f32⟩ : BufTy).Contents (Elt F) → (⟨S8x2048, .f32⟩ : BufTy).Contents (Elt F)),
    unary main_v29 main_v32 (Host.floor : (⟨S8x2048, .f32⟩ : BufTy).Contents (Elt F) → (⟨S8x2048, .f32⟩ : BufTy).Contents (Elt F)),
    nullary main_v33 (iotaInDim S8 32 0),
    unary main_v33 main_v34 (broadcastInDim S8x1 ![0] bcast_S8_S8x1_0 : (⟨S8, .i32⟩ : BufTy).Contents (Elt F) → (⟨S8x1, .i32⟩ : BufTy).Contents (Elt F)),
    unary main_v34 main_v35 (broadcastInDim S8x2048 ![0, 1] bcast_S8x1_S8x2048_0_1 : (⟨S8x1, .i32⟩ : BufTy).Contents (Elt F) → (⟨S8x2048, .i32⟩ : BufTy).Contents (Elt F)),
    nullary main_cst_10 (constant S_ .f32 0x00000000#32),
    unary main_cst_10 main_v36 (broadcastInDim S8x2048x128 ![] bcast_S_S8x2048x128 : (⟨S_, .f32⟩ : BufTy).Contents (Elt F) → (⟨S8x2048x128, .f32⟩ : BufTy).Contents (Elt F)),
    nullary main_cst_11 (constant S_ .f32 0x00000000#32),
    unary main_cst_11 main_v37 (broadcastInDim S8x2048 ![] bcast_S_S8x2048 : (⟨S_, .f32⟩ : BufTy).Contents (Elt F) → (⟨S8x2048, .f32⟩ : BufTy).Contents (Elt F)),
    binary main_v30 main_v37 main_v38 (addf : (⟨S8x2048, .f32⟩ : BufTy).Contents (Elt F) → (⟨S8x2048, .f32⟩ : BufTy).Contents (Elt F) → (⟨S8x2048, .f32⟩ : BufTy).Contents (Elt F)),
    nullary main_cst_12 (constant S_ .f32 0x00000000#32),
    unary main_cst_12 main_v39 (broadcastInDim S8x2048 ![] bcast_S_S8x2048 : (⟨S_, .f32⟩ : BufTy).Contents (Elt F) → (⟨S8x2048, .f32⟩ : BufTy).Contents (Elt F)),
    binary main_v31 main_v39 main_v40 (addf : (⟨S8x2048, .f32⟩ : BufTy).Contents (Elt F) → (⟨S8x2048, .f32⟩ : BufTy).Contents (Elt F) → (⟨S8x2048, .f32⟩ : BufTy).Contents (Elt F)),
    nullary main_cst_13 (constant S_ .f32 0x00000000#32),
    unary main_cst_13 main_v41 (broadcastInDim S8x2048 ![] bcast_S_S8x2048 : (⟨S_, .f32⟩ : BufTy).Contents (Elt F) → (⟨S8x2048, .f32⟩ : BufTy).Contents (Elt F)),
    binary main_v32 main_v41 main_v42 (addf : (⟨S8x2048, .f32⟩ : BufTy).Contents (Elt F) → (⟨S8x2048, .f32⟩ : BufTy).Contents (Elt F) → (⟨S8x2048, .f32⟩ : BufTy).Contents (Elt F)),
    binary main_v13 main_v38 main_v43 (subf : (⟨S8x2048, .f32⟩ : BufTy).Contents (Elt F) → (⟨S8x2048, .f32⟩ : BufTy).Contents (Elt F) → (⟨S8x2048, .f32⟩ : BufTy).Contents (Elt F)),
    unary main_v43 main_v44 (Host.absf : (⟨S8x2048, .f32⟩ : BufTy).Contents (Elt F) → (⟨S8x2048, .f32⟩ : BufTy).Contents (Elt F)) ]

set_option maxRecDepth 8192 in
set_option maxHeartbeats 4000000 in
theorem main_part0_eq (c : Dev nD) : main_part0 (F := F) c = seq ops_part0 := rfl

set_option maxRecDepth 8192 in
theorem ops_part0_sub : (ops_part0 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub ..⟩

set_option maxRecDepth 8192 in
theorem ops_part0_fresh : ∀ op ∈ (ops_part0 : List (HloOp τ sig (Elt F))), op.fresh = ∅ :=
  List.forall_iff_forall_mem.mp (show (ops_part0 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part1` (@main's operations 61 … 135 of 978), in order. -/
abbrev ops_part1 : List (HloOp τ sig (Elt F)) :=
  [ nullary main_cst_14 (constant S_ .f32 0x3F800000#32),
    unary main_cst_14 main_v45 (broadcastInDim S8x2048 ![] bcast_S_S8x2048 : (⟨S_, .f32⟩ : BufTy).Contents (Elt F) → (⟨S8x2048, .f32⟩ : BufTy).Contents (Elt F)),
    binary main_v45 main_v44 main_v46 (subf : (⟨S8x2048, .f32⟩ : BufTy).Contents (Elt F) → (⟨S8x2048, .f32⟩ : BufTy).Contents (Elt F) → (⟨S8x2048, .f32⟩ : BufTy).Contents (Elt F)),
    binary main_v21 main_v40 main_v47 (subf : (⟨S8x2048, .f32⟩ : BufTy).Contents (Elt F) → (⟨S8x2048, .f32⟩ : BufTy).Contents (Elt F) → (⟨S8x2048, .f32⟩ : BufTy).Contents (Elt F)),
    unary main_v47 main_v48 (Host.absf : (⟨S8x2048, .f32⟩ : BufTy).Contents (Elt F) → (⟨S8x2048, .f32⟩ : BufTy).Contents (Elt F)),
    nullary main_cst_15 (constant S_ .f32 0x3F800000#32),
    unary main_cst_15 main_v49 (broadcastInDim S8x2048 ![] bcast_S_S8x2048 : (⟨S_, .f32⟩ : BufTy).Contents (Elt F) → (⟨S8x2048, .f32⟩ : BufTy).Contents (Elt F)),
    binary main_v49 main_v48 main_v50 (subf : (⟨S8x2048, .f32⟩ : BufTy).Contents (Elt F) → (⟨S8x2048, .f32⟩ : BufTy).Contents (Elt F) → (⟨S8x2048, .f32⟩ : BufTy).Contents (Elt F)),
    binary main_v46 main_v50 main_v51 (mulf : (⟨S8x2048, .f32⟩ : BufTy).Contents (Elt F) → (⟨S8x2048, .f32⟩ : BufTy).Contents (Elt F) → (⟨S8x2048, .f32⟩ : BufTy).Contents (Elt F)),
    binary main_v29 main_v42 main_v52 (subf : (⟨S8x2048, .f32⟩ : BufTy).Contents (Elt F) → (⟨S8x2048, .f32⟩ : BufTy).Contents (Elt F) → (⟨S8x2048, .f32⟩ : BufTy).Contents (Elt F)),
    unary main_v52 main_v53 (Host.absf : (⟨S8x2048, .f32⟩ : BufTy).Contents (Elt F) → (⟨S8x2048, .f32⟩ : BufTy).Contents (Elt F)),
    nullary main_cst_16 (constant S_ .f32 0x3F800000#32),
    unary main_cst_16 main_v54 (broadcastInDim S8x2048 ![] bcast_S_S8x2048 : (⟨S_, .f32⟩ : BufTy).Contents (Elt F) → (⟨S8x2048, .f32⟩ : BufTy).Contents (Elt F)),
    binary main_v54 main_v53 main_v55 (subf : (⟨S8x2048, .f32⟩ : BufTy).Contents (Elt F) → (⟨S8x2048, .f32⟩ : BufTy).Contents (Elt F) → (⟨S8x2048, .f32⟩ : BufTy).Contents (Elt F)),
    binary main_v51 main_v55 main_v56 (mulf : (⟨S8x2048, .f32⟩ : BufTy).Contents (Elt F) → (⟨S8x2048, .f32⟩ : BufTy).Contents (Elt F) → (⟨S8x2048, .f32⟩ : BufTy).Contents (Elt F)),
    nullary main_cst_17 (constant S_ .f32 0x00000000#32),
    unary main_cst_17 main_v57 (broadcastInDim S8x2048 ![] bcast_S_S8x2048 : (⟨S_, .f32⟩ : BufTy).Contents (Elt F) → (⟨S8x2048, .f32⟩ : BufTy).Contents (Elt F)),
    binary main_v38 main_v57 main_v58 (cmpf .oge : (⟨S8x2048, .f32⟩ : BufTy).Contents (Elt F) → (⟨S8x2048, .f32⟩ : BufTy).Contents (Elt F) → (⟨S8x2048, .i1⟩ : BufTy).Contents (Elt F)),
    nullary main_cst_18 (constant S_ .f32 0x41F80000#32),
    unary main_cst_18 main_v59 (broadcastInDim S8x2048 ![] bcast_S_S8x2048 : (⟨S_, .f32⟩ : BufTy).Contents (Elt F) → (⟨S8x2048, .f32⟩ : BufTy).Contents (Elt F)),
    binary main_v38 main_v59 main_v60 (cmpf .ole : (⟨S8x2048, .f32⟩ : BufTy).Contents (Elt F) → (⟨S8x2048, .f32⟩ : BufTy).Contents (Elt F) → (⟨S8x2048, .i1⟩ : BufTy).Contents (Elt F)),
    binary main_v58 main_v60 main_v61 (andi : (⟨S8x2048, .i1⟩ : BufTy).Contents (Elt F) → (⟨S8x2048, .i1⟩ : BufTy).Contents (Elt F) → (⟨S8x2048, .i1⟩ : BufTy).Contents (Elt F)),
    nullary main_cst_19 (constant S_ .f32 0x00000000#32),
    unary main_cst_19 main_v62 (broadcastInDim S8x2048 ![] bcast_S_S8x2048 : (⟨S_, .f32⟩ : BufTy).Contents (Elt F) → (⟨S8x2048, .f32⟩ : BufTy).Contents (Elt F)),
    binary main_v40 main_v62 main_v63 (cmpf .oge : (⟨S8x2048, .f32⟩ : BufTy).Contents (Elt F) → (⟨S8x2048, .f32⟩ : BufTy).Contents (Elt F) → (⟨S8x2048, .i1⟩ : BufTy).Contents (Elt F)),
    binary main_v61 main_v63 main_v64 (andi : (⟨S8x2048, .i1⟩ : BufTy).Contents (Elt F) → (⟨S8x2048, .i1⟩ : BufTy).Contents (Elt F) → (⟨S8x2048, .i1⟩ : BufTy).Contents (Elt F)),
    nullary main_cst_20 (constant S_ .f32 0x41F80000#32),
    unary main_cst_20 main_v65 (broadcastInDim S8x2048 ![] bcast_S_S8x2048 : (⟨S_, .f32⟩ : BufTy).Contents (Elt F) → (⟨S8x2048, .f32⟩ : BufTy).Contents (Elt F)),
    binary main_v40 main_v65 main_v66 (cmpf .ole : (⟨S8x2048, .f32⟩ : BufTy).Contents (Elt F) → (⟨S8x2048, .f32⟩ : BufTy).Contents (Elt F) → (⟨S8x2048, .i1⟩ : BufTy).Contents (Elt F)),
    binary main_v64 main_v66 main_v67 (andi : (⟨S8x2048, .i1⟩ : BufTy).Contents (Elt F) → (⟨S8x2048, .i1⟩ : BufTy).Contents (Elt F) → (⟨S8x2048, .i1⟩ : BufTy).Contents (Elt F)),
    nullary main_cst_21 (constant S_ .f32 0x00000000#32),
    unary main_cst_21 main_v68 (broadcastInDim S8x2048 ![] bcast_S_S8x2048 : (⟨S_, .f32⟩ : BufTy).Contents (Elt F) → (⟨S8x2048, .f32⟩ : BufTy).Contents (Elt F)),
    binary main_v42 main_v68 main_v69 (cmpf .oge : (⟨S8x2048, .f32⟩ : BufTy).Contents (Elt F) → (⟨S8x2048, .f32⟩ : BufTy).Contents (Elt F) → (⟨S8x2048, .i1⟩ : BufTy).Contents (Elt F)),
    binary main_v67 main_v69 main_v70 (andi : (⟨S8x2048, .i1⟩ : BufTy).Contents (Elt F) → (⟨S8x2048, .i1⟩ : BufTy).Contents (Elt F) → (⟨S8x2048, .i1⟩ : BufTy).Contents (Elt F)),
    nullary main_cst_22 (constant S_ .f32 0x41F80000#32),
    unary main_cst_22 main_v71 (broadcastInDim S8x2048 ![] bcast_S_S8x2048 : (⟨S_, .f32⟩ : BufTy).Contents (Elt F) → (⟨S8x2048, .f32⟩ : BufTy).Contents (Elt F)),
    binary main_v42 main_v71 main_v72 (cmpf .ole : (⟨S8x2048, .f32⟩ : BufTy).Contents (Elt F) → (⟨S8x2048, .f32⟩ : BufTy).Contents (Elt F) → (⟨S8x2048, .i1⟩ : BufTy).Contents (Elt F)),
    binary main_v70 main_v72 main_v73 (andi : (⟨S8x2048, .i1⟩ : BufTy).Contents (Elt F) → (⟨S8x2048, .i1⟩ : BufTy).Contents (Elt F) → (⟨S8x2048, .i1⟩ : BufTy).Contents (Elt F)),
    nullary main_c (constantI S_ 32 0#32),
    nullary main_c_23 (constantI S_ 32 31#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S8x2048, .f32⟩) main_call0_v1) (broadcastInDim S8x2048 ![] bcast_S_S8x2048),
    TRef.binary (TRef.of (T := ⟨S8x2048, .f32⟩) main_call0_v1) (TRef.of (T := ⟨S8x2048, .f32⟩) main_v38) (TRef.of (T := ⟨S8x2048, .f32⟩) main_call0_v2) maximumf,
    TRef.unary (TRef.of (T := ⟨S_, .i32⟩) main_c_23) (TRef.of (T := ⟨S_, .f32⟩) main_call0_v3) (sitofp .f32),
    TRef.unary (TRef.of (T := ⟨S_, .f32⟩) main_call0_v3) (TRef.of (T := ⟨S8x2048, .f32⟩) main_call0_v4) (broadcastInDim S8x2048 ![] bcast_S_S8x2048),
    TRef.binary (TRef.of (T := ⟨S8x2048, .f32⟩) main_call0_v4) (TRef.of (T := ⟨S8x2048, .f32⟩) main_call0_v2) (TRef.of (T := ⟨S8x2048, .f32⟩) main_v74) minimumf,
    unary main_v74 main_v75 (fptosi 32 : (⟨S8x2048, .f32⟩ : BufTy).Contents (Elt F) → (⟨S8x2048, .i32⟩ : BufTy).Contents (Elt F)),
    nullary main_c_24 (constantI S_ 32 0#32),
    nullary main_c_25 (constantI S_ 32 31#32),
    TRef.unary (TRef.of (T := ⟨S_, .i32⟩) main_c_24) (TRef.of (T := ⟨S_, .f32⟩) main_call1_v0) (sitofp .f32),
    TRef.unary (TRef.of (T := ⟨S_, .f32⟩) main_call1_v0) (TRef.of (T := ⟨S8x2048, .f32⟩) main_call1_v1) (broadcastInDim S8x2048 ![] bcast_S_S8x2048),
    TRef.binary (TRef.of (T := ⟨S8x2048, .f32⟩) main_call1_v1) (TRef.of (T := ⟨S8x2048, .f32⟩) main_v40) (TRef.of (T := ⟨S8x2048, .f32⟩) main_call1_v2) maximumf,
    TRef.unary (TRef.of (T := ⟨S_, .i32⟩) main_c_25) (TRef.of (T := ⟨S_, .f32⟩) main_call1_v3) (sitofp .f32),
    TRef.unary (TRef.of (T := ⟨S_, .f32⟩) main_call1_v3) (TRef.of (T := ⟨S8x2048, .f32⟩) main_call1_v4) (broadcastInDim S8x2048 ![] bcast_S_S8x2048),
    TRef.binary (TRef.of (T := ⟨S8x2048, .f32⟩) main_call1_v4) (TRef.of (T := ⟨S8x2048, .f32⟩) main_call1_v2) (TRef.of (T := ⟨S8x2048, .f32⟩) main_v76) minimumf,
    unary main_v76 main_v77 (fptosi 32 : (⟨S8x2048, .f32⟩ : BufTy).Contents (Elt F) → (⟨S8x2048, .i32⟩ : BufTy).Contents (Elt F)),
    nullary main_c_26 (constantI S_ 32 0#32),
    nullary main_c_27 (constantI S_ 32 31#32),
    TRef.unary (TRef.of (T := ⟨S_, .i32⟩) main_c_26) (TRef.of (T := ⟨S_, .f32⟩) main_call2_v0) (sitofp .f32),
    TRef.unary (TRef.of (T := ⟨S_, .f32⟩) main_call2_v0) (TRef.of (T := ⟨S8x2048, .f32⟩) main_call2_v1) (broadcastInDim S8x2048 ![] bcast_S_S8x2048),
    TRef.binary (TRef.of (T := ⟨S8x2048, .f32⟩) main_call2_v1) (TRef.of (T := ⟨S8x2048, .f32⟩) main_v42) (TRef.of (T := ⟨S8x2048, .f32⟩) main_call2_v2) maximumf,
    TRef.unary (TRef.of (T := ⟨S_, .i32⟩) main_c_27) (TRef.of (T := ⟨S_, .f32⟩) main_call2_v3) (sitofp .f32),
    TRef.unary (TRef.of (T := ⟨S_, .f32⟩) main_call2_v3) (TRef.of (T := ⟨S8x2048, .f32⟩) main_call2_v4) (broadcastInDim S8x2048 ![] bcast_S_S8x2048),
    TRef.binary (TRef.of (T := ⟨S8x2048, .f32⟩) main_call2_v4) (TRef.of (T := ⟨S8x2048, .f32⟩) main_call2_v2) (TRef.of (T := ⟨S8x2048, .f32⟩) main_v78) minimumf,
    unary main_v78 main_v79 (fptosi 32 : (⟨S8x2048, .f32⟩ : BufTy).Contents (Elt F) → (⟨S8x2048, .i32⟩ : BufTy).Contents (Elt F)),
    nullary main_c_28 (constantI S_ 32 0#32),
    unary main_c_28 main_v80 (broadcastInDim S8x2048 ![] bcast_S_S8x2048 : (⟨S_, .i32⟩ : BufTy).Contents (Elt F) → (⟨S8x2048, .i32⟩ : BufTy).Contents (Elt F)),
    binary main_v35 main_v80 main_v81 (cmpi .slt : (⟨S8x2048, .i32⟩ : BufTy).Contents (Elt F) → (⟨S8x2048, .i32⟩ : BufTy).Contents (Elt F) → (⟨S8x2048, .i1⟩ : BufTy).Contents (Elt F)),
    nullary main_c_29 (constantI S_ 32 8#32),
    unary main_c_29 main_v82 (broadcastInDim S8x2048 ![] bcast_S_S8x2048 : (⟨S_, .i32⟩ : BufTy).Contents (Elt F) → (⟨S8x2048, .i32⟩ : BufTy).Contents (Elt F)),
    binary main_v35 main_v82 main_v83 (addi : (⟨S8x2048, .i32⟩ : BufTy).Contents (Elt F) → (⟨S8x2048, .i32⟩ : BufTy).Contents (Elt F) → (⟨S8x2048, .i32⟩ : BufTy).Contents (Elt F)),
    ternary main_v81 main_v83 main_v35 main_v84 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_30 (constantI S_ 32 0#32),
    unary main_c_30 main_v85 (broadcastInDim S8x2048 ![] bcast_S_S8x2048 : (⟨S_, .i32⟩ : BufTy).Contents (Elt F) → (⟨S8x2048, .i32⟩ : BufTy).Contents (Elt F)),
    binary main_v79 main_v85 main_v86 (cmpi .slt : (⟨S8x2048, .i32⟩ : BufTy).Contents (Elt F) → (⟨S8x2048, .i32⟩ : BufTy).Contents (Elt F) → (⟨S8x2048, .i1⟩ : BufTy).Contents (Elt F)) ]

set_option maxRecDepth 8192 in
set_option maxHeartbeats 4000000 in
theorem main_part1_eq (c : Dev nD) : main_part1 (F := F) c = seq ops_part1 := rfl

set_option maxRecDepth 8192 in
theorem ops_part1_sub : (ops_part1 : List (HloOp τ sig (Elt F))).Forall fun op => op.bufs ⊆ tcRefs τ sig :=
  ⟨nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxRecDepth 8192 in
theorem ops_part1_fresh : ∀ op ∈ (ops_part1 : List (HloOp τ sig (Elt F))), op.fresh = ∅ :=
  List.forall_iff_forall_mem.mp (show (ops_part1 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 60 operations of window `main_part2` (@main's operations 136 … 195 of 978), in order. -/
abbrev ops_part2 : List (HloOp τ sig (Elt F)) :=
  [ nullary main_c_31 (constantI S_ 32 32#32),
    unary main_c_31 main_v87 (broadcastInDim S8x2048 ![] bcast_S_S8x2048 : (⟨S_, .i32⟩ : BufTy).Contents (Elt F) → (⟨S8x2048, .i32⟩ : BufTy).Contents (Elt F)),
    binary main_v79 main_v87 main_v88 (addi : (⟨S8x2048, .i32⟩ : BufTy).Contents (Elt F) → (⟨S8x2048, .i32⟩ : BufTy).Contents (Elt F) → (⟨S8x2048, .i32⟩ : BufTy).Contents (Elt F)),
    ternary main_v86 main_v88 main_v79 main_v89 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_32 (constantI S_ 32 0#32),
    unary main_c_32 main_v90 (broadcastInDim S8x2048 ![] bcast_S_S8x2048 : (⟨S_, .i32⟩ : BufTy).Contents (Elt F) → (⟨S8x2048, .i32⟩ : BufTy).Contents (Elt F)),
    binary main_v77 main_v90 main_v91 (cmpi .slt : (⟨S8x2048, .i32⟩ : BufTy).Contents (Elt F) → (⟨S8x2048, .i32⟩ : BufTy).Contents (Elt F) → (⟨S8x2048, .i1⟩ : BufTy).Contents (Elt F)),
    nullary main_c_33 (constantI S_ 32 32#32),
    unary main_c_33 main_v92 (broadcastInDim S8x2048 ![] bcast_S_S8x2048 : (⟨S_, .i32⟩ : BufTy).Contents (Elt F) → (⟨S8x2048, .i32⟩ : BufTy).Contents (Elt F)),
    binary main_v77 main_v92 main_v93 (addi : (⟨S8x2048, .i32⟩ : BufTy).Contents (Elt F) → (⟨S8x2048, .i32⟩ : BufTy).Contents (Elt F) → (⟨S8x2048, .i32⟩ : BufTy).Contents (Elt F)),
    ternary main_v91 main_v93 main_v77 main_v94 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_34 (constantI S_ 32 0#32),
    unary main_c_34 main_v95 (broadcastInDim S8x2048 ![] bcast_S_S8x2048 : (⟨S_, .i32⟩ : BufTy).Contents (Elt F) → (⟨S8x2048, .i32⟩ : BufTy).Contents (Elt F)),
    binary main_v75 main_v95 main_v96 (cmpi .slt : (⟨S8x2048, .i32⟩ : BufTy).Contents (Elt F) → (⟨S8x2048, .i32⟩ : BufTy).Contents (Elt F) → (⟨S8x2048, .i1⟩ : BufTy).Contents (Elt F)),
    nullary main_c_35 (constantI S_ 32 32#32),
    unary main_c_35 main_v97 (broadcastInDim S8x2048 ![] bcast_S_S8x2048 : (⟨S_, .i32⟩ : BufTy).Contents (Elt F) → (⟨S8x2048, .i32⟩ : BufTy).Contents (Elt F)),
    binary main_v75 main_v97 main_v98 (addi : (⟨S8x2048, .i32⟩ : BufTy).Contents (Elt F) → (⟨S8x2048, .i32⟩ : BufTy).Contents (Elt F) → (⟨S8x2048, .i32⟩ : BufTy).Contents (Elt F)),
    ternary main_v96 main_v98 main_v75 main_v99 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v84 main_v100 (broadcastInDim S8x2048x1 ![0, 1] bcast_S8x2048_S8x2048x1_0_1 : (⟨S8x2048, .i32⟩ : BufTy).Contents (Elt F) → (⟨S8x2048x1, .i32⟩ : BufTy).Contents (Elt F)),
    unary main_v89 main_v101 (broadcastInDim S8x2048x1 ![0, 1] bcast_S8x2048_S8x2048x1_0_1 : (⟨S8x2048, .i32⟩ : BufTy).Contents (Elt F) → (⟨S8x2048x1, .i32⟩ : BufTy).Contents (Elt F)),
    unary main_v94 main_v102 (broadcastInDim S8x2048x1 ![0, 1] bcast_S8x2048_S8x2048x1_0_1 : (⟨S8x2048, .i32⟩ : BufTy).Contents (Elt F) → (⟨S8x2048x1, .i32⟩ : BufTy).Contents (Elt F)),
    unary main_v99 main_v103 (broadcastInDim S8x2048x1 ![0, 1] bcast_S8x2048_S8x2048x1_0_1 : (⟨S8x2048, .i32⟩ : BufTy).Contents (Elt F) → (⟨S8x2048x1, .i32⟩ : BufTy).Contents (Elt F)),
    nary ![main_v100, main_v101, main_v102, main_v103] main_v104 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v104 main_v105 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v73 main_v106 (uitofp .f32 : (⟨S8x2048, .i1⟩ : BufTy).Contents (Elt F) → (⟨S8x2048, .f32⟩ : BufTy).Contents (Elt F)),
    binary main_v56 main_v106 main_v107 (mulf : (⟨S8x2048, .f32⟩ : BufTy).Contents (Elt F) → (⟨S8x2048, .f32⟩ : BufTy).Contents (Elt F) → (⟨S8x2048, .f32⟩ : BufTy).Contents (Elt F)),
    unary main_v107 main_v108 (broadcastInDim S8x2048x1 ![0, 1] bcast_S8x2048_S8x2048x1_0_1 : (⟨S8x2048, .f32⟩ : BufTy).Contents (Elt F) → (⟨S8x2048x1, .f32⟩ : BufTy).Contents (Elt F)),
    unary main_v108 main_v109 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v105 main_v109 main_v110 (mulf : (⟨S8x2048x128, .f32⟩ : BufTy).Contents (Elt F) → (⟨S8x2048x128, .f32⟩ : BufTy).Contents (Elt F) → (⟨S8x2048x128, .f32⟩ : BufTy).Contents (Elt F)),
    binary main_v36 main_v110 main_v111 (addf : (⟨S8x2048x128, .f32⟩ : BufTy).Contents (Elt F) → (⟨S8x2048x128, .f32⟩ : BufTy).Contents (Elt F) → (⟨S8x2048x128, .f32⟩ : BufTy).Contents (Elt F)),
    nullary main_cst_36 (constant S_ .f32 0x3F800000#32),
    unary main_cst_36 main_v112 (broadcastInDim S8x2048 ![] bcast_S_S8x2048 : (⟨S_, .f32⟩ : BufTy).Contents (Elt F) → (⟨S8x2048, .f32⟩ : BufTy).Contents (Elt F)),
    binary main_v30 main_v112 main_v113 (addf : (⟨S8x2048, .f32⟩ : BufTy).Contents (Elt F) → (⟨S8x2048, .f32⟩ : BufTy).Contents (Elt F) → (⟨S8x2048, .f32⟩ : BufTy).Contents (Elt F)),
    nullary main_cst_37 (constant S_ .f32 0x00000000#32),
    unary main_cst_37 main_v114 (broadcastInDim S8x2048 ![] bcast_S_S8x2048 : (⟨S_, .f32⟩ : BufTy).Contents (Elt F) → (⟨S8x2048, .f32⟩ : BufTy).Contents (Elt F)),
    binary main_v31 main_v114 main_v115 (addf : (⟨S8x2048, .f32⟩ : BufTy).Contents (Elt F) → (⟨S8x2048, .f32⟩ : BufTy).Contents (Elt F) → (⟨S8x2048, .f32⟩ : BufTy).Contents (Elt F)),
    nullary main_cst_38 (constant S_ .f32 0x00000000#32),
    unary main_cst_38 main_v116 (broadcastInDim S8x2048 ![] bcast_S_S8x2048 : (⟨S_, .f32⟩ : BufTy).Contents (Elt F) → (⟨S8x2048, .f32⟩ : BufTy).Contents (Elt F)),
    binary main_v32 main_v116 main_v117 (addf : (⟨S8x2048, .f32⟩ : BufTy).Contents (Elt F) → (⟨S8x2048, .f32⟩ : BufTy).Contents (Elt F) → (⟨S8x2048, .f32⟩ : BufTy).Contents (Elt F)),
    binary main_v13 main_v113 main_v118 (subf : (⟨S8x2048, .f32⟩ : BufTy).Contents (Elt F) → (⟨S8x2048, .f32⟩ : BufTy).Contents (Elt F) → (⟨S8x2048, .f32⟩ : BufTy).Contents (Elt F)),
    unary main_v118 main_v119 (Host.absf : (⟨S8x2048, .f32⟩ : BufTy).Contents (Elt F) → (⟨S8x2048, .f32⟩ : BufTy).Contents (Elt F)),
    nullary main_cst_39 (constant S_ .f32 0x3F800000#32),
    unary main_cst_39 main_v120 (broadcastInDim S8x2048 ![] bcast_S_S8x2048 : (⟨S_, .f32⟩ : BufTy).Contents (Elt F) → (⟨S8x2048, .f32⟩ : BufTy).Contents (Elt F)),
    binary main_v120 main_v119 main_v121 (subf : (⟨S8x2048, .f32⟩ : BufTy).Contents (Elt F) → (⟨S8x2048, .f32⟩ : BufTy).Contents (Elt F) → (⟨S8x2048, .f32⟩ : BufTy).Contents (Elt F)),
    binary main_v21 main_v115 main_v122 (subf : (⟨S8x2048, .f32⟩ : BufTy).Contents (Elt F) → (⟨S8x2048, .f32⟩ : BufTy).Contents (Elt F) → (⟨S8x2048, .f32⟩ : BufTy).Contents (Elt F)),
    unary main_v122 main_v123 (Host.absf : (⟨S8x2048, .f32⟩ : BufTy).Contents (Elt F) → (⟨S8x2048, .f32⟩ : BufTy).Contents (Elt F)),
    nullary main_cst_40 (constant S_ .f32 0x3F800000#32),
    unary main_cst_40 main_v124 (broadcastInDim S8x2048 ![] bcast_S_S8x2048 : (⟨S_, .f32⟩ : BufTy).Contents (Elt F) → (⟨S8x2048, .f32⟩ : BufTy).Contents (Elt F)),
    binary main_v124 main_v123 main_v125 (subf : (⟨S8x2048, .f32⟩ : BufTy).Contents (Elt F) → (⟨S8x2048, .f32⟩ : BufTy).Contents (Elt F) → (⟨S8x2048, .f32⟩ : BufTy).Contents (Elt F)),
    binary main_v121 main_v125 main_v126 (mulf : (⟨S8x2048, .f32⟩ : BufTy).Contents (Elt F) → (⟨S8x2048, .f32⟩ : BufTy).Contents (Elt F) → (⟨S8x2048, .f32⟩ : BufTy).Contents (Elt F)),
    binary main_v29 main_v117 main_v127 (subf : (⟨S8x2048, .f32⟩ : BufTy).Contents (Elt F) → (⟨S8x2048, .f32⟩ : BufTy).Contents (Elt F) → (⟨S8x2048, .f32⟩ : BufTy).Contents (Elt F)),
    unary main_v127 main_v128 (Host.absf : (⟨S8x2048, .f32⟩ : BufTy).Contents (Elt F) → (⟨S8x2048, .f32⟩ : BufTy).Contents (Elt F)),
    nullary main_cst_41 (constant S_ .f32 0x3F800000#32),
    unary main_cst_41 main_v129 (broadcastInDim S8x2048 ![] bcast_S_S8x2048 : (⟨S_, .f32⟩ : BufTy).Contents (Elt F) → (⟨S8x2048, .f32⟩ : BufTy).Contents (Elt F)),
    binary main_v129 main_v128 main_v130 (subf : (⟨S8x2048, .f32⟩ : BufTy).Contents (Elt F) → (⟨S8x2048, .f32⟩ : BufTy).Contents (Elt F) → (⟨S8x2048, .f32⟩ : BufTy).Contents (Elt F)),
    binary main_v126 main_v130 main_v131 (mulf : (⟨S8x2048, .f32⟩ : BufTy).Contents (Elt F) → (⟨S8x2048, .f32⟩ : BufTy).Contents (Elt F) → (⟨S8x2048, .f32⟩ : BufTy).Contents (Elt F)),
    nullary main_cst_42 (constant S_ .f32 0x00000000#32),
    unary main_cst_42 main_v132 (broadcastInDim S8x2048 ![] bcast_S_S8x2048 : (⟨S_, .f32⟩ : BufTy).Contents (Elt F) → (⟨S8x2048, .f32⟩ : BufTy).Contents (Elt F)),
    binary main_v113 main_v132 main_v133 (cmpf .oge : (⟨S8x2048, .f32⟩ : BufTy).Contents (Elt F) → (⟨S8x2048, .f32⟩ : BufTy).Contents (Elt F) → (⟨S8x2048, .i1⟩ : BufTy).Contents (Elt F)),
    nullary main_cst_43 (constant S_ .f32 0x41F80000#32) ]

set_option maxRecDepth 8192 in
set_option maxHeartbeats 4000000 in
theorem main_part2_eq (c : Dev nD) : main_part2 (F := F) c = seq ops_part2 := rfl

set_option maxRecDepth 8192 in
theorem ops_part2_sub : (ops_part2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub ..⟩

set_option maxRecDepth 8192 in
theorem ops_part2_fresh : ∀ op ∈ (ops_part2 : List (HloOp τ sig (Elt F))), op.fresh = ∅ :=
  List.forall_iff_forall_mem.mp (show (ops_part2 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part3` (@main's operations 196 … 270 of 978), in order. -/
abbrev ops_part3 : List (HloOp τ sig (Elt F)) :=
  [ unary main_cst_43 main_v134 (broadcastInDim S8x2048 ![] bcast_S_S8x2048 : (⟨S_, .f32⟩ : BufTy).Contents (Elt F) → (⟨S8x2048, .f32⟩ : BufTy).Contents (Elt F)),
    binary main_v113 main_v134 main_v135 (cmpf .ole : (⟨S8x2048, .f32⟩ : BufTy).Contents (Elt F) → (⟨S8x2048, .f32⟩ : BufTy).Contents (Elt F) → (⟨S8x2048, .i1⟩ : BufTy).Contents (Elt F)),
    binary main_v133 main_v135 main_v136 (andi : (⟨S8x2048, .i1⟩ : BufTy).Contents (Elt F) → (⟨S8x2048, .i1⟩ : BufTy).Contents (Elt F) → (⟨S8x2048, .i1⟩ : BufTy).Contents (Elt F)),
    nullary main_cst_44 (constant S_ .f32 0x00000000#32),
    unary main_cst_44 main_v137 (broadcastInDim S8x2048 ![] bcast_S_S8x2048 : (⟨S_, .f32⟩ : BufTy).Contents (Elt F) → (⟨S8x2048, .f32⟩ : BufTy).Contents (Elt F)),
    binary main_v115 main_v137 main_v138 (cmpf .oge : (⟨S8x2048, .f32⟩ : BufTy).Contents (Elt F) → (⟨S8x2048, .f32⟩ : BufTy).Contents (Elt F) → (⟨S8x2048, .i1⟩ : BufTy).Contents (Elt F)),
    binary main_v136 main_v138 main_v139 (andi : (⟨S8x2048, .i1⟩ : BufTy).Contents (Elt F) → (⟨S8x2048, .i1⟩ : BufTy).Contents (Elt F) → (⟨S8x2048, .i1⟩ : BufTy).Contents (Elt F)),
    nullary main_cst_45 (constant S_ .f32 0x41F80000#32),
    unary main_cst_45 main_v140 (broadcastInDim S8x2048 ![] bcast_S_S8x2048 : (⟨S_, .f32⟩ : BufTy).Contents (Elt F) → (⟨S8x2048, .f32⟩ : BufTy).Contents (Elt F)),
    binary main_v115 main_v140 main_v141 (cmpf .ole : (⟨S8x2048, .f32⟩ : BufTy).Contents (Elt F) → (⟨S8x2048, .f32⟩ : BufTy).Contents (Elt F) → (⟨S8x2048, .i1⟩ : BufTy).Contents (Elt F)),
    binary main_v139 main_v141 main_v142 (andi : (⟨S8x2048, .i1⟩ : BufTy).Contents (Elt F) → (⟨S8x2048, .i1⟩ : BufTy).Contents (Elt F) → (⟨S8x2048, .i1⟩ : BufTy).Contents (Elt F)),
    nullary main_cst_46 (constant S_ .f32 0x00000000#32),
    unary main_cst_46 main_v143 (broadcastInDim S8x2048 ![] bcast_S_S8x2048 : (⟨S_, .f32⟩ : BufTy).Contents (Elt F) → (⟨S8x2048, .f32⟩ : BufTy).Contents (Elt F)),
    binary main_v117 main_v143 main_v144 (cmpf .oge : (⟨S8x2048, .f32⟩ : BufTy).Contents (Elt F) → (⟨S8x2048, .f32⟩ : BufTy).Contents (Elt F) → (⟨S8x2048, .i1⟩ : BufTy).Contents (Elt F)),
    binary main_v142 main_v144 main_v145 (andi : (⟨S8x2048, .i1⟩ : BufTy).Contents (Elt F) → (⟨S8x2048, .i1⟩ : BufTy).Contents (Elt F) → (⟨S8x2048, .i1⟩ : BufTy).Contents (Elt F)),
    nullary main_cst_47 (constant S_ .f32 0x41F80000#32),
    unary main_cst_47 main_v146 (broadcastInDim S8x2048 ![] bcast_S_S8x2048 : (⟨S_, .f32⟩ : BufTy).Contents (Elt F) → (⟨S8x2048, .f32⟩ : BufTy).Contents (Elt F)),
    binary main_v117 main_v146 main_v147 (cmpf .ole : (⟨S8x2048, .f32⟩ : BufTy).Contents (Elt F) → (⟨S8x2048, .f32⟩ : BufTy).Contents (Elt F) → (⟨S8x2048, .i1⟩ : BufTy).Contents (Elt F)),
    binary main_v145 main_v147 main_v148 (andi : (⟨S8x2048, .i1⟩ : BufTy).Contents (Elt F) → (⟨S8x2048, .i1⟩ : BufTy).Contents (Elt F) → (⟨S8x2048, .i1⟩ : BufTy).Contents (Elt F)),
    nullary main_c_48 (constantI S_ 32 0#32),
    nullary main_c_49 (constantI S_ 32 31#32),
    TRef.unary (TRef.of (T := ⟨S_, .i32⟩) main_c_48) (TRef.of (T := ⟨S_, .f32⟩) main_call3_v0) (sitofp .f32),
    TRef.unary (TRef.of (T := ⟨S_, .f32⟩) main_call3_v0) (TRef.of (T := ⟨S8x2048, .f32⟩) main_call3_v1) (broadcastInDim S8x2048 ![] bcast_S_S8x2048),
    TRef.binary (TRef.of (T := ⟨S8x2048, .f32⟩) main_call3_v1) (TRef.of (T := ⟨S8x2048, .f32⟩) main_v113) (TRef.of (T := ⟨S8x2048, .f32⟩) main_call3_v2) maximumf,
    TRef.unary (TRef.of (T := ⟨S_, .i32⟩) main_c_49) (TRef.of (T := ⟨S_, .f32⟩) main_call3_v3) (sitofp .f32),
    TRef.unary (TRef.of (T := ⟨S_, .f32⟩) main_call3_v3) (TRef.of (T := ⟨S8x2048, .f32⟩) main_call3_v4) (broadcastInDim S8x2048 ![] bcast_S_S8x2048),
    TRef.binary (TRef.of (T := ⟨S8x2048, .f32⟩) main_call3_v4) (TRef.of (T := ⟨S8x2048, .f32⟩) main_call3_v2) (TRef.of (T := ⟨S8x2048, .f32⟩) main_v149) minimumf,
    unary main_v149 main_v150 (fptosi 32 : (⟨S8x2048, .f32⟩ : BufTy).Contents (Elt F) → (⟨S8x2048, .i32⟩ : BufTy).Contents (Elt F)),
    nullary main_c_50 (constantI S_ 32 0#32),
    nullary main_c_51 (constantI S_ 32 31#32),
    TRef.unary (TRef.of (T := ⟨S_, .i32⟩) main_c_50) (TRef.of (T := ⟨S_, .f32⟩) main_call4_v0) (sitofp .f32),
    TRef.unary (TRef.of (T := ⟨S_, .f32⟩) main_call4_v0) (TRef.of (T := ⟨S8x2048, .f32⟩) main_call4_v1) (broadcastInDim S8x2048 ![] bcast_S_S8x2048),
    TRef.binary (TRef.of (T := ⟨S8x2048, .f32⟩) main_call4_v1) (TRef.of (T := ⟨S8x2048, .f32⟩) main_v115) (TRef.of (T := ⟨S8x2048, .f32⟩) main_call4_v2) maximumf,
    TRef.unary (TRef.of (T := ⟨S_, .i32⟩) main_c_51) (TRef.of (T := ⟨S_, .f32⟩) main_call4_v3) (sitofp .f32),
    TRef.unary (TRef.of (T := ⟨S_, .f32⟩) main_call4_v3) (TRef.of (T := ⟨S8x2048, .f32⟩) main_call4_v4) (broadcastInDim S8x2048 ![] bcast_S_S8x2048),
    TRef.binary (TRef.of (T := ⟨S8x2048, .f32⟩) main_call4_v4) (TRef.of (T := ⟨S8x2048, .f32⟩) main_call4_v2) (TRef.of (T := ⟨S8x2048, .f32⟩) main_v151) minimumf,
    unary main_v151 main_v152 (fptosi 32 : (⟨S8x2048, .f32⟩ : BufTy).Contents (Elt F) → (⟨S8x2048, .i32⟩ : BufTy).Contents (Elt F)),
    nullary main_c_52 (constantI S_ 32 0#32),
    nullary main_c_53 (constantI S_ 32 31#32),
    TRef.unary (TRef.of (T := ⟨S_, .i32⟩) main_c_52) (TRef.of (T := ⟨S_, .f32⟩) main_call5_v0) (sitofp .f32),
    TRef.unary (TRef.of (T := ⟨S_, .f32⟩) main_call5_v0) (TRef.of (T := ⟨S8x2048, .f32⟩) main_call5_v1) (broadcastInDim S8x2048 ![] bcast_S_S8x2048),
    TRef.binary (TRef.of (T := ⟨S8x2048, .f32⟩) main_call5_v1) (TRef.of (T := ⟨S8x2048, .f32⟩) main_v117) (TRef.of (T := ⟨S8x2048, .f32⟩) main_call5_v2) maximumf,
    TRef.unary (TRef.of (T := ⟨S_, .i32⟩) main_c_53) (TRef.of (T := ⟨S_, .f32⟩) main_call5_v3) (sitofp .f32),
    TRef.unary (TRef.of (T := ⟨S_, .f32⟩) main_call5_v3) (TRef.of (T := ⟨S8x2048, .f32⟩) main_call5_v4) (broadcastInDim S8x2048 ![] bcast_S_S8x2048),
    TRef.binary (TRef.of (T := ⟨S8x2048, .f32⟩) main_call5_v4) (TRef.of (T := ⟨S8x2048, .f32⟩) main_call5_v2) (TRef.of (T := ⟨S8x2048, .f32⟩) main_v153) minimumf,
    unary main_v153 main_v154 (fptosi 32 : (⟨S8x2048, .f32⟩ : BufTy).Contents (Elt F) → (⟨S8x2048, .i32⟩ : BufTy).Contents (Elt F)),
    nullary main_c_54 (constantI S_ 32 0#32),
    unary main_c_54 main_v155 (broadcastInDim S8x2048 ![] bcast_S_S8x2048 : (⟨S_, .i32⟩ : BufTy).Contents (Elt F) → (⟨S8x2048, .i32⟩ : BufTy).Contents (Elt F)),
    binary main_v35 main_v155 main_v156 (cmpi .slt : (⟨S8x2048, .i32⟩ : BufTy).Contents (Elt F) → (⟨S8x2048, .i32⟩ : BufTy).Contents (Elt F) → (⟨S8x2048, .i1⟩ : BufTy).Contents (Elt F)),
    nullary main_c_55 (constantI S_ 32 8#32),
    unary main_c_55 main_v157 (broadcastInDim S8x2048 ![] bcast_S_S8x2048 : (⟨S_, .i32⟩ : BufTy).Contents (Elt F) → (⟨S8x2048, .i32⟩ : BufTy).Contents (Elt F)),
    binary main_v35 main_v157 main_v158 (addi : (⟨S8x2048, .i32⟩ : BufTy).Contents (Elt F) → (⟨S8x2048, .i32⟩ : BufTy).Contents (Elt F) → (⟨S8x2048, .i32⟩ : BufTy).Contents (Elt F)),
    ternary main_v156 main_v158 main_v35 main_v159 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_56 (constantI S_ 32 0#32),
    unary main_c_56 main_v160 (broadcastInDim S8x2048 ![] bcast_S_S8x2048 : (⟨S_, .i32⟩ : BufTy).Contents (Elt F) → (⟨S8x2048, .i32⟩ : BufTy).Contents (Elt F)),
    binary main_v154 main_v160 main_v161 (cmpi .slt : (⟨S8x2048, .i32⟩ : BufTy).Contents (Elt F) → (⟨S8x2048, .i32⟩ : BufTy).Contents (Elt F) → (⟨S8x2048, .i1⟩ : BufTy).Contents (Elt F)),
    nullary main_c_57 (constantI S_ 32 32#32),
    unary main_c_57 main_v162 (broadcastInDim S8x2048 ![] bcast_S_S8x2048 : (⟨S_, .i32⟩ : BufTy).Contents (Elt F) → (⟨S8x2048, .i32⟩ : BufTy).Contents (Elt F)),
    binary main_v154 main_v162 main_v163 (addi : (⟨S8x2048, .i32⟩ : BufTy).Contents (Elt F) → (⟨S8x2048, .i32⟩ : BufTy).Contents (Elt F) → (⟨S8x2048, .i32⟩ : BufTy).Contents (Elt F)),
    ternary main_v161 main_v163 main_v154 main_v164 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_58 (constantI S_ 32 0#32),
    unary main_c_58 main_v165 (broadcastInDim S8x2048 ![] bcast_S_S8x2048 : (⟨S_, .i32⟩ : BufTy).Contents (Elt F) → (⟨S8x2048, .i32⟩ : BufTy).Contents (Elt F)),
    binary main_v152 main_v165 main_v166 (cmpi .slt : (⟨S8x2048, .i32⟩ : BufTy).Contents (Elt F) → (⟨S8x2048, .i32⟩ : BufTy).Contents (Elt F) → (⟨S8x2048, .i1⟩ : BufTy).Contents (Elt F)),
    nullary main_c_59 (constantI S_ 32 32#32),
    unary main_c_59 main_v167 (broadcastInDim S8x2048 ![] bcast_S_S8x2048 : (⟨S_, .i32⟩ : BufTy).Contents (Elt F) → (⟨S8x2048, .i32⟩ : BufTy).Contents (Elt F)),
    binary main_v152 main_v167 main_v168 (addi : (⟨S8x2048, .i32⟩ : BufTy).Contents (Elt F) → (⟨S8x2048, .i32⟩ : BufTy).Contents (Elt F) → (⟨S8x2048, .i32⟩ : BufTy).Contents (Elt F)),
    ternary main_v166 main_v168 main_v152 main_v169 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_60 (constantI S_ 32 0#32),
    unary main_c_60 main_v170 (broadcastInDim S8x2048 ![] bcast_S_S8x2048 : (⟨S_, .i32⟩ : BufTy).Contents (Elt F) → (⟨S8x2048, .i32⟩ : BufTy).Contents (Elt F)),
    binary main_v150 main_v170 main_v171 (cmpi .slt : (⟨S8x2048, .i32⟩ : BufTy).Contents (Elt F) → (⟨S8x2048, .i32⟩ : BufTy).Contents (Elt F) → (⟨S8x2048, .i1⟩ : BufTy).Contents (Elt F)),
    nullary main_c_61 (constantI S_ 32 32#32),
    unary main_c_61 main_v172 (broadcastInDim S8x2048 ![] bcast_S_S8x2048 : (⟨S_, .i32⟩ : BufTy).Contents (Elt F) → (⟨S8x2048, .i32⟩ : BufTy).Contents (Elt F)),
    binary main_v150 main_v172 main_v173 (addi : (⟨S8x2048, .i32⟩ : BufTy).Contents (Elt F) → (⟨S8x2048, .i32⟩ : BufTy).Contents (Elt F) → (⟨S8x2048, .i32⟩ : BufTy).Contents (Elt F)),
    ternary main_v171 main_v173 main_v150 main_v174 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v159 main_v175 (broadcastInDim S8x2048x1 ![0, 1] bcast_S8x2048_S8x2048x1_0_1 : (⟨S8x2048, .i32⟩ : BufTy).Contents (Elt F) → (⟨S8x2048x1, .i32⟩ : BufTy).Contents (Elt F)) ]

set_option maxRecDepth 8192 in
set_option maxHeartbeats 4000000 in
theorem main_part3_eq (c : Dev nD) : main_part3 (F := F) c = seq ops_part3 := rfl

set_option maxRecDepth 8192 in
theorem ops_part3_sub : (ops_part3 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops_part3_fresh : ∀ op ∈ (ops_part3 : List (HloOp τ sig (Elt F))), op.fresh = ∅ :=
  List.forall_iff_forall_mem.mp (show (ops_part3 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 60 operations of window `main_part4` (@main's operations 271 … 330 of 978), in order. -/
abbrev ops_part4 : List (HloOp τ sig (Elt F)) :=
  [ unary main_v164 main_v176 (broadcastInDim S8x2048x1 ![0, 1] bcast_S8x2048_S8x2048x1_0_1 : (⟨S8x2048, .i32⟩ : BufTy).Contents (Elt F) → (⟨S8x2048x1, .i32⟩ : BufTy).Contents (Elt F)),
    unary main_v169 main_v177 (broadcastInDim S8x2048x1 ![0, 1] bcast_S8x2048_S8x2048x1_0_1 : (⟨S8x2048, .i32⟩ : BufTy).Contents (Elt F) → (⟨S8x2048x1, .i32⟩ : BufTy).Contents (Elt F)),
    unary main_v174 main_v178 (broadcastInDim S8x2048x1 ![0, 1] bcast_S8x2048_S8x2048x1_0_1 : (⟨S8x2048, .i32⟩ : BufTy).Contents (Elt F) → (⟨S8x2048x1, .i32⟩ : BufTy).Contents (Elt F)),
    nary ![main_v175, main_v176, main_v177, main_v178] main_v179 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v179 main_v180 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v148 main_v181 (uitofp .f32 : (⟨S8x2048, .i1⟩ : BufTy).Contents (Elt F) → (⟨S8x2048, .f32⟩ : BufTy).Contents (Elt F)),
    binary main_v131 main_v181 main_v182 (mulf : (⟨S8x2048, .f32⟩ : BufTy).Contents (Elt F) → (⟨S8x2048, .f32⟩ : BufTy).Contents (Elt F) → (⟨S8x2048, .f32⟩ : BufTy).Contents (Elt F)),
    unary main_v182 main_v183 (broadcastInDim S8x2048x1 ![0, 1] bcast_S8x2048_S8x2048x1_0_1 : (⟨S8x2048, .f32⟩ : BufTy).Contents (Elt F) → (⟨S8x2048x1, .f32⟩ : BufTy).Contents (Elt F)),
    unary main_v183 main_v184 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v180 main_v184 main_v185 (mulf : (⟨S8x2048x128, .f32⟩ : BufTy).Contents (Elt F) → (⟨S8x2048x128, .f32⟩ : BufTy).Contents (Elt F) → (⟨S8x2048x128, .f32⟩ : BufTy).Contents (Elt F)),
    binary main_v111 main_v185 main_v186 (addf : (⟨S8x2048x128, .f32⟩ : BufTy).Contents (Elt F) → (⟨S8x2048x128, .f32⟩ : BufTy).Contents (Elt F) → (⟨S8x2048x128, .f32⟩ : BufTy).Contents (Elt F)),
    nullary main_cst_62 (constant S_ .f32 0x00000000#32),
    unary main_cst_62 main_v187 (broadcastInDim S8x2048 ![] bcast_S_S8x2048 : (⟨S_, .f32⟩ : BufTy).Contents (Elt F) → (⟨S8x2048, .f32⟩ : BufTy).Contents (Elt F)),
    binary main_v30 main_v187 main_v188 (addf : (⟨S8x2048, .f32⟩ : BufTy).Contents (Elt F) → (⟨S8x2048, .f32⟩ : BufTy).Contents (Elt F) → (⟨S8x2048, .f32⟩ : BufTy).Contents (Elt F)),
    nullary main_cst_63 (constant S_ .f32 0x3F800000#32),
    unary main_cst_63 main_v189 (broadcastInDim S8x2048 ![] bcast_S_S8x2048 : (⟨S_, .f32⟩ : BufTy).Contents (Elt F) → (⟨S8x2048, .f32⟩ : BufTy).Contents (Elt F)),
    binary main_v31 main_v189 main_v190 (addf : (⟨S8x2048, .f32⟩ : BufTy).Contents (Elt F) → (⟨S8x2048, .f32⟩ : BufTy).Contents (Elt F) → (⟨S8x2048, .f32⟩ : BufTy).Contents (Elt F)),
    nullary main_cst_64 (constant S_ .f32 0x00000000#32),
    unary main_cst_64 main_v191 (broadcastInDim S8x2048 ![] bcast_S_S8x2048 : (⟨S_, .f32⟩ : BufTy).Contents (Elt F) → (⟨S8x2048, .f32⟩ : BufTy).Contents (Elt F)),
    binary main_v32 main_v191 main_v192 (addf : (⟨S8x2048, .f32⟩ : BufTy).Contents (Elt F) → (⟨S8x2048, .f32⟩ : BufTy).Contents (Elt F) → (⟨S8x2048, .f32⟩ : BufTy).Contents (Elt F)),
    binary main_v13 main_v188 main_v193 (subf : (⟨S8x2048, .f32⟩ : BufTy).Contents (Elt F) → (⟨S8x2048, .f32⟩ : BufTy).Contents (Elt F) → (⟨S8x2048, .f32⟩ : BufTy).Contents (Elt F)),
    unary main_v193 main_v194 (Host.absf : (⟨S8x2048, .f32⟩ : BufTy).Contents (Elt F) → (⟨S8x2048, .f32⟩ : BufTy).Contents (Elt F)),
    nullary main_cst_65 (constant S_ .f32 0x3F800000#32),
    unary main_cst_65 main_v195 (broadcastInDim S8x2048 ![] bcast_S_S8x2048 : (⟨S_, .f32⟩ : BufTy).Contents (Elt F) → (⟨S8x2048, .f32⟩ : BufTy).Contents (Elt F)),
    binary main_v195 main_v194 main_v196 (subf : (⟨S8x2048, .f32⟩ : BufTy).Contents (Elt F) → (⟨S8x2048, .f32⟩ : BufTy).Contents (Elt F) → (⟨S8x2048, .f32⟩ : BufTy).Contents (Elt F)),
    binary main_v21 main_v190 main_v197 (subf : (⟨S8x2048, .f32⟩ : BufTy).Contents (Elt F) → (⟨S8x2048, .f32⟩ : BufTy).Contents (Elt F) → (⟨S8x2048, .f32⟩ : BufTy).Contents (Elt F)),
    unary main_v197 main_v198 (Host.absf : (⟨S8x2048, .f32⟩ : BufTy).Contents (Elt F) → (⟨S8x2048, .f32⟩ : BufTy).Contents (Elt F)),
    nullary main_cst_66 (constant S_ .f32 0x3F800000#32),
    unary main_cst_66 main_v199 (broadcastInDim S8x2048 ![] bcast_S_S8x2048 : (⟨S_, .f32⟩ : BufTy).Contents (Elt F) → (⟨S8x2048, .f32⟩ : BufTy).Contents (Elt F)),
    binary main_v199 main_v198 main_v200 (subf : (⟨S8x2048, .f32⟩ : BufTy).Contents (Elt F) → (⟨S8x2048, .f32⟩ : BufTy).Contents (Elt F) → (⟨S8x2048, .f32⟩ : BufTy).Contents (Elt F)),
    binary main_v196 main_v200 main_v201 (mulf : (⟨S8x2048, .f32⟩ : BufTy).Contents (Elt F) → (⟨S8x2048, .f32⟩ : BufTy).Contents (Elt F) → (⟨S8x2048, .f32⟩ : BufTy).Contents (Elt F)),
    binary main_v29 main_v192 main_v202 (subf : (⟨S8x2048, .f32⟩ : BufTy).Contents (Elt F) → (⟨S8x2048, .f32⟩ : BufTy).Contents (Elt F) → (⟨S8x2048, .f32⟩ : BufTy).Contents (Elt F)),
    unary main_v202 main_v203 (Host.absf : (⟨S8x2048, .f32⟩ : BufTy).Contents (Elt F) → (⟨S8x2048, .f32⟩ : BufTy).Contents (Elt F)),
    nullary main_cst_67 (constant S_ .f32 0x3F800000#32),
    unary main_cst_67 main_v204 (broadcastInDim S8x2048 ![] bcast_S_S8x2048 : (⟨S_, .f32⟩ : BufTy).Contents (Elt F) → (⟨S8x2048, .f32⟩ : BufTy).Contents (Elt F)),
    binary main_v204 main_v203 main_v205 (subf : (⟨S8x2048, .f32⟩ : BufTy).Contents (Elt F) → (⟨S8x2048, .f32⟩ : BufTy).Contents (Elt F) → (⟨S8x2048, .f32⟩ : BufTy).Contents (Elt F)),
    binary main_v201 main_v205 main_v206 (mulf : (⟨S8x2048, .f32⟩ : BufTy).Contents (Elt F) → (⟨S8x2048, .f32⟩ : BufTy).Contents (Elt F) → (⟨S8x2048, .f32⟩ : BufTy).Contents (Elt F)),
    nullary main_cst_68 (constant S_ .f32 0x00000000#32),
    unary main_cst_68 main_v207 (broadcastInDim S8x2048 ![] bcast_S_S8x2048 : (⟨S_, .f32⟩ : BufTy).Contents (Elt F) → (⟨S8x2048, .f32⟩ : BufTy).Contents (Elt F)),
    binary main_v188 main_v207 main_v208 (cmpf .oge : (⟨S8x2048, .f32⟩ : BufTy).Contents (Elt F) → (⟨S8x2048, .f32⟩ : BufTy).Contents (Elt F) → (⟨S8x2048, .i1⟩ : BufTy).Contents (Elt F)),
    nullary main_cst_69 (constant S_ .f32 0x41F80000#32),
    unary main_cst_69 main_v209 (broadcastInDim S8x2048 ![] bcast_S_S8x2048 : (⟨S_, .f32⟩ : BufTy).Contents (Elt F) → (⟨S8x2048, .f32⟩ : BufTy).Contents (Elt F)),
    binary main_v188 main_v209 main_v210 (cmpf .ole : (⟨S8x2048, .f32⟩ : BufTy).Contents (Elt F) → (⟨S8x2048, .f32⟩ : BufTy).Contents (Elt F) → (⟨S8x2048, .i1⟩ : BufTy).Contents (Elt F)),
    binary main_v208 main_v210 main_v211 (andi : (⟨S8x2048, .i1⟩ : BufTy).Contents (Elt F) → (⟨S8x2048, .i1⟩ : BufTy).Contents (Elt F) → (⟨S8x2048, .i1⟩ : BufTy).Contents (Elt F)),
    nullary main_cst_70 (constant S_ .f32 0x00000000#32),
    unary main_cst_70 main_v212 (broadcastInDim S8x2048 ![] bcast_S_S8x2048 : (⟨S_, .f32⟩ : BufTy).Contents (Elt F) → (⟨S8x2048, .f32⟩ : BufTy).Contents (Elt F)),
    binary main_v190 main_v212 main_v213 (cmpf .oge : (⟨S8x2048, .f32⟩ : BufTy).Contents (Elt F) → (⟨S8x2048, .f32⟩ : BufTy).Contents (Elt F) → (⟨S8x2048, .i1⟩ : BufTy).Contents (Elt F)),
    binary main_v211 main_v213 main_v214 (andi : (⟨S8x2048, .i1⟩ : BufTy).Contents (Elt F) → (⟨S8x2048, .i1⟩ : BufTy).Contents (Elt F) → (⟨S8x2048, .i1⟩ : BufTy).Contents (Elt F)),
    nullary main_cst_71 (constant S_ .f32 0x41F80000#32),
    unary main_cst_71 main_v215 (broadcastInDim S8x2048 ![] bcast_S_S8x2048 : (⟨S_, .f32⟩ : BufTy).Contents (Elt F) → (⟨S8x2048, .f32⟩ : BufTy).Contents (Elt F)),
    binary main_v190 main_v215 main_v216 (cmpf .ole : (⟨S8x2048, .f32⟩ : BufTy).Contents (Elt F) → (⟨S8x2048, .f32⟩ : BufTy).Contents (Elt F) → (⟨S8x2048, .i1⟩ : BufTy).Contents (Elt F)),
    binary main_v214 main_v216 main_v217 (andi : (⟨S8x2048, .i1⟩ : BufTy).Contents (Elt F) → (⟨S8x2048, .i1⟩ : BufTy).Contents (Elt F) → (⟨S8x2048, .i1⟩ : BufTy).Contents (Elt F)),
    nullary main_cst_72 (constant S_ .f32 0x00000000#32),
    unary main_cst_72 main_v218 (broadcastInDim S8x2048 ![] bcast_S_S8x2048 : (⟨S_, .f32⟩ : BufTy).Contents (Elt F) → (⟨S8x2048, .f32⟩ : BufTy).Contents (Elt F)),
    binary main_v192 main_v218 main_v219 (cmpf .oge : (⟨S8x2048, .f32⟩ : BufTy).Contents (Elt F) → (⟨S8x2048, .f32⟩ : BufTy).Contents (Elt F) → (⟨S8x2048, .i1⟩ : BufTy).Contents (Elt F)),
    binary main_v217 main_v219 main_v220 (andi : (⟨S8x2048, .i1⟩ : BufTy).Contents (Elt F) → (⟨S8x2048, .i1⟩ : BufTy).Contents (Elt F) → (⟨S8x2048, .i1⟩ : BufTy).Contents (Elt F)),
    nullary main_cst_73 (constant S_ .f32 0x41F80000#32),
    unary main_cst_73 main_v221 (broadcastInDim S8x2048 ![] bcast_S_S8x2048 : (⟨S_, .f32⟩ : BufTy).Contents (Elt F) → (⟨S8x2048, .f32⟩ : BufTy).Contents (Elt F)),
    binary main_v192 main_v221 main_v222 (cmpf .ole : (⟨S8x2048, .f32⟩ : BufTy).Contents (Elt F) → (⟨S8x2048, .f32⟩ : BufTy).Contents (Elt F) → (⟨S8x2048, .i1⟩ : BufTy).Contents (Elt F)),
    binary main_v220 main_v222 main_v223 (andi : (⟨S8x2048, .i1⟩ : BufTy).Contents (Elt F) → (⟨S8x2048, .i1⟩ : BufTy).Contents (Elt F) → (⟨S8x2048, .i1⟩ : BufTy).Contents (Elt F)) ]

set_option maxRecDepth 8192 in
set_option maxHeartbeats 4000000 in
theorem main_part4_eq (c : Dev nD) : main_part4 (F := F) c = seq ops_part4 := rfl

set_option maxRecDepth 8192 in
theorem ops_part4_sub : (ops_part4 : List (HloOp τ sig (Elt F))).Forall fun op => op.bufs ⊆ tcRefs τ sig :=
  ⟨unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops_part4_fresh : ∀ op ∈ (ops_part4 : List (HloOp τ sig (Elt F))), op.fresh = ∅ :=
  List.forall_iff_forall_mem.mp (show (ops_part4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part5` (@main's operations 331 … 405 of 978), in order. -/
abbrev ops_part5 : List (HloOp τ sig (Elt F)) :=
  [ nullary main_c_74 (constantI S_ 32 0#32),
    nullary main_c_75 (constantI S_ 32 31#32),
    TRef.unary (TRef.of (T := ⟨S_, .i32⟩) main_c_74) (TRef.of (T := ⟨S_, .f32⟩) main_call6_v0) (sitofp .f32),
    TRef.unary (TRef.of (T := ⟨S_, .f32⟩) main_call6_v0) (TRef.of (T := ⟨S8x2048, .f32⟩) main_call6_v1) (broadcastInDim S8x2048 ![] bcast_S_S8x2048),
    TRef.binary (TRef.of (T := ⟨S8x2048, .f32⟩) main_call6_v1) (TRef.of (T := ⟨S8x2048, .f32⟩) main_v188) (TRef.of (T := ⟨S8x2048, .f32⟩) main_call6_v2) maximumf,
    TRef.unary (TRef.of (T := ⟨S_, .i32⟩) main_c_75) (TRef.of (T := ⟨S_, .f32⟩) main_call6_v3) (sitofp .f32),
    TRef.unary (TRef.of (T := ⟨S_, .f32⟩) main_call6_v3) (TRef.of (T := ⟨S8x2048, .f32⟩) main_call6_v4) (broadcastInDim S8x2048 ![] bcast_S_S8x2048),
    TRef.binary (TRef.of (T := ⟨S8x2048, .f32⟩) main_call6_v4) (TRef.of (T := ⟨S8x2048, .f32⟩) main_call6_v2) (TRef.of (T := ⟨S8x2048, .f32⟩) main_v224) minimumf,
    unary main_v224 main_v225 (fptosi 32 : (⟨S8x2048, .f32⟩ : BufTy).Contents (Elt F) → (⟨S8x2048, .i32⟩ : BufTy).Contents (Elt F)),
    nullary main_c_76 (constantI S_ 32 0#32),
    nullary main_c_77 (constantI S_ 32 31#32),
    TRef.unary (TRef.of (T := ⟨S_, .i32⟩) main_c_76) (TRef.of (T := ⟨S_, .f32⟩) main_call7_v0) (sitofp .f32),
    TRef.unary (TRef.of (T := ⟨S_, .f32⟩) main_call7_v0) (TRef.of (T := ⟨S8x2048, .f32⟩) main_call7_v1) (broadcastInDim S8x2048 ![] bcast_S_S8x2048),
    TRef.binary (TRef.of (T := ⟨S8x2048, .f32⟩) main_call7_v1) (TRef.of (T := ⟨S8x2048, .f32⟩) main_v190) (TRef.of (T := ⟨S8x2048, .f32⟩) main_call7_v2) maximumf,
    TRef.unary (TRef.of (T := ⟨S_, .i32⟩) main_c_77) (TRef.of (T := ⟨S_, .f32⟩) main_call7_v3) (sitofp .f32),
    TRef.unary (TRef.of (T := ⟨S_, .f32⟩) main_call7_v3) (TRef.of (T := ⟨S8x2048, .f32⟩) main_call7_v4) (broadcastInDim S8x2048 ![] bcast_S_S8x2048),
    TRef.binary (TRef.of (T := ⟨S8x2048, .f32⟩) main_call7_v4) (TRef.of (T := ⟨S8x2048, .f32⟩) main_call7_v2) (TRef.of (T := ⟨S8x2048, .f32⟩) main_v226) minimumf,
    unary main_v226 main_v227 (fptosi 32 : (⟨S8x2048, .f32⟩ : BufTy).Contents (Elt F) → (⟨S8x2048, .i32⟩ : BufTy).Contents (Elt F)),
    nullary main_c_78 (constantI S_ 32 0#32),
    nullary main_c_79 (constantI S_ 32 31#32),
    TRef.unary (TRef.of (T := ⟨S_, .i32⟩) main_c_78) (TRef.of (T := ⟨S_, .f32⟩) main_call8_v0) (sitofp .f32),
    TRef.unary (TRef.of (T := ⟨S_, .f32⟩) main_call8_v0) (TRef.of (T := ⟨S8x2048, .f32⟩) main_call8_v1) (broadcastInDim S8x2048 ![] bcast_S_S8x2048),
    TRef.binary (TRef.of (T := ⟨S8x2048, .f32⟩) main_call8_v1) (TRef.of (T := ⟨S8x2048, .f32⟩) main_v192) (TRef.of (T := ⟨S8x2048, .f32⟩) main_call8_v2) maximumf,
    TRef.unary (TRef.of (T := ⟨S_, .i32⟩) main_c_79) (TRef.of (T := ⟨S_, .f32⟩) main_call8_v3) (sitofp .f32),
    TRef.unary (TRef.of (T := ⟨S_, .f32⟩) main_call8_v3) (TRef.of (T := ⟨S8x2048, .f32⟩) main_call8_v4) (broadcastInDim S8x2048 ![] bcast_S_S8x2048),
    TRef.binary (TRef.of (T := ⟨S8x2048, .f32⟩) main_call8_v4) (TRef.of (T := ⟨S8x2048, .f32⟩) main_call8_v2) (TRef.of (T := ⟨S8x2048, .f32⟩) main_v228) minimumf,
    unary main_v228 main_v229 (fptosi 32 : (⟨S8x2048, .f32⟩ : BufTy).Contents (Elt F) → (⟨S8x2048, .i32⟩ : BufTy).Contents (Elt F)),
    nullary main_c_80 (constantI S_ 32 0#32),
    unary main_c_80 main_v230 (broadcastInDim S8x2048 ![] bcast_S_S8x2048 : (⟨S_, .i32⟩ : BufTy).Contents (Elt F) → (⟨S8x2048, .i32⟩ : BufTy).Contents (Elt F)),
    binary main_v35 main_v230 main_v231 (cmpi .slt : (⟨S8x2048, .i32⟩ : BufTy).Contents (Elt F) → (⟨S8x2048, .i32⟩ : BufTy).Contents (Elt F) → (⟨S8x2048, .i1⟩ : BufTy).Contents (Elt F)),
    nullary main_c_81 (constantI S_ 32 8#32),
    unary main_c_81 main_v232 (broadcastInDim S8x2048 ![] bcast_S_S8x2048 : (⟨S_, .i32⟩ : BufTy).Contents (Elt F) → (⟨S8x2048, .i32⟩ : BufTy).Contents (Elt F)),
    binary main_v35 main_v232 main_v233 (addi : (⟨S8x2048, .i32⟩ : BufTy).Contents (Elt F) → (⟨S8x2048, .i32⟩ : BufTy).Contents (Elt F) → (⟨S8x2048, .i32⟩ : BufTy).Contents (Elt F)),
    ternary main_v231 main_v233 main_v35 main_v234 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_82 (constantI S_ 32 0#32),
    unary main_c_82 main_v235 (broadcastInDim S8x2048 ![] bcast_S_S8x2048 : (⟨S_, .i32⟩ : BufTy).Contents (Elt F) → (⟨S8x2048, .i32⟩ : BufTy).Contents (Elt F)),
    binary main_v229 main_v235 main_v236 (cmpi .slt : (⟨S8x2048, .i32⟩ : BufTy).Contents (Elt F) → (⟨S8x2048, .i32⟩ : BufTy).Contents (Elt F) → (⟨S8x2048, .i1⟩ : BufTy).Contents (Elt F)),
    nullary main_c_83 (constantI S_ 32 32#32),
    unary main_c_83 main_v237 (broadcastInDim S8x2048 ![] bcast_S_S8x2048 : (⟨S_, .i32⟩ : BufTy).Contents (Elt F) → (⟨S8x2048, .i32⟩ : BufTy).Contents (Elt F)),
    binary main_v229 main_v237 main_v238 (addi : (⟨S8x2048, .i32⟩ : BufTy).Contents (Elt F) → (⟨S8x2048, .i32⟩ : BufTy).Contents (Elt F) → (⟨S8x2048, .i32⟩ : BufTy).Contents (Elt F)),
    ternary main_v236 main_v238 main_v229 main_v239 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_84 (constantI S_ 32 0#32),
    unary main_c_84 main_v240 (broadcastInDim S8x2048 ![] bcast_S_S8x2048 : (⟨S_, .i32⟩ : BufTy).Contents (Elt F) → (⟨S8x2048, .i32⟩ : BufTy).Contents (Elt F)),
    binary main_v227 main_v240 main_v241 (cmpi .slt : (⟨S8x2048, .i32⟩ : BufTy).Contents (Elt F) → (⟨S8x2048, .i32⟩ : BufTy).Contents (Elt F) → (⟨S8x2048, .i1⟩ : BufTy).Contents (Elt F)),
    nullary main_c_85 (constantI S_ 32 32#32),
    unary main_c_85 main_v242 (broadcastInDim S8x2048 ![] bcast_S_S8x2048 : (⟨S_, .i32⟩ : BufTy).Contents (Elt F) → (⟨S8x2048, .i32⟩ : BufTy).Contents (Elt F)),
    binary main_v227 main_v242 main_v243 (addi : (⟨S8x2048, .i32⟩ : BufTy).Contents (Elt F) → (⟨S8x2048, .i32⟩ : BufTy).Contents (Elt F) → (⟨S8x2048, .i32⟩ : BufTy).Contents (Elt F)),
    ternary main_v241 main_v243 main_v227 main_v244 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_86 (constantI S_ 32 0#32),
    unary main_c_86 main_v245 (broadcastInDim S8x2048 ![] bcast_S_S8x2048 : (⟨S_, .i32⟩ : BufTy).Contents (Elt F) → (⟨S8x2048, .i32⟩ : BufTy).Contents (Elt F)),
    binary main_v225 main_v245 main_v246 (cmpi .slt : (⟨S8x2048, .i32⟩ : BufTy).Contents (Elt F) → (⟨S8x2048, .i32⟩ : BufTy).Contents (Elt F) → (⟨S8x2048, .i1⟩ : BufTy).Contents (Elt F)),
    nullary main_c_87 (constantI S_ 32 32#32),
    unary main_c_87 main_v247 (broadcastInDim S8x2048 ![] bcast_S_S8x2048 : (⟨S_, .i32⟩ : BufTy).Contents (Elt F) → (⟨S8x2048, .i32⟩ : BufTy).Contents (Elt F)),
    binary main_v225 main_v247 main_v248 (addi : (⟨S8x2048, .i32⟩ : BufTy).Contents (Elt F) → (⟨S8x2048, .i32⟩ : BufTy).Contents (Elt F) → (⟨S8x2048, .i32⟩ : BufTy).Contents (Elt F)),
    ternary main_v246 main_v248 main_v225 main_v249 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v234 main_v250 (broadcastInDim S8x2048x1 ![0, 1] bcast_S8x2048_S8x2048x1_0_1 : (⟨S8x2048, .i32⟩ : BufTy).Contents (Elt F) → (⟨S8x2048x1, .i32⟩ : BufTy).Contents (Elt F)),
    unary main_v239 main_v251 (broadcastInDim S8x2048x1 ![0, 1] bcast_S8x2048_S8x2048x1_0_1 : (⟨S8x2048, .i32⟩ : BufTy).Contents (Elt F) → (⟨S8x2048x1, .i32⟩ : BufTy).Contents (Elt F)),
    unary main_v244 main_v252 (broadcastInDim S8x2048x1 ![0, 1] bcast_S8x2048_S8x2048x1_0_1 : (⟨S8x2048, .i32⟩ : BufTy).Contents (Elt F) → (⟨S8x2048x1, .i32⟩ : BufTy).Contents (Elt F)),
    unary main_v249 main_v253 (broadcastInDim S8x2048x1 ![0, 1] bcast_S8x2048_S8x2048x1_0_1 : (⟨S8x2048, .i32⟩ : BufTy).Contents (Elt F) → (⟨S8x2048x1, .i32⟩ : BufTy).Contents (Elt F)),
    nary ![main_v250, main_v251, main_v252, main_v253] main_v254 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v254 main_v255 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v223 main_v256 (uitofp .f32 : (⟨S8x2048, .i1⟩ : BufTy).Contents (Elt F) → (⟨S8x2048, .f32⟩ : BufTy).Contents (Elt F)),
    binary main_v206 main_v256 main_v257 (mulf : (⟨S8x2048, .f32⟩ : BufTy).Contents (Elt F) → (⟨S8x2048, .f32⟩ : BufTy).Contents (Elt F) → (⟨S8x2048, .f32⟩ : BufTy).Contents (Elt F)),
    unary main_v257 main_v258 (broadcastInDim S8x2048x1 ![0, 1] bcast_S8x2048_S8x2048x1_0_1 : (⟨S8x2048, .f32⟩ : BufTy).Contents (Elt F) → (⟨S8x2048x1, .f32⟩ : BufTy).Contents (Elt F)),
    unary main_v258 main_v259 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v255 main_v259 main_v260 (mulf : (⟨S8x2048x128, .f32⟩ : BufTy).Contents (Elt F) → (⟨S8x2048x128, .f32⟩ : BufTy).Contents (Elt F) → (⟨S8x2048x128, .f32⟩ : BufTy).Contents (Elt F)),
    binary main_v186 main_v260 main_v261 (addf : (⟨S8x2048x128, .f32⟩ : BufTy).Contents (Elt F) → (⟨S8x2048x128, .f32⟩ : BufTy).Contents (Elt F) → (⟨S8x2048x128, .f32⟩ : BufTy).Contents (Elt F)),
    nullary main_cst_88 (constant S_ .f32 0x3F800000#32),
    unary main_cst_88 main_v262 (broadcastInDim S8x2048 ![] bcast_S_S8x2048 : (⟨S_, .f32⟩ : BufTy).Contents (Elt F) → (⟨S8x2048, .f32⟩ : BufTy).Contents (Elt F)),
    binary main_v30 main_v262 main_v263 (addf : (⟨S8x2048, .f32⟩ : BufTy).Contents (Elt F) → (⟨S8x2048, .f32⟩ : BufTy).Contents (Elt F) → (⟨S8x2048, .f32⟩ : BufTy).Contents (Elt F)),
    nullary main_cst_89 (constant S_ .f32 0x3F800000#32),
    unary main_cst_89 main_v264 (broadcastInDim S8x2048 ![] bcast_S_S8x2048 : (⟨S_, .f32⟩ : BufTy).Contents (Elt F) → (⟨S8x2048, .f32⟩ : BufTy).Contents (Elt F)),
    binary main_v31 main_v264 main_v265 (addf : (⟨S8x2048, .f32⟩ : BufTy).Contents (Elt F) → (⟨S8x2048, .f32⟩ : BufTy).Contents (Elt F) → (⟨S8x2048, .f32⟩ : BufTy).Contents (Elt F)),
    nullary main_cst_90 (constant S_ .f32 0x00000000#32),
    unary main_cst_90 main_v266 (broadcastInDim S8x2048 ![] bcast_S_S8x2048 : (⟨S_, .f32⟩ : BufTy).Contents (Elt F) → (⟨S8x2048, .f32⟩ : BufTy).Contents (Elt F)) ]

set_option maxRecDepth 8192 in
set_option maxHeartbeats 4000000 in
theorem main_part5_eq (c : Dev nD) : main_part5 (F := F) c = seq ops_part5 := rfl

set_option maxRecDepth 8192 in
theorem ops_part5_sub : (ops_part5 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
theorem ops_part5_fresh : ∀ op ∈ (ops_part5 : List (HloOp τ sig (Elt F))), op.fresh = ∅ :=
  List.forall_iff_forall_mem.mp (show (ops_part5 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part6` (@main's operations 406 … 480 of 978), in order. -/
abbrev ops_part6 : List (HloOp τ sig (Elt F)) :=
  [ binary main_v32 main_v266 main_v267 (addf : (⟨S8x2048, .f32⟩ : BufTy).Contents (Elt F) → (⟨S8x2048, .f32⟩ : BufTy).Contents (Elt F) → (⟨S8x2048, .f32⟩ : BufTy).Contents (Elt F)),
    binary main_v13 main_v263 main_v268 (subf : (⟨S8x2048, .f32⟩ : BufTy).Contents (Elt F) → (⟨S8x2048, .f32⟩ : BufTy).Contents (Elt F) → (⟨S8x2048, .f32⟩ : BufTy).Contents (Elt F)),
    unary main_v268 main_v269 (Host.absf : (⟨S8x2048, .f32⟩ : BufTy).Contents (Elt F) → (⟨S8x2048, .f32⟩ : BufTy).Contents (Elt F)),
    nullary main_cst_91 (constant S_ .f32 0x3F800000#32),
    unary main_cst_91 main_v270 (broadcastInDim S8x2048 ![] bcast_S_S8x2048 : (⟨S_, .f32⟩ : BufTy).Contents (Elt F) → (⟨S8x2048, .f32⟩ : BufTy).Contents (Elt F)),
    binary main_v270 main_v269 main_v271 (subf : (⟨S8x2048, .f32⟩ : BufTy).Contents (Elt F) → (⟨S8x2048, .f32⟩ : BufTy).Contents (Elt F) → (⟨S8x2048, .f32⟩ : BufTy).Contents (Elt F)),
    binary main_v21 main_v265 main_v272 (subf : (⟨S8x2048, .f32⟩ : BufTy).Contents (Elt F) → (⟨S8x2048, .f32⟩ : BufTy).Contents (Elt F) → (⟨S8x2048, .f32⟩ : BufTy).Contents (Elt F)),
    unary main_v272 main_v273 (Host.absf : (⟨S8x2048, .f32⟩ : BufTy).Contents (Elt F) → (⟨S8x2048, .f32⟩ : BufTy).Contents (Elt F)),
    nullary main_cst_92 (constant S_ .f32 0x3F800000#32),
    unary main_cst_92 main_v274 (broadcastInDim S8x2048 ![] bcast_S_S8x2048 : (⟨S_, .f32⟩ : BufTy).Contents (Elt F) → (⟨S8x2048, .f32⟩ : BufTy).Contents (Elt F)),
    binary main_v274 main_v273 main_v275 (subf : (⟨S8x2048, .f32⟩ : BufTy).Contents (Elt F) → (⟨S8x2048, .f32⟩ : BufTy).Contents (Elt F) → (⟨S8x2048, .f32⟩ : BufTy).Contents (Elt F)),
    binary main_v271 main_v275 main_v276 (mulf : (⟨S8x2048, .f32⟩ : BufTy).Contents (Elt F) → (⟨S8x2048, .f32⟩ : BufTy).Contents (Elt F) → (⟨S8x2048, .f32⟩ : BufTy).Contents (Elt F)),
    binary main_v29 main_v267 main_v277 (subf : (⟨S8x2048, .f32⟩ : BufTy).Contents (Elt F) → (⟨S8x2048, .f32⟩ : BufTy).Contents (Elt F) → (⟨S8x2048, .f32⟩ : BufTy).Contents (Elt F)),
    unary main_v277 main_v278 (Host.absf : (⟨S8x2048, .f32⟩ : BufTy).Contents (Elt F) → (⟨S8x2048, .f32⟩ : BufTy).Contents (Elt F)),
    nullary main_cst_93 (constant S_ .f32 0x3F800000#32),
    unary main_cst_93 main_v279 (broadcastInDim S8x2048 ![] bcast_S_S8x2048 : (⟨S_, .f32⟩ : BufTy).Contents (Elt F) → (⟨S8x2048, .f32⟩ : BufTy).Contents (Elt F)),
    binary main_v279 main_v278 main_v280 (subf : (⟨S8x2048, .f32⟩ : BufTy).Contents (Elt F) → (⟨S8x2048, .f32⟩ : BufTy).Contents (Elt F) → (⟨S8x2048, .f32⟩ : BufTy).Contents (Elt F)),
    binary main_v276 main_v280 main_v281 (mulf : (⟨S8x2048, .f32⟩ : BufTy).Contents (Elt F) → (⟨S8x2048, .f32⟩ : BufTy).Contents (Elt F) → (⟨S8x2048, .f32⟩ : BufTy).Contents (Elt F)),
    nullary main_cst_94 (constant S_ .f32 0x00000000#32),
    unary main_cst_94 main_v282 (broadcastInDim S8x2048 ![] bcast_S_S8x2048 : (⟨S_, .f32⟩ : BufTy).Contents (Elt F) → (⟨S8x2048, .f32⟩ : BufTy).Contents (Elt F)),
    binary main_v263 main_v282 main_v283 (cmpf .oge : (⟨S8x2048, .f32⟩ : BufTy).Contents (Elt F) → (⟨S8x2048, .f32⟩ : BufTy).Contents (Elt F) → (⟨S8x2048, .i1⟩ : BufTy).Contents (Elt F)),
    nullary main_cst_95 (constant S_ .f32 0x41F80000#32),
    unary main_cst_95 main_v284 (broadcastInDim S8x2048 ![] bcast_S_S8x2048 : (⟨S_, .f32⟩ : BufTy).Contents (Elt F) → (⟨S8x2048, .f32⟩ : BufTy).Contents (Elt F)),
    binary main_v263 main_v284 main_v285 (cmpf .ole : (⟨S8x2048, .f32⟩ : BufTy).Contents (Elt F) → (⟨S8x2048, .f32⟩ : BufTy).Contents (Elt F) → (⟨S8x2048, .i1⟩ : BufTy).Contents (Elt F)),
    binary main_v283 main_v285 main_v286 (andi : (⟨S8x2048, .i1⟩ : BufTy).Contents (Elt F) → (⟨S8x2048, .i1⟩ : BufTy).Contents (Elt F) → (⟨S8x2048, .i1⟩ : BufTy).Contents (Elt F)),
    nullary main_cst_96 (constant S_ .f32 0x00000000#32),
    unary main_cst_96 main_v287 (broadcastInDim S8x2048 ![] bcast_S_S8x2048 : (⟨S_, .f32⟩ : BufTy).Contents (Elt F) → (⟨S8x2048, .f32⟩ : BufTy).Contents (Elt F)),
    binary main_v265 main_v287 main_v288 (cmpf .oge : (⟨S8x2048, .f32⟩ : BufTy).Contents (Elt F) → (⟨S8x2048, .f32⟩ : BufTy).Contents (Elt F) → (⟨S8x2048, .i1⟩ : BufTy).Contents (Elt F)),
    binary main_v286 main_v288 main_v289 (andi : (⟨S8x2048, .i1⟩ : BufTy).Contents (Elt F) → (⟨S8x2048, .i1⟩ : BufTy).Contents (Elt F) → (⟨S8x2048, .i1⟩ : BufTy).Contents (Elt F)),
    nullary main_cst_97 (constant S_ .f32 0x41F80000#32),
    unary main_cst_97 main_v290 (broadcastInDim S8x2048 ![] bcast_S_S8x2048 : (⟨S_, .f32⟩ : BufTy).Contents (Elt F) → (⟨S8x2048, .f32⟩ : BufTy).Contents (Elt F)),
    binary main_v265 main_v290 main_v291 (cmpf .ole : (⟨S8x2048, .f32⟩ : BufTy).Contents (Elt F) → (⟨S8x2048, .f32⟩ : BufTy).Contents (Elt F) → (⟨S8x2048, .i1⟩ : BufTy).Contents (Elt F)),
    binary main_v289 main_v291 main_v292 (andi : (⟨S8x2048, .i1⟩ : BufTy).Contents (Elt F) → (⟨S8x2048, .i1⟩ : BufTy).Contents (Elt F) → (⟨S8x2048, .i1⟩ : BufTy).Contents (Elt F)),
    nullary main_cst_98 (constant S_ .f32 0x00000000#32),
    unary main_cst_98 main_v293 (broadcastInDim S8x2048 ![] bcast_S_S8x2048 : (⟨S_, .f32⟩ : BufTy).Contents (Elt F) → (⟨S8x2048, .f32⟩ : BufTy).Contents (Elt F)),
    binary main_v267 main_v293 main_v294 (cmpf .oge : (⟨S8x2048, .f32⟩ : BufTy).Contents (Elt F) → (⟨S8x2048, .f32⟩ : BufTy).Contents (Elt F) → (⟨S8x2048, .i1⟩ : BufTy).Contents (Elt F)),
    binary main_v292 main_v294 main_v295 (andi : (⟨S8x2048, .i1⟩ : BufTy).Contents (Elt F) → (⟨S8x2048, .i1⟩ : BufTy).Contents (Elt F) → (⟨S8x2048, .i1⟩ : BufTy).Contents (Elt F)),
    nullary main_cst_99 (constant S_ .f32 0x41F80000#32),
    unary main_cst_99 main_v296 (broadcastInDim S8x2048 ![] bcast_S_S8x2048 : (⟨S_, .f32⟩ : BufTy).Contents (Elt F) → (⟨S8x2048, .f32⟩ : BufTy).Contents (Elt F)),
    binary main_v267 main_v296 main_v297 (cmpf .ole : (⟨S8x2048, .f32⟩ : BufTy).Contents (Elt F) → (⟨S8x2048, .f32⟩ : BufTy).Contents (Elt F) → (⟨S8x2048, .i1⟩ : BufTy).Contents (Elt F)),
    binary main_v295 main_v297 main_v298 (andi : (⟨S8x2048, .i1⟩ : BufTy).Contents (Elt F) → (⟨S8x2048, .i1⟩ : BufTy).Contents (Elt F) → (⟨S8x2048, .i1⟩ : BufTy).Contents (Elt F)),
    nullary main_c_100 (constantI S_ 32 0#32),
    nullary main_c_101 (constantI S_ 32 31#32),
    TRef.unary (TRef.of (T := ⟨S_, .i32⟩) main_c_100) (TRef.of (T := ⟨S_, .f32⟩) main_call9_v0) (sitofp .f32),
    TRef.unary (TRef.of (T := ⟨S_, .f32⟩) main_call9_v0) (TRef.of (T := ⟨S8x2048, .f32⟩) main_call9_v1) (broadcastInDim S8x2048 ![] bcast_S_S8x2048),
    TRef.binary (TRef.of (T := ⟨S8x2048, .f32⟩) main_call9_v1) (TRef.of (T := ⟨S8x2048, .f32⟩) main_v263) (TRef.of (T := ⟨S8x2048, .f32⟩) main_call9_v2) maximumf,
    TRef.unary (TRef.of (T := ⟨S_, .i32⟩) main_c_101) (TRef.of (T := ⟨S_, .f32⟩) main_call9_v3) (sitofp .f32),
    TRef.unary (TRef.of (T := ⟨S_, .f32⟩) main_call9_v3) (TRef.of (T := ⟨S8x2048, .f32⟩) main_call9_v4) (broadcastInDim S8x2048 ![] bcast_S_S8x2048),
    TRef.binary (TRef.of (T := ⟨S8x2048, .f32⟩) main_call9_v4) (TRef.of (T := ⟨S8x2048, .f32⟩) main_call9_v2) (TRef.of (T := ⟨S8x2048, .f32⟩) main_v299) minimumf,
    unary main_v299 main_v300 (fptosi 32 : (⟨S8x2048, .f32⟩ : BufTy).Contents (Elt F) → (⟨S8x2048, .i32⟩ : BufTy).Contents (Elt F)),
    nullary main_c_102 (constantI S_ 32 0#32),
    nullary main_c_103 (constantI S_ 32 31#32),
    TRef.unary (TRef.of (T := ⟨S_, .i32⟩) main_c_102) (TRef.of (T := ⟨S_, .f32⟩) main_call10_v0) (sitofp .f32),
    TRef.unary (TRef.of (T := ⟨S_, .f32⟩) main_call10_v0) (TRef.of (T := ⟨S8x2048, .f32⟩) main_call10_v1) (broadcastInDim S8x2048 ![] bcast_S_S8x2048),
    TRef.binary (TRef.of (T := ⟨S8x2048, .f32⟩) main_call10_v1) (TRef.of (T := ⟨S8x2048, .f32⟩) main_v265) (TRef.of (T := ⟨S8x2048, .f32⟩) main_call10_v2) maximumf,
    TRef.unary (TRef.of (T := ⟨S_, .i32⟩) main_c_103) (TRef.of (T := ⟨S_, .f32⟩) main_call10_v3) (sitofp .f32),
    TRef.unary (TRef.of (T := ⟨S_, .f32⟩) main_call10_v3) (TRef.of (T := ⟨S8x2048, .f32⟩) main_call10_v4) (broadcastInDim S8x2048 ![] bcast_S_S8x2048),
    TRef.binary (TRef.of (T := ⟨S8x2048, .f32⟩) main_call10_v4) (TRef.of (T := ⟨S8x2048, .f32⟩) main_call10_v2) (TRef.of (T := ⟨S8x2048, .f32⟩) main_v301) minimumf,
    unary main_v301 main_v302 (fptosi 32 : (⟨S8x2048, .f32⟩ : BufTy).Contents (Elt F) → (⟨S8x2048, .i32⟩ : BufTy).Contents (Elt F)),
    nullary main_c_104 (constantI S_ 32 0#32),
    nullary main_c_105 (constantI S_ 32 31#32),
    TRef.unary (TRef.of (T := ⟨S_, .i32⟩) main_c_104) (TRef.of (T := ⟨S_, .f32⟩) main_call11_v0) (sitofp .f32),
    TRef.unary (TRef.of (T := ⟨S_, .f32⟩) main_call11_v0) (TRef.of (T := ⟨S8x2048, .f32⟩) main_call11_v1) (broadcastInDim S8x2048 ![] bcast_S_S8x2048),
    TRef.binary (TRef.of (T := ⟨S8x2048, .f32⟩) main_call11_v1) (TRef.of (T := ⟨S8x2048, .f32⟩) main_v267) (TRef.of (T := ⟨S8x2048, .f32⟩) main_call11_v2) maximumf,
    TRef.unary (TRef.of (T := ⟨S_, .i32⟩) main_c_105) (TRef.of (T := ⟨S_, .f32⟩) main_call11_v3) (sitofp .f32),
    TRef.unary (TRef.of (T := ⟨S_, .f32⟩) main_call11_v3) (TRef.of (T := ⟨S8x2048, .f32⟩) main_call11_v4) (broadcastInDim S8x2048 ![] bcast_S_S8x2048),
    TRef.binary (TRef.of (T := ⟨S8x2048, .f32⟩) main_call11_v4) (TRef.of (T := ⟨S8x2048, .f32⟩) main_call11_v2) (TRef.of (T := ⟨S8x2048, .f32⟩) main_v303) minimumf,
    unary main_v303 main_v304 (fptosi 32 : (⟨S8x2048, .f32⟩ : BufTy).Contents (Elt F) → (⟨S8x2048, .i32⟩ : BufTy).Contents (Elt F)),
    nullary main_c_106 (constantI S_ 32 0#32),
    unary main_c_106 main_v305 (broadcastInDim S8x2048 ![] bcast_S_S8x2048 : (⟨S_, .i32⟩ : BufTy).Contents (Elt F) → (⟨S8x2048, .i32⟩ : BufTy).Contents (Elt F)),
    binary main_v35 main_v305 main_v306 (cmpi .slt : (⟨S8x2048, .i32⟩ : BufTy).Contents (Elt F) → (⟨S8x2048, .i32⟩ : BufTy).Contents (Elt F) → (⟨S8x2048, .i1⟩ : BufTy).Contents (Elt F)),
    nullary main_c_107 (constantI S_ 32 8#32),
    unary main_c_107 main_v307 (broadcastInDim S8x2048 ![] bcast_S_S8x2048 : (⟨S_, .i32⟩ : BufTy).Contents (Elt F) → (⟨S8x2048, .i32⟩ : BufTy).Contents (Elt F)),
    binary main_v35 main_v307 main_v308 (addi : (⟨S8x2048, .i32⟩ : BufTy).Contents (Elt F) → (⟨S8x2048, .i32⟩ : BufTy).Contents (Elt F) → (⟨S8x2048, .i32⟩ : BufTy).Contents (Elt F)),
    ternary main_v306 main_v308 main_v35 main_v309 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

set_option maxRecDepth 8192 in
set_option maxHeartbeats 4000000 in
theorem main_part6_eq (c : Dev nD) : main_part6 (F := F) c = seq ops_part6 := rfl

set_option maxRecDepth 8192 in
theorem ops_part6_sub : (ops_part6 : List (HloOp τ sig (Elt F))).Forall fun op => op.bufs ⊆ tcRefs τ sig :=
  ⟨binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

set_option maxRecDepth 8192 in
theorem ops_part6_fresh : ∀ op ∈ (ops_part6 : List (HloOp τ sig (Elt F))), op.fresh = ∅ :=
  List.forall_iff_forall_mem.mp (show (ops_part6 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 60 operations of window `main_part7` (@main's operations 481 … 540 of 978), in order. -/
abbrev ops_part7 : List (HloOp τ sig (Elt F)) :=
  [ nullary main_c_108 (constantI S_ 32 0#32),
    unary main_c_108 main_v310 (broadcastInDim S8x2048 ![] bcast_S_S8x2048 : (⟨S_, .i32⟩ : BufTy).Contents (Elt F) → (⟨S8x2048, .i32⟩ : BufTy).Contents (Elt F)),
    binary main_v304 main_v310 main_v311 (cmpi .slt : (⟨S8x2048, .i32⟩ : BufTy).Contents (Elt F) → (⟨S8x2048, .i32⟩ : BufTy).Contents (Elt F) → (⟨S8x2048, .i1⟩ : BufTy).Contents (Elt F)),
    nullary main_c_109 (constantI S_ 32 32#32),
    unary main_c_109 main_v312 (broadcastInDim S8x2048 ![] bcast_S_S8x2048 : (⟨S_, .i32⟩ : BufTy).Contents (Elt F) → (⟨S8x2048, .i32⟩ : BufTy).Contents (Elt F)),
    binary main_v304 main_v312 main_v313 (addi : (⟨S8x2048, .i32⟩ : BufTy).Contents (Elt F) → (⟨S8x2048, .i32⟩ : BufTy).Contents (Elt F) → (⟨S8x2048, .i32⟩ : BufTy).Contents (Elt F)),
    ternary main_v311 main_v313 main_v304 main_v314 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_110 (constantI S_ 32 0#32),
    unary main_c_110 main_v315 (broadcastInDim S8x2048 ![] bcast_S_S8x2048 : (⟨S_, .i32⟩ : BufTy).Contents (Elt F) → (⟨S8x2048, .i32⟩ : BufTy).Contents (Elt F)),
    binary main_v302 main_v315 main_v316 (cmpi .slt : (⟨S8x2048, .i32⟩ : BufTy).Contents (Elt F) → (⟨S8x2048, .i32⟩ : BufTy).Contents (Elt F) → (⟨S8x2048, .i1⟩ : BufTy).Contents (Elt F)),
    nullary main_c_111 (constantI S_ 32 32#32),
    unary main_c_111 main_v317 (broadcastInDim S8x2048 ![] bcast_S_S8x2048 : (⟨S_, .i32⟩ : BufTy).Contents (Elt F) → (⟨S8x2048, .i32⟩ : BufTy).Contents (Elt F)),
    binary main_v302 main_v317 main_v318 (addi : (⟨S8x2048, .i32⟩ : BufTy).Contents (Elt F) → (⟨S8x2048, .i32⟩ : BufTy).Contents (Elt F) → (⟨S8x2048, .i32⟩ : BufTy).Contents (Elt F)),
    ternary main_v316 main_v318 main_v302 main_v319 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_112 (constantI S_ 32 0#32),
    unary main_c_112 main_v320 (broadcastInDim S8x2048 ![] bcast_S_S8x2048 : (⟨S_, .i32⟩ : BufTy).Contents (Elt F) → (⟨S8x2048, .i32⟩ : BufTy).Contents (Elt F)),
    binary main_v300 main_v320 main_v321 (cmpi .slt : (⟨S8x2048, .i32⟩ : BufTy).Contents (Elt F) → (⟨S8x2048, .i32⟩ : BufTy).Contents (Elt F) → (⟨S8x2048, .i1⟩ : BufTy).Contents (Elt F)),
    nullary main_c_113 (constantI S_ 32 32#32),
    unary main_c_113 main_v322 (broadcastInDim S8x2048 ![] bcast_S_S8x2048 : (⟨S_, .i32⟩ : BufTy).Contents (Elt F) → (⟨S8x2048, .i32⟩ : BufTy).Contents (Elt F)),
    binary main_v300 main_v322 main_v323 (addi : (⟨S8x2048, .i32⟩ : BufTy).Contents (Elt F) → (⟨S8x2048, .i32⟩ : BufTy).Contents (Elt F) → (⟨S8x2048, .i32⟩ : BufTy).Contents (Elt F)),
    ternary main_v321 main_v323 main_v300 main_v324 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v309 main_v325 (broadcastInDim S8x2048x1 ![0, 1] bcast_S8x2048_S8x2048x1_0_1 : (⟨S8x2048, .i32⟩ : BufTy).Contents (Elt F) → (⟨S8x2048x1, .i32⟩ : BufTy).Contents (Elt F)),
    unary main_v314 main_v326 (broadcastInDim S8x2048x1 ![0, 1] bcast_S8x2048_S8x2048x1_0_1 : (⟨S8x2048, .i32⟩ : BufTy).Contents (Elt F) → (⟨S8x2048x1, .i32⟩ : BufTy).Contents (Elt F)),
    unary main_v319 main_v327 (broadcastInDim S8x2048x1 ![0, 1] bcast_S8x2048_S8x2048x1_0_1 : (⟨S8x2048, .i32⟩ : BufTy).Contents (Elt F) → (⟨S8x2048x1, .i32⟩ : BufTy).Contents (Elt F)),
    unary main_v324 main_v328 (broadcastInDim S8x2048x1 ![0, 1] bcast_S8x2048_S8x2048x1_0_1 : (⟨S8x2048, .i32⟩ : BufTy).Contents (Elt F) → (⟨S8x2048x1, .i32⟩ : BufTy).Contents (Elt F)),
    nary ![main_v325, main_v326, main_v327, main_v328] main_v329 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v329 main_v330 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v298 main_v331 (uitofp .f32 : (⟨S8x2048, .i1⟩ : BufTy).Contents (Elt F) → (⟨S8x2048, .f32⟩ : BufTy).Contents (Elt F)),
    binary main_v281 main_v331 main_v332 (mulf : (⟨S8x2048, .f32⟩ : BufTy).Contents (Elt F) → (⟨S8x2048, .f32⟩ : BufTy).Contents (Elt F) → (⟨S8x2048, .f32⟩ : BufTy).Contents (Elt F)),
    unary main_v332 main_v333 (broadcastInDim S8x2048x1 ![0, 1] bcast_S8x2048_S8x2048x1_0_1 : (⟨S8x2048, .f32⟩ : BufTy).Contents (Elt F) → (⟨S8x2048x1, .f32⟩ : BufTy).Contents (Elt F)),
    unary main_v333 main_v334 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v330 main_v334 main_v335 (mulf : (⟨S8x2048x128, .f32⟩ : BufTy).Contents (Elt F) → (⟨S8x2048x128, .f32⟩ : BufTy).Contents (Elt F) → (⟨S8x2048x128, .f32⟩ : BufTy).Contents (Elt F)),
    binary main_v261 main_v335 main_v336 (addf : (⟨S8x2048x128, .f32⟩ : BufTy).Contents (Elt F) → (⟨S8x2048x128, .f32⟩ : BufTy).Contents (Elt F) → (⟨S8x2048x128, .f32⟩ : BufTy).Contents (Elt F)),
    nullary main_cst_114 (constant S_ .f32 0x00000000#32),
    unary main_cst_114 main_v337 (broadcastInDim S8x2048 ![] bcast_S_S8x2048 : (⟨S_, .f32⟩ : BufTy).Contents (Elt F) → (⟨S8x2048, .f32⟩ : BufTy).Contents (Elt F)),
    binary main_v30 main_v337 main_v338 (addf : (⟨S8x2048, .f32⟩ : BufTy).Contents (Elt F) → (⟨S8x2048, .f32⟩ : BufTy).Contents (Elt F) → (⟨S8x2048, .f32⟩ : BufTy).Contents (Elt F)),
    nullary main_cst_115 (constant S_ .f32 0x00000000#32),
    unary main_cst_115 main_v339 (broadcastInDim S8x2048 ![] bcast_S_S8x2048 : (⟨S_, .f32⟩ : BufTy).Contents (Elt F) → (⟨S8x2048, .f32⟩ : BufTy).Contents (Elt F)),
    binary main_v31 main_v339 main_v340 (addf : (⟨S8x2048, .f32⟩ : BufTy).Contents (Elt F) → (⟨S8x2048, .f32⟩ : BufTy).Contents (Elt F) → (⟨S8x2048, .f32⟩ : BufTy).Contents (Elt F)),
    nullary main_cst_116 (constant S_ .f32 0x3F800000#32),
    unary main_cst_116 main_v341 (broadcastInDim S8x2048 ![] bcast_S_S8x2048 : (⟨S_, .f32⟩ : BufTy).Contents (Elt F) → (⟨S8x2048, .f32⟩ : BufTy).Contents (Elt F)),
    binary main_v32 main_v341 main_v342 (addf : (⟨S8x2048, .f32⟩ : BufTy).Contents (Elt F) → (⟨S8x2048, .f32⟩ : BufTy).Contents (Elt F) → (⟨S8x2048, .f32⟩ : BufTy).Contents (Elt F)),
    binary main_v13 main_v338 main_v343 (subf : (⟨S8x2048, .f32⟩ : BufTy).Contents (Elt F) → (⟨S8x2048, .f32⟩ : BufTy).Contents (Elt F) → (⟨S8x2048, .f32⟩ : BufTy).Contents (Elt F)),
    unary main_v343 main_v344 (Host.absf : (⟨S8x2048, .f32⟩ : BufTy).Contents (Elt F) → (⟨S8x2048, .f32⟩ : BufTy).Contents (Elt F)),
    nullary main_cst_117 (constant S_ .f32 0x3F800000#32),
    unary main_cst_117 main_v345 (broadcastInDim S8x2048 ![] bcast_S_S8x2048 : (⟨S_, .f32⟩ : BufTy).Contents (Elt F) → (⟨S8x2048, .f32⟩ : BufTy).Contents (Elt F)),
    binary main_v345 main_v344 main_v346 (subf : (⟨S8x2048, .f32⟩ : BufTy).Contents (Elt F) → (⟨S8x2048, .f32⟩ : BufTy).Contents (Elt F) → (⟨S8x2048, .f32⟩ : BufTy).Contents (Elt F)),
    binary main_v21 main_v340 main_v347 (subf : (⟨S8x2048, .f32⟩ : BufTy).Contents (Elt F) → (⟨S8x2048, .f32⟩ : BufTy).Contents (Elt F) → (⟨S8x2048, .f32⟩ : BufTy).Contents (Elt F)),
    unary main_v347 main_v348 (Host.absf : (⟨S8x2048, .f32⟩ : BufTy).Contents (Elt F) → (⟨S8x2048, .f32⟩ : BufTy).Contents (Elt F)),
    nullary main_cst_118 (constant S_ .f32 0x3F800000#32),
    unary main_cst_118 main_v349 (broadcastInDim S8x2048 ![] bcast_S_S8x2048 : (⟨S_, .f32⟩ : BufTy).Contents (Elt F) → (⟨S8x2048, .f32⟩ : BufTy).Contents (Elt F)),
    binary main_v349 main_v348 main_v350 (subf : (⟨S8x2048, .f32⟩ : BufTy).Contents (Elt F) → (⟨S8x2048, .f32⟩ : BufTy).Contents (Elt F) → (⟨S8x2048, .f32⟩ : BufTy).Contents (Elt F)),
    binary main_v346 main_v350 main_v351 (mulf : (⟨S8x2048, .f32⟩ : BufTy).Contents (Elt F) → (⟨S8x2048, .f32⟩ : BufTy).Contents (Elt F) → (⟨S8x2048, .f32⟩ : BufTy).Contents (Elt F)),
    binary main_v29 main_v342 main_v352 (subf : (⟨S8x2048, .f32⟩ : BufTy).Contents (Elt F) → (⟨S8x2048, .f32⟩ : BufTy).Contents (Elt F) → (⟨S8x2048, .f32⟩ : BufTy).Contents (Elt F)),
    unary main_v352 main_v353 (Host.absf : (⟨S8x2048, .f32⟩ : BufTy).Contents (Elt F) → (⟨S8x2048, .f32⟩ : BufTy).Contents (Elt F)),
    nullary main_cst_119 (constant S_ .f32 0x3F800000#32),
    unary main_cst_119 main_v354 (broadcastInDim S8x2048 ![] bcast_S_S8x2048 : (⟨S_, .f32⟩ : BufTy).Contents (Elt F) → (⟨S8x2048, .f32⟩ : BufTy).Contents (Elt F)),
    binary main_v354 main_v353 main_v355 (subf : (⟨S8x2048, .f32⟩ : BufTy).Contents (Elt F) → (⟨S8x2048, .f32⟩ : BufTy).Contents (Elt F) → (⟨S8x2048, .f32⟩ : BufTy).Contents (Elt F)),
    binary main_v351 main_v355 main_v356 (mulf : (⟨S8x2048, .f32⟩ : BufTy).Contents (Elt F) → (⟨S8x2048, .f32⟩ : BufTy).Contents (Elt F) → (⟨S8x2048, .f32⟩ : BufTy).Contents (Elt F)),
    nullary main_cst_120 (constant S_ .f32 0x00000000#32) ]

set_option maxRecDepth 8192 in
set_option maxHeartbeats 4000000 in
theorem main_part7_eq (c : Dev nD) : main_part7 (F := F) c = seq ops_part7 := rfl

set_option maxRecDepth 8192 in
theorem ops_part7_sub : (ops_part7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub ..⟩

set_option maxRecDepth 8192 in
theorem ops_part7_fresh : ∀ op ∈ (ops_part7 : List (HloOp τ sig (Elt F))), op.fresh = ∅ :=
  List.forall_iff_forall_mem.mp (show (ops_part7 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part8` (@main's operations 541 … 615 of 978), in order. -/
abbrev ops_part8 : List (HloOp τ sig (Elt F)) :=
  [ unary main_cst_120 main_v357 (broadcastInDim S8x2048 ![] bcast_S_S8x2048 : (⟨S_, .f32⟩ : BufTy).Contents (Elt F) → (⟨S8x2048, .f32⟩ : BufTy).Contents (Elt F)),
    binary main_v338 main_v357 main_v358 (cmpf .oge : (⟨S8x2048, .f32⟩ : BufTy).Contents (Elt F) → (⟨S8x2048, .f32⟩ : BufTy).Contents (Elt F) → (⟨S8x2048, .i1⟩ : BufTy).Contents (Elt F)),
    nullary main_cst_121 (constant S_ .f32 0x41F80000#32),
    unary main_cst_121 main_v359 (broadcastInDim S8x2048 ![] bcast_S_S8x2048 : (⟨S_, .f32⟩ : BufTy).Contents (Elt F) → (⟨S8x2048, .f32⟩ : BufTy).Contents (Elt F)),
    binary main_v338 main_v359 main_v360 (cmpf .ole : (⟨S8x2048, .f32⟩ : BufTy).Contents (Elt F) → (⟨S8x2048, .f32⟩ : BufTy).Contents (Elt F) → (⟨S8x2048, .i1⟩ : BufTy).Contents (Elt F)),
    binary main_v358 main_v360 main_v361 (andi : (⟨S8x2048, .i1⟩ : BufTy).Contents (Elt F) → (⟨S8x2048, .i1⟩ : BufTy).Contents (Elt F) → (⟨S8x2048, .i1⟩ : BufTy).Contents (Elt F)),
    nullary main_cst_122 (constant S_ .f32 0x00000000#32),
    unary main_cst_122 main_v362 (broadcastInDim S8x2048 ![] bcast_S_S8x2048 : (⟨S_, .f32⟩ : BufTy).Contents (Elt F) → (⟨S8x2048, .f32⟩ : BufTy).Contents (Elt F)),
    binary main_v340 main_v362 main_v363 (cmpf .oge : (⟨S8x2048, .f32⟩ : BufTy).Contents (Elt F) → (⟨S8x2048, .f32⟩ : BufTy).Contents (Elt F) → (⟨S8x2048, .i1⟩ : BufTy).Contents (Elt F)),
    binary main_v361 main_v363 main_v364 (andi : (⟨S8x2048, .i1⟩ : BufTy).Contents (Elt F) → (⟨S8x2048, .i1⟩ : BufTy).Contents (Elt F) → (⟨S8x2048, .i1⟩ : BufTy).Contents (Elt F)),
    nullary main_cst_123 (constant S_ .f32 0x41F80000#32),
    unary main_cst_123 main_v365 (broadcastInDim S8x2048 ![] bcast_S_S8x2048 : (⟨S_, .f32⟩ : BufTy).Contents (Elt F) → (⟨S8x2048, .f32⟩ : BufTy).Contents (Elt F)),
    binary main_v340 main_v365 main_v366 (cmpf .ole : (⟨S8x2048, .f32⟩ : BufTy).Contents (Elt F) → (⟨S8x2048, .f32⟩ : BufTy).Contents (Elt F) → (⟨S8x2048, .i1⟩ : BufTy).Contents (Elt F)),
    binary main_v364 main_v366 main_v367 (andi : (⟨S8x2048, .i1⟩ : BufTy).Contents (Elt F) → (⟨S8x2048, .i1⟩ : BufTy).Contents (Elt F) → (⟨S8x2048, .i1⟩ : BufTy).Contents (Elt F)),
    nullary main_cst_124 (constant S_ .f32 0x00000000#32),
    unary main_cst_124 main_v368 (broadcastInDim S8x2048 ![] bcast_S_S8x2048 : (⟨S_, .f32⟩ : BufTy).Contents (Elt F) → (⟨S8x2048, .f32⟩ : BufTy).Contents (Elt F)),
    binary main_v342 main_v368 main_v369 (cmpf .oge : (⟨S8x2048, .f32⟩ : BufTy).Contents (Elt F) → (⟨S8x2048, .f32⟩ : BufTy).Contents (Elt F) → (⟨S8x2048, .i1⟩ : BufTy).Contents (Elt F)),
    binary main_v367 main_v369 main_v370 (andi : (⟨S8x2048, .i1⟩ : BufTy).Contents (Elt F) → (⟨S8x2048, .i1⟩ : BufTy).Contents (Elt F) → (⟨S8x2048, .i1⟩ : BufTy).Contents (Elt F)),
    nullary main_cst_125 (constant S_ .f32 0x41F80000#32),
    unary main_cst_125 main_v371 (broadcastInDim S8x2048 ![] bcast_S_S8x2048 : (⟨S_, .f32⟩ : BufTy).Contents (Elt F) → (⟨S8x2048, .f32⟩ : BufTy).Contents (Elt F)),
    binary main_v342 main_v371 main_v372 (cmpf .ole : (⟨S8x2048, .f32⟩ : BufTy).Contents (Elt F) → (⟨S8x2048, .f32⟩ : BufTy).Contents (Elt F) → (⟨S8x2048, .i1⟩ : BufTy).Contents (Elt F)),
    binary main_v370 main_v372 main_v373 (andi : (⟨S8x2048, .i1⟩ : BufTy).Contents (Elt F) → (⟨S8x2048, .i1⟩ : BufTy).Contents (Elt F) → (⟨S8x2048, .i1⟩ : BufTy).Contents (Elt F)),
    nullary main_c_126 (constantI S_ 32 0#32),
    nullary main_c_127 (constantI S_ 32 31#32),
    TRef.unary (TRef.of (T := ⟨S_, .i32⟩) main_c_126) (TRef.of (T := ⟨S_, .f32⟩) main_call12_v0) (sitofp .f32),
    TRef.unary (TRef.of (T := ⟨S_, .f32⟩) main_call12_v0) (TRef.of (T := ⟨S8x2048, .f32⟩) main_call12_v1) (broadcastInDim S8x2048 ![] bcast_S_S8x2048),
    TRef.binary (TRef.of (T := ⟨S8x2048, .f32⟩) main_call12_v1) (TRef.of (T := ⟨S8x2048, .f32⟩) main_v338) (TRef.of (T := ⟨S8x2048, .f32⟩) main_call12_v2) maximumf,
    TRef.unary (TRef.of (T := ⟨S_, .i32⟩) main_c_127) (TRef.of (T := ⟨S_, .f32⟩) main_call12_v3) (sitofp .f32),
    TRef.unary (TRef.of (T := ⟨S_, .f32⟩) main_call12_v3) (TRef.of (T := ⟨S8x2048, .f32⟩) main_call12_v4) (broadcastInDim S8x2048 ![] bcast_S_S8x2048),
    TRef.binary (TRef.of (T := ⟨S8x2048, .f32⟩) main_call12_v4) (TRef.of (T := ⟨S8x2048, .f32⟩) main_call12_v2) (TRef.of (T := ⟨S8x2048, .f32⟩) main_v374) minimumf,
    unary main_v374 main_v375 (fptosi 32 : (⟨S8x2048, .f32⟩ : BufTy).Contents (Elt F) → (⟨S8x2048, .i32⟩ : BufTy).Contents (Elt F)),
    nullary main_c_128 (constantI S_ 32 0#32),
    nullary main_c_129 (constantI S_ 32 31#32),
    TRef.unary (TRef.of (T := ⟨S_, .i32⟩) main_c_128) (TRef.of (T := ⟨S_, .f32⟩) main_call13_v0) (sitofp .f32),
    TRef.unary (TRef.of (T := ⟨S_, .f32⟩) main_call13_v0) (TRef.of (T := ⟨S8x2048, .f32⟩) main_call13_v1) (broadcastInDim S8x2048 ![] bcast_S_S8x2048),
    TRef.binary (TRef.of (T := ⟨S8x2048, .f32⟩) main_call13_v1) (TRef.of (T := ⟨S8x2048, .f32⟩) main_v340) (TRef.of (T := ⟨S8x2048, .f32⟩) main_call13_v2) maximumf,
    TRef.unary (TRef.of (T := ⟨S_, .i32⟩) main_c_129) (TRef.of (T := ⟨S_, .f32⟩) main_call13_v3) (sitofp .f32),
    TRef.unary (TRef.of (T := ⟨S_, .f32⟩) main_call13_v3) (TRef.of (T := ⟨S8x2048, .f32⟩) main_call13_v4) (broadcastInDim S8x2048 ![] bcast_S_S8x2048),
    TRef.binary (TRef.of (T := ⟨S8x2048, .f32⟩) main_call13_v4) (TRef.of (T := ⟨S8x2048, .f32⟩) main_call13_v2) (TRef.of (T := ⟨S8x2048, .f32⟩) main_v376) minimumf,
    unary main_v376 main_v377 (fptosi 32 : (⟨S8x2048, .f32⟩ : BufTy).Contents (Elt F) → (⟨S8x2048, .i32⟩ : BufTy).Contents (Elt F)),
    nullary main_c_130 (constantI S_ 32 0#32),
    nullary main_c_131 (constantI S_ 32 31#32),
    TRef.unary (TRef.of (T := ⟨S_, .i32⟩) main_c_130) (TRef.of (T := ⟨S_, .f32⟩) main_call14_v0) (sitofp .f32),
    TRef.unary (TRef.of (T := ⟨S_, .f32⟩) main_call14_v0) (TRef.of (T := ⟨S8x2048, .f32⟩) main_call14_v1) (broadcastInDim S8x2048 ![] bcast_S_S8x2048),
    TRef.binary (TRef.of (T := ⟨S8x2048, .f32⟩) main_call14_v1) (TRef.of (T := ⟨S8x2048, .f32⟩) main_v342) (TRef.of (T := ⟨S8x2048, .f32⟩) main_call14_v2) maximumf,
    TRef.unary (TRef.of (T := ⟨S_, .i32⟩) main_c_131) (TRef.of (T := ⟨S_, .f32⟩) main_call14_v3) (sitofp .f32),
    TRef.unary (TRef.of (T := ⟨S_, .f32⟩) main_call14_v3) (TRef.of (T := ⟨S8x2048, .f32⟩) main_call14_v4) (broadcastInDim S8x2048 ![] bcast_S_S8x2048),
    TRef.binary (TRef.of (T := ⟨S8x2048, .f32⟩) main_call14_v4) (TRef.of (T := ⟨S8x2048, .f32⟩) main_call14_v2) (TRef.of (T := ⟨S8x2048, .f32⟩) main_v378) minimumf,
    unary main_v378 main_v379 (fptosi 32 : (⟨S8x2048, .f32⟩ : BufTy).Contents (Elt F) → (⟨S8x2048, .i32⟩ : BufTy).Contents (Elt F)),
    nullary main_c_132 (constantI S_ 32 0#32),
    unary main_c_132 main_v380 (broadcastInDim S8x2048 ![] bcast_S_S8x2048 : (⟨S_, .i32⟩ : BufTy).Contents (Elt F) → (⟨S8x2048, .i32⟩ : BufTy).Contents (Elt F)),
    binary main_v35 main_v380 main_v381 (cmpi .slt : (⟨S8x2048, .i32⟩ : BufTy).Contents (Elt F) → (⟨S8x2048, .i32⟩ : BufTy).Contents (Elt F) → (⟨S8x2048, .i1⟩ : BufTy).Contents (Elt F)),
    nullary main_c_133 (constantI S_ 32 8#32),
    unary main_c_133 main_v382 (broadcastInDim S8x2048 ![] bcast_S_S8x2048 : (⟨S_, .i32⟩ : BufTy).Contents (Elt F) → (⟨S8x2048, .i32⟩ : BufTy).Contents (Elt F)),
    binary main_v35 main_v382 main_v383 (addi : (⟨S8x2048, .i32⟩ : BufTy).Contents (Elt F) → (⟨S8x2048, .i32⟩ : BufTy).Contents (Elt F) → (⟨S8x2048, .i32⟩ : BufTy).Contents (Elt F)),
    ternary main_v381 main_v383 main_v35 main_v384 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_134 (constantI S_ 32 0#32),
    unary main_c_134 main_v385 (broadcastInDim S8x2048 ![] bcast_S_S8x2048 : (⟨S_, .i32⟩ : BufTy).Contents (Elt F) → (⟨S8x2048, .i32⟩ : BufTy).Contents (Elt F)),
    binary main_v379 main_v385 main_v386 (cmpi .slt : (⟨S8x2048, .i32⟩ : BufTy).Contents (Elt F) → (⟨S8x2048, .i32⟩ : BufTy).Contents (Elt F) → (⟨S8x2048, .i1⟩ : BufTy).Contents (Elt F)),
    nullary main_c_135 (constantI S_ 32 32#32),
    unary main_c_135 main_v387 (broadcastInDim S8x2048 ![] bcast_S_S8x2048 : (⟨S_, .i32⟩ : BufTy).Contents (Elt F) → (⟨S8x2048, .i32⟩ : BufTy).Contents (Elt F)),
    binary main_v379 main_v387 main_v388 (addi : (⟨S8x2048, .i32⟩ : BufTy).Contents (Elt F) → (⟨S8x2048, .i32⟩ : BufTy).Contents (Elt F) → (⟨S8x2048, .i32⟩ : BufTy).Contents (Elt F)),
    ternary main_v386 main_v388 main_v379 main_v389 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_136 (constantI S_ 32 0#32),
    unary main_c_136 main_v390 (broadcastInDim S8x2048 ![] bcast_S_S8x2048 : (⟨S_, .i32⟩ : BufTy).Contents (Elt F) → (⟨S8x2048, .i32⟩ : BufTy).Contents (Elt F)),
    binary main_v377 main_v390 main_v391 (cmpi .slt : (⟨S8x2048, .i32⟩ : BufTy).Contents (Elt F) → (⟨S8x2048, .i32⟩ : BufTy).Contents (Elt F) → (⟨S8x2048, .i1⟩ : BufTy).Contents (Elt F)),
    nullary main_c_137 (constantI S_ 32 32#32),
    unary main_c_137 main_v392 (broadcastInDim S8x2048 ![] bcast_S_S8x2048 : (⟨S_, .i32⟩ : BufTy).Contents (Elt F) → (⟨S8x2048, .i32⟩ : BufTy).Contents (Elt F)),
    binary main_v377 main_v392 main_v393 (addi : (⟨S8x2048, .i32⟩ : BufTy).Contents (Elt F) → (⟨S8x2048, .i32⟩ : BufTy).Contents (Elt F) → (⟨S8x2048, .i32⟩ : BufTy).Contents (Elt F)),
    ternary main_v391 main_v393 main_v377 main_v394 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_138 (constantI S_ 32 0#32),
    unary main_c_138 main_v395 (broadcastInDim S8x2048 ![] bcast_S_S8x2048 : (⟨S_, .i32⟩ : BufTy).Contents (Elt F) → (⟨S8x2048, .i32⟩ : BufTy).Contents (Elt F)),
    binary main_v375 main_v395 main_v396 (cmpi .slt : (⟨S8x2048, .i32⟩ : BufTy).Contents (Elt F) → (⟨S8x2048, .i32⟩ : BufTy).Contents (Elt F) → (⟨S8x2048, .i1⟩ : BufTy).Contents (Elt F)),
    nullary main_c_139 (constantI S_ 32 32#32),
    unary main_c_139 main_v397 (broadcastInDim S8x2048 ![] bcast_S_S8x2048 : (⟨S_, .i32⟩ : BufTy).Contents (Elt F) → (⟨S8x2048, .i32⟩ : BufTy).Contents (Elt F)) ]

set_option maxRecDepth 8192 in
set_option maxHeartbeats 4000000 in
theorem main_part8_eq (c : Dev nD) : main_part8 (F := F) c = seq ops_part8 := rfl

set_option maxRecDepth 8192 in
theorem ops_part8_sub : (ops_part8 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
theorem ops_part8_fresh : ∀ op ∈ (ops_part8 : List (HloOp τ sig (Elt F))), op.fresh = ∅ :=
  List.forall_iff_forall_mem.mp (show (ops_part8 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 60 operations of window `main_part9` (@main's operations 616 … 675 of 978), in order. -/
abbrev ops_part9 : List (HloOp τ sig (Elt F)) :=
  [ binary main_v375 main_v397 main_v398 (addi : (⟨S8x2048, .i32⟩ : BufTy).Contents (Elt F) → (⟨S8x2048, .i32⟩ : BufTy).Contents (Elt F) → (⟨S8x2048, .i32⟩ : BufTy).Contents (Elt F)),
    ternary main_v396 main_v398 main_v375 main_v399 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v384 main_v400 (broadcastInDim S8x2048x1 ![0, 1] bcast_S8x2048_S8x2048x1_0_1 : (⟨S8x2048, .i32⟩ : BufTy).Contents (Elt F) → (⟨S8x2048x1, .i32⟩ : BufTy).Contents (Elt F)),
    unary main_v389 main_v401 (broadcastInDim S8x2048x1 ![0, 1] bcast_S8x2048_S8x2048x1_0_1 : (⟨S8x2048, .i32⟩ : BufTy).Contents (Elt F) → (⟨S8x2048x1, .i32⟩ : BufTy).Contents (Elt F)),
    unary main_v394 main_v402 (broadcastInDim S8x2048x1 ![0, 1] bcast_S8x2048_S8x2048x1_0_1 : (⟨S8x2048, .i32⟩ : BufTy).Contents (Elt F) → (⟨S8x2048x1, .i32⟩ : BufTy).Contents (Elt F)),
    unary main_v399 main_v403 (broadcastInDim S8x2048x1 ![0, 1] bcast_S8x2048_S8x2048x1_0_1 : (⟨S8x2048, .i32⟩ : BufTy).Contents (Elt F) → (⟨S8x2048x1, .i32⟩ : BufTy).Contents (Elt F)),
    nary ![main_v400, main_v401, main_v402, main_v403] main_v404 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v404 main_v405 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v373 main_v406 (uitofp .f32 : (⟨S8x2048, .i1⟩ : BufTy).Contents (Elt F) → (⟨S8x2048, .f32⟩ : BufTy).Contents (Elt F)),
    binary main_v356 main_v406 main_v407 (mulf : (⟨S8x2048, .f32⟩ : BufTy).Contents (Elt F) → (⟨S8x2048, .f32⟩ : BufTy).Contents (Elt F) → (⟨S8x2048, .f32⟩ : BufTy).Contents (Elt F)),
    unary main_v407 main_v408 (broadcastInDim S8x2048x1 ![0, 1] bcast_S8x2048_S8x2048x1_0_1 : (⟨S8x2048, .f32⟩ : BufTy).Contents (Elt F) → (⟨S8x2048x1, .f32⟩ : BufTy).Contents (Elt F)),
    unary main_v408 main_v409 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v405 main_v409 main_v410 (mulf : (⟨S8x2048x128, .f32⟩ : BufTy).Contents (Elt F) → (⟨S8x2048x128, .f32⟩ : BufTy).Contents (Elt F) → (⟨S8x2048x128, .f32⟩ : BufTy).Contents (Elt F)),
    binary main_v336 main_v410 main_v411 (addf : (⟨S8x2048x128, .f32⟩ : BufTy).Contents (Elt F) → (⟨S8x2048x128, .f32⟩ : BufTy).Contents (Elt F) → (⟨S8x2048x128, .f32⟩ : BufTy).Contents (Elt F)),
    nullary main_cst_140 (constant S_ .f32 0x3F800000#32),
    unary main_cst_140 main_v412 (broadcastInDim S8x2048 ![] bcast_S_S8x2048 : (⟨S_, .f32⟩ : BufTy).Contents (Elt F) → (⟨S8x2048, .f32⟩ : BufTy).Contents (Elt F)),
    binary main_v30 main_v412 main_v413 (addf : (⟨S8x2048, .f32⟩ : BufTy).Contents (Elt F) → (⟨S8x2048, .f32⟩ : BufTy).Contents (Elt F) → (⟨S8x2048, .f32⟩ : BufTy).Contents (Elt F)),
    nullary main_cst_141 (constant S_ .f32 0x00000000#32),
    unary main_cst_141 main_v414 (broadcastInDim S8x2048 ![] bcast_S_S8x2048 : (⟨S_, .f32⟩ : BufTy).Contents (Elt F) → (⟨S8x2048, .f32⟩ : BufTy).Contents (Elt F)),
    binary main_v31 main_v414 main_v415 (addf : (⟨S8x2048, .f32⟩ : BufTy).Contents (Elt F) → (⟨S8x2048, .f32⟩ : BufTy).Contents (Elt F) → (⟨S8x2048, .f32⟩ : BufTy).Contents (Elt F)),
    nullary main_cst_142 (constant S_ .f32 0x3F800000#32),
    unary main_cst_142 main_v416 (broadcastInDim S8x2048 ![] bcast_S_S8x2048 : (⟨S_, .f32⟩ : BufTy).Contents (Elt F) → (⟨S8x2048, .f32⟩ : BufTy).Contents (Elt F)),
    binary main_v32 main_v416 main_v417 (addf : (⟨S8x2048, .f32⟩ : BufTy).Contents (Elt F) → (⟨S8x2048, .f32⟩ : BufTy).Contents (Elt F) → (⟨S8x2048, .f32⟩ : BufTy).Contents (Elt F)),
    binary main_v13 main_v413 main_v418 (subf : (⟨S8x2048, .f32⟩ : BufTy).Contents (Elt F) → (⟨S8x2048, .f32⟩ : BufTy).Contents (Elt F) → (⟨S8x2048, .f32⟩ : BufTy).Contents (Elt F)),
    unary main_v418 main_v419 (Host.absf : (⟨S8x2048, .f32⟩ : BufTy).Contents (Elt F) → (⟨S8x2048, .f32⟩ : BufTy).Contents (Elt F)),
    nullary main_cst_143 (constant S_ .f32 0x3F800000#32),
    unary main_cst_143 main_v420 (broadcastInDim S8x2048 ![] bcast_S_S8x2048 : (⟨S_, .f32⟩ : BufTy).Contents (Elt F) → (⟨S8x2048, .f32⟩ : BufTy).Contents (Elt F)),
    binary main_v420 main_v419 main_v421 (subf : (⟨S8x2048, .f32⟩ : BufTy).Contents (Elt F) → (⟨S8x2048, .f32⟩ : BufTy).Contents (Elt F) → (⟨S8x2048, .f32⟩ : BufTy).Contents (Elt F)),
    binary main_v21 main_v415 main_v422 (subf : (⟨S8x2048, .f32⟩ : BufTy).Contents (Elt F) → (⟨S8x2048, .f32⟩ : BufTy).Contents (Elt F) → (⟨S8x2048, .f32⟩ : BufTy).Contents (Elt F)),
    unary main_v422 main_v423 (Host.absf : (⟨S8x2048, .f32⟩ : BufTy).Contents (Elt F) → (⟨S8x2048, .f32⟩ : BufTy).Contents (Elt F)),
    nullary main_cst_144 (constant S_ .f32 0x3F800000#32),
    unary main_cst_144 main_v424 (broadcastInDim S8x2048 ![] bcast_S_S8x2048 : (⟨S_, .f32⟩ : BufTy).Contents (Elt F) → (⟨S8x2048, .f32⟩ : BufTy).Contents (Elt F)),
    binary main_v424 main_v423 main_v425 (subf : (⟨S8x2048, .f32⟩ : BufTy).Contents (Elt F) → (⟨S8x2048, .f32⟩ : BufTy).Contents (Elt F) → (⟨S8x2048, .f32⟩ : BufTy).Contents (Elt F)),
    binary main_v421 main_v425 main_v426 (mulf : (⟨S8x2048, .f32⟩ : BufTy).Contents (Elt F) → (⟨S8x2048, .f32⟩ : BufTy).Contents (Elt F) → (⟨S8x2048, .f32⟩ : BufTy).Contents (Elt F)),
    binary main_v29 main_v417 main_v427 (subf : (⟨S8x2048, .f32⟩ : BufTy).Contents (Elt F) → (⟨S8x2048, .f32⟩ : BufTy).Contents (Elt F) → (⟨S8x2048, .f32⟩ : BufTy).Contents (Elt F)),
    unary main_v427 main_v428 (Host.absf : (⟨S8x2048, .f32⟩ : BufTy).Contents (Elt F) → (⟨S8x2048, .f32⟩ : BufTy).Contents (Elt F)),
    nullary main_cst_145 (constant S_ .f32 0x3F800000#32),
    unary main_cst_145 main_v429 (broadcastInDim S8x2048 ![] bcast_S_S8x2048 : (⟨S_, .f32⟩ : BufTy).Contents (Elt F) → (⟨S8x2048, .f32⟩ : BufTy).Contents (Elt F)),
    binary main_v429 main_v428 main_v430 (subf : (⟨S8x2048, .f32⟩ : BufTy).Contents (Elt F) → (⟨S8x2048, .f32⟩ : BufTy).Contents (Elt F) → (⟨S8x2048, .f32⟩ : BufTy).Contents (Elt F)),
    binary main_v426 main_v430 main_v431 (mulf : (⟨S8x2048, .f32⟩ : BufTy).Contents (Elt F) → (⟨S8x2048, .f32⟩ : BufTy).Contents (Elt F) → (⟨S8x2048, .f32⟩ : BufTy).Contents (Elt F)),
    nullary main_cst_146 (constant S_ .f32 0x00000000#32),
    unary main_cst_146 main_v432 (broadcastInDim S8x2048 ![] bcast_S_S8x2048 : (⟨S_, .f32⟩ : BufTy).Contents (Elt F) → (⟨S8x2048, .f32⟩ : BufTy).Contents (Elt F)),
    binary main_v413 main_v432 main_v433 (cmpf .oge : (⟨S8x2048, .f32⟩ : BufTy).Contents (Elt F) → (⟨S8x2048, .f32⟩ : BufTy).Contents (Elt F) → (⟨S8x2048, .i1⟩ : BufTy).Contents (Elt F)),
    nullary main_cst_147 (constant S_ .f32 0x41F80000#32),
    unary main_cst_147 main_v434 (broadcastInDim S8x2048 ![] bcast_S_S8x2048 : (⟨S_, .f32⟩ : BufTy).Contents (Elt F) → (⟨S8x2048, .f32⟩ : BufTy).Contents (Elt F)),
    binary main_v413 main_v434 main_v435 (cmpf .ole : (⟨S8x2048, .f32⟩ : BufTy).Contents (Elt F) → (⟨S8x2048, .f32⟩ : BufTy).Contents (Elt F) → (⟨S8x2048, .i1⟩ : BufTy).Contents (Elt F)),
    binary main_v433 main_v435 main_v436 (andi : (⟨S8x2048, .i1⟩ : BufTy).Contents (Elt F) → (⟨S8x2048, .i1⟩ : BufTy).Contents (Elt F) → (⟨S8x2048, .i1⟩ : BufTy).Contents (Elt F)),
    nullary main_cst_148 (constant S_ .f32 0x00000000#32),
    unary main_cst_148 main_v437 (broadcastInDim S8x2048 ![] bcast_S_S8x2048 : (⟨S_, .f32⟩ : BufTy).Contents (Elt F) → (⟨S8x2048, .f32⟩ : BufTy).Contents (Elt F)),
    binary main_v415 main_v437 main_v438 (cmpf .oge : (⟨S8x2048, .f32⟩ : BufTy).Contents (Elt F) → (⟨S8x2048, .f32⟩ : BufTy).Contents (Elt F) → (⟨S8x2048, .i1⟩ : BufTy).Contents (Elt F)),
    binary main_v436 main_v438 main_v439 (andi : (⟨S8x2048, .i1⟩ : BufTy).Contents (Elt F) → (⟨S8x2048, .i1⟩ : BufTy).Contents (Elt F) → (⟨S8x2048, .i1⟩ : BufTy).Contents (Elt F)),
    nullary main_cst_149 (constant S_ .f32 0x41F80000#32),
    unary main_cst_149 main_v440 (broadcastInDim S8x2048 ![] bcast_S_S8x2048 : (⟨S_, .f32⟩ : BufTy).Contents (Elt F) → (⟨S8x2048, .f32⟩ : BufTy).Contents (Elt F)),
    binary main_v415 main_v440 main_v441 (cmpf .ole : (⟨S8x2048, .f32⟩ : BufTy).Contents (Elt F) → (⟨S8x2048, .f32⟩ : BufTy).Contents (Elt F) → (⟨S8x2048, .i1⟩ : BufTy).Contents (Elt F)),
    binary main_v439 main_v441 main_v442 (andi : (⟨S8x2048, .i1⟩ : BufTy).Contents (Elt F) → (⟨S8x2048, .i1⟩ : BufTy).Contents (Elt F) → (⟨S8x2048, .i1⟩ : BufTy).Contents (Elt F)),
    nullary main_cst_150 (constant S_ .f32 0x00000000#32),
    unary main_cst_150 main_v443 (broadcastInDim S8x2048 ![] bcast_S_S8x2048 : (⟨S_, .f32⟩ : BufTy).Contents (Elt F) → (⟨S8x2048, .f32⟩ : BufTy).Contents (Elt F)),
    binary main_v417 main_v443 main_v444 (cmpf .oge : (⟨S8x2048, .f32⟩ : BufTy).Contents (Elt F) → (⟨S8x2048, .f32⟩ : BufTy).Contents (Elt F) → (⟨S8x2048, .i1⟩ : BufTy).Contents (Elt F)),
    binary main_v442 main_v444 main_v445 (andi : (⟨S8x2048, .i1⟩ : BufTy).Contents (Elt F) → (⟨S8x2048, .i1⟩ : BufTy).Contents (Elt F) → (⟨S8x2048, .i1⟩ : BufTy).Contents (Elt F)),
    nullary main_cst_151 (constant S_ .f32 0x41F80000#32) ]

set_option maxRecDepth 8192 in
set_option maxHeartbeats 4000000 in
theorem main_part9_eq (c : Dev nD) : main_part9 (F := F) c = seq ops_part9 := rfl

set_option maxRecDepth 8192 in
theorem ops_part9_sub : (ops_part9 : List (HloOp τ sig (Elt F))).Forall fun op => op.bufs ⊆ tcRefs τ sig :=
  ⟨binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩

set_option maxRecDepth 8192 in
theorem ops_part9_fresh : ∀ op ∈ (ops_part9 : List (HloOp τ sig (Elt F))), op.fresh = ∅ :=
  List.forall_iff_forall_mem.mp (show (ops_part9 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part10` (@main's operations 676 … 750 of 978), in order. -/
abbrev ops_part10 : List (HloOp τ sig (Elt F)) :=
  [ unary main_cst_151 main_v446 (broadcastInDim S8x2048 ![] bcast_S_S8x2048 : (⟨S_, .f32⟩ : BufTy).Contents (Elt F) → (⟨S8x2048, .f32⟩ : BufTy).Contents (Elt F)),
    binary main_v417 main_v446 main_v447 (cmpf .ole : (⟨S8x2048, .f32⟩ : BufTy).Contents (Elt F) → (⟨S8x2048, .f32⟩ : BufTy).Contents (Elt F) → (⟨S8x2048, .i1⟩ : BufTy).Contents (Elt F)),
    binary main_v445 main_v447 main_v448 (andi : (⟨S8x2048, .i1⟩ : BufTy).Contents (Elt F) → (⟨S8x2048, .i1⟩ : BufTy).Contents (Elt F) → (⟨S8x2048, .i1⟩ : BufTy).Contents (Elt F)),
    nullary main_c_152 (constantI S_ 32 0#32),
    nullary main_c_153 (constantI S_ 32 31#32),
    TRef.unary (TRef.of (T := ⟨S_, .i32⟩) main_c_152) (TRef.of (T := ⟨S_, .f32⟩) main_call15_v0) (sitofp .f32),
    TRef.unary (TRef.of (T := ⟨S_, .f32⟩) main_call15_v0) (TRef.of (T := ⟨S8x2048, .f32⟩) main_call15_v1) (broadcastInDim S8x2048 ![] bcast_S_S8x2048),
    TRef.binary (TRef.of (T := ⟨S8x2048, .f32⟩) main_call15_v1) (TRef.of (T := ⟨S8x2048, .f32⟩) main_v413) (TRef.of (T := ⟨S8x2048, .f32⟩) main_call15_v2) maximumf,
    TRef.unary (TRef.of (T := ⟨S_, .i32⟩) main_c_153) (TRef.of (T := ⟨S_, .f32⟩) main_call15_v3) (sitofp .f32),
    TRef.unary (TRef.of (T := ⟨S_, .f32⟩) main_call15_v3) (TRef.of (T := ⟨S8x2048, .f32⟩) main_call15_v4) (broadcastInDim S8x2048 ![] bcast_S_S8x2048),
    TRef.binary (TRef.of (T := ⟨S8x2048, .f32⟩) main_call15_v4) (TRef.of (T := ⟨S8x2048, .f32⟩) main_call15_v2) (TRef.of (T := ⟨S8x2048, .f32⟩) main_v449) minimumf,
    unary main_v449 main_v450 (fptosi 32 : (⟨S8x2048, .f32⟩ : BufTy).Contents (Elt F) → (⟨S8x2048, .i32⟩ : BufTy).Contents (Elt F)),
    nullary main_c_154 (constantI S_ 32 0#32),
    nullary main_c_155 (constantI S_ 32 31#32),
    TRef.unary (TRef.of (T := ⟨S_, .i32⟩) main_c_154) (TRef.of (T := ⟨S_, .f32⟩) main_call16_v0) (sitofp .f32),
    TRef.unary (TRef.of (T := ⟨S_, .f32⟩) main_call16_v0) (TRef.of (T := ⟨S8x2048, .f32⟩) main_call16_v1) (broadcastInDim S8x2048 ![] bcast_S_S8x2048),
    TRef.binary (TRef.of (T := ⟨S8x2048, .f32⟩) main_call16_v1) (TRef.of (T := ⟨S8x2048, .f32⟩) main_v415) (TRef.of (T := ⟨S8x2048, .f32⟩) main_call16_v2) maximumf,
    TRef.unary (TRef.of (T := ⟨S_, .i32⟩) main_c_155) (TRef.of (T := ⟨S_, .f32⟩) main_call16_v3) (sitofp .f32),
    TRef.unary (TRef.of (T := ⟨S_, .f32⟩) main_call16_v3) (TRef.of (T := ⟨S8x2048, .f32⟩) main_call16_v4) (broadcastInDim S8x2048 ![] bcast_S_S8x2048),
    TRef.binary (TRef.of (T := ⟨S8x2048, .f32⟩) main_call16_v4) (TRef.of (T := ⟨S8x2048, .f32⟩) main_call16_v2) (TRef.of (T := ⟨S8x2048, .f32⟩) main_v451) minimumf,
    unary main_v451 main_v452 (fptosi 32 : (⟨S8x2048, .f32⟩ : BufTy).Contents (Elt F) → (⟨S8x2048, .i32⟩ : BufTy).Contents (Elt F)),
    nullary main_c_156 (constantI S_ 32 0#32),
    nullary main_c_157 (constantI S_ 32 31#32),
    TRef.unary (TRef.of (T := ⟨S_, .i32⟩) main_c_156) (TRef.of (T := ⟨S_, .f32⟩) main_call17_v0) (sitofp .f32),
    TRef.unary (TRef.of (T := ⟨S_, .f32⟩) main_call17_v0) (TRef.of (T := ⟨S8x2048, .f32⟩) main_call17_v1) (broadcastInDim S8x2048 ![] bcast_S_S8x2048),
    TRef.binary (TRef.of (T := ⟨S8x2048, .f32⟩) main_call17_v1) (TRef.of (T := ⟨S8x2048, .f32⟩) main_v417) (TRef.of (T := ⟨S8x2048, .f32⟩) main_call17_v2) maximumf,
    TRef.unary (TRef.of (T := ⟨S_, .i32⟩) main_c_157) (TRef.of (T := ⟨S_, .f32⟩) main_call17_v3) (sitofp .f32),
    TRef.unary (TRef.of (T := ⟨S_, .f32⟩) main_call17_v3) (TRef.of (T := ⟨S8x2048, .f32⟩) main_call17_v4) (broadcastInDim S8x2048 ![] bcast_S_S8x2048),
    TRef.binary (TRef.of (T := ⟨S8x2048, .f32⟩) main_call17_v4) (TRef.of (T := ⟨S8x2048, .f32⟩) main_call17_v2) (TRef.of (T := ⟨S8x2048, .f32⟩) main_v453) minimumf,
    unary main_v453 main_v454 (fptosi 32 : (⟨S8x2048, .f32⟩ : BufTy).Contents (Elt F) → (⟨S8x2048, .i32⟩ : BufTy).Contents (Elt F)),
    nullary main_c_158 (constantI S_ 32 0#32),
    unary main_c_158 main_v455 (broadcastInDim S8x2048 ![] bcast_S_S8x2048 : (⟨S_, .i32⟩ : BufTy).Contents (Elt F) → (⟨S8x2048, .i32⟩ : BufTy).Contents (Elt F)),
    binary main_v35 main_v455 main_v456 (cmpi .slt : (⟨S8x2048, .i32⟩ : BufTy).Contents (Elt F) → (⟨S8x2048, .i32⟩ : BufTy).Contents (Elt F) → (⟨S8x2048, .i1⟩ : BufTy).Contents (Elt F)),
    nullary main_c_159 (constantI S_ 32 8#32),
    unary main_c_159 main_v457 (broadcastInDim S8x2048 ![] bcast_S_S8x2048 : (⟨S_, .i32⟩ : BufTy).Contents (Elt F) → (⟨S8x2048, .i32⟩ : BufTy).Contents (Elt F)),
    binary main_v35 main_v457 main_v458 (addi : (⟨S8x2048, .i32⟩ : BufTy).Contents (Elt F) → (⟨S8x2048, .i32⟩ : BufTy).Contents (Elt F) → (⟨S8x2048, .i32⟩ : BufTy).Contents (Elt F)),
    ternary main_v456 main_v458 main_v35 main_v459 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_160 (constantI S_ 32 0#32),
    unary main_c_160 main_v460 (broadcastInDim S8x2048 ![] bcast_S_S8x2048 : (⟨S_, .i32⟩ : BufTy).Contents (Elt F) → (⟨S8x2048, .i32⟩ : BufTy).Contents (Elt F)),
    binary main_v454 main_v460 main_v461 (cmpi .slt : (⟨S8x2048, .i32⟩ : BufTy).Contents (Elt F) → (⟨S8x2048, .i32⟩ : BufTy).Contents (Elt F) → (⟨S8x2048, .i1⟩ : BufTy).Contents (Elt F)),
    nullary main_c_161 (constantI S_ 32 32#32),
    unary main_c_161 main_v462 (broadcastInDim S8x2048 ![] bcast_S_S8x2048 : (⟨S_, .i32⟩ : BufTy).Contents (Elt F) → (⟨S8x2048, .i32⟩ : BufTy).Contents (Elt F)),
    binary main_v454 main_v462 main_v463 (addi : (⟨S8x2048, .i32⟩ : BufTy).Contents (Elt F) → (⟨S8x2048, .i32⟩ : BufTy).Contents (Elt F) → (⟨S8x2048, .i32⟩ : BufTy).Contents (Elt F)),
    ternary main_v461 main_v463 main_v454 main_v464 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_162 (constantI S_ 32 0#32),
    unary main_c_162 main_v465 (broadcastInDim S8x2048 ![] bcast_S_S8x2048 : (⟨S_, .i32⟩ : BufTy).Contents (Elt F) → (⟨S8x2048, .i32⟩ : BufTy).Contents (Elt F)),
    binary main_v452 main_v465 main_v466 (cmpi .slt : (⟨S8x2048, .i32⟩ : BufTy).Contents (Elt F) → (⟨S8x2048, .i32⟩ : BufTy).Contents (Elt F) → (⟨S8x2048, .i1⟩ : BufTy).Contents (Elt F)),
    nullary main_c_163 (constantI S_ 32 32#32),
    unary main_c_163 main_v467 (broadcastInDim S8x2048 ![] bcast_S_S8x2048 : (⟨S_, .i32⟩ : BufTy).Contents (Elt F) → (⟨S8x2048, .i32⟩ : BufTy).Contents (Elt F)),
    binary main_v452 main_v467 main_v468 (addi : (⟨S8x2048, .i32⟩ : BufTy).Contents (Elt F) → (⟨S8x2048, .i32⟩ : BufTy).Contents (Elt F) → (⟨S8x2048, .i32⟩ : BufTy).Contents (Elt F)),
    ternary main_v466 main_v468 main_v452 main_v469 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_164 (constantI S_ 32 0#32),
    unary main_c_164 main_v470 (broadcastInDim S8x2048 ![] bcast_S_S8x2048 : (⟨S_, .i32⟩ : BufTy).Contents (Elt F) → (⟨S8x2048, .i32⟩ : BufTy).Contents (Elt F)),
    binary main_v450 main_v470 main_v471 (cmpi .slt : (⟨S8x2048, .i32⟩ : BufTy).Contents (Elt F) → (⟨S8x2048, .i32⟩ : BufTy).Contents (Elt F) → (⟨S8x2048, .i1⟩ : BufTy).Contents (Elt F)),
    nullary main_c_165 (constantI S_ 32 32#32),
    unary main_c_165 main_v472 (broadcastInDim S8x2048 ![] bcast_S_S8x2048 : (⟨S_, .i32⟩ : BufTy).Contents (Elt F) → (⟨S8x2048, .i32⟩ : BufTy).Contents (Elt F)),
    binary main_v450 main_v472 main_v473 (addi : (⟨S8x2048, .i32⟩ : BufTy).Contents (Elt F) → (⟨S8x2048, .i32⟩ : BufTy).Contents (Elt F) → (⟨S8x2048, .i32⟩ : BufTy).Contents (Elt F)),
    ternary main_v471 main_v473 main_v450 main_v474 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v459 main_v475 (broadcastInDim S8x2048x1 ![0, 1] bcast_S8x2048_S8x2048x1_0_1 : (⟨S8x2048, .i32⟩ : BufTy).Contents (Elt F) → (⟨S8x2048x1, .i32⟩ : BufTy).Contents (Elt F)),
    unary main_v464 main_v476 (broadcastInDim S8x2048x1 ![0, 1] bcast_S8x2048_S8x2048x1_0_1 : (⟨S8x2048, .i32⟩ : BufTy).Contents (Elt F) → (⟨S8x2048x1, .i32⟩ : BufTy).Contents (Elt F)),
    unary main_v469 main_v477 (broadcastInDim S8x2048x1 ![0, 1] bcast_S8x2048_S8x2048x1_0_1 : (⟨S8x2048, .i32⟩ : BufTy).Contents (Elt F) → (⟨S8x2048x1, .i32⟩ : BufTy).Contents (Elt F)),
    unary main_v474 main_v478 (broadcastInDim S8x2048x1 ![0, 1] bcast_S8x2048_S8x2048x1_0_1 : (⟨S8x2048, .i32⟩ : BufTy).Contents (Elt F) → (⟨S8x2048x1, .i32⟩ : BufTy).Contents (Elt F)),
    nary ![main_v475, main_v476, main_v477, main_v478] main_v479 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v479 main_v480 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v448 main_v481 (uitofp .f32 : (⟨S8x2048, .i1⟩ : BufTy).Contents (Elt F) → (⟨S8x2048, .f32⟩ : BufTy).Contents (Elt F)),
    binary main_v431 main_v481 main_v482 (mulf : (⟨S8x2048, .f32⟩ : BufTy).Contents (Elt F) → (⟨S8x2048, .f32⟩ : BufTy).Contents (Elt F) → (⟨S8x2048, .f32⟩ : BufTy).Contents (Elt F)),
    unary main_v482 main_v483 (broadcastInDim S8x2048x1 ![0, 1] bcast_S8x2048_S8x2048x1_0_1 : (⟨S8x2048, .f32⟩ : BufTy).Contents (Elt F) → (⟨S8x2048x1, .f32⟩ : BufTy).Contents (Elt F)),
    unary main_v483 main_v484 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v480 main_v484 main_v485 (mulf : (⟨S8x2048x128, .f32⟩ : BufTy).Contents (Elt F) → (⟨S8x2048x128, .f32⟩ : BufTy).Contents (Elt F) → (⟨S8x2048x128, .f32⟩ : BufTy).Contents (Elt F)),
    binary main_v411 main_v485 main_v486 (addf : (⟨S8x2048x128, .f32⟩ : BufTy).Contents (Elt F) → (⟨S8x2048x128, .f32⟩ : BufTy).Contents (Elt F) → (⟨S8x2048x128, .f32⟩ : BufTy).Contents (Elt F)),
    nullary main_cst_166 (constant S_ .f32 0x00000000#32),
    unary main_cst_166 main_v487 (broadcastInDim S8x2048 ![] bcast_S_S8x2048 : (⟨S_, .f32⟩ : BufTy).Contents (Elt F) → (⟨S8x2048, .f32⟩ : BufTy).Contents (Elt F)),
    binary main_v30 main_v487 main_v488 (addf : (⟨S8x2048, .f32⟩ : BufTy).Contents (Elt F) → (⟨S8x2048, .f32⟩ : BufTy).Contents (Elt F) → (⟨S8x2048, .f32⟩ : BufTy).Contents (Elt F)),
    nullary main_cst_167 (constant S_ .f32 0x3F800000#32),
    unary main_cst_167 main_v489 (broadcastInDim S8x2048 ![] bcast_S_S8x2048 : (⟨S_, .f32⟩ : BufTy).Contents (Elt F) → (⟨S8x2048, .f32⟩ : BufTy).Contents (Elt F)) ]

set_option maxRecDepth 8192 in
set_option maxHeartbeats 4000000 in
theorem main_part10_eq (c : Dev nD) : main_part10 (F := F) c = seq ops_part10 := rfl

set_option maxRecDepth 8192 in
theorem ops_part10_sub : (ops_part10 : List (HloOp τ sig (Elt F))).Forall fun op => op.bufs ⊆ tcRefs τ sig :=
  ⟨unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub ..⟩

set_option maxRecDepth 8192 in
theorem ops_part10_fresh : ∀ op ∈ (ops_part10 : List (HloOp τ sig (Elt F))), op.fresh = ∅ :=
  List.forall_iff_forall_mem.mp (show (ops_part10 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part11` (@main's operations 751 … 825 of 978), in order. -/
abbrev ops_part11 : List (HloOp τ sig (Elt F)) :=
  [ binary main_v31 main_v489 main_v490 (addf : (⟨S8x2048, .f32⟩ : BufTy).Contents (Elt F) → (⟨S8x2048, .f32⟩ : BufTy).Contents (Elt F) → (⟨S8x2048, .f32⟩ : BufTy).Contents (Elt F)),
    nullary main_cst_168 (constant S_ .f32 0x3F800000#32),
    unary main_cst_168 main_v491 (broadcastInDim S8x2048 ![] bcast_S_S8x2048 : (⟨S_, .f32⟩ : BufTy).Contents (Elt F) → (⟨S8x2048, .f32⟩ : BufTy).Contents (Elt F)),
    binary main_v32 main_v491 main_v492 (addf : (⟨S8x2048, .f32⟩ : BufTy).Contents (Elt F) → (⟨S8x2048, .f32⟩ : BufTy).Contents (Elt F) → (⟨S8x2048, .f32⟩ : BufTy).Contents (Elt F)),
    binary main_v13 main_v488 main_v493 (subf : (⟨S8x2048, .f32⟩ : BufTy).Contents (Elt F) → (⟨S8x2048, .f32⟩ : BufTy).Contents (Elt F) → (⟨S8x2048, .f32⟩ : BufTy).Contents (Elt F)),
    unary main_v493 main_v494 (Host.absf : (⟨S8x2048, .f32⟩ : BufTy).Contents (Elt F) → (⟨S8x2048, .f32⟩ : BufTy).Contents (Elt F)),
    nullary main_cst_169 (constant S_ .f32 0x3F800000#32),
    unary main_cst_169 main_v495 (broadcastInDim S8x2048 ![] bcast_S_S8x2048 : (⟨S_, .f32⟩ : BufTy).Contents (Elt F) → (⟨S8x2048, .f32⟩ : BufTy).Contents (Elt F)),
    binary main_v495 main_v494 main_v496 (subf : (⟨S8x2048, .f32⟩ : BufTy).Contents (Elt F) → (⟨S8x2048, .f32⟩ : BufTy).Contents (Elt F) → (⟨S8x2048, .f32⟩ : BufTy).Contents (Elt F)),
    binary main_v21 main_v490 main_v497 (subf : (⟨S8x2048, .f32⟩ : BufTy).Contents (Elt F) → (⟨S8x2048, .f32⟩ : BufTy).Contents (Elt F) → (⟨S8x2048, .f32⟩ : BufTy).Contents (Elt F)),
    unary main_v497 main_v498 (Host.absf : (⟨S8x2048, .f32⟩ : BufTy).Contents (Elt F) → (⟨S8x2048, .f32⟩ : BufTy).Contents (Elt F)),
    nullary main_cst_170 (constant S_ .f32 0x3F800000#32),
    unary main_cst_170 main_v499 (broadcastInDim S8x2048 ![] bcast_S_S8x2048 : (⟨S_, .f32⟩ : BufTy).Contents (Elt F) → (⟨S8x2048, .f32⟩ : BufTy).Contents (Elt F)),
    binary main_v499 main_v498 main_v500 (subf : (⟨S8x2048, .f32⟩ : BufTy).Contents (Elt F) → (⟨S8x2048, .f32⟩ : BufTy).Contents (Elt F) → (⟨S8x2048, .f32⟩ : BufTy).Contents (Elt F)),
    binary main_v496 main_v500 main_v501 (mulf : (⟨S8x2048, .f32⟩ : BufTy).Contents (Elt F) → (⟨S8x2048, .f32⟩ : BufTy).Contents (Elt F) → (⟨S8x2048, .f32⟩ : BufTy).Contents (Elt F)),
    binary main_v29 main_v492 main_v502 (subf : (⟨S8x2048, .f32⟩ : BufTy).Contents (Elt F) → (⟨S8x2048, .f32⟩ : BufTy).Contents (Elt F) → (⟨S8x2048, .f32⟩ : BufTy).Contents (Elt F)),
    unary main_v502 main_v503 (Host.absf : (⟨S8x2048, .f32⟩ : BufTy).Contents (Elt F) → (⟨S8x2048, .f32⟩ : BufTy).Contents (Elt F)),
    nullary main_cst_171 (constant S_ .f32 0x3F800000#32),
    unary main_cst_171 main_v504 (broadcastInDim S8x2048 ![] bcast_S_S8x2048 : (⟨S_, .f32⟩ : BufTy).Contents (Elt F) → (⟨S8x2048, .f32⟩ : BufTy).Contents (Elt F)),
    binary main_v504 main_v503 main_v505 (subf : (⟨S8x2048, .f32⟩ : BufTy).Contents (Elt F) → (⟨S8x2048, .f32⟩ : BufTy).Contents (Elt F) → (⟨S8x2048, .f32⟩ : BufTy).Contents (Elt F)),
    binary main_v501 main_v505 main_v506 (mulf : (⟨S8x2048, .f32⟩ : BufTy).Contents (Elt F) → (⟨S8x2048, .f32⟩ : BufTy).Contents (Elt F) → (⟨S8x2048, .f32⟩ : BufTy).Contents (Elt F)),
    nullary main_cst_172 (constant S_ .f32 0x00000000#32),
    unary main_cst_172 main_v507 (broadcastInDim S8x2048 ![] bcast_S_S8x2048 : (⟨S_, .f32⟩ : BufTy).Contents (Elt F) → (⟨S8x2048, .f32⟩ : BufTy).Contents (Elt F)),
    binary main_v488 main_v507 main_v508 (cmpf .oge : (⟨S8x2048, .f32⟩ : BufTy).Contents (Elt F) → (⟨S8x2048, .f32⟩ : BufTy).Contents (Elt F) → (⟨S8x2048, .i1⟩ : BufTy).Contents (Elt F)),
    nullary main_cst_173 (constant S_ .f32 0x41F80000#32),
    unary main_cst_173 main_v509 (broadcastInDim S8x2048 ![] bcast_S_S8x2048 : (⟨S_, .f32⟩ : BufTy).Contents (Elt F) → (⟨S8x2048, .f32⟩ : BufTy).Contents (Elt F)),
    binary main_v488 main_v509 main_v510 (cmpf .ole : (⟨S8x2048, .f32⟩ : BufTy).Contents (Elt F) → (⟨S8x2048, .f32⟩ : BufTy).Contents (Elt F) → (⟨S8x2048, .i1⟩ : BufTy).Contents (Elt F)),
    binary main_v508 main_v510 main_v511 (andi : (⟨S8x2048, .i1⟩ : BufTy).Contents (Elt F) → (⟨S8x2048, .i1⟩ : BufTy).Contents (Elt F) → (⟨S8x2048, .i1⟩ : BufTy).Contents (Elt F)),
    nullary main_cst_174 (constant S_ .f32 0x00000000#32),
    unary main_cst_174 main_v512 (broadcastInDim S8x2048 ![] bcast_S_S8x2048 : (⟨S_, .f32⟩ : BufTy).Contents (Elt F) → (⟨S8x2048, .f32⟩ : BufTy).Contents (Elt F)),
    binary main_v490 main_v512 main_v513 (cmpf .oge : (⟨S8x2048, .f32⟩ : BufTy).Contents (Elt F) → (⟨S8x2048, .f32⟩ : BufTy).Contents (Elt F) → (⟨S8x2048, .i1⟩ : BufTy).Contents (Elt F)),
    binary main_v511 main_v513 main_v514 (andi : (⟨S8x2048, .i1⟩ : BufTy).Contents (Elt F) → (⟨S8x2048, .i1⟩ : BufTy).Contents (Elt F) → (⟨S8x2048, .i1⟩ : BufTy).Contents (Elt F)),
    nullary main_cst_175 (constant S_ .f32 0x41F80000#32),
    unary main_cst_175 main_v515 (broadcastInDim S8x2048 ![] bcast_S_S8x2048 : (⟨S_, .f32⟩ : BufTy).Contents (Elt F) → (⟨S8x2048, .f32⟩ : BufTy).Contents (Elt F)),
    binary main_v490 main_v515 main_v516 (cmpf .ole : (⟨S8x2048, .f32⟩ : BufTy).Contents (Elt F) → (⟨S8x2048, .f32⟩ : BufTy).Contents (Elt F) → (⟨S8x2048, .i1⟩ : BufTy).Contents (Elt F)),
    binary main_v514 main_v516 main_v517 (andi : (⟨S8x2048, .i1⟩ : BufTy).Contents (Elt F) → (⟨S8x2048, .i1⟩ : BufTy).Contents (Elt F) → (⟨S8x2048, .i1⟩ : BufTy).Contents (Elt F)),
    nullary main_cst_176 (constant S_ .f32 0x00000000#32),
    unary main_cst_176 main_v518 (broadcastInDim S8x2048 ![] bcast_S_S8x2048 : (⟨S_, .f32⟩ : BufTy).Contents (Elt F) → (⟨S8x2048, .f32⟩ : BufTy).Contents (Elt F)),
    binary main_v492 main_v518 main_v519 (cmpf .oge : (⟨S8x2048, .f32⟩ : BufTy).Contents (Elt F) → (⟨S8x2048, .f32⟩ : BufTy).Contents (Elt F) → (⟨S8x2048, .i1⟩ : BufTy).Contents (Elt F)),
    binary main_v517 main_v519 main_v520 (andi : (⟨S8x2048, .i1⟩ : BufTy).Contents (Elt F) → (⟨S8x2048, .i1⟩ : BufTy).Contents (Elt F) → (⟨S8x2048, .i1⟩ : BufTy).Contents (Elt F)),
    nullary main_cst_177 (constant S_ .f32 0x41F80000#32),
    unary main_cst_177 main_v521 (broadcastInDim S8x2048 ![] bcast_S_S8x2048 : (⟨S_, .f32⟩ : BufTy).Contents (Elt F) → (⟨S8x2048, .f32⟩ : BufTy).Contents (Elt F)),
    binary main_v492 main_v521 main_v522 (cmpf .ole : (⟨S8x2048, .f32⟩ : BufTy).Contents (Elt F) → (⟨S8x2048, .f32⟩ : BufTy).Contents (Elt F) → (⟨S8x2048, .i1⟩ : BufTy).Contents (Elt F)),
    binary main_v520 main_v522 main_v523 (andi : (⟨S8x2048, .i1⟩ : BufTy).Contents (Elt F) → (⟨S8x2048, .i1⟩ : BufTy).Contents (Elt F) → (⟨S8x2048, .i1⟩ : BufTy).Contents (Elt F)),
    nullary main_c_178 (constantI S_ 32 0#32),
    nullary main_c_179 (constantI S_ 32 31#32),
    TRef.unary (TRef.of (T := ⟨S_, .i32⟩) main_c_178) (TRef.of (T := ⟨S_, .f32⟩) main_call18_v0) (sitofp .f32),
    TRef.unary (TRef.of (T := ⟨S_, .f32⟩) main_call18_v0) (TRef.of (T := ⟨S8x2048, .f32⟩) main_call18_v1) (broadcastInDim S8x2048 ![] bcast_S_S8x2048),
    TRef.binary (TRef.of (T := ⟨S8x2048, .f32⟩) main_call18_v1) (TRef.of (T := ⟨S8x2048, .f32⟩) main_v488) (TRef.of (T := ⟨S8x2048, .f32⟩) main_call18_v2) maximumf,
    TRef.unary (TRef.of (T := ⟨S_, .i32⟩) main_c_179) (TRef.of (T := ⟨S_, .f32⟩) main_call18_v3) (sitofp .f32),
    TRef.unary (TRef.of (T := ⟨S_, .f32⟩) main_call18_v3) (TRef.of (T := ⟨S8x2048, .f32⟩) main_call18_v4) (broadcastInDim S8x2048 ![] bcast_S_S8x2048),
    TRef.binary (TRef.of (T := ⟨S8x2048, .f32⟩) main_call18_v4) (TRef.of (T := ⟨S8x2048, .f32⟩) main_call18_v2) (TRef.of (T := ⟨S8x2048, .f32⟩) main_v524) minimumf,
    unary main_v524 main_v525 (fptosi 32 : (⟨S8x2048, .f32⟩ : BufTy).Contents (Elt F) → (⟨S8x2048, .i32⟩ : BufTy).Contents (Elt F)),
    nullary main_c_180 (constantI S_ 32 0#32),
    nullary main_c_181 (constantI S_ 32 31#32),
    TRef.unary (TRef.of (T := ⟨S_, .i32⟩) main_c_180) (TRef.of (T := ⟨S_, .f32⟩) main_call19_v0) (sitofp .f32),
    TRef.unary (TRef.of (T := ⟨S_, .f32⟩) main_call19_v0) (TRef.of (T := ⟨S8x2048, .f32⟩) main_call19_v1) (broadcastInDim S8x2048 ![] bcast_S_S8x2048),
    TRef.binary (TRef.of (T := ⟨S8x2048, .f32⟩) main_call19_v1) (TRef.of (T := ⟨S8x2048, .f32⟩) main_v490) (TRef.of (T := ⟨S8x2048, .f32⟩) main_call19_v2) maximumf,
    TRef.unary (TRef.of (T := ⟨S_, .i32⟩) main_c_181) (TRef.of (T := ⟨S_, .f32⟩) main_call19_v3) (sitofp .f32),
    TRef.unary (TRef.of (T := ⟨S_, .f32⟩) main_call19_v3) (TRef.of (T := ⟨S8x2048, .f32⟩) main_call19_v4) (broadcastInDim S8x2048 ![] bcast_S_S8x2048),
    TRef.binary (TRef.of (T := ⟨S8x2048, .f32⟩) main_call19_v4) (TRef.of (T := ⟨S8x2048, .f32⟩) main_call19_v2) (TRef.of (T := ⟨S8x2048, .f32⟩) main_v526) minimumf,
    unary main_v526 main_v527 (fptosi 32 : (⟨S8x2048, .f32⟩ : BufTy).Contents (Elt F) → (⟨S8x2048, .i32⟩ : BufTy).Contents (Elt F)),
    nullary main_c_182 (constantI S_ 32 0#32),
    nullary main_c_183 (constantI S_ 32 31#32),
    TRef.unary (TRef.of (T := ⟨S_, .i32⟩) main_c_182) (TRef.of (T := ⟨S_, .f32⟩) main_call20_v0) (sitofp .f32),
    TRef.unary (TRef.of (T := ⟨S_, .f32⟩) main_call20_v0) (TRef.of (T := ⟨S8x2048, .f32⟩) main_call20_v1) (broadcastInDim S8x2048 ![] bcast_S_S8x2048),
    TRef.binary (TRef.of (T := ⟨S8x2048, .f32⟩) main_call20_v1) (TRef.of (T := ⟨S8x2048, .f32⟩) main_v492) (TRef.of (T := ⟨S8x2048, .f32⟩) main_call20_v2) maximumf,
    TRef.unary (TRef.of (T := ⟨S_, .i32⟩) main_c_183) (TRef.of (T := ⟨S_, .f32⟩) main_call20_v3) (sitofp .f32),
    TRef.unary (TRef.of (T := ⟨S_, .f32⟩) main_call20_v3) (TRef.of (T := ⟨S8x2048, .f32⟩) main_call20_v4) (broadcastInDim S8x2048 ![] bcast_S_S8x2048),
    TRef.binary (TRef.of (T := ⟨S8x2048, .f32⟩) main_call20_v4) (TRef.of (T := ⟨S8x2048, .f32⟩) main_call20_v2) (TRef.of (T := ⟨S8x2048, .f32⟩) main_v528) minimumf,
    unary main_v528 main_v529 (fptosi 32 : (⟨S8x2048, .f32⟩ : BufTy).Contents (Elt F) → (⟨S8x2048, .i32⟩ : BufTy).Contents (Elt F)),
    nullary main_c_184 (constantI S_ 32 0#32),
    unary main_c_184 main_v530 (broadcastInDim S8x2048 ![] bcast_S_S8x2048 : (⟨S_, .i32⟩ : BufTy).Contents (Elt F) → (⟨S8x2048, .i32⟩ : BufTy).Contents (Elt F)),
    binary main_v35 main_v530 main_v531 (cmpi .slt : (⟨S8x2048, .i32⟩ : BufTy).Contents (Elt F) → (⟨S8x2048, .i32⟩ : BufTy).Contents (Elt F) → (⟨S8x2048, .i1⟩ : BufTy).Contents (Elt F)),
    nullary main_c_185 (constantI S_ 32 8#32) ]

set_option maxRecDepth 8192 in
set_option maxHeartbeats 4000000 in
theorem main_part11_eq (c : Dev nD) : main_part11 (F := F) c = seq ops_part11 := rfl

set_option maxRecDepth 8192 in
theorem ops_part11_sub : (ops_part11 : List (HloOp τ sig (Elt F))).Forall fun op => op.bufs ⊆ tcRefs τ sig :=
  ⟨binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub ..⟩

set_option maxRecDepth 8192 in
theorem ops_part11_fresh : ∀ op ∈ (ops_part11 : List (HloOp τ sig (Elt F))), op.fresh = ∅ :=
  List.forall_iff_forall_mem.mp (show (ops_part11 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 60 operations of window `main_part12` (@main's operations 826 … 885 of 978), in order. -/
abbrev ops_part12 : List (HloOp τ sig (Elt F)) :=
  [ unary main_c_185 main_v532 (broadcastInDim S8x2048 ![] bcast_S_S8x2048 : (⟨S_, .i32⟩ : BufTy).Contents (Elt F) → (⟨S8x2048, .i32⟩ : BufTy).Contents (Elt F)),
    binary main_v35 main_v532 main_v533 (addi : (⟨S8x2048, .i32⟩ : BufTy).Contents (Elt F) → (⟨S8x2048, .i32⟩ : BufTy).Contents (Elt F) → (⟨S8x2048, .i32⟩ : BufTy).Contents (Elt F)),
    ternary main_v531 main_v533 main_v35 main_v534 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_186 (constantI S_ 32 0#32),
    unary main_c_186 main_v535 (broadcastInDim S8x2048 ![] bcast_S_S8x2048 : (⟨S_, .i32⟩ : BufTy).Contents (Elt F) → (⟨S8x2048, .i32⟩ : BufTy).Contents (Elt F)),
    binary main_v529 main_v535 main_v536 (cmpi .slt : (⟨S8x2048, .i32⟩ : BufTy).Contents (Elt F) → (⟨S8x2048, .i32⟩ : BufTy).Contents (Elt F) → (⟨S8x2048, .i1⟩ : BufTy).Contents (Elt F)),
    nullary main_c_187 (constantI S_ 32 32#32),
    unary main_c_187 main_v537 (broadcastInDim S8x2048 ![] bcast_S_S8x2048 : (⟨S_, .i32⟩ : BufTy).Contents (Elt F) → (⟨S8x2048, .i32⟩ : BufTy).Contents (Elt F)),
    binary main_v529 main_v537 main_v538 (addi : (⟨S8x2048, .i32⟩ : BufTy).Contents (Elt F) → (⟨S8x2048, .i32⟩ : BufTy).Contents (Elt F) → (⟨S8x2048, .i32⟩ : BufTy).Contents (Elt F)),
    ternary main_v536 main_v538 main_v529 main_v539 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_188 (constantI S_ 32 0#32),
    unary main_c_188 main_v540 (broadcastInDim S8x2048 ![] bcast_S_S8x2048 : (⟨S_, .i32⟩ : BufTy).Contents (Elt F) → (⟨S8x2048, .i32⟩ : BufTy).Contents (Elt F)),
    binary main_v527 main_v540 main_v541 (cmpi .slt : (⟨S8x2048, .i32⟩ : BufTy).Contents (Elt F) → (⟨S8x2048, .i32⟩ : BufTy).Contents (Elt F) → (⟨S8x2048, .i1⟩ : BufTy).Contents (Elt F)),
    nullary main_c_189 (constantI S_ 32 32#32),
    unary main_c_189 main_v542 (broadcastInDim S8x2048 ![] bcast_S_S8x2048 : (⟨S_, .i32⟩ : BufTy).Contents (Elt F) → (⟨S8x2048, .i32⟩ : BufTy).Contents (Elt F)),
    binary main_v527 main_v542 main_v543 (addi : (⟨S8x2048, .i32⟩ : BufTy).Contents (Elt F) → (⟨S8x2048, .i32⟩ : BufTy).Contents (Elt F) → (⟨S8x2048, .i32⟩ : BufTy).Contents (Elt F)),
    ternary main_v541 main_v543 main_v527 main_v544 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_190 (constantI S_ 32 0#32),
    unary main_c_190 main_v545 (broadcastInDim S8x2048 ![] bcast_S_S8x2048 : (⟨S_, .i32⟩ : BufTy).Contents (Elt F) → (⟨S8x2048, .i32⟩ : BufTy).Contents (Elt F)),
    binary main_v525 main_v545 main_v546 (cmpi .slt : (⟨S8x2048, .i32⟩ : BufTy).Contents (Elt F) → (⟨S8x2048, .i32⟩ : BufTy).Contents (Elt F) → (⟨S8x2048, .i1⟩ : BufTy).Contents (Elt F)),
    nullary main_c_191 (constantI S_ 32 32#32),
    unary main_c_191 main_v547 (broadcastInDim S8x2048 ![] bcast_S_S8x2048 : (⟨S_, .i32⟩ : BufTy).Contents (Elt F) → (⟨S8x2048, .i32⟩ : BufTy).Contents (Elt F)),
    binary main_v525 main_v547 main_v548 (addi : (⟨S8x2048, .i32⟩ : BufTy).Contents (Elt F) → (⟨S8x2048, .i32⟩ : BufTy).Contents (Elt F) → (⟨S8x2048, .i32⟩ : BufTy).Contents (Elt F)),
    ternary main_v546 main_v548 main_v525 main_v549 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v534 main_v550 (broadcastInDim S8x2048x1 ![0, 1] bcast_S8x2048_S8x2048x1_0_1 : (⟨S8x2048, .i32⟩ : BufTy).Contents (Elt F) → (⟨S8x2048x1, .i32⟩ : BufTy).Contents (Elt F)),
    unary main_v539 main_v551 (broadcastInDim S8x2048x1 ![0, 1] bcast_S8x2048_S8x2048x1_0_1 : (⟨S8x2048, .i32⟩ : BufTy).Contents (Elt F) → (⟨S8x2048x1, .i32⟩ : BufTy).Contents (Elt F)),
    unary main_v544 main_v552 (broadcastInDim S8x2048x1 ![0, 1] bcast_S8x2048_S8x2048x1_0_1 : (⟨S8x2048, .i32⟩ : BufTy).Contents (Elt F) → (⟨S8x2048x1, .i32⟩ : BufTy).Contents (Elt F)),
    unary main_v549 main_v553 (broadcastInDim S8x2048x1 ![0, 1] bcast_S8x2048_S8x2048x1_0_1 : (⟨S8x2048, .i32⟩ : BufTy).Contents (Elt F) → (⟨S8x2048x1, .i32⟩ : BufTy).Contents (Elt F)),
    nary ![main_v550, main_v551, main_v552, main_v553] main_v554 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v554 main_v555 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v523 main_v556 (uitofp .f32 : (⟨S8x2048, .i1⟩ : BufTy).Contents (Elt F) → (⟨S8x2048, .f32⟩ : BufTy).Contents (Elt F)),
    binary main_v506 main_v556 main_v557 (mulf : (⟨S8x2048, .f32⟩ : BufTy).Contents (Elt F) → (⟨S8x2048, .f32⟩ : BufTy).Contents (Elt F) → (⟨S8x2048, .f32⟩ : BufTy).Contents (Elt F)),
    unary main_v557 main_v558 (broadcastInDim S8x2048x1 ![0, 1] bcast_S8x2048_S8x2048x1_0_1 : (⟨S8x2048, .f32⟩ : BufTy).Contents (Elt F) → (⟨S8x2048x1, .f32⟩ : BufTy).Contents (Elt F)),
    unary main_v558 main_v559 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v555 main_v559 main_v560 (mulf : (⟨S8x2048x128, .f32⟩ : BufTy).Contents (Elt F) → (⟨S8x2048x128, .f32⟩ : BufTy).Contents (Elt F) → (⟨S8x2048x128, .f32⟩ : BufTy).Contents (Elt F)),
    binary main_v486 main_v560 main_v561 (addf : (⟨S8x2048x128, .f32⟩ : BufTy).Contents (Elt F) → (⟨S8x2048x128, .f32⟩ : BufTy).Contents (Elt F) → (⟨S8x2048x128, .f32⟩ : BufTy).Contents (Elt F)),
    nullary main_cst_192 (constant S_ .f32 0x3F800000#32),
    unary main_cst_192 main_v562 (broadcastInDim S8x2048 ![] bcast_S_S8x2048 : (⟨S_, .f32⟩ : BufTy).Contents (Elt F) → (⟨S8x2048, .f32⟩ : BufTy).Contents (Elt F)),
    binary main_v30 main_v562 main_v563 (addf : (⟨S8x2048, .f32⟩ : BufTy).Contents (Elt F) → (⟨S8x2048, .f32⟩ : BufTy).Contents (Elt F) → (⟨S8x2048, .f32⟩ : BufTy).Contents (Elt F)),
    nullary main_cst_193 (constant S_ .f32 0x3F800000#32),
    unary main_cst_193 main_v564 (broadcastInDim S8x2048 ![] bcast_S_S8x2048 : (⟨S_, .f32⟩ : BufTy).Contents (Elt F) → (⟨S8x2048, .f32⟩ : BufTy).Contents (Elt F)),
    binary main_v31 main_v564 main_v565 (addf : (⟨S8x2048, .f32⟩ : BufTy).Contents (Elt F) → (⟨S8x2048, .f32⟩ : BufTy).Contents (Elt F) → (⟨S8x2048, .f32⟩ : BufTy).Contents (Elt F)),
    nullary main_cst_194 (constant S_ .f32 0x3F800000#32),
    unary main_cst_194 main_v566 (broadcastInDim S8x2048 ![] bcast_S_S8x2048 : (⟨S_, .f32⟩ : BufTy).Contents (Elt F) → (⟨S8x2048, .f32⟩ : BufTy).Contents (Elt F)),
    binary main_v32 main_v566 main_v567 (addf : (⟨S8x2048, .f32⟩ : BufTy).Contents (Elt F) → (⟨S8x2048, .f32⟩ : BufTy).Contents (Elt F) → (⟨S8x2048, .f32⟩ : BufTy).Contents (Elt F)),
    binary main_v13 main_v563 main_v568 (subf : (⟨S8x2048, .f32⟩ : BufTy).Contents (Elt F) → (⟨S8x2048, .f32⟩ : BufTy).Contents (Elt F) → (⟨S8x2048, .f32⟩ : BufTy).Contents (Elt F)),
    unary main_v568 main_v569 (Host.absf : (⟨S8x2048, .f32⟩ : BufTy).Contents (Elt F) → (⟨S8x2048, .f32⟩ : BufTy).Contents (Elt F)),
    nullary main_cst_195 (constant S_ .f32 0x3F800000#32),
    unary main_cst_195 main_v570 (broadcastInDim S8x2048 ![] bcast_S_S8x2048 : (⟨S_, .f32⟩ : BufTy).Contents (Elt F) → (⟨S8x2048, .f32⟩ : BufTy).Contents (Elt F)),
    binary main_v570 main_v569 main_v571 (subf : (⟨S8x2048, .f32⟩ : BufTy).Contents (Elt F) → (⟨S8x2048, .f32⟩ : BufTy).Contents (Elt F) → (⟨S8x2048, .f32⟩ : BufTy).Contents (Elt F)),
    binary main_v21 main_v565 main_v572 (subf : (⟨S8x2048, .f32⟩ : BufTy).Contents (Elt F) → (⟨S8x2048, .f32⟩ : BufTy).Contents (Elt F) → (⟨S8x2048, .f32⟩ : BufTy).Contents (Elt F)),
    unary main_v572 main_v573 (Host.absf : (⟨S8x2048, .f32⟩ : BufTy).Contents (Elt F) → (⟨S8x2048, .f32⟩ : BufTy).Contents (Elt F)),
    nullary main_cst_196 (constant S_ .f32 0x3F800000#32),
    unary main_cst_196 main_v574 (broadcastInDim S8x2048 ![] bcast_S_S8x2048 : (⟨S_, .f32⟩ : BufTy).Contents (Elt F) → (⟨S8x2048, .f32⟩ : BufTy).Contents (Elt F)),
    binary main_v574 main_v573 main_v575 (subf : (⟨S8x2048, .f32⟩ : BufTy).Contents (Elt F) → (⟨S8x2048, .f32⟩ : BufTy).Contents (Elt F) → (⟨S8x2048, .f32⟩ : BufTy).Contents (Elt F)),
    binary main_v571 main_v575 main_v576 (mulf : (⟨S8x2048, .f32⟩ : BufTy).Contents (Elt F) → (⟨S8x2048, .f32⟩ : BufTy).Contents (Elt F) → (⟨S8x2048, .f32⟩ : BufTy).Contents (Elt F)),
    binary main_v29 main_v567 main_v577 (subf : (⟨S8x2048, .f32⟩ : BufTy).Contents (Elt F) → (⟨S8x2048, .f32⟩ : BufTy).Contents (Elt F) → (⟨S8x2048, .f32⟩ : BufTy).Contents (Elt F)),
    unary main_v577 main_v578 (Host.absf : (⟨S8x2048, .f32⟩ : BufTy).Contents (Elt F) → (⟨S8x2048, .f32⟩ : BufTy).Contents (Elt F)),
    nullary main_cst_197 (constant S_ .f32 0x3F800000#32),
    unary main_cst_197 main_v579 (broadcastInDim S8x2048 ![] bcast_S_S8x2048 : (⟨S_, .f32⟩ : BufTy).Contents (Elt F) → (⟨S8x2048, .f32⟩ : BufTy).Contents (Elt F)) ]

set_option maxRecDepth 8192 in
set_option maxHeartbeats 4000000 in
theorem main_part12_eq (c : Dev nD) : main_part12 (F := F) c = seq ops_part12 := rfl

set_option maxRecDepth 8192 in
theorem ops_part12_sub : (ops_part12 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub ..⟩

set_option maxRecDepth 8192 in
theorem ops_part12_fresh : ∀ op ∈ (ops_part12 : List (HloOp τ sig (Elt F))), op.fresh = ∅ :=
  List.forall_iff_forall_mem.mp (show (ops_part12 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 75 operations of window `main_part13` (@main's operations 886 … 960 of 978), in order. -/
abbrev ops_part13 : List (HloOp τ sig (Elt F)) :=
  [ binary main_v579 main_v578 main_v580 (subf : (⟨S8x2048, .f32⟩ : BufTy).Contents (Elt F) → (⟨S8x2048, .f32⟩ : BufTy).Contents (Elt F) → (⟨S8x2048, .f32⟩ : BufTy).Contents (Elt F)),
    binary main_v576 main_v580 main_v581 (mulf : (⟨S8x2048, .f32⟩ : BufTy).Contents (Elt F) → (⟨S8x2048, .f32⟩ : BufTy).Contents (Elt F) → (⟨S8x2048, .f32⟩ : BufTy).Contents (Elt F)),
    nullary main_cst_198 (constant S_ .f32 0x00000000#32),
    unary main_cst_198 main_v582 (broadcastInDim S8x2048 ![] bcast_S_S8x2048 : (⟨S_, .f32⟩ : BufTy).Contents (Elt F) → (⟨S8x2048, .f32⟩ : BufTy).Contents (Elt F)),
    binary main_v563 main_v582 main_v583 (cmpf .oge : (⟨S8x2048, .f32⟩ : BufTy).Contents (Elt F) → (⟨S8x2048, .f32⟩ : BufTy).Contents (Elt F) → (⟨S8x2048, .i1⟩ : BufTy).Contents (Elt F)),
    nullary main_cst_199 (constant S_ .f32 0x41F80000#32),
    unary main_cst_199 main_v584 (broadcastInDim S8x2048 ![] bcast_S_S8x2048 : (⟨S_, .f32⟩ : BufTy).Contents (Elt F) → (⟨S8x2048, .f32⟩ : BufTy).Contents (Elt F)),
    binary main_v563 main_v584 main_v585 (cmpf .ole : (⟨S8x2048, .f32⟩ : BufTy).Contents (Elt F) → (⟨S8x2048, .f32⟩ : BufTy).Contents (Elt F) → (⟨S8x2048, .i1⟩ : BufTy).Contents (Elt F)),
    binary main_v583 main_v585 main_v586 (andi : (⟨S8x2048, .i1⟩ : BufTy).Contents (Elt F) → (⟨S8x2048, .i1⟩ : BufTy).Contents (Elt F) → (⟨S8x2048, .i1⟩ : BufTy).Contents (Elt F)),
    nullary main_cst_200 (constant S_ .f32 0x00000000#32),
    unary main_cst_200 main_v587 (broadcastInDim S8x2048 ![] bcast_S_S8x2048 : (⟨S_, .f32⟩ : BufTy).Contents (Elt F) → (⟨S8x2048, .f32⟩ : BufTy).Contents (Elt F)),
    binary main_v565 main_v587 main_v588 (cmpf .oge : (⟨S8x2048, .f32⟩ : BufTy).Contents (Elt F) → (⟨S8x2048, .f32⟩ : BufTy).Contents (Elt F) → (⟨S8x2048, .i1⟩ : BufTy).Contents (Elt F)),
    binary main_v586 main_v588 main_v589 (andi : (⟨S8x2048, .i1⟩ : BufTy).Contents (Elt F) → (⟨S8x2048, .i1⟩ : BufTy).Contents (Elt F) → (⟨S8x2048, .i1⟩ : BufTy).Contents (Elt F)),
    nullary main_cst_201 (constant S_ .f32 0x41F80000#32),
    unary main_cst_201 main_v590 (broadcastInDim S8x2048 ![] bcast_S_S8x2048 : (⟨S_, .f32⟩ : BufTy).Contents (Elt F) → (⟨S8x2048, .f32⟩ : BufTy).Contents (Elt F)),
    binary main_v565 main_v590 main_v591 (cmpf .ole : (⟨S8x2048, .f32⟩ : BufTy).Contents (Elt F) → (⟨S8x2048, .f32⟩ : BufTy).Contents (Elt F) → (⟨S8x2048, .i1⟩ : BufTy).Contents (Elt F)),
    binary main_v589 main_v591 main_v592 (andi : (⟨S8x2048, .i1⟩ : BufTy).Contents (Elt F) → (⟨S8x2048, .i1⟩ : BufTy).Contents (Elt F) → (⟨S8x2048, .i1⟩ : BufTy).Contents (Elt F)),
    nullary main_cst_202 (constant S_ .f32 0x00000000#32),
    unary main_cst_202 main_v593 (broadcastInDim S8x2048 ![] bcast_S_S8x2048 : (⟨S_, .f32⟩ : BufTy).Contents (Elt F) → (⟨S8x2048, .f32⟩ : BufTy).Contents (Elt F)),
    binary main_v567 main_v593 main_v594 (cmpf .oge : (⟨S8x2048, .f32⟩ : BufTy).Contents (Elt F) → (⟨S8x2048, .f32⟩ : BufTy).Contents (Elt F) → (⟨S8x2048, .i1⟩ : BufTy).Contents (Elt F)),
    binary main_v592 main_v594 main_v595 (andi : (⟨S8x2048, .i1⟩ : BufTy).Contents (Elt F) → (⟨S8x2048, .i1⟩ : BufTy).Contents (Elt F) → (⟨S8x2048, .i1⟩ : BufTy).Contents (Elt F)),
    nullary main_cst_203 (constant S_ .f32 0x41F80000#32),
    unary main_cst_203 main_v596 (broadcastInDim S8x2048 ![] bcast_S_S8x2048 : (⟨S_, .f32⟩ : BufTy).Contents (Elt F) → (⟨S8x2048, .f32⟩ : BufTy).Contents (Elt F)),
    binary main_v567 main_v596 main_v597 (cmpf .ole : (⟨S8x2048, .f32⟩ : BufTy).Contents (Elt F) → (⟨S8x2048, .f32⟩ : BufTy).Contents (Elt F) → (⟨S8x2048, .i1⟩ : BufTy).Contents (Elt F)),
    binary main_v595 main_v597 main_v598 (andi : (⟨S8x2048, .i1⟩ : BufTy).Contents (Elt F) → (⟨S8x2048, .i1⟩ : BufTy).Contents (Elt F) → (⟨S8x2048, .i1⟩ : BufTy).Contents (Elt F)),
    nullary main_c_204 (constantI S_ 32 0#32),
    nullary main_c_205 (constantI S_ 32 31#32),
    TRef.unary (TRef.of (T := ⟨S_, .i32⟩) main_c_204) (TRef.of (T := ⟨S_, .f32⟩) main_call21_v0) (sitofp .f32),
    TRef.unary (TRef.of (T := ⟨S_, .f32⟩) main_call21_v0) (TRef.of (T := ⟨S8x2048, .f32⟩) main_call21_v1) (broadcastInDim S8x2048 ![] bcast_S_S8x2048),
    TRef.binary (TRef.of (T := ⟨S8x2048, .f32⟩) main_call21_v1) (TRef.of (T := ⟨S8x2048, .f32⟩) main_v563) (TRef.of (T := ⟨S8x2048, .f32⟩) main_call21_v2) maximumf,
    TRef.unary (TRef.of (T := ⟨S_, .i32⟩) main_c_205) (TRef.of (T := ⟨S_, .f32⟩) main_call21_v3) (sitofp .f32),
    TRef.unary (TRef.of (T := ⟨S_, .f32⟩) main_call21_v3) (TRef.of (T := ⟨S8x2048, .f32⟩) main_call21_v4) (broadcastInDim S8x2048 ![] bcast_S_S8x2048),
    TRef.binary (TRef.of (T := ⟨S8x2048, .f32⟩) main_call21_v4) (TRef.of (T := ⟨S8x2048, .f32⟩) main_call21_v2) (TRef.of (T := ⟨S8x2048, .f32⟩) main_v599) minimumf,
    unary main_v599 main_v600 (fptosi 32 : (⟨S8x2048, .f32⟩ : BufTy).Contents (Elt F) → (⟨S8x2048, .i32⟩ : BufTy).Contents (Elt F)),
    nullary main_c_206 (constantI S_ 32 0#32),
    nullary main_c_207 (constantI S_ 32 31#32),
    TRef.unary (TRef.of (T := ⟨S_, .i32⟩) main_c_206) (TRef.of (T := ⟨S_, .f32⟩) main_call22_v0) (sitofp .f32),
    TRef.unary (TRef.of (T := ⟨S_, .f32⟩) main_call22_v0) (TRef.of (T := ⟨S8x2048, .f32⟩) main_call22_v1) (broadcastInDim S8x2048 ![] bcast_S_S8x2048),
    TRef.binary (TRef.of (T := ⟨S8x2048, .f32⟩) main_call22_v1) (TRef.of (T := ⟨S8x2048, .f32⟩) main_v565) (TRef.of (T := ⟨S8x2048, .f32⟩) main_call22_v2) maximumf,
    TRef.unary (TRef.of (T := ⟨S_, .i32⟩) main_c_207) (TRef.of (T := ⟨S_, .f32⟩) main_call22_v3) (sitofp .f32),
    TRef.unary (TRef.of (T := ⟨S_, .f32⟩) main_call22_v3) (TRef.of (T := ⟨S8x2048, .f32⟩) main_call22_v4) (broadcastInDim S8x2048 ![] bcast_S_S8x2048),
    TRef.binary (TRef.of (T := ⟨S8x2048, .f32⟩) main_call22_v4) (TRef.of (T := ⟨S8x2048, .f32⟩) main_call22_v2) (TRef.of (T := ⟨S8x2048, .f32⟩) main_v601) minimumf,
    unary main_v601 main_v602 (fptosi 32 : (⟨S8x2048, .f32⟩ : BufTy).Contents (Elt F) → (⟨S8x2048, .i32⟩ : BufTy).Contents (Elt F)),
    nullary main_c_208 (constantI S_ 32 0#32),
    nullary main_c_209 (constantI S_ 32 31#32),
    TRef.unary (TRef.of (T := ⟨S_, .i32⟩) main_c_208) (TRef.of (T := ⟨S_, .f32⟩) main_call23_v0) (sitofp .f32),
    TRef.unary (TRef.of (T := ⟨S_, .f32⟩) main_call23_v0) (TRef.of (T := ⟨S8x2048, .f32⟩) main_call23_v1) (broadcastInDim S8x2048 ![] bcast_S_S8x2048),
    TRef.binary (TRef.of (T := ⟨S8x2048, .f32⟩) main_call23_v1) (TRef.of (T := ⟨S8x2048, .f32⟩) main_v567) (TRef.of (T := ⟨S8x2048, .f32⟩) main_call23_v2) maximumf,
    TRef.unary (TRef.of (T := ⟨S_, .i32⟩) main_c_209) (TRef.of (T := ⟨S_, .f32⟩) main_call23_v3) (sitofp .f32),
    TRef.unary (TRef.of (T := ⟨S_, .f32⟩) main_call23_v3) (TRef.of (T := ⟨S8x2048, .f32⟩) main_call23_v4) (broadcastInDim S8x2048 ![] bcast_S_S8x2048),
    TRef.binary (TRef.of (T := ⟨S8x2048, .f32⟩) main_call23_v4) (TRef.of (T := ⟨S8x2048, .f32⟩) main_call23_v2) (TRef.of (T := ⟨S8x2048, .f32⟩) main_v603) minimumf,
    unary main_v603 main_v604 (fptosi 32 : (⟨S8x2048, .f32⟩ : BufTy).Contents (Elt F) → (⟨S8x2048, .i32⟩ : BufTy).Contents (Elt F)),
    nullary main_c_210 (constantI S_ 32 0#32),
    unary main_c_210 main_v605 (broadcastInDim S8x2048 ![] bcast_S_S8x2048 : (⟨S_, .i32⟩ : BufTy).Contents (Elt F) → (⟨S8x2048, .i32⟩ : BufTy).Contents (Elt F)),
    binary main_v35 main_v605 main_v606 (cmpi .slt : (⟨S8x2048, .i32⟩ : BufTy).Contents (Elt F) → (⟨S8x2048, .i32⟩ : BufTy).Contents (Elt F) → (⟨S8x2048, .i1⟩ : BufTy).Contents (Elt F)),
    nullary main_c_211 (constantI S_ 32 8#32),
    unary main_c_211 main_v607 (broadcastInDim S8x2048 ![] bcast_S_S8x2048 : (⟨S_, .i32⟩ : BufTy).Contents (Elt F) → (⟨S8x2048, .i32⟩ : BufTy).Contents (Elt F)),
    binary main_v35 main_v607 main_v608 (addi : (⟨S8x2048, .i32⟩ : BufTy).Contents (Elt F) → (⟨S8x2048, .i32⟩ : BufTy).Contents (Elt F) → (⟨S8x2048, .i32⟩ : BufTy).Contents (Elt F)),
    ternary main_v606 main_v608 main_v35 main_v609 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_212 (constantI S_ 32 0#32),
    unary main_c_212 main_v610 (broadcastInDim S8x2048 ![] bcast_S_S8x2048 : (⟨S_, .i32⟩ : BufTy).Contents (Elt F) → (⟨S8x2048, .i32⟩ : BufTy).Contents (Elt F)),
    binary main_v604 main_v610 main_v611 (cmpi .slt : (⟨S8x2048, .i32⟩ : BufTy).Contents (Elt F) → (⟨S8x2048, .i32⟩ : BufTy).Contents (Elt F) → (⟨S8x2048, .i1⟩ : BufTy).Contents (Elt F)),
    nullary main_c_213 (constantI S_ 32 32#32),
    unary main_c_213 main_v612 (broadcastInDim S8x2048 ![] bcast_S_S8x2048 : (⟨S_, .i32⟩ : BufTy).Contents (Elt F) → (⟨S8x2048, .i32⟩ : BufTy).Contents (Elt F)),
    binary main_v604 main_v612 main_v613 (addi : (⟨S8x2048, .i32⟩ : BufTy).Contents (Elt F) → (⟨S8x2048, .i32⟩ : BufTy).Contents (Elt F) → (⟨S8x2048, .i32⟩ : BufTy).Contents (Elt F)),
    ternary main_v611 main_v613 main_v604 main_v614 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_214 (constantI S_ 32 0#32),
    unary main_c_214 main_v615 (broadcastInDim S8x2048 ![] bcast_S_S8x2048 : (⟨S_, .i32⟩ : BufTy).Contents (Elt F) → (⟨S8x2048, .i32⟩ : BufTy).Contents (Elt F)),
    binary main_v602 main_v615 main_v616 (cmpi .slt : (⟨S8x2048, .i32⟩ : BufTy).Contents (Elt F) → (⟨S8x2048, .i32⟩ : BufTy).Contents (Elt F) → (⟨S8x2048, .i1⟩ : BufTy).Contents (Elt F)),
    nullary main_c_215 (constantI S_ 32 32#32),
    unary main_c_215 main_v617 (broadcastInDim S8x2048 ![] bcast_S_S8x2048 : (⟨S_, .i32⟩ : BufTy).Contents (Elt F) → (⟨S8x2048, .i32⟩ : BufTy).Contents (Elt F)),
    binary main_v602 main_v617 main_v618 (addi : (⟨S8x2048, .i32⟩ : BufTy).Contents (Elt F) → (⟨S8x2048, .i32⟩ : BufTy).Contents (Elt F) → (⟨S8x2048, .i32⟩ : BufTy).Contents (Elt F)),
    ternary main_v616 main_v618 main_v602 main_v619 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_216 (constantI S_ 32 0#32),
    unary main_c_216 main_v620 (broadcastInDim S8x2048 ![] bcast_S_S8x2048 : (⟨S_, .i32⟩ : BufTy).Contents (Elt F) → (⟨S8x2048, .i32⟩ : BufTy).Contents (Elt F)) ]

set_option maxRecDepth 8192 in
set_option maxHeartbeats 4000000 in
theorem main_part13_eq (c : Dev nD) : main_part13 (F := F) c = seq ops_part13 := rfl

set_option maxRecDepth 8192 in
theorem ops_part13_sub : (ops_part13 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
theorem ops_part13_fresh : ∀ op ∈ (ops_part13 : List (HloOp τ sig (Elt F))), op.fresh = ∅ :=
  List.forall_iff_forall_mem.mp (show (ops_part13 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The 18 operations of window `main_part14` (@main's operations 961 … 978 of 978), in order. -/
abbrev ops_part14 : List (HloOp τ sig (Elt F)) :=
  [ binary main_v600 main_v620 main_v621 (cmpi .slt : (⟨S8x2048, .i32⟩ : BufTy).Contents (Elt F) → (⟨S8x2048, .i32⟩ : BufTy).Contents (Elt F) → (⟨S8x2048, .i1⟩ : BufTy).Contents (Elt F)),
    nullary main_c_217 (constantI S_ 32 32#32),
    unary main_c_217 main_v622 (broadcastInDim S8x2048 ![] bcast_S_S8x2048 : (⟨S_, .i32⟩ : BufTy).Contents (Elt F) → (⟨S8x2048, .i32⟩ : BufTy).Contents (Elt F)),
    binary main_v600 main_v622 main_v623 (addi : (⟨S8x2048, .i32⟩ : BufTy).Contents (Elt F) → (⟨S8x2048, .i32⟩ : BufTy).Contents (Elt F) → (⟨S8x2048, .i32⟩ : BufTy).Contents (Elt F)),
    ternary main_v621 main_v623 main_v600 main_v624 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v609 main_v625 (broadcastInDim S8x2048x1 ![0, 1] bcast_S8x2048_S8x2048x1_0_1 : (⟨S8x2048, .i32⟩ : BufTy).Contents (Elt F) → (⟨S8x2048x1, .i32⟩ : BufTy).Contents (Elt F)),
    unary main_v614 main_v626 (broadcastInDim S8x2048x1 ![0, 1] bcast_S8x2048_S8x2048x1_0_1 : (⟨S8x2048, .i32⟩ : BufTy).Contents (Elt F) → (⟨S8x2048x1, .i32⟩ : BufTy).Contents (Elt F)),
    unary main_v619 main_v627 (broadcastInDim S8x2048x1 ![0, 1] bcast_S8x2048_S8x2048x1_0_1 : (⟨S8x2048, .i32⟩ : BufTy).Contents (Elt F) → (⟨S8x2048x1, .i32⟩ : BufTy).Contents (Elt F)),
    unary main_v624 main_v628 (broadcastInDim S8x2048x1 ![0, 1] bcast_S8x2048_S8x2048x1_0_1 : (⟨S8x2048, .i32⟩ : BufTy).Contents (Elt F) → (⟨S8x2048x1, .i32⟩ : BufTy).Contents (Elt F)),
    nary ![main_v625, main_v626, main_v627, main_v628] main_v629 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2),
    binary main_arg2 main_v629 main_v630 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v598 main_v631 (uitofp .f32 : (⟨S8x2048, .i1⟩ : BufTy).Contents (Elt F) → (⟨S8x2048, .f32⟩ : BufTy).Contents (Elt F)),
    binary main_v581 main_v631 main_v632 (mulf : (⟨S8x2048, .f32⟩ : BufTy).Contents (Elt F) → (⟨S8x2048, .f32⟩ : BufTy).Contents (Elt F) → (⟨S8x2048, .f32⟩ : BufTy).Contents (Elt F)),
    unary main_v632 main_v633 (broadcastInDim S8x2048x1 ![0, 1] bcast_S8x2048_S8x2048x1_0_1 : (⟨S8x2048, .f32⟩ : BufTy).Contents (Elt F) → (⟨S8x2048x1, .f32⟩ : BufTy).Contents (Elt F)),
    unary main_v633 main_v634 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v630 main_v634 main_v635 (mulf : (⟨S8x2048x128, .f32⟩ : BufTy).Contents (Elt F) → (⟨S8x2048x128, .f32⟩ : BufTy).Contents (Elt F) → (⟨S8x2048x128, .f32⟩ : BufTy).Contents (Elt F)),
    binary main_v561 main_v635 main_v636 (addf : (⟨S8x2048x128, .f32⟩ : BufTy).Contents (Elt F) → (⟨S8x2048x128, .f32⟩ : BufTy).Contents (Elt F) → (⟨S8x2048x128, .f32⟩ : BufTy).Contents (Elt F)),
    nary ![main_arg0, main_v636, main_v1] main_v637 (fun u => concatenate S8x2048x259 2 [⟨S8x2048x128, u 0⟩, ⟨S8x2048x128, u 1⟩, ⟨S8x2048x3, u 2⟩] concatenates_S8x2048x128_S8x2048x128_S8x2048x3_S8x2048x259_d2) ]

set_option maxRecDepth 8192 in
set_option maxHeartbeats 4000000 in
theorem main_part14_eq (c : Dev nD) : main_part14 (F := F) c = seq ops_part14 := rfl

set_option maxRecDepth 8192 in
theorem ops_part14_sub : (ops_part14 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., nary_bufs_sub ..⟩

set_option maxRecDepth 8192 in
theorem ops_part14_fresh : ∀ op ∈ (ops_part14 : List (HloOp τ sig (Elt F))), op.fresh = ∅ :=
  List.forall_iff_forall_mem.mp (show (ops_part14 : List (HloOp τ sig (Elt F))).Forall (fun op => op.fresh = ∅) from
    ⟨rfl, rfl, rfl, rfl, rfl, rfl, rfl, rfl, rfl, rfl, rfl, rfl, rfl, rfl, rfl, rfl, rfl, rfl⟩)

/-- @main's 978 operations, in order: the windows' lists one after the other. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14))))))))))))))

set_option maxRecDepth 8192 in
set_option maxHeartbeats 4000000 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h, List.forall_iff_forall_mem.mp ops_part14_sub op h]

theorem ops_fresh : ∀ op ∈ (ops : List (HloOp τ sig (Elt F))), op.fresh = ∅ := fun op h => by
  simp only [ops, List.mem_append] at h
  rcases h with h | h | h | h | h | h | h | h | h | h | h | h | h | h | h
  exacts [ops_part0_fresh op h, ops_part1_fresh op h, ops_part2_fresh op h, ops_part3_fresh op h, ops_part4_fresh op h, ops_part5_fresh op h, ops_part6_fresh op h, ops_part7_fresh op h, ops_part8_fresh op h, ops_part9_fresh op h, ops_part10_fresh op h, ops_part11_fresh op h, ops_part12_fresh op h, ops_part13_fresh op h, ops_part14_fresh op h]

end Cert.Proof.Ref

end
-- ==== Proof.Ref.Win0.lean ====
/-
   Window main_part0 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 0: @main's operations 1 … 60 of 978. -/
abbrev seg0 : List (HloOp τ sig (Elt F)) :=
  [ binary main_arg1 main_arg0 main_v0 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    binary main_v0 main_arg3 main_v1 ((fun l r => Host.dotGeneral dot_S8x2048x128_S128x3_S8x2048x3_2_0_01_1_n_n none l r) : (⟨S8x2048x128, .f32⟩ : BufTy).Contents (Elt F) → (⟨S128x3, .f32⟩ : BufTy).Contents (Elt F) → (⟨S8x2048x3, .f32⟩ : BufTy).Contents (Elt F)),
    nullary main_cst (constant S_ .f32 0x40000000#32),
    unary main_cst main_v2 (broadcastInDim S8x2048x3 ![] bcast_S_S8x2048x3 : (⟨S_, .f32⟩ : BufTy).Contents (Elt F) → (⟨S8x2048x3, .f32⟩ : BufTy).Contents (Elt F)),
    binary main_v2 main_v1 main_v3 (mulf : (⟨S8x2048x3, .f32⟩ : BufTy).Contents (Elt F) → (⟨S8x2048x3, .f32⟩ : BufTy).Contents (Elt F) → (⟨S8x2048x3, .f32⟩ : BufTy).Contents (Elt F)),
    nullary main_cst_0 (constant S_ .f32 0x3F800000#32),
    unary main_cst_0 main_v4 (broadcastInDim S8x2048x3 ![] bcast_S_S8x2048x3 : (⟨S_, .f32⟩ : BufTy).Contents (Elt F) → (⟨S8x2048x3, .f32⟩ : BufTy).Contents (Elt F)),
    binary main_v3 main_v4 main_v5 (subf : (⟨S8x2048x3, .f32⟩ : BufTy).Contents (Elt F) → (⟨S8x2048x3, .f32⟩ : BufTy).Contents (Elt F) → (⟨S8x2048x3, .f32⟩ : BufTy).Contents (Elt F)),
    unary main_v5 main_v6 ((extractStridedSlice S8x2048x1 ![0, 0, 0] · slices_S8x2048x3_S8x2048x1_0_0_0) : (⟨S8x2048x3, .f32⟩ : BufTy).Contents (Elt F) → (⟨S8x2048x1, .f32⟩ : BufTy).Contents (Elt F)),
    reshape main_v6 main_v7 rfl shapeCasts_S8x2048x1_S8x2048,
    nullary main_cst_1 (constant S_ .f32 0x3F800000#32),
    unary main_cst_1 main_v8 (broadcastInDim S8x2048 ![] bcast_S_S8x2048 : (⟨S_, .f32⟩ : BufTy).Contents (Elt F) → (⟨S8x2048, .f32⟩ : BufTy).Contents (Elt F)),
    binary main_v7 main_v8 main_v9 (addf : (⟨S8x2048, .f32⟩ : BufTy).Contents (Elt F) → (⟨S8x2048, .f32⟩ : BufTy).Contents (Elt F) → (⟨S8x2048, .f32⟩ : BufTy).Contents (Elt F)),
    nullary main_cst_2 (constant S_ .f32 0x41F80000#32),
    unary main_cst_2 main_v10 (broadcastInDim S8x2048 ![] bcast_S_S8x2048 : (⟨S_, .f32⟩ : BufTy).Contents (Elt F) → (⟨S8x2048, .f32⟩ : BufTy).Contents (Elt F)),
    binary main_v9 main_v10 main_v11 (mulf : (⟨S8x2048, .f32⟩ : BufTy).Contents (Elt F) → (⟨S8x2048, .f32⟩ : BufTy).Contents (Elt F) → (⟨S8x2048, .f32⟩ : BufTy).Contents (Elt F)),
    nullary main_cst_3 (constant S_ .f32 0x40000000#32),
    unary main_cst_3 main_v12 (broadcastInDim S8x2048 ![] bcast_S_S8x2048 : (⟨S_, .f32⟩ : BufTy).Contents (Elt F) → (⟨S8x2048, .f32⟩ : BufTy).Contents (Elt F)),
    binary main_v11 main_v12 main_v13 (Host.divf : (⟨S8x2048, .f32⟩ : BufTy).Contents (Elt F) → (⟨S8x2048, .f32⟩ : BufTy).Contents (Elt F) → (⟨S8x2048, .f32⟩ : BufTy).Contents (Elt F)),
    unary main_v5 main_v14 ((extractStridedSlice S8x2048x1 ![0, 0, 1] · slices_S8x2048x3_S8x2048x1_0_0_1) : (⟨S8x2048x3, .f32⟩ : BufTy).Contents (Elt F) → (⟨S8x2048x1, .f32⟩ : BufTy).Contents (Elt F)),
    reshape main_v14 main_v15 rfl shapeCasts_S8x2048x1_S8x2048,
    nullary main_cst_4 (constant S_ .f32 0x3F800000#32),
    unary main_cst_4 main_v16 (broadcastInDim S8x2048 ![] bcast_S_S8x2048 : (⟨S_, .f32⟩ : BufTy).Contents (Elt F) → (⟨S8x2048, .f32⟩ : BufTy).Contents (Elt F)),
    binary main_v15 main_v16 main_v17 (addf : (⟨S8x2048, .f32⟩ : BufTy).Contents (Elt F) → (⟨S8x2048, .f32⟩ : BufTy).Contents (Elt F) → (⟨S8x2048, .f32⟩ : BufTy).Contents (Elt F)),
    nullary main_cst_5 (constant S_ .f32 0x41F80000#32),
    unary main_cst_5 main_v18 (broadcastInDim S8x2048 ![] bcast_S_S8x2048 : (⟨S_, .f32⟩ : BufTy).Contents (Elt F) → (⟨S8x2048, .f32⟩ : BufTy).Contents (Elt F)),
    binary main_v17 main_v18 main_v19 (mulf : (⟨S8x2048, .f32⟩ : BufTy).Contents (Elt F) → (⟨S8x2048, .f32⟩ : BufTy).Contents (Elt F) → (⟨S8x2048, .f32⟩ : BufTy).Contents (Elt F)),
    nullary main_cst_6 (constant S_ .f32 0x40000000#32),
    unary main_cst_6 main_v20 (broadcastInDim S8x2048 ![] bcast_S_S8x2048 : (⟨S_, .f32⟩ : BufTy).Contents (Elt F) → (⟨S8x2048, .f32⟩ : BufTy).Contents (Elt F)),
    binary main_v19 main_v20 main_v21 (Host.divf : (⟨S8x2048, .f32⟩ : BufTy).Contents (Elt F) → (⟨S8x2048, .f32⟩ : BufTy).Contents (Elt F) → (⟨S8x2048, .f32⟩ : BufTy).Contents (Elt F)),
    unary main_v5 main_v22 ((extractStridedSlice S8x2048x1 ![0, 0, 2] · slices_S8x2048x3_S8x2048x1_0_0_2) : (⟨S8x2048x3, .f32⟩ : BufTy).Contents (Elt F) → (⟨S8x2048x1, .f32⟩ : BufTy).Contents (Elt F)),
    reshape main_v22 main_v23 rfl shapeCasts_S8x2048x1_S8x2048,
    nullary main_cst_7 (constant S_ .f32 0x3F800000#32),
    unary main_cst_7 main_v24 (broadcastInDim S8x2048 ![] bcast_S_S8x2048 : (⟨S_, .f32⟩ : BufTy).Contents (Elt F) → (⟨S8x2048, .f32⟩ : BufTy).Contents (Elt F)),
    binary main_v23 main_v24 main_v25 (addf : (⟨S8x2048, .f32⟩ : BufTy).Contents (Elt F) → (⟨S8x2048, .f32⟩ : BufTy).Contents (Elt F) → (⟨S8x2048, .f32⟩ : BufTy).Contents (Elt F)),
    nullary main_cst_8 (constant S_ .f32 0x41F80000#32),
    unary main_cst_8 main_v26 (broadcastInDim S8x2048 ![] bcast_S_S8x2048 : (⟨S_, .f32⟩ : BufTy).Contents (Elt F) → (⟨S8x2048, .f32⟩ : BufTy).Contents (Elt F)),
    binary main_v25 main_v26 main_v27 (mulf : (⟨S8x2048, .f32⟩ : BufTy).Contents (Elt F) → (⟨S8x2048, .f32⟩ : BufTy).Contents (Elt F) → (⟨S8x2048, .f32⟩ : BufTy).Contents (Elt F)),
    nullary main_cst_9 (constant S_ .f32 0x40000000#32),
    unary main_cst_9 main_v28 (broadcastInDim S8x2048 ![] bcast_S_S8x2048 : (⟨S_, .f32⟩ : BufTy).Contents (Elt F) → (⟨S8x2048, .f32⟩ : BufTy).Contents (Elt F)),
    binary main_v27 main_v28 main_v29 (Host.divf : (⟨S8x2048, .f32⟩ : BufTy).Contents (Elt F) → (⟨S8x2048, .f32⟩ : BufTy).Contents (Elt F) → (⟨S8x2048, .f32⟩ : BufTy).Contents (Elt F)),
    unary main_v13 main_v30 (Host.floor : (⟨S8x2048, .f32⟩ : BufTy).Contents (Elt F) → (⟨S8x2048, .f32⟩ : BufTy).Contents (Elt F)),
    unary main_v21 main_v31 (Host.floor : (⟨S8x2048, .f32⟩ : BufTy).Contents (Elt F) → (⟨S8x2048, .f32⟩ : BufTy).Contents (Elt F)),
    unary main_v29 main_v32 (Host.floor : (⟨S8x2048, .f32⟩ : BufTy).Contents (Elt F) → (⟨S8x2048, .f32⟩ : BufTy).Contents (Elt F)),
    nullary main_v33 (iotaInDim S8 32 0),
    unary main_v33 main_v34 (broadcastInDim S8x1 ![0] bcast_S8_S8x1_0 : (⟨S8, .i32⟩ : BufTy).Contents (Elt F) → (⟨S8x1, .i32⟩ : BufTy).Contents (Elt F)),
    unary main_v34 main_v35 (broadcastInDim S8x2048 ![0, 1] bcast_S8x1_S8x2048_0_1 : (⟨S8x1, .i32⟩ : BufTy).Contents (Elt F) → (⟨S8x2048, .i32⟩ : BufTy).Contents (Elt F)),
    nullary main_cst_10 (constant S_ .f32 0x00000000#32),
    unary main_cst_10 main_v36 (broadcastInDim S8x2048x128 ![] bcast_S_S8x2048x128 : (⟨S_, .f32⟩ : BufTy).Contents (Elt F) → (⟨S8x2048x128, .f32⟩ : BufTy).Contents (Elt F)),
    nullary main_cst_11 (constant S_ .f32 0x00000000#32),
    unary main_cst_11 main_v37 (broadcastInDim S8x2048 ![] bcast_S_S8x2048 : (⟨S_, .f32⟩ : BufTy).Contents (Elt F) → (⟨S8x2048, .f32⟩ : BufTy).Contents (Elt F)),
    binary main_v30 main_v37 main_v38 (addf : (⟨S8x2048, .f32⟩ : BufTy).Contents (Elt F) → (⟨S8x2048, .f32⟩ : BufTy).Contents (Elt F) → (⟨S8x2048, .f32⟩ : BufTy).Contents (Elt F)),
    nullary main_cst_12 (constant S_ .f32 0x00000000#32),
    unary main_cst_12 main_v39 (broadcastInDim S8x2048 ![] bcast_S_S8x2048 : (⟨S_, .f32⟩ : BufTy).Contents (Elt F) → (⟨S8x2048, .f32⟩ : BufTy).Contents (Elt F)),
    binary main_v31 main_v39 main_v40 (addf : (⟨S8x2048, .f32⟩ : BufTy).Contents (Elt F) → (⟨S8x2048, .f32⟩ : BufTy).Contents (Elt F) → (⟨S8x2048, .f32⟩ : BufTy).Contents (Elt F)),
    nullary main_cst_13 (constant S_ .f32 0x00000000#32),
    unary main_cst_13 main_v41 (broadcastInDim S8x2048 ![] bcast_S_S8x2048 : (⟨S_, .f32⟩ : BufTy).Contents (Elt F) → (⟨S8x2048, .f32⟩ : BufTy).Contents (Elt F)),
    binary main_v32 main_v41 main_v42 (addf : (⟨S8x2048, .f32⟩ : BufTy).Contents (Elt F) → (⟨S8x2048, .f32⟩ : BufTy).Contents (Elt F) → (⟨S8x2048, .f32⟩ : BufTy).Contents (Elt F)),
    binary main_v13 main_v38 main_v43 (subf : (⟨S8x2048, .f32⟩ : BufTy).Contents (Elt F) → (⟨S8x2048, .f32⟩ : BufTy).Contents (Elt F) → (⟨S8x2048, .f32⟩ : BufTy).Contents (Elt F)),
    unary main_v43 main_v44 (Host.absf : (⟨S8x2048, .f32⟩ : BufTy).Contents (Elt F) → (⟨S8x2048, .f32⟩ : BufTy).Contents (Elt F)) ]

set_option maxRecDepth 8192 in
/-- The window is its segments one after the other. -/
theorem ops_part0_segs : (ops_part0 : List (HloOp τ sig (Elt F))) = seg0 := rfl

/-- The buffers that segment 0's operations write. -/
abbrev seg0_W : List (Ref sig .tc) := [main_v0, main_v1, main_cst, main_v2, main_v3, main_cst_0, main_v4, main_v5, main_v6, main_v7, main_cst_1, main_v8, main_v9, main_cst_2, main_v10, main_v11, main_cst_3, main_v12, main_v13, main_v14, main_v15, main_cst_4, main_v16, main_v17, main_cst_5, main_v18, main_v19, main_cst_6, main_v20, main_v21, main_v22, main_v23, main_cst_7, main_v24, main_v25, main_cst_8, main_v26, main_v27, main_cst_9, main_v28, main_v29, main_v30, main_v31, main_v32, main_v33, main_v34, main_v35, main_cst_10, main_v36, main_cst_11, main_v37, main_v38, main_cst_12, main_v39, main_v40, main_cst_13, main_v41, main_v42, main_v43, main_v44]
set_option maxRecDepth 8192 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 0 does not write keeps its contents through it. -/
theorem seg0_keep (W : Valuation τ sig (Elt F)) (r : Ref sig .tc) (h : r ∉ seg0_W) :
    after seg0 W (Proc.devRef .tc r) = W (Proc.devRef .tc r) :=
  after_of_writes_sub seg0 _ seg0_writes h

set_option maxRecDepth 8192 in
set_option maxHeartbeats 2000000 in
theorem seg0_main_v1 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v1)) = val_main_v1 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v13 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v13)) = val_main_v13 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v21 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v21)) = val_main_v21 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v29 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v29)) = val_main_v29 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v30 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v30)) = val_main_v30 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v31 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v31)) = val_main_v31 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v32 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v32)) = val_main_v32 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v35 (W V0 : Valuation τ sig (Elt F))
    : after seg0 W (no_index (Proc.devRef .tc main_v35)) = val_main_v35 (F := F) := by
  simp only [seg0]
  after_results_simp
  all_goals rfl
set_option maxRecDepth 8192 in
set_option maxHeartbeats 2000000 in
theorem seg0_main_v36 (W V0 : Valuation τ sig (Elt F))
    : after seg0 W (no_index (Proc.devRef .tc main_v36)) = val_main_v36 (F := F) := by
  simp only [seg0]
  after_results_simp
  all_goals rfl
set_option maxRecDepth 8192 in
set_option maxHeartbeats 2000000 in
theorem seg0_main_v38 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v38)) = val_main_v38 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v40 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v40)) = val_main_v40 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v42 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v42)) = val_main_v42 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl
set_option maxRecDepth 8192 in
set_option maxHeartbeats 2000000 in
theorem seg0_main_v44 (W V0 : Valuation τ sig (Elt F))
    (h_main_arg3 : W (no_index (Proc.devRef .tc main_arg3)) = V0 (Proc.devRef .tc main_arg3))
    (h_main_arg0 : W (no_index (Proc.devRef .tc main_arg0)) = V0 (Proc.devRef .tc main_arg0))
    (h_main_arg1 : W (no_index (Proc.devRef .tc main_arg1)) = V0 (Proc.devRef .tc main_arg1))
    : after seg0 W (no_index (Proc.devRef .tc main_v44)) = val_main_v44 (F := F) (V0 (Proc.devRef .tc main_arg0)) (V0 (Proc.devRef .tc main_arg1)) (V0 (Proc.devRef .tc main_arg3)) := by
  simp only [seg0]
  after_results_simp
  simp only [h_main_arg3, h_main_arg0, h_main_arg1] <;> rfl

end Cert.Proof.Ref

end
-- ==== Proof.Ref.Win1.lean ====
/-
   Window main_part1 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 1: @main's operations 61 … 135 of 978. -/
abbrev seg1 : List (HloOp τ sig (Elt F)) :=
  [ nullary main_cst_14 (constant S_ .f32 0x3F800000#32),
    unary main_cst_14 main_v45 (broadcastInDim S8x2048 ![] bcast_S_S8x2048 : (⟨S_, .f32⟩ : BufTy).Contents (Elt F) → (⟨S8x2048, .f32⟩ : BufTy).Contents (Elt F)),
    binary main_v45 main_v44 main_v46 (subf : (⟨S8x2048, .f32⟩ : BufTy).Contents (Elt F) → (⟨S8x2048, .f32⟩ : BufTy).Contents (Elt F) → (⟨S8x2048, .f32⟩ : BufTy).Contents (Elt F)),
    binary main_v21 main_v40 main_v47 (subf : (⟨S8x2048, .f32⟩ : BufTy).Contents (Elt F) → (⟨S8x2048, .f32⟩ : BufTy).Contents (Elt F) → (⟨S8x2048, .f32⟩ : BufTy).Contents (Elt F)),
    unary main_v47 main_v48 (Host.absf : (⟨S8x2048, .f32⟩ : BufTy).Contents (Elt F) → (⟨S8x2048, .f32⟩ : BufTy).Contents (Elt F)),
    nullary main_cst_15 (constant S_ .f32 0x3F800000#32),
    unary main_cst_15 main_v49 (broadcastInDim S8x2048 ![] bcast_S_S8x2048 : (⟨S_, .f32⟩ : BufTy).Contents (Elt F) → (⟨S8x2048, .f32⟩ : BufTy).Contents (Elt F)),
    binary main_v49 main_v48 main_v50 (subf : (⟨S8x2048, .f32⟩ : BufTy).Contents (Elt F) → (⟨S8x2048, .f32⟩ : BufTy).Contents (Elt F) → (⟨S8x2048, .f32⟩ : BufTy).Contents (Elt F)),
    binary main_v46 main_v50 main_v51 (mulf : (⟨S8x2048, .f32⟩ : BufTy).Contents (Elt F) → (⟨S8x2048, .f32⟩ : BufTy).Contents (Elt F) → (⟨S8x2048, .f32⟩ : BufTy).Contents (Elt F)),
    binary main_v29 main_v42 main_v52 (subf : (⟨S8x2048, .f32⟩ : BufTy).Contents (Elt F) → (⟨S8x2048, .f32⟩ : BufTy).Contents (Elt F) → (⟨S8x2048, .f32⟩ : BufTy).Contents (Elt F)),
    unary main_v52 main_v53 (Host.absf : (⟨S8x2048, .f32⟩ : BufTy).Contents (Elt F) → (⟨S8x2048, .f32⟩ : BufTy).Contents (Elt F)),
    nullary main_cst_16 (constant S_ .f32 0x3F800000#32),
    unary main_cst_16 main_v54 (broadcastInDim S8x2048 ![] bcast_S_S8x2048 : (⟨S_, .f32⟩ : BufTy).Contents (Elt F) → (⟨S8x2048, .f32⟩ : BufTy).Contents (Elt F)),
    binary main_v54 main_v53 main_v55 (subf : (⟨S8x2048, .f32⟩ : BufTy).Contents (Elt F) → (⟨S8x2048, .f32⟩ : BufTy).Contents (Elt F) → (⟨S8x2048, .f32⟩ : BufTy).Contents (Elt F)),
    binary main_v51 main_v55 main_v56 (mulf : (⟨S8x2048, .f32⟩ : BufTy).Contents (Elt F) → (⟨S8x2048, .f32⟩ : BufTy).Contents (Elt F) → (⟨S8x2048, .f32⟩ : BufTy).Contents (Elt F)),
    nullary main_cst_17 (constant S_ .f32 0x00000000#32),
    unary main_cst_17 main_v57 (broadcastInDim S8x2048 ![] bcast_S_S8x2048 : (⟨S_, .f32⟩ : BufTy).Contents (Elt F) → (⟨S8x2048, .f32⟩ : BufTy).Contents (Elt F)),
    binary main_v38 main_v57 main_v58 (cmpf .oge : (⟨S8x2048, .f32⟩ : BufTy).Contents (Elt F) → (⟨S8x2048, .f32⟩ : BufTy).Contents (Elt F) → (⟨S8x2048, .i1⟩ : BufTy).Contents (Elt F)),
    nullary main_cst_18 (constant S_ .f32 0x41F80000#32),
    unary main_cst_18 main_v59 (broadcastInDim S8x2048 ![] bcast_S_S8x2048 : (⟨S_, .f32⟩ : BufTy).Contents (Elt F) → (⟨S8x2048, .f32⟩ : BufTy).Contents (Elt F)),
    binary main_v38 main_v59 main_v60 (cmpf .ole : (⟨S8x2048, .f32⟩ : BufTy).Contents (Elt F) → (⟨S8x2048, .f32⟩ : BufTy).Contents (Elt F) → (⟨S8x2048, .i1⟩ : BufTy).Contents (Elt F)),
    binary main_v58 main_v60 main_v61 (andi : (⟨S8x2048, .i1⟩ : BufTy).Contents (Elt F) → (⟨S8x2048, .i1⟩ : BufTy).Contents (Elt F) → (⟨S8x2048, .i1⟩ : BufTy).Contents (Elt F)),
    nullary main_cst_19 (constant S_ .f32 0x00000000#32),
    unary main_cst_19 main_v62 (broadcastInDim S8x2048 ![] bcast_S_S8x2048 : (⟨S_, .f32⟩ : BufTy).Contents (Elt F) → (⟨S8x2048, .f32⟩ : BufTy).Contents (Elt F)),
    binary main_v40 main_v62 main_v63 (cmpf .oge : (⟨S8x2048, .f32⟩ : BufTy).Contents (Elt F) → (⟨S8x2048, .f32⟩ : BufTy).Contents (Elt F) → (⟨S8x2048, .i1⟩ : BufTy).Contents (Elt F)),
    binary main_v61 main_v63 main_v64 (andi : (⟨S8x2048, .i1⟩ : BufTy).Contents (Elt F) → (⟨S8x2048, .i1⟩ : BufTy).Contents (Elt F) → (⟨S8x2048, .i1⟩ : BufTy).Contents (Elt F)),
    nullary main_cst_20 (constant S_ .f32 0x41F80000#32),
    unary main_cst_20 main_v65 (broadcastInDim S8x2048 ![] bcast_S_S8x2048 : (⟨S_, .f32⟩ : BufTy).Contents (Elt F) → (⟨S8x2048, .f32⟩ : BufTy).Contents (Elt F)),
    binary main_v40 main_v65 main_v66 (cmpf .ole : (⟨S8x2048, .f32⟩ : BufTy).Contents (Elt F) → (⟨S8x2048, .f32⟩ : BufTy).Contents (Elt F) → (⟨S8x2048, .i1⟩ : BufTy).Contents (Elt F)),
    binary main_v64 main_v66 main_v67 (andi : (⟨S8x2048, .i1⟩ : BufTy).Contents (Elt F) → (⟨S8x2048, .i1⟩ : BufTy).Contents (Elt F) → (⟨S8x2048, .i1⟩ : BufTy).Contents (Elt F)),
    nullary main_cst_21 (constant S_ .f32 0x00000000#32),
    unary main_cst_21 main_v68 (broadcastInDim S8x2048 ![] bcast_S_S8x2048 : (⟨S_, .f32⟩ : BufTy).Contents (Elt F) → (⟨S8x2048, .f32⟩ : BufTy).Contents (Elt F)),
    binary main_v42 main_v68 main_v69 (cmpf .oge : (⟨S8x2048, .f32⟩ : BufTy).Contents (Elt F) → (⟨S8x2048, .f32⟩ : BufTy).Contents (Elt F) → (⟨S8x2048, .i1⟩ : BufTy).Contents (Elt F)),
    binary main_v67 main_v69 main_v70 (andi : (⟨S8x2048, .i1⟩ : BufTy).Contents (Elt F) → (⟨S8x2048, .i1⟩ : BufTy).Contents (Elt F) → (⟨S8x2048, .i1⟩ : BufTy).Contents (Elt F)),
    nullary main_cst_22 (constant S_ .f32 0x41F80000#32),
    unary main_cst_22 main_v71 (broadcastInDim S8x2048 ![] bcast_S_S8x2048 : (⟨S_, .f32⟩ : BufTy).Contents (Elt F) → (⟨S8x2048, .f32⟩ : BufTy).Contents (Elt F)),
    binary main_v42 main_v71 main_v72 (cmpf .ole : (⟨S8x2048, .f32⟩ : BufTy).Contents (Elt F) → (⟨S8x2048, .f32⟩ : BufTy).Contents (Elt F) → (⟨S8x2048, .i1⟩ : BufTy).Contents (Elt F)),
    binary main_v70 main_v72 main_v73 (andi : (⟨S8x2048, .i1⟩ : BufTy).Contents (Elt F) → (⟨S8x2048, .i1⟩ : BufTy).Contents (Elt F) → (⟨S8x2048, .i1⟩ : BufTy).Contents (Elt F)),
    nullary main_c (constantI S_ 32 0#32),
    nullary main_c_23 (constantI S_ 32 31#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S8x2048, .f32⟩) main_call0_v1) (broadcastInDim S8x2048 ![] bcast_S_S8x2048),
    TRef.binary (TRef.of (T := ⟨S8x2048, .f32⟩) main_call0_v1) (TRef.of (T := ⟨S8x2048, .f32⟩) main_v38) (TRef.of (T := ⟨S8x2048, .f32⟩) main_call0_v2) maximumf,
    TRef.unary (TRef.of (T := ⟨S_, .i32⟩) main_c_23) (TRef.of (T := ⟨S_, .f32⟩) main_call0_v3) (sitofp .f32),
    TRef.unary (TRef.of (T := ⟨S_, .f32⟩) main_call0_v3) (TRef.of (T := ⟨S8x2048, .f32⟩) main_call0_v4) (broadcastInDim S8x2048 ![] bcast_S_S8x2048),
    TRef.binary (TRef.of (T := ⟨S8x2048, .f32⟩) main_call0_v4) (TRef.of (T := ⟨S8x2048, .f32⟩) main_call0_v2) (TRef.of (T := ⟨S8x2048, .f32⟩) main_v74) minimumf,
    unary main_v74 main_v75 (fptosi 32 : (⟨S8x2048, .f32⟩ : BufTy).Contents (Elt F) → (⟨S8x2048, .i32⟩ : BufTy).Contents (Elt F)),
    nullary main_c_24 (constantI S_ 32 0#32),
    nullary main_c_25 (constantI S_ 32 31#32),
    TRef.unary (TRef.of (T := ⟨S_, .i32⟩) main_c_24) (TRef.of (T := ⟨S_, .f32⟩) main_call1_v0) (sitofp .f32),
    TRef.unary (TRef.of (T := ⟨S_, .f32⟩) main_call1_v0) (TRef.of (T := ⟨S8x2048, .f32⟩) main_call1_v1) (broadcastInDim S8x2048 ![] bcast_S_S8x2048),
    TRef.binary (TRef.of (T := ⟨S8x2048, .f32⟩) main_call1_v1) (TRef.of (T := ⟨S8x2048, .f32⟩) main_v40) (TRef.of (T := ⟨S8x2048, .f32⟩) main_call1_v2) maximumf,
    TRef.unary (TRef.of (T := ⟨S_, .i32⟩) main_c_25) (TRef.of (T := ⟨S_, .f32⟩) main_call1_v3) (sitofp .f32),
    TRef.unary (TRef.of (T := ⟨S_, .f32⟩) main_call1_v3) (TRef.of (T := ⟨S8x2048, .f32⟩) main_call1_v4) (broadcastInDim S8x2048 ![] bcast_S_S8x2048),
    TRef.binary (TRef.of (T := ⟨S8x2048, .f32⟩) main_call1_v4) (TRef.of (T := ⟨S8x2048, .f32⟩) main_call1_v2) (TRef.of (T := ⟨S8x2048, .f32⟩) main_v76) minimumf,
    unary main_v76 main_v77 (fptosi 32 : (⟨S8x2048, .f32⟩ : BufTy).Contents (Elt F) → (⟨S8x2048, .i32⟩ : BufTy).Contents (Elt F)),
    nullary main_c_26 (constantI S_ 32 0#32),
    nullary main_c_27 (constantI S_ 32 31#32),
    TRef.unary (TRef.of (T := ⟨S_, .i32⟩) main_c_26) (TRef.of (T := ⟨S_, .f32⟩) main_call2_v0) (sitofp .f32),
    TRef.unary (TRef.of (T := ⟨S_, .f32⟩) main_call2_v0) (TRef.of (T := ⟨S8x2048, .f32⟩) main_call2_v1) (broadcastInDim S8x2048 ![] bcast_S_S8x2048),
    TRef.binary (TRef.of (T := ⟨S8x2048, .f32⟩) main_call2_v1) (TRef.of (T := ⟨S8x2048, .f32⟩) main_v42) (TRef.of (T := ⟨S8x2048, .f32⟩) main_call2_v2) maximumf,
    TRef.unary (TRef.of (T := ⟨S_, .i32⟩) main_c_27) (TRef.of (T := ⟨S_, .f32⟩) main_call2_v3) (sitofp .f32),
    TRef.unary (TRef.of (T := ⟨S_, .f32⟩) main_call2_v3) (TRef.of (T := ⟨S8x2048, .f32⟩) main_call2_v4) (broadcastInDim S8x2048 ![] bcast_S_S8x2048),
    TRef.binary (TRef.of (T := ⟨S8x2048, .f32⟩) main_call2_v4) (TRef.of (T := ⟨S8x2048, .f32⟩) main_call2_v2) (TRef.of (T := ⟨S8x2048, .f32⟩) main_v78) minimumf,
    unary main_v78 main_v79 (fptosi 32 : (⟨S8x2048, .f32⟩ : BufTy).Contents (Elt F) → (⟨S8x2048, .i32⟩ : BufTy).Contents (Elt F)),
    nullary main_c_28 (constantI S_ 32 0#32),
    unary main_c_28 main_v80 (broadcastInDim S8x2048 ![] bcast_S_S8x2048 : (⟨S_, .i32⟩ : BufTy).Contents (Elt F) → (⟨S8x2048, .i32⟩ : BufTy).Contents (Elt F)),
    binary main_v35 main_v80 main_v81 (cmpi .slt : (⟨S8x2048, .i32⟩ : BufTy).Contents (Elt F) → (⟨S8x2048, .i32⟩ : BufTy).Contents (Elt F) → (⟨S8x2048, .i1⟩ : BufTy).Contents (Elt F)),
    nullary main_c_29 (constantI S_ 32 8#32),
    unary main_c_29 main_v82 (broadcastInDim S8x2048 ![] bcast_S_S8x2048 : (⟨S_, .i32⟩ : BufTy).Contents (Elt F) → (⟨S8x2048, .i32⟩ : BufTy).Contents (Elt F)),
    binary main_v35 main_v82 main_v83 (addi : (⟨S8x2048, .i32⟩ : BufTy).Contents (Elt F) → (⟨S8x2048, .i32⟩ : BufTy).Contents (Elt F) → (⟨S8x2048, .i32⟩ : BufTy).Contents (Elt F)),
    ternary main_v81 main_v83 main_v35 main_v84 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_30 (constantI S_ 32 0#32),
    unary main_c_30 main_v85 (broadcastInDim S8x2048 ![] bcast_S_S8x2048 : (⟨S_, .i32⟩ : BufTy).Contents (Elt F) → (⟨S8x2048, .i32⟩ : BufTy).Contents (Elt F)),
    binary main_v79 main_v85 main_v86 (cmpi .slt : (⟨S8x2048, .i32⟩ : BufTy).Contents (Elt F) → (⟨S8x2048, .i32⟩ : BufTy).Contents (Elt F) → (⟨S8x2048, .i1⟩ : BufTy).Contents (Elt F)) ]

set_option maxRecDepth 8192 in
/-- The window is its segments one after the other. -/
theorem ops_part1_segs : (ops_part1 : List (HloOp τ sig (Elt F))) = seg1 := rfl

/-- The buffers that segment 1's operations write. -/
abbrev seg1_W : List (Ref sig .tc) := [main_cst_14, main_v45, main_v46, main_v47, main_v48, main_cst_15, main_v49, main_v50, main_v51, main_v52, main_v53, main_cst_16, main_v54, main_v55, main_v56, main_cst_17, main_v57, main_v58, main_cst_18, main_v59, main_v60, main_v61, main_cst_19, main_v62, main_v63, main_v64, main_cst_20, main_v65, main_v66, main_v67, main_cst_21, main_v68, main_v69, main_v70, main_cst_22, main_v71, main_v72, main_v73, main_c, main_c_23, main_call0_v0, main_call0_v1, main_call0_v2, main_call0_v3, main_call0_v4, main_v74, main_v75, main_c_24, main_c_25, main_call1_v0, main_call1_v1, main_call1_v2, main_call1_v3, main_call1_v4, main_v76, main_v77, main_c_26, main_c_27, main_call2_v0, main_call2_v1, main_call2_v2, main_call2_v3, main_call2_v4, main_v78, main_v79, main_c_28, main_v80, main_v81, main_c_29, main_v82, main_v83, main_v84, main_c_30, main_v85, main_v86]
set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 1 does not write keeps its contents through it. -/
theorem seg1_keep (W : Valuation τ sig (Elt F)) (r : Ref sig .tc) (h : r ∉ seg1_W) :
    after seg1 W (Proc.devRef .tc r) = W (Proc.devRef .tc r) :=
  after_of_writes_sub seg1 _ seg1_writes h

set_option maxRecDepth 8192 in
set_option maxHeartbeats 2000000 in
theorem seg1_main_v56 (W V0 : Valuation τ sig (Elt F))
    (h_main_v42 : W (no_index (Proc.devRef .tc main_v42)) = val_main_v42 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v40 : W (no_index (Proc.devRef .tc main_v40)) = val_main_v40 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v44 : W (no_index (Proc.devRef .tc main_v44)) = val_main_v44 (F := F) (V0 (Proc.devRef .tc main_arg0)) (V0 (Proc.devRef .tc main_arg1)) (V0 (Proc.devRef .tc main_arg3)))
    : after seg1 W (no_index (Proc.devRef .tc main_v56)) = val_main_v56 (F := F) (V0 (Proc.devRef .tc main_arg0)) (V0 (Proc.devRef .tc main_arg1)) (V0 (Proc.devRef .tc main_arg3)) := by
  simp only [seg1]
  after_results_simp
  simp only [h_main_v42, h_main_v29, h_main_v40, h_main_v21, h_main_v44] <;> rfl
set_option maxRecDepth 8192 in
set_option maxHeartbeats 2000000 in
theorem seg1_main_v73 (W V0 : Valuation τ sig (Elt F))
    (h_main_v42 : W (no_index (Proc.devRef .tc main_v42)) = val_main_v42 (F := F) (V0 (Proc.devRef .tc main_arg0)) (V0 (Proc.devRef .tc main_arg1)) (V0 (Proc.devRef .tc main_arg3)))
    (h_main_v40 : W (no_index (Proc.devRef .tc main_v40)) = val_main_v40 (F := F) (V0 (Proc.devRef .tc main_arg0)) (V0 (Proc.devRef .tc main_arg1)) (V0 (Proc.devRef .tc main_arg3)))
    (h_main_v38 : W (no_index (Proc.devRef .tc main_v38)) = val_main_v38 (F := F) (V0 (Proc.devRef .tc main_arg0)) (V0 (Proc.devRef .tc main_arg1)) (V0 (Proc.devRef .tc main_arg3)))
    : after seg1 W (no_index (Proc.devRef .tc main_v73)) = val_main_v73 (F := F) (V0 (Proc.devRef .tc main_arg0)) (V0 (Proc.devRef .tc main_arg1)) (V0 (Proc.devRef .tc main_arg3)) := by
  simp only [seg1]
  after_results_simp
  simp only [h_main_v42, h_main_v40, h_main_v38] <;> rfl
set_option maxRecDepth 8192 in
set_option maxHeartbeats 2000000 in
theorem seg1_main_v75 (W V0 : Valuation τ sig (Elt F))
    (h_main_v38 : W (no_index (Proc.devRef .tc main_v38)) = val_main_v38 (F := F) (V0 (Proc.devRef .tc main_arg0)) (V0 (Proc.devRef .tc main_arg1)) (V0 (Proc.devRef .tc main_arg3)))
    : after seg1 W (no_index (Proc.devRef .tc main_v75)) = val_main_v75 (F := F) (V0 (Proc.devRef .tc main_arg0)) (V0 (Proc.devRef .tc main_arg1)) (V0 (Proc.devRef .tc main_arg3)) := by
  simp only [seg1]
  after_results_simp
  simp only [h_main_v38] <;> rfl
set_option maxRecDepth 8192 in
set_option maxHeartbeats 2000000 in
theorem seg1_main_v77 (W V0 : Valuation τ sig (Elt F))
    (h_main_v40 : W (no_index (Proc.devRef .tc main_v40)) = val_main_v40 (F := F) (V0 (Proc.devRef .tc main_arg0)) (V0 (Proc.devRef .tc main_arg1)) (V0 (Proc.devRef .tc main_arg3)))
    : after seg1 W (no_index (Proc.devRef .tc main_v77)) = val_main_v77 (F := F) (V0 (Proc.devRef .tc main_arg0)) (V0 (Proc.devRef .tc main_arg1)) (V0 (Proc.devRef .tc main_arg3)) := by
  simp only [seg1]
  after_results_simp
  simp only [h_main_v40] <;> rfl
set_option maxRecDepth 8192 in
set_option maxHeartbeats 2000000 in
theorem seg1_main_v79 (W V0 : Valuation τ sig (Elt F))
    (h_main_v42 : W (no_index (Proc.devRef .tc main_v42)) = val_main_v42 (F := F) (V0 (Proc.devRef .tc main_arg0)) (V0 (Proc.devRef .tc main_arg1)) (V0 (Proc.devRef .tc main_arg3)))
    : after seg1 W (no_index (Proc.devRef .tc main_v79)) = val_main_v79 (F := F) (V0 (Proc.devRef .tc main_arg0)) (V0 (Proc.devRef .tc main_arg1)) (V0 (Proc.devRef .tc main_arg3)) := by
  simp only [seg1]
  after_results_simp
  simp only [h_main_v42] <;> rfl
set_option maxRecDepth 8192 in
set_option maxHeartbeats 2000000 in
theorem seg1_main_v84 (W V0 : Valuation τ sig (Elt F))
    (h_main_v35 : W (no_index (Proc.devRef .tc main_v35)) = val_main_v35 (F := F))
    : after seg1 W (no_index (Proc.devRef .tc main_v84)) = val_main_v84 (F := F) := by
  simp only [seg1]
  after_results_simp
  simp only [h_main_v35] <;> rfl
set_option maxRecDepth 8192 in
set_option maxHeartbeats 2000000 in
theorem seg1_main_v86 (W V0 : Valuation τ sig (Elt F))
    (h_main_v42 : W (no_index (Proc.devRef .tc main_v42)) = val_main_v42 (F := F) (V0 (Proc.devRef .tc main_arg0)) (V0 (Proc.devRef .tc main_arg1)) (V0 (Proc.devRef .tc main_arg3)))
    : after seg1 W (no_index (Proc.devRef .tc main_v86)) = val_main_v86 (F := F) (V0 (Proc.devRef .tc main_arg0)) (V0 (Proc.devRef .tc main_arg1)) (V0 (Proc.devRef .tc main_arg3)) := by
  simp only [seg1]
  after_results_simp
  simp only [h_main_v42] <;> rfl

end Cert.Proof.Ref

end
-- ==== Proof.Ref.Win2.lean ====
/-
   Window main_part2 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 2: @main's operations 136 … 157 of 978. -/
abbrev seg2 : List (HloOp τ sig (Elt F)) :=
  [ nullary main_c_31 (constantI S_ 32 32#32),
    unary main_c_31 main_v87 (broadcastInDim S8x2048 ![] bcast_S_S8x2048 : (⟨S_, .i32⟩ : BufTy).Contents (Elt F) → (⟨S8x2048, .i32⟩ : BufTy).Contents (Elt F)),
    binary main_v79 main_v87 main_v88 (addi : (⟨S8x2048, .i32⟩ : BufTy).Contents (Elt F) → (⟨S8x2048, .i32⟩ : BufTy).Contents (Elt F) → (⟨S8x2048, .i32⟩ : BufTy).Contents (Elt F)),
    ternary main_v86 main_v88 main_v79 main_v89 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_32 (constantI S_ 32 0#32),
    unary main_c_32 main_v90 (broadcastInDim S8x2048 ![] bcast_S_S8x2048 : (⟨S_, .i32⟩ : BufTy).Contents (Elt F) → (⟨S8x2048, .i32⟩ : BufTy).Contents (Elt F)),
    binary main_v77 main_v90 main_v91 (cmpi .slt : (⟨S8x2048, .i32⟩ : BufTy).Contents (Elt F) → (⟨S8x2048, .i32⟩ : BufTy).Contents (Elt F) → (⟨S8x2048, .i1⟩ : BufTy).Contents (Elt F)),
    nullary main_c_33 (constantI S_ 32 32#32),
    unary main_c_33 main_v92 (broadcastInDim S8x2048 ![] bcast_S_S8x2048 : (⟨S_, .i32⟩ : BufTy).Contents (Elt F) → (⟨S8x2048, .i32⟩ : BufTy).Contents (Elt F)),
    binary main_v77 main_v92 main_v93 (addi : (⟨S8x2048, .i32⟩ : BufTy).Contents (Elt F) → (⟨S8x2048, .i32⟩ : BufTy).Contents (Elt F) → (⟨S8x2048, .i32⟩ : BufTy).Contents (Elt F)),
    ternary main_v91 main_v93 main_v77 main_v94 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_34 (constantI S_ 32 0#32),
    unary main_c_34 main_v95 (broadcastInDim S8x2048 ![] bcast_S_S8x2048 : (⟨S_, .i32⟩ : BufTy).Contents (Elt F) → (⟨S8x2048, .i32⟩ : BufTy).Contents (Elt F)),
    binary main_v75 main_v95 main_v96 (cmpi .slt : (⟨S8x2048, .i32⟩ : BufTy).Contents (Elt F) → (⟨S8x2048, .i32⟩ : BufTy).Contents (Elt F) → (⟨S8x2048, .i1⟩ : BufTy).Contents (Elt F)),
    nullary main_c_35 (constantI S_ 32 32#32),
    unary main_c_35 main_v97 (broadcastInDim S8x2048 ![] bcast_S_S8x2048 : (⟨S_, .i32⟩ : BufTy).Contents (Elt F) → (⟨S8x2048, .i32⟩ : BufTy).Contents (Elt F)),
    binary main_v75 main_v97 main_v98 (addi : (⟨S8x2048, .i32⟩ : BufTy).Contents (Elt F) → (⟨S8x2048, .i32⟩ : BufTy).Contents (Elt F) → (⟨S8x2048, .i32⟩ : BufTy).Contents (Elt F)),
    ternary main_v96 main_v98 main_v75 main_v99 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v84 main_v100 (broadcastInDim S8x2048x1 ![0, 1] bcast_S8x2048_S8x2048x1_0_1 : (⟨S8x2048, .i32⟩ : BufTy).Contents (Elt F) → (⟨S8x2048x1, .i32⟩ : BufTy).Contents (Elt F)),
    unary main_v89 main_v101 (broadcastInDim S8x2048x1 ![0, 1] bcast_S8x2048_S8x2048x1_0_1 : (⟨S8x2048, .i32⟩ : BufTy).Contents (Elt F) → (⟨S8x2048x1, .i32⟩ : BufTy).Contents (Elt F)),
    unary main_v94 main_v102 (broadcastInDim S8x2048x1 ![0, 1] bcast_S8x2048_S8x2048x1_0_1 : (⟨S8x2048, .i32⟩ : BufTy).Contents (Elt F) → (⟨S8x2048x1, .i32⟩ : BufTy).Contents (Elt F)),
    unary main_v99 main_v103 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 3: @main's operations 158 … 158 of 978. -/
abbrev seg3 : List (HloOp τ sig (Elt F)) :=
  [ nary ![main_v100, main_v101, main_v102, main_v103] main_v104 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 4: @main's operations 159 … 195 of 978. -/
abbrev seg4 : List (HloOp τ sig (Elt F)) :=
  [ binary main_arg2 main_v104 main_v105 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v73 main_v106 (uitofp .f32 : (⟨S8x2048, .i1⟩ : BufTy).Contents (Elt F) → (⟨S8x2048, .f32⟩ : BufTy).Contents (Elt F)),
    binary main_v56 main_v106 main_v107 (mulf : (⟨S8x2048, .f32⟩ : BufTy).Contents (Elt F) → (⟨S8x2048, .f32⟩ : BufTy).Contents (Elt F) → (⟨S8x2048, .f32⟩ : BufTy).Contents (Elt F)),
    unary main_v107 main_v108 (broadcastInDim S8x2048x1 ![0, 1] bcast_S8x2048_S8x2048x1_0_1 : (⟨S8x2048, .f32⟩ : BufTy).Contents (Elt F) → (⟨S8x2048x1, .f32⟩ : BufTy).Contents (Elt F)),
    unary main_v108 main_v109 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v105 main_v109 main_v110 (mulf : (⟨S8x2048x128, .f32⟩ : BufTy).Contents (Elt F) → (⟨S8x2048x128, .f32⟩ : BufTy).Contents (Elt F) → (⟨S8x2048x128, .f32⟩ : BufTy).Contents (Elt F)),
    binary main_v36 main_v110 main_v111 (addf : (⟨S8x2048x128, .f32⟩ : BufTy).Contents (Elt F) → (⟨S8x2048x128, .f32⟩ : BufTy).Contents (Elt F) → (⟨S8x2048x128, .f32⟩ : BufTy).Contents (Elt F)),
    nullary main_cst_36 (constant S_ .f32 0x3F800000#32),
    unary main_cst_36 main_v112 (broadcastInDim S8x2048 ![] bcast_S_S8x2048 : (⟨S_, .f32⟩ : BufTy).Contents (Elt F) → (⟨S8x2048, .f32⟩ : BufTy).Contents (Elt F)),
    binary main_v30 main_v112 main_v113 (addf : (⟨S8x2048, .f32⟩ : BufTy).Contents (Elt F) → (⟨S8x2048, .f32⟩ : BufTy).Contents (Elt F) → (⟨S8x2048, .f32⟩ : BufTy).Contents (Elt F)),
    nullary main_cst_37 (constant S_ .f32 0x00000000#32),
    unary main_cst_37 main_v114 (broadcastInDim S8x2048 ![] bcast_S_S8x2048 : (⟨S_, .f32⟩ : BufTy).Contents (Elt F) → (⟨S8x2048, .f32⟩ : BufTy).Contents (Elt F)),
    binary main_v31 main_v114 main_v115 (addf : (⟨S8x2048, .f32⟩ : BufTy).Contents (Elt F) → (⟨S8x2048, .f32⟩ : BufTy).Contents (Elt F) → (⟨S8x2048, .f32⟩ : BufTy).Contents (Elt F)),
    nullary main_cst_38 (constant S_ .f32 0x00000000#32),
    unary main_cst_38 main_v116 (broadcastInDim S8x2048 ![] bcast_S_S8x2048 : (⟨S_, .f32⟩ : BufTy).Contents (Elt F) → (⟨S8x2048, .f32⟩ : BufTy).Contents (Elt F)),
    binary main_v32 main_v116 main_v117 (addf : (⟨S8x2048, .f32⟩ : BufTy).Contents (Elt F) → (⟨S8x2048, .f32⟩ : BufTy).Contents (Elt F) → (⟨S8x2048, .f32⟩ : BufTy).Contents (Elt F)),
    binary main_v13 main_v113 main_v118 (subf : (⟨S8x2048, .f32⟩ : BufTy).Contents (Elt F) → (⟨S8x2048, .f32⟩ : BufTy).Contents (Elt F) → (⟨S8x2048, .f32⟩ : BufTy).Contents (Elt F)),
    unary main_v118 main_v119 (Host.absf : (⟨S8x2048, .f32⟩ : BufTy).Contents (Elt F) → (⟨S8x2048, .f32⟩ : BufTy).Contents (Elt F)),
    nullary main_cst_39 (constant S_ .f32 0x3F800000#32),
    unary main_cst_39 main_v120 (broadcastInDim S8x2048 ![] bcast_S_S8x2048 : (⟨S_, .f32⟩ : BufTy).Contents (Elt F) → (⟨S8x2048, .f32⟩ : BufTy).Contents (Elt F)),
    binary main_v120 main_v119 main_v121 (subf : (⟨S8x2048, .f32⟩ : BufTy).Contents (Elt F) → (⟨S8x2048, .f32⟩ : BufTy).Contents (Elt F) → (⟨S8x2048, .f32⟩ : BufTy).Contents (Elt F)),
    binary main_v21 main_v115 main_v122 (subf : (⟨S8x2048, .f32⟩ : BufTy).Contents (Elt F) → (⟨S8x2048, .f32⟩ : BufTy).Contents (Elt F) → (⟨S8x2048, .f32⟩ : BufTy).Contents (Elt F)),
    unary main_v122 main_v123 (Host.absf : (⟨S8x2048, .f32⟩ : BufTy).Contents (Elt F) → (⟨S8x2048, .f32⟩ : BufTy).Contents (Elt F)),
    nullary main_cst_40 (constant S_ .f32 0x3F800000#32),
    unary main_cst_40 main_v124 (broadcastInDim S8x2048 ![] bcast_S_S8x2048 : (⟨S_, .f32⟩ : BufTy).Contents (Elt F) → (⟨S8x2048, .f32⟩ : BufTy).Contents (Elt F)),
    binary main_v124 main_v123 main_v125 (subf : (⟨S8x2048, .f32⟩ : BufTy).Contents (Elt F) → (⟨S8x2048, .f32⟩ : BufTy).Contents (Elt F) → (⟨S8x2048, .f32⟩ : BufTy).Contents (Elt F)),
    binary main_v121 main_v125 main_v126 (mulf : (⟨S8x2048, .f32⟩ : BufTy).Contents (Elt F) → (⟨S8x2048, .f32⟩ : BufTy).Contents (Elt F) → (⟨S8x2048, .f32⟩ : BufTy).Contents (Elt F)),
    binary main_v29 main_v117 main_v127 (subf : (⟨S8x2048, .f32⟩ : BufTy).Contents (Elt F) → (⟨S8x2048, .f32⟩ : BufTy).Contents (Elt F) → (⟨S8x2048, .f32⟩ : BufTy).Contents (Elt F)),
    unary main_v127 main_v128 (Host.absf : (⟨S8x2048, .f32⟩ : BufTy).Contents (Elt F) → (⟨S8x2048, .f32⟩ : BufTy).Contents (Elt F)),
    nullary main_cst_41 (constant S_ .f32 0x3F800000#32),
    unary main_cst_41 main_v129 (broadcastInDim S8x2048 ![] bcast_S_S8x2048 : (⟨S_, .f32⟩ : BufTy).Contents (Elt F) → (⟨S8x2048, .f32⟩ : BufTy).Contents (Elt F)),
    binary main_v129 main_v128 main_v130 (subf : (⟨S8x2048, .f32⟩ : BufTy).Contents (Elt F) → (⟨S8x2048, .f32⟩ : BufTy).Contents (Elt F) → (⟨S8x2048, .f32⟩ : BufTy).Contents (Elt F)),
    binary main_v126 main_v130 main_v131 (mulf : (⟨S8x2048, .f32⟩ : BufTy).Contents (Elt F) → (⟨S8x2048, .f32⟩ : BufTy).Contents (Elt F) → (⟨S8x2048, .f32⟩ : BufTy).Contents (Elt F)),
    nullary main_cst_42 (constant S_ .f32 0x00000000#32),
    unary main_cst_42 main_v132 (broadcastInDim S8x2048 ![] bcast_S_S8x2048 : (⟨S_, .f32⟩ : BufTy).Contents (Elt F) → (⟨S8x2048, .f32⟩ : BufTy).Contents (Elt F)),
    binary main_v113 main_v132 main_v133 (cmpf .oge : (⟨S8x2048, .f32⟩ : BufTy).Contents (Elt F) → (⟨S8x2048, .f32⟩ : BufTy).Contents (Elt F) → (⟨S8x2048, .i1⟩ : BufTy).Contents (Elt F)),
    nullary main_cst_43 (constant S_ .f32 0x41F80000#32) ]

set_option maxRecDepth 8192 in
/-- The window is its segments one after the other. -/
theorem ops_part2_segs : (ops_part2 : List (HloOp τ sig (Elt F))) = seg2 ++ (seg3 ++ (seg4)) := rfl

/-- The buffers that segment 2's operations write. -/
abbrev seg2_W : List (Ref sig .tc) := [main_c_31, main_v87, main_v88, main_v89, main_c_32, main_v90, main_v91, main_c_33, main_v92, main_v93, main_v94, main_c_34, main_v95, main_v96, main_c_35, main_v97, main_v98, main_v99, main_v100, main_v101, main_v102, main_v103]
set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 2 does not write keeps its contents through it. -/
theorem seg2_keep (W : Valuation τ sig (Elt F)) (r : Ref sig .tc) (h : r ∉ seg2_W) :
    after seg2 W (Proc.devRef .tc r) = W (Proc.devRef .tc r) :=
  after_of_writes_sub seg2 _ seg2_writes h

set_option maxRecDepth 8192 in
set_option maxHeartbeats 2000000 in
theorem seg2_main_v100 (W V0 : Valuation τ sig (Elt F))
    (h_main_v84 : W (no_index (Proc.devRef .tc main_v84)) = val_main_v84 (F := F))
    : after seg2 W (no_index (Proc.devRef .tc main_v100)) = val_main_v100 (F := F) := by
  simp only [seg2]
  after_results_simp
  simp only [h_main_v84] <;> rfl
set_option maxRecDepth 8192 in
set_option maxHeartbeats 2000000 in
theorem seg2_main_v101 (W V0 : Valuation τ sig (Elt F))
    (h_main_v79 : W (no_index (Proc.devRef .tc main_v79)) = val_main_v79 (F := F) (V0 (Proc.devRef .tc main_arg0)) (V0 (Proc.devRef .tc main_arg1)) (V0 (Proc.devRef .tc main_arg3)))
    (h_main_v86 : W (no_index (Proc.devRef .tc main_v86)) = val_main_v86 (F := F) (V0 (Proc.devRef .tc main_arg0)) (V0 (Proc.devRef .tc main_arg1)) (V0 (Proc.devRef .tc main_arg3)))
    : after seg2 W (no_index (Proc.devRef .tc main_v101)) = val_main_v101 (F := F) (V0 (Proc.devRef .tc main_arg0)) (V0 (Proc.devRef .tc main_arg1)) (V0 (Proc.devRef .tc main_arg3)) := by
  simp only [seg2]
  after_results_simp
  simp only [h_main_v79, h_main_v86] <;> rfl
set_option maxRecDepth 8192 in
set_option maxHeartbeats 2000000 in
theorem seg2_main_v102 (W V0 : Valuation τ sig (Elt F))
    (h_main_v77 : W (no_index (Proc.devRef .tc main_v77)) = val_main_v77 (F := F) (V0 (Proc.devRef .tc main_arg0)) (V0 (Proc.devRef .tc main_arg1)) (V0 (Proc.devRef .tc main_arg3)))
    : after seg2 W (no_index (Proc.devRef .tc main_v102)) = val_main_v102 (F := F) (V0 (Proc.devRef .tc main_arg0)) (V0 (Proc.devRef .tc main_arg1)) (V0 (Proc.devRef .tc main_arg3)) := by
  simp only [seg2]
  after_results_simp
  simp only [h_main_v77] <;> rfl
set_option maxRecDepth 8192 in
set_option maxHeartbeats 2000000 in
theorem seg2_main_v103 (W V0 : Valuation τ sig (Elt F))
    (h_main_v75 : W (no_index (Proc.devRef .tc main_v75)) = val_main_v75 (F := F) (V0 (Proc.devRef .tc main_arg0)) (V0 (Proc.devRef .tc main_arg1)) (V0 (Proc.devRef .tc main_arg3)))
    : after seg2 W (no_index (Proc.devRef .tc main_v103)) = val_main_v103 (F := F) (V0 (Proc.devRef .tc main_arg0)) (V0 (Proc.devRef .tc main_arg1)) (V0 (Proc.devRef .tc main_arg3)) := by
  simp only [seg2]
  after_results_simp
  simp only [h_main_v75] <;> rfl

/-- The buffers that segment 3's operations write. -/
abbrev seg3_W : List (Ref sig .tc) := [main_v104]
set_option maxRecDepth 8192 in
theorem seg3_writes : (seg3 : List (HloOp τ sig (Elt F))).Forall fun op => op.writes ⊆ (seg3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 3 does not write keeps its contents through it. -/
theorem seg3_keep (W : Valuation τ sig (Elt F)) (r : Ref sig .tc) (h : r ∉ seg3_W) :
    after seg3 W (Proc.devRef .tc r) = W (Proc.devRef .tc r) :=
  after_of_writes_sub seg3 _ seg3_writes h

/-- The concatenation `main_v104`, given its operands' contents. -/
theorem cat_main_v104 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v100)) = v0) (h1 : G (no_index (Proc.devRef .tc main_v101)) = v1) (h2 : G (no_index (Proc.devRef .tc main_v102)) = v2) (h3 : G (no_index (Proc.devRef .tc main_v103)) = v3) :
    (nary ![main_v100, main_v101, main_v102, main_v103] main_v104 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v104))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg3_main_v104 (W V0 : Valuation τ sig (Elt F))
    (h_main_v103 : W (no_index (Proc.devRef .tc main_v103)) = val_main_v103 (F := F) (V0 (Proc.devRef .tc main_arg0)) (V0 (Proc.devRef .tc main_arg1)) (V0 (Proc.devRef .tc main_arg3)))
    (h_main_v102 : W (no_index (Proc.devRef .tc main_v102)) = val_main_v102 (F := F) (V0 (Proc.devRef .tc main_arg0)) (V0 (Proc.devRef .tc main_arg1)) (V0 (Proc.devRef .tc main_arg3)))
    (h_main_v101 : W (no_index (Proc.devRef .tc main_v101)) = val_main_v101 (F := F) (V0 (Proc.devRef .tc main_arg0)) (V0 (Proc.devRef .tc main_arg1)) (V0 (Proc.devRef .tc main_arg3)))
    (h_main_v100 : W (no_index (Proc.devRef .tc main_v100)) = val_main_v100 (F := F))
    : after seg3 W (no_index (Proc.devRef .tc main_v104)) = val_main_v104 (F := F) (V0 (Proc.devRef .tc main_arg0)) (V0 (Proc.devRef .tc main_arg1)) (V0 (Proc.devRef .tc main_arg3)) :=
  cat_main_v104 W _ _ _ _ h_main_v100 h_main_v101 h_main_v102 h_main_v103

/-- The buffers that segment 4's operations write. -/
abbrev seg4_W : List (Ref sig .tc) := [main_v105, main_v106, main_v107, main_v108, main_v109, main_v110, main_v111, main_cst_36, main_v112, main_v113, main_cst_37, main_v114, main_v115, main_cst_38, main_v116, main_v117, main_v118, main_v119, main_cst_39, main_v120, main_v121, main_v122, main_v123, main_cst_40, main_v124, main_v125, main_v126, main_v127, main_v128, main_cst_41, main_v129, main_v130, main_v131, main_cst_42, main_v132, main_v133, main_cst_43]
set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 4 does not write keeps its contents through it. -/
theorem seg4_keep (W : Valuation τ sig (Elt F)) (r : Ref sig .tc) (h : r ∉ seg4_W) :
    after seg4 W (Proc.devRef .tc r) = W (Proc.devRef .tc r) :=
  after_of_writes_sub seg4 _ seg4_writes h

set_option maxRecDepth 8192 in
set_option maxHeartbeats 2000000 in
theorem seg4_main_v111 (W V0 : Valuation τ sig (Elt F))
    (h_main_v73 : W (no_index (Proc.devRef .tc main_v73)) = val_main_v73 (F := F) (V0 (Proc.devRef .tc main_arg0)) (V0 (Proc.devRef .tc main_arg1)) (V0 (Proc.devRef .tc main_arg3)))
    (h_main_v56 : W (no_index (Proc.devRef .tc main_v56)) = val_main_v56 (F := F) (V0 (Proc.devRef .tc main_arg0)) (V0 (Proc.devRef .tc main_arg1)) (V0 (Proc.devRef .tc main_arg3)))
    (h_main_v104 : W (no_index (Proc.devRef .tc main_v104)) = val_main_v104 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v36 : W (no_index (Proc.devRef .tc main_v36)) = val_main_v36 (F := F))
    : after seg4 W (no_index (Proc.devRef .tc main_v111)) = val_main_v111 (F := F) (V0 (Proc.devRef .tc main_arg0)) (V0 (Proc.devRef .tc main_arg1)) (V0 (Proc.devRef .tc main_arg2)) (V0 (Proc.devRef .tc main_arg3)) := by
  simp only [seg4]
  after_results_simp
  simp only [h_main_v73, h_main_v56, h_main_v104, h_main_arg2, h_main_v36] <;> rfl
set_option maxRecDepth 8192 in
set_option maxHeartbeats 2000000 in
theorem seg4_main_v113 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg4 W (no_index (Proc.devRef .tc main_v113)) = val_main_v113 (F := F) (V0 (Proc.devRef .tc main_arg0)) (V0 (Proc.devRef .tc main_arg1)) (V0 (Proc.devRef .tc main_arg3)) := by
  simp only [seg4]
  after_results_simp
  simp only [h_main_v30] <;> rfl
set_option maxRecDepth 8192 in
set_option maxHeartbeats 2000000 in
theorem seg4_main_v115 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg4 W (no_index (Proc.devRef .tc main_v115)) = val_main_v115 (F := F) (V0 (Proc.devRef .tc main_arg0)) (V0 (Proc.devRef .tc main_arg1)) (V0 (Proc.devRef .tc main_arg3)) := by
  simp only [seg4]
  after_results_simp
  simp only [h_main_v31] <;> rfl
set_option maxRecDepth 8192 in
set_option maxHeartbeats 2000000 in
theorem seg4_main_v117 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg4 W (no_index (Proc.devRef .tc main_v117)) = val_main_v117 (F := F) (V0 (Proc.devRef .tc main_arg0)) (V0 (Proc.devRef .tc main_arg1)) (V0 (Proc.devRef .tc main_arg3)) := by
  simp only [seg4]
  after_results_simp
  simp only [h_main_v32] <;> rfl
set_option maxRecDepth 8192 in
set_option maxHeartbeats 2000000 in
theorem seg4_main_v131 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg4 W (no_index (Proc.devRef .tc main_v131)) = val_main_v131 (F := F) (V0 (Proc.devRef .tc main_arg0)) (V0 (Proc.devRef .tc main_arg1)) (V0 (Proc.devRef .tc main_arg3)) := by
  simp only [seg4]
  after_results_simp
  simp only [h_main_v32, h_main_v29, h_main_v31, h_main_v21, h_main_v30, h_main_v13] <;> rfl
set_option maxRecDepth 8192 in
set_option maxHeartbeats 2000000 in
theorem seg4_main_v133 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg4 W (no_index (Proc.devRef .tc main_v133)) = val_main_v133 (F := F) (V0 (Proc.devRef .tc main_arg0)) (V0 (Proc.devRef .tc main_arg1)) (V0 (Proc.devRef .tc main_arg3)) := by
  simp only [seg4]
  after_results_simp
  simp only [h_main_v30] <;> rfl
set_option maxRecDepth 8192 in
set_option maxHeartbeats 2000000 in
theorem seg4_main_cst_43 (W V0 : Valuation τ sig (Elt F))
    : after seg4 W (no_index (Proc.devRef .tc main_cst_43)) = val_main_cst_43 (F := F) := by
  simp only [seg4]
  after_results_simp
  all_goals rfl

end Cert.Proof.Ref

end
-- ==== Proof.Ref.Win3.lean ====
/-
   Window main_part3 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 5: @main's operations 196 … 270 of 978. -/
abbrev seg5 : List (HloOp τ sig (Elt F)) :=
  [ unary main_cst_43 main_v134 (broadcastInDim S8x2048 ![] bcast_S_S8x2048 : (⟨S_, .f32⟩ : BufTy).Contents (Elt F) → (⟨S8x2048, .f32⟩ : BufTy).Contents (Elt F)),
    binary main_v113 main_v134 main_v135 (cmpf .ole : (⟨S8x2048, .f32⟩ : BufTy).Contents (Elt F) → (⟨S8x2048, .f32⟩ : BufTy).Contents (Elt F) → (⟨S8x2048, .i1⟩ : BufTy).Contents (Elt F)),
    binary main_v133 main_v135 main_v136 (andi : (⟨S8x2048, .i1⟩ : BufTy).Contents (Elt F) → (⟨S8x2048, .i1⟩ : BufTy).Contents (Elt F) → (⟨S8x2048, .i1⟩ : BufTy).Contents (Elt F)),
    nullary main_cst_44 (constant S_ .f32 0x00000000#32),
    unary main_cst_44 main_v137 (broadcastInDim S8x2048 ![] bcast_S_S8x2048 : (⟨S_, .f32⟩ : BufTy).Contents (Elt F) → (⟨S8x2048, .f32⟩ : BufTy).Contents (Elt F)),
    binary main_v115 main_v137 main_v138 (cmpf .oge : (⟨S8x2048, .f32⟩ : BufTy).Contents (Elt F) → (⟨S8x2048, .f32⟩ : BufTy).Contents (Elt F) → (⟨S8x2048, .i1⟩ : BufTy).Contents (Elt F)),
    binary main_v136 main_v138 main_v139 (andi : (⟨S8x2048, .i1⟩ : BufTy).Contents (Elt F) → (⟨S8x2048, .i1⟩ : BufTy).Contents (Elt F) → (⟨S8x2048, .i1⟩ : BufTy).Contents (Elt F)),
    nullary main_cst_45 (constant S_ .f32 0x41F80000#32),
    unary main_cst_45 main_v140 (broadcastInDim S8x2048 ![] bcast_S_S8x2048 : (⟨S_, .f32⟩ : BufTy).Contents (Elt F) → (⟨S8x2048, .f32⟩ : BufTy).Contents (Elt F)),
    binary main_v115 main_v140 main_v141 (cmpf .ole : (⟨S8x2048, .f32⟩ : BufTy).Contents (Elt F) → (⟨S8x2048, .f32⟩ : BufTy).Contents (Elt F) → (⟨S8x2048, .i1⟩ : BufTy).Contents (Elt F)),
    binary main_v139 main_v141 main_v142 (andi : (⟨S8x2048, .i1⟩ : BufTy).Contents (Elt F) → (⟨S8x2048, .i1⟩ : BufTy).Contents (Elt F) → (⟨S8x2048, .i1⟩ : BufTy).Contents (Elt F)),
    nullary main_cst_46 (constant S_ .f32 0x00000000#32),
    unary main_cst_46 main_v143 (broadcastInDim S8x2048 ![] bcast_S_S8x2048 : (⟨S_, .f32⟩ : BufTy).Contents (Elt F) → (⟨S8x2048, .f32⟩ : BufTy).Contents (Elt F)),
    binary main_v117 main_v143 main_v144 (cmpf .oge : (⟨S8x2048, .f32⟩ : BufTy).Contents (Elt F) → (⟨S8x2048, .f32⟩ : BufTy).Contents (Elt F) → (⟨S8x2048, .i1⟩ : BufTy).Contents (Elt F)),
    binary main_v142 main_v144 main_v145 (andi : (⟨S8x2048, .i1⟩ : BufTy).Contents (Elt F) → (⟨S8x2048, .i1⟩ : BufTy).Contents (Elt F) → (⟨S8x2048, .i1⟩ : BufTy).Contents (Elt F)),
    nullary main_cst_47 (constant S_ .f32 0x41F80000#32),
    unary main_cst_47 main_v146 (broadcastInDim S8x2048 ![] bcast_S_S8x2048 : (⟨S_, .f32⟩ : BufTy).Contents (Elt F) → (⟨S8x2048, .f32⟩ : BufTy).Contents (Elt F)),
    binary main_v117 main_v146 main_v147 (cmpf .ole : (⟨S8x2048, .f32⟩ : BufTy).Contents (Elt F) → (⟨S8x2048, .f32⟩ : BufTy).Contents (Elt F) → (⟨S8x2048, .i1⟩ : BufTy).Contents (Elt F)),
    binary main_v145 main_v147 main_v148 (andi : (⟨S8x2048, .i1⟩ : BufTy).Contents (Elt F) → (⟨S8x2048, .i1⟩ : BufTy).Contents (Elt F) → (⟨S8x2048, .i1⟩ : BufTy).Contents (Elt F)),
    nullary main_c_48 (constantI S_ 32 0#32),
    nullary main_c_49 (constantI S_ 32 31#32),
    TRef.unary (TRef.of (T := ⟨S_, .i32⟩) main_c_48) (TRef.of (T := ⟨S_, .f32⟩) main_call3_v0) (sitofp .f32),
    TRef.unary (TRef.of (T := ⟨S_, .f32⟩) main_call3_v0) (TRef.of (T := ⟨S8x2048, .f32⟩) main_call3_v1) (broadcastInDim S8x2048 ![] bcast_S_S8x2048),
    TRef.binary (TRef.of (T := ⟨S8x2048, .f32⟩) main_call3_v1) (TRef.of (T := ⟨S8x2048, .f32⟩) main_v113) (TRef.of (T := ⟨S8x2048, .f32⟩) main_call3_v2) maximumf,
    TRef.unary (TRef.of (T := ⟨S_, .i32⟩) main_c_49) (TRef.of (T := ⟨S_, .f32⟩) main_call3_v3) (sitofp .f32),
    TRef.unary (TRef.of (T := ⟨S_, .f32⟩) main_call3_v3) (TRef.of (T := ⟨S8x2048, .f32⟩) main_call3_v4) (broadcastInDim S8x2048 ![] bcast_S_S8x2048),
    TRef.binary (TRef.of (T := ⟨S8x2048, .f32⟩) main_call3_v4) (TRef.of (T := ⟨S8x2048, .f32⟩) main_call3_v2) (TRef.of (T := ⟨S8x2048, .f32⟩) main_v149) minimumf,
    unary main_v149 main_v150 (fptosi 32 : (⟨S8x2048, .f32⟩ : BufTy).Contents (Elt F) → (⟨S8x2048, .i32⟩ : BufTy).Contents (Elt F)),
    nullary main_c_50 (constantI S_ 32 0#32),
    nullary main_c_51 (constantI S_ 32 31#32),
    TRef.unary (TRef.of (T := ⟨S_, .i32⟩) main_c_50) (TRef.of (T := ⟨S_, .f32⟩) main_call4_v0) (sitofp .f32),
    TRef.unary (TRef.of (T := ⟨S_, .f32⟩) main_call4_v0) (TRef.of (T := ⟨S8x2048, .f32⟩) main_call4_v1) (broadcastInDim S8x2048 ![] bcast_S_S8x2048),
    TRef.binary (TRef.of (T := ⟨S8x2048, .f32⟩) main_call4_v1) (TRef.of (T := ⟨S8x2048, .f32⟩) main_v115) (TRef.of (T := ⟨S8x2048, .f32⟩) main_call4_v2) maximumf,
    TRef.unary (TRef.of (T := ⟨S_, .i32⟩) main_c_51) (TRef.of (T := ⟨S_, .f32⟩) main_call4_v3) (sitofp .f32),
    TRef.unary (TRef.of (T := ⟨S_, .f32⟩) main_call4_v3) (TRef.of (T := ⟨S8x2048, .f32⟩) main_call4_v4) (broadcastInDim S8x2048 ![] bcast_S_S8x2048),
    TRef.binary (TRef.of (T := ⟨S8x2048, .f32⟩) main_call4_v4) (TRef.of (T := ⟨S8x2048, .f32⟩) main_call4_v2) (TRef.of (T := ⟨S8x2048, .f32⟩) main_v151) minimumf,
    unary main_v151 main_v152 (fptosi 32 : (⟨S8x2048, .f32⟩ : BufTy).Contents (Elt F) → (⟨S8x2048, .i32⟩ : BufTy).Contents (Elt F)),
    nullary main_c_52 (constantI S_ 32 0#32),
    nullary main_c_53 (constantI S_ 32 31#32),
    TRef.unary (TRef.of (T := ⟨S_, .i32⟩) main_c_52) (TRef.of (T := ⟨S_, .f32⟩) main_call5_v0) (sitofp .f32),
    TRef.unary (TRef.of (T := ⟨S_, .f32⟩) main_call5_v0) (TRef.of (T := ⟨S8x2048, .f32⟩) main_call5_v1) (broadcastInDim S8x2048 ![] bcast_S_S8x2048),
    TRef.binary (TRef.of (T := ⟨S8x2048, .f32⟩) main_call5_v1) (TRef.of (T := ⟨S8x2048, .f32⟩) main_v117) (TRef.of (T := ⟨S8x2048, .f32⟩) main_call5_v2) maximumf,
    TRef.unary (TRef.of (T := ⟨S_, .i32⟩) main_c_53) (TRef.of (T := ⟨S_, .f32⟩) main_call5_v3) (sitofp .f32),
    TRef.unary (TRef.of (T := ⟨S_, .f32⟩) main_call5_v3) (TRef.of (T := ⟨S8x2048, .f32⟩) main_call5_v4) (broadcastInDim S8x2048 ![] bcast_S_S8x2048),
    TRef.binary (TRef.of (T := ⟨S8x2048, .f32⟩) main_call5_v4) (TRef.of (T := ⟨S8x2048, .f32⟩) main_call5_v2) (TRef.of (T := ⟨S8x2048, .f32⟩) main_v153) minimumf,
    unary main_v153 main_v154 (fptosi 32 : (⟨S8x2048, .f32⟩ : BufTy).Contents (Elt F) → (⟨S8x2048, .i32⟩ : BufTy).Contents (Elt F)),
    nullary main_c_54 (constantI S_ 32 0#32),
    unary main_c_54 main_v155 (broadcastInDim S8x2048 ![] bcast_S_S8x2048 : (⟨S_, .i32⟩ : BufTy).Contents (Elt F) → (⟨S8x2048, .i32⟩ : BufTy).Contents (Elt F)),
    binary main_v35 main_v155 main_v156 (cmpi .slt : (⟨S8x2048, .i32⟩ : BufTy).Contents (Elt F) → (⟨S8x2048, .i32⟩ : BufTy).Contents (Elt F) → (⟨S8x2048, .i1⟩ : BufTy).Contents (Elt F)),
    nullary main_c_55 (constantI S_ 32 8#32),
    unary main_c_55 main_v157 (broadcastInDim S8x2048 ![] bcast_S_S8x2048 : (⟨S_, .i32⟩ : BufTy).Contents (Elt F) → (⟨S8x2048, .i32⟩ : BufTy).Contents (Elt F)),
    binary main_v35 main_v157 main_v158 (addi : (⟨S8x2048, .i32⟩ : BufTy).Contents (Elt F) → (⟨S8x2048, .i32⟩ : BufTy).Contents (Elt F) → (⟨S8x2048, .i32⟩ : BufTy).Contents (Elt F)),
    ternary main_v156 main_v158 main_v35 main_v159 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_56 (constantI S_ 32 0#32),
    unary main_c_56 main_v160 (broadcastInDim S8x2048 ![] bcast_S_S8x2048 : (⟨S_, .i32⟩ : BufTy).Contents (Elt F) → (⟨S8x2048, .i32⟩ : BufTy).Contents (Elt F)),
    binary main_v154 main_v160 main_v161 (cmpi .slt : (⟨S8x2048, .i32⟩ : BufTy).Contents (Elt F) → (⟨S8x2048, .i32⟩ : BufTy).Contents (Elt F) → (⟨S8x2048, .i1⟩ : BufTy).Contents (Elt F)),
    nullary main_c_57 (constantI S_ 32 32#32),
    unary main_c_57 main_v162 (broadcastInDim S8x2048 ![] bcast_S_S8x2048 : (⟨S_, .i32⟩ : BufTy).Contents (Elt F) → (⟨S8x2048, .i32⟩ : BufTy).Contents (Elt F)),
    binary main_v154 main_v162 main_v163 (addi : (⟨S8x2048, .i32⟩ : BufTy).Contents (Elt F) → (⟨S8x2048, .i32⟩ : BufTy).Contents (Elt F) → (⟨S8x2048, .i32⟩ : BufTy).Contents (Elt F)),
    ternary main_v161 main_v163 main_v154 main_v164 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_58 (constantI S_ 32 0#32),
    unary main_c_58 main_v165 (broadcastInDim S8x2048 ![] bcast_S_S8x2048 : (⟨S_, .i32⟩ : BufTy).Contents (Elt F) → (⟨S8x2048, .i32⟩ : BufTy).Contents (Elt F)),
    binary main_v152 main_v165 main_v166 (cmpi .slt : (⟨S8x2048, .i32⟩ : BufTy).Contents (Elt F) → (⟨S8x2048, .i32⟩ : BufTy).Contents (Elt F) → (⟨S8x2048, .i1⟩ : BufTy).Contents (Elt F)),
    nullary main_c_59 (constantI S_ 32 32#32),
    unary main_c_59 main_v167 (broadcastInDim S8x2048 ![] bcast_S_S8x2048 : (⟨S_, .i32⟩ : BufTy).Contents (Elt F) → (⟨S8x2048, .i32⟩ : BufTy).Contents (Elt F)),
    binary main_v152 main_v167 main_v168 (addi : (⟨S8x2048, .i32⟩ : BufTy).Contents (Elt F) → (⟨S8x2048, .i32⟩ : BufTy).Contents (Elt F) → (⟨S8x2048, .i32⟩ : BufTy).Contents (Elt F)),
    ternary main_v166 main_v168 main_v152 main_v169 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_60 (constantI S_ 32 0#32),
    unary main_c_60 main_v170 (broadcastInDim S8x2048 ![] bcast_S_S8x2048 : (⟨S_, .i32⟩ : BufTy).Contents (Elt F) → (⟨S8x2048, .i32⟩ : BufTy).Contents (Elt F)),
    binary main_v150 main_v170 main_v171 (cmpi .slt : (⟨S8x2048, .i32⟩ : BufTy).Contents (Elt F) → (⟨S8x2048, .i32⟩ : BufTy).Contents (Elt F) → (⟨S8x2048, .i1⟩ : BufTy).Contents (Elt F)),
    nullary main_c_61 (constantI S_ 32 32#32),
    unary main_c_61 main_v172 (broadcastInDim S8x2048 ![] bcast_S_S8x2048 : (⟨S_, .i32⟩ : BufTy).Contents (Elt F) → (⟨S8x2048, .i32⟩ : BufTy).Contents (Elt F)),
    binary main_v150 main_v172 main_v173 (addi : (⟨S8x2048, .i32⟩ : BufTy).Contents (Elt F) → (⟨S8x2048, .i32⟩ : BufTy).Contents (Elt F) → (⟨S8x2048, .i32⟩ : BufTy).Contents (Elt F)),
    ternary main_v171 main_v173 main_v150 main_v174 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v159 main_v175 (broadcastInDim S8x2048x1 ![0, 1] bcast_S8x2048_S8x2048x1_0_1 : (⟨S8x2048, .i32⟩ : BufTy).Contents (Elt F) → (⟨S8x2048x1, .i32⟩ : BufTy).Contents (Elt F)) ]

set_option maxRecDepth 8192 in
/-- The window is its segments one after the other. -/
theorem ops_part3_segs : (ops_part3 : List (HloOp τ sig (Elt F))) = seg5 := rfl

/-- The buffers that segment 5's operations write. -/
abbrev seg5_W : List (Ref sig .tc) := [main_v134, main_v135, main_v136, main_cst_44, main_v137, main_v138, main_v139, main_cst_45, main_v140, main_v141, main_v142, main_cst_46, main_v143, main_v144, main_v145, main_cst_47, main_v146, main_v147, main_v148, main_c_48, main_c_49, main_call3_v0, main_call3_v1, main_call3_v2, main_call3_v3, main_call3_v4, main_v149, main_v150, main_c_50, main_c_51, main_call4_v0, main_call4_v1, main_call4_v2, main_call4_v3, main_call4_v4, main_v151, main_v152, main_c_52, main_c_53, main_call5_v0, main_call5_v1, main_call5_v2, main_call5_v3, main_call5_v4, main_v153, main_v154, main_c_54, main_v155, main_v156, main_c_55, main_v157, main_v158, main_v159, main_c_56, main_v160, main_v161, main_c_57, main_v162, main_v163, main_v164, main_c_58, main_v165, main_v166, main_c_59, main_v167, main_v168, main_v169, main_c_60, main_v170, main_v171, main_c_61, main_v172, main_v173, main_v174, main_v175]
set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 5 does not write keeps its contents through it. -/
theorem seg5_keep (W : Valuation τ sig (Elt F)) (r : Ref sig .tc) (h : r ∉ seg5_W) :
    after seg5 W (Proc.devRef .tc r) = W (Proc.devRef .tc r) :=
  after_of_writes_sub seg5 _ seg5_writes h

set_option maxRecDepth 8192 in
set_option maxHeartbeats 2000000 in
theorem seg5_main_v148 (W V0 : Valuation τ sig (Elt F))
    (h_main_v117 : W (no_index (Proc.devRef .tc main_v117)) = val_main_v117 (F := F) (V0 (Proc.devRef .tc main_arg0)) (V0 (Proc.devRef .tc main_arg1)) (V0 (Proc.devRef .tc main_arg3)))
    (h_main_v115 : W (no_index (Proc.devRef .tc main_v115)) = val_main_v115 (F := F) (V0 (Proc.devRef .tc main_arg0)) (V0 (Proc.devRef .tc main_arg1)) (V0 (Proc.devRef .tc main_arg3)))
    (h_main_cst_43 : W (no_index (Proc.devRef .tc main_cst_43)) = val_main_cst_43 (F := F))
    (h_main_v113 : W (no_index (Proc.devRef .tc main_v113)) = val_main_v113 (F := F) (V0 (Proc.devRef .tc main_arg0)) (V0 (Proc.devRef .tc main_arg1)) (V0 (Proc.devRef .tc main_arg3)))
    (h_main_v133 : W (no_index (Proc.devRef .tc main_v133)) = val_main_v133 (F := F) (V0 (Proc.devRef .tc main_arg0)) (V0 (Proc.devRef .tc main_arg1)) (V0 (Proc.devRef .tc main_arg3)))
    : after seg5 W (no_index (Proc.devRef .tc main_v148)) = val_main_v148 (F := F) (V0 (Proc.devRef .tc main_arg0)) (V0 (Proc.devRef .tc main_arg1)) (V0 (Proc.devRef .tc main_arg3)) := by
  simp only [seg5]
  after_results_simp
  simp only [h_main_v117, h_main_v115, h_main_cst_43, h_main_v113, h_main_v133] <;> rfl
set_option maxRecDepth 8192 in
set_option maxHeartbeats 2000000 in
theorem seg5_main_v164 (W V0 : Valuation τ sig (Elt F))
    (h_main_v117 : W (no_index (Proc.devRef .tc main_v117)) = val_main_v117 (F := F) (V0 (Proc.devRef .tc main_arg0)) (V0 (Proc.devRef .tc main_arg1)) (V0 (Proc.devRef .tc main_arg3)))
    : after seg5 W (no_index (Proc.devRef .tc main_v164)) = val_main_v164 (F := F) (V0 (Proc.devRef .tc main_arg0)) (V0 (Proc.devRef .tc main_arg1)) (V0 (Proc.devRef .tc main_arg3)) := by
  simp only [seg5]
  after_results_simp
  simp only [h_main_v117] <;> rfl
set_option maxRecDepth 8192 in
set_option maxHeartbeats 2000000 in
theorem seg5_main_v169 (W V0 : Valuation τ sig (Elt F))
    (h_main_v115 : W (no_index (Proc.devRef .tc main_v115)) = val_main_v115 (F := F) (V0 (Proc.devRef .tc main_arg0)) (V0 (Proc.devRef .tc main_arg1)) (V0 (Proc.devRef .tc main_arg3)))
    : after seg5 W (no_index (Proc.devRef .tc main_v169)) = val_main_v169 (F := F) (V0 (Proc.devRef .tc main_arg0)) (V0 (Proc.devRef .tc main_arg1)) (V0 (Proc.devRef .tc main_arg3)) := by
  simp only [seg5]
  after_results_simp
  simp only [h_main_v115] <;> rfl
set_option maxRecDepth 8192 in
set_option maxHeartbeats 2000000 in
theorem seg5_main_v174 (W V0 : Valuation τ sig (Elt F))
    (h_main_v113 : W (no_index (Proc.devRef .tc main_v113)) = val_main_v113 (F := F) (V0 (Proc.devRef .tc main_arg0)) (V0 (Proc.devRef .tc main_arg1)) (V0 (Proc.devRef .tc main_arg3)))
    : after seg5 W (no_index (Proc.devRef .tc main_v174)) = val_main_v174 (F := F) (V0 (Proc.devRef .tc main_arg0)) (V0 (Proc.devRef .tc main_arg1)) (V0 (Proc.devRef .tc main_arg3)) := by
  simp only [seg5]
  after_results_simp
  simp only [h_main_v113] <;> rfl
set_option maxRecDepth 8192 in
set_option maxHeartbeats 2000000 in
theorem seg5_main_v175 (W V0 : Valuation τ sig (Elt F))
    (h_main_v35 : W (no_index (Proc.devRef .tc main_v35)) = val_main_v35 (F := F))
    : after seg5 W (no_index (Proc.devRef .tc main_v175)) = val_main_v175 (F := F) := by
  simp only [seg5]
  after_results_simp
  simp only [h_main_v35] <;> rfl

end Cert.Proof.Ref

end
-- ==== Proof.Ref.Win4.lean ====
/-
   Window main_part4 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 6: @main's operations 271 … 273 of 978. -/
abbrev seg6 : List (HloOp τ sig (Elt F)) :=
  [ unary main_v164 main_v176 (broadcastInDim S8x2048x1 ![0, 1] bcast_S8x2048_S8x2048x1_0_1 : (⟨S8x2048, .i32⟩ : BufTy).Contents (Elt F) → (⟨S8x2048x1, .i32⟩ : BufTy).Contents (Elt F)),
    unary main_v169 main_v177 (broadcastInDim S8x2048x1 ![0, 1] bcast_S8x2048_S8x2048x1_0_1 : (⟨S8x2048, .i32⟩ : BufTy).Contents (Elt F) → (⟨S8x2048x1, .i32⟩ : BufTy).Contents (Elt F)),
    unary main_v174 main_v178 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 7: @main's operations 274 … 274 of 978. -/
abbrev seg7 : List (HloOp τ sig (Elt F)) :=
  [ nary ![main_v175, main_v176, main_v177, main_v178] main_v179 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 8: @main's operations 275 … 330 of 978. -/
abbrev seg8 : List (HloOp τ sig (Elt F)) :=
  [ binary main_arg2 main_v179 main_v180 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v148 main_v181 (uitofp .f32 : (⟨S8x2048, .i1⟩ : BufTy).Contents (Elt F) → (⟨S8x2048, .f32⟩ : BufTy).Contents (Elt F)),
    binary main_v131 main_v181 main_v182 (mulf : (⟨S8x2048, .f32⟩ : BufTy).Contents (Elt F) → (⟨S8x2048, .f32⟩ : BufTy).Contents (Elt F) → (⟨S8x2048, .f32⟩ : BufTy).Contents (Elt F)),
    unary main_v182 main_v183 (broadcastInDim S8x2048x1 ![0, 1] bcast_S8x2048_S8x2048x1_0_1 : (⟨S8x2048, .f32⟩ : BufTy).Contents (Elt F) → (⟨S8x2048x1, .f32⟩ : BufTy).Contents (Elt F)),
    unary main_v183 main_v184 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v180 main_v184 main_v185 (mulf : (⟨S8x2048x128, .f32⟩ : BufTy).Contents (Elt F) → (⟨S8x2048x128, .f32⟩ : BufTy).Contents (Elt F) → (⟨S8x2048x128, .f32⟩ : BufTy).Contents (Elt F)),
    binary main_v111 main_v185 main_v186 (addf : (⟨S8x2048x128, .f32⟩ : BufTy).Contents (Elt F) → (⟨S8x2048x128, .f32⟩ : BufTy).Contents (Elt F) → (⟨S8x2048x128, .f32⟩ : BufTy).Contents (Elt F)),
    nullary main_cst_62 (constant S_ .f32 0x00000000#32),
    unary main_cst_62 main_v187 (broadcastInDim S8x2048 ![] bcast_S_S8x2048 : (⟨S_, .f32⟩ : BufTy).Contents (Elt F) → (⟨S8x2048, .f32⟩ : BufTy).Contents (Elt F)),
    binary main_v30 main_v187 main_v188 (addf : (⟨S8x2048, .f32⟩ : BufTy).Contents (Elt F) → (⟨S8x2048, .f32⟩ : BufTy).Contents (Elt F) → (⟨S8x2048, .f32⟩ : BufTy).Contents (Elt F)),
    nullary main_cst_63 (constant S_ .f32 0x3F800000#32),
    unary main_cst_63 main_v189 (broadcastInDim S8x2048 ![] bcast_S_S8x2048 : (⟨S_, .f32⟩ : BufTy).Contents (Elt F) → (⟨S8x2048, .f32⟩ : BufTy).Contents (Elt F)),
    binary main_v31 main_v189 main_v190 (addf : (⟨S8x2048, .f32⟩ : BufTy).Contents (Elt F) → (⟨S8x2048, .f32⟩ : BufTy).Contents (Elt F) → (⟨S8x2048, .f32⟩ : BufTy).Contents (Elt F)),
    nullary main_cst_64 (constant S_ .f32 0x00000000#32),
    unary main_cst_64 main_v191 (broadcastInDim S8x2048 ![] bcast_S_S8x2048 : (⟨S_, .f32⟩ : BufTy).Contents (Elt F) → (⟨S8x2048, .f32⟩ : BufTy).Contents (Elt F)),
    binary main_v32 main_v191 main_v192 (addf : (⟨S8x2048, .f32⟩ : BufTy).Contents (Elt F) → (⟨S8x2048, .f32⟩ : BufTy).Contents (Elt F) → (⟨S8x2048, .f32⟩ : BufTy).Contents (Elt F)),
    binary main_v13 main_v188 main_v193 (subf : (⟨S8x2048, .f32⟩ : BufTy).Contents (Elt F) → (⟨S8x2048, .f32⟩ : BufTy).Contents (Elt F) → (⟨S8x2048, .f32⟩ : BufTy).Contents (Elt F)),
    unary main_v193 main_v194 (Host.absf : (⟨S8x2048, .f32⟩ : BufTy).Contents (Elt F) → (⟨S8x2048, .f32⟩ : BufTy).Contents (Elt F)),
    nullary main_cst_65 (constant S_ .f32 0x3F800000#32),
    unary main_cst_65 main_v195 (broadcastInDim S8x2048 ![] bcast_S_S8x2048 : (⟨S_, .f32⟩ : BufTy).Contents (Elt F) → (⟨S8x2048, .f32⟩ : BufTy).Contents (Elt F)),
    binary main_v195 main_v194 main_v196 (subf : (⟨S8x2048, .f32⟩ : BufTy).Contents (Elt F) → (⟨S8x2048, .f32⟩ : BufTy).Contents (Elt F) → (⟨S8x2048, .f32⟩ : BufTy).Contents (Elt F)),
    binary main_v21 main_v190 main_v197 (subf : (⟨S8x2048, .f32⟩ : BufTy).Contents (Elt F) → (⟨S8x2048, .f32⟩ : BufTy).Contents (Elt F) → (⟨S8x2048, .f32⟩ : BufTy).Contents (Elt F)),
    unary main_v197 main_v198 (Host.absf : (⟨S8x2048, .f32⟩ : BufTy).Contents (Elt F) → (⟨S8x2048, .f32⟩ : BufTy).Contents (Elt F)),
    nullary main_cst_66 (constant S_ .f32 0x3F800000#32),
    unary main_cst_66 main_v199 (broadcastInDim S8x2048 ![] bcast_S_S8x2048 : (⟨S_, .f32⟩ : BufTy).Contents (Elt F) → (⟨S8x2048, .f32⟩ : BufTy).Contents (Elt F)),
    binary main_v199 main_v198 main_v200 (subf : (⟨S8x2048, .f32⟩ : BufTy).Contents (Elt F) → (⟨S8x2048, .f32⟩ : BufTy).Contents (Elt F) → (⟨S8x2048, .f32⟩ : BufTy).Contents (Elt F)),
    binary main_v196 main_v200 main_v201 (mulf : (⟨S8x2048, .f32⟩ : BufTy).Contents (Elt F) → (⟨S8x2048, .f32⟩ : BufTy).Contents (Elt F) → (⟨S8x2048, .f32⟩ : BufTy).Contents (Elt F)),
    binary main_v29 main_v192 main_v202 (subf : (⟨S8x2048, .f32⟩ : BufTy).Contents (Elt F) → (⟨S8x2048, .f32⟩ : BufTy).Contents (Elt F) → (⟨S8x2048, .f32⟩ : BufTy).Contents (Elt F)),
    unary main_v202 main_v203 (Host.absf : (⟨S8x2048, .f32⟩ : BufTy).Contents (Elt F) → (⟨S8x2048, .f32⟩ : BufTy).Contents (Elt F)),
    nullary main_cst_67 (constant S_ .f32 0x3F800000#32),
    unary main_cst_67 main_v204 (broadcastInDim S8x2048 ![] bcast_S_S8x2048 : (⟨S_, .f32⟩ : BufTy).Contents (Elt F) → (⟨S8x2048, .f32⟩ : BufTy).Contents (Elt F)),
    binary main_v204 main_v203 main_v205 (subf : (⟨S8x2048, .f32⟩ : BufTy).Contents (Elt F) → (⟨S8x2048, .f32⟩ : BufTy).Contents (Elt F) → (⟨S8x2048, .f32⟩ : BufTy).Contents (Elt F)),
    binary main_v201 main_v205 main_v206 (mulf : (⟨S8x2048, .f32⟩ : BufTy).Contents (Elt F) → (⟨S8x2048, .f32⟩ : BufTy).Contents (Elt F) → (⟨S8x2048, .f32⟩ : BufTy).Contents (Elt F)),
    nullary main_cst_68 (constant S_ .f32 0x00000000#32),
    unary main_cst_68 main_v207 (broadcastInDim S8x2048 ![] bcast_S_S8x2048 : (⟨S_, .f32⟩ : BufTy).Contents (Elt F) → (⟨S8x2048, .f32⟩ : BufTy).Contents (Elt F)),
    binary main_v188 main_v207 main_v208 (cmpf .oge : (⟨S8x2048, .f32⟩ : BufTy).Contents (Elt F) → (⟨S8x2048, .f32⟩ : BufTy).Contents (Elt F) → (⟨S8x2048, .i1⟩ : BufTy).Contents (Elt F)),
    nullary main_cst_69 (constant S_ .f32 0x41F80000#32),
    unary main_cst_69 main_v209 (broadcastInDim S8x2048 ![] bcast_S_S8x2048 : (⟨S_, .f32⟩ : BufTy).Contents (Elt F) → (⟨S8x2048, .f32⟩ : BufTy).Contents (Elt F)),
    binary main_v188 main_v209 main_v210 (cmpf .ole : (⟨S8x2048, .f32⟩ : BufTy).Contents (Elt F) → (⟨S8x2048, .f32⟩ : BufTy).Contents (Elt F) → (⟨S8x2048, .i1⟩ : BufTy).Contents (Elt F)),
    binary main_v208 main_v210 main_v211 (andi : (⟨S8x2048, .i1⟩ : BufTy).Contents (Elt F) → (⟨S8x2048, .i1⟩ : BufTy).Contents (Elt F) → (⟨S8x2048, .i1⟩ : BufTy).Contents (Elt F)),
    nullary main_cst_70 (constant S_ .f32 0x00000000#32),
    unary main_cst_70 main_v212 (broadcastInDim S8x2048 ![] bcast_S_S8x2048 : (⟨S_, .f32⟩ : BufTy).Contents (Elt F) → (⟨S8x2048, .f32⟩ : BufTy).Contents (Elt F)),
    binary main_v190 main_v212 main_v213 (cmpf .oge : (⟨S8x2048, .f32⟩ : BufTy).Contents (Elt F) → (⟨S8x2048, .f32⟩ : BufTy).Contents (Elt F) → (⟨S8x2048, .i1⟩ : BufTy).Contents (Elt F)),
    binary main_v211 main_v213 main_v214 (andi : (⟨S8x2048, .i1⟩ : BufTy).Contents (Elt F) → (⟨S8x2048, .i1⟩ : BufTy).Contents (Elt F) → (⟨S8x2048, .i1⟩ : BufTy).Contents (Elt F)),
    nullary main_cst_71 (constant S_ .f32 0x41F80000#32),
    unary main_cst_71 main_v215 (broadcastInDim S8x2048 ![] bcast_S_S8x2048 : (⟨S_, .f32⟩ : BufTy).Contents (Elt F) → (⟨S8x2048, .f32⟩ : BufTy).Contents (Elt F)),
    binary main_v190 main_v215 main_v216 (cmpf .ole : (⟨S8x2048, .f32⟩ : BufTy).Contents (Elt F) → (⟨S8x2048, .f32⟩ : BufTy).Contents (Elt F) → (⟨S8x2048, .i1⟩ : BufTy).Contents (Elt F)),
    binary main_v214 main_v216 main_v217 (andi : (⟨S8x2048, .i1⟩ : BufTy).Contents (Elt F) → (⟨S8x2048, .i1⟩ : BufTy).Contents (Elt F) → (⟨S8x2048, .i1⟩ : BufTy).Contents (Elt F)),
    nullary main_cst_72 (constant S_ .f32 0x00000000#32),
    unary main_cst_72 main_v218 (broadcastInDim S8x2048 ![] bcast_S_S8x2048 : (⟨S_, .f32⟩ : BufTy).Contents (Elt F) → (⟨S8x2048, .f32⟩ : BufTy).Contents (Elt F)),
    binary main_v192 main_v218 main_v219 (cmpf .oge : (⟨S8x2048, .f32⟩ : BufTy).Contents (Elt F) → (⟨S8x2048, .f32⟩ : BufTy).Contents (Elt F) → (⟨S8x2048, .i1⟩ : BufTy).Contents (Elt F)),
    binary main_v217 main_v219 main_v220 (andi : (⟨S8x2048, .i1⟩ : BufTy).Contents (Elt F) → (⟨S8x2048, .i1⟩ : BufTy).Contents (Elt F) → (⟨S8x2048, .i1⟩ : BufTy).Contents (Elt F)),
    nullary main_cst_73 (constant S_ .f32 0x41F80000#32),
    unary main_cst_73 main_v221 (broadcastInDim S8x2048 ![] bcast_S_S8x2048 : (⟨S_, .f32⟩ : BufTy).Contents (Elt F) → (⟨S8x2048, .f32⟩ : BufTy).Contents (Elt F)),
    binary main_v192 main_v221 main_v222 (cmpf .ole : (⟨S8x2048, .f32⟩ : BufTy).Contents (Elt F) → (⟨S8x2048, .f32⟩ : BufTy).Contents (Elt F) → (⟨S8x2048, .i1⟩ : BufTy).Contents (Elt F)),
    binary main_v220 main_v222 main_v223 (andi : (⟨S8x2048, .i1⟩ : BufTy).Contents (Elt F) → (⟨S8x2048, .i1⟩ : BufTy).Contents (Elt F) → (⟨S8x2048, .i1⟩ : BufTy).Contents (Elt F)) ]

set_option maxRecDepth 8192 in
/-- The window is its segments one after the other. -/
theorem ops_part4_segs : (ops_part4 : List (HloOp τ sig (Elt F))) = seg6 ++ (seg7 ++ (seg8)) := rfl

/-- The buffers that segment 6's operations write. -/
abbrev seg6_W : List (Ref sig .tc) := [main_v176, main_v177, main_v178]
set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 6 does not write keeps its contents through it. -/
theorem seg6_keep (W : Valuation τ sig (Elt F)) (r : Ref sig .tc) (h : r ∉ seg6_W) :
    after seg6 W (Proc.devRef .tc r) = W (Proc.devRef .tc r) :=
  after_of_writes_sub seg6 _ seg6_writes h

set_option maxRecDepth 8192 in
set_option maxHeartbeats 300000 in
theorem seg6_main_v176 (W V0 : Valuation τ sig (Elt F))
    (h_main_v164 : W (no_index (Proc.devRef .tc main_v164)) = val_main_v164 (F := F) (V0 (Proc.devRef .tc main_arg0)) (V0 (Proc.devRef .tc main_arg1)) (V0 (Proc.devRef .tc main_arg3)))
    : after seg6 W (no_index (Proc.devRef .tc main_v176)) = val_main_v176 (F := F) (V0 (Proc.devRef .tc main_arg0)) (V0 (Proc.devRef .tc main_arg1)) (V0 (Proc.devRef .tc main_arg3)) := by
  simp only [seg6]
  after_results_simp
  simp only [h_main_v164] <;> rfl
set_option maxRecDepth 8192 in
set_option maxHeartbeats 300000 in
theorem seg6_main_v177 (W V0 : Valuation τ sig (Elt F))
    (h_main_v169 : W (no_index (Proc.devRef .tc main_v169)) = val_main_v169 (F := F) (V0 (Proc.devRef .tc main_arg0)) (V0 (Proc.devRef .tc main_arg1)) (V0 (Proc.devRef .tc main_arg3)))
    : after seg6 W (no_index (Proc.devRef .tc main_v177)) = val_main_v177 (F := F) (V0 (Proc.devRef .tc main_arg0)) (V0 (Proc.devRef .tc main_arg1)) (V0 (Proc.devRef .tc main_arg3)) := by
  simp only [seg6]
  after_results_simp
  simp only [h_main_v169] <;> rfl
set_option maxRecDepth 8192 in
set_option maxHeartbeats 300000 in
theorem seg6_main_v178 (W V0 : Valuation τ sig (Elt F))
    (h_main_v174 : W (no_index (Proc.devRef .tc main_v174)) = val_main_v174 (F := F) (V0 (Proc.devRef .tc main_arg0)) (V0 (Proc.devRef .tc main_arg1)) (V0 (Proc.devRef .tc main_arg3)))
    : after seg6 W (no_index (Proc.devRef .tc main_v178)) = val_main_v178 (F := F) (V0 (Proc.devRef .tc main_arg0)) (V0 (Proc.devRef .tc main_arg1)) (V0 (Proc.devRef .tc main_arg3)) := by
  simp only [seg6]
  after_results_simp
  simp only [h_main_v174] <;> rfl

/-- The buffers that segment 7's operations write. -/
abbrev seg7_W : List (Ref sig .tc) := [main_v179]
set_option maxRecDepth 8192 in
theorem seg7_writes : (seg7 : List (HloOp τ sig (Elt F))).Forall fun op => op.writes ⊆ (seg7_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 7 does not write keeps its contents through it. -/
theorem seg7_keep (W : Valuation τ sig (Elt F)) (r : Ref sig .tc) (h : r ∉ seg7_W) :
    after seg7 W (Proc.devRef .tc r) = W (Proc.devRef .tc r) :=
  after_of_writes_sub seg7 _ seg7_writes h

/-- The concatenation `main_v179`, given its operands' contents. -/
theorem cat_main_v179 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v175)) = v0) (h1 : G (no_index (Proc.devRef .tc main_v176)) = v1) (h2 : G (no_index (Proc.devRef .tc main_v177)) = v2) (h3 : G (no_index (Proc.devRef .tc main_v178)) = v3) :
    (nary ![main_v175, main_v176, main_v177, main_v178] main_v179 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v179))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg7_main_v179 (W V0 : Valuation τ sig (Elt F))
    (h_main_v178 : W (no_index (Proc.devRef .tc main_v178)) = val_main_v178 (F := F) (V0 (Proc.devRef .tc main_arg0)) (V0 (Proc.devRef .tc main_arg1)) (V0 (Proc.devRef .tc main_arg3)))
    (h_main_v177 : W (no_index (Proc.devRef .tc main_v177)) = val_main_v177 (F := F) (V0 (Proc.devRef .tc main_arg0)) (V0 (Proc.devRef .tc main_arg1)) (V0 (Proc.devRef .tc main_arg3)))
    (h_main_v176 : W (no_index (Proc.devRef .tc main_v176)) = val_main_v176 (F := F) (V0 (Proc.devRef .tc main_arg0)) (V0 (Proc.devRef .tc main_arg1)) (V0 (Proc.devRef .tc main_arg3)))
    (h_main_v175 : W (no_index (Proc.devRef .tc main_v175)) = val_main_v175 (F := F))
    : after seg7 W (no_index (Proc.devRef .tc main_v179)) = val_main_v179 (F := F) (V0 (Proc.devRef .tc main_arg0)) (V0 (Proc.devRef .tc main_arg1)) (V0 (Proc.devRef .tc main_arg3)) :=
  cat_main_v179 W _ _ _ _ h_main_v175 h_main_v176 h_main_v177 h_main_v178

/-- The buffers that segment 8's operations write. -/
abbrev seg8_W : List (Ref sig .tc) := [main_v180, main_v181, main_v182, main_v183, main_v184, main_v185, main_v186, main_cst_62, main_v187, main_v188, main_cst_63, main_v189, main_v190, main_cst_64, main_v191, main_v192, main_v193, main_v194, main_cst_65, main_v195, main_v196, main_v197, main_v198, main_cst_66, main_v199, main_v200, main_v201, main_v202, main_v203, main_cst_67, main_v204, main_v205, main_v206, main_cst_68, main_v207, main_v208, main_cst_69, main_v209, main_v210, main_v211, main_cst_70, main_v212, main_v213, main_v214, main_cst_71, main_v215, main_v216, main_v217, main_cst_72, main_v218, main_v219, main_v220, main_cst_73, main_v221, main_v222, main_v223]
set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 8 does not write keeps its contents through it. -/
theorem seg8_keep (W : Valuation τ sig (Elt F)) (r : Ref sig .tc) (h : r ∉ seg8_W) :
    after seg8 W (Proc.devRef .tc r) = W (Proc.devRef .tc r) :=
  after_of_writes_sub seg8 _ seg8_writes h

set_option maxRecDepth 8192 in
set_option maxHeartbeats 2000000 in
theorem seg8_main_v186 (W V0 : Valuation τ sig (Elt F))
    (h_main_v148 : W (no_index (Proc.devRef .tc main_v148)) = val_main_v148 (F := F) (V0 (Proc.devRef .tc main_arg0)) (V0 (Proc.devRef .tc main_arg1)) (V0 (Proc.devRef .tc main_arg3)))
    (h_main_v131 : W (no_index (Proc.devRef .tc main_v131)) = val_main_v131 (F := F) (V0 (Proc.devRef .tc main_arg0)) (V0 (Proc.devRef .tc main_arg1)) (V0 (Proc.devRef .tc main_arg3)))
    (h_main_v179 : W (no_index (Proc.devRef .tc main_v179)) = val_main_v179 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v111 : W (no_index (Proc.devRef .tc main_v111)) = val_main_v111 (F := F) (V0 (Proc.devRef .tc main_arg0)) (V0 (Proc.devRef .tc main_arg1)) (V0 (Proc.devRef .tc main_arg2)) (V0 (Proc.devRef .tc main_arg3)))
    : after seg8 W (no_index (Proc.devRef .tc main_v186)) = val_main_v186 (F := F) (V0 (Proc.devRef .tc main_arg0)) (V0 (Proc.devRef .tc main_arg1)) (V0 (Proc.devRef .tc main_arg2)) (V0 (Proc.devRef .tc main_arg3)) := by
  simp only [seg8]
  after_results_simp
  simp only [h_main_v148, h_main_v131, h_main_v179, h_main_arg2, h_main_v111] <;> rfl
set_option maxRecDepth 8192 in
set_option maxHeartbeats 2000000 in
theorem seg8_main_v188 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg8 W (no_index (Proc.devRef .tc main_v188)) = val_main_v188 (F := F) (V0 (Proc.devRef .tc main_arg0)) (V0 (Proc.devRef .tc main_arg1)) (V0 (Proc.devRef .tc main_arg3)) := by
  simp only [seg8]
  after_results_simp
  simp only [h_main_v30] <;> rfl
set_option maxRecDepth 8192 in
set_option maxHeartbeats 2000000 in
theorem seg8_main_v190 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg8 W (no_index (Proc.devRef .tc main_v190)) = val_main_v190 (F := F) (V0 (Proc.devRef .tc main_arg0)) (V0 (Proc.devRef .tc main_arg1)) (V0 (Proc.devRef .tc main_arg3)) := by
  simp only [seg8]
  after_results_simp
  simp only [h_main_v31] <;> rfl
set_option maxRecDepth 8192 in
set_option maxHeartbeats 2000000 in
theorem seg8_main_v192 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg8 W (no_index (Proc.devRef .tc main_v192)) = val_main_v192 (F := F) (V0 (Proc.devRef .tc main_arg0)) (V0 (Proc.devRef .tc main_arg1)) (V0 (Proc.devRef .tc main_arg3)) := by
  simp only [seg8]
  after_results_simp
  simp only [h_main_v32] <;> rfl
set_option maxRecDepth 8192 in
set_option maxHeartbeats 2000000 in
theorem seg8_main_v206 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg8 W (no_index (Proc.devRef .tc main_v206)) = val_main_v206 (F := F) (V0 (Proc.devRef .tc main_arg0)) (V0 (Proc.devRef .tc main_arg1)) (V0 (Proc.devRef .tc main_arg3)) := by
  simp only [seg8]
  after_results_simp
  simp only [h_main_v32, h_main_v29, h_main_v31, h_main_v21, h_main_v30, h_main_v13] <;> rfl
set_option maxRecDepth 8192 in
set_option maxHeartbeats 2000000 in
theorem seg8_main_v223 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    : after seg8 W (no_index (Proc.devRef .tc main_v223)) = val_main_v223 (F := F) (V0 (Proc.devRef .tc main_arg0)) (V0 (Proc.devRef .tc main_arg1)) (V0 (Proc.devRef .tc main_arg3)) := by
  simp only [seg8]
  after_results_simp
  simp only [h_main_v32, h_main_v31, h_main_v30] <;> rfl

end Cert.Proof.Ref

end
-- ==== Proof.Ref.Win5.lean ====
/-
   Window main_part5 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 9: @main's operations 331 … 389 of 978. -/
abbrev seg9 : List (HloOp τ sig (Elt F)) :=
  [ nullary main_c_74 (constantI S_ 32 0#32),
    nullary main_c_75 (constantI S_ 32 31#32),
    TRef.unary (TRef.of (T := ⟨S_, .i32⟩) main_c_74) (TRef.of (T := ⟨S_, .f32⟩) main_call6_v0) (sitofp .f32),
    TRef.unary (TRef.of (T := ⟨S_, .f32⟩) main_call6_v0) (TRef.of (T := ⟨S8x2048, .f32⟩) main_call6_v1) (broadcastInDim S8x2048 ![] bcast_S_S8x2048),
    TRef.binary (TRef.of (T := ⟨S8x2048, .f32⟩) main_call6_v1) (TRef.of (T := ⟨S8x2048, .f32⟩) main_v188) (TRef.of (T := ⟨S8x2048, .f32⟩) main_call6_v2) maximumf,
    TRef.unary (TRef.of (T := ⟨S_, .i32⟩) main_c_75) (TRef.of (T := ⟨S_, .f32⟩) main_call6_v3) (sitofp .f32),
    TRef.unary (TRef.of (T := ⟨S_, .f32⟩) main_call6_v3) (TRef.of (T := ⟨S8x2048, .f32⟩) main_call6_v4) (broadcastInDim S8x2048 ![] bcast_S_S8x2048),
    TRef.binary (TRef.of (T := ⟨S8x2048, .f32⟩) main_call6_v4) (TRef.of (T := ⟨S8x2048, .f32⟩) main_call6_v2) (TRef.of (T := ⟨S8x2048, .f32⟩) main_v224) minimumf,
    unary main_v224 main_v225 (fptosi 32 : (⟨S8x2048, .f32⟩ : BufTy).Contents (Elt F) → (⟨S8x2048, .i32⟩ : BufTy).Contents (Elt F)),
    nullary main_c_76 (constantI S_ 32 0#32),
    nullary main_c_77 (constantI S_ 32 31#32),
    TRef.unary (TRef.of (T := ⟨S_, .i32⟩) main_c_76) (TRef.of (T := ⟨S_, .f32⟩) main_call7_v0) (sitofp .f32),
    TRef.unary (TRef.of (T := ⟨S_, .f32⟩) main_call7_v0) (TRef.of (T := ⟨S8x2048, .f32⟩) main_call7_v1) (broadcastInDim S8x2048 ![] bcast_S_S8x2048),
    TRef.binary (TRef.of (T := ⟨S8x2048, .f32⟩) main_call7_v1) (TRef.of (T := ⟨S8x2048, .f32⟩) main_v190) (TRef.of (T := ⟨S8x2048, .f32⟩) main_call7_v2) maximumf,
    TRef.unary (TRef.of (T := ⟨S_, .i32⟩) main_c_77) (TRef.of (T := ⟨S_, .f32⟩) main_call7_v3) (sitofp .f32),
    TRef.unary (TRef.of (T := ⟨S_, .f32⟩) main_call7_v3) (TRef.of (T := ⟨S8x2048, .f32⟩) main_call7_v4) (broadcastInDim S8x2048 ![] bcast_S_S8x2048),
    TRef.binary (TRef.of (T := ⟨S8x2048, .f32⟩) main_call7_v4) (TRef.of (T := ⟨S8x2048, .f32⟩) main_call7_v2) (TRef.of (T := ⟨S8x2048, .f32⟩) main_v226) minimumf,
    unary main_v226 main_v227 (fptosi 32 : (⟨S8x2048, .f32⟩ : BufTy).Contents (Elt F) → (⟨S8x2048, .i32⟩ : BufTy).Contents (Elt F)),
    nullary main_c_78 (constantI S_ 32 0#32),
    nullary main_c_79 (constantI S_ 32 31#32),
    TRef.unary (TRef.of (T := ⟨S_, .i32⟩) main_c_78) (TRef.of (T := ⟨S_, .f32⟩) main_call8_v0) (sitofp .f32),
    TRef.unary (TRef.of (T := ⟨S_, .f32⟩) main_call8_v0) (TRef.of (T := ⟨S8x2048, .f32⟩) main_call8_v1) (broadcastInDim S8x2048 ![] bcast_S_S8x2048),
    TRef.binary (TRef.of (T := ⟨S8x2048, .f32⟩) main_call8_v1) (TRef.of (T := ⟨S8x2048, .f32⟩) main_v192) (TRef.of (T := ⟨S8x2048, .f32⟩) main_call8_v2) maximumf,
    TRef.unary (TRef.of (T := ⟨S_, .i32⟩) main_c_79) (TRef.of (T := ⟨S_, .f32⟩) main_call8_v3) (sitofp .f32),
    TRef.unary (TRef.of (T := ⟨S_, .f32⟩) main_call8_v3) (TRef.of (T := ⟨S8x2048, .f32⟩) main_call8_v4) (broadcastInDim S8x2048 ![] bcast_S_S8x2048),
    TRef.binary (TRef.of (T := ⟨S8x2048, .f32⟩) main_call8_v4) (TRef.of (T := ⟨S8x2048, .f32⟩) main_call8_v2) (TRef.of (T := ⟨S8x2048, .f32⟩) main_v228) minimumf,
    unary main_v228 main_v229 (fptosi 32 : (⟨S8x2048, .f32⟩ : BufTy).Contents (Elt F) → (⟨S8x2048, .i32⟩ : BufTy).Contents (Elt F)),
    nullary main_c_80 (constantI S_ 32 0#32),
    unary main_c_80 main_v230 (broadcastInDim S8x2048 ![] bcast_S_S8x2048 : (⟨S_, .i32⟩ : BufTy).Contents (Elt F) → (⟨S8x2048, .i32⟩ : BufTy).Contents (Elt F)),
    binary main_v35 main_v230 main_v231 (cmpi .slt : (⟨S8x2048, .i32⟩ : BufTy).Contents (Elt F) → (⟨S8x2048, .i32⟩ : BufTy).Contents (Elt F) → (⟨S8x2048, .i1⟩ : BufTy).Contents (Elt F)),
    nullary main_c_81 (constantI S_ 32 8#32),
    unary main_c_81 main_v232 (broadcastInDim S8x2048 ![] bcast_S_S8x2048 : (⟨S_, .i32⟩ : BufTy).Contents (Elt F) → (⟨S8x2048, .i32⟩ : BufTy).Contents (Elt F)),
    binary main_v35 main_v232 main_v233 (addi : (⟨S8x2048, .i32⟩ : BufTy).Contents (Elt F) → (⟨S8x2048, .i32⟩ : BufTy).Contents (Elt F) → (⟨S8x2048, .i32⟩ : BufTy).Contents (Elt F)),
    ternary main_v231 main_v233 main_v35 main_v234 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_82 (constantI S_ 32 0#32),
    unary main_c_82 main_v235 (broadcastInDim S8x2048 ![] bcast_S_S8x2048 : (⟨S_, .i32⟩ : BufTy).Contents (Elt F) → (⟨S8x2048, .i32⟩ : BufTy).Contents (Elt F)),
    binary main_v229 main_v235 main_v236 (cmpi .slt : (⟨S8x2048, .i32⟩ : BufTy).Contents (Elt F) → (⟨S8x2048, .i32⟩ : BufTy).Contents (Elt F) → (⟨S8x2048, .i1⟩ : BufTy).Contents (Elt F)),
    nullary main_c_83 (constantI S_ 32 32#32),
    unary main_c_83 main_v237 (broadcastInDim S8x2048 ![] bcast_S_S8x2048 : (⟨S_, .i32⟩ : BufTy).Contents (Elt F) → (⟨S8x2048, .i32⟩ : BufTy).Contents (Elt F)),
    binary main_v229 main_v237 main_v238 (addi : (⟨S8x2048, .i32⟩ : BufTy).Contents (Elt F) → (⟨S8x2048, .i32⟩ : BufTy).Contents (Elt F) → (⟨S8x2048, .i32⟩ : BufTy).Contents (Elt F)),
    ternary main_v236 main_v238 main_v229 main_v239 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_84 (constantI S_ 32 0#32),
    unary main_c_84 main_v240 (broadcastInDim S8x2048 ![] bcast_S_S8x2048 : (⟨S_, .i32⟩ : BufTy).Contents (Elt F) → (⟨S8x2048, .i32⟩ : BufTy).Contents (Elt F)),
    binary main_v227 main_v240 main_v241 (cmpi .slt : (⟨S8x2048, .i32⟩ : BufTy).Contents (Elt F) → (⟨S8x2048, .i32⟩ : BufTy).Contents (Elt F) → (⟨S8x2048, .i1⟩ : BufTy).Contents (Elt F)),
    nullary main_c_85 (constantI S_ 32 32#32),
    unary main_c_85 main_v242 (broadcastInDim S8x2048 ![] bcast_S_S8x2048 : (⟨S_, .i32⟩ : BufTy).Contents (Elt F) → (⟨S8x2048, .i32⟩ : BufTy).Contents (Elt F)),
    binary main_v227 main_v242 main_v243 (addi : (⟨S8x2048, .i32⟩ : BufTy).Contents (Elt F) → (⟨S8x2048, .i32⟩ : BufTy).Contents (Elt F) → (⟨S8x2048, .i32⟩ : BufTy).Contents (Elt F)),
    ternary main_v241 main_v243 main_v227 main_v244 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_86 (constantI S_ 32 0#32),
    unary main_c_86 main_v245 (broadcastInDim S8x2048 ![] bcast_S_S8x2048 : (⟨S_, .i32⟩ : BufTy).Contents (Elt F) → (⟨S8x2048, .i32⟩ : BufTy).Contents (Elt F)),
    binary main_v225 main_v245 main_v246 (cmpi .slt : (⟨S8x2048, .i32⟩ : BufTy).Contents (Elt F) → (⟨S8x2048, .i32⟩ : BufTy).Contents (Elt F) → (⟨S8x2048, .i1⟩ : BufTy).Contents (Elt F)),
    nullary main_c_87 (constantI S_ 32 32#32),
    unary main_c_87 main_v247 (broadcastInDim S8x2048 ![] bcast_S_S8x2048 : (⟨S_, .i32⟩ : BufTy).Contents (Elt F) → (⟨S8x2048, .i32⟩ : BufTy).Contents (Elt F)),
    binary main_v225 main_v247 main_v248 (addi : (⟨S8x2048, .i32⟩ : BufTy).Contents (Elt F) → (⟨S8x2048, .i32⟩ : BufTy).Contents (Elt F) → (⟨S8x2048, .i32⟩ : BufTy).Contents (Elt F)),
    ternary main_v246 main_v248 main_v225 main_v249 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v234 main_v250 (broadcastInDim S8x2048x1 ![0, 1] bcast_S8x2048_S8x2048x1_0_1 : (⟨S8x2048, .i32⟩ : BufTy).Contents (Elt F) → (⟨S8x2048x1, .i32⟩ : BufTy).Contents (Elt F)),
    unary main_v239 main_v251 (broadcastInDim S8x2048x1 ![0, 1] bcast_S8x2048_S8x2048x1_0_1 : (⟨S8x2048, .i32⟩ : BufTy).Contents (Elt F) → (⟨S8x2048x1, .i32⟩ : BufTy).Contents (Elt F)),
    unary main_v244 main_v252 (broadcastInDim S8x2048x1 ![0, 1] bcast_S8x2048_S8x2048x1_0_1 : (⟨S8x2048, .i32⟩ : BufTy).Contents (Elt F) → (⟨S8x2048x1, .i32⟩ : BufTy).Contents (Elt F)),
    unary main_v249 main_v253 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 10: @main's operations 390 … 390 of 978. -/
abbrev seg10 : List (HloOp τ sig (Elt F)) :=
  [ nary ![main_v250, main_v251, main_v252, main_v253] main_v254 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 11: @main's operations 391 … 405 of 978. -/
abbrev seg11 : List (HloOp τ sig (Elt F)) :=
  [ binary main_arg2 main_v254 main_v255 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v223 main_v256 (uitofp .f32 : (⟨S8x2048, .i1⟩ : BufTy).Contents (Elt F) → (⟨S8x2048, .f32⟩ : BufTy).Contents (Elt F)),
    binary main_v206 main_v256 main_v257 (mulf : (⟨S8x2048, .f32⟩ : BufTy).Contents (Elt F) → (⟨S8x2048, .f32⟩ : BufTy).Contents (Elt F) → (⟨S8x2048, .f32⟩ : BufTy).Contents (Elt F)),
    unary main_v257 main_v258 (broadcastInDim S8x2048x1 ![0, 1] bcast_S8x2048_S8x2048x1_0_1 : (⟨S8x2048, .f32⟩ : BufTy).Contents (Elt F) → (⟨S8x2048x1, .f32⟩ : BufTy).Contents (Elt F)),
    unary main_v258 main_v259 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v255 main_v259 main_v260 (mulf : (⟨S8x2048x128, .f32⟩ : BufTy).Contents (Elt F) → (⟨S8x2048x128, .f32⟩ : BufTy).Contents (Elt F) → (⟨S8x2048x128, .f32⟩ : BufTy).Contents (Elt F)),
    binary main_v186 main_v260 main_v261 (addf : (⟨S8x2048x128, .f32⟩ : BufTy).Contents (Elt F) → (⟨S8x2048x128, .f32⟩ : BufTy).Contents (Elt F) → (⟨S8x2048x128, .f32⟩ : BufTy).Contents (Elt F)),
    nullary main_cst_88 (constant S_ .f32 0x3F800000#32),
    unary main_cst_88 main_v262 (broadcastInDim S8x2048 ![] bcast_S_S8x2048 : (⟨S_, .f32⟩ : BufTy).Contents (Elt F) → (⟨S8x2048, .f32⟩ : BufTy).Contents (Elt F)),
    binary main_v30 main_v262 main_v263 (addf : (⟨S8x2048, .f32⟩ : BufTy).Contents (Elt F) → (⟨S8x2048, .f32⟩ : BufTy).Contents (Elt F) → (⟨S8x2048, .f32⟩ : BufTy).Contents (Elt F)),
    nullary main_cst_89 (constant S_ .f32 0x3F800000#32),
    unary main_cst_89 main_v264 (broadcastInDim S8x2048 ![] bcast_S_S8x2048 : (⟨S_, .f32⟩ : BufTy).Contents (Elt F) → (⟨S8x2048, .f32⟩ : BufTy).Contents (Elt F)),
    binary main_v31 main_v264 main_v265 (addf : (⟨S8x2048, .f32⟩ : BufTy).Contents (Elt F) → (⟨S8x2048, .f32⟩ : BufTy).Contents (Elt F) → (⟨S8x2048, .f32⟩ : BufTy).Contents (Elt F)),
    nullary main_cst_90 (constant S_ .f32 0x00000000#32),
    unary main_cst_90 main_v266 (broadcastInDim S8x2048 ![] bcast_S_S8x2048 : (⟨S_, .f32⟩ : BufTy).Contents (Elt F) → (⟨S8x2048, .f32⟩ : BufTy).Contents (Elt F)) ]

set_option maxRecDepth 8192 in
/-- The window is its segments one after the other. -/
theorem ops_part5_segs : (ops_part5 : List (HloOp τ sig (Elt F))) = seg9 ++ (seg10 ++ (seg11)) := rfl

/-- The buffers that segment 9's operations write. -/
abbrev seg9_W : List (Ref sig .tc) := [main_c_74, main_c_75, main_call6_v0, main_call6_v1, main_call6_v2, main_call6_v3, main_call6_v4, main_v224, main_v225, main_c_76, main_c_77, main_call7_v0, main_call7_v1, main_call7_v2, main_call7_v3, main_call7_v4, main_v226, main_v227, main_c_78, main_c_79, main_call8_v0, main_call8_v1, main_call8_v2, main_call8_v3, main_call8_v4, main_v228, main_v229, main_c_80, main_v230, main_v231, main_c_81, main_v232, main_v233, main_v234, main_c_82, main_v235, main_v236, main_c_83, main_v237, main_v238, main_v239, main_c_84, main_v240, main_v241, main_c_85, main_v242, main_v243, main_v244, main_c_86, main_v245, main_v246, main_c_87, main_v247, main_v248, main_v249, main_v250, main_v251, main_v252, main_v253]
set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 9 does not write keeps its contents through it. -/
theorem seg9_keep (W : Valuation τ sig (Elt F)) (r : Ref sig .tc) (h : r ∉ seg9_W) :
    after seg9 W (Proc.devRef .tc r) = W (Proc.devRef .tc r) :=
  after_of_writes_sub seg9 _ seg9_writes h

set_option maxRecDepth 8192 in
set_option maxHeartbeats 2000000 in
theorem seg9_main_v250 (W V0 : Valuation τ sig (Elt F))
    (h_main_v35 : W (no_index (Proc.devRef .tc main_v35)) = val_main_v35 (F := F))
    : after seg9 W (no_index (Proc.devRef .tc main_v250)) = val_main_v250 (F := F) := by
  simp only [seg9]
  after_results_simp
  simp only [h_main_v35] <;> rfl
set_option maxRecDepth 8192 in
set_option maxHeartbeats 2000000 in
theorem seg9_main_v251 (W V0 : Valuation τ sig (Elt F))
    (h_main_v192 : W (no_index (Proc.devRef .tc main_v192)) = val_main_v192 (F := F) (V0 (Proc.devRef .tc main_arg0)) (V0 (Proc.devRef .tc main_arg1)) (V0 (Proc.devRef .tc main_arg3)))
    : after seg9 W (no_index (Proc.devRef .tc main_v251)) = val_main_v251 (F := F) (V0 (Proc.devRef .tc main_arg0)) (V0 (Proc.devRef .tc main_arg1)) (V0 (Proc.devRef .tc main_arg3)) := by
  simp only [seg9]
  after_results_simp
  simp only [h_main_v192] <;> rfl
set_option maxRecDepth 8192 in
set_option maxHeartbeats 2000000 in
theorem seg9_main_v252 (W V0 : Valuation τ sig (Elt F))
    (h_main_v190 : W (no_index (Proc.devRef .tc main_v190)) = val_main_v190 (F := F) (V0 (Proc.devRef .tc main_arg0)) (V0 (Proc.devRef .tc main_arg1)) (V0 (Proc.devRef .tc main_arg3)))
    : after seg9 W (no_index (Proc.devRef .tc main_v252)) = val_main_v252 (F := F) (V0 (Proc.devRef .tc main_arg0)) (V0 (Proc.devRef .tc main_arg1)) (V0 (Proc.devRef .tc main_arg3)) := by
  simp only [seg9]
  after_results_simp
  simp only [h_main_v190] <;> rfl
set_option maxRecDepth 8192 in
set_option maxHeartbeats 2000000 in
theorem seg9_main_v253 (W V0 : Valuation τ sig (Elt F))
    (h_main_v188 : W (no_index (Proc.devRef .tc main_v188)) = val_main_v188 (F := F) (V0 (Proc.devRef .tc main_arg0)) (V0 (Proc.devRef .tc main_arg1)) (V0 (Proc.devRef .tc main_arg3)))
    : after seg9 W (no_index (Proc.devRef .tc main_v253)) = val_main_v253 (F := F) (V0 (Proc.devRef .tc main_arg0)) (V0 (Proc.devRef .tc main_arg1)) (V0 (Proc.devRef .tc main_arg3)) := by
  simp only [seg9]
  after_results_simp
  simp only [h_main_v188] <;> rfl

/-- The buffers that segment 10's operations write. -/
abbrev seg10_W : List (Ref sig .tc) := [main_v254]
set_option maxRecDepth 8192 in
theorem seg10_writes : (seg10 : List (HloOp τ sig (Elt F))).Forall fun op => op.writes ⊆ (seg10_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 10 does not write keeps its contents through it. -/
theorem seg10_keep (W : Valuation τ sig (Elt F)) (r : Ref sig .tc) (h : r ∉ seg10_W) :
    after seg10 W (Proc.devRef .tc r) = W (Proc.devRef .tc r) :=
  after_of_writes_sub seg10 _ seg10_writes h

/-- The concatenation `main_v254`, given its operands' contents. -/
theorem cat_main_v254 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v250)) = v0) (h1 : G (no_index (Proc.devRef .tc main_v251)) = v1) (h2 : G (no_index (Proc.devRef .tc main_v252)) = v2) (h3 : G (no_index (Proc.devRef .tc main_v253)) = v3) :
    (nary ![main_v250, main_v251, main_v252, main_v253] main_v254 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v254))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg10_main_v254 (W V0 : Valuation τ sig (Elt F))
    (h_main_v253 : W (no_index (Proc.devRef .tc main_v253)) = val_main_v253 (F := F) (V0 (Proc.devRef .tc main_arg0)) (V0 (Proc.devRef .tc main_arg1)) (V0 (Proc.devRef .tc main_arg3)))
    (h_main_v252 : W (no_index (Proc.devRef .tc main_v252)) = val_main_v252 (F := F) (V0 (Proc.devRef .tc main_arg0)) (V0 (Proc.devRef .tc main_arg1)) (V0 (Proc.devRef .tc main_arg3)))
    (h_main_v251 : W (no_index (Proc.devRef .tc main_v251)) = val_main_v251 (F := F) (V0 (Proc.devRef .tc main_arg0)) (V0 (Proc.devRef .tc main_arg1)) (V0 (Proc.devRef .tc main_arg3)))
    (h_main_v250 : W (no_index (Proc.devRef .tc main_v250)) = val_main_v250 (F := F))
    : after seg10 W (no_index (Proc.devRef .tc main_v254)) = val_main_v254 (F := F) (V0 (Proc.devRef .tc main_arg0)) (V0 (Proc.devRef .tc main_arg1)) (V0 (Proc.devRef .tc main_arg3)) :=
  cat_main_v254 W _ _ _ _ h_main_v250 h_main_v251 h_main_v252 h_main_v253

/-- The buffers that segment 11's operations write. -/
abbrev seg11_W : List (Ref sig .tc) := [main_v255, main_v256, main_v257, main_v258, main_v259, main_v260, main_v261, main_cst_88, main_v262, main_v263, main_cst_89, main_v264, main_v265, main_cst_90, main_v266]
set_option maxRecDepth 8192 in
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 11 does not write keeps its contents through it. -/
theorem seg11_keep (W : Valuation τ sig (Elt F)) (r : Ref sig .tc) (h : r ∉ seg11_W) :
    after seg11 W (Proc.devRef .tc r) = W (Proc.devRef .tc r) :=
  after_of_writes_sub seg11 _ seg11_writes h

set_option maxRecDepth 8192 in
set_option maxHeartbeats 1500000 in
theorem seg11_main_v261 (W V0 : Valuation τ sig (Elt F))
    (h_main_v223 : W (no_index (Proc.devRef .tc main_v223)) = val_main_v223 (F := F) (V0 (Proc.devRef .tc main_arg0)) (V0 (Proc.devRef .tc main_arg1)) (V0 (Proc.devRef .tc main_arg3)))
    (h_main_v206 : W (no_index (Proc.devRef .tc main_v206)) = val_main_v206 (F := F) (V0 (Proc.devRef .tc main_arg0)) (V0 (Proc.devRef .tc main_arg1)) (V0 (Proc.devRef .tc main_arg3)))
    (h_main_v254 : W (no_index (Proc.devRef .tc main_v254)) = val_main_v254 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v186 : W (no_index (Proc.devRef .tc main_v186)) = val_main_v186 (F := F) (V0 (Proc.devRef .tc main_arg0)) (V0 (Proc.devRef .tc main_arg1)) (V0 (Proc.devRef .tc main_arg2)) (V0 (Proc.devRef .tc main_arg3)))
    : after seg11 W (no_index (Proc.devRef .tc main_v261)) = val_main_v261 (F := F) (V0 (Proc.devRef .tc main_arg0)) (V0 (Proc.devRef .tc main_arg1)) (V0 (Proc.devRef .tc main_arg2)) (V0 (Proc.devRef .tc main_arg3)) := by
  simp only [seg11]
  after_results_simp
  simp only [h_main_v223, h_main_v206, h_main_v254, h_main_arg2, h_main_v186] <;> rfl
set_option maxRecDepth 8192 in
set_option maxHeartbeats 1500000 in
theorem seg11_main_v263 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg11 W (no_index (Proc.devRef .tc main_v263)) = val_main_v263 (F := F) (V0 (Proc.devRef .tc main_arg0)) (V0 (Proc.devRef .tc main_arg1)) (V0 (Proc.devRef .tc main_arg3)) := by
  simp only [seg11]
  after_results_simp
  simp only [h_main_v30] <;> rfl
set_option maxRecDepth 8192 in
set_option maxHeartbeats 1500000 in
theorem seg11_main_v265 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg11 W (no_index (Proc.devRef .tc main_v265)) = val_main_v265 (F := F) (V0 (Proc.devRef .tc main_arg0)) (V0 (Proc.devRef .tc main_arg1)) (V0 (Proc.devRef .tc main_arg3)) := by
  simp only [seg11]
  after_results_simp
  simp only [h_main_v31] <;> rfl
set_option maxRecDepth 8192 in
set_option maxHeartbeats 1500000 in
theorem seg11_main_v266 (W V0 : Valuation τ sig (Elt F))
    : after seg11 W (no_index (Proc.devRef .tc main_v266)) = val_main_v266 (F := F) := by
  simp only [seg11]
  after_results_simp
  all_goals rfl

end Cert.Proof.Ref

end
-- ==== Proof.Ref.Win6.lean ====
/-
   Window main_part6 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 12: @main's operations 406 … 480 of 978. -/
abbrev seg12 : List (HloOp τ sig (Elt F)) :=
  [ binary main_v32 main_v266 main_v267 (addf : (⟨S8x2048, .f32⟩ : BufTy).Contents (Elt F) → (⟨S8x2048, .f32⟩ : BufTy).Contents (Elt F) → (⟨S8x2048, .f32⟩ : BufTy).Contents (Elt F)),
    binary main_v13 main_v263 main_v268 (subf : (⟨S8x2048, .f32⟩ : BufTy).Contents (Elt F) → (⟨S8x2048, .f32⟩ : BufTy).Contents (Elt F) → (⟨S8x2048, .f32⟩ : BufTy).Contents (Elt F)),
    unary main_v268 main_v269 (Host.absf : (⟨S8x2048, .f32⟩ : BufTy).Contents (Elt F) → (⟨S8x2048, .f32⟩ : BufTy).Contents (Elt F)),
    nullary main_cst_91 (constant S_ .f32 0x3F800000#32),
    unary main_cst_91 main_v270 (broadcastInDim S8x2048 ![] bcast_S_S8x2048 : (⟨S_, .f32⟩ : BufTy).Contents (Elt F) → (⟨S8x2048, .f32⟩ : BufTy).Contents (Elt F)),
    binary main_v270 main_v269 main_v271 (subf : (⟨S8x2048, .f32⟩ : BufTy).Contents (Elt F) → (⟨S8x2048, .f32⟩ : BufTy).Contents (Elt F) → (⟨S8x2048, .f32⟩ : BufTy).Contents (Elt F)),
    binary main_v21 main_v265 main_v272 (subf : (⟨S8x2048, .f32⟩ : BufTy).Contents (Elt F) → (⟨S8x2048, .f32⟩ : BufTy).Contents (Elt F) → (⟨S8x2048, .f32⟩ : BufTy).Contents (Elt F)),
    unary main_v272 main_v273 (Host.absf : (⟨S8x2048, .f32⟩ : BufTy).Contents (Elt F) → (⟨S8x2048, .f32⟩ : BufTy).Contents (Elt F)),
    nullary main_cst_92 (constant S_ .f32 0x3F800000#32),
    unary main_cst_92 main_v274 (broadcastInDim S8x2048 ![] bcast_S_S8x2048 : (⟨S_, .f32⟩ : BufTy).Contents (Elt F) → (⟨S8x2048, .f32⟩ : BufTy).Contents (Elt F)),
    binary main_v274 main_v273 main_v275 (subf : (⟨S8x2048, .f32⟩ : BufTy).Contents (Elt F) → (⟨S8x2048, .f32⟩ : BufTy).Contents (Elt F) → (⟨S8x2048, .f32⟩ : BufTy).Contents (Elt F)),
    binary main_v271 main_v275 main_v276 (mulf : (⟨S8x2048, .f32⟩ : BufTy).Contents (Elt F) → (⟨S8x2048, .f32⟩ : BufTy).Contents (Elt F) → (⟨S8x2048, .f32⟩ : BufTy).Contents (Elt F)),
    binary main_v29 main_v267 main_v277 (subf : (⟨S8x2048, .f32⟩ : BufTy).Contents (Elt F) → (⟨S8x2048, .f32⟩ : BufTy).Contents (Elt F) → (⟨S8x2048, .f32⟩ : BufTy).Contents (Elt F)),
    unary main_v277 main_v278 (Host.absf : (⟨S8x2048, .f32⟩ : BufTy).Contents (Elt F) → (⟨S8x2048, .f32⟩ : BufTy).Contents (Elt F)),
    nullary main_cst_93 (constant S_ .f32 0x3F800000#32),
    unary main_cst_93 main_v279 (broadcastInDim S8x2048 ![] bcast_S_S8x2048 : (⟨S_, .f32⟩ : BufTy).Contents (Elt F) → (⟨S8x2048, .f32⟩ : BufTy).Contents (Elt F)),
    binary main_v279 main_v278 main_v280 (subf : (⟨S8x2048, .f32⟩ : BufTy).Contents (Elt F) → (⟨S8x2048, .f32⟩ : BufTy).Contents (Elt F) → (⟨S8x2048, .f32⟩ : BufTy).Contents (Elt F)),
    binary main_v276 main_v280 main_v281 (mulf : (⟨S8x2048, .f32⟩ : BufTy).Contents (Elt F) → (⟨S8x2048, .f32⟩ : BufTy).Contents (Elt F) → (⟨S8x2048, .f32⟩ : BufTy).Contents (Elt F)),
    nullary main_cst_94 (constant S_ .f32 0x00000000#32),
    unary main_cst_94 main_v282 (broadcastInDim S8x2048 ![] bcast_S_S8x2048 : (⟨S_, .f32⟩ : BufTy).Contents (Elt F) → (⟨S8x2048, .f32⟩ : BufTy).Contents (Elt F)),
    binary main_v263 main_v282 main_v283 (cmpf .oge : (⟨S8x2048, .f32⟩ : BufTy).Contents (Elt F) → (⟨S8x2048, .f32⟩ : BufTy).Contents (Elt F) → (⟨S8x2048, .i1⟩ : BufTy).Contents (Elt F)),
    nullary main_cst_95 (constant S_ .f32 0x41F80000#32),
    unary main_cst_95 main_v284 (broadcastInDim S8x2048 ![] bcast_S_S8x2048 : (⟨S_, .f32⟩ : BufTy).Contents (Elt F) → (⟨S8x2048, .f32⟩ : BufTy).Contents (Elt F)),
    binary main_v263 main_v284 main_v285 (cmpf .ole : (⟨S8x2048, .f32⟩ : BufTy).Contents (Elt F) → (⟨S8x2048, .f32⟩ : BufTy).Contents (Elt F) → (⟨S8x2048, .i1⟩ : BufTy).Contents (Elt F)),
    binary main_v283 main_v285 main_v286 (andi : (⟨S8x2048, .i1⟩ : BufTy).Contents (Elt F) → (⟨S8x2048, .i1⟩ : BufTy).Contents (Elt F) → (⟨S8x2048, .i1⟩ : BufTy).Contents (Elt F)),
    nullary main_cst_96 (constant S_ .f32 0x00000000#32),
    unary main_cst_96 main_v287 (broadcastInDim S8x2048 ![] bcast_S_S8x2048 : (⟨S_, .f32⟩ : BufTy).Contents (Elt F) → (⟨S8x2048, .f32⟩ : BufTy).Contents (Elt F)),
    binary main_v265 main_v287 main_v288 (cmpf .oge : (⟨S8x2048, .f32⟩ : BufTy).Contents (Elt F) → (⟨S8x2048, .f32⟩ : BufTy).Contents (Elt F) → (⟨S8x2048, .i1⟩ : BufTy).Contents (Elt F)),
    binary main_v286 main_v288 main_v289 (andi : (⟨S8x2048, .i1⟩ : BufTy).Contents (Elt F) → (⟨S8x2048, .i1⟩ : BufTy).Contents (Elt F) → (⟨S8x2048, .i1⟩ : BufTy).Contents (Elt F)),
    nullary main_cst_97 (constant S_ .f32 0x41F80000#32),
    unary main_cst_97 main_v290 (broadcastInDim S8x2048 ![] bcast_S_S8x2048 : (⟨S_, .f32⟩ : BufTy).Contents (Elt F) → (⟨S8x2048, .f32⟩ : BufTy).Contents (Elt F)),
    binary main_v265 main_v290 main_v291 (cmpf .ole : (⟨S8x2048, .f32⟩ : BufTy).Contents (Elt F) → (⟨S8x2048, .f32⟩ : BufTy).Contents (Elt F) → (⟨S8x2048, .i1⟩ : BufTy).Contents (Elt F)),
    binary main_v289 main_v291 main_v292 (andi : (⟨S8x2048, .i1⟩ : BufTy).Contents (Elt F) → (⟨S8x2048, .i1⟩ : BufTy).Contents (Elt F) → (⟨S8x2048, .i1⟩ : BufTy).Contents (Elt F)),
    nullary main_cst_98 (constant S_ .f32 0x00000000#32),
    unary main_cst_98 main_v293 (broadcastInDim S8x2048 ![] bcast_S_S8x2048 : (⟨S_, .f32⟩ : BufTy).Contents (Elt F) → (⟨S8x2048, .f32⟩ : BufTy).Contents (Elt F)),
    binary main_v267 main_v293 main_v294 (cmpf .oge : (⟨S8x2048, .f32⟩ : BufTy).Contents (Elt F) → (⟨S8x2048, .f32⟩ : BufTy).Contents (Elt F) → (⟨S8x2048, .i1⟩ : BufTy).Contents (Elt F)),
    binary main_v292 main_v294 main_v295 (andi : (⟨S8x2048, .i1⟩ : BufTy).Contents (Elt F) → (⟨S8x2048, .i1⟩ : BufTy).Contents (Elt F) → (⟨S8x2048, .i1⟩ : BufTy).Contents (Elt F)),
    nullary main_cst_99 (constant S_ .f32 0x41F80000#32),
    unary main_cst_99 main_v296 (broadcastInDim S8x2048 ![] bcast_S_S8x2048 : (⟨S_, .f32⟩ : BufTy).Contents (Elt F) → (⟨S8x2048, .f32⟩ : BufTy).Contents (Elt F)),
    binary main_v267 main_v296 main_v297 (cmpf .ole : (⟨S8x2048, .f32⟩ : BufTy).Contents (Elt F) → (⟨S8x2048, .f32⟩ : BufTy).Contents (Elt F) → (⟨S8x2048, .i1⟩ : BufTy).Contents (Elt F)),
    binary main_v295 main_v297 main_v298 (andi : (⟨S8x2048, .i1⟩ : BufTy).Contents (Elt F) → (⟨S8x2048, .i1⟩ : BufTy).Contents (Elt F) → (⟨S8x2048, .i1⟩ : BufTy).Contents (Elt F)),
    nullary main_c_100 (constantI S_ 32 0#32),
    nullary main_c_101 (constantI S_ 32 31#32),
    TRef.unary (TRef.of (T := ⟨S_, .i32⟩) main_c_100) (TRef.of (T := ⟨S_, .f32⟩) main_call9_v0) (sitofp .f32),
    TRef.unary (TRef.of (T := ⟨S_, .f32⟩) main_call9_v0) (TRef.of (T := ⟨S8x2048, .f32⟩) main_call9_v1) (broadcastInDim S8x2048 ![] bcast_S_S8x2048),
    TRef.binary (TRef.of (T := ⟨S8x2048, .f32⟩) main_call9_v1) (TRef.of (T := ⟨S8x2048, .f32⟩) main_v263) (TRef.of (T := ⟨S8x2048, .f32⟩) main_call9_v2) maximumf,
    TRef.unary (TRef.of (T := ⟨S_, .i32⟩) main_c_101) (TRef.of (T := ⟨S_, .f32⟩) main_call9_v3) (sitofp .f32),
    TRef.unary (TRef.of (T := ⟨S_, .f32⟩) main_call9_v3) (TRef.of (T := ⟨S8x2048, .f32⟩) main_call9_v4) (broadcastInDim S8x2048 ![] bcast_S_S8x2048),
    TRef.binary (TRef.of (T := ⟨S8x2048, .f32⟩) main_call9_v4) (TRef.of (T := ⟨S8x2048, .f32⟩) main_call9_v2) (TRef.of (T := ⟨S8x2048, .f32⟩) main_v299) minimumf,
    unary main_v299 main_v300 (fptosi 32 : (⟨S8x2048, .f32⟩ : BufTy).Contents (Elt F) → (⟨S8x2048, .i32⟩ : BufTy).Contents (Elt F)),
    nullary main_c_102 (constantI S_ 32 0#32),
    nullary main_c_103 (constantI S_ 32 31#32),
    TRef.unary (TRef.of (T := ⟨S_, .i32⟩) main_c_102) (TRef.of (T := ⟨S_, .f32⟩) main_call10_v0) (sitofp .f32),
    TRef.unary (TRef.of (T := ⟨S_, .f32⟩) main_call10_v0) (TRef.of (T := ⟨S8x2048, .f32⟩) main_call10_v1) (broadcastInDim S8x2048 ![] bcast_S_S8x2048),
    TRef.binary (TRef.of (T := ⟨S8x2048, .f32⟩) main_call10_v1) (TRef.of (T := ⟨S8x2048, .f32⟩) main_v265) (TRef.of (T := ⟨S8x2048, .f32⟩) main_call10_v2) maximumf,
    TRef.unary (TRef.of (T := ⟨S_, .i32⟩) main_c_103) (TRef.of (T := ⟨S_, .f32⟩) main_call10_v3) (sitofp .f32),
    TRef.unary (TRef.of (T := ⟨S_, .f32⟩) main_call10_v3) (TRef.of (T := ⟨S8x2048, .f32⟩) main_call10_v4) (broadcastInDim S8x2048 ![] bcast_S_S8x2048),
    TRef.binary (TRef.of (T := ⟨S8x2048, .f32⟩) main_call10_v4) (TRef.of (T := ⟨S8x2048, .f32⟩) main_call10_v2) (TRef.of (T := ⟨S8x2048, .f32⟩) main_v301) minimumf,
    unary main_v301 main_v302 (fptosi 32 : (⟨S8x2048, .f32⟩ : BufTy).Contents (Elt F) → (⟨S8x2048, .i32⟩ : BufTy).Contents (Elt F)),
    nullary main_c_104 (constantI S_ 32 0#32),
    nullary main_c_105 (constantI S_ 32 31#32),
    TRef.unary (TRef.of (T := ⟨S_, .i32⟩) main_c_104) (TRef.of (T := ⟨S_, .f32⟩) main_call11_v0) (sitofp .f32),
    TRef.unary (TRef.of (T := ⟨S_, .f32⟩) main_call11_v0) (TRef.of (T := ⟨S8x2048, .f32⟩) main_call11_v1) (broadcastInDim S8x2048 ![] bcast_S_S8x2048),
    TRef.binary (TRef.of (T := ⟨S8x2048, .f32⟩) main_call11_v1) (TRef.of (T := ⟨S8x2048, .f32⟩) main_v267) (TRef.of (T := ⟨S8x2048, .f32⟩) main_call11_v2) maximumf,
    TRef.unary (TRef.of (T := ⟨S_, .i32⟩) main_c_105) (TRef.of (T := ⟨S_, .f32⟩) main_call11_v3) (sitofp .f32),
    TRef.unary (TRef.of (T := ⟨S_, .f32⟩) main_call11_v3) (TRef.of (T := ⟨S8x2048, .f32⟩) main_call11_v4) (broadcastInDim S8x2048 ![] bcast_S_S8x2048),
    TRef.binary (TRef.of (T := ⟨S8x2048, .f32⟩) main_call11_v4) (TRef.of (T := ⟨S8x2048, .f32⟩) main_call11_v2) (TRef.of (T := ⟨S8x2048, .f32⟩) main_v303) minimumf,
    unary main_v303 main_v304 (fptosi 32 : (⟨S8x2048, .f32⟩ : BufTy).Contents (Elt F) → (⟨S8x2048, .i32⟩ : BufTy).Contents (Elt F)),
    nullary main_c_106 (constantI S_ 32 0#32),
    unary main_c_106 main_v305 (broadcastInDim S8x2048 ![] bcast_S_S8x2048 : (⟨S_, .i32⟩ : BufTy).Contents (Elt F) → (⟨S8x2048, .i32⟩ : BufTy).Contents (Elt F)),
    binary main_v35 main_v305 main_v306 (cmpi .slt : (⟨S8x2048, .i32⟩ : BufTy).Contents (Elt F) → (⟨S8x2048, .i32⟩ : BufTy).Contents (Elt F) → (⟨S8x2048, .i1⟩ : BufTy).Contents (Elt F)),
    nullary main_c_107 (constantI S_ 32 8#32),
    unary main_c_107 main_v307 (broadcastInDim S8x2048 ![] bcast_S_S8x2048 : (⟨S_, .i32⟩ : BufTy).Contents (Elt F) → (⟨S8x2048, .i32⟩ : BufTy).Contents (Elt F)),
    binary main_v35 main_v307 main_v308 (addi : (⟨S8x2048, .i32⟩ : BufTy).Contents (Elt F) → (⟨S8x2048, .i32⟩ : BufTy).Contents (Elt F) → (⟨S8x2048, .i32⟩ : BufTy).Contents (Elt F)),
    ternary main_v306 main_v308 main_v35 main_v309 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

set_option maxRecDepth 8192 in
/-- The window is its segments one after the other. -/
theorem ops_part6_segs : (ops_part6 : List (HloOp τ sig (Elt F))) = seg12 := rfl

/-- The buffers that segment 12's operations write. -/
abbrev seg12_W : List (Ref sig .tc) := [main_v267, main_v268, main_v269, main_cst_91, main_v270, main_v271, main_v272, main_v273, main_cst_92, main_v274, main_v275, main_v276, main_v277, main_v278, main_cst_93, main_v279, main_v280, main_v281, main_cst_94, main_v282, main_v283, main_cst_95, main_v284, main_v285, main_v286, main_cst_96, main_v287, main_v288, main_v289, main_cst_97, main_v290, main_v291, main_v292, main_cst_98, main_v293, main_v294, main_v295, main_cst_99, main_v296, main_v297, main_v298, main_c_100, main_c_101, main_call9_v0, main_call9_v1, main_call9_v2, main_call9_v3, main_call9_v4, main_v299, main_v300, main_c_102, main_c_103, main_call10_v0, main_call10_v1, main_call10_v2, main_call10_v3, main_call10_v4, main_v301, main_v302, main_c_104, main_c_105, main_call11_v0, main_call11_v1, main_call11_v2, main_call11_v3, main_call11_v4, main_v303, main_v304, main_c_106, main_v305, main_v306, main_c_107, main_v307, main_v308, main_v309]
set_option maxRecDepth 8192 in
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 12 does not write keeps its contents through it. -/
theorem seg12_keep (W : Valuation τ sig (Elt F)) (r : Ref sig .tc) (h : r ∉ seg12_W) :
    after seg12 W (Proc.devRef .tc r) = W (Proc.devRef .tc r) :=
  after_of_writes_sub seg12 _ seg12_writes h

set_option maxRecDepth 8192 in
set_option maxHeartbeats 2000000 in
theorem seg12_main_v281 (W V0 : Valuation τ sig (Elt F))
    (h_main_v266 : W (no_index (Proc.devRef .tc main_v266)) = val_main_v266 (F := F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v265 : W (no_index (Proc.devRef .tc main_v265)) = val_main_v265 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v263 : W (no_index (Proc.devRef .tc main_v263)) = val_main_v263 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg12 W (no_index (Proc.devRef .tc main_v281)) = val_main_v281 (F := F) (V0 (Proc.devRef .tc main_arg0)) (V0 (Proc.devRef .tc main_arg1)) (V0 (Proc.devRef .tc main_arg3)) := by
  simp only [seg12]
  after_results_simp
  simp only [h_main_v266, h_main_v32, h_main_v29, h_main_v265, h_main_v21, h_main_v263, h_main_v13] <;> rfl
set_option maxRecDepth 8192 in
set_option maxHeartbeats 2000000 in
theorem seg12_main_v298 (W V0 : Valuation τ sig (Elt F))
    (h_main_v266 : W (no_index (Proc.devRef .tc main_v266)) = val_main_v266 (F := F))
    (h_main_v32 : W (no_index (Proc.devRef .tc main_v32)) = val_main_v32 (F := F) (V0 (Proc.devRef .tc main_arg0)) (V0 (Proc.devRef .tc main_arg1)) (V0 (Proc.devRef .tc main_arg3)))
    (h_main_v265 : W (no_index (Proc.devRef .tc main_v265)) = val_main_v265 (F := F) (V0 (Proc.devRef .tc main_arg0)) (V0 (Proc.devRef .tc main_arg1)) (V0 (Proc.devRef .tc main_arg3)))
    (h_main_v263 : W (no_index (Proc.devRef .tc main_v263)) = val_main_v263 (F := F) (V0 (Proc.devRef .tc main_arg0)) (V0 (Proc.devRef .tc main_arg1)) (V0 (Proc.devRef .tc main_arg3)))
    : after seg12 W (no_index (Proc.devRef .tc main_v298)) = val_main_v298 (F := F) (V0 (Proc.devRef .tc main_arg0)) (V0 (Proc.devRef .tc main_arg1)) (V0 (Proc.devRef .tc main_arg3)) := by
  simp only [seg12]
  after_results_simp
  simp only [h_main_v266, h_main_v32, h_main_v265, h_main_v263] <;> rfl
set_option maxRecDepth 8192 in
set_option maxHeartbeats 2000000 in
theorem seg12_main_v300 (W V0 : Valuation τ sig (Elt F))
    (h_main_v263 : W (no_index (Proc.devRef .tc main_v263)) = val_main_v263 (F := F) (V0 (Proc.devRef .tc main_arg0)) (V0 (Proc.devRef .tc main_arg1)) (V0 (Proc.devRef .tc main_arg3)))
    : after seg12 W (no_index (Proc.devRef .tc main_v300)) = val_main_v300 (F := F) (V0 (Proc.devRef .tc main_arg0)) (V0 (Proc.devRef .tc main_arg1)) (V0 (Proc.devRef .tc main_arg3)) := by
  simp only [seg12]
  after_results_simp
  simp only [h_main_v263] <;> rfl
set_option maxRecDepth 8192 in
set_option maxHeartbeats 2000000 in
theorem seg12_main_v302 (W V0 : Valuation τ sig (Elt F))
    (h_main_v265 : W (no_index (Proc.devRef .tc main_v265)) = val_main_v265 (F := F) (V0 (Proc.devRef .tc main_arg0)) (V0 (Proc.devRef .tc main_arg1)) (V0 (Proc.devRef .tc main_arg3)))
    : after seg12 W (no_index (Proc.devRef .tc main_v302)) = val_main_v302 (F := F) (V0 (Proc.devRef .tc main_arg0)) (V0 (Proc.devRef .tc main_arg1)) (V0 (Proc.devRef .tc main_arg3)) := by
  simp only [seg12]
  after_results_simp
  simp only [h_main_v265] <;> rfl
set_option maxRecDepth 8192 in
set_option maxHeartbeats 2000000 in
theorem seg12_main_v304 (W V0 : Valuation τ sig (Elt F))
    (h_main_v266 : W (no_index (Proc.devRef .tc main_v266)) = val_main_v266 (F := F))
    (h_main_v32 : W (no_index (Proc.devRef .tc main_v32)) = val_main_v32 (F := F) (V0 (Proc.devRef .tc main_arg0)) (V0 (Proc.devRef .tc main_arg1)) (V0 (Proc.devRef .tc main_arg3)))
    : after seg12 W (no_index (Proc.devRef .tc main_v304)) = val_main_v304 (F := F) (V0 (Proc.devRef .tc main_arg0)) (V0 (Proc.devRef .tc main_arg1)) (V0 (Proc.devRef .tc main_arg3)) := by
  simp only [seg12]
  after_results_simp
  simp only [h_main_v266, h_main_v32] <;> rfl
set_option maxRecDepth 8192 in
set_option maxHeartbeats 2000000 in
theorem seg12_main_v309 (W V0 : Valuation τ sig (Elt F))
    (h_main_v35 : W (no_index (Proc.devRef .tc main_v35)) = val_main_v35 (F := F))
    : after seg12 W (no_index (Proc.devRef .tc main_v309)) = val_main_v309 (F := F) := by
  simp only [seg12]
  after_results_simp
  simp only [h_main_v35] <;> rfl

end Cert.Proof.Ref

end
-- ==== Proof.Ref.Win7.lean ====
/-
   Window main_part7 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 13: @main's operations 481 … 505 of 978. -/
abbrev seg13 : List (HloOp τ sig (Elt F)) :=
  [ nullary main_c_108 (constantI S_ 32 0#32),
    unary main_c_108 main_v310 (broadcastInDim S8x2048 ![] bcast_S_S8x2048 : (⟨S_, .i32⟩ : BufTy).Contents (Elt F) → (⟨S8x2048, .i32⟩ : BufTy).Contents (Elt F)),
    binary main_v304 main_v310 main_v311 (cmpi .slt : (⟨S8x2048, .i32⟩ : BufTy).Contents (Elt F) → (⟨S8x2048, .i32⟩ : BufTy).Contents (Elt F) → (⟨S8x2048, .i1⟩ : BufTy).Contents (Elt F)),
    nullary main_c_109 (constantI S_ 32 32#32),
    unary main_c_109 main_v312 (broadcastInDim S8x2048 ![] bcast_S_S8x2048 : (⟨S_, .i32⟩ : BufTy).Contents (Elt F) → (⟨S8x2048, .i32⟩ : BufTy).Contents (Elt F)),
    binary main_v304 main_v312 main_v313 (addi : (⟨S8x2048, .i32⟩ : BufTy).Contents (Elt F) → (⟨S8x2048, .i32⟩ : BufTy).Contents (Elt F) → (⟨S8x2048, .i32⟩ : BufTy).Contents (Elt F)),
    ternary main_v311 main_v313 main_v304 main_v314 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_110 (constantI S_ 32 0#32),
    unary main_c_110 main_v315 (broadcastInDim S8x2048 ![] bcast_S_S8x2048 : (⟨S_, .i32⟩ : BufTy).Contents (Elt F) → (⟨S8x2048, .i32⟩ : BufTy).Contents (Elt F)),
    binary main_v302 main_v315 main_v316 (cmpi .slt : (⟨S8x2048, .i32⟩ : BufTy).Contents (Elt F) → (⟨S8x2048, .i32⟩ : BufTy).Contents (Elt F) → (⟨S8x2048, .i1⟩ : BufTy).Contents (Elt F)),
    nullary main_c_111 (constantI S_ 32 32#32),
    unary main_c_111 main_v317 (broadcastInDim S8x2048 ![] bcast_S_S8x2048 : (⟨S_, .i32⟩ : BufTy).Contents (Elt F) → (⟨S8x2048, .i32⟩ : BufTy).Contents (Elt F)),
    binary main_v302 main_v317 main_v318 (addi : (⟨S8x2048, .i32⟩ : BufTy).Contents (Elt F) → (⟨S8x2048, .i32⟩ : BufTy).Contents (Elt F) → (⟨S8x2048, .i32⟩ : BufTy).Contents (Elt F)),
    ternary main_v316 main_v318 main_v302 main_v319 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_112 (constantI S_ 32 0#32),
    unary main_c_112 main_v320 (broadcastInDim S8x2048 ![] bcast_S_S8x2048 : (⟨S_, .i32⟩ : BufTy).Contents (Elt F) → (⟨S8x2048, .i32⟩ : BufTy).Contents (Elt F)),
    binary main_v300 main_v320 main_v321 (cmpi .slt : (⟨S8x2048, .i32⟩ : BufTy).Contents (Elt F) → (⟨S8x2048, .i32⟩ : BufTy).Contents (Elt F) → (⟨S8x2048, .i1⟩ : BufTy).Contents (Elt F)),
    nullary main_c_113 (constantI S_ 32 32#32),
    unary main_c_113 main_v322 (broadcastInDim S8x2048 ![] bcast_S_S8x2048 : (⟨S_, .i32⟩ : BufTy).Contents (Elt F) → (⟨S8x2048, .i32⟩ : BufTy).Contents (Elt F)),
    binary main_v300 main_v322 main_v323 (addi : (⟨S8x2048, .i32⟩ : BufTy).Contents (Elt F) → (⟨S8x2048, .i32⟩ : BufTy).Contents (Elt F) → (⟨S8x2048, .i32⟩ : BufTy).Contents (Elt F)),
    ternary main_v321 main_v323 main_v300 main_v324 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v309 main_v325 (broadcastInDim S8x2048x1 ![0, 1] bcast_S8x2048_S8x2048x1_0_1 : (⟨S8x2048, .i32⟩ : BufTy).Contents (Elt F) → (⟨S8x2048x1, .i32⟩ : BufTy).Contents (Elt F)),
    unary main_v314 main_v326 (broadcastInDim S8x2048x1 ![0, 1] bcast_S8x2048_S8x2048x1_0_1 : (⟨S8x2048, .i32⟩ : BufTy).Contents (Elt F) → (⟨S8x2048x1, .i32⟩ : BufTy).Contents (Elt F)),
    unary main_v319 main_v327 (broadcastInDim S8x2048x1 ![0, 1] bcast_S8x2048_S8x2048x1_0_1 : (⟨S8x2048, .i32⟩ : BufTy).Contents (Elt F) → (⟨S8x2048x1, .i32⟩ : BufTy).Contents (Elt F)),
    unary main_v324 main_v328 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 14: @main's operations 506 … 506 of 978. -/
abbrev seg14 : List (HloOp τ sig (Elt F)) :=
  [ nary ![main_v325, main_v326, main_v327, main_v328] main_v329 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 15: @main's operations 507 … 540 of 978. -/
abbrev seg15 : List (HloOp τ sig (Elt F)) :=
  [ binary main_arg2 main_v329 main_v330 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v298 main_v331 (uitofp .f32 : (⟨S8x2048, .i1⟩ : BufTy).Contents (Elt F) → (⟨S8x2048, .f32⟩ : BufTy).Contents (Elt F)),
    binary main_v281 main_v331 main_v332 (mulf : (⟨S8x2048, .f32⟩ : BufTy).Contents (Elt F) → (⟨S8x2048, .f32⟩ : BufTy).Contents (Elt F) → (⟨S8x2048, .f32⟩ : BufTy).Contents (Elt F)),
    unary main_v332 main_v333 (broadcastInDim S8x2048x1 ![0, 1] bcast_S8x2048_S8x2048x1_0_1 : (⟨S8x2048, .f32⟩ : BufTy).Contents (Elt F) → (⟨S8x2048x1, .f32⟩ : BufTy).Contents (Elt F)),
    unary main_v333 main_v334 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v330 main_v334 main_v335 (mulf : (⟨S8x2048x128, .f32⟩ : BufTy).Contents (Elt F) → (⟨S8x2048x128, .f32⟩ : BufTy).Contents (Elt F) → (⟨S8x2048x128, .f32⟩ : BufTy).Contents (Elt F)),
    binary main_v261 main_v335 main_v336 (addf : (⟨S8x2048x128, .f32⟩ : BufTy).Contents (Elt F) → (⟨S8x2048x128, .f32⟩ : BufTy).Contents (Elt F) → (⟨S8x2048x128, .f32⟩ : BufTy).Contents (Elt F)),
    nullary main_cst_114 (constant S_ .f32 0x00000000#32),
    unary main_cst_114 main_v337 (broadcastInDim S8x2048 ![] bcast_S_S8x2048 : (⟨S_, .f32⟩ : BufTy).Contents (Elt F) → (⟨S8x2048, .f32⟩ : BufTy).Contents (Elt F)),
    binary main_v30 main_v337 main_v338 (addf : (⟨S8x2048, .f32⟩ : BufTy).Contents (Elt F) → (⟨S8x2048, .f32⟩ : BufTy).Contents (Elt F) → (⟨S8x2048, .f32⟩ : BufTy).Contents (Elt F)),
    nullary main_cst_115 (constant S_ .f32 0x00000000#32),
    unary main_cst_115 main_v339 (broadcastInDim S8x2048 ![] bcast_S_S8x2048 : (⟨S_, .f32⟩ : BufTy).Contents (Elt F) → (⟨S8x2048, .f32⟩ : BufTy).Contents (Elt F)),
    binary main_v31 main_v339 main_v340 (addf : (⟨S8x2048, .f32⟩ : BufTy).Contents (Elt F) → (⟨S8x2048, .f32⟩ : BufTy).Contents (Elt F) → (⟨S8x2048, .f32⟩ : BufTy).Contents (Elt F)),
    nullary main_cst_116 (constant S_ .f32 0x3F800000#32),
    unary main_cst_116 main_v341 (broadcastInDim S8x2048 ![] bcast_S_S8x2048 : (⟨S_, .f32⟩ : BufTy).Contents (Elt F) → (⟨S8x2048, .f32⟩ : BufTy).Contents (Elt F)),
    binary main_v32 main_v341 main_v342 (addf : (⟨S8x2048, .f32⟩ : BufTy).Contents (Elt F) → (⟨S8x2048, .f32⟩ : BufTy).Contents (Elt F) → (⟨S8x2048, .f32⟩ : BufTy).Contents (Elt F)),
    binary main_v13 main_v338 main_v343 (subf : (⟨S8x2048, .f32⟩ : BufTy).Contents (Elt F) → (⟨S8x2048, .f32⟩ : BufTy).Contents (Elt F) → (⟨S8x2048, .f32⟩ : BufTy).Contents (Elt F)),
    unary main_v343 main_v344 (Host.absf : (⟨S8x2048, .f32⟩ : BufTy).Contents (Elt F) → (⟨S8x2048, .f32⟩ : BufTy).Contents (Elt F)),
    nullary main_cst_117 (constant S_ .f32 0x3F800000#32),
    unary main_cst_117 main_v345 (broadcastInDim S8x2048 ![] bcast_S_S8x2048 : (⟨S_, .f32⟩ : BufTy).Contents (Elt F) → (⟨S8x2048, .f32⟩ : BufTy).Contents (Elt F)),
    binary main_v345 main_v344 main_v346 (subf : (⟨S8x2048, .f32⟩ : BufTy).Contents (Elt F) → (⟨S8x2048, .f32⟩ : BufTy).Contents (Elt F) → (⟨S8x2048, .f32⟩ : BufTy).Contents (Elt F)),
    binary main_v21 main_v340 main_v347 (subf : (⟨S8x2048, .f32⟩ : BufTy).Contents (Elt F) → (⟨S8x2048, .f32⟩ : BufTy).Contents (Elt F) → (⟨S8x2048, .f32⟩ : BufTy).Contents (Elt F)),
    unary main_v347 main_v348 (Host.absf : (⟨S8x2048, .f32⟩ : BufTy).Contents (Elt F) → (⟨S8x2048, .f32⟩ : BufTy).Contents (Elt F)),
    nullary main_cst_118 (constant S_ .f32 0x3F800000#32),
    unary main_cst_118 main_v349 (broadcastInDim S8x2048 ![] bcast_S_S8x2048 : (⟨S_, .f32⟩ : BufTy).Contents (Elt F) → (⟨S8x2048, .f32⟩ : BufTy).Contents (Elt F)),
    binary main_v349 main_v348 main_v350 (subf : (⟨S8x2048, .f32⟩ : BufTy).Contents (Elt F) → (⟨S8x2048, .f32⟩ : BufTy).Contents (Elt F) → (⟨S8x2048, .f32⟩ : BufTy).Contents (Elt F)),
    binary main_v346 main_v350 main_v351 (mulf : (⟨S8x2048, .f32⟩ : BufTy).Contents (Elt F) → (⟨S8x2048, .f32⟩ : BufTy).Contents (Elt F) → (⟨S8x2048, .f32⟩ : BufTy).Contents (Elt F)),
    binary main_v29 main_v342 main_v352 (subf : (⟨S8x2048, .f32⟩ : BufTy).Contents (Elt F) → (⟨S8x2048, .f32⟩ : BufTy).Contents (Elt F) → (⟨S8x2048, .f32⟩ : BufTy).Contents (Elt F)),
    unary main_v352 main_v353 (Host.absf : (⟨S8x2048, .f32⟩ : BufTy).Contents (Elt F) → (⟨S8x2048, .f32⟩ : BufTy).Contents (Elt F)),
    nullary main_cst_119 (constant S_ .f32 0x3F800000#32),
    unary main_cst_119 main_v354 (broadcastInDim S8x2048 ![] bcast_S_S8x2048 : (⟨S_, .f32⟩ : BufTy).Contents (Elt F) → (⟨S8x2048, .f32⟩ : BufTy).Contents (Elt F)),
    binary main_v354 main_v353 main_v355 (subf : (⟨S8x2048, .f32⟩ : BufTy).Contents (Elt F) → (⟨S8x2048, .f32⟩ : BufTy).Contents (Elt F) → (⟨S8x2048, .f32⟩ : BufTy).Contents (Elt F)),
    binary main_v351 main_v355 main_v356 (mulf : (⟨S8x2048, .f32⟩ : BufTy).Contents (Elt F) → (⟨S8x2048, .f32⟩ : BufTy).Contents (Elt F) → (⟨S8x2048, .f32⟩ : BufTy).Contents (Elt F)),
    nullary main_cst_120 (constant S_ .f32 0x00000000#32) ]

set_option maxRecDepth 8192 in
/-- The window is its segments one after the other. -/
theorem ops_part7_segs : (ops_part7 : List (HloOp τ sig (Elt F))) = seg13 ++ (seg14 ++ (seg15)) := rfl

/-- The buffers that segment 13's operations write. -/
abbrev seg13_W : List (Ref sig .tc) := [main_c_108, main_v310, main_v311, main_c_109, main_v312, main_v313, main_v314, main_c_110, main_v315, main_v316, main_c_111, main_v317, main_v318, main_v319, main_c_112, main_v320, main_v321, main_c_113, main_v322, main_v323, main_v324, main_v325, main_v326, main_v327, main_v328]
set_option maxRecDepth 8192 in
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 13 does not write keeps its contents through it. -/
theorem seg13_keep (W : Valuation τ sig (Elt F)) (r : Ref sig .tc) (h : r ∉ seg13_W) :
    after seg13 W (Proc.devRef .tc r) = W (Proc.devRef .tc r) :=
  after_of_writes_sub seg13 _ seg13_writes h

set_option maxRecDepth 8192 in
set_option maxHeartbeats 2000000 in
theorem seg13_main_v325 (W V0 : Valuation τ sig (Elt F))
    (h_main_v309 : W (no_index (Proc.devRef .tc main_v309)) = val_main_v309 (F := F))
    : after seg13 W (no_index (Proc.devRef .tc main_v325)) = val_main_v325 (F := F) := by
  simp only [seg13]
  after_results_simp
  simp only [h_main_v309] <;> rfl
set_option maxRecDepth 8192 in
set_option maxHeartbeats 2000000 in
theorem seg13_main_v326 (W V0 : Valuation τ sig (Elt F))
    (h_main_v304 : W (no_index (Proc.devRef .tc main_v304)) = val_main_v304 (F := F) (V0 (Proc.devRef .tc main_arg0)) (V0 (Proc.devRef .tc main_arg1)) (V0 (Proc.devRef .tc main_arg3)))
    : after seg13 W (no_index (Proc.devRef .tc main_v326)) = val_main_v326 (F := F) (V0 (Proc.devRef .tc main_arg0)) (V0 (Proc.devRef .tc main_arg1)) (V0 (Proc.devRef .tc main_arg3)) := by
  simp only [seg13]
  after_results_simp
  simp only [h_main_v304] <;> rfl
set_option maxRecDepth 8192 in
set_option maxHeartbeats 2000000 in
theorem seg13_main_v327 (W V0 : Valuation τ sig (Elt F))
    (h_main_v302 : W (no_index (Proc.devRef .tc main_v302)) = val_main_v302 (F := F) (V0 (Proc.devRef .tc main_arg0)) (V0 (Proc.devRef .tc main_arg1)) (V0 (Proc.devRef .tc main_arg3)))
    : after seg13 W (no_index (Proc.devRef .tc main_v327)) = val_main_v327 (F := F) (V0 (Proc.devRef .tc main_arg0)) (V0 (Proc.devRef .tc main_arg1)) (V0 (Proc.devRef .tc main_arg3)) := by
  simp only [seg13]
  after_results_simp
  simp only [h_main_v302] <;> rfl
set_option maxRecDepth 8192 in
set_option maxHeartbeats 2000000 in
theorem seg13_main_v328 (W V0 : Valuation τ sig (Elt F))
    (h_main_v300 : W (no_index (Proc.devRef .tc main_v300)) = val_main_v300 (F := F) (V0 (Proc.devRef .tc main_arg0)) (V0 (Proc.devRef .tc main_arg1)) (V0 (Proc.devRef .tc main_arg3)))
    : after seg13 W (no_index (Proc.devRef .tc main_v328)) = val_main_v328 (F := F) (V0 (Proc.devRef .tc main_arg0)) (V0 (Proc.devRef .tc main_arg1)) (V0 (Proc.devRef .tc main_arg3)) := by
  simp only [seg13]
  after_results_simp
  simp only [h_main_v300] <;> rfl

/-- The buffers that segment 14's operations write. -/
abbrev seg14_W : List (Ref sig .tc) := [main_v329]
set_option maxRecDepth 8192 in
theorem seg14_writes : (seg14 : List (HloOp τ sig (Elt F))).Forall fun op => op.writes ⊆ (seg14_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 14 does not write keeps its contents through it. -/
theorem seg14_keep (W : Valuation τ sig (Elt F)) (r : Ref sig .tc) (h : r ∉ seg14_W) :
    after seg14 W (Proc.devRef .tc r) = W (Proc.devRef .tc r) :=
  after_of_writes_sub seg14 _ seg14_writes h

/-- The concatenation `main_v329`, given its operands' contents. -/
theorem cat_main_v329 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v325)) = v0) (h1 : G (no_index (Proc.devRef .tc main_v326)) = v1) (h2 : G (no_index (Proc.devRef .tc main_v327)) = v2) (h3 : G (no_index (Proc.devRef .tc main_v328)) = v3) :
    (nary ![main_v325, main_v326, main_v327, main_v328] main_v329 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v329))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg14_main_v329 (W V0 : Valuation τ sig (Elt F))
    (h_main_v328 : W (no_index (Proc.devRef .tc main_v328)) = val_main_v328 (F := F) (V0 (Proc.devRef .tc main_arg0)) (V0 (Proc.devRef .tc main_arg1)) (V0 (Proc.devRef .tc main_arg3)))
    (h_main_v327 : W (no_index (Proc.devRef .tc main_v327)) = val_main_v327 (F := F) (V0 (Proc.devRef .tc main_arg0)) (V0 (Proc.devRef .tc main_arg1)) (V0 (Proc.devRef .tc main_arg3)))
    (h_main_v326 : W (no_index (Proc.devRef .tc main_v326)) = val_main_v326 (F := F) (V0 (Proc.devRef .tc main_arg0)) (V0 (Proc.devRef .tc main_arg1)) (V0 (Proc.devRef .tc main_arg3)))
    (h_main_v325 : W (no_index (Proc.devRef .tc main_v325)) = val_main_v325 (F := F))
    : after seg14 W (no_index (Proc.devRef .tc main_v329)) = val_main_v329 (F := F) (V0 (Proc.devRef .tc main_arg0)) (V0 (Proc.devRef .tc main_arg1)) (V0 (Proc.devRef .tc main_arg3)) :=
  cat_main_v329 W _ _ _ _ h_main_v325 h_main_v326 h_main_v327 h_main_v328

/-- The buffers that segment 15's operations write. -/
abbrev seg15_W : List (Ref sig .tc) := [main_v330, main_v331, main_v332, main_v333, main_v334, main_v335, main_v336, main_cst_114, main_v337, main_v338, main_cst_115, main_v339, main_v340, main_cst_116, main_v341, main_v342, main_v343, main_v344, main_cst_117, main_v345, main_v346, main_v347, main_v348, main_cst_118, main_v349, main_v350, main_v351, main_v352, main_v353, main_cst_119, main_v354, main_v355, main_v356, main_cst_120]
set_option maxRecDepth 8192 in
theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 15 does not write keeps its contents through it. -/
theorem seg15_keep (W : Valuation τ sig (Elt F)) (r : Ref sig .tc) (h : r ∉ seg15_W) :
    after seg15 W (Proc.devRef .tc r) = W (Proc.devRef .tc r) :=
  after_of_writes_sub seg15 _ seg15_writes h

set_option maxRecDepth 8192 in
set_option maxHeartbeats 2000000 in
theorem seg15_main_v336 (W V0 : Valuation τ sig (Elt F))
    (h_main_v298 : W (no_index (Proc.devRef .tc main_v298)) = val_main_v298 (F := F) (V0 (Proc.devRef .tc main_arg0)) (V0 (Proc.devRef .tc main_arg1)) (V0 (Proc.devRef .tc main_arg3)))
    (h_main_v281 : W (no_index (Proc.devRef .tc main_v281)) = val_main_v281 (F := F) (V0 (Proc.devRef .tc main_arg0)) (V0 (Proc.devRef .tc main_arg1)) (V0 (Proc.devRef .tc main_arg3)))
    (h_main_v329 : W (no_index (Proc.devRef .tc main_v329)) = val_main_v329 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v261 : W (no_index (Proc.devRef .tc main_v261)) = val_main_v261 (F := F) (V0 (Proc.devRef .tc main_arg0)) (V0 (Proc.devRef .tc main_arg1)) (V0 (Proc.devRef .tc main_arg2)) (V0 (Proc.devRef .tc main_arg3)))
    : after seg15 W (no_index (Proc.devRef .tc main_v336)) = val_main_v336 (F := F) (V0 (Proc.devRef .tc main_arg0)) (V0 (Proc.devRef .tc main_arg1)) (V0 (Proc.devRef .tc main_arg2)) (V0 (Proc.devRef .tc main_arg3)) := by
  simp only [seg15]
  after_results_simp
  simp only [h_main_v298, h_main_v281, h_main_v329, h_main_arg2, h_main_v261] <;> rfl
set_option maxRecDepth 8192 in
set_option maxHeartbeats 2000000 in
theorem seg15_main_v338 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg15 W (no_index (Proc.devRef .tc main_v338)) = val_main_v338 (F := F) (V0 (Proc.devRef .tc main_arg0)) (V0 (Proc.devRef .tc main_arg1)) (V0 (Proc.devRef .tc main_arg3)) := by
  simp only [seg15]
  after_results_simp
  simp only [h_main_v30] <;> rfl
set_option maxRecDepth 8192 in
set_option maxHeartbeats 2000000 in
theorem seg15_main_v340 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg15 W (no_index (Proc.devRef .tc main_v340)) = val_main_v340 (F := F) (V0 (Proc.devRef .tc main_arg0)) (V0 (Proc.devRef .tc main_arg1)) (V0 (Proc.devRef .tc main_arg3)) := by
  simp only [seg15]
  after_results_simp
  simp only [h_main_v31] <;> rfl
set_option maxRecDepth 8192 in
set_option maxHeartbeats 2000000 in
theorem seg15_main_v342 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg15 W (no_index (Proc.devRef .tc main_v342)) = val_main_v342 (F := F) (V0 (Proc.devRef .tc main_arg0)) (V0 (Proc.devRef .tc main_arg1)) (V0 (Proc.devRef .tc main_arg3)) := by
  simp only [seg15]
  after_results_simp
  simp only [h_main_v32] <;> rfl
set_option maxRecDepth 8192 in
set_option maxHeartbeats 2000000 in
theorem seg15_main_v356 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg15 W (no_index (Proc.devRef .tc main_v356)) = val_main_v356 (F := F) (V0 (Proc.devRef .tc main_arg0)) (V0 (Proc.devRef .tc main_arg1)) (V0 (Proc.devRef .tc main_arg3)) := by
  simp only [seg15]
  after_results_simp
  simp only [h_main_v32, h_main_v29, h_main_v31, h_main_v21, h_main_v30, h_main_v13] <;> rfl
set_option maxRecDepth 8192 in
set_option maxHeartbeats 2000000 in
theorem seg15_main_cst_120 (W V0 : Valuation τ sig (Elt F))
    : after seg15 W (no_index (Proc.devRef .tc main_cst_120)) = val_main_cst_120 (F := F) := by
  simp only [seg15]
  after_results_simp
  all_goals rfl

end Cert.Proof.Ref

end
-- ==== Proof.Ref.Win8.lean ====
/-
   Window main_part8 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 16: @main's operations 541 … 615 of 978. -/
abbrev seg16 : List (HloOp τ sig (Elt F)) :=
  [ unary main_cst_120 main_v357 (broadcastInDim S8x2048 ![] bcast_S_S8x2048 : (⟨S_, .f32⟩ : BufTy).Contents (Elt F) → (⟨S8x2048, .f32⟩ : BufTy).Contents (Elt F)),
    binary main_v338 main_v357 main_v358 (cmpf .oge : (⟨S8x2048, .f32⟩ : BufTy).Contents (Elt F) → (⟨S8x2048, .f32⟩ : BufTy).Contents (Elt F) → (⟨S8x2048, .i1⟩ : BufTy).Contents (Elt F)),
    nullary main_cst_121 (constant S_ .f32 0x41F80000#32),
    unary main_cst_121 main_v359 (broadcastInDim S8x2048 ![] bcast_S_S8x2048 : (⟨S_, .f32⟩ : BufTy).Contents (Elt F) → (⟨S8x2048, .f32⟩ : BufTy).Contents (Elt F)),
    binary main_v338 main_v359 main_v360 (cmpf .ole : (⟨S8x2048, .f32⟩ : BufTy).Contents (Elt F) → (⟨S8x2048, .f32⟩ : BufTy).Contents (Elt F) → (⟨S8x2048, .i1⟩ : BufTy).Contents (Elt F)),
    binary main_v358 main_v360 main_v361 (andi : (⟨S8x2048, .i1⟩ : BufTy).Contents (Elt F) → (⟨S8x2048, .i1⟩ : BufTy).Contents (Elt F) → (⟨S8x2048, .i1⟩ : BufTy).Contents (Elt F)),
    nullary main_cst_122 (constant S_ .f32 0x00000000#32),
    unary main_cst_122 main_v362 (broadcastInDim S8x2048 ![] bcast_S_S8x2048 : (⟨S_, .f32⟩ : BufTy).Contents (Elt F) → (⟨S8x2048, .f32⟩ : BufTy).Contents (Elt F)),
    binary main_v340 main_v362 main_v363 (cmpf .oge : (⟨S8x2048, .f32⟩ : BufTy).Contents (Elt F) → (⟨S8x2048, .f32⟩ : BufTy).Contents (Elt F) → (⟨S8x2048, .i1⟩ : BufTy).Contents (Elt F)),
    binary main_v361 main_v363 main_v364 (andi : (⟨S8x2048, .i1⟩ : BufTy).Contents (Elt F) → (⟨S8x2048, .i1⟩ : BufTy).Contents (Elt F) → (⟨S8x2048, .i1⟩ : BufTy).Contents (Elt F)),
    nullary main_cst_123 (constant S_ .f32 0x41F80000#32),
    unary main_cst_123 main_v365 (broadcastInDim S8x2048 ![] bcast_S_S8x2048 : (⟨S_, .f32⟩ : BufTy).Contents (Elt F) → (⟨S8x2048, .f32⟩ : BufTy).Contents (Elt F)),
    binary main_v340 main_v365 main_v366 (cmpf .ole : (⟨S8x2048, .f32⟩ : BufTy).Contents (Elt F) → (⟨S8x2048, .f32⟩ : BufTy).Contents (Elt F) → (⟨S8x2048, .i1⟩ : BufTy).Contents (Elt F)),
    binary main_v364 main_v366 main_v367 (andi : (⟨S8x2048, .i1⟩ : BufTy).Contents (Elt F) → (⟨S8x2048, .i1⟩ : BufTy).Contents (Elt F) → (⟨S8x2048, .i1⟩ : BufTy).Contents (Elt F)),
    nullary main_cst_124 (constant S_ .f32 0x00000000#32),
    unary main_cst_124 main_v368 (broadcastInDim S8x2048 ![] bcast_S_S8x2048 : (⟨S_, .f32⟩ : BufTy).Contents (Elt F) → (⟨S8x2048, .f32⟩ : BufTy).Contents (Elt F)),
    binary main_v342 main_v368 main_v369 (cmpf .oge : (⟨S8x2048, .f32⟩ : BufTy).Contents (Elt F) → (⟨S8x2048, .f32⟩ : BufTy).Contents (Elt F) → (⟨S8x2048, .i1⟩ : BufTy).Contents (Elt F)),
    binary main_v367 main_v369 main_v370 (andi : (⟨S8x2048, .i1⟩ : BufTy).Contents (Elt F) → (⟨S8x2048, .i1⟩ : BufTy).Contents (Elt F) → (⟨S8x2048, .i1⟩ : BufTy).Contents (Elt F)),
    nullary main_cst_125 (constant S_ .f32 0x41F80000#32),
    unary main_cst_125 main_v371 (broadcastInDim S8x2048 ![] bcast_S_S8x2048 : (⟨S_, .f32⟩ : BufTy).Contents (Elt F) → (⟨S8x2048, .f32⟩ : BufTy).Contents (Elt F)),
    binary main_v342 main_v371 main_v372 (cmpf .ole : (⟨S8x2048, .f32⟩ : BufTy).Contents (Elt F) → (⟨S8x2048, .f32⟩ : BufTy).Contents (Elt F) → (⟨S8x2048, .i1⟩ : BufTy).Contents (Elt F)),
    binary main_v370 main_v372 main_v373 (andi : (⟨S8x2048, .i1⟩ : BufTy).Contents (Elt F) → (⟨S8x2048, .i1⟩ : BufTy).Contents (Elt F) → (⟨S8x2048, .i1⟩ : BufTy).Contents (Elt F)),
    nullary main_c_126 (constantI S_ 32 0#32),
    nullary main_c_127 (constantI S_ 32 31#32),
    TRef.unary (TRef.of (T := ⟨S_, .i32⟩) main_c_126) (TRef.of (T := ⟨S_, .f32⟩) main_call12_v0) (sitofp .f32),
    TRef.unary (TRef.of (T := ⟨S_, .f32⟩) main_call12_v0) (TRef.of (T := ⟨S8x2048, .f32⟩) main_call12_v1) (broadcastInDim S8x2048 ![] bcast_S_S8x2048),
    TRef.binary (TRef.of (T := ⟨S8x2048, .f32⟩) main_call12_v1) (TRef.of (T := ⟨S8x2048, .f32⟩) main_v338) (TRef.of (T := ⟨S8x2048, .f32⟩) main_call12_v2) maximumf,
    TRef.unary (TRef.of (T := ⟨S_, .i32⟩) main_c_127) (TRef.of (T := ⟨S_, .f32⟩) main_call12_v3) (sitofp .f32),
    TRef.unary (TRef.of (T := ⟨S_, .f32⟩) main_call12_v3) (TRef.of (T := ⟨S8x2048, .f32⟩) main_call12_v4) (broadcastInDim S8x2048 ![] bcast_S_S8x2048),
    TRef.binary (TRef.of (T := ⟨S8x2048, .f32⟩) main_call12_v4) (TRef.of (T := ⟨S8x2048, .f32⟩) main_call12_v2) (TRef.of (T := ⟨S8x2048, .f32⟩) main_v374) minimumf,
    unary main_v374 main_v375 (fptosi 32 : (⟨S8x2048, .f32⟩ : BufTy).Contents (Elt F) → (⟨S8x2048, .i32⟩ : BufTy).Contents (Elt F)),
    nullary main_c_128 (constantI S_ 32 0#32),
    nullary main_c_129 (constantI S_ 32 31#32),
    TRef.unary (TRef.of (T := ⟨S_, .i32⟩) main_c_128) (TRef.of (T := ⟨S_, .f32⟩) main_call13_v0) (sitofp .f32),
    TRef.unary (TRef.of (T := ⟨S_, .f32⟩) main_call13_v0) (TRef.of (T := ⟨S8x2048, .f32⟩) main_call13_v1) (broadcastInDim S8x2048 ![] bcast_S_S8x2048),
    TRef.binary (TRef.of (T := ⟨S8x2048, .f32⟩) main_call13_v1) (TRef.of (T := ⟨S8x2048, .f32⟩) main_v340) (TRef.of (T := ⟨S8x2048, .f32⟩) main_call13_v2) maximumf,
    TRef.unary (TRef.of (T := ⟨S_, .i32⟩) main_c_129) (TRef.of (T := ⟨S_, .f32⟩) main_call13_v3) (sitofp .f32),
    TRef.unary (TRef.of (T := ⟨S_, .f32⟩) main_call13_v3) (TRef.of (T := ⟨S8x2048, .f32⟩) main_call13_v4) (broadcastInDim S8x2048 ![] bcast_S_S8x2048),
    TRef.binary (TRef.of (T := ⟨S8x2048, .f32⟩) main_call13_v4) (TRef.of (T := ⟨S8x2048, .f32⟩) main_call13_v2) (TRef.of (T := ⟨S8x2048, .f32⟩) main_v376) minimumf,
    unary main_v376 main_v377 (fptosi 32 : (⟨S8x2048, .f32⟩ : BufTy).Contents (Elt F) → (⟨S8x2048, .i32⟩ : BufTy).Contents (Elt F)),
    nullary main_c_130 (constantI S_ 32 0#32),
    nullary main_c_131 (constantI S_ 32 31#32),
    TRef.unary (TRef.of (T := ⟨S_, .i32⟩) main_c_130) (TRef.of (T := ⟨S_, .f32⟩) main_call14_v0) (sitofp .f32),
    TRef.unary (TRef.of (T := ⟨S_, .f32⟩) main_call14_v0) (TRef.of (T := ⟨S8x2048, .f32⟩) main_call14_v1) (broadcastInDim S8x2048 ![] bcast_S_S8x2048),
    TRef.binary (TRef.of (T := ⟨S8x2048, .f32⟩) main_call14_v1) (TRef.of (T := ⟨S8x2048, .f32⟩) main_v342) (TRef.of (T := ⟨S8x2048, .f32⟩) main_call14_v2) maximumf,
    TRef.unary (TRef.of (T := ⟨S_, .i32⟩) main_c_131) (TRef.of (T := ⟨S_, .f32⟩) main_call14_v3) (sitofp .f32),
    TRef.unary (TRef.of (T := ⟨S_, .f32⟩) main_call14_v3) (TRef.of (T := ⟨S8x2048, .f32⟩) main_call14_v4) (broadcastInDim S8x2048 ![] bcast_S_S8x2048),
    TRef.binary (TRef.of (T := ⟨S8x2048, .f32⟩) main_call14_v4) (TRef.of (T := ⟨S8x2048, .f32⟩) main_call14_v2) (TRef.of (T := ⟨S8x2048, .f32⟩) main_v378) minimumf,
    unary main_v378 main_v379 (fptosi 32 : (⟨S8x2048, .f32⟩ : BufTy).Contents (Elt F) → (⟨S8x2048, .i32⟩ : BufTy).Contents (Elt F)),
    nullary main_c_132 (constantI S_ 32 0#32),
    unary main_c_132 main_v380 (broadcastInDim S8x2048 ![] bcast_S_S8x2048 : (⟨S_, .i32⟩ : BufTy).Contents (Elt F) → (⟨S8x2048, .i32⟩ : BufTy).Contents (Elt F)),
    binary main_v35 main_v380 main_v381 (cmpi .slt : (⟨S8x2048, .i32⟩ : BufTy).Contents (Elt F) → (⟨S8x2048, .i32⟩ : BufTy).Contents (Elt F) → (⟨S8x2048, .i1⟩ : BufTy).Contents (Elt F)),
    nullary main_c_133 (constantI S_ 32 8#32),
    unary main_c_133 main_v382 (broadcastInDim S8x2048 ![] bcast_S_S8x2048 : (⟨S_, .i32⟩ : BufTy).Contents (Elt F) → (⟨S8x2048, .i32⟩ : BufTy).Contents (Elt F)),
    binary main_v35 main_v382 main_v383 (addi : (⟨S8x2048, .i32⟩ : BufTy).Contents (Elt F) → (⟨S8x2048, .i32⟩ : BufTy).Contents (Elt F) → (⟨S8x2048, .i32⟩ : BufTy).Contents (Elt F)),
    ternary main_v381 main_v383 main_v35 main_v384 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_134 (constantI S_ 32 0#32),
    unary main_c_134 main_v385 (broadcastInDim S8x2048 ![] bcast_S_S8x2048 : (⟨S_, .i32⟩ : BufTy).Contents (Elt F) → (⟨S8x2048, .i32⟩ : BufTy).Contents (Elt F)),
    binary main_v379 main_v385 main_v386 (cmpi .slt : (⟨S8x2048, .i32⟩ : BufTy).Contents (Elt F) → (⟨S8x2048, .i32⟩ : BufTy).Contents (Elt F) → (⟨S8x2048, .i1⟩ : BufTy).Contents (Elt F)),
    nullary main_c_135 (constantI S_ 32 32#32),
    unary main_c_135 main_v387 (broadcastInDim S8x2048 ![] bcast_S_S8x2048 : (⟨S_, .i32⟩ : BufTy).Contents (Elt F) → (⟨S8x2048, .i32⟩ : BufTy).Contents (Elt F)),
    binary main_v379 main_v387 main_v388 (addi : (⟨S8x2048, .i32⟩ : BufTy).Contents (Elt F) → (⟨S8x2048, .i32⟩ : BufTy).Contents (Elt F) → (⟨S8x2048, .i32⟩ : BufTy).Contents (Elt F)),
    ternary main_v386 main_v388 main_v379 main_v389 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_136 (constantI S_ 32 0#32),
    unary main_c_136 main_v390 (broadcastInDim S8x2048 ![] bcast_S_S8x2048 : (⟨S_, .i32⟩ : BufTy).Contents (Elt F) → (⟨S8x2048, .i32⟩ : BufTy).Contents (Elt F)),
    binary main_v377 main_v390 main_v391 (cmpi .slt : (⟨S8x2048, .i32⟩ : BufTy).Contents (Elt F) → (⟨S8x2048, .i32⟩ : BufTy).Contents (Elt F) → (⟨S8x2048, .i1⟩ : BufTy).Contents (Elt F)),
    nullary main_c_137 (constantI S_ 32 32#32),
    unary main_c_137 main_v392 (broadcastInDim S8x2048 ![] bcast_S_S8x2048 : (⟨S_, .i32⟩ : BufTy).Contents (Elt F) → (⟨S8x2048, .i32⟩ : BufTy).Contents (Elt F)),
    binary main_v377 main_v392 main_v393 (addi : (⟨S8x2048, .i32⟩ : BufTy).Contents (Elt F) → (⟨S8x2048, .i32⟩ : BufTy).Contents (Elt F) → (⟨S8x2048, .i32⟩ : BufTy).Contents (Elt F)),
    ternary main_v391 main_v393 main_v377 main_v394 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_138 (constantI S_ 32 0#32),
    unary main_c_138 main_v395 (broadcastInDim S8x2048 ![] bcast_S_S8x2048 : (⟨S_, .i32⟩ : BufTy).Contents (Elt F) → (⟨S8x2048, .i32⟩ : BufTy).Contents (Elt F)),
    binary main_v375 main_v395 main_v396 (cmpi .slt : (⟨S8x2048, .i32⟩ : BufTy).Contents (Elt F) → (⟨S8x2048, .i32⟩ : BufTy).Contents (Elt F) → (⟨S8x2048, .i1⟩ : BufTy).Contents (Elt F)),
    nullary main_c_139 (constantI S_ 32 32#32),
    unary main_c_139 main_v397 (broadcastInDim S8x2048 ![] bcast_S_S8x2048 : (⟨S_, .i32⟩ : BufTy).Contents (Elt F) → (⟨S8x2048, .i32⟩ : BufTy).Contents (Elt F)) ]

set_option maxRecDepth 8192 in
/-- The window is its segments one after the other. -/
theorem ops_part8_segs : (ops_part8 : List (HloOp τ sig (Elt F))) = seg16 := rfl

/-- The buffers that segment 16's operations write. -/
abbrev seg16_W : List (Ref sig .tc) := [main_v357, main_v358, main_cst_121, main_v359, main_v360, main_v361, main_cst_122, main_v362, main_v363, main_v364, main_cst_123, main_v365, main_v366, main_v367, main_cst_124, main_v368, main_v369, main_v370, main_cst_125, main_v371, main_v372, main_v373, main_c_126, main_c_127, main_call12_v0, main_call12_v1, main_call12_v2, main_call12_v3, main_call12_v4, main_v374, main_v375, main_c_128, main_c_129, main_call13_v0, main_call13_v1, main_call13_v2, main_call13_v3, main_call13_v4, main_v376, main_v377, main_c_130, main_c_131, main_call14_v0, main_call14_v1, main_call14_v2, main_call14_v3, main_call14_v4, main_v378, main_v379, main_c_132, main_v380, main_v381, main_c_133, main_v382, main_v383, main_v384, main_c_134, main_v385, main_v386, main_c_135, main_v387, main_v388, main_v389, main_c_136, main_v390, main_v391, main_c_137, main_v392, main_v393, main_v394, main_c_138, main_v395, main_v396, main_c_139, main_v397]
set_option maxRecDepth 8192 in
theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 16 does not write keeps its contents through it. -/
theorem seg16_keep (W : Valuation τ sig (Elt F)) (r : Ref sig .tc) (h : r ∉ seg16_W) :
    after seg16 W (Proc.devRef .tc r) = W (Proc.devRef .tc r) :=
  after_of_writes_sub seg16 _ seg16_writes h

set_option maxRecDepth 8192 in
set_option maxHeartbeats 2000000 in
theorem seg16_main_v373 (W V0 : Valuation τ sig (Elt F))
    (h_main_v342 : W (no_index (Proc.devRef .tc main_v342)) = val_main_v342 (F := F) (V0 (Proc.devRef .tc main_arg0)) (V0 (Proc.devRef .tc main_arg1)) (V0 (Proc.devRef .tc main_arg3)))
    (h_main_v340 : W (no_index (Proc.devRef .tc main_v340)) = val_main_v340 (F := F) (V0 (Proc.devRef .tc main_arg0)) (V0 (Proc.devRef .tc main_arg1)) (V0 (Proc.devRef .tc main_arg3)))
    (h_main_v338 : W (no_index (Proc.devRef .tc main_v338)) = val_main_v338 (F := F) (V0 (Proc.devRef .tc main_arg0)) (V0 (Proc.devRef .tc main_arg1)) (V0 (Proc.devRef .tc main_arg3)))
    (h_main_cst_120 : W (no_index (Proc.devRef .tc main_cst_120)) = val_main_cst_120 (F := F))
    : after seg16 W (no_index (Proc.devRef .tc main_v373)) = val_main_v373 (F := F) (V0 (Proc.devRef .tc main_arg0)) (V0 (Proc.devRef .tc main_arg1)) (V0 (Proc.devRef .tc main_arg3)) := by
  simp only [seg16]
  after_results_simp
  simp only [h_main_v342, h_main_v340, h_main_v338, h_main_cst_120] <;> rfl
set_option maxRecDepth 8192 in
set_option maxHeartbeats 2000000 in
theorem seg16_main_v375 (W V0 : Valuation τ sig (Elt F))
    (h_main_v338 : W (no_index (Proc.devRef .tc main_v338)) = val_main_v338 (F := F) (V0 (Proc.devRef .tc main_arg0)) (V0 (Proc.devRef .tc main_arg1)) (V0 (Proc.devRef .tc main_arg3)))
    : after seg16 W (no_index (Proc.devRef .tc main_v375)) = val_main_v375 (F := F) (V0 (Proc.devRef .tc main_arg0)) (V0 (Proc.devRef .tc main_arg1)) (V0 (Proc.devRef .tc main_arg3)) := by
  simp only [seg16]
  after_results_simp
  simp only [h_main_v338] <;> rfl
set_option maxRecDepth 8192 in
set_option maxHeartbeats 2000000 in
theorem seg16_main_v384 (W V0 : Valuation τ sig (Elt F))
    (h_main_v35 : W (no_index (Proc.devRef .tc main_v35)) = val_main_v35 (F := F))
    : after seg16 W (no_index (Proc.devRef .tc main_v384)) = val_main_v384 (F := F) := by
  simp only [seg16]
  after_results_simp
  simp only [h_main_v35] <;> rfl
set_option maxRecDepth 8192 in
set_option maxHeartbeats 2000000 in
theorem seg16_main_v389 (W V0 : Valuation τ sig (Elt F))
    (h_main_v342 : W (no_index (Proc.devRef .tc main_v342)) = val_main_v342 (F := F) (V0 (Proc.devRef .tc main_arg0)) (V0 (Proc.devRef .tc main_arg1)) (V0 (Proc.devRef .tc main_arg3)))
    : after seg16 W (no_index (Proc.devRef .tc main_v389)) = val_main_v389 (F := F) (V0 (Proc.devRef .tc main_arg0)) (V0 (Proc.devRef .tc main_arg1)) (V0 (Proc.devRef .tc main_arg3)) := by
  simp only [seg16]
  after_results_simp
  simp only [h_main_v342] <;> rfl
set_option maxRecDepth 8192 in
set_option maxHeartbeats 2000000 in
theorem seg16_main_v394 (W V0 : Valuation τ sig (Elt F))
    (h_main_v340 : W (no_index (Proc.devRef .tc main_v340)) = val_main_v340 (F := F) (V0 (Proc.devRef .tc main_arg0)) (V0 (Proc.devRef .tc main_arg1)) (V0 (Proc.devRef .tc main_arg3)))
    : after seg16 W (no_index (Proc.devRef .tc main_v394)) = val_main_v394 (F := F) (V0 (Proc.devRef .tc main_arg0)) (V0 (Proc.devRef .tc main_arg1)) (V0 (Proc.devRef .tc main_arg3)) := by
  simp only [seg16]
  after_results_simp
  simp only [h_main_v340] <;> rfl
set_option maxRecDepth 8192 in
set_option maxHeartbeats 2000000 in
theorem seg16_main_v396 (W V0 : Valuation τ sig (Elt F))
    (h_main_v338 : W (no_index (Proc.devRef .tc main_v338)) = val_main_v338 (F := F) (V0 (Proc.devRef .tc main_arg0)) (V0 (Proc.devRef .tc main_arg1)) (V0 (Proc.devRef .tc main_arg3)))
    : after seg16 W (no_index (Proc.devRef .tc main_v396)) = val_main_v396 (F := F) (V0 (Proc.devRef .tc main_arg0)) (V0 (Proc.devRef .tc main_arg1)) (V0 (Proc.devRef .tc main_arg3)) := by
  simp only [seg16]
  after_results_simp
  simp only [h_main_v338] <;> rfl
set_option maxRecDepth 8192 in
set_option maxHeartbeats 2000000 in
theorem seg16_main_v397 (W V0 : Valuation τ sig (Elt F))
    : after seg16 W (no_index (Proc.devRef .tc main_v397)) = val_main_v397 (F := F) := by
  simp only [seg16]
  after_results_simp
  all_goals rfl

end Cert.Proof.Ref

end
-- ==== Proof.Ref.Win9.lean ====
/-
   Window main_part9 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 17: @main's operations 616 … 621 of 978. -/
abbrev seg17 : List (HloOp τ sig (Elt F)) :=
  [ binary main_v375 main_v397 main_v398 (addi : (⟨S8x2048, .i32⟩ : BufTy).Contents (Elt F) → (⟨S8x2048, .i32⟩ : BufTy).Contents (Elt F) → (⟨S8x2048, .i32⟩ : BufTy).Contents (Elt F)),
    ternary main_v396 main_v398 main_v375 main_v399 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v384 main_v400 (broadcastInDim S8x2048x1 ![0, 1] bcast_S8x2048_S8x2048x1_0_1 : (⟨S8x2048, .i32⟩ : BufTy).Contents (Elt F) → (⟨S8x2048x1, .i32⟩ : BufTy).Contents (Elt F)),
    unary main_v389 main_v401 (broadcastInDim S8x2048x1 ![0, 1] bcast_S8x2048_S8x2048x1_0_1 : (⟨S8x2048, .i32⟩ : BufTy).Contents (Elt F) → (⟨S8x2048x1, .i32⟩ : BufTy).Contents (Elt F)),
    unary main_v394 main_v402 (broadcastInDim S8x2048x1 ![0, 1] bcast_S8x2048_S8x2048x1_0_1 : (⟨S8x2048, .i32⟩ : BufTy).Contents (Elt F) → (⟨S8x2048x1, .i32⟩ : BufTy).Contents (Elt F)),
    unary main_v399 main_v403 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 18: @main's operations 622 … 622 of 978. -/
abbrev seg18 : List (HloOp τ sig (Elt F)) :=
  [ nary ![main_v400, main_v401, main_v402, main_v403] main_v404 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 19: @main's operations 623 … 675 of 978. -/
abbrev seg19 : List (HloOp τ sig (Elt F)) :=
  [ binary main_arg2 main_v404 main_v405 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v373 main_v406 (uitofp .f32 : (⟨S8x2048, .i1⟩ : BufTy).Contents (Elt F) → (⟨S8x2048, .f32⟩ : BufTy).Contents (Elt F)),
    binary main_v356 main_v406 main_v407 (mulf : (⟨S8x2048, .f32⟩ : BufTy).Contents (Elt F) → (⟨S8x2048, .f32⟩ : BufTy).Contents (Elt F) → (⟨S8x2048, .f32⟩ : BufTy).Contents (Elt F)),
    unary main_v407 main_v408 (broadcastInDim S8x2048x1 ![0, 1] bcast_S8x2048_S8x2048x1_0_1 : (⟨S8x2048, .f32⟩ : BufTy).Contents (Elt F) → (⟨S8x2048x1, .f32⟩ : BufTy).Contents (Elt F)),
    unary main_v408 main_v409 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v405 main_v409 main_v410 (mulf : (⟨S8x2048x128, .f32⟩ : BufTy).Contents (Elt F) → (⟨S8x2048x128, .f32⟩ : BufTy).Contents (Elt F) → (⟨S8x2048x128, .f32⟩ : BufTy).Contents (Elt F)),
    binary main_v336 main_v410 main_v411 (addf : (⟨S8x2048x128, .f32⟩ : BufTy).Contents (Elt F) → (⟨S8x2048x128, .f32⟩ : BufTy).Contents (Elt F) → (⟨S8x2048x128, .f32⟩ : BufTy).Contents (Elt F)),
    nullary main_cst_140 (constant S_ .f32 0x3F800000#32),
    unary main_cst_140 main_v412 (broadcastInDim S8x2048 ![] bcast_S_S8x2048 : (⟨S_, .f32⟩ : BufTy).Contents (Elt F) → (⟨S8x2048, .f32⟩ : BufTy).Contents (Elt F)),
    binary main_v30 main_v412 main_v413 (addf : (⟨S8x2048, .f32⟩ : BufTy).Contents (Elt F) → (⟨S8x2048, .f32⟩ : BufTy).Contents (Elt F) → (⟨S8x2048, .f32⟩ : BufTy).Contents (Elt F)),
    nullary main_cst_141 (constant S_ .f32 0x00000000#32),
    unary main_cst_141 main_v414 (broadcastInDim S8x2048 ![] bcast_S_S8x2048 : (⟨S_, .f32⟩ : BufTy).Contents (Elt F) → (⟨S8x2048, .f32⟩ : BufTy).Contents (Elt F)),
    binary main_v31 main_v414 main_v415 (addf : (⟨S8x2048, .f32⟩ : BufTy).Contents (Elt F) → (⟨S8x2048, .f32⟩ : BufTy).Contents (Elt F) → (⟨S8x2048, .f32⟩ : BufTy).Contents (Elt F)),
    nullary main_cst_142 (constant S_ .f32 0x3F800000#32),
    unary main_cst_142 main_v416 (broadcastInDim S8x2048 ![] bcast_S_S8x2048 : (⟨S_, .f32⟩ : BufTy).Contents (Elt F) → (⟨S8x2048, .f32⟩ : BufTy).Contents (Elt F)),
    binary main_v32 main_v416 main_v417 (addf : (⟨S8x2048, .f32⟩ : BufTy).Contents (Elt F) → (⟨S8x2048, .f32⟩ : BufTy).Contents (Elt F) → (⟨S8x2048, .f32⟩ : BufTy).Contents (Elt F)),
    binary main_v13 main_v413 main_v418 (subf : (⟨S8x2048, .f32⟩ : BufTy).Contents (Elt F) → (⟨S8x2048, .f32⟩ : BufTy).Contents (Elt F) → (⟨S8x2048, .f32⟩ : BufTy).Contents (Elt F)),
    unary main_v418 main_v419 (Host.absf : (⟨S8x2048, .f32⟩ : BufTy).Contents (Elt F) → (⟨S8x2048, .f32⟩ : BufTy).Contents (Elt F)),
    nullary main_cst_143 (constant S_ .f32 0x3F800000#32),
    unary main_cst_143 main_v420 (broadcastInDim S8x2048 ![] bcast_S_S8x2048 : (⟨S_, .f32⟩ : BufTy).Contents (Elt F) → (⟨S8x2048, .f32⟩ : BufTy).Contents (Elt F)),
    binary main_v420 main_v419 main_v421 (subf : (⟨S8x2048, .f32⟩ : BufTy).Contents (Elt F) → (⟨S8x2048, .f32⟩ : BufTy).Contents (Elt F) → (⟨S8x2048, .f32⟩ : BufTy).Contents (Elt F)),
    binary main_v21 main_v415 main_v422 (subf : (⟨S8x2048, .f32⟩ : BufTy).Contents (Elt F) → (⟨S8x2048, .f32⟩ : BufTy).Contents (Elt F) → (⟨S8x2048, .f32⟩ : BufTy).Contents (Elt F)),
    unary main_v422 main_v423 (Host.absf : (⟨S8x2048, .f32⟩ : BufTy).Contents (Elt F) → (⟨S8x2048, .f32⟩ : BufTy).Contents (Elt F)),
    nullary main_cst_144 (constant S_ .f32 0x3F800000#32),
    unary main_cst_144 main_v424 (broadcastInDim S8x2048 ![] bcast_S_S8x2048 : (⟨S_, .f32⟩ : BufTy).Contents (Elt F) → (⟨S8x2048, .f32⟩ : BufTy).Contents (Elt F)),
    binary main_v424 main_v423 main_v425 (subf : (⟨S8x2048, .f32⟩ : BufTy).Contents (Elt F) → (⟨S8x2048, .f32⟩ : BufTy).Contents (Elt F) → (⟨S8x2048, .f32⟩ : BufTy).Contents (Elt F)),
    binary main_v421 main_v425 main_v426 (mulf : (⟨S8x2048, .f32⟩ : BufTy).Contents (Elt F) → (⟨S8x2048, .f32⟩ : BufTy).Contents (Elt F) → (⟨S8x2048, .f32⟩ : BufTy).Contents (Elt F)),
    binary main_v29 main_v417 main_v427 (subf : (⟨S8x2048, .f32⟩ : BufTy).Contents (Elt F) → (⟨S8x2048, .f32⟩ : BufTy).Contents (Elt F) → (⟨S8x2048, .f32⟩ : BufTy).Contents (Elt F)),
    unary main_v427 main_v428 (Host.absf : (⟨S8x2048, .f32⟩ : BufTy).Contents (Elt F) → (⟨S8x2048, .f32⟩ : BufTy).Contents (Elt F)),
    nullary main_cst_145 (constant S_ .f32 0x3F800000#32),
    unary main_cst_145 main_v429 (broadcastInDim S8x2048 ![] bcast_S_S8x2048 : (⟨S_, .f32⟩ : BufTy).Contents (Elt F) → (⟨S8x2048, .f32⟩ : BufTy).Contents (Elt F)),
    binary main_v429 main_v428 main_v430 (subf : (⟨S8x2048, .f32⟩ : BufTy).Contents (Elt F) → (⟨S8x2048, .f32⟩ : BufTy).Contents (Elt F) → (⟨S8x2048, .f32⟩ : BufTy).Contents (Elt F)),
    binary main_v426 main_v430 main_v431 (mulf : (⟨S8x2048, .f32⟩ : BufTy).Contents (Elt F) → (⟨S8x2048, .f32⟩ : BufTy).Contents (Elt F) → (⟨S8x2048, .f32⟩ : BufTy).Contents (Elt F)),
    nullary main_cst_146 (constant S_ .f32 0x00000000#32),
    unary main_cst_146 main_v432 (broadcastInDim S8x2048 ![] bcast_S_S8x2048 : (⟨S_, .f32⟩ : BufTy).Contents (Elt F) → (⟨S8x2048, .f32⟩ : BufTy).Contents (Elt F)),
    binary main_v413 main_v432 main_v433 (cmpf .oge : (⟨S8x2048, .f32⟩ : BufTy).Contents (Elt F) → (⟨S8x2048, .f32⟩ : BufTy).Contents (Elt F) → (⟨S8x2048, .i1⟩ : BufTy).Contents (Elt F)),
    nullary main_cst_147 (constant S_ .f32 0x41F80000#32),
    unary main_cst_147 main_v434 (broadcastInDim S8x2048 ![] bcast_S_S8x2048 : (⟨S_, .f32⟩ : BufTy).Contents (Elt F) → (⟨S8x2048, .f32⟩ : BufTy).Contents (Elt F)),
    binary main_v413 main_v434 main_v435 (cmpf .ole : (⟨S8x2048, .f32⟩ : BufTy).Contents (Elt F) → (⟨S8x2048, .f32⟩ : BufTy).Contents (Elt F) → (⟨S8x2048, .i1⟩ : BufTy).Contents (Elt F)),
    binary main_v433 main_v435 main_v436 (andi : (⟨S8x2048, .i1⟩ : BufTy).Contents (Elt F) → (⟨S8x2048, .i1⟩ : BufTy).Contents (Elt F) → (⟨S8x2048, .i1⟩ : BufTy).Contents (Elt F)),
    nullary main_cst_148 (constant S_ .f32 0x00000000#32),
    unary main_cst_148 main_v437 (broadcastInDim S8x2048 ![] bcast_S_S8x2048 : (⟨S_, .f32⟩ : BufTy).Contents (Elt F) → (⟨S8x2048, .f32⟩ : BufTy).Contents (Elt F)),
    binary main_v415 main_v437 main_v438 (cmpf .oge : (⟨S8x2048, .f32⟩ : BufTy).Contents (Elt F) → (⟨S8x2048, .f32⟩ : BufTy).Contents (Elt F) → (⟨S8x2048, .i1⟩ : BufTy).Contents (Elt F)),
    binary main_v436 main_v438 main_v439 (andi : (⟨S8x2048, .i1⟩ : BufTy).Contents (Elt F) → (⟨S8x2048, .i1⟩ : BufTy).Contents (Elt F) → (⟨S8x2048, .i1⟩ : BufTy).Contents (Elt F)),
    nullary main_cst_149 (constant S_ .f32 0x41F80000#32),
    unary main_cst_149 main_v440 (broadcastInDim S8x2048 ![] bcast_S_S8x2048 : (⟨S_, .f32⟩ : BufTy).Contents (Elt F) → (⟨S8x2048, .f32⟩ : BufTy).Contents (Elt F)),
    binary main_v415 main_v440 main_v441 (cmpf .ole : (⟨S8x2048, .f32⟩ : BufTy).Contents (Elt F) → (⟨S8x2048, .f32⟩ : BufTy).Contents (Elt F) → (⟨S8x2048, .i1⟩ : BufTy).Contents (Elt F)),
    binary main_v439 main_v441 main_v442 (andi : (⟨S8x2048, .i1⟩ : BufTy).Contents (Elt F) → (⟨S8x2048, .i1⟩ : BufTy).Contents (Elt F) → (⟨S8x2048, .i1⟩ : BufTy).Contents (Elt F)),
    nullary main_cst_150 (constant S_ .f32 0x00000000#32),
    unary main_cst_150 main_v443 (broadcastInDim S8x2048 ![] bcast_S_S8x2048 : (⟨S_, .f32⟩ : BufTy).Contents (Elt F) → (⟨S8x2048, .f32⟩ : BufTy).Contents (Elt F)),
    binary main_v417 main_v443 main_v444 (cmpf .oge : (⟨S8x2048, .f32⟩ : BufTy).Contents (Elt F) → (⟨S8x2048, .f32⟩ : BufTy).Contents (Elt F) → (⟨S8x2048, .i1⟩ : BufTy).Contents (Elt F)),
    binary main_v442 main_v444 main_v445 (andi : (⟨S8x2048, .i1⟩ : BufTy).Contents (Elt F) → (⟨S8x2048, .i1⟩ : BufTy).Contents (Elt F) → (⟨S8x2048, .i1⟩ : BufTy).Contents (Elt F)),
    nullary main_cst_151 (constant S_ .f32 0x41F80000#32) ]

set_option maxRecDepth 8192 in
/-- The window is its segments one after the other. -/
theorem ops_part9_segs : (ops_part9 : List (HloOp τ sig (Elt F))) = seg17 ++ (seg18 ++ (seg19)) := rfl

/-- The buffers that segment 17's operations write. -/
abbrev seg17_W : List (Ref sig .tc) := [main_v398, main_v399, main_v400, main_v401, main_v402, main_v403]
set_option maxRecDepth 8192 in
theorem seg17_writes : (seg17 : List (HloOp τ sig (Elt F))).Forall fun op => op.writes ⊆ (seg17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 17 does not write keeps its contents through it. -/
theorem seg17_keep (W : Valuation τ sig (Elt F)) (r : Ref sig .tc) (h : r ∉ seg17_W) :
    after seg17 W (Proc.devRef .tc r) = W (Proc.devRef .tc r) :=
  after_of_writes_sub seg17 _ seg17_writes h

set_option maxRecDepth 8192 in
set_option maxHeartbeats 600000 in
theorem seg17_main_v400 (W V0 : Valuation τ sig (Elt F))
    (h_main_v384 : W (no_index (Proc.devRef .tc main_v384)) = val_main_v384 (F := F))
    : after seg17 W (no_index (Proc.devRef .tc main_v400)) = val_main_v400 (F := F) := by
  simp only [seg17]
  after_results_simp
  simp only [h_main_v384] <;> rfl
set_option maxRecDepth 8192 in
set_option maxHeartbeats 600000 in
theorem seg17_main_v401 (W V0 : Valuation τ sig (Elt F))
    (h_main_v389 : W (no_index (Proc.devRef .tc main_v389)) = val_main_v389 (F := F) (V0 (Proc.devRef .tc main_arg0)) (V0 (Proc.devRef .tc main_arg1)) (V0 (Proc.devRef .tc main_arg3)))
    : after seg17 W (no_index (Proc.devRef .tc main_v401)) = val_main_v401 (F := F) (V0 (Proc.devRef .tc main_arg0)) (V0 (Proc.devRef .tc main_arg1)) (V0 (Proc.devRef .tc main_arg3)) := by
  simp only [seg17]
  after_results_simp
  simp only [h_main_v389] <;> rfl
set_option maxRecDepth 8192 in
set_option maxHeartbeats 600000 in
theorem seg17_main_v402 (W V0 : Valuation τ sig (Elt F))
    (h_main_v394 : W (no_index (Proc.devRef .tc main_v394)) = val_main_v394 (F := F) (V0 (Proc.devRef .tc main_arg0)) (V0 (Proc.devRef .tc main_arg1)) (V0 (Proc.devRef .tc main_arg3)))
    : after seg17 W (no_index (Proc.devRef .tc main_v402)) = val_main_v402 (F := F) (V0 (Proc.devRef .tc main_arg0)) (V0 (Proc.devRef .tc main_arg1)) (V0 (Proc.devRef .tc main_arg3)) := by
  simp only [seg17]
  after_results_simp
  simp only [h_main_v394] <;> rfl
set_option maxRecDepth 8192 in
set_option maxHeartbeats 600000 in
theorem seg17_main_v403 (W V0 : Valuation τ sig (Elt F))
    (h_main_v375 : W (no_index (Proc.devRef .tc main_v375)) = val_main_v375 (F := F) (V0 (Proc.devRef .tc main_arg0)) (V0 (Proc.devRef .tc main_arg1)) (V0 (Proc.devRef .tc main_arg3)))
    (h_main_v397 : W (no_index (Proc.devRef .tc main_v397)) = val_main_v397 (F := F))
    (h_main_v396 : W (no_index (Proc.devRef .tc main_v396)) = val_main_v396 (F := F) (V0 (Proc.devRef .tc main_arg0)) (V0 (Proc.devRef .tc main_arg1)) (V0 (Proc.devRef .tc main_arg3)))
    : after seg17 W (no_index (Proc.devRef .tc main_v403)) = val_main_v403 (F := F) (V0 (Proc.devRef .tc main_arg0)) (V0 (Proc.devRef .tc main_arg1)) (V0 (Proc.devRef .tc main_arg3)) := by
  simp only [seg17]
  after_results_simp
  simp only [h_main_v375, h_main_v397, h_main_v396] <;> rfl

/-- The buffers that segment 18's operations write. -/
abbrev seg18_W : List (Ref sig .tc) := [main_v404]
set_option maxRecDepth 8192 in
theorem seg18_writes : (seg18 : List (HloOp τ sig (Elt F))).Forall fun op => op.writes ⊆ (seg18_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 18 does not write keeps its contents through it. -/
theorem seg18_keep (W : Valuation τ sig (Elt F)) (r : Ref sig .tc) (h : r ∉ seg18_W) :
    after seg18 W (Proc.devRef .tc r) = W (Proc.devRef .tc r) :=
  after_of_writes_sub seg18 _ seg18_writes h

/-- The concatenation `main_v404`, given its operands' contents. -/
theorem cat_main_v404 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v400)) = v0) (h1 : G (no_index (Proc.devRef .tc main_v401)) = v1) (h2 : G (no_index (Proc.devRef .tc main_v402)) = v2) (h3 : G (no_index (Proc.devRef .tc main_v403)) = v3) :
    (nary ![main_v400, main_v401, main_v402, main_v403] main_v404 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v404))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg18_main_v404 (W V0 : Valuation τ sig (Elt F))
    (h_main_v403 : W (no_index (Proc.devRef .tc main_v403)) = val_main_v403 (F := F) (V0 (Proc.devRef .tc main_arg0)) (V0 (Proc.devRef .tc main_arg1)) (V0 (Proc.devRef .tc main_arg3)))
    (h_main_v402 : W (no_index (Proc.devRef .tc main_v402)) = val_main_v402 (F := F) (V0 (Proc.devRef .tc main_arg0)) (V0 (Proc.devRef .tc main_arg1)) (V0 (Proc.devRef .tc main_arg3)))
    (h_main_v401 : W (no_index (Proc.devRef .tc main_v401)) = val_main_v401 (F := F) (V0 (Proc.devRef .tc main_arg0)) (V0 (Proc.devRef .tc main_arg1)) (V0 (Proc.devRef .tc main_arg3)))
    (h_main_v400 : W (no_index (Proc.devRef .tc main_v400)) = val_main_v400 (F := F))
    : after seg18 W (no_index (Proc.devRef .tc main_v404)) = val_main_v404 (F := F) (V0 (Proc.devRef .tc main_arg0)) (V0 (Proc.devRef .tc main_arg1)) (V0 (Proc.devRef .tc main_arg3)) :=
  cat_main_v404 W _ _ _ _ h_main_v400 h_main_v401 h_main_v402 h_main_v403

/-- The buffers that segment 19's operations write. -/
abbrev seg19_W : List (Ref sig .tc) := [main_v405, main_v406, main_v407, main_v408, main_v409, main_v410, main_v411, main_cst_140, main_v412, main_v413, main_cst_141, main_v414, main_v415, main_cst_142, main_v416, main_v417, main_v418, main_v419, main_cst_143, main_v420, main_v421, main_v422, main_v423, main_cst_144, main_v424, main_v425, main_v426, main_v427, main_v428, main_cst_145, main_v429, main_v430, main_v431, main_cst_146, main_v432, main_v433, main_cst_147, main_v434, main_v435, main_v436, main_cst_148, main_v437, main_v438, main_v439, main_cst_149, main_v440, main_v441, main_v442, main_cst_150, main_v443, main_v444, main_v445, main_cst_151]
set_option maxRecDepth 8192 in
theorem seg19_writes : (seg19 : List (HloOp τ sig (Elt F))).Forall fun op => op.writes ⊆ (seg19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 19 does not write keeps its contents through it. -/
theorem seg19_keep (W : Valuation τ sig (Elt F)) (r : Ref sig .tc) (h : r ∉ seg19_W) :
    after seg19 W (Proc.devRef .tc r) = W (Proc.devRef .tc r) :=
  after_of_writes_sub seg19 _ seg19_writes h

set_option maxRecDepth 8192 in
set_option maxHeartbeats 2000000 in
theorem seg19_main_v411 (W V0 : Valuation τ sig (Elt F))
    (h_main_v373 : W (no_index (Proc.devRef .tc main_v373)) = val_main_v373 (F := F) (V0 (Proc.devRef .tc main_arg0)) (V0 (Proc.devRef .tc main_arg1)) (V0 (Proc.devRef .tc main_arg3)))
    (h_main_v356 : W (no_index (Proc.devRef .tc main_v356)) = val_main_v356 (F := F) (V0 (Proc.devRef .tc main_arg0)) (V0 (Proc.devRef .tc main_arg1)) (V0 (Proc.devRef .tc main_arg3)))
    (h_main_v404 : W (no_index (Proc.devRef .tc main_v404)) = val_main_v404 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v336 : W (no_index (Proc.devRef .tc main_v336)) = val_main_v336 (F := F) (V0 (Proc.devRef .tc main_arg0)) (V0 (Proc.devRef .tc main_arg1)) (V0 (Proc.devRef .tc main_arg2)) (V0 (Proc.devRef .tc main_arg3)))
    : after seg19 W (no_index (Proc.devRef .tc main_v411)) = val_main_v411 (F := F) (V0 (Proc.devRef .tc main_arg0)) (V0 (Proc.devRef .tc main_arg1)) (V0 (Proc.devRef .tc main_arg2)) (V0 (Proc.devRef .tc main_arg3)) := by
  simp only [seg19]
  after_results_simp
  simp only [h_main_v373, h_main_v356, h_main_v404, h_main_arg2, h_main_v336] <;> rfl
set_option maxRecDepth 8192 in
set_option maxHeartbeats 2000000 in
theorem seg19_main_v413 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg19 W (no_index (Proc.devRef .tc main_v413)) = val_main_v413 (F := F) (V0 (Proc.devRef .tc main_arg0)) (V0 (Proc.devRef .tc main_arg1)) (V0 (Proc.devRef .tc main_arg3)) := by
  simp only [seg19]
  after_results_simp
  simp only [h_main_v30] <;> rfl
set_option maxRecDepth 8192 in
set_option maxHeartbeats 2000000 in
theorem seg19_main_v415 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg19 W (no_index (Proc.devRef .tc main_v415)) = val_main_v415 (F := F) (V0 (Proc.devRef .tc main_arg0)) (V0 (Proc.devRef .tc main_arg1)) (V0 (Proc.devRef .tc main_arg3)) := by
  simp only [seg19]
  after_results_simp
  simp only [h_main_v31] <;> rfl
set_option maxRecDepth 8192 in
set_option maxHeartbeats 2000000 in
theorem seg19_main_v417 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg19 W (no_index (Proc.devRef .tc main_v417)) = val_main_v417 (F := F) (V0 (Proc.devRef .tc main_arg0)) (V0 (Proc.devRef .tc main_arg1)) (V0 (Proc.devRef .tc main_arg3)) := by
  simp only [seg19]
  after_results_simp
  simp only [h_main_v32] <;> rfl
set_option maxRecDepth 8192 in
set_option maxHeartbeats 2000000 in
theorem seg19_main_v431 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg19 W (no_index (Proc.devRef .tc main_v431)) = val_main_v431 (F := F) (V0 (Proc.devRef .tc main_arg0)) (V0 (Proc.devRef .tc main_arg1)) (V0 (Proc.devRef .tc main_arg3)) := by
  simp only [seg19]
  after_results_simp
  simp only [h_main_v32, h_main_v29, h_main_v31, h_main_v21, h_main_v30, h_main_v13] <;> rfl
set_option maxRecDepth 8192 in
set_option maxHeartbeats 2000000 in
theorem seg19_main_v445 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v31 : W (no_index (Proc.devRef .tc main_v31)) = val_main_v31 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    : after seg19 W (no_index (Proc.devRef .tc main_v445)) = val_main_v445 (F := F) (V0 (Proc.devRef .tc main_arg0)) (V0 (Proc.devRef .tc main_arg1)) (V0 (Proc.devRef .tc main_arg3)) := by
  simp only [seg19]
  after_results_simp
  simp only [h_main_v32, h_main_v31, h_main_v30] <;> rfl
set_option maxRecDepth 8192 in
set_option maxHeartbeats 2000000 in
theorem seg19_main_cst_151 (W V0 : Valuation τ sig (Elt F))
    : after seg19 W (no_index (Proc.devRef .tc main_cst_151)) = val_main_cst_151 (F := F) := by
  simp only [seg19]
  after_results_simp
  all_goals rfl

end Cert.Proof.Ref

end
-- ==== Proof.Ref.Win10.lean ====
/-
   Window main_part10 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 20: @main's operations 676 … 737 of 978. -/
abbrev seg20 : List (HloOp τ sig (Elt F)) :=
  [ unary main_cst_151 main_v446 (broadcastInDim S8x2048 ![] bcast_S_S8x2048 : (⟨S_, .f32⟩ : BufTy).Contents (Elt F) → (⟨S8x2048, .f32⟩ : BufTy).Contents (Elt F)),
    binary main_v417 main_v446 main_v447 (cmpf .ole : (⟨S8x2048, .f32⟩ : BufTy).Contents (Elt F) → (⟨S8x2048, .f32⟩ : BufTy).Contents (Elt F) → (⟨S8x2048, .i1⟩ : BufTy).Contents (Elt F)),
    binary main_v445 main_v447 main_v448 (andi : (⟨S8x2048, .i1⟩ : BufTy).Contents (Elt F) → (⟨S8x2048, .i1⟩ : BufTy).Contents (Elt F) → (⟨S8x2048, .i1⟩ : BufTy).Contents (Elt F)),
    nullary main_c_152 (constantI S_ 32 0#32),
    nullary main_c_153 (constantI S_ 32 31#32),
    TRef.unary (TRef.of (T := ⟨S_, .i32⟩) main_c_152) (TRef.of (T := ⟨S_, .f32⟩) main_call15_v0) (sitofp .f32),
    TRef.unary (TRef.of (T := ⟨S_, .f32⟩) main_call15_v0) (TRef.of (T := ⟨S8x2048, .f32⟩) main_call15_v1) (broadcastInDim S8x2048 ![] bcast_S_S8x2048),
    TRef.binary (TRef.of (T := ⟨S8x2048, .f32⟩) main_call15_v1) (TRef.of (T := ⟨S8x2048, .f32⟩) main_v413) (TRef.of (T := ⟨S8x2048, .f32⟩) main_call15_v2) maximumf,
    TRef.unary (TRef.of (T := ⟨S_, .i32⟩) main_c_153) (TRef.of (T := ⟨S_, .f32⟩) main_call15_v3) (sitofp .f32),
    TRef.unary (TRef.of (T := ⟨S_, .f32⟩) main_call15_v3) (TRef.of (T := ⟨S8x2048, .f32⟩) main_call15_v4) (broadcastInDim S8x2048 ![] bcast_S_S8x2048),
    TRef.binary (TRef.of (T := ⟨S8x2048, .f32⟩) main_call15_v4) (TRef.of (T := ⟨S8x2048, .f32⟩) main_call15_v2) (TRef.of (T := ⟨S8x2048, .f32⟩) main_v449) minimumf,
    unary main_v449 main_v450 (fptosi 32 : (⟨S8x2048, .f32⟩ : BufTy).Contents (Elt F) → (⟨S8x2048, .i32⟩ : BufTy).Contents (Elt F)),
    nullary main_c_154 (constantI S_ 32 0#32),
    nullary main_c_155 (constantI S_ 32 31#32),
    TRef.unary (TRef.of (T := ⟨S_, .i32⟩) main_c_154) (TRef.of (T := ⟨S_, .f32⟩) main_call16_v0) (sitofp .f32),
    TRef.unary (TRef.of (T := ⟨S_, .f32⟩) main_call16_v0) (TRef.of (T := ⟨S8x2048, .f32⟩) main_call16_v1) (broadcastInDim S8x2048 ![] bcast_S_S8x2048),
    TRef.binary (TRef.of (T := ⟨S8x2048, .f32⟩) main_call16_v1) (TRef.of (T := ⟨S8x2048, .f32⟩) main_v415) (TRef.of (T := ⟨S8x2048, .f32⟩) main_call16_v2) maximumf,
    TRef.unary (TRef.of (T := ⟨S_, .i32⟩) main_c_155) (TRef.of (T := ⟨S_, .f32⟩) main_call16_v3) (sitofp .f32),
    TRef.unary (TRef.of (T := ⟨S_, .f32⟩) main_call16_v3) (TRef.of (T := ⟨S8x2048, .f32⟩) main_call16_v4) (broadcastInDim S8x2048 ![] bcast_S_S8x2048),
    TRef.binary (TRef.of (T := ⟨S8x2048, .f32⟩) main_call16_v4) (TRef.of (T := ⟨S8x2048, .f32⟩) main_call16_v2) (TRef.of (T := ⟨S8x2048, .f32⟩) main_v451) minimumf,
    unary main_v451 main_v452 (fptosi 32 : (⟨S8x2048, .f32⟩ : BufTy).Contents (Elt F) → (⟨S8x2048, .i32⟩ : BufTy).Contents (Elt F)),
    nullary main_c_156 (constantI S_ 32 0#32),
    nullary main_c_157 (constantI S_ 32 31#32),
    TRef.unary (TRef.of (T := ⟨S_, .i32⟩) main_c_156) (TRef.of (T := ⟨S_, .f32⟩) main_call17_v0) (sitofp .f32),
    TRef.unary (TRef.of (T := ⟨S_, .f32⟩) main_call17_v0) (TRef.of (T := ⟨S8x2048, .f32⟩) main_call17_v1) (broadcastInDim S8x2048 ![] bcast_S_S8x2048),
    TRef.binary (TRef.of (T := ⟨S8x2048, .f32⟩) main_call17_v1) (TRef.of (T := ⟨S8x2048, .f32⟩) main_v417) (TRef.of (T := ⟨S8x2048, .f32⟩) main_call17_v2) maximumf,
    TRef.unary (TRef.of (T := ⟨S_, .i32⟩) main_c_157) (TRef.of (T := ⟨S_, .f32⟩) main_call17_v3) (sitofp .f32),
    TRef.unary (TRef.of (T := ⟨S_, .f32⟩) main_call17_v3) (TRef.of (T := ⟨S8x2048, .f32⟩) main_call17_v4) (broadcastInDim S8x2048 ![] bcast_S_S8x2048),
    TRef.binary (TRef.of (T := ⟨S8x2048, .f32⟩) main_call17_v4) (TRef.of (T := ⟨S8x2048, .f32⟩) main_call17_v2) (TRef.of (T := ⟨S8x2048, .f32⟩) main_v453) minimumf,
    unary main_v453 main_v454 (fptosi 32 : (⟨S8x2048, .f32⟩ : BufTy).Contents (Elt F) → (⟨S8x2048, .i32⟩ : BufTy).Contents (Elt F)),
    nullary main_c_158 (constantI S_ 32 0#32),
    unary main_c_158 main_v455 (broadcastInDim S8x2048 ![] bcast_S_S8x2048 : (⟨S_, .i32⟩ : BufTy).Contents (Elt F) → (⟨S8x2048, .i32⟩ : BufTy).Contents (Elt F)),
    binary main_v35 main_v455 main_v456 (cmpi .slt : (⟨S8x2048, .i32⟩ : BufTy).Contents (Elt F) → (⟨S8x2048, .i32⟩ : BufTy).Contents (Elt F) → (⟨S8x2048, .i1⟩ : BufTy).Contents (Elt F)),
    nullary main_c_159 (constantI S_ 32 8#32),
    unary main_c_159 main_v457 (broadcastInDim S8x2048 ![] bcast_S_S8x2048 : (⟨S_, .i32⟩ : BufTy).Contents (Elt F) → (⟨S8x2048, .i32⟩ : BufTy).Contents (Elt F)),
    binary main_v35 main_v457 main_v458 (addi : (⟨S8x2048, .i32⟩ : BufTy).Contents (Elt F) → (⟨S8x2048, .i32⟩ : BufTy).Contents (Elt F) → (⟨S8x2048, .i32⟩ : BufTy).Contents (Elt F)),
    ternary main_v456 main_v458 main_v35 main_v459 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_160 (constantI S_ 32 0#32),
    unary main_c_160 main_v460 (broadcastInDim S8x2048 ![] bcast_S_S8x2048 : (⟨S_, .i32⟩ : BufTy).Contents (Elt F) → (⟨S8x2048, .i32⟩ : BufTy).Contents (Elt F)),
    binary main_v454 main_v460 main_v461 (cmpi .slt : (⟨S8x2048, .i32⟩ : BufTy).Contents (Elt F) → (⟨S8x2048, .i32⟩ : BufTy).Contents (Elt F) → (⟨S8x2048, .i1⟩ : BufTy).Contents (Elt F)),
    nullary main_c_161 (constantI S_ 32 32#32),
    unary main_c_161 main_v462 (broadcastInDim S8x2048 ![] bcast_S_S8x2048 : (⟨S_, .i32⟩ : BufTy).Contents (Elt F) → (⟨S8x2048, .i32⟩ : BufTy).Contents (Elt F)),
    binary main_v454 main_v462 main_v463 (addi : (⟨S8x2048, .i32⟩ : BufTy).Contents (Elt F) → (⟨S8x2048, .i32⟩ : BufTy).Contents (Elt F) → (⟨S8x2048, .i32⟩ : BufTy).Contents (Elt F)),
    ternary main_v461 main_v463 main_v454 main_v464 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_162 (constantI S_ 32 0#32),
    unary main_c_162 main_v465 (broadcastInDim S8x2048 ![] bcast_S_S8x2048 : (⟨S_, .i32⟩ : BufTy).Contents (Elt F) → (⟨S8x2048, .i32⟩ : BufTy).Contents (Elt F)),
    binary main_v452 main_v465 main_v466 (cmpi .slt : (⟨S8x2048, .i32⟩ : BufTy).Contents (Elt F) → (⟨S8x2048, .i32⟩ : BufTy).Contents (Elt F) → (⟨S8x2048, .i1⟩ : BufTy).Contents (Elt F)),
    nullary main_c_163 (constantI S_ 32 32#32),
    unary main_c_163 main_v467 (broadcastInDim S8x2048 ![] bcast_S_S8x2048 : (⟨S_, .i32⟩ : BufTy).Contents (Elt F) → (⟨S8x2048, .i32⟩ : BufTy).Contents (Elt F)),
    binary main_v452 main_v467 main_v468 (addi : (⟨S8x2048, .i32⟩ : BufTy).Contents (Elt F) → (⟨S8x2048, .i32⟩ : BufTy).Contents (Elt F) → (⟨S8x2048, .i32⟩ : BufTy).Contents (Elt F)),
    ternary main_v466 main_v468 main_v452 main_v469 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_164 (constantI S_ 32 0#32),
    unary main_c_164 main_v470 (broadcastInDim S8x2048 ![] bcast_S_S8x2048 : (⟨S_, .i32⟩ : BufTy).Contents (Elt F) → (⟨S8x2048, .i32⟩ : BufTy).Contents (Elt F)),
    binary main_v450 main_v470 main_v471 (cmpi .slt : (⟨S8x2048, .i32⟩ : BufTy).Contents (Elt F) → (⟨S8x2048, .i32⟩ : BufTy).Contents (Elt F) → (⟨S8x2048, .i1⟩ : BufTy).Contents (Elt F)),
    nullary main_c_165 (constantI S_ 32 32#32),
    unary main_c_165 main_v472 (broadcastInDim S8x2048 ![] bcast_S_S8x2048 : (⟨S_, .i32⟩ : BufTy).Contents (Elt F) → (⟨S8x2048, .i32⟩ : BufTy).Contents (Elt F)),
    binary main_v450 main_v472 main_v473 (addi : (⟨S8x2048, .i32⟩ : BufTy).Contents (Elt F) → (⟨S8x2048, .i32⟩ : BufTy).Contents (Elt F) → (⟨S8x2048, .i32⟩ : BufTy).Contents (Elt F)),
    ternary main_v471 main_v473 main_v450 main_v474 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v459 main_v475 (broadcastInDim S8x2048x1 ![0, 1] bcast_S8x2048_S8x2048x1_0_1 : (⟨S8x2048, .i32⟩ : BufTy).Contents (Elt F) → (⟨S8x2048x1, .i32⟩ : BufTy).Contents (Elt F)),
    unary main_v464 main_v476 (broadcastInDim S8x2048x1 ![0, 1] bcast_S8x2048_S8x2048x1_0_1 : (⟨S8x2048, .i32⟩ : BufTy).Contents (Elt F) → (⟨S8x2048x1, .i32⟩ : BufTy).Contents (Elt F)),
    unary main_v469 main_v477 (broadcastInDim S8x2048x1 ![0, 1] bcast_S8x2048_S8x2048x1_0_1 : (⟨S8x2048, .i32⟩ : BufTy).Contents (Elt F) → (⟨S8x2048x1, .i32⟩ : BufTy).Contents (Elt F)),
    unary main_v474 main_v478 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 21: @main's operations 738 … 738 of 978. -/
abbrev seg21 : List (HloOp τ sig (Elt F)) :=
  [ nary ![main_v475, main_v476, main_v477, main_v478] main_v479 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 22: @main's operations 739 … 750 of 978. -/
abbrev seg22 : List (HloOp τ sig (Elt F)) :=
  [ binary main_arg2 main_v479 main_v480 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v448 main_v481 (uitofp .f32 : (⟨S8x2048, .i1⟩ : BufTy).Contents (Elt F) → (⟨S8x2048, .f32⟩ : BufTy).Contents (Elt F)),
    binary main_v431 main_v481 main_v482 (mulf : (⟨S8x2048, .f32⟩ : BufTy).Contents (Elt F) → (⟨S8x2048, .f32⟩ : BufTy).Contents (Elt F) → (⟨S8x2048, .f32⟩ : BufTy).Contents (Elt F)),
    unary main_v482 main_v483 (broadcastInDim S8x2048x1 ![0, 1] bcast_S8x2048_S8x2048x1_0_1 : (⟨S8x2048, .f32⟩ : BufTy).Contents (Elt F) → (⟨S8x2048x1, .f32⟩ : BufTy).Contents (Elt F)),
    unary main_v483 main_v484 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v480 main_v484 main_v485 (mulf : (⟨S8x2048x128, .f32⟩ : BufTy).Contents (Elt F) → (⟨S8x2048x128, .f32⟩ : BufTy).Contents (Elt F) → (⟨S8x2048x128, .f32⟩ : BufTy).Contents (Elt F)),
    binary main_v411 main_v485 main_v486 (addf : (⟨S8x2048x128, .f32⟩ : BufTy).Contents (Elt F) → (⟨S8x2048x128, .f32⟩ : BufTy).Contents (Elt F) → (⟨S8x2048x128, .f32⟩ : BufTy).Contents (Elt F)),
    nullary main_cst_166 (constant S_ .f32 0x00000000#32),
    unary main_cst_166 main_v487 (broadcastInDim S8x2048 ![] bcast_S_S8x2048 : (⟨S_, .f32⟩ : BufTy).Contents (Elt F) → (⟨S8x2048, .f32⟩ : BufTy).Contents (Elt F)),
    binary main_v30 main_v487 main_v488 (addf : (⟨S8x2048, .f32⟩ : BufTy).Contents (Elt F) → (⟨S8x2048, .f32⟩ : BufTy).Contents (Elt F) → (⟨S8x2048, .f32⟩ : BufTy).Contents (Elt F)),
    nullary main_cst_167 (constant S_ .f32 0x3F800000#32),
    unary main_cst_167 main_v489 (broadcastInDim S8x2048 ![] bcast_S_S8x2048 : (⟨S_, .f32⟩ : BufTy).Contents (Elt F) → (⟨S8x2048, .f32⟩ : BufTy).Contents (Elt F)) ]

set_option maxRecDepth 8192 in
/-- The window is its segments one after the other. -/
theorem ops_part10_segs : (ops_part10 : List (HloOp τ sig (Elt F))) = seg20 ++ (seg21 ++ (seg22)) := rfl

/-- The buffers that segment 20's operations write. -/
abbrev seg20_W : List (Ref sig .tc) := [main_v446, main_v447, main_v448, main_c_152, main_c_153, main_call15_v0, main_call15_v1, main_call15_v2, main_call15_v3, main_call15_v4, main_v449, main_v450, main_c_154, main_c_155, main_call16_v0, main_call16_v1, main_call16_v2, main_call16_v3, main_call16_v4, main_v451, main_v452, main_c_156, main_c_157, main_call17_v0, main_call17_v1, main_call17_v2, main_call17_v3, main_call17_v4, main_v453, main_v454, main_c_158, main_v455, main_v456, main_c_159, main_v457, main_v458, main_v459, main_c_160, main_v460, main_v461, main_c_161, main_v462, main_v463, main_v464, main_c_162, main_v465, main_v466, main_c_163, main_v467, main_v468, main_v469, main_c_164, main_v470, main_v471, main_c_165, main_v472, main_v473, main_v474, main_v475, main_v476, main_v477, main_v478]
set_option maxRecDepth 8192 in
theorem seg20_writes : (seg20 : List (HloOp τ sig (Elt F))).Forall fun op => op.writes ⊆ (seg20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 20 does not write keeps its contents through it. -/
theorem seg20_keep (W : Valuation τ sig (Elt F)) (r : Ref sig .tc) (h : r ∉ seg20_W) :
    after seg20 W (Proc.devRef .tc r) = W (Proc.devRef .tc r) :=
  after_of_writes_sub seg20 _ seg20_writes h

set_option maxRecDepth 8192 in
set_option maxHeartbeats 2000000 in
theorem seg20_main_v448 (W V0 : Valuation τ sig (Elt F))
    (h_main_cst_151 : W (no_index (Proc.devRef .tc main_cst_151)) = val_main_cst_151 (F := F))
    (h_main_v417 : W (no_index (Proc.devRef .tc main_v417)) = val_main_v417 (F := F) (V0 (Proc.devRef .tc main_arg0)) (V0 (Proc.devRef .tc main_arg1)) (V0 (Proc.devRef .tc main_arg3)))
    (h_main_v445 : W (no_index (Proc.devRef .tc main_v445)) = val_main_v445 (F := F) (V0 (Proc.devRef .tc main_arg0)) (V0 (Proc.devRef .tc main_arg1)) (V0 (Proc.devRef .tc main_arg3)))
    : after seg20 W (no_index (Proc.devRef .tc main_v448)) = val_main_v448 (F := F) (V0 (Proc.devRef .tc main_arg0)) (V0 (Proc.devRef .tc main_arg1)) (V0 (Proc.devRef .tc main_arg3)) := by
  simp only [seg20]
  after_results_simp
  simp only [h_main_cst_151, h_main_v417, h_main_v445] <;> rfl
set_option maxRecDepth 8192 in
set_option maxHeartbeats 2000000 in
theorem seg20_main_v475 (W V0 : Valuation τ sig (Elt F))
    (h_main_v35 : W (no_index (Proc.devRef .tc main_v35)) = val_main_v35 (F := F))
    : after seg20 W (no_index (Proc.devRef .tc main_v475)) = val_main_v475 (F := F) := by
  simp only [seg20]
  after_results_simp
  simp only [h_main_v35] <;> rfl
set_option maxRecDepth 8192 in
set_option maxHeartbeats 2000000 in
theorem seg20_main_v476 (W V0 : Valuation τ sig (Elt F))
    (h_main_v417 : W (no_index (Proc.devRef .tc main_v417)) = val_main_v417 (F := F) (V0 (Proc.devRef .tc main_arg0)) (V0 (Proc.devRef .tc main_arg1)) (V0 (Proc.devRef .tc main_arg3)))
    : after seg20 W (no_index (Proc.devRef .tc main_v476)) = val_main_v476 (F := F) (V0 (Proc.devRef .tc main_arg0)) (V0 (Proc.devRef .tc main_arg1)) (V0 (Proc.devRef .tc main_arg3)) := by
  simp only [seg20]
  after_results_simp
  simp only [h_main_v417] <;> rfl
set_option maxRecDepth 8192 in
set_option maxHeartbeats 2000000 in
theorem seg20_main_v477 (W V0 : Valuation τ sig (Elt F))
    (h_main_v415 : W (no_index (Proc.devRef .tc main_v415)) = val_main_v415 (F := F) (V0 (Proc.devRef .tc main_arg0)) (V0 (Proc.devRef .tc main_arg1)) (V0 (Proc.devRef .tc main_arg3)))
    : after seg20 W (no_index (Proc.devRef .tc main_v477)) = val_main_v477 (F := F) (V0 (Proc.devRef .tc main_arg0)) (V0 (Proc.devRef .tc main_arg1)) (V0 (Proc.devRef .tc main_arg3)) := by
  simp only [seg20]
  after_results_simp
  simp only [h_main_v415] <;> rfl
set_option maxRecDepth 8192 in
set_option maxHeartbeats 2000000 in
theorem seg20_main_v478 (W V0 : Valuation τ sig (Elt F))
    (h_main_v413 : W (no_index (Proc.devRef .tc main_v413)) = val_main_v413 (F := F) (V0 (Proc.devRef .tc main_arg0)) (V0 (Proc.devRef .tc main_arg1)) (V0 (Proc.devRef .tc main_arg3)))
    : after seg20 W (no_index (Proc.devRef .tc main_v478)) = val_main_v478 (F := F) (V0 (Proc.devRef .tc main_arg0)) (V0 (Proc.devRef .tc main_arg1)) (V0 (Proc.devRef .tc main_arg3)) := by
  simp only [seg20]
  after_results_simp
  simp only [h_main_v413] <;> rfl

/-- The buffers that segment 21's operations write. -/
abbrev seg21_W : List (Ref sig .tc) := [main_v479]
set_option maxRecDepth 8192 in
theorem seg21_writes : (seg21 : List (HloOp τ sig (Elt F))).Forall fun op => op.writes ⊆ (seg21_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 21 does not write keeps its contents through it. -/
theorem seg21_keep (W : Valuation τ sig (Elt F)) (r : Ref sig .tc) (h : r ∉ seg21_W) :
    after seg21 W (Proc.devRef .tc r) = W (Proc.devRef .tc r) :=
  after_of_writes_sub seg21 _ seg21_writes h

/-- The concatenation `main_v479`, given its operands' contents. -/
theorem cat_main_v479 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v475)) = v0) (h1 : G (no_index (Proc.devRef .tc main_v476)) = v1) (h2 : G (no_index (Proc.devRef .tc main_v477)) = v2) (h3 : G (no_index (Proc.devRef .tc main_v478)) = v3) :
    (nary ![main_v475, main_v476, main_v477, main_v478] main_v479 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v479))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg21_main_v479 (W V0 : Valuation τ sig (Elt F))
    (h_main_v478 : W (no_index (Proc.devRef .tc main_v478)) = val_main_v478 (F := F) (V0 (Proc.devRef .tc main_arg0)) (V0 (Proc.devRef .tc main_arg1)) (V0 (Proc.devRef .tc main_arg3)))
    (h_main_v477 : W (no_index (Proc.devRef .tc main_v477)) = val_main_v477 (F := F) (V0 (Proc.devRef .tc main_arg0)) (V0 (Proc.devRef .tc main_arg1)) (V0 (Proc.devRef .tc main_arg3)))
    (h_main_v476 : W (no_index (Proc.devRef .tc main_v476)) = val_main_v476 (F := F) (V0 (Proc.devRef .tc main_arg0)) (V0 (Proc.devRef .tc main_arg1)) (V0 (Proc.devRef .tc main_arg3)))
    (h_main_v475 : W (no_index (Proc.devRef .tc main_v475)) = val_main_v475 (F := F))
    : after seg21 W (no_index (Proc.devRef .tc main_v479)) = val_main_v479 (F := F) (V0 (Proc.devRef .tc main_arg0)) (V0 (Proc.devRef .tc main_arg1)) (V0 (Proc.devRef .tc main_arg3)) :=
  cat_main_v479 W _ _ _ _ h_main_v475 h_main_v476 h_main_v477 h_main_v478

/-- The buffers that segment 22's operations write. -/
abbrev seg22_W : List (Ref sig .tc) := [main_v480, main_v481, main_v482, main_v483, main_v484, main_v485, main_v486, main_cst_166, main_v487, main_v488, main_cst_167, main_v489]
set_option maxRecDepth 8192 in
theorem seg22_writes : (seg22 : List (HloOp τ sig (Elt F))).Forall fun op => op.writes ⊆ (seg22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 22 does not write keeps its contents through it. -/
theorem seg22_keep (W : Valuation τ sig (Elt F)) (r : Ref sig .tc) (h : r ∉ seg22_W) :
    after seg22 W (Proc.devRef .tc r) = W (Proc.devRef .tc r) :=
  after_of_writes_sub seg22 _ seg22_writes h

set_option maxRecDepth 8192 in
set_option maxHeartbeats 1200000 in
theorem seg22_main_v486 (W V0 : Valuation τ sig (Elt F))
    (h_main_v448 : W (no_index (Proc.devRef .tc main_v448)) = val_main_v448 (F := F) (V0 (Proc.devRef .tc main_arg0)) (V0 (Proc.devRef .tc main_arg1)) (V0 (Proc.devRef .tc main_arg3)))
    (h_main_v431 : W (no_index (Proc.devRef .tc main_v431)) = val_main_v431 (F := F) (V0 (Proc.devRef .tc main_arg0)) (V0 (Proc.devRef .tc main_arg1)) (V0 (Proc.devRef .tc main_arg3)))
    (h_main_v479 : W (no_index (Proc.devRef .tc main_v479)) = val_main_v479 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v411 : W (no_index (Proc.devRef .tc main_v411)) = val_main_v411 (F := F) (V0 (Proc.devRef .tc main_arg0)) (V0 (Proc.devRef .tc main_arg1)) (V0 (Proc.devRef .tc main_arg2)) (V0 (Proc.devRef .tc main_arg3)))
    : after seg22 W (no_index (Proc.devRef .tc main_v486)) = val_main_v486 (F := F) (V0 (Proc.devRef .tc main_arg0)) (V0 (Proc.devRef .tc main_arg1)) (V0 (Proc.devRef .tc main_arg2)) (V0 (Proc.devRef .tc main_arg3)) := by
  simp only [seg22]
  after_results_simp
  simp only [h_main_v448, h_main_v431, h_main_v479, h_main_arg2, h_main_v411] <;> rfl
set_option maxRecDepth 8192 in
set_option maxHeartbeats 1200000 in
theorem seg22_main_v488 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg22 W (no_index (Proc.devRef .tc main_v488)) = val_main_v488 (F := F) (V0 (Proc.devRef .tc main_arg0)) (V0 (Proc.devRef .tc main_arg1)) (V0 (Proc.devRef .tc main_arg3)) := by
  simp only [seg22]
  after_results_simp
  simp only [h_main_v30] <;> rfl
set_option maxRecDepth 8192 in
set_option maxHeartbeats 1200000 in
theorem seg22_main_v489 (W V0 : Valuation τ sig (Elt F))
    : after seg22 W (no_index (Proc.devRef .tc main_v489)) = val_main_v489 (F := F) := by
  simp only [seg22]
  after_results_simp
  all_goals rfl

end Cert.Proof.Ref

end
-- ==== Proof.Ref.Win11.lean ====
/-
   Window main_part11 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 23: @main's operations 751 … 825 of 978. -/
abbrev seg23 : List (HloOp τ sig (Elt F)) :=
  [ binary main_v31 main_v489 main_v490 (addf : (⟨S8x2048, .f32⟩ : BufTy).Contents (Elt F) → (⟨S8x2048, .f32⟩ : BufTy).Contents (Elt F) → (⟨S8x2048, .f32⟩ : BufTy).Contents (Elt F)),
    nullary main_cst_168 (constant S_ .f32 0x3F800000#32),
    unary main_cst_168 main_v491 (broadcastInDim S8x2048 ![] bcast_S_S8x2048 : (⟨S_, .f32⟩ : BufTy).Contents (Elt F) → (⟨S8x2048, .f32⟩ : BufTy).Contents (Elt F)),
    binary main_v32 main_v491 main_v492 (addf : (⟨S8x2048, .f32⟩ : BufTy).Contents (Elt F) → (⟨S8x2048, .f32⟩ : BufTy).Contents (Elt F) → (⟨S8x2048, .f32⟩ : BufTy).Contents (Elt F)),
    binary main_v13 main_v488 main_v493 (subf : (⟨S8x2048, .f32⟩ : BufTy).Contents (Elt F) → (⟨S8x2048, .f32⟩ : BufTy).Contents (Elt F) → (⟨S8x2048, .f32⟩ : BufTy).Contents (Elt F)),
    unary main_v493 main_v494 (Host.absf : (⟨S8x2048, .f32⟩ : BufTy).Contents (Elt F) → (⟨S8x2048, .f32⟩ : BufTy).Contents (Elt F)),
    nullary main_cst_169 (constant S_ .f32 0x3F800000#32),
    unary main_cst_169 main_v495 (broadcastInDim S8x2048 ![] bcast_S_S8x2048 : (⟨S_, .f32⟩ : BufTy).Contents (Elt F) → (⟨S8x2048, .f32⟩ : BufTy).Contents (Elt F)),
    binary main_v495 main_v494 main_v496 (subf : (⟨S8x2048, .f32⟩ : BufTy).Contents (Elt F) → (⟨S8x2048, .f32⟩ : BufTy).Contents (Elt F) → (⟨S8x2048, .f32⟩ : BufTy).Contents (Elt F)),
    binary main_v21 main_v490 main_v497 (subf : (⟨S8x2048, .f32⟩ : BufTy).Contents (Elt F) → (⟨S8x2048, .f32⟩ : BufTy).Contents (Elt F) → (⟨S8x2048, .f32⟩ : BufTy).Contents (Elt F)),
    unary main_v497 main_v498 (Host.absf : (⟨S8x2048, .f32⟩ : BufTy).Contents (Elt F) → (⟨S8x2048, .f32⟩ : BufTy).Contents (Elt F)),
    nullary main_cst_170 (constant S_ .f32 0x3F800000#32),
    unary main_cst_170 main_v499 (broadcastInDim S8x2048 ![] bcast_S_S8x2048 : (⟨S_, .f32⟩ : BufTy).Contents (Elt F) → (⟨S8x2048, .f32⟩ : BufTy).Contents (Elt F)),
    binary main_v499 main_v498 main_v500 (subf : (⟨S8x2048, .f32⟩ : BufTy).Contents (Elt F) → (⟨S8x2048, .f32⟩ : BufTy).Contents (Elt F) → (⟨S8x2048, .f32⟩ : BufTy).Contents (Elt F)),
    binary main_v496 main_v500 main_v501 (mulf : (⟨S8x2048, .f32⟩ : BufTy).Contents (Elt F) → (⟨S8x2048, .f32⟩ : BufTy).Contents (Elt F) → (⟨S8x2048, .f32⟩ : BufTy).Contents (Elt F)),
    binary main_v29 main_v492 main_v502 (subf : (⟨S8x2048, .f32⟩ : BufTy).Contents (Elt F) → (⟨S8x2048, .f32⟩ : BufTy).Contents (Elt F) → (⟨S8x2048, .f32⟩ : BufTy).Contents (Elt F)),
    unary main_v502 main_v503 (Host.absf : (⟨S8x2048, .f32⟩ : BufTy).Contents (Elt F) → (⟨S8x2048, .f32⟩ : BufTy).Contents (Elt F)),
    nullary main_cst_171 (constant S_ .f32 0x3F800000#32),
    unary main_cst_171 main_v504 (broadcastInDim S8x2048 ![] bcast_S_S8x2048 : (⟨S_, .f32⟩ : BufTy).Contents (Elt F) → (⟨S8x2048, .f32⟩ : BufTy).Contents (Elt F)),
    binary main_v504 main_v503 main_v505 (subf : (⟨S8x2048, .f32⟩ : BufTy).Contents (Elt F) → (⟨S8x2048, .f32⟩ : BufTy).Contents (Elt F) → (⟨S8x2048, .f32⟩ : BufTy).Contents (Elt F)),
    binary main_v501 main_v505 main_v506 (mulf : (⟨S8x2048, .f32⟩ : BufTy).Contents (Elt F) → (⟨S8x2048, .f32⟩ : BufTy).Contents (Elt F) → (⟨S8x2048, .f32⟩ : BufTy).Contents (Elt F)),
    nullary main_cst_172 (constant S_ .f32 0x00000000#32),
    unary main_cst_172 main_v507 (broadcastInDim S8x2048 ![] bcast_S_S8x2048 : (⟨S_, .f32⟩ : BufTy).Contents (Elt F) → (⟨S8x2048, .f32⟩ : BufTy).Contents (Elt F)),
    binary main_v488 main_v507 main_v508 (cmpf .oge : (⟨S8x2048, .f32⟩ : BufTy).Contents (Elt F) → (⟨S8x2048, .f32⟩ : BufTy).Contents (Elt F) → (⟨S8x2048, .i1⟩ : BufTy).Contents (Elt F)),
    nullary main_cst_173 (constant S_ .f32 0x41F80000#32),
    unary main_cst_173 main_v509 (broadcastInDim S8x2048 ![] bcast_S_S8x2048 : (⟨S_, .f32⟩ : BufTy).Contents (Elt F) → (⟨S8x2048, .f32⟩ : BufTy).Contents (Elt F)),
    binary main_v488 main_v509 main_v510 (cmpf .ole : (⟨S8x2048, .f32⟩ : BufTy).Contents (Elt F) → (⟨S8x2048, .f32⟩ : BufTy).Contents (Elt F) → (⟨S8x2048, .i1⟩ : BufTy).Contents (Elt F)),
    binary main_v508 main_v510 main_v511 (andi : (⟨S8x2048, .i1⟩ : BufTy).Contents (Elt F) → (⟨S8x2048, .i1⟩ : BufTy).Contents (Elt F) → (⟨S8x2048, .i1⟩ : BufTy).Contents (Elt F)),
    nullary main_cst_174 (constant S_ .f32 0x00000000#32),
    unary main_cst_174 main_v512 (broadcastInDim S8x2048 ![] bcast_S_S8x2048 : (⟨S_, .f32⟩ : BufTy).Contents (Elt F) → (⟨S8x2048, .f32⟩ : BufTy).Contents (Elt F)),
    binary main_v490 main_v512 main_v513 (cmpf .oge : (⟨S8x2048, .f32⟩ : BufTy).Contents (Elt F) → (⟨S8x2048, .f32⟩ : BufTy).Contents (Elt F) → (⟨S8x2048, .i1⟩ : BufTy).Contents (Elt F)),
    binary main_v511 main_v513 main_v514 (andi : (⟨S8x2048, .i1⟩ : BufTy).Contents (Elt F) → (⟨S8x2048, .i1⟩ : BufTy).Contents (Elt F) → (⟨S8x2048, .i1⟩ : BufTy).Contents (Elt F)),
    nullary main_cst_175 (constant S_ .f32 0x41F80000#32),
    unary main_cst_175 main_v515 (broadcastInDim S8x2048 ![] bcast_S_S8x2048 : (⟨S_, .f32⟩ : BufTy).Contents (Elt F) → (⟨S8x2048, .f32⟩ : BufTy).Contents (Elt F)),
    binary main_v490 main_v515 main_v516 (cmpf .ole : (⟨S8x2048, .f32⟩ : BufTy).Contents (Elt F) → (⟨S8x2048, .f32⟩ : BufTy).Contents (Elt F) → (⟨S8x2048, .i1⟩ : BufTy).Contents (Elt F)),
    binary main_v514 main_v516 main_v517 (andi : (⟨S8x2048, .i1⟩ : BufTy).Contents (Elt F) → (⟨S8x2048, .i1⟩ : BufTy).Contents (Elt F) → (⟨S8x2048, .i1⟩ : BufTy).Contents (Elt F)),
    nullary main_cst_176 (constant S_ .f32 0x00000000#32),
    unary main_cst_176 main_v518 (broadcastInDim S8x2048 ![] bcast_S_S8x2048 : (⟨S_, .f32⟩ : BufTy).Contents (Elt F) → (⟨S8x2048, .f32⟩ : BufTy).Contents (Elt F)),
    binary main_v492 main_v518 main_v519 (cmpf .oge : (⟨S8x2048, .f32⟩ : BufTy).Contents (Elt F) → (⟨S8x2048, .f32⟩ : BufTy).Contents (Elt F) → (⟨S8x2048, .i1⟩ : BufTy).Contents (Elt F)),
    binary main_v517 main_v519 main_v520 (andi : (⟨S8x2048, .i1⟩ : BufTy).Contents (Elt F) → (⟨S8x2048, .i1⟩ : BufTy).Contents (Elt F) → (⟨S8x2048, .i1⟩ : BufTy).Contents (Elt F)),
    nullary main_cst_177 (constant S_ .f32 0x41F80000#32),
    unary main_cst_177 main_v521 (broadcastInDim S8x2048 ![] bcast_S_S8x2048 : (⟨S_, .f32⟩ : BufTy).Contents (Elt F) → (⟨S8x2048, .f32⟩ : BufTy).Contents (Elt F)),
    binary main_v492 main_v521 main_v522 (cmpf .ole : (⟨S8x2048, .f32⟩ : BufTy).Contents (Elt F) → (⟨S8x2048, .f32⟩ : BufTy).Contents (Elt F) → (⟨S8x2048, .i1⟩ : BufTy).Contents (Elt F)),
    binary main_v520 main_v522 main_v523 (andi : (⟨S8x2048, .i1⟩ : BufTy).Contents (Elt F) → (⟨S8x2048, .i1⟩ : BufTy).Contents (Elt F) → (⟨S8x2048, .i1⟩ : BufTy).Contents (Elt F)),
    nullary main_c_178 (constantI S_ 32 0#32),
    nullary main_c_179 (constantI S_ 32 31#32),
    TRef.unary (TRef.of (T := ⟨S_, .i32⟩) main_c_178) (TRef.of (T := ⟨S_, .f32⟩) main_call18_v0) (sitofp .f32),
    TRef.unary (TRef.of (T := ⟨S_, .f32⟩) main_call18_v0) (TRef.of (T := ⟨S8x2048, .f32⟩) main_call18_v1) (broadcastInDim S8x2048 ![] bcast_S_S8x2048),
    TRef.binary (TRef.of (T := ⟨S8x2048, .f32⟩) main_call18_v1) (TRef.of (T := ⟨S8x2048, .f32⟩) main_v488) (TRef.of (T := ⟨S8x2048, .f32⟩) main_call18_v2) maximumf,
    TRef.unary (TRef.of (T := ⟨S_, .i32⟩) main_c_179) (TRef.of (T := ⟨S_, .f32⟩) main_call18_v3) (sitofp .f32),
    TRef.unary (TRef.of (T := ⟨S_, .f32⟩) main_call18_v3) (TRef.of (T := ⟨S8x2048, .f32⟩) main_call18_v4) (broadcastInDim S8x2048 ![] bcast_S_S8x2048),
    TRef.binary (TRef.of (T := ⟨S8x2048, .f32⟩) main_call18_v4) (TRef.of (T := ⟨S8x2048, .f32⟩) main_call18_v2) (TRef.of (T := ⟨S8x2048, .f32⟩) main_v524) minimumf,
    unary main_v524 main_v525 (fptosi 32 : (⟨S8x2048, .f32⟩ : BufTy).Contents (Elt F) → (⟨S8x2048, .i32⟩ : BufTy).Contents (Elt F)),
    nullary main_c_180 (constantI S_ 32 0#32),
    nullary main_c_181 (constantI S_ 32 31#32),
    TRef.unary (TRef.of (T := ⟨S_, .i32⟩) main_c_180) (TRef.of (T := ⟨S_, .f32⟩) main_call19_v0) (sitofp .f32),
    TRef.unary (TRef.of (T := ⟨S_, .f32⟩) main_call19_v0) (TRef.of (T := ⟨S8x2048, .f32⟩) main_call19_v1) (broadcastInDim S8x2048 ![] bcast_S_S8x2048),
    TRef.binary (TRef.of (T := ⟨S8x2048, .f32⟩) main_call19_v1) (TRef.of (T := ⟨S8x2048, .f32⟩) main_v490) (TRef.of (T := ⟨S8x2048, .f32⟩) main_call19_v2) maximumf,
    TRef.unary (TRef.of (T := ⟨S_, .i32⟩) main_c_181) (TRef.of (T := ⟨S_, .f32⟩) main_call19_v3) (sitofp .f32),
    TRef.unary (TRef.of (T := ⟨S_, .f32⟩) main_call19_v3) (TRef.of (T := ⟨S8x2048, .f32⟩) main_call19_v4) (broadcastInDim S8x2048 ![] bcast_S_S8x2048),
    TRef.binary (TRef.of (T := ⟨S8x2048, .f32⟩) main_call19_v4) (TRef.of (T := ⟨S8x2048, .f32⟩) main_call19_v2) (TRef.of (T := ⟨S8x2048, .f32⟩) main_v526) minimumf,
    unary main_v526 main_v527 (fptosi 32 : (⟨S8x2048, .f32⟩ : BufTy).Contents (Elt F) → (⟨S8x2048, .i32⟩ : BufTy).Contents (Elt F)),
    nullary main_c_182 (constantI S_ 32 0#32),
    nullary main_c_183 (constantI S_ 32 31#32),
    TRef.unary (TRef.of (T := ⟨S_, .i32⟩) main_c_182) (TRef.of (T := ⟨S_, .f32⟩) main_call20_v0) (sitofp .f32),
    TRef.unary (TRef.of (T := ⟨S_, .f32⟩) main_call20_v0) (TRef.of (T := ⟨S8x2048, .f32⟩) main_call20_v1) (broadcastInDim S8x2048 ![] bcast_S_S8x2048),
    TRef.binary (TRef.of (T := ⟨S8x2048, .f32⟩) main_call20_v1) (TRef.of (T := ⟨S8x2048, .f32⟩) main_v492) (TRef.of (T := ⟨S8x2048, .f32⟩) main_call20_v2) maximumf,
    TRef.unary (TRef.of (T := ⟨S_, .i32⟩) main_c_183) (TRef.of (T := ⟨S_, .f32⟩) main_call20_v3) (sitofp .f32),
    TRef.unary (TRef.of (T := ⟨S_, .f32⟩) main_call20_v3) (TRef.of (T := ⟨S8x2048, .f32⟩) main_call20_v4) (broadcastInDim S8x2048 ![] bcast_S_S8x2048),
    TRef.binary (TRef.of (T := ⟨S8x2048, .f32⟩) main_call20_v4) (TRef.of (T := ⟨S8x2048, .f32⟩) main_call20_v2) (TRef.of (T := ⟨S8x2048, .f32⟩) main_v528) minimumf,
    unary main_v528 main_v529 (fptosi 32 : (⟨S8x2048, .f32⟩ : BufTy).Contents (Elt F) → (⟨S8x2048, .i32⟩ : BufTy).Contents (Elt F)),
    nullary main_c_184 (constantI S_ 32 0#32),
    unary main_c_184 main_v530 (broadcastInDim S8x2048 ![] bcast_S_S8x2048 : (⟨S_, .i32⟩ : BufTy).Contents (Elt F) → (⟨S8x2048, .i32⟩ : BufTy).Contents (Elt F)),
    binary main_v35 main_v530 main_v531 (cmpi .slt : (⟨S8x2048, .i32⟩ : BufTy).Contents (Elt F) → (⟨S8x2048, .i32⟩ : BufTy).Contents (Elt F) → (⟨S8x2048, .i1⟩ : BufTy).Contents (Elt F)),
    nullary main_c_185 (constantI S_ 32 8#32) ]

set_option maxRecDepth 8192 in
/-- The window is its segments one after the other. -/
theorem ops_part11_segs : (ops_part11 : List (HloOp τ sig (Elt F))) = seg23 := rfl

/-- The buffers that segment 23's operations write. -/
abbrev seg23_W : List (Ref sig .tc) := [main_v490, main_cst_168, main_v491, main_v492, main_v493, main_v494, main_cst_169, main_v495, main_v496, main_v497, main_v498, main_cst_170, main_v499, main_v500, main_v501, main_v502, main_v503, main_cst_171, main_v504, main_v505, main_v506, main_cst_172, main_v507, main_v508, main_cst_173, main_v509, main_v510, main_v511, main_cst_174, main_v512, main_v513, main_v514, main_cst_175, main_v515, main_v516, main_v517, main_cst_176, main_v518, main_v519, main_v520, main_cst_177, main_v521, main_v522, main_v523, main_c_178, main_c_179, main_call18_v0, main_call18_v1, main_call18_v2, main_call18_v3, main_call18_v4, main_v524, main_v525, main_c_180, main_c_181, main_call19_v0, main_call19_v1, main_call19_v2, main_call19_v3, main_call19_v4, main_v526, main_v527, main_c_182, main_c_183, main_call20_v0, main_call20_v1, main_call20_v2, main_call20_v3, main_call20_v4, main_v528, main_v529, main_c_184, main_v530, main_v531, main_c_185]
set_option maxRecDepth 8192 in
theorem seg23_writes : (seg23 : List (HloOp τ sig (Elt F))).Forall fun op => op.writes ⊆ (seg23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 23 does not write keeps its contents through it. -/
theorem seg23_keep (W : Valuation τ sig (Elt F)) (r : Ref sig .tc) (h : r ∉ seg23_W) :
    after seg23 W (Proc.devRef .tc r) = W (Proc.devRef .tc r) :=
  after_of_writes_sub seg23 _ seg23_writes h

set_option maxRecDepth 8192 in
set_option maxHeartbeats 2000000 in
theorem seg23_main_v506 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    (h_main_v489 : W (no_index (Proc.devRef .tc main_v489)) = val_main_v489 (F := F))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v488 : W (no_index (Proc.devRef .tc main_v488)) = val_main_v488 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg23 W (no_index (Proc.devRef .tc main_v506)) = val_main_v506 (F := F) (V0 (Proc.devRef .tc main_arg0)) (V0 (Proc.devRef .tc main_arg1)) (V0 (Proc.devRef .tc main_arg3)) := by
  simp only [seg23]
  after_results_simp
  simp only [h_main_v32, h_main_v29, h_main_v489, h_main_v31, h_main_v21, h_main_v488, h_main_v13] <;> rfl
set_option maxRecDepth 8192 in
set_option maxHeartbeats 2000000 in
theorem seg23_main_v523 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v489 : W (no_index (Proc.devRef .tc main_v489)) = val_main_v489 (F := F))
    (h_main_v31 : W (no_index (Proc.devRef .tc main_v31)) = val_main_v31 (F := F) (V0 (Proc.devRef .tc main_arg0)) (V0 (Proc.devRef .tc main_arg1)) (V0 (Proc.devRef .tc main_arg3)))
    (h_main_v488 : W (no_index (Proc.devRef .tc main_v488)) = val_main_v488 (F := F) (V0 (Proc.devRef .tc main_arg0)) (V0 (Proc.devRef .tc main_arg1)) (V0 (Proc.devRef .tc main_arg3)))
    : after seg23 W (no_index (Proc.devRef .tc main_v523)) = val_main_v523 (F := F) (V0 (Proc.devRef .tc main_arg0)) (V0 (Proc.devRef .tc main_arg1)) (V0 (Proc.devRef .tc main_arg3)) := by
  simp only [seg23]
  after_results_simp
  simp only [h_main_v32, h_main_v489, h_main_v31, h_main_v488] <;> rfl
set_option maxRecDepth 8192 in
set_option maxHeartbeats 2000000 in
theorem seg23_main_v525 (W V0 : Valuation τ sig (Elt F))
    (h_main_v488 : W (no_index (Proc.devRef .tc main_v488)) = val_main_v488 (F := F) (V0 (Proc.devRef .tc main_arg0)) (V0 (Proc.devRef .tc main_arg1)) (V0 (Proc.devRef .tc main_arg3)))
    : after seg23 W (no_index (Proc.devRef .tc main_v525)) = val_main_v525 (F := F) (V0 (Proc.devRef .tc main_arg0)) (V0 (Proc.devRef .tc main_arg1)) (V0 (Proc.devRef .tc main_arg3)) := by
  simp only [seg23]
  after_results_simp
  simp only [h_main_v488] <;> rfl
set_option maxRecDepth 8192 in
set_option maxHeartbeats 2000000 in
theorem seg23_main_v527 (W V0 : Valuation τ sig (Elt F))
    (h_main_v489 : W (no_index (Proc.devRef .tc main_v489)) = val_main_v489 (F := F))
    (h_main_v31 : W (no_index (Proc.devRef .tc main_v31)) = val_main_v31 (F := F) (V0 (Proc.devRef .tc main_arg0)) (V0 (Proc.devRef .tc main_arg1)) (V0 (Proc.devRef .tc main_arg3)))
    : after seg23 W (no_index (Proc.devRef .tc main_v527)) = val_main_v527 (F := F) (V0 (Proc.devRef .tc main_arg0)) (V0 (Proc.devRef .tc main_arg1)) (V0 (Proc.devRef .tc main_arg3)) := by
  simp only [seg23]
  after_results_simp
  simp only [h_main_v489, h_main_v31] <;> rfl
set_option maxRecDepth 8192 in
set_option maxHeartbeats 2000000 in
theorem seg23_main_v529 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg23 W (no_index (Proc.devRef .tc main_v529)) = val_main_v529 (F := F) (V0 (Proc.devRef .tc main_arg0)) (V0 (Proc.devRef .tc main_arg1)) (V0 (Proc.devRef .tc main_arg3)) := by
  simp only [seg23]
  after_results_simp
  simp only [h_main_v32] <;> rfl
set_option maxRecDepth 8192 in
set_option maxHeartbeats 2000000 in
theorem seg23_main_v531 (W V0 : Valuation τ sig (Elt F))
    (h_main_v35 : W (no_index (Proc.devRef .tc main_v35)) = val_main_v35 (F := F))
    : after seg23 W (no_index (Proc.devRef .tc main_v531)) = val_main_v531 (F := F) := by
  simp only [seg23]
  after_results_simp
  simp only [h_main_v35] <;> rfl
set_option maxRecDepth 8192 in
set_option maxHeartbeats 2000000 in
theorem seg23_main_c_185 (W V0 : Valuation τ sig (Elt F))
    : after seg23 W (no_index (Proc.devRef .tc main_c_185)) = val_main_c_185 (F := F) := by
  simp only [seg23]
  after_results_simp
  all_goals rfl

end Cert.Proof.Ref

end
-- ==== Proof.Ref.Win12.lean ====
/-
   Window main_part12 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 24: @main's operations 826 … 853 of 978. -/
abbrev seg24 : List (HloOp τ sig (Elt F)) :=
  [ unary main_c_185 main_v532 (broadcastInDim S8x2048 ![] bcast_S_S8x2048 : (⟨S_, .i32⟩ : BufTy).Contents (Elt F) → (⟨S8x2048, .i32⟩ : BufTy).Contents (Elt F)),
    binary main_v35 main_v532 main_v533 (addi : (⟨S8x2048, .i32⟩ : BufTy).Contents (Elt F) → (⟨S8x2048, .i32⟩ : BufTy).Contents (Elt F) → (⟨S8x2048, .i32⟩ : BufTy).Contents (Elt F)),
    ternary main_v531 main_v533 main_v35 main_v534 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_186 (constantI S_ 32 0#32),
    unary main_c_186 main_v535 (broadcastInDim S8x2048 ![] bcast_S_S8x2048 : (⟨S_, .i32⟩ : BufTy).Contents (Elt F) → (⟨S8x2048, .i32⟩ : BufTy).Contents (Elt F)),
    binary main_v529 main_v535 main_v536 (cmpi .slt : (⟨S8x2048, .i32⟩ : BufTy).Contents (Elt F) → (⟨S8x2048, .i32⟩ : BufTy).Contents (Elt F) → (⟨S8x2048, .i1⟩ : BufTy).Contents (Elt F)),
    nullary main_c_187 (constantI S_ 32 32#32),
    unary main_c_187 main_v537 (broadcastInDim S8x2048 ![] bcast_S_S8x2048 : (⟨S_, .i32⟩ : BufTy).Contents (Elt F) → (⟨S8x2048, .i32⟩ : BufTy).Contents (Elt F)),
    binary main_v529 main_v537 main_v538 (addi : (⟨S8x2048, .i32⟩ : BufTy).Contents (Elt F) → (⟨S8x2048, .i32⟩ : BufTy).Contents (Elt F) → (⟨S8x2048, .i32⟩ : BufTy).Contents (Elt F)),
    ternary main_v536 main_v538 main_v529 main_v539 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_188 (constantI S_ 32 0#32),
    unary main_c_188 main_v540 (broadcastInDim S8x2048 ![] bcast_S_S8x2048 : (⟨S_, .i32⟩ : BufTy).Contents (Elt F) → (⟨S8x2048, .i32⟩ : BufTy).Contents (Elt F)),
    binary main_v527 main_v540 main_v541 (cmpi .slt : (⟨S8x2048, .i32⟩ : BufTy).Contents (Elt F) → (⟨S8x2048, .i32⟩ : BufTy).Contents (Elt F) → (⟨S8x2048, .i1⟩ : BufTy).Contents (Elt F)),
    nullary main_c_189 (constantI S_ 32 32#32),
    unary main_c_189 main_v542 (broadcastInDim S8x2048 ![] bcast_S_S8x2048 : (⟨S_, .i32⟩ : BufTy).Contents (Elt F) → (⟨S8x2048, .i32⟩ : BufTy).Contents (Elt F)),
    binary main_v527 main_v542 main_v543 (addi : (⟨S8x2048, .i32⟩ : BufTy).Contents (Elt F) → (⟨S8x2048, .i32⟩ : BufTy).Contents (Elt F) → (⟨S8x2048, .i32⟩ : BufTy).Contents (Elt F)),
    ternary main_v541 main_v543 main_v527 main_v544 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_190 (constantI S_ 32 0#32),
    unary main_c_190 main_v545 (broadcastInDim S8x2048 ![] bcast_S_S8x2048 : (⟨S_, .i32⟩ : BufTy).Contents (Elt F) → (⟨S8x2048, .i32⟩ : BufTy).Contents (Elt F)),
    binary main_v525 main_v545 main_v546 (cmpi .slt : (⟨S8x2048, .i32⟩ : BufTy).Contents (Elt F) → (⟨S8x2048, .i32⟩ : BufTy).Contents (Elt F) → (⟨S8x2048, .i1⟩ : BufTy).Contents (Elt F)),
    nullary main_c_191 (constantI S_ 32 32#32),
    unary main_c_191 main_v547 (broadcastInDim S8x2048 ![] bcast_S_S8x2048 : (⟨S_, .i32⟩ : BufTy).Contents (Elt F) → (⟨S8x2048, .i32⟩ : BufTy).Contents (Elt F)),
    binary main_v525 main_v547 main_v548 (addi : (⟨S8x2048, .i32⟩ : BufTy).Contents (Elt F) → (⟨S8x2048, .i32⟩ : BufTy).Contents (Elt F) → (⟨S8x2048, .i32⟩ : BufTy).Contents (Elt F)),
    ternary main_v546 main_v548 main_v525 main_v549 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v534 main_v550 (broadcastInDim S8x2048x1 ![0, 1] bcast_S8x2048_S8x2048x1_0_1 : (⟨S8x2048, .i32⟩ : BufTy).Contents (Elt F) → (⟨S8x2048x1, .i32⟩ : BufTy).Contents (Elt F)),
    unary main_v539 main_v551 (broadcastInDim S8x2048x1 ![0, 1] bcast_S8x2048_S8x2048x1_0_1 : (⟨S8x2048, .i32⟩ : BufTy).Contents (Elt F) → (⟨S8x2048x1, .i32⟩ : BufTy).Contents (Elt F)),
    unary main_v544 main_v552 (broadcastInDim S8x2048x1 ![0, 1] bcast_S8x2048_S8x2048x1_0_1 : (⟨S8x2048, .i32⟩ : BufTy).Contents (Elt F) → (⟨S8x2048x1, .i32⟩ : BufTy).Contents (Elt F)),
    unary main_v549 main_v553 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 25: @main's operations 854 … 854 of 978. -/
abbrev seg25 : List (HloOp τ sig (Elt F)) :=
  [ nary ![main_v550, main_v551, main_v552, main_v553] main_v554 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 26: @main's operations 855 … 885 of 978. -/
abbrev seg26 : List (HloOp τ sig (Elt F)) :=
  [ binary main_arg2 main_v554 main_v555 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v523 main_v556 (uitofp .f32 : (⟨S8x2048, .i1⟩ : BufTy).Contents (Elt F) → (⟨S8x2048, .f32⟩ : BufTy).Contents (Elt F)),
    binary main_v506 main_v556 main_v557 (mulf : (⟨S8x2048, .f32⟩ : BufTy).Contents (Elt F) → (⟨S8x2048, .f32⟩ : BufTy).Contents (Elt F) → (⟨S8x2048, .f32⟩ : BufTy).Contents (Elt F)),
    unary main_v557 main_v558 (broadcastInDim S8x2048x1 ![0, 1] bcast_S8x2048_S8x2048x1_0_1 : (⟨S8x2048, .f32⟩ : BufTy).Contents (Elt F) → (⟨S8x2048x1, .f32⟩ : BufTy).Contents (Elt F)),
    unary main_v558 main_v559 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v555 main_v559 main_v560 (mulf : (⟨S8x2048x128, .f32⟩ : BufTy).Contents (Elt F) → (⟨S8x2048x128, .f32⟩ : BufTy).Contents (Elt F) → (⟨S8x2048x128, .f32⟩ : BufTy).Contents (Elt F)),
    binary main_v486 main_v560 main_v561 (addf : (⟨S8x2048x128, .f32⟩ : BufTy).Contents (Elt F) → (⟨S8x2048x128, .f32⟩ : BufTy).Contents (Elt F) → (⟨S8x2048x128, .f32⟩ : BufTy).Contents (Elt F)),
    nullary main_cst_192 (constant S_ .f32 0x3F800000#32),
    unary main_cst_192 main_v562 (broadcastInDim S8x2048 ![] bcast_S_S8x2048 : (⟨S_, .f32⟩ : BufTy).Contents (Elt F) → (⟨S8x2048, .f32⟩ : BufTy).Contents (Elt F)),
    binary main_v30 main_v562 main_v563 (addf : (⟨S8x2048, .f32⟩ : BufTy).Contents (Elt F) → (⟨S8x2048, .f32⟩ : BufTy).Contents (Elt F) → (⟨S8x2048, .f32⟩ : BufTy).Contents (Elt F)),
    nullary main_cst_193 (constant S_ .f32 0x3F800000#32),
    unary main_cst_193 main_v564 (broadcastInDim S8x2048 ![] bcast_S_S8x2048 : (⟨S_, .f32⟩ : BufTy).Contents (Elt F) → (⟨S8x2048, .f32⟩ : BufTy).Contents (Elt F)),
    binary main_v31 main_v564 main_v565 (addf : (⟨S8x2048, .f32⟩ : BufTy).Contents (Elt F) → (⟨S8x2048, .f32⟩ : BufTy).Contents (Elt F) → (⟨S8x2048, .f32⟩ : BufTy).Contents (Elt F)),
    nullary main_cst_194 (constant S_ .f32 0x3F800000#32),
    unary main_cst_194 main_v566 (broadcastInDim S8x2048 ![] bcast_S_S8x2048 : (⟨S_, .f32⟩ : BufTy).Contents (Elt F) → (⟨S8x2048, .f32⟩ : BufTy).Contents (Elt F)),
    binary main_v32 main_v566 main_v567 (addf : (⟨S8x2048, .f32⟩ : BufTy).Contents (Elt F) → (⟨S8x2048, .f32⟩ : BufTy).Contents (Elt F) → (⟨S8x2048, .f32⟩ : BufTy).Contents (Elt F)),
    binary main_v13 main_v563 main_v568 (subf : (⟨S8x2048, .f32⟩ : BufTy).Contents (Elt F) → (⟨S8x2048, .f32⟩ : BufTy).Contents (Elt F) → (⟨S8x2048, .f32⟩ : BufTy).Contents (Elt F)),
    unary main_v568 main_v569 (Host.absf : (⟨S8x2048, .f32⟩ : BufTy).Contents (Elt F) → (⟨S8x2048, .f32⟩ : BufTy).Contents (Elt F)),
    nullary main_cst_195 (constant S_ .f32 0x3F800000#32),
    unary main_cst_195 main_v570 (broadcastInDim S8x2048 ![] bcast_S_S8x2048 : (⟨S_, .f32⟩ : BufTy).Contents (Elt F) → (⟨S8x2048, .f32⟩ : BufTy).Contents (Elt F)),
    binary main_v570 main_v569 main_v571 (subf : (⟨S8x2048, .f32⟩ : BufTy).Contents (Elt F) → (⟨S8x2048, .f32⟩ : BufTy).Contents (Elt F) → (⟨S8x2048, .f32⟩ : BufTy).Contents (Elt F)),
    binary main_v21 main_v565 main_v572 (subf : (⟨S8x2048, .f32⟩ : BufTy).Contents (Elt F) → (⟨S8x2048, .f32⟩ : BufTy).Contents (Elt F) → (⟨S8x2048, .f32⟩ : BufTy).Contents (Elt F)),
    unary main_v572 main_v573 (Host.absf : (⟨S8x2048, .f32⟩ : BufTy).Contents (Elt F) → (⟨S8x2048, .f32⟩ : BufTy).Contents (Elt F)),
    nullary main_cst_196 (constant S_ .f32 0x3F800000#32),
    unary main_cst_196 main_v574 (broadcastInDim S8x2048 ![] bcast_S_S8x2048 : (⟨S_, .f32⟩ : BufTy).Contents (Elt F) → (⟨S8x2048, .f32⟩ : BufTy).Contents (Elt F)),
    binary main_v574 main_v573 main_v575 (subf : (⟨S8x2048, .f32⟩ : BufTy).Contents (Elt F) → (⟨S8x2048, .f32⟩ : BufTy).Contents (Elt F) → (⟨S8x2048, .f32⟩ : BufTy).Contents (Elt F)),
    binary main_v571 main_v575 main_v576 (mulf : (⟨S8x2048, .f32⟩ : BufTy).Contents (Elt F) → (⟨S8x2048, .f32⟩ : BufTy).Contents (Elt F) → (⟨S8x2048, .f32⟩ : BufTy).Contents (Elt F)),
    binary main_v29 main_v567 main_v577 (subf : (⟨S8x2048, .f32⟩ : BufTy).Contents (Elt F) → (⟨S8x2048, .f32⟩ : BufTy).Contents (Elt F) → (⟨S8x2048, .f32⟩ : BufTy).Contents (Elt F)),
    unary main_v577 main_v578 (Host.absf : (⟨S8x2048, .f32⟩ : BufTy).Contents (Elt F) → (⟨S8x2048, .f32⟩ : BufTy).Contents (Elt F)),
    nullary main_cst_197 (constant S_ .f32 0x3F800000#32),
    unary main_cst_197 main_v579 (broadcastInDim S8x2048 ![] bcast_S_S8x2048 : (⟨S_, .f32⟩ : BufTy).Contents (Elt F) → (⟨S8x2048, .f32⟩ : BufTy).Contents (Elt F)) ]

set_option maxRecDepth 8192 in
/-- The window is its segments one after the other. -/
theorem ops_part12_segs : (ops_part12 : List (HloOp τ sig (Elt F))) = seg24 ++ (seg25 ++ (seg26)) := rfl

/-- The buffers that segment 24's operations write. -/
abbrev seg24_W : List (Ref sig .tc) := [main_v532, main_v533, main_v534, main_c_186, main_v535, main_v536, main_c_187, main_v537, main_v538, main_v539, main_c_188, main_v540, main_v541, main_c_189, main_v542, main_v543, main_v544, main_c_190, main_v545, main_v546, main_c_191, main_v547, main_v548, main_v549, main_v550, main_v551, main_v552, main_v553]
set_option maxRecDepth 8192 in
theorem seg24_writes : (seg24 : List (HloOp τ sig (Elt F))).Forall fun op => op.writes ⊆ (seg24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 24 does not write keeps its contents through it. -/
theorem seg24_keep (W : Valuation τ sig (Elt F)) (r : Ref sig .tc) (h : r ∉ seg24_W) :
    after seg24 W (Proc.devRef .tc r) = W (Proc.devRef .tc r) :=
  after_of_writes_sub seg24 _ seg24_writes h

set_option maxRecDepth 8192 in
set_option maxHeartbeats 2000000 in
theorem seg24_main_v550 (W V0 : Valuation τ sig (Elt F))
    (h_main_v35 : W (no_index (Proc.devRef .tc main_v35)) = val_main_v35 (F := F))
    (h_main_c_185 : W (no_index (Proc.devRef .tc main_c_185)) = val_main_c_185 (F := F))
    (h_main_v531 : W (no_index (Proc.devRef .tc main_v531)) = val_main_v531 (F := F))
    : after seg24 W (no_index (Proc.devRef .tc main_v550)) = val_main_v550 (F := F) := by
  simp only [seg24]
  after_results_simp
  simp only [h_main_v35, h_main_c_185, h_main_v531] <;> rfl
set_option maxRecDepth 8192 in
set_option maxHeartbeats 2000000 in
theorem seg24_main_v551 (W V0 : Valuation τ sig (Elt F))
    (h_main_v529 : W (no_index (Proc.devRef .tc main_v529)) = val_main_v529 (F := F) (V0 (Proc.devRef .tc main_arg0)) (V0 (Proc.devRef .tc main_arg1)) (V0 (Proc.devRef .tc main_arg3)))
    : after seg24 W (no_index (Proc.devRef .tc main_v551)) = val_main_v551 (F := F) (V0 (Proc.devRef .tc main_arg0)) (V0 (Proc.devRef .tc main_arg1)) (V0 (Proc.devRef .tc main_arg3)) := by
  simp only [seg24]
  after_results_simp
  simp only [h_main_v529] <;> rfl
set_option maxRecDepth 8192 in
set_option maxHeartbeats 2000000 in
theorem seg24_main_v552 (W V0 : Valuation τ sig (Elt F))
    (h_main_v527 : W (no_index (Proc.devRef .tc main_v527)) = val_main_v527 (F := F) (V0 (Proc.devRef .tc main_arg0)) (V0 (Proc.devRef .tc main_arg1)) (V0 (Proc.devRef .tc main_arg3)))
    : after seg24 W (no_index (Proc.devRef .tc main_v552)) = val_main_v552 (F := F) (V0 (Proc.devRef .tc main_arg0)) (V0 (Proc.devRef .tc main_arg1)) (V0 (Proc.devRef .tc main_arg3)) := by
  simp only [seg24]
  after_results_simp
  simp only [h_main_v527] <;> rfl
set_option maxRecDepth 8192 in
set_option maxHeartbeats 2000000 in
theorem seg24_main_v553 (W V0 : Valuation τ sig (Elt F))
    (h_main_v525 : W (no_index (Proc.devRef .tc main_v525)) = val_main_v525 (F := F) (V0 (Proc.devRef .tc main_arg0)) (V0 (Proc.devRef .tc main_arg1)) (V0 (Proc.devRef .tc main_arg3)))
    : after seg24 W (no_index (Proc.devRef .tc main_v553)) = val_main_v553 (F := F) (V0 (Proc.devRef .tc main_arg0)) (V0 (Proc.devRef .tc main_arg1)) (V0 (Proc.devRef .tc main_arg3)) := by
  simp only [seg24]
  after_results_simp
  simp only [h_main_v525] <;> rfl

/-- The buffers that segment 25's operations write. -/
abbrev seg25_W : List (Ref sig .tc) := [main_v554]
set_option maxRecDepth 8192 in
theorem seg25_writes : (seg25 : List (HloOp τ sig (Elt F))).Forall fun op => op.writes ⊆ (seg25_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 25 does not write keeps its contents through it. -/
theorem seg25_keep (W : Valuation τ sig (Elt F)) (r : Ref sig .tc) (h : r ∉ seg25_W) :
    after seg25 W (Proc.devRef .tc r) = W (Proc.devRef .tc r) :=
  after_of_writes_sub seg25 _ seg25_writes h

/-- The concatenation `main_v554`, given its operands' contents. -/
theorem cat_main_v554 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v550)) = v0) (h1 : G (no_index (Proc.devRef .tc main_v551)) = v1) (h2 : G (no_index (Proc.devRef .tc main_v552)) = v2) (h3 : G (no_index (Proc.devRef .tc main_v553)) = v3) :
    (nary ![main_v550, main_v551, main_v552, main_v553] main_v554 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v554))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg25_main_v554 (W V0 : Valuation τ sig (Elt F))
    (h_main_v553 : W (no_index (Proc.devRef .tc main_v553)) = val_main_v553 (F := F) (V0 (Proc.devRef .tc main_arg0)) (V0 (Proc.devRef .tc main_arg1)) (V0 (Proc.devRef .tc main_arg3)))
    (h_main_v552 : W (no_index (Proc.devRef .tc main_v552)) = val_main_v552 (F := F) (V0 (Proc.devRef .tc main_arg0)) (V0 (Proc.devRef .tc main_arg1)) (V0 (Proc.devRef .tc main_arg3)))
    (h_main_v551 : W (no_index (Proc.devRef .tc main_v551)) = val_main_v551 (F := F) (V0 (Proc.devRef .tc main_arg0)) (V0 (Proc.devRef .tc main_arg1)) (V0 (Proc.devRef .tc main_arg3)))
    (h_main_v550 : W (no_index (Proc.devRef .tc main_v550)) = val_main_v550 (F := F))
    : after seg25 W (no_index (Proc.devRef .tc main_v554)) = val_main_v554 (F := F) (V0 (Proc.devRef .tc main_arg0)) (V0 (Proc.devRef .tc main_arg1)) (V0 (Proc.devRef .tc main_arg3)) :=
  cat_main_v554 W _ _ _ _ h_main_v550 h_main_v551 h_main_v552 h_main_v553

/-- The buffers that segment 26's operations write. -/
abbrev seg26_W : List (Ref sig .tc) := [main_v555, main_v556, main_v557, main_v558, main_v559, main_v560, main_v561, main_cst_192, main_v562, main_v563, main_cst_193, main_v564, main_v565, main_cst_194, main_v566, main_v567, main_v568, main_v569, main_cst_195, main_v570, main_v571, main_v572, main_v573, main_cst_196, main_v574, main_v575, main_v576, main_v577, main_v578, main_cst_197, main_v579]
set_option maxRecDepth 8192 in
theorem seg26_writes : (seg26 : List (HloOp τ sig (Elt F))).Forall fun op => op.writes ⊆ (seg26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 26 does not write keeps its contents through it. -/
theorem seg26_keep (W : Valuation τ sig (Elt F)) (r : Ref sig .tc) (h : r ∉ seg26_W) :
    after seg26 W (Proc.devRef .tc r) = W (Proc.devRef .tc r) :=
  after_of_writes_sub seg26 _ seg26_writes h

set_option maxRecDepth 8192 in
set_option maxHeartbeats 2000000 in
theorem seg26_main_v561 (W V0 : Valuation τ sig (Elt F))
    (h_main_v523 : W (no_index (Proc.devRef .tc main_v523)) = val_main_v523 (F := F) (V0 (Proc.devRef .tc main_arg0)) (V0 (Proc.devRef .tc main_arg1)) (V0 (Proc.devRef .tc main_arg3)))
    (h_main_v506 : W (no_index (Proc.devRef .tc main_v506)) = val_main_v506 (F := F) (V0 (Proc.devRef .tc main_arg0)) (V0 (Proc.devRef .tc main_arg1)) (V0 (Proc.devRef .tc main_arg3)))
    (h_main_v554 : W (no_index (Proc.devRef .tc main_v554)) = val_main_v554 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v486 : W (no_index (Proc.devRef .tc main_v486)) = val_main_v486 (F := F) (V0 (Proc.devRef .tc main_arg0)) (V0 (Proc.devRef .tc main_arg1)) (V0 (Proc.devRef .tc main_arg2)) (V0 (Proc.devRef .tc main_arg3)))
    : after seg26 W (no_index (Proc.devRef .tc main_v561)) = val_main_v561 (F := F) (V0 (Proc.devRef .tc main_arg0)) (V0 (Proc.devRef .tc main_arg1)) (V0 (Proc.devRef .tc main_arg2)) (V0 (Proc.devRef .tc main_arg3)) := by
  simp only [seg26]
  after_results_simp
  simp only [h_main_v523, h_main_v506, h_main_v554, h_main_arg2, h_main_v486] <;> rfl
set_option maxRecDepth 8192 in
set_option maxHeartbeats 2000000 in
theorem seg26_main_v563 (W V0 : Valuation τ sig (Elt F))
    (h_main_v30 : W (no_index (Proc.devRef .tc main_v30)) = val_main_v30 (F := F) (V0 (Proc.devRef .tc main_arg0)) (V0 (Proc.devRef .tc main_arg1)) (V0 (Proc.devRef .tc main_arg3)))
    : after seg26 W (no_index (Proc.devRef .tc main_v563)) = val_main_v563 (F := F) (V0 (Proc.devRef .tc main_arg0)) (V0 (Proc.devRef .tc main_arg1)) (V0 (Proc.devRef .tc main_arg3)) := by
  simp only [seg26]
  after_results_simp
  simp only [h_main_v30] <;> rfl
set_option maxRecDepth 8192 in
set_option maxHeartbeats 2000000 in
theorem seg26_main_v565 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    : after seg26 W (no_index (Proc.devRef .tc main_v565)) = val_main_v565 (F := F) (V0 (Proc.devRef .tc main_arg0)) (V0 (Proc.devRef .tc main_arg1)) (V0 (Proc.devRef .tc main_arg3)) := by
  simp only [seg26]
  after_results_simp
  simp only [h_main_v31] <;> rfl
set_option maxRecDepth 8192 in
set_option maxHeartbeats 2000000 in
theorem seg26_main_v567 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    : after seg26 W (no_index (Proc.devRef .tc main_v567)) = val_main_v567 (F := F) (V0 (Proc.devRef .tc main_arg0)) (V0 (Proc.devRef .tc main_arg1)) (V0 (Proc.devRef .tc main_arg3)) := by
  simp only [seg26]
  after_results_simp
  simp only [h_main_v32] <;> rfl
set_option maxRecDepth 8192 in
set_option maxHeartbeats 2000000 in
theorem seg26_main_v576 (W V0 : Valuation τ sig (Elt F))
    (h_main_v31 : W (no_index (Proc.devRef .tc main_v31)) = val_main_v31 (F := F) (V0 (Proc.devRef .tc main_arg0)) (V0 (Proc.devRef .tc main_arg1)) (V0 (Proc.devRef .tc main_arg3)))
    (h_main_v21 : W (no_index (Proc.devRef .tc main_v21)) = val_main_v21 (F := F) (V0 (Proc.devRef .tc main_arg0)) (V0 (Proc.devRef .tc main_arg1)) (V0 (Proc.devRef .tc main_arg3)))
    (h_main_v30 : W (no_index (Proc.devRef .tc main_v30)) = val_main_v30 (F := F) (V0 (Proc.devRef .tc main_arg0)) (V0 (Proc.devRef .tc main_arg1)) (V0 (Proc.devRef .tc main_arg3)))
    (h_main_v13 : W (no_index (Proc.devRef .tc main_v13)) = val_main_v13 (F := F) (V0 (Proc.devRef .tc main_arg0)) (V0 (Proc.devRef .tc main_arg1)) (V0 (Proc.devRef .tc main_arg3)))
    : after seg26 W (no_index (Proc.devRef .tc main_v576)) = val_main_v576 (F := F) (V0 (Proc.devRef .tc main_arg0)) (V0 (Proc.devRef .tc main_arg1)) (V0 (Proc.devRef .tc main_arg3)) := by
  simp only [seg26]
  after_results_simp
  simp only [h_main_v31, h_main_v21, h_main_v30, h_main_v13] <;> rfl
set_option maxRecDepth 8192 in
set_option maxHeartbeats 2000000 in
theorem seg26_main_v578 (W V0 : Valuation τ sig (Elt F))
    (h_main_v32 : W (no_index (Proc.devRef .tc main_v32)) = val_main_v32 (F := F) (V0 (Proc.devRef .tc main_arg0)) (V0 (Proc.devRef .tc main_arg1)) (V0 (Proc.devRef .tc main_arg3)))
    (h_main_v29 : W (no_index (Proc.devRef .tc main_v29)) = val_main_v29 (F := F) (V0 (Proc.devRef .tc main_arg0)) (V0 (Proc.devRef .tc main_arg1)) (V0 (Proc.devRef .tc main_arg3)))
    : after seg26 W (no_index (Proc.devRef .tc main_v578)) = val_main_v578 (F := F) (V0 (Proc.devRef .tc main_arg0)) (V0 (Proc.devRef .tc main_arg1)) (V0 (Proc.devRef .tc main_arg3)) := by
  simp only [seg26]
  after_results_simp
  simp only [h_main_v32, h_main_v29] <;> rfl
set_option maxRecDepth 8192 in
set_option maxHeartbeats 2000000 in
theorem seg26_main_v579 (W V0 : Valuation τ sig (Elt F))
    : after seg26 W (no_index (Proc.devRef .tc main_v579)) = val_main_v579 (F := F) := by
  simp only [seg26]
  after_results_simp
  all_goals rfl

end Cert.Proof.Ref

end
-- ==== Proof.Ref.Win13.lean ====
/-
   Window main_part13 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 27: @main's operations 886 … 960 of 978. -/
abbrev seg27 : List (HloOp τ sig (Elt F)) :=
  [ binary main_v579 main_v578 main_v580 (subf : (⟨S8x2048, .f32⟩ : BufTy).Contents (Elt F) → (⟨S8x2048, .f32⟩ : BufTy).Contents (Elt F) → (⟨S8x2048, .f32⟩ : BufTy).Contents (Elt F)),
    binary main_v576 main_v580 main_v581 (mulf : (⟨S8x2048, .f32⟩ : BufTy).Contents (Elt F) → (⟨S8x2048, .f32⟩ : BufTy).Contents (Elt F) → (⟨S8x2048, .f32⟩ : BufTy).Contents (Elt F)),
    nullary main_cst_198 (constant S_ .f32 0x00000000#32),
    unary main_cst_198 main_v582 (broadcastInDim S8x2048 ![] bcast_S_S8x2048 : (⟨S_, .f32⟩ : BufTy).Contents (Elt F) → (⟨S8x2048, .f32⟩ : BufTy).Contents (Elt F)),
    binary main_v563 main_v582 main_v583 (cmpf .oge : (⟨S8x2048, .f32⟩ : BufTy).Contents (Elt F) → (⟨S8x2048, .f32⟩ : BufTy).Contents (Elt F) → (⟨S8x2048, .i1⟩ : BufTy).Contents (Elt F)),
    nullary main_cst_199 (constant S_ .f32 0x41F80000#32),
    unary main_cst_199 main_v584 (broadcastInDim S8x2048 ![] bcast_S_S8x2048 : (⟨S_, .f32⟩ : BufTy).Contents (Elt F) → (⟨S8x2048, .f32⟩ : BufTy).Contents (Elt F)),
    binary main_v563 main_v584 main_v585 (cmpf .ole : (⟨S8x2048, .f32⟩ : BufTy).Contents (Elt F) → (⟨S8x2048, .f32⟩ : BufTy).Contents (Elt F) → (⟨S8x2048, .i1⟩ : BufTy).Contents (Elt F)),
    binary main_v583 main_v585 main_v586 (andi : (⟨S8x2048, .i1⟩ : BufTy).Contents (Elt F) → (⟨S8x2048, .i1⟩ : BufTy).Contents (Elt F) → (⟨S8x2048, .i1⟩ : BufTy).Contents (Elt F)),
    nullary main_cst_200 (constant S_ .f32 0x00000000#32),
    unary main_cst_200 main_v587 (broadcastInDim S8x2048 ![] bcast_S_S8x2048 : (⟨S_, .f32⟩ : BufTy).Contents (Elt F) → (⟨S8x2048, .f32⟩ : BufTy).Contents (Elt F)),
    binary main_v565 main_v587 main_v588 (cmpf .oge : (⟨S8x2048, .f32⟩ : BufTy).Contents (Elt F) → (⟨S8x2048, .f32⟩ : BufTy).Contents (Elt F) → (⟨S8x2048, .i1⟩ : BufTy).Contents (Elt F)),
    binary main_v586 main_v588 main_v589 (andi : (⟨S8x2048, .i1⟩ : BufTy).Contents (Elt F) → (⟨S8x2048, .i1⟩ : BufTy).Contents (Elt F) → (⟨S8x2048, .i1⟩ : BufTy).Contents (Elt F)),
    nullary main_cst_201 (constant S_ .f32 0x41F80000#32),
    unary main_cst_201 main_v590 (broadcastInDim S8x2048 ![] bcast_S_S8x2048 : (⟨S_, .f32⟩ : BufTy).Contents (Elt F) → (⟨S8x2048, .f32⟩ : BufTy).Contents (Elt F)),
    binary main_v565 main_v590 main_v591 (cmpf .ole : (⟨S8x2048, .f32⟩ : BufTy).Contents (Elt F) → (⟨S8x2048, .f32⟩ : BufTy).Contents (Elt F) → (⟨S8x2048, .i1⟩ : BufTy).Contents (Elt F)),
    binary main_v589 main_v591 main_v592 (andi : (⟨S8x2048, .i1⟩ : BufTy).Contents (Elt F) → (⟨S8x2048, .i1⟩ : BufTy).Contents (Elt F) → (⟨S8x2048, .i1⟩ : BufTy).Contents (Elt F)),
    nullary main_cst_202 (constant S_ .f32 0x00000000#32),
    unary main_cst_202 main_v593 (broadcastInDim S8x2048 ![] bcast_S_S8x2048 : (⟨S_, .f32⟩ : BufTy).Contents (Elt F) → (⟨S8x2048, .f32⟩ : BufTy).Contents (Elt F)),
    binary main_v567 main_v593 main_v594 (cmpf .oge : (⟨S8x2048, .f32⟩ : BufTy).Contents (Elt F) → (⟨S8x2048, .f32⟩ : BufTy).Contents (Elt F) → (⟨S8x2048, .i1⟩ : BufTy).Contents (Elt F)),
    binary main_v592 main_v594 main_v595 (andi : (⟨S8x2048, .i1⟩ : BufTy).Contents (Elt F) → (⟨S8x2048, .i1⟩ : BufTy).Contents (Elt F) → (⟨S8x2048, .i1⟩ : BufTy).Contents (Elt F)),
    nullary main_cst_203 (constant S_ .f32 0x41F80000#32),
    unary main_cst_203 main_v596 (broadcastInDim S8x2048 ![] bcast_S_S8x2048 : (⟨S_, .f32⟩ : BufTy).Contents (Elt F) → (⟨S8x2048, .f32⟩ : BufTy).Contents (Elt F)),
    binary main_v567 main_v596 main_v597 (cmpf .ole : (⟨S8x2048, .f32⟩ : BufTy).Contents (Elt F) → (⟨S8x2048, .f32⟩ : BufTy).Contents (Elt F) → (⟨S8x2048, .i1⟩ : BufTy).Contents (Elt F)),
    binary main_v595 main_v597 main_v598 (andi : (⟨S8x2048, .i1⟩ : BufTy).Contents (Elt F) → (⟨S8x2048, .i1⟩ : BufTy).Contents (Elt F) → (⟨S8x2048, .i1⟩ : BufTy).Contents (Elt F)),
    nullary main_c_204 (constantI S_ 32 0#32),
    nullary main_c_205 (constantI S_ 32 31#32),
    TRef.unary (TRef.of (T := ⟨S_, .i32⟩) main_c_204) (TRef.of (T := ⟨S_, .f32⟩) main_call21_v0) (sitofp .f32),
    TRef.unary (TRef.of (T := ⟨S_, .f32⟩) main_call21_v0) (TRef.of (T := ⟨S8x2048, .f32⟩) main_call21_v1) (broadcastInDim S8x2048 ![] bcast_S_S8x2048),
    TRef.binary (TRef.of (T := ⟨S8x2048, .f32⟩) main_call21_v1) (TRef.of (T := ⟨S8x2048, .f32⟩) main_v563) (TRef.of (T := ⟨S8x2048, .f32⟩) main_call21_v2) maximumf,
    TRef.unary (TRef.of (T := ⟨S_, .i32⟩) main_c_205) (TRef.of (T := ⟨S_, .f32⟩) main_call21_v3) (sitofp .f32),
    TRef.unary (TRef.of (T := ⟨S_, .f32⟩) main_call21_v3) (TRef.of (T := ⟨S8x2048, .f32⟩) main_call21_v4) (broadcastInDim S8x2048 ![] bcast_S_S8x2048),
    TRef.binary (TRef.of (T := ⟨S8x2048, .f32⟩) main_call21_v4) (TRef.of (T := ⟨S8x2048, .f32⟩) main_call21_v2) (TRef.of (T := ⟨S8x2048, .f32⟩) main_v599) minimumf,
    unary main_v599 main_v600 (fptosi 32 : (⟨S8x2048, .f32⟩ : BufTy).Contents (Elt F) → (⟨S8x2048, .i32⟩ : BufTy).Contents (Elt F)),
    nullary main_c_206 (constantI S_ 32 0#32),
    nullary main_c_207 (constantI S_ 32 31#32),
    TRef.unary (TRef.of (T := ⟨S_, .i32⟩) main_c_206) (TRef.of (T := ⟨S_, .f32⟩) main_call22_v0) (sitofp .f32),
    TRef.unary (TRef.of (T := ⟨S_, .f32⟩) main_call22_v0) (TRef.of (T := ⟨S8x2048, .f32⟩) main_call22_v1) (broadcastInDim S8x2048 ![] bcast_S_S8x2048),
    TRef.binary (TRef.of (T := ⟨S8x2048, .f32⟩) main_call22_v1) (TRef.of (T := ⟨S8x2048, .f32⟩) main_v565) (TRef.of (T := ⟨S8x2048, .f32⟩) main_call22_v2) maximumf,
    TRef.unary (TRef.of (T := ⟨S_, .i32⟩) main_c_207) (TRef.of (T := ⟨S_, .f32⟩) main_call22_v3) (sitofp .f32),
    TRef.unary (TRef.of (T := ⟨S_, .f32⟩) main_call22_v3) (TRef.of (T := ⟨S8x2048, .f32⟩) main_call22_v4) (broadcastInDim S8x2048 ![] bcast_S_S8x2048),
    TRef.binary (TRef.of (T := ⟨S8x2048, .f32⟩) main_call22_v4) (TRef.of (T := ⟨S8x2048, .f32⟩) main_call22_v2) (TRef.of (T := ⟨S8x2048, .f32⟩) main_v601) minimumf,
    unary main_v601 main_v602 (fptosi 32 : (⟨S8x2048, .f32⟩ : BufTy).Contents (Elt F) → (⟨S8x2048, .i32⟩ : BufTy).Contents (Elt F)),
    nullary main_c_208 (constantI S_ 32 0#32),
    nullary main_c_209 (constantI S_ 32 31#32),
    TRef.unary (TRef.of (T := ⟨S_, .i32⟩) main_c_208) (TRef.of (T := ⟨S_, .f32⟩) main_call23_v0) (sitofp .f32),
    TRef.unary (TRef.of (T := ⟨S_, .f32⟩) main_call23_v0) (TRef.of (T := ⟨S8x2048, .f32⟩) main_call23_v1) (broadcastInDim S8x2048 ![] bcast_S_S8x2048),
    TRef.binary (TRef.of (T := ⟨S8x2048, .f32⟩) main_call23_v1) (TRef.of (T := ⟨S8x2048, .f32⟩) main_v567) (TRef.of (T := ⟨S8x2048, .f32⟩) main_call23_v2) maximumf,
    TRef.unary (TRef.of (T := ⟨S_, .i32⟩) main_c_209) (TRef.of (T := ⟨S_, .f32⟩) main_call23_v3) (sitofp .f32),
    TRef.unary (TRef.of (T := ⟨S_, .f32⟩) main_call23_v3) (TRef.of (T := ⟨S8x2048, .f32⟩) main_call23_v4) (broadcastInDim S8x2048 ![] bcast_S_S8x2048),
    TRef.binary (TRef.of (T := ⟨S8x2048, .f32⟩) main_call23_v4) (TRef.of (T := ⟨S8x2048, .f32⟩) main_call23_v2) (TRef.of (T := ⟨S8x2048, .f32⟩) main_v603) minimumf,
    unary main_v603 main_v604 (fptosi 32 : (⟨S8x2048, .f32⟩ : BufTy).Contents (Elt F) → (⟨S8x2048, .i32⟩ : BufTy).Contents (Elt F)),
    nullary main_c_210 (constantI S_ 32 0#32),
    unary main_c_210 main_v605 (broadcastInDim S8x2048 ![] bcast_S_S8x2048 : (⟨S_, .i32⟩ : BufTy).Contents (Elt F) → (⟨S8x2048, .i32⟩ : BufTy).Contents (Elt F)),
    binary main_v35 main_v605 main_v606 (cmpi .slt : (⟨S8x2048, .i32⟩ : BufTy).Contents (Elt F) → (⟨S8x2048, .i32⟩ : BufTy).Contents (Elt F) → (⟨S8x2048, .i1⟩ : BufTy).Contents (Elt F)),
    nullary main_c_211 (constantI S_ 32 8#32),
    unary main_c_211 main_v607 (broadcastInDim S8x2048 ![] bcast_S_S8x2048 : (⟨S_, .i32⟩ : BufTy).Contents (Elt F) → (⟨S8x2048, .i32⟩ : BufTy).Contents (Elt F)),
    binary main_v35 main_v607 main_v608 (addi : (⟨S8x2048, .i32⟩ : BufTy).Contents (Elt F) → (⟨S8x2048, .i32⟩ : BufTy).Contents (Elt F) → (⟨S8x2048, .i32⟩ : BufTy).Contents (Elt F)),
    ternary main_v606 main_v608 main_v35 main_v609 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_212 (constantI S_ 32 0#32),
    unary main_c_212 main_v610 (broadcastInDim S8x2048 ![] bcast_S_S8x2048 : (⟨S_, .i32⟩ : BufTy).Contents (Elt F) → (⟨S8x2048, .i32⟩ : BufTy).Contents (Elt F)),
    binary main_v604 main_v610 main_v611 (cmpi .slt : (⟨S8x2048, .i32⟩ : BufTy).Contents (Elt F) → (⟨S8x2048, .i32⟩ : BufTy).Contents (Elt F) → (⟨S8x2048, .i1⟩ : BufTy).Contents (Elt F)),
    nullary main_c_213 (constantI S_ 32 32#32),
    unary main_c_213 main_v612 (broadcastInDim S8x2048 ![] bcast_S_S8x2048 : (⟨S_, .i32⟩ : BufTy).Contents (Elt F) → (⟨S8x2048, .i32⟩ : BufTy).Contents (Elt F)),
    binary main_v604 main_v612 main_v613 (addi : (⟨S8x2048, .i32⟩ : BufTy).Contents (Elt F) → (⟨S8x2048, .i32⟩ : BufTy).Contents (Elt F) → (⟨S8x2048, .i32⟩ : BufTy).Contents (Elt F)),
    ternary main_v611 main_v613 main_v604 main_v614 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_214 (constantI S_ 32 0#32),
    unary main_c_214 main_v615 (broadcastInDim S8x2048 ![] bcast_S_S8x2048 : (⟨S_, .i32⟩ : BufTy).Contents (Elt F) → (⟨S8x2048, .i32⟩ : BufTy).Contents (Elt F)),
    binary main_v602 main_v615 main_v616 (cmpi .slt : (⟨S8x2048, .i32⟩ : BufTy).Contents (Elt F) → (⟨S8x2048, .i32⟩ : BufTy).Contents (Elt F) → (⟨S8x2048, .i1⟩ : BufTy).Contents (Elt F)),
    nullary main_c_215 (constantI S_ 32 32#32),
    unary main_c_215 main_v617 (broadcastInDim S8x2048 ![] bcast_S_S8x2048 : (⟨S_, .i32⟩ : BufTy).Contents (Elt F) → (⟨S8x2048, .i32⟩ : BufTy).Contents (Elt F)),
    binary main_v602 main_v617 main_v618 (addi : (⟨S8x2048, .i32⟩ : BufTy).Contents (Elt F) → (⟨S8x2048, .i32⟩ : BufTy).Contents (Elt F) → (⟨S8x2048, .i32⟩ : BufTy).Contents (Elt F)),
    ternary main_v616 main_v618 main_v602 main_v619 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_216 (constantI S_ 32 0#32),
    unary main_c_216 main_v620 (broadcastInDim S8x2048 ![] bcast_S_S8x2048 : (⟨S_, .i32⟩ : BufTy).Contents (Elt F) → (⟨S8x2048, .i32⟩ : BufTy).Contents (Elt F)) ]

set_option maxRecDepth 8192 in
/-- The window is its segments one after the other. -/
theorem ops_part13_segs : (ops_part13 : List (HloOp τ sig (Elt F))) = seg27 := rfl

/-- The buffers that segment 27's operations write. -/
abbrev seg27_W : List (Ref sig .tc) := [main_v580, main_v581, main_cst_198, main_v582, main_v583, main_cst_199, main_v584, main_v585, main_v586, main_cst_200, main_v587, main_v588, main_v589, main_cst_201, main_v590, main_v591, main_v592, main_cst_202, main_v593, main_v594, main_v595, main_cst_203, main_v596, main_v597, main_v598, main_c_204, main_c_205, main_call21_v0, main_call21_v1, main_call21_v2, main_call21_v3, main_call21_v4, main_v599, main_v600, main_c_206, main_c_207, main_call22_v0, main_call22_v1, main_call22_v2, main_call22_v3, main_call22_v4, main_v601, main_v602, main_c_208, main_c_209, main_call23_v0, main_call23_v1, main_call23_v2, main_call23_v3, main_call23_v4, main_v603, main_v604, main_c_210, main_v605, main_v606, main_c_211, main_v607, main_v608, main_v609, main_c_212, main_v610, main_v611, main_c_213, main_v612, main_v613, main_v614, main_c_214, main_v615, main_v616, main_c_215, main_v617, main_v618, main_v619, main_c_216, main_v620]
set_option maxRecDepth 8192 in
theorem seg27_writes : (seg27 : List (HloOp τ sig (Elt F))).Forall fun op => op.writes ⊆ (seg27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 27 does not write keeps its contents through it. -/
theorem seg27_keep (W : Valuation τ sig (Elt F)) (r : Ref sig .tc) (h : r ∉ seg27_W) :
    after seg27 W (Proc.devRef .tc r) = W (Proc.devRef .tc r) :=
  after_of_writes_sub seg27 _ seg27_writes h

set_option maxRecDepth 8192 in
set_option maxHeartbeats 2000000 in
theorem seg27_main_v581 (W V0 : Valuation τ sig (Elt F))
    (h_main_v578 : W (no_index (Proc.devRef .tc main_v578)) = val_main_v578 (F := F) (V0 (Proc.devRef .tc main_arg0)) (V0 (Proc.devRef .tc main_arg1)) (V0 (Proc.devRef .tc main_arg3)))
    (h_main_v579 : W (no_index (Proc.devRef .tc main_v579)) = val_main_v579 (F := F))
    (h_main_v576 : W (no_index (Proc.devRef .tc main_v576)) = val_main_v576 (F := F) (V0 (Proc.devRef .tc main_arg0)) (V0 (Proc.devRef .tc main_arg1)) (V0 (Proc.devRef .tc main_arg3)))
    : after seg27 W (no_index (Proc.devRef .tc main_v581)) = val_main_v581 (F := F) (V0 (Proc.devRef .tc main_arg0)) (V0 (Proc.devRef .tc main_arg1)) (V0 (Proc.devRef .tc main_arg3)) := by
  simp only [seg27]
  after_results_simp
  simp only [h_main_v578, h_main_v579, h_main_v576] <;> rfl
set_option maxRecDepth 8192 in
set_option maxHeartbeats 2000000 in
theorem seg27_main_v598 (W V0 : Valuation τ sig (Elt F))
    (h_main_v567 : W (no_index (Proc.devRef .tc main_v567)) = val_main_v567 (F := F) (V0 (Proc.devRef .tc main_arg0)) (V0 (Proc.devRef .tc main_arg1)) (V0 (Proc.devRef .tc main_arg3)))
    (h_main_v565 : W (no_index (Proc.devRef .tc main_v565)) = val_main_v565 (F := F) (V0 (Proc.devRef .tc main_arg0)) (V0 (Proc.devRef .tc main_arg1)) (V0 (Proc.devRef .tc main_arg3)))
    (h_main_v563 : W (no_index (Proc.devRef .tc main_v563)) = val_main_v563 (F := F) (V0 (Proc.devRef .tc main_arg0)) (V0 (Proc.devRef .tc main_arg1)) (V0 (Proc.devRef .tc main_arg3)))
    : after seg27 W (no_index (Proc.devRef .tc main_v598)) = val_main_v598 (F := F) (V0 (Proc.devRef .tc main_arg0)) (V0 (Proc.devRef .tc main_arg1)) (V0 (Proc.devRef .tc main_arg3)) := by
  simp only [seg27]
  after_results_simp
  simp only [h_main_v567, h_main_v565, h_main_v563] <;> rfl
set_option maxRecDepth 8192 in
set_option maxHeartbeats 2000000 in
theorem seg27_main_v600 (W V0 : Valuation τ sig (Elt F))
    (h_main_v563 : W (no_index (Proc.devRef .tc main_v563)) = val_main_v563 (F := F) (V0 (Proc.devRef .tc main_arg0)) (V0 (Proc.devRef .tc main_arg1)) (V0 (Proc.devRef .tc main_arg3)))
    : after seg27 W (no_index (Proc.devRef .tc main_v600)) = val_main_v600 (F := F) (V0 (Proc.devRef .tc main_arg0)) (V0 (Proc.devRef .tc main_arg1)) (V0 (Proc.devRef .tc main_arg3)) := by
  simp only [seg27]
  after_results_simp
  simp only [h_main_v563] <;> rfl
set_option maxRecDepth 8192 in
set_option maxHeartbeats 2000000 in
theorem seg27_main_v609 (W V0 : Valuation τ sig (Elt F))
    (h_main_v35 : W (no_index (Proc.devRef .tc main_v35)) = val_main_v35 (F := F))
    : after seg27 W (no_index (Proc.devRef .tc main_v609)) = val_main_v609 (F := F) := by
  simp only [seg27]
  after_results_simp
  simp only [h_main_v35] <;> rfl
set_option maxRecDepth 8192 in
set_option maxHeartbeats 2000000 in
theorem seg27_main_v614 (W V0 : Valuation τ sig (Elt F))
    (h_main_v567 : W (no_index (Proc.devRef .tc main_v567)) = val_main_v567 (F := F) (V0 (Proc.devRef .tc main_arg0)) (V0 (Proc.devRef .tc main_arg1)) (V0 (Proc.devRef .tc main_arg3)))
    : after seg27 W (no_index (Proc.devRef .tc main_v614)) = val_main_v614 (F := F) (V0 (Proc.devRef .tc main_arg0)) (V0 (Proc.devRef .tc main_arg1)) (V0 (Proc.devRef .tc main_arg3)) := by
  simp only [seg27]
  after_results_simp
  simp only [h_main_v567] <;> rfl
set_option maxRecDepth 8192 in
set_option maxHeartbeats 2000000 in
theorem seg27_main_v619 (W V0 : Valuation τ sig (Elt F))
    (h_main_v565 : W (no_index (Proc.devRef .tc main_v565)) = val_main_v565 (F := F) (V0 (Proc.devRef .tc main_arg0)) (V0 (Proc.devRef .tc main_arg1)) (V0 (Proc.devRef .tc main_arg3)))
    : after seg27 W (no_index (Proc.devRef .tc main_v619)) = val_main_v619 (F := F) (V0 (Proc.devRef .tc main_arg0)) (V0 (Proc.devRef .tc main_arg1)) (V0 (Proc.devRef .tc main_arg3)) := by
  simp only [seg27]
  after_results_simp
  simp only [h_main_v565] <;> rfl
set_option maxRecDepth 8192 in
set_option maxHeartbeats 2000000 in
theorem seg27_main_v620 (W V0 : Valuation τ sig (Elt F))
    : after seg27 W (no_index (Proc.devRef .tc main_v620)) = val_main_v620 (F := F) := by
  simp only [seg27]
  after_results_simp
  all_goals rfl

end Cert.Proof.Ref

end
-- ==== Proof.Ref.Win14.lean ====
/-
   Window main_part14 of the reference's @main read by itself, cut into segments so that a concatenation is a segment of
   its own: from any contents `W` of the device's buffers that hold, at the buffers a segment reads, their stages
   `val_‹buffer›` of the arguments' contents `V0`, the contents after the segment hold, at each buffer it writes that is
   read later, that buffer's stage; and a buffer a segment does not write is kept.
-/
import proofs.«209143_g59700045415095_cont_9to1_m_37_38_alg».proof.Proof.RefRead
import proofs.«209143_g59700045415095_cont_9to1_m_37_38_alg».proof.Proof.Ref.Ops

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- Segment 28: @main's operations 961 … 969 of 978. -/
abbrev seg28 : List (HloOp τ sig (Elt F)) :=
  [ binary main_v600 main_v620 main_v621 (cmpi .slt : (⟨S8x2048, .i32⟩ : BufTy).Contents (Elt F) → (⟨S8x2048, .i32⟩ : BufTy).Contents (Elt F) → (⟨S8x2048, .i1⟩ : BufTy).Contents (Elt F)),
    nullary main_c_217 (constantI S_ 32 32#32),
    unary main_c_217 main_v622 (broadcastInDim S8x2048 ![] bcast_S_S8x2048 : (⟨S_, .i32⟩ : BufTy).Contents (Elt F) → (⟨S8x2048, .i32⟩ : BufTy).Contents (Elt F)),
    binary main_v600 main_v622 main_v623 (addi : (⟨S8x2048, .i32⟩ : BufTy).Contents (Elt F) → (⟨S8x2048, .i32⟩ : BufTy).Contents (Elt F) → (⟨S8x2048, .i32⟩ : BufTy).Contents (Elt F)),
    ternary main_v621 main_v623 main_v600 main_v624 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v609 main_v625 (broadcastInDim S8x2048x1 ![0, 1] bcast_S8x2048_S8x2048x1_0_1 : (⟨S8x2048, .i32⟩ : BufTy).Contents (Elt F) → (⟨S8x2048x1, .i32⟩ : BufTy).Contents (Elt F)),
    unary main_v614 main_v626 (broadcastInDim S8x2048x1 ![0, 1] bcast_S8x2048_S8x2048x1_0_1 : (⟨S8x2048, .i32⟩ : BufTy).Contents (Elt F) → (⟨S8x2048x1, .i32⟩ : BufTy).Contents (Elt F)),
    unary main_v619 main_v627 (broadcastInDim S8x2048x1 ![0, 1] bcast_S8x2048_S8x2048x1_0_1 : (⟨S8x2048, .i32⟩ : BufTy).Contents (Elt F) → (⟨S8x2048x1, .i32⟩ : BufTy).Contents (Elt F)),
    unary main_v624 main_v628 (broadcastInDim S8x2048x1 ![0, 1] bcast_S8x2048_S8x2048x1_0_1 : (⟨S8x2048, .i32⟩ : BufTy).Contents (Elt F) → (⟨S8x2048x1, .i32⟩ : BufTy).Contents (Elt F)) ]

/-- Segment 29: @main's operations 970 … 970 of 978. -/
abbrev seg29 : List (HloOp τ sig (Elt F)) :=
  [ nary ![main_v625, main_v626, main_v627, main_v628] main_v629 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) ]

/-- Segment 30: @main's operations 971 … 977 of 978. -/
abbrev seg30 : List (HloOp τ sig (Elt F)) :=
  [ binary main_arg2 main_v629 main_v630 ((fun x i => Host.gather gather_S8x128x32x32x32_S8x2048x4_S8x2048x128_2_0234_n_n_0234_2_1128111 x i) : (⟨S8x128x32x32x32, .f32⟩ : BufTy).Contents (Elt F) → (⟨S8x2048x4, .i32⟩ : BufTy).Contents (Elt F) → (⟨S8x2048x128, .f32⟩ : BufTy).Contents (Elt F)),
    unary main_v598 main_v631 (uitofp .f32 : (⟨S8x2048, .i1⟩ : BufTy).Contents (Elt F) → (⟨S8x2048, .f32⟩ : BufTy).Contents (Elt F)),
    binary main_v581 main_v631 main_v632 (mulf : (⟨S8x2048, .f32⟩ : BufTy).Contents (Elt F) → (⟨S8x2048, .f32⟩ : BufTy).Contents (Elt F) → (⟨S8x2048, .f32⟩ : BufTy).Contents (Elt F)),
    unary main_v632 main_v633 (broadcastInDim S8x2048x1 ![0, 1] bcast_S8x2048_S8x2048x1_0_1 : (⟨S8x2048, .f32⟩ : BufTy).Contents (Elt F) → (⟨S8x2048x1, .f32⟩ : BufTy).Contents (Elt F)),
    unary main_v633 main_v634 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v630 main_v634 main_v635 (mulf : (⟨S8x2048x128, .f32⟩ : BufTy).Contents (Elt F) → (⟨S8x2048x128, .f32⟩ : BufTy).Contents (Elt F) → (⟨S8x2048x128, .f32⟩ : BufTy).Contents (Elt F)),
    binary main_v561 main_v635 main_v636 (addf : (⟨S8x2048x128, .f32⟩ : BufTy).Contents (Elt F) → (⟨S8x2048x128, .f32⟩ : BufTy).Contents (Elt F) → (⟨S8x2048x128, .f32⟩ : BufTy).Contents (Elt F)) ]

/-- Segment 31: @main's operations 978 … 978 of 978. -/
abbrev seg31 : List (HloOp τ sig (Elt F)) :=
  [ nary ![main_arg0, main_v636, main_v1] main_v637 (fun u => concatenate S8x2048x259 2 [⟨S8x2048x128, u 0⟩, ⟨S8x2048x128, u 1⟩, ⟨S8x2048x3, u 2⟩] concatenates_S8x2048x128_S8x2048x128_S8x2048x3_S8x2048x259_d2) ]

set_option maxRecDepth 8192 in
/-- The window is its segments one after the other. -/
theorem ops_part14_segs : (ops_part14 : List (HloOp τ sig (Elt F))) = seg28 ++ (seg29 ++ (seg30 ++ (seg31))) := rfl

/-- The buffers that segment 28's operations write. -/
abbrev seg28_W : List (Ref sig .tc) := [main_v621, main_c_217, main_v622, main_v623, main_v624, main_v625, main_v626, main_v627, main_v628]
set_option maxRecDepth 8192 in
theorem seg28_writes : (seg28 : List (HloOp τ sig (Elt F))).Forall fun op => op.writes ⊆ (seg28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 28 does not write keeps its contents through it. -/
theorem seg28_keep (W : Valuation τ sig (Elt F)) (r : Ref sig .tc) (h : r ∉ seg28_W) :
    after seg28 W (Proc.devRef .tc r) = W (Proc.devRef .tc r) :=
  after_of_writes_sub seg28 _ seg28_writes h

set_option maxRecDepth 8192 in
set_option maxHeartbeats 900000 in
theorem seg28_main_v625 (W V0 : Valuation τ sig (Elt F))
    (h_main_v609 : W (no_index (Proc.devRef .tc main_v609)) = val_main_v609 (F := F))
    : after seg28 W (no_index (Proc.devRef .tc main_v625)) = val_main_v625 (F := F) := by
  simp only [seg28]
  after_results_simp
  simp only [h_main_v609] <;> rfl
set_option maxRecDepth 8192 in
set_option maxHeartbeats 900000 in
theorem seg28_main_v626 (W V0 : Valuation τ sig (Elt F))
    (h_main_v614 : W (no_index (Proc.devRef .tc main_v614)) = val_main_v614 (F := F) (V0 (Proc.devRef .tc main_arg0)) (V0 (Proc.devRef .tc main_arg1)) (V0 (Proc.devRef .tc main_arg3)))
    : after seg28 W (no_index (Proc.devRef .tc main_v626)) = val_main_v626 (F := F) (V0 (Proc.devRef .tc main_arg0)) (V0 (Proc.devRef .tc main_arg1)) (V0 (Proc.devRef .tc main_arg3)) := by
  simp only [seg28]
  after_results_simp
  simp only [h_main_v614] <;> rfl
set_option maxRecDepth 8192 in
set_option maxHeartbeats 900000 in
theorem seg28_main_v627 (W V0 : Valuation τ sig (Elt F))
    (h_main_v619 : W (no_index (Proc.devRef .tc main_v619)) = val_main_v619 (F := F) (V0 (Proc.devRef .tc main_arg0)) (V0 (Proc.devRef .tc main_arg1)) (V0 (Proc.devRef .tc main_arg3)))
    : after seg28 W (no_index (Proc.devRef .tc main_v627)) = val_main_v627 (F := F) (V0 (Proc.devRef .tc main_arg0)) (V0 (Proc.devRef .tc main_arg1)) (V0 (Proc.devRef .tc main_arg3)) := by
  simp only [seg28]
  after_results_simp
  simp only [h_main_v619] <;> rfl
set_option maxRecDepth 8192 in
set_option maxHeartbeats 900000 in
theorem seg28_main_v628 (W V0 : Valuation τ sig (Elt F))
    (h_main_v600 : W (no_index (Proc.devRef .tc main_v600)) = val_main_v600 (F := F) (V0 (Proc.devRef .tc main_arg0)) (V0 (Proc.devRef .tc main_arg1)) (V0 (Proc.devRef .tc main_arg3)))
    (h_main_v620 : W (no_index (Proc.devRef .tc main_v620)) = val_main_v620 (F := F))
    : after seg28 W (no_index (Proc.devRef .tc main_v628)) = val_main_v628 (F := F) (V0 (Proc.devRef .tc main_arg0)) (V0 (Proc.devRef .tc main_arg1)) (V0 (Proc.devRef .tc main_arg3)) := by
  simp only [seg28]
  after_results_simp
  simp only [h_main_v600, h_main_v620] <;> rfl

/-- The buffers that segment 29's operations write. -/
abbrev seg29_W : List (Ref sig .tc) := [main_v629]
set_option maxRecDepth 8192 in
theorem seg29_writes : (seg29 : List (HloOp τ sig (Elt F))).Forall fun op => op.writes ⊆ (seg29_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 29 does not write keeps its contents through it. -/
theorem seg29_keep (W : Valuation τ sig (Elt F)) (r : Ref sig .tc) (h : r ∉ seg29_W) :
    after seg29 W (Proc.devRef .tc r) = W (Proc.devRef .tc r) :=
  after_of_writes_sub seg29 _ seg29_writes h

/-- The concatenation `main_v629`, given its operands' contents. -/
theorem cat_main_v629 (G : Valuation τ sig (Elt F)) (v0 : (⟨S8x2048x1, .i32⟩ : BufTy).Contents (Elt F)) (v1 : (⟨S8x2048x1, .i32⟩ : BufTy).Contents (Elt F)) (v2 : (⟨S8x2048x1, .i32⟩ : BufTy).Contents (Elt F)) (v3 : (⟨S8x2048x1, .i32⟩ : BufTy).Contents (Elt F))
    (h0 : G (no_index (Proc.devRef .tc main_v625)) = v0) (h1 : G (no_index (Proc.devRef .tc main_v626)) = v1) (h2 : G (no_index (Proc.devRef .tc main_v627)) = v2) (h3 : G (no_index (Proc.devRef .tc main_v628)) = v3) :
    (nary ![main_v625, main_v626, main_v627, main_v628] main_v629 (fun u => concatenate S8x2048x4 2 [⟨S8x2048x1, u 0⟩, ⟨S8x2048x1, u 1⟩, ⟨S8x2048x1, u 2⟩, ⟨S8x2048x1, u 3⟩] concatenates_S8x2048x1_S8x2048x1_S8x2048x1_S8x2048x1_S8x2048x4_d2) : HloOp τ sig (Elt F)).result G (no_index (Proc.devRef .tc main_v629))
      = concatenate S8x2048x4 2 [⟨S8x2048x1, v0⟩, ⟨S8x2048x1, v1⟩, ⟨S8x2048x1, v2⟩, ⟨S8x2048x1, v3⟩] concatenates_S8x2048x1_S8x2048x1_S8x2048x1_S8x2048x1_S8x2048x4_d2 := by
  subst h0 h1 h2 h3
  exact (nary_result ..).trans rfl
theorem seg29_main_v629 (W V0 : Valuation τ sig (Elt F))
    (h_main_v628 : W (no_index (Proc.devRef .tc main_v628)) = val_main_v628 (F := F) (V0 (Proc.devRef .tc main_arg0)) (V0 (Proc.devRef .tc main_arg1)) (V0 (Proc.devRef .tc main_arg3)))
    (h_main_v627 : W (no_index (Proc.devRef .tc main_v627)) = val_main_v627 (F := F) (V0 (Proc.devRef .tc main_arg0)) (V0 (Proc.devRef .tc main_arg1)) (V0 (Proc.devRef .tc main_arg3)))
    (h_main_v626 : W (no_index (Proc.devRef .tc main_v626)) = val_main_v626 (F := F) (V0 (Proc.devRef .tc main_arg0)) (V0 (Proc.devRef .tc main_arg1)) (V0 (Proc.devRef .tc main_arg3)))
    (h_main_v625 : W (no_index (Proc.devRef .tc main_v625)) = val_main_v625 (F := F))
    : after seg29 W (no_index (Proc.devRef .tc main_v629)) = val_main_v629 (F := F) (V0 (Proc.devRef .tc main_arg0)) (V0 (Proc.devRef .tc main_arg1)) (V0 (Proc.devRef .tc main_arg3)) :=
  cat_main_v629 W _ _ _ _ h_main_v625 h_main_v626 h_main_v627 h_main_v628

/-- The buffers that segment 30's operations write. -/
abbrev seg30_W : List (Ref sig .tc) := [main_v630, main_v631, main_v632, main_v633, main_v634, main_v635, main_v636]
set_option maxRecDepth 8192 in
theorem seg30_writes : (seg30 : List (HloOp τ sig (Elt F))).Forall fun op => op.writes ⊆ (seg30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that segment 30 does not write keeps its contents through it. -/
theorem seg30_keep (W : Valuation τ sig (Elt F)) (r : Ref sig .tc) (h : r ∉ seg30_W) :
    after seg30 W (Proc.devRef .tc r) = W (Proc.devRef .tc r) :=
  after_of_writes_sub seg30 _ seg30_writes h

set_option maxRecDepth 8192 in
set_option maxHeartbeats 700000 in
theorem seg30_main_v636 (W V0 : Valuation τ sig (Elt F))
    (h_main_v598 : W (no_index (Proc.devRef .tc main_v598)) = val_main_v598 (F := F) (V0 (Proc.devRef .tc main_arg0)) (V0 (Proc.devRef .tc main_arg1)) (V0 (Proc.devRef .tc main_arg3)))
    (h_main_v581 : W (no_index (Proc.devRef .tc main_v581)) = val_main_v581 (F := F) (V0 (Proc.devRef .tc main_arg0)) (V0 (Proc.devRef .tc main_arg1)) (V0 (Proc.devRef .tc main_arg3)))
    (h_main_v629 : W (no_index (Proc.devRef .tc main_v629)) = val_main_v629 (F := F) (V0 (Proc.devRef .tc main_arg0)) (V0 (Proc.devRef .tc main_arg1)) (V0 (Proc.devRef .tc main_arg3)))
    (h_main_arg2 : W (no_index (Proc.devRef .tc main_arg2)) = V0 (Proc.devRef .tc main_arg2))
    (h_main_v561 : W (no_index (Proc.devRef .tc main_v561)) = val_main_v561 (F := F) (V0 (Proc.devRef .tc main_arg0)) (V0 (Proc.devRef .tc main_arg1)) (V0 (Proc.devRef .tc main_arg2)) (V0 (Proc.devRef .tc main_arg3)))
    : after seg30 W (no_index (Proc.devRef .tc main_v636)) = val_main_v636 (F := F) (V0 (Proc.devRef .tc main_arg0)) (V0 (Proc.devRef .tc main_arg1)) (V0 (Proc.devRef .tc main_arg2)) (V0 (Proc.devRef .tc main_arg3)) := by
  simp only [seg30]
  after_results_simp
  simp only [h_main_v598, h_main_v581, h_main_v629, h_main_arg2, h_main_v561] <;> rfl

/-- The buffers that segment 31's operations write. -/
abbrev seg31_W : List (Ref sig .tc) := [main_v637]
set_option maxRecDepth 8192 in
theorem seg31_writes : (seg31 : List (HloOp τ sig (Elt F))).Forall fun op => op.writes ⊆ (seg31_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that segment 31 does not write keeps its contents through it. -/
theorem seg31_keep (W : Valuation τ sig (Elt F)) (r : Ref sig .tc) (h : r ∉ seg31_W) :
    after seg31 W (Proc.devRef .tc r) = W (Proc.devRef .tc r) :=
  after_of_writes_sub seg31 _ seg31_writes h

/-- The concatenation `main_v637`, given its operands' contents. -/
theorem cat_main_v637 (G : Valuation τ sig (Elt F)) (v0 : (⟨S8x2048x128, .f32⟩ : BufTy).Contents (Elt F)) (v1 : (⟨S8x2048x128, .f32⟩ : BufTy).Contents (Elt F)) (v2 : (⟨S8x2048x3, .f32⟩ : BufTy).Contents (Elt F))
    (h0 : G (no_index (Proc.devRef .tc main_arg0)) = v0) (h1 : G (no_index (Proc.devRef .tc main_v636)) = v1) (h2 : G (no_index (Proc.devRef .tc main_v1)) = v2) :
    (nary ![main_arg0, main_v636, main_v1] main_v637 (fun u => concatenate S8x2048x259 2 [⟨S8x2048x128, u 0⟩, ⟨S8x2048x128, u 1⟩, ⟨S8x2048x3, u 2⟩] concatenates_S8x2048x128_S8x2048x128_S8x2048x3_S8x2048x259_d2) : HloOp τ sig (Elt F)).result G (no_index (Proc.devRef .tc main_v637))
      = concatenate S8x2048x259 2 [⟨S8x2048x128, v0⟩, ⟨S8x2048x128, v1⟩, ⟨S8x2048x3, v2⟩] concatenates_S8x2048x128_S8x2048x128_S8x2048x3_S8x2048x259_d2 := by
  subst h0 h1 h2
  exact (nary_result ..).trans rfl
theorem seg31_main_v637 (W V0 : Valuation τ sig (Elt F))
    (h_main_v1 : W (no_index (Proc.devRef .tc main_v1)) = val_main_v1 (F := F) (V0 (Proc.devRef .tc main_arg0)) (V0 (Proc.devRef .tc main_arg1)) (V0 (Proc.devRef .tc main_arg3)))
    (h_main_v636 : W (no_index (Proc.devRef .tc main_v636)) = val_main_v636 (F := F) (V0 (Proc.devRef .tc main_arg0)) (V0 (Proc.devRef .tc main_arg1)) (V0 (Proc.devRef .tc main_arg2)) (V0 (Proc.devRef .tc main_arg3)))
    (h_main_arg0 : W (no_index (Proc.devRef .tc main_arg0)) = V0 (Proc.devRef .tc main_arg0))
    : after seg31 W (no_index (Proc.devRef .tc main_v637)) = val_main_v637 (F := F) (V0 (Proc.devRef .tc main_arg0)) (V0 (Proc.devRef .tc main_arg1)) (V0 (Proc.devRef .tc main_arg2)) (V0 (Proc.devRef .tc main_arg3)) :=
  cat_main_v637 W _ _ _ h_main_arg0 h_main_v636 h_main_v1

end Cert.Proof.Ref

end
-- ==== Proof.Ref.Stages.lean ====
/-
   The reference's run read segment by segment: `stJ V0` is what the device's buffers hold after the first J segments
   from contents `V0`, and for every buffer written by then and still read later (and the arguments and results)
   `stJ_‹buffer›` says it holds its stage `val_‹buffer›` of the arguments' contents.
-/
import proofs.«209143_g59700045415095_cont_9to1_m_37_38_alg».proof.Proof.Ref.Win0
import proofs.«209143_g59700045415095_cont_9to1_m_37_38_alg».proof.Proof.Ref.Win1
import proofs.«209143_g59700045415095_cont_9to1_m_37_38_alg».proof.Proof.Ref.Win2
import proofs.«209143_g59700045415095_cont_9to1_m_37_38_alg».proof.Proof.Ref.Win3
import proofs.«209143_g59700045415095_cont_9to1_m_37_38_alg».proof.Proof.Ref.Win4
import proofs.«209143_g59700045415095_cont_9to1_m_37_38_alg».proof.Proof.Ref.Win5
import proofs.«209143_g59700045415095_cont_9to1_m_37_38_alg».proof.Proof.Ref.Win6
import proofs.«209143_g59700045415095_cont_9to1_m_37_38_alg».proof.Proof.Ref.Win7
import proofs.«209143_g59700045415095_cont_9to1_m_37_38_alg».proof.Proof.Ref.Win8
import proofs.«209143_g59700045415095_cont_9to1_m_37_38_alg».proof.Proof.Ref.Win9
import proofs.«209143_g59700045415095_cont_9to1_m_37_38_alg».proof.Proof.Ref.Win10
import proofs.«209143_g59700045415095_cont_9to1_m_37_38_alg».proof.Proof.Ref.Win11
import proofs.«209143_g59700045415095_cont_9to1_m_37_38_alg».proof.Proof.Ref.Win12
import proofs.«209143_g59700045415095_cont_9to1_m_37_38_alg».proof.Proof.Ref.Win13
import proofs.«209143_g59700045415095_cont_9to1_m_37_38_alg».proof.Proof.Ref.Win14

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- The device's buffer contents before the first segment. -/
def st0 (V0 : Valuation τ sig (Elt F)) : Valuation τ sig (Elt F) := V0
theorem st0_main_arg0 (V0 : Valuation τ sig (Elt F)) : st0 V0 (no_index (Proc.devRef .tc main_arg0)) = V0 (Proc.devRef .tc main_arg0) := rfl
theorem st0_main_arg1 (V0 : Valuation τ sig (Elt F)) : st0 V0 (no_index (Proc.devRef .tc main_arg1)) = V0 (Proc.devRef .tc main_arg1) := rfl
theorem st0_main_arg2 (V0 : Valuation τ sig (Elt F)) : st0 V0 (no_index (Proc.devRef .tc main_arg2)) = V0 (Proc.devRef .tc main_arg2) := rfl
theorem st0_main_arg3 (V0 : Valuation τ sig (Elt F)) : st0 V0 (no_index (Proc.devRef .tc main_arg3)) = V0 (Proc.devRef .tc main_arg3) := rfl

/-- The device's buffer contents after the first 1 segment. -/
def st1 (V0 : Valuation τ sig (Elt F)) : Valuation τ sig (Elt F) := after seg0 (st0 V0)
theorem st1_main_arg0 (V0 : Valuation τ sig (Elt F)) : st1 V0 (no_index (Proc.devRef .tc main_arg0)) = V0 (Proc.devRef .tc main_arg0) :=
  (seg0_keep (st0 V0) main_arg0 (by decide)).trans (st0_main_arg0 V0)
theorem st1_main_arg1 (V0 : Valuation τ sig (Elt F)) : st1 V0 (no_index (Proc.devRef .tc main_arg1)) = V0 (Proc.devRef .tc main_arg1) :=
  (seg0_keep (st0 V0) main_arg1 (by decide)).trans (st0_main_arg1 V0)
theorem st1_main_arg2 (V0 : Valuation τ sig (Elt F)) : st1 V0 (no_index (Proc.devRef .tc main_arg2)) = V0 (Proc.devRef .tc main_arg2) :=
  (seg0_keep (st0 V0) main_arg2 (by decide)).trans (st0_main_arg2 V0)
theorem st1_main_arg3 (V0 : Valuation τ sig (Elt F)) : st1 V0 (no_index (Proc.devRef .tc main_arg3)) = V0 (Proc.devRef .tc main_arg3) :=
  (seg0_keep (st0 V0) main_arg3 (by decide)).trans (st0_main_arg3 V0)
theorem st1_main_v1 (V0 : Valuation τ sig (Elt F)) : st1 V0 (no_index (Proc.devRef .tc main_v1)) = val_main_v1 (F := F) (V0 (Proc.devRef .tc main_arg0)) (V0 (Proc.devRef .tc main_arg1)) (V0 (Proc.devRef .tc main_arg3)) :=
  seg0_main_v1 (st0 V0) V0 (st0_main_arg3 V0) (st0_main_arg0 V0) (st0_main_arg1 V0)
theorem st1_main_v13 (V0 : Valuation τ sig (Elt F)) : st1 V0 (no_index (Proc.devRef .tc main_v13)) = val_main_v13 (F := F) (V0 (Proc.devRef .tc main_arg0)) (V0 (Proc.devRef .tc main_arg1)) (V0 (Proc.devRef .tc main_arg3)) :=
  seg0_main_v13 (st0 V0) V0 (st0_main_arg3 V0) (st0_main_arg0 V0) (st0_main_arg1 V0)
theorem st1_main_v21 (V0 : Valuation τ sig (Elt F)) : st1 V0 (no_index (Proc.devRef .tc main_v21)) = val_main_v21 (F := F) (V0 (Proc.devRef .tc main_arg0)) (V0 (Proc.devRef .tc main_arg1)) (V0 (Proc.devRef .tc main_arg3)) :=
  seg0_main_v21 (st0 V0) V0 (st0_main_arg3 V0) (st0_main_arg0 V0) (st0_main_arg1 V0)
theorem st1_main_v29 (V0 : Valuation τ sig (Elt F)) : st1 V0 (no_index (Proc.devRef .tc main_v29)) = val_main_v29 (F := F) (V0 (Proc.devRef .tc main_arg0)) (V0 (Proc.devRef .tc main_arg1)) (V0 (Proc.devRef .tc main_arg3)) :=
  seg0_main_v29 (st0 V0) V0 (st0_main_arg3 V0) (st0_main_arg0 V0) (st0_main_arg1 V0)
theorem st1_main_v30 (V0 : Valuation τ sig (Elt F)) : st1 V0 (no_index (Proc.devRef .tc main_v30)) = val_main_v30 (F := F) (V0 (Proc.devRef .tc main_arg0)) (V0 (Proc.devRef .tc main_arg1)) (V0 (Proc.devRef .tc main_arg3)) :=
  seg0_main_v30 (st0 V0) V0 (st0_main_arg3 V0) (st0_main_arg0 V0) (st0_main_arg1 V0)
theorem st1_main_v31 (V0 : Valuation τ sig (Elt F)) : st1 V0 (no_index (Proc.devRef .tc main_v31)) = val_main_v31 (F := F) (V0 (Proc.devRef .tc main_arg0)) (V0 (Proc.devRef .tc main_arg1)) (V0 (Proc.devRef .tc main_arg3)) :=
  seg0_main_v31 (st0 V0) V0 (st0_main_arg3 V0) (st0_main_arg0 V0) (st0_main_arg1 V0)
theorem st1_main_v32 (V0 : Valuation τ sig (Elt F)) : st1 V0 (no_index (Proc.devRef .tc main_v32)) = val_main_v32 (F := F) (V0 (Proc.devRef .tc main_arg0)) (V0 (Proc.devRef .tc main_arg1)) (V0 (Proc.devRef .tc main_arg3)) :=
  seg0_main_v32 (st0 V0) V0 (st0_main_arg3 V0) (st0_main_arg0 V0) (st0_main_arg1 V0)
theorem st1_main_v35 (V0 : Valuation τ sig (Elt F)) : st1 V0 (no_index (Proc.devRef .tc main_v35)) = val_main_v35 (F := F) :=
  seg0_main_v35 (st0 V0) V0
theorem st1_main_v36 (V0 : Valuation τ sig (Elt F)) : st1 V0 (no_index (Proc.devRef .tc main_v36)) = val_main_v36 (F := F) :=
  seg0_main_v36 (st0 V0) V0
theorem st1_main_v38 (V0 : Valuation τ sig (Elt F)) : st1 V0 (no_index (Proc.devRef .tc main_v38)) = val_main_v38 (F := F) (V0 (Proc.devRef .tc main_arg0)) (V0 (Proc.devRef .tc main_arg1)) (V0 (Proc.devRef .tc main_arg3)) :=
  seg0_main_v38 (st0 V0) V0 (st0_main_arg3 V0) (st0_main_arg0 V0) (st0_main_arg1 V0)
theorem st1_main_v40 (V0 : Valuation τ sig (Elt F)) : st1 V0 (no_index (Proc.devRef .tc main_v40)) = val_main_v40 (F := F) (V0 (Proc.devRef .tc main_arg0)) (V0 (Proc.devRef .tc main_arg1)) (V0 (Proc.devRef .tc main_arg3)) :=
  seg0_main_v40 (st0 V0) V0 (st0_main_arg3 V0) (st0_main_arg0 V0) (st0_main_arg1 V0)
theorem st1_main_v42 (V0 : Valuation τ sig (Elt F)) : st1 V0 (no_index (Proc.devRef .tc main_v42)) = val_main_v42 (F := F) (V0 (Proc.devRef .tc main_arg0)) (V0 (Proc.devRef .tc main_arg1)) (V0 (Proc.devRef .tc main_arg3)) :=
  seg0_main_v42 (st0 V0) V0 (st0_main_arg3 V0) (st0_main_arg0 V0) (st0_main_arg1 V0)
theorem st1_main_v44 (V0 : Valuation τ sig (Elt F)) : st1 V0 (no_index (Proc.devRef .tc main_v44)) = val_main_v44 (F := F) (V0 (Proc.devRef .tc main_arg0)) (V0 (Proc.devRef .tc main_arg1)) (V0 (Proc.devRef .tc main_arg3)) :=
  seg0_main_v44 (st0 V0) V0 (st0_main_arg3 V0) (st0_main_arg0 V0) (st0_main_arg1 V0)

/-- The device's buffer contents after the first 2 segments. -/
def st2 (V0 : Valuation τ sig (Elt F)) : Valuation τ sig (Elt F) := after seg1 (st1 V0)
theorem st2_main_arg0 (V0 : Valuation τ sig (Elt F)) : st2 V0 (no_index (Proc.devRef .tc main_arg0)) = V0 (Proc.devRef .tc main_arg0) :=
  (seg1_keep (st1 V0) main_arg0 (by decide)).trans (st1_main_arg0 V0)
theorem st2_main_arg1 (V0 : Valuation τ sig (Elt F)) : st2 V0 (no_index (Proc.devRef .tc main_arg1)) = V0 (Proc.devRef .tc main_arg1) :=
  (seg1_keep (st1 V0) main_arg1 (by decide)).trans (st1_main_arg1 V0)
theorem st2_main_arg2 (V0 : Valuation τ sig (Elt F)) : st2 V0 (no_index (Proc.devRef .tc main_arg2)) = V0 (Proc.devRef .tc main_arg2) :=
  (seg1_keep (st1 V0) main_arg2 (by decide)).trans (st1_main_arg2 V0)
theorem st2_main_arg3 (V0 : Valuation τ sig (Elt F)) : st2 V0 (no_index (Proc.devRef .tc main_arg3)) = V0 (Proc.devRef .tc main_arg3) :=
  (seg1_keep (st1 V0) main_arg3 (by decide)).trans (st1_main_arg3 V0)
theorem st2_main_v1 (V0 : Valuation τ sig (Elt F)) : st2 V0 (no_index (Proc.devRef .tc main_v1)) = val_main_v1 (F := F) (V0 (Proc.devRef .tc main_arg0)) (V0 (Proc.devRef .tc main_arg1)) (V0 (Proc.devRef .tc main_arg3)) :=
  (seg1_keep (st1 V0) main_v1 (by decide)).trans (st1_main_v1 V0)
theorem st2_main_v13 (V0 : Valuation τ sig (Elt F)) : st2 V0 (no_index (Proc.devRef .tc main_v13)) = val_main_v13 (F := F) (V0 (Proc.devRef .tc main_arg0)) (V0 (Proc.devRef .tc main_arg1)) (V0 (Proc.devRef .tc main_arg3)) :=
  (seg1_keep (st1 V0) main_v13 (by decide)).trans (st1_main_v13 V0)
theorem st2_main_v21 (V0 : Valuation τ sig (Elt F)) : st2 V0 (no_index (Proc.devRef .tc main_v21)) = val_main_v21 (F := F) (V0 (Proc.devRef .tc main_arg0)) (V0 (Proc.devRef .tc main_arg1)) (V0 (Proc.devRef .tc main_arg3)) :=
  (seg1_keep (st1 V0) main_v21 (by decide)).trans (st1_main_v21 V0)
theorem st2_main_v29 (V0 : Valuation τ sig (Elt F)) : st2 V0 (no_index (Proc.devRef .tc main_v29)) = val_main_v29 (F := F) (V0 (Proc.devRef .tc main_arg0)) (V0 (Proc.devRef .tc main_arg1)) (V0 (Proc.devRef .tc main_arg3)) :=
  (seg1_keep (st1 V0) main_v29 (by decide)).trans (st1_main_v29 V0)
theorem st2_main_v30 (V0 : Valuation τ sig (Elt F)) : st2 V0 (no_index (Proc.devRef .tc main_v30)) = val_main_v30 (F := F) (V0 (Proc.devRef .tc main_arg0)) (V0 (Proc.devRef .tc main_arg1)) (V0 (Proc.devRef .tc main_arg3)) :=
  (seg1_keep (st1 V0) main_v30 (by decide)).trans (st1_main_v30 V0)
theorem st2_main_v31 (V0 : Valuation τ sig (Elt F)) : st2 V0 (no_index (Proc.devRef .tc main_v31)) = val_main_v31 (F := F) (V0 (Proc.devRef .tc main_arg0)) (V0 (Proc.devRef .tc main_arg1)) (V0 (Proc.devRef .tc main_arg3)) :=
  (seg1_keep (st1 V0) main_v31 (by decide)).trans (st1_main_v31 V0)
theorem st2_main_v32 (V0 : Valuation τ sig (Elt F)) : st2 V0 (no_index (Proc.devRef .tc main_v32)) = val_main_v32 (F := F) (V0 (Proc.devRef .tc main_arg0)) (V0 (Proc.devRef .tc main_arg1)) (V0 (Proc.devRef .tc main_arg3)) :=
  (seg1_keep (st1 V0) main_v32 (by decide)).trans (st1_main_v32 V0)
theorem st2_main_v35 (V0 : Valuation τ sig (Elt F)) : st2 V0 (no_index (Proc.devRef .tc main_v35)) = val_main_v35 (F := F) :=
  (seg1_keep (st1 V0) main_v35 (by decide)).trans (st1_main_v35 V0)
theorem st2_main_v36 (V0 : Valuation τ sig (Elt F)) : st2 V0 (no_index (Proc.devRef .tc main_v36)) = val_main_v36 (F := F) :=
  (seg1_keep (st1 V0) main_v36 (by decide)).trans (st1_main_v36 V0)
theorem st2_main_v56 (V0 : Valuation τ sig (Elt F)) : st2 V0 (no_index (Proc.devRef .tc main_v56)) = val_main_v56 (F := F) (V0 (Proc.devRef .tc main_arg0)) (V0 (Proc.devRef .tc main_arg1)) (V0 (Proc.devRef .tc main_arg3)) :=
  seg1_main_v56 (st1 V0) V0 (st1_main_v42 V0) (st1_main_v29 V0) (st1_main_v40 V0) (st1_main_v21 V0) (st1_main_v44 V0)
theorem st2_main_v73 (V0 : Valuation τ sig (Elt F)) : st2 V0 (no_index (Proc.devRef .tc main_v73)) = val_main_v73 (F := F) (V0 (Proc.devRef .tc main_arg0)) (V0 (Proc.devRef .tc main_arg1)) (V0 (Proc.devRef .tc main_arg3)) :=
  seg1_main_v73 (st1 V0) V0 (st1_main_v42 V0) (st1_main_v40 V0) (st1_main_v38 V0)
theorem st2_main_v75 (V0 : Valuation τ sig (Elt F)) : st2 V0 (no_index (Proc.devRef .tc main_v75)) = val_main_v75 (F := F) (V0 (Proc.devRef .tc main_arg0)) (V0 (Proc.devRef .tc main_arg1)) (V0 (Proc.devRef .tc main_arg3)) :=
  seg1_main_v75 (st1 V0) V0 (st1_main_v38 V0)
theorem st2_main_v77 (V0 : Valuation τ sig (Elt F)) : st2 V0 (no_index (Proc.devRef .tc main_v77)) = val_main_v77 (F := F) (V0 (Proc.devRef .tc main_arg0)) (V0 (Proc.devRef .tc main_arg1)) (V0 (Proc.devRef .tc main_arg3)) :=
  seg1_main_v77 (st1 V0) V0 (st1_main_v40 V0)
theorem st2_main_v79 (V0 : Valuation τ sig (Elt F)) : st2 V0 (no_index (Proc.devRef .tc main_v79)) = val_main_v79 (F := F) (V0 (Proc.devRef .tc main_arg0)) (V0 (Proc.devRef .tc main_arg1)) (V0 (Proc.devRef .tc main_arg3)) :=
  seg1_main_v79 (st1 V0) V0 (st1_main_v42 V0)
theorem st2_main_v84 (V0 : Valuation τ sig (Elt F)) : st2 V0 (no_index (Proc.devRef .tc main_v84)) = val_main_v84 (F := F) :=
  seg1_main_v84 (st1 V0) V0 (st1_main_v35 V0)
theorem st2_main_v86 (V0 : Valuation τ sig (Elt F)) : st2 V0 (no_index (Proc.devRef .tc main_v86)) = val_main_v86 (F := F) (V0 (Proc.devRef .tc main_arg0)) (V0 (Proc.devRef .tc main_arg1)) (V0 (Proc.devRef .tc main_arg3)) :=
  seg1_main_v86 (st1 V0) V0 (st1_main_v42 V0)

/-- The device's buffer contents after the first 3 segments. -/
def st3 (V0 : Valuation τ sig (Elt F)) : Valuation τ sig (Elt F) := after seg2 (st2 V0)
theorem st3_main_arg0 (V0 : Valuation τ sig (Elt F)) : st3 V0 (no_index (Proc.devRef .tc main_arg0)) = V0 (Proc.devRef .tc main_arg0) :=
  (seg2_keep (st2 V0) main_arg0 (by decide)).trans (st2_main_arg0 V0)
theorem st3_main_arg1 (V0 : Valuation τ sig (Elt F)) : st3 V0 (no_index (Proc.devRef .tc main_arg1)) = V0 (Proc.devRef .tc main_arg1) :=
  (seg2_keep (st2 V0) main_arg1 (by decide)).trans (st2_main_arg1 V0)
theorem st3_main_arg2 (V0 : Valuation τ sig (Elt F)) : st3 V0 (no_index (Proc.devRef .tc main_arg2)) = V0 (Proc.devRef .tc main_arg2) :=
  (seg2_keep (st2 V0) main_arg2 (by decide)).trans (st2_main_arg2 V0)
theorem st3_main_arg3 (V0 : Valuation τ sig (Elt F)) : st3 V0 (no_index (Proc.devRef .tc main_arg3)) = V0 (Proc.devRef .tc main_arg3) :=
  (seg2_keep (st2 V0) main_arg3 (by decide)).trans (st2_main_arg3 V0)
theorem st3_main_v1 (V0 : Valuation τ sig (Elt F)) : st3 V0 (no_index (Proc.devRef .tc main_v1)) = val_main_v1 (F := F) (V0 (Proc.devRef .tc main_arg0)) (V0 (Proc.devRef .tc main_arg1)) (V0 (Proc.devRef .tc main_arg3)) :=
  (seg2_keep (st2 V0) main_v1 (by decide)).trans (st2_main_v1 V0)
theorem st3_main_v13 (V0 : Valuation τ sig (Elt F)) : st3 V0 (no_index (Proc.devRef .tc main_v13)) = val_main_v13 (F := F) (V0 (Proc.devRef .tc main_arg0)) (V0 (Proc.devRef .tc main_arg1)) (V0 (Proc.devRef .tc main_arg3)) :=
  (seg2_keep (st2 V0) main_v13 (by decide)).trans (st2_main_v13 V0)
theorem st3_main_v21 (V0 : Valuation τ sig (Elt F)) : st3 V0 (no_index (Proc.devRef .tc main_v21)) = val_main_v21 (F := F) (V0 (Proc.devRef .tc main_arg0)) (V0 (Proc.devRef .tc main_arg1)) (V0 (Proc.devRef .tc main_arg3)) :=
  (seg2_keep (st2 V0) main_v21 (by decide)).trans (st2_main_v21 V0)
theorem st3_main_v29 (V0 : Valuation τ sig (Elt F)) : st3 V0 (no_index (Proc.devRef .tc main_v29)) = val_main_v29 (F := F) (V0 (Proc.devRef .tc main_arg0)) (V0 (Proc.devRef .tc main_arg1)) (V0 (Proc.devRef .tc main_arg3)) :=
  (seg2_keep (st2 V0) main_v29 (by decide)).trans (st2_main_v29 V0)
theorem st3_main_v30 (V0 : Valuation τ sig (Elt F)) : st3 V0 (no_index (Proc.devRef .tc main_v30)) = val_main_v30 (F := F) (V0 (Proc.devRef .tc main_arg0)) (V0 (Proc.devRef .tc main_arg1)) (V0 (Proc.devRef .tc main_arg3)) :=
  (seg2_keep (st2 V0) main_v30 (by decide)).trans (st2_main_v30 V0)
theorem st3_main_v31 (V0 : Valuation τ sig (Elt F)) : st3 V0 (no_index (Proc.devRef .tc main_v31)) = val_main_v31 (F := F) (V0 (Proc.devRef .tc main_arg0)) (V0 (Proc.devRef .tc main_arg1)) (V0 (Proc.devRef .tc main_arg3)) :=
  (seg2_keep (st2 V0) main_v31 (by decide)).trans (st2_main_v31 V0)
theorem st3_main_v32 (V0 : Valuation τ sig (Elt F)) : st3 V0 (no_index (Proc.devRef .tc main_v32)) = val_main_v32 (F := F) (V0 (Proc.devRef .tc main_arg0)) (V0 (Proc.devRef .tc main_arg1)) (V0 (Proc.devRef .tc main_arg3)) :=
  (seg2_keep (st2 V0) main_v32 (by decide)).trans (st2_main_v32 V0)
theorem st3_main_v35 (V0 : Valuation τ sig (Elt F)) : st3 V0 (no_index (Proc.devRef .tc main_v35)) = val_main_v35 (F := F) :=
  (seg2_keep (st2 V0) main_v35 (by decide)).trans (st2_main_v35 V0)
theorem st3_main_v36 (V0 : Valuation τ sig (Elt F)) : st3 V0 (no_index (Proc.devRef .tc main_v36)) = val_main_v36 (F := F) :=
  (seg2_keep (st2 V0) main_v36 (by decide)).trans (st2_main_v36 V0)
theorem st3_main_v56 (V0 : Valuation τ sig (Elt F)) : st3 V0 (no_index (Proc.devRef .tc main_v56)) = val_main_v56 (F := F) (V0 (Proc.devRef .tc main_arg0)) (V0 (Proc.devRef .tc main_arg1)) (V0 (Proc.devRef .tc main_arg3)) :=
  (seg2_keep (st2 V0) main_v56 (by decide)).trans (st2_main_v56 V0)
theorem st3_main_v73 (V0 : Valuation τ sig (Elt F)) : st3 V0 (no_index (Proc.devRef .tc main_v73)) = val_main_v73 (F := F) (V0 (Proc.devRef .tc main_arg0)) (V0 (Proc.devRef .tc main_arg1)) (V0 (Proc.devRef .tc main_arg3)) :=
  (seg2_keep (st2 V0) main_v73 (by decide)).trans (st2_main_v73 V0)
theorem st3_main_v100 (V0 : Valuation τ sig (Elt F)) : st3 V0 (no_index (Proc.devRef .tc main_v100)) = val_main_v100 (F := F) :=
  seg2_main_v100 (st2 V0) V0 (st2_main_v84 V0)
theorem st3_main_v101 (V0 : Valuation τ sig (Elt F)) : st3 V0 (no_index (Proc.devRef .tc main_v101)) = val_main_v101 (F := F) (V0 (Proc.devRef .tc main_arg0)) (V0 (Proc.devRef .tc main_arg1)) (V0 (Proc.devRef .tc main_arg3)) :=
  seg2_main_v101 (st2 V0) V0 (st2_main_v79 V0) (st2_main_v86 V0)
theorem st3_main_v102 (V0 : Valuation τ sig (Elt F)) : st3 V0 (no_index (Proc.devRef .tc main_v102)) = val_main_v102 (F := F) (V0 (Proc.devRef .tc main_arg0)) (V0 (Proc.devRef .tc main_arg1)) (V0 (Proc.devRef .tc main_arg3)) :=
  seg2_main_v102 (st2 V0) V0 (st2_main_v77 V0)
theorem st3_main_v103 (V0 : Valuation τ sig (Elt F)) : st3 V0 (no_index (Proc.devRef .tc main_v103)) = val_main_v103 (F := F) (V0 (Proc.devRef .tc main_arg0)) (V0 (Proc.devRef .tc main_arg1)) (V0 (Proc.devRef .tc main_arg3)) :=
  seg2_main_v103 (st2 V0) V0 (st2_main_v75 V0)

/-- The device's buffer contents after the first 4 segments. -/
def st4 (V0 : Valuation τ sig (Elt F)) : Valuation τ sig (Elt F) := after seg3 (st3 V0)
theorem st4_main_arg0 (V0 : Valuation τ sig (Elt F)) : st4 V0 (no_index (Proc.devRef .tc main_arg0)) = V0 (Proc.devRef .tc main_arg0) :=
  (seg3_keep (st3 V0) main_arg0 (by decide)).trans (st3_main_arg0 V0)
theorem st4_main_arg1 (V0 : Valuation τ sig (Elt F)) : st4 V0 (no_index (Proc.devRef .tc main_arg1)) = V0 (Proc.devRef .tc main_arg1) :=
  (seg3_keep (st3 V0) main_arg1 (by decide)).trans (st3_main_arg1 V0)
theorem st4_main_arg2 (V0 : Valuation τ sig (Elt F)) : st4 V0 (no_index (Proc.devRef .tc main_arg2)) = V0 (Proc.devRef .tc main_arg2) :=
  (seg3_keep (st3 V0) main_arg2 (by decide)).trans (st3_main_arg2 V0)
theorem st4_main_arg3 (V0 : Valuation τ sig (Elt F)) : st4 V0 (no_index (Proc.devRef .tc main_arg3)) = V0 (Proc.devRef .tc main_arg3) :=
  (seg3_keep (st3 V0) main_arg3 (by decide)).trans (st3_main_arg3 V0)
theorem st4_main_v1 (V0 : Valuation τ sig (Elt F)) : st4 V0 (no_index (Proc.devRef .tc main_v1)) = val_main_v1 (F := F) (V0 (Proc.devRef .tc main_arg0)) (V0 (Proc.devRef .tc main_arg1)) (V0 (Proc.devRef .tc main_arg3)) :=
  (seg3_keep (st3 V0) main_v1 (by decide)).trans (st3_main_v1 V0)
theorem st4_main_v13 (V0 : Valuation τ sig (Elt F)) : st4 V0 (no_index (Proc.devRef .tc main_v13)) = val_main_v13 (F := F) (V0 (Proc.devRef .tc main_arg0)) (V0 (Proc.devRef .tc main_arg1)) (V0 (Proc.devRef .tc main_arg3)) :=
  (seg3_keep (st3 V0) main_v13 (by decide)).trans (st3_main_v13 V0)
theorem st4_main_v21 (V0 : Valuation τ sig (Elt F)) : st4 V0 (no_index (Proc.devRef .tc main_v21)) = val_main_v21 (F := F) (V0 (Proc.devRef .tc main_arg0)) (V0 (Proc.devRef .tc main_arg1)) (V0 (Proc.devRef .tc main_arg3)) :=
  (seg3_keep (st3 V0) main_v21 (by decide)).trans (st3_main_v21 V0)
theorem st4_main_v29 (V0 : Valuation τ sig (Elt F)) : st4 V0 (no_index (Proc.devRef .tc main_v29)) = val_main_v29 (F := F) (V0 (Proc.devRef .tc main_arg0)) (V0 (Proc.devRef .tc main_arg1)) (V0 (Proc.devRef .tc main_arg3)) :=
  (seg3_keep (st3 V0) main_v29 (by decide)).trans (st3_main_v29 V0)
theorem st4_main_v30 (V0 : Valuation τ sig (Elt F)) : st4 V0 (no_index (Proc.devRef .tc main_v30)) = val_main_v30 (F := F) (V0 (Proc.devRef .tc main_arg0)) (V0 (Proc.devRef .tc main_arg1)) (V0 (Proc.devRef .tc main_arg3)) :=
  (seg3_keep (st3 V0) main_v30 (by decide)).trans (st3_main_v30 V0)
theorem st4_main_v31 (V0 : Valuation τ sig (Elt F)) : st4 V0 (no_index (Proc.devRef .tc main_v31)) = val_main_v31 (F := F) (V0 (Proc.devRef .tc main_arg0)) (V0 (Proc.devRef .tc main_arg1)) (V0 (Proc.devRef .tc main_arg3)) :=
  (seg3_keep (st3 V0) main_v31 (by decide)).trans (st3_main_v31 V0)
theorem st4_main_v32 (V0 : Valuation τ sig (Elt F)) : st4 V0 (no_index (Proc.devRef .tc main_v32)) = val_main_v32 (F := F) (V0 (Proc.devRef .tc main_arg0)) (V0 (Proc.devRef .tc main_arg1)) (V0 (Proc.devRef .tc main_arg3)) :=
  (seg3_keep (st3 V0) main_v32 (by decide)).trans (st3_main_v32 V0)
theorem st4_main_v35 (V0 : Valuation τ sig (Elt F)) : st4 V0 (no_index (Proc.devRef .tc main_v35)) = val_main_v35 (F := F) :=
  (seg3_keep (st3 V0) main_v35 (by decide)).trans (st3_main_v35 V0)
theorem st4_main_v36 (V0 : Valuation τ sig (Elt F)) : st4 V0 (no_index (Proc.devRef .tc main_v36)) = val_main_v36 (F := F) :=
  (seg3_keep (st3 V0) main_v36 (by decide)).trans (st3_main_v36 V0)
theorem st4_main_v56 (V0 : Valuation τ sig (Elt F)) : st4 V0 (no_index (Proc.devRef .tc main_v56)) = val_main_v56 (F := F) (V0 (Proc.devRef .tc main_arg0)) (V0 (Proc.devRef .tc main_arg1)) (V0 (Proc.devRef .tc main_arg3)) :=
  (seg3_keep (st3 V0) main_v56 (by decide)).trans (st3_main_v56 V0)
theorem st4_main_v73 (V0 : Valuation τ sig (Elt F)) : st4 V0 (no_index (Proc.devRef .tc main_v73)) = val_main_v73 (F := F) (V0 (Proc.devRef .tc main_arg0)) (V0 (Proc.devRef .tc main_arg1)) (V0 (Proc.devRef .tc main_arg3)) :=
  (seg3_keep (st3 V0) main_v73 (by decide)).trans (st3_main_v73 V0)
theorem st4_main_v104 (V0 : Valuation τ sig (Elt F)) : st4 V0 (no_index (Proc.devRef .tc main_v104)) = val_main_v104 (F := F) (V0 (Proc.devRef .tc main_arg0)) (V0 (Proc.devRef .tc main_arg1)) (V0 (Proc.devRef .tc main_arg3)) :=
  seg3_main_v104 (st3 V0) V0 (st3_main_v103 V0) (st3_main_v102 V0) (st3_main_v101 V0) (st3_main_v100 V0)

/-- The device's buffer contents after the first 5 segments. -/
def st5 (V0 : Valuation τ sig (Elt F)) : Valuation τ sig (Elt F) := after seg4 (st4 V0)
theorem st5_main_arg0 (V0 : Valuation τ sig (Elt F)) : st5 V0 (no_index (Proc.devRef .tc main_arg0)) = V0 (Proc.devRef .tc main_arg0) :=
  (seg4_keep (st4 V0) main_arg0 (by decide)).trans (st4_main_arg0 V0)
theorem st5_main_arg1 (V0 : Valuation τ sig (Elt F)) : st5 V0 (no_index (Proc.devRef .tc main_arg1)) = V0 (Proc.devRef .tc main_arg1) :=
  (seg4_keep (st4 V0) main_arg1 (by decide)).trans (st4_main_arg1 V0)
theorem st5_main_arg2 (V0 : Valuation τ sig (Elt F)) : st5 V0 (no_index (Proc.devRef .tc main_arg2)) = V0 (Proc.devRef .tc main_arg2) :=
  (seg4_keep (st4 V0) main_arg2 (by decide)).trans (st4_main_arg2 V0)
theorem st5_main_arg3 (V0 : Valuation τ sig (Elt F)) : st5 V0 (no_index (Proc.devRef .tc main_arg3)) = V0 (Proc.devRef .tc main_arg3) :=
  (seg4_keep (st4 V0) main_arg3 (by decide)).trans (st4_main_arg3 V0)
theorem st5_main_v1 (V0 : Valuation τ sig (Elt F)) : st5 V0 (no_index (Proc.devRef .tc main_v1)) = val_main_v1 (F := F) (V0 (Proc.devRef .tc main_arg0)) (V0 (Proc.devRef .tc main_arg1)) (V0 (Proc.devRef .tc main_arg3)) :=
  (seg4_keep (st4 V0) main_v1 (by decide)).trans (st4_main_v1 V0)
theorem st5_main_v13 (V0 : Valuation τ sig (Elt F)) : st5 V0 (no_index (Proc.devRef .tc main_v13)) = val_main_v13 (F := F) (V0 (Proc.devRef .tc main_arg0)) (V0 (Proc.devRef .tc main_arg1)) (V0 (Proc.devRef .tc main_arg3)) :=
  (seg4_keep (st4 V0) main_v13 (by decide)).trans (st4_main_v13 V0)
theorem st5_main_v21 (V0 : Valuation τ sig (Elt F)) : st5 V0 (no_index (Proc.devRef .tc main_v21)) = val_main_v21 (F := F) (V0 (Proc.devRef .tc main_arg0)) (V0 (Proc.devRef .tc main_arg1)) (V0 (Proc.devRef .tc main_arg3)) :=
  (seg4_keep (st4 V0) main_v21 (by decide)).trans (st4_main_v21 V0)
theorem st5_main_v29 (V0 : Valuation τ sig (Elt F)) : st5 V0 (no_index (Proc.devRef .tc main_v29)) = val_main_v29 (F := F) (V0 (Proc.devRef .tc main_arg0)) (V0 (Proc.devRef .tc main_arg1)) (V0 (Proc.devRef .tc main_arg3)) :=
  (seg4_keep (st4 V0) main_v29 (by decide)).trans (st4_main_v29 V0)
theorem st5_main_v30 (V0 : Valuation τ sig (Elt F)) : st5 V0 (no_index (Proc.devRef .tc main_v30)) = val_main_v30 (F := F) (V0 (Proc.devRef .tc main_arg0)) (V0 (Proc.devRef .tc main_arg1)) (V0 (Proc.devRef .tc main_arg3)) :=
  (seg4_keep (st4 V0) main_v30 (by decide)).trans (st4_main_v30 V0)
theorem st5_main_v31 (V0 : Valuation τ sig (Elt F)) : st5 V0 (no_index (Proc.devRef .tc main_v31)) = val_main_v31 (F := F) (V0 (Proc.devRef .tc main_arg0)) (V0 (Proc.devRef .tc main_arg1)) (V0 (Proc.devRef .tc main_arg3)) :=
  (seg4_keep (st4 V0) main_v31 (by decide)).trans (st4_main_v31 V0)
theorem st5_main_v32 (V0 : Valuation τ sig (Elt F)) : st5 V0 (no_index (Proc.devRef .tc main_v32)) = val_main_v32 (F := F) (V0 (Proc.devRef .tc main_arg0)) (V0 (Proc.devRef .tc main_arg1)) (V0 (Proc.devRef .tc main_arg3)) :=
  (seg4_keep (st4 V0) main_v32 (by decide)).trans (st4_main_v32 V0)
theorem st5_main_v35 (V0 : Valuation τ sig (Elt F)) : st5 V0 (no_index (Proc.devRef .tc main_v35)) = val_main_v35 (F := F) :=
  (seg4_keep (st4 V0) main_v35 (by decide)).trans (st4_main_v35 V0)
theorem st5_main_v111 (V0 : Valuation τ sig (Elt F)) : st5 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) :=
  seg4_main_v111 (st4 V0) V0 (st4_main_v73 V0) (st4_main_v56 V0) (st4_main_v104 V0) (st4_main_arg2 V0) (st4_main_v36 V0)
theorem st5_main_v113 (V0 : Valuation τ sig (Elt F)) : st5 V0 (no_index (Proc.devRef .tc main_v113)) = val_main_v113 (F := F) (V0 (Proc.devRef .tc main_arg0)) (V0 (Proc.devRef .tc main_arg1)) (V0 (Proc.devRef .tc main_arg3)) :=
  seg4_main_v113 (st4 V0) V0 (st4_main_v30 V0)
theorem st5_main_v115 (V0 : Valuation τ sig (Elt F)) : st5 V0 (no_index (Proc.devRef .tc main_v115)) = val_main_v115 (F := F) (V0 (Proc.devRef .tc main_arg0)) (V0 (Proc.devRef .tc main_arg1)) (V0 (Proc.devRef .tc main_arg3)) :=
  seg4_main_v115 (st4 V0) V0 (st4_main_v31 V0)
theorem st5_main_v117 (V0 : Valuation τ sig (Elt F)) : st5 V0 (no_index (Proc.devRef .tc main_v117)) = val_main_v117 (F := F) (V0 (Proc.devRef .tc main_arg0)) (V0 (Proc.devRef .tc main_arg1)) (V0 (Proc.devRef .tc main_arg3)) :=
  seg4_main_v117 (st4 V0) V0 (st4_main_v32 V0)
theorem st5_main_v131 (V0 : Valuation τ sig (Elt F)) : st5 V0 (no_index (Proc.devRef .tc main_v131)) = val_main_v131 (F := F) (V0 (Proc.devRef .tc main_arg0)) (V0 (Proc.devRef .tc main_arg1)) (V0 (Proc.devRef .tc main_arg3)) :=
  seg4_main_v131 (st4 V0) V0 (st4_main_v32 V0) (st4_main_v29 V0) (st4_main_v31 V0) (st4_main_v21 V0) (st4_main_v30 V0) (st4_main_v13 V0)
theorem st5_main_v133 (V0 : Valuation τ sig (Elt F)) : st5 V0 (no_index (Proc.devRef .tc main_v133)) = val_main_v133 (F := F) (V0 (Proc.devRef .tc main_arg0)) (V0 (Proc.devRef .tc main_arg1)) (V0 (Proc.devRef .tc main_arg3)) :=
  seg4_main_v133 (st4 V0) V0 (st4_main_v30 V0)
theorem st5_main_cst_43 (V0 : Valuation τ sig (Elt F)) : st5 V0 (no_index (Proc.devRef .tc main_cst_43)) = val_main_cst_43 (F := F) :=
  seg4_main_cst_43 (st4 V0) V0

/-- The device's buffer contents after the first 6 segments. -/
def st6 (V0 : Valuation τ sig (Elt F)) : Valuation τ sig (Elt F) := after seg5 (st5 V0)
theorem st6_main_arg0 (V0 : Valuation τ sig (Elt F)) : st6 V0 (no_index (Proc.devRef .tc main_arg0)) = V0 (Proc.devRef .tc main_arg0) :=
  (seg5_keep (st5 V0) main_arg0 (by decide)).trans (st5_main_arg0 V0)
theorem st6_main_arg1 (V0 : Valuation τ sig (Elt F)) : st6 V0 (no_index (Proc.devRef .tc main_arg1)) = V0 (Proc.devRef .tc main_arg1) :=
  (seg5_keep (st5 V0) main_arg1 (by decide)).trans (st5_main_arg1 V0)
theorem st6_main_arg2 (V0 : Valuation τ sig (Elt F)) : st6 V0 (no_index (Proc.devRef .tc main_arg2)) = V0 (Proc.devRef .tc main_arg2) :=
  (seg5_keep (st5 V0) main_arg2 (by decide)).trans (st5_main_arg2 V0)
theorem st6_main_arg3 (V0 : Valuation τ sig (Elt F)) : st6 V0 (no_index (Proc.devRef .tc main_arg3)) = V0 (Proc.devRef .tc main_arg3) :=
  (seg5_keep (st5 V0) main_arg3 (by decide)).trans (st5_main_arg3 V0)
theorem st6_main_v1 (V0 : Valuation τ sig (Elt F)) : st6 V0 (no_index (Proc.devRef .tc main_v1)) = val_main_v1 (F := F) (V0 (Proc.devRef .tc main_arg0)) (V0 (Proc.devRef .tc main_arg1)) (V0 (Proc.devRef .tc main_arg3)) :=
  (seg5_keep (st5 V0) main_v1 (by decide)).trans (st5_main_v1 V0)
theorem st6_main_v13 (V0 : Valuation τ sig (Elt F)) : st6 V0 (no_index (Proc.devRef .tc main_v13)) = val_main_v13 (F := F) (V0 (Proc.devRef .tc main_arg0)) (V0 (Proc.devRef .tc main_arg1)) (V0 (Proc.devRef .tc main_arg3)) :=
  (seg5_keep (st5 V0) main_v13 (by decide)).trans (st5_main_v13 V0)
theorem st6_main_v21 (V0 : Valuation τ sig (Elt F)) : st6 V0 (no_index (Proc.devRef .tc main_v21)) = val_main_v21 (F := F) (V0 (Proc.devRef .tc main_arg0)) (V0 (Proc.devRef .tc main_arg1)) (V0 (Proc.devRef .tc main_arg3)) :=
  (seg5_keep (st5 V0) main_v21 (by decide)).trans (st5_main_v21 V0)
theorem st6_main_v29 (V0 : Valuation τ sig (Elt F)) : st6 V0 (no_index (Proc.devRef .tc main_v29)) = val_main_v29 (F := F) (V0 (Proc.devRef .tc main_arg0)) (V0 (Proc.devRef .tc main_arg1)) (V0 (Proc.devRef .tc main_arg3)) :=
  (seg5_keep (st5 V0) main_v29 (by decide)).trans (st5_main_v29 V0)
theorem st6_main_v30 (V0 : Valuation τ sig (Elt F)) : st6 V0 (no_index (Proc.devRef .tc main_v30)) = val_main_v30 (F := F) (V0 (Proc.devRef .tc main_arg0)) (V0 (Proc.devRef .tc main_arg1)) (V0 (Proc.devRef .tc main_arg3)) :=
  (seg5_keep (st5 V0) main_v30 (by decide)).trans (st5_main_v30 V0)
theorem st6_main_v31 (V0 : Valuation τ sig (Elt F)) : st6 V0 (no_index (Proc.devRef .tc main_v31)) = val_main_v31 (F := F) (V0 (Proc.devRef .tc main_arg0)) (V0 (Proc.devRef .tc main_arg1)) (V0 (Proc.devRef .tc main_arg3)) :=
  (seg5_keep (st5 V0) main_v31 (by decide)).trans (st5_main_v31 V0)
theorem st6_main_v32 (V0 : Valuation τ sig (Elt F)) : st6 V0 (no_index (Proc.devRef .tc main_v32)) = val_main_v32 (F := F) (V0 (Proc.devRef .tc main_arg0)) (V0 (Proc.devRef .tc main_arg1)) (V0 (Proc.devRef .tc main_arg3)) :=
  (seg5_keep (st5 V0) main_v32 (by decide)).trans (st5_main_v32 V0)
theorem st6_main_v35 (V0 : Valuation τ sig (Elt F)) : st6 V0 (no_index (Proc.devRef .tc main_v35)) = val_main_v35 (F := F) :=
  (seg5_keep (st5 V0) main_v35 (by decide)).trans (st5_main_v35 V0)
theorem st6_main_v111 (V0 : Valuation τ sig (Elt F)) : st6 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) :=
  (seg5_keep (st5 V0) main_v111 (by decide)).trans (st5_main_v111 V0)
theorem st6_main_v131 (V0 : Valuation τ sig (Elt F)) : st6 V0 (no_index (Proc.devRef .tc main_v131)) = val_main_v131 (F := F) (V0 (Proc.devRef .tc main_arg0)) (V0 (Proc.devRef .tc main_arg1)) (V0 (Proc.devRef .tc main_arg3)) :=
  (seg5_keep (st5 V0) main_v131 (by decide)).trans (st5_main_v131 V0)
theorem st6_main_v148 (V0 : Valuation τ sig (Elt F)) : st6 V0 (no_index (Proc.devRef .tc main_v148)) = val_main_v148 (F := F) (V0 (Proc.devRef .tc main_arg0)) (V0 (Proc.devRef .tc main_arg1)) (V0 (Proc.devRef .tc main_arg3)) :=
  seg5_main_v148 (st5 V0) V0 (st5_main_v117 V0) (st5_main_v115 V0) (st5_main_cst_43 V0) (st5_main_v113 V0) (st5_main_v133 V0)
theorem st6_main_v164 (V0 : Valuation τ sig (Elt F)) : st6 V0 (no_index (Proc.devRef .tc main_v164)) = val_main_v164 (F := F) (V0 (Proc.devRef .tc main_arg0)) (V0 (Proc.devRef .tc main_arg1)) (V0 (Proc.devRef .tc main_arg3)) :=
  seg5_main_v164 (st5 V0) V0 (st5_main_v117 V0)
theorem st6_main_v169 (V0 : Valuation τ sig (Elt F)) : st6 V0 (no_index (Proc.devRef .tc main_v169)) = val_main_v169 (F := F) (V0 (Proc.devRef .tc main_arg0)) (V0 (Proc.devRef .tc main_arg1)) (V0 (Proc.devRef .tc main_arg3)) :=
  seg5_main_v169 (st5 V0) V0 (st5_main_v115 V0)
theorem st6_main_v174 (V0 : Valuation τ sig (Elt F)) : st6 V0 (no_index (Proc.devRef .tc main_v174)) = val_main_v174 (F := F) (V0 (Proc.devRef .tc main_arg0)) (V0 (Proc.devRef .tc main_arg1)) (V0 (Proc.devRef .tc main_arg3)) :=
  seg5_main_v174 (st5 V0) V0 (st5_main_v113 V0)
theorem st6_main_v175 (V0 : Valuation τ sig (Elt F)) : st6 V0 (no_index (Proc.devRef .tc main_v175)) = val_main_v175 (F := F) :=
  seg5_main_v175 (st5 V0) V0 (st5_main_v35 V0)

/-- The device's buffer contents after the first 7 segments. -/
def st7 (V0 : Valuation τ sig (Elt F)) : Valuation τ sig (Elt F) := after seg6 (st6 V0)
theorem st7_main_arg0 (V0 : Valuation τ sig (Elt F)) : st7 V0 (no_index (Proc.devRef .tc main_arg0)) = V0 (Proc.devRef .tc main_arg0) :=
  (seg6_keep (st6 V0) main_arg0 (by decide)).trans (st6_main_arg0 V0)
theorem st7_main_arg1 (V0 : Valuation τ sig (Elt F)) : st7 V0 (no_index (Proc.devRef .tc main_arg1)) = V0 (Proc.devRef .tc main_arg1) :=
  (seg6_keep (st6 V0) main_arg1 (by decide)).trans (st6_main_arg1 V0)
theorem st7_main_arg2 (V0 : Valuation τ sig (Elt F)) : st7 V0 (no_index (Proc.devRef .tc main_arg2)) = V0 (Proc.devRef .tc main_arg2) :=
  (seg6_keep (st6 V0) main_arg2 (by decide)).trans (st6_main_arg2 V0)
theorem st7_main_arg3 (V0 : Valuation τ sig (Elt F)) : st7 V0 (no_index (Proc.devRef .tc main_arg3)) = V0 (Proc.devRef .tc main_arg3) :=
  (seg6_keep (st6 V0) main_arg3 (by decide)).trans (st6_main_arg3 V0)
theorem st7_main_v1 (V0 : Valuation τ sig (Elt F)) : st7 V0 (no_index (Proc.devRef .tc main_v1)) = val_main_v1 (F := F) (V0 (Proc.devRef .tc main_arg0)) (V0 (Proc.devRef .tc main_arg1)) (V0 (Proc.devRef .tc main_arg3)) :=
  (seg6_keep (st6 V0) main_v1 (by decide)).trans (st6_main_v1 V0)
theorem st7_main_v13 (V0 : Valuation τ sig (Elt F)) : st7 V0 (no_index (Proc.devRef .tc main_v13)) = val_main_v13 (F := F) (V0 (Proc.devRef .tc main_arg0)) (V0 (Proc.devRef .tc main_arg1)) (V0 (Proc.devRef .tc main_arg3)) :=
  (seg6_keep (st6 V0) main_v13 (by decide)).trans (st6_main_v13 V0)
theorem st7_main_v21 (V0 : Valuation τ sig (Elt F)) : st7 V0 (no_index (Proc.devRef .tc main_v21)) = val_main_v21 (F := F) (V0 (Proc.devRef .tc main_arg0)) (V0 (Proc.devRef .tc main_arg1)) (V0 (Proc.devRef .tc main_arg3)) :=
  (seg6_keep (st6 V0) main_v21 (by decide)).trans (st6_main_v21 V0)
theorem st7_main_v29 (V0 : Valuation τ sig (Elt F)) : st7 V0 (no_index (Proc.devRef .tc main_v29)) = val_main_v29 (F := F) (V0 (Proc.devRef .tc main_arg0)) (V0 (Proc.devRef .tc main_arg1)) (V0 (Proc.devRef .tc main_arg3)) :=
  (seg6_keep (st6 V0) main_v29 (by decide)).trans (st6_main_v29 V0)
theorem st7_main_v30 (V0 : Valuation τ sig (Elt F)) : st7 V0 (no_index (Proc.devRef .tc main_v30)) = val_main_v30 (F := F) (V0 (Proc.devRef .tc main_arg0)) (V0 (Proc.devRef .tc main_arg1)) (V0 (Proc.devRef .tc main_arg3)) :=
  (seg6_keep (st6 V0) main_v30 (by decide)).trans (st6_main_v30 V0)
theorem st7_main_v31 (V0 : Valuation τ sig (Elt F)) : st7 V0 (no_index (Proc.devRef .tc main_v31)) = val_main_v31 (F := F) (V0 (Proc.devRef .tc main_arg0)) (V0 (Proc.devRef .tc main_arg1)) (V0 (Proc.devRef .tc main_arg3)) :=
  (seg6_keep (st6 V0) main_v31 (by decide)).trans (st6_main_v31 V0)
theorem st7_main_v32 (V0 : Valuation τ sig (Elt F)) : st7 V0 (no_index (Proc.devRef .tc main_v32)) = val_main_v32 (F := F) (V0 (Proc.devRef .tc main_arg0)) (V0 (Proc.devRef .tc main_arg1)) (V0 (Proc.devRef .tc main_arg3)) :=
  (seg6_keep (st6 V0) main_v32 (by decide)).trans (st6_main_v32 V0)
theorem st7_main_v35 (V0 : Valuation τ sig (Elt F)) : st7 V0 (no_index (Proc.devRef .tc main_v35)) = val_main_v35 (F := F) :=
  (seg6_keep (st6 V0) main_v35 (by decide)).trans (st6_main_v35 V0)
theorem st7_main_v111 (V0 : Valuation τ sig (Elt F)) : st7 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) :=
  (seg6_keep (st6 V0) main_v111 (by decide)).trans (st6_main_v111 V0)
theorem st7_main_v131 (V0 : Valuation τ sig (Elt F)) : st7 V0 (no_index (Proc.devRef .tc main_v131)) = val_main_v131 (F := F) (V0 (Proc.devRef .tc main_arg0)) (V0 (Proc.devRef .tc main_arg1)) (V0 (Proc.devRef .tc main_arg3)) :=
  (seg6_keep (st6 V0) main_v131 (by decide)).trans (st6_main_v131 V0)
theorem st7_main_v148 (V0 : Valuation τ sig (Elt F)) : st7 V0 (no_index (Proc.devRef .tc main_v148)) = val_main_v148 (F := F) (V0 (Proc.devRef .tc main_arg0)) (V0 (Proc.devRef .tc main_arg1)) (V0 (Proc.devRef .tc main_arg3)) :=
  (seg6_keep (st6 V0) main_v148 (by decide)).trans (st6_main_v148 V0)
theorem st7_main_v175 (V0 : Valuation τ sig (Elt F)) : st7 V0 (no_index (Proc.devRef .tc main_v175)) = val_main_v175 (F := F) :=
  (seg6_keep (st6 V0) main_v175 (by decide)).trans (st6_main_v175 V0)
theorem st7_main_v176 (V0 : Valuation τ sig (Elt F)) : st7 V0 (no_index (Proc.devRef .tc main_v176)) = val_main_v176 (F := F) (V0 (Proc.devRef .tc main_arg0)) (V0 (Proc.devRef .tc main_arg1)) (V0 (Proc.devRef .tc main_arg3)) :=
  seg6_main_v176 (st6 V0) V0 (st6_main_v164 V0)
theorem st7_main_v177 (V0 : Valuation τ sig (Elt F)) : st7 V0 (no_index (Proc.devRef .tc main_v177)) = val_main_v177 (F := F) (V0 (Proc.devRef .tc main_arg0)) (V0 (Proc.devRef .tc main_arg1)) (V0 (Proc.devRef .tc main_arg3)) :=
  seg6_main_v177 (st6 V0) V0 (st6_main_v169 V0)
theorem st7_main_v178 (V0 : Valuation τ sig (Elt F)) : st7 V0 (no_index (Proc.devRef .tc main_v178)) = val_main_v178 (F := F) (V0 (Proc.devRef .tc main_arg0)) (V0 (Proc.devRef .tc main_arg1)) (V0 (Proc.devRef .tc main_arg3)) :=
  seg6_main_v178 (st6 V0) V0 (st6_main_v174 V0)

/-- The device's buffer contents after the first 8 segments. -/
def st8 (V0 : Valuation τ sig (Elt F)) : Valuation τ sig (Elt F) := after seg7 (st7 V0)
theorem st8_main_arg0 (V0 : Valuation τ sig (Elt F)) : st8 V0 (no_index (Proc.devRef .tc main_arg0)) = V0 (Proc.devRef .tc main_arg0) :=
  (seg7_keep (st7 V0) main_arg0 (by decide)).trans (st7_main_arg0 V0)
theorem st8_main_arg1 (V0 : Valuation τ sig (Elt F)) : st8 V0 (no_index (Proc.devRef .tc main_arg1)) = V0 (Proc.devRef .tc main_arg1) :=
  (seg7_keep (st7 V0) main_arg1 (by decide)).trans (st7_main_arg1 V0)
theorem st8_main_arg2 (V0 : Valuation τ sig (Elt F)) : st8 V0 (no_index (Proc.devRef .tc main_arg2)) = V0 (Proc.devRef .tc main_arg2) :=
  (seg7_keep (st7 V0) main_arg2 (by decide)).trans (st7_main_arg2 V0)
theorem st8_main_arg3 (V0 : Valuation τ sig (Elt F)) : st8 V0 (no_index (Proc.devRef .tc main_arg3)) = V0 (Proc.devRef .tc main_arg3) :=
  (seg7_keep (st7 V0) main_arg3 (by decide)).trans (st7_main_arg3 V0)
theorem st8_main_v1 (V0 : Valuation τ sig (Elt F)) : st8 V0 (no_index (Proc.devRef .tc main_v1)) = val_main_v1 (F := F) (V0 (Proc.devRef .tc main_arg0)) (V0 (Proc.devRef .tc main_arg1)) (V0 (Proc.devRef .tc main_arg3)) :=
  (seg7_keep (st7 V0) main_v1 (by decide)).trans (st7_main_v1 V0)
theorem st8_main_v13 (V0 : Valuation τ sig (Elt F)) : st8 V0 (no_index (Proc.devRef .tc main_v13)) = val_main_v13 (F := F) (V0 (Proc.devRef .tc main_arg0)) (V0 (Proc.devRef .tc main_arg1)) (V0 (Proc.devRef .tc main_arg3)) :=
  (seg7_keep (st7 V0) main_v13 (by decide)).trans (st7_main_v13 V0)
theorem st8_main_v21 (V0 : Valuation τ sig (Elt F)) : st8 V0 (no_index (Proc.devRef .tc main_v21)) = val_main_v21 (F := F) (V0 (Proc.devRef .tc main_arg0)) (V0 (Proc.devRef .tc main_arg1)) (V0 (Proc.devRef .tc main_arg3)) :=
  (seg7_keep (st7 V0) main_v21 (by decide)).trans (st7_main_v21 V0)
theorem st8_main_v29 (V0 : Valuation τ sig (Elt F)) : st8 V0 (no_index (Proc.devRef .tc main_v29)) = val_main_v29 (F := F) (V0 (Proc.devRef .tc main_arg0)) (V0 (Proc.devRef .tc main_arg1)) (V0 (Proc.devRef .tc main_arg3)) :=
  (seg7_keep (st7 V0) main_v29 (by decide)).trans (st7_main_v29 V0)
theorem st8_main_v30 (V0 : Valuation τ sig (Elt F)) : st8 V0 (no_index (Proc.devRef .tc main_v30)) = val_main_v30 (F := F) (V0 (Proc.devRef .tc main_arg0)) (V0 (Proc.devRef .tc main_arg1)) (V0 (Proc.devRef .tc main_arg3)) :=
  (seg7_keep (st7 V0) main_v30 (by decide)).trans (st7_main_v30 V0)
theorem st8_main_v31 (V0 : Valuation τ sig (Elt F)) : st8 V0 (no_index (Proc.devRef .tc main_v31)) = val_main_v31 (F := F) (V0 (Proc.devRef .tc main_arg0)) (V0 (Proc.devRef .tc main_arg1)) (V0 (Proc.devRef .tc main_arg3)) :=
  (seg7_keep (st7 V0) main_v31 (by decide)).trans (st7_main_v31 V0)
theorem st8_main_v32 (V0 : Valuation τ sig (Elt F)) : st8 V0 (no_index (Proc.devRef .tc main_v32)) = val_main_v32 (F := F) (V0 (Proc.devRef .tc main_arg0)) (V0 (Proc.devRef .tc main_arg1)) (V0 (Proc.devRef .tc main_arg3)) :=
  (seg7_keep (st7 V0) main_v32 (by decide)).trans (st7_main_v32 V0)
theorem st8_main_v35 (V0 : Valuation τ sig (Elt F)) : st8 V0 (no_index (Proc.devRef .tc main_v35)) = val_main_v35 (F := F) :=
  (seg7_keep (st7 V0) main_v35 (by decide)).trans (st7_main_v35 V0)
theorem st8_main_v111 (V0 : Valuation τ sig (Elt F)) : st8 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) :=
  (seg7_keep (st7 V0) main_v111 (by decide)).trans (st7_main_v111 V0)
theorem st8_main_v131 (V0 : Valuation τ sig (Elt F)) : st8 V0 (no_index (Proc.devRef .tc main_v131)) = val_main_v131 (F := F) (V0 (Proc.devRef .tc main_arg0)) (V0 (Proc.devRef .tc main_arg1)) (V0 (Proc.devRef .tc main_arg3)) :=
  (seg7_keep (st7 V0) main_v131 (by decide)).trans (st7_main_v131 V0)
theorem st8_main_v148 (V0 : Valuation τ sig (Elt F)) : st8 V0 (no_index (Proc.devRef .tc main_v148)) = val_main_v148 (F := F) (V0 (Proc.devRef .tc main_arg0)) (V0 (Proc.devRef .tc main_arg1)) (V0 (Proc.devRef .tc main_arg3)) :=
  (seg7_keep (st7 V0) main_v148 (by decide)).trans (st7_main_v148 V0)
theorem st8_main_v179 (V0 : Valuation τ sig (Elt F)) : st8 V0 (no_index (Proc.devRef .tc main_v179)) = val_main_v179 (F := F) (V0 (Proc.devRef .tc main_arg0)) (V0 (Proc.devRef .tc main_arg1)) (V0 (Proc.devRef .tc main_arg3)) :=
  seg7_main_v179 (st7 V0) V0 (st7_main_v178 V0) (st7_main_v177 V0) (st7_main_v176 V0) (st7_main_v175 V0)

/-- The device's buffer contents after the first 9 segments. -/
def st9 (V0 : Valuation τ sig (Elt F)) : Valuation τ sig (Elt F) := after seg8 (st8 V0)
theorem st9_main_arg0 (V0 : Valuation τ sig (Elt F)) : st9 V0 (no_index (Proc.devRef .tc main_arg0)) = V0 (Proc.devRef .tc main_arg0) :=
  (seg8_keep (st8 V0) main_arg0 (by decide)).trans (st8_main_arg0 V0)
theorem st9_main_arg1 (V0 : Valuation τ sig (Elt F)) : st9 V0 (no_index (Proc.devRef .tc main_arg1)) = V0 (Proc.devRef .tc main_arg1) :=
  (seg8_keep (st8 V0) main_arg1 (by decide)).trans (st8_main_arg1 V0)
theorem st9_main_arg2 (V0 : Valuation τ sig (Elt F)) : st9 V0 (no_index (Proc.devRef .tc main_arg2)) = V0 (Proc.devRef .tc main_arg2) :=
  (seg8_keep (st8 V0) main_arg2 (by decide)).trans (st8_main_arg2 V0)
theorem st9_main_arg3 (V0 : Valuation τ sig (Elt F)) : st9 V0 (no_index (Proc.devRef .tc main_arg3)) = V0 (Proc.devRef .tc main_arg3) :=
  (seg8_keep (st8 V0) main_arg3 (by decide)).trans (st8_main_arg3 V0)
theorem st9_main_v1 (V0 : Valuation τ sig (Elt F)) : st9 V0 (no_index (Proc.devRef .tc main_v1)) = val_main_v1 (F := F) (V0 (Proc.devRef .tc main_arg0)) (V0 (Proc.devRef .tc main_arg1)) (V0 (Proc.devRef .tc main_arg3)) :=
  (seg8_keep (st8 V0) main_v1 (by decide)).trans (st8_main_v1 V0)
theorem st9_main_v13 (V0 : Valuation τ sig (Elt F)) : st9 V0 (no_index (Proc.devRef .tc main_v13)) = val_main_v13 (F := F) (V0 (Proc.devRef .tc main_arg0)) (V0 (Proc.devRef .tc main_arg1)) (V0 (Proc.devRef .tc main_arg3)) :=
  (seg8_keep (st8 V0) main_v13 (by decide)).trans (st8_main_v13 V0)
theorem st9_main_v21 (V0 : Valuation τ sig (Elt F)) : st9 V0 (no_index (Proc.devRef .tc main_v21)) = val_main_v21 (F := F) (V0 (Proc.devRef .tc main_arg0)) (V0 (Proc.devRef .tc main_arg1)) (V0 (Proc.devRef .tc main_arg3)) :=
  (seg8_keep (st8 V0) main_v21 (by decide)).trans (st8_main_v21 V0)
theorem st9_main_v29 (V0 : Valuation τ sig (Elt F)) : st9 V0 (no_index (Proc.devRef .tc main_v29)) = val_main_v29 (F := F) (V0 (Proc.devRef .tc main_arg0)) (V0 (Proc.devRef .tc main_arg1)) (V0 (Proc.devRef .tc main_arg3)) :=
  (seg8_keep (st8 V0) main_v29 (by decide)).trans (st8_main_v29 V0)
theorem st9_main_v30 (V0 : Valuation τ sig (Elt F)) : st9 V0 (no_index (Proc.devRef .tc main_v30)) = val_main_v30 (F := F) (V0 (Proc.devRef .tc main_arg0)) (V0 (Proc.devRef .tc main_arg1)) (V0 (Proc.devRef .tc main_arg3)) :=
  (seg8_keep (st8 V0) main_v30 (by decide)).trans (st8_main_v30 V0)
theorem st9_main_v31 (V0 : Valuation τ sig (Elt F)) : st9 V0 (no_index (Proc.devRef .tc main_v31)) = val_main_v31 (F := F) (V0 (Proc.devRef .tc main_arg0)) (V0 (Proc.devRef .tc main_arg1)) (V0 (Proc.devRef .tc main_arg3)) :=
  (seg8_keep (st8 V0) main_v31 (by decide)).trans (st8_main_v31 V0)
theorem st9_main_v32 (V0 : Valuation τ sig (Elt F)) : st9 V0 (no_index (Proc.devRef .tc main_v32)) = val_main_v32 (F := F) (V0 (Proc.devRef .tc main_arg0)) (V0 (Proc.devRef .tc main_arg1)) (V0 (Proc.devRef .tc main_arg3)) :=
  (seg8_keep (st8 V0) main_v32 (by decide)).trans (st8_main_v32 V0)
theorem st9_main_v35 (V0 : Valuation τ sig (Elt F)) : st9 V0 (no_index (Proc.devRef .tc main_v35)) = val_main_v35 (F := F) :=
  (seg8_keep (st8 V0) main_v35 (by decide)).trans (st8_main_v35 V0)
theorem st9_main_v186 (V0 : Valuation τ sig (Elt F)) : st9 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) :=
  seg8_main_v186 (st8 V0) V0 (st8_main_v148 V0) (st8_main_v131 V0) (st8_main_v179 V0) (st8_main_arg2 V0) (st8_main_v111 V0)
theorem st9_main_v188 (V0 : Valuation τ sig (Elt F)) : st9 V0 (no_index (Proc.devRef .tc main_v188)) = val_main_v188 (F := F) (V0 (Proc.devRef .tc main_arg0)) (V0 (Proc.devRef .tc main_arg1)) (V0 (Proc.devRef .tc main_arg3)) :=
  seg8_main_v188 (st8 V0) V0 (st8_main_v30 V0)
theorem st9_main_v190 (V0 : Valuation τ sig (Elt F)) : st9 V0 (no_index (Proc.devRef .tc main_v190)) = val_main_v190 (F := F) (V0 (Proc.devRef .tc main_arg0)) (V0 (Proc.devRef .tc main_arg1)) (V0 (Proc.devRef .tc main_arg3)) :=
  seg8_main_v190 (st8 V0) V0 (st8_main_v31 V0)
theorem st9_main_v192 (V0 : Valuation τ sig (Elt F)) : st9 V0 (no_index (Proc.devRef .tc main_v192)) = val_main_v192 (F := F) (V0 (Proc.devRef .tc main_arg0)) (V0 (Proc.devRef .tc main_arg1)) (V0 (Proc.devRef .tc main_arg3)) :=
  seg8_main_v192 (st8 V0) V0 (st8_main_v32 V0)
theorem st9_main_v206 (V0 : Valuation τ sig (Elt F)) : st9 V0 (no_index (Proc.devRef .tc main_v206)) = val_main_v206 (F := F) (V0 (Proc.devRef .tc main_arg0)) (V0 (Proc.devRef .tc main_arg1)) (V0 (Proc.devRef .tc main_arg3)) :=
  seg8_main_v206 (st8 V0) V0 (st8_main_v32 V0) (st8_main_v29 V0) (st8_main_v31 V0) (st8_main_v21 V0) (st8_main_v30 V0) (st8_main_v13 V0)
theorem st9_main_v223 (V0 : Valuation τ sig (Elt F)) : st9 V0 (no_index (Proc.devRef .tc main_v223)) = val_main_v223 (F := F) (V0 (Proc.devRef .tc main_arg0)) (V0 (Proc.devRef .tc main_arg1)) (V0 (Proc.devRef .tc main_arg3)) :=
  seg8_main_v223 (st8 V0) V0 (st8_main_v32 V0) (st8_main_v31 V0) (st8_main_v30 V0)

/-- The device's buffer contents after the first 10 segments. -/
def st10 (V0 : Valuation τ sig (Elt F)) : Valuation τ sig (Elt F) := after seg9 (st9 V0)
theorem st10_main_arg0 (V0 : Valuation τ sig (Elt F)) : st10 V0 (no_index (Proc.devRef .tc main_arg0)) = V0 (Proc.devRef .tc main_arg0) :=
  (seg9_keep (st9 V0) main_arg0 (by decide)).trans (st9_main_arg0 V0)
theorem st10_main_arg1 (V0 : Valuation τ sig (Elt F)) : st10 V0 (no_index (Proc.devRef .tc main_arg1)) = V0 (Proc.devRef .tc main_arg1) :=
  (seg9_keep (st9 V0) main_arg1 (by decide)).trans (st9_main_arg1 V0)
theorem st10_main_arg2 (V0 : Valuation τ sig (Elt F)) : st10 V0 (no_index (Proc.devRef .tc main_arg2)) = V0 (Proc.devRef .tc main_arg2) :=
  (seg9_keep (st9 V0) main_arg2 (by decide)).trans (st9_main_arg2 V0)
theorem st10_main_arg3 (V0 : Valuation τ sig (Elt F)) : st10 V0 (no_index (Proc.devRef .tc main_arg3)) = V0 (Proc.devRef .tc main_arg3) :=
  (seg9_keep (st9 V0) main_arg3 (by decide)).trans (st9_main_arg3 V0)
theorem st10_main_v1 (V0 : Valuation τ sig (Elt F)) : st10 V0 (no_index (Proc.devRef .tc main_v1)) = val_main_v1 (F := F) (V0 (Proc.devRef .tc main_arg0)) (V0 (Proc.devRef .tc main_arg1)) (V0 (Proc.devRef .tc main_arg3)) :=
  (seg9_keep (st9 V0) main_v1 (by decide)).trans (st9_main_v1 V0)
theorem st10_main_v13 (V0 : Valuation τ sig (Elt F)) : st10 V0 (no_index (Proc.devRef .tc main_v13)) = val_main_v13 (F := F) (V0 (Proc.devRef .tc main_arg0)) (V0 (Proc.devRef .tc main_arg1)) (V0 (Proc.devRef .tc main_arg3)) :=
  (seg9_keep (st9 V0) main_v13 (by decide)).trans (st9_main_v13 V0)
theorem st10_main_v21 (V0 : Valuation τ sig (Elt F)) : st10 V0 (no_index (Proc.devRef .tc main_v21)) = val_main_v21 (F := F) (V0 (Proc.devRef .tc main_arg0)) (V0 (Proc.devRef .tc main_arg1)) (V0 (Proc.devRef .tc main_arg3)) :=
  (seg9_keep (st9 V0) main_v21 (by decide)).trans (st9_main_v21 V0)
theorem st10_main_v29 (V0 : Valuation τ sig (Elt F)) : st10 V0 (no_index (Proc.devRef .tc main_v29)) = val_main_v29 (F := F) (V0 (Proc.devRef .tc main_arg0)) (V0 (Proc.devRef .tc main_arg1)) (V0 (Proc.devRef .tc main_arg3)) :=
  (seg9_keep (st9 V0) main_v29 (by decide)).trans (st9_main_v29 V0)
theorem st10_main_v30 (V0 : Valuation τ sig (Elt F)) : st10 V0 (no_index (Proc.devRef .tc main_v30)) = val_main_v30 (F := F) (V0 (Proc.devRef .tc main_arg0)) (V0 (Proc.devRef .tc main_arg1)) (V0 (Proc.devRef .tc main_arg3)) :=
  (seg9_keep (st9 V0) main_v30 (by decide)).trans (st9_main_v30 V0)
theorem st10_main_v31 (V0 : Valuation τ sig (Elt F)) : st10 V0 (no_index (Proc.devRef .tc main_v31)) = val_main_v31 (F := F) (V0 (Proc.devRef .tc main_arg0)) (V0 (Proc.devRef .tc main_arg1)) (V0 (Proc.devRef .tc main_arg3)) :=
  (seg9_keep (st9 V0) main_v31 (by decide)).trans (st9_main_v31 V0)
theorem st10_main_v32 (V0 : Valuation τ sig (Elt F)) : st10 V0 (no_index (Proc.devRef .tc main_v32)) = val_main_v32 (F := F) (V0 (Proc.devRef .tc main_arg0)) (V0 (Proc.devRef .tc main_arg1)) (V0 (Proc.devRef .tc main_arg3)) :=
  (seg9_keep (st9 V0) main_v32 (by decide)).trans (st9_main_v32 V0)
theorem st10_main_v35 (V0 : Valuation τ sig (Elt F)) : st10 V0 (no_index (Proc.devRef .tc main_v35)) = val_main_v35 (F := F) :=
  (seg9_keep (st9 V0) main_v35 (by decide)).trans (st9_main_v35 V0)
theorem st10_main_v186 (V0 : Valuation τ sig (Elt F)) : st10 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) :=
  (seg9_keep (st9 V0) main_v186 (by decide)).trans (st9_main_v186 V0)
theorem st10_main_v206 (V0 : Valuation τ sig (Elt F)) : st10 V0 (no_index (Proc.devRef .tc main_v206)) = val_main_v206 (F := F) (V0 (Proc.devRef .tc main_arg0)) (V0 (Proc.devRef .tc main_arg1)) (V0 (Proc.devRef .tc main_arg3)) :=
  (seg9_keep (st9 V0) main_v206 (by decide)).trans (st9_main_v206 V0)
theorem st10_main_v223 (V0 : Valuation τ sig (Elt F)) : st10 V0 (no_index (Proc.devRef .tc main_v223)) = val_main_v223 (F := F) (V0 (Proc.devRef .tc main_arg0)) (V0 (Proc.devRef .tc main_arg1)) (V0 (Proc.devRef .tc main_arg3)) :=
  (seg9_keep (st9 V0) main_v223 (by decide)).trans (st9_main_v223 V0)
theorem st10_main_v250 (V0 : Valuation τ sig (Elt F)) : st10 V0 (no_index (Proc.devRef .tc main_v250)) = val_main_v250 (F := F) :=
  seg9_main_v250 (st9 V0) V0 (st9_main_v35 V0)
theorem st10_main_v251 (V0 : Valuation τ sig (Elt F)) : st10 V0 (no_index (Proc.devRef .tc main_v251)) = val_main_v251 (F := F) (V0 (Proc.devRef .tc main_arg0)) (V0 (Proc.devRef .tc main_arg1)) (V0 (Proc.devRef .tc main_arg3)) :=
  seg9_main_v251 (st9 V0) V0 (st9_main_v192 V0)
theorem st10_main_v252 (V0 : Valuation τ sig (Elt F)) : st10 V0 (no_index (Proc.devRef .tc main_v252)) = val_main_v252 (F := F) (V0 (Proc.devRef .tc main_arg0)) (V0 (Proc.devRef .tc main_arg1)) (V0 (Proc.devRef .tc main_arg3)) :=
  seg9_main_v252 (st9 V0) V0 (st9_main_v190 V0)
theorem st10_main_v253 (V0 : Valuation τ sig (Elt F)) : st10 V0 (no_index (Proc.devRef .tc main_v253)) = val_main_v253 (F := F) (V0 (Proc.devRef .tc main_arg0)) (V0 (Proc.devRef .tc main_arg1)) (V0 (Proc.devRef .tc main_arg3)) :=
  seg9_main_v253 (st9 V0) V0 (st9_main_v188 V0)

/-- The device's buffer contents after the first 11 segments. -/
def st11 (V0 : Valuation τ sig (Elt F)) : Valuation τ sig (Elt F) := after seg10 (st10 V0)
theorem st11_main_arg0 (V0 : Valuation τ sig (Elt F)) : st11 V0 (no_index (Proc.devRef .tc main_arg0)) = V0 (Proc.devRef .tc main_arg0) :=
  (seg10_keep (st10 V0) main_arg0 (by decide)).trans (st10_main_arg0 V0)
theorem st11_main_arg1 (V0 : Valuation τ sig (Elt F)) : st11 V0 (no_index (Proc.devRef .tc main_arg1)) = V0 (Proc.devRef .tc main_arg1) :=
  (seg10_keep (st10 V0) main_arg1 (by decide)).trans (st10_main_arg1 V0)
theorem st11_main_arg2 (V0 : Valuation τ sig (Elt F)) : st11 V0 (no_index (Proc.devRef .tc main_arg2)) = V0 (Proc.devRef .tc main_arg2) :=
  (seg10_keep (st10 V0) main_arg2 (by decide)).trans (st10_main_arg2 V0)
theorem st11_main_arg3 (V0 : Valuation τ sig (Elt F)) : st11 V0 (no_index (Proc.devRef .tc main_arg3)) = V0 (Proc.devRef .tc main_arg3) :=
  (seg10_keep (st10 V0) main_arg3 (by decide)).trans (st10_main_arg3 V0)
theorem st11_main_v1 (V0 : Valuation τ sig (Elt F)) : st11 V0 (no_index (Proc.devRef .tc main_v1)) = val_main_v1 (F := F) (V0 (Proc.devRef .tc main_arg0)) (V0 (Proc.devRef .tc main_arg1)) (V0 (Proc.devRef .tc main_arg3)) :=
  (seg10_keep (st10 V0) main_v1 (by decide)).trans (st10_main_v1 V0)
theorem st11_main_v13 (V0 : Valuation τ sig (Elt F)) : st11 V0 (no_index (Proc.devRef .tc main_v13)) = val_main_v13 (F := F) (V0 (Proc.devRef .tc main_arg0)) (V0 (Proc.devRef .tc main_arg1)) (V0 (Proc.devRef .tc main_arg3)) :=
  (seg10_keep (st10 V0) main_v13 (by decide)).trans (st10_main_v13 V0)
theorem st11_main_v21 (V0 : Valuation τ sig (Elt F)) : st11 V0 (no_index (Proc.devRef .tc main_v21)) = val_main_v21 (F := F) (V0 (Proc.devRef .tc main_arg0)) (V0 (Proc.devRef .tc main_arg1)) (V0 (Proc.devRef .tc main_arg3)) :=
  (seg10_keep (st10 V0) main_v21 (by decide)).trans (st10_main_v21 V0)
theorem st11_main_v29 (V0 : Valuation τ sig (Elt F)) : st11 V0 (no_index (Proc.devRef .tc main_v29)) = val_main_v29 (F := F) (V0 (Proc.devRef .tc main_arg0)) (V0 (Proc.devRef .tc main_arg1)) (V0 (Proc.devRef .tc main_arg3)) :=
  (seg10_keep (st10 V0) main_v29 (by decide)).trans (st10_main_v29 V0)
theorem st11_main_v30 (V0 : Valuation τ sig (Elt F)) : st11 V0 (no_index (Proc.devRef .tc main_v30)) = val_main_v30 (F := F) (V0 (Proc.devRef .tc main_arg0)) (V0 (Proc.devRef .tc main_arg1)) (V0 (Proc.devRef .tc main_arg3)) :=
  (seg10_keep (st10 V0) main_v30 (by decide)).trans (st10_main_v30 V0)
theorem st11_main_v31 (V0 : Valuation τ sig (Elt F)) : st11 V0 (no_index (Proc.devRef .tc main_v31)) = val_main_v31 (F := F) (V0 (Proc.devRef .tc main_arg0)) (V0 (Proc.devRef .tc main_arg1)) (V0 (Proc.devRef .tc main_arg3)) :=
  (seg10_keep (st10 V0) main_v31 (by decide)).trans (st10_main_v31 V0)
theorem st11_main_v32 (V0 : Valuation τ sig (Elt F)) : st11 V0 (no_index (Proc.devRef .tc main_v32)) = val_main_v32 (F := F) (V0 (Proc.devRef .tc main_arg0)) (V0 (Proc.devRef .tc main_arg1)) (V0 (Proc.devRef .tc main_arg3)) :=
  (seg10_keep (st10 V0) main_v32 (by decide)).trans (st10_main_v32 V0)
theorem st11_main_v35 (V0 : Valuation τ sig (Elt F)) : st11 V0 (no_index (Proc.devRef .tc main_v35)) = val_main_v35 (F := F) :=
  (seg10_keep (st10 V0) main_v35 (by decide)).trans (st10_main_v35 V0)
theorem st11_main_v186 (V0 : Valuation τ sig (Elt F)) : st11 V0 (no_index (Proc.devRef .tc main_v186)) = val_main_v186 (F := F) (V0 (Proc.devRef .tc main_arg0)) (V0 (Proc.devRef .tc main_arg1)) (V0 (Proc.devRef .tc main_arg2)) (V0 (Proc.devRef .tc main_arg3)) :=
  (seg10_keep (st10 V0) main_v186 (by decide)).trans (st10_main_v186 V0)
theorem st11_main_v206 (V0 : Valuation τ sig (Elt F)) : st11 V0 (no_index (Proc.devRef .tc main_v206)) = val_main_v206 (F := F) (V0 (Proc.devRef .tc main_arg0)) (V0 (Proc.devRef .tc main_arg1)) (V0 (Proc.devRef .tc main_arg3)) :=
  (seg10_keep (st10 V0) main_v206 (by decide)).trans (st10_main_v206 V0)
theorem st11_main_v223 (V0 : Valuation τ sig (Elt F)) : st11 V0 (no_index (Proc.devRef .tc main_v223)) = val_main_v223 (F := F) (V0 (Proc.devRef .tc main_arg0)) (V0 (Proc.devRef .tc main_arg1)) (V0 (Proc.devRef .tc main_arg3)) :=
  (seg10_keep (st10 V0) main_v223 (by decide)).trans (st10_main_v223 V0)
theorem st11_main_v254 (V0 : Valuation τ sig (Elt F)) : st11 V0 (no_index (Proc.devRef .tc main_v254)) = val_main_v254 (F := F) (V0 (Proc.devRef .tc main_arg0)) (V0 (Proc.devRef .tc main_arg1)) (V0 (Proc.devRef .tc main_arg3)) :=
  seg10_main_v254 (st10 V0) V0 (st10_main_v253 V0) (st10_main_v252 V0) (st10_main_v251 V0) (st10_main_v250 V0)

/-- The device's buffer contents after the first 12 segments. -/
def st12 (V0 : Valuation τ sig (Elt F)) : Valuation τ sig (Elt F) := after seg11 (st11 V0)
theorem st12_main_arg0 (V0 : Valuation τ sig (Elt F)) : st12 V0 (no_index (Proc.devRef .tc main_arg0)) = V0 (Proc.devRef .tc main_arg0) :=
  (seg11_keep (st11 V0) main_arg0 (by decide)).trans (st11_main_arg0 V0)
theorem st12_main_arg1 (V0 : Valuation τ sig (Elt F)) : st12 V0 (no_index (Proc.devRef .tc main_arg1)) = V0 (Proc.devRef .tc main_arg1) :=
  (seg11_keep (st11 V0) main_arg1 (by decide)).trans (st11_main_arg1 V0)
theorem st12_main_arg2 (V0 : Valuation τ sig (Elt F)) : st12 V0 (no_index (Proc.devRef .tc main_arg2)) = V0 (Proc.devRef .tc main_arg2) :=
  (seg11_keep (st11 V0) main_arg2 (by decide)).trans (st11_main_arg2 V0)
theorem st12_main_arg3 (V0 : Valuation τ sig (Elt F)) : st12 V0 (no_index (Proc.devRef .tc main_arg3)) = V0 (Proc.devRef .tc main_arg3) :=
  (seg11_keep (st11 V0) main_arg3 (by decide)).trans (st11_main_arg3 V0)
theorem st12_main_v1 (V0 : Valuation τ sig (Elt F)) : st12 V0 (no_index (Proc.devRef .tc main_v1)) = val_main_v1 (F := F) (V0 (Proc.devRef .tc main_arg0)) (V0 (Proc.devRef .tc main_arg1)) (V0 (Proc.devRef .tc main_arg3)) :=
  (seg11_keep (st11 V0) main_v1 (by decide)).trans (st11_main_v1 V0)
theorem st12_main_v13 (V0 : Valuation τ sig (Elt F)) : st12 V0 (no_index (Proc.devRef .tc main_v13)) = val_main_v13 (F := F) (V0 (Proc.devRef .tc main_arg0)) (V0 (Proc.devRef .tc main_arg1)) (V0 (Proc.devRef .tc main_arg3)) :=
  (seg11_keep (st11 V0) main_v13 (by decide)).trans (st11_main_v13 V0)
theorem st12_main_v21 (V0 : Valuation τ sig (Elt F)) : st12 V0 (no_index (Proc.devRef .tc main_v21)) = val_main_v21 (F := F) (V0 (Proc.devRef .tc main_arg0)) (V0 (Proc.devRef .tc main_arg1)) (V0 (Proc.devRef .tc main_arg3)) :=
  (seg11_keep (st11 V0) main_v21 (by decide)).trans (st11_main_v21 V0)
theorem st12_main_v29 (V0 : Valuation τ sig (Elt F)) : st12 V0 (no_index (Proc.devRef .tc main_v29)) = val_main_v29 (F := F) (V0 (Proc.devRef .tc main_arg0)) (V0 (Proc.devRef .tc main_arg1)) (V0 (Proc.devRef .tc main_arg3)) :=
  (seg11_keep (st11 V0) main_v29 (by decide)).trans (st11_main_v29 V0)
theorem st12_main_v30 (V0 : Valuation τ sig (Elt F)) : st12 V0 (no_index (Proc.devRef .tc main_v30)) = val_main_v30 (F := F) (V0 (Proc.devRef .tc main_arg0)) (V0 (Proc.devRef .tc main_arg1)) (V0 (Proc.devRef .tc main_arg3)) :=
  (seg11_keep (st11 V0) main_v30 (by decide)).trans (st11_main_v30 V0)
theorem st12_main_v31 (V0 : Valuation τ sig (Elt F)) : st12 V0 (no_index (Proc.devRef .tc main_v31)) = val_main_v31 (F := F) (V0 (Proc.devRef .tc main_arg0)) (V0 (Proc.devRef .tc main_arg1)) (V0 (Proc.devRef .tc main_arg3)) :=
  (seg11_keep (st11 V0) main_v31 (by decide)).trans (st11_main_v31 V0)
theorem st12_main_v32 (V0 : Valuation τ sig (Elt F)) : st12 V0 (no_index (Proc.devRef .tc main_v32)) = val_main_v32 (F := F) (V0 (Proc.devRef .tc main_arg0)) (V0 (Proc.devRef .tc main_arg1)) (V0 (Proc.devRef .tc main_arg3)) :=
  (seg11_keep (st11 V0) main_v32 (by decide)).trans (st11_main_v32 V0)
theorem st12_main_v35 (V0 : Valuation τ sig (Elt F)) : st12 V0 (no_index (Proc.devRef .tc main_v35)) = val_main_v35 (F := F) :=
  (seg11_keep (st11 V0) main_v35 (by decide)).trans (st11_main_v35 V0)
theorem st12_main_v261 (V0 : Valuation τ sig (Elt F)) : st12 V0 (no_index (Proc.devRef .tc main_v261)) = val_main_v261 (F := F) (V0 (Proc.devRef .tc main_arg0)) (V0 (Proc.devRef .tc main_arg1)) (V0 (Proc.devRef .tc main_arg2)) (V0 (Proc.devRef .tc main_arg3)) :=
  seg11_main_v261 (st11 V0) V0 (st11_main_v223 V0) (st11_main_v206 V0) (st11_main_v254 V0) (st11_main_arg2 V0) (st11_main_v186 V0)
theorem st12_main_v263 (V0 : Valuation τ sig (Elt F)) : st12 V0 (no_index (Proc.devRef .tc main_v263)) = val_main_v263 (F := F) (V0 (Proc.devRef .tc main_arg0)) (V0 (Proc.devRef .tc main_arg1)) (V0 (Proc.devRef .tc main_arg3)) :=
  seg11_main_v263 (st11 V0) V0 (st11_main_v30 V0)
theorem st12_main_v265 (V0 : Valuation τ sig (Elt F)) : st12 V0 (no_index (Proc.devRef .tc main_v265)) = val_main_v265 (F := F) (V0 (Proc.devRef .tc main_arg0)) (V0 (Proc.devRef .tc main_arg1)) (V0 (Proc.devRef .tc main_arg3)) :=
  seg11_main_v265 (st11 V0) V0 (st11_main_v31 V0)
theorem st12_main_v266 (V0 : Valuation τ sig (Elt F)) : st12 V0 (no_index (Proc.devRef .tc main_v266)) = val_main_v266 (F := F) :=
  seg11_main_v266 (st11 V0) V0

/-- The device's buffer contents after the first 13 segments. -/
def st13 (V0 : Valuation τ sig (Elt F)) : Valuation τ sig (Elt F) := after seg12 (st12 V0)
theorem st13_main_arg0 (V0 : Valuation τ sig (Elt F)) : st13 V0 (no_index (Proc.devRef .tc main_arg0)) = V0 (Proc.devRef .tc main_arg0) :=
  (seg12_keep (st12 V0) main_arg0 (by decide)).trans (st12_main_arg0 V0)
theorem st13_main_arg1 (V0 : Valuation τ sig (Elt F)) : st13 V0 (no_index (Proc.devRef .tc main_arg1)) = V0 (Proc.devRef .tc main_arg1) :=
  (seg12_keep (st12 V0) main_arg1 (by decide)).trans (st12_main_arg1 V0)
theorem st13_main_arg2 (V0 : Valuation τ sig (Elt F)) : st13 V0 (no_index (Proc.devRef .tc main_arg2)) = V0 (Proc.devRef .tc main_arg2) :=
  (seg12_keep (st12 V0) main_arg2 (by decide)).trans (st12_main_arg2 V0)
theorem st13_main_arg3 (V0 : Valuation τ sig (Elt F)) : st13 V0 (no_index (Proc.devRef .tc main_arg3)) = V0 (Proc.devRef .tc main_arg3) :=
  (seg12_keep (st12 V0) main_arg3 (by decide)).trans (st12_main_arg3 V0)
theorem st13_main_v1 (V0 : Valuation τ sig (Elt F)) : st13 V0 (no_index (Proc.devRef .tc main_v1)) = val_main_v1 (F := F) (V0 (Proc.devRef .tc main_arg0)) (V0 (Proc.devRef .tc main_arg1)) (V0 (Proc.devRef .tc main_arg3)) :=
  (seg12_keep (st12 V0) main_v1 (by decide)).trans (st12_main_v1 V0)
theorem st13_main_v13 (V0 : Valuation τ sig (Elt F)) : st13 V0 (no_index (Proc.devRef .tc main_v13)) = val_main_v13 (F := F) (V0 (Proc.devRef .tc main_arg0)) (V0 (Proc.devRef .tc main_arg1)) (V0 (Proc.devRef .tc main_arg3)) :=
  (seg12_keep (st12 V0) main_v13 (by decide)).trans (st12_main_v13 V0)
theorem st13_main_v21 (V0 : Valuation τ sig (Elt F)) : st13 V0 (no_index (Proc.devRef .tc main_v21)) = val_main_v21 (F := F) (V0 (Proc.devRef .tc main_arg0)) (V0 (Proc.devRef .tc main_arg1)) (V0 (Proc.devRef .tc main_arg3)) :=
  (seg12_keep (st12 V0) main_v21 (by decide)).trans (st12_main_v21 V0)
theorem st13_main_v29 (V0 : Valuation τ sig (Elt F)) : st13 V0 (no_index (Proc.devRef .tc main_v29)) = val_main_v29 (F := F) (V0 (Proc.devRef .tc main_arg0)) (V0 (Proc.devRef .tc main_arg1)) (V0 (Proc.devRef .tc main_arg3)) :=
  (seg12_keep (st12 V0) main_v29 (by decide)).trans (st12_main_v29 V0)
theorem st13_main_v30 (V0 : Valuation τ sig (Elt F)) : st13 V0 (no_index (Proc.devRef .tc main_v30)) = val_main_v30 (F := F) (V0 (Proc.devRef .tc main_arg0)) (V0 (Proc.devRef .tc main_arg1)) (V0 (Proc.devRef .tc main_arg3)) :=
  (seg12_keep (st12 V0) main_v30 (by decide)).trans (st12_main_v30 V0)
theorem st13_main_v31 (V0 : Valuation τ sig (Elt F)) : st13 V0 (no_index (Proc.devRef .tc main_v31)) = val_main_v31 (F := F) (V0 (Proc.devRef .tc main_arg0)) (V0 (Proc.devRef .tc main_arg1)) (V0 (Proc.devRef .tc main_arg3)) :=
  (seg12_keep (st12 V0) main_v31 (by decide)).trans (st12_main_v31 V0)
theorem st13_main_v32 (V0 : Valuation τ sig (Elt F)) : st13 V0 (no_index (Proc.devRef .tc main_v32)) = val_main_v32 (F := F) (V0 (Proc.devRef .tc main_arg0)) (V0 (Proc.devRef .tc main_arg1)) (V0 (Proc.devRef .tc main_arg3)) :=
  (seg12_keep (st12 V0) main_v32 (by decide)).trans (st12_main_v32 V0)
theorem st13_main_v35 (V0 : Valuation τ sig (Elt F)) : st13 V0 (no_index (Proc.devRef .tc main_v35)) = val_main_v35 (F := F) :=
  (seg12_keep (st12 V0) main_v35 (by decide)).trans (st12_main_v35 V0)
theorem st13_main_v261 (V0 : Valuation τ sig (Elt F)) : st13 V0 (no_index (Proc.devRef .tc main_v261)) = val_main_v261 (F := F) (V0 (Proc.devRef .tc main_arg0)) (V0 (Proc.devRef .tc main_arg1)) (V0 (Proc.devRef .tc main_arg2)) (V0 (Proc.devRef .tc main_arg3)) :=
  (seg12_keep (st12 V0) main_v261 (by decide)).trans (st12_main_v261 V0)
theorem st13_main_v281 (V0 : Valuation τ sig (Elt F)) : st13 V0 (no_index (Proc.devRef .tc main_v281)) = val_main_v281 (F := F) (V0 (Proc.devRef .tc main_arg0)) (V0 (Proc.devRef .tc main_arg1)) (V0 (Proc.devRef .tc main_arg3)) :=
  seg12_main_v281 (st12 V0) V0 (st12_main_v266 V0) (st12_main_v32 V0) (st12_main_v29 V0) (st12_main_v265 V0) (st12_main_v21 V0) (st12_main_v263 V0) (st12_main_v13 V0)
theorem st13_main_v298 (V0 : Valuation τ sig (Elt F)) : st13 V0 (no_index (Proc.devRef .tc main_v298)) = val_main_v298 (F := F) (V0 (Proc.devRef .tc main_arg0)) (V0 (Proc.devRef .tc main_arg1)) (V0 (Proc.devRef .tc main_arg3)) :=
  seg12_main_v298 (st12 V0) V0 (st12_main_v266 V0) (st12_main_v32 V0) (st12_main_v265 V0) (st12_main_v263 V0)
theorem st13_main_v300 (V0 : Valuation τ sig (Elt F)) : st13 V0 (no_index (Proc.devRef .tc main_v300)) = val_main_v300 (F := F) (V0 (Proc.devRef .tc main_arg0)) (V0 (Proc.devRef .tc main_arg1)) (V0 (Proc.devRef .tc main_arg3)) :=
  seg12_main_v300 (st12 V0) V0 (st12_main_v263 V0)
theorem st13_main_v302 (V0 : Valuation τ sig (Elt F)) : st13 V0 (no_index (Proc.devRef .tc main_v302)) = val_main_v302 (F := F) (V0 (Proc.devRef .tc main_arg0)) (V0 (Proc.devRef .tc main_arg1)) (V0 (Proc.devRef .tc main_arg3)) :=
  seg12_main_v302 (st12 V0) V0 (st12_main_v265 V0)
theorem st13_main_v304 (V0 : Valuation τ sig (Elt F)) : st13 V0 (no_index (Proc.devRef .tc main_v304)) = val_main_v304 (F := F) (V0 (Proc.devRef .tc main_arg0)) (V0 (Proc.devRef .tc main_arg1)) (V0 (Proc.devRef .tc main_arg3)) :=
  seg12_main_v304 (st12 V0) V0 (st12_main_v266 V0) (st12_main_v32 V0)
theorem st13_main_v309 (V0 : Valuation τ sig (Elt F)) : st13 V0 (no_index (Proc.devRef .tc main_v309)) = val_main_v309 (F := F) :=
  seg12_main_v309 (st12 V0) V0 (st12_main_v35 V0)

/-- The device's buffer contents after the first 14 segments. -/
def st14 (V0 : Valuation τ sig (Elt F)) : Valuation τ sig (Elt F) := after seg13 (st13 V0)
theorem st14_main_arg0 (V0 : Valuation τ sig (Elt F)) : st14 V0 (no_index (Proc.devRef .tc main_arg0)) = V0 (Proc.devRef .tc main_arg0) :=
  (seg13_keep (st13 V0) main_arg0 (by decide)).trans (st13_main_arg0 V0)
theorem st14_main_arg1 (V0 : Valuation τ sig (Elt F)) : st14 V0 (no_index (Proc.devRef .tc main_arg1)) = V0 (Proc.devRef .tc main_arg1) :=
  (seg13_keep (st13 V0) main_arg1 (by decide)).trans (st13_main_arg1 V0)
theorem st14_main_arg2 (V0 : Valuation τ sig (Elt F)) : st14 V0 (no_index (Proc.devRef .tc main_arg2)) = V0 (Proc.devRef .tc main_arg2) :=
  (seg13_keep (st13 V0) main_arg2 (by decide)).trans (st13_main_arg2 V0)
theorem st14_main_arg3 (V0 : Valuation τ sig (Elt F)) : st14 V0 (no_index (Proc.devRef .tc main_arg3)) = V0 (Proc.devRef .tc main_arg3) :=
  (seg13_keep (st13 V0) main_arg3 (by decide)).trans (st13_main_arg3 V0)
theorem st14_main_v1 (V0 : Valuation τ sig (Elt F)) : st14 V0 (no_index (Proc.devRef .tc main_v1)) = val_main_v1 (F := F) (V0 (Proc.devRef .tc main_arg0)) (V0 (Proc.devRef .tc main_arg1)) (V0 (Proc.devRef .tc main_arg3)) :=
  (seg13_keep (st13 V0) main_v1 (by decide)).trans (st13_main_v1 V0)
theorem st14_main_v13 (V0 : Valuation τ sig (Elt F)) : st14 V0 (no_index (Proc.devRef .tc main_v13)) = val_main_v13 (F := F) (V0 (Proc.devRef .tc main_arg0)) (V0 (Proc.devRef .tc main_arg1)) (V0 (Proc.devRef .tc main_arg3)) :=
  (seg13_keep (st13 V0) main_v13 (by decide)).trans (st13_main_v13 V0)
theorem st14_main_v21 (V0 : Valuation τ sig (Elt F)) : st14 V0 (no_index (Proc.devRef .tc main_v21)) = val_main_v21 (F := F) (V0 (Proc.devRef .tc main_arg0)) (V0 (Proc.devRef .tc main_arg1)) (V0 (Proc.devRef .tc main_arg3)) :=
  (seg13_keep (st13 V0) main_v21 (by decide)).trans (st13_main_v21 V0)
theorem st14_main_v29 (V0 : Valuation τ sig (Elt F)) : st14 V0 (no_index (Proc.devRef .tc main_v29)) = val_main_v29 (F := F) (V0 (Proc.devRef .tc main_arg0)) (V0 (Proc.devRef .tc main_arg1)) (V0 (Proc.devRef .tc main_arg3)) :=
  (seg13_keep (st13 V0) main_v29 (by decide)).trans (st13_main_v29 V0)
theorem st14_main_v30 (V0 : Valuation τ sig (Elt F)) : st14 V0 (no_index (Proc.devRef .tc main_v30)) = val_main_v30 (F := F) (V0 (Proc.devRef .tc main_arg0)) (V0 (Proc.devRef .tc main_arg1)) (V0 (Proc.devRef .tc main_arg3)) :=
  (seg13_keep (st13 V0) main_v30 (by decide)).trans (st13_main_v30 V0)
theorem st14_main_v31 (V0 : Valuation τ sig (Elt F)) : st14 V0 (no_index (Proc.devRef .tc main_v31)) = val_main_v31 (F := F) (V0 (Proc.devRef .tc main_arg0)) (V0 (Proc.devRef .tc main_arg1)) (V0 (Proc.devRef .tc main_arg3)) :=
  (seg13_keep (st13 V0) main_v31 (by decide)).trans (st13_main_v31 V0)
theorem st14_main_v32 (V0 : Valuation τ sig (Elt F)) : st14 V0 (no_index (Proc.devRef .tc main_v32)) = val_main_v32 (F := F) (V0 (Proc.devRef .tc main_arg0)) (V0 (Proc.devRef .tc main_arg1)) (V0 (Proc.devRef .tc main_arg3)) :=
  (seg13_keep (st13 V0) main_v32 (by decide)).trans (st13_main_v32 V0)
theorem st14_main_v35 (V0 : Valuation τ sig (Elt F)) : st14 V0 (no_index (Proc.devRef .tc main_v35)) = val_main_v35 (F := F) :=
  (seg13_keep (st13 V0) main_v35 (by decide)).trans (st13_main_v35 V0)
theorem st14_main_v261 (V0 : Valuation τ sig (Elt F)) : st14 V0 (no_index (Proc.devRef .tc main_v261)) = val_main_v261 (F := F) (V0 (Proc.devRef .tc main_arg0)) (V0 (Proc.devRef .tc main_arg1)) (V0 (Proc.devRef .tc main_arg2)) (V0 (Proc.devRef .tc main_arg3)) :=
  (seg13_keep (st13 V0) main_v261 (by decide)).trans (st13_main_v261 V0)
theorem st14_main_v281 (V0 : Valuation τ sig (Elt F)) : st14 V0 (no_index (Proc.devRef .tc main_v281)) = val_main_v281 (F := F) (V0 (Proc.devRef .tc main_arg0)) (V0 (Proc.devRef .tc main_arg1)) (V0 (Proc.devRef .tc main_arg3)) :=
  (seg13_keep (st13 V0) main_v281 (by decide)).trans (st13_main_v281 V0)
theorem st14_main_v298 (V0 : Valuation τ sig (Elt F)) : st14 V0 (no_index (Proc.devRef .tc main_v298)) = val_main_v298 (F := F) (V0 (Proc.devRef .tc main_arg0)) (V0 (Proc.devRef .tc main_arg1)) (V0 (Proc.devRef .tc main_arg3)) :=
  (seg13_keep (st13 V0) main_v298 (by decide)).trans (st13_main_v298 V0)
theorem st14_main_v325 (V0 : Valuation τ sig (Elt F)) : st14 V0 (no_index (Proc.devRef .tc main_v325)) = val_main_v325 (F := F) :=
  seg13_main_v325 (st13 V0) V0 (st13_main_v309 V0)
theorem st14_main_v326 (V0 : Valuation τ sig (Elt F)) : st14 V0 (no_index (Proc.devRef .tc main_v326)) = val_main_v326 (F := F) (V0 (Proc.devRef .tc main_arg0)) (V0 (Proc.devRef .tc main_arg1)) (V0 (Proc.devRef .tc main_arg3)) :=
  seg13_main_v326 (st13 V0) V0 (st13_main_v304 V0)
theorem st14_main_v327 (V0 : Valuation τ sig (Elt F)) : st14 V0 (no_index (Proc.devRef .tc main_v327)) = val_main_v327 (F := F) (V0 (Proc.devRef .tc main_arg0)) (V0 (Proc.devRef .tc main_arg1)) (V0 (Proc.devRef .tc main_arg3)) :=
  seg13_main_v327 (st13 V0) V0 (st13_main_v302 V0)
theorem st14_main_v328 (V0 : Valuation τ sig (Elt F)) : st14 V0 (no_index (Proc.devRef .tc main_v328)) = val_main_v328 (F := F) (V0 (Proc.devRef .tc main_arg0)) (V0 (Proc.devRef .tc main_arg1)) (V0 (Proc.devRef .tc main_arg3)) :=
  seg13_main_v328 (st13 V0) V0 (st13_main_v300 V0)

/-- The device's buffer contents after the first 15 segments. -/
def st15 (V0 : Valuation τ sig (Elt F)) : Valuation τ sig (Elt F) := after seg14 (st14 V0)
theorem st15_main_arg0 (V0 : Valuation τ sig (Elt F)) : st15 V0 (no_index (Proc.devRef .tc main_arg0)) = V0 (Proc.devRef .tc main_arg0) :=
  (seg14_keep (st14 V0) main_arg0 (by decide)).trans (st14_main_arg0 V0)
theorem st15_main_arg1 (V0 : Valuation τ sig (Elt F)) : st15 V0 (no_index (Proc.devRef .tc main_arg1)) = V0 (Proc.devRef .tc main_arg1) :=
  (seg14_keep (st14 V0) main_arg1 (by decide)).trans (st14_main_arg1 V0)
theorem st15_main_arg2 (V0 : Valuation τ sig (Elt F)) : st15 V0 (no_index (Proc.devRef .tc main_arg2)) = V0 (Proc.devRef .tc main_arg2) :=
  (seg14_keep (st14 V0) main_arg2 (by decide)).trans (st14_main_arg2 V0)
theorem st15_main_arg3 (V0 : Valuation τ sig (Elt F)) : st15 V0 (no_index (Proc.devRef .tc main_arg3)) = V0 (Proc.devRef .tc main_arg3) :=
  (seg14_keep (st14 V0) main_arg3 (by decide)).trans (st14_main_arg3 V0)
theorem st15_main_v1 (V0 : Valuation τ sig (Elt F)) : st15 V0 (no_index (Proc.devRef .tc main_v1)) = val_main_v1 (F := F) (V0 (Proc.devRef .tc main_arg0)) (V0 (Proc.devRef .tc main_arg1)) (V0 (Proc.devRef .tc main_arg3)) :=
  (seg14_keep (st14 V0) main_v1 (by decide)).trans (st14_main_v1 V0)
theorem st15_main_v13 (V0 : Valuation τ sig (Elt F)) : st15 V0 (no_index (Proc.devRef .tc main_v13)) = val_main_v13 (F := F) (V0 (Proc.devRef .tc main_arg0)) (V0 (Proc.devRef .tc main_arg1)) (V0 (Proc.devRef .tc main_arg3)) :=
  (seg14_keep (st14 V0) main_v13 (by decide)).trans (st14_main_v13 V0)
theorem st15_main_v21 (V0 : Valuation τ sig (Elt F)) : st15 V0 (no_index (Proc.devRef .tc main_v21)) = val_main_v21 (F := F) (V0 (Proc.devRef .tc main_arg0)) (V0 (Proc.devRef .tc main_arg1)) (V0 (Proc.devRef .tc main_arg3)) :=
  (seg14_keep (st14 V0) main_v21 (by decide)).trans (st14_main_v21 V0)
theorem st15_main_v29 (V0 : Valuation τ sig (Elt F)) : st15 V0 (no_index (Proc.devRef .tc main_v29)) = val_main_v29 (F := F) (V0 (Proc.devRef .tc main_arg0)) (V0 (Proc.devRef .tc main_arg1)) (V0 (Proc.devRef .tc main_arg3)) :=
  (seg14_keep (st14 V0) main_v29 (by decide)).trans (st14_main_v29 V0)
theorem st15_main_v30 (V0 : Valuation τ sig (Elt F)) : st15 V0 (no_index (Proc.devRef .tc main_v30)) = val_main_v30 (F := F) (V0 (Proc.devRef .tc main_arg0)) (V0 (Proc.devRef .tc main_arg1)) (V0 (Proc.devRef .tc main_arg3)) :=
  (seg14_keep (st14 V0) main_v30 (by decide)).trans (st14_main_v30 V0)
theorem st15_main_v31 (V0 : Valuation τ sig (Elt F)) : st15 V0 (no_index (Proc.devRef .tc main_v31)) = val_main_v31 (F := F) (V0 (Proc.devRef .tc main_arg0)) (V0 (Proc.devRef .tc main_arg1)) (V0 (Proc.devRef .tc main_arg3)) :=
  (seg14_keep (st14 V0) main_v31 (by decide)).trans (st14_main_v31 V0)
theorem st15_main_v32 (V0 : Valuation τ sig (Elt F)) : st15 V0 (no_index (Proc.devRef .tc main_v32)) = val_main_v32 (F := F) (V0 (Proc.devRef .tc main_arg0)) (V0 (Proc.devRef .tc main_arg1)) (V0 (Proc.devRef .tc main_arg3)) :=
  (seg14_keep (st14 V0) main_v32 (by decide)).trans (st14_main_v32 V0)
theorem st15_main_v35 (V0 : Valuation τ sig (Elt F)) : st15 V0 (no_index (Proc.devRef .tc main_v35)) = val_main_v35 (F := F) :=
  (seg14_keep (st14 V0) main_v35 (by decide)).trans (st14_main_v35 V0)
theorem st15_main_v261 (V0 : Valuation τ sig (Elt F)) : st15 V0 (no_index (Proc.devRef .tc main_v261)) = val_main_v261 (F := F) (V0 (Proc.devRef .tc main_arg0)) (V0 (Proc.devRef .tc main_arg1)) (V0 (Proc.devRef .tc main_arg2)) (V0 (Proc.devRef .tc main_arg3)) :=
  (seg14_keep (st14 V0) main_v261 (by decide)).trans (st14_main_v261 V0)
theorem st15_main_v281 (V0 : Valuation τ sig (Elt F)) : st15 V0 (no_index (Proc.devRef .tc main_v281)) = val_main_v281 (F := F) (V0 (Proc.devRef .tc main_arg0)) (V0 (Proc.devRef .tc main_arg1)) (V0 (Proc.devRef .tc main_arg3)) :=
  (seg14_keep (st14 V0) main_v281 (by decide)).trans (st14_main_v281 V0)
theorem st15_main_v298 (V0 : Valuation τ sig (Elt F)) : st15 V0 (no_index (Proc.devRef .tc main_v298)) = val_main_v298 (F := F) (V0 (Proc.devRef .tc main_arg0)) (V0 (Proc.devRef .tc main_arg1)) (V0 (Proc.devRef .tc main_arg3)) :=
  (seg14_keep (st14 V0) main_v298 (by decide)).trans (st14_main_v298 V0)
theorem st15_main_v329 (V0 : Valuation τ sig (Elt F)) : st15 V0 (no_index (Proc.devRef .tc main_v329)) = val_main_v329 (F := F) (V0 (Proc.devRef .tc main_arg0)) (V0 (Proc.devRef .tc main_arg1)) (V0 (Proc.devRef .tc main_arg3)) :=
  seg14_main_v329 (st14 V0) V0 (st14_main_v328 V0) (st14_main_v327 V0) (st14_main_v326 V0) (st14_main_v325 V0)

/-- The device's buffer contents after the first 16 segments. -/
def st16 (V0 : Valuation τ sig (Elt F)) : Valuation τ sig (Elt F) := after seg15 (st15 V0)
theorem st16_main_arg0 (V0 : Valuation τ sig (Elt F)) : st16 V0 (no_index (Proc.devRef .tc main_arg0)) = V0 (Proc.devRef .tc main_arg0) :=
  (seg15_keep (st15 V0) main_arg0 (by decide)).trans (st15_main_arg0 V0)
theorem st16_main_arg1 (V0 : Valuation τ sig (Elt F)) : st16 V0 (no_index (Proc.devRef .tc main_arg1)) = V0 (Proc.devRef .tc main_arg1) :=
  (seg15_keep (st15 V0) main_arg1 (by decide)).trans (st15_main_arg1 V0)
theorem st16_main_arg2 (V0 : Valuation τ sig (Elt F)) : st16 V0 (no_index (Proc.devRef .tc main_arg2)) = V0 (Proc.devRef .tc main_arg2) :=
  (seg15_keep (st15 V0) main_arg2 (by decide)).trans (st15_main_arg2 V0)
theorem st16_main_arg3 (V0 : Valuation τ sig (Elt F)) : st16 V0 (no_index (Proc.devRef .tc main_arg3)) = V0 (Proc.devRef .tc main_arg3) :=
  (seg15_keep (st15 V0) main_arg3 (by decide)).trans (st15_main_arg3 V0)
theorem st16_main_v1 (V0 : Valuation τ sig (Elt F)) : st16 V0 (no_index (Proc.devRef .tc main_v1)) = val_main_v1 (F := F) (V0 (Proc.devRef .tc main_arg0)) (V0 (Proc.devRef .tc main_arg1)) (V0 (Proc.devRef .tc main_arg3)) :=
  (seg15_keep (st15 V0) main_v1 (by decide)).trans (st15_main_v1 V0)
theorem st16_main_v13 (V0 : Valuation τ sig (Elt F)) : st16 V0 (no_index (Proc.devRef .tc main_v13)) = val_main_v13 (F := F) (V0 (Proc.devRef .tc main_arg0)) (V0 (Proc.devRef .tc main_arg1)) (V0 (Proc.devRef .tc main_arg3)) :=
  (seg15_keep (st15 V0) main_v13 (by decide)).trans (st15_main_v13 V0)
theorem st16_main_v21 (V0 : Valuation τ sig (Elt F)) : st16 V0 (no_index (Proc.devRef .tc main_v21)) = val_main_v21 (F := F) (V0 (Proc.devRef .tc main_arg0)) (V0 (Proc.devRef .tc main_arg1)) (V0 (Proc.devRef .tc main_arg3)) :=
  (seg15_keep (st15 V0) main_v21 (by decide)).trans (st15_main_v21 V0)
theorem st16_main_v29 (V0 : Valuation τ sig (Elt F)) : st16 V0 (no_index (Proc.devRef .tc main_v29)) = val_main_v29 (F := F) (V0 (Proc.devRef .tc main_arg0)) (V0 (Proc.devRef .tc main_arg1)) (V0 (Proc.devRef .tc main_arg3)) :=
  (seg15_keep (st15 V0) main_v29 (by decide)).trans (st15_main_v29 V0)
theorem st16_main_v30 (V0 : Valuation τ sig (Elt F)) : st16 V0 (no_index (Proc.devRef .tc main_v30)) = val_main_v30 (F := F) (V0 (Proc.devRef .tc main_arg0)) (V0 (Proc.devRef .tc main_arg1)) (V0 (Proc.devRef .tc main_arg3)) :=
  (seg15_keep (st15 V0) main_v30 (by decide)).trans (st15_main_v30 V0)
theorem st16_main_v31 (V0 : Valuation τ sig (Elt F)) : st16 V0 (no_index (Proc.devRef .tc main_v31)) = val_main_v31 (F := F) (V0 (Proc.devRef .tc main_arg0)) (V0 (Proc.devRef .tc main_arg1)) (V0 (Proc.devRef .tc main_arg3)) :=
  (seg15_keep (st15 V0) main_v31 (by decide)).trans (st15_main_v31 V0)
theorem st16_main_v32 (V0 : Valuation τ sig (Elt F)) : st16 V0 (no_index (Proc.devRef .tc main_v32)) = val_main_v32 (F := F) (V0 (Proc.devRef .tc main_arg0)) (V0 (Proc.devRef .tc main_arg1)) (V0 (Proc.devRef .tc main_arg3)) :=
  (seg15_keep (st15 V0) main_v32 (by decide)).trans (st15_main_v32 V0)
theorem st16_main_v35 (V0 : Valuation τ sig (Elt F)) : st16 V0 (no_index (Proc.devRef .tc main_v35)) = val_main_v35 (F := F) :=
  (seg15_keep (st15 V0) main_v35 (by decide)).trans (st15_main_v35 V0)
theorem st16_main_v336 (V0 : Valuation τ sig (Elt F)) : st16 V0 (no_index (Proc.devRef .tc main_v336)) = val_main_v336 (F := F) (V0 (Proc.devRef .tc main_arg0)) (V0 (Proc.devRef .tc main_arg1)) (V0 (Proc.devRef .tc main_arg2)) (V0 (Proc.devRef .tc main_arg3)) :=
  seg15_main_v336 (st15 V0) V0 (st15_main_v298 V0) (st15_main_v281 V0) (st15_main_v329 V0) (st15_main_arg2 V0) (st15_main_v261 V0)
theorem st16_main_v338 (V0 : Valuation τ sig (Elt F)) : st16 V0 (no_index (Proc.devRef .tc main_v338)) = val_main_v338 (F := F) (V0 (Proc.devRef .tc main_arg0)) (V0 (Proc.devRef .tc main_arg1)) (V0 (Proc.devRef .tc main_arg3)) :=
  seg15_main_v338 (st15 V0) V0 (st15_main_v30 V0)
theorem st16_main_v340 (V0 : Valuation τ sig (Elt F)) : st16 V0 (no_index (Proc.devRef .tc main_v340)) = val_main_v340 (F := F) (V0 (Proc.devRef .tc main_arg0)) (V0 (Proc.devRef .tc main_arg1)) (V0 (Proc.devRef .tc main_arg3)) :=
  seg15_main_v340 (st15 V0) V0 (st15_main_v31 V0)
theorem st16_main_v342 (V0 : Valuation τ sig (Elt F)) : st16 V0 (no_index (Proc.devRef .tc main_v342)) = val_main_v342 (F := F) (V0 (Proc.devRef .tc main_arg0)) (V0 (Proc.devRef .tc main_arg1)) (V0 (Proc.devRef .tc main_arg3)) :=
  seg15_main_v342 (st15 V0) V0 (st15_main_v32 V0)
theorem st16_main_v356 (V0 : Valuation τ sig (Elt F)) : st16 V0 (no_index (Proc.devRef .tc main_v356)) = val_main_v356 (F := F) (V0 (Proc.devRef .tc main_arg0)) (V0 (Proc.devRef .tc main_arg1)) (V0 (Proc.devRef .tc main_arg3)) :=
  seg15_main_v356 (st15 V0) V0 (st15_main_v32 V0) (st15_main_v29 V0) (st15_main_v31 V0) (st15_main_v21 V0) (st15_main_v30 V0) (st15_main_v13 V0)
theorem st16_main_cst_120 (V0 : Valuation τ sig (Elt F)) : st16 V0 (no_index (Proc.devRef .tc main_cst_120)) = val_main_cst_120 (F := F) :=
  seg15_main_cst_120 (st15 V0) V0

/-- The device's buffer contents after the first 17 segments. -/
def st17 (V0 : Valuation τ sig (Elt F)) : Valuation τ sig (Elt F) := after seg16 (st16 V0)
theorem st17_main_arg0 (V0 : Valuation τ sig (Elt F)) : st17 V0 (no_index (Proc.devRef .tc main_arg0)) = V0 (Proc.devRef .tc main_arg0) :=
  (seg16_keep (st16 V0) main_arg0 (by decide)).trans (st16_main_arg0 V0)
theorem st17_main_arg1 (V0 : Valuation τ sig (Elt F)) : st17 V0 (no_index (Proc.devRef .tc main_arg1)) = V0 (Proc.devRef .tc main_arg1) :=
  (seg16_keep (st16 V0) main_arg1 (by decide)).trans (st16_main_arg1 V0)
theorem st17_main_arg2 (V0 : Valuation τ sig (Elt F)) : st17 V0 (no_index (Proc.devRef .tc main_arg2)) = V0 (Proc.devRef .tc main_arg2) :=
  (seg16_keep (st16 V0) main_arg2 (by decide)).trans (st16_main_arg2 V0)
theorem st17_main_arg3 (V0 : Valuation τ sig (Elt F)) : st17 V0 (no_index (Proc.devRef .tc main_arg3)) = V0 (Proc.devRef .tc main_arg3) :=
  (seg16_keep (st16 V0) main_arg3 (by decide)).trans (st16_main_arg3 V0)
theorem st17_main_v1 (V0 : Valuation τ sig (Elt F)) : st17 V0 (no_index (Proc.devRef .tc main_v1)) = val_main_v1 (F := F) (V0 (Proc.devRef .tc main_arg0)) (V0 (Proc.devRef .tc main_arg1)) (V0 (Proc.devRef .tc main_arg3)) :=
  (seg16_keep (st16 V0) main_v1 (by decide)).trans (st16_main_v1 V0)
theorem st17_main_v13 (V0 : Valuation τ sig (Elt F)) : st17 V0 (no_index (Proc.devRef .tc main_v13)) = val_main_v13 (F := F) (V0 (Proc.devRef .tc main_arg0)) (V0 (Proc.devRef .tc main_arg1)) (V0 (Proc.devRef .tc main_arg3)) :=
  (seg16_keep (st16 V0) main_v13 (by decide)).trans (st16_main_v13 V0)
theorem st17_main_v21 (V0 : Valuation τ sig (Elt F)) : st17 V0 (no_index (Proc.devRef .tc main_v21)) = val_main_v21 (F := F) (V0 (Proc.devRef .tc main_arg0)) (V0 (Proc.devRef .tc main_arg1)) (V0 (Proc.devRef .tc main_arg3)) :=
  (seg16_keep (st16 V0) main_v21 (by decide)).trans (st16_main_v21 V0)
theorem st17_main_v29 (V0 : Valuation τ sig (Elt F)) : st17 V0 (no_index (Proc.devRef .tc main_v29)) = val_main_v29 (F := F) (V0 (Proc.devRef .tc main_arg0)) (V0 (Proc.devRef .tc main_arg1)) (V0 (Proc.devRef .tc main_arg3)) :=
  (seg16_keep (st16 V0) main_v29 (by decide)).trans (st16_main_v29 V0)
theorem st17_main_v30 (V0 : Valuation τ sig (Elt F)) : st17 V0 (no_index (Proc.devRef .tc main_v30)) = val_main_v30 (F := F) (V0 (Proc.devRef .tc main_arg0)) (V0 (Proc.devRef .tc main_arg1)) (V0 (Proc.devRef .tc main_arg3)) :=
  (seg16_keep (st16 V0) main_v30 (by decide)).trans (st16_main_v30 V0)
theorem st17_main_v31 (V0 : Valuation τ sig (Elt F)) : st17 V0 (no_index (Proc.devRef .tc main_v31)) = val_main_v31 (F := F) (V0 (Proc.devRef .tc main_arg0)) (V0 (Proc.devRef .tc main_arg1)) (V0 (Proc.devRef .tc main_arg3)) :=
  (seg16_keep (st16 V0) main_v31 (by decide)).trans (st16_main_v31 V0)
theorem st17_main_v32 (V0 : Valuation τ sig (Elt F)) : st17 V0 (no_index (Proc.devRef .tc main_v32)) = val_main_v32 (F := F) (V0 (Proc.devRef .tc main_arg0)) (V0 (Proc.devRef .tc main_arg1)) (V0 (Proc.devRef .tc main_arg3)) :=
  (seg16_keep (st16 V0) main_v32 (by decide)).trans (st16_main_v32 V0)
theorem st17_main_v35 (V0 : Valuation τ sig (Elt F)) : st17 V0 (no_index (Proc.devRef .tc main_v35)) = val_main_v35 (F := F) :=
  (seg16_keep (st16 V0) main_v35 (by decide)).trans (st16_main_v35 V0)
theorem st17_main_v336 (V0 : Valuation τ sig (Elt F)) : st17 V0 (no_index (Proc.devRef .tc main_v336)) = val_main_v336 (F := F) (V0 (Proc.devRef .tc main_arg0)) (V0 (Proc.devRef .tc main_arg1)) (V0 (Proc.devRef .tc main_arg2)) (V0 (Proc.devRef .tc main_arg3)) :=
  (seg16_keep (st16 V0) main_v336 (by decide)).trans (st16_main_v336 V0)
theorem st17_main_v356 (V0 : Valuation τ sig (Elt F)) : st17 V0 (no_index (Proc.devRef .tc main_v356)) = val_main_v356 (F := F) (V0 (Proc.devRef .tc main_arg0)) (V0 (Proc.devRef .tc main_arg1)) (V0 (Proc.devRef .tc main_arg3)) :=
  (seg16_keep (st16 V0) main_v356 (by decide)).trans (st16_main_v356 V0)
theorem st17_main_v373 (V0 : Valuation τ sig (Elt F)) : st17 V0 (no_index (Proc.devRef .tc main_v373)) = val_main_v373 (F := F) (V0 (Proc.devRef .tc main_arg0)) (V0 (Proc.devRef .tc main_arg1)) (V0 (Proc.devRef .tc main_arg3)) :=
  seg16_main_v373 (st16 V0) V0 (st16_main_v342 V0) (st16_main_v340 V0) (st16_main_v338 V0) (st16_main_cst_120 V0)
theorem st17_main_v375 (V0 : Valuation τ sig (Elt F)) : st17 V0 (no_index (Proc.devRef .tc main_v375)) = val_main_v375 (F := F) (V0 (Proc.devRef .tc main_arg0)) (V0 (Proc.devRef .tc main_arg1)) (V0 (Proc.devRef .tc main_arg3)) :=
  seg16_main_v375 (st16 V0) V0 (st16_main_v338 V0)
theorem st17_main_v384 (V0 : Valuation τ sig (Elt F)) : st17 V0 (no_index (Proc.devRef .tc main_v384)) = val_main_v384 (F := F) :=
  seg16_main_v384 (st16 V0) V0 (st16_main_v35 V0)
theorem st17_main_v389 (V0 : Valuation τ sig (Elt F)) : st17 V0 (no_index (Proc.devRef .tc main_v389)) = val_main_v389 (F := F) (V0 (Proc.devRef .tc main_arg0)) (V0 (Proc.devRef .tc main_arg1)) (V0 (Proc.devRef .tc main_arg3)) :=
  seg16_main_v389 (st16 V0) V0 (st16_main_v342 V0)
theorem st17_main_v394 (V0 : Valuation τ sig (Elt F)) : st17 V0 (no_index (Proc.devRef .tc main_v394)) = val_main_v394 (F := F) (V0 (Proc.devRef .tc main_arg0)) (V0 (Proc.devRef .tc main_arg1)) (V0 (Proc.devRef .tc main_arg3)) :=
  seg16_main_v394 (st16 V0) V0 (st16_main_v340 V0)
theorem st17_main_v396 (V0 : Valuation τ sig (Elt F)) : st17 V0 (no_index (Proc.devRef .tc main_v396)) = val_main_v396 (F := F) (V0 (Proc.devRef .tc main_arg0)) (V0 (Proc.devRef .tc main_arg1)) (V0 (Proc.devRef .tc main_arg3)) :=
  seg16_main_v396 (st16 V0) V0 (st16_main_v338 V0)
theorem st17_main_v397 (V0 : Valuation τ sig (Elt F)) : st17 V0 (no_index (Proc.devRef .tc main_v397)) = val_main_v397 (F := F) :=
  seg16_main_v397 (st16 V0) V0

/-- The device's buffer contents after the first 18 segments. -/
def st18 (V0 : Valuation τ sig (Elt F)) : Valuation τ sig (Elt F) := after seg17 (st17 V0)
theorem st18_main_arg0 (V0 : Valuation τ sig (Elt F)) : st18 V0 (no_index (Proc.devRef .tc main_arg0)) = V0 (Proc.devRef .tc main_arg0) :=
  (seg17_keep (st17 V0) main_arg0 (by decide)).trans (st17_main_arg0 V0)
theorem st18_main_arg1 (V0 : Valuation τ sig (Elt F)) : st18 V0 (no_index (Proc.devRef .tc main_arg1)) = V0 (Proc.devRef .tc main_arg1) :=
  (seg17_keep (st17 V0) main_arg1 (by decide)).trans (st17_main_arg1 V0)
theorem st18_main_arg2 (V0 : Valuation τ sig (Elt F)) : st18 V0 (no_index (Proc.devRef .tc main_arg2)) = V0 (Proc.devRef .tc main_arg2) :=
  (seg17_keep (st17 V0) main_arg2 (by decide)).trans (st17_main_arg2 V0)
theorem st18_main_arg3 (V0 : Valuation τ sig (Elt F)) : st18 V0 (no_index (Proc.devRef .tc main_arg3)) = V0 (Proc.devRef .tc main_arg3) :=
  (seg17_keep (st17 V0) main_arg3 (by decide)).trans (st17_main_arg3 V0)
theorem st18_main_v1 (V0 : Valuation τ sig (Elt F)) : st18 V0 (no_index (Proc.devRef .tc main_v1)) = val_main_v1 (F := F) (V0 (Proc.devRef .tc main_arg0)) (V0 (Proc.devRef .tc main_arg1)) (V0 (Proc.devRef .tc main_arg3)) :=
  (seg17_keep (st17 V0) main_v1 (by decide)).trans (st17_main_v1 V0)
theorem st18_main_v13 (V0 : Valuation τ sig (Elt F)) : st18 V0 (no_index (Proc.devRef .tc main_v13)) = val_main_v13 (F := F) (V0 (Proc.devRef .tc main_arg0)) (V0 (Proc.devRef .tc main_arg1)) (V0 (Proc.devRef .tc main_arg3)) :=
  (seg17_keep (st17 V0) main_v13 (by decide)).trans (st17_main_v13 V0)
theorem st18_main_v21 (V0 : Valuation τ sig (Elt F)) : st18 V0 (no_index (Proc.devRef .tc main_v21)) = val_main_v21 (F := F) (V0 (Proc.devRef .tc main_arg0)) (V0 (Proc.devRef .tc main_arg1)) (V0 (Proc.devRef .tc main_arg3)) :=
  (seg17_keep (st17 V0) main_v21 (by decide)).trans (st17_main_v21 V0)
theorem st18_main_v29 (V0 : Valuation τ sig (Elt F)) : st18 V0 (no_index (Proc.devRef .tc main_v29)) = val_main_v29 (F := F) (V0 (Proc.devRef .tc main_arg0)) (V0 (Proc.devRef .tc main_arg1)) (V0 (Proc.devRef .tc main_arg3)) :=
  (seg17_keep (st17 V0) main_v29 (by decide)).trans (st17_main_v29 V0)
theorem st18_main_v30 (V0 : Valuation τ sig (Elt F)) : st18 V0 (no_index (Proc.devRef .tc main_v30)) = val_main_v30 (F := F) (V0 (Proc.devRef .tc main_arg0)) (V0 (Proc.devRef .tc main_arg1)) (V0 (Proc.devRef .tc main_arg3)) :=
  (seg17_keep (st17 V0) main_v30 (by decide)).trans (st17_main_v30 V0)
theorem st18_main_v31 (V0 : Valuation τ sig (Elt F)) : st18 V0 (no_index (Proc.devRef .tc main_v31)) = val_main_v31 (F := F) (V0 (Proc.devRef .tc main_arg0)) (V0 (Proc.devRef .tc main_arg1)) (V0 (Proc.devRef .tc main_arg3)) :=
  (seg17_keep (st17 V0) main_v31 (by decide)).trans (st17_main_v31 V0)
theorem st18_main_v32 (V0 : Valuation τ sig (Elt F)) : st18 V0 (no_index (Proc.devRef .tc main_v32)) = val_main_v32 (F := F) (V0 (Proc.devRef .tc main_arg0)) (V0 (Proc.devRef .tc main_arg1)) (V0 (Proc.devRef .tc main_arg3)) :=
  (seg17_keep (st17 V0) main_v32 (by decide)).trans (st17_main_v32 V0)
theorem st18_main_v35 (V0 : Valuation τ sig (Elt F)) : st18 V0 (no_index (Proc.devRef .tc main_v35)) = val_main_v35 (F := F) :=
  (seg17_keep (st17 V0) main_v35 (by decide)).trans (st17_main_v35 V0)
theorem st18_main_v336 (V0 : Valuation τ sig (Elt F)) : st18 V0 (no_index (Proc.devRef .tc main_v336)) = val_main_v336 (F := F) (V0 (Proc.devRef .tc main_arg0)) (V0 (Proc.devRef .tc main_arg1)) (V0 (Proc.devRef .tc main_arg2)) (V0 (Proc.devRef .tc main_arg3)) :=
  (seg17_keep (st17 V0) main_v336 (by decide)).trans (st17_main_v336 V0)
theorem st18_main_v356 (V0 : Valuation τ sig (Elt F)) : st18 V0 (no_index (Proc.devRef .tc main_v356)) = val_main_v356 (F := F) (V0 (Proc.devRef .tc main_arg0)) (V0 (Proc.devRef .tc main_arg1)) (V0 (Proc.devRef .tc main_arg3)) :=
  (seg17_keep (st17 V0) main_v356 (by decide)).trans (st17_main_v356 V0)
theorem st18_main_v373 (V0 : Valuation τ sig (Elt F)) : st18 V0 (no_index (Proc.devRef .tc main_v373)) = val_main_v373 (F := F) (V0 (Proc.devRef .tc main_arg0)) (V0 (Proc.devRef .tc main_arg1)) (V0 (Proc.devRef .tc main_arg3)) :=
  (seg17_keep (st17 V0) main_v373 (by decide)).trans (st17_main_v373 V0)
theorem st18_main_v400 (V0 : Valuation τ sig (Elt F)) : st18 V0 (no_index (Proc.devRef .tc main_v400)) = val_main_v400 (F := F) :=
  seg17_main_v400 (st17 V0) V0 (st17_main_v384 V0)
theorem st18_main_v401 (V0 : Valuation τ sig (Elt F)) : st18 V0 (no_index (Proc.devRef .tc main_v401)) = val_main_v401 (F := F) (V0 (Proc.devRef .tc main_arg0)) (V0 (Proc.devRef .tc main_arg1)) (V0 (Proc.devRef .tc main_arg3)) :=
  seg17_main_v401 (st17 V0) V0 (st17_main_v389 V0)
theorem st18_main_v402 (V0 : Valuation τ sig (Elt F)) : st18 V0 (no_index (Proc.devRef .tc main_v402)) = val_main_v402 (F := F) (V0 (Proc.devRef .tc main_arg0)) (V0 (Proc.devRef .tc main_arg1)) (V0 (Proc.devRef .tc main_arg3)) :=
  seg17_main_v402 (st17 V0) V0 (st17_main_v394 V0)
theorem st18_main_v403 (V0 : Valuation τ sig (Elt F)) : st18 V0 (no_index (Proc.devRef .tc main_v403)) = val_main_v403 (F := F) (V0 (Proc.devRef .tc main_arg0)) (V0 (Proc.devRef .tc main_arg1)) (V0 (Proc.devRef .tc main_arg3)) :=
  seg17_main_v403 (st17 V0) V0 (st17_main_v375 V0) (st17_main_v397 V0) (st17_main_v396 V0)

/-- The device's buffer contents after the first 19 segments. -/
def st19 (V0 : Valuation τ sig (Elt F)) : Valuation τ sig (Elt F) := after seg18 (st18 V0)
theorem st19_main_arg0 (V0 : Valuation τ sig (Elt F)) : st19 V0 (no_index (Proc.devRef .tc main_arg0)) = V0 (Proc.devRef .tc main_arg0) :=
  (seg18_keep (st18 V0) main_arg0 (by decide)).trans (st18_main_arg0 V0)
theorem st19_main_arg1 (V0 : Valuation τ sig (Elt F)) : st19 V0 (no_index (Proc.devRef .tc main_arg1)) = V0 (Proc.devRef .tc main_arg1) :=
  (seg18_keep (st18 V0) main_arg1 (by decide)).trans (st18_main_arg1 V0)
theorem st19_main_arg2 (V0 : Valuation τ sig (Elt F)) : st19 V0 (no_index (Proc.devRef .tc main_arg2)) = V0 (Proc.devRef .tc main_arg2) :=
  (seg18_keep (st18 V0) main_arg2 (by decide)).trans (st18_main_arg2 V0)
theorem st19_main_arg3 (V0 : Valuation τ sig (Elt F)) : st19 V0 (no_index (Proc.devRef .tc main_arg3)) = V0 (Proc.devRef .tc main_arg3) :=
  (seg18_keep (st18 V0) main_arg3 (by decide)).trans (st18_main_arg3 V0)
theorem st19_main_v1 (V0 : Valuation τ sig (Elt F)) : st19 V0 (no_index (Proc.devRef .tc main_v1)) = val_main_v1 (F := F) (V0 (Proc.devRef .tc main_arg0)) (V0 (Proc.devRef .tc main_arg1)) (V0 (Proc.devRef .tc main_arg3)) :=
  (seg18_keep (st18 V0) main_v1 (by decide)).trans (st18_main_v1 V0)
theorem st19_main_v13 (V0 : Valuation τ sig (Elt F)) : st19 V0 (no_index (Proc.devRef .tc main_v13)) = val_main_v13 (F := F) (V0 (Proc.devRef .tc main_arg0)) (V0 (Proc.devRef .tc main_arg1)) (V0 (Proc.devRef .tc main_arg3)) :=
  (seg18_keep (st18 V0) main_v13 (by decide)).trans (st18_main_v13 V0)
theorem st19_main_v21 (V0 : Valuation τ sig (Elt F)) : st19 V0 (no_index (Proc.devRef .tc main_v21)) = val_main_v21 (F := F) (V0 (Proc.devRef .tc main_arg0)) (V0 (Proc.devRef .tc main_arg1)) (V0 (Proc.devRef .tc main_arg3)) :=
  (seg18_keep (st18 V0) main_v21 (by decide)).trans (st18_main_v21 V0)
theorem st19_main_v29 (V0 : Valuation τ sig (Elt F)) : st19 V0 (no_index (Proc.devRef .tc main_v29)) = val_main_v29 (F := F) (V0 (Proc.devRef .tc main_arg0)) (V0 (Proc.devRef .tc main_arg1)) (V0 (Proc.devRef .tc main_arg3)) :=
  (seg18_keep (st18 V0) main_v29 (by decide)).trans (st18_main_v29 V0)
theorem st19_main_v30 (V0 : Valuation τ sig (Elt F)) : st19 V0 (no_index (Proc.devRef .tc main_v30)) = val_main_v30 (F := F) (V0 (Proc.devRef .tc main_arg0)) (V0 (Proc.devRef .tc main_arg1)) (V0 (Proc.devRef .tc main_arg3)) :=
  (seg18_keep (st18 V0) main_v30 (by decide)).trans (st18_main_v30 V0)
theorem st19_main_v31 (V0 : Valuation τ sig (Elt F)) : st19 V0 (no_index (Proc.devRef .tc main_v31)) = val_main_v31 (F := F) (V0 (Proc.devRef .tc main_arg0)) (V0 (Proc.devRef .tc main_arg1)) (V0 (Proc.devRef .tc main_arg3)) :=
  (seg18_keep (st18 V0) main_v31 (by decide)).trans (st18_main_v31 V0)
theorem st19_main_v32 (V0 : Valuation τ sig (Elt F)) : st19 V0 (no_index (Proc.devRef .tc main_v32)) = val_main_v32 (F := F) (V0 (Proc.devRef .tc main_arg0)) (V0 (Proc.devRef .tc main_arg1)) (V0 (Proc.devRef .tc main_arg3)) :=
  (seg18_keep (st18 V0) main_v32 (by decide)).trans (st18_main_v32 V0)
theorem st19_main_v35 (V0 : Valuation τ sig (Elt F)) : st19 V0 (no_index (Proc.devRef .tc main_v35)) = val_main_v35 (F := F) :=
  (seg18_keep (st18 V0) main_v35 (by decide)).trans (st18_main_v35 V0)
theorem st19_main_v336 (V0 : Valuation τ sig (Elt F)) : st19 V0 (no_index (Proc.devRef .tc main_v336)) = val_main_v336 (F := F) (V0 (Proc.devRef .tc main_arg0)) (V0 (Proc.devRef .tc main_arg1)) (V0 (Proc.devRef .tc main_arg2)) (V0 (Proc.devRef .tc main_arg3)) :=
  (seg18_keep (st18 V0) main_v336 (by decide)).trans (st18_main_v336 V0)
theorem st19_main_v356 (V0 : Valuation τ sig (Elt F)) : st19 V0 (no_index (Proc.devRef .tc main_v356)) = val_main_v356 (F := F) (V0 (Proc.devRef .tc main_arg0)) (V0 (Proc.devRef .tc main_arg1)) (V0 (Proc.devRef .tc main_arg3)) :=
  (seg18_keep (st18 V0) main_v356 (by decide)).trans (st18_main_v356 V0)
theorem st19_main_v373 (V0 : Valuation τ sig (Elt F)) : st19 V0 (no_index (Proc.devRef .tc main_v373)) = val_main_v373 (F := F) (V0 (Proc.devRef .tc main_arg0)) (V0 (Proc.devRef .tc main_arg1)) (V0 (Proc.devRef .tc main_arg3)) :=
  (seg18_keep (st18 V0) main_v373 (by decide)).trans (st18_main_v373 V0)
theorem st19_main_v404 (V0 : Valuation τ sig (Elt F)) : st19 V0 (no_index (Proc.devRef .tc main_v404)) = val_main_v404 (F := F) (V0 (Proc.devRef .tc main_arg0)) (V0 (Proc.devRef .tc main_arg1)) (V0 (Proc.devRef .tc main_arg3)) :=
  seg18_main_v404 (st18 V0) V0 (st18_main_v403 V0) (st18_main_v402 V0) (st18_main_v401 V0) (st18_main_v400 V0)

/-- The device's buffer contents after the first 20 segments. -/
def st20 (V0 : Valuation τ sig (Elt F)) : Valuation τ sig (Elt F) := after seg19 (st19 V0)
theorem st20_main_arg0 (V0 : Valuation τ sig (Elt F)) : st20 V0 (no_index (Proc.devRef .tc main_arg0)) = V0 (Proc.devRef .tc main_arg0) :=
  (seg19_keep (st19 V0) main_arg0 (by decide)).trans (st19_main_arg0 V0)
theorem st20_main_arg1 (V0 : Valuation τ sig (Elt F)) : st20 V0 (no_index (Proc.devRef .tc main_arg1)) = V0 (Proc.devRef .tc main_arg1) :=
  (seg19_keep (st19 V0) main_arg1 (by decide)).trans (st19_main_arg1 V0)
theorem st20_main_arg2 (V0 : Valuation τ sig (Elt F)) : st20 V0 (no_index (Proc.devRef .tc main_arg2)) = V0 (Proc.devRef .tc main_arg2) :=
  (seg19_keep (st19 V0) main_arg2 (by decide)).trans (st19_main_arg2 V0)
theorem st20_main_arg3 (V0 : Valuation τ sig (Elt F)) : st20 V0 (no_index (Proc.devRef .tc main_arg3)) = V0 (Proc.devRef .tc main_arg3) :=
  (seg19_keep (st19 V0) main_arg3 (by decide)).trans (st19_main_arg3 V0)
theorem st20_main_v1 (V0 : Valuation τ sig (Elt F)) : st20 V0 (no_index (Proc.devRef .tc main_v1)) = val_main_v1 (F := F) (V0 (Proc.devRef .tc main_arg0)) (V0 (Proc.devRef .tc main_arg1)) (V0 (Proc.devRef .tc main_arg3)) :=
  (seg19_keep (st19 V0) main_v1 (by decide)).trans (st19_main_v1 V0)
theorem st20_main_v13 (V0 : Valuation τ sig (Elt F)) : st20 V0 (no_index (Proc.devRef .tc main_v13)) = val_main_v13 (F := F) (V0 (Proc.devRef .tc main_arg0)) (V0 (Proc.devRef .tc main_arg1)) (V0 (Proc.devRef .tc main_arg3)) :=
  (seg19_keep (st19 V0) main_v13 (by decide)).trans (st19_main_v13 V0)
theorem st20_main_v21 (V0 : Valuation τ sig (Elt F)) : st20 V0 (no_index (Proc.devRef .tc main_v21)) = val_main_v21 (F := F) (V0 (Proc.devRef .tc main_arg0)) (V0 (Proc.devRef .tc main_arg1)) (V0 (Proc.devRef .tc main_arg3)) :=
  (seg19_keep (st19 V0) main_v21 (by decide)).trans (st19_main_v21 V0)
theorem st20_main_v29 (V0 : Valuation τ sig (Elt F)) : st20 V0 (no_index (Proc.devRef .tc main_v29)) = val_main_v29 (F := F) (V0 (Proc.devRef .tc main_arg0)) (V0 (Proc.devRef .tc main_arg1)) (V0 (Proc.devRef .tc main_arg3)) :=
  (seg19_keep (st19 V0) main_v29 (by decide)).trans (st19_main_v29 V0)
theorem st20_main_v30 (V0 : Valuation τ sig (Elt F)) : st20 V0 (no_index (Proc.devRef .tc main_v30)) = val_main_v30 (F := F) (V0 (Proc.devRef .tc main_arg0)) (V0 (Proc.devRef .tc main_arg1)) (V0 (Proc.devRef .tc main_arg3)) :=
  (seg19_keep (st19 V0) main_v30 (by decide)).trans (st19_main_v30 V0)
theorem st20_main_v31 (V0 : Valuation τ sig (Elt F)) : st20 V0 (no_index (Proc.devRef .tc main_v31)) = val_main_v31 (F := F) (V0 (Proc.devRef .tc main_arg0)) (V0 (Proc.devRef .tc main_arg1)) (V0 (Proc.devRef .tc main_arg3)) :=
  (seg19_keep (st19 V0) main_v31 (by decide)).trans (st19_main_v31 V0)
theorem st20_main_v32 (V0 : Valuation τ sig (Elt F)) : st20 V0 (no_index (Proc.devRef .tc main_v32)) = val_main_v32 (F := F) (V0 (Proc.devRef .tc main_arg0)) (V0 (Proc.devRef .tc main_arg1)) (V0 (Proc.devRef .tc main_arg3)) :=
  (seg19_keep (st19 V0) main_v32 (by decide)).trans (st19_main_v32 V0)
theorem st20_main_v35 (V0 : Valuation τ sig (Elt F)) : st20 V0 (no_index (Proc.devRef .tc main_v35)) = val_main_v35 (F := F) :=
  (seg19_keep (st19 V0) main_v35 (by decide)).trans (st19_main_v35 V0)
theorem st20_main_v411 (V0 : Valuation τ sig (Elt F)) : st20 V0 (no_index (Proc.devRef .tc main_v411)) = val_main_v411 (F := F) (V0 (Proc.devRef .tc main_arg0)) (V0 (Proc.devRef .tc main_arg1)) (V0 (Proc.devRef .tc main_arg2)) (V0 (Proc.devRef .tc main_arg3)) :=
  seg19_main_v411 (st19 V0) V0 (st19_main_v373 V0) (st19_main_v356 V0) (st19_main_v404 V0) (st19_main_arg2 V0) (st19_main_v336 V0)
theorem st20_main_v413 (V0 : Valuation τ sig (Elt F)) : st20 V0 (no_index (Proc.devRef .tc main_v413)) = val_main_v413 (F := F) (V0 (Proc.devRef .tc main_arg0)) (V0 (Proc.devRef .tc main_arg1)) (V0 (Proc.devRef .tc main_arg3)) :=
  seg19_main_v413 (st19 V0) V0 (st19_main_v30 V0)
theorem st20_main_v415 (V0 : Valuation τ sig (Elt F)) : st20 V0 (no_index (Proc.devRef .tc main_v415)) = val_main_v415 (F := F) (V0 (Proc.devRef .tc main_arg0)) (V0 (Proc.devRef .tc main_arg1)) (V0 (Proc.devRef .tc main_arg3)) :=
  seg19_main_v415 (st19 V0) V0 (st19_main_v31 V0)
theorem st20_main_v417 (V0 : Valuation τ sig (Elt F)) : st20 V0 (no_index (Proc.devRef .tc main_v417)) = val_main_v417 (F := F) (V0 (Proc.devRef .tc main_arg0)) (V0 (Proc.devRef .tc main_arg1)) (V0 (Proc.devRef .tc main_arg3)) :=
  seg19_main_v417 (st19 V0) V0 (st19_main_v32 V0)
theorem st20_main_v431 (V0 : Valuation τ sig (Elt F)) : st20 V0 (no_index (Proc.devRef .tc main_v431)) = val_main_v431 (F := F) (V0 (Proc.devRef .tc main_arg0)) (V0 (Proc.devRef .tc main_arg1)) (V0 (Proc.devRef .tc main_arg3)) :=
  seg19_main_v431 (st19 V0) V0 (st19_main_v32 V0) (st19_main_v29 V0) (st19_main_v31 V0) (st19_main_v21 V0) (st19_main_v30 V0) (st19_main_v13 V0)
theorem st20_main_v445 (V0 : Valuation τ sig (Elt F)) : st20 V0 (no_index (Proc.devRef .tc main_v445)) = val_main_v445 (F := F) (V0 (Proc.devRef .tc main_arg0)) (V0 (Proc.devRef .tc main_arg1)) (V0 (Proc.devRef .tc main_arg3)) :=
  seg19_main_v445 (st19 V0) V0 (st19_main_v32 V0) (st19_main_v31 V0) (st19_main_v30 V0)
theorem st20_main_cst_151 (V0 : Valuation τ sig (Elt F)) : st20 V0 (no_index (Proc.devRef .tc main_cst_151)) = val_main_cst_151 (F := F) :=
  seg19_main_cst_151 (st19 V0) V0

/-- The device's buffer contents after the first 21 segments. -/
def st21 (V0 : Valuation τ sig (Elt F)) : Valuation τ sig (Elt F) := after seg20 (st20 V0)
theorem st21_main_arg0 (V0 : Valuation τ sig (Elt F)) : st21 V0 (no_index (Proc.devRef .tc main_arg0)) = V0 (Proc.devRef .tc main_arg0) :=
  (seg20_keep (st20 V0) main_arg0 (by decide)).trans (st20_main_arg0 V0)
theorem st21_main_arg1 (V0 : Valuation τ sig (Elt F)) : st21 V0 (no_index (Proc.devRef .tc main_arg1)) = V0 (Proc.devRef .tc main_arg1) :=
  (seg20_keep (st20 V0) main_arg1 (by decide)).trans (st20_main_arg1 V0)
theorem st21_main_arg2 (V0 : Valuation τ sig (Elt F)) : st21 V0 (no_index (Proc.devRef .tc main_arg2)) = V0 (Proc.devRef .tc main_arg2) :=
  (seg20_keep (st20 V0) main_arg2 (by decide)).trans (st20_main_arg2 V0)
theorem st21_main_arg3 (V0 : Valuation τ sig (Elt F)) : st21 V0 (no_index (Proc.devRef .tc main_arg3)) = V0 (Proc.devRef .tc main_arg3) :=
  (seg20_keep (st20 V0) main_arg3 (by decide)).trans (st20_main_arg3 V0)
theorem st21_main_v1 (V0 : Valuation τ sig (Elt F)) : st21 V0 (no_index (Proc.devRef .tc main_v1)) = val_main_v1 (F := F) (V0 (Proc.devRef .tc main_arg0)) (V0 (Proc.devRef .tc main_arg1)) (V0 (Proc.devRef .tc main_arg3)) :=
  (seg20_keep (st20 V0) main_v1 (by decide)).trans (st20_main_v1 V0)
theorem st21_main_v13 (V0 : Valuation τ sig (Elt F)) : st21 V0 (no_index (Proc.devRef .tc main_v13)) = val_main_v13 (F := F) (V0 (Proc.devRef .tc main_arg0)) (V0 (Proc.devRef .tc main_arg1)) (V0 (Proc.devRef .tc main_arg3)) :=
  (seg20_keep (st20 V0) main_v13 (by decide)).trans (st20_main_v13 V0)
theorem st21_main_v21 (V0 : Valuation τ sig (Elt F)) : st21 V0 (no_index (Proc.devRef .tc main_v21)) = val_main_v21 (F := F) (V0 (Proc.devRef .tc main_arg0)) (V0 (Proc.devRef .tc main_arg1)) (V0 (Proc.devRef .tc main_arg3)) :=
  (seg20_keep (st20 V0) main_v21 (by decide)).trans (st20_main_v21 V0)
theorem st21_main_v29 (V0 : Valuation τ sig (Elt F)) : st21 V0 (no_index (Proc.devRef .tc main_v29)) = val_main_v29 (F := F) (V0 (Proc.devRef .tc main_arg0)) (V0 (Proc.devRef .tc main_arg1)) (V0 (Proc.devRef .tc main_arg3)) :=
  (seg20_keep (st20 V0) main_v29 (by decide)).trans (st20_main_v29 V0)
theorem st21_main_v30 (V0 : Valuation τ sig (Elt F)) : st21 V0 (no_index (Proc.devRef .tc main_v30)) = val_main_v30 (F := F) (V0 (Proc.devRef .tc main_arg0)) (V0 (Proc.devRef .tc main_arg1)) (V0 (Proc.devRef .tc main_arg3)) :=
  (seg20_keep (st20 V0) main_v30 (by decide)).trans (st20_main_v30 V0)
theorem st21_main_v31 (V0 : Valuation τ sig (Elt F)) : st21 V0 (no_index (Proc.devRef .tc main_v31)) = val_main_v31 (F := F) (V0 (Proc.devRef .tc main_arg0)) (V0 (Proc.devRef .tc main_arg1)) (V0 (Proc.devRef .tc main_arg3)) :=
  (seg20_keep (st20 V0) main_v31 (by decide)).trans (st20_main_v31 V0)
theorem st21_main_v32 (V0 : Valuation τ sig (Elt F)) : st21 V0 (no_index (Proc.devRef .tc main_v32)) = val_main_v32 (F := F) (V0 (Proc.devRef .tc main_arg0)) (V0 (Proc.devRef .tc main_arg1)) (V0 (Proc.devRef .tc main_arg3)) :=
  (seg20_keep (st20 V0) main_v32 (by decide)).trans (st20_main_v32 V0)
theorem st21_main_v35 (V0 : Valuation τ sig (Elt F)) : st21 V0 (no_index (Proc.devRef .tc main_v35)) = val_main_v35 (F := F) :=
  (seg20_keep (st20 V0) main_v35 (by decide)).trans (st20_main_v35 V0)
theorem st21_main_v411 (V0 : Valuation τ sig (Elt F)) : st21 V0 (no_index (Proc.devRef .tc main_v411)) = val_main_v411 (F := F) (V0 (Proc.devRef .tc main_arg0)) (V0 (Proc.devRef .tc main_arg1)) (V0 (Proc.devRef .tc main_arg2)) (V0 (Proc.devRef .tc main_arg3)) :=
  (seg20_keep (st20 V0) main_v411 (by decide)).trans (st20_main_v411 V0)
theorem st21_main_v431 (V0 : Valuation τ sig (Elt F)) : st21 V0 (no_index (Proc.devRef .tc main_v431)) = val_main_v431 (F := F) (V0 (Proc.devRef .tc main_arg0)) (V0 (Proc.devRef .tc main_arg1)) (V0 (Proc.devRef .tc main_arg3)) :=
  (seg20_keep (st20 V0) main_v431 (by decide)).trans (st20_main_v431 V0)
theorem st21_main_v448 (V0 : Valuation τ sig (Elt F)) : st21 V0 (no_index (Proc.devRef .tc main_v448)) = val_main_v448 (F := F) (V0 (Proc.devRef .tc main_arg0)) (V0 (Proc.devRef .tc main_arg1)) (V0 (Proc.devRef .tc main_arg3)) :=
  seg20_main_v448 (st20 V0) V0 (st20_main_cst_151 V0) (st20_main_v417 V0) (st20_main_v445 V0)
theorem st21_main_v475 (V0 : Valuation τ sig (Elt F)) : st21 V0 (no_index (Proc.devRef .tc main_v475)) = val_main_v475 (F := F) :=
  seg20_main_v475 (st20 V0) V0 (st20_main_v35 V0)
theorem st21_main_v476 (V0 : Valuation τ sig (Elt F)) : st21 V0 (no_index (Proc.devRef .tc main_v476)) = val_main_v476 (F := F) (V0 (Proc.devRef .tc main_arg0)) (V0 (Proc.devRef .tc main_arg1)) (V0 (Proc.devRef .tc main_arg3)) :=
  seg20_main_v476 (st20 V0) V0 (st20_main_v417 V0)
theorem st21_main_v477 (V0 : Valuation τ sig (Elt F)) : st21 V0 (no_index (Proc.devRef .tc main_v477)) = val_main_v477 (F := F) (V0 (Proc.devRef .tc main_arg0)) (V0 (Proc.devRef .tc main_arg1)) (V0 (Proc.devRef .tc main_arg3)) :=
  seg20_main_v477 (st20 V0) V0 (st20_main_v415 V0)
theorem st21_main_v478 (V0 : Valuation τ sig (Elt F)) : st21 V0 (no_index (Proc.devRef .tc main_v478)) = val_main_v478 (F := F) (V0 (Proc.devRef .tc main_arg0)) (V0 (Proc.devRef .tc main_arg1)) (V0 (Proc.devRef .tc main_arg3)) :=
  seg20_main_v478 (st20 V0) V0 (st20_main_v413 V0)

/-- The device's buffer contents after the first 22 segments. -/
def st22 (V0 : Valuation τ sig (Elt F)) : Valuation τ sig (Elt F) := after seg21 (st21 V0)
theorem st22_main_arg0 (V0 : Valuation τ sig (Elt F)) : st22 V0 (no_index (Proc.devRef .tc main_arg0)) = V0 (Proc.devRef .tc main_arg0) :=
  (seg21_keep (st21 V0) main_arg0 (by decide)).trans (st21_main_arg0 V0)
theorem st22_main_arg1 (V0 : Valuation τ sig (Elt F)) : st22 V0 (no_index (Proc.devRef .tc main_arg1)) = V0 (Proc.devRef .tc main_arg1) :=
  (seg21_keep (st21 V0) main_arg1 (by decide)).trans (st21_main_arg1 V0)
theorem st22_main_arg2 (V0 : Valuation τ sig (Elt F)) : st22 V0 (no_index (Proc.devRef .tc main_arg2)) = V0 (Proc.devRef .tc main_arg2) :=
  (seg21_keep (st21 V0) main_arg2 (by decide)).trans (st21_main_arg2 V0)
theorem st22_main_arg3 (V0 : Valuation τ sig (Elt F)) : st22 V0 (no_index (Proc.devRef .tc main_arg3)) = V0 (Proc.devRef .tc main_arg3) :=
  (seg21_keep (st21 V0) main_arg3 (by decide)).trans (st21_main_arg3 V0)
theorem st22_main_v1 (V0 : Valuation τ sig (Elt F)) : st22 V0 (no_index (Proc.devRef .tc main_v1)) = val_main_v1 (F := F) (V0 (Proc.devRef .tc main_arg0)) (V0 (Proc.devRef .tc main_arg1)) (V0 (Proc.devRef .tc main_arg3)) :=
  (seg21_keep (st21 V0) main_v1 (by decide)).trans (st21_main_v1 V0)
theorem st22_main_v13 (V0 : Valuation τ sig (Elt F)) : st22 V0 (no_index (Proc.devRef .tc main_v13)) = val_main_v13 (F := F) (V0 (Proc.devRef .tc main_arg0)) (V0 (Proc.devRef .tc main_arg1)) (V0 (Proc.devRef .tc main_arg3)) :=
  (seg21_keep (st21 V0) main_v13 (by decide)).trans (st21_main_v13 V0)
theorem st22_main_v21 (V0 : Valuation τ sig (Elt F)) : st22 V0 (no_index (Proc.devRef .tc main_v21)) = val_main_v21 (F := F) (V0 (Proc.devRef .tc main_arg0)) (V0 (Proc.devRef .tc main_arg1)) (V0 (Proc.devRef .tc main_arg3)) :=
  (seg21_keep (st21 V0) main_v21 (by decide)).trans (st21_main_v21 V0)
theorem st22_main_v29 (V0 : Valuation τ sig (Elt F)) : st22 V0 (no_index (Proc.devRef .tc main_v29)) = val_main_v29 (F := F) (V0 (Proc.devRef .tc main_arg0)) (V0 (Proc.devRef .tc main_arg1)) (V0 (Proc.devRef .tc main_arg3)) :=
  (seg21_keep (st21 V0) main_v29 (by decide)).trans (st21_main_v29 V0)
theorem st22_main_v30 (V0 : Valuation τ sig (Elt F)) : st22 V0 (no_index (Proc.devRef .tc main_v30)) = val_main_v30 (F := F) (V0 (Proc.devRef .tc main_arg0)) (V0 (Proc.devRef .tc main_arg1)) (V0 (Proc.devRef .tc main_arg3)) :=
  (seg21_keep (st21 V0) main_v30 (by decide)).trans (st21_main_v30 V0)
theorem st22_main_v31 (V0 : Valuation τ sig (Elt F)) : st22 V0 (no_index (Proc.devRef .tc main_v31)) = val_main_v31 (F := F) (V0 (Proc.devRef .tc main_arg0)) (V0 (Proc.devRef .tc main_arg1)) (V0 (Proc.devRef .tc main_arg3)) :=
  (seg21_keep (st21 V0) main_v31 (by decide)).trans (st21_main_v31 V0)
theorem st22_main_v32 (V0 : Valuation τ sig (Elt F)) : st22 V0 (no_index (Proc.devRef .tc main_v32)) = val_main_v32 (F := F) (V0 (Proc.devRef .tc main_arg0)) (V0 (Proc.devRef .tc main_arg1)) (V0 (Proc.devRef .tc main_arg3)) :=
  (seg21_keep (st21 V0) main_v32 (by decide)).trans (st21_main_v32 V0)
theorem st22_main_v35 (V0 : Valuation τ sig (Elt F)) : st22 V0 (no_index (Proc.devRef .tc main_v35)) = val_main_v35 (F := F) :=
  (seg21_keep (st21 V0) main_v35 (by decide)).trans (st21_main_v35 V0)
theorem st22_main_v411 (V0 : Valuation τ sig (Elt F)) : st22 V0 (no_index (Proc.devRef .tc main_v411)) = val_main_v411 (F := F) (V0 (Proc.devRef .tc main_arg0)) (V0 (Proc.devRef .tc main_arg1)) (V0 (Proc.devRef .tc main_arg2)) (V0 (Proc.devRef .tc main_arg3)) :=
  (seg21_keep (st21 V0) main_v411 (by decide)).trans (st21_main_v411 V0)
theorem st22_main_v431 (V0 : Valuation τ sig (Elt F)) : st22 V0 (no_index (Proc.devRef .tc main_v431)) = val_main_v431 (F := F) (V0 (Proc.devRef .tc main_arg0)) (V0 (Proc.devRef .tc main_arg1)) (V0 (Proc.devRef .tc main_arg3)) :=
  (seg21_keep (st21 V0) main_v431 (by decide)).trans (st21_main_v431 V0)
theorem st22_main_v448 (V0 : Valuation τ sig (Elt F)) : st22 V0 (no_index (Proc.devRef .tc main_v448)) = val_main_v448 (F := F) (V0 (Proc.devRef .tc main_arg0)) (V0 (Proc.devRef .tc main_arg1)) (V0 (Proc.devRef .tc main_arg3)) :=
  (seg21_keep (st21 V0) main_v448 (by decide)).trans (st21_main_v448 V0)
theorem st22_main_v479 (V0 : Valuation τ sig (Elt F)) : st22 V0 (no_index (Proc.devRef .tc main_v479)) = val_main_v479 (F := F) (V0 (Proc.devRef .tc main_arg0)) (V0 (Proc.devRef .tc main_arg1)) (V0 (Proc.devRef .tc main_arg3)) :=
  seg21_main_v479 (st21 V0) V0 (st21_main_v478 V0) (st21_main_v477 V0) (st21_main_v476 V0) (st21_main_v475 V0)

/-- The device's buffer contents after the first 23 segments. -/
def st23 (V0 : Valuation τ sig (Elt F)) : Valuation τ sig (Elt F) := after seg22 (st22 V0)
theorem st23_main_arg0 (V0 : Valuation τ sig (Elt F)) : st23 V0 (no_index (Proc.devRef .tc main_arg0)) = V0 (Proc.devRef .tc main_arg0) :=
  (seg22_keep (st22 V0) main_arg0 (by decide)).trans (st22_main_arg0 V0)
theorem st23_main_arg1 (V0 : Valuation τ sig (Elt F)) : st23 V0 (no_index (Proc.devRef .tc main_arg1)) = V0 (Proc.devRef .tc main_arg1) :=
  (seg22_keep (st22 V0) main_arg1 (by decide)).trans (st22_main_arg1 V0)
theorem st23_main_arg2 (V0 : Valuation τ sig (Elt F)) : st23 V0 (no_index (Proc.devRef .tc main_arg2)) = V0 (Proc.devRef .tc main_arg2) :=
  (seg22_keep (st22 V0) main_arg2 (by decide)).trans (st22_main_arg2 V0)
theorem st23_main_arg3 (V0 : Valuation τ sig (Elt F)) : st23 V0 (no_index (Proc.devRef .tc main_arg3)) = V0 (Proc.devRef .tc main_arg3) :=
  (seg22_keep (st22 V0) main_arg3 (by decide)).trans (st22_main_arg3 V0)
theorem st23_main_v1 (V0 : Valuation τ sig (Elt F)) : st23 V0 (no_index (Proc.devRef .tc main_v1)) = val_main_v1 (F := F) (V0 (Proc.devRef .tc main_arg0)) (V0 (Proc.devRef .tc main_arg1)) (V0 (Proc.devRef .tc main_arg3)) :=
  (seg22_keep (st22 V0) main_v1 (by decide)).trans (st22_main_v1 V0)
theorem st23_main_v13 (V0 : Valuation τ sig (Elt F)) : st23 V0 (no_index (Proc.devRef .tc main_v13)) = val_main_v13 (F := F) (V0 (Proc.devRef .tc main_arg0)) (V0 (Proc.devRef .tc main_arg1)) (V0 (Proc.devRef .tc main_arg3)) :=
  (seg22_keep (st22 V0) main_v13 (by decide)).trans (st22_main_v13 V0)
theorem st23_main_v21 (V0 : Valuation τ sig (Elt F)) : st23 V0 (no_index (Proc.devRef .tc main_v21)) = val_main_v21 (F := F) (V0 (Proc.devRef .tc main_arg0)) (V0 (Proc.devRef .tc main_arg1)) (V0 (Proc.devRef .tc main_arg3)) :=
  (seg22_keep (st22 V0) main_v21 (by decide)).trans (st22_main_v21 V0)
theorem st23_main_v29 (V0 : Valuation τ sig (Elt F)) : st23 V0 (no_index (Proc.devRef .tc main_v29)) = val_main_v29 (F := F) (V0 (Proc.devRef .tc main_arg0)) (V0 (Proc.devRef .tc main_arg1)) (V0 (Proc.devRef .tc main_arg3)) :=
  (seg22_keep (st22 V0) main_v29 (by decide)).trans (st22_main_v29 V0)
theorem st23_main_v30 (V0 : Valuation τ sig (Elt F)) : st23 V0 (no_index (Proc.devRef .tc main_v30)) = val_main_v30 (F := F) (V0 (Proc.devRef .tc main_arg0)) (V0 (Proc.devRef .tc main_arg1)) (V0 (Proc.devRef .tc main_arg3)) :=
  (seg22_keep (st22 V0) main_v30 (by decide)).trans (st22_main_v30 V0)
theorem st23_main_v31 (V0 : Valuation τ sig (Elt F)) : st23 V0 (no_index (Proc.devRef .tc main_v31)) = val_main_v31 (F := F) (V0 (Proc.devRef .tc main_arg0)) (V0 (Proc.devRef .tc main_arg1)) (V0 (Proc.devRef .tc main_arg3)) :=
  (seg22_keep (st22 V0) main_v31 (by decide)).trans (st22_main_v31 V0)
theorem st23_main_v32 (V0 : Valuation τ sig (Elt F)) : st23 V0 (no_index (Proc.devRef .tc main_v32)) = val_main_v32 (F := F) (V0 (Proc.devRef .tc main_arg0)) (V0 (Proc.devRef .tc main_arg1)) (V0 (Proc.devRef .tc main_arg3)) :=
  (seg22_keep (st22 V0) main_v32 (by decide)).trans (st22_main_v32 V0)
theorem st23_main_v35 (V0 : Valuation τ sig (Elt F)) : st23 V0 (no_index (Proc.devRef .tc main_v35)) = val_main_v35 (F := F) :=
  (seg22_keep (st22 V0) main_v35 (by decide)).trans (st22_main_v35 V0)
theorem st23_main_v486 (V0 : Valuation τ sig (Elt F)) : st23 V0 (no_index (Proc.devRef .tc main_v486)) = val_main_v486 (F := F) (V0 (Proc.devRef .tc main_arg0)) (V0 (Proc.devRef .tc main_arg1)) (V0 (Proc.devRef .tc main_arg2)) (V0 (Proc.devRef .tc main_arg3)) :=
  seg22_main_v486 (st22 V0) V0 (st22_main_v448 V0) (st22_main_v431 V0) (st22_main_v479 V0) (st22_main_arg2 V0) (st22_main_v411 V0)
theorem st23_main_v488 (V0 : Valuation τ sig (Elt F)) : st23 V0 (no_index (Proc.devRef .tc main_v488)) = val_main_v488 (F := F) (V0 (Proc.devRef .tc main_arg0)) (V0 (Proc.devRef .tc main_arg1)) (V0 (Proc.devRef .tc main_arg3)) :=
  seg22_main_v488 (st22 V0) V0 (st22_main_v30 V0)
theorem st23_main_v489 (V0 : Valuation τ sig (Elt F)) : st23 V0 (no_index (Proc.devRef .tc main_v489)) = val_main_v489 (F := F) :=
  seg22_main_v489 (st22 V0) V0

/-- The device's buffer contents after the first 24 segments. -/
def st24 (V0 : Valuation τ sig (Elt F)) : Valuation τ sig (Elt F) := after seg23 (st23 V0)
theorem st24_main_arg0 (V0 : Valuation τ sig (Elt F)) : st24 V0 (no_index (Proc.devRef .tc main_arg0)) = V0 (Proc.devRef .tc main_arg0) :=
  (seg23_keep (st23 V0) main_arg0 (by decide)).trans (st23_main_arg0 V0)
theorem st24_main_arg1 (V0 : Valuation τ sig (Elt F)) : st24 V0 (no_index (Proc.devRef .tc main_arg1)) = V0 (Proc.devRef .tc main_arg1) :=
  (seg23_keep (st23 V0) main_arg1 (by decide)).trans (st23_main_arg1 V0)
theorem st24_main_arg2 (V0 : Valuation τ sig (Elt F)) : st24 V0 (no_index (Proc.devRef .tc main_arg2)) = V0 (Proc.devRef .tc main_arg2) :=
  (seg23_keep (st23 V0) main_arg2 (by decide)).trans (st23_main_arg2 V0)
theorem st24_main_arg3 (V0 : Valuation τ sig (Elt F)) : st24 V0 (no_index (Proc.devRef .tc main_arg3)) = V0 (Proc.devRef .tc main_arg3) :=
  (seg23_keep (st23 V0) main_arg3 (by decide)).trans (st23_main_arg3 V0)
theorem st24_main_v1 (V0 : Valuation τ sig (Elt F)) : st24 V0 (no_index (Proc.devRef .tc main_v1)) = val_main_v1 (F := F) (V0 (Proc.devRef .tc main_arg0)) (V0 (Proc.devRef .tc main_arg1)) (V0 (Proc.devRef .tc main_arg3)) :=
  (seg23_keep (st23 V0) main_v1 (by decide)).trans (st23_main_v1 V0)
theorem st24_main_v13 (V0 : Valuation τ sig (Elt F)) : st24 V0 (no_index (Proc.devRef .tc main_v13)) = val_main_v13 (F := F) (V0 (Proc.devRef .tc main_arg0)) (V0 (Proc.devRef .tc main_arg1)) (V0 (Proc.devRef .tc main_arg3)) :=
  (seg23_keep (st23 V0) main_v13 (by decide)).trans (st23_main_v13 V0)
theorem st24_main_v21 (V0 : Valuation τ sig (Elt F)) : st24 V0 (no_index (Proc.devRef .tc main_v21)) = val_main_v21 (F := F) (V0 (Proc.devRef .tc main_arg0)) (V0 (Proc.devRef .tc main_arg1)) (V0 (Proc.devRef .tc main_arg3)) :=
  (seg23_keep (st23 V0) main_v21 (by decide)).trans (st23_main_v21 V0)
theorem st24_main_v29 (V0 : Valuation τ sig (Elt F)) : st24 V0 (no_index (Proc.devRef .tc main_v29)) = val_main_v29 (F := F) (V0 (Proc.devRef .tc main_arg0)) (V0 (Proc.devRef .tc main_arg1)) (V0 (Proc.devRef .tc main_arg3)) :=
  (seg23_keep (st23 V0) main_v29 (by decide)).trans (st23_main_v29 V0)
theorem st24_main_v30 (V0 : Valuation τ sig (Elt F)) : st24 V0 (no_index (Proc.devRef .tc main_v30)) = val_main_v30 (F := F) (V0 (Proc.devRef .tc main_arg0)) (V0 (Proc.devRef .tc main_arg1)) (V0 (Proc.devRef .tc main_arg3)) :=
  (seg23_keep (st23 V0) main_v30 (by decide)).trans (st23_main_v30 V0)
theorem st24_main_v31 (V0 : Valuation τ sig (Elt F)) : st24 V0 (no_index (Proc.devRef .tc main_v31)) = val_main_v31 (F := F) (V0 (Proc.devRef .tc main_arg0)) (V0 (Proc.devRef .tc main_arg1)) (V0 (Proc.devRef .tc main_arg3)) :=
  (seg23_keep (st23 V0) main_v31 (by decide)).trans (st23_main_v31 V0)
theorem st24_main_v32 (V0 : Valuation τ sig (Elt F)) : st24 V0 (no_index (Proc.devRef .tc main_v32)) = val_main_v32 (F := F) (V0 (Proc.devRef .tc main_arg0)) (V0 (Proc.devRef .tc main_arg1)) (V0 (Proc.devRef .tc main_arg3)) :=
  (seg23_keep (st23 V0) main_v32 (by decide)).trans (st23_main_v32 V0)
theorem st24_main_v35 (V0 : Valuation τ sig (Elt F)) : st24 V0 (no_index (Proc.devRef .tc main_v35)) = val_main_v35 (F := F) :=
  (seg23_keep (st23 V0) main_v35 (by decide)).trans (st23_main_v35 V0)
theorem st24_main_v486 (V0 : Valuation τ sig (Elt F)) : st24 V0 (no_index (Proc.devRef .tc main_v486)) = val_main_v486 (F := F) (V0 (Proc.devRef .tc main_arg0)) (V0 (Proc.devRef .tc main_arg1)) (V0 (Proc.devRef .tc main_arg2)) (V0 (Proc.devRef .tc main_arg3)) :=
  (seg23_keep (st23 V0) main_v486 (by decide)).trans (st23_main_v486 V0)
theorem st24_main_v506 (V0 : Valuation τ sig (Elt F)) : st24 V0 (no_index (Proc.devRef .tc main_v506)) = val_main_v506 (F := F) (V0 (Proc.devRef .tc main_arg0)) (V0 (Proc.devRef .tc main_arg1)) (V0 (Proc.devRef .tc main_arg3)) :=
  seg23_main_v506 (st23 V0) V0 (st23_main_v32 V0) (st23_main_v29 V0) (st23_main_v489 V0) (st23_main_v31 V0) (st23_main_v21 V0) (st23_main_v488 V0) (st23_main_v13 V0)
theorem st24_main_v523 (V0 : Valuation τ sig (Elt F)) : st24 V0 (no_index (Proc.devRef .tc main_v523)) = val_main_v523 (F := F) (V0 (Proc.devRef .tc main_arg0)) (V0 (Proc.devRef .tc main_arg1)) (V0 (Proc.devRef .tc main_arg3)) :=
  seg23_main_v523 (st23 V0) V0 (st23_main_v32 V0) (st23_main_v489 V0) (st23_main_v31 V0) (st23_main_v488 V0)
theorem st24_main_v525 (V0 : Valuation τ sig (Elt F)) : st24 V0 (no_index (Proc.devRef .tc main_v525)) = val_main_v525 (F := F) (V0 (Proc.devRef .tc main_arg0)) (V0 (Proc.devRef .tc main_arg1)) (V0 (Proc.devRef .tc main_arg3)) :=
  seg23_main_v525 (st23 V0) V0 (st23_main_v488 V0)
theorem st24_main_v527 (V0 : Valuation τ sig (Elt F)) : st24 V0 (no_index (Proc.devRef .tc main_v527)) = val_main_v527 (F := F) (V0 (Proc.devRef .tc main_arg0)) (V0 (Proc.devRef .tc main_arg1)) (V0 (Proc.devRef .tc main_arg3)) :=
  seg23_main_v527 (st23 V0) V0 (st23_main_v489 V0) (st23_main_v31 V0)
theorem st24_main_v529 (V0 : Valuation τ sig (Elt F)) : st24 V0 (no_index (Proc.devRef .tc main_v529)) = val_main_v529 (F := F) (V0 (Proc.devRef .tc main_arg0)) (V0 (Proc.devRef .tc main_arg1)) (V0 (Proc.devRef .tc main_arg3)) :=
  seg23_main_v529 (st23 V0) V0 (st23_main_v32 V0)
theorem st24_main_v531 (V0 : Valuation τ sig (Elt F)) : st24 V0 (no_index (Proc.devRef .tc main_v531)) = val_main_v531 (F := F) :=
  seg23_main_v531 (st23 V0) V0 (st23_main_v35 V0)
theorem st24_main_c_185 (V0 : Valuation τ sig (Elt F)) : st24 V0 (no_index (Proc.devRef .tc main_c_185)) = val_main_c_185 (F := F) :=
  seg23_main_c_185 (st23 V0) V0

/-- The device's buffer contents after the first 25 segments. -/
def st25 (V0 : Valuation τ sig (Elt F)) : Valuation τ sig (Elt F) := after seg24 (st24 V0)
theorem st25_main_arg0 (V0 : Valuation τ sig (Elt F)) : st25 V0 (no_index (Proc.devRef .tc main_arg0)) = V0 (Proc.devRef .tc main_arg0) :=
  (seg24_keep (st24 V0) main_arg0 (by decide)).trans (st24_main_arg0 V0)
theorem st25_main_arg1 (V0 : Valuation τ sig (Elt F)) : st25 V0 (no_index (Proc.devRef .tc main_arg1)) = V0 (Proc.devRef .tc main_arg1) :=
  (seg24_keep (st24 V0) main_arg1 (by decide)).trans (st24_main_arg1 V0)
theorem st25_main_arg2 (V0 : Valuation τ sig (Elt F)) : st25 V0 (no_index (Proc.devRef .tc main_arg2)) = V0 (Proc.devRef .tc main_arg2) :=
  (seg24_keep (st24 V0) main_arg2 (by decide)).trans (st24_main_arg2 V0)
theorem st25_main_arg3 (V0 : Valuation τ sig (Elt F)) : st25 V0 (no_index (Proc.devRef .tc main_arg3)) = V0 (Proc.devRef .tc main_arg3) :=
  (seg24_keep (st24 V0) main_arg3 (by decide)).trans (st24_main_arg3 V0)
theorem st25_main_v1 (V0 : Valuation τ sig (Elt F)) : st25 V0 (no_index (Proc.devRef .tc main_v1)) = val_main_v1 (F := F) (V0 (Proc.devRef .tc main_arg0)) (V0 (Proc.devRef .tc main_arg1)) (V0 (Proc.devRef .tc main_arg3)) :=
  (seg24_keep (st24 V0) main_v1 (by decide)).trans (st24_main_v1 V0)
theorem st25_main_v13 (V0 : Valuation τ sig (Elt F)) : st25 V0 (no_index (Proc.devRef .tc main_v13)) = val_main_v13 (F := F) (V0 (Proc.devRef .tc main_arg0)) (V0 (Proc.devRef .tc main_arg1)) (V0 (Proc.devRef .tc main_arg3)) :=
  (seg24_keep (st24 V0) main_v13 (by decide)).trans (st24_main_v13 V0)
theorem st25_main_v21 (V0 : Valuation τ sig (Elt F)) : st25 V0 (no_index (Proc.devRef .tc main_v21)) = val_main_v21 (F := F) (V0 (Proc.devRef .tc main_arg0)) (V0 (Proc.devRef .tc main_arg1)) (V0 (Proc.devRef .tc main_arg3)) :=
  (seg24_keep (st24 V0) main_v21 (by decide)).trans (st24_main_v21 V0)
theorem st25_main_v29 (V0 : Valuation τ sig (Elt F)) : st25 V0 (no_index (Proc.devRef .tc main_v29)) = val_main_v29 (F := F) (V0 (Proc.devRef .tc main_arg0)) (V0 (Proc.devRef .tc main_arg1)) (V0 (Proc.devRef .tc main_arg3)) :=
  (seg24_keep (st24 V0) main_v29 (by decide)).trans (st24_main_v29 V0)
theorem st25_main_v30 (V0 : Valuation τ sig (Elt F)) : st25 V0 (no_index (Proc.devRef .tc main_v30)) = val_main_v30 (F := F) (V0 (Proc.devRef .tc main_arg0)) (V0 (Proc.devRef .tc main_arg1)) (V0 (Proc.devRef .tc main_arg3)) :=
  (seg24_keep (st24 V0) main_v30 (by decide)).trans (st24_main_v30 V0)
theorem st25_main_v31 (V0 : Valuation τ sig (Elt F)) : st25 V0 (no_index (Proc.devRef .tc main_v31)) = val_main_v31 (F := F) (V0 (Proc.devRef .tc main_arg0)) (V0 (Proc.devRef .tc main_arg1)) (V0 (Proc.devRef .tc main_arg3)) :=
  (seg24_keep (st24 V0) main_v31 (by decide)).trans (st24_main_v31 V0)
theorem st25_main_v32 (V0 : Valuation τ sig (Elt F)) : st25 V0 (no_index (Proc.devRef .tc main_v32)) = val_main_v32 (F := F) (V0 (Proc.devRef .tc main_arg0)) (V0 (Proc.devRef .tc main_arg1)) (V0 (Proc.devRef .tc main_arg3)) :=
  (seg24_keep (st24 V0) main_v32 (by decide)).trans (st24_main_v32 V0)
theorem st25_main_v35 (V0 : Valuation τ sig (Elt F)) : st25 V0 (no_index (Proc.devRef .tc main_v35)) = val_main_v35 (F := F) :=
  (seg24_keep (st24 V0) main_v35 (by decide)).trans (st24_main_v35 V0)
theorem st25_main_v486 (V0 : Valuation τ sig (Elt F)) : st25 V0 (no_index (Proc.devRef .tc main_v486)) = val_main_v486 (F := F) (V0 (Proc.devRef .tc main_arg0)) (V0 (Proc.devRef .tc main_arg1)) (V0 (Proc.devRef .tc main_arg2)) (V0 (Proc.devRef .tc main_arg3)) :=
  (seg24_keep (st24 V0) main_v486 (by decide)).trans (st24_main_v486 V0)
theorem st25_main_v506 (V0 : Valuation τ sig (Elt F)) : st25 V0 (no_index (Proc.devRef .tc main_v506)) = val_main_v506 (F := F) (V0 (Proc.devRef .tc main_arg0)) (V0 (Proc.devRef .tc main_arg1)) (V0 (Proc.devRef .tc main_arg3)) :=
  (seg24_keep (st24 V0) main_v506 (by decide)).trans (st24_main_v506 V0)
theorem st25_main_v523 (V0 : Valuation τ sig (Elt F)) : st25 V0 (no_index (Proc.devRef .tc main_v523)) = val_main_v523 (F := F) (V0 (Proc.devRef .tc main_arg0)) (V0 (Proc.devRef .tc main_arg1)) (V0 (Proc.devRef .tc main_arg3)) :=
  (seg24_keep (st24 V0) main_v523 (by decide)).trans (st24_main_v523 V0)
theorem st25_main_v550 (V0 : Valuation τ sig (Elt F)) : st25 V0 (no_index (Proc.devRef .tc main_v550)) = val_main_v550 (F := F) :=
  seg24_main_v550 (st24 V0) V0 (st24_main_v35 V0) (st24_main_c_185 V0) (st24_main_v531 V0)
theorem st25_main_v551 (V0 : Valuation τ sig (Elt F)) : st25 V0 (no_index (Proc.devRef .tc main_v551)) = val_main_v551 (F := F) (V0 (Proc.devRef .tc main_arg0)) (V0 (Proc.devRef .tc main_arg1)) (V0 (Proc.devRef .tc main_arg3)) :=
  seg24_main_v551 (st24 V0) V0 (st24_main_v529 V0)
theorem st25_main_v552 (V0 : Valuation τ sig (Elt F)) : st25 V0 (no_index (Proc.devRef .tc main_v552)) = val_main_v552 (F := F) (V0 (Proc.devRef .tc main_arg0)) (V0 (Proc.devRef .tc main_arg1)) (V0 (Proc.devRef .tc main_arg3)) :=
  seg24_main_v552 (st24 V0) V0 (st24_main_v527 V0)
theorem st25_main_v553 (V0 : Valuation τ sig (Elt F)) : st25 V0 (no_index (Proc.devRef .tc main_v553)) = val_main_v553 (F := F) (V0 (Proc.devRef .tc main_arg0)) (V0 (Proc.devRef .tc main_arg1)) (V0 (Proc.devRef .tc main_arg3)) :=
  seg24_main_v553 (st24 V0) V0 (st24_main_v525 V0)

/-- The device's buffer contents after the first 26 segments. -/
def st26 (V0 : Valuation τ sig (Elt F)) : Valuation τ sig (Elt F) := after seg25 (st25 V0)
theorem st26_main_arg0 (V0 : Valuation τ sig (Elt F)) : st26 V0 (no_index (Proc.devRef .tc main_arg0)) = V0 (Proc.devRef .tc main_arg0) :=
  (seg25_keep (st25 V0) main_arg0 (by decide)).trans (st25_main_arg0 V0)
theorem st26_main_arg1 (V0 : Valuation τ sig (Elt F)) : st26 V0 (no_index (Proc.devRef .tc main_arg1)) = V0 (Proc.devRef .tc main_arg1) :=
  (seg25_keep (st25 V0) main_arg1 (by decide)).trans (st25_main_arg1 V0)
theorem st26_main_arg2 (V0 : Valuation τ sig (Elt F)) : st26 V0 (no_index (Proc.devRef .tc main_arg2)) = V0 (Proc.devRef .tc main_arg2) :=
  (seg25_keep (st25 V0) main_arg2 (by decide)).trans (st25_main_arg2 V0)
theorem st26_main_arg3 (V0 : Valuation τ sig (Elt F)) : st26 V0 (no_index (Proc.devRef .tc main_arg3)) = V0 (Proc.devRef .tc main_arg3) :=
  (seg25_keep (st25 V0) main_arg3 (by decide)).trans (st25_main_arg3 V0)
theorem st26_main_v1 (V0 : Valuation τ sig (Elt F)) : st26 V0 (no_index (Proc.devRef .tc main_v1)) = val_main_v1 (F := F) (V0 (Proc.devRef .tc main_arg0)) (V0 (Proc.devRef .tc main_arg1)) (V0 (Proc.devRef .tc main_arg3)) :=
  (seg25_keep (st25 V0) main_v1 (by decide)).trans (st25_main_v1 V0)
theorem st26_main_v13 (V0 : Valuation τ sig (Elt F)) : st26 V0 (no_index (Proc.devRef .tc main_v13)) = val_main_v13 (F := F) (V0 (Proc.devRef .tc main_arg0)) (V0 (Proc.devRef .tc main_arg1)) (V0 (Proc.devRef .tc main_arg3)) :=
  (seg25_keep (st25 V0) main_v13 (by decide)).trans (st25_main_v13 V0)
theorem st26_main_v21 (V0 : Valuation τ sig (Elt F)) : st26 V0 (no_index (Proc.devRef .tc main_v21)) = val_main_v21 (F := F) (V0 (Proc.devRef .tc main_arg0)) (V0 (Proc.devRef .tc main_arg1)) (V0 (Proc.devRef .tc main_arg3)) :=
  (seg25_keep (st25 V0) main_v21 (by decide)).trans (st25_main_v21 V0)
theorem st26_main_v29 (V0 : Valuation τ sig (Elt F)) : st26 V0 (no_index (Proc.devRef .tc main_v29)) = val_main_v29 (F := F) (V0 (Proc.devRef .tc main_arg0)) (V0 (Proc.devRef .tc main_arg1)) (V0 (Proc.devRef .tc main_arg3)) :=
  (seg25_keep (st25 V0) main_v29 (by decide)).trans (st25_main_v29 V0)
theorem st26_main_v30 (V0 : Valuation τ sig (Elt F)) : st26 V0 (no_index (Proc.devRef .tc main_v30)) = val_main_v30 (F := F) (V0 (Proc.devRef .tc main_arg0)) (V0 (Proc.devRef .tc main_arg1)) (V0 (Proc.devRef .tc main_arg3)) :=
  (seg25_keep (st25 V0) main_v30 (by decide)).trans (st25_main_v30 V0)
theorem st26_main_v31 (V0 : Valuation τ sig (Elt F)) : st26 V0 (no_index (Proc.devRef .tc main_v31)) = val_main_v31 (F := F) (V0 (Proc.devRef .tc main_arg0)) (V0 (Proc.devRef .tc main_arg1)) (V0 (Proc.devRef .tc main_arg3)) :=
  (seg25_keep (st25 V0) main_v31 (by decide)).trans (st25_main_v31 V0)
theorem st26_main_v32 (V0 : Valuation τ sig (Elt F)) : st26 V0 (no_index (Proc.devRef .tc main_v32)) = val_main_v32 (F := F) (V0 (Proc.devRef .tc main_arg0)) (V0 (Proc.devRef .tc main_arg1)) (V0 (Proc.devRef .tc main_arg3)) :=
  (seg25_keep (st25 V0) main_v32 (by decide)).trans (st25_main_v32 V0)
theorem st26_main_v35 (V0 : Valuation τ sig (Elt F)) : st26 V0 (no_index (Proc.devRef .tc main_v35)) = val_main_v35 (F := F) :=
  (seg25_keep (st25 V0) main_v35 (by decide)).trans (st25_main_v35 V0)
theorem st26_main_v486 (V0 : Valuation τ sig (Elt F)) : st26 V0 (no_index (Proc.devRef .tc main_v486)) = val_main_v486 (F := F) (V0 (Proc.devRef .tc main_arg0)) (V0 (Proc.devRef .tc main_arg1)) (V0 (Proc.devRef .tc main_arg2)) (V0 (Proc.devRef .tc main_arg3)) :=
  (seg25_keep (st25 V0) main_v486 (by decide)).trans (st25_main_v486 V0)
theorem st26_main_v506 (V0 : Valuation τ sig (Elt F)) : st26 V0 (no_index (Proc.devRef .tc main_v506)) = val_main_v506 (F := F) (V0 (Proc.devRef .tc main_arg0)) (V0 (Proc.devRef .tc main_arg1)) (V0 (Proc.devRef .tc main_arg3)) :=
  (seg25_keep (st25 V0) main_v506 (by decide)).trans (st25_main_v506 V0)
theorem st26_main_v523 (V0 : Valuation τ sig (Elt F)) : st26 V0 (no_index (Proc.devRef .tc main_v523)) = val_main_v523 (F := F) (V0 (Proc.devRef .tc main_arg0)) (V0 (Proc.devRef .tc main_arg1)) (V0 (Proc.devRef .tc main_arg3)) :=
  (seg25_keep (st25 V0) main_v523 (by decide)).trans (st25_main_v523 V0)
theorem st26_main_v554 (V0 : Valuation τ sig (Elt F)) : st26 V0 (no_index (Proc.devRef .tc main_v554)) = val_main_v554 (F := F) (V0 (Proc.devRef .tc main_arg0)) (V0 (Proc.devRef .tc main_arg1)) (V0 (Proc.devRef .tc main_arg3)) :=
  seg25_main_v554 (st25 V0) V0 (st25_main_v553 V0) (st25_main_v552 V0) (st25_main_v551 V0) (st25_main_v550 V0)

/-- The device's buffer contents after the first 27 segments. -/
def st27 (V0 : Valuation τ sig (Elt F)) : Valuation τ sig (Elt F) := after seg26 (st26 V0)
theorem st27_main_arg0 (V0 : Valuation τ sig (Elt F)) : st27 V0 (no_index (Proc.devRef .tc main_arg0)) = V0 (Proc.devRef .tc main_arg0) :=
  (seg26_keep (st26 V0) main_arg0 (by decide)).trans (st26_main_arg0 V0)
theorem st27_main_arg1 (V0 : Valuation τ sig (Elt F)) : st27 V0 (no_index (Proc.devRef .tc main_arg1)) = V0 (Proc.devRef .tc main_arg1) :=
  (seg26_keep (st26 V0) main_arg1 (by decide)).trans (st26_main_arg1 V0)
theorem st27_main_arg2 (V0 : Valuation τ sig (Elt F)) : st27 V0 (no_index (Proc.devRef .tc main_arg2)) = V0 (Proc.devRef .tc main_arg2) :=
  (seg26_keep (st26 V0) main_arg2 (by decide)).trans (st26_main_arg2 V0)
theorem st27_main_arg3 (V0 : Valuation τ sig (Elt F)) : st27 V0 (no_index (Proc.devRef .tc main_arg3)) = V0 (Proc.devRef .tc main_arg3) :=
  (seg26_keep (st26 V0) main_arg3 (by decide)).trans (st26_main_arg3 V0)
theorem st27_main_v1 (V0 : Valuation τ sig (Elt F)) : st27 V0 (no_index (Proc.devRef .tc main_v1)) = val_main_v1 (F := F) (V0 (Proc.devRef .tc main_arg0)) (V0 (Proc.devRef .tc main_arg1)) (V0 (Proc.devRef .tc main_arg3)) :=
  (seg26_keep (st26 V0) main_v1 (by decide)).trans (st26_main_v1 V0)
theorem st27_main_v35 (V0 : Valuation τ sig (Elt F)) : st27 V0 (no_index (Proc.devRef .tc main_v35)) = val_main_v35 (F := F) :=
  (seg26_keep (st26 V0) main_v35 (by decide)).trans (st26_main_v35 V0)
theorem st27_main_v561 (V0 : Valuation τ sig (Elt F)) : st27 V0 (no_index (Proc.devRef .tc main_v561)) = val_main_v561 (F := F) (V0 (Proc.devRef .tc main_arg0)) (V0 (Proc.devRef .tc main_arg1)) (V0 (Proc.devRef .tc main_arg2)) (V0 (Proc.devRef .tc main_arg3)) :=
  seg26_main_v561 (st26 V0) V0 (st26_main_v523 V0) (st26_main_v506 V0) (st26_main_v554 V0) (st26_main_arg2 V0) (st26_main_v486 V0)
theorem st27_main_v563 (V0 : Valuation τ sig (Elt F)) : st27 V0 (no_index (Proc.devRef .tc main_v563)) = val_main_v563 (F := F) (V0 (Proc.devRef .tc main_arg0)) (V0 (Proc.devRef .tc main_arg1)) (V0 (Proc.devRef .tc main_arg3)) :=
  seg26_main_v563 (st26 V0) V0 (st26_main_v30 V0)
theorem st27_main_v565 (V0 : Valuation τ sig (Elt F)) : st27 V0 (no_index (Proc.devRef .tc main_v565)) = val_main_v565 (F := F) (V0 (Proc.devRef .tc main_arg0)) (V0 (Proc.devRef .tc main_arg1)) (V0 (Proc.devRef .tc main_arg3)) :=
  seg26_main_v565 (st26 V0) V0 (st26_main_v31 V0)
theorem st27_main_v567 (V0 : Valuation τ sig (Elt F)) : st27 V0 (no_index (Proc.devRef .tc main_v567)) = val_main_v567 (F := F) (V0 (Proc.devRef .tc main_arg0)) (V0 (Proc.devRef .tc main_arg1)) (V0 (Proc.devRef .tc main_arg3)) :=
  seg26_main_v567 (st26 V0) V0 (st26_main_v32 V0)
theorem st27_main_v576 (V0 : Valuation τ sig (Elt F)) : st27 V0 (no_index (Proc.devRef .tc main_v576)) = val_main_v576 (F := F) (V0 (Proc.devRef .tc main_arg0)) (V0 (Proc.devRef .tc main_arg1)) (V0 (Proc.devRef .tc main_arg3)) :=
  seg26_main_v576 (st26 V0) V0 (st26_main_v31 V0) (st26_main_v21 V0) (st26_main_v30 V0) (st26_main_v13 V0)
theorem st27_main_v578 (V0 : Valuation τ sig (Elt F)) : st27 V0 (no_index (Proc.devRef .tc main_v578)) = val_main_v578 (F := F) (V0 (Proc.devRef .tc main_arg0)) (V0 (Proc.devRef .tc main_arg1)) (V0 (Proc.devRef .tc main_arg3)) :=
  seg26_main_v578 (st26 V0) V0 (st26_main_v32 V0) (st26_main_v29 V0)
theorem st27_main_v579 (V0 : Valuation τ sig (Elt F)) : st27 V0 (no_index (Proc.devRef .tc main_v579)) = val_main_v579 (F := F) :=
  seg26_main_v579 (st26 V0) V0

/-- The device's buffer contents after the first 28 segments. -/
def st28 (V0 : Valuation τ sig (Elt F)) : Valuation τ sig (Elt F) := after seg27 (st27 V0)
theorem st28_main_arg0 (V0 : Valuation τ sig (Elt F)) : st28 V0 (no_index (Proc.devRef .tc main_arg0)) = V0 (Proc.devRef .tc main_arg0) :=
  (seg27_keep (st27 V0) main_arg0 (by decide)).trans (st27_main_arg0 V0)
theorem st28_main_arg1 (V0 : Valuation τ sig (Elt F)) : st28 V0 (no_index (Proc.devRef .tc main_arg1)) = V0 (Proc.devRef .tc main_arg1) :=
  (seg27_keep (st27 V0) main_arg1 (by decide)).trans (st27_main_arg1 V0)
theorem st28_main_arg2 (V0 : Valuation τ sig (Elt F)) : st28 V0 (no_index (Proc.devRef .tc main_arg2)) = V0 (Proc.devRef .tc main_arg2) :=
  (seg27_keep (st27 V0) main_arg2 (by decide)).trans (st27_main_arg2 V0)
theorem st28_main_arg3 (V0 : Valuation τ sig (Elt F)) : st28 V0 (no_index (Proc.devRef .tc main_arg3)) = V0 (Proc.devRef .tc main_arg3) :=
  (seg27_keep (st27 V0) main_arg3 (by decide)).trans (st27_main_arg3 V0)
theorem st28_main_v1 (V0 : Valuation τ sig (Elt F)) : st28 V0 (no_index (Proc.devRef .tc main_v1)) = val_main_v1 (F := F) (V0 (Proc.devRef .tc main_arg0)) (V0 (Proc.devRef .tc main_arg1)) (V0 (Proc.devRef .tc main_arg3)) :=
  (seg27_keep (st27 V0) main_v1 (by decide)).trans (st27_main_v1 V0)
theorem st28_main_v561 (V0 : Valuation τ sig (Elt F)) : st28 V0 (no_index (Proc.devRef .tc main_v561)) = val_main_v561 (F := F) (V0 (Proc.devRef .tc main_arg0)) (V0 (Proc.devRef .tc main_arg1)) (V0 (Proc.devRef .tc main_arg2)) (V0 (Proc.devRef .tc main_arg3)) :=
  (seg27_keep (st27 V0) main_v561 (by decide)).trans (st27_main_v561 V0)
theorem st28_main_v581 (V0 : Valuation τ sig (Elt F)) : st28 V0 (no_index (Proc.devRef .tc main_v581)) = val_main_v581 (F := F) (V0 (Proc.devRef .tc main_arg0)) (V0 (Proc.devRef .tc main_arg1)) (V0 (Proc.devRef .tc main_arg3)) :=
  seg27_main_v581 (st27 V0) V0 (st27_main_v578 V0) (st27_main_v579 V0) (st27_main_v576 V0)
theorem st28_main_v598 (V0 : Valuation τ sig (Elt F)) : st28 V0 (no_index (Proc.devRef .tc main_v598)) = val_main_v598 (F := F) (V0 (Proc.devRef .tc main_arg0)) (V0 (Proc.devRef .tc main_arg1)) (V0 (Proc.devRef .tc main_arg3)) :=
  seg27_main_v598 (st27 V0) V0 (st27_main_v567 V0) (st27_main_v565 V0) (st27_main_v563 V0)
theorem st28_main_v600 (V0 : Valuation τ sig (Elt F)) : st28 V0 (no_index (Proc.devRef .tc main_v600)) = val_main_v600 (F := F) (V0 (Proc.devRef .tc main_arg0)) (V0 (Proc.devRef .tc main_arg1)) (V0 (Proc.devRef .tc main_arg3)) :=
  seg27_main_v600 (st27 V0) V0 (st27_main_v563 V0)
theorem st28_main_v609 (V0 : Valuation τ sig (Elt F)) : st28 V0 (no_index (Proc.devRef .tc main_v609)) = val_main_v609 (F := F) :=
  seg27_main_v609 (st27 V0) V0 (st27_main_v35 V0)
theorem st28_main_v614 (V0 : Valuation τ sig (Elt F)) : st28 V0 (no_index (Proc.devRef .tc main_v614)) = val_main_v614 (F := F) (V0 (Proc.devRef .tc main_arg0)) (V0 (Proc.devRef .tc main_arg1)) (V0 (Proc.devRef .tc main_arg3)) :=
  seg27_main_v614 (st27 V0) V0 (st27_main_v567 V0)
theorem st28_main_v619 (V0 : Valuation τ sig (Elt F)) : st28 V0 (no_index (Proc.devRef .tc main_v619)) = val_main_v619 (F := F) (V0 (Proc.devRef .tc main_arg0)) (V0 (Proc.devRef .tc main_arg1)) (V0 (Proc.devRef .tc main_arg3)) :=
  seg27_main_v619 (st27 V0) V0 (st27_main_v565 V0)
theorem st28_main_v620 (V0 : Valuation τ sig (Elt F)) : st28 V0 (no_index (Proc.devRef .tc main_v620)) = val_main_v620 (F := F) :=
  seg27_main_v620 (st27 V0) V0

/-- The device's buffer contents after the first 29 segments. -/
def st29 (V0 : Valuation τ sig (Elt F)) : Valuation τ sig (Elt F) := after seg28 (st28 V0)
theorem st29_main_arg0 (V0 : Valuation τ sig (Elt F)) : st29 V0 (no_index (Proc.devRef .tc main_arg0)) = V0 (Proc.devRef .tc main_arg0) :=
  (seg28_keep (st28 V0) main_arg0 (by decide)).trans (st28_main_arg0 V0)
theorem st29_main_arg1 (V0 : Valuation τ sig (Elt F)) : st29 V0 (no_index (Proc.devRef .tc main_arg1)) = V0 (Proc.devRef .tc main_arg1) :=
  (seg28_keep (st28 V0) main_arg1 (by decide)).trans (st28_main_arg1 V0)
theorem st29_main_arg2 (V0 : Valuation τ sig (Elt F)) : st29 V0 (no_index (Proc.devRef .tc main_arg2)) = V0 (Proc.devRef .tc main_arg2) :=
  (seg28_keep (st28 V0) main_arg2 (by decide)).trans (st28_main_arg2 V0)
theorem st29_main_arg3 (V0 : Valuation τ sig (Elt F)) : st29 V0 (no_index (Proc.devRef .tc main_arg3)) = V0 (Proc.devRef .tc main_arg3) :=
  (seg28_keep (st28 V0) main_arg3 (by decide)).trans (st28_main_arg3 V0)
theorem st29_main_v1 (V0 : Valuation τ sig (Elt F)) : st29 V0 (no_index (Proc.devRef .tc main_v1)) = val_main_v1 (F := F) (V0 (Proc.devRef .tc main_arg0)) (V0 (Proc.devRef .tc main_arg1)) (V0 (Proc.devRef .tc main_arg3)) :=
  (seg28_keep (st28 V0) main_v1 (by decide)).trans (st28_main_v1 V0)
theorem st29_main_v561 (V0 : Valuation τ sig (Elt F)) : st29 V0 (no_index (Proc.devRef .tc main_v561)) = val_main_v561 (F := F) (V0 (Proc.devRef .tc main_arg0)) (V0 (Proc.devRef .tc main_arg1)) (V0 (Proc.devRef .tc main_arg2)) (V0 (Proc.devRef .tc main_arg3)) :=
  (seg28_keep (st28 V0) main_v561 (by decide)).trans (st28_main_v561 V0)
theorem st29_main_v581 (V0 : Valuation τ sig (Elt F)) : st29 V0 (no_index (Proc.devRef .tc main_v581)) = val_main_v581 (F := F) (V0 (Proc.devRef .tc main_arg0)) (V0 (Proc.devRef .tc main_arg1)) (V0 (Proc.devRef .tc main_arg3)) :=
  (seg28_keep (st28 V0) main_v581 (by decide)).trans (st28_main_v581 V0)
theorem st29_main_v598 (V0 : Valuation τ sig (Elt F)) : st29 V0 (no_index (Proc.devRef .tc main_v598)) = val_main_v598 (F := F) (V0 (Proc.devRef .tc main_arg0)) (V0 (Proc.devRef .tc main_arg1)) (V0 (Proc.devRef .tc main_arg3)) :=
  (seg28_keep (st28 V0) main_v598 (by decide)).trans (st28_main_v598 V0)
theorem st29_main_v625 (V0 : Valuation τ sig (Elt F)) : st29 V0 (no_index (Proc.devRef .tc main_v625)) = val_main_v625 (F := F) :=
  seg28_main_v625 (st28 V0) V0 (st28_main_v609 V0)
theorem st29_main_v626 (V0 : Valuation τ sig (Elt F)) : st29 V0 (no_index (Proc.devRef .tc main_v626)) = val_main_v626 (F := F) (V0 (Proc.devRef .tc main_arg0)) (V0 (Proc.devRef .tc main_arg1)) (V0 (Proc.devRef .tc main_arg3)) :=
  seg28_main_v626 (st28 V0) V0 (st28_main_v614 V0)
theorem st29_main_v627 (V0 : Valuation τ sig (Elt F)) : st29 V0 (no_index (Proc.devRef .tc main_v627)) = val_main_v627 (F := F) (V0 (Proc.devRef .tc main_arg0)) (V0 (Proc.devRef .tc main_arg1)) (V0 (Proc.devRef .tc main_arg3)) :=
  seg28_main_v627 (st28 V0) V0 (st28_main_v619 V0)
theorem st29_main_v628 (V0 : Valuation τ sig (Elt F)) : st29 V0 (no_index (Proc.devRef .tc main_v628)) = val_main_v628 (F := F) (V0 (Proc.devRef .tc main_arg0)) (V0 (Proc.devRef .tc main_arg1)) (V0 (Proc.devRef .tc main_arg3)) :=
  seg28_main_v628 (st28 V0) V0 (st28_main_v600 V0) (st28_main_v620 V0)

/-- The device's buffer contents after the first 30 segments. -/
def st30 (V0 : Valuation τ sig (Elt F)) : Valuation τ sig (Elt F) := after seg29 (st29 V0)
theorem st30_main_arg0 (V0 : Valuation τ sig (Elt F)) : st30 V0 (no_index (Proc.devRef .tc main_arg0)) = V0 (Proc.devRef .tc main_arg0) :=
  (seg29_keep (st29 V0) main_arg0 (by decide)).trans (st29_main_arg0 V0)
theorem st30_main_arg1 (V0 : Valuation τ sig (Elt F)) : st30 V0 (no_index (Proc.devRef .tc main_arg1)) = V0 (Proc.devRef .tc main_arg1) :=
  (seg29_keep (st29 V0) main_arg1 (by decide)).trans (st29_main_arg1 V0)
theorem st30_main_arg2 (V0 : Valuation τ sig (Elt F)) : st30 V0 (no_index (Proc.devRef .tc main_arg2)) = V0 (Proc.devRef .tc main_arg2) :=
  (seg29_keep (st29 V0) main_arg2 (by decide)).trans (st29_main_arg2 V0)
theorem st30_main_arg3 (V0 : Valuation τ sig (Elt F)) : st30 V0 (no_index (Proc.devRef .tc main_arg3)) = V0 (Proc.devRef .tc main_arg3) :=
  (seg29_keep (st29 V0) main_arg3 (by decide)).trans (st29_main_arg3 V0)
theorem st30_main_v1 (V0 : Valuation τ sig (Elt F)) : st30 V0 (no_index (Proc.devRef .tc main_v1)) = val_main_v1 (F := F) (V0 (Proc.devRef .tc main_arg0)) (V0 (Proc.devRef .tc main_arg1)) (V0 (Proc.devRef .tc main_arg3)) :=
  (seg29_keep (st29 V0) main_v1 (by decide)).trans (st29_main_v1 V0)
theorem st30_main_v561 (V0 : Valuation τ sig (Elt F)) : st30 V0 (no_index (Proc.devRef .tc main_v561)) = val_main_v561 (F := F) (V0 (Proc.devRef .tc main_arg0)) (V0 (Proc.devRef .tc main_arg1)) (V0 (Proc.devRef .tc main_arg2)) (V0 (Proc.devRef .tc main_arg3)) :=
  (seg29_keep (st29 V0) main_v561 (by decide)).trans (st29_main_v561 V0)
theorem st30_main_v581 (V0 : Valuation τ sig (Elt F)) : st30 V0 (no_index (Proc.devRef .tc main_v581)) = val_main_v581 (F := F) (V0 (Proc.devRef .tc main_arg0)) (V0 (Proc.devRef .tc main_arg1)) (V0 (Proc.devRef .tc main_arg3)) :=
  (seg29_keep (st29 V0) main_v581 (by decide)).trans (st29_main_v581 V0)
theorem st30_main_v598 (V0 : Valuation τ sig (Elt F)) : st30 V0 (no_index (Proc.devRef .tc main_v598)) = val_main_v598 (F := F) (V0 (Proc.devRef .tc main_arg0)) (V0 (Proc.devRef .tc main_arg1)) (V0 (Proc.devRef .tc main_arg3)) :=
  (seg29_keep (st29 V0) main_v598 (by decide)).trans (st29_main_v598 V0)
theorem st30_main_v629 (V0 : Valuation τ sig (Elt F)) : st30 V0 (no_index (Proc.devRef .tc main_v629)) = val_main_v629 (F := F) (V0 (Proc.devRef .tc main_arg0)) (V0 (Proc.devRef .tc main_arg1)) (V0 (Proc.devRef .tc main_arg3)) :=
  seg29_main_v629 (st29 V0) V0 (st29_main_v628 V0) (st29_main_v627 V0) (st29_main_v626 V0) (st29_main_v625 V0)

/-- The device's buffer contents after the first 31 segments. -/
def st31 (V0 : Valuation τ sig (Elt F)) : Valuation τ sig (Elt F) := after seg30 (st30 V0)
theorem st31_main_arg0 (V0 : Valuation τ sig (Elt F)) : st31 V0 (no_index (Proc.devRef .tc main_arg0)) = V0 (Proc.devRef .tc main_arg0) :=
  (seg30_keep (st30 V0) main_arg0 (by decide)).trans (st30_main_arg0 V0)
theorem st31_main_arg1 (V0 : Valuation τ sig (Elt F)) : st31 V0 (no_index (Proc.devRef .tc main_arg1)) = V0 (Proc.devRef .tc main_arg1) :=
  (seg30_keep (st30 V0) main_arg1 (by decide)).trans (st30_main_arg1 V0)
theorem st31_main_arg2 (V0 : Valuation τ sig (Elt F)) : st31 V0 (no_index (Proc.devRef .tc main_arg2)) = V0 (Proc.devRef .tc main_arg2) :=
  (seg30_keep (st30 V0) main_arg2 (by decide)).trans (st30_main_arg2 V0)
theorem st31_main_arg3 (V0 : Valuation τ sig (Elt F)) : st31 V0 (no_index (Proc.devRef .tc main_arg3)) = V0 (Proc.devRef .tc main_arg3) :=
  (seg30_keep (st30 V0) main_arg3 (by decide)).trans (st30_main_arg3 V0)
theorem st31_main_v1 (V0 : Valuation τ sig (Elt F)) : st31 V0 (no_index (Proc.devRef .tc main_v1)) = val_main_v1 (F := F) (V0 (Proc.devRef .tc main_arg0)) (V0 (Proc.devRef .tc main_arg1)) (V0 (Proc.devRef .tc main_arg3)) :=
  (seg30_keep (st30 V0) main_v1 (by decide)).trans (st30_main_v1 V0)
theorem st31_main_v636 (V0 : Valuation τ sig (Elt F)) : st31 V0 (no_index (Proc.devRef .tc main_v636)) = val_main_v636 (F := F) (V0 (Proc.devRef .tc main_arg0)) (V0 (Proc.devRef .tc main_arg1)) (V0 (Proc.devRef .tc main_arg2)) (V0 (Proc.devRef .tc main_arg3)) :=
  seg30_main_v636 (st30 V0) V0 (st30_main_v598 V0) (st30_main_v581 V0) (st30_main_v629 V0) (st30_main_arg2 V0) (st30_main_v561 V0)

/-- The device's buffer contents after the first 32 segments. -/
def st32 (V0 : Valuation τ sig (Elt F)) : Valuation τ sig (Elt F) := after seg31 (st31 V0)
theorem st32_main_arg0 (V0 : Valuation τ sig (Elt F)) : st32 V0 (no_index (Proc.devRef .tc main_arg0)) = V0 (Proc.devRef .tc main_arg0) :=
  (seg31_keep (st31 V0) main_arg0 (by decide)).trans (st31_main_arg0 V0)
theorem st32_main_arg1 (V0 : Valuation τ sig (Elt F)) : st32 V0 (no_index (Proc.devRef .tc main_arg1)) = V0 (Proc.devRef .tc main_arg1) :=
  (seg31_keep (st31 V0) main_arg1 (by decide)).trans (st31_main_arg1 V0)
theorem st32_main_arg2 (V0 : Valuation τ sig (Elt F)) : st32 V0 (no_index (Proc.devRef .tc main_arg2)) = V0 (Proc.devRef .tc main_arg2) :=
  (seg31_keep (st31 V0) main_arg2 (by decide)).trans (st31_main_arg2 V0)
theorem st32_main_arg3 (V0 : Valuation τ sig (Elt F)) : st32 V0 (no_index (Proc.devRef .tc main_arg3)) = V0 (Proc.devRef .tc main_arg3) :=
  (seg31_keep (st31 V0) main_arg3 (by decide)).trans (st31_main_arg3 V0)
theorem st32_main_v1 (V0 : Valuation τ sig (Elt F)) : st32 V0 (no_index (Proc.devRef .tc main_v1)) = val_main_v1 (F := F) (V0 (Proc.devRef .tc main_arg0)) (V0 (Proc.devRef .tc main_arg1)) (V0 (Proc.devRef .tc main_arg3)) :=
  (seg31_keep (st31 V0) main_v1 (by decide)).trans (st31_main_v1 V0)
theorem st32_main_v637 (V0 : Valuation τ sig (Elt F)) : st32 V0 (no_index (Proc.devRef .tc main_v637)) = val_main_v637 (F := F) (V0 (Proc.devRef .tc main_arg0)) (V0 (Proc.devRef .tc main_arg1)) (V0 (Proc.devRef .tc main_arg2)) (V0 (Proc.devRef .tc main_arg3)) :=
  seg31_main_v637 (st31 V0) V0 (st31_main_v1 V0) (st31_main_v636 V0) (st31_main_arg0 V0)

set_option maxRecDepth 8192 in
/-- The whole list read through the segments. -/
theorem after_ops (V0 : Valuation τ sig (Elt F)) : after ops V0 = st32 V0 := by
  simp only [ops]
  rw [ops_part0_segs, ops_part1_segs, ops_part2_segs, ops_part3_segs, ops_part4_segs, ops_part5_segs, ops_part6_segs, ops_part7_segs, ops_part8_segs, ops_part9_segs, ops_part10_segs, ops_part11_segs, ops_part12_segs, ops_part13_segs, ops_part14_segs]
  simp only [after_append]
  rfl

end Cert.Proof.Ref

end
-- ==== Proof.Ref.Run.lean ====
/-
   The reference's run: every weakly fair execution of its @main terminates with each result at its stage of the
   arguments' launch contents, and the arguments unchanged.
-/
import proofs.«209143_g59700045415095_cont_9to1_m_37_38_alg».proof.Proof.Ref.Stages

noncomputable section

namespace Cert.Proof.Ref

open Cert.ReferenceIdeal Cert.ReferenceIdeal.Gen Idealize.ShloMosaic Idealize.ShloMosaic.TcCoe Idealize.SL.Sem Idealize.ShloMosaic.StableHlo Cert.ReferenceIdeal.Read

variable {F : FTy → Type} [FloatOps F]

/-- On every device, for any float values, from any memory with zero counters: every weakly fair execution of
    @main terminates with each result at its stage of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v637) = val_main_v637 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1) = val_main_v1 (F := F) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v637).trans (by simp only [after_ops]; exact st32_main_v637 (launchContents m c)),
      (h c main_v1).trans (by simp only [after_ops]; exact st32_main_v1 (launchContents m c)),
      (h c main_arg0).trans (by simp only [after_ops]; exact st32_main_arg0 (launchContents m c)),
      (h c main_arg1).trans (by simp only [after_ops]; exact st32_main_arg1 (launchContents m c)),
      (h c main_arg2).trans (by simp only [after_ops]; exact st32_main_arg2 (launchContents m c)),
      (h c main_arg3).trans (by simp only [after_ops]; exact st32_main_arg3 (launchContents m c))⟩)
    (run_seq scopedRefs_eq scopedSems_eq defs main (fun _ => ops) main_eq (fun _ => ops_sub) m ρ (fun _ => ops_fresh))

end Cert.Proof.Ref

end
-- ==== Proof.RefValue.Core.lean ====
/-
  The reference read at an index, up to the three grid coordinates of a point: its positions are
  the specification's, and each coordinate is the specification's coordinate of a position component.
-/
import proofs.«209143_g59700045415095_cont_9to1_m_37_38_alg».proof.Proof.RefRead
import proofs.«209143_g59700045415095_cont_9to1_m_37_38_alg».proof.Proof.Spec

noncomputable section

open scoped BigOperators

namespace Cert.Proof.RefValue

open Cert.ReferenceIdeal Cert.ReferenceIdeal.Gen Cert.ReferenceIdeal.Read Idealize.ShloMosaic Idealize.ShloMosaic.ValueIdx Cert.Proof

/-- The argument arrays' types at the ideal instance. -/
abbrev TX := (⟨S8x2048x128, .f32⟩ : BufTy).Contents (Elt Ideal)
abbrev TAdj := (⟨S8x2048x2048, .f32⟩ : BufTy).Contents (Elt Ideal)
abbrev TConv := (⟨S8x128x32x32x32, .f32⟩ : BufTy).Contents (Elt Ideal)
abbrev TW := (⟨S128x3, .f32⟩ : BufTy).Contents (Elt Ideal)

/-! ## The positions -/

/-- The second matrix product read at an index is the specification's position component. -/
theorem pos_eq (x0 : TX) (x1 : TAdj) (x3 : TW) (i : S8x2048x3.Idx) :
    val_main_v1 (F := Ideal) x0 x1 x3 i = Spec.posG x0 x1 x3 (i 0) (i 1) (i 2) := by
  rw [val_main_v1_apply]
  unfold Spec.posG
  refine Finset.sum_congr rfl fun f _ => ?_
  rw [val_main_v0_apply]
  have hW : ridx_main_v1 i f = ix2 f (i 2) := funext fun a => by
    match a with
    | ⟨0, _⟩ => rfl
    | ⟨1, _⟩ => rfl
  rw [hW]
  congr 1
  refine Finset.sum_congr rfl fun m _ => ?_
  have h1 : lidx_main_v0 (lidx_main_v1 i f) m = ix3 (i 0) (i 1) m := funext fun a => by
    match a with
    | ⟨0, _⟩ => rfl
    | ⟨1, _⟩ => rfl
    | ⟨2, _⟩ => rfl
  have h2 : ridx_main_v0 (lidx_main_v1 i f) m = ix3 (i 0) m f := funext fun a => by
    match a with
    | ⟨0, _⟩ => rfl
    | ⟨1, _⟩ => rfl
    | ⟨2, _⟩ => rfl
  rw [h1, h2]
  rfl

/-- The second result is the specification's. -/
theorem ref_out1 (x0 : TX) (x1 : TAdj) (x3 : TW) :
    val_main_v1 (F := Ideal) x0 x1 x3 = Spec.out1G x0 x1 x3 :=
  funext fun i => pos_eq x0 x1 x3 i

/-! ## The three grid coordinates -/

/-- The scaled and shifted positions read at an index. -/
theorem posg_eq (x0 : TX) (x1 : TAdj) (x3 : TW) (i : S8x2048x3.Idx) :
    val_main_v5 (F := Ideal) x0 x1 x3 i
      = Ideal.ofBits .f32 0x40000000#32 * Spec.posG x0 x1 x3 (i 0) (i 1) (i 2) - Ideal.ofBits .f32 0x3F800000#32 := by
  rw [val_main_v5_apply, val_main_v3_apply, val_main_v2_apply, val_main_cst_apply, val_main_v4_apply,
    val_main_cst_0_apply, pos_eq]
  rfl

/-- The coordinate along the last grid axis. -/
theorem coord0_eq (x0 : TX) (x1 : TAdj) (x3 : TW) (j : S8x2048.Idx) :
    val_main_v13 (F := Ideal) x0 x1 x3 j = Spec.coordG (Spec.posG x0 x1 x3 (j 0) (j 1) 0) := by
  have e : idx_main_v6 (idx_main_v7 j) = ix3 (n0 := 8) (n1 := 2048) (n2 := 3) (j 0) (j 1) (0 : Fin 3) := funext fun a => Fin.ext (by
    have h1 : (j 1).val < 2048 := (j 1).isLt
    match a with
    | ⟨0, _⟩ => show ((j 0).val * 2048 + (j 1).val) / 2048 = (j 0).val; omega
    | ⟨1, _⟩ => show ((j 0).val * 2048 + (j 1).val) / 1 % 2048 = (j 1).val; omega
    | ⟨2, _⟩ => rfl)
  rw [val_main_v13_apply, val_main_v11_apply, val_main_v9_apply, val_main_v7_apply, val_main_v6_apply, e, posg_eq,
    val_main_v8_apply, val_main_cst_1_apply, val_main_v10_apply, val_main_cst_2_apply, val_main_v12_apply,
    val_main_cst_3_apply]
  exact Spec.coordG_div _

/-- The coordinate along the middle grid axis. -/
theorem coord1_eq (x0 : TX) (x1 : TAdj) (x3 : TW) (j : S8x2048.Idx) :
    val_main_v21 (F := Ideal) x0 x1 x3 j = Spec.coordG (Spec.posG x0 x1 x3 (j 0) (j 1) 1) := by
  have e : idx_main_v14 (idx_main_v15 j) = ix3 (n0 := 8) (n1 := 2048) (n2 := 3) (j 0) (j 1) (1 : Fin 3) := funext fun a => Fin.ext (by
    have h1 : (j 1).val < 2048 := (j 1).isLt
    match a with
    | ⟨0, _⟩ => show ((j 0).val * 2048 + (j 1).val) / 2048 = (j 0).val; omega
    | ⟨1, _⟩ => show ((j 0).val * 2048 + (j 1).val) / 1 % 2048 = (j 1).val; omega
    | ⟨2, _⟩ => rfl)
  rw [val_main_v21_apply, val_main_v19_apply, val_main_v17_apply, val_main_v15_apply, val_main_v14_apply, e, posg_eq,
    val_main_v16_apply, val_main_cst_4_apply, val_main_v18_apply, val_main_cst_5_apply, val_main_v20_apply,
    val_main_cst_6_apply]
  exact Spec.coordG_div _

/-- The coordinate along the first grid axis. -/
theorem coord2_eq (x0 : TX) (x1 : TAdj) (x3 : TW) (j : S8x2048.Idx) :
    val_main_v29 (F := Ideal) x0 x1 x3 j = Spec.coordG (Spec.posG x0 x1 x3 (j 0) (j 1) 2) := by
  have e : idx_main_v22 (idx_main_v23 j) = ix3 (n0 := 8) (n1 := 2048) (n2 := 3) (j 0) (j 1) (2 : Fin 3) := funext fun a => Fin.ext (by
    have h1 : (j 1).val < 2048 := (j 1).isLt
    match a with
    | ⟨0, _⟩ => show ((j 0).val * 2048 + (j 1).val) / 2048 = (j 0).val; omega
    | ⟨1, _⟩ => show ((j 0).val * 2048 + (j 1).val) / 1 % 2048 = (j 1).val; omega
    | ⟨2, _⟩ => rfl)
  rw [val_main_v29_apply, val_main_v27_apply, val_main_v25_apply, val_main_v23_apply, val_main_v22_apply, e, posg_eq,
    val_main_v24_apply, val_main_cst_7_apply, val_main_v26_apply, val_main_cst_8_apply, val_main_v28_apply,
    val_main_cst_9_apply]
  exact Spec.coordG_div _

/-! ## A corner's weight from the stage operations -/

/-- The product of the three hat weights and of the six joined comparisons read as a number is the
    specification's weight. -/
theorem weight_core (p0 p1 p2 o0 o1 o2 : EReal) :
    Spec.hatG p0 o0 * Spec.hatG p1 o1 * Spec.hatG p2 o2 *
      (((((((Ideal.cmp .oge (Spec.lineG p0 o0) (Ideal.ofBits .f32 0x00000000#32)
        &&& Ideal.cmp .ole (Spec.lineG p0 o0) (Ideal.ofBits .f32 0x41F80000#32))
        &&& Ideal.cmp .oge (Spec.lineG p1 o1) (Ideal.ofBits .f32 0x00000000#32))
        &&& Ideal.cmp .ole (Spec.lineG p1 o1) (Ideal.ofBits .f32 0x41F80000#32))
        &&& Ideal.cmp .oge (Spec.lineG p2 o2) (Ideal.ofBits .f32 0x00000000#32))
        &&& Ideal.cmp .ole (Spec.lineG p2 o2) (Ideal.ofBits .f32 0x41F80000#32)).toNat : ℝ) : EReal)
      = Spec.weightG p0 p1 p2 o0 o1 o2 := by
  unfold Spec.weightG Spec.maskG
  congr 1
  apply Spec.mask_of_bit_nat
  simp only [Spec.and_one_iff, Spec.cmp_oge_one_iff, Spec.cmp_ole_one_iff, Spec.okG]
  tauto

/-! ## Index normalisation: a non-negative index is kept -/

/-- A 32-bit word below 2³¹ is not negative, so the select on "index below zero" keeps it. -/
theorem norm_index (v N : BitVec 32) (hv : v.toNat < 2 ^ 31) :
    Scalar.select (IntOp.cmpi .slt v 0#32) (IntOp.addi v N) v = v := by
  have h : IntOp.cmpi .slt v 0#32 = 0#1 := by
    unfold IntOp.cmpi
    have : v.slt 0#32 = false := by
      rw [BitVec.slt, BitVec.toInt_eq_toNat_cond, if_pos (by omega)]
      simp
    rw [this]; rfl
  rw [h, select_zero]

/-- Read signed and clamped to the last row, a word below the extent is itself. -/
theorem clamp_read (v : BitVec 32) (n : ℕ) (hn : n ≤ 2 ^ 31) (hv : v.toNat < n) :
    min v.toInt.toNat (n - 1) = v.toNat := by
  rw [BitVec.toInt_eq_toNat_cond, if_pos (by omega), Int.toNat_natCast]
  omega

/-- The cell word: the conversion of the clamped grid line. -/
theorem cell_word_lt (c : EReal) : (Ideal.fptosi 32 (Spec.clampG c)).toNat < 32 := Spec.cell_lt c

/-- The batch word: the batch number as a 32-bit word. -/
theorem batch_word_lt (b : Fin 8) : (BitVec.ofNat 32 b.val).toNat < 8 := by
  rw [BitVec.toNat_ofNat]
  have := b.isLt
  omega
theorem batch_word_val (b : Fin 8) : (BitVec.ofNat 32 b.val).toNat = b.val := by
  rw [BitVec.toNat_ofNat]
  have := b.isLt
  omega

/-! ## The gather read at an index -/

/-- The gather's dimension numbers: start indices (batch, z, y, x) on operand axes 0, 2, 3, 4, all
    collapsed; the channel axis 1 taken whole as the result's last axis. -/
abbrev GD := gather_S8x128x32x32x32_S8x2048x4_S8x2048x128_2_0234_n_n_0234_2_1128111

/-- Column c of the start indices of point (b, n), for result index (b, n, ch). -/
abbrev col (i : S8x2048x128.Idx) (c : Fin 4) : S8x2048x4.Idx :=
  fun a => match a with
    | ⟨0, _⟩ => ⟨(i 0).val, (i 0).isLt⟩
    | ⟨1, _⟩ => ⟨(i 1).val, (i 1).isLt⟩
    | ⟨2, _⟩ => c

/-- The one-column index (b, n, 0) of result index (b, n, ch). -/
abbrev col1 (i : S8x2048x128.Idx) : S8x2048x1.Idx :=
  fun a => match a with
    | ⟨0, _⟩ => ⟨(i 0).val, (i 0).isLt⟩
    | ⟨1, _⟩ => ⟨(i 1).val, (i 1).isLt⟩
    | ⟨2, _⟩ => ⟨0, Nat.one_pos⟩

theorem siIdx_col (i : S8x2048x128.Idx) (c : Fin 4) (hc : c.val < GD.startIndexMap.length) :
    GD.siIdx i ⟨c.val, hc⟩ = col i c := by
  funext b; refine Fin.ext ?_
  match b with
  | ⟨0, _⟩ => rfl
  | ⟨1, _⟩ => rfl
  | ⟨2, _⟩ => rfl

theorem gather_axis0 {w : Nat} (idx : IVec S8x2048x4 w) (i : S8x2048x128.Idx) :
    (GD.operandIdx i idx 0).val = min (idx (col i 0)).toInt.toNat 7 := by
  show GD.start i idx 0 + GD.batchCoord i 0 + GD.offCoord i 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S8x128x32x32x32.rank) ∈ GD.startIndexMap by decide)]
  rw [show (⟨List.idxOf (0 : Fin S8x128x32x32x32.rank) GD.startIndexMap, List.idxOf_lt_length_iff.2 (by decide)⟩ : Fin GD.startIndexMap.length) = ⟨(0 : Fin 4).val, by decide⟩ from rfl, siIdx_col]
  rfl

theorem gather_axis2 {w : Nat} (idx : IVec S8x2048x4 w) (i : S8x2048x128.Idx) :
    (GD.operandIdx i idx 2).val = min (idx (col i 1)).toInt.toNat 31 := by
  show GD.start i idx 2 + GD.batchCoord i 2 + GD.offCoord i 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin S8x128x32x32x32.rank) ∈ GD.startIndexMap by decide)]
  rw [show (⟨List.idxOf (2 : Fin S8x128x32x32x32.rank) GD.startIndexMap, List.idxOf_lt_length_iff.2 (by decide)⟩ : Fin GD.startIndexMap.length) = ⟨(1 : Fin 4).val, by decide⟩ from rfl, siIdx_col]
  rfl

theorem gather_axis3 {w : Nat} (idx : IVec S8x2048x4 w) (i : S8x2048x128.Idx) :
    (GD.operandIdx i idx 3).val = min (idx (col i 2)).toInt.toNat 31 := by
  show GD.start i idx 3 + GD.batchCoord i 3 + GD.offCoord i 3 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (3 : Fin S8x128x32x32x32.rank) ∈ GD.startIndexMap by decide)]
  rw [show (⟨List.idxOf (3 : Fin S8x128x32x32x32.rank) GD.startIndexMap, List.idxOf_lt_length_iff.2 (by decide)⟩ : Fin GD.startIndexMap.length) = ⟨(2 : Fin 4).val, by decide⟩ from rfl, siIdx_col]
  rfl

theorem gather_axis4 {w : Nat} (idx : IVec S8x2048x4 w) (i : S8x2048x128.Idx) :
    (GD.operandIdx i idx 4).val = min (idx (col i 3)).toInt.toNat 31 := by
  show GD.start i idx 4 + GD.batchCoord i 4 + GD.offCoord i 4 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (4 : Fin S8x128x32x32x32.rank) ∈ GD.startIndexMap by decide)]
  rw [show (⟨List.idxOf (4 : Fin S8x128x32x32x32.rank) GD.startIndexMap, List.idxOf_lt_length_iff.2 (by decide)⟩ : Fin GD.startIndexMap.length) = ⟨(3 : Fin 4).val, by decide⟩ from rfl, siIdx_col]
  rfl

theorem gather_axis1 {w : Nat} (idx : IVec S8x2048x4 w) (i : S8x2048x128.Idx) :
    (GD.operandIdx i idx 1).val = (i 2).val := by
  show GD.start i idx 1 + GD.batchCoord i 1 + GD.offCoord i 1 = _
  rw [GatherDims.batchCoord_eq_zero _ _ _ List.not_mem_nil]
  unfold GatherDims.start
  rw [dif_neg (show ¬(1 : Fin S8x128x32x32x32.rank) ∈ GD.startIndexMap by decide)]
  unfold GatherDims.offCoord
  rw [dif_pos (show (1 : Fin S8x128x32x32x32.rank) ∈ GD.sKept by decide)]
  simp only [Nat.zero_add]
  exact congrArg (fun a => (i a).val) (by decide)

/-- THE GATHER READ AT (b, n, ch): the operand at batch, channel ch, and the three cell numbers the
    start indices name, each read signed and clamped to its axis. -/
theorem gather_read (x2 : TConv) (idx : IVec S8x2048x4 32) (i : S8x2048x128.Idx) (b : Fin 8) (z y x : Fin 32)
    (hb : min (idx (col i 0)).toInt.toNat 7 = b.val) (hz : min (idx (col i 1)).toInt.toNat 31 = z.val)
    (hy : min (idx (col i 2)).toInt.toNat 31 = y.val) (hx : min (idx (col i 3)).toInt.toNat 31 = x.val) :
    Host.gather GD x2 idx i = x2 (ix5 (n0 := 8) (n1 := 128) (n2 := 32) (n3 := 32) (n4 := 32) b (i 2) z y x) := by
  unfold Host.gather
  congr 1
  funext a
  refine Fin.ext ?_
  match a with
  | ⟨0, _⟩ => exact (gather_axis0 idx i).trans hb
  | ⟨1, _⟩ => exact gather_axis1 idx i
  | ⟨2, _⟩ => exact (gather_axis2 idx i).trans hz
  | ⟨3, _⟩ => exact (gather_axis3 idx i).trans hy
  | ⟨4, _⟩ => exact (gather_axis4 idx i).trans hx

/-! ## The four joined index columns read at a column -/

section Concat
variable {α : Type} (u0 u1 u2 u3 : S8x2048x1.Idx → α) (i : S8x2048x128.Idx)

theorem concat4_read0 :
    concatenate S8x2048x4 2 [⟨S8x2048x1, u0⟩, ⟨S8x2048x1, u1⟩, ⟨S8x2048x1, u2⟩, ⟨S8x2048x1, u3⟩]
      concatenates_S8x2048x1_S8x2048x1_S8x2048x1_S8x2048x1_S8x2048x4_d2 (col i 0) = u0 (col1 i) :=
  concatenate_apply_piece 2 _ _ (col i 0) 0 (by show (0 : ℕ) < 4; decide) S8x2048x1 u0 rfl rfl 0 rfl (col1 i)
    (fun b hb => by
      match b with
      | ⟨0, _⟩ => rfl
      | ⟨1, _⟩ => rfl
      | ⟨2, _⟩ => exact absurd rfl hb) rfl

theorem concat4_read1 :
    concatenate S8x2048x4 2 [⟨S8x2048x1, u0⟩, ⟨S8x2048x1, u1⟩, ⟨S8x2048x1, u2⟩, ⟨S8x2048x1, u3⟩]
      concatenates_S8x2048x1_S8x2048x1_S8x2048x1_S8x2048x1_S8x2048x4_d2 (col i 1) = u1 (col1 i) :=
  concatenate_apply_piece 2 _ _ (col i 1) 1 (by show (1 : ℕ) < 4; decide) S8x2048x1 u1 rfl rfl 1 rfl (col1 i)
    (fun b hb => by
      match b with
      | ⟨0, _⟩ => rfl
      | ⟨1, _⟩ => rfl
      | ⟨2, _⟩ => exact absurd rfl hb) rfl

theorem concat4_read2 :
    concatenate S8x2048x4 2 [⟨S8x2048x1, u0⟩, ⟨S8x2048x1, u1⟩, ⟨S8x2048x1, u2⟩, ⟨S8x2048x1, u3⟩]
      concatenates_S8x2048x1_S8x2048x1_S8x2048x1_S8x2048x1_S8x2048x4_d2 (col i 2) = u2 (col1 i) :=
  concatenate_apply_piece 2 _ _ (col i 2) 2 (by show (2 : ℕ) < 4; decide) S8x2048x1 u2 rfl rfl 2 rfl (col1 i)
    (fun b hb => by
      match b with
      | ⟨0, _⟩ => rfl
      | ⟨1, _⟩ => rfl
      | ⟨2, _⟩ => exact absurd rfl hb) rfl

theorem concat4_read3 :
    concatenate S8x2048x4 2 [⟨S8x2048x1, u0⟩, ⟨S8x2048x1, u1⟩, ⟨S8x2048x1, u2⟩, ⟨S8x2048x1, u3⟩]
      concatenates_S8x2048x1_S8x2048x1_S8x2048x1_S8x2048x1_S8x2048x4_d2 (col i 3) = u3 (col1 i) :=
  concatenate_apply_piece 2 _ _ (col i 3) 3 (by show (3 : ℕ) < 4; decide) S8x2048x1 u3 rfl rfl 3 rfl (col1 i)
    (fun b hb => by
      match b with
      | ⟨0, _⟩ => rfl
      | ⟨1, _⟩ => rfl
      | ⟨2, _⟩ => exact absurd rfl hb) rfl

end Concat

/-! ## The index columns after normalisation -/

/-- A cell word is kept by the index normalisation. -/
theorem norm_cell (c : EReal) (N : BitVec 32) :
    Scalar.select (IntOp.cmpi .slt (Ideal.fptosi 32 (Spec.clampG c)) 0#32) (IntOp.addi (Ideal.fptosi 32 (Spec.clampG c)) N)
      (Ideal.fptosi 32 (Spec.clampG c)) = Ideal.fptosi 32 (Spec.clampG c) :=
  norm_index _ _ (lt_of_lt_of_le (Spec.cell_lt c) (by norm_num))

/-- A batch word is kept by the index normalisation. -/
theorem norm_batch (b : Fin 8) (N : BitVec 32) :
    Scalar.select (IntOp.cmpi .slt (BitVec.ofNat 32 b.val) 0#32) (IntOp.addi (BitVec.ofNat 32 b.val) N)
      (BitVec.ofNat 32 b.val) = BitVec.ofNat 32 b.val :=
  norm_index _ _ (lt_of_lt_of_le (batch_word_lt b) (by norm_num))

/-- Read signed and clamped to the last batch, the batch word is the batch number. -/
theorem batch_read (b : Fin 8) : min (BitVec.ofNat 32 b.val).toInt.toNat 7 = b.val :=
  (clamp_read _ 8 (by norm_num) (batch_word_lt b)).trans (batch_word_val b)

/-- Read signed and clamped to the last cell, a cell word is the cell number. -/
theorem cell_read (c : EReal) : min (Ideal.fptosi 32 (Spec.clampG c)).toInt.toNat 31 = (Spec.cellG c).val :=
  clamp_read _ 32 (by norm_num) (Spec.cell_lt c)

/-! ## A corner's offsets as the float words the stages add -/

theorem off_zero_word {k : Fin 8} {a : Fin 3} (h : Spec.bitG k a = 0) :
    Spec.offG k a = Ideal.ofBits .f32 0x00000000#32 := by
  rw [Spec.offG_of_zero h, Ideal.ofBits_zero_f32]
theorem off_one_word {k : Fin 8} {a : Fin 3} (h : Spec.bitG k a = 1) :
    Spec.offG k a = Ideal.ofBits .f32 0x3F800000#32 := by
  rw [Spec.offG_of_one h, Spec.ofBits_one, EReal.coe_one]

end Cert.Proof.RefValue

end
-- ==== Proof.RefValue.Corners.lean ====
/-
  The eight corners of the grid cell around a point, one after the other: for each, the corner's
  weight at a point, its four index columns (batch and three cell numbers) and its contribution to
  a channel, each the specification's.  The eight texts differ only in the names of the stages they
  read and in the corner's three offsets.
-/
import proofs.«209143_g59700045415095_cont_9to1_m_37_38_alg».proof.Proof.RefValue.Core

noncomputable section

open scoped BigOperators

namespace Cert.Proof.RefValue

open Cert.ReferenceIdeal Cert.ReferenceIdeal.Gen Cert.ReferenceIdeal.Read Idealize.ShloMosaic Idealize.ShloMosaic.ValueIdx Cert.Proof

/-! ### Corner 0 -/

theorem off_0_0 : Spec.offG 0 0 = Ideal.ofBits .f32 0x00000000#32 := off_zero_word (by decide)
theorem off_0_1 : Spec.offG 0 1 = Ideal.ofBits .f32 0x00000000#32 := off_zero_word (by decide)
theorem off_0_2 : Spec.offG 0 2 = Ideal.ofBits .f32 0x00000000#32 := off_zero_word (by decide)

/-- The corner's weight at a point. -/
theorem weight_0 (x0 : TX) (x1 : TAdj) (x3 : TW) (j : S8x2048.Idx) :
    val_main_v107 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 0 0) (Spec.offG 0 1) (Spec.offG 0 2) := by
  rw [off_0_0, off_0_1, off_0_2]
  simp only [val_main_v107_apply, val_main_v106_apply, val_main_v56_apply, val_main_v51_apply, val_main_v46_apply, val_main_v50_apply, val_main_v55_apply, val_main_v43_apply, val_main_v44_apply, val_main_cst_14_apply, val_main_v45_apply, val_main_v47_apply, val_main_v48_apply, val_main_cst_15_apply, val_main_v49_apply, val_main_v52_apply, val_main_v53_apply, val_main_cst_16_apply, val_main_v54_apply, val_main_v38_apply, val_main_v37_apply, val_main_cst_11_apply, val_main_v40_apply, val_main_v39_apply, val_main_cst_12_apply, val_main_v42_apply, val_main_v41_apply, val_main_cst_13_apply, val_main_v73_apply, val_main_v70_apply, val_main_v67_apply, val_main_v64_apply, val_main_v61_apply, val_main_v58_apply, val_main_v57_apply, val_main_cst_17_apply, val_main_v60_apply, val_main_v59_apply, val_main_cst_18_apply, val_main_v63_apply, val_main_v62_apply, val_main_cst_19_apply, val_main_v66_apply, val_main_v65_apply, val_main_cst_20_apply, val_main_v69_apply, val_main_v68_apply, val_main_cst_21_apply, val_main_v72_apply, val_main_v71_apply, val_main_cst_22_apply,
    val_main_v30_apply, val_main_v31_apply, val_main_v32_apply, coord0_eq, coord1_eq, coord2_eq]
  exact weight_core _ _ _ _ _ _

/-- The corner's batch column. -/
theorem colb_0 (j : S8x2048.Idx) : val_main_v84 (F := Ideal) j = BitVec.ofNat 32 (j 0).val := by
  simp only [val_main_v84_apply, val_main_v81_apply, val_main_v83_apply, val_main_v80_apply, val_main_c_28_apply, val_main_v82_apply, val_main_c_29_apply, val_main_v35_apply, val_main_v34_apply, val_main_v33_apply]
  exact norm_batch (j 0) _

/-- The corner's cell column along the first grid axis. -/
theorem colz_0 (x0 : TX) (x1 : TAdj) (x3 : TW) (j : S8x2048.Idx) :
    val_main_v89 (F := Ideal) x0 x1 x3 j
      = Ideal.fptosi 32 (Spec.clampG (Spec.lineG (Spec.posG x0 x1 x3 (j 0) (j 1) 2) (Spec.offG 0 2))) := by
  rw [off_0_2]
  simp only [val_main_v89_apply, val_main_v86_apply, val_main_v88_apply, val_main_v85_apply, val_main_c_30_apply, val_main_v87_apply, val_main_c_31_apply, val_main_v79_apply, val_main_v78_apply, val_main_call2_v4_apply, val_main_call2_v3_apply, val_main_c_27_apply, val_main_call2_v2_apply, val_main_call2_v1_apply, val_main_call2_v0_apply, val_main_c_26_apply, val_main_v42_apply, val_main_v41_apply, val_main_cst_13_apply, val_main_v32_apply, coord2_eq]
  exact norm_cell _ _

/-- The corner's cell column along the middle grid axis. -/
theorem coly_0 (x0 : TX) (x1 : TAdj) (x3 : TW) (j : S8x2048.Idx) :
    val_main_v94 (F := Ideal) x0 x1 x3 j
      = Ideal.fptosi 32 (Spec.clampG (Spec.lineG (Spec.posG x0 x1 x3 (j 0) (j 1) 1) (Spec.offG 0 1))) := by
  rw [off_0_1]
  simp only [val_main_v94_apply, val_main_v91_apply, val_main_v93_apply, val_main_v90_apply, val_main_c_32_apply, val_main_v92_apply, val_main_c_33_apply, val_main_v77_apply, val_main_v76_apply, val_main_call1_v4_apply, val_main_call1_v3_apply, val_main_c_25_apply, val_main_call1_v2_apply, val_main_call1_v1_apply, val_main_call1_v0_apply, val_main_c_24_apply, val_main_v40_apply, val_main_v39_apply, val_main_cst_12_apply, val_main_v31_apply, coord1_eq]
  exact norm_cell _ _

/-- The corner's cell column along the last grid axis. -/
theorem colx_0 (x0 : TX) (x1 : TAdj) (x3 : TW) (j : S8x2048.Idx) :
    val_main_v99 (F := Ideal) x0 x1 x3 j
      = Ideal.fptosi 32 (Spec.clampG (Spec.lineG (Spec.posG x0 x1 x3 (j 0) (j 1) 0) (Spec.offG 0 0))) := by
  rw [off_0_0]
  simp only [val_main_v99_apply, val_main_v96_apply, val_main_v98_apply, val_main_v95_apply, val_main_c_34_apply, val_main_v97_apply, val_main_c_35_apply, val_main_v75_apply, val_main_v74_apply, val_main_call0_v4_apply, val_main_call0_v3_apply, val_main_c_23_apply, val_main_call0_v2_apply, val_main_call0_v1_apply, val_main_call0_v0_apply, val_main_c_apply, val_main_v38_apply, val_main_v37_apply, val_main_cst_11_apply, val_main_v30_apply, coord0_eq]
  exact norm_cell _ _

/-- The corner's contribution to a channel of a point. -/
theorem term_0 (x0 : TX) (x1 : TAdj) (x2 : TConv) (x3 : TW) (i : S8x2048x128.Idx) :
    val_main_v110 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 0 0) (Spec.offG 0 1) (Spec.offG 0 2) := by
  rw [val_main_v110_apply, val_main_v109_apply, val_main_v108_apply, weight_0]
  have hg : val_main_v105 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 0 2)))
          (Spec.cellG (Spec.lineG (Spec.posG x0 x1 x3 (i 0) (i 1) 1) (Spec.offG 0 1)))
          (Spec.cellG (Spec.lineG (Spec.posG x0 x1 x3 (i 0) (i 1) 0) (Spec.offG 0 0)))) := by
    unfold val_main_v105
    refine gather_read x2 _ i (i 0) _ _ _ ?_ ?_ ?_ ?_
    · unfold val_main_v104
      rw [concat4_read0, val_main_v100_apply, colb_0]
      exact batch_read (i 0)
    · unfold val_main_v104
      rw [concat4_read1, val_main_v101_apply, colz_0]
      exact cell_read _
    · unfold val_main_v104
      rw [concat4_read2, val_main_v102_apply, coly_0]
      exact cell_read _
    · unfold val_main_v104
      rw [concat4_read3, val_main_v103_apply, colx_0]
      exact cell_read _
  rw [hg]
  rfl

/-! ### Corner 1 -/

theorem off_1_0 : Spec.offG 1 0 = Ideal.ofBits .f32 0x3F800000#32 := off_one_word (by decide)
theorem off_1_1 : Spec.offG 1 1 = Ideal.ofBits .f32 0x00000000#32 := off_zero_word (by decide)
theorem off_1_2 : Spec.offG 1 2 = Ideal.ofBits .f32 0x00000000#32 := off_zero_word (by decide)

/-- The corner's weight at a point. -/
theorem weight_1 (x0 : TX) (x1 : TAdj) (x3 : TW) (j : S8x2048.Idx) :
    val_main_v182 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 1 0) (Spec.offG 1 1) (Spec.offG 1 2) := by
  rw [off_1_0, off_1_1, off_1_2]
  simp only [val_main_v182_apply, val_main_v181_apply, val_main_v131_apply, val_main_v126_apply, val_main_v121_apply, val_main_v125_apply, val_main_v130_apply, val_main_v118_apply, val_main_v119_apply, val_main_cst_39_apply, val_main_v120_apply, val_main_v122_apply, val_main_v123_apply, val_main_cst_40_apply, val_main_v124_apply, val_main_v127_apply, val_main_v128_apply, val_main_cst_41_apply, val_main_v129_apply, val_main_v113_apply, val_main_v112_apply, val_main_cst_36_apply, val_main_v115_apply, val_main_v114_apply, val_main_cst_37_apply, val_main_v117_apply, val_main_v116_apply, val_main_cst_38_apply, val_main_v148_apply, val_main_v145_apply, val_main_v142_apply, val_main_v139_apply, val_main_v136_apply, val_main_v133_apply, val_main_v132_apply, val_main_cst_42_apply, val_main_v135_apply, val_main_v134_apply, val_main_cst_43_apply, val_main_v138_apply, val_main_v137_apply, val_main_cst_44_apply, val_main_v141_apply, val_main_v140_apply, val_main_cst_45_apply, val_main_v144_apply, val_main_v143_apply, val_main_cst_46_apply, val_main_v147_apply, val_main_v146_apply, val_main_cst_47_apply,
    val_main_v30_apply, val_main_v31_apply, val_main_v32_apply, coord0_eq, coord1_eq, coord2_eq]
  exact weight_core _ _ _ _ _ _

/-- The corner's batch column. -/
theorem colb_1 (j : S8x2048.Idx) : val_main_v159 (F := Ideal) j = BitVec.ofNat 32 (j 0).val := by
  simp only [val_main_v159_apply, val_main_v156_apply, val_main_v158_apply, val_main_v155_apply, val_main_c_54_apply, val_main_v157_apply, val_main_c_55_apply, val_main_v35_apply, val_main_v34_apply, val_main_v33_apply]
  exact norm_batch (j 0) _

/-- The corner's cell column along the first grid axis. -/
theorem colz_1 (x0 : TX) (x1 : TAdj) (x3 : TW) (j : S8x2048.Idx) :
    val_main_v164 (F := Ideal) x0 x1 x3 j
      = Ideal.fptosi 32 (Spec.clampG (Spec.lineG (Spec.posG x0 x1 x3 (j 0) (j 1) 2) (Spec.offG 1 2))) := by
  rw [off_1_2]
  simp only [val_main_v164_apply, val_main_v161_apply, val_main_v163_apply, val_main_v160_apply, val_main_c_56_apply, val_main_v162_apply, val_main_c_57_apply, val_main_v154_apply, val_main_v153_apply, val_main_call5_v4_apply, val_main_call5_v3_apply, val_main_c_53_apply, val_main_call5_v2_apply, val_main_call5_v1_apply, val_main_call5_v0_apply, val_main_c_52_apply, val_main_v117_apply, val_main_v116_apply, val_main_cst_38_apply, val_main_v32_apply, coord2_eq]
  exact norm_cell _ _

/-- The corner's cell column along the middle grid axis. -/
theorem coly_1 (x0 : TX) (x1 : TAdj) (x3 : TW) (j : S8x2048.Idx) :
    val_main_v169 (F := Ideal) x0 x1 x3 j
      = Ideal.fptosi 32 (Spec.clampG (Spec.lineG (Spec.posG x0 x1 x3 (j 0) (j 1) 1) (Spec.offG 1 1))) := by
  rw [off_1_1]
  simp only [val_main_v169_apply, val_main_v166_apply, val_main_v168_apply, val_main_v165_apply, val_main_c_58_apply, val_main_v167_apply, val_main_c_59_apply, val_main_v152_apply, val_main_v151_apply, val_main_call4_v4_apply, val_main_call4_v3_apply, val_main_c_51_apply, val_main_call4_v2_apply, val_main_call4_v1_apply, val_main_call4_v0_apply, val_main_c_50_apply, val_main_v115_apply, val_main_v114_apply, val_main_cst_37_apply, val_main_v31_apply, coord1_eq]
  exact norm_cell _ _

/-- The corner's cell column along the last grid axis. -/
theorem colx_1 (x0 : TX) (x1 : TAdj) (x3 : TW) (j : S8x2048.Idx) :
    val_main_v174 (F := Ideal) x0 x1 x3 j
      = Ideal.fptosi 32 (Spec.clampG (Spec.lineG (Spec.posG x0 x1 x3 (j 0) (j 1) 0) (Spec.offG 1 0))) := by
  rw [off_1_0]
  simp only [val_main_v174_apply, val_main_v171_apply, val_main_v173_apply, val_main_v170_apply, val_main_c_60_apply, val_main_v172_apply, val_main_c_61_apply, val_main_v150_apply, val_main_v149_apply, val_main_call3_v4_apply, val_main_call3_v3_apply, val_main_c_49_apply, val_main_call3_v2_apply, val_main_call3_v1_apply, val_main_call3_v0_apply, val_main_c_48_apply, val_main_v113_apply, val_main_v112_apply, val_main_cst_36_apply, val_main_v30_apply, coord0_eq]
  exact norm_cell _ _

/-- The corner's contribution to a channel of a point. -/
theorem term_1 (x0 : TX) (x1 : TAdj) (x2 : TConv) (x3 : TW) (i : S8x2048x128.Idx) :
    val_main_v185 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 1 0) (Spec.offG 1 1) (Spec.offG 1 2) := by
  rw [val_main_v185_apply, val_main_v184_apply, val_main_v183_apply, weight_1]
  have hg : val_main_v180 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 1 2)))
          (Spec.cellG (Spec.lineG (Spec.posG x0 x1 x3 (i 0) (i 1) 1) (Spec.offG 1 1)))
          (Spec.cellG (Spec.lineG (Spec.posG x0 x1 x3 (i 0) (i 1) 0) (Spec.offG 1 0)))) := by
    unfold val_main_v180
    refine gather_read x2 _ i (i 0) _ _ _ ?_ ?_ ?_ ?_
    · unfold val_main_v179
      rw [concat4_read0, val_main_v175_apply, colb_1]
      exact batch_read (i 0)
    · unfold val_main_v179
      rw [concat4_read1, val_main_v176_apply, colz_1]
      exact cell_read _
    · unfold val_main_v179
      rw [concat4_read2, val_main_v177_apply, coly_1]
      exact cell_read _
    · unfold val_main_v179
      rw [concat4_read3, val_main_v178_apply, colx_1]
      exact cell_read _
  rw [hg]
  rfl

/-! ### Corner 2 -/

theorem off_2_0 : Spec.offG 2 0 = Ideal.ofBits .f32 0x00000000#32 := off_zero_word (by decide)
theorem off_2_1 : Spec.offG 2 1 = Ideal.ofBits .f32 0x3F800000#32 := off_one_word (by decide)
theorem off_2_2 : Spec.offG 2 2 = Ideal.ofBits .f32 0x00000000#32 := off_zero_word (by decide)

/-- The corner's weight at a point. -/
theorem weight_2 (x0 : TX) (x1 : TAdj) (x3 : TW) (j : S8x2048.Idx) :
    val_main_v257 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 2 0) (Spec.offG 2 1) (Spec.offG 2 2) := by
  rw [off_2_0, off_2_1, off_2_2]
  simp only [val_main_v257_apply, val_main_v256_apply, val_main_v206_apply, val_main_v201_apply, val_main_v196_apply, val_main_v200_apply, val_main_v205_apply, val_main_v193_apply, val_main_v194_apply, val_main_cst_65_apply, val_main_v195_apply, val_main_v197_apply, val_main_v198_apply, val_main_cst_66_apply, val_main_v199_apply, val_main_v202_apply, val_main_v203_apply, val_main_cst_67_apply, val_main_v204_apply, val_main_v188_apply, val_main_v187_apply, val_main_cst_62_apply, val_main_v190_apply, val_main_v189_apply, val_main_cst_63_apply, val_main_v192_apply, val_main_v191_apply, val_main_cst_64_apply, val_main_v223_apply, val_main_v220_apply, val_main_v217_apply, val_main_v214_apply, val_main_v211_apply, val_main_v208_apply, val_main_v207_apply, val_main_cst_68_apply, val_main_v210_apply, val_main_v209_apply, val_main_cst_69_apply, val_main_v213_apply, val_main_v212_apply, val_main_cst_70_apply, val_main_v216_apply, val_main_v215_apply, val_main_cst_71_apply, val_main_v219_apply, val_main_v218_apply, val_main_cst_72_apply, val_main_v222_apply, val_main_v221_apply, val_main_cst_73_apply,
    val_main_v30_apply, val_main_v31_apply, val_main_v32_apply, coord0_eq, coord1_eq, coord2_eq]
  exact weight_core _ _ _ _ _ _

/-- The corner's batch column. -/
theorem colb_2 (j : S8x2048.Idx) : val_main_v234 (F := Ideal) j = BitVec.ofNat 32 (j 0).val := by
  simp only [val_main_v234_apply, val_main_v231_apply, val_main_v233_apply, val_main_v230_apply, val_main_c_80_apply, val_main_v232_apply, val_main_c_81_apply, val_main_v35_apply, val_main_v34_apply, val_main_v33_apply]
  exact norm_batch (j 0) _

/-- The corner's cell column along the first grid axis. -/
theorem colz_2 (x0 : TX) (x1 : TAdj) (x3 : TW) (j : S8x2048.Idx) :
    val_main_v239 (F := Ideal) x0 x1 x3 j
      = Ideal.fptosi 32 (Spec.clampG (Spec.lineG (Spec.posG x0 x1 x3 (j 0) (j 1) 2) (Spec.offG 2 2))) := by
  rw [off_2_2]
  simp only [val_main_v239_apply, val_main_v236_apply, val_main_v238_apply, val_main_v235_apply, val_main_c_82_apply, val_main_v237_apply, val_main_c_83_apply, val_main_v229_apply, val_main_v228_apply, val_main_call8_v4_apply, val_main_call8_v3_apply, val_main_c_79_apply, val_main_call8_v2_apply, val_main_call8_v1_apply, val_main_call8_v0_apply, val_main_c_78_apply, val_main_v192_apply, val_main_v191_apply, val_main_cst_64_apply, val_main_v32_apply, coord2_eq]
  exact norm_cell _ _

/-- The corner's cell column along the middle grid axis. -/
theorem coly_2 (x0 : TX) (x1 : TAdj) (x3 : TW) (j : S8x2048.Idx) :
    val_main_v244 (F := Ideal) x0 x1 x3 j
      = Ideal.fptosi 32 (Spec.clampG (Spec.lineG (Spec.posG x0 x1 x3 (j 0) (j 1) 1) (Spec.offG 2 1))) := by
  rw [off_2_1]
  simp only [val_main_v244_apply, val_main_v241_apply, val_main_v243_apply, val_main_v240_apply, val_main_c_84_apply, val_main_v242_apply, val_main_c_85_apply, val_main_v227_apply, val_main_v226_apply, val_main_call7_v4_apply, val_main_call7_v3_apply, val_main_c_77_apply, val_main_call7_v2_apply, val_main_call7_v1_apply, val_main_call7_v0_apply, val_main_c_76_apply, val_main_v190_apply, val_main_v189_apply, val_main_cst_63_apply, val_main_v31_apply, coord1_eq]
  exact norm_cell _ _

/-- The corner's cell column along the last grid axis. -/
theorem colx_2 (x0 : TX) (x1 : TAdj) (x3 : TW) (j : S8x2048.Idx) :
    val_main_v249 (F := Ideal) x0 x1 x3 j
      = Ideal.fptosi 32 (Spec.clampG (Spec.lineG (Spec.posG x0 x1 x3 (j 0) (j 1) 0) (Spec.offG 2 0))) := by
  rw [off_2_0]
  simp only [val_main_v249_apply, val_main_v246_apply, val_main_v248_apply, val_main_v245_apply, val_main_c_86_apply, val_main_v247_apply, val_main_c_87_apply, val_main_v225_apply, val_main_v224_apply, val_main_call6_v4_apply, val_main_call6_v3_apply, val_main_c_75_apply, val_main_call6_v2_apply, val_main_call6_v1_apply, val_main_call6_v0_apply, val_main_c_74_apply, val_main_v188_apply, val_main_v187_apply, val_main_cst_62_apply, val_main_v30_apply, coord0_eq]
  exact norm_cell _ _

/-- The corner's contribution to a channel of a point. -/
theorem term_2 (x0 : TX) (x1 : TAdj) (x2 : TConv) (x3 : TW) (i : S8x2048x128.Idx) :
    val_main_v260 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 2 0) (Spec.offG 2 1) (Spec.offG 2 2) := by
  rw [val_main_v260_apply, val_main_v259_apply, val_main_v258_apply, weight_2]
  have hg : val_main_v255 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 2 2)))
          (Spec.cellG (Spec.lineG (Spec.posG x0 x1 x3 (i 0) (i 1) 1) (Spec.offG 2 1)))
          (Spec.cellG (Spec.lineG (Spec.posG x0 x1 x3 (i 0) (i 1) 0) (Spec.offG 2 0)))) := by
    unfold val_main_v255
    refine gather_read x2 _ i (i 0) _ _ _ ?_ ?_ ?_ ?_
    · unfold val_main_v254
      rw [concat4_read0, val_main_v250_apply, colb_2]
      exact batch_read (i 0)
    · unfold val_main_v254
      rw [concat4_read1, val_main_v251_apply, colz_2]
      exact cell_read _
    · unfold val_main_v254
      rw [concat4_read2, val_main_v252_apply, coly_2]
      exact cell_read _
    · unfold val_main_v254
      rw [concat4_read3, val_main_v253_apply, colx_2]
      exact cell_read _
  rw [hg]
  rfl

/-! ### Corner 3 -/

theorem off_3_0 : Spec.offG 3 0 = Ideal.ofBits .f32 0x3F800000#32 := off_one_word (by decide)
theorem off_3_1 : Spec.offG 3 1 = Ideal.ofBits .f32 0x3F800000#32 := off_one_word (by decide)
theorem off_3_2 : Spec.offG 3 2 = Ideal.ofBits .f32 0x00000000#32 := off_zero_word (by decide)

/-- The corner's weight at a point. -/
theorem weight_3 (x0 : TX) (x1 : TAdj) (x3 : TW) (j : S8x2048.Idx) :
    val_main_v332 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 3 0) (Spec.offG 3 1) (Spec.offG 3 2) := by
  rw [off_3_0, off_3_1, off_3_2]
  simp only [val_main_v332_apply, val_main_v331_apply, val_main_v281_apply, val_main_v276_apply, val_main_v271_apply, val_main_v275_apply, val_main_v280_apply, val_main_v268_apply, val_main_v269_apply, val_main_cst_91_apply, val_main_v270_apply, val_main_v272_apply, val_main_v273_apply, val_main_cst_92_apply, val_main_v274_apply, val_main_v277_apply, val_main_v278_apply, val_main_cst_93_apply, val_main_v279_apply, val_main_v263_apply, val_main_v262_apply, val_main_cst_88_apply, val_main_v265_apply, val_main_v264_apply, val_main_cst_89_apply, val_main_v267_apply, val_main_v266_apply, val_main_cst_90_apply, val_main_v298_apply, val_main_v295_apply, val_main_v292_apply, val_main_v289_apply, val_main_v286_apply, val_main_v283_apply, val_main_v282_apply, val_main_cst_94_apply, val_main_v285_apply, val_main_v284_apply, val_main_cst_95_apply, val_main_v288_apply, val_main_v287_apply, val_main_cst_96_apply, val_main_v291_apply, val_main_v290_apply, val_main_cst_97_apply, val_main_v294_apply, val_main_v293_apply, val_main_cst_98_apply, val_main_v297_apply, val_main_v296_apply, val_main_cst_99_apply,
    val_main_v30_apply, val_main_v31_apply, val_main_v32_apply, coord0_eq, coord1_eq, coord2_eq]
  exact weight_core _ _ _ _ _ _

/-- The corner's batch column. -/
theorem colb_3 (j : S8x2048.Idx) : val_main_v309 (F := Ideal) j = BitVec.ofNat 32 (j 0).val := by
  simp only [val_main_v309_apply, val_main_v306_apply, val_main_v308_apply, val_main_v305_apply, val_main_c_106_apply, val_main_v307_apply, val_main_c_107_apply, val_main_v35_apply, val_main_v34_apply, val_main_v33_apply]
  exact norm_batch (j 0) _

/-- The corner's cell column along the first grid axis. -/
theorem colz_3 (x0 : TX) (x1 : TAdj) (x3 : TW) (j : S8x2048.Idx) :
    val_main_v314 (F := Ideal) x0 x1 x3 j
      = Ideal.fptosi 32 (Spec.clampG (Spec.lineG (Spec.posG x0 x1 x3 (j 0) (j 1) 2) (Spec.offG 3 2))) := by
  rw [off_3_2]
  simp only [val_main_v314_apply, val_main_v311_apply, val_main_v313_apply, val_main_v310_apply, val_main_c_108_apply, val_main_v312_apply, val_main_c_109_apply, val_main_v304_apply, val_main_v303_apply, val_main_call11_v4_apply, val_main_call11_v3_apply, val_main_c_105_apply, val_main_call11_v2_apply, val_main_call11_v1_apply, val_main_call11_v0_apply, val_main_c_104_apply, val_main_v267_apply, val_main_v266_apply, val_main_cst_90_apply, val_main_v32_apply, coord2_eq]
  exact norm_cell _ _

/-- The corner's cell column along the middle grid axis. -/
theorem coly_3 (x0 : TX) (x1 : TAdj) (x3 : TW) (j : S8x2048.Idx) :
    val_main_v319 (F := Ideal) x0 x1 x3 j
      = Ideal.fptosi 32 (Spec.clampG (Spec.lineG (Spec.posG x0 x1 x3 (j 0) (j 1) 1) (Spec.offG 3 1))) := by
  rw [off_3_1]
  simp only [val_main_v319_apply, val_main_v316_apply, val_main_v318_apply, val_main_v315_apply, val_main_c_110_apply, val_main_v317_apply, val_main_c_111_apply, val_main_v302_apply, val_main_v301_apply, val_main_call10_v4_apply, val_main_call10_v3_apply, val_main_c_103_apply, val_main_call10_v2_apply, val_main_call10_v1_apply, val_main_call10_v0_apply, val_main_c_102_apply, val_main_v265_apply, val_main_v264_apply, val_main_cst_89_apply, val_main_v31_apply, coord1_eq]
  exact norm_cell _ _

/-- The corner's cell column along the last grid axis. -/
theorem colx_3 (x0 : TX) (x1 : TAdj) (x3 : TW) (j : S8x2048.Idx) :
    val_main_v324 (F := Ideal) x0 x1 x3 j
      = Ideal.fptosi 32 (Spec.clampG (Spec.lineG (Spec.posG x0 x1 x3 (j 0) (j 1) 0) (Spec.offG 3 0))) := by
  rw [off_3_0]
  simp only [val_main_v324_apply, val_main_v321_apply, val_main_v323_apply, val_main_v320_apply, val_main_c_112_apply, val_main_v322_apply, val_main_c_113_apply, val_main_v300_apply, val_main_v299_apply, val_main_call9_v4_apply, val_main_call9_v3_apply, val_main_c_101_apply, val_main_call9_v2_apply, val_main_call9_v1_apply, val_main_call9_v0_apply, val_main_c_100_apply, val_main_v263_apply, val_main_v262_apply, val_main_cst_88_apply, val_main_v30_apply, coord0_eq]
  exact norm_cell _ _

/-- The corner's contribution to a channel of a point. -/
theorem term_3 (x0 : TX) (x1 : TAdj) (x2 : TConv) (x3 : TW) (i : S8x2048x128.Idx) :
    val_main_v335 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 3 0) (Spec.offG 3 1) (Spec.offG 3 2) := by
  rw [val_main_v335_apply, val_main_v334_apply, val_main_v333_apply, weight_3]
  have hg : val_main_v330 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 3 2)))
          (Spec.cellG (Spec.lineG (Spec.posG x0 x1 x3 (i 0) (i 1) 1) (Spec.offG 3 1)))
          (Spec.cellG (Spec.lineG (Spec.posG x0 x1 x3 (i 0) (i 1) 0) (Spec.offG 3 0)))) := by
    unfold val_main_v330
    refine gather_read x2 _ i (i 0) _ _ _ ?_ ?_ ?_ ?_
    · unfold val_main_v329
      rw [concat4_read0, val_main_v325_apply, colb_3]
      exact batch_read (i 0)
    · unfold val_main_v329
      rw [concat4_read1, val_main_v326_apply, colz_3]
      exact cell_read _
    · unfold val_main_v329
      rw [concat4_read2, val_main_v327_apply, coly_3]
      exact cell_read _
    · unfold val_main_v329
      rw [concat4_read3, val_main_v328_apply, colx_3]
      exact cell_read _
  rw [hg]
  rfl

/-! ### Corner 4 -/

theorem off_4_0 : Spec.offG 4 0 = Ideal.ofBits .f32 0x00000000#32 := off_zero_word (by decide)
theorem off_4_1 : Spec.offG 4 1 = Ideal.ofBits .f32 0x00000000#32 := off_zero_word (by decide)
theorem off_4_2 : Spec.offG 4 2 = Ideal.ofBits .f32 0x3F800000#32 := off_one_word (by decide)

/-- The corner's weight at a point. -/
theorem weight_4 (x0 : TX) (x1 : TAdj) (x3 : TW) (j : S8x2048.Idx) :
    val_main_v407 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 4 0) (Spec.offG 4 1) (Spec.offG 4 2) := by
  rw [off_4_0, off_4_1, off_4_2]
  simp only [val_main_v407_apply, val_main_v406_apply, val_main_v356_apply, val_main_v351_apply, val_main_v346_apply, val_main_v350_apply, val_main_v355_apply, val_main_v343_apply, val_main_v344_apply, val_main_cst_117_apply, val_main_v345_apply, val_main_v347_apply, val_main_v348_apply, val_main_cst_118_apply, val_main_v349_apply, val_main_v352_apply, val_main_v353_apply, val_main_cst_119_apply, val_main_v354_apply, val_main_v338_apply, val_main_v337_apply, val_main_cst_114_apply, val_main_v340_apply, val_main_v339_apply, val_main_cst_115_apply, val_main_v342_apply, val_main_v341_apply, val_main_cst_116_apply, val_main_v373_apply, val_main_v370_apply, val_main_v367_apply, val_main_v364_apply, val_main_v361_apply, val_main_v358_apply, val_main_v357_apply, val_main_cst_120_apply, val_main_v360_apply, val_main_v359_apply, val_main_cst_121_apply, val_main_v363_apply, val_main_v362_apply, val_main_cst_122_apply, val_main_v366_apply, val_main_v365_apply, val_main_cst_123_apply, val_main_v369_apply, val_main_v368_apply, val_main_cst_124_apply, val_main_v372_apply, val_main_v371_apply, val_main_cst_125_apply,
    val_main_v30_apply, val_main_v31_apply, val_main_v32_apply, coord0_eq, coord1_eq, coord2_eq]
  exact weight_core _ _ _ _ _ _

/-- The corner's batch column. -/
theorem colb_4 (j : S8x2048.Idx) : val_main_v384 (F := Ideal) j = BitVec.ofNat 32 (j 0).val := by
  simp only [val_main_v384_apply, val_main_v381_apply, val_main_v383_apply, val_main_v380_apply, val_main_c_132_apply, val_main_v382_apply, val_main_c_133_apply, val_main_v35_apply, val_main_v34_apply, val_main_v33_apply]
  exact norm_batch (j 0) _

/-- The corner's cell column along the first grid axis. -/
theorem colz_4 (x0 : TX) (x1 : TAdj) (x3 : TW) (j : S8x2048.Idx) :
    val_main_v389 (F := Ideal) x0 x1 x3 j
      = Ideal.fptosi 32 (Spec.clampG (Spec.lineG (Spec.posG x0 x1 x3 (j 0) (j 1) 2) (Spec.offG 4 2))) := by
  rw [off_4_2]
  simp only [val_main_v389_apply, val_main_v386_apply, val_main_v388_apply, val_main_v385_apply, val_main_c_134_apply, val_main_v387_apply, val_main_c_135_apply, val_main_v379_apply, val_main_v378_apply, val_main_call14_v4_apply, val_main_call14_v3_apply, val_main_c_131_apply, val_main_call14_v2_apply, val_main_call14_v1_apply, val_main_call14_v0_apply, val_main_c_130_apply, val_main_v342_apply, val_main_v341_apply, val_main_cst_116_apply, val_main_v32_apply, coord2_eq]
  exact norm_cell _ _

/-- The corner's cell column along the middle grid axis. -/
theorem coly_4 (x0 : TX) (x1 : TAdj) (x3 : TW) (j : S8x2048.Idx) :
    val_main_v394 (F := Ideal) x0 x1 x3 j
      = Ideal.fptosi 32 (Spec.clampG (Spec.lineG (Spec.posG x0 x1 x3 (j 0) (j 1) 1) (Spec.offG 4 1))) := by
  rw [off_4_1]
  simp only [val_main_v394_apply, val_main_v391_apply, val_main_v393_apply, val_main_v390_apply, val_main_c_136_apply, val_main_v392_apply, val_main_c_137_apply, val_main_v377_apply, val_main_v376_apply, val_main_call13_v4_apply, val_main_call13_v3_apply, val_main_c_129_apply, val_main_call13_v2_apply, val_main_call13_v1_apply, val_main_call13_v0_apply, val_main_c_128_apply, val_main_v340_apply, val_main_v339_apply, val_main_cst_115_apply, val_main_v31_apply, coord1_eq]
  exact norm_cell _ _

/-- The corner's cell column along the last grid axis. -/
theorem colx_4 (x0 : TX) (x1 : TAdj) (x3 : TW) (j : S8x2048.Idx) :
    val_main_v399 (F := Ideal) x0 x1 x3 j
      = Ideal.fptosi 32 (Spec.clampG (Spec.lineG (Spec.posG x0 x1 x3 (j 0) (j 1) 0) (Spec.offG 4 0))) := by
  rw [off_4_0]
  simp only [val_main_v399_apply, val_main_v396_apply, val_main_v398_apply, val_main_v395_apply, val_main_c_138_apply, val_main_v397_apply, val_main_c_139_apply, val_main_v375_apply, val_main_v374_apply, val_main_call12_v4_apply, val_main_call12_v3_apply, val_main_c_127_apply, val_main_call12_v2_apply, val_main_call12_v1_apply, val_main_call12_v0_apply, val_main_c_126_apply, val_main_v338_apply, val_main_v337_apply, val_main_cst_114_apply, val_main_v30_apply, coord0_eq]
  exact norm_cell _ _

/-- The corner's contribution to a channel of a point. -/
theorem term_4 (x0 : TX) (x1 : TAdj) (x2 : TConv) (x3 : TW) (i : S8x2048x128.Idx) :
    val_main_v410 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 4 0) (Spec.offG 4 1) (Spec.offG 4 2) := by
  rw [val_main_v410_apply, val_main_v409_apply, val_main_v408_apply, weight_4]
  have hg : val_main_v405 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 4 2)))
          (Spec.cellG (Spec.lineG (Spec.posG x0 x1 x3 (i 0) (i 1) 1) (Spec.offG 4 1)))
          (Spec.cellG (Spec.lineG (Spec.posG x0 x1 x3 (i 0) (i 1) 0) (Spec.offG 4 0)))) := by
    unfold val_main_v405
    refine gather_read x2 _ i (i 0) _ _ _ ?_ ?_ ?_ ?_
    · unfold val_main_v404
      rw [concat4_read0, val_main_v400_apply, colb_4]
      exact batch_read (i 0)
    · unfold val_main_v404
      rw [concat4_read1, val_main_v401_apply, colz_4]
      exact cell_read _
    · unfold val_main_v404
      rw [concat4_read2, val_main_v402_apply, coly_4]
      exact cell_read _
    · unfold val_main_v404
      rw [concat4_read3, val_main_v403_apply, colx_4]
      exact cell_read _
  rw [hg]
  rfl

/-! ### Corner 5 -/

theorem off_5_0 : Spec.offG 5 0 = Ideal.ofBits .f32 0x3F800000#32 := off_one_word (by decide)
theorem off_5_1 : Spec.offG 5 1 = Ideal.ofBits .f32 0x00000000#32 := off_zero_word (by decide)
theorem off_5_2 : Spec.offG 5 2 = Ideal.ofBits .f32 0x3F800000#32 := off_one_word (by decide)

/-- The corner's weight at a point. -/
theorem weight_5 (x0 : TX) (x1 : TAdj) (x3 : TW) (j : S8x2048.Idx) :
    val_main_v482 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 5 0) (Spec.offG 5 1) (Spec.offG 5 2) := by
  rw [off_5_0, off_5_1, off_5_2]
  simp only [val_main_v482_apply, val_main_v481_apply, val_main_v431_apply, val_main_v426_apply, val_main_v421_apply, val_main_v425_apply, val_main_v430_apply, val_main_v418_apply, val_main_v419_apply, val_main_cst_143_apply, val_main_v420_apply, val_main_v422_apply, val_main_v423_apply, val_main_cst_144_apply, val_main_v424_apply, val_main_v427_apply, val_main_v428_apply, val_main_cst_145_apply, val_main_v429_apply, val_main_v413_apply, val_main_v412_apply, val_main_cst_140_apply, val_main_v415_apply, val_main_v414_apply, val_main_cst_141_apply, val_main_v417_apply, val_main_v416_apply, val_main_cst_142_apply, val_main_v448_apply, val_main_v445_apply, val_main_v442_apply, val_main_v439_apply, val_main_v436_apply, val_main_v433_apply, val_main_v432_apply, val_main_cst_146_apply, val_main_v435_apply, val_main_v434_apply, val_main_cst_147_apply, val_main_v438_apply, val_main_v437_apply, val_main_cst_148_apply, val_main_v441_apply, val_main_v440_apply, val_main_cst_149_apply, val_main_v444_apply, val_main_v443_apply, val_main_cst_150_apply, val_main_v447_apply, val_main_v446_apply, val_main_cst_151_apply,
    val_main_v30_apply, val_main_v31_apply, val_main_v32_apply, coord0_eq, coord1_eq, coord2_eq]
  exact weight_core _ _ _ _ _ _

/-- The corner's batch column. -/
theorem colb_5 (j : S8x2048.Idx) : val_main_v459 (F := Ideal) j = BitVec.ofNat 32 (j 0).val := by
  simp only [val_main_v459_apply, val_main_v456_apply, val_main_v458_apply, val_main_v455_apply, val_main_c_158_apply, val_main_v457_apply, val_main_c_159_apply, val_main_v35_apply, val_main_v34_apply, val_main_v33_apply]
  exact norm_batch (j 0) _

/-- The corner's cell column along the first grid axis. -/
theorem colz_5 (x0 : TX) (x1 : TAdj) (x3 : TW) (j : S8x2048.Idx) :
    val_main_v464 (F := Ideal) x0 x1 x3 j
      = Ideal.fptosi 32 (Spec.clampG (Spec.lineG (Spec.posG x0 x1 x3 (j 0) (j 1) 2) (Spec.offG 5 2))) := by
  rw [off_5_2]
  simp only [val_main_v464_apply, val_main_v461_apply, val_main_v463_apply, val_main_v460_apply, val_main_c_160_apply, val_main_v462_apply, val_main_c_161_apply, val_main_v454_apply, val_main_v453_apply, val_main_call17_v4_apply, val_main_call17_v3_apply, val_main_c_157_apply, val_main_call17_v2_apply, val_main_call17_v1_apply, val_main_call17_v0_apply, val_main_c_156_apply, val_main_v417_apply, val_main_v416_apply, val_main_cst_142_apply, val_main_v32_apply, coord2_eq]
  exact norm_cell _ _

/-- The corner's cell column along the middle grid axis. -/
theorem coly_5 (x0 : TX) (x1 : TAdj) (x3 : TW) (j : S8x2048.Idx) :
    val_main_v469 (F := Ideal) x0 x1 x3 j
      = Ideal.fptosi 32 (Spec.clampG (Spec.lineG (Spec.posG x0 x1 x3 (j 0) (j 1) 1) (Spec.offG 5 1))) := by
  rw [off_5_1]
  simp only [val_main_v469_apply, val_main_v466_apply, val_main_v468_apply, val_main_v465_apply, val_main_c_162_apply, val_main_v467_apply, val_main_c_163_apply, val_main_v452_apply, val_main_v451_apply, val_main_call16_v4_apply, val_main_call16_v3_apply, val_main_c_155_apply, val_main_call16_v2_apply, val_main_call16_v1_apply, val_main_call16_v0_apply, val_main_c_154_apply, val_main_v415_apply, val_main_v414_apply, val_main_cst_141_apply, val_main_v31_apply, coord1_eq]
  exact norm_cell _ _

/-- The corner's cell column along the last grid axis. -/
theorem colx_5 (x0 : TX) (x1 : TAdj) (x3 : TW) (j : S8x2048.Idx) :
    val_main_v474 (F := Ideal) x0 x1 x3 j
      = Ideal.fptosi 32 (Spec.clampG (Spec.lineG (Spec.posG x0 x1 x3 (j 0) (j 1) 0) (Spec.offG 5 0))) := by
  rw [off_5_0]
  simp only [val_main_v474_apply, val_main_v471_apply, val_main_v473_apply, val_main_v470_apply, val_main_c_164_apply, val_main_v472_apply, val_main_c_165_apply, val_main_v450_apply, val_main_v449_apply, val_main_call15_v4_apply, val_main_call15_v3_apply, val_main_c_153_apply, val_main_call15_v2_apply, val_main_call15_v1_apply, val_main_call15_v0_apply, val_main_c_152_apply, val_main_v413_apply, val_main_v412_apply, val_main_cst_140_apply, val_main_v30_apply, coord0_eq]
  exact norm_cell _ _

/-- The corner's contribution to a channel of a point. -/
theorem term_5 (x0 : TX) (x1 : TAdj) (x2 : TConv) (x3 : TW) (i : S8x2048x128.Idx) :
    val_main_v485 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 5 0) (Spec.offG 5 1) (Spec.offG 5 2) := by
  rw [val_main_v485_apply, val_main_v484_apply, val_main_v483_apply, weight_5]
  have hg : val_main_v480 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 5 2)))
          (Spec.cellG (Spec.lineG (Spec.posG x0 x1 x3 (i 0) (i 1) 1) (Spec.offG 5 1)))
          (Spec.cellG (Spec.lineG (Spec.posG x0 x1 x3 (i 0) (i 1) 0) (Spec.offG 5 0)))) := by
    unfold val_main_v480
    refine gather_read x2 _ i (i 0) _ _ _ ?_ ?_ ?_ ?_
    · unfold val_main_v479
      rw [concat4_read0, val_main_v475_apply, colb_5]
      exact batch_read (i 0)
    · unfold val_main_v479
      rw [concat4_read1, val_main_v476_apply, colz_5]
      exact cell_read _
    · unfold val_main_v479
      rw [concat4_read2, val_main_v477_apply, coly_5]
      exact cell_read _
    · unfold val_main_v479
      rw [concat4_read3, val_main_v478_apply, colx_5]
      exact cell_read _
  rw [hg]
  rfl

/-! ### Corner 6 -/

theorem off_6_0 : Spec.offG 6 0 = Ideal.ofBits .f32 0x00000000#32 := off_zero_word (by decide)
theorem off_6_1 : Spec.offG 6 1 = Ideal.ofBits .f32 0x3F800000#32 := off_one_word (by decide)
theorem off_6_2 : Spec.offG 6 2 = Ideal.ofBits .f32 0x3F800000#32 := off_one_word (by decide)

/-- The corner's weight at a point. -/
theorem weight_6 (x0 : TX) (x1 : TAdj) (x3 : TW) (j : S8x2048.Idx) :
    val_main_v557 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 6 0) (Spec.offG 6 1) (Spec.offG 6 2) := by
  rw [off_6_0, off_6_1, off_6_2]
  simp only [val_main_v557_apply, val_main_v556_apply, val_main_v506_apply, val_main_v501_apply, val_main_v496_apply, val_main_v500_apply, val_main_v505_apply, val_main_v493_apply, val_main_v494_apply, val_main_cst_169_apply, val_main_v495_apply, val_main_v497_apply, val_main_v498_apply, val_main_cst_170_apply, val_main_v499_apply, val_main_v502_apply, val_main_v503_apply, val_main_cst_171_apply, val_main_v504_apply, val_main_v488_apply, val_main_v487_apply, val_main_cst_166_apply, val_main_v490_apply, val_main_v489_apply, val_main_cst_167_apply, val_main_v492_apply, val_main_v491_apply, val_main_cst_168_apply, val_main_v523_apply, val_main_v520_apply, val_main_v517_apply, val_main_v514_apply, val_main_v511_apply, val_main_v508_apply, val_main_v507_apply, val_main_cst_172_apply, val_main_v510_apply, val_main_v509_apply, val_main_cst_173_apply, val_main_v513_apply, val_main_v512_apply, val_main_cst_174_apply, val_main_v516_apply, val_main_v515_apply, val_main_cst_175_apply, val_main_v519_apply, val_main_v518_apply, val_main_cst_176_apply, val_main_v522_apply, val_main_v521_apply, val_main_cst_177_apply,
    val_main_v30_apply, val_main_v31_apply, val_main_v32_apply, coord0_eq, coord1_eq, coord2_eq]
  exact weight_core _ _ _ _ _ _

/-- The corner's batch column. -/
theorem colb_6 (j : S8x2048.Idx) : val_main_v534 (F := Ideal) j = BitVec.ofNat 32 (j 0).val := by
  simp only [val_main_v534_apply, val_main_v531_apply, val_main_v533_apply, val_main_v530_apply, val_main_c_184_apply, val_main_v532_apply, val_main_c_185_apply, val_main_v35_apply, val_main_v34_apply, val_main_v33_apply]
  exact norm_batch (j 0) _

/-- The corner's cell column along the first grid axis. -/
theorem colz_6 (x0 : TX) (x1 : TAdj) (x3 : TW) (j : S8x2048.Idx) :
    val_main_v539 (F := Ideal) x0 x1 x3 j
      = Ideal.fptosi 32 (Spec.clampG (Spec.lineG (Spec.posG x0 x1 x3 (j 0) (j 1) 2) (Spec.offG 6 2))) := by
  rw [off_6_2]
  simp only [val_main_v539_apply, val_main_v536_apply, val_main_v538_apply, val_main_v535_apply, val_main_c_186_apply, val_main_v537_apply, val_main_c_187_apply, val_main_v529_apply, val_main_v528_apply, val_main_call20_v4_apply, val_main_call20_v3_apply, val_main_c_183_apply, val_main_call20_v2_apply, val_main_call20_v1_apply, val_main_call20_v0_apply, val_main_c_182_apply, val_main_v492_apply, val_main_v491_apply, val_main_cst_168_apply, val_main_v32_apply, coord2_eq]
  exact norm_cell _ _

/-- The corner's cell column along the middle grid axis. -/
theorem coly_6 (x0 : TX) (x1 : TAdj) (x3 : TW) (j : S8x2048.Idx) :
    val_main_v544 (F := Ideal) x0 x1 x3 j
      = Ideal.fptosi 32 (Spec.clampG (Spec.lineG (Spec.posG x0 x1 x3 (j 0) (j 1) 1) (Spec.offG 6 1))) := by
  rw [off_6_1]
  simp only [val_main_v544_apply, val_main_v541_apply, val_main_v543_apply, val_main_v540_apply, val_main_c_188_apply, val_main_v542_apply, val_main_c_189_apply, val_main_v527_apply, val_main_v526_apply, val_main_call19_v4_apply, val_main_call19_v3_apply, val_main_c_181_apply, val_main_call19_v2_apply, val_main_call19_v1_apply, val_main_call19_v0_apply, val_main_c_180_apply, val_main_v490_apply, val_main_v489_apply, val_main_cst_167_apply, val_main_v31_apply, coord1_eq]
  exact norm_cell _ _

/-- The corner's cell column along the last grid axis. -/
theorem colx_6 (x0 : TX) (x1 : TAdj) (x3 : TW) (j : S8x2048.Idx) :
    val_main_v549 (F := Ideal) x0 x1 x3 j
      = Ideal.fptosi 32 (Spec.clampG (Spec.lineG (Spec.posG x0 x1 x3 (j 0) (j 1) 0) (Spec.offG 6 0))) := by
  rw [off_6_0]
  simp only [val_main_v549_apply, val_main_v546_apply, val_main_v548_apply, val_main_v545_apply, val_main_c_190_apply, val_main_v547_apply, val_main_c_191_apply, val_main_v525_apply, val_main_v524_apply, val_main_call18_v4_apply, val_main_call18_v3_apply, val_main_c_179_apply, val_main_call18_v2_apply, val_main_call18_v1_apply, val_main_call18_v0_apply, val_main_c_178_apply, val_main_v488_apply, val_main_v487_apply, val_main_cst_166_apply, val_main_v30_apply, coord0_eq]
  exact norm_cell _ _

/-- The corner's contribution to a channel of a point. -/
theorem term_6 (x0 : TX) (x1 : TAdj) (x2 : TConv) (x3 : TW) (i : S8x2048x128.Idx) :
    val_main_v560 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 6 0) (Spec.offG 6 1) (Spec.offG 6 2) := by
  rw [val_main_v560_apply, val_main_v559_apply, val_main_v558_apply, weight_6]
  have hg : val_main_v555 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 6 2)))
          (Spec.cellG (Spec.lineG (Spec.posG x0 x1 x3 (i 0) (i 1) 1) (Spec.offG 6 1)))
          (Spec.cellG (Spec.lineG (Spec.posG x0 x1 x3 (i 0) (i 1) 0) (Spec.offG 6 0)))) := by
    unfold val_main_v555
    refine gather_read x2 _ i (i 0) _ _ _ ?_ ?_ ?_ ?_
    · unfold val_main_v554
      rw [concat4_read0, val_main_v550_apply, colb_6]
      exact batch_read (i 0)
    · unfold val_main_v554
      rw [concat4_read1, val_main_v551_apply, colz_6]
      exact cell_read _
    · unfold val_main_v554
      rw [concat4_read2, val_main_v552_apply, coly_6]
      exact cell_read _
    · unfold val_main_v554
      rw [concat4_read3, val_main_v553_apply, colx_6]
      exact cell_read _
  rw [hg]
  rfl

/-! ### Corner 7 -/

theorem off_7_0 : Spec.offG 7 0 = Ideal.ofBits .f32 0x3F800000#32 := off_one_word (by decide)
theorem off_7_1 : Spec.offG 7 1 = Ideal.ofBits .f32 0x3F800000#32 := off_one_word (by decide)
theorem off_7_2 : Spec.offG 7 2 = Ideal.ofBits .f32 0x3F800000#32 := off_one_word (by decide)

/-- The corner's weight at a point. -/
theorem weight_7 (x0 : TX) (x1 : TAdj) (x3 : TW) (j : S8x2048.Idx) :
    val_main_v632 (F := Ideal) x0 x1 x3 j
      = Spec.weightG (Spec.posG x0 x1 x3 (j 0) (j 1) 0) (Spec.posG x0 x1 x3 (j 0) (j 1) 1) (Spec.posG x0 x1 x3 (j 0) (j 1) 2)
          (Spec.offG 7 0) (Spec.offG 7 1) (Spec.offG 7 2) := by
  rw [off_7_0, off_7_1, off_7_2]
  simp only [val_main_v632_apply, val_main_v631_apply, val_main_v581_apply, val_main_v576_apply, val_main_v571_apply, val_main_v575_apply, val_main_v580_apply, val_main_v568_apply, val_main_v569_apply, val_main_cst_195_apply, val_main_v570_apply, val_main_v572_apply, val_main_v573_apply, val_main_cst_196_apply, val_main_v574_apply, val_main_v577_apply, val_main_v578_apply, val_main_cst_197_apply, val_main_v579_apply, val_main_v563_apply, val_main_v562_apply, val_main_cst_192_apply, val_main_v565_apply, val_main_v564_apply, val_main_cst_193_apply, val_main_v567_apply, val_main_v566_apply, val_main_cst_194_apply, val_main_v598_apply, val_main_v595_apply, val_main_v592_apply, val_main_v589_apply, val_main_v586_apply, val_main_v583_apply, val_main_v582_apply, val_main_cst_198_apply, val_main_v585_apply, val_main_v584_apply, val_main_cst_199_apply, val_main_v588_apply, val_main_v587_apply, val_main_cst_200_apply, val_main_v591_apply, val_main_v590_apply, val_main_cst_201_apply, val_main_v594_apply, val_main_v593_apply, val_main_cst_202_apply, val_main_v597_apply, val_main_v596_apply, val_main_cst_203_apply,
    val_main_v30_apply, val_main_v31_apply, val_main_v32_apply, coord0_eq, coord1_eq, coord2_eq]
  exact weight_core _ _ _ _ _ _

/-- The corner's batch column. -/
theorem colb_7 (j : S8x2048.Idx) : val_main_v609 (F := Ideal) j = BitVec.ofNat 32 (j 0).val := by
  simp only [val_main_v609_apply, val_main_v606_apply, val_main_v608_apply, val_main_v605_apply, val_main_c_210_apply, val_main_v607_apply, val_main_c_211_apply, val_main_v35_apply, val_main_v34_apply, val_main_v33_apply]
  exact norm_batch (j 0) _

/-- The corner's cell column along the first grid axis. -/
theorem colz_7 (x0 : TX) (x1 : TAdj) (x3 : TW) (j : S8x2048.Idx) :
    val_main_v614 (F := Ideal) x0 x1 x3 j
      = Ideal.fptosi 32 (Spec.clampG (Spec.lineG (Spec.posG x0 x1 x3 (j 0) (j 1) 2) (Spec.offG 7 2))) := by
  rw [off_7_2]
  simp only [val_main_v614_apply, val_main_v611_apply, val_main_v613_apply, val_main_v610_apply, val_main_c_212_apply, val_main_v612_apply, val_main_c_213_apply, val_main_v604_apply, val_main_v603_apply, val_main_call23_v4_apply, val_main_call23_v3_apply, val_main_c_209_apply, val_main_call23_v2_apply, val_main_call23_v1_apply, val_main_call23_v0_apply, val_main_c_208_apply, val_main_v567_apply, val_main_v566_apply, val_main_cst_194_apply, val_main_v32_apply, coord2_eq]
  exact norm_cell _ _

/-- The corner's cell column along the middle grid axis. -/
theorem coly_7 (x0 : TX) (x1 : TAdj) (x3 : TW) (j : S8x2048.Idx) :
    val_main_v619 (F := Ideal) x0 x1 x3 j
      = Ideal.fptosi 32 (Spec.clampG (Spec.lineG (Spec.posG x0 x1 x3 (j 0) (j 1) 1) (Spec.offG 7 1))) := by
  rw [off_7_1]
  simp only [val_main_v619_apply, val_main_v616_apply, val_main_v618_apply, val_main_v615_apply, val_main_c_214_apply, val_main_v617_apply, val_main_c_215_apply, val_main_v602_apply, val_main_v601_apply, val_main_call22_v4_apply, val_main_call22_v3_apply, val_main_c_207_apply, val_main_call22_v2_apply, val_main_call22_v1_apply, val_main_call22_v0_apply, val_main_c_206_apply, val_main_v565_apply, val_main_v564_apply, val_main_cst_193_apply, val_main_v31_apply, coord1_eq]
  exact norm_cell _ _

/-- The corner's cell column along the last grid axis. -/
theorem colx_7 (x0 : TX) (x1 : TAdj) (x3 : TW) (j : S8x2048.Idx) :
    val_main_v624 (F := Ideal) x0 x1 x3 j
      = Ideal.fptosi 32 (Spec.clampG (Spec.lineG (Spec.posG x0 x1 x3 (j 0) (j 1) 0) (Spec.offG 7 0))) := by
  rw [off_7_0]
  simp only [val_main_v624_apply, val_main_v621_apply, val_main_v623_apply, val_main_v620_apply, val_main_c_216_apply, val_main_v622_apply, val_main_c_217_apply, val_main_v600_apply, val_main_v599_apply, val_main_call21_v4_apply, val_main_call21_v3_apply, val_main_c_205_apply, val_main_call21_v2_apply, val_main_call21_v1_apply, val_main_call21_v0_apply, val_main_c_204_apply, val_main_v563_apply, val_main_v562_apply, val_main_cst_192_apply, val_main_v30_apply, coord0_eq]
  exact norm_cell _ _

/-- The corner's contribution to a channel of a point. -/
theorem term_7 (x0 : TX) (x1 : TAdj) (x2 : TConv) (x3 : TW) (i : S8x2048x128.Idx) :
    val_main_v635 (F := Ideal) x0 x1 x2 x3 i
      = Spec.termG x2 (i 0) (i 2) (Spec.posG x0 x1 x3 (i 0) (i 1) 0) (Spec.posG x0 x1 x3 (i 0) (i 1) 1)
          (Spec.posG x0 x1 x3 (i 0) (i 1) 2) (Spec.offG 7 0) (Spec.offG 7 1) (Spec.offG 7 2) := by
  rw [val_main_v635_apply, val_main_v634_apply, val_main_v633_apply, weight_7]
  have hg : val_main_v630 (F := Ideal) x0 x1 x2 x3 i
      = x2 (ix5 (n0 := 8) (n1 := 128) (n2 := 32) (n3 := 32) (n4 := 32) (i 0) (i 2)
          (Spec.cellG (Spec.lineG (Spec.posG x0 x1 x3 (i 0) (i 1) 2) (Spec.offG 7 2)))
          (Spec.cellG (Spec.lineG (Spec.posG x0 x1 x3 (i 0) (i 1) 1) (Spec.offG 7 1)))
          (Spec.cellG (Spec.lineG (Spec.posG x0 x1 x3 (i 0) (i 1) 0) (Spec.offG 7 0)))) := by
    unfold val_main_v630
    refine gather_read x2 _ i (i 0) _ _ _ ?_ ?_ ?_ ?_
    · unfold val_main_v629
      rw [concat4_read0, val_main_v625_apply, colb_7]
      exact batch_read (i 0)
    · unfold val_main_v629
      rw [concat4_read1, val_main_v626_apply, colz_7]
      exact cell_read _
    · unfold val_main_v629
      rw [concat4_read2, val_main_v627_apply, coly_7]
      exact cell_read _
    · unfold val_main_v629
      rw [concat4_read3, val_main_v628_apply, colx_7]
      exact cell_read _
  rw [hg]
  rfl

end Cert.Proof.RefValue

end
-- ==== Proof.RefValue.lean ====
/-
  The reference's two results are the specification's: the sampled value of a channel is the sum
  of the eight corners' contributions, and the first result joins x, the sampled values and the
  positions along the last axis.
-/
import proofs.«209143_g59700045415095_cont_9to1_m_37_38_alg».proof.Proof.RefValue.Corners

noncomputable section

open scoped BigOperators

namespace Cert.Proof.RefValue

open Cert.ReferenceIdeal Cert.ReferenceIdeal.Gen Cert.ReferenceIdeal.Read Idealize.ShloMosaic Idealize.ShloMosaic.ValueIdx Cert.Proof

/-! ## The sampled values -/

/-- The eight corners' contributions, added up from zero in the corners' order, are the
    specification's sampled value. -/
theorem skip_eq (x0 : TX) (x1 : TAdj) (x2 : TConv) (x3 : TW) (i : S8x2048x128.Idx) :
    val_main_v636 (F := Ideal) x0 x1 x2 x3 i = Spec.skipG x0 x1 x2 x3 (i 0) (i 1) (i 2) := by
  rw [val_main_v636_apply, val_main_v561_apply, val_main_v486_apply, val_main_v411_apply, val_main_v336_apply,
    val_main_v261_apply, val_main_v186_apply, val_main_v111_apply, val_main_v36_apply, val_main_cst_10_apply,
    term_0, term_1, term_2, term_3, term_4, term_5, term_6, term_7]
  rw [show FloatOps.ofBits (F := Ideal) .f32 0x00000000#32 = (0 : EReal) from Ideal.ofBits_zero_f32]
  exact Spec.sum8_fold (fun k => Spec.termG x2 (i 0) (i 2) (Spec.posG x0 x1 x3 (i 0) (i 1) 0)
    (Spec.posG x0 x1 x3 (i 0) (i 1) 1) (Spec.posG x0 x1 x3 (i 0) (i 1) 2) (Spec.offG k 0) (Spec.offG k 1) (Spec.offG k 2))

/-! ## The first result: the three pieces joined along the last axis -/

/-- The first result is the specification's. -/
theorem ref_out0 (x0 : TX) (x1 : TAdj) (x2 : TConv) (x3 : TW) :
    val_main_v637 (F := Ideal) x0 x1 x2 x3 = Spec.out0G x0 x1 x2 x3 := by
  funext i
  have h259 : (i 2).val < 259 := (i 2).isLt
  unfold val_main_v637
  by_cases h : (i 2).val < 128
  · have e : Spec.out0G x0 x1 x2 x3 i
        = x0 (ix3 (n0 := 8) (n1 := 2048) (n2 := 128) (i 0) (i 1) ⟨(i 2).val, h⟩) := by
      unfold Spec.out0G
      simp only [dif_pos h]
    rw [e]
    exact concatenate_apply_piece 2 _ _ i 0 (by show (0 : ℕ) < 3; decide) S8x2048x128 x0 rfl rfl 0 rfl _
      (fun b hb => by
        match b with
        | ⟨0, _⟩ => rfl
        | ⟨1, _⟩ => rfl
        | ⟨2, _⟩ => exact absurd rfl hb)
      (by show 0 + (i 2).val = (i 2).val; omega)
  · by_cases h' : (i 2).val < 256
    · have e : Spec.out0G x0 x1 x2 x3 i
          = Spec.skipG x0 x1 x2 x3 (i 0) (i 1) ⟨(i 2).val - 128, by omega⟩ := by
        unfold Spec.out0G
        simp only [dif_neg h, dif_pos h']
      rw [e]
      refine Eq.trans ?_ (skip_eq x0 x1 x2 x3
        (ix3 (n0 := 8) (n1 := 2048) (n2 := 128) (i 0) (i 1) ⟨(i 2).val - 128, by omega⟩))
      exact concatenate_apply_piece 2 _ _ i 1 (by show (1 : ℕ) < 3; decide) S8x2048x128
        (val_main_v636 (F := Ideal) x0 x1 x2 x3) rfl rfl 128 rfl _
        (fun b hb => by
          match b with
          | ⟨0, _⟩ => rfl
          | ⟨1, _⟩ => rfl
          | ⟨2, _⟩ => exact absurd rfl hb)
        (by show 128 + ((i 2).val - 128) = (i 2).val; omega)
    · have e : Spec.out0G x0 x1 x2 x3 i
          = Spec.posG x0 x1 x3 (i 0) (i 1) ⟨(i 2).val - 256, by omega⟩ := by
        unfold Spec.out0G
        simp only [dif_neg h, dif_neg h']
      rw [e]
      refine Eq.trans ?_ (pos_eq x0 x1 x3
        (ix3 (n0 := 8) (n1 := 2048) (n2 := 3) (i 0) (i 1) ⟨(i 2).val - 256, by omega⟩))
      exact concatenate_apply_piece 2 _ _ i 2 (by show (2 : ℕ) < 3; decide) S8x2048x3
        (val_main_v1 (F := Ideal) x0 x1 x3) rfl rfl 256 rfl _
        (fun b hb => by
          match b with
          | ⟨0, _⟩ => rfl
          | ⟨1, _⟩ => rfl
          | ⟨2, _⟩ => exact absurd rfl hb)
        (by show 256 + ((i 2).val - 256) = (i 2).val; omega)

end Cert.Proof.RefValue

end
-- ==== Proof.lean ====
/- The five claims of the certificate.

   What is computed. A point cloud of 8 batches of 2048 points carries 128 features per point; each point's position is
   two matrix products (the adjacency's rows against the features, then against a 128 × 3 projection). A position is
   turned into a cell of a 32 × 32 × 32 voxel grid of 128 channels per batch: each coordinate i = ((2·p − 1) + 1)·15.5 has
   the two neighbouring grid planes ⌊i⌋ and ⌊i⌋ + 1, the eight corners of the cell get the trilinear weights (a product of
   three factors 1 − |i − plane|, times 0 where a corner lies outside the grid and 1 otherwise), and each corner gets the
   row number ((b·32 + z)·32 + y)·32 + x of its voxel, each plane clamped into [0, 31], in the volume laid out as a table
   of 262144 rows of 128 channels. That much is done on the TensorCore, on a grid
   of 8 × 4 blocks of 512 points. The thirty-two SparseCore workers then form, for each of their 512 points and each
   channel, the sum over the eight corners of weight times table row, in the order ((t0 + t1) + (t2 + t3)) + ((t4 + t5) +
   (t6 + t7)); the first result is the features, these sums and the positions side by side, the second the positions.

   Why the claims hold. The program as printed and its idealization are one text read at two float families. Each runs:
   every weakly fair execution of its thirty-five threads terminates, nothing faulting, the first result at one closed
   term of the four arguments, the positions at the region's, the arguments unchanged; a frame is that run with the two
   results dropped. An indexed copy whose index names no row never completes, so each run needs every corner row number
   below 262144, at the word level as on the extended reals: the batch number is below 8 and a coordinate clamped to
   [0, 31] converts to one of 0, …, 31 whatever the operand, a NaN or an infinity included, so the row number is below
   8·32³ and no word wraps. The reference's run is read stage by stage: each result is its own stage of the arguments.
   On the extended reals both sides are, at every index, the same sum of eight corner terms — the reference adds them up
   from zero in the corners' order, the kernel in a balanced tree, and addition of extended reals is associative and
   commutative, so the two groupings are one sum; the reference's coordinate ((…) + 1)·31 / 2 is the kernel's
   ((…) + 1)·15.5 on every extended real — and the same positions, so from memories that agree on the arguments the two
   programs end equal. The idealization rewrote no operation, so
   nothing is owed for it. -/
import proofs.«209143_g59700045415095_cont_9to1_m_37_38_alg».proof.Defs
import proofs.«209143_g59700045415095_cont_9to1_m_37_38_alg».proof.Proof.Gen.Kernel
import proofs.«209143_g59700045415095_cont_9to1_m_37_38_alg».proof.Proof.Gen.Kernel.Skeleton
import proofs.«209143_g59700045415095_cont_9to1_m_37_38_alg».proof.Proof.Gen.Kernel.Launch
import proofs.«209143_g59700045415095_cont_9to1_m_37_38_alg».proof.Proof.Gen.Kernel.Points
import proofs.«209143_g59700045415095_cont_9to1_m_37_38_alg».proof.Proof.Gen.KernelIdeal
import proofs.«209143_g59700045415095_cont_9to1_m_37_38_alg».proof.Proof.Gen.KernelIdeal.Skeleton
import proofs.«209143_g59700045415095_cont_9to1_m_37_38_alg».proof.Proof.Gen.KernelIdeal.Launch
import proofs.«209143_g59700045415095_cont_9to1_m_37_38_alg».proof.Proof.Gen.KernelIdeal.Points
import proofs.«209143_g59700045415095_cont_9to1_m_37_38_alg».proof.Proof.Gen.ReferenceIdeal
import proofs.«209143_g59700045415095_cont_9to1_m_37_38_alg».proof.Proof.Gen.Pre_finite_inputs
import proofs.«209143_g59700045415095_cont_9to1_m_37_38_alg».proof.Proof.KI.Main
import proofs.«209143_g59700045415095_cont_9to1_m_37_38_alg».proof.Proof.KB.Main
import proofs.«209143_g59700045415095_cont_9to1_m_37_38_alg».proof.Proof.KI.Value
import proofs.«209143_g59700045415095_cont_9to1_m_37_38_alg».proof.Proof.Ref.Run
import proofs.«209143_g59700045415095_cont_9to1_m_37_38_alg».proof.Proof.RefValue
import proofs.«209143_g59700045415095_cont_9to1_m_37_38_alg».proof.Proof.Spec
import proofs.«209143_g59700045415095_cont_9to1_m_37_38_alg».proof.Proof.Clamp
import Idealize.ShloMosaic.Adequacy
import Idealize.ShloMosaic.Init

noncomputable section

namespace Cert.Proof

open Idealize.ShloMosaic Idealize.SL.Sem

/-- The program as printed runs and leaves its arguments unchanged: its run with the two results dropped. -/
theorem frame_k : Cert.frame_Kernel := fun m ρ _ =>
  (θ_run Cert.Kernel.defs _ _).mono (fun _ h c => (h c).2.2) (Cert.Proof.KB.run (F := Bits) m ρ)

/-- The idealized program runs and leaves its arguments unchanged. -/
theorem frame_ki : Cert.frame_KernelIdeal := fun m ρ _ =>
  (θ_run Cert.KernelIdeal.defs _ _).mono (fun _ h c => (h c).2.2) (Cert.Proof.KI.run (F := Ideal) m ρ)

/-- The reference runs and leaves its arguments unchanged. -/
theorem frame_ri : Cert.frame_ReferenceIdeal := fun m ρ _ =>
  (θ_run Cert.ReferenceIdeal.defs _ _).mono (fun _ h c => (h c).2.2) (Cert.Proof.Ref.run (F := Ideal) m ρ)

/-- The first result's closed term is written twice, for the launch and for the value proof: one term. -/
theorem out0K_bridge (x : FVec Ideal Cert.KernelIdeal.S8x2048x128 .f32) (adj : FVec Ideal Cert.KernelIdeal.S8x2048x2048 .f32)
    (conv : FVec Ideal Cert.KernelIdeal.S8x128x32x32x32 .f32) (W : FVec Ideal Cert.KernelIdeal.S128x3 .f32) :
    Cert.Proof.KI.out0K x adj conv W = Cert.Proof.KI.Value.out0K x adj conv W := rfl

/-- On the extended reals the idealized kernel and the reference end at the same two arrays, the specification's:
    features, trilinearly sampled volume and positions side by side, and the positions. -/
theorem algebraic : Cert.algebraic_KernelIdeal_ReferenceIdeal := by
  intro m ρ m' ρ' _ hagree
  refine ⟨fun c => Spec.out0G (m (Cert.Proof.KI.a0Loc c)) (m (Cert.Proof.KI.a1Loc c)) (m (Cert.Proof.KI.a2Loc c)) (m (Cert.Proof.KI.a3Loc c)),
    fun c => Spec.out1G (m (Cert.Proof.KI.a0Loc c)) (m (Cert.Proof.KI.a1Loc c)) (m (Cert.Proof.KI.a3Loc c)), ?_, ?_⟩
  · refine (θ_run Cert.KernelIdeal.defs _ _).mono (fun _ h c => ⟨(h c).1.trans ?_, (h c).2.1.trans ?_, (h c).2.2⟩)
      (Cert.Proof.KI.run (F := Ideal) m ρ)
    · exact (out0K_bridge _ _ _ _).trans (Cert.Proof.KI.Value.out0K_eq _ _ _ _)
    · exact Cert.Proof.KI.Value.posV_eq _ _ _
  · refine (θ_run Cert.ReferenceIdeal.defs _ _).mono (fun _ h c => ⟨(h c).1.trans ?_, (h c).2.1.trans ?_, (h c).2.2⟩)
      (Cert.Proof.Ref.run (F := Ideal) m' ρ')
    · rw [(hagree c).1, (hagree c).2.1, (hagree c).2.2.1, (hagree c).2.2.2]
      exact Cert.Proof.RefValue.ref_out0 _ _ _ _
    · rw [(hagree c).1, (hagree c).2.1, (hagree c).2.2.2]
      exact Cert.Proof.RefValue.ref_out1 _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
